-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v123) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_v358) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32768x2048 : Shape := ⟨2, ![32768, 2048]⟩
abbrev S32768x2 : Shape := ⟨2, ![32768, 2]⟩
abbrev S2048x512 : Shape := ⟨2, ![2048, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S2x51x151 : Shape := ⟨3, ![2, 51, 151]⟩
abbrev S2x151 : Shape := ⟨2, ![2, 151]⟩
abbrev S2x151x51 : Shape := ⟨3, ![2, 151, 51]⟩
abbrev S2x51 : Shape := ⟨2, ![2, 51]⟩
abbrev S512x151 : Shape := ⟨2, ![512, 151]⟩
abbrev S151 : Shape := ⟨1, ![151]⟩
abbrev S512x51 : Shape := ⟨2, ![512, 51]⟩
abbrev S51 : Shape := ⟨1, ![51]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S2x51x151 : S_.BroadcastsInDim S2x51x151 (![] : Fin 0 → Fin S2x51x151.rank)
  reducesTo_S2x51x151_S_d0_1_2 : S2x51x151.ReducesTo [0, 1, 2] S_
  bcast_S_S2x151 : S_.BroadcastsInDim S2x151 (![] : Fin 0 → Fin S2x151.rank)
  reducesTo_S2x151_S_d0_1 : S2x151.ReducesTo [0, 1] S_
  bcast_S_S2x151x51 : S_.BroadcastsInDim S2x151x51 (![] : Fin 0 → Fin S2x151x51.rank)
  reducesTo_S2x151x51_S_d0_1_2 : S2x151x51.ReducesTo [0, 1, 2] S_
  bcast_S_S2x51 : S_.BroadcastsInDim S2x51 (![] : Fin 0 → Fin S2x51.rank)
  reducesTo_S2x51_S_d0_1 : S2x51.ReducesTo [0, 1] S_
  bcast_S_S512x151 : S_.BroadcastsInDim S512x151 (![] : Fin 0 → Fin S512x151.rank)
  reducesTo_S512x151_S_d0_1 : S512x151.ReducesTo [0, 1] S_
  bcast_S_S151 : S_.BroadcastsInDim S151 (![] : Fin 0 → Fin S151.rank)
  reducesTo_S151_S_d0 : S151.ReducesTo [0] S_
  bcast_S_S512x51 : S_.BroadcastsInDim S512x51 (![] : Fin 0 → Fin S512x51.rank)
  reducesTo_S512x51_S_d0_1 : S512x51.ReducesTo [0, 1] S_
  bcast_S_S51 : S_.BroadcastsInDim S51 (![] : Fin 0 → Fin S51.rank)
  reducesTo_S51_S_d0 : S51.ReducesTo [0] S_
  bcast_S_S32768x2 : S_.BroadcastsInDim S32768x2 (![] : Fin 0 → Fin S32768x2.rank)
  reducesTo_S32768x2_S_d0_1 : S32768x2.ReducesTo [0, 1] S_

variable [Facts]

def fn_part6 {F : FTy → Type} [FloatOps F] (main_arg2 : IVec S32768x2 32) (main_v98 : IVec S_ 1) (main_v100 : IVec S32768x2 1) (main_v101 : IVec S32768x2 32) : IVec S_ 1 :=
  let main_v102 : IVec S32768x2 1 := cmpi .slt main_arg2 main_v101
  let main_v103 : IVec S32768x2 1 := andi main_v100 main_v102
  let main_c_40 : IVec S_ 1 := constantI S_ 1 1#1
  let main_v104 : IVec S_ 1 := (fun x v => Host.reduce IntOp.andi x v reducesTo_S32768x2_S_d0_1 h_S_) main_v103 main_c_40
  let main_v105 : IVec S_ 1 := andi main_v98 main_v104
  main_v105

def fn_part5 {F : FTy → Type} [FloatOps F] (main_arg2 : IVec S32768x2 32) (main_arg19 : FVec F S512x51 .f32) (main_arg20 : FVec F S51 .f32) (main_v83 : IVec S_ 1) (main_v84 : FVec F S151 .f32) (main_cst_32 : FVec F S_ .f32) : IVec S_ 1 :=
  let main_v85 : FVec F S151 .f32 := broadcastInDim S151 ![] bcast_S_S151 main_cst_32
  let main_v86 : IVec S151 1 := cmpf .olt main_v84 main_v85
  let main_c_33 : IVec S_ 1 := constantI S_ 1 1#1
  let main_v87 : IVec S_ 1 := (fun x v => Host.reduce IntOp.andi x v reducesTo_S151_S_d0 h_S_) main_v86 main_c_33
  let main_v88 : IVec S_ 1 := andi main_v83 main_v87
  let main_v89 : FVec F S512x51 .f32 := Host.absf main_arg19
  let main_cst_34 : FVec F S_ .f32 := constant S_ .f32 0x7F800000#32
  let main_v90 : FVec F S512x51 .f32 := broadcastInDim S512x51 ![] bcast_S_S512x51 main_cst_34
  let main_v91 : IVec S512x51 1 := cmpf .olt main_v89 main_v90
  let main_c_35 : IVec S_ 1 := constantI S_ 1 1#1
  let main_v92 : IVec S_ 1 := (fun x v => Host.reduce IntOp.andi x v reducesTo_S512x51_S_d0_1 h_S_) main_v91 main_c_35
  let main_v93 : IVec S_ 1 := andi main_v88 main_v92
  let main_v94 : FVec F S51 .f32 := Host.absf main_arg20
  let main_cst_36 : FVec F S_ .f32 := constant S_ .f32 0x7F800000#32
  let main_v95 : FVec F S51 .f32 := broadcastInDim S51 ![] bcast_S_S51 main_cst_36
  let main_v96 : IVec S51 1 := cmpf .olt main_v94 main_v95
  let main_c_37 : IVec S_ 1 := constantI S_ 1 1#1
  let main_v97 : IVec S_ 1 := (fun x v => Host.reduce IntOp.andi x v reducesTo_S51_S_d0 h_S_) main_v96 main_c_37
  let main_v98 : IVec S_ 1 := andi main_v93 main_v97
  let main_c_38 : IVec S_ 32 := constantI S_ 32 0#32
  let main_v99 : IVec S32768x2 32 := broadcastInDim S32768x2 ![] bcast_S_S32768x2 main_c_38
  let main_v100 : IVec S32768x2 1 := cmpi .sge main_arg2 main_v99
  let main_c_39 : IVec S_ 32 := constantI S_ 32 2048#32
  let main_v101 : IVec S32768x2 32 := broadcastInDim S32768x2 ![] bcast_S_S32768x2 main_c_39
  fn_part6 (F := F) main_arg2 main_v98 main_v100 main_v101

def fn_part4 {F : FTy → Type} [FloatOps F] (main_arg2 : IVec S32768x2 32) (main_arg15 : FVec F S2x151x51 .f32) (main_arg16 : FVec F S2x51 .f32) (main_arg17 : FVec F S512x151 .f32) (main_arg18 : FVec F S151 .f32) (main_arg19 : FVec F S512x51 .f32) (main_arg20 : FVec F S51 .f32) (main_v63 : IVec S_ 1) (main_v67 : IVec S_ 1) : IVec S_ 1 :=
  let main_v68 : IVec S_ 1 := andi main_v63 main_v67
  let main_v69 : FVec F S2x151x51 .f32 := Host.absf main_arg15
  let main_cst_26 : FVec F S_ .f32 := constant S_ .f32 0x7F800000#32
  let main_v70 : FVec F S2x151x51 .f32 := broadcastInDim S2x151x51 ![] bcast_S_S2x151x51 main_cst_26
  let main_v71 : IVec S2x151x51 1 := cmpf .olt main_v69 main_v70
  let main_c_27 : IVec S_ 1 := constantI S_ 1 1#1
  let main_v72 : IVec S_ 1 := (fun x v => Host.reduce IntOp.andi x v reducesTo_S2x151x51_S_d0_1_2 h_S_) main_v71 main_c_27
  let main_v73 : IVec S_ 1 := andi main_v68 main_v72
  let main_v74 : FVec F S2x51 .f32 := Host.absf main_arg16
  let main_cst_28 : FVec F S_ .f32 := constant S_ .f32 0x7F800000#32
  let main_v75 : FVec F S2x51 .f32 := broadcastInDim S2x51 ![] bcast_S_S2x51 main_cst_28
  let main_v76 : IVec S2x51 1 := cmpf .olt main_v74 main_v75
  let main_c_29 : IVec S_ 1 := constantI S_ 1 1#1
  let main_v77 : IVec S_ 1 := (fun x v => Host.reduce IntOp.andi x v reducesTo_S2x51_S_d0_1 h_S_) main_v76 main_c_29
  let main_v78 : IVec S_ 1 := andi main_v73 main_v77
  let main_v79 : FVec F S512x151 .f32 := Host.absf main_arg17
  let main_cst_30 : FVec F S_ .f32 := constant S_ .f32 0x7F800000#32
  let main_v80 : FVec F S512x151 .f32 := broadcastInDim S512x151 ![] bcast_S_S512x151 main_cst_30
  let main_v81 : IVec S512x151 1 := cmpf .olt main_v79 main_v80
  let main_c_31 : IVec S_ 1 := constantI S_ 1 1#1
  let main_v82 : IVec S_ 1 := (fun x v => Host.reduce IntOp.andi x v reducesTo_S512x151_S_d0_1 h_S_) main_v81 main_c_31
  let main_v83 : IVec S_ 1 := andi main_v78 main_v82
  let main_v84 : FVec F S151 .f32 := Host.absf main_arg18
  let main_cst_32 : FVec F S_ .f32 := constant S_ .f32 0x7F800000#32
  fn_part5 (F := F) main_arg2 main_arg19 main_arg20 main_v83 main_v84 main_cst_32

def fn_part3 {F : FTy → Type} [FloatOps F] (main_arg2 : IVec S32768x2 32) (main_arg12 : FVec F S4x512 .f32) (main_arg13 : FVec F S2x51x151 .f32) (main_arg14 : FVec F S2x151 .f32) (main_arg15 : FVec F S2x151x51 .f32) (main_arg16 : FVec F S2x51 .f32) (main_arg17 : FVec F S512x151 .f32) (main_arg18 : FVec F S151 .f32) (main_arg19 : FVec F S512x51 .f32) (main_arg20 : FVec F S51 .f32) (main_v48 : IVec S_ 1) (main_v49 : FVec F S4x512x512 .f32) (main_v50 : FVec F S4x512x512 .f32) : IVec S_ 1 :=
  let main_v51 : IVec S4x512x512 1 := cmpf .olt main_v49 main_v50
  let main_c_19 : IVec S_ 1 := constantI S_ 1 1#1
  let main_v52 : IVec S_ 1 := (fun x v => Host.reduce IntOp.andi x v reducesTo_S4x512x512_S_d0_1_2 h_S_) main_v51 main_c_19
  let main_v53 : IVec S_ 1 := andi main_v48 main_v52
  let main_v54 : FVec F S4x512 .f32 := Host.absf main_arg12
  let main_cst_20 : FVec F S_ .f32 := constant S_ .f32 0x7F800000#32
  let main_v55 : FVec F S4x512 .f32 := broadcastInDim S4x512 ![] bcast_S_S4x512 main_cst_20
  let main_v56 : IVec S4x512 1 := cmpf .olt main_v54 main_v55
  let main_c_21 : IVec S_ 1 := constantI S_ 1 1#1
  let main_v57 : IVec S_ 1 := (fun x v => Host.reduce IntOp.andi x v reducesTo_S4x512_S_d0_1 h_S_) main_v56 main_c_21
  let main_v58 : IVec S_ 1 := andi main_v53 main_v57
  let main_v59 : FVec F S2x51x151 .f32 := Host.absf main_arg13
  let main_cst_22 : FVec F S_ .f32 := constant S_ .f32 0x7F800000#32
  let main_v60 : FVec F S2x51x151 .f32 := broadcastInDim S2x51x151 ![] bcast_S_S2x51x151 main_cst_22
  let main_v61 : IVec S2x51x151 1 := cmpf .olt main_v59 main_v60
  let main_c_23 : IVec S_ 1 := constantI S_ 1 1#1
  let main_v62 : IVec S_ 1 := (fun x v => Host.reduce IntOp.andi x v reducesTo_S2x51x151_S_d0_1_2 h_S_) main_v61 main_c_23
  let main_v63 : IVec S_ 1 := andi main_v58 main_v62
  let main_v64 : FVec F S2x151 .f32 := Host.absf main_arg14
  let main_cst_24 : FVec F S_ .f32 := constant S_ .f32 0x7F800000#32
  let main_v65 : FVec F S2x151 .f32 := broadcastInDim S2x151 ![] bcast_S_S2x151 main_cst_24
  let main_v66 : IVec S2x151 1 := cmpf .olt main_v64 main_v65
  let main_c_25 : IVec S_ 1 := constantI S_ 1 1#1
  let main_v67 : IVec S_ 1 := (fun x v => Host.reduce IntOp.andi x v reducesTo_S2x151_S_d0_1 h_S_) main_v66 main_c_25
  fn_part4 (F := F) main_arg2 main_arg15 main_arg16 main_arg17 main_arg18 main_arg19 main_arg20 main_v63 main_v67

def fn_part2 {F : FTy → Type} [FloatOps F] (main_arg2 : IVec S32768x2 32) (main_arg8 : FVec F S512 .f32) (main_arg9 : FVec F S512x512 .f32) (main_arg10 : FVec F S512 .f32) (main_arg11 : FVec F S4x512x512 .f32) (main_arg12 : FVec F S4x512 .f32) (main_arg13 : FVec F S2x51x151 .f32) (main_arg14 : FVec F S2x151 .f32) (main_arg15 : FVec F S2x151x51 .f32) (main_arg16 : FVec F S2x51 .f32) (main_arg17 : FVec F S512x151 .f32) (main_arg18 : FVec F S151 .f32) (main_arg19 : FVec F S512x51 .f32) (main_arg20 : FVec F S51 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S4x512x512 .f32 := Host.absf main_arg11
  let main_cst_18 : FVec F S_ .f32 := constant S_ .f32 0x7F800000#32
  let main_v50 : FVec F S4x512x512 .f32 := broadcastInDim S4x512x512 ![] bcast_S_S4x512x512 main_cst_18
  fn_part3 (F := F) main_arg2 main_arg12 main_arg13 main_arg14 main_arg15 main_arg16 main_arg17 main_arg18 main_arg19 main_arg20 main_v48 main_v49 main_v50

def fn_part1 {F : FTy → Type} [FloatOps F] (main_arg2 : IVec S32768x2 32) (main_arg5 : FVec F S512x512 .f32) (main_arg6 : FVec F S512 .f32) (main_arg7 : FVec F S2048x512 .f32) (main_arg8 : FVec F S512 .f32) (main_arg9 : FVec F S512x512 .f32) (main_arg10 : FVec F S512 .f32) (main_arg11 : FVec F S4x512x512 .f32) (main_arg12 : FVec F S4x512 .f32) (main_arg13 : FVec F S2x51x151 .f32) (main_arg14 : FVec F S2x151 .f32) (main_arg15 : FVec F S2x151x51 .f32) (main_arg16 : FVec F S2x51 .f32) (main_arg17 : FVec F S512x151 .f32) (main_arg18 : FVec F S151 .f32) (main_arg19 : FVec F S512x51 .f32) (main_arg20 : FVec F S51 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2048x512 .f32 := Host.absf main_arg7
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S2048x2048 .f32) (main_arg1 : FVec F S32768x2048 .f32) (main_arg2 : IVec S32768x2 32) (main_arg3 : FVec F S2048x512 .f32) (main_arg4 : FVec F S512 .f32) (main_arg5 : FVec F S512x512 .f32) (main_arg6 : FVec F S512 .f32) (main_arg7 : FVec F S2048x512 .f32) (main_arg8 : FVec F S512 .f32) (main_arg9 : FVec F S512x512 .f32) (main_arg10 : FVec F S512 .f32) (main_arg11 : FVec F S4x512x512 .f32) (main_arg12 : FVec F S4x512 .f32) (main_arg13 : FVec F S2x51x151 .f32) (main_arg14 : FVec F S2x151 .f32) (main_arg15 : FVec F S2x151x51 .f32) (main_arg16 : FVec F S2x51 .f32) (main_arg17 : FVec F S512x151 .f32) (main_arg18 : FVec F S151 .f32) (main_arg19 : FVec F S512x51 .f32) (main_arg20 : FVec F S51 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2048x2048 : Shape := ⟨2, ![2048, 2048]⟩
abbrev S32768x2048 : Shape := ⟨2, ![32768, 2048]⟩
abbrev S32768x2 : Shape := ⟨2, ![32768, 2]⟩
abbrev S2048x512 : Shape := ⟨2, ![2048, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S2x51x151 : Shape := ⟨3, ![2, 51, 151]⟩
abbrev S2x151 : Shape := ⟨2, ![2, 151]⟩
abbrev S2x151x51 : Shape := ⟨3, ![2, 151, 51]⟩
abbrev S2x51 : Shape := ⟨2, ![2, 51]⟩
abbrev S512x151 : Shape := ⟨2, ![512, 151]⟩
abbrev S151 : Shape := ⟨1, ![151]⟩
abbrev S512x51 : Shape := ⟨2, ![512, 51]⟩
abbrev S51 : Shape := ⟨1, ![51]⟩
abbrev S32768x1 : Shape := ⟨2, ![32768, 1]⟩
abbrev S32768 : Shape := ⟨1, ![32768]⟩
abbrev S1x32768 : Shape := ⟨2, ![1, 32768]⟩
abbrev S1x512 : Shape := ⟨2, ![1, 512]⟩
abbrev S512x2048 : Shape := ⟨2, ![512, 2048]⟩
abbrev S32768x512 : Shape := ⟨2, ![32768, 512]⟩
abbrev S1x512x512 : Shape := ⟨3, ![1, 512, 512]⟩
abbrev S1024x512 : Shape := ⟨2, ![1024, 512]⟩
abbrev S1024x1 : Shape := ⟨2, ![1024, 1]⟩
abbrev S1024 : Shape := ⟨1, ![1024]⟩
abbrev S512x1 : Shape := ⟨2, ![512, 1]⟩
abbrev S_ : Shape := ⟨0, ![]⟩
abbrev S512x256 : Shape := ⟨2, ![512, 256]⟩
abbrev S256 : Shape := ⟨1, ![256]⟩
abbrev S512x128 : Shape := ⟨2, ![512, 128]⟩
abbrev S128 : Shape := ⟨1, ![128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S1x256 : Shape := ⟨2, ![1, 256]⟩
abbrev S2048x256 : Shape := ⟨2, ![2048, 256]⟩
abbrev S1x128 : Shape := ⟨2, ![1, 128]⟩
abbrev S32768x128 : Shape := ⟨2, ![32768, 128]⟩
abbrev S1x128x256 : Shape := ⟨3, ![1, 128, 256]⟩
abbrev S128x256 : Shape := ⟨2, ![128, 256]⟩
abbrev S1024x256 : Shape := ⟨2, ![1024, 256]⟩
abbrev S1x256x128 : Shape := ⟨3, ![1, 256, 128]⟩
abbrev S256x128 : Shape := ⟨2, ![256, 128]⟩
abbrev S2048x128 : Shape := ⟨2, ![2048, 128]⟩
abbrev S2048x151 : Shape := ⟨2, ![2048, 151]⟩
abbrev S32768x51 : Shape := ⟨2, ![32768, 51]⟩

abbrev nBuf : Space → Nat
  | .hbm => 161
  | .vmem => 188
  | .smem => 0
  | _ => 0

abbrev hbmTy0_0 (i : Nat) : BufTy := match i % 128 with
  | 0 => ⟨S2048x2048, .f32⟩
  | 1 => ⟨S32768x2048, .f32⟩
  | 2 => ⟨S32768x2, .i32⟩
  | 3 => ⟨S2048x512, .f32⟩
  | 4 => ⟨S512, .f32⟩
  | 5 => ⟨S512x512, .f32⟩
  | 6 => ⟨S512, .f32⟩
  | 7 => ⟨S2048x512, .f32⟩
  | 8 => ⟨S512, .f32⟩
  | 9 => ⟨S512x512, .f32⟩
  | 10 => ⟨S512, .f32⟩
  | 11 => ⟨S4x512x512, .f32⟩
  | 12 => ⟨S4x512, .f32⟩
  | 13 => ⟨S2x51x151, .f32⟩
  | 14 => ⟨S2x151, .f32⟩
  | 15 => ⟨S2x151x51, .f32⟩
  | 16 => ⟨S2x51, .f32⟩
  | 17 => ⟨S512x151, .f32⟩
  | 18 => ⟨S151, .f32⟩
  | 19 => ⟨S512x51, .f32⟩
  | 20 => ⟨S51, .f32⟩
  | 21 => ⟨S32768x1, .i32⟩
  | 22 => ⟨S32768, .i32⟩
  | 23 => ⟨S32768x1, .i32⟩
  | 24 => ⟨S32768, .i32⟩
  | 25 => ⟨S1x32768, .i32⟩
  | 26 => ⟨S1x32768, .i32⟩
  | 27 => ⟨S32768x1, .i32⟩
  | 28 => ⟨S32768x1, .i32⟩
  | 29 => ⟨S1x512, .f32⟩
  | 30 => ⟨S1x512, .f32⟩
  | 31 => ⟨S2048x512, .f32⟩
  | 32 => ⟨S1x512, .f32⟩
  | 33 => ⟨S1x512, .f32⟩
  | 34 => ⟨S32768x512, .f32⟩
  | 35 => ⟨S1x512x512, .f32⟩
  | 36 => ⟨S512x512, .f32⟩
  | 37 => ⟨S1x512, .f32⟩
  | 38 => ⟨S512, .f32⟩
  | 39 => ⟨S1x512x512, .f32⟩
  | 40 => ⟨S512x512, .f32⟩
  | 41 => ⟨S1x512, .f32⟩
  | 42 => ⟨S512, .f32⟩
  | 43 => ⟨S1x512, .f32⟩
  | 44 => ⟨S1x512, .f32⟩
  | 45 => ⟨S2048x512, .f32⟩
  | 46 => ⟨S1x512x512, .f32⟩
  | 47 => ⟨S512x512, .f32⟩
  | 48 => ⟨S1x512, .f32⟩
  | 49 => ⟨S512, .f32⟩
  | 50 => ⟨S1x512, .f32⟩
  | 51 => ⟨S2048x512, .bf16⟩
  | 52 => ⟨S1x512x512, .f32⟩
  | 53 => ⟨S512x512, .f32⟩
  | 54 => ⟨S1x512, .f32⟩
  | 55 => ⟨S512, .f32⟩
  | 56 => ⟨S1x512, .f32⟩
  | 57 => ⟨S2048x512, .bf16⟩
  | 58 => ⟨S32768x512, .f32⟩
  | 59 => ⟨S1x512x512, .f32⟩
  | 60 => ⟨S512x512, .f32⟩
  | 61 => ⟨S1x512, .f32⟩
  | 62 => ⟨S512, .f32⟩
  | 63 => ⟨S1x512x512, .f32⟩
  | 64 => ⟨S512x512, .f32⟩
  | 65 => ⟨S1x512, .f32⟩
  | 66 => ⟨S512, .f32⟩
  | 67 => ⟨S1x512, .f32⟩
  | 68 => ⟨S1x512, .f32⟩
  | 69 => ⟨S2048x512, .f32⟩
  | 70 => ⟨S1x512x512, .f32⟩
  | 71 => ⟨S512x512, .f32⟩
  | 72 => ⟨S1x512, .f32⟩
  | 73 => ⟨S512, .f32⟩
  | 74 => ⟨S1x512, .f32⟩
  | 75 => ⟨S2048x512, .bf16⟩
  | 76 => ⟨S1x512x512, .f32⟩
  | 77 => ⟨S512x512, .f32⟩
  | 78 => ⟨S1x512, .f32⟩
  | 79 => ⟨S512, .f32⟩
  | 80 => ⟨S1x512, .f32⟩
  | 81 => ⟨S2048x512, .bf16⟩
  | 82 => ⟨S32768x512, .f32⟩
  | 83 => ⟨S_, .i32⟩
  | 84 => ⟨S_, .f32⟩
  | 85 => ⟨S512x256, .f32⟩
  | 86 => ⟨S_, .i32⟩
  | 87 => ⟨S_, .f32⟩
  | 88 => ⟨S256, .f32⟩
  | 89 => ⟨S_, .i32⟩
  | 90 => ⟨S_, .f32⟩
  | 91 => ⟨S512x128, .f32⟩
  | 92 => ⟨S_, .i32⟩
  | 93 => ⟨S_, .f32⟩
  | 94 => ⟨S128, .f32⟩
  | 95 => ⟨S_, .i32⟩
  | 96 => ⟨S_, .f32⟩
  | 97 => ⟨S2x128x256, .f32⟩
  | 98 => ⟨S_, .i32⟩
  | 99 => ⟨S_, .f32⟩
  | 100 => ⟨S2x256, .f32⟩
  | 101 => ⟨S_, .i32⟩
  | 102 => ⟨S_, .f32⟩
  | 103 => ⟨S2x256x128, .f32⟩
  | 104 => ⟨S_, .i32⟩
  | 105 => ⟨S_, .f32⟩
  | 106 => ⟨S2x128, .f32⟩
  | 107 => ⟨S1x256, .f32⟩
  | 108 => ⟨S2048x256, .f32⟩
  | 109 => ⟨S1x128, .f32⟩
  | 110 => ⟨S32768x128, .f32⟩
  | 111 => ⟨S1x128x256, .f32⟩
  | 112 => ⟨S128x256, .f32⟩
  | 113 => ⟨S1x256, .f32⟩
  | 114 => ⟨S256, .f32⟩
  | 115 => ⟨S1x128x256, .f32⟩
  | 116 => ⟨S128x256, .f32⟩
  | 117 => ⟨S1x256, .f32⟩
  | 118 => ⟨S256, .f32⟩
  | 119 => ⟨S1x256, .f32⟩
  | 120 => ⟨S1x256, .f32⟩
  | 121 => ⟨S2048x256, .f32⟩
  | 122 => ⟨S1x256x128, .f32⟩
  | 123 => ⟨S256x128, .f32⟩
  | 124 => ⟨S1x128, .f32⟩
  | 125 => ⟨S128, .f32⟩
  | 126 => ⟨S1x128, .f32⟩
  | 127 => ⟨S2048x128, .bf16⟩
  | _ => ⟨S2048x2048, .f32⟩

abbrev hbmTy0_1 (i : Nat) : BufTy := match i % 128 with
  | 0 => ⟨S1x256x128, .f32⟩
  | 1 => ⟨S256x128, .f32⟩
  | 2 => ⟨S1x128, .f32⟩
  | 3 => ⟨S128, .f32⟩
  | 4 => ⟨S1x128, .f32⟩
  | 5 => ⟨S2048x128, .bf16⟩
  | 6 => ⟨S32768x128, .f32⟩
  | 7 => ⟨S1x128x256, .f32⟩
  | 8 => ⟨S128x256, .f32⟩
  | 9 => ⟨S1x256, .f32⟩
  | 10 => ⟨S256, .f32⟩
  | 11 => ⟨S1x128x256, .f32⟩
  | 12 => ⟨S128x256, .f32⟩
  | 13 => ⟨S1x256, .f32⟩
  | 14 => ⟨S256, .f32⟩
  | 15 => ⟨S1x256, .f32⟩
  | 16 => ⟨S1x256, .f32⟩
  | 17 => ⟨S2048x256, .f32⟩
  | 18 => ⟨S1x256x128, .f32⟩
  | 19 => ⟨S256x128, .f32⟩
  | 20 => ⟨S1x128, .f32⟩
  | 21 => ⟨S128, .f32⟩
  | 22 => ⟨S1x128, .f32⟩
  | 23 => ⟨S2048x128, .bf16⟩
  | 24 => ⟨S1x256x128, .f32⟩
  | 25 => ⟨S256x128, .f32⟩
  | 26 => ⟨S1x128, .f32⟩
  | 27 => ⟨S128, .f32⟩
  | 28 => ⟨S1x128, .f32⟩
  | 29 => ⟨S2048x128, .bf16⟩
  | 30 => ⟨S32768x128, .f32⟩
  | 31 => ⟨S2048x151, .f32⟩
  | 32 => ⟨S32768x51, .f32⟩
  | _ => ⟨S2048x2048, .f32⟩

abbrev hbmTy (i : Nat) : BufTy := match i / 128 with
  | 0 => hbmTy0_0 i
  | 1 => hbmTy0_1 i
  | _ => ⟨S2048x2048, .f32⟩

abbrev vmemTy0_0 (i : Nat) : BufTy := match i % 128 with
  | 0 => ⟨S512x2048, .f32⟩
  | 1 => ⟨S512x2048, .f32⟩
  | 2 => ⟨S2048x512, .f32⟩
  | 3 => ⟨S1x512, .f32⟩
  | 4 => ⟨S512x512, .f32⟩
  | 5 => ⟨S1x512, .f32⟩
  | 6 => ⟨S512x512, .f32⟩
  | 7 => ⟨S512x512, .f32⟩
  | 8 => ⟨S512x2048, .f32⟩
  | 9 => ⟨S512x2048, .f32⟩
  | 10 => ⟨S2048x512, .f32⟩
  | 11 => ⟨S1x512, .f32⟩
  | 12 => ⟨S512x512, .f32⟩
  | 13 => ⟨S1x512, .f32⟩
  | 14 => ⟨S512x512, .f32⟩
  | 15 => ⟨S512x512, .f32⟩
  | 16 => ⟨S1x512, .i32⟩
  | 17 => ⟨S1x512, .i32⟩
  | 18 => ⟨S1x512, .i32⟩
  | 19 => ⟨S1x512, .i32⟩
  | 20 => ⟨S512x512, .f32⟩
  | 21 => ⟨S512x512, .f32⟩
  | 22 => ⟨S512x512, .f32⟩
  | 23 => ⟨S1x512, .f32⟩
  | 24 => ⟨S512x512, .f32⟩
  | 25 => ⟨S1x512, .f32⟩
  | 26 => ⟨S1024x512, .f32⟩
  | 27 => ⟨S1024x512, .f32⟩
  | 28 => ⟨S1024x512, .f32⟩
  | 29 => ⟨S1024x512, .f32⟩
  | 30 => ⟨S1024x512, .f32⟩
  | 31 => ⟨S1024x512, .f32⟩
  | 32 => ⟨S1024x1, .f32⟩
  | 33 => ⟨S1024x1, .f32⟩
  | 34 => ⟨S512x512, .f32⟩
  | 35 => ⟨S512x512, .f32⟩
  | 36 => ⟨S512x512, .f32⟩
  | 37 => ⟨S1x512, .f32⟩
  | 38 => ⟨S512x512, .bf16⟩
  | 39 => ⟨S512x512, .bf16⟩
  | 40 => ⟨S512x512, .f32⟩
  | 41 => ⟨S512x512, .f32⟩
  | 42 => ⟨S512x512, .f32⟩
  | 43 => ⟨S1x512, .f32⟩
  | 44 => ⟨S512x512, .bf16⟩
  | 45 => ⟨S512x512, .bf16⟩
  | 46 => ⟨S512x1, .i32⟩
  | 47 => ⟨S512x1, .i32⟩
  | 48 => ⟨S512x1, .i32⟩
  | 49 => ⟨S512x1, .i32⟩
  | 50 => ⟨S2048x512, .bf16⟩
  | 51 => ⟨S2048x512, .bf16⟩
  | 52 => ⟨S512x512, .f32⟩
  | 53 => ⟨S512x512, .f32⟩
  | 54 => ⟨S512x512, .f32⟩
  | 55 => ⟨S512x512, .f32⟩
  | 56 => ⟨S1x512, .i32⟩
  | 57 => ⟨S1x512, .i32⟩
  | 58 => ⟨S1x512, .i32⟩
  | 59 => ⟨S1x512, .i32⟩
  | 60 => ⟨S512x512, .f32⟩
  | 61 => ⟨S512x512, .f32⟩
  | 62 => ⟨S512x512, .f32⟩
  | 63 => ⟨S1x512, .f32⟩
  | 64 => ⟨S512x512, .f32⟩
  | 65 => ⟨S1x512, .f32⟩
  | 66 => ⟨S1024x512, .f32⟩
  | 67 => ⟨S1024x512, .f32⟩
  | 68 => ⟨S1024x512, .f32⟩
  | 69 => ⟨S1024x512, .f32⟩
  | 70 => ⟨S1024x512, .f32⟩
  | 71 => ⟨S1024x512, .f32⟩
  | 72 => ⟨S1024x1, .f32⟩
  | 73 => ⟨S1024x1, .f32⟩
  | 74 => ⟨S512x512, .f32⟩
  | 75 => ⟨S512x512, .f32⟩
  | 76 => ⟨S512x512, .f32⟩
  | 77 => ⟨S1x512, .f32⟩
  | 78 => ⟨S512x512, .bf16⟩
  | 79 => ⟨S512x512, .bf16⟩
  | 80 => ⟨S512x512, .f32⟩
  | 81 => ⟨S512x512, .f32⟩
  | 82 => ⟨S512x512, .f32⟩
  | 83 => ⟨S1x512, .f32⟩
  | 84 => ⟨S512x512, .bf16⟩
  | 85 => ⟨S512x512, .bf16⟩
  | 86 => ⟨S512x1, .i32⟩
  | 87 => ⟨S512x1, .i32⟩
  | 88 => ⟨S512x1, .i32⟩
  | 89 => ⟨S512x1, .i32⟩
  | 90 => ⟨S2048x512, .bf16⟩
  | 91 => ⟨S2048x512, .bf16⟩
  | 92 => ⟨S512x512, .f32⟩
  | 93 => ⟨S512x512, .f32⟩
  | 94 => ⟨S512x512, .f32⟩
  | 95 => ⟨S512x512, .f32⟩
  | 96 => ⟨S512x512, .f32⟩
  | 97 => ⟨S512x512, .f32⟩
  | 98 => ⟨S512x256, .f32⟩
  | 99 => ⟨S1x256, .f32⟩
  | 100 => ⟨S512x256, .f32⟩
  | 101 => ⟨S512x256, .f32⟩
  | 102 => ⟨S512x512, .f32⟩
  | 103 => ⟨S512x512, .f32⟩
  | 104 => ⟨S512x128, .f32⟩
  | 105 => ⟨S1x128, .f32⟩
  | 106 => ⟨S512x128, .f32⟩
  | 107 => ⟨S512x128, .f32⟩
  | 108 => ⟨S1x512, .i32⟩
  | 109 => ⟨S1x512, .i32⟩
  | 110 => ⟨S1x512, .i32⟩
  | 111 => ⟨S1x512, .i32⟩
  | 112 => ⟨S512x128, .f32⟩
  | 113 => ⟨S512x128, .f32⟩
  | 114 => ⟨S128x256, .f32⟩
  | 115 => ⟨S1x256, .f32⟩
  | 116 => ⟨S128x256, .f32⟩
  | 117 => ⟨S1x256, .f32⟩
  | 118 => ⟨S1024x256, .f32⟩
  | 119 => ⟨S1024x256, .f32⟩
  | 120 => ⟨S1024x256, .f32⟩
  | 121 => ⟨S1024x256, .f32⟩
  | 122 => ⟨S1024x256, .f32⟩
  | 123 => ⟨S1024x256, .f32⟩
  | 124 => ⟨S1024x1, .f32⟩
  | 125 => ⟨S1024x1, .f32⟩
  | 126 => ⟨S512x256, .f32⟩
  | 127 => ⟨S512x256, .f32⟩
  | _ => ⟨S2048x2048, .f32⟩

abbrev vmemTy0_1 (i : Nat) : BufTy := match i % 128 with
  | 0 => ⟨S256x128, .f32⟩
  | 1 => ⟨S1x128, .f32⟩
  | 2 => ⟨S512x128, .bf16⟩
  | 3 => ⟨S512x128, .bf16⟩
  | 4 => ⟨S512x256, .f32⟩
  | 5 => ⟨S512x256, .f32⟩
  | 6 => ⟨S256x128, .f32⟩
  | 7 => ⟨S1x128, .f32⟩
  | 8 => ⟨S512x128, .bf16⟩
  | 9 => ⟨S512x128, .bf16⟩
  | 10 => ⟨S512x1, .i32⟩
  | 11 => ⟨S512x1, .i32⟩
  | 12 => ⟨S512x1, .i32⟩
  | 13 => ⟨S512x1, .i32⟩
  | 14 => ⟨S2048x128, .bf16⟩
  | 15 => ⟨S2048x128, .bf16⟩
  | 16 => ⟨S512x128, .f32⟩
  | 17 => ⟨S512x128, .f32⟩
  | 18 => ⟨S512x128, .f32⟩
  | 19 => ⟨S512x128, .f32⟩
  | 20 => ⟨S1x512, .i32⟩
  | 21 => ⟨S1x512, .i32⟩
  | 22 => ⟨S1x512, .i32⟩
  | 23 => ⟨S1x512, .i32⟩
  | 24 => ⟨S512x128, .f32⟩
  | 25 => ⟨S512x128, .f32⟩
  | 26 => ⟨S128x256, .f32⟩
  | 27 => ⟨S1x256, .f32⟩
  | 28 => ⟨S128x256, .f32⟩
  | 29 => ⟨S1x256, .f32⟩
  | 30 => ⟨S1024x256, .f32⟩
  | 31 => ⟨S1024x256, .f32⟩
  | 32 => ⟨S1024x256, .f32⟩
  | 33 => ⟨S1024x256, .f32⟩
  | 34 => ⟨S1024x256, .f32⟩
  | 35 => ⟨S1024x256, .f32⟩
  | 36 => ⟨S1024x1, .f32⟩
  | 37 => ⟨S1024x1, .f32⟩
  | 38 => ⟨S512x256, .f32⟩
  | 39 => ⟨S512x256, .f32⟩
  | 40 => ⟨S256x128, .f32⟩
  | 41 => ⟨S1x128, .f32⟩
  | 42 => ⟨S512x128, .bf16⟩
  | 43 => ⟨S512x128, .bf16⟩
  | 44 => ⟨S512x256, .f32⟩
  | 45 => ⟨S512x256, .f32⟩
  | 46 => ⟨S256x128, .f32⟩
  | 47 => ⟨S1x128, .f32⟩
  | 48 => ⟨S512x128, .bf16⟩
  | 49 => ⟨S512x128, .bf16⟩
  | 50 => ⟨S512x1, .i32⟩
  | 51 => ⟨S512x1, .i32⟩
  | 52 => ⟨S512x1, .i32⟩
  | 53 => ⟨S512x1, .i32⟩
  | 54 => ⟨S2048x128, .bf16⟩
  | 55 => ⟨S2048x128, .bf16⟩
  | 56 => ⟨S512x128, .f32⟩
  | 57 => ⟨S512x128, .f32⟩
  | 58 => ⟨S512x128, .f32⟩
  | 59 => ⟨S512x128, .f32⟩
  | _ => ⟨S2048x2048, .f32⟩

abbrev vmemTy (i : Nat) : BufTy := match i / 128 with
  | 0 => vmemTy0_0 i
  | 1 => vmemTy0_1 i
  | _ => ⟨S2048x2048, .f32⟩

abbrev bufTy : (tb : Table) → Fin (tcTables nBuf tb) → BufTy
  | .hbm, ⟨i, _⟩ => hbmTy i
  | .local _ .vmem, ⟨i, _⟩ => vmemTy i
  | _, _ => ⟨S2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 172 → Bool
  | ⟨i, _⟩ => dmaSemScopedAt i

abbrev sig : RefSig :=
  ofTc nBuf bufTy 0 172 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c : Ref sig .tc := ⟨.hbm, 83, rfl⟩
abbrev main_call0_v0 : Ref sig .tc := ⟨.hbm, 84, rfl⟩
abbrev main_v62 : Ref sig .tc := ⟨.hbm, 85, rfl⟩
abbrev main_c_0 : Ref sig .tc := ⟨.hbm, 86, rfl⟩
abbrev main_call1_v0 : Ref sig .tc := ⟨.hbm, 87, rfl⟩
abbrev main_v63 : Ref sig .tc := ⟨.hbm, 88, rfl⟩
abbrev main_c_1 : Ref sig .tc := ⟨.hbm, 89, rfl⟩
abbrev main_call2_v0 : Ref sig .tc := ⟨.hbm, 90, rfl⟩
abbrev main_v64 : Ref sig .tc := ⟨.hbm, 91, rfl⟩
abbrev main_c_2 : Ref sig .tc := ⟨.hbm, 92, rfl⟩
abbrev main_call3_v0 : Ref sig .tc := ⟨.hbm, 93, rfl⟩
abbrev main_v65 : Ref sig .tc := ⟨.hbm, 94, rfl⟩
abbrev main_c_3 : Ref sig .tc := ⟨.hbm, 95, rfl⟩
abbrev main_call4_v0 : Ref sig .tc := ⟨.hbm, 96, rfl⟩
abbrev main_v66 : Ref sig .tc := ⟨.hbm, 97, rfl⟩
abbrev main_c_4 : Ref sig .tc := ⟨.hbm, 98, rfl⟩
abbrev main_call5_v0 : Ref sig .tc := ⟨.hbm, 99, rfl⟩
abbrev main_v67 : Ref sig .tc := ⟨.hbm, 100, rfl⟩
abbrev main_c_5 : Ref sig .tc := ⟨.hbm, 101, rfl⟩
abbrev main_call6_v0 : Ref sig .tc := ⟨.hbm, 102, rfl⟩
abbrev main_v68 : Ref sig .tc := ⟨.hbm, 103, rfl⟩
abbrev main_c_6 : Ref sig .tc := ⟨.hbm, 104, rfl⟩
abbrev main_call7_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_scratch0 : Ref sig .tc := ⟨.vmem, 30, rfl⟩
abbrev cc2_scratch1 : Ref sig .tc := ⟨.vmem, 31, rfl⟩
abbrev cc2_scratch2 : Ref sig .tc := ⟨.vmem, 32, rfl⟩
abbrev cc2_scratch3 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg7_1 : Ref sig .tc := ⟨.vmem, 67, rfl⟩
abbrev cc6_stg8_0 : Ref sig .tc := ⟨.vmem, 68, rfl⟩
abbrev cc6_stg8_1 : Ref sig .tc := ⟨.vmem, 69, rfl⟩
abbrev cc6_scratch0 : Ref sig .tc := ⟨.vmem, 70, rfl⟩
abbrev cc6_scratch1 : Ref sig .tc := ⟨.vmem, 71, rfl⟩
abbrev cc6_scratch2 : Ref sig .tc := ⟨.vmem, 72, rfl⟩
abbrev cc6_scratch3 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg3_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg3_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg4_1 : Ref sig .tc := ⟨.vmem, 93, rfl⟩
abbrev cc9_stg5_0 : Ref sig .tc := ⟨.vmem, 94, rfl⟩
abbrev cc9_stg5_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg3_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg3_1 : Ref sig .tc := ⟨.vmem, 107, rfl⟩
abbrev cc12_stg0_0 : Ref sig .tc := ⟨.vmem, 108, rfl⟩
abbrev cc12_stg0_1 : Ref sig .tc := ⟨.vmem, 109, rfl⟩
abbrev cc12_stg1_0 : Ref sig .tc := ⟨.vmem, 110, rfl⟩
abbrev cc12_stg1_1 : Ref sig .tc := ⟨.vmem, 111, rfl⟩
abbrev cc12_stg2_0 : Ref sig .tc := ⟨.vmem, 112, rfl⟩
abbrev cc12_stg2_1 : Ref sig .tc := ⟨.vmem, 113, rfl⟩
abbrev cc12_stg3_0 : Ref sig .tc := ⟨.vmem, 114, rfl⟩
abbrev cc12_stg4_0 : Ref sig .tc := ⟨.vmem, 115, rfl⟩
abbrev cc12_stg5_0 : Ref sig .tc := ⟨.vmem, 116, rfl⟩
abbrev cc12_stg6_0 : Ref sig .tc := ⟨.vmem, 117, rfl⟩
abbrev cc12_stg7_0 : Ref sig .tc := ⟨.vmem, 118, rfl⟩
abbrev cc12_stg7_1 : Ref sig .tc := ⟨.vmem, 119, rfl⟩
abbrev cc12_stg8_0 : Ref sig .tc := ⟨.vmem, 120, rfl⟩
abbrev cc12_stg8_1 : Ref sig .tc := ⟨.vmem, 121, rfl⟩
abbrev cc12_scratch0 : Ref sig .tc := ⟨.vmem, 122, rfl⟩
abbrev cc12_scratch1 : Ref sig .tc := ⟨.vmem, 123, rfl⟩
abbrev cc12_scratch2 : Ref sig .tc := ⟨.vmem, 124, rfl⟩
abbrev cc12_scratch3 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg2_0 : Ref sig .tc := ⟨.vmem, 129, rfl⟩
abbrev cc13_stg3_0 : Ref sig .tc := ⟨.vmem, 130, rfl⟩
abbrev cc13_stg3_1 : Ref sig .tc := ⟨.vmem, 131, rfl⟩
abbrev cc14_stg0_0 : Ref sig .tc := ⟨.vmem, 132, rfl⟩
abbrev cc14_stg0_1 : Ref sig .tc := ⟨.vmem, 133, rfl⟩
abbrev cc14_stg1_0 : Ref sig .tc := ⟨.vmem, 134, rfl⟩
abbrev cc14_stg2_0 : Ref sig .tc := ⟨.vmem, 135, rfl⟩
abbrev cc14_stg3_0 : Ref sig .tc := ⟨.vmem, 136, rfl⟩
abbrev cc14_stg3_1 : Ref sig .tc := ⟨.vmem, 137, rfl⟩
abbrev cc15_stg0_0 : Ref sig .tc := ⟨.vmem, 138, rfl⟩
abbrev cc15_stg0_1 : Ref sig .tc := ⟨.vmem, 139, rfl⟩
abbrev cc15_stg1_0 : Ref sig .tc := ⟨.vmem, 140, rfl⟩
abbrev cc15_stg1_1 : Ref sig .tc := ⟨.vmem, 141, rfl⟩
abbrev cc15_stg2_0 : Ref sig .tc := ⟨.vmem, 142, rfl⟩
abbrev cc15_stg3_0 : Ref sig .tc := ⟨.vmem, 143, rfl⟩
abbrev cc15_stg4_0 : Ref sig .tc := ⟨.vmem, 144, rfl⟩
abbrev cc15_stg4_1 : Ref sig .tc := ⟨.vmem, 145, rfl⟩
abbrev cc15_stg5_0 : Ref sig .tc := ⟨.vmem, 146, rfl⟩
abbrev cc15_stg5_1 : Ref sig .tc := ⟨.vmem, 147, rfl⟩
abbrev cc16_stg0_0 : Ref sig .tc := ⟨.vmem, 148, rfl⟩
abbrev cc16_stg0_1 : Ref sig .tc := ⟨.vmem, 149, rfl⟩
abbrev cc16_stg1_0 : Ref sig .tc := ⟨.vmem, 150, rfl⟩
abbrev cc16_stg1_1 : Ref sig .tc := ⟨.vmem, 151, rfl⟩
abbrev cc16_stg2_0 : Ref sig .tc := ⟨.vmem, 152, rfl⟩
abbrev cc16_stg2_1 : Ref sig .tc := ⟨.vmem, 153, rfl⟩
abbrev cc16_stg3_0 : Ref sig .tc := ⟨.vmem, 154, rfl⟩
abbrev cc16_stg4_0 : Ref sig .tc := ⟨.vmem, 155, rfl⟩
abbrev cc16_stg5_0 : Ref sig .tc := ⟨.vmem, 156, rfl⟩
abbrev cc16_stg6_0 : Ref sig .tc := ⟨.vmem, 157, rfl⟩
abbrev cc16_stg7_0 : Ref sig .tc := ⟨.vmem, 158, rfl⟩
abbrev cc16_stg7_1 : Ref sig .tc := ⟨.vmem, 159, rfl⟩
abbrev cc16_stg8_0 : Ref sig .tc := ⟨.vmem, 160, rfl⟩
abbrev cc16_stg8_1 : Ref sig .tc := ⟨.vmem, 161, rfl⟩
abbrev cc16_scratch0 : Ref sig .tc := ⟨.vmem, 162, rfl⟩
abbrev cc16_scratch1 : Ref sig .tc := ⟨.vmem, 163, rfl⟩
abbrev cc16_scratch2 : Ref sig .tc := ⟨.vmem, 164, rfl⟩
abbrev cc16_scratch3 : Ref sig .tc := ⟨.vmem, 165, rfl⟩
abbrev cc17_stg0_0 : Ref sig .tc := ⟨.vmem, 166, rfl⟩
abbrev cc17_stg0_1 : Ref sig .tc := ⟨.vmem, 167, rfl⟩
abbrev cc17_stg1_0 : Ref sig .tc := ⟨.vmem, 168, rfl⟩
abbrev cc17_stg2_0 : Ref sig .tc := ⟨.vmem, 169, rfl⟩
abbrev cc17_stg3_0 : Ref sig .tc := ⟨.vmem, 170, rfl⟩
abbrev cc17_stg3_1 : Ref sig .tc := ⟨.vmem, 171, rfl⟩
abbrev cc18_stg0_0 : Ref sig .tc := ⟨.vmem, 172, rfl⟩
abbrev cc18_stg0_1 : Ref sig .tc := ⟨.vmem, 173, rfl⟩
abbrev cc18_stg1_0 : Ref sig .tc := ⟨.vmem, 174, rfl⟩
abbrev cc18_stg2_0 : Ref sig .tc := ⟨.vmem, 175, rfl⟩
abbrev cc18_stg3_0 : Ref sig .tc := ⟨.vmem, 176, rfl⟩
abbrev cc18_stg3_1 : Ref sig .tc := ⟨.vmem, 177, rfl⟩
abbrev cc19_stg0_0 : Ref sig .tc := ⟨.vmem, 178, rfl⟩
abbrev cc19_stg0_1 : Ref sig .tc := ⟨.vmem, 179, rfl⟩
abbrev cc19_stg1_0 : Ref sig .tc := ⟨.vmem, 180, rfl⟩
abbrev cc19_stg1_1 : Ref sig .tc := ⟨.vmem, 181, rfl⟩
abbrev cc19_stg2_0 : Ref sig .tc := ⟨.vmem, 182, rfl⟩
abbrev cc19_stg3_0 : Ref sig .tc := ⟨.vmem, 183, rfl⟩
abbrev cc19_stg4_0 : Ref sig .tc := ⟨.vmem, 184, rfl⟩
abbrev cc19_stg4_1 : Ref sig .tc := ⟨.vmem, 185, rfl⟩
abbrev cc19_stg5_0 : Ref sig .tc := ⟨.vmem, 186, rfl⟩
abbrev cc19_stg5_1 : Ref sig .tc := ⟨.vmem, 187, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem7_1 : DmaSem sig := 63
abbrev cc6_sem8_0 : DmaSem sig := 64
abbrev cc6_sem8_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem3_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem4_0 : DmaSem sig := 84
abbrev cc9_sem4_1 : DmaSem sig := 85
abbrev cc9_sem5_0 : DmaSem sig := 86
abbrev cc9_sem5_1 : DmaSem sig := 87
abbrev cc10_sem0_0 : DmaSem sig := 88
abbrev cc10_sem0_1 : DmaSem sig := 89
abbrev cc10_sem1_0 : DmaSem sig := 90
abbrev cc10_sem2_0 : DmaSem sig := 91
abbrev cc10_sem3_0 : DmaSem sig := 92
abbrev cc10_sem3_1 : DmaSem sig := 93
abbrev cc11_sem0_0 : DmaSem sig := 94
abbrev cc11_sem0_1 : DmaSem sig := 95
abbrev cc11_sem1_0 : DmaSem sig := 96
abbrev cc11_sem2_0 : DmaSem sig := 97
abbrev cc11_sem3_0 : DmaSem sig := 98
abbrev cc11_sem3_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem2_1 : DmaSem sig := 105
abbrev cc12_sem3_0 : DmaSem sig := 106
abbrev cc12_sem4_0 : DmaSem sig := 107
abbrev cc12_sem5_0 : DmaSem sig := 108
abbrev cc12_sem6_0 : DmaSem sig := 109
abbrev cc12_sem7_0 : DmaSem sig := 110
abbrev cc12_sem7_1 : DmaSem sig := 111
abbrev cc12_sem8_0 : DmaSem sig := 112
abbrev cc12_sem8_1 : DmaSem sig := 113
abbrev cc13_sem0_0 : DmaSem sig := 114
abbrev cc13_sem0_1 : DmaSem sig := 115
abbrev cc13_sem1_0 : DmaSem sig := 116
abbrev cc13_sem2_0 : DmaSem sig := 117
abbrev cc13_sem3_0 : DmaSem sig := 118
abbrev cc13_sem3_1 : DmaSem sig := 119
abbrev cc14_sem0_0 : DmaSem sig := 120
abbrev cc14_sem0_1 : DmaSem sig := 121
abbrev cc14_sem1_0 : DmaSem sig := 122
abbrev cc14_sem2_0 : DmaSem sig := 123
abbrev cc14_sem3_0 : DmaSem sig := 124
abbrev cc14_sem3_1 : DmaSem sig := 125
abbrev cc15_sem0_0 : DmaSem sig := 126
abbrev cc15_sem0_1 : DmaSem sig := 127
abbrev cc15_sem1_0 : DmaSem sig := 128
abbrev cc15_sem1_1 : DmaSem sig := 129
abbrev cc15_sem2_0 : DmaSem sig := 130
abbrev cc15_sem3_0 : DmaSem sig := 131
abbrev cc15_sem4_0 : DmaSem sig := 132
abbrev cc15_sem4_1 : DmaSem sig := 133
abbrev cc15_sem5_0 : DmaSem sig := 134
abbrev cc15_sem5_1 : DmaSem sig := 135
abbrev cc16_sem0_0 : DmaSem sig := 136
abbrev cc16_sem0_1 : DmaSem sig := 137
abbrev cc16_sem1_0 : DmaSem sig := 138
abbrev cc16_sem1_1 : DmaSem sig := 139
abbrev cc16_sem2_0 : DmaSem sig := 140
abbrev cc16_sem2_1 : DmaSem sig := 141
abbrev cc16_sem3_0 : DmaSem sig := 142
abbrev cc16_sem4_0 : DmaSem sig := 143
abbrev cc16_sem5_0 : DmaSem sig := 144
abbrev cc16_sem6_0 : DmaSem sig := 145
abbrev cc16_sem7_0 : DmaSem sig := 146
abbrev cc16_sem7_1 : DmaSem sig := 147
abbrev cc16_sem8_0 : DmaSem sig := 148
abbrev cc16_sem8_1 : DmaSem sig := 149
abbrev cc17_sem0_0 : DmaSem sig := 150
abbrev cc17_sem0_1 : DmaSem sig := 151
abbrev cc17_sem1_0 : DmaSem sig := 152
abbrev cc17_sem2_0 : DmaSem sig := 153
abbrev cc17_sem3_0 : DmaSem sig := 154
abbrev cc17_sem3_1 : DmaSem sig := 155
abbrev cc18_sem0_0 : DmaSem sig := 156
abbrev cc18_sem0_1 : DmaSem sig := 157
abbrev cc18_sem1_0 : DmaSem sig := 158
abbrev cc18_sem2_0 : DmaSem sig := 159
abbrev cc18_sem3_0 : DmaSem sig := 160
abbrev cc18_sem3_1 : DmaSem sig := 161
abbrev cc19_sem0_0 : DmaSem sig := 162
abbrev cc19_sem0_1 : DmaSem sig := 163
abbrev cc19_sem1_0 : DmaSem sig := 164
abbrev cc19_sem1_1 : DmaSem sig := 165
abbrev cc19_sem2_0 : DmaSem sig := 166
abbrev cc19_sem3_0 : DmaSem sig := 167
abbrev cc19_sem4_0 : DmaSem sig := 168
abbrev cc19_sem4_1 : DmaSem sig := 169
abbrev cc19_sem5_0 : DmaSem sig := 170
abbrev cc19_sem5_1 : DmaSem sig := 171

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 64], ![false, false]⟩

def k2_cond2 (i : grid2.Coords) : BitVec 1 :=
  let arg1 : BitVec 32 := BitVec.ofNat 32 (i 1).val
  let c63_i32 : BitVec 32 := 63#32
  let v76 : BitVec 1 := Scalar.cmpi .eq arg1 c63_i32
  let v77 : BitVec 32 := Scalar.extui v76
  let c0_i32_37 : BitVec 32 := 0#32
  let v78 : BitVec 1 := Scalar.cmpi .ne v77 c0_i32_37
  v78

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2048x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2048x512 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 64], ![false, false]⟩

def k6_cond2 (i : grid6.Coords) : BitVec 1 :=
  let arg1 : BitVec 32 := BitVec.ofNat 32 (i 1).val
  let c63_i32 : BitVec 32 := 63#32
  let v76 : BitVec 1 := Scalar.cmpi .eq arg1 c63_i32
  let v77 : BitVec 32 := Scalar.extui v76
  let c0_i32_37 : BitVec 32 := 0#32
  let v78 : BitVec 1 := Scalar.cmpi .ne v77 c0_i32_37
  v78

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1x512 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1x512 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 1 → Memref sig .tc .vmem S512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S512x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x512 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S1024x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev stage6_8 : Fin 2 → Memref sig .tc .vmem S1024x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x1 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S2048x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2048x512 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S512x512 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S512x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S512x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S512x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S512x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨2, ![2, 64], ![false, false]⟩

def k12_cond2 (i : grid12.Coords) : BitVec 1 :=
  let arg1 : BitVec 32 := BitVec.ofNat 32 (i 1).val
  let c63_i32 : BitVec 32 := 63#32
  let v76 : BitVec 1 := Scalar.cmpi .eq arg1 c63_i32
  let v77 : BitVec 32 := Scalar.extui v76
  let c0_i32_37 : BitVec 32 := 0#32
  let v78 : BitVec 1 := Scalar.cmpi .ne v77 c0_i32_37
  v78

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1x512 .i32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 2 → Memref sig .tc .vmem S1x512 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S512x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![false, true]

abbrev stage12_3 : Fin 1 → Memref sig .tc .vmem S128x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false, false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false, false]

abbrev stage12_5 : Fin 1 → Memref sig .tc .vmem S128x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false, false]

abbrev stage12_6 : Fin 1 → Memref sig .tc .vmem S1x256 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false, false]

abbrev stage12_7 : Fin 2 → Memref sig .tc .vmem S1024x256 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true, false]

abbrev stage12_8 : Fin 2 → Memref sig .tc .vmem S1024x256 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true, false]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S256x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S512x128 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S512x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S256x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S512x128 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![64], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S512x1 .i32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S512x1 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S2048x128 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S2048x128 .bf16 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S512x128 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S512x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨2, ![2, 64], ![false, false]⟩

def k16_cond2 (i : grid16.Coords) : BitVec 1 :=
  let arg1 : BitVec 32 := BitVec.ofNat 32 (i 1).val
  let c63_i32 : BitVec 32 := 63#32
  let v76 : BitVec 1 := Scalar.cmpi .eq arg1 c63_i32
  let v77 : BitVec 32 := Scalar.extui v76
  let c0_i32_37 : BitVec 32 := 0#32
  let v78 : BitVec 1 := Scalar.cmpi .ne v77 c0_i32_37
  v78

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_3 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_8 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 2 → Memref sig .tc .vmem S1x512 .i32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![false, true]

abbrev stage16_1 : Fin 2 → Memref sig .tc .vmem S1x512 .i32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S512x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![false, true]

abbrev stage16_3 : Fin 1 → Memref sig .tc .vmem S128x256 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false, false]

abbrev stage16_4 : Fin 1 → Memref sig .tc .vmem S1x256 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false, false]

abbrev stage16_5 : Fin 1 → Memref sig .tc .vmem S128x256 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false, false]

abbrev stage16_6 : Fin 1 → Memref sig .tc .vmem S1x256 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false, false]

abbrev stage16_7 : Fin 2 → Memref sig .tc .vmem S1024x256 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true, false]

abbrev stage16_8 : Fin 2 → Memref sig .tc .vmem S1024x256 .f32 := fun | 0 => Memref.whole cc16_stg8_0 | 1 => Memref.whole cc16_stg8_1 | ⟨_ + 2, h⟩ => absurd h (Nat.not_lt.2 (Nat.le_add_left _ _))
abbrev sem16_8 : Fin 2 → DmaSem sig := fun | 0 => cc16_sem8_0 | 1 => cc16_sem8_1 | ⟨_ + 2, h⟩ => absurd h (Nat.not_lt.2 (Nat.le_add_left _ _))
abbrev reads16_8 : Fin grid16.rank → Bool := ![true, false]

abbrev grid17 : Pipeline.Grid := ⟨1, ![4], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S512x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S256x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S512x128 .bf16 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![4], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S512x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S256x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S512x128 .bf16 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![64], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S512x1 .i32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S512x1 .i32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S2048x128 .bf16 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S2048x128 .bf16 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 2 → Memref sig .tc .vmem S512x128 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev stage19_5 : Fin 2 → Memref sig .tc .vmem S512x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

class Facts₀ : Prop where
  slices_S32768x2_S32768x1_0_0 : S32768x2.Slices ![0, 0] S32768x1
  shapeCasts_S32768x1_S32768 : S32768x1.ShapeCasts S32768
  slices_S32768x2_S32768x1_0_1 : S32768x2.Slices ![0, 1] S32768x1
  shapeCasts_S32768_S1x32768 : S32768.ShapeCasts S1x32768
  shapeCasts_S32768_S32768x1 : S32768.ShapeCasts S32768x1
  shapeCasts_S512_S1x512 : S512.ShapeCasts S1x512
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  slices_S4x512x512_S1x512x512_1_0_0 : S4x512x512.Slices ![1, 0, 0] S1x512x512
  slices_S4x512_S1x512_1_0 : S4x512.Slices ![1, 0] S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x512_S512x512 : S512x512.ShapeCasts S512x512
  iota_S1024x512_d0_w32 : S1024x512.Iotas .tc 32 [0]
  broadcasts_S1x512_S1024x512 : S1x512.Broadcasts S1024x512
  natLt_1_32 : 1 < 32
  reduces_S1024x512_S1024 : S1024x512.Reduces [1] S1024
  shapeCasts_S1024_S1024x1 : S1024.ShapeCasts S1024x1
  broadcasts_S1024x1_S1024x512 : S1024x1.Broadcasts S1024x512
  slices_S4x512x512_S1x512x512_2_0_0 : S4x512x512.Slices ![2, 0, 0] S1x512x512
  slices_S4x512_S1x512_2_0 : S4x512.Slices ![2, 0] S1x512
  packedbf16_S512x512_S512x512_0_0 : (Rect.unit (s := S512x512) ![0, 0] S512x512.size inb_S512x512_S512x512_0_0).PackedRows (EltTy.packing .bf16)
  slices_S4x512x512_S1x512x512_3_0_0 : S4x512x512.Slices ![3, 0, 0] S1x512x512
  slices_S4x512_S1x512_3_0 : S4x512.Slices ![3, 0] S1x512
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S2048x512_S2048x512 : S2048x512.ShapeCasts S2048x512
  reduces_S512x2048_S512 : S512x2048.Reduces [1] S512
  shapeCasts_S512_S512x1 : S512.ShapeCasts S512x1
  broadcasts_S512x1_S512x512 : S512x1.Broadcasts S512x512
  pads_S512x151_S512x256_000_01050 : S512x151.Pads (![0, 0] : Fin 2 → Nat) ![0, 105] ![0, 0] S512x256
  h_S_ : 0 < S_.numel
  pads_S151_S256_01050 : S151.Pads (![0] : Fin 1 → Nat) ![105] ![0] S256
  pads_S512x51_S512x128_000_0770 : S512x51.Pads (![0, 0] : Fin 2 → Nat) ![0, 77] ![0, 0] S512x128
  pads_S51_S128_0770 : S51.Pads (![0] : Fin 1 → Nat) ![77] ![0] S128
  pads_S2x51x151_S2x128x256_000_0770_01050 : S2x51x151.Pads (![0, 0, 0] : Fin 3 → Nat) ![0, 77, 105] ![0, 0, 0] S2x128x256
  pads_S2x151_S2x256_000_01050 : S2x151.Pads (![0, 0] : Fin 2 → Nat) ![0, 105] ![0, 0] S2x256
  pads_S2x151x51_S2x256x128_000_01050_0770 : S2x151x51.Pads (![0, 0, 0] : Fin 3 → Nat) ![0, 105, 77] ![0, 0, 0] S2x256x128
  pads_S2x51_S2x128_000_0770 : S2x51.Pads (![0, 0] : Fin 2 → Nat) ![0, 77] ![0, 0] S2x128
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S2x128x256_S1x128x256_0_0_0 : S2x128x256.Slices ![0, 0, 0] S1x128x256
  shapeCasts_S1x128x256_S128x256 : S1x128x256.ShapeCasts S128x256
  slices_S2x256_S1x256_0_0 : S2x256.Slices ![0, 0] S1x256
  shapeCasts_S1x256_S256 : S1x256.ShapeCasts S256
  slices_S2x128x256_S1x128x256_1_0_0 : S2x128x256.Slices ![1, 0, 0] S1x128x256
  slices_S2x256_S1x256_1_0 : S2x256.Slices ![1, 0] S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1024x1_S1024x256 : S1024x1.Broadcasts S1024x256
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  shapeCasts_S1x128_S128 : S1x128.ShapeCasts S128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S512x128_S512x128_0_0 : (Rect.unit (s := S512x128) ![0, 0] S512x128.size inb_S512x128_S512x128_0_0).PackedRows (EltTy.packing .bf16)
  slices_S2x256x128_S1x256x128_1_0_0 : S2x256x128.Slices ![1, 0, 0] S1x256x128
  slices_S2x128_S1x128_1_0 : S2x128.Slices ![1, 0] S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S512x1_S512x128 : S512x1.Broadcasts S512x128
  slices_S2048x256_S2048x151_0_0 : S2048x256.Slices ![0, 0] S2048x151
  slices_S32768x128_S32768x51_0_0 : S32768x128.Slices ![0, 0] S32768x51
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  dot_S512x512_S512x256_S512x256_1_0_0_1_n_n_wf : DotDims.WF S512x512 S512x256 S512x256 [1] [0] [0] [1] [] []
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  dot_S1024x512_S512x256_S1024x256_1_0_0_1_n_n_wf : DotDims.WF S1024x512 S512x256 S1024x256 [1] [0] [0] [1] [] []
  dot_S512x256_S256x128_S512x128_1_0_0_1_n_n_wf : DotDims.WF S512x256 S256x128 S512x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S2048x512.size a
  hwx0_5 : ∀ i : grid0.Coords, EltTy.bits .f32 = 32 ∨ (Rect.block (s := S2048x512) S512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .f32 = 32 ∨ (Rect.block (s := S32768x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S32768x512.size a
  hwx1_5 : ∀ i : grid1.Coords, EltTy.bits .f32 = 32 ∨ (Rect.block (s := S32768x512) S512x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512.size a ≤ S1x32768.size a
  hwx2_0 : ∀ i : grid2.Coords, EltTy.bits .i32 = 32 ∨ (Rect.block (s := S1x32768) S1x512.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x32768.size a
  hwx2_1 : ∀ i : grid2.Coords, EltTy.bits .i32 = 32 ∨ (Rect.block (s := S1x32768) S1x512.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S32768x512.size a
  hwx2_2 : ∀ i : grid2.Coords, EltTy.bits .f32 = 32 ∨ (Rect.block (s := S32768x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S2048x512.size a
  hwx2_7 : ∀ i : grid2.Coords, EltTy.bits .f32 = 32 ∨ (Rect.block (s := S2048x512) S1024x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x512.size a ≤ S2048x512.size a
  hwx2_8 : ∀ i : grid2.Coords, EltTy.bits .f32 = 32 ∨ (Rect.block (s := S2048x512) S1024x512.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S2048x512.size a
  hwx3_0 : ∀ i : grid3.Coords, EltTy.bits .f32 = 32 ∨ (Rect.block (s := S2048x512) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S2048x512.size a
  hwx3_3 : ∀ i : grid3.Coords, EltTy.bits .bf16 = 32 ∨ (Rect.block (s := S2048x512) S512x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x512.size a
  hwx4_0 : ∀ i : grid4.Coords, EltTy.bits .f32 = 32 ∨ (Rect.block (s := S2048x512) S512x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S2048x512.size a
  hwx4_3 : ∀ i : grid4.Coords, EltTy.bits .bf16 = 32 ∨ (Rect.block (s := S2048x512) S512x512.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1.size a ≤ S32768x1.size a
  hwx5_0 : ∀ i : grid5.Coords, EltTy.bits .i32 = 32 ∨ (Rect.block (s := S32768x1) S512x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S32768x1.size a
  hwx5_1 : ∀ i : grid5.Coords, EltTy.bits .i32 = 32 ∨ (Rect.block (s := S32768x1) S512x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x512.size a ≤ S2048x512.size a
  hwx5_2 : ∀ i : grid5.Coords, EltTy.bits .bf16 = 32 ∨ (Rect.block (s := S2048x512) S2048x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x512.size a ≤ S2048x512.size a
  hwx5_3 : ∀ i : grid5.Coords, EltTy.bits .bf16 = 32 ∨ (Rect.block (s := S2048x512) S2048x512.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S32768x512.size a
  hwx5_4 : ∀ i : grid5.Coords, EltTy.bits .f32 = 32 ∨ (Rect.block (s := S32768x512) S512x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S32768x512.size a
  hwx5_5 : ∀ i : grid5.Coords, EltTy.bits .f32 = 32 ∨ (Rect.block (s := S32768x512) S512x512.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x512.size a ≤ S1x32768.size a
  hwx6_0 : ∀ i : grid6.Coords, EltTy.bits .i32 = 32 ∨ (Rect.block (s := S1x32768) S1x512.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x512.size a ≤ S1x32768.size a
  hwx6_1 : ∀ i : grid6.Coords, EltTy.bits .i32 = 32 ∨ (Rect.block (s := S1x32768) S1x512.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S32768x512.size a
  hwx6_2 : ∀ i : grid6.Coords, EltTy.bits .f32 = 32 ∨ (Rect.block (s := S32768x512) S512x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .f32 = 32 ∨ (Rect.block (s := S512x512) S512x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x512.size a ≤ S512x512.size a
  hwx6_5 : ∀ i : grid6.Coords, EltTy.bits .f32 = 32 ∨ (Rect.block (s := S512x512) S512x512.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x512.size a ≤ S1x512.size a
  hwx6_6 : ∀ i : grid6.Coords, EltTy.bits .f32 = 32 ∨ (Rect.block (s := S1x512) S1x512.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x512.size a ≤ S2048x512.size a
  hwx6_7 : ∀ i : grid6.Coords, EltTy.bits .f32 = 32 ∨ (Rect.block (s := S2048x512) S1024x512.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x512.size a ≤ S2048x512.size a
  hwx6_8 : ∀ i : grid6.Coords, EltTy.bits .f32 = 32 ∨ (Rect.block (s := S2048x512) S1024x512.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S2048x512.size a
  hwx7_0 : ∀ i : grid7.Coords, EltTy.bits .f32 = 32 ∨ (Rect.block (s := S2048x512) S512x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S512x512.size a
  hwx7_1 : ∀ i : grid7.Coords, EltTy.bits .f32 = 32 ∨ (Rect.block (s := S512x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S2048x512.size a
  hwx7_3 : ∀ i : grid7.Coords, EltTy.bits .bf16 = 32 ∨ (Rect.block (s := S2048x512) S512x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x512.size a ≤ S2048x512.size a
  hwx8_0 : ∀ i : grid8.Coords, EltTy.bits .f32 = 32 ∨ (Rect.block (s := S2048x512) S512x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .f32 = 32 ∨ (Rect.block (s := S512x512) S512x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S2048x512.size a
  hwx8_3 : ∀ i : grid8.Coords, EltTy.bits .bf16 = 32 ∨ (Rect.block (s := S2048x512) S512x512.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x1.size a ≤ S32768x1.size a
  hwx9_0 : ∀ i : grid9.Coords, EltTy.bits .i32 = 32 ∨ (Rect.block (s := S32768x1) S512x1.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x1.size a ≤ S32768x1.size a
  hwx9_1 : ∀ i : grid9.Coords, EltTy.bits .i32 = 32 ∨ (Rect.block (s := S32768x1) S512x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S2048x512.size a ≤ S2048x512.size a
  hwx9_2 : ∀ i : grid9.Coords, EltTy.bits .bf16 = 32 ∨ (Rect.block (s := S2048x512) S2048x512.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2048x512.size a ≤ S2048x512.size a
  hwx9_3 : ∀ i : grid9.Coords, EltTy.bits .bf16 = 32 ∨ (Rect.block (s := S2048x512) S2048x512.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S512x512.size a ≤ S32768x512.size a
  hwx9_4 : ∀ i : grid9.Coords, EltTy.bits .f32 = 32 ∨ (Rect.block (s := S32768x512) S512x512.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S512x512.size a ≤ S32768x512.size a
  hwx9_5 : ∀ i : grid9.Coords, EltTy.bits .f32 = 32 ∨ (Rect.block (s := S32768x512) S512x512.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x512.size a ≤ S2048x512.size a
  hwx10_0 : ∀ i : grid10.Coords, EltTy.bits .f32 = 32 ∨ (Rect.block (s := S2048x512) S512x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S512x256.size a
  hwx10_1 : ∀ i : grid10.Coords, EltTy.bits .f32 = 32 ∨ (Rect.block (s := S512x256) S512x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S512x256.size a ≤ S2048x256.size a
  hwx10_3 : ∀ i : grid10.Coords, EltTy.bits .f32 = 32 ∨ (Rect.block (s := S2048x256) S512x256.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x512.size a ≤ S32768x512.size a
  hwx11_0 : ∀ i : grid11.Coords, EltTy.bits .f32 = 32 ∨ (Rect.block (s := S32768x512) S512x512.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S512x128.size a ≤ S512x128.size a
  hwx11_1 : ∀ i : grid11.Coords, EltTy.bits .f32 = 32 ∨ (Rect.block (s := S512x128) S512x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x128.size a ≤ S32768x128.size a
  hwx11_3 : ∀ i : grid11.Coords, EltTy.bits .f32 = 32 ∨ (Rect.block (s := S32768x128) S512x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x512.size a ≤ S1x32768.size a
  hwx12_0 : ∀ i : grid12.Coords, EltTy.bits .i32 = 32 ∨ (Rect.block (s := S1x32768) S1x512.size (cc12_transform_0 i) (hinb12_0 i)).WholeWords (EltTy.packing .i32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x512.size a ≤ S1x32768.size a
  hwx12_1 : ∀ i : grid12.Coords, EltTy.bits .i32 = 32 ∨ (Rect.block (s := S1x32768) S1x512.size (cc12_transform_1 i) (hinb12_1 i)).WholeWords (EltTy.packing .i32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S512x128.size a ≤ S32768x128.size a
  hwx12_2 : ∀ i : grid12.Coords, EltTy.bits .f32 = 32 ∨ (Rect.block (s := S32768x128) S512x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x256.size a ≤ S128x256.size a
  hwx12_3 : ∀ i : grid12.Coords, EltTy.bits .f32 = 32 ∨ (Rect.block (s := S128x256) S128x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x256.size a ≤ S128x256.size a
  hwx12_5 : ∀ i : grid12.Coords, EltTy.bits .f32 = 32 ∨ (Rect.block (s := S128x256) S128x256.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x256.size a ≤ S1x256.size a
  hwx12_6 : ∀ i : grid12.Coords, EltTy.bits .f32 = 32 ∨ (Rect.block (s := S1x256) S1x256.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S1024x256.size a ≤ S2048x256.size a
  hwx12_7 : ∀ i : grid12.Coords, EltTy.bits .f32 = 32 ∨ (Rect.block (s := S2048x256) S1024x256.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S1024x256.size a ≤ S2048x256.size a
  hwx12_8 : ∀ i : grid12.Coords, EltTy.bits .f32 = 32 ∨ (Rect.block (s := S2048x256) S1024x256.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x256.size a ≤ S2048x256.size a
  hwx13_0 : ∀ i : grid13.Coords, EltTy.bits .f32 = 32 ∨ (Rect.block (s := S2048x256) S512x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S256x128.size a ≤ S256x128.size a
  hwx13_1 : ∀ i : grid13.Coords, EltTy.bits .f32 = 32 ∨ (Rect.block (s := S256x128) S256x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S512x128.size a ≤ S2048x128.size a
  hwx13_3 : ∀ i : grid13.Coords, EltTy.bits .bf16 = 32 ∨ (Rect.block (s := S2048x128) S512x128.size (cc13_transform_3 i) (hinb13_3 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x256.size a ≤ S2048x256.size a
  hwx14_0 : ∀ i : grid14.Coords, EltTy.bits .f32 = 32 ∨ (Rect.block (s := S2048x256) S512x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x128.size a ≤ S256x128.size a
  hwx14_1 : ∀ i : grid14.Coords, EltTy.bits .f32 = 32 ∨ (Rect.block (s := S256x128) S256x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S512x128.size a ≤ S2048x128.size a
  hwx14_3 : ∀ i : grid14.Coords, EltTy.bits .bf16 = 32 ∨ (Rect.block (s := S2048x128) S512x128.size (cc14_transform_3 i) (hinb14_3 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S512x1.size a ≤ S32768x1.size a
  hwx15_0 : ∀ i : grid15.Coords, EltTy.bits .i32 = 32 ∨ (Rect.block (s := S32768x1) S512x1.size (cc15_transform_0 i) (hinb15_0 i)).WholeWords (EltTy.packing .i32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S512x1.size a ≤ S32768x1.size a
  hwx15_1 : ∀ i : grid15.Coords, EltTy.bits .i32 = 32 ∨ (Rect.block (s := S32768x1) S512x1.size (cc15_transform_1 i) (hinb15_1 i)).WholeWords (EltTy.packing .i32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S2048x128.size a ≤ S2048x128.size a
  hwx15_2 : ∀ i : grid15.Coords, EltTy.bits .bf16 = 32 ∨ (Rect.block (s := S2048x128) S2048x128.size (cc15_transform_2 i) (hinb15_2 i)).WholeWords (EltTy.packing .bf16)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S2048x128.size a ≤ S2048x128.size a
  hwx15_3 : ∀ i : grid15.Coords, EltTy.bits .bf16 = 32 ∨ (Rect.block (s := S2048x128) S2048x128.size (cc15_transform_3 i) (hinb15_3 i)).WholeWords (EltTy.packing .bf16)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S512x128.size a ≤ S32768x128.size a
  hwx15_4 : ∀ i : grid15.Coords, EltTy.bits .f32 = 32 ∨ (Rect.block (s := S32768x128) S512x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S512x128.size a ≤ S32768x128.size a
  hwx15_5 : ∀ i : grid15.Coords, EltTy.bits .f32 = 32 ∨ (Rect.block (s := S32768x128) S512x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x512.size a ≤ S1x32768.size a
  hwx16_0 : ∀ i : grid16.Coords, EltTy.bits .i32 = 32 ∨ (Rect.block (s := S1x32768) S1x512.size (cc16_transform_0 i) (hinb16_0 i)).WholeWords (EltTy.packing .i32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x512.size a ≤ S1x32768.size a
  hwx16_1 : ∀ i : grid16.Coords, EltTy.bits .i32 = 32 ∨ (Rect.block (s := S1x32768) S1x512.size (cc16_transform_1 i) (hinb16_1 i)).WholeWords (EltTy.packing .i32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S512x128.size a ≤ S32768x128.size a
  hwx16_2 : ∀ i : grid16.Coords, EltTy.bits .f32 = 32 ∨ (Rect.block (s := S32768x128) S512x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x256.size a ≤ S128x256.size a
  hwx16_3 : ∀ i : grid16.Coords, EltTy.bits .f32 = 32 ∨ (Rect.block (s := S128x256) S128x256.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x256.size a ≤ S1x256.size a
  hwx16_4 : ∀ i : grid16.Coords, EltTy.bits .f32 = 32 ∨ (Rect.block (s := S1x256) S1x256.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S128x256.size a ≤ S128x256.size a
  hwx16_5 : ∀ i : grid16.Coords, EltTy.bits .f32 = 32 ∨ (Rect.block (s := S128x256) S128x256.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x256.size a ≤ S1x256.size a
  hwx16_6 : ∀ i : grid16.Coords, EltTy.bits .f32 = 32 ∨ (Rect.block (s := S1x256) S1x256.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S1024x256.size a ≤ S2048x256.size a
  hwx16_7 : ∀ i : grid16.Coords, EltTy.bits .f32 = 32 ∨ (Rect.block (s := S2048x256) S1024x256.size (cc16_transform_7 i) (hinb16_7 i)).WholeWords (EltTy.packing .f32)
  hstage16_8 : ∀ j, (stage16_8 j).IsWhole
  nbuf16_8 : grid16.bufCount reads16_8 false = 2
  hreads16_8 : ∀ i i' : grid16.Coords, (∀ a, reads16_8 a = true → i a = i' a) → cc16_transform_8 i = cc16_transform_8 i'
  hinb16_8 : ∀ (i : grid16.Coords) a, (cc16_transform_8 i a + 1) * S1024x256.size a ≤ S2048x256.size a
  hwx16_8 : ∀ i : grid16.Coords, EltTy.bits .f32 = 32 ∨ (Rect.block (s := S2048x256) S1024x256.size (cc16_transform_8 i) (hinb16_8 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S512x256.size a ≤ S2048x256.size a
  hwx17_0 : ∀ i : grid17.Coords, EltTy.bits .f32 = 32 ∨ (Rect.block (s := S2048x256) S512x256.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S256x128.size a ≤ S256x128.size a
  hwx17_1 : ∀ i : grid17.Coords, EltTy.bits .f32 = 32 ∨ (Rect.block (s := S256x128) S256x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S512x128.size a ≤ S2048x128.size a
  hwx17_3 : ∀ i : grid17.Coords, EltTy.bits .bf16 = 32 ∨ (Rect.block (s := S2048x128) S512x128.size (cc17_transform_3 i) (hinb17_3 i)).WholeWords (EltTy.packing .bf16)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S512x256.size a ≤ S2048x256.size a
  hwx18_0 : ∀ i : grid18.Coords, EltTy.bits .f32 = 32 ∨ (Rect.block (s := S2048x256) S512x256.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S256x128.size a ≤ S256x128.size a
  hwx18_1 : ∀ i : grid18.Coords, EltTy.bits .f32 = 32 ∨ (Rect.block (s := S256x128) S256x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S512x128.size a ≤ S2048x128.size a
  hwx18_3 : ∀ i : grid18.Coords, EltTy.bits .bf16 = 32 ∨ (Rect.block (s := S2048x128) S512x128.size (cc18_transform_3 i) (hinb18_3 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S512x1.size a ≤ S32768x1.size a
  hwx19_0 : ∀ i : grid19.Coords, EltTy.bits .i32 = 32 ∨ (Rect.block (s := S32768x1) S512x1.size (cc19_transform_0 i) (hinb19_0 i)).WholeWords (EltTy.packing .i32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S512x1.size a ≤ S32768x1.size a
  hwx19_1 : ∀ i : grid19.Coords, EltTy.bits .i32 = 32 ∨ (Rect.block (s := S32768x1) S512x1.size (cc19_transform_1 i) (hinb19_1 i)).WholeWords (EltTy.packing .i32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S2048x128.size a ≤ S2048x128.size a
  hwx19_2 : ∀ i : grid19.Coords, EltTy.bits .bf16 = 32 ∨ (Rect.block (s := S2048x128) S2048x128.size (cc19_transform_2 i) (hinb19_2 i)).WholeWords (EltTy.packing .bf16)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S2048x128.size a ≤ S2048x128.size a
  hwx19_3 : ∀ i : grid19.Coords, EltTy.bits .bf16 = 32 ∨ (Rect.block (s := S2048x128) S2048x128.size (cc19_transform_3 i) (hinb19_3 i)).WholeWords (EltTy.packing .bf16)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S512x128.size a ≤ S32768x128.size a
  hwx19_4 : ∀ i : grid19.Coords, EltTy.bits .f32 = 32 ∨ (Rect.block (s := S32768x128) S512x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S512x128.size a ≤ S32768x128.size a
  hwx19_5 : ∀ i : grid19.Coords, EltTy.bits .f32 = 32 ∨ (Rect.block (s := S32768x128) S512x128.size (cc19_transform_5 i) (hinb19_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S1x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1024x512.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v24) S1024x512.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v10) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v10) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S512x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v6) S512x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S512x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S2048x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S2048x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v13) S512x512.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v37) S512x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v4) S1x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S1x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S512x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v39) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v43) S512x512.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v47) S1x512.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v24) S1024x512.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v48) S1024x512.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun _ => false | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v24) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S512x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v53) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v54) S512x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v24) S512x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v56) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v59) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v60) S512x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v6) S512x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v7) S512x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v54) S2048x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v60) S2048x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v37) S512x512.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v61) S512x512.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v48) S512x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v62) S512x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v70) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v71) S512x256.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v61) S512x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v64) S512x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v72) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v73) S512x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v4) S1x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v5) S1x512.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v73) S512x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v75) S128x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v82) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v79) S128x256.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v83) S1x256.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v71) S1024x256.size cc12_transform_7 reads12_7 false false 2 stage12_7 sem12_7
    hrank12 hreads12_7 hinb12_7 nbuf12_7 (Memref.isWhole_whole _) hwx12_7 hstage12_7

abbrev win12_8 : Pipeline.Window sig grid12 :=
  Pipeline.Window.ofSpec (Memref.whole main_v84) S1024x256.size cc12_transform_8 reads12_8 true false 2 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev idle12 : Fin 9 → grid12.Coords → Bool := fun | 0 => fun _ => false | 1 => fun _ => false | 2 => fun _ => false | 3 => fun _ => false | 4 => fun _ => false | 5 => fun _ => false | 6 => fun _ => false | 7 => fun _ => false | 8 => fun i => !(k12_cond2 i == 1#1) | ⟨_ + 9, h⟩ => absurd h (Nat.not_lt.2 (Nat.le_add_left _ _))

abbrev win13_0 : Pipeline.Window sig grid13 :=
  Pipeline.Window.ofSpec (Memref.whole main_v71) S512x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v86) S256x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v89) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v90) S512x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v71) S512x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v92) S256x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v95) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v96) S512x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v6) S512x1.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v7) S512x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v90) S2048x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v96) S2048x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v73) S512x128.size cc15_transform_4 reads15_4 false false 2 stage15_4 sem15_4
    hrank15 hreads15_4 hinb15_4 nbuf15_4 (Memref.isWhole_whole _) hwx15_4 hstage15_4

abbrev win15_5 : Pipeline.Window sig grid15 :=
  Pipeline.Window.ofSpec (Memref.whole main_v97) S512x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v4) S1x512.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v5) S1x512.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v97) S512x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v99) S128x256.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v106) S1x256.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v103) S128x256.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v107) S1x256.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v84) S1024x256.size cc16_transform_7 reads16_7 false false 2 stage16_7 sem16_7
    hrank16 hreads16_7 hinb16_7 nbuf16_7 (Memref.isWhole_whole _) hwx16_7 hstage16_7

abbrev win16_8 : Pipeline.Window sig grid16 :=
  Pipeline.Window.ofSpec (Memref.whole main_v108) S1024x256.size cc16_transform_8 reads16_8 true false 2 stage16_8 sem16_8
    hrank16 hreads16_8 hinb16_8 nbuf16_8 (Memref.isWhole_whole _) hwx16_8 hstage16_8

abbrev win16 : Fin 9 → Pipeline.Window sig grid16 := fun | 0 => win16_0 | 1 => win16_1 | 2 => win16_2 | 3 => win16_3 | 4 => win16_4 | 5 => win16_5 | 6 => win16_6 | 7 => win16_7 | 8 => win16_8 | ⟨_ + 9, h⟩ => absurd h (Nat.not_lt.2 (Nat.le_add_left _ _))
abbrev spec16 : Fin 9 → Pipeline.WinSpec sig grid16.rank := fun w => (win16 w).toWinSpec

abbrev idle16 : Fin 9 → grid16.Coords → Bool := fun | 0 => fun _ => false | 1 => fun _ => false | 2 => fun _ => false | 3 => fun _ => false | 4 => fun _ => false | 5 => fun _ => false | 6 => fun _ => false | 7 => fun _ => false | 8 => fun i => !(k16_cond2 i == 1#1) | ⟨_ + 9, h⟩ => absurd h (Nat.not_lt.2 (Nat.le_add_left _ _))

abbrev win17_0 : Pipeline.Window sig grid17 :=
  Pipeline.Window.ofSpec (Memref.whole main_v84) S512x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v110) S256x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v113) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v114) S512x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v84) S512x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v116) S256x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v119) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v120) S512x128.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v6) S512x1.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v7) S512x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v114) S2048x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v120) S2048x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v97) S512x128.size cc19_transform_4 reads19_4 false false 2 stage19_4 sem19_4
    hrank19 hreads19_4 hinb19_4 nbuf19_4 (Memref.isWhole_whole _) hwx19_4 hstage19_4

abbrev win19_5 : Pipeline.Window sig grid19 :=
  Pipeline.Window.ofSpec (Memref.whole main_v121) S512x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

class Facts : Prop extends Facts₀ where

variable [Facts]
-- ==== ReferenceIdeal.lean ====
abbrev S2048x2048 : Shape := ⟨2, ![2048, 2048]⟩
abbrev S32768x2048 : Shape := ⟨2, ![32768, 2048]⟩
abbrev S32768x2 : Shape := ⟨2, ![32768, 2]⟩
abbrev S2048x512 : Shape := ⟨2, ![2048, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S2x51x151 : Shape := ⟨3, ![2, 51, 151]⟩
abbrev S2x151 : Shape := ⟨2, ![2, 151]⟩
abbrev S2x151x51 : Shape := ⟨3, ![2, 151, 51]⟩
abbrev S2x51 : Shape := ⟨2, ![2, 51]⟩
abbrev S512x151 : Shape := ⟨2, ![512, 151]⟩
abbrev S151 : Shape := ⟨1, ![151]⟩
abbrev S512x51 : Shape := ⟨2, ![512, 51]⟩
abbrev S51 : Shape := ⟨1, ![51]⟩
abbrev S32768 : Shape := ⟨1, ![32768]⟩
abbrev S_ : Shape := ⟨0, ![]⟩
abbrev S2048x32768 : Shape := ⟨2, ![2048, 32768]⟩
abbrev S32768x1 : Shape := ⟨2, ![32768, 1]⟩
abbrev S1x512 : Shape := ⟨2, ![1, 512]⟩
abbrev S32768x512 : Shape := ⟨2, ![32768, 512]⟩
abbrev S1x512x512 : Shape := ⟨3, ![1, 512, 512]⟩
abbrev S2048 : Shape := ⟨1, ![2048]⟩
abbrev S2048x1 : Shape := ⟨2, ![2048, 1]⟩
abbrev S2048x151 : Shape := ⟨2, ![2048, 151]⟩
abbrev S1x151 : Shape := ⟨2, ![1, 151]⟩
abbrev S32768x51 : Shape := ⟨2, ![32768, 51]⟩
abbrev S1x51 : Shape := ⟨2, ![1, 51]⟩
abbrev S1x51x151 : Shape := ⟨3, ![1, 51, 151]⟩
abbrev S51x151 : Shape := ⟨2, ![51, 151]⟩
abbrev S32768x151 : Shape := ⟨2, ![32768, 151]⟩
abbrev S1x151x51 : Shape := ⟨3, ![1, 151, 51]⟩
abbrev S151x51 : Shape := ⟨2, ![151, 51]⟩
abbrev S2048x51 : Shape := ⟨2, ![2048, 51]⟩

abbrev nBuf : Space → Nat
  | .hbm => 468
  | .vmem => 0
  | .smem => 0
  | _ => 0

abbrev hbmTy0_0 (i : Nat) : BufTy := match i % 128 with
  | 0 => ⟨S2048x2048, .f32⟩
  | 1 => ⟨S32768x2048, .f32⟩
  | 2 => ⟨S32768x2, .i32⟩
  | 3 => ⟨S2048x512, .f32⟩
  | 4 => ⟨S512, .f32⟩
  | 5 => ⟨S512x512, .f32⟩
  | 6 => ⟨S512, .f32⟩
  | 7 => ⟨S2048x512, .f32⟩
  | 8 => ⟨S512, .f32⟩
  | 9 => ⟨S512x512, .f32⟩
  | 10 => ⟨S512, .f32⟩
  | 11 => ⟨S4x512x512, .f32⟩
  | 12 => ⟨S4x512, .f32⟩
  | 13 => ⟨S2x51x151, .f32⟩
  | 14 => ⟨S2x151, .f32⟩
  | 15 => ⟨S2x151x51, .f32⟩
  | 16 => ⟨S2x51, .f32⟩
  | 17 => ⟨S512x151, .f32⟩
  | 18 => ⟨S151, .f32⟩
  | 19 => ⟨S512x51, .f32⟩
  | 20 => ⟨S51, .f32⟩
  | 21 => ⟨S32768, .i32⟩
  | 22 => ⟨S_, .f32⟩
  | 23 => ⟨S2048x32768, .f32⟩
  | 24 => ⟨S32768x1, .i32⟩
  | 25 => ⟨S32768, .i32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768x1, .i32⟩
  | 42 => ⟨S32768x2, .i32⟩
  | 43 => ⟨S_, .f32⟩
  | 44 => ⟨S32768, .f32⟩
  | 45 => ⟨S2048x32768, .f32⟩
  | 46 => ⟨S_, .f32⟩
  | 47 => ⟨S2048x32768, .f32⟩
  | 48 => ⟨S32768x1, .i32⟩
  | 49 => ⟨S32768, .i32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S32768x1, .i32⟩
  | 65 => ⟨S32768x1, .i32⟩
  | 66 => ⟨S32768x2, .i32⟩
  | 67 => ⟨S_, .f32⟩
  | 68 => ⟨S32768, .f32⟩
  | 69 => ⟨S2048x32768, .f32⟩
  | 70 => ⟨S2048x512, .f32⟩
  | 71 => ⟨S1x512, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S2048x512, .f32⟩
  | 78 => ⟨S1x512, .f32⟩
  | 79 => ⟨S2048x512, .f32⟩
  | 80 => ⟨S2048x512, .f32⟩
  | 81 => ⟨S32768x512, .f32⟩
  | 82 => ⟨S1x512, .f32⟩
  | 83 => ⟨S32768x512, .f32⟩
  | 84 => ⟨S32768x512, .f32⟩
  | 85 => ⟨S_, .f32⟩
  | 86 => ⟨S32768x512, .f32⟩
  | 87 => ⟨S32768x512, .f32⟩
  | 88 => ⟨S32768x512, .f32⟩
  | 89 => ⟨S1x512, .f32⟩
  | 90 => ⟨S32768x512, .f32⟩
  | 91 => ⟨S32768x512, .f32⟩
  | 92 => ⟨S1x512x512, .f32⟩
  | 93 => ⟨S512x512, .f32⟩
  | 94 => ⟨S1x512, .f32⟩
  | 95 => ⟨S512, .f32⟩
  | 96 => ⟨S32768x512, .f32⟩
  | 97 => ⟨S1x512, .f32⟩
  | 98 => ⟨S32768x512, .f32⟩
  | 99 => ⟨S32768x512, .f32⟩
  | 100 => ⟨S_, .f32⟩
  | 101 => ⟨S32768x512, .f32⟩
  | 102 => ⟨S32768x512, .f32⟩
  | 103 => ⟨S2048x512, .f32⟩
  | 104 => ⟨S_, .f32⟩
  | 105 => ⟨S2048, .f32⟩
  | 106 => ⟨S2048x1, .f32⟩
  | 107 => ⟨S_, .f32⟩
  | 108 => ⟨S2048x1, .f32⟩
  | 109 => ⟨S2048x1, .f32⟩
  | 110 => ⟨S2048x512, .f32⟩
  | 111 => ⟨S2048x512, .f32⟩
  | 112 => ⟨S1x512x512, .f32⟩
  | 113 => ⟨S512x512, .f32⟩
  | 114 => ⟨S1x512, .f32⟩
  | 115 => ⟨S512, .f32⟩
  | 116 => ⟨S32768x512, .f32⟩
  | 117 => ⟨S1x512, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S2048x512, .f32⟩
  | 124 => ⟨S_, .f32⟩
  | 125 => ⟨S2048, .f32⟩
  | 126 => ⟨S2048x1, .f32⟩
  | 127 => ⟨S_, .f32⟩
  | _ => ⟨S2048x2048, .f32⟩

abbrev hbmTy0_1 (i : Nat) : BufTy := match i % 128 with
  | 0 => ⟨S2048x1, .f32⟩
  | 1 => ⟨S2048x1, .f32⟩
  | 2 => ⟨S2048x512, .f32⟩
  | 3 => ⟨S2048x512, .f32⟩
  | 4 => ⟨S2048x512, .f32⟩
  | 5 => ⟨S_, .f32⟩
  | 6 => ⟨S2048x512, .f32⟩
  | 7 => ⟨S2048x512, .f32⟩
  | 8 => ⟨S2048x512, .f32⟩
  | 9 => ⟨S32768x2048, .f32⟩
  | 10 => ⟨S1x512x512, .f32⟩
  | 11 => ⟨S512x512, .f32⟩
  | 12 => ⟨S1x512, .f32⟩
  | 13 => ⟨S512, .f32⟩
  | 14 => ⟨S2048x512, .f32⟩
  | 15 => ⟨S1x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S32768x512, .f32⟩
  | 22 => ⟨S_, .f32⟩
  | 23 => ⟨S32768, .f32⟩
  | 24 => ⟨S32768x1, .f32⟩
  | 25 => ⟨S_, .f32⟩
  | 26 => ⟨S32768x1, .f32⟩
  | 27 => ⟨S32768x1, .f32⟩
  | 28 => ⟨S32768x512, .f32⟩
  | 29 => ⟨S32768x512, .f32⟩
  | 30 => ⟨S32768x2048, .f32⟩
  | 31 => ⟨S1x512x512, .f32⟩
  | 32 => ⟨S512x512, .f32⟩
  | 33 => ⟨S1x512, .f32⟩
  | 34 => ⟨S512, .f32⟩
  | 35 => ⟨S2048x512, .f32⟩
  | 36 => ⟨S1x512, .f32⟩
  | 37 => ⟨S2048x512, .f32⟩
  | 38 => ⟨S2048x512, .f32⟩
  | 39 => ⟨S_, .f32⟩
  | 40 => ⟨S2048x512, .f32⟩
  | 41 => ⟨S2048x512, .f32⟩
  | 42 => ⟨S32768x512, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S32768x512, .f32⟩
  | 50 => ⟨S32768x512, .f32⟩
  | 51 => ⟨S32768x512, .f32⟩
  | 52 => ⟨S_, .f32⟩
  | 53 => ⟨S32768x512, .f32⟩
  | 54 => ⟨S32768x512, .f32⟩
  | 55 => ⟨S32768x512, .f32⟩
  | 56 => ⟨S1x512x512, .f32⟩
  | 57 => ⟨S512x512, .f32⟩
  | 58 => ⟨S1x512, .f32⟩
  | 59 => ⟨S512, .f32⟩
  | 60 => ⟨S32768x512, .f32⟩
  | 61 => ⟨S1x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S2048x512, .f32⟩
  | 68 => ⟨S_, .f32⟩
  | 69 => ⟨S2048, .f32⟩
  | 70 => ⟨S2048x1, .f32⟩
  | 71 => ⟨S_, .f32⟩
  | 72 => ⟨S2048x1, .f32⟩
  | 73 => ⟨S2048x1, .f32⟩
  | 74 => ⟨S2048x512, .f32⟩
  | 75 => ⟨S2048x512, .f32⟩
  | 76 => ⟨S1x512x512, .f32⟩
  | 77 => ⟨S512x512, .f32⟩
  | 78 => ⟨S1x512, .f32⟩
  | 79 => ⟨S512, .f32⟩
  | 80 => ⟨S32768x512, .f32⟩
  | 81 => ⟨S1x512, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S2048x512, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S2048x512, .f32⟩
  | 95 => ⟨S2048x512, .f32⟩
  | 96 => ⟨S2048x512, .f32⟩
  | 97 => ⟨S_, .f32⟩
  | 98 => ⟨S2048x512, .f32⟩
  | 99 => ⟨S2048x512, .f32⟩
  | 100 => ⟨S2048x512, .f32⟩
  | 101 => ⟨S32768x2048, .f32⟩
  | 102 => ⟨S1x512x512, .f32⟩
  | 103 => ⟨S512x512, .f32⟩
  | 104 => ⟨S1x512, .f32⟩
  | 105 => ⟨S512, .f32⟩
  | 106 => ⟨S2048x512, .f32⟩
  | 107 => ⟨S1x512, .f32⟩
  | 108 => ⟨S2048x512, .f32⟩
  | 109 => ⟨S2048x512, .f32⟩
  | 110 => ⟨S_, .f32⟩
  | 111 => ⟨S2048x512, .f32⟩
  | 112 => ⟨S2048x512, .f32⟩
  | 113 => ⟨S32768x512, .f32⟩
  | 114 => ⟨S_, .f32⟩
  | 115 => ⟨S32768, .f32⟩
  | 116 => ⟨S32768x1, .f32⟩
  | 117 => ⟨S_, .f32⟩
  | 118 => ⟨S32768x1, .f32⟩
  | 119 => ⟨S32768x1, .f32⟩
  | 120 => ⟨S32768x512, .f32⟩
  | 121 => ⟨S32768x512, .f32⟩
  | 122 => ⟨S32768x2048, .f32⟩
  | 123 => ⟨S1x512x512, .f32⟩
  | 124 => ⟨S512x512, .f32⟩
  | 125 => ⟨S1x512, .f32⟩
  | 126 => ⟨S512, .f32⟩
  | 127 => ⟨S2048x512, .f32⟩
  | _ => ⟨S2048x2048, .f32⟩

abbrev hbmTy0_2 (i : Nat) : BufTy := match i % 128 with
  | 0 => ⟨S1x512, .f32⟩
  | 1 => ⟨S2048x512, .f32⟩
  | 2 => ⟨S2048x512, .f32⟩
  | 3 => ⟨S_, .f32⟩
  | 4 => ⟨S2048x512, .f32⟩
  | 5 => ⟨S2048x512, .f32⟩
  | 6 => ⟨S32768x512, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S32768x512, .f32⟩
  | 14 => ⟨S32768x512, .f32⟩
  | 15 => ⟨S32768x512, .f32⟩
  | 16 => ⟨S_, .f32⟩
  | 17 => ⟨S32768x512, .f32⟩
  | 18 => ⟨S32768x512, .f32⟩
  | 19 => ⟨S32768x512, .f32⟩
  | 20 => ⟨S2048x151, .f32⟩
  | 21 => ⟨S1x151, .f32⟩
  | 22 => ⟨S2048x151, .f32⟩
  | 23 => ⟨S2048x151, .f32⟩
  | 24 => ⟨S32768x51, .f32⟩
  | 25 => ⟨S1x51, .f32⟩
  | 26 => ⟨S32768x51, .f32⟩
  | 27 => ⟨S32768x51, .f32⟩
  | 28 => ⟨S1x51x151, .f32⟩
  | 29 => ⟨S51x151, .f32⟩
  | 30 => ⟨S1x151, .f32⟩
  | 31 => ⟨S151, .f32⟩
  | 32 => ⟨S32768x151, .f32⟩
  | 33 => ⟨S1x151, .f32⟩
  | 34 => ⟨S32768x151, .f32⟩
  | 35 => ⟨S32768x151, .f32⟩
  | 36 => ⟨S_, .f32⟩
  | 37 => ⟨S32768x151, .f32⟩
  | 38 => ⟨S32768x151, .f32⟩
  | 39 => ⟨S2048x151, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S2048x151, .f32⟩
  | 47 => ⟨S2048x151, .f32⟩
  | 48 => ⟨S1x51x151, .f32⟩
  | 49 => ⟨S51x151, .f32⟩
  | 50 => ⟨S1x151, .f32⟩
  | 51 => ⟨S151, .f32⟩
  | 52 => ⟨S32768x151, .f32⟩
  | 53 => ⟨S1x151, .f32⟩
  | 54 => ⟨S32768x151, .f32⟩
  | 55 => ⟨S32768x151, .f32⟩
  | 56 => ⟨S_, .f32⟩
  | 57 => ⟨S32768x151, .f32⟩
  | 58 => ⟨S32768x151, .f32⟩
  | 59 => ⟨S2048x151, .f32⟩
  | 60 => ⟨S_, .f32⟩
  | 61 => ⟨S2048, .f32⟩
  | 62 => ⟨S2048x1, .f32⟩
  | 63 => ⟨S_, .f32⟩
  | 64 => ⟨S2048x1, .f32⟩
  | 65 => ⟨S2048x1, .f32⟩
  | 66 => ⟨S2048x151, .f32⟩
  | 67 => ⟨S2048x151, .f32⟩
  | 68 => ⟨S2048x151, .f32⟩
  | 69 => ⟨S_, .f32⟩
  | 70 => ⟨S2048x151, .f32⟩
  | 71 => ⟨S2048x151, .f32⟩
  | 72 => ⟨S2048x151, .f32⟩
  | 73 => ⟨S32768x2048, .f32⟩
  | 74 => ⟨S1x151x51, .f32⟩
  | 75 => ⟨S151x51, .f32⟩
  | 76 => ⟨S1x51, .f32⟩
  | 77 => ⟨S51, .f32⟩
  | 78 => ⟨S2048x51, .f32⟩
  | 79 => ⟨S1x51, .f32⟩
  | 80 => ⟨S2048x51, .f32⟩
  | 81 => ⟨S2048x51, .f32⟩
  | 82 => ⟨S_, .f32⟩
  | 83 => ⟨S2048x51, .f32⟩
  | 84 => ⟨S2048x51, .f32⟩
  | 85 => ⟨S32768x51, .f32⟩
  | 86 => ⟨S_, .f32⟩
  | 87 => ⟨S32768, .f32⟩
  | 88 => ⟨S32768x1, .f32⟩
  | 89 => ⟨S_, .f32⟩
  | 90 => ⟨S32768x1, .f32⟩
  | 91 => ⟨S32768x1, .f32⟩
  | 92 => ⟨S32768x51, .f32⟩
  | 93 => ⟨S32768x51, .f32⟩
  | 94 => ⟨S32768x2048, .f32⟩
  | 95 => ⟨S1x151x51, .f32⟩
  | 96 => ⟨S151x51, .f32⟩
  | 97 => ⟨S1x51, .f32⟩
  | 98 => ⟨S51, .f32⟩
  | 99 => ⟨S2048x51, .f32⟩
  | 100 => ⟨S1x51, .f32⟩
  | 101 => ⟨S2048x51, .f32⟩
  | 102 => ⟨S2048x51, .f32⟩
  | 103 => ⟨S_, .f32⟩
  | 104 => ⟨S2048x51, .f32⟩
  | 105 => ⟨S2048x51, .f32⟩
  | 106 => ⟨S32768x51, .f32⟩
  | 107 => ⟨S_, .f32⟩
  | 108 => ⟨S32768, .f32⟩
  | 109 => ⟨S32768x1, .f32⟩
  | 110 => ⟨S_, .f32⟩
  | 111 => ⟨S32768x1, .f32⟩
  | 112 => ⟨S32768x1, .f32⟩
  | 113 => ⟨S32768x51, .f32⟩
  | 114 => ⟨S32768x51, .f32⟩
  | 115 => ⟨S32768x51, .f32⟩
  | 116 => ⟨S_, .f32⟩
  | 117 => ⟨S32768x51, .f32⟩
  | 118 => ⟨S32768x51, .f32⟩
  | 119 => ⟨S32768x51, .f32⟩
  | 120 => ⟨S1x51x151, .f32⟩
  | 121 => ⟨S51x151, .f32⟩
  | 122 => ⟨S1x151, .f32⟩
  | 123 => ⟨S151, .f32⟩
  | 124 => ⟨S32768x151, .f32⟩
  | 125 => ⟨S1x151, .f32⟩
  | 126 => ⟨S32768x151, .f32⟩
  | 127 => ⟨S32768x151, .f32⟩
  | _ => ⟨S2048x2048, .f32⟩

abbrev hbmTy0_3 (i : Nat) : BufTy := match i % 128 with
  | 0 => ⟨S_, .f32⟩
  | 1 => ⟨S32768x151, .f32⟩
  | 2 => ⟨S32768x151, .f32⟩
  | 3 => ⟨S2048x151, .f32⟩
  | 4 => ⟨S_, .f32⟩
  | 5 => ⟨S2048, .f32⟩
  | 6 => ⟨S2048x1, .f32⟩
  | 7 => ⟨S_, .f32⟩
  | 8 => ⟨S2048x1, .f32⟩
  | 9 => ⟨S2048x1, .f32⟩
  | 10 => ⟨S2048x151, .f32⟩
  | 11 => ⟨S2048x151, .f32⟩
  | 12 => ⟨S1x51x151, .f32⟩
  | 13 => ⟨S51x151, .f32⟩
  | 14 => ⟨S1x151, .f32⟩
  | 15 => ⟨S151, .f32⟩
  | 16 => ⟨S32768x151, .f32⟩
  | 17 => ⟨S1x151, .f32⟩
  | 18 => ⟨S32768x151, .f32⟩
  | 19 => ⟨S32768x151, .f32⟩
  | 20 => ⟨S_, .f32⟩
  | 21 => ⟨S32768x151, .f32⟩
  | 22 => ⟨S32768x151, .f32⟩
  | 23 => ⟨S2048x151, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S2048x151, .f32⟩
  | 31 => ⟨S2048x151, .f32⟩
  | 32 => ⟨S2048x151, .f32⟩
  | 33 => ⟨S_, .f32⟩
  | 34 => ⟨S2048x151, .f32⟩
  | 35 => ⟨S2048x151, .f32⟩
  | 36 => ⟨S2048x151, .f32⟩
  | 37 => ⟨S32768x2048, .f32⟩
  | 38 => ⟨S1x151x51, .f32⟩
  | 39 => ⟨S151x51, .f32⟩
  | 40 => ⟨S1x51, .f32⟩
  | 41 => ⟨S51, .f32⟩
  | 42 => ⟨S2048x51, .f32⟩
  | 43 => ⟨S1x51, .f32⟩
  | 44 => ⟨S2048x51, .f32⟩
  | 45 => ⟨S2048x51, .f32⟩
  | 46 => ⟨S_, .f32⟩
  | 47 => ⟨S2048x51, .f32⟩
  | 48 => ⟨S2048x51, .f32⟩
  | 49 => ⟨S32768x51, .f32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S32768x51, .f32⟩
  | 57 => ⟨S32768x51, .f32⟩
  | 58 => ⟨S32768x2048, .f32⟩
  | 59 => ⟨S1x151x51, .f32⟩
  | 60 => ⟨S151x51, .f32⟩
  | 61 => ⟨S1x51, .f32⟩
  | 62 => ⟨S51, .f32⟩
  | 63 => ⟨S2048x51, .f32⟩
  | 64 => ⟨S1x51, .f32⟩
  | 65 => ⟨S2048x51, .f32⟩
  | 66 => ⟨S2048x51, .f32⟩
  | 67 => ⟨S_, .f32⟩
  | 68 => ⟨S2048x51, .f32⟩
  | 69 => ⟨S2048x51, .f32⟩
  | 70 => ⟨S32768x51, .f32⟩
  | 71 => ⟨S_, .f32⟩
  | 72 => ⟨S32768, .f32⟩
  | 73 => ⟨S32768x1, .f32⟩
  | 74 => ⟨S_, .f32⟩
  | 75 => ⟨S32768x1, .f32⟩
  | 76 => ⟨S32768x1, .f32⟩
  | 77 => ⟨S32768x51, .f32⟩
  | 78 => ⟨S32768x51, .f32⟩
  | 79 => ⟨S32768x51, .f32⟩
  | 80 => ⟨S_, .f32⟩
  | 81 => ⟨S32768x51, .f32⟩
  | 82 => ⟨S32768x51, .f32⟩
  | 83 => ⟨S32768x51, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call0_cst : Ref sig .tc := ⟨.hbm, 74, rfl⟩
abbrev main_call0_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call1_cst : Ref sig .tc := ⟨.hbm, 85, rfl⟩
abbrev main_call1_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call2_cst : Ref sig .tc := ⟨.hbm, 100, rfl⟩
abbrev main_call2_v0 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_cst_11 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call3_cst : Ref sig .tc := ⟨.hbm, 120, rfl⟩
abbrev main_call3_v0 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_cst_13 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_14 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call4_cst : Ref sig .tc := ⟨.hbm, 146, rfl⟩
abbrev main_call4_v0 : Ref sig .tc := ⟨.hbm, 147, rfl⟩
abbrev main_v100 : Ref sig .tc := ⟨.hbm, 148, rfl⟩
abbrev main_v101 : Ref sig .tc := ⟨.hbm, 149, rfl⟩
abbrev main_cst_15 : Ref sig .tc := ⟨.hbm, 150, rfl⟩
abbrev main_v102 : Ref sig .tc := ⟨.hbm, 151, rfl⟩
abbrev main_v103 : Ref sig .tc := ⟨.hbm, 152, rfl⟩
abbrev main_cst_16 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call5_cst : Ref sig .tc := ⟨.hbm, 167, rfl⟩
abbrev main_call5_v0 : Ref sig .tc := ⟨.hbm, 168, rfl⟩
abbrev main_v117 : Ref sig .tc := ⟨.hbm, 169, rfl⟩
abbrev main_v118 : Ref sig .tc := ⟨.hbm, 170, rfl⟩
abbrev main_cst_17 : Ref sig .tc := ⟨.hbm, 171, rfl⟩
abbrev main_v119 : Ref sig .tc := ⟨.hbm, 172, rfl⟩
abbrev main_v120 : Ref sig .tc := ⟨.hbm, 173, rfl⟩
abbrev main_cst_18 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_19 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call6_cst : Ref sig .tc := ⟨.hbm, 192, rfl⟩
abbrev main_call6_v0 : Ref sig .tc := ⟨.hbm, 193, rfl⟩
abbrev main_v137 : Ref sig .tc := ⟨.hbm, 194, rfl⟩
abbrev main_v138 : Ref sig .tc := ⟨.hbm, 195, rfl⟩
abbrev main_cst_20 : Ref sig .tc := ⟨.hbm, 196, rfl⟩
abbrev main_v139 : Ref sig .tc := ⟨.hbm, 197, rfl⟩
abbrev main_v140 : Ref sig .tc := ⟨.hbm, 198, rfl⟩
abbrev main_cst_21 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_call7_cst : Ref sig .tc := ⟨.hbm, 212, rfl⟩
abbrev main_call7_v0 : Ref sig .tc := ⟨.hbm, 213, rfl⟩
abbrev main_v153 : Ref sig .tc := ⟨.hbm, 214, rfl⟩
abbrev main_v154 : Ref sig .tc := ⟨.hbm, 215, rfl⟩
abbrev main_cst_22 : Ref sig .tc := ⟨.hbm, 216, rfl⟩
abbrev main_v155 : Ref sig .tc := ⟨.hbm, 217, rfl⟩
abbrev main_v156 : Ref sig .tc := ⟨.hbm, 218, rfl⟩
abbrev main_cst_23 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_24 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_call8_cst : Ref sig .tc := ⟨.hbm, 238, rfl⟩
abbrev main_call8_v0 : Ref sig .tc := ⟨.hbm, 239, rfl⟩
abbrev main_v174 : Ref sig .tc := ⟨.hbm, 240, rfl⟩
abbrev main_v175 : Ref sig .tc := ⟨.hbm, 241, rfl⟩
abbrev main_cst_25 : Ref sig .tc := ⟨.hbm, 242, rfl⟩
abbrev main_v176 : Ref sig .tc := ⟨.hbm, 243, rfl⟩
abbrev main_v177 : Ref sig .tc := ⟨.hbm, 244, rfl⟩
abbrev main_cst_26 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_call9_cst : Ref sig .tc := ⟨.hbm, 259, rfl⟩
abbrev main_call9_v0 : Ref sig .tc := ⟨.hbm, 260, rfl⟩
abbrev main_v191 : Ref sig .tc := ⟨.hbm, 261, rfl⟩
abbrev main_v192 : Ref sig .tc := ⟨.hbm, 262, rfl⟩
abbrev main_cst_27 : Ref sig .tc := ⟨.hbm, 263, rfl⟩
abbrev main_v193 : Ref sig .tc := ⟨.hbm, 264, rfl⟩
abbrev main_v194 : Ref sig .tc := ⟨.hbm, 265, rfl⟩
abbrev main_cst_28 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_29 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_call10_cst : Ref sig .tc := ⟨.hbm, 292, rfl⟩
abbrev main_call10_v0 : Ref sig .tc := ⟨.hbm, 293, rfl⟩
abbrev main_v219 : Ref sig .tc := ⟨.hbm, 294, rfl⟩
abbrev main_v220 : Ref sig .tc := ⟨.hbm, 295, rfl⟩
abbrev main_cst_30 : Ref sig .tc := ⟨.hbm, 296, rfl⟩
abbrev main_v221 : Ref sig .tc := ⟨.hbm, 297, rfl⟩
abbrev main_v222 : Ref sig .tc := ⟨.hbm, 298, rfl⟩
abbrev main_cst_31 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_call11_cst : Ref sig .tc := ⟨.hbm, 312, rfl⟩
abbrev main_call11_v0 : Ref sig .tc := ⟨.hbm, 313, rfl⟩
abbrev main_v235 : Ref sig .tc := ⟨.hbm, 314, rfl⟩
abbrev main_v236 : Ref sig .tc := ⟨.hbm, 315, rfl⟩
abbrev main_cst_32 : Ref sig .tc := ⟨.hbm, 316, rfl⟩
abbrev main_v237 : Ref sig .tc := ⟨.hbm, 317, rfl⟩
abbrev main_v238 : Ref sig .tc := ⟨.hbm, 318, rfl⟩
abbrev main_cst_33 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_cst_34 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_call12_cst : Ref sig .tc := ⟨.hbm, 338, rfl⟩
abbrev main_call12_v0 : Ref sig .tc := ⟨.hbm, 339, rfl⟩
abbrev main_v256 : Ref sig .tc := ⟨.hbm, 340, rfl⟩
abbrev main_v257 : Ref sig .tc := ⟨.hbm, 341, rfl⟩
abbrev main_cst_35 : Ref sig .tc := ⟨.hbm, 342, rfl⟩
abbrev main_v258 : Ref sig .tc := ⟨.hbm, 343, rfl⟩
abbrev main_v259 : Ref sig .tc := ⟨.hbm, 344, rfl⟩
abbrev main_cst_36 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_call13_cst : Ref sig .tc := ⟨.hbm, 359, rfl⟩
abbrev main_call13_v0 : Ref sig .tc := ⟨.hbm, 360, rfl⟩
abbrev main_v273 : Ref sig .tc := ⟨.hbm, 361, rfl⟩
abbrev main_v274 : Ref sig .tc := ⟨.hbm, 362, rfl⟩
abbrev main_cst_37 : Ref sig .tc := ⟨.hbm, 363, rfl⟩
abbrev main_v275 : Ref sig .tc := ⟨.hbm, 364, rfl⟩
abbrev main_v276 : Ref sig .tc := ⟨.hbm, 365, rfl⟩
abbrev main_cst_38 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_cst_39 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_call14_cst : Ref sig .tc := ⟨.hbm, 384, rfl⟩
abbrev main_call14_v0 : Ref sig .tc := ⟨.hbm, 385, rfl⟩
abbrev main_v293 : Ref sig .tc := ⟨.hbm, 386, rfl⟩
abbrev main_v294 : Ref sig .tc := ⟨.hbm, 387, rfl⟩
abbrev main_cst_40 : Ref sig .tc := ⟨.hbm, 388, rfl⟩
abbrev main_v295 : Ref sig .tc := ⟨.hbm, 389, rfl⟩
abbrev main_v296 : Ref sig .tc := ⟨.hbm, 390, rfl⟩
abbrev main_cst_41 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_v301 : Ref sig .tc := ⟨.hbm, 396, rfl⟩
abbrev main_v302 : Ref sig .tc := ⟨.hbm, 397, rfl⟩
abbrev main_v303 : Ref sig .tc := ⟨.hbm, 398, rfl⟩
abbrev main_v304 : Ref sig .tc := ⟨.hbm, 399, rfl⟩
abbrev main_v305 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_call15_cst : Ref sig .tc := ⟨.hbm, 404, rfl⟩
abbrev main_call15_v0 : Ref sig .tc := ⟨.hbm, 405, rfl⟩
abbrev main_v309 : Ref sig .tc := ⟨.hbm, 406, rfl⟩
abbrev main_v310 : Ref sig .tc := ⟨.hbm, 407, rfl⟩
abbrev main_cst_42 : Ref sig .tc := ⟨.hbm, 408, rfl⟩
abbrev main_v311 : Ref sig .tc := ⟨.hbm, 409, rfl⟩
abbrev main_v312 : Ref sig .tc := ⟨.hbm, 410, rfl⟩
abbrev main_cst_43 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_cst_44 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_v325 : Ref sig .tc := ⟨.hbm, 425, rfl⟩
abbrev main_v326 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_call16_cst : Ref sig .tc := ⟨.hbm, 430, rfl⟩
abbrev main_call16_v0 : Ref sig .tc := ⟨.hbm, 431, rfl⟩
abbrev main_v330 : Ref sig .tc := ⟨.hbm, 432, rfl⟩
abbrev main_v331 : Ref sig .tc := ⟨.hbm, 433, rfl⟩
abbrev main_cst_45 : Ref sig .tc := ⟨.hbm, 434, rfl⟩
abbrev main_v332 : Ref sig .tc := ⟨.hbm, 435, rfl⟩
abbrev main_v333 : Ref sig .tc := ⟨.hbm, 436, rfl⟩
abbrev main_cst_46 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_v340 : Ref sig .tc := ⟨.hbm, 444, rfl⟩
abbrev main_v341 : Ref sig .tc := ⟨.hbm, 445, rfl⟩
abbrev main_v342 : Ref sig .tc := ⟨.hbm, 446, rfl⟩
abbrev main_v343 : Ref sig .tc := ⟨.hbm, 447, rfl⟩
abbrev main_v344 : Ref sig .tc := ⟨.hbm, 448, rfl⟩
abbrev main_v345 : Ref sig .tc := ⟨.hbm, 449, rfl⟩
abbrev main_v346 : Ref sig .tc := ⟨.hbm, 450, rfl⟩
abbrev main_call17_cst : Ref sig .tc := ⟨.hbm, 451, rfl⟩
abbrev main_call17_v0 : Ref sig .tc := ⟨.hbm, 452, rfl⟩
abbrev main_v347 : Ref sig .tc := ⟨.hbm, 453, rfl⟩
abbrev main_v348 : Ref sig .tc := ⟨.hbm, 454, rfl⟩
abbrev main_cst_47 : Ref sig .tc := ⟨.hbm, 455, rfl⟩
abbrev main_v349 : Ref sig .tc := ⟨.hbm, 456, rfl⟩
abbrev main_v350 : Ref sig .tc := ⟨.hbm, 457, rfl⟩
abbrev main_cst_48 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_cst_49 : Ref sig .tc := ⟨.hbm, 464, rfl⟩
abbrev main_v356 : Ref sig .tc := ⟨.hbm, 465, rfl⟩
abbrev main_v357 : Ref sig .tc := ⟨.hbm, 466, rfl⟩
abbrev main_v358 : Ref sig .tc := ⟨.hbm, 467, rfl⟩

abbrev nD : Nat := 1
abbrev τ : Topo := Topo.v7x

variable {F : FTy → Type} [FloatOps F]

class Facts₀ : Prop where
  bcast_S_S2048x32768 : S_.BroadcastsInDim S2048x32768 (![] : Fin 0 → Fin S2048x32768.rank)
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  slices_S32768x2_S32768x1_0_1 : S32768x2.Slices ![0, 1] S32768x1
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  reducesTo_S2048x32768_S2048_d1 : S2048x32768.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  slices_S4x512x512_S1x512x512_1_0_0 : S4x512x512.Slices ![1, 0, 0] S1x512x512
  slices_S4x512_S1x512_1_0 : S4x512.Slices ![1, 0] S1x512
  transposes_S2048x32768_S32768x2048_1_0 : S2048x32768.Transposes [1, 0] S32768x2048
  slices_S4x512x512_S1x512x512_2_0_0 : S4x512x512.Slices ![2, 0, 0] S1x512x512
  slices_S4x512_S1x512_2_0 : S4x512.Slices ![2, 0] S1x512
  reducesTo_S32768x2048_S32768_d1 : S32768x2048.ReducesTo [1] S32768
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  slices_S4x512x512_S1x512x512_3_0_0 : S4x512x512.Slices ![3, 0, 0] S1x512x512
  slices_S4x512_S1x512_3_0 : S4x512.Slices ![3, 0] S1x512
  bcast_S151_S1x151_1 : S151.BroadcastsInDim S1x151 (![1] : Fin 1 → Fin S1x151.rank)
  bcast_S1x151_S2048x151_0_1 : S1x151.BroadcastsInDim S2048x151 (![0, 1] : Fin 2 → Fin S2048x151.rank)
  bcast_S51_S1x51_1 : S51.BroadcastsInDim S1x51 (![1] : Fin 1 → Fin S1x51.rank)
  bcast_S1x51_S32768x51_0_1 : S1x51.BroadcastsInDim S32768x51 (![0, 1] : Fin 2 → Fin S32768x51.rank)
  slices_S2x51x151_S1x51x151_0_0_0 : S2x51x151.Slices ![0, 0, 0] S1x51x151
  shapeCasts_S1x51x151_S51x151 : S1x51x151.ShapeCasts S51x151
  slices_S2x151_S1x151_0_0 : S2x151.Slices ![0, 0] S1x151
  shapeCasts_S1x151_S151 : S1x151.ShapeCasts S151
  bcast_S1x151_S32768x151_0_1 : S1x151.BroadcastsInDim S32768x151 (![0, 1] : Fin 2 → Fin S32768x151.rank)
  bcast_S_S32768x151 : S_.BroadcastsInDim S32768x151 (![] : Fin 0 → Fin S32768x151.rank)
  bcast_S2048x1_S2048x151_0_1 : S2048x1.BroadcastsInDim S2048x151 (![0, 1] : Fin 2 → Fin S2048x151.rank)
  slices_S2x51x151_S1x51x151_1_0_0 : S2x51x151.Slices ![1, 0, 0] S1x51x151
  slices_S2x151_S1x151_1_0 : S2x151.Slices ![1, 0] S1x151
  bcast_S_S2048x151 : S_.BroadcastsInDim S2048x151 (![] : Fin 0 → Fin S2048x151.rank)
  slices_S2x151x51_S1x151x51_0_0_0 : S2x151x51.Slices ![0, 0, 0] S1x151x51
  shapeCasts_S1x151x51_S151x51 : S1x151x51.ShapeCasts S151x51
  slices_S2x51_S1x51_0_0 : S2x51.Slices ![0, 0] S1x51
  shapeCasts_S1x51_S51 : S1x51.ShapeCasts S51
  bcast_S1x51_S2048x51_0_1 : S1x51.BroadcastsInDim S2048x51 (![0, 1] : Fin 2 → Fin S2048x51.rank)
  bcast_S_S2048x51 : S_.BroadcastsInDim S2048x51 (![] : Fin 0 → Fin S2048x51.rank)
  bcast_S32768x1_S32768x51_0_1 : S32768x1.BroadcastsInDim S32768x51 (![0, 1] : Fin 2 → Fin S32768x51.rank)
  slices_S2x151x51_S1x151x51_1_0_0 : S2x151x51.Slices ![1, 0, 0] S1x151x51
  slices_S2x51_S1x51_1_0 : S2x51.Slices ![1, 0] S1x51
  bcast_S_S32768x51 : S_.BroadcastsInDim S32768x51 (![] : Fin 0 → Fin S32768x51.rank)
  scatter_S2048x32768_S32768x2_S32768_n_01_01_1_wf : ScatterDims.WF S2048x32768 S32768x2 S32768 [] [0, 1] [0, 1] 1
  dot_S2048x2048_S2048x512_S2048x512_1_0_0_1_n_n_wf : DotDims.WF S2048x2048 S2048x512 S2048x512 [1] [0] [0] [1] [] []
  dot_S2048x512_S512x512_S2048x512_1_0_0_1_n_n_wf : DotDims.WF S2048x512 S512x512 S2048x512 [1] [0] [0] [1] [] []
  dot_S32768x2048_S2048x512_S32768x512_1_0_0_1_n_n_wf : DotDims.WF S32768x2048 S2048x512 S32768x512 [1] [0] [0] [1] [] []
  dot_S32768x512_S512x512_S32768x512_1_0_0_1_n_n_wf : DotDims.WF S32768x512 S512x512 S32768x512 [1] [0] [0] [1] [] []
  dot_S2048x32768_S32768x512_S2048x512_1_0_0_1_n_n_wf : DotDims.WF S2048x32768 S32768x512 S2048x512 [1] [0] [0] [1] [] []
  dot_S2048x512_S512x151_S2048x151_1_0_0_1_n_n_wf : DotDims.WF S2048x512 S512x151 S2048x151 [1] [0] [0] [1] [] []
  dot_S32768x512_S512x51_S32768x51_1_0_0_1_n_n_wf : DotDims.WF S32768x512 S512x51 S32768x51 [1] [0] [0] [1] [] []
  dot_S32768x51_S51x151_S32768x151_1_0_0_1_n_n_wf : DotDims.WF S32768x51 S51x151 S32768x151 [1] [0] [0] [1] [] []
  dot_S2048x32768_S32768x151_S2048x151_1_0_0_1_n_n_wf : DotDims.WF S2048x32768 S32768x151 S2048x151 [1] [0] [0] [1] [] []
  dot_S2048x151_S151x51_S2048x51_1_0_0_1_n_n_wf : DotDims.WF S2048x151 S151x51 S2048x51 [1] [0] [0] [1] [] []
  dot_S32768x2048_S2048x51_S32768x51_1_0_0_1_n_n_wf : DotDims.WF S32768x2048 S2048x51 S32768x51 [1] [0] [0] [1] [] []

variable [Facts₀]

def scatter_S2048x32768_S32768x2_S32768_n_01_01_1 : ScatterDims S2048x32768 S32768x2 S32768 where
  updateWindowDims := []
  insertedWindowDims := [0, 1]
  scatterDimsToOperandDims := [0, 1]
  indexVectorDim := 1
  wf := scatter_S2048x32768_S32768x2_S32768_n_01_01_1_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S2048x32768_S32768x512_S2048x512_1_0_0_1_n_n : DotDims S2048x32768 S32768x512 S2048x512 where
  lhsContracting := [1]
  rhsContracting := [0]
  lhsNonContracting := [0]
  rhsNonContracting := [1]
  lhsBatch := []
  rhsBatch := []
  wf := dot_S2048x32768_S32768x512_S2048x512_1_0_0_1_n_n_wf
def dot_S2048x512_S512x151_S2048x151_1_0_0_1_n_n : DotDims S2048x512 S512x151 S2048x151 where
  lhsContracting := [1]
  rhsContracting := [0]
  lhsNonContracting := [0]
  rhsNonContracting := [1]
  lhsBatch := []
  rhsBatch := []
  wf := dot_S2048x512_S512x151_S2048x151_1_0_0_1_n_n_wf
def dot_S32768x512_S512x51_S32768x51_1_0_0_1_n_n : DotDims S32768x512 S512x51 S32768x51 where
  lhsContracting := [1]
  rhsContracting := [0]
  lhsNonContracting := [0]
  rhsNonContracting := [1]
  lhsBatch := []
  rhsBatch := []
  wf := dot_S32768x512_S512x51_S32768x51_1_0_0_1_n_n_wf
def dot_S32768x51_S51x151_S32768x151_1_0_0_1_n_n : DotDims S32768x51 S51x151 S32768x151 where
  lhsContracting := [1]
  rhsContracting := [0]
  lhsNonContracting := [0]
  rhsNonContracting := [1]
  lhsBatch := []
  rhsBatch := []
  wf := dot_S32768x51_S51x151_S32768x151_1_0_0_1_n_n_wf
def dot_S2048x32768_S32768x151_S2048x151_1_0_0_1_n_n : DotDims S2048x32768 S32768x151 S2048x151 where
  lhsContracting := [1]
  rhsContracting := [0]
  lhsNonContracting := [0]
  rhsNonContracting := [1]
  lhsBatch := []
  rhsBatch := []
  wf := dot_S2048x32768_S32768x151_S2048x151_1_0_0_1_n_n_wf
def dot_S2048x151_S151x51_S2048x51_1_0_0_1_n_n : DotDims S2048x151 S151x51 S2048x51 where
  lhsContracting := [1]
  rhsContracting := [0]
  lhsNonContracting := [0]
  rhsNonContracting := [1]
  lhsBatch := []
  rhsBatch := []
  wf := dot_S2048x151_S151x51_S2048x51_1_0_0_1_n_n_wf
def dot_S32768x2048_S2048x51_S32768x51_1_0_0_1_n_n : DotDims S32768x2048 S2048x51 S32768x51 where
  lhsContracting := [1]
  rhsContracting := [0]
  lhsNonContracting := [0]
  rhsNonContracting := [1]
  lhsBatch := []
  rhsBatch := []
  wf := dot_S32768x2048_S2048x51_S32768x51_1_0_0_1_n_n_wf

class Facts : Prop extends Facts₀ where

variable [Facts]
-- ==== Proof.KB.Reg0.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two-layer perceptron on a block of 512 rows, four blocks in all

The region reads six windows: the 512 rows of the features it is on (window 0), the first layer's weights and bias
(windows 1, 2), the second layer's weights and bias (windows 3, 4), each of the last four whole at every point, and
writes the block's 512 rows of the result (window 5). Everything here is at a parameter `V`: the contents of the
core's buffers when the region is entered. -/

/-- The block of window `w` at grid point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data have `V`'s array for it and leave its block where the body found it, the
    staging buffer the body is handed at a point holds the window's block there. If the point fetched it, that is the
    fetch; if not, the block index has not moved since the last fetch and the block is still the one fetched then. The
    window is never cut and never idle. -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data have `V`'s array for it and leave its block where the body found it, the
    staging buffer the body is handed at a point holds the window's block there. If the point fetched it, that is the
    fetch; if not, the block index has not moved since the last fetch and the block is still the one fetched then. The
    window is never cut and never idle. -/
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data have `V`'s array for it and leave its block where the body found it, the
    staging buffer the body is handed at a point holds the window's block there. If the point fetched it, that is the
    fetch; if not, the block index has not moved since the last fetch and the block is still the one fetched then. The
    window is never cut and never idle. -/
theorem held0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data have `V`'s array for it and leave its block where the body found it, the
    staging buffer the body is handed at a point holds the window's block there. If the point fetched it, that is the
    fetch; if not, the block index has not moved since the last fetch and the block is still the one fetched then. The
    window is never cut and never idle. -/
theorem held0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data have `V`'s array for it and leave its block where the body found it, the
    staging buffer the body is handed at a point holds the window's block there. If the point fetched it, that is the
    fetch; if not, the block index has not moved since the last fetch and the block is still the one fetched then. The
    window is never cut and never idle. -/
theorem held0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: each staging buffer whole -/

/-- All of the features' block. -/
abbrev allX0 : Rect S512x2048 := Rect.unit (s := S512x2048) ![0, 0] S512x2048.size inb_S512x2048_S512x2048_0_0
/-- All of the first layer's weights. -/
abbrev allW0 : Rect S2048x512 := Rect.unit (s := S2048x512) ![0, 0] S2048x512.size inb_S2048x512_S2048x512_0_0
/-- All of a bias row. -/
abbrev allB0 : Rect S1x512 := Rect.unit (s := S1x512) ![0, 0] S1x512.size inb_S1x512_S1x512_0_0
/-- All of a 512 by 512 buffer: the second layer's weights, and the result's block. -/
abbrev allS0 : Rect S512x512 := Rect.unit (s := S512x512) ![0, 0] S512x512.size inb_S512x512_S512x512_0_0

/-- The result's staging buffer after the body, as a function of the five input blocks: the body stores once, the whole
    buffer, and what it stores is the perceptron's value on what it loaded. -/
def out0_5 (x0 : Vec F S512x2048 .f32) (x1 : Vec F S2048x512 .f32) (x2 : Vec F S1x512 .f32) (x3 : Vec F S512x512 .f32) (x4 : Vec F S1x512 .f32) : Vec F S512x512 .f32 :=
  View.canon [⟨allS0, k0_pay1 (View.ld x0 allX0) (View.ld x1 allW0) (View.ld x2 allB0) (View.ld x3 allS0) (View.ld x4 allB0)⟩]

/-- The one store covers the buffer: its rectangle is the whole of it. -/
theorem covers0_5 (p : Vec F S512x512 .f32) (y : S512x512.Idx) :
    ∃ pc ∈ ([⟨allS0, p⟩] : List (View.Piece (Elt F) S512x512 .f32)), y ∈ pc.1.set :=
  View.cover_of_tiled [⟨allS0, p⟩] S512x512.size (by rfl) y

/-! ## The body on its six staging buffers -/

set_option maxHeartbeats 1000000 in
/-- Run on six whole staging buffers, the five inputs' at contents `x0 … x4` and the result's at anything, the body
    ends with the inputs' as they were and the result's at `out0_5 x0 … x4`: it loads each buffer whole (the result's too,
    a value it does not use), then stores the payload over the whole result buffer. -/
theorem sound_kernel0 (c : Dev nD) (E : Set ℕ) (i : grid0.Coords)
    (arg1 : Memref sig .tc .vmem S512x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (x0 : Vec F S512x2048 .f32) (x1 : Vec F S2048x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The proof data -/

/-- Region 0's proof data on core `c`: the arrays as the region finds them; after the body at a point, each input's
    staging buffer still at its block and the result's at `out0_5` of the five blocks; the invariant is the scoped
    buffers no window stages and the generator register, neither touched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

/-- Nothing is owed at any point. -/
theorem owed0 (c : Dev nD) (t) : (dat0 V c).owed t = 0 := rfl
/-- Every window's share is the whole one. -/
theorem q0 (c : Dev nD) (w) : (dat0 V c).q w = fullShare := rfl

/-- Each input's staging buffer, as the body is handed it at a point, holds the window's block there. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d
theorem before0_4 (c : Dev nD) (t : Fin cfg0.N) (d) : (dat0 V c).before 4 t d = iblk0 V c 4 t :=
  held0_4 V (dat0 V c) (A_eq0 V c 4) (after0_4 V c) t d

/-! ## The body obligation -/

/-- What the body is called with at point `t`: the invariant, what the core owes, and the six staging buffers at what
    the pipeline has put in them. -/
def callPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it gives back: the same, the buffers at what the data say the body leaves. -/
def callPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The call at point `t`: the five inputs' buffers hold their blocks, so the body's triple applies at those blocks; the
    invariant and what the core owes are the same before and after and are carried across. -/
theorem sound_call0 (c : Dev nD) (t : Fin cfg0.N) :
    callPre0 V c t ⊢ wp frame (wpE (defs₀ (F := F)) Variants.none c none) Set.univ (bodyAt0 t) (fun _ => callPost0 V c t) := by
  unfold callPre0 callPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of the grid: the obligation's two products over the six windows written out are the
    call's pre- and postcondition. -/
theorem body_obligation0 (c : Dev nD) : BodyObligation (dat0 (F := F) V c) (defs₀ (F := F)) Variants.none () Set.univ := fun t => by
  rw [bigSep_W0, bigSep_W0]
  exact sound_call0 V c t

/-! ## The invariant at the region's two ends -/

/-- Entering: the generator register and the scoped buffers no window stages make up the invariant. -/
theorem phi_in0 (c : Dev nD) : (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hg, Hs⟩
  isplitl [Hs]; · iexact Hs
  iexact Hg

/-- Leaving: the invariant gives both back. -/
theorem phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Pipeline.ΦA spec0 c from rfl]; unfold Pipeline.ΦA
  iintro ⟨Hs, Hg⟩
  isplitl [Hg]; · iexact Hg
  iexact Hs

end Cert.Kernel.Hand

end
-- ==== Proof.KB.Reg1.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the two-layer perceptron on a block of 512 rows, sixty-four blocks in all

The region reads six windows: the 512 rows of the features it is on (window 0), the first layer's weights and bias
(windows 1, 2), the second layer's weights and bias (windows 3, 4), each of the last four whole at every point, and
writes the block's 512 rows of the result (window 5). Everything here is at a parameter `V`: the contents of the
core's buffers when the region is entered. -/

/-- The block of window `w` at grid point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data have `V`'s array for it and leave its block where the body found it, the
    staging buffer the body is handed at a point holds the window's block there. If the point fetched it, that is the
    fetch; if not, the block index has not moved since the last fetch and the block is still the one fetched then. The
    window is never cut and never idle. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data have `V`'s array for it and leave its block where the body found it, the
    staging buffer the body is handed at a point holds the window's block there. If the point fetched it, that is the
    fetch; if not, the block index has not moved since the last fetch and the block is still the one fetched then. The
    window is never cut and never idle. -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data have `V`'s array for it and leave its block where the body found it, the
    staging buffer the body is handed at a point holds the window's block there. If the point fetched it, that is the
    fetch; if not, the block index has not moved since the last fetch and the block is still the one fetched then. The
    window is never cut and never idle. -/
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data have `V`'s array for it and leave its block where the body found it, the
    staging buffer the body is handed at a point holds the window's block there. If the point fetched it, that is the
    fetch; if not, the block index has not moved since the last fetch and the block is still the one fetched then. The
    window is never cut and never idle. -/
theorem held1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whatever proof data have `V`'s array for it and leave its block where the body found it, the
    staging buffer the body is handed at a point holds the window's block there. If the point fetched it, that is the
    fetch; if not, the block index has not moved since the last fetch and the block is still the one fetched then. The
    window is never cut and never idle. -/
theorem held1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: each staging buffer whole -/

/-- All of the features' block. -/
abbrev allX1 : Rect S512x2048 := Rect.unit (s := S512x2048) ![0, 0] S512x2048.size inb_S512x2048_S512x2048_0_0
/-- All of the first layer's weights. -/
abbrev allW1 : Rect S2048x512 := Rect.unit (s := S2048x512) ![0, 0] S2048x512.size inb_S2048x512_S2048x512_0_0
/-- All of a bias row. -/
abbrev allB1 : Rect S1x512 := Rect.unit (s := S1x512) ![0, 0] S1x512.size inb_S1x512_S1x512_0_0
/-- All of a 512 by 512 buffer: the second layer's weights, and the result's block. -/
abbrev allS1 : Rect S512x512 := Rect.unit (s := S512x512) ![0, 0] S512x512.size inb_S512x512_S512x512_0_0

/-- The result's staging buffer after the body, as a function of the five input blocks: the body stores once, the whole
    buffer, and what it stores is the perceptron's value on what it loaded. -/
def out1_5 (x0 : Vec F S512x2048 .f32) (x1 : Vec F S2048x512 .f32) (x2 : Vec F S1x512 .f32) (x3 : Vec F S512x512 .f32) (x4 : Vec F S1x512 .f32) : Vec F S512x512 .f32 :=
  View.canon [⟨allS1, k1_pay1 (View.ld x0 allX1) (View.ld x1 allW1) (View.ld x2 allB1) (View.ld x3 allS1) (View.ld x4 allB1)⟩]

/-- The one store covers the buffer: its rectangle is the whole of it. -/
theorem covers1_5 (p : Vec F S512x512 .f32) (y : S512x512.Idx) :
    ∃ pc ∈ ([⟨allS1, p⟩] : List (View.Piece (Elt F) S512x512 .f32)), y ∈ pc.1.set :=
  View.cover_of_tiled [⟨allS1, p⟩] S512x512.size (by rfl) y

/-! ## The body on its six staging buffers -/

set_option maxHeartbeats 1000000 in
/-- Run on six whole staging buffers, the five inputs' at contents `x0 … x4` and the result's at anything, the body
    ends with the inputs' as they were and the result's at `out1_5 x0 … x4`: it loads each buffer whole (the result's too,
    a value it does not use), then stores the payload over the whole result buffer. -/
theorem sound_kernel1 (c : Dev nD) (E : Set ℕ) (i : grid1.Coords)
    (arg1 : Memref sig .tc .vmem S512x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (x0 : Vec F S512x2048 .f32) (x1 : Vec F S2048x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers1_5 _)

/-! ## The proof data -/

/-- Region 1's proof data on core `c`: the arrays as the region finds them; after the body at a point, each input's
    staging buffer still at its block and the result's at `out1_5` of the five blocks; the invariant is the scoped
    buffers no window stages and the generator register, neither touched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Nothing is owed at any point. -/
theorem owed1 (c : Dev nD) (t) : (dat1 V c).owed t = 0 := rfl
/-- Every window's share is the whole one. -/
theorem q1 (c : Dev nD) (w) : (dat1 V c).q w = fullShare := rfl

/-- Each input's staging buffer, as the body is handed it at a point, holds the window's block there. -/
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d

/-! ## The body obligation -/

/-- What the body is called with at point `t`: the invariant, what the core owes, and the six staging buffers at what
    the pipeline has put in them. -/
def callPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it gives back: the same, the buffers at what the data say the body leaves. -/
def callPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The call at point `t`: the five inputs' buffers hold their blocks, so the body's triple applies at those blocks; the
    invariant and what the core owes are the same before and after and are carried across. -/
theorem sound_call1 (c : Dev nD) (t : Fin cfg1.N) :
    callPre1 V c t ⊢ wp frame (wpE (defs₀ (F := F)) Variants.none c none) Set.univ (bodyAt1 t) (fun _ => callPost1 V c t) := by
  unfold callPre1 callPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of the grid: the obligation's two products over the six windows written out are the
    call's pre- and postcondition. -/
theorem body_obligation1 (c : Dev nD) : BodyObligation (dat1 (F := F) V c) (defs₀ (F := F)) Variants.none () Set.univ := fun t => by
  rw [bigSep_W1, bigSep_W1]
  exact sound_call1 V c t

/-! ## The invariant at the region's two ends -/

/-- Entering: the generator register and the scoped buffers no window stages make up the invariant. -/
theorem phi_in1 (c : Dev nD) : (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = Pipeline.ΦA spec1 c from rfl]; unfold Pipeline.ΦA
  iintro ⟨Hg, Hs⟩
  isplitl [Hs]; · iexact Hs
  iexact Hg

/-- Leaving: the invariant gives both back. -/
theorem phi_out1 (c : Dev nD) : (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = Pipeline.ΦA spec1 c from rfl]; unfold Pipeline.ΦA
  iintro ⟨Hs, Hg⟩
  isplitl [Hg]; · iexact Hg
  iexact Hs

end Cert.Kernel.Hand

end
-- ==== Proof.KB.Reg2.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

/-- an index row, -/
abbrev r2_i : Rect S1x512 := Rect.unit (s := S1x512) ![0, 0] S1x512.size inb_S1x512_S1x512_0_0
/-- a bias row, -/
abbrev r2_b : Rect S1x512 := Rect.unit (s := S1x512) ![0, 0] S1x512.size inb_S1x512_S1x512_0_0
/-- the source tile, -/
abbrev r2_s : Rect S512x512 := Rect.unit (s := S512x512) ![0, 0] S512x512.size inb_S512x512_S512x512_0_0
/-- a weight matrix, -/
abbrev r2_w : Rect S512x512 := Rect.unit (s := S512x512) ![0, 0] S512x512.size inb_S512x512_S512x512_0_0
/-- a weighted sum (and the target and output blocks), a row count. -/
abbrev r2_a : Rect S1024x512 := Rect.unit (s := S1024x512) ![0, 0] S1024x512.size inb_S1024x512_S1024x512_0_0
abbrev r2_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc2_0 (i : grid2.Coords) (x0 : Vec F S1x512 .i32) (x2 : Vec F S512x512 .f32) (x3 : Vec F S512x512 .f32) (x4 : Vec F S1x512 .f32)
    (p : Vec F S1024x512 .f32) : Vec F S1024x512 .f32 :=
  View.canon [⟨r2_a, k2_pay15 (k2_pay8 (View.ld x2 r2_s) (View.ld x3 r2_w) (View.ld x4 r2_b)) (k2_pay10 i) (k2_pay11 (View.ld x0 r2_i)) p⟩]

/-- The second weighted sum: `p + onehot(rows = idx₁) · relu(src · W₁ + b₁)`. -/
def acc2_1 (i : grid2.Coords) (x1 : Vec F S1x512 .i32) (x2 : Vec F S512x512 .f32) (x5 : Vec F S512x512 .f32) (x6 : Vec F S1x512 .f32)
    (p : Vec F S1024x512 .f32) : Vec F S1024x512 .f32 :=
  View.canon [⟨r2_a, k2_pay16 (k2_pay9 (View.ld x2 r2_s) (View.ld x5 r2_w) (View.ld x6 r2_b)) (k2_pay10 i) (k2_pay12 (View.ld x1 r2_i)) p⟩]

/-- The first row count: `p + Σ_lanes onehot(rows = idx₀)`. -/
def acc2_2 (i : grid2.Coords) (x0 : Vec F S1x512 .i32) (p : Vec F S1024x1 .f32) : Vec F S1024x1 .f32 :=
  View.canon [⟨r2_d, k2_pay17 (k2_pay10 i) (k2_pay11 (View.ld x0 r2_i)) p⟩]

/-- The second row count: `p + Σ_lanes onehot(rows = idx₁)`. -/
def acc2_3 (i : grid2.Coords) (x1 : Vec F S1x512 .i32) (p : Vec F S1024x1 .f32) : Vec F S1024x1 .f32 :=
  View.canon [⟨r2_d, k2_pay1 (k2_pay18 (k2_pay10 i) (k2_pay12 (View.ld x1 r2_i)) p)⟩]

/-- What the last point of a row block stores into the output block, from the four sums as they then stand
    and the target block: `target + ½ (a₀ / (d₀ + ε) + a₁ / (d₁ + ε))`. -/
def out2_8 (a0 : Vec F S1024x512 .f32) (d0 : Vec F S1024x1 .f32) (a1 : Vec F S1024x512 .f32) (d1 : Vec F S1024x1 .f32)
    (x7 : Vec F S1024x512 .f32) : Vec F S1024x512 .f32 :=
  View.canon [⟨r2_a, k2_pay2 (View.ld a0 r2_a) (View.ld d0 r2_d) (View.ld a1 r2_a) (View.ld d1 r2_d) (View.ld x7 r2_a)⟩]

/-! ## The four sums after each point -/

/-- THE ACCUMULATION. The four scratch arrays after the body at position `n`: at the first point of a row block
    (`n % 64 = 0`) the point's contribution over zero, else over what position `n - 1` left. -/
def scrAt2 (c : Dev nD) : (n : ℕ) → n < cfg2.N →
    Vec F S1024x512 .f32 × Vec F S1024x512 .f32 × Vec F S1024x1 .f32 × Vec F S1024x1 .f32
  | 0, hn =>
    (acc2_0 (grid2.coords ⟨0, hn⟩) (iblk2 V c 0 ⟨0, hn⟩) (iblk2 V c 2 ⟨0, hn⟩) (iblk2 V c 3 ⟨0, hn⟩) (iblk2 V c 4 ⟨0, hn⟩) (k2_pay3 (F := F)),
     acc2_1 (grid2.coords ⟨0, hn⟩) (iblk2 V c 1 ⟨0, hn⟩) (iblk2 V c 2 ⟨0, hn⟩) (iblk2 V c 5 ⟨0, hn⟩) (iblk2 V c 6 ⟨0, hn⟩) (k2_pay4 (F := F)),
     acc2_2 (grid2.coords ⟨0, hn⟩) (iblk2 V c 0 ⟨0, hn⟩) (k2_pay5 (F := F)),
     acc2_3 (grid2.coords ⟨0, hn⟩) (iblk2 V c 1 ⟨0, hn⟩) (k2_pay6 (F := F)))
  | n + 1, hn =>
    if h0 : (n + 1) % 64 = 0 then
      (acc2_0 (grid2.coords ⟨n + 1, hn⟩) (iblk2 V c 0 ⟨n + 1, hn⟩) (iblk2 V c 2 ⟨n + 1, hn⟩) (iblk2 V c 3 ⟨n + 1, hn⟩) (iblk2 V c 4 ⟨n + 1, hn⟩) (k2_pay3 (F := F)),
       acc2_1 (grid2.coords ⟨n + 1, hn⟩) (iblk2 V c 1 ⟨n + 1, hn⟩) (iblk2 V c 2 ⟨n + 1, hn⟩) (iblk2 V c 5 ⟨n + 1, hn⟩) (iblk2 V c 6 ⟨n + 1, hn⟩) (k2_pay4 (F := F)),
       acc2_2 (grid2.coords ⟨n + 1, hn⟩) (iblk2 V c 0 ⟨n + 1, hn⟩) (k2_pay5 (F := F)),
       acc2_3 (grid2.coords ⟨n + 1, hn⟩) (iblk2 V c 1 ⟨n + 1, hn⟩) (k2_pay6 (F := F)))
    else
      (acc2_0 (grid2.coords ⟨n + 1, hn⟩) (iblk2 V c 0 ⟨n + 1, hn⟩) (iblk2 V c 2 ⟨n + 1, hn⟩) (iblk2 V c 3 ⟨n + 1, hn⟩) (iblk2 V c 4 ⟨n + 1, hn⟩) (View.ld (scrAt2 c n (Nat.lt_of_succ_lt hn)).1 r2_a),
       acc2_1 (grid2.coords ⟨n + 1, hn⟩) (iblk2 V c 1 ⟨n + 1, hn⟩) (iblk2 V c 2 ⟨n + 1, hn⟩) (iblk2 V c 5 ⟨n + 1, hn⟩) (iblk2 V c 6 ⟨n + 1, hn⟩) (View.ld (scrAt2 c n (Nat.lt_of_succ_lt hn)).2.1 r2_a),
       acc2_2 (grid2.coords ⟨n + 1, hn⟩) (iblk2 V c 0 ⟨n + 1, hn⟩) (View.ld (scrAt2 c n (Nat.lt_of_succ_lt hn)).2.2.1 r2_d),
       acc2_3 (grid2.coords ⟨n + 1, hn⟩) (iblk2 V c 1 ⟨n + 1, hn⟩) (View.ld (scrAt2 c n (Nat.lt_of_succ_lt hn)).2.2.2 r2_d))

/-- The four scratch arrays after point `t`, one by one. -/
def scr2_0 (c : Dev nD) (t : Fin cfg2.N) : Vec F S1024x512 .f32 := (scrAt2 V c t.val t.isLt).1
def scr2_1 (c : Dev nD) (t : Fin cfg2.N) : Vec F S1024x512 .f32 := (scrAt2 V c t.val t.isLt).2.1
def scr2_2 (c : Dev nD) (t : Fin cfg2.N) : Vec F S1024x1 .f32 := (scrAt2 V c t.val t.isLt).2.2.1
def scr2_3 (c : Dev nD) (t : Fin cfg2.N) : Vec F S1024x1 .f32 := (scrAt2 V c t.val t.isLt).2.2.2

/-- `scrAt2` at the first point of a row block: the point's contribution over zero. -/
theorem scrAt2_first (c : Dev nD) (t : Fin cfg2.N) (h0 : t.val % 64 = 0) :
    scrAt2 V c t.val t.isLt =
      (acc2_0 (grid2.coords t) (iblk2 V c 0 t) (iblk2 V c 2 t) (iblk2 V c 3 t) (iblk2 V c 4 t) (k2_pay3 (F := F)),
       acc2_1 (grid2.coords t) (iblk2 V c 1 t) (iblk2 V c 2 t) (iblk2 V c 5 t) (iblk2 V c 6 t) (k2_pay4 (F := F)),
       acc2_2 (grid2.coords t) (iblk2 V c 0 t) (k2_pay5 (F := F)),
       acc2_3 (grid2.coords t) (iblk2 V c 1 t) (k2_pay6 (F := F))) := by
  obtain ⟨n, hn⟩ := t
  cases n with
  | zero => exact rfl
  | succ n => exact (dif_pos h0).trans rfl

/-- `scrAt2` at any other point: the point's contribution over what the point before left. -/
theorem scrAt2_next (c : Dev nD) (t : Fin cfg2.N) (h0 : ¬t.val % 64 = 0) :
    scrAt2 V c t.val t.isLt =
      (acc2_0 (grid2.coords t) (iblk2 V c 0 t) (iblk2 V c 2 t) (iblk2 V c 3 t) (iblk2 V c 4 t) (View.ld (scrAt2 V c (t.val - 1) (Nat.lt_of_le_of_lt (Nat.sub_le _ _) t.isLt)).1 r2_a),
       acc2_1 (grid2.coords t) (iblk2 V c 1 t) (iblk2 V c 2 t) (iblk2 V c 5 t) (iblk2 V c 6 t) (View.ld (scrAt2 V c (t.val - 1) (Nat.lt_of_le_of_lt (Nat.sub_le _ _) t.isLt)).2.1 r2_a),
       acc2_2 (grid2.coords t) (iblk2 V c 0 t) (View.ld (scrAt2 V c (t.val - 1) (Nat.lt_of_le_of_lt (Nat.sub_le _ _) t.isLt)).2.2.1 r2_d),
       acc2_3 (grid2.coords t) (iblk2 V c 1 t) (View.ld (scrAt2 V c (t.val - 1) (Nat.lt_of_le_of_lt (Nat.sub_le _ _) t.isLt)).2.2.2 r2_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM2_0 : Memref sig .tc .vmem S1024x512 .f32 := Memref.whole cc2_scratch0
abbrev scM2_1 : Memref sig .tc .vmem S1024x512 .f32 := Memref.whole cc2_scratch1
abbrev scM2_2 : Memref sig .tc .vmem S1024x1 .f32 := Memref.whole cc2_scratch2
abbrev scM2_3 : Memref sig .tc .vmem S1024x1 .f32 := Memref.whole cc2_scratch3

/-- The scoped buffers that are none of the four, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

/-- The invariant before position `n`: before the first point the four scratch arrays at anything; afterwards at what
    the point before left (`scrAt2`); beside them, throughout, the other scoped buffers unopened and the generator
    register at some state. -/
def PhiS2 (c : Dev nD) : (n : ℕ) → n ≤ cfg2.N → sProp 𝕄
  | 0, _ => iprop(iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d))
      ∗ rest2 c ∗ (∃ r, prngReg c r))
  | n + 1, hn => iprop(iprop(owns (c : Thread nD τ) scM2_0 fullShare (scrAt2 V c n hn).1 ∗ owns (c : Thread nD τ) scM2_1 fullShare (scrAt2 V c n hn).2.1
      ∗ owns (c : Thread nD τ) scM2_2 fullShare (scrAt2 V c n hn).2.2.1 ∗ owns (c : Thread nD τ) scM2_3 fullShare (scrAt2 V c n hn).2.2.2)
      ∗ rest2 c ∗ (∃ r, prngReg c r))

theorem PhiS2_zero (c : Dev nD) (n : ℕ) (h : n ≤ cfg2.N) (hz : n = 0) :
    PhiS2 V c n h = iprop(iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d))
      ∗ rest2 c ∗ (∃ r, prngReg c r)) := by
  subst hz; rfl

theorem PhiS2_succ (c : Dev nD) (n : ℕ) (hn : n < cfg2.N) :
    PhiS2 V c (n + 1) hn = iprop(iprop(owns (c : Thread nD τ) scM2_0 fullShare (scrAt2 V c n hn).1 ∗ owns (c : Thread nD τ) scM2_1 fullShare (scrAt2 V c n hn).2.1
      ∗ owns (c : Thread nD τ) scM2_2 fullShare (scrAt2 V c n hn).2.2.1 ∗ owns (c : Thread nD τ) scM2_3 fullShare (scrAt2 V c n hn).2.2.2)
      ∗ rest2 c ∗ (∃ r, prngReg c r)) := rfl

theorem PhiS2_pos (c : Dev nD) (n : ℕ) (h : n ≤ cfg2.N) (hz : n ≠ 0) :
    PhiS2 V c n h = iprop(iprop(owns (c : Thread nD τ) scM2_0 fullShare (scrAt2 V c (n - 1) (by omega)).1 ∗ owns (c : Thread nD τ) scM2_1 fullShare (scrAt2 V c (n - 1) (by omega)).2.1
      ∗ owns (c : Thread nD τ) scM2_2 fullShare (scrAt2 V c (n - 1) (by omega)).2.2.1 ∗ owns (c : Thread nD τ) scM2_3 fullShare (scrAt2 V c (n - 1) (by omega)).2.2.2)
      ∗ rest2 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out2_8` of the sums as they stand after `t` and the target block
    (consulted only where the block is written back, at the last point of a row block); the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (scr2_0 V c t) (scr2_2 V c t) (scr2_1 V c t) (scr2_3 V c t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (scr2_0 V c t) (scr2_2 V c t) (scr2_1 V c t) (scr2_3 V c t) (iblk2 V c 7 t) := by dsimp only [dat2]
theorem owed2 (c : Dev nD) (t) : (dat2 V c).owed t = 0 := rfl
theorem q2 (c : Dev nD) (w) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body's two conditions, in closed form over the grid -/

/-- The body's first condition (`k = 0`: start the sums from zero), from the grid coordinates. -/
abbrev cond2_0 (i : grid2.Coords) : Prop := (Scalar.cmpi .ne (Scalar.extui (Scalar.cmpi .eq (BitVec.ofNat 32 (i 1).val) 0#32)) 0#32) = 1#1
/-- It holds at the first point of each row block. -/
theorem hcond2_0 : ∀ t : Fin cfg2.N, cond2_0 (grid2.coords t) ↔ t.val % 64 = 0 :=
  (by decide +kernel : ∀ t : Fin grid2.N, cond2_0 (grid2.coords t) ↔ t.val % 64 = 0)
/-- The body's second condition (`k = 63`: write the output block). -/
abbrev cond2_1 (i : grid2.Coords) : Prop := k2_cond2 i = 1#1
/-- It holds at the last point of each row block. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## A whole-buffer store covers the buffer -/

theorem cover2_a (p0 : Vec F S1024x512 .f32) (y : S1024x512.Idx) :
    ∃ pc ∈ ([⟨r2_a, p0⟩] : List (View.Piece (Elt F) S1024x512 .f32)), y ∈ pc.1.set :=
  View.cover_of_tiled [⟨r2_a, p0⟩] S1024x512.size (by rfl) y
theorem cover2_d (p0 : Vec F S1024x1 .f32) (y : S1024x1.Idx) :
    ∃ pc ∈ ([⟨r2_d, p0⟩] : List (View.Piece (Elt F) S1024x1 .f32)), y ∈ pc.1.set :=
  View.cover_of_tiled [⟨r2_d, p0⟩] S1024x1.size (by rfl) y

/-- After writes the LAST of which covers the whole shape, the buffer reads as that write alone. -/
theorem read_writes_head_cover2 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon2_a (w : Vec F S1024x512 .f32) :
    View.ld (View.canon [(⟨r2_a, w⟩ : View.Piece (Elt F) S1024x512 .f32)]) r2_a = w :=
  funext fun x => View.canon_cons_emb r2_a w [] x
theorem ld_canon2_d (w : Vec F S1024x1 .f32) :
    View.ld (View.canon [(⟨r2_d, w⟩ : View.Piece (Elt F) S1024x1 .f32)]) r2_d = w :=
  funext fun x => View.canon_cons_emb r2_d w [] x

/-- The output block from sums that are themselves whole-buffer writes: the payloads meet directly. -/
theorem out2_8_canon (w0 w1 : Vec F S1024x512 .f32) (w2 w3 : Vec F S1024x1 .f32) (x7 : Vec F S1024x512 .f32) :
    out2_8 (View.canon [(⟨r2_a, w0⟩ : View.Piece (Elt F) S1024x512 .f32)]) (View.canon [(⟨r2_d, w2⟩ : View.Piece (Elt F) S1024x1 .f32)])
        (View.canon [(⟨r2_a, w1⟩ : View.Piece (Elt F) S1024x512 .f32)]) (View.canon [(⟨r2_d, w3⟩ : View.Piece (Elt F) S1024x1 .f32)]) x7
      = View.canon [(⟨r2_a, k2_pay2 w0 w2 w1 w3 (View.ld x7 r2_a)⟩ : View.Piece (Elt F) S1024x512 .f32)] := by
  unfold out2_8; rw [ld_canon2_a, ld_canon2_a, ld_canon2_d, ld_canon2_d]

set_option maxHeartbeats 4000000 in
/-- The first point of a row block (`k = 0`): each sum is set to zero, then the point's contribution is added to it; the
    inputs and the output block are left as they were. -/
theorem run2_A (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : cond2_0 i) (hc1 : ¬cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc2_0 i x0 x2 x3 x4 (k2_pay3 (F := F))) ∗ owns (c : Thread nD τ) arg12 fullShare (acc2_1 i x1 x2 x5 x6 (k2_pay4 (F := F)))
            ∗ owns (c : Thread nD τ) arg13 fullShare (acc2_2 i x0 (k2_pay5 (F := F))) ∗ owns (c : Thread nD τ) arg14 fullShare (acc2_3 i x1 (k2_pay6 (F := F)))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover2 _ _ _ _ (cover2_a _)).trans (by simp only [View.readCov_cons_toLoadRect]; rfl)
  isplitl [S1]
  · iexists _; isplitr
    swap; · iexact S1
    ipureintro; sl_unfold_run_names
    exact (read_writes_head_cover2 _ _ _ _ (cover2_a _)).trans (by simp only [View.readCov_cons_toLoadRect]; rfl)
  isplitl [S2]
  · iexists _; isplitr
    swap; · iexact S2
    ipureintro; sl_unfold_run_names
    exact (read_writes_head_cover2 _ _ _ _ (cover2_d _)).trans (by simp only [View.readCov_cons_toLoadRect]; rfl)
  iexists _; isplitr
  swap; · iexact S3
  ipureintro; sl_unfold_run_names
  exact (read_writes_head_cover2 _ _ _ _ (cover2_d _)).trans (by simp only [View.readCov_cons_toLoadRect]; rfl)

set_option maxHeartbeats 4000000 in
/-- A middle point of a row block (neither condition holds): each sum is loaded, the point's contribution added and stored back;
    the inputs and the output block are left as they were. -/
theorem run2_B (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond2_0 i) (hc1 : ¬cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc2_0 i x0 x2 x3 x4 (View.ld s0 r2_a)) ∗ owns (c : Thread nD τ) arg12 fullShare (acc2_1 i x1 x2 x5 x6 (View.ld s1 r2_a))
            ∗ owns (c : Thread nD τ) arg13 fullShare (acc2_2 i x0 (View.ld s2 r2_d)) ∗ owns (c : Thread nD τ) arg14 fullShare (acc2_3 i x1 (View.ld s3 r2_d))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover2_a _)
  isplitl [S1]
  · iexists _; isplitr
    swap; · iexact S1
    ipureintro; exact View.read_writes_eq_canon _ _ _ (cover2_a _)
  isplitl [S2]
  · iexists _; isplitr
    swap; · iexact S2
    ipureintro; exact View.read_writes_eq_canon _ _ _ (cover2_d _)
  iexists _; isplitr
  swap; · iexact S3
  ipureintro; exact View.read_writes_eq_canon _ _ _ (cover2_d _)

set_option maxHeartbeats 4000000 in
/-- The last point of a row block (`k = 63`): each sum is loaded, the point's contribution added and stored back, and the
    output block is written from the sums as they then stand and the target block; the inputs are left as they were. -/
theorem run2_C (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond2_0 i) (hc1 : cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out2_8 (acc2_0 i x0 x2 x3 x4 (View.ld s0 r2_a)) (acc2_2 i x0 (View.ld s2 r2_d)) (acc2_1 i x1 x2 x5 x6 (View.ld s1 r2_a)) (acc2_3 i x1 (View.ld s3 r2_d)) x7)
            ∗ owns (c : Thread nD τ) arg11 fullShare (acc2_0 i x0 x2 x3 x4 (View.ld s0 r2_a)) ∗ owns (c : Thread nD τ) arg12 fullShare (acc2_1 i x1 x2 x5 x6 (View.ld s1 r2_a))
            ∗ owns (c : Thread nD τ) arg13 fullShare (acc2_2 i x0 (View.ld s2 r2_d)) ∗ owns (c : Thread nD τ) arg14 fullShare (acc2_3 i x1 (View.ld s3 r2_d))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover2_a _)).trans
      (by simp only [View.readCov_cons_toLoadRect]; exact (out2_8_canon _ _ _ _ _).symm)
  isplitl [S0]
  · iexists _; isplitr
    swap; · iexact S0
    ipureintro; sl_unfold_run_names
    exact View.read_writes_eq_canon _ _ _ (cover2_a _)
  isplitl [S1]
  · iexists _; isplitr
    swap; · iexact S1
    ipureintro; sl_unfold_run_names
    exact View.read_writes_eq_canon _ _ _ (cover2_a _)
  isplitl [S2]
  · iexists _; isplitr
    swap; · iexact S2
    ipureintro; sl_unfold_run_names
    exact View.read_writes_eq_canon _ _ _ (cover2_d _)
  iexists _; isplitr
  swap; · iexact S3
  ipureintro; sl_unfold_run_names
  exact View.read_writes_eq_canon _ _ _ (cover2_d _)

/-! ## Where the output window is idle, and where its block is written back -/

/-- Off the last point of a row block the body stores nothing into the output window; -/
theorem idleAt2_8 : ∀ t : Fin cfg2.N, ¬cond2_1 (grid2.coords t) → cfg2.idle 8 (grid2.coords t) = true := by decide +kernel
/-- at it, it does. -/
theorem liveAt2_8 : ∀ t : Fin cfg2.N, cond2_1 (grid2.coords t) → cfg2.idle 8 (grid2.coords t) = false := by decide +kernel
/-- The output block is written back at the last point of a row block only. -/
theorem noFlush2_8 (t : Fin cfg2.N) (h : ¬t.val % 64 = 63) : (cfg2.win 8).flush t = false :=
  Bool.eq_false_iff.mpr fun hf => h ((flush2_8 t).mp hf)

/-! ## Each input's staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs' buffers as they were, the output's as the point leaves it (untouched where it is idle). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 8000000 in
/-- The body at any point. The inputs' buffers hold their blocks (`before2_W`); the point's position in its row block says
    which of the three cases runs. The invariant hands the body the four sums at what the point before left (at anything before the
    very first point) and takes them back at this point's; the other scoped buffers and the generator register pass through
    unread; off the last point of a row block the output's buffer passes through as well. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  have hN : t.val < 128 := lt_of_lt_of_eq t.isLt (show cfg2.N = 128 from N_2)
  by_cases h0 : t.val % 64 = 0
  · have h1 : ¬t.val % 64 = 63 := by omega
    have hc0 : cond2_0 (grid2.coords t) := (hcond2_0 t).mpr h0
    have hc1 : ¬cond2_1 (grid2.coords t) := fun h => h1 ((hcond2_1 t).mp h)
    rw [Dat.leavesExact_idle (dat2 V c) 8 t (idleAt2_8 t hc1) (noFlush2_8 t h1)]
    rw [scrAt2_first V c t h0]
    by_cases hz : t.val = 0
    · rw [PhiS2_castSucc V c t, PhiS2_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond2_0 (grid2.coords t) := fun h => h0 ((hcond2_0 t).mp h)
    by_cases h1 : t.val % 64 = 63
    · have hc1 : cond2_1 (grid2.coords t) := (hcond2_1 t).mpr h1
      rw [show (dat2 V c).leavesExact 8 t = owns (c : Thread nD τ) (st2_8 t) fullShare ((dat2 V c).after 8 t) from by
        unfold Dat.leavesExact; rw [liveAt2_8 t hc1], after2_8]
      unfold scr2_0 scr2_1 scr2_2 scr2_3
      rw [scrAt2_next V c t h0]
      rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_C c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 8 t (idleAt2_8 t hc1) (noFlush2_8 t h1)]
      rw [scrAt2_next V c t h0]
      rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_B c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the region is entered with — the generator register and the scoped buffers that are no staging buffer, the four scratch
    arrays among them at anything — is the invariant before the first point. -/
theorem phi_in2 (c : Dev nD) : (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = PhiS2 V c 0 (Nat.zero_le _) from rfl, PhiS2_zero V c 0 _ rfl, scopedRest2_split]
  simp only [scM2_0, scM2_1, scM2_2, scM2_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), scopedRest2_split]
  simp only [scM2_0, scM2_1, scM2_2, scM2_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.Kernel.Hand
end
-- ==== Proof.KB.Reg3.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body reads and writes: each is the whole of its buffer -/

/-- The whole input block. -/
abbrev r3_0 : Rect S512x512 := Rect.unit (s := S512x512) ![0, 0] S512x512.size inb_S512x512_S512x512_0_0
/-- The whole weight matrix. -/
abbrev r3_1 : Rect S512x512 := Rect.unit (s := S512x512) ![0, 0] S512x512.size inb_S512x512_S512x512_0_0
/-- The whole bias row. -/
abbrev r3_2 : Rect S1x512 := Rect.unit (s := S1x512) ![0, 0] S1x512.size inb_S1x512_S1x512_0_0
/-- The whole output block. -/
abbrev r3_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out3_3 (x0 : Vec F S512x512 .f32) (x1 : Vec F S512x512 .f32) (x2 : Vec F S1x512 .f32) : Vec F S512x512 .bf16 :=
  View.canon [⟨r3_3, k3_pay1 (View.ld x0 r3_0) (View.ld x1 r3_1) (View.ld x2 r3_2)⟩]

/-! ## The proof data -/

/-- The proof data of the region on core `c`: the arrays as the region finds them; after the body at point `t`
    each input's buffer still at its block and the output's at `out3_3` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Nothing is owed at any point. -/
theorem owed3 (c : Dev nD) (t) : (dat3 V c).owed t = 0 := rfl

/-- Every window is held at the full share. -/
theorem q3 (c : Dev nD) (w) : (dat3 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's buffer holds the matrix at every point: fetched at the first point only, its block index
    never moves afterwards, and the body leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's buffer holds the row at every point, for the same reason. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

/-- The body's one store is over the whole output buffer, so it covers every index of it. -/
theorem cover3_3 (p0 : Vec F S512x512 .bf16) (y : S512x512.Idx) :
    ∃ pc ∈ ([⟨r3_3, p0⟩] : List (View.Piece (Elt F) S512x512 .bf16)), y ∈ pc.1.set :=
  View.cover_of_tiled [⟨r3_3, p0⟩] S512x512.size (by rfl) y

set_option maxHeartbeats 1000000 in
/-- The body on whole staging memrefs — the three inputs' reading `x0`, `x1`, `x2`, the output's holding anything —
    runs to a continuation that holds the inputs' as they were and the output's at `out3_3 x0 x1 x2`: the printed
    function is its skeleton of loads and one store, run operation by operation. -/
theorem sound_kernel3 (c : Dev nD) (E : Set ℕ) (i : grid3.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the two ends -/

/-- The generator register and the scoped buffers no window stages make the invariant at the first point. -/
theorem phi_in3 (c : Dev nD) :
    (iprop((∃ r, prngReg c r) ∗ Pipeline.scopedRest (Ix := Unit) (Name := ℕ) (U := UR sig nD τ) (Lvl := ℕ) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives them back. -/
theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.Kernel.Hand

end
-- ==== Proof.KB.Reg4.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes: each is the whole of its buffer -/

/-- The whole input block. -/
abbrev r4_0 : Rect S512x512 := Rect.unit (s := S512x512) ![0, 0] S512x512.size inb_S512x512_S512x512_0_0
/-- The whole weight matrix. -/
abbrev r4_1 : Rect S512x512 := Rect.unit (s := S512x512) ![0, 0] S512x512.size inb_S512x512_S512x512_0_0
/-- The whole bias row. -/
abbrev r4_2 : Rect S1x512 := Rect.unit (s := S1x512) ![0, 0] S1x512.size inb_S1x512_S1x512_0_0
/-- The whole output block. -/
abbrev r4_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out4_3 (x0 : Vec F S512x512 .f32) (x1 : Vec F S512x512 .f32) (x2 : Vec F S1x512 .f32) : Vec F S512x512 .bf16 :=
  View.canon [⟨r4_3, k4_pay1 (View.ld x0 r4_0) (View.ld x1 r4_1) (View.ld x2 r4_2)⟩]

/-! ## The proof data -/

/-- The proof data of the region on core `c`: the arrays as the region finds them; after the body at point `t`
    each input's buffer still at its block and the output's at `out4_3` of the input blocks; the invariant is
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Nothing is owed at any point. -/
theorem owed4 (c : Dev nD) (t) : (dat4 V c).owed t = 0 := rfl

/-- Every window is held at the full share. -/
theorem q4 (c : Dev nD) (w) : (dat4 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the matrix at every point: fetched at the first point only, its block index
    never moves afterwards, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's buffer holds the row at every point, for the same reason. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body's triple -/

/-- The body's one store is over the whole output buffer, so it covers every index of it. -/
theorem cover4_3 (p0 : Vec F S512x512 .bf16) (y : S512x512.Idx) :
    ∃ pc ∈ ([⟨r4_3, p0⟩] : List (View.Piece (Elt F) S512x512 .bf16)), y ∈ pc.1.set :=
  View.cover_of_tiled [⟨r4_3, p0⟩] S512x512.size (by rfl) y

set_option maxHeartbeats 1000000 in
/-- The body on whole staging memrefs — the three inputs' reading `x0`, `x1`, `x2`, the output's holding anything —
    runs to a continuation that holds the inputs' as they were and the output's at `out4_3 x0 x1 x2`: the printed
    function is its skeleton of loads and one store, run operation by operation. -/
theorem sound_kernel4 (c : Dev nD) (E : Set ℕ) (i : grid4.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the two ends -/

/-- The generator register and the scoped buffers no window stages make the invariant at the first point. -/
theorem phi_in4 (c : Dev nD) :
    (iprop((∃ r, prngReg c r) ∗ Pipeline.scopedRest (Ix := Unit) (Name := ℕ) (U := UR sig nD τ) (Lvl := ℕ) spec4 c) : sProp 𝕄)
      ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- The invariant at the last point gives them back. -/
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

end Cert.Kernel.Hand

end
-- ==== Proof.KB.Reg5.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole of an index column's block. -/
abbrev r5_ix : Rect S512x1 := Rect.unit (s := S512x1) ![0, 0] S512x1.size inb_S512x1_S512x1_0_0
/-- The whole of an object-side matrix. -/
abbrev r5_fc : Rect S2048x512 := Rect.unit (s := S2048x512) ![0, 0] S2048x512.size inb_S2048x512_S2048x512_0_0
/-- The whole of a block of the target or of the result. -/
abbrev r5_o : Rect S512x512 := Rect.unit (s := S512x512) ![0, 0] S512x512.size inb_S512x512_S512x512_0_0

/-- What the body leaves in the result's staging buffer, from the five input blocks: its single store, which covers the
    buffer, of the target block plus half the sum of the two averaged gathers. -/
def out5_5 (x0 : Vec F S512x1 .i32) (x1 : Vec F S512x1 .i32) (x2 : Vec F S2048x512 .bf16) (x3 : Vec F S2048x512 .bf16)
    (x4 : Vec F S512x512 .f32) : Vec F S512x512 .f32 :=
  View.canon [⟨r5_o, k5_pay1 (k5_pay2 (View.ld x4 r5_o))
    (k5_pay3 (View.ld x0 r5_ix) (View.ld x1 r5_ix) (View.ld x2 r5_fc) (View.ld x3 r5_fc))⟩]

/-- The proof data of pipeline 5 on core `c`: the arrays as found; after the body every input's buffer still holds its
    block and the result's holds `out5_5` of the input blocks; the invariant is the untouched scoped rest beside the
    generator register; nothing is owed and every share is whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

theorem owed5 (c : Dev nD) (t) : (dat5 V c).owed t = 0 := rfl
theorem q5 (c : Dev nD) (w) : (dat5 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

/-! ## The body's triple -/

/-- The single store of the body is of the whole result block, so it covers the staging buffer. -/
theorem cover5_5 (p0 : Vec F S512x512 .f32) (y : S512x512.Idx) :
    ∃ pc ∈ ([⟨r5_o, p0⟩] : List (View.Piece (Elt F) S512x512 .f32)), y ∈ pc.1.set :=
  View.cover_of_tiled [⟨r5_o, p0⟩] S512x512.size (by rfl) y

set_option maxHeartbeats 1000000 in
/-- On whole staging memrefs, the five inputs' read at `x0 … x4` and the result's at anything, the body runs to a
    continuation that holds the inputs' as they were and the result's at `out5_5` of them: five loads inside the part,
    a dead load of the result's buffer, and the one store. -/
theorem sound_kernel5 (c : Dev nD) (E : Set ℕ) (i : grid5.Coords)
    (arg1 : Memref sig .tc .vmem S512x1 .i32) (harg1 : arg1.IsWhole) (arg2 : Memref sig .tc .vmem S512x1 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x512 .f32) (harg5 : arg5.IsWhole) (arg6 : Memref sig .tc .vmem S512x512 .f32) (harg6 : arg6.IsWhole)
    (x0 : Vec F S512x1 .i32) (x1 : Vec F S512x1 .i32) (x2 : Vec F S2048x512 .bf16) (x3 : Vec F S2048x512 .bf16) (x4 : Vec F S512x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__collect_transpose_fused_kernel i arg1 harg1 arg2 harg2 arg3 harg3 arg4 harg4 arg5 harg5 arg6 harg6) K := by
  simp only [cc5__collect_transpose_fused_kernel_eq_skeleton]; unfold cc5__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The body obligation -/

/-- What the body is entered with at grid point `t`: the invariant, what the core owes, and each window's current
    staging buffer at what it then holds. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it returns: the same at the next point, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' buffers hold their blocks, so the body's triple applies; the invariant and
    what the core owes are not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- Entering: the generator register and the scoped rest make the invariant. -/
theorem phi_in5 (c : Dev nD) : (iprop((∃ r, prngReg c r) ∗ Pipeline.scopedRest (Ix := Unit) (Name := ℕ) (U := UR sig nD τ) (Lvl := ℕ) spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant gives both back. -/
theorem phi_out5 (c : Dev nD) : (dat5 V c).Φ (Fin.last cfg5.N) ⊢ (iprop((∃ r, prngReg c r) ∗ Pipeline.scopedRest (Ix := Unit) (Name := ℕ) (U := UR sig nD τ) (Lvl := ℕ) spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.Kernel.Hand
end
-- ==== Proof.KB.Reg6.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: every load and store is of a whole buffer -/

/-- an index row, -/
abbrev r6_i : Rect S1x512 := Rect.unit (s := S1x512) ![0, 0] S1x512.size inb_S1x512_S1x512_0_0
/-- a bias row, -/
abbrev r6_b : Rect S1x512 := Rect.unit (s := S1x512) ![0, 0] S1x512.size inb_S1x512_S1x512_0_0
/-- the source tile, -/
abbrev r6_s : Rect S512x512 := Rect.unit (s := S512x512) ![0, 0] S512x512.size inb_S512x512_S512x512_0_0
/-- a weight matrix, -/
abbrev r6_w : Rect S512x512 := Rect.unit (s := S512x512) ![0, 0] S512x512.size inb_S512x512_S512x512_0_0
/-- a weighted sum (and the target and output blocks), a row count. -/
abbrev r6_a : Rect S1024x512 := Rect.unit (s := S1024x512) ![0, 0] S1024x512.size inb_S1024x512_S1024x512_0_0
abbrev r6_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc6_0 (i : grid6.Coords) (x0 : Vec F S1x512 .i32) (x2 : Vec F S512x512 .f32) (x3 : Vec F S512x512 .f32) (x4 : Vec F S1x512 .f32)
    (p : Vec F S1024x512 .f32) : Vec F S1024x512 .f32 :=
  View.canon [⟨r6_a, k6_pay15 (k6_pay8 (View.ld x2 r6_s) (View.ld x3 r6_w) (View.ld x4 r6_b)) (k6_pay10 i) (k6_pay11 (View.ld x0 r6_i)) p⟩]

/-- The second weighted sum: `p + onehot(rows = idx₁) · relu(src · W₁ + b₁)`. -/
def acc6_1 (i : grid6.Coords) (x1 : Vec F S1x512 .i32) (x2 : Vec F S512x512 .f32) (x5 : Vec F S512x512 .f32) (x6 : Vec F S1x512 .f32)
    (p : Vec F S1024x512 .f32) : Vec F S1024x512 .f32 :=
  View.canon [⟨r6_a, k6_pay16 (k6_pay9 (View.ld x2 r6_s) (View.ld x5 r6_w) (View.ld x6 r6_b)) (k6_pay10 i) (k6_pay12 (View.ld x1 r6_i)) p⟩]

/-- The first row count: `p + Σ_lanes onehot(rows = idx₀)`. -/
def acc6_2 (i : grid6.Coords) (x0 : Vec F S1x512 .i32) (p : Vec F S1024x1 .f32) : Vec F S1024x1 .f32 :=
  View.canon [⟨r6_d, k6_pay17 (k6_pay10 i) (k6_pay11 (View.ld x0 r6_i)) p⟩]

/-- The second row count: `p + Σ_lanes onehot(rows = idx₁)`. -/
def acc6_3 (i : grid6.Coords) (x1 : Vec F S1x512 .i32) (p : Vec F S1024x1 .f32) : Vec F S1024x1 .f32 :=
  View.canon [⟨r6_d, k6_pay1 (k6_pay18 (k6_pay10 i) (k6_pay12 (View.ld x1 r6_i)) p)⟩]

/-- What the last point of a row block stores into the output block, from the four sums as they then stand
    and the target block: `target + ½ (a₀ / (d₀ + ε) + a₁ / (d₁ + ε))`. -/
def out6_8 (a0 : Vec F S1024x512 .f32) (d0 : Vec F S1024x1 .f32) (a1 : Vec F S1024x512 .f32) (d1 : Vec F S1024x1 .f32)
    (x7 : Vec F S1024x512 .f32) : Vec F S1024x512 .f32 :=
  View.canon [⟨r6_a, k6_pay2 (View.ld a0 r6_a) (View.ld d0 r6_d) (View.ld a1 r6_a) (View.ld d1 r6_d) (View.ld x7 r6_a)⟩]

/-! ## The four sums after each point -/

/-- THE ACCUMULATION. The four scratch arrays after the body at position `n`: at the first point of a row block
    (`n % 64 = 0`) the point's contribution over zero, else over what position `n - 1` left. -/
def scrAt6 (c : Dev nD) : (n : ℕ) → n < cfg6.N →
    Vec F S1024x512 .f32 × Vec F S1024x512 .f32 × Vec F S1024x1 .f32 × Vec F S1024x1 .f32
  | 0, hn =>
    (acc6_0 (grid6.coords ⟨0, hn⟩) (iblk6 V c 0 ⟨0, hn⟩) (iblk6 V c 2 ⟨0, hn⟩) (iblk6 V c 3 ⟨0, hn⟩) (iblk6 V c 4 ⟨0, hn⟩) (k6_pay3 (F := F)),
     acc6_1 (grid6.coords ⟨0, hn⟩) (iblk6 V c 1 ⟨0, hn⟩) (iblk6 V c 2 ⟨0, hn⟩) (iblk6 V c 5 ⟨0, hn⟩) (iblk6 V c 6 ⟨0, hn⟩) (k6_pay4 (F := F)),
     acc6_2 (grid6.coords ⟨0, hn⟩) (iblk6 V c 0 ⟨0, hn⟩) (k6_pay5 (F := F)),
     acc6_3 (grid6.coords ⟨0, hn⟩) (iblk6 V c 1 ⟨0, hn⟩) (k6_pay6 (F := F)))
  | n + 1, hn =>
    if h0 : (n + 1) % 64 = 0 then
      (acc6_0 (grid6.coords ⟨n + 1, hn⟩) (iblk6 V c 0 ⟨n + 1, hn⟩) (iblk6 V c 2 ⟨n + 1, hn⟩) (iblk6 V c 3 ⟨n + 1, hn⟩) (iblk6 V c 4 ⟨n + 1, hn⟩) (k6_pay3 (F := F)),
       acc6_1 (grid6.coords ⟨n + 1, hn⟩) (iblk6 V c 1 ⟨n + 1, hn⟩) (iblk6 V c 2 ⟨n + 1, hn⟩) (iblk6 V c 5 ⟨n + 1, hn⟩) (iblk6 V c 6 ⟨n + 1, hn⟩) (k6_pay4 (F := F)),
       acc6_2 (grid6.coords ⟨n + 1, hn⟩) (iblk6 V c 0 ⟨n + 1, hn⟩) (k6_pay5 (F := F)),
       acc6_3 (grid6.coords ⟨n + 1, hn⟩) (iblk6 V c 1 ⟨n + 1, hn⟩) (k6_pay6 (F := F)))
    else
      (acc6_0 (grid6.coords ⟨n + 1, hn⟩) (iblk6 V c 0 ⟨n + 1, hn⟩) (iblk6 V c 2 ⟨n + 1, hn⟩) (iblk6 V c 3 ⟨n + 1, hn⟩) (iblk6 V c 4 ⟨n + 1, hn⟩) (View.ld (scrAt6 c n (Nat.lt_of_succ_lt hn)).1 r6_a),
       acc6_1 (grid6.coords ⟨n + 1, hn⟩) (iblk6 V c 1 ⟨n + 1, hn⟩) (iblk6 V c 2 ⟨n + 1, hn⟩) (iblk6 V c 5 ⟨n + 1, hn⟩) (iblk6 V c 6 ⟨n + 1, hn⟩) (View.ld (scrAt6 c n (Nat.lt_of_succ_lt hn)).2.1 r6_a),
       acc6_2 (grid6.coords ⟨n + 1, hn⟩) (iblk6 V c 0 ⟨n + 1, hn⟩) (View.ld (scrAt6 c n (Nat.lt_of_succ_lt hn)).2.2.1 r6_d),
       acc6_3 (grid6.coords ⟨n + 1, hn⟩) (iblk6 V c 1 ⟨n + 1, hn⟩) (View.ld (scrAt6 c n (Nat.lt_of_succ_lt hn)).2.2.2 r6_d))

/-- The four scratch arrays after point `t`, one by one. -/
def scr6_0 (c : Dev nD) (t : Fin cfg6.N) : Vec F S1024x512 .f32 := (scrAt6 V c t.val t.isLt).1
def scr6_1 (c : Dev nD) (t : Fin cfg6.N) : Vec F S1024x512 .f32 := (scrAt6 V c t.val t.isLt).2.1
def scr6_2 (c : Dev nD) (t : Fin cfg6.N) : Vec F S1024x1 .f32 := (scrAt6 V c t.val t.isLt).2.2.1
def scr6_3 (c : Dev nD) (t : Fin cfg6.N) : Vec F S1024x1 .f32 := (scrAt6 V c t.val t.isLt).2.2.2

/-- `scrAt6` at the first point of a row block: the point's contribution over zero. -/
theorem scrAt6_first (c : Dev nD) (t : Fin cfg6.N) (h0 : t.val % 64 = 0) :
    scrAt6 V c t.val t.isLt =
      (acc6_0 (grid6.coords t) (iblk6 V c 0 t) (iblk6 V c 2 t) (iblk6 V c 3 t) (iblk6 V c 4 t) (k6_pay3 (F := F)),
       acc6_1 (grid6.coords t) (iblk6 V c 1 t) (iblk6 V c 2 t) (iblk6 V c 5 t) (iblk6 V c 6 t) (k6_pay4 (F := F)),
       acc6_2 (grid6.coords t) (iblk6 V c 0 t) (k6_pay5 (F := F)),
       acc6_3 (grid6.coords t) (iblk6 V c 1 t) (k6_pay6 (F := F))) := by
  obtain ⟨n, hn⟩ := t
  cases n with
  | zero => exact rfl
  | succ n => exact (dif_pos h0).trans rfl

/-- `scrAt6` at any other point: the point's contribution over what the point before left. -/
theorem scrAt6_next (c : Dev nD) (t : Fin cfg6.N) (h0 : ¬t.val % 64 = 0) :
    scrAt6 V c t.val t.isLt =
      (acc6_0 (grid6.coords t) (iblk6 V c 0 t) (iblk6 V c 2 t) (iblk6 V c 3 t) (iblk6 V c 4 t) (View.ld (scrAt6 V c (t.val - 1) (Nat.lt_of_le_of_lt (Nat.sub_le _ _) t.isLt)).1 r6_a),
       acc6_1 (grid6.coords t) (iblk6 V c 1 t) (iblk6 V c 2 t) (iblk6 V c 5 t) (iblk6 V c 6 t) (View.ld (scrAt6 V c (t.val - 1) (Nat.lt_of_le_of_lt (Nat.sub_le _ _) t.isLt)).2.1 r6_a),
       acc6_2 (grid6.coords t) (iblk6 V c 0 t) (View.ld (scrAt6 V c (t.val - 1) (Nat.lt_of_le_of_lt (Nat.sub_le _ _) t.isLt)).2.2.1 r6_d),
       acc6_3 (grid6.coords t) (iblk6 V c 1 t) (View.ld (scrAt6 V c (t.val - 1) (Nat.lt_of_le_of_lt (Nat.sub_le _ _) t.isLt)).2.2.2 r6_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM6_0 : Memref sig .tc .vmem S1024x512 .f32 := Memref.whole cc6_scratch0
abbrev scM6_1 : Memref sig .tc .vmem S1024x512 .f32 := Memref.whole cc6_scratch1
abbrev scM6_2 : Memref sig .tc .vmem S1024x1 .f32 := Memref.whole cc6_scratch2
abbrev scM6_3 : Memref sig .tc .vmem S1024x1 .f32 := Memref.whole cc6_scratch3

/-- The scoped buffers that are none of the four, unopened. -/
abbrev rest6 (c : Dev nD) : sProp 𝕄 :=
  Pipeline.scopedRestBut (Ix := Unit) (Name := ℕ) (U := UR sig nD τ) (Lvl := ℕ) (Val := Elt F) spec6 c [cc6_scratch0, cc6_scratch1, cc6_scratch2, cc6_scratch3]

/-- The invariant before position `n`: before the first point the four scratch arrays at anything; afterwards at what
    the point before left (`scrAt6`); beside them, throughout, the other scoped buffers unopened and the generator
    register at some state. -/
def PhiS6 (c : Dev nD) : (n : ℕ) → n ≤ cfg6.N → sProp 𝕄
  | 0, _ => iprop(iprop((∃ d, owns (c : Thread nD τ) scM6_0 fullShare d) ∗ (∃ d, owns (c : Thread nD τ) scM6_1 fullShare d)
      ∗ (∃ d, owns (c : Thread nD τ) scM6_2 fullShare d) ∗ (∃ d, owns (c : Thread nD τ) scM6_3 fullShare d))
      ∗ rest6 c ∗ (∃ r, prngReg c r))
  | n + 1, hn => iprop(iprop(owns (c : Thread nD τ) scM6_0 fullShare (scrAt6 V c n hn).1 ∗ owns (c : Thread nD τ) scM6_1 fullShare (scrAt6 V c n hn).2.1
      ∗ owns (c : Thread nD τ) scM6_2 fullShare (scrAt6 V c n hn).2.2.1 ∗ owns (c : Thread nD τ) scM6_3 fullShare (scrAt6 V c n hn).2.2.2)
      ∗ rest6 c ∗ (∃ r, prngReg c r))

theorem PhiS6_zero (c : Dev nD) (n : ℕ) (h : n ≤ cfg6.N) (hz : n = 0) :
    PhiS6 V c n h = iprop(iprop((∃ d, owns (c : Thread nD τ) scM6_0 fullShare d) ∗ (∃ d, owns (c : Thread nD τ) scM6_1 fullShare d)
      ∗ (∃ d, owns (c : Thread nD τ) scM6_2 fullShare d) ∗ (∃ d, owns (c : Thread nD τ) scM6_3 fullShare d))
      ∗ rest6 c ∗ (∃ r, prngReg c r)) := by
  subst hz; rfl

theorem PhiS6_succ (c : Dev nD) (n : ℕ) (hn : n < cfg6.N) :
    PhiS6 V c (n + 1) hn = iprop(iprop(owns (c : Thread nD τ) scM6_0 fullShare (scrAt6 V c n hn).1 ∗ owns (c : Thread nD τ) scM6_1 fullShare (scrAt6 V c n hn).2.1
      ∗ owns (c : Thread nD τ) scM6_2 fullShare (scrAt6 V c n hn).2.2.1 ∗ owns (c : Thread nD τ) scM6_3 fullShare (scrAt6 V c n hn).2.2.2)
      ∗ rest6 c ∗ (∃ r, prngReg c r)) := rfl

theorem PhiS6_pos (c : Dev nD) (n : ℕ) (h : n ≤ cfg6.N) (hz : n ≠ 0) :
    PhiS6 V c n h = iprop(iprop(owns (c : Thread nD τ) scM6_0 fullShare (scrAt6 V c (n - 1) (by omega)).1 ∗ owns (c : Thread nD τ) scM6_1 fullShare (scrAt6 V c (n - 1) (by omega)).2.1
      ∗ owns (c : Thread nD τ) scM6_2 fullShare (scrAt6 V c (n - 1) (by omega)).2.2.1 ∗ owns (c : Thread nD τ) scM6_3 fullShare (scrAt6 V c (n - 1) (by omega)).2.2.2)
      ∗ rest6 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out6_8` of the sums as they stand after `t` and the target block
    (consulted only where the block is written back, at the last point of a row block); the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (scr6_0 V c t) (scr6_2 V c t) (scr6_1 V c t) (scr6_3 V c t) (iblk6 V c 7 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (scr6_0 V c t) (scr6_2 V c t) (scr6_1 V c t) (scr6_3 V c t) (iblk6 V c 7 t) := by dsimp only [dat6]
theorem owed6 (c : Dev nD) (t) : (dat6 V c).owed t = 0 := rfl
theorem q6 (c : Dev nD) (w) : (dat6 V c).q w = fullShare := rfl

theorem PhiS6_castSucc (c : Dev nD) (t : Fin cfg6.N) :
    (dat6 V c).Φ t.castSucc = PhiS6 V c t.val (Nat.le_of_lt t.isLt) := by
  dsimp only [dat6]; simp only [Fin.coe_castSucc]

/-! ## The body's two conditions, in closed form over the grid -/

/-- The body's first condition (`k = 0`: start the sums from zero), from the grid coordinates. -/
abbrev cond6_0 (i : grid6.Coords) : Prop := (Scalar.cmpi .ne (Scalar.extui (Scalar.cmpi .eq (BitVec.ofNat 32 (i 1).val) 0#32)) 0#32) = 1#1
/-- It holds at the first point of each row block. -/
theorem hcond6_0 : ∀ t : Fin cfg6.N, cond6_0 (grid6.coords t) ↔ t.val % 64 = 0 :=
  (by decide +kernel : ∀ t : Fin grid6.N, cond6_0 (grid6.coords t) ↔ t.val % 64 = 0)
/-- The body's second condition (`k = 63`: write the output block). -/
abbrev cond6_1 (i : grid6.Coords) : Prop := k6_cond2 i = 1#1
/-- It holds at the last point of each row block. -/
theorem hcond6_1 : ∀ t : Fin cfg6.N, cond6_1 (grid6.coords t) ↔ t.val % 64 = 63 :=
  (by decide +kernel : ∀ t : Fin grid6.N, cond6_1 (grid6.coords t) ↔ t.val % 64 = 63)

/-! ## A whole-buffer store covers the buffer -/

theorem cover6_a (p0 : Vec F S1024x512 .f32) (y : S1024x512.Idx) :
    ∃ pc ∈ ([⟨r6_a, p0⟩] : List (View.Piece (Elt F) S1024x512 .f32)), y ∈ pc.1.set :=
  View.cover_of_tiled [⟨r6_a, p0⟩] S1024x512.size (by rfl) y
theorem cover6_d (p0 : Vec F S1024x1 .f32) (y : S1024x1.Idx) :
    ∃ pc ∈ ([⟨r6_d, p0⟩] : List (View.Piece (Elt F) S1024x1 .f32)), y ∈ pc.1.set :=
  View.cover_of_tiled [⟨r6_d, p0⟩] S1024x1.size (by rfl) y

/-- After writes the LAST of which covers the whole shape, the buffer reads as that write alone. -/
theorem read_writes_head_cover6 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon6_a (w : Vec F S1024x512 .f32) :
    View.ld (View.canon [(⟨r6_a, w⟩ : View.Piece (Elt F) S1024x512 .f32)]) r6_a = w :=
  funext fun x => View.canon_cons_emb r6_a w [] x
theorem ld_canon6_d (w : Vec F S1024x1 .f32) :
    View.ld (View.canon [(⟨r6_d, w⟩ : View.Piece (Elt F) S1024x1 .f32)]) r6_d = w :=
  funext fun x => View.canon_cons_emb r6_d w [] x

/-- The output block from sums that are themselves whole-buffer writes: the payloads meet directly. -/
theorem out6_8_canon (w0 w1 : Vec F S1024x512 .f32) (w2 w3 : Vec F S1024x1 .f32) (x7 : Vec F S1024x512 .f32) :
    out6_8 (View.canon [(⟨r6_a, w0⟩ : View.Piece (Elt F) S1024x512 .f32)]) (View.canon [(⟨r6_d, w2⟩ : View.Piece (Elt F) S1024x1 .f32)])
        (View.canon [(⟨r6_a, w1⟩ : View.Piece (Elt F) S1024x512 .f32)]) (View.canon [(⟨r6_d, w3⟩ : View.Piece (Elt F) S1024x1 .f32)]) x7
      = View.canon [(⟨r6_a, k6_pay2 w0 w2 w1 w3 (View.ld x7 r6_a)⟩ : View.Piece (Elt F) S1024x512 .f32)] := by
  unfold out6_8; rw [ld_canon6_a, ld_canon6_a, ld_canon6_d, ld_canon6_d]

set_option maxHeartbeats 4000000 in
/-- The first point of a row block (`k = 0`): each sum is set to zero, then the point's contribution is added to it; the
    inputs and the output block are left as they were. -/
theorem run6_A (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : cond6_0 i) (hc1 : ¬cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc6_0 i x0 x2 x3 x4 (k6_pay3 (F := F))) ∗ owns (c : Thread nD τ) arg12 fullShare (acc6_1 i x1 x2 x5 x6 (k6_pay4 (F := F)))
            ∗ owns (c : Thread nD τ) arg13 fullShare (acc6_2 i x0 (k6_pay5 (F := F))) ∗ owns (c : Thread nD τ) arg14 fullShare (acc6_3 i x1 (k6_pay6 (F := F)))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover6 _ _ _ _ (cover6_a _)).trans (by simp only [View.readCov_cons_toLoadRect]; rfl)
  isplitl [S1]
  · iexists _; isplitr
    swap; · iexact S1
    ipureintro; sl_unfold_run_names
    exact (read_writes_head_cover6 _ _ _ _ (cover6_a _)).trans (by simp only [View.readCov_cons_toLoadRect]; rfl)
  isplitl [S2]
  · iexists _; isplitr
    swap; · iexact S2
    ipureintro; sl_unfold_run_names
    exact (read_writes_head_cover6 _ _ _ _ (cover6_d _)).trans (by simp only [View.readCov_cons_toLoadRect]; rfl)
  iexists _; isplitr
  swap; · iexact S3
  ipureintro; sl_unfold_run_names
  exact (read_writes_head_cover6 _ _ _ _ (cover6_d _)).trans (by simp only [View.readCov_cons_toLoadRect]; rfl)

set_option maxHeartbeats 4000000 in
/-- A middle point of a row block (neither condition holds): each sum is loaded, the point's contribution added and stored back;
    the inputs and the output block are left as they were. -/
theorem run6_B (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond6_0 i) (hc1 : ¬cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc6_0 i x0 x2 x3 x4 (View.ld s0 r6_a)) ∗ owns (c : Thread nD τ) arg12 fullShare (acc6_1 i x1 x2 x5 x6 (View.ld s1 r6_a))
            ∗ owns (c : Thread nD τ) arg13 fullShare (acc6_2 i x0 (View.ld s2 r6_d)) ∗ owns (c : Thread nD τ) arg14 fullShare (acc6_3 i x1 (View.ld s3 r6_d))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover6_a _)
  isplitl [S1]
  · iexists _; isplitr
    swap; · iexact S1
    ipureintro; exact View.read_writes_eq_canon _ _ _ (cover6_a _)
  isplitl [S2]
  · iexists _; isplitr
    swap; · iexact S2
    ipureintro; exact View.read_writes_eq_canon _ _ _ (cover6_d _)
  iexists _; isplitr
  swap; · iexact S3
  ipureintro; exact View.read_writes_eq_canon _ _ _ (cover6_d _)

set_option maxHeartbeats 4000000 in
/-- The last point of a row block (`k = 63`): each sum is loaded, the point's contribution added and stored back, and the
    output block is written from the sums as they then stand and the target block; the inputs are left as they were. -/
theorem run6_C (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond6_0 i) (hc1 : cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out6_8 (acc6_0 i x0 x2 x3 x4 (View.ld s0 r6_a)) (acc6_2 i x0 (View.ld s2 r6_d)) (acc6_1 i x1 x2 x5 x6 (View.ld s1 r6_a)) (acc6_3 i x1 (View.ld s3 r6_d)) x7)
            ∗ owns (c : Thread nD τ) arg11 fullShare (acc6_0 i x0 x2 x3 x4 (View.ld s0 r6_a)) ∗ owns (c : Thread nD τ) arg12 fullShare (acc6_1 i x1 x2 x5 x6 (View.ld s1 r6_a))
            ∗ owns (c : Thread nD τ) arg13 fullShare (acc6_2 i x0 (View.ld s2 r6_d)) ∗ owns (c : Thread nD τ) arg14 fullShare (acc6_3 i x1 (View.ld s3 r6_d))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover6_a _)).trans
      (by simp only [View.readCov_cons_toLoadRect]; exact (out6_8_canon _ _ _ _ _).symm)
  isplitl [S0]
  · iexists _; isplitr
    swap; · iexact S0
    ipureintro; sl_unfold_run_names
    exact View.read_writes_eq_canon _ _ _ (cover6_a _)
  isplitl [S1]
  · iexists _; isplitr
    swap; · iexact S1
    ipureintro; sl_unfold_run_names
    exact View.read_writes_eq_canon _ _ _ (cover6_a _)
  isplitl [S2]
  · iexists _; isplitr
    swap; · iexact S2
    ipureintro; sl_unfold_run_names
    exact View.read_writes_eq_canon _ _ _ (cover6_d _)
  iexists _; isplitr
  swap; · iexact S3
  ipureintro; sl_unfold_run_names
  exact View.read_writes_eq_canon _ _ _ (cover6_d _)

/-! ## Where the output window is idle, and where its block is written back -/

/-- Off the last point of a row block the body stores nothing into the output window; -/
theorem idleAt6_8 : ∀ t : Fin cfg6.N, ¬cond6_1 (grid6.coords t) → cfg6.idle 8 (grid6.coords t) = true := by decide +kernel
/-- at it, it does. -/
theorem liveAt6_8 : ∀ t : Fin cfg6.N, cond6_1 (grid6.coords t) → cfg6.idle 8 (grid6.coords t) = false := by decide +kernel
/-- The output block is written back at the last point of a row block only. -/
theorem noFlush6_8 (t : Fin cfg6.N) (h : ¬t.val % 64 = 63) : (cfg6.win 8).flush t = false :=
  Bool.eq_false_iff.mpr fun hf => h ((flush6_8 t).mp hf)

/-! ## Each input's staging buffer holds its block at every point, fetched there or not -/

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl) (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl) (fun t => by rw [after6_7]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: the inputs' buffers as they were, the output's as the point leaves it (untouched where it is idle). -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ (dat6 V c).leavesExact 8 t)

set_option maxHeartbeats 8000000 in
/-- The body at any point. The inputs' buffers hold their blocks (`before6_W`); the point's position in its row block says
    which of the three cases runs. The invariant hands the body the four sums at what the point before left (at anything before the
    very first point) and takes them back at this point's; the other scoped buffers and the generator register pass through
    unread; off the last point of a row block the output's buffer passes through as well. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5, after6_6, after6_7]
  have hN : t.val < 128 := lt_of_lt_of_eq t.isLt (show cfg6.N = 128 from N_6)
  by_cases h0 : t.val % 64 = 0
  · have h1 : ¬t.val % 64 = 63 := by omega
    have hc0 : cond6_0 (grid6.coords t) := (hcond6_0 t).mpr h0
    have hc1 : ¬cond6_1 (grid6.coords t) := fun h => h1 ((hcond6_1 t).mp h)
    rw [Dat.leavesExact_idle (dat6 V c) 8 t (idleAt6_8 t hc1) (noFlush6_8 t h1)]
    rw [scrAt6_first V c t h0]
    by_cases hz : t.val = 0
    · rw [PhiS6_castSucc V c t, PhiS6_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_A c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_A c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond6_0 (grid6.coords t) := fun h => h0 ((hcond6_0 t).mp h)
    by_cases h1 : t.val % 64 = 63
    · have hc1 : cond6_1 (grid6.coords t) := (hcond6_1 t).mpr h1
      rw [show (dat6 V c).leavesExact 8 t = owns (c : Thread nD τ) (st6_8 t) fullShare ((dat6 V c).after 8 t) from by
        unfold Dat.leavesExact; rw [liveAt6_8 t hc1], after6_8]
      unfold scr6_0 scr6_1 scr6_2 scr6_3
      rw [scrAt6_next V c t h0]
      rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run6_C c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      rw [Dat.leavesExact_idle (dat6 V c) 8 t (idleAt6_8 t hc1) (noFlush6_8 t h1)]
      rw [scrAt6_next V c t h0]
      rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_B c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- What the region is entered with — the generator register and the scoped buffers that are no staging buffer, the four scratch
    arrays among them at anything — is the invariant before the first point. -/
theorem phi_in6 (c : Dev nD) : (iprop((∃ r, prngReg c r) ∗ Pipeline.scopedRest (Ix := Unit) (Name := ℕ) (U := UR sig nD τ) (Lvl := ℕ) spec6 c) : sProp 𝕄) ⊢ (dat6 V c).Φ 0 := by
  rw [show (dat6 V c).Φ 0 = PhiS6 V c 0 (Nat.zero_le _) from rfl, PhiS6_zero V c 0 _ rfl, scopedRest6_split]
  simp only [scM6_0, scM6_1, scM6_2, scM6_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out6 (c : Dev nD) : (dat6 V c).Φ (Fin.last cfg6.N) ⊢ (iprop((∃ r, prngReg c r) ∗ Pipeline.scopedRest (Ix := Unit) (Name := ℕ) (U := UR sig nD τ) (Lvl := ℕ) spec6 c) : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 128 := N_6; omega), scopedRest6_split]
  simp only [scM6_0, scM6_1, scM6_2, scM6_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.Kernel.Hand
end
-- ==== Proof.KB.Reg7.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The rectangles the body reads and writes: each is the whole of its buffer -/

/-- The whole input block. -/
abbrev r7_0 : Rect S512x512 := Rect.unit (s := S512x512) ![0, 0] S512x512.size inb_S512x512_S512x512_0_0
/-- The whole weight matrix. -/
abbrev r7_1 : Rect S512x512 := Rect.unit (s := S512x512) ![0, 0] S512x512.size inb_S512x512_S512x512_0_0
/-- The whole bias row. -/
abbrev r7_2 : Rect S1x512 := Rect.unit (s := S1x512) ![0, 0] S1x512.size inb_S1x512_S1x512_0_0
/-- The whole output block. -/
abbrev r7_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out7_3 (x0 : Vec F S512x512 .f32) (x1 : Vec F S512x512 .f32) (x2 : Vec F S1x512 .f32) : Vec F S512x512 .bf16 :=
  View.canon [⟨r7_3, k7_pay1 (View.ld x0 r7_0) (View.ld x1 r7_1) (View.ld x2 r7_2)⟩]

/-! ## The proof data -/

/-- The proof data of the region on core `c`: the arrays as the region finds them; after the body at point `t`
    each input's buffer still at its block and the output's at `out7_3` of the input blocks; the invariant is
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Nothing is owed at any point. -/
theorem owed7 (c : Dev nD) (t) : (dat7 V c).owed t = 0 := rfl

/-- Every window is held at the full share. -/
theorem q7 (c : Dev nD) (w) : (dat7 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix's buffer holds the matrix at every point: fetched at the first point only, its block index
    never moves afterwards, and the body leaves it in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer holds the row at every point, for the same reason. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body's triple -/

/-- The body's one store is over the whole output buffer, so it covers every index of it. -/
theorem cover7_3 (p0 : Vec F S512x512 .bf16) (y : S512x512.Idx) :
    ∃ pc ∈ ([⟨r7_3, p0⟩] : List (View.Piece (Elt F) S512x512 .bf16)), y ∈ pc.1.set :=
  View.cover_of_tiled [⟨r7_3, p0⟩] S512x512.size (by rfl) y

set_option maxHeartbeats 1000000 in
/-- The body on whole staging memrefs — the three inputs' reading `x0`, `x1`, `x2`, the output's holding anything —
    runs to a continuation that holds the inputs' as they were and the output's at `out7_3 x0 x1 x2`: the printed
    function is its skeleton of loads and one store, run operation by operation. -/
theorem sound_kernel7 (c : Dev nD) (E : Set ℕ) (i : grid7.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the two ends -/

/-- The generator register and the scoped buffers no window stages make the invariant at the first point. -/
theorem phi_in7 (c : Dev nD) :
    (iprop((∃ r, prngReg c r) ∗ Pipeline.scopedRest (Ix := Unit) (Name := ℕ) (U := UR sig nD τ) (Lvl := ℕ) spec7 c) : sProp 𝕄)
      ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- The invariant at the last point gives them back. -/
theorem phi_out7 (c : Dev nD) :
    (dat7 V c).Φ (Fin.last cfg7.N)
      ⊢ (iprop((∃ r, prngReg c r) ∗ Pipeline.scopedRest (Ix := Unit) (Name := ℕ) (U := UR sig nD τ) (Lvl := ℕ) spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

end Cert.Kernel.Hand

end
-- ==== Proof.KB.Reg8.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The rectangles the body reads and writes: each is the whole of its buffer -/

/-- The whole input block. -/
abbrev r8_0 : Rect S512x512 := Rect.unit (s := S512x512) ![0, 0] S512x512.size inb_S512x512_S512x512_0_0
/-- The whole weight matrix. -/
abbrev r8_1 : Rect S512x512 := Rect.unit (s := S512x512) ![0, 0] S512x512.size inb_S512x512_S512x512_0_0
/-- The whole bias row. -/
abbrev r8_2 : Rect S1x512 := Rect.unit (s := S1x512) ![0, 0] S1x512.size inb_S1x512_S1x512_0_0
/-- The whole output block. -/
abbrev r8_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out8_3 (x0 : Vec F S512x512 .f32) (x1 : Vec F S512x512 .f32) (x2 : Vec F S1x512 .f32) : Vec F S512x512 .bf16 :=
  View.canon [⟨r8_3, k8_pay1 (View.ld x0 r8_0) (View.ld x1 r8_1) (View.ld x2 r8_2)⟩]

/-! ## The proof data -/

/-- The proof data of the region on core `c`: the arrays as the region finds them; after the body at point `t`
    each input's buffer still at its block and the output's at `out8_3` of the input blocks; the invariant is
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Nothing is owed at any point. -/
theorem owed8 (c : Dev nD) (t) : (dat8 V c).owed t = 0 := rfl

/-- Every window is held at the full share. -/
theorem q8 (c : Dev nD) (w) : (dat8 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weight matrix's buffer holds the matrix at every point: fetched at the first point only, its block index
    never moves afterwards, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row's buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body's triple -/

/-- The body's one store is over the whole output buffer, so it covers every index of it. -/
theorem cover8_3 (p0 : Vec F S512x512 .bf16) (y : S512x512.Idx) :
    ∃ pc ∈ ([⟨r8_3, p0⟩] : List (View.Piece (Elt F) S512x512 .bf16)), y ∈ pc.1.set :=
  View.cover_of_tiled [⟨r8_3, p0⟩] S512x512.size (by rfl) y

set_option maxHeartbeats 1000000 in
/-- The body on whole staging memrefs — the three inputs' reading `x0`, `x1`, `x2`, the output's holding anything —
    runs to a continuation that holds the inputs' as they were and the output's at `out8_3 x0 x1 x2`: the printed
    function is its skeleton of loads and one store, run operation by operation. -/
theorem sound_kernel8 (c : Dev nD) (E : Set ℕ) (i : grid8.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The generator register and the scoped buffers no window stages make the invariant at the first point. -/
theorem phi_in8 (c : Dev nD) :
    (iprop((∃ r, prngReg c r) ∗ Pipeline.scopedRest (Ix := Unit) (Name := ℕ) (U := UR sig nD τ) (Lvl := ℕ) spec8 c) : sProp 𝕄)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- The invariant at the last point gives them back. -/
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) spec8 c) : sProp 𝕄) := by
  rw [show (dat8 V c).Φ (Fin.last _) = Pipeline.ΦA spec8 c from rfl]; unfold Pipeline.ΦA
  iintro ⟨Hr, Hp⟩
  isplitl [Hp]; · iexact Hp
  iexact Hr

end Cert.Kernel.Hand

end
-- ==== Proof.KB.Reg9.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 9: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The whole of an index column's block. -/
abbrev r9_ix : Rect S512x1 := Rect.unit (s := S512x1) ![0, 0] S512x1.size inb_S512x1_S512x1_0_0
/-- The whole of an object-side matrix. -/
abbrev r9_fc : Rect S2048x512 := Rect.unit (s := S2048x512) ![0, 0] S2048x512.size inb_S2048x512_S2048x512_0_0
/-- The whole of a block of the target or of the result. -/
abbrev r9_o : Rect S512x512 := Rect.unit (s := S512x512) ![0, 0] S512x512.size inb_S512x512_S512x512_0_0

/-- What the body leaves in the result's staging buffer, from the five input blocks: its single store, which covers the
    buffer, of the target block plus half the sum of the two averaged gathers. -/
def out9_5 (x0 : Vec F S512x1 .i32) (x1 : Vec F S512x1 .i32) (x2 : Vec F S2048x512 .bf16) (x3 : Vec F S2048x512 .bf16)
    (x4 : Vec F S512x512 .f32) : Vec F S512x512 .f32 :=
  View.canon [⟨r9_o, k9_pay1 (k9_pay2 (View.ld x4 r9_o))
    (k9_pay3 (View.ld x0 r9_ix) (View.ld x1 r9_ix) (View.ld x2 r9_fc) (View.ld x3 r9_fc))⟩]

/-- The proof data of pipeline 9 on core `c`: the arrays as found; after the body every input's buffer still holds its
    block and the result's holds `out9_5` of the input blocks; the invariant is the untouched scoped rest beside the
    generator register; nothing is owed and every share is whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t =
    out9_5 (iblk9 V c 0 t) (iblk9 V c 1 t) (iblk9 V c 2 t) (iblk9 V c 3 t) (iblk9 V c 4 t) := by dsimp only [dat9]

theorem owed9 (c : Dev nD) (t) : (dat9 V c).owed t = 0 := rfl
theorem q9 (c : Dev nD) (w) : (dat9 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before9_0 (c : Dev nD) (t : Fin cfg9.N) (d) : (dat9 V c).before 0 t d = iblk9 V c 0 t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
      (fun t => by rw [after9_4]; unfold Dat.blockOf iblk9; rw [A_eq9]; try rfl) t d).trans
    (by unfold Dat.fetched Dat.blockOf iblk9; rw [A_eq9]; try rfl)

/-! ## The body's triple -/

/-- The single store of the body is of the whole result block, so it covers the staging buffer. -/
theorem cover9_5 (p0 : Vec F S512x512 .f32) (y : S512x512.Idx) :
    ∃ pc ∈ ([⟨r9_o, p0⟩] : List (View.Piece (Elt F) S512x512 .f32)), y ∈ pc.1.set :=
  View.cover_of_tiled [⟨r9_o, p0⟩] S512x512.size (by rfl) y

set_option maxHeartbeats 1000000 in
/-- On whole staging memrefs, the five inputs' read at `x0 … x4` and the result's at anything, the body runs to a
    continuation that holds the inputs' as they were and the result's at `out9_5` of them: five loads inside the part,
    a dead load of the result's buffer, and the one store. -/
theorem sound_kernel9 (c : Dev nD) (E : Set ℕ) (i : grid9.Coords)
    (arg1 : Memref sig .tc .vmem S512x1 .i32) (harg1 : arg1.IsWhole) (arg2 : Memref sig .tc .vmem S512x1 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x512 .f32) (harg5 : arg5.IsWhole) (arg6 : Memref sig .tc .vmem S512x512 .f32) (harg6 : arg6.IsWhole)
    (x0 : Vec F S512x1 .i32) (x1 : Vec F S512x1 .i32) (x2 : Vec F S2048x512 .bf16) (x3 : Vec F S2048x512 .bf16) (x4 : Vec F S512x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__collect_transpose_fused_kernel i arg1 harg1 arg2 harg2 arg3 harg3 arg4 harg4 arg5 harg5 arg6 harg6) K := by
  simp only [cc9__collect_transpose_fused_kernel_eq_skeleton]; unfold cc9__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The body obligation -/

/-- What the body is entered with at grid point `t`: the invariant, what the core owes, and each window's current
    staging buffer at what it then holds. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What it returns: the same at the next point, each buffer at what the body leaves in it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any grid point: the inputs' buffers hold their blocks, so the body's triple applies; the invariant and
    what the core owes are not read and pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- Entering: the generator register and the scoped rest make the invariant. -/
theorem phi_in9 (c : Dev nD) : (iprop((∃ r, prngReg c r) ∗ Pipeline.scopedRest (Ix := Unit) (Name := ℕ) (U := UR sig nD τ) (Lvl := ℕ) spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- Leaving: the invariant gives both back. -/
theorem phi_out9 (c : Dev nD) : (dat9 V c).Φ (Fin.last cfg9.N) ⊢ (iprop((∃ r, prngReg c r) ∗ Pipeline.scopedRest (Ix := Unit) (Name := ℕ) (U := UR sig nD τ) (Lvl := ℕ) spec9 c) : sProp 𝕄) := by
  rw [show (dat9 V c).Φ (Fin.last cfg9.N) = Pipeline.ΦA spec9 c from rfl]; unfold Pipeline.ΦA
  iintro ⟨Hr, Hp⟩
  isplitl [Hp]; · iexact Hp
  iexact Hr

end Cert.Kernel.Hand
end
-- ==== Proof.KB.Reg10.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The rectangles the body reads and writes: each is the whole of its buffer -/

/-- The whole input block. -/
abbrev r10_0 : Rect S512x512 := Rect.unit (s := S512x512) ![0, 0] S512x512.size inb_S512x512_S512x512_0_0
/-- The whole weight matrix. -/
abbrev r10_1 : Rect S512x256 := Rect.unit (s := S512x256) ![0, 0] S512x256.size inb_S512x256_S512x256_0_0
/-- The whole bias row. -/
abbrev r10_2 : Rect S1x256 := Rect.unit (s := S1x256) ![0, 0] S1x256.size inb_S1x256_S1x256_0_0
/-- The whole output block. -/
abbrev r10_3 : Rect S512x256 := Rect.unit (s := S512x256) ![0, 0] S512x256.size inb_S512x256_S512x256_0_0

/-! ## What the body leaves in the output window's buffer -/

/-- The output buffer after the body, from the three input blocks: the body's one store, of the payload
    computed from what it read of the inputs, over the whole buffer. -/
def out10_3 (x0 : Vec F S512x512 .f32) (x1 : Vec F S512x256 .f32) (x2 : Vec F S1x256 .f32) : Vec F S512x256 .f32 :=
  View.canon [⟨r10_3, k10_pay1 (View.ld x0 r10_0) (View.ld x1 r10_1) (View.ld x2 r10_2)⟩]

/-! ## The proof data -/

/-- The proof data of the region on core `c`: the arrays as the region finds them; after the body at point `t`
    each input's buffer still at its block and the output's at `out10_3` of the input blocks; the invariant is
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Nothing is owed at any point. -/
theorem owed10 (c : Dev nD) (t) : (dat10 V c).owed t = 0 := rfl

/-- Every window is held at the full share. -/
theorem q10 (c : Dev nD) (w) : (dat10 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weight matrix's buffer holds the matrix at every point: fetched at the first point only, its block index
    never moves afterwards, and the body leaves it in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row's buffer holds the row at every point, for the same reason. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body's triple -/

/-- The body's one store is over the whole output buffer, so it covers every index of it. -/
theorem cover10_3 (p0 : Vec F S512x256 .f32) (y : S512x256.Idx) :
    ∃ pc ∈ ([⟨r10_3, p0⟩] : List (View.Piece (Elt F) S512x256 .f32)), y ∈ pc.1.set :=
  View.cover_of_tiled [⟨r10_3, p0⟩] S512x256.size (by rfl) y

set_option maxHeartbeats 1000000 in
/-- The body on whole staging memrefs — the three inputs' reading `x0`, `x1`, `x2`, the output's holding anything —
    runs to a continuation that holds the inputs' as they were and the output's at `out10_3 x0 x1 x2`: the printed
    function is its skeleton of loads and one store, run operation by operation. -/
theorem sound_kernel10 (c : Dev nD) (E : Set ℕ) (i : grid10.Coords)
    (arg1 : Memref sig .tc .vmem S512x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the two ends -/

/-- The generator register and the scoped buffers no window stages make the invariant at the first point. -/
theorem phi_in10 (c : Dev nD) :
    (iprop((∃ r, prngReg c r) ∗ Pipeline.scopedRest (Ix := Unit) (Name := ℕ) (U := UR sig nD τ) (Lvl := ℕ) spec10 c) : sProp 𝕄)
      ⊢ (dat10 V c).Φ 0 := by
  rw [show (dat10 V c).Φ 0 = Pipeline.ΦA spec10 c from rfl]; unfold Pipeline.ΦA
  iintro ⟨Hp, Hr⟩
  isplitl [Hr]; · iexact Hr
  iexact Hp

/-- The invariant at the last point gives them back. -/
theorem phi_out10 (c : Dev nD) :
    (dat10 V c).Φ (Fin.last cfg10.N)
      ⊢ (iprop((∃ r, prngReg c r) ∗ Pipeline.scopedRest (Ix := Unit) (Name := ℕ) (U := UR sig nD τ) (Lvl := ℕ) spec10 c) : sProp 𝕄) := by
  rw [show (dat10 V c).Φ (Fin.last _) = Pipeline.ΦA spec10 c from rfl]; unfold Pipeline.ΦA
  iintro ⟨Hr, Hp⟩
  isplitl [Hp]; · iexact Hp
  iexact Hr

end Cert.Kernel.Hand

end
-- ==== Proof.KB.Reg11.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The rectangles the body reads and writes: each is the whole of its buffer -/

/-- The whole input block. -/
abbrev r11_0 : Rect S512x512 := Rect.unit (s := S512x512) ![0, 0] S512x512.size inb_S512x512_S512x512_0_0
/-- The whole weight matrix. -/
abbrev r11_1 : Rect S512x128 := Rect.unit (s := S512x128) ![0, 0] S512x128.size inb_S512x128_S512x128_0_0
/-- The whole bias row. -/
abbrev r11_2 : Rect S1x128 := Rect.unit (s := S1x128) ![0, 0] S1x128.size inb_S1x128_S1x128_0_0
/-- The whole output block. -/
abbrev r11_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out11_3 (x0 : Vec F S512x512 .f32) (x1 : Vec F S512x128 .f32) (x2 : Vec F S1x128 .f32) : Vec F S512x128 .f32 :=
  View.canon [⟨r11_3, k11_pay1 (View.ld x0 r11_0) (View.ld x1 r11_1) (View.ld x2 r11_2)⟩]

/-! ## The proof data -/

/-- The proof data of the region on core `c`: the arrays as the region finds them; after the body at point `t`
    each input's buffer still at its block and the output's at `out11_3` of the input blocks; the invariant is
    the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Nothing is owed at any point. -/
theorem owed11 (c : Dev nD) (t) : (dat11 V c).owed t = 0 := rfl

/-- Every window is held at the full share. -/
theorem q11 (c : Dev nD) (w) : (dat11 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The weight matrix's buffer holds the matrix at every point: fetched at the first point only, its block index
    never moves afterwards, and the body leaves it in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The bias row's buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body's triple -/

/-- The body's one store is over the whole output buffer, so it covers every index of it. -/
theorem cover11_3 (p0 : Vec F S512x128 .f32) (y : S512x128.Idx) :
    ∃ pc ∈ ([⟨r11_3, p0⟩] : List (View.Piece (Elt F) S512x128 .f32)), y ∈ pc.1.set :=
  View.cover_of_tiled [⟨r11_3, p0⟩] S512x128.size (by rfl) y

set_option maxHeartbeats 1000000 in
/-- The body on whole staging memrefs — the three inputs' reading `x0`, `x1`, `x2`, the output's holding anything —
    runs to a continuation that holds the inputs' as they were and the output's at `out11_3 x0 x1 x2`: the printed
    function is its skeleton of loads and one store, run operation by operation. -/
theorem sound_kernel11 (c : Dev nD) (E : Set ℕ) (i : grid11.Coords)
    (arg1 : Memref sig .tc .vmem S512x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the body's triple applies; the invariant and
    what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the two ends -/

/-- The generator register and the scoped buffers no window stages make the invariant at the first point. -/
theorem phi_in11 (c : Dev nD) :
    (iprop((∃ r, prngReg c r) ∗ Pipeline.scopedRest (Ix := Unit) (Name := ℕ) (U := UR sig nD τ) (Lvl := ℕ) spec11 c) : sProp 𝕄)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- The invariant at the last point gives them back. -/
theorem phi_out11 (c : Dev nD) :
    (dat11 V c).Φ (Fin.last cfg11.N)
      ⊢ (iprop((∃ r, prngReg c r) ∗ Pipeline.scopedRest (Ix := Unit) (Name := ℕ) (U := UR sig nD τ) (Lvl := ℕ) spec11 c) : sProp 𝕄) := by
  rw [show (dat11 V c).Φ (Fin.last _) = Pipeline.ΦA spec11 c from rfl]; unfold Pipeline.ΦA
  iintro ⟨Hr, Hp⟩
  isplitl [Hp]; · iexact Hp
  iexact Hr

end Cert.Kernel.Hand

end
-- ==== Proof.KB.Reg12.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 12: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: every load and store is of a whole buffer -/

/-- an index row, -/
abbrev r12_i : Rect S1x512 := Rect.unit (s := S1x512) ![0, 0] S1x512.size inb_S1x512_S1x512_0_0
/-- a bias row, -/
abbrev r12_b : Rect S1x256 := Rect.unit (s := S1x256) ![0, 0] S1x256.size inb_S1x256_S1x256_0_0
/-- the source tile, -/
abbrev r12_s : Rect S512x128 := Rect.unit (s := S512x128) ![0, 0] S512x128.size inb_S512x128_S512x128_0_0
/-- a weight matrix, -/
abbrev r12_w : Rect S128x256 := Rect.unit (s := S128x256) ![0, 0] S128x256.size inb_S128x256_S128x256_0_0
/-- a weighted sum (and the target and output blocks), a row count. -/
abbrev r12_a : Rect S1024x256 := Rect.unit (s := S1024x256) ![0, 0] S1024x256.size inb_S1024x256_S1024x256_0_0
abbrev r12_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc12_0 (i : grid12.Coords) (x0 : Vec F S1x512 .i32) (x2 : Vec F S512x128 .f32) (x3 : Vec F S128x256 .f32) (x4 : Vec F S1x256 .f32)
    (p : Vec F S1024x256 .f32) : Vec F S1024x256 .f32 :=
  View.canon [⟨r12_a, k12_pay15 (k12_pay8 (View.ld x2 r12_s) (View.ld x3 r12_w) (View.ld x4 r12_b)) (k12_pay10 i) (k12_pay11 (View.ld x0 r12_i)) p⟩]

/-- The second weighted sum: `p + onehot(rows = idx₁) · relu(src · W₁ + b₁)`. -/
def acc12_1 (i : grid12.Coords) (x1 : Vec F S1x512 .i32) (x2 : Vec F S512x128 .f32) (x5 : Vec F S128x256 .f32) (x6 : Vec F S1x256 .f32)
    (p : Vec F S1024x256 .f32) : Vec F S1024x256 .f32 :=
  View.canon [⟨r12_a, k12_pay16 (k12_pay9 (View.ld x2 r12_s) (View.ld x5 r12_w) (View.ld x6 r12_b)) (k12_pay10 i) (k12_pay12 (View.ld x1 r12_i)) p⟩]

/-- The first row count: `p + Σ_lanes onehot(rows = idx₀)`. -/
def acc12_2 (i : grid12.Coords) (x0 : Vec F S1x512 .i32) (p : Vec F S1024x1 .f32) : Vec F S1024x1 .f32 :=
  View.canon [⟨r12_d, k12_pay17 (k12_pay10 i) (k12_pay11 (View.ld x0 r12_i)) p⟩]

/-- The second row count: `p + Σ_lanes onehot(rows = idx₁)`. -/
def acc12_3 (i : grid12.Coords) (x1 : Vec F S1x512 .i32) (p : Vec F S1024x1 .f32) : Vec F S1024x1 .f32 :=
  View.canon [⟨r12_d, k12_pay1 (k12_pay18 (k12_pay10 i) (k12_pay12 (View.ld x1 r12_i)) p)⟩]

/-- What the last point of a row block stores into the output block, from the four sums as they then stand
    and the target block: `target + ½ (a₀ / (d₀ + ε) + a₁ / (d₁ + ε))`. -/
def out12_8 (a0 : Vec F S1024x256 .f32) (d0 : Vec F S1024x1 .f32) (a1 : Vec F S1024x256 .f32) (d1 : Vec F S1024x1 .f32)
    (x7 : Vec F S1024x256 .f32) : Vec F S1024x256 .f32 :=
  View.canon [⟨r12_a, k12_pay2 (View.ld a0 r12_a) (View.ld d0 r12_d) (View.ld a1 r12_a) (View.ld d1 r12_d) (View.ld x7 r12_a)⟩]

/-! ## The four sums after each point -/

/-- THE ACCUMULATION. The four scratch arrays after the body at position `n`: at the first point of a row block
    (`n % 64 = 0`) the point's contribution over zero, else over what position `n - 1` left. -/
def scrAt12 (c : Dev nD) : (n : ℕ) → n < cfg12.N →
    Vec F S1024x256 .f32 × Vec F S1024x256 .f32 × Vec F S1024x1 .f32 × Vec F S1024x1 .f32
  | 0, hn =>
    (acc12_0 (grid12.coords ⟨0, hn⟩) (iblk12 V c 0 ⟨0, hn⟩) (iblk12 V c 2 ⟨0, hn⟩) (iblk12 V c 3 ⟨0, hn⟩) (iblk12 V c 4 ⟨0, hn⟩) (k12_pay3 (F := F)),
     acc12_1 (grid12.coords ⟨0, hn⟩) (iblk12 V c 1 ⟨0, hn⟩) (iblk12 V c 2 ⟨0, hn⟩) (iblk12 V c 5 ⟨0, hn⟩) (iblk12 V c 6 ⟨0, hn⟩) (k12_pay4 (F := F)),
     acc12_2 (grid12.coords ⟨0, hn⟩) (iblk12 V c 0 ⟨0, hn⟩) (k12_pay5 (F := F)),
     acc12_3 (grid12.coords ⟨0, hn⟩) (iblk12 V c 1 ⟨0, hn⟩) (k12_pay6 (F := F)))
  | n + 1, hn =>
    if h0 : (n + 1) % 64 = 0 then
      (acc12_0 (grid12.coords ⟨n + 1, hn⟩) (iblk12 V c 0 ⟨n + 1, hn⟩) (iblk12 V c 2 ⟨n + 1, hn⟩) (iblk12 V c 3 ⟨n + 1, hn⟩) (iblk12 V c 4 ⟨n + 1, hn⟩) (k12_pay3 (F := F)),
       acc12_1 (grid12.coords ⟨n + 1, hn⟩) (iblk12 V c 1 ⟨n + 1, hn⟩) (iblk12 V c 2 ⟨n + 1, hn⟩) (iblk12 V c 5 ⟨n + 1, hn⟩) (iblk12 V c 6 ⟨n + 1, hn⟩) (k12_pay4 (F := F)),
       acc12_2 (grid12.coords ⟨n + 1, hn⟩) (iblk12 V c 0 ⟨n + 1, hn⟩) (k12_pay5 (F := F)),
       acc12_3 (grid12.coords ⟨n + 1, hn⟩) (iblk12 V c 1 ⟨n + 1, hn⟩) (k12_pay6 (F := F)))
    else
      (acc12_0 (grid12.coords ⟨n + 1, hn⟩) (iblk12 V c 0 ⟨n + 1, hn⟩) (iblk12 V c 2 ⟨n + 1, hn⟩) (iblk12 V c 3 ⟨n + 1, hn⟩) (iblk12 V c 4 ⟨n + 1, hn⟩) (View.ld (scrAt12 c n (Nat.lt_of_succ_lt hn)).1 r12_a),
       acc12_1 (grid12.coords ⟨n + 1, hn⟩) (iblk12 V c 1 ⟨n + 1, hn⟩) (iblk12 V c 2 ⟨n + 1, hn⟩) (iblk12 V c 5 ⟨n + 1, hn⟩) (iblk12 V c 6 ⟨n + 1, hn⟩) (View.ld (scrAt12 c n (Nat.lt_of_succ_lt hn)).2.1 r12_a),
       acc12_2 (grid12.coords ⟨n + 1, hn⟩) (iblk12 V c 0 ⟨n + 1, hn⟩) (View.ld (scrAt12 c n (Nat.lt_of_succ_lt hn)).2.2.1 r12_d),
       acc12_3 (grid12.coords ⟨n + 1, hn⟩) (iblk12 V c 1 ⟨n + 1, hn⟩) (View.ld (scrAt12 c n (Nat.lt_of_succ_lt hn)).2.2.2 r12_d))

/-- The four scratch arrays after point `t`, one by one. -/
def scr12_0 (c : Dev nD) (t : Fin cfg12.N) : Vec F S1024x256 .f32 := (scrAt12 V c t.val t.isLt).1
def scr12_1 (c : Dev nD) (t : Fin cfg12.N) : Vec F S1024x256 .f32 := (scrAt12 V c t.val t.isLt).2.1
def scr12_2 (c : Dev nD) (t : Fin cfg12.N) : Vec F S1024x1 .f32 := (scrAt12 V c t.val t.isLt).2.2.1
def scr12_3 (c : Dev nD) (t : Fin cfg12.N) : Vec F S1024x1 .f32 := (scrAt12 V c t.val t.isLt).2.2.2

/-- `scrAt12` at the first point of a row block: the point's contribution over zero. -/
theorem scrAt12_first (c : Dev nD) (t : Fin cfg12.N) (h0 : t.val % 64 = 0) :
    scrAt12 V c t.val t.isLt =
      (acc12_0 (grid12.coords t) (iblk12 V c 0 t) (iblk12 V c 2 t) (iblk12 V c 3 t) (iblk12 V c 4 t) (k12_pay3 (F := F)),
       acc12_1 (grid12.coords t) (iblk12 V c 1 t) (iblk12 V c 2 t) (iblk12 V c 5 t) (iblk12 V c 6 t) (k12_pay4 (F := F)),
       acc12_2 (grid12.coords t) (iblk12 V c 0 t) (k12_pay5 (F := F)),
       acc12_3 (grid12.coords t) (iblk12 V c 1 t) (k12_pay6 (F := F))) := by
  obtain ⟨n, hn⟩ := t
  cases n with
  | zero => exact rfl
  | succ n => exact (dif_pos h0).trans rfl

/-- `scrAt12` at any other point: the point's contribution over what the point before left. -/
theorem scrAt12_next (c : Dev nD) (t : Fin cfg12.N) (h0 : ¬t.val % 64 = 0) :
    scrAt12 V c t.val t.isLt =
      (acc12_0 (grid12.coords t) (iblk12 V c 0 t) (iblk12 V c 2 t) (iblk12 V c 3 t) (iblk12 V c 4 t) (View.ld (scrAt12 V c (t.val - 1) (Nat.lt_of_le_of_lt (Nat.sub_le _ _) t.isLt)).1 r12_a),
       acc12_1 (grid12.coords t) (iblk12 V c 1 t) (iblk12 V c 2 t) (iblk12 V c 5 t) (iblk12 V c 6 t) (View.ld (scrAt12 V c (t.val - 1) (Nat.lt_of_le_of_lt (Nat.sub_le _ _) t.isLt)).2.1 r12_a),
       acc12_2 (grid12.coords t) (iblk12 V c 0 t) (View.ld (scrAt12 V c (t.val - 1) (Nat.lt_of_le_of_lt (Nat.sub_le _ _) t.isLt)).2.2.1 r12_d),
       acc12_3 (grid12.coords t) (iblk12 V c 1 t) (View.ld (scrAt12 V c (t.val - 1) (Nat.lt_of_le_of_lt (Nat.sub_le _ _) t.isLt)).2.2.2 r12_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM12_0 : Memref sig .tc .vmem S1024x256 .f32 := Memref.whole cc12_scratch0
abbrev scM12_1 : Memref sig .tc .vmem S1024x256 .f32 := Memref.whole cc12_scratch1
abbrev scM12_2 : Memref sig .tc .vmem S1024x1 .f32 := Memref.whole cc12_scratch2
abbrev scM12_3 : Memref sig .tc .vmem S1024x1 .f32 := Memref.whole cc12_scratch3

/-- The scoped buffers that are none of the four, unopened. -/
abbrev rest12 (c : Dev nD) : sProp 𝕄 :=
  Pipeline.scopedRestBut (Ix := Unit) (Name := ℕ) (U := UR sig nD τ) (Lvl := ℕ) (Val := Elt F) spec12 c [cc12_scratch0, cc12_scratch1, cc12_scratch2, cc12_scratch3]

/-- The invariant before position `n`: before the first point the four scratch arrays at anything; afterwards at what
    the point before left (`scrAt12`); beside them, throughout, the other scoped buffers unopened and the generator
    register at some state. -/
def PhiS12 (c : Dev nD) : (n : ℕ) → n ≤ cfg12.N → sProp 𝕄
  | 0, _ => iprop(iprop((∃ d, owns (c : Thread nD τ) scM12_0 fullShare d) ∗ (∃ d, owns (c : Thread nD τ) scM12_1 fullShare d)
      ∗ (∃ d, owns (c : Thread nD τ) scM12_2 fullShare d) ∗ (∃ d, owns (c : Thread nD τ) scM12_3 fullShare d))
      ∗ rest12 c ∗ (∃ r, prngReg c r))
  | n + 1, hn => iprop(iprop(owns (c : Thread nD τ) scM12_0 fullShare (scrAt12 V c n hn).1 ∗ owns (c : Thread nD τ) scM12_1 fullShare (scrAt12 V c n hn).2.1
      ∗ owns (c : Thread nD τ) scM12_2 fullShare (scrAt12 V c n hn).2.2.1 ∗ owns (c : Thread nD τ) scM12_3 fullShare (scrAt12 V c n hn).2.2.2)
      ∗ rest12 c ∗ (∃ r, prngReg c r))

theorem PhiS12_zero (c : Dev nD) (n : ℕ) (h : n ≤ cfg12.N) (hz : n = 0) :
    PhiS12 V c n h = iprop(iprop((∃ d, owns (c : Thread nD τ) scM12_0 fullShare d) ∗ (∃ d, owns (c : Thread nD τ) scM12_1 fullShare d)
      ∗ (∃ d, owns (c : Thread nD τ) scM12_2 fullShare d) ∗ (∃ d, owns (c : Thread nD τ) scM12_3 fullShare d))
      ∗ rest12 c ∗ (∃ r, prngReg c r)) := by
  subst hz; rfl

theorem PhiS12_succ (c : Dev nD) (n : ℕ) (hn : n < cfg12.N) :
    PhiS12 V c (n + 1) hn = iprop(iprop(owns (c : Thread nD τ) scM12_0 fullShare (scrAt12 V c n hn).1 ∗ owns (c : Thread nD τ) scM12_1 fullShare (scrAt12 V c n hn).2.1
      ∗ owns (c : Thread nD τ) scM12_2 fullShare (scrAt12 V c n hn).2.2.1 ∗ owns (c : Thread nD τ) scM12_3 fullShare (scrAt12 V c n hn).2.2.2)
      ∗ rest12 c ∗ (∃ r, prngReg c r)) := rfl

theorem PhiS12_pos (c : Dev nD) (n : ℕ) (h : n ≤ cfg12.N) (hz : n ≠ 0) :
    PhiS12 V c n h = iprop(iprop(owns (c : Thread nD τ) scM12_0 fullShare (scrAt12 V c (n - 1) (by omega)).1 ∗ owns (c : Thread nD τ) scM12_1 fullShare (scrAt12 V c (n - 1) (by omega)).2.1
      ∗ owns (c : Thread nD τ) scM12_2 fullShare (scrAt12 V c (n - 1) (by omega)).2.2.1 ∗ owns (c : Thread nD τ) scM12_3 fullShare (scrAt12 V c (n - 1) (by omega)).2.2.2)
      ∗ rest12 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out12_8` of the sums as they stand after `t` and the target block
    (consulted only where the block is written back, at the last point of a row block); the invariant `PhiS12`; nothing owed;
    full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (scr12_0 V c t) (scr12_2 V c t) (scr12_1 V c t) (scr12_3 V c t) (iblk12 V c 7 t)
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) :
    (dat12 V c).after 8 t = out12_8 (scr12_0 V c t) (scr12_2 V c t) (scr12_1 V c t) (scr12_3 V c t) (iblk12 V c 7 t) := by dsimp only [dat12]
theorem owed12 (c : Dev nD) (t) : (dat12 V c).owed t = 0 := rfl
theorem q12 (c : Dev nD) (w) : (dat12 V c).q w = fullShare := rfl

theorem PhiS12_castSucc (c : Dev nD) (t : Fin cfg12.N) :
    (dat12 V c).Φ t.castSucc = PhiS12 V c t.val (Nat.le_of_lt t.isLt) := by
  dsimp only [dat12]; simp only [Fin.coe_castSucc]

/-! ## The body's two conditions, in closed form over the grid -/

/-- The body's first condition (`k = 0`: start the sums from zero), from the grid coordinates. -/
abbrev cond12_0 (i : grid12.Coords) : Prop := (Scalar.cmpi .ne (Scalar.extui (Scalar.cmpi .eq (BitVec.ofNat 32 (i 1).val) 0#32)) 0#32) = 1#1
/-- It holds at the first point of each row block. -/
theorem hcond12_0 : ∀ t : Fin cfg12.N, cond12_0 (grid12.coords t) ↔ t.val % 64 = 0 :=
  (by decide +kernel : ∀ t : Fin grid12.N, cond12_0 (grid12.coords t) ↔ t.val % 64 = 0)
/-- The body's second condition (`k = 63`: write the output block). -/
abbrev cond12_1 (i : grid12.Coords) : Prop := k12_cond2 i = 1#1
/-- It holds at the last point of each row block. -/
theorem hcond12_1 : ∀ t : Fin cfg12.N, cond12_1 (grid12.coords t) ↔ t.val % 64 = 63 :=
  (by decide +kernel : ∀ t : Fin grid12.N, cond12_1 (grid12.coords t) ↔ t.val % 64 = 63)

/-! ## A whole-buffer store covers the buffer -/

theorem cover12_a (p0 : Vec F S1024x256 .f32) (y : S1024x256.Idx) :
    ∃ pc ∈ ([⟨r12_a, p0⟩] : List (View.Piece (Elt F) S1024x256 .f32)), y ∈ pc.1.set :=
  View.cover_of_tiled [⟨r12_a, p0⟩] S1024x256.size (by rfl) y
theorem cover12_d (p0 : Vec F S1024x1 .f32) (y : S1024x1.Idx) :
    ∃ pc ∈ ([⟨r12_d, p0⟩] : List (View.Piece (Elt F) S1024x1 .f32)), y ∈ pc.1.set :=
  View.cover_of_tiled [⟨r12_d, p0⟩] S1024x1.size (by rfl) y

/-- After writes the LAST of which covers the whole shape, the buffer reads as that write alone. -/
theorem read_writes_head_cover12 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon12_a (w : Vec F S1024x256 .f32) :
    View.ld (View.canon [(⟨r12_a, w⟩ : View.Piece (Elt F) S1024x256 .f32)]) r12_a = w :=
  funext fun x => View.canon_cons_emb r12_a w [] x
theorem ld_canon12_d (w : Vec F S1024x1 .f32) :
    View.ld (View.canon [(⟨r12_d, w⟩ : View.Piece (Elt F) S1024x1 .f32)]) r12_d = w :=
  funext fun x => View.canon_cons_emb r12_d w [] x

/-- The output block from sums that are themselves whole-buffer writes: the payloads meet directly. -/
theorem out12_8_canon (w0 w1 : Vec F S1024x256 .f32) (w2 w3 : Vec F S1024x1 .f32) (x7 : Vec F S1024x256 .f32) :
    out12_8 (View.canon [(⟨r12_a, w0⟩ : View.Piece (Elt F) S1024x256 .f32)]) (View.canon [(⟨r12_d, w2⟩ : View.Piece (Elt F) S1024x1 .f32)])
        (View.canon [(⟨r12_a, w1⟩ : View.Piece (Elt F) S1024x256 .f32)]) (View.canon [(⟨r12_d, w3⟩ : View.Piece (Elt F) S1024x1 .f32)]) x7
      = View.canon [(⟨r12_a, k12_pay2 w0 w2 w1 w3 (View.ld x7 r12_a)⟩ : View.Piece (Elt F) S1024x256 .f32)] := by
  unfold out12_8; rw [ld_canon12_a, ld_canon12_a, ld_canon12_d, ld_canon12_d]

set_option maxHeartbeats 4000000 in
/-- The first point of a row block (`k = 0`): each sum is set to zero, then the point's contribution is added to it; the
    inputs and the output block are left as they were. -/
theorem run12_A (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : cond12_0 i) (hc1 : ¬cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc12_0 i x0 x2 x3 x4 (k12_pay3 (F := F))) ∗ owns (c : Thread nD τ) arg12 fullShare (acc12_1 i x1 x2 x5 x6 (k12_pay4 (F := F)))
            ∗ owns (c : Thread nD τ) arg13 fullShare (acc12_2 i x0 (k12_pay5 (F := F))) ∗ owns (c : Thread nD τ) arg14 fullShare (acc12_3 i x1 (k12_pay6 (F := F)))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover12 _ _ _ _ (cover12_a _)).trans (by simp only [View.readCov_cons_toLoadRect]; rfl)
  isplitl [S1]
  · iexists _; isplitr
    swap; · iexact S1
    ipureintro; sl_unfold_run_names
    exact (read_writes_head_cover12 _ _ _ _ (cover12_a _)).trans (by simp only [View.readCov_cons_toLoadRect]; rfl)
  isplitl [S2]
  · iexists _; isplitr
    swap; · iexact S2
    ipureintro; sl_unfold_run_names
    exact (read_writes_head_cover12 _ _ _ _ (cover12_d _)).trans (by simp only [View.readCov_cons_toLoadRect]; rfl)
  iexists _; isplitr
  swap; · iexact S3
  ipureintro; sl_unfold_run_names
  exact (read_writes_head_cover12 _ _ _ _ (cover12_d _)).trans (by simp only [View.readCov_cons_toLoadRect]; rfl)

set_option maxHeartbeats 4000000 in
/-- A middle point of a row block (neither condition holds): each sum is loaded, the point's contribution added and stored back;
    the inputs and the output block are left as they were. -/
theorem run12_B (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond12_0 i) (hc1 : ¬cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc12_0 i x0 x2 x3 x4 (View.ld s0 r12_a)) ∗ owns (c : Thread nD τ) arg12 fullShare (acc12_1 i x1 x2 x5 x6 (View.ld s1 r12_a))
            ∗ owns (c : Thread nD τ) arg13 fullShare (acc12_2 i x0 (View.ld s2 r12_d)) ∗ owns (c : Thread nD τ) arg14 fullShare (acc12_3 i x1 (View.ld s3 r12_d))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover12_a _)
  isplitl [S1]
  · iexists _; isplitr
    swap; · iexact S1
    ipureintro; exact View.read_writes_eq_canon _ _ _ (cover12_a _)
  isplitl [S2]
  · iexists _; isplitr
    swap; · iexact S2
    ipureintro; exact View.read_writes_eq_canon _ _ _ (cover12_d _)
  iexists _; isplitr
  swap; · iexact S3
  ipureintro; exact View.read_writes_eq_canon _ _ _ (cover12_d _)

set_option maxHeartbeats 4000000 in
/-- The last point of a row block (`k = 63`): each sum is loaded, the point's contribution added and stored back, and the
    output block is written from the sums as they then stand and the target block; the inputs are left as they were. -/
theorem run12_C (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond12_0 i) (hc1 : cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out12_8 (acc12_0 i x0 x2 x3 x4 (View.ld s0 r12_a)) (acc12_2 i x0 (View.ld s2 r12_d)) (acc12_1 i x1 x2 x5 x6 (View.ld s1 r12_a)) (acc12_3 i x1 (View.ld s3 r12_d)) x7)
            ∗ owns (c : Thread nD τ) arg11 fullShare (acc12_0 i x0 x2 x3 x4 (View.ld s0 r12_a)) ∗ owns (c : Thread nD τ) arg12 fullShare (acc12_1 i x1 x2 x5 x6 (View.ld s1 r12_a))
            ∗ owns (c : Thread nD τ) arg13 fullShare (acc12_2 i x0 (View.ld s2 r12_d)) ∗ owns (c : Thread nD τ) arg14 fullShare (acc12_3 i x1 (View.ld s3 r12_d))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover12_a _)).trans
      (by simp only [View.readCov_cons_toLoadRect]; exact (out12_8_canon _ _ _ _ _).symm)
  isplitl [S0]
  · iexists _; isplitr
    swap; · iexact S0
    ipureintro; sl_unfold_run_names
    exact View.read_writes_eq_canon _ _ _ (cover12_a _)
  isplitl [S1]
  · iexists _; isplitr
    swap; · iexact S1
    ipureintro; sl_unfold_run_names
    exact View.read_writes_eq_canon _ _ _ (cover12_a _)
  isplitl [S2]
  · iexists _; isplitr
    swap; · iexact S2
    ipureintro; sl_unfold_run_names
    exact View.read_writes_eq_canon _ _ _ (cover12_d _)
  iexists _; isplitr
  swap; · iexact S3
  ipureintro; sl_unfold_run_names
  exact View.read_writes_eq_canon _ _ _ (cover12_d _)

/-! ## Where the output window is idle, and where its block is written back -/

/-- Off the last point of a row block the body stores nothing into the output window; -/
theorem idleAt12_8 : ∀ t : Fin cfg12.N, ¬cond12_1 (grid12.coords t) → cfg12.idle 8 (grid12.coords t) = true := by decide +kernel
/-- at it, it does. -/
theorem liveAt12_8 : ∀ t : Fin cfg12.N, cond12_1 (grid12.coords t) → cfg12.idle 8 (grid12.coords t) = false := by decide +kernel
/-- The output block is written back at the last point of a row block only. -/
theorem noFlush12_8 (t : Fin cfg12.N) (h : ¬t.val % 64 = 63) : (cfg12.win 8).flush t = false :=
  Bool.eq_false_iff.mpr fun hf => h ((flush12_8 t).mp hf)

/-! ## Each input's staging buffer holds its block at every point, fetched there or not -/

theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A_eq12]; try rfl) t d).trans
    (by unfold Dat.fetched Dat.blockOf iblk12; rw [A_eq12]; try rfl)
theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A_eq12]; try rfl) t d).trans
    (by unfold Dat.fetched Dat.blockOf iblk12; rw [A_eq12]; try rfl)
theorem before12_2 (c : Dev nD) (t : Fin cfg12.N) (d) : (dat12 V c).before 2 t d = iblk12 V c 2 t :=
  ((dat12 V c).before_in_eq_fetched 2 rfl (fun _ => rfl) (fun _ _ _ => rfl) (fun t => by rw [after12_2]; unfold Dat.blockOf iblk12; rw [A_eq12]; try rfl) t d).trans
    (by unfold Dat.fetched Dat.blockOf iblk12; rw [A_eq12]; try rfl)
theorem before12_3 (c : Dev nD) (t : Fin cfg12.N) (d) : (dat12 V c).before 3 t d = iblk12 V c 3 t :=
  ((dat12 V c).before_in_eq_fetched 3 rfl (fun _ => rfl) (fun _ _ _ => rfl) (fun t => by rw [after12_3]; unfold Dat.blockOf iblk12; rw [A_eq12]; try rfl) t d).trans
    (by unfold Dat.fetched Dat.blockOf iblk12; rw [A_eq12]; try rfl)
theorem before12_4 (c : Dev nD) (t : Fin cfg12.N) (d) : (dat12 V c).before 4 t d = iblk12 V c 4 t :=
  ((dat12 V c).before_in_eq_fetched 4 rfl (fun _ => rfl) (fun _ _ _ => rfl) (fun t => by rw [after12_4]; unfold Dat.blockOf iblk12; rw [A_eq12]; try rfl) t d).trans
    (by unfold Dat.fetched Dat.blockOf iblk12; rw [A_eq12]; try rfl)
theorem before12_5 (c : Dev nD) (t : Fin cfg12.N) (d) : (dat12 V c).before 5 t d = iblk12 V c 5 t :=
  ((dat12 V c).before_in_eq_fetched 5 rfl (fun _ => rfl) (fun _ _ _ => rfl) (fun t => by rw [after12_5]; unfold Dat.blockOf iblk12; rw [A_eq12]; try rfl) t d).trans
    (by unfold Dat.fetched Dat.blockOf iblk12; rw [A_eq12]; try rfl)
theorem before12_6 (c : Dev nD) (t : Fin cfg12.N) (d) : (dat12 V c).before 6 t d = iblk12 V c 6 t :=
  ((dat12 V c).before_in_eq_fetched 6 rfl (fun _ => rfl) (fun _ _ _ => rfl) (fun t => by rw [after12_6]; unfold Dat.blockOf iblk12; rw [A_eq12]; try rfl) t d).trans
    (by unfold Dat.fetched Dat.blockOf iblk12; rw [A_eq12]; try rfl)
theorem before12_7 (c : Dev nD) (t : Fin cfg12.N) (d) : (dat12 V c).before 7 t d = iblk12 V c 7 t :=
  ((dat12 V c).before_in_eq_fetched 7 rfl (fun _ => rfl) (fun _ _ _ => rfl) (fun t => by rw [after12_7]; unfold Dat.blockOf iblk12; rw [A_eq12]; try rfl) t d).trans
    (by unfold Dat.fetched Dat.blockOf iblk12; rw [A_eq12]; try rfl)

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

/-- and what it returns: the inputs' buffers as they were, the output's as the point leaves it (untouched where it is idle). -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ (dat12 V c).leavesExact 8 t)

set_option maxHeartbeats 8000000 in
/-- The body at any point. The inputs' buffers hold their blocks (`before12_W`); the point's position in its row block says
    which of the three cases runs. The invariant hands the body the four sums at what the point before left (at anything before the
    very first point) and takes them back at this point's; the other scoped buffers and the generator register pass through
    unread; off the last point of a row block the output's buffer passes through as well. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).owesAt () t.succ = (dat12 V c).owesAt () t.castSucc from rfl]
  rw [show (dat12 V c).Φ t.succ = PhiS12 V c (t.val + 1) t.isLt from rfl, PhiS12_succ]
  rw [after12_0, after12_1, after12_2, after12_3, after12_4, after12_5, after12_6, after12_7]
  have hN : t.val < 128 := lt_of_lt_of_eq t.isLt (show cfg12.N = 128 from N_12)
  by_cases h0 : t.val % 64 = 0
  · have h1 : ¬t.val % 64 = 63 := by omega
    have hc0 : cond12_0 (grid12.coords t) := (hcond12_0 t).mpr h0
    have hc1 : ¬cond12_1 (grid12.coords t) := fun h => h1 ((hcond12_1 t).mp h)
    rw [Dat.leavesExact_idle (dat12 V c) 8 t (idleAt12_8 t hc1) (noFlush12_8 t h1)]
    rw [scrAt12_first V c t h0]
    by_cases hz : t.val = 0
    · rw [PhiS12_castSucc V c t, PhiS12_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_A c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_A c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond12_0 (grid12.coords t) := fun h => h0 ((hcond12_0 t).mp h)
    by_cases h1 : t.val % 64 = 63
    · have hc1 : cond12_1 (grid12.coords t) := (hcond12_1 t).mpr h1
      rw [show (dat12 V c).leavesExact 8 t = owns (c : Thread nD τ) (st12_8 t) fullShare ((dat12 V c).after 8 t) from by
        unfold Dat.leavesExact; rw [liveAt12_8 t hc1], after12_8]
      unfold scr12_0 scr12_1 scr12_2 scr12_3
      rw [scrAt12_next V c t h0]
      rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run12_C c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond12_1 (grid12.coords t) := fun h => h1 ((hcond12_1 t).mp h)
      rw [Dat.leavesExact_idle (dat12 V c) 8 t (idleAt12_8 t hc1) (noFlush12_8 t h1)]
      rw [scrAt12_next V c t h0]
      rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_B c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant's two ends -/

/-- What the region is entered with — the generator register and the scoped buffers that are no staging buffer, the four scratch
    arrays among them at anything — is the invariant before the first point. -/
theorem phi_in12 (c : Dev nD) : (iprop((∃ r, prngReg c r) ∗ Pipeline.scopedRest (Ix := Unit) (Name := ℕ) (U := UR sig nD τ) (Lvl := ℕ) spec12 c) : sProp 𝕄) ⊢ (dat12 V c).Φ 0 := by
  rw [show (dat12 V c).Φ 0 = PhiS12 V c 0 (Nat.zero_le _) from rfl, PhiS12_zero V c 0 _ rfl, scopedRest12_split]
  simp only [scM12_0, scM12_1, scM12_2, scM12_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out12 (c : Dev nD) : (dat12 V c).Φ (Fin.last cfg12.N) ⊢ (iprop((∃ r, prngReg c r) ∗ Pipeline.scopedRest (Ix := Unit) (Name := ℕ) (U := UR sig nD τ) (Lvl := ℕ) spec12 c) : sProp 𝕄) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 128 := N_12; omega), scopedRest12_split]
  simp only [scM12_0, scM12_1, scM12_2, scM12_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.Kernel.Hand
end
-- ==== Proof.KB.Reg13.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 13: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The rectangles the body reads and writes: each is the whole of its buffer -/

/-- The whole input block. -/
abbrev r13_0 : Rect S512x256 := Rect.unit (s := S512x256) ![0, 0] S512x256.size inb_S512x256_S512x256_0_0
/-- The whole weight matrix. -/
abbrev r13_1 : Rect S256x128 := Rect.unit (s := S256x128) ![0, 0] S256x128.size inb_S256x128_S256x128_0_0
/-- The whole bias row. -/
abbrev r13_2 : Rect S1x128 := Rect.unit (s := S1x128) ![0, 0] S1x128.size inb_S1x128_S1x128_0_0
/-- The whole output block. -/
abbrev r13_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out13_3 (x0 : Vec F S512x256 .f32) (x1 : Vec F S256x128 .f32) (x2 : Vec F S1x128 .f32) : Vec F S512x128 .bf16 :=
  View.canon [⟨r13_3, k13_pay1 (View.ld x0 r13_0) (View.ld x1 r13_1) (View.ld x2 r13_2)⟩]

/-! ## The proof data -/

/-- The proof data of the region on core `c`: the arrays as the region finds them; after the body at point `t`
    each input's buffer still at its block and the output's at `out13_3` of the input blocks; the invariant is
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Nothing is owed at any point. -/
theorem owed13 (c : Dev nD) (t) : (dat13 V c).owed t = 0 := rfl

/-- Every window is held at the full share. -/
theorem q13 (c : Dev nD) (w) : (dat13 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The weight matrix's buffer holds the matrix at every point: fetched at the first point only, its block index
    never moves afterwards, and the body leaves it in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The bias row's buffer holds the row at every point, for the same reason. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body's triple -/

/-- The body's one store is over the whole output buffer, so it covers every index of it. -/
theorem cover13_3 (p0 : Vec F S512x128 .bf16) (y : S512x128.Idx) :
    ∃ pc ∈ ([⟨r13_3, p0⟩] : List (View.Piece (Elt F) S512x128 .bf16)), y ∈ pc.1.set :=
  View.cover_of_tiled [⟨r13_3, p0⟩] S512x128.size (by rfl) y

set_option maxHeartbeats 1000000 in
/-- The body on whole staging memrefs — the three inputs' reading `x0`, `x1`, `x2`, the output's holding anything —
    runs to a continuation that holds the inputs' as they were and the output's at `out13_3 x0 x1 x2`: the printed
    function is its skeleton of loads and one store, run operation by operation. -/
theorem sound_kernel13 (c : Dev nD) (E : Set ℕ) (i : grid13.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__linear_kernel i arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The body obligation -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so the body's triple applies; the invariant and
    what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation13 (c : Dev nD) : BodyObligation (dat13 (F := F) V c) (defs₀ (F := F)) Variants.none () Set.univ := fun t => by
  rw [bigSep_W13, bigSep_W13]
  exact sound_body13 V c t

/-! ## The invariant at the two ends -/

/-- The generator register and the scoped buffers no window stages make the invariant at the first point. -/
theorem phi_in13 (c : Dev nD) :
    (iprop((∃ r, prngReg c r) ∗ Pipeline.scopedRest (Ix := Unit) (Name := ℕ) (U := UR sig nD τ) (Lvl := ℕ) spec13 c) : sProp 𝕄)
      ⊢ (dat13 V c).Φ 0 := by
  rw [show (dat13 V c).Φ 0 = Pipeline.ΦA spec13 c from rfl]; unfold Pipeline.ΦA
  iintro ⟨Hp, Hr⟩
  isplitl [Hr]; · iexact Hr
  iexact Hp

/-- The invariant at the last point gives them back. -/
theorem phi_out13 (c : Dev nD) :
    (dat13 V c).Φ (Fin.last cfg13.N)
      ⊢ (iprop((∃ r, prngReg c r) ∗ Pipeline.scopedRest (Ix := Unit) (Name := ℕ) (U := UR sig nD τ) (Lvl := ℕ) spec13 c) : sProp 𝕄) := by
  rw [show (dat13 V c).Φ (Fin.last _) = Pipeline.ΦA spec13 c from rfl]; unfold Pipeline.ΦA
  iintro ⟨Hr, Hp⟩
  isplitl [Hp]; · iexact Hp
  iexact Hr

end Cert.Kernel.Hand

end
-- ==== Proof.KB.Reg14.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 14: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The rectangles the body reads and writes: each is the whole of its buffer -/

/-- The whole input block. -/
abbrev r14_0 : Rect S512x256 := Rect.unit (s := S512x256) ![0, 0] S512x256.size inb_S512x256_S512x256_0_0
/-- The whole weight matrix. -/
abbrev r14_1 : Rect S256x128 := Rect.unit (s := S256x128) ![0, 0] S256x128.size inb_S256x128_S256x128_0_0
/-- The whole bias row. -/
abbrev r14_2 : Rect S1x128 := Rect.unit (s := S1x128) ![0, 0] S1x128.size inb_S1x128_S1x128_0_0
/-- The whole output block. -/
abbrev r14_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out14_3 (x0 : Vec F S512x256 .f32) (x1 : Vec F S256x128 .f32) (x2 : Vec F S1x128 .f32) : Vec F S512x128 .bf16 :=
  View.canon [⟨r14_3, k14_pay1 (View.ld x0 r14_0) (View.ld x1 r14_1) (View.ld x2 r14_2)⟩]

/-! ## The proof data -/

/-- The proof data of the region on core `c`: the arrays as the region finds them; after the body at point `t`
    each input's buffer still at its block and the output's at `out14_3` of the input blocks; the invariant is
    the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Nothing is owed at any point. -/
theorem owed14 (c : Dev nD) (t) : (dat14 V c).owed t = 0 := rfl

/-- Every window is held at the full share. -/
theorem q14 (c : Dev nD) (w) : (dat14 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The weight matrix's buffer holds the matrix at every point: fetched at the first point only, its block index
    never moves afterwards, and the body leaves it in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias row's buffer holds the row at every point, for the same reason. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body's triple -/

/-- The body's one store is over the whole output buffer, so it covers every index of it. -/
theorem cover14_3 (p0 : Vec F S512x128 .bf16) (y : S512x128.Idx) :
    ∃ pc ∈ ([⟨r14_3, p0⟩] : List (View.Piece (Elt F) S512x128 .bf16)), y ∈ pc.1.set :=
  View.cover_of_tiled [⟨r14_3, p0⟩] S512x128.size (by rfl) y

set_option maxHeartbeats 1000000 in
/-- The body on whole staging memrefs — the three inputs' reading `x0`, `x1`, `x2`, the output's holding anything —
    runs to a continuation that holds the inputs' as they were and the output's at `out14_3 x0 x1 x2`: the printed
    function is its skeleton of loads and one store, run operation by operation. -/
theorem sound_kernel14 (c : Dev nD) (E : Set ℕ) (i : grid14.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14__linear_kernel i arg1 harg1 arg2 harg2 arg3 harg3 arg4 harg4) K := by
  simp only [cc14__linear_kernel_eq_skeleton]; unfold cc14__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so the body's triple applies; the invariant and
    what the core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the two ends -/

/-- The generator register and the scoped buffers no window stages make the invariant at the first point. -/
theorem phi_in14 (c : Dev nD) :
    (iprop((∃ r, prngReg c r) ∗ Pipeline.scopedRest (Ix := Unit) (Name := ℕ) (U := UR sig nD τ) (Lvl := ℕ) spec14 c) : sProp 𝕄)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- The invariant at the last point gives them back. -/
theorem phi_out14 (c : Dev nD) :
    (dat14 V c).Φ (Fin.last cfg14.N)
      ⊢ (iprop((∃ r, prngReg c r) ∗ Pipeline.scopedRest (Ix := Unit) (Name := ℕ) (U := UR sig nD τ) (Lvl := ℕ) spec14 c) : sProp 𝕄) := by
  rw [show (dat14 V c).Φ (Fin.last _) = Pipeline.ΦA spec14 c from rfl]; unfold Pipeline.ΦA
  iintro ⟨Hr, Hp⟩
  isplitl [Hp]; · iexact Hp
  iexact Hr

end Cert.Kernel.Hand

end
-- ==== Proof.KB.Reg15.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 15: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The whole of an index column's block. -/
abbrev r15_ix : Rect S512x1 := Rect.unit (s := S512x1) ![0, 0] S512x1.size inb_S512x1_S512x1_0_0
/-- The whole of an object-side matrix. -/
abbrev r15_fc : Rect S2048x128 := Rect.unit (s := S2048x128) ![0, 0] S2048x128.size inb_S2048x128_S2048x128_0_0
/-- The whole of a block of the target or of the result. -/
abbrev r15_o : Rect S512x128 := Rect.unit (s := S512x128) ![0, 0] S512x128.size inb_S512x128_S512x128_0_0

/-- What the body leaves in the result's staging buffer, from the five input blocks: its single store, which covers the
    buffer, of the target block plus half the sum of the two averaged gathers. -/
def out15_5 (x0 : Vec F S512x1 .i32) (x1 : Vec F S512x1 .i32) (x2 : Vec F S2048x128 .bf16) (x3 : Vec F S2048x128 .bf16)
    (x4 : Vec F S512x128 .f32) : Vec F S512x128 .f32 :=
  View.canon [⟨r15_o, k15_pay1 (k15_pay2 (View.ld x4 r15_o))
    (k15_pay3 (View.ld x0 r15_ix) (View.ld x1 r15_ix) (View.ld x2 r15_fc) (View.ld x3 r15_fc))⟩]

/-- The proof data of pipeline 15 on core `c`: the arrays as found; after the body every input's buffer still holds its
    block and the result's holds `out15_5` of the input blocks; the invariant is the untouched scoped rest beside the
    generator register; nothing is owed and every share is whole. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t =
    out15_5 (iblk15 V c 0 t) (iblk15 V c 1 t) (iblk15 V c 2 t) (iblk15 V c 3 t) (iblk15 V c 4 t) := by dsimp only [dat15]

theorem owed15 (c : Dev nD) (t) : (dat15 V c).owed t = 0 := rfl
theorem q15 (c : Dev nD) (w) : (dat15 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before15_0 (c : Dev nD) (t : Fin cfg15.N) (d) : (dat15 V c).before 0 t d = iblk15 V c 0 t :=
  ((dat15 V c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)
theorem before15_1 (c : Dev nD) (t : Fin cfg15.N) (d) : (dat15 V c).before 1 t d = iblk15 V c 1 t :=
  ((dat15 V c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)
theorem before15_2 (c : Dev nD) (t : Fin cfg15.N) (d) : (dat15 V c).before 2 t d = iblk15 V c 2 t :=
  ((dat15 V c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)
theorem before15_3 (c : Dev nD) (t : Fin cfg15.N) (d) : (dat15 V c).before 3 t d = iblk15 V c 3 t :=
  ((dat15 V c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)
theorem before15_4 (c : Dev nD) (t : Fin cfg15.N) (d) : (dat15 V c).before 4 t d = iblk15 V c 4 t :=
  ((dat15 V c).before_in_eq_fetched 4 rfl (fun _ => rfl) (fun _ _ _ => rfl)
      (fun t => by rw [after15_4]; unfold Dat.blockOf iblk15; rw [A_eq15]; try rfl) t d).trans
    (by unfold Dat.fetched Dat.blockOf iblk15; rw [A_eq15]; try rfl)

/-! ## The body's triple -/

/-- The single store of the body is of the whole result block, so it covers the staging buffer. -/
theorem cover15_5 (p0 : Vec F S512x128 .f32) (y : S512x128.Idx) :
    ∃ pc ∈ ([⟨r15_o, p0⟩] : List (View.Piece (Elt F) S512x128 .f32)), y ∈ pc.1.set :=
  View.cover_of_tiled [⟨r15_o, p0⟩] S512x128.size (by rfl) y

set_option maxHeartbeats 1000000 in
/-- On whole staging memrefs, the five inputs' read at `x0 … x4` and the result's at anything, the body runs to a
    continuation that holds the inputs' as they were and the result's at `out15_5` of them: five loads inside the part,
    a dead load of the result's buffer, and the one store. -/
theorem sound_kernel15 (c : Dev nD) (E : Set ℕ) (i : grid15.Coords)
    (arg1 : Memref sig .tc .vmem S512x1 .i32) (harg1 : arg1.IsWhole) (arg2 : Memref sig .tc .vmem S512x1 .i32) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S512x128 .f32) (harg5 : arg5.IsWhole) (arg6 : Memref sig .tc .vmem S512x128 .f32) (harg6 : arg6.IsWhole)
    (x0 : Vec F S512x1 .i32) (x1 : Vec F S512x1 .i32) (x2 : Vec F S2048x128 .bf16) (x3 : Vec F S2048x128 .bf16) (x4 : Vec F S512x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out15_5 x0 x1 x2 x3 x4)) -∗ K ⟨⟩))
      ⊢ wp frame (wpE (defs₀ (F := F)) Variants.none c none) E
          (cc15__collect_transpose_fused_kernel i arg1 harg1 arg2 harg2 arg3 harg3 arg4 harg4 arg5 harg5 arg6 harg6) K := by
  simp only [cc15__collect_transpose_fused_kernel_eq_skeleton]; unfold cc15__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover15_5 _)

/-! ## The body obligation -/

/-- What the body is entered with at grid point `t`: the invariant, what the core owes, and each window's current
    staging buffer at what it then holds. -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d)))

/-- What it returns: the same at the next point, each buffer at what the body leaves in it. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t))

/-- The body at any grid point: the inputs' buffers hold their blocks, so the body's triple applies; the invariant and
    what the core owes are not read and pass through. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4]
  rw [show (dat15 V c).Φ t.succ = (dat15 V c).Φ t.castSucc from rfl,
    show (dat15 V c).owesAt () t.succ = (dat15 V c).owesAt () t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ _ _ _ _ _ _ _ _ _ _ _ _ _
    (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation15 (c : Dev nD) : BodyObligation (dat15 (F := F) V c) (defs₀ (F := F)) Variants.none () Set.univ := fun t => by
  rw [bigSep_W15, bigSep_W15]
  exact sound_body15 V c t

/-! ## The invariant at the region's two ends -/

/-- Entering: the generator register and the scoped rest make the invariant. -/
theorem phi_in15 (c : Dev nD) : (iprop((∃ r, prngReg c r) ∗ Pipeline.scopedRest (Ix := Unit) (Name := ℕ) (U := UR sig nD τ) (Lvl := ℕ) spec15 c) : sProp 𝕄) ⊢ (dat15 V c).Φ 0 := by
  rw [show (dat15 V c).Φ 0 = Pipeline.ΦA spec15 c from rfl]; unfold Pipeline.ΦA
  iintro ⟨Hp, Hr⟩
  isplitl [Hr]; · iexact Hr
  iexact Hp

/-- Leaving: the invariant gives both back. -/
theorem phi_out15 (c : Dev nD) : (dat15 V c).Φ (Fin.last cfg15.N) ⊢ (iprop((∃ r, prngReg c r) ∗ Pipeline.scopedRest (Ix := Unit) (Name := ℕ) (U := UR sig nD τ) (Lvl := ℕ) spec15 c) : sProp 𝕄) := by
  rw [show (dat15 V c).Φ (Fin.last cfg15.N) = Pipeline.ΦA spec15 c from rfl]; unfold Pipeline.ΦA
  iintro ⟨Hr, Hp⟩
  isplitl [Hp]; · iexact Hp
  iexact Hr

end Cert.Kernel.Hand
end
-- ==== Proof.KB.Reg16.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 16: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The body's accesses: every load and store is of a whole buffer -/

/-- an index row, -/
abbrev r16_i : Rect S1x512 := Rect.unit (s := S1x512) ![0, 0] S1x512.size inb_S1x512_S1x512_0_0
/-- a bias row, -/
abbrev r16_b : Rect S1x256 := Rect.unit (s := S1x256) ![0, 0] S1x256.size inb_S1x256_S1x256_0_0
/-- the source tile, -/
abbrev r16_s : Rect S512x128 := Rect.unit (s := S512x128) ![0, 0] S512x128.size inb_S512x128_S512x128_0_0
/-- a weight matrix, -/
abbrev r16_w : Rect S128x256 := Rect.unit (s := S128x256) ![0, 0] S128x256.size inb_S128x256_S128x256_0_0
/-- a weighted sum (and the target and output blocks), a row count. -/
abbrev r16_a : Rect S1024x256 := Rect.unit (s := S1024x256) ![0, 0] S1024x256.size inb_S1024x256_S1024x256_0_0
abbrev r16_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc16_0 (i : grid16.Coords) (x0 : Vec F S1x512 .i32) (x2 : Vec F S512x128 .f32) (x3 : Vec F S128x256 .f32) (x4 : Vec F S1x256 .f32)
    (p : Vec F S1024x256 .f32) : Vec F S1024x256 .f32 :=
  View.canon [⟨r16_a, k16_pay15 (k16_pay8 (View.ld x2 r16_s) (View.ld x3 r16_w) (View.ld x4 r16_b)) (k16_pay10 i) (k16_pay11 (View.ld x0 r16_i)) p⟩]

/-- The second weighted sum: `p + onehot(rows = idx₁) · relu(src · W₁ + b₁)`. -/
def acc16_1 (i : grid16.Coords) (x1 : Vec F S1x512 .i32) (x2 : Vec F S512x128 .f32) (x5 : Vec F S128x256 .f32) (x6 : Vec F S1x256 .f32)
    (p : Vec F S1024x256 .f32) : Vec F S1024x256 .f32 :=
  View.canon [⟨r16_a, k16_pay16 (k16_pay9 (View.ld x2 r16_s) (View.ld x5 r16_w) (View.ld x6 r16_b)) (k16_pay10 i) (k16_pay12 (View.ld x1 r16_i)) p⟩]

/-- The first row count: `p + Σ_lanes onehot(rows = idx₀)`. -/
def acc16_2 (i : grid16.Coords) (x0 : Vec F S1x512 .i32) (p : Vec F S1024x1 .f32) : Vec F S1024x1 .f32 :=
  View.canon [⟨r16_d, k16_pay17 (k16_pay10 i) (k16_pay11 (View.ld x0 r16_i)) p⟩]

/-- The second row count: `p + Σ_lanes onehot(rows = idx₁)`. -/
def acc16_3 (i : grid16.Coords) (x1 : Vec F S1x512 .i32) (p : Vec F S1024x1 .f32) : Vec F S1024x1 .f32 :=
  View.canon [⟨r16_d, k16_pay1 (k16_pay18 (k16_pay10 i) (k16_pay12 (View.ld x1 r16_i)) p)⟩]

/-- What the last point of a row block stores into the output block, from the four sums as they then stand
    and the target block: `target + ½ (a₀ / (d₀ + ε) + a₁ / (d₁ + ε))`. -/
def out16_8 (a0 : Vec F S1024x256 .f32) (d0 : Vec F S1024x1 .f32) (a1 : Vec F S1024x256 .f32) (d1 : Vec F S1024x1 .f32)
    (x7 : Vec F S1024x256 .f32) : Vec F S1024x256 .f32 :=
  View.canon [⟨r16_a, k16_pay2 (View.ld a0 r16_a) (View.ld d0 r16_d) (View.ld a1 r16_a) (View.ld d1 r16_d) (View.ld x7 r16_a)⟩]

/-! ## The four sums after each point -/

/-- THE ACCUMULATION. The four scratch arrays after the body at position `n`: at the first point of a row block
    (`n % 64 = 0`) the point's contribution over zero, else over what position `n - 1` left. -/
def scrAt16 (c : Dev nD) : (n : ℕ) → n < cfg16.N →
    Vec F S1024x256 .f32 × Vec F S1024x256 .f32 × Vec F S1024x1 .f32 × Vec F S1024x1 .f32
  | 0, hn =>
    (acc16_0 (grid16.coords ⟨0, hn⟩) (iblk16 V c 0 ⟨0, hn⟩) (iblk16 V c 2 ⟨0, hn⟩) (iblk16 V c 3 ⟨0, hn⟩) (iblk16 V c 4 ⟨0, hn⟩) (k16_pay3 (F := F)),
     acc16_1 (grid16.coords ⟨0, hn⟩) (iblk16 V c 1 ⟨0, hn⟩) (iblk16 V c 2 ⟨0, hn⟩) (iblk16 V c 5 ⟨0, hn⟩) (iblk16 V c 6 ⟨0, hn⟩) (k16_pay4 (F := F)),
     acc16_2 (grid16.coords ⟨0, hn⟩) (iblk16 V c 0 ⟨0, hn⟩) (k16_pay5 (F := F)),
     acc16_3 (grid16.coords ⟨0, hn⟩) (iblk16 V c 1 ⟨0, hn⟩) (k16_pay6 (F := F)))
  | n + 1, hn =>
    if h0 : (n + 1) % 64 = 0 then
      (acc16_0 (grid16.coords ⟨n + 1, hn⟩) (iblk16 V c 0 ⟨n + 1, hn⟩) (iblk16 V c 2 ⟨n + 1, hn⟩) (iblk16 V c 3 ⟨n + 1, hn⟩) (iblk16 V c 4 ⟨n + 1, hn⟩) (k16_pay3 (F := F)),
       acc16_1 (grid16.coords ⟨n + 1, hn⟩) (iblk16 V c 1 ⟨n + 1, hn⟩) (iblk16 V c 2 ⟨n + 1, hn⟩) (iblk16 V c 5 ⟨n + 1, hn⟩) (iblk16 V c 6 ⟨n + 1, hn⟩) (k16_pay4 (F := F)),
       acc16_2 (grid16.coords ⟨n + 1, hn⟩) (iblk16 V c 0 ⟨n + 1, hn⟩) (k16_pay5 (F := F)),
       acc16_3 (grid16.coords ⟨n + 1, hn⟩) (iblk16 V c 1 ⟨n + 1, hn⟩) (k16_pay6 (F := F)))
    else
      (acc16_0 (grid16.coords ⟨n + 1, hn⟩) (iblk16 V c 0 ⟨n + 1, hn⟩) (iblk16 V c 2 ⟨n + 1, hn⟩) (iblk16 V c 3 ⟨n + 1, hn⟩) (iblk16 V c 4 ⟨n + 1, hn⟩) (View.ld (scrAt16 c n (Nat.lt_of_succ_lt hn)).1 r16_a),
       acc16_1 (grid16.coords ⟨n + 1, hn⟩) (iblk16 V c 1 ⟨n + 1, hn⟩) (iblk16 V c 2 ⟨n + 1, hn⟩) (iblk16 V c 5 ⟨n + 1, hn⟩) (iblk16 V c 6 ⟨n + 1, hn⟩) (View.ld (scrAt16 c n (Nat.lt_of_succ_lt hn)).2.1 r16_a),
       acc16_2 (grid16.coords ⟨n + 1, hn⟩) (iblk16 V c 0 ⟨n + 1, hn⟩) (View.ld (scrAt16 c n (Nat.lt_of_succ_lt hn)).2.2.1 r16_d),
       acc16_3 (grid16.coords ⟨n + 1, hn⟩) (iblk16 V c 1 ⟨n + 1, hn⟩) (View.ld (scrAt16 c n (Nat.lt_of_succ_lt hn)).2.2.2 r16_d))

/-- The four scratch arrays after point `t`, one by one. -/
def scr16_0 (c : Dev nD) (t : Fin cfg16.N) : Vec F S1024x256 .f32 := (scrAt16 V c t.val t.isLt).1
def scr16_1 (c : Dev nD) (t : Fin cfg16.N) : Vec F S1024x256 .f32 := (scrAt16 V c t.val t.isLt).2.1
def scr16_2 (c : Dev nD) (t : Fin cfg16.N) : Vec F S1024x1 .f32 := (scrAt16 V c t.val t.isLt).2.2.1
def scr16_3 (c : Dev nD) (t : Fin cfg16.N) : Vec F S1024x1 .f32 := (scrAt16 V c t.val t.isLt).2.2.2

/-- `scrAt16` at the first point of a row block: the point's contribution over zero. -/
theorem scrAt16_first (c : Dev nD) (t : Fin cfg16.N) (h0 : t.val % 64 = 0) :
    scrAt16 V c t.val t.isLt =
      (acc16_0 (grid16.coords t) (iblk16 V c 0 t) (iblk16 V c 2 t) (iblk16 V c 3 t) (iblk16 V c 4 t) (k16_pay3 (F := F)),
       acc16_1 (grid16.coords t) (iblk16 V c 1 t) (iblk16 V c 2 t) (iblk16 V c 5 t) (iblk16 V c 6 t) (k16_pay4 (F := F)),
       acc16_2 (grid16.coords t) (iblk16 V c 0 t) (k16_pay5 (F := F)),
       acc16_3 (grid16.coords t) (iblk16 V c 1 t) (k16_pay6 (F := F))) := by
  obtain ⟨n, hn⟩ := t
  cases n with
  | zero => exact rfl
  | succ n => exact (dif_pos h0).trans rfl

/-- `scrAt16` at any other point: the point's contribution over what the point before left. -/
theorem scrAt16_next (c : Dev nD) (t : Fin cfg16.N) (h0 : ¬t.val % 64 = 0) :
    scrAt16 V c t.val t.isLt =
      (acc16_0 (grid16.coords t) (iblk16 V c 0 t) (iblk16 V c 2 t) (iblk16 V c 3 t) (iblk16 V c 4 t) (View.ld (scrAt16 V c (t.val - 1) (Nat.lt_of_le_of_lt (Nat.sub_le _ _) t.isLt)).1 r16_a),
       acc16_1 (grid16.coords t) (iblk16 V c 1 t) (iblk16 V c 2 t) (iblk16 V c 5 t) (iblk16 V c 6 t) (View.ld (scrAt16 V c (t.val - 1) (Nat.lt_of_le_of_lt (Nat.sub_le _ _) t.isLt)).2.1 r16_a),
       acc16_2 (grid16.coords t) (iblk16 V c 0 t) (View.ld (scrAt16 V c (t.val - 1) (Nat.lt_of_le_of_lt (Nat.sub_le _ _) t.isLt)).2.2.1 r16_d),
       acc16_3 (grid16.coords t) (iblk16 V c 1 t) (View.ld (scrAt16 V c (t.val - 1) (Nat.lt_of_le_of_lt (Nat.sub_le _ _) t.isLt)).2.2.2 r16_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM16_0 : Memref sig .tc .vmem S1024x256 .f32 := Memref.whole cc16_scratch0
abbrev scM16_1 : Memref sig .tc .vmem S1024x256 .f32 := Memref.whole cc16_scratch1
abbrev scM16_2 : Memref sig .tc .vmem S1024x1 .f32 := Memref.whole cc16_scratch2
abbrev scM16_3 : Memref sig .tc .vmem S1024x1 .f32 := Memref.whole cc16_scratch3

/-- The scoped buffers that are none of the four, unopened. -/
abbrev rest16 (c : Dev nD) : sProp 𝕄 :=
  Pipeline.scopedRestBut (Ix := Unit) (Name := ℕ) (U := UR sig nD τ) (Lvl := ℕ) (Val := Elt F) spec16 c [cc16_scratch0, cc16_scratch1, cc16_scratch2, cc16_scratch3]

/-- The invariant before position `n`: before the first point the four scratch arrays at anything; afterwards at what
    the point before left (`scrAt16`); beside them, throughout, the other scoped buffers unopened and the generator
    register at some state. -/
def PhiS16 (c : Dev nD) : (n : ℕ) → n ≤ cfg16.N → sProp 𝕄
  | 0, _ => iprop(iprop((∃ d, owns (c : Thread nD τ) scM16_0 fullShare d) ∗ (∃ d, owns (c : Thread nD τ) scM16_1 fullShare d)
      ∗ (∃ d, owns (c : Thread nD τ) scM16_2 fullShare d) ∗ (∃ d, owns (c : Thread nD τ) scM16_3 fullShare d))
      ∗ rest16 c ∗ (∃ r, prngReg c r))
  | n + 1, hn => iprop(iprop(owns (c : Thread nD τ) scM16_0 fullShare (scrAt16 V c n hn).1 ∗ owns (c : Thread nD τ) scM16_1 fullShare (scrAt16 V c n hn).2.1
      ∗ owns (c : Thread nD τ) scM16_2 fullShare (scrAt16 V c n hn).2.2.1 ∗ owns (c : Thread nD τ) scM16_3 fullShare (scrAt16 V c n hn).2.2.2)
      ∗ rest16 c ∗ (∃ r, prngReg c r))

theorem PhiS16_zero (c : Dev nD) (n : ℕ) (h : n ≤ cfg16.N) (hz : n = 0) :
    PhiS16 V c n h = iprop(iprop((∃ d, owns (c : Thread nD τ) scM16_0 fullShare d) ∗ (∃ d, owns (c : Thread nD τ) scM16_1 fullShare d)
      ∗ (∃ d, owns (c : Thread nD τ) scM16_2 fullShare d) ∗ (∃ d, owns (c : Thread nD τ) scM16_3 fullShare d))
      ∗ rest16 c ∗ (∃ r, prngReg c r)) := by
  subst hz; rfl

theorem PhiS16_succ (c : Dev nD) (n : ℕ) (hn : n < cfg16.N) :
    PhiS16 V c (n + 1) hn = iprop(iprop(owns (c : Thread nD τ) scM16_0 fullShare (scrAt16 V c n hn).1 ∗ owns (c : Thread nD τ) scM16_1 fullShare (scrAt16 V c n hn).2.1
      ∗ owns (c : Thread nD τ) scM16_2 fullShare (scrAt16 V c n hn).2.2.1 ∗ owns (c : Thread nD τ) scM16_3 fullShare (scrAt16 V c n hn).2.2.2)
      ∗ rest16 c ∗ (∃ r, prngReg c r)) := rfl

theorem PhiS16_pos (c : Dev nD) (n : ℕ) (h : n ≤ cfg16.N) (hz : n ≠ 0) :
    PhiS16 V c n h = iprop(iprop(owns (c : Thread nD τ) scM16_0 fullShare (scrAt16 V c (n - 1) (by omega)).1 ∗ owns (c : Thread nD τ) scM16_1 fullShare (scrAt16 V c (n - 1) (by omega)).2.1
      ∗ owns (c : Thread nD τ) scM16_2 fullShare (scrAt16 V c (n - 1) (by omega)).2.2.1 ∗ owns (c : Thread nD τ) scM16_3 fullShare (scrAt16 V c (n - 1) (by omega)).2.2.2)
      ∗ rest16 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out16_8` of the sums as they stand after `t` and the target block
    (consulted only where the block is written back, at the last point of a row block); the invariant `PhiS16`; nothing owed;
    full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => iblk16 V c 7 t
    | ⟨8, _⟩ => out16_8 (scr16_0 V c t) (scr16_2 V c t) (scr16_1 V c t) (scr16_3 V c t) (iblk16 V c 7 t)
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
theorem after16_7 (c : Dev nD) (t : Fin cfg16.N) : (dat16 V c).after 7 t = iblk16 V c 7 t := by dsimp only [dat16]
theorem after16_8 (c : Dev nD) (t : Fin cfg16.N) :
    (dat16 V c).after 8 t = out16_8 (scr16_0 V c t) (scr16_2 V c t) (scr16_1 V c t) (scr16_3 V c t) (iblk16 V c 7 t) := by dsimp only [dat16]
theorem owed16 (c : Dev nD) (t) : (dat16 V c).owed t = 0 := rfl
theorem q16 (c : Dev nD) (w) : (dat16 V c).q w = fullShare := rfl

theorem PhiS16_castSucc (c : Dev nD) (t : Fin cfg16.N) :
    (dat16 V c).Φ t.castSucc = PhiS16 V c t.val (Nat.le_of_lt t.isLt) := by
  dsimp only [dat16]; simp only [Fin.coe_castSucc]

/-! ## The body's two conditions, in closed form over the grid -/

/-- The body's first condition (`k = 0`: start the sums from zero), from the grid coordinates. -/
abbrev cond16_0 (i : grid16.Coords) : Prop := (Scalar.cmpi .ne (Scalar.extui (Scalar.cmpi .eq (BitVec.ofNat 32 (i 1).val) 0#32)) 0#32) = 1#1
/-- It holds at the first point of each row block. -/
theorem hcond16_0 : ∀ t : Fin cfg16.N, cond16_0 (grid16.coords t) ↔ t.val % 64 = 0 :=
  (by decide +kernel : ∀ t : Fin grid16.N, cond16_0 (grid16.coords t) ↔ t.val % 64 = 0)
/-- The body's second condition (`k = 63`: write the output block). -/
abbrev cond16_1 (i : grid16.Coords) : Prop := k16_cond2 i = 1#1
/-- It holds at the last point of each row block. -/
theorem hcond16_1 : ∀ t : Fin cfg16.N, cond16_1 (grid16.coords t) ↔ t.val % 64 = 63 :=
  (by decide +kernel : ∀ t : Fin grid16.N, cond16_1 (grid16.coords t) ↔ t.val % 64 = 63)

/-! ## A whole-buffer store covers the buffer -/

theorem cover16_a (p0 : Vec F S1024x256 .f32) (y : S1024x256.Idx) :
    ∃ pc ∈ ([⟨r16_a, p0⟩] : List (View.Piece (Elt F) S1024x256 .f32)), y ∈ pc.1.set :=
  View.cover_of_tiled [⟨r16_a, p0⟩] S1024x256.size (by rfl) y
theorem cover16_d (p0 : Vec F S1024x1 .f32) (y : S1024x1.Idx) :
    ∃ pc ∈ ([⟨r16_d, p0⟩] : List (View.Piece (Elt F) S1024x1 .f32)), y ∈ pc.1.set :=
  View.cover_of_tiled [⟨r16_d, p0⟩] S1024x1.size (by rfl) y

/-- After writes the LAST of which covers the whole shape, the buffer reads as that write alone. -/
theorem read_writes_head_cover16 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon16_a (w : Vec F S1024x256 .f32) :
    View.ld (View.canon [(⟨r16_a, w⟩ : View.Piece (Elt F) S1024x256 .f32)]) r16_a = w :=
  funext fun x => View.canon_cons_emb r16_a w [] x
theorem ld_canon16_d (w : Vec F S1024x1 .f32) :
    View.ld (View.canon [(⟨r16_d, w⟩ : View.Piece (Elt F) S1024x1 .f32)]) r16_d = w :=
  funext fun x => View.canon_cons_emb r16_d w [] x

/-- The output block from sums that are themselves whole-buffer writes: the payloads meet directly. -/
theorem out16_8_canon (w0 w1 : Vec F S1024x256 .f32) (w2 w3 : Vec F S1024x1 .f32) (x7 : Vec F S1024x256 .f32) :
    out16_8 (View.canon [(⟨r16_a, w0⟩ : View.Piece (Elt F) S1024x256 .f32)]) (View.canon [(⟨r16_d, w2⟩ : View.Piece (Elt F) S1024x1 .f32)])
        (View.canon [(⟨r16_a, w1⟩ : View.Piece (Elt F) S1024x256 .f32)]) (View.canon [(⟨r16_d, w3⟩ : View.Piece (Elt F) S1024x1 .f32)]) x7
      = View.canon [(⟨r16_a, k16_pay2 w0 w2 w1 w3 (View.ld x7 r16_a)⟩ : View.Piece (Elt F) S1024x256 .f32)] := by
  unfold out16_8; rw [ld_canon16_a, ld_canon16_a, ld_canon16_d, ld_canon16_d]

set_option maxHeartbeats 4000000 in
/-- The first point of a row block (`k = 0`): each sum is set to zero, then the point's contribution is added to it; the
    inputs and the output block are left as they were. -/
theorem run16_A (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : cond16_0 i) (hc1 : ¬cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc16_0 i x0 x2 x3 x4 (k16_pay3 (F := F))) ∗ owns (c : Thread nD τ) arg12 fullShare (acc16_1 i x1 x2 x5 x6 (k16_pay4 (F := F)))
            ∗ owns (c : Thread nD τ) arg13 fullShare (acc16_2 i x0 (k16_pay5 (F := F))) ∗ owns (c : Thread nD τ) arg14 fullShare (acc16_3 i x1 (k16_pay6 (F := F)))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover16 _ _ _ _ (cover16_a _)).trans (by simp only [View.readCov_cons_toLoadRect]; rfl)
  isplitl [S1]
  · iexists _; isplitr
    swap; · iexact S1
    ipureintro; sl_unfold_run_names
    exact (read_writes_head_cover16 _ _ _ _ (cover16_a _)).trans (by simp only [View.readCov_cons_toLoadRect]; rfl)
  isplitl [S2]
  · iexists _; isplitr
    swap; · iexact S2
    ipureintro; sl_unfold_run_names
    exact (read_writes_head_cover16 _ _ _ _ (cover16_d _)).trans (by simp only [View.readCov_cons_toLoadRect]; rfl)
  iexists _; isplitr
  swap; · iexact S3
  ipureintro; sl_unfold_run_names
  exact (read_writes_head_cover16 _ _ _ _ (cover16_d _)).trans (by simp only [View.readCov_cons_toLoadRect]; rfl)

set_option maxHeartbeats 4000000 in
/-- A middle point of a row block (neither condition holds): each sum is loaded, the point's contribution added and stored back;
    the inputs and the output block are left as they were. -/
theorem run16_B (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond16_0 i) (hc1 : ¬cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc16_0 i x0 x2 x3 x4 (View.ld s0 r16_a)) ∗ owns (c : Thread nD τ) arg12 fullShare (acc16_1 i x1 x2 x5 x6 (View.ld s1 r16_a))
            ∗ owns (c : Thread nD τ) arg13 fullShare (acc16_2 i x0 (View.ld s2 r16_d)) ∗ owns (c : Thread nD τ) arg14 fullShare (acc16_3 i x1 (View.ld s3 r16_d))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover16_a _)
  isplitl [S1]
  · iexists _; isplitr
    swap; · iexact S1
    ipureintro; exact View.read_writes_eq_canon _ _ _ (cover16_a _)
  isplitl [S2]
  · iexists _; isplitr
    swap; · iexact S2
    ipureintro; exact View.read_writes_eq_canon _ _ _ (cover16_d _)
  iexists _; isplitr
  swap; · iexact S3
  ipureintro; exact View.read_writes_eq_canon _ _ _ (cover16_d _)

set_option maxHeartbeats 4000000 in
/-- The last point of a row block (`k = 63`): each sum is loaded, the point's contribution added and stored back, and the
    output block is written from the sums as they then stand and the target block; the inputs are left as they were. -/
theorem run16_C (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond16_0 i) (hc1 : cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out16_8 (acc16_0 i x0 x2 x3 x4 (View.ld s0 r16_a)) (acc16_2 i x0 (View.ld s2 r16_d)) (acc16_1 i x1 x2 x5 x6 (View.ld s1 r16_a)) (acc16_3 i x1 (View.ld s3 r16_d)) x7)
            ∗ owns (c : Thread nD τ) arg11 fullShare (acc16_0 i x0 x2 x3 x4 (View.ld s0 r16_a)) ∗ owns (c : Thread nD τ) arg12 fullShare (acc16_1 i x1 x2 x5 x6 (View.ld s1 r16_a))
            ∗ owns (c : Thread nD τ) arg13 fullShare (acc16_2 i x0 (View.ld s2 r16_d)) ∗ owns (c : Thread nD τ) arg14 fullShare (acc16_3 i x1 (View.ld s3 r16_d))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover16_a _)).trans
      (by simp only [View.readCov_cons_toLoadRect]; exact (out16_8_canon _ _ _ _ _).symm)
  isplitl [S0]
  · iexists _; isplitr
    swap; · iexact S0
    ipureintro; sl_unfold_run_names
    exact View.read_writes_eq_canon _ _ _ (cover16_a _)
  isplitl [S1]
  · iexists _; isplitr
    swap; · iexact S1
    ipureintro; sl_unfold_run_names
    exact View.read_writes_eq_canon _ _ _ (cover16_a _)
  isplitl [S2]
  · iexists _; isplitr
    swap; · iexact S2
    ipureintro; sl_unfold_run_names
    exact View.read_writes_eq_canon _ _ _ (cover16_d _)
  iexists _; isplitr
  swap; · iexact S3
  ipureintro; sl_unfold_run_names
  exact View.read_writes_eq_canon _ _ _ (cover16_d _)

/-! ## Where the output window is idle, and where its block is written back -/

/-- Off the last point of a row block the body stores nothing into the output window; -/
theorem idleAt16_8 : ∀ t : Fin cfg16.N, ¬cond16_1 (grid16.coords t) → cfg16.idle 8 (grid16.coords t) = true := by decide +kernel
/-- at it, it does. -/
theorem liveAt16_8 : ∀ t : Fin cfg16.N, cond16_1 (grid16.coords t) → cfg16.idle 8 (grid16.coords t) = false := by decide +kernel
/-- The output block is written back at the last point of a row block only. -/
theorem noFlush16_8 (t : Fin cfg16.N) (h : ¬t.val % 64 = 63) : (cfg16.win 8).flush t = false :=
  Bool.eq_false_iff.mpr fun hf => h ((flush16_8 t).mp hf)

/-! ## Each input's staging buffer holds its block at every point, fetched there or not -/

theorem before16_0 (c : Dev nD) (t : Fin cfg16.N) (d) : (dat16 V c).before 0 t d = iblk16 V c 0 t :=
  ((dat16 V c).before_in_eq_fetched 0 rfl (fun _ => rfl) (fun _ _ _ => rfl) (fun t => by rw [after16_0]; unfold Dat.blockOf iblk16; rw [A_eq16]; try rfl) t d).trans
    (by unfold Dat.fetched Dat.blockOf iblk16; rw [A_eq16]; try rfl)
theorem before16_1 (c : Dev nD) (t : Fin cfg16.N) (d) : (dat16 V c).before 1 t d = iblk16 V c 1 t :=
  ((dat16 V c).before_in_eq_fetched 1 rfl (fun _ => rfl) (fun _ _ _ => rfl) (fun t => by rw [after16_1]; unfold Dat.blockOf iblk16; rw [A_eq16]; try rfl) t d).trans
    (by unfold Dat.fetched Dat.blockOf iblk16; rw [A_eq16]; try rfl)
theorem before16_2 (c : Dev nD) (t : Fin cfg16.N) (d) : (dat16 V c).before 2 t d = iblk16 V c 2 t :=
  ((dat16 V c).before_in_eq_fetched 2 rfl (fun _ => rfl) (fun _ _ _ => rfl) (fun t => by rw [after16_2]; unfold Dat.blockOf iblk16; rw [A_eq16]; try rfl) t d).trans
    (by unfold Dat.fetched Dat.blockOf iblk16; rw [A_eq16]; try rfl)
theorem before16_3 (c : Dev nD) (t : Fin cfg16.N) (d) : (dat16 V c).before 3 t d = iblk16 V c 3 t :=
  ((dat16 V c).before_in_eq_fetched 3 rfl (fun _ => rfl) (fun _ _ _ => rfl) (fun t => by rw [after16_3]; unfold Dat.blockOf iblk16; rw [A_eq16]; try rfl) t d).trans
    (by unfold Dat.fetched Dat.blockOf iblk16; rw [A_eq16]; try rfl)
theorem before16_4 (c : Dev nD) (t : Fin cfg16.N) (d) : (dat16 V c).before 4 t d = iblk16 V c 4 t :=
  ((dat16 V c).before_in_eq_fetched 4 rfl (fun _ => rfl) (fun _ _ _ => rfl) (fun t => by rw [after16_4]; unfold Dat.blockOf iblk16; rw [A_eq16]; try rfl) t d).trans
    (by unfold Dat.fetched Dat.blockOf iblk16; rw [A_eq16]; try rfl)
theorem before16_5 (c : Dev nD) (t : Fin cfg16.N) (d) : (dat16 V c).before 5 t d = iblk16 V c 5 t :=
  ((dat16 V c).before_in_eq_fetched 5 rfl (fun _ => rfl) (fun _ _ _ => rfl) (fun t => by rw [after16_5]; unfold Dat.blockOf iblk16; rw [A_eq16]; try rfl) t d).trans
    (by unfold Dat.fetched Dat.blockOf iblk16; rw [A_eq16]; try rfl)
theorem before16_6 (c : Dev nD) (t : Fin cfg16.N) (d) : (dat16 V c).before 6 t d = iblk16 V c 6 t :=
  ((dat16 V c).before_in_eq_fetched 6 rfl (fun _ => rfl) (fun _ _ _ => rfl) (fun t => by rw [after16_6]; unfold Dat.blockOf iblk16; rw [A_eq16]; try rfl) t d).trans
    (by unfold Dat.fetched Dat.blockOf iblk16; rw [A_eq16]; try rfl)
theorem before16_7 (c : Dev nD) (t : Fin cfg16.N) (d) : (dat16 V c).before 7 t d = iblk16 V c 7 t :=
  ((dat16 V c).before_in_eq_fetched 7 rfl (fun _ => rfl) (fun _ _ _ => rfl) (fun t => by rw [after16_7]; unfold Dat.blockOf iblk16; rw [A_eq16]; try rfl) t d).trans
    (by unfold Dat.fetched Dat.blockOf iblk16; rw [A_eq16]; try rfl)

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d))
    ∗ (∃ d, owns (c : Thread nD τ) (st16_8 t) fullShare ((dat16 V c).before 8 t d)))

/-- and what it returns: the inputs' buffers as they were, the output's as the point leaves it (untouched where it is idle). -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t)
    ∗ (dat16 V c).leavesExact 8 t)

set_option maxHeartbeats 8000000 in
/-- The body at any point. The inputs' buffers hold their blocks (`before16_W`); the point's position in its row block says
    which of the three cases runs. The invariant hands the body the four sums at what the point before left (at anything before the
    very first point) and takes them back at this point's; the other scoped buffers and the generator register pass through
    unread; off the last point of a row block the output's buffer passes through as well. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6, before16_7]
  rw [show (dat16 V c).owesAt () t.succ = (dat16 V c).owesAt () t.castSucc from rfl]
  rw [show (dat16 V c).Φ t.succ = PhiS16 V c (t.val + 1) t.isLt from rfl, PhiS16_succ]
  rw [after16_0, after16_1, after16_2, after16_3, after16_4, after16_5, after16_6, after16_7]
  have hN : t.val < 128 := lt_of_lt_of_eq t.isLt (show cfg16.N = 128 from N_16)
  by_cases h0 : t.val % 64 = 0
  · have h1 : ¬t.val % 64 = 63 := by omega
    have hc0 : cond16_0 (grid16.coords t) := (hcond16_0 t).mpr h0
    have hc1 : ¬cond16_1 (grid16.coords t) := fun h => h1 ((hcond16_1 t).mp h)
    rw [Dat.leavesExact_idle (dat16 V c) 8 t (idleAt16_8 t hc1) (noFlush16_8 t h1)]
    rw [scrAt16_first V c t h0]
    by_cases hz : t.val = 0
    · rw [PhiS16_castSucc V c t, PhiS16_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_A c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_A c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond16_0 (grid16.coords t) := fun h => h0 ((hcond16_0 t).mp h)
    by_cases h1 : t.val % 64 = 63
    · have hc1 : cond16_1 (grid16.coords t) := (hcond16_1 t).mpr h1
      rw [show (dat16 V c).leavesExact 8 t = owns (c : Thread nD τ) (st16_8 t) fullShare ((dat16 V c).after 8 t) from by
        unfold Dat.leavesExact; rw [liveAt16_8 t hc1], after16_8]
      unfold scr16_0 scr16_1 scr16_2 scr16_3
      rw [scrAt16_next V c t h0]
      rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run16_C c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond16_1 (grid16.coords t) := fun h => h1 ((hcond16_1 t).mp h)
      rw [Dat.leavesExact_idle (dat16 V c) 8 t (idleAt16_8 t hc1) (noFlush16_8 t h1)]
      rw [scrAt16_next V c t h0]
      rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_B c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation16 (c : Dev nD) : BodyObligation (dat16 (F := F) V c) (defs₀ (F := F)) Variants.none () Set.univ := fun t => by
  rw [bigSep_W16, bigSep_W16]
  exact sound_body16 V c t

/-! ## The invariant's two ends -/

/-- What the region is entered with — the generator register and the scoped buffers that are no staging buffer, the four scratch
    arrays among them at anything — is the invariant before the first point. -/
theorem phi_in16 (c : Dev nD) : (iprop((∃ r, prngReg c r) ∗ Pipeline.scopedRest (Ix := Unit) (Name := ℕ) (U := UR sig nD τ) (Lvl := ℕ) spec16 c) : sProp 𝕄) ⊢ (dat16 V c).Φ 0 := by
  rw [show (dat16 V c).Φ 0 = PhiS16 V c 0 (Nat.zero_le _) from rfl, PhiS16_zero V c 0 _ rfl, scopedRest16_split]
  simp only [scM16_0, scM16_1, scM16_2, scM16_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out16 (c : Dev nD) : (dat16 V c).Φ (Fin.last cfg16.N) ⊢ (iprop((∃ r, prngReg c r) ∗ Pipeline.scopedRest (Ix := Unit) (Name := ℕ) (U := UR sig nD τ) (Lvl := ℕ) spec16 c) : sProp 𝕄) := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 128 := N_16; omega), scopedRest16_split]
  simp only [scM16_0, scM16_1, scM16_2, scM16_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.Kernel.Hand
end
-- ==== Proof.KB.Reg17.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 17: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## The rectangles the body reads and writes: each is the whole of its buffer -/

/-- The whole input block. -/
abbrev r17_0 : Rect S512x256 := Rect.unit (s := S512x256) ![0, 0] S512x256.size inb_S512x256_S512x256_0_0
/-- The whole weight matrix. -/
abbrev r17_1 : Rect S256x128 := Rect.unit (s := S256x128) ![0, 0] S256x128.size inb_S256x128_S256x128_0_0
/-- The whole bias row. -/
abbrev r17_2 : Rect S1x128 := Rect.unit (s := S1x128) ![0, 0] S1x128.size inb_S1x128_S1x128_0_0
/-- The whole output block. -/
abbrev r17_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out17_3 (x0 : Vec F S512x256 .f32) (x1 : Vec F S256x128 .f32) (x2 : Vec F S1x128 .f32) : Vec F S512x128 .bf16 :=
  View.canon [⟨r17_3, k17_pay1 (View.ld x0 r17_0) (View.ld x1 r17_1) (View.ld x2 r17_2)⟩]

/-! ## The proof data -/

/-- The proof data of the region on core `c`: the arrays as the region finds them; after the body at point `t`
    each input's buffer still at its block and the output's at `out17_3` of the input blocks; the invariant is
    the scoped rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-- Nothing is owed at any point. -/
theorem owed17 (c : Dev nD) (t) : (dat17 V c).owed t = 0 := rfl

/-- Every window is held at the full share. -/
theorem q17 (c : Dev nD) (w) : (dat17 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The weight matrix's buffer holds the matrix at every point: fetched at the first point only, its block index
    never moves afterwards, and the body leaves it in place. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias row's buffer holds the row at every point, for the same reason. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body's triple -/

/-- The body's one store is over the whole output buffer, so it covers every index of it. -/
theorem cover17_3 (p0 : Vec F S512x128 .bf16) (y : S512x128.Idx) :
    ∃ pc ∈ ([⟨r17_3, p0⟩] : List (View.Piece (Elt F) S512x128 .bf16)), y ∈ pc.1.set :=
  View.cover_of_tiled [⟨r17_3, p0⟩] S512x128.size (by rfl) y

set_option maxHeartbeats 1000000 in
/-- The body on whole staging memrefs — the three inputs' reading `x0`, `x1`, `x2`, the output's holding anything —
    runs to a continuation that holds the inputs' as they were and the output's at `out17_3 x0 x1 x2`: the printed
    function is its skeleton of loads and one store, run operation by operation. -/
theorem sound_kernel17 (c : Dev nD) (E : Set ℕ) (i : grid17.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out17_3 x0 x1 x2)) -∗ K ⟨⟩))
      ⊢ wp frame (wpE (defs₀ (F := F)) Variants.none c none) E (cc17__linear_kernel i arg1 harg1 arg2 harg2 arg3 harg3 arg4 harg4) K := by
  simp only [cc17__linear_kernel_eq_skeleton]; unfold cc17__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The body obligation -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks, so the body's triple applies; the invariant and
    what the core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation17 (c : Dev nD) : BodyObligation (dat17 (F := F) V c) (defs₀ (F := F)) Variants.none () Set.univ := fun t => by
  rw [bigSep_W17, bigSep_W17]
  exact sound_body17 V c t

/-! ## The invariant at the two ends -/

/-- The generator register and the scoped buffers no window stages make the invariant at the first point. -/
theorem phi_in17 (c : Dev nD) :
    (iprop((∃ r, prngReg c r) ∗ Pipeline.scopedRest (Ix := Unit) (Name := ℕ) (U := UR sig nD τ) (Lvl := ℕ) spec17 c) : sProp 𝕄)
      ⊢ (dat17 V c).Φ 0 := by
  rw [show (dat17 V c).Φ 0 = Pipeline.ΦA spec17 c from rfl]; unfold Pipeline.ΦA
  iintro ⟨Hp, Hr⟩
  isplitl [Hr]; · iexact Hr
  iexact Hp

/-- The invariant at the last point gives them back. -/
theorem phi_out17 (c : Dev nD) :
    (dat17 V c).Φ (Fin.last cfg17.N)
      ⊢ (iprop((∃ r, prngReg c r) ∗ Pipeline.scopedRest (Ix := Unit) (Name := ℕ) (U := UR sig nD τ) (Lvl := ℕ) spec17 c) : sProp 𝕄) := by
  rw [show (dat17 V c).Φ (Fin.last _) = Pipeline.ΦA spec17 c from rfl]; unfold Pipeline.ΦA
  iintro ⟨Hr, Hp⟩
  isplitl [Hp]; · iexact Hp
  iexact Hr

end Cert.Kernel.Hand

end
-- ==== Proof.KB.Reg18.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 18: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-! ## The rectangles the body reads and writes: each is the whole of its buffer -/

/-- The whole input block. -/
abbrev r18_0 : Rect S512x256 := Rect.unit (s := S512x256) ![0, 0] S512x256.size inb_S512x256_S512x256_0_0
/-- The whole weight matrix. -/
abbrev r18_1 : Rect S256x128 := Rect.unit (s := S256x128) ![0, 0] S256x128.size inb_S256x128_S256x128_0_0
/-- The whole bias row. -/
abbrev r18_2 : Rect S1x128 := Rect.unit (s := S1x128) ![0, 0] S1x128.size inb_S1x128_S1x128_0_0
/-- The whole output block. -/
abbrev r18_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out18_3 (x0 : Vec F S512x256 .f32) (x1 : Vec F S256x128 .f32) (x2 : Vec F S1x128 .f32) : Vec F S512x128 .bf16 :=
  View.canon [⟨r18_3, k18_pay1 (View.ld x0 r18_0) (View.ld x1 r18_1) (View.ld x2 r18_2)⟩]

/-! ## The proof data -/

/-- The proof data of the region on core `c`: the arrays as the region finds them; after the body at point `t`
    each input's buffer still at its block and the output's at `out18_3` of the input blocks; the invariant is
    the scoped rest and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) :
    (dat18 V c).after 3 t = out18_3 (iblk18 V c 0 t) (iblk18 V c 1 t) (iblk18 V c 2 t) := by dsimp only [dat18]

/-- Nothing is owed at any point. -/
theorem owed18 (c : Dev nD) (t) : (dat18 V c).owed t = 0 := rfl

/-- Every window is held at the full share. -/
theorem q18 (c : Dev nD) (w) : (dat18 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- The weight matrix's buffer holds the matrix at every point: fetched at the first point only, its block index
    never moves afterwards, and the body leaves it in place. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The bias row's buffer holds the row at every point, for the same reason. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body's triple -/

/-- The body's one store is over the whole output buffer, so it covers every index of it. -/
theorem cover18_3 (p0 : Vec F S512x128 .bf16) (y : S512x128.Idx) :
    ∃ pc ∈ ([⟨r18_3, p0⟩] : List (View.Piece (Elt F) S512x128 .bf16)), y ∈ pc.1.set :=
  View.cover_of_tiled [⟨r18_3, p0⟩] S512x128.size (by rfl) y

set_option maxHeartbeats 1000000 in
/-- The body on whole staging memrefs — the three inputs' reading `x0`, `x1`, `x2`, the output's holding anything —
    runs to a continuation that holds the inputs' as they were and the output's at `out18_3 x0 x1 x2`: the printed
    function is its skeleton of loads and one store, run operation by operation. -/
theorem sound_kernel18 (c : Dev nD) (E : Set ℕ) (i : grid18.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out18_3 x0 x1 x2)) -∗ K ⟨⟩))
      ⊢ wp frame (wpE (defs₀ (F := F)) Variants.none c none) E (cc18__linear_kernel i arg1 harg1 arg2 harg2 arg3 harg3 arg4 harg4) K := by
  simp only [cc18__linear_kernel_eq_skeleton]; unfold cc18__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The body obligation -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks, so the body's triple applies; the invariant and
    what the core owes pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ _ _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation18 (c : Dev nD) : BodyObligation (dat18 (F := F) V c) (defs₀ (F := F)) Variants.none () Set.univ := fun t => by
  rw [bigSep_W18, bigSep_W18]
  exact sound_body18 V c t

/-! ## The invariant at the two ends -/

/-- The generator register and the scoped buffers no window stages make the invariant at the first point. -/
theorem phi_in18 (c : Dev nD) :
    (iprop((∃ r, prngReg c r) ∗ Pipeline.scopedRest (Ix := Unit) (Name := ℕ) (U := UR sig nD τ) (Lvl := ℕ) spec18 c) : sProp 𝕄)
      ⊢ (dat18 V c).Φ 0 := by
  rw [show (dat18 V c).Φ 0 = Pipeline.ΦA spec18 c from rfl]; unfold Pipeline.ΦA
  iintro ⟨Hp, Hr⟩
  isplitl [Hr]; · iexact Hr
  iexact Hp

/-- The invariant at the last point gives them back. -/
theorem phi_out18 (c : Dev nD) :
    (dat18 V c).Φ (Fin.last cfg18.N)
      ⊢ (iprop((∃ r, prngReg c r) ∗ Pipeline.scopedRest (Ix := Unit) (Name := ℕ) (U := UR sig nD τ) (Lvl := ℕ) spec18 c) : sProp 𝕄) := by
  rw [show (dat18 V c).Φ (Fin.last _) = Pipeline.ΦA spec18 c from rfl]; unfold Pipeline.ΦA
  iintro ⟨Hr, Hp⟩
  isplitl [Hp]; · iexact Hp
  iexact Hr

end Cert.Kernel.Hand

end
-- ==== Proof.KB.Reg19.lean ====
import proofs.«422120_j65652870087589_3_alg».proof.Proof.Gen.Kernel.Launch
import proofs.«422120_j65652870087589_3_alg».proof.Proof.Gen.Kernel.Skeleton
import proofs.«422120_j65652870087589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 19: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The whole of an index column's block. -/
abbrev r19_ix : Rect S512x1 := Rect.unit (s := S512x1) ![0, 0] S512x1.size inb_S512x1_S512x1_0_0
/-- The whole of an object-side matrix. -/
abbrev r19_fc : Rect S2048x128 := Rect.unit (s := S2048x128) ![0, 0] S2048x128.size inb_S2048x128_S2048x128_0_0
/-- The whole of a block of the target or of the result. -/
abbrev r19_o : Rect S512x128 := Rect.unit (s := S512x128) ![0, 0] S512x128.size inb_S512x128_S512x128_0_0

/-- What the body leaves in the result's staging buffer, from the five input blocks: its single store, which covers the
    buffer, of the target block plus half the sum of the two averaged gathers. -/
def out19_5 (x0 : Vec F S512x1 .i32) (x1 : Vec F S512x1 .i32) (x2 : Vec F S2048x128 .bf16) (x3 : Vec F S2048x128 .bf16)
    (x4 : Vec F S512x128 .f32) : Vec F S512x128 .f32 :=
  View.canon [⟨r19_o, k19_pay1 (k19_pay2 (View.ld x4 r19_o))
    (k19_pay3 (View.ld x0 r19_ix) (View.ld x1 r19_ix) (View.ld x2 r19_fc) (View.ld x3 r19_fc))⟩]

/-- The proof data of pipeline 19 on core `c`: the arrays as found; after the body every input's buffer still holds its
    block and the result's holds `out19_5` of the input blocks; the invariant is the untouched scoped rest beside the
    generator register; nothing is owed and every share is whole. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => out19_5 (iblk19 V c 0 t) (iblk19 V c 1 t) (iblk19 V c 2 t) (iblk19 V c 3 t) (iblk19 V c 4 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t =
    out19_5 (iblk19 V c 0 t) (iblk19 V c 1 t) (iblk19 V c 2 t) (iblk19 V c 3 t) (iblk19 V c 4 t) := by dsimp only [dat19]

theorem owed19 (c : Dev nD) (t) : (dat19 V c).owed t = 0 := rfl
theorem q19 (c : Dev nD) (w) : (dat19 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before19_0 (c : Dev nD) (t : Fin cfg19.N) (d) : (dat19 V c).before 0 t d = iblk19 V c 0 t :=
  ((dat19 V c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)
theorem before19_1 (c : Dev nD) (t : Fin cfg19.N) (d) : (dat19 V c).before 1 t d = iblk19 V c 1 t :=
  ((dat19 V c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)
theorem before19_2 (c : Dev nD) (t : Fin cfg19.N) (d) : (dat19 V c).before 2 t d = iblk19 V c 2 t :=
  ((dat19 V c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)
theorem before19_3 (c : Dev nD) (t : Fin cfg19.N) (d) : (dat19 V c).before 3 t d = iblk19 V c 3 t :=
  ((dat19 V c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)
theorem before19_4 (c : Dev nD) (t : Fin cfg19.N) (d) : (dat19 V c).before 4 t d = iblk19 V c 4 t :=
  ((dat19 V c).before_in_eq_fetched 4 rfl (fun _ => rfl) (fun _ _ _ => rfl)
      (fun t => by rw [after19_4]; unfold Dat.blockOf iblk19; rw [A_eq19]; try rfl) t d).trans
    (by unfold Dat.fetched Dat.blockOf iblk19; rw [A_eq19]; try rfl)

/-! ## The body's triple -/

/-- The single store of the body is of the whole result block, so it covers the staging buffer. -/
theorem cover19_5 (p0 : Vec F S512x128 .f32) (y : S512x128.Idx) :
    ∃ pc ∈ ([⟨r19_o, p0⟩] : List (View.Piece (Elt F) S512x128 .f32)), y ∈ pc.1.set :=
  View.cover_of_tiled [⟨r19_o, p0⟩] S512x128.size (by rfl) y

set_option maxHeartbeats 1000000 in
/-- On whole staging memrefs, the five inputs' read at `x0 … x4` and the result's at anything, the body runs to a
    continuation that holds the inputs' as they were and the result's at `out19_5` of them: five loads inside the part,
    a dead load of the result's buffer, and the one store. -/
theorem sound_kernel19 (c : Dev nD) (E : Set ℕ) (i : grid19.Coords)
    (arg1 : Memref sig .tc .vmem S512x1 .i32) (harg1 : arg1.IsWhole) (arg2 : Memref sig .tc .vmem S512x1 .i32) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S512x128 .f32) (harg5 : arg5.IsWhole) (arg6 : Memref sig .tc .vmem S512x128 .f32) (harg6 : arg6.IsWhole)
    (x0 : Vec F S512x1 .i32) (x1 : Vec F S512x1 .i32) (x2 : Vec F S2048x128 .bf16) (x3 : Vec F S2048x128 .bf16) (x4 : Vec F S512x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out19_5 x0 x1 x2 x3 x4)) -∗ K ⟨⟩))
      ⊢ wp frame (wpE (defs₀ (F := F)) Variants.none c none) E
          (cc19__collect_transpose_fused_kernel i arg1 harg1 arg2 harg2 arg3 harg3 arg4 harg4 arg5 harg5 arg6 harg6) K := by
  simp only [cc19__collect_transpose_fused_kernel_eq_skeleton]; unfold cc19__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover19_5 _)

/-! ## The body obligation -/

/-- What the body is entered with at grid point `t`: the invariant, what the core owes, and each window's current
    staging buffer at what it then holds. -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d)))

/-- What it returns: the same at the next point, each buffer at what the body leaves in it. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t))

/-- The body at any grid point: the inputs' buffers hold their blocks, so the body's triple applies; the invariant and
    what the core owes are not read and pass through. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4]
  rw [show (dat19 V c).Φ t.succ = (dat19 V c).Φ t.castSucc from rfl,
    show (dat19 V c).owesAt () t.succ = (dat19 V c).owesAt () t.castSucc from rfl,
    after19_0, after19_1, after19_2, after19_3, after19_4, after19_5]
  iintro ⟨HΦ, Ho, ⟨%d0, H0⟩, ⟨%d1, H1⟩, ⟨%d2, H2⟩, ⟨%d3, H3⟩, ⟨%d4, H4⟩, ⟨%d5, H5⟩⟩
  iapply (sound_kernel19 c Set.univ _ _ _ _ _ _ _ _ _ _ _ _ _
    (iblk19 V c 0 t) (iblk19 V c 1 t) (iblk19 V c 2 t) (iblk19 V c 3 t) (iblk19 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation19 (c : Dev nD) : BodyObligation (dat19 (F := F) V c) (defs₀ (F := F)) Variants.none () Set.univ := fun t => by
  rw [bigSep_W19, bigSep_W19]
  exact sound_body19 V c t

/-! ## The invariant at the region's two ends -/

/-- Entering: the generator register and the scoped rest make the invariant. -/
theorem phi_in19 (c : Dev nD) : (iprop((∃ r, prngReg c r) ∗ Pipeline.scopedRest (Ix := Unit) (Name := ℕ) (U := UR sig nD τ) (Lvl := ℕ) spec19 c) : sProp 𝕄) ⊢ (dat19 V c).Φ 0 := by
  rw [show (dat19 V c).Φ 0 = Pipeline.ΦA spec19 c from rfl]; unfold Pipeline.ΦA
  iintro ⟨Hp, Hr⟩
  isplitl [Hr]; · iexact Hr
  iexact Hp

/-- Leaving: the invariant gives both back. -/
theorem phi_out19 (c : Dev nD) : (dat19 V c).Φ (Fin.last cfg19.N) ⊢ (iprop((∃ r, prngReg c r) ∗ Pipeline.scopedRest (Ix := Unit) (Name := ℕ) (U := UR sig nD τ) (Lvl := ℕ) spec19 c) : sProp 𝕄) := by
  rw [show (dat19 V c).Φ (Fin.last cfg19.N) = Pipeline.ΦA spec19 c from rfl]; unfold Pipeline.ΦA
  iintro ⟨Hr, Hp⟩
  isplitl [Hp]; · iexact Hp
  iexact Hr

end Cert.Kernel.Hand
end
-- ==== Proof.KB.Fold.lean ====
/-
  The whole program as one run. Between two items of @main (a stretch of host operations, or a kernel region) core c holds every
  unscoped buffer at a valuation U_j: the launch memory, then each host stretch applied, then, after a region, the region's output
  array replaced by what the region's write-backs leave (the fold of its proof data over the grid) and every other buffer as it was.
  Each region is a segment entered from U_a and left at U_b; the conditional frame of this program, instantiated at these contents,
  gives the frame claim.
-/
import proofs.«422120_j65652870087589_3_alg».proof.Proof.RegionsKB
import proofs.«422120_j65652870087589_3_alg».proof.Proof.KB.Reg0
import proofs.«422120_j65652870087589_3_alg».proof.Proof.KB.Reg1
import proofs.«422120_j65652870087589_3_alg».proof.Proof.KB.Reg2
import proofs.«422120_j65652870087589_3_alg».proof.Proof.KB.Reg3
import proofs.«422120_j65652870087589_3_alg».proof.Proof.KB.Reg4
import proofs.«422120_j65652870087589_3_alg».proof.Proof.KB.Reg5
import proofs.«422120_j65652870087589_3_alg».proof.Proof.KB.Reg6
import proofs.«422120_j65652870087589_3_alg».proof.Proof.KB.Reg7
import proofs.«422120_j65652870087589_3_alg».proof.Proof.KB.Reg8
import proofs.«422120_j65652870087589_3_alg».proof.Proof.KB.Reg9
import proofs.«422120_j65652870087589_3_alg».proof.Proof.KB.Reg10
import proofs.«422120_j65652870087589_3_alg».proof.Proof.KB.Reg11
import proofs.«422120_j65652870087589_3_alg».proof.Proof.KB.Reg12
import proofs.«422120_j65652870087589_3_alg».proof.Proof.KB.Reg13
import proofs.«422120_j65652870087589_3_alg».proof.Proof.KB.Reg14
import proofs.«422120_j65652870087589_3_alg».proof.Proof.KB.Reg15
import proofs.«422120_j65652870087589_3_alg».proof.Proof.KB.Reg16
import proofs.«422120_j65652870087589_3_alg».proof.Proof.KB.Reg17
import proofs.«422120_j65652870087589_3_alg».proof.Proof.KB.Reg18
import proofs.«422120_j65652870087589_3_alg».proof.Proof.KB.Reg19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's unscoped buffers at launch. -/
abbrev U0 (c : Dev nD) : Valuation τ sig (Elt F) := fun b => m (c, b)
/-- After the host stretch hostOps0. -/
abbrev U1 (c : Dev nD) : Valuation τ sig (Elt F) := StableHlo.after hostOps0 (U0 m c)
/-- The contents region 0 is entered from, read at the TensorCore's references (what its proof data take). -/
abbrev u1 : (c : Dev nD) → (b : Ref sig .tc) → Buf (Elt F) ((c : Thread nD τ).loc b) := fun c b => U1 m c b
/-- Region 0's arrays at what its pipeline leaves (each output's write-backs folded over the grid), every other buffer as entered. -/
def X2 (c : Dev nD) : Valuation τ sig (Elt F) :=
  Pipeline.withArrays spec0 c (U1 m c) fun w => (dat0 (u1 m) c).arrAt w cfg0.N
/-- After region 0: its output array main_v10 at what the region leaves there, every other buffer as entered. -/
abbrev U2 (c : Dev nD) : Valuation τ sig (Elt F) := Function.update (U1 m c) main_v10 (X2 m c main_v10)
/-- After the host stretch hostOps1. -/
abbrev U3 (c : Dev nD) : Valuation τ sig (Elt F) := StableHlo.after hostOps1 (U2 m c)
/-- The contents region 1 is entered from, read at the TensorCore's references (what its proof data take). -/
abbrev u3 : (c : Dev nD) → (b : Ref sig .tc) → Buf (Elt F) ((c : Thread nD τ).loc b) := fun c b => U3 m c b
/-- Region 1's arrays at what its pipeline leaves (each output's write-backs folded over the grid), every other buffer as entered. -/
def X4 (c : Dev nD) : Valuation τ sig (Elt F) :=
  Pipeline.withArrays spec1 c (U3 m c) fun w => (dat1 (u3 m) c).arrAt w cfg1.N
/-- After region 1: its output array main_v13 at what the region leaves there, every other buffer as entered. -/
abbrev U4 (c : Dev nD) : Valuation τ sig (Elt F) := Function.update (U3 m c) main_v13 (X4 m c main_v13)
/-- After the host stretch hostOps2. -/
abbrev U5 (c : Dev nD) : Valuation τ sig (Elt F) := StableHlo.after hostOps2 (U4 m c)
/-- The contents region 2 is entered from, read at the TensorCore's references (what its proof data take). -/
abbrev u5 : (c : Dev nD) → (b : Ref sig .tc) → Buf (Elt F) ((c : Thread nD τ).loc b) := fun c b => U5 m c b
/-- Region 2's arrays at what its pipeline leaves (each output's write-backs folded over the grid), every other buffer as entered. -/
def X6 (c : Dev nD) : Valuation τ sig (Elt F) :=
  Pipeline.withArrays spec2 c (U5 m c) fun w => (dat2 (u5 m) c).arrAt w cfg2.N
/-- After region 2: its output array main_v24 at what the region leaves there, every other buffer as entered. -/
abbrev U6 (c : Dev nD) : Valuation τ sig (Elt F) := Function.update (U5 m c) main_v24 (X6 m c main_v24)
/-- After the host stretch hostOps3. -/
abbrev U7 (c : Dev nD) : Valuation τ sig (Elt F) := StableHlo.after hostOps3 (U6 m c)
/-- The contents region 3 is entered from, read at the TensorCore's references (what its proof data take). -/
abbrev u7 : (c : Dev nD) → (b : Ref sig .tc) → Buf (Elt F) ((c : Thread nD τ).loc b) := fun c b => U7 m c b
/-- Region 3's arrays at what its pipeline leaves (each output's write-backs folded over the grid), every other buffer as entered. -/
def X8 (c : Dev nD) : Valuation τ sig (Elt F) :=
  Pipeline.withArrays spec3 c (U7 m c) fun w => (dat3 (u7 m) c).arrAt w cfg3.N
/-- After region 3: its output array main_v30 at what the region leaves there, every other buffer as entered. -/
abbrev U8 (c : Dev nD) : Valuation τ sig (Elt F) := Function.update (U7 m c) main_v30 (X8 m c main_v30)
/-- After the host stretch hostOps4. -/
abbrev U9 (c : Dev nD) : Valuation τ sig (Elt F) := StableHlo.after hostOps4 (U8 m c)
/-- The contents region 4 is entered from, read at the TensorCore's references (what its proof data take). -/
abbrev u9 : (c : Dev nD) → (b : Ref sig .tc) → Buf (Elt F) ((c : Thread nD τ).loc b) := fun c b => U9 m c b
/-- Region 4's arrays at what its pipeline leaves (each output's write-backs folded over the grid), every other buffer as entered. -/
def X10 (c : Dev nD) : Valuation τ sig (Elt F) :=
  Pipeline.withArrays spec4 c (U9 m c) fun w => (dat4 (u9 m) c).arrAt w cfg4.N
/-- After region 4: its output array main_v36 at what the region leaves there, every other buffer as entered. -/
abbrev U10 (c : Dev nD) : Valuation τ sig (Elt F) := Function.update (U9 m c) main_v36 (X10 m c main_v36)
/-- The contents region 5 is entered from, read at the TensorCore's references (what its proof data take). -/
abbrev u10 : (c : Dev nD) → (b : Ref sig .tc) → Buf (Elt F) ((c : Thread nD τ).loc b) := fun c b => U10 m c b
/-- Region 5's arrays at what its pipeline leaves (each output's write-backs folded over the grid), every other buffer as entered. -/
def X11 (c : Dev nD) : Valuation τ sig (Elt F) :=
  Pipeline.withArrays spec5 c (U10 m c) fun w => (dat5 (u10 m) c).arrAt w cfg5.N
/-- After region 5: its output array main_v37 at what the region leaves there, every other buffer as entered. -/
abbrev U11 (c : Dev nD) : Valuation τ sig (Elt F) := Function.update (U10 m c) main_v37 (X11 m c main_v37)
/-- After the host stretch hostOps6. -/
abbrev U12 (c : Dev nD) : Valuation τ sig (Elt F) := StableHlo.after hostOps6 (U11 m c)
/-- The contents region 6 is entered from, read at the TensorCore's references (what its proof data take). -/
abbrev u12 : (c : Dev nD) → (b : Ref sig .tc) → Buf (Elt F) ((c : Thread nD τ).loc b) := fun c b => U12 m c b
/-- Region 6's arrays at what its pipeline leaves (each output's write-backs folded over the grid), every other buffer as entered. -/
def X13 (c : Dev nD) : Valuation τ sig (Elt F) :=
  Pipeline.withArrays spec6 c (U12 m c) fun w => (dat6 (u12 m) c).arrAt w cfg6.N
/-- After region 6: its output array main_v48 at what the region leaves there, every other buffer as entered. -/
abbrev U13 (c : Dev nD) : Valuation τ sig (Elt F) := Function.update (U12 m c) main_v48 (X13 m c main_v48)
/-- After the host stretch hostOps7. -/
abbrev U14 (c : Dev nD) : Valuation τ sig (Elt F) := StableHlo.after hostOps7 (U13 m c)
/-- The contents region 7 is entered from, read at the TensorCore's references (what its proof data take). -/
abbrev u14 : (c : Dev nD) → (b : Ref sig .tc) → Buf (Elt F) ((c : Thread nD τ).loc b) := fun c b => U14 m c b
/-- Region 7's arrays at what its pipeline leaves (each output's write-backs folded over the grid), every other buffer as entered. -/
def X15 (c : Dev nD) : Valuation τ sig (Elt F) :=
  Pipeline.withArrays spec7 c (U14 m c) fun w => (dat7 (u14 m) c).arrAt w cfg7.N
/-- After region 7: its output array main_v54 at what the region leaves there, every other buffer as entered. -/
abbrev U15 (c : Dev nD) : Valuation τ sig (Elt F) := Function.update (U14 m c) main_v54 (X15 m c main_v54)
/-- After the host stretch hostOps8. -/
abbrev U16 (c : Dev nD) : Valuation τ sig (Elt F) := StableHlo.after hostOps8 (U15 m c)
/-- The contents region 8 is entered from, read at the TensorCore's references (what its proof data take). -/
abbrev u16 : (c : Dev nD) → (b : Ref sig .tc) → Buf (Elt F) ((c : Thread nD τ).loc b) := fun c b => U16 m c b
/-- Region 8's arrays at what its pipeline leaves (each output's write-backs folded over the grid), every other buffer as entered. -/
def X17 (c : Dev nD) : Valuation τ sig (Elt F) :=
  Pipeline.withArrays spec8 c (U16 m c) fun w => (dat8 (u16 m) c).arrAt w cfg8.N
/-- After region 8: its output array main_v60 at what the region leaves there, every other buffer as entered. -/
abbrev U17 (c : Dev nD) : Valuation τ sig (Elt F) := Function.update (U16 m c) main_v60 (X17 m c main_v60)
/-- The contents region 9 is entered from, read at the TensorCore's references (what its proof data take). -/
abbrev u17 : (c : Dev nD) → (b : Ref sig .tc) → Buf (Elt F) ((c : Thread nD τ).loc b) := fun c b => U17 m c b
/-- Region 9's arrays at what its pipeline leaves (each output's write-backs folded over the grid), every other buffer as entered. -/
def X18 (c : Dev nD) : Valuation τ sig (Elt F) :=
  Pipeline.withArrays spec9 c (U17 m c) fun w => (dat9 (u17 m) c).arrAt w cfg9.N
/-- After region 9: its output array main_v61 at what the region leaves there, every other buffer as entered. -/
abbrev U18 (c : Dev nD) : Valuation τ sig (Elt F) := Function.update (U17 m c) main_v61 (X18 m c main_v61)
/-- After the host stretch hostOps10. -/
abbrev U19 (c : Dev nD) : Valuation τ sig (Elt F) := StableHlo.after hostOps10 (U18 m c)
/-- After the host stretch hostOps10_1. -/
abbrev U20 (c : Dev nD) : Valuation τ sig (Elt F) := StableHlo.after hostOps10_1 (U19 m c)
/-- After the host stretch hostOps10_2. -/
abbrev U21 (c : Dev nD) : Valuation τ sig (Elt F) := StableHlo.after hostOps10_2 (U20 m c)
/-- After the host stretch hostOps10_3. -/
abbrev U22 (c : Dev nD) : Valuation τ sig (Elt F) := StableHlo.after hostOps10_3 (U21 m c)
/-- After the host stretch hostOps10_4. -/
abbrev U23 (c : Dev nD) : Valuation τ sig (Elt F) := StableHlo.after hostOps10_4 (U22 m c)
/-- After the host stretch hostOps10_5. -/
abbrev U24 (c : Dev nD) : Valuation τ sig (Elt F) := StableHlo.after hostOps10_5 (U23 m c)
/-- After the host stretch hostOps10_6. -/
abbrev U25 (c : Dev nD) : Valuation τ sig (Elt F) := StableHlo.after hostOps10_6 (U24 m c)
/-- After the host stretch hostOps10_7. -/
abbrev U26 (c : Dev nD) : Valuation τ sig (Elt F) := StableHlo.after hostOps10_7 (U25 m c)
/-- After the host stretch hostOps10_8. -/
abbrev U27 (c : Dev nD) : Valuation τ sig (Elt F) := StableHlo.after hostOps10_8 (U26 m c)
/-- After the host stretch hostOps10_9. -/
abbrev U28 (c : Dev nD) : Valuation τ sig (Elt F) := StableHlo.after hostOps10_9 (U27 m c)
/-- After the host stretch hostOps10_10. -/
abbrev U29 (c : Dev nD) : Valuation τ sig (Elt F) := StableHlo.after hostOps10_10 (U28 m c)
/-- After the host stretch hostOps10_11. -/
abbrev U30 (c : Dev nD) : Valuation τ sig (Elt F) := StableHlo.after hostOps10_11 (U29 m c)
/-- After the host stretch hostOps10_12. -/
abbrev U31 (c : Dev nD) : Valuation τ sig (Elt F) := StableHlo.after hostOps10_12 (U30 m c)
/-- After the host stretch hostOps10_13. -/
abbrev U32 (c : Dev nD) : Valuation τ sig (Elt F) := StableHlo.after hostOps10_13 (U31 m c)
/-- After the host stretch hostOps10_14. -/
abbrev U33 (c : Dev nD) : Valuation τ sig (Elt F) := StableHlo.after hostOps10_14 (U32 m c)
/-- After the host stretch hostOps10_15. -/
abbrev U34 (c : Dev nD) : Valuation τ sig (Elt F) := StableHlo.after hostOps10_15 (U33 m c)
/-- After the host stretch hostOps10_16. -/
abbrev U35 (c : Dev nD) : Valuation τ sig (Elt F) := StableHlo.after hostOps10_16 (U34 m c)
/-- The contents region 10 is entered from, read at the TensorCore's references (what its proof data take). -/
abbrev u35 : (c : Dev nD) → (b : Ref sig .tc) → Buf (Elt F) ((c : Thread nD τ).loc b) := fun c b => U35 m c b
/-- Region 10's arrays at what its pipeline leaves (each output's write-backs folded over the grid), every other buffer as entered. -/
def X36 (c : Dev nD) : Valuation τ sig (Elt F) :=
  Pipeline.withArrays spec10 c (U35 m c) fun w => (dat10 (u35 m) c).arrAt w cfg10.N
/-- After region 10: its output array main_v71 at what the region leaves there, every other buffer as entered. -/
abbrev U36 (c : Dev nD) : Valuation τ sig (Elt F) := Function.update (U35 m c) main_v71 (X36 m c main_v71)
/-- After the host stretch hostOps11. -/
abbrev U37 (c : Dev nD) : Valuation τ sig (Elt F) := StableHlo.after hostOps11 (U36 m c)
/-- The contents region 11 is entered from, read at the TensorCore's references (what its proof data take). -/
abbrev u37 : (c : Dev nD) → (b : Ref sig .tc) → Buf (Elt F) ((c : Thread nD τ).loc b) := fun c b => U37 m c b
/-- Region 11's arrays at what its pipeline leaves (each output's write-backs folded over the grid), every other buffer as entered. -/
def X38 (c : Dev nD) : Valuation τ sig (Elt F) :=
  Pipeline.withArrays spec11 c (U37 m c) fun w => (dat11 (u37 m) c).arrAt w cfg11.N
/-- After region 11: its output array main_v73 at what the region leaves there, every other buffer as entered. -/
abbrev U38 (c : Dev nD) : Valuation τ sig (Elt F) := Function.update (U37 m c) main_v73 (X38 m c main_v73)
/-- After the host stretch hostOps12. -/
abbrev U39 (c : Dev nD) : Valuation τ sig (Elt F) := StableHlo.after hostOps12 (U38 m c)
/-- The contents region 12 is entered from, read at the TensorCore's references (what its proof data take). -/
abbrev u39 : (c : Dev nD) → (b : Ref sig .tc) → Buf (Elt F) ((c : Thread nD τ).loc b) := fun c b => U39 m c b
/-- Region 12's arrays at what its pipeline leaves (each output's write-backs folded over the grid), every other buffer as entered. -/
def X40 (c : Dev nD) : Valuation τ sig (Elt F) :=
  Pipeline.withArrays spec12 c (U39 m c) fun w => (dat12 (u39 m) c).arrAt w cfg12.N
/-- After region 12: its output array main_v84 at what the region leaves there, every other buffer as entered. -/
abbrev U40 (c : Dev nD) : Valuation τ sig (Elt F) := Function.update (U39 m c) main_v84 (X40 m c main_v84)
/-- After the host stretch hostOps13. -/
abbrev U41 (c : Dev nD) : Valuation τ sig (Elt F) := StableHlo.after hostOps13 (U40 m c)
/-- The contents region 13 is entered from, read at the TensorCore's references (what its proof data take). -/
abbrev u41 : (c : Dev nD) → (b : Ref sig .tc) → Buf (Elt F) ((c : Thread nD τ).loc b) := fun c b => U41 m c b
/-- Region 13's arrays at what its pipeline leaves (each output's write-backs folded over the grid), every other buffer as entered. -/
def X42 (c : Dev nD) : Valuation τ sig (Elt F) :=
  Pipeline.withArrays spec13 c (U41 m c) fun w => (dat13 (u41 m) c).arrAt w cfg13.N
/-- After region 13: its output array main_v90 at what the region leaves there, every other buffer as entered. -/
abbrev U42 (c : Dev nD) : Valuation τ sig (Elt F) := Function.update (U41 m c) main_v90 (X42 m c main_v90)
/-- After the host stretch hostOps14. -/
abbrev U43 (c : Dev nD) : Valuation τ sig (Elt F) := StableHlo.after hostOps14 (U42 m c)
/-- The contents region 14 is entered from, read at the TensorCore's references (what its proof data take). -/
abbrev u43 : (c : Dev nD) → (b : Ref sig .tc) → Buf (Elt F) ((c : Thread nD τ).loc b) := fun c b => U43 m c b
/-- Region 14's arrays at what its pipeline leaves (each output's write-backs folded over the grid), every other buffer as entered. -/
def X44 (c : Dev nD) : Valuation τ sig (Elt F) :=
  Pipeline.withArrays spec14 c (U43 m c) fun w => (dat14 (u43 m) c).arrAt w cfg14.N
/-- After region 14: its output array main_v96 at what the region leaves there, every other buffer as entered. -/
abbrev U44 (c : Dev nD) : Valuation τ sig (Elt F) := Function.update (U43 m c) main_v96 (X44 m c main_v96)
/-- The contents region 15 is entered from, read at the TensorCore's references (what its proof data take). -/
abbrev u44 : (c : Dev nD) → (b : Ref sig .tc) → Buf (Elt F) ((c : Thread nD τ).loc b) := fun c b => U44 m c b
/-- Region 15's arrays at what its pipeline leaves (each output's write-backs folded over the grid), every other buffer as entered. -/
def X45 (c : Dev nD) : Valuation τ sig (Elt F) :=
  Pipeline.withArrays spec15 c (U44 m c) fun w => (dat15 (u44 m) c).arrAt w cfg15.N
/-- After region 15: its output array main_v97 at what the region leaves there, every other buffer as entered. -/
abbrev U45 (c : Dev nD) : Valuation τ sig (Elt F) := Function.update (U44 m c) main_v97 (X45 m c main_v97)
/-- After the host stretch hostOps16. -/
abbrev U46 (c : Dev nD) : Valuation τ sig (Elt F) := StableHlo.after hostOps16 (U45 m c)
/-- The contents region 16 is entered from, read at the TensorCore's references (what its proof data take). -/
abbrev u46 : (c : Dev nD) → (b : Ref sig .tc) → Buf (Elt F) ((c : Thread nD τ).loc b) := fun c b => U46 m c b
/-- Region 16's arrays at what its pipeline leaves (each output's write-backs folded over the grid), every other buffer as entered. -/
def X47 (c : Dev nD) : Valuation τ sig (Elt F) :=
  Pipeline.withArrays spec16 c (U46 m c) fun w => (dat16 (u46 m) c).arrAt w cfg16.N
/-- After region 16: its output array main_v108 at what the region leaves there, every other buffer as entered. -/
abbrev U47 (c : Dev nD) : Valuation τ sig (Elt F) := Function.update (U46 m c) main_v108 (X47 m c main_v108)
/-- After the host stretch hostOps17. -/
abbrev U48 (c : Dev nD) : Valuation τ sig (Elt F) := StableHlo.after hostOps17 (U47 m c)
/-- The contents region 17 is entered from, read at the TensorCore's references (what its proof data take). -/
abbrev u48 : (c : Dev nD) → (b : Ref sig .tc) → Buf (Elt F) ((c : Thread nD τ).loc b) := fun c b => U48 m c b
/-- Region 17's arrays at what its pipeline leaves (each output's write-backs folded over the grid), every other buffer as entered. -/
def X49 (c : Dev nD) : Valuation τ sig (Elt F) :=
  Pipeline.withArrays spec17 c (U48 m c) fun w => (dat17 (u48 m) c).arrAt w cfg17.N
/-- After region 17: its output array main_v114 at what the region leaves there, every other buffer as entered. -/
abbrev U49 (c : Dev nD) : Valuation τ sig (Elt F) := Function.update (U48 m c) main_v114 (X49 m c main_v114)
/-- After the host stretch hostOps18. -/
abbrev U50 (c : Dev nD) : Valuation τ sig (Elt F) := StableHlo.after hostOps18 (U49 m c)
/-- The contents region 18 is entered from, read at the TensorCore's references (what its proof data take). -/
abbrev u50 : (c : Dev nD) → (b : Ref sig .tc) → Buf (Elt F) ((c : Thread nD τ).loc b) := fun c b => U50 m c b
/-- Region 18's arrays at what its pipeline leaves (each output's write-backs folded over the grid), every other buffer as entered. -/
def X51 (c : Dev nD) : Valuation τ sig (Elt F) :=
  Pipeline.withArrays spec18 c (U50 m c) fun w => (dat18 (u50 m) c).arrAt w cfg18.N
/-- After region 18: its output array main_v120 at what the region leaves there, every other buffer as entered. -/
abbrev U51 (c : Dev nD) : Valuation τ sig (Elt F) := Function.update (U50 m c) main_v120 (X51 m c main_v120)
/-- The contents region 19 is entered from, read at the TensorCore's references (what its proof data take). -/
abbrev u51 : (c : Dev nD) → (b : Ref sig .tc) → Buf (Elt F) ((c : Thread nD τ).loc b) := fun c b => U51 m c b
/-- Region 19's arrays at what its pipeline leaves (each output's write-backs folded over the grid), every other buffer as entered. -/
def X52 (c : Dev nD) : Valuation τ sig (Elt F) :=
  Pipeline.withArrays spec19 c (U51 m c) fun w => (dat19 (u51 m) c).arrAt w cfg19.N
/-- After region 19: its output array main_v121 at what the region leaves there, every other buffer as entered. -/
abbrev U52 (c : Dev nD) : Valuation τ sig (Elt F) := Function.update (U51 m c) main_v121 (X52 m c main_v121)
/-- After the host stretch hostOps20. -/
abbrev U53 (c : Dev nD) : Valuation τ sig (Elt F) := StableHlo.after hostOps20 (U52 m c)

/-- The contents the regions leave, as the conditional frame takes them: item by item, read off the valuations above. -/
def outs : Outs (F := F) := fun J r c => match J with
  | 2 => X2 m c r
  | 4 => X4 m c r
  | 6 => X6 m c r
  | 8 => X8 m c r
  | 10 => X10 m c r
  | 11 => X11 m c r
  | 13 => X13 m c r
  | 15 => X15 m c r
  | 17 => X17 m c r
  | 18 => X18 m c r
  | 36 => X36 m c r
  | 38 => X38 m c r
  | 40 => X40 m c r
  | 42 => X42 m c r
  | 44 => X44 m c r
  | 45 => X45 m c r
  | 47 => X47 m c r
  | 49 => X49 m c r
  | 51 => X51 m c r
  | 52 => X52 m c r
  | _ => U0 m c r

/-! ## The conditional frame's valuations at these contents are the valuations above -/

theorem V_eq0 (c : Dev nD) : V0 m c = U0 m c := rfl
theorem V_eq1 (c : Dev nD) : V1 m c = U1 m c := rfl
theorem V_eq2 (c : Dev nD) : V2 m (outs m) c = U2 m c := by
  show Function.update (V1 m c) main_v10 (outs m 2 main_v10 c) = Function.update (U1 m c) main_v10 (X2 m c main_v10)
  rw [V_eq1] <;> rfl
theorem V_eq3 (c : Dev nD) : V3 m (outs m) c = U3 m c := by
  show StableHlo.after hostOps1 (V2 m (outs m) c) = StableHlo.after hostOps1 (U2 m c)
  rw [V_eq2]
theorem V_eq4 (c : Dev nD) : V4 m (outs m) c = U4 m c := by
  show Function.update (V3 m (outs m) c) main_v13 (outs m 4 main_v13 c) = Function.update (U3 m c) main_v13 (X4 m c main_v13)
  rw [V_eq3] <;> rfl
theorem V_eq5 (c : Dev nD) : V5 m (outs m) c = U5 m c := by
  show StableHlo.after hostOps2 (V4 m (outs m) c) = StableHlo.after hostOps2 (U4 m c)
  rw [V_eq4]
theorem V_eq6 (c : Dev nD) : V6 m (outs m) c = U6 m c := by
  show Function.update (V5 m (outs m) c) main_v24 (outs m 6 main_v24 c) = Function.update (U5 m c) main_v24 (X6 m c main_v24)
  rw [V_eq5] <;> rfl
theorem V_eq7 (c : Dev nD) : V7 m (outs m) c = U7 m c := by
  show StableHlo.after hostOps3 (V6 m (outs m) c) = StableHlo.after hostOps3 (U6 m c)
  rw [V_eq6]
theorem V_eq8 (c : Dev nD) : V8 m (outs m) c = U8 m c := by
  show Function.update (V7 m (outs m) c) main_v30 (outs m 8 main_v30 c) = Function.update (U7 m c) main_v30 (X8 m c main_v30)
  rw [V_eq7] <;> rfl
theorem V_eq9 (c : Dev nD) : V9 m (outs m) c = U9 m c := by
  show StableHlo.after hostOps4 (V8 m (outs m) c) = StableHlo.after hostOps4 (U8 m c)
  rw [V_eq8]
theorem V_eq10 (c : Dev nD) : V10 m (outs m) c = U10 m c := by
  show Function.update (V9 m (outs m) c) main_v36 (outs m 10 main_v36 c) = Function.update (U9 m c) main_v36 (X10 m c main_v36)
  rw [V_eq9] <;> rfl
theorem V_eq11 (c : Dev nD) : V11 m (outs m) c = U11 m c := by
  show Function.update (V10 m (outs m) c) main_v37 (outs m 11 main_v37 c) = Function.update (U10 m c) main_v37 (X11 m c main_v37)
  rw [V_eq10] <;> rfl
theorem V_eq12 (c : Dev nD) : V12 m (outs m) c = U12 m c := by
  show StableHlo.after hostOps6 (V11 m (outs m) c) = StableHlo.after hostOps6 (U11 m c)
  rw [V_eq11]
theorem V_eq13 (c : Dev nD) : V13 m (outs m) c = U13 m c := by
  show Function.update (V12 m (outs m) c) main_v48 (outs m 13 main_v48 c) = Function.update (U12 m c) main_v48 (X13 m c main_v48)
  rw [V_eq12] <;> rfl
theorem V_eq14 (c : Dev nD) : V14 m (outs m) c = U14 m c := by
  show StableHlo.after hostOps7 (V13 m (outs m) c) = StableHlo.after hostOps7 (U13 m c)
  rw [V_eq13]
theorem V_eq15 (c : Dev nD) : V15 m (outs m) c = U15 m c := by
  show Function.update (V14 m (outs m) c) main_v54 (outs m 15 main_v54 c) = Function.update (U14 m c) main_v54 (X15 m c main_v54)
  rw [V_eq14] <;> rfl
theorem V_eq16 (c : Dev nD) : V16 m (outs m) c = U16 m c := by
  show StableHlo.after hostOps8 (V15 m (outs m) c) = StableHlo.after hostOps8 (U15 m c)
  rw [V_eq15]
theorem V_eq17 (c : Dev nD) : V17 m (outs m) c = U17 m c := by
  show Function.update (V16 m (outs m) c) main_v60 (outs m 17 main_v60 c) = Function.update (U16 m c) main_v60 (X17 m c main_v60)
  rw [V_eq16] <;> rfl
theorem V_eq18 (c : Dev nD) : V18 m (outs m) c = U18 m c := by
  show Function.update (V17 m (outs m) c) main_v61 (outs m 18 main_v61 c) = Function.update (U17 m c) main_v61 (X18 m c main_v61)
  rw [V_eq17] <;> rfl
theorem V_eq19 (c : Dev nD) : V19 m (outs m) c = U19 m c := by
  show StableHlo.after hostOps10 (V18 m (outs m) c) = StableHlo.after hostOps10 (U18 m c)
  rw [V_eq18]
theorem V_eq20 (c : Dev nD) : V20 m (outs m) c = U20 m c := by
  show StableHlo.after hostOps10_1 (V19 m (outs m) c) = StableHlo.after hostOps10_1 (U19 m c)
  rw [V_eq19]
theorem V_eq21 (c : Dev nD) : V21 m (outs m) c = U21 m c := by
  show StableHlo.after hostOps10_2 (V20 m (outs m) c) = StableHlo.after hostOps10_2 (U20 m c)
  rw [V_eq20]
theorem V_eq22 (c : Dev nD) : V22 m (outs m) c = U22 m c := by
  show StableHlo.after hostOps10_3 (V21 m (outs m) c) = StableHlo.after hostOps10_3 (U21 m c)
  rw [V_eq21]
theorem V_eq23 (c : Dev nD) : V23 m (outs m) c = U23 m c := by
  show StableHlo.after hostOps10_4 (V22 m (outs m) c) = StableHlo.after hostOps10_4 (U22 m c)
  rw [V_eq22]
theorem V_eq24 (c : Dev nD) : V24 m (outs m) c = U24 m c := by
  show StableHlo.after hostOps10_5 (V23 m (outs m) c) = StableHlo.after hostOps10_5 (U23 m c)
  rw [V_eq23]
theorem V_eq25 (c : Dev nD) : V25 m (outs m) c = U25 m c := by
  show StableHlo.after hostOps10_6 (V24 m (outs m) c) = StableHlo.after hostOps10_6 (U24 m c)
  rw [V_eq24]
theorem V_eq26 (c : Dev nD) : V26 m (outs m) c = U26 m c := by
  show StableHlo.after hostOps10_7 (V25 m (outs m) c) = StableHlo.after hostOps10_7 (U25 m c)
  rw [V_eq25]
theorem V_eq27 (c : Dev nD) : V27 m (outs m) c = U27 m c := by
  show StableHlo.after hostOps10_8 (V26 m (outs m) c) = StableHlo.after hostOps10_8 (U26 m c)
  rw [V_eq26]
theorem V_eq28 (c : Dev nD) : V28 m (outs m) c = U28 m c := by
  show StableHlo.after hostOps10_9 (V27 m (outs m) c) = StableHlo.after hostOps10_9 (U27 m c)
  rw [V_eq27]
theorem V_eq29 (c : Dev nD) : V29 m (outs m) c = U29 m c := by
  show StableHlo.after hostOps10_10 (V28 m (outs m) c) = StableHlo.after hostOps10_10 (U28 m c)
  rw [V_eq28]
theorem V_eq30 (c : Dev nD) : V30 m (outs m) c = U30 m c := by
  show StableHlo.after hostOps10_11 (V29 m (outs m) c) = StableHlo.after hostOps10_11 (U29 m c)
  rw [V_eq29]
theorem V_eq31 (c : Dev nD) : V31 m (outs m) c = U31 m c := by
  show StableHlo.after hostOps10_12 (V30 m (outs m) c) = StableHlo.after hostOps10_12 (U30 m c)
  rw [V_eq30]
theorem V_eq32 (c : Dev nD) : V32 m (outs m) c = U32 m c := by
  show StableHlo.after hostOps10_13 (V31 m (outs m) c) = StableHlo.after hostOps10_13 (U31 m c)
  rw [V_eq31]
theorem V_eq33 (c : Dev nD) : V33 m (outs m) c = U33 m c := by
  show StableHlo.after hostOps10_14 (V32 m (outs m) c) = StableHlo.after hostOps10_14 (U32 m c)
  rw [V_eq32]
theorem V_eq34 (c : Dev nD) : V34 m (outs m) c = U34 m c := by
  show StableHlo.after hostOps10_15 (V33 m (outs m) c) = StableHlo.after hostOps10_15 (U33 m c)
  rw [V_eq33]
theorem V_eq35 (c : Dev nD) : V35 m (outs m) c = U35 m c := by
  show StableHlo.after hostOps10_16 (V34 m (outs m) c) = StableHlo.after hostOps10_16 (U34 m c)
  rw [V_eq34]
theorem V_eq36 (c : Dev nD) : V36 m (outs m) c = U36 m c := by
  show Function.update (V35 m (outs m) c) main_v71 (outs m 36 main_v71 c) = Function.update (U35 m c) main_v71 (X36 m c main_v71)
  rw [V_eq35] <;> rfl
theorem V_eq37 (c : Dev nD) : V37 m (outs m) c = U37 m c := by
  show StableHlo.after hostOps11 (V36 m (outs m) c) = StableHlo.after hostOps11 (U36 m c)
  rw [V_eq36]
theorem V_eq38 (c : Dev nD) : V38 m (outs m) c = U38 m c := by
  show Function.update (V37 m (outs m) c) main_v73 (outs m 38 main_v73 c) = Function.update (U37 m c) main_v73 (X38 m c main_v73)
  rw [V_eq37] <;> rfl
theorem V_eq39 (c : Dev nD) : V39 m (outs m) c = U39 m c := by
  show StableHlo.after hostOps12 (V38 m (outs m) c) = StableHlo.after hostOps12 (U38 m c)
  rw [V_eq38]
theorem V_eq40 (c : Dev nD) : V40 m (outs m) c = U40 m c := by
  show Function.update (V39 m (outs m) c) main_v84 (outs m 40 main_v84 c) = Function.update (U39 m c) main_v84 (X40 m c main_v84)
  rw [V_eq39] <;> rfl
theorem V_eq41 (c : Dev nD) : V41 m (outs m) c = U41 m c := by
  show StableHlo.after hostOps13 (V40 m (outs m) c) = StableHlo.after hostOps13 (U40 m c)
  rw [V_eq40]
theorem V_eq42 (c : Dev nD) : V42 m (outs m) c = U42 m c := by
  show Function.update (V41 m (outs m) c) main_v90 (outs m 42 main_v90 c) = Function.update (U41 m c) main_v90 (X42 m c main_v90)
  rw [V_eq41] <;> rfl
theorem V_eq43 (c : Dev nD) : V43 m (outs m) c = U43 m c := by
  show StableHlo.after hostOps14 (V42 m (outs m) c) = StableHlo.after hostOps14 (U42 m c)
  rw [V_eq42]
theorem V_eq44 (c : Dev nD) : V44 m (outs m) c = U44 m c := by
  show Function.update (V43 m (outs m) c) main_v96 (outs m 44 main_v96 c) = Function.update (U43 m c) main_v96 (X44 m c main_v96)
  rw [V_eq43] <;> rfl
theorem V_eq45 (c : Dev nD) : V45 m (outs m) c = U45 m c := by
  show Function.update (V44 m (outs m) c) main_v97 (outs m 45 main_v97 c) = Function.update (U44 m c) main_v97 (X45 m c main_v97)
  rw [V_eq44] <;> rfl
theorem V_eq46 (c : Dev nD) : V46 m (outs m) c = U46 m c := by
  show StableHlo.after hostOps16 (V45 m (outs m) c) = StableHlo.after hostOps16 (U45 m c)
  rw [V_eq45]
theorem V_eq47 (c : Dev nD) : V47 m (outs m) c = U47 m c := by
  show Function.update (V46 m (outs m) c) main_v108 (outs m 47 main_v108 c) = Function.update (U46 m c) main_v108 (X47 m c main_v108)
  rw [V_eq46] <;> rfl
theorem V_eq48 (c : Dev nD) : V48 m (outs m) c = U48 m c := by
  show StableHlo.after hostOps17 (V47 m (outs m) c) = StableHlo.after hostOps17 (U47 m c)
  rw [V_eq47]
theorem V_eq49 (c : Dev nD) : V49 m (outs m) c = U49 m c := by
  show Function.update (V48 m (outs m) c) main_v114 (outs m 49 main_v114 c) = Function.update (U48 m c) main_v114 (X49 m c main_v114)
  rw [V_eq48] <;> rfl
theorem V_eq50 (c : Dev nD) : V50 m (outs m) c = U50 m c := by
  show StableHlo.after hostOps18 (V49 m (outs m) c) = StableHlo.after hostOps18 (U49 m c)
  rw [V_eq49]
theorem V_eq51 (c : Dev nD) : V51 m (outs m) c = U51 m c := by
  show Function.update (V50 m (outs m) c) main_v120 (outs m 51 main_v120 c) = Function.update (U50 m c) main_v120 (X51 m c main_v120)
  rw [V_eq50] <;> rfl
theorem V_eq52 (c : Dev nD) : V52 m (outs m) c = U52 m c := by
  show Function.update (V51 m (outs m) c) main_v121 (outs m 52 main_v121 c) = Function.update (U51 m c) main_v121 (X52 m c main_v121)
  rw [V_eq51] <;> rfl
theorem V_eq53 (c : Dev nD) : V53 m (outs m) c = U53 m c := by
  show StableHlo.after hostOps20 (V52 m (outs m) c) = StableHlo.after hostOps20 (U52 m c)
  rw [V_eq52]

/-! ## What a region changes, and what it leaves alone -/

/-- Region 0's arrays after the region hold what its pipeline leaves. -/
theorem X2_arr (c : Dev nD) (w : Fin cfg0.W) :
    X2 m c (Proc.devRef .tc (Pipeline.arrRef spec0 w)) = (dat0 (u1 m) c).arrAt w cfg0.N := by
  unfold X2; exact Pipeline.withArrays_arr spec0 launch0.win.arr_inj c _ _ w
set_option backward.isDefEq.respectTransparency.types false in
/-- Region 0 leaves in its output array what its write-backs fold to. -/
theorem U2_out (c : Dev nD) : U2 m c main_v10 = (dat0 (u1 m) c).arrAt 5 cfg0.N := by
  show Function.update (U1 m c) main_v10 (X2 m c main_v10) main_v10 = _
  rw [Function.update_self]; exact X2_arr m c 5
theorem U2_outR (c : Dev nD) : U2 m c (Pipeline.arrRef spec0 5) = (dat0 (u1 m) c).arrAt 5 cfg0.N := by
  show Function.update (U1 m c) main_v10 (X2 m c main_v10) main_v10 = _
  rw [Function.update_self]; exact X2_arr m c 5
/-- … and every other buffer as it was. -/
theorem U2_of (c : Dev nD) (r : Ref sig .tc) (h : r ∉ ([main_v10] : List (Ref sig .tc))) : U2 m c r = U1 m c r := by
  simp only [Function.update_of_ne (StableHlo.devRef_ne_of_ne (List.ne_of_not_mem_cons h) : (Proc.devRef .tc r : DevRef τ sig) ≠ Proc.devRef .tc main_v10)]
set_option maxHeartbeats 4000000 in
set_option backward.isDefEq.respectTransparency.types false in
theorem hF0 (c : Dev nD) (w : Fin cfg0.W) : (dat0 (u1 m) c).arrAt w cfg0.N = U2 m c (Pipeline.arrRef spec0 w) :=
  match w with
  | ⟨0, _⟩ => (((dat0 (u1 m) c).arrAt_in 0 rfl _).trans (A_eq0 (u1 m) c 0)).trans (U2_of m c (Pipeline.arrRef spec0 0) (by decide)).symm
  | ⟨1, _⟩ => (((dat0 (u1 m) c).arrAt_in 1 rfl _).trans (A_eq0 (u1 m) c 1)).trans (U2_of m c (Pipeline.arrRef spec0 1) (by decide)).symm
  | ⟨2, _⟩ => (((dat0 (u1 m) c).arrAt_in 2 rfl _).trans (A_eq0 (u1 m) c 2)).trans (U2_of m c (Pipeline.arrRef spec0 2) (by decide)).symm
  | ⟨3, _⟩ => (((dat0 (u1 m) c).arrAt_in 3 rfl _).trans (A_eq0 (u1 m) c 3)).trans (U2_of m c (Pipeline.arrRef spec0 3) (by decide)).symm
  | ⟨4, _⟩ => (((dat0 (u1 m) c).arrAt_in 4 rfl _).trans (A_eq0 (u1 m) c 4)).trans (U2_of m c (Pipeline.arrRef spec0 4) (by decide)).symm
  | ⟨5, _⟩ => (U2_outR m c).symm
  | ⟨_ + 6, h⟩ => absurd h (Nat.not_lt.2 (Nat.le_add_left _ _))
theorem hrest0 (c : Dev nD) : ∀ b, b ∉ Finset.univ.image (Pipeline.arrRef spec0) → U2 m c b = U1 m c b :=
  fun b hb => U2_of m c b (fun hm => hb (by rw [List.mem_singleton.mp hm]; exact Finset.mem_image.mpr ⟨5, Finset.mem_univ _, rfl⟩))
/-- Region 1's arrays after the region hold what its pipeline leaves. -/
theorem X4_arr (c : Dev nD) (w : Fin cfg1.W) :
    X4 m c (Proc.devRef .tc (Pipeline.arrRef spec1 w)) = (dat1 (u3 m) c).arrAt w cfg1.N := by
  unfold X4; exact Pipeline.withArrays_arr spec1 launch1.win.arr_inj c _ _ w
set_option backward.isDefEq.respectTransparency.types false in
/-- Region 1 leaves in its output array what its write-backs fold to. -/
theorem U4_out (c : Dev nD) : U4 m c main_v13 = (dat1 (u3 m) c).arrAt 5 cfg1.N := by
  show Function.update (U3 m c) main_v13 (X4 m c main_v13) main_v13 = _
  rw [Function.update_self]; exact X4_arr m c 5
theorem U4_outR (c : Dev nD) : U4 m c (Pipeline.arrRef spec1 5) = (dat1 (u3 m) c).arrAt 5 cfg1.N := by
  show Function.update (U3 m c) main_v13 (X4 m c main_v13) main_v13 = _
  rw [Function.update_self]; exact X4_arr m c 5
/-- … and every other buffer as it was. -/
theorem U4_of (c : Dev nD) (r : Ref sig .tc) (h : r ∉ ([main_v13] : List (Ref sig .tc))) : U4 m c r = U3 m c r := by
  simp only [Function.update_of_ne (StableHlo.devRef_ne_of_ne (List.ne_of_not_mem_cons h) : (Proc.devRef .tc r : DevRef τ sig) ≠ Proc.devRef .tc main_v13)]
set_option maxHeartbeats 4000000 in
set_option backward.isDefEq.respectTransparency.types false in
theorem hF1 (c : Dev nD) (w : Fin cfg1.W) : (dat1 (u3 m) c).arrAt w cfg1.N = U4 m c (Pipeline.arrRef spec1 w) :=
  match w with
  | ⟨0, _⟩ => (((dat1 (u3 m) c).arrAt_in 0 rfl _).trans (A_eq1 (u3 m) c 0)).trans (U4_of m c (Pipeline.arrRef spec1 0) (by decide)).symm
  | ⟨1, _⟩ => (((dat1 (u3 m) c).arrAt_in 1 rfl _).trans (A_eq1 (u3 m) c 1)).trans (U4_of m c (Pipeline.arrRef spec1 1) (by decide)).symm
  | ⟨2, _⟩ => (((dat1 (u3 m) c).arrAt_in 2 rfl _).trans (A_eq1 (u3 m) c 2)).trans (U4_of m c (Pipeline.arrRef spec1 2) (by decide)).symm
  | ⟨3, _⟩ => (((dat1 (u3 m) c).arrAt_in 3 rfl _).trans (A_eq1 (u3 m) c 3)).trans (U4_of m c (Pipeline.arrRef spec1 3) (by decide)).symm
  | ⟨4, _⟩ => (((dat1 (u3 m) c).arrAt_in 4 rfl _).trans (A_eq1 (u3 m) c 4)).trans (U4_of m c (Pipeline.arrRef spec1 4) (by decide)).symm
  | ⟨5, _⟩ => (U4_outR m c).symm
  | ⟨_ + 6, h⟩ => absurd h (Nat.not_lt.2 (Nat.le_add_left _ _))
theorem hrest1 (c : Dev nD) : ∀ b, b ∉ Finset.univ.image (Pipeline.arrRef spec1) → U4 m c b = U3 m c b :=
  fun b hb => U4_of m c b (fun hm => hb (by rw [List.mem_singleton.mp hm]; exact Finset.mem_image.mpr ⟨5, Finset.mem_univ _, rfl⟩))
/-- Region 2's arrays after the region hold what its pipeline leaves. -/
theorem X6_arr (c : Dev nD) (w : Fin cfg2.W) :
    X6 m c (Proc.devRef .tc (Pipeline.arrRef spec2 w)) = (dat2 (u5 m) c).arrAt w cfg2.N := by
  unfold X6; exact Pipeline.withArrays_arr spec2 launch2.win.arr_inj c _ _ w
set_option backward.isDefEq.respectTransparency.types false in
/-- Region 2 leaves in its output array what its write-backs fold to. -/
theorem U6_out (c : Dev nD) : U6 m c main_v24 = (dat2 (u5 m) c).arrAt 8 cfg2.N := by
  show Function.update (U5 m c) main_v24 (X6 m c main_v24) main_v24 = _
  rw [Function.update_self]; exact X6_arr m c 8
theorem U6_outR (c : Dev nD) : U6 m c (Pipeline.arrRef spec2 8) = (dat2 (u5 m) c).arrAt 8 cfg2.N := by
  show Function.update (U5 m c) main_v24 (X6 m c main_v24) main_v24 = _
  rw [Function.update_self]; exact X6_arr m c 8
/-- … and every other buffer as it was. -/
theorem U6_of (c : Dev nD) (r : Ref sig .tc) (h : r ∉ ([main_v24] : List (Ref sig .tc))) : U6 m c r = U5 m c r := by
  simp only [Function.update_of_ne (StableHlo.devRef_ne_of_ne (List.ne_of_not_mem_cons h) : (Proc.devRef .tc r : DevRef τ sig) ≠ Proc.devRef .tc main_v24)]
set_option maxHeartbeats 4000000 in
set_option backward.isDefEq.respectTransparency.types false in
theorem hF2 (c : Dev nD) (w : Fin cfg2.W) : (dat2 (u5 m) c).arrAt w cfg2.N = U6 m c (Pipeline.arrRef spec2 w) :=
  match w with
  | ⟨0, _⟩ => (((dat2 (u5 m) c).arrAt_in 0 rfl _).trans (A_eq2 (u5 m) c 0)).trans (U6_of m c (Pipeline.arrRef spec2 0) (by decide)).symm
  | ⟨1, _⟩ => (((dat2 (u5 m) c).arrAt_in 1 rfl _).trans (A_eq2 (u5 m) c 1)).trans (U6_of m c (Pipeline.arrRef spec2 1) (by decide)).symm
  | ⟨2, _⟩ => (((dat2 (u5 m) c).arrAt_in 2 rfl _).trans (A_eq2 (u5 m) c 2)).trans (U6_of m c (Pipeline.arrRef spec2 2) (by decide)).symm
  | ⟨3, _⟩ => (((dat2 (u5 m) c).arrAt_in 3 rfl _).trans (A_eq2 (u5 m) c 3)).trans (U6_of m c (Pipeline.arrRef spec2 3) (by decide)).symm
  | ⟨4, _⟩ => (((dat2 (u5 m) c).arrAt_in 4 rfl _).trans (A_eq2 (u5 m) c 4)).trans (U6_of m c (Pipeline.arrRef spec2 4) (by decide)).symm
  | ⟨5, _⟩ => (((dat2 (u5 m) c).arrAt_in 5 rfl _).trans (A_eq2 (u5 m) c 5)).trans (U6_of m c (Pipeline.arrRef spec2 5) (by decide)).symm
  | ⟨6, _⟩ => (((dat2 (u5 m) c).arrAt_in 6 rfl _).trans (A_eq2 (u5 m) c 6)).trans (U6_of m c (Pipeline.arrRef spec2 6) (by decide)).symm
  | ⟨7, _⟩ => (((dat2 (u5 m) c).arrAt_in 7 rfl _).trans (A_eq2 (u5 m) c 7)).trans (U6_of m c (Pipeline.arrRef spec2 7) (by decide)).symm
  | ⟨8, _⟩ => (U6_outR m c).symm
  | ⟨_ + 9, h⟩ => absurd h (Nat.not_lt.2 (Nat.le_add_left _ _))
theorem hrest2 (c : Dev nD) : ∀ b, b ∉ Finset.univ.image (Pipeline.arrRef spec2) → U6 m c b = U5 m c b :=
  fun b hb => U6_of m c b (fun hm => hb (by rw [List.mem_singleton.mp hm]; exact Finset.mem_image.mpr ⟨8, Finset.mem_univ _, rfl⟩))
/-- Region 3's arrays after the region hold what its pipeline leaves. -/
theorem X8_arr (c : Dev nD) (w : Fin cfg3.W) :
    X8 m c (Proc.devRef .tc (Pipeline.arrRef spec3 w)) = (dat3 (u7 m) c).arrAt w cfg3.N := by
  unfold X8; exact Pipeline.withArrays_arr spec3 launch3.win.arr_inj c _ _ w
set_option backward.isDefEq.respectTransparency.types false in
/-- Region 3 leaves in its output array what its write-backs fold to. -/
theorem U8_out (c : Dev nD) : U8 m c main_v30 = (dat3 (u7 m) c).arrAt 3 cfg3.N := by
  show Function.update (U7 m c) main_v30 (X8 m c main_v30) main_v30 = _
  rw [Function.update_self]; exact X8_arr m c 3
theorem U8_outR (c : Dev nD) : U8 m c (Pipeline.arrRef spec3 3) = (dat3 (u7 m) c).arrAt 3 cfg3.N := by
  show Function.update (U7 m c) main_v30 (X8 m c main_v30) main_v30 = _
  rw [Function.update_self]; exact X8_arr m c 3
/-- … and every other buffer as it was. -/
theorem U8_of (c : Dev nD) (r : Ref sig .tc) (h : r ∉ ([main_v30] : List (Ref sig .tc))) : U8 m c r = U7 m c r := by
  simp only [Function.update_of_ne (StableHlo.devRef_ne_of_ne (List.ne_of_not_mem_cons h) : (Proc.devRef .tc r : DevRef τ sig) ≠ Proc.devRef .tc main_v30)]
set_option maxHeartbeats 4000000 in
set_option backward.isDefEq.respectTransparency.types false in
theorem hF3 (c : Dev nD) (w : Fin cfg3.W) : (dat3 (u7 m) c).arrAt w cfg3.N = U8 m c (Pipeline.arrRef spec3 w) :=
  match w with
  | ⟨0, _⟩ => (((dat3 (u7 m) c).arrAt_in 0 rfl _).trans (A_eq3 (u7 m) c 0)).trans (U8_of m c (Pipeline.arrRef spec3 0) (by decide)).symm
  | ⟨1, _⟩ => (((dat3 (u7 m) c).arrAt_in 1 rfl _).trans (A_eq3 (u7 m) c 1)).trans (U8_of m c (Pipeline.arrRef spec3 1) (by decide)).symm
  | ⟨2, _⟩ => (((dat3 (u7 m) c).arrAt_in 2 rfl _).trans (A_eq3 (u7 m) c 2)).trans (U8_of m c (Pipeline.arrRef spec3 2) (by decide)).symm
  | ⟨3, _⟩ => (U8_outR m c).symm
  | ⟨_ + 4, h⟩ => absurd h (Nat.not_lt.2 (Nat.le_add_left _ _))
theorem hrest3 (c : Dev nD) : ∀ b, b ∉ Finset.univ.image (Pipeline.arrRef spec3) → U8 m c b = U7 m c b :=
  fun b hb => U8_of m c b (fun hm => hb (by rw [List.mem_singleton.mp hm]; exact Finset.mem_image.mpr ⟨3, Finset.mem_univ _, rfl⟩))
/-- Region 4's arrays after the region hold what its pipeline leaves. -/
theorem X10_arr (c : Dev nD) (w : Fin cfg4.W) :
    X10 m c (Proc.devRef .tc (Pipeline.arrRef spec4 w)) = (dat4 (u9 m) c).arrAt w cfg4.N := by
  unfold X10; exact Pipeline.withArrays_arr spec4 launch4.win.arr_inj c _ _ w
set_option backward.isDefEq.respectTransparency.types false in
/-- Region 4 leaves in its output array what its write-backs fold to. -/
theorem U10_out (c : Dev nD) : U10 m c main_v36 = (dat4 (u9 m) c).arrAt 3 cfg4.N := by
  show Function.update (U9 m c) main_v36 (X10 m c main_v36) main_v36 = _
  rw [Function.update_self]; exact X10_arr m c 3
theorem U10_outR (c : Dev nD) : U10 m c (Pipeline.arrRef spec4 3) = (dat4 (u9 m) c).arrAt 3 cfg4.N := by
  show Function.update (U9 m c) main_v36 (X10 m c main_v36) main_v36 = _
  rw [Function.update_self]; exact X10_arr m c 3
/-- … and every other buffer as it was. -/
theorem U10_of (c : Dev nD) (r : Ref sig .tc) (h : r ∉ ([main_v36] : List (Ref sig .tc))) : U10 m c r = U9 m c r := by
  simp only [Function.update_of_ne (StableHlo.devRef_ne_of_ne (List.ne_of_not_mem_cons h) : (Proc.devRef .tc r : DevRef τ sig) ≠ Proc.devRef .tc main_v36)]
set_option maxHeartbeats 4000000 in
set_option backward.isDefEq.respectTransparency.types false in
theorem hF4 (c : Dev nD) (w : Fin cfg4.W) : (dat4 (u9 m) c).arrAt w cfg4.N = U10 m c (Pipeline.arrRef spec4 w) :=
  match w with
  | ⟨0, _⟩ => (((dat4 (u9 m) c).arrAt_in 0 rfl _).trans (A_eq4 (u9 m) c 0)).trans (U10_of m c (Pipeline.arrRef spec4 0) (by decide)).symm
  | ⟨1, _⟩ => (((dat4 (u9 m) c).arrAt_in 1 rfl _).trans (A_eq4 (u9 m) c 1)).trans (U10_of m c (Pipeline.arrRef spec4 1) (by decide)).symm
  | ⟨2, _⟩ => (((dat4 (u9 m) c).arrAt_in 2 rfl _).trans (A_eq4 (u9 m) c 2)).trans (U10_of m c (Pipeline.arrRef spec4 2) (by decide)).symm
  | ⟨3, _⟩ => (U10_outR m c).symm
  | ⟨_ + 4, h⟩ => absurd h (Nat.not_lt.2 (Nat.le_add_left _ _))
theorem hrest4 (c : Dev nD) : ∀ b, b ∉ Finset.univ.image (Pipeline.arrRef spec4) → U10 m c b = U9 m c b :=
  fun b hb => U10_of m c b (fun hm => hb (by rw [List.mem_singleton.mp hm]; exact Finset.mem_image.mpr ⟨3, Finset.mem_univ _, rfl⟩))
/-- Region 5's arrays after the region hold what its pipeline leaves. -/
theorem X11_arr (c : Dev nD) (w : Fin cfg5.W) :
    X11 m c (Proc.devRef .tc (Pipeline.arrRef spec5 w)) = (dat5 (u10 m) c).arrAt w cfg5.N := by
  unfold X11; exact Pipeline.withArrays_arr spec5 launch5.win.arr_inj c _ _ w
set_option backward.isDefEq.respectTransparency.types false in
/-- Region 5 leaves in its output array what its write-backs fold to. -/
theorem U11_out (c : Dev nD) : U11 m c main_v37 = (dat5 (u10 m) c).arrAt 5 cfg5.N := by
  show Function.update (U10 m c) main_v37 (X11 m c main_v37) main_v37 = _
  rw [Function.update_self]; exact X11_arr m c 5
theorem U11_outR (c : Dev nD) : U11 m c (Pipeline.arrRef spec5 5) = (dat5 (u10 m) c).arrAt 5 cfg5.N := by
  show Function.update (U10 m c) main_v37 (X11 m c main_v37) main_v37 = _
  rw [Function.update_self]; exact X11_arr m c 5
/-- … and every other buffer as it was. -/
theorem U11_of (c : Dev nD) (r : Ref sig .tc) (h : r ∉ ([main_v37] : List (Ref sig .tc))) : U11 m c r = U10 m c r := by
  simp only [Function.update_of_ne (StableHlo.devRef_ne_of_ne (List.ne_of_not_mem_cons h) : (Proc.devRef .tc r : DevRef τ sig) ≠ Proc.devRef .tc main_v37)]
set_option maxHeartbeats 4000000 in
set_option backward.isDefEq.respectTransparency.types false in
theorem hF5 (c : Dev nD) (w : Fin cfg5.W) : (dat5 (u10 m) c).arrAt w cfg5.N = U11 m c (Pipeline.arrRef spec5 w) :=
  match w with
  | ⟨0, _⟩ => (((dat5 (u10 m) c).arrAt_in 0 rfl _).trans (A_eq5 (u10 m) c 0)).trans (U11_of m c (Pipeline.arrRef spec5 0) (by decide)).symm
  | ⟨1, _⟩ => (((dat5 (u10 m) c).arrAt_in 1 rfl _).trans (A_eq5 (u10 m) c 1)).trans (U11_of m c (Pipeline.arrRef spec5 1) (by decide)).symm
  | ⟨2, _⟩ => (((dat5 (u10 m) c).arrAt_in 2 rfl _).trans (A_eq5 (u10 m) c 2)).trans (U11_of m c (Pipeline.arrRef spec5 2) (by decide)).symm
  | ⟨3, _⟩ => (((dat5 (u10 m) c).arrAt_in 3 rfl _).trans (A_eq5 (u10 m) c 3)).trans (U11_of m c (Pipeline.arrRef spec5 3) (by decide)).symm
  | ⟨4, _⟩ => (((dat5 (u10 m) c).arrAt_in 4 rfl _).trans (A_eq5 (u10 m) c 4)).trans (U11_of m c (Pipeline.arrRef spec5 4) (by decide)).symm
  | ⟨5, _⟩ => (U11_outR m c).symm
  | ⟨_ + 6, h⟩ => absurd h (Nat.not_lt.2 (Nat.le_add_left _ _))
theorem hrest5 (c : Dev nD) : ∀ b, b ∉ Finset.univ.image (Pipeline.arrRef spec5) → U11 m c b = U10 m c b :=
  fun b hb => U11_of m c b (fun hm => hb (by rw [List.mem_singleton.mp hm]; exact Finset.mem_image.mpr ⟨5, Finset.mem_univ _, rfl⟩))
/-- Region 6's arrays after the region hold what its pipeline leaves. -/
theorem X13_arr (c : Dev nD) (w : Fin cfg6.W) :
    X13 m c (Proc.devRef .tc (Pipeline.arrRef spec6 w)) = (dat6 (u12 m) c).arrAt w cfg6.N := by
  unfold X13; exact Pipeline.withArrays_arr spec6 launch6.win.arr_inj c _ _ w
set_option backward.isDefEq.respectTransparency.types false in
/-- Region 6 leaves in its output array what its write-backs fold to. -/
theorem U13_out (c : Dev nD) : U13 m c main_v48 = (dat6 (u12 m) c).arrAt 8 cfg6.N := by
  show Function.update (U12 m c) main_v48 (X13 m c main_v48) main_v48 = _
  rw [Function.update_self]; exact X13_arr m c 8
theorem U13_outR (c : Dev nD) : U13 m c (Pipeline.arrRef spec6 8) = (dat6 (u12 m) c).arrAt 8 cfg6.N := by
  show Function.update (U12 m c) main_v48 (X13 m c main_v48) main_v48 = _
  rw [Function.update_self]; exact X13_arr m c 8
/-- … and every other buffer as it was. -/
theorem U13_of (c : Dev nD) (r : Ref sig .tc) (h : r ∉ ([main_v48] : List (Ref sig .tc))) : U13 m c r = U12 m c r := by
  simp only [Function.update_of_ne (StableHlo.devRef_ne_of_ne (List.ne_of_not_mem_cons h) : (Proc.devRef .tc r : DevRef τ sig) ≠ Proc.devRef .tc main_v48)]
set_option maxHeartbeats 4000000 in
set_option backward.isDefEq.respectTransparency.types false in
theorem hF6 (c : Dev nD) (w : Fin cfg6.W) : (dat6 (u12 m) c).arrAt w cfg6.N = U13 m c (Pipeline.arrRef spec6 w) :=
  match w with
  | ⟨0, _⟩ => (((dat6 (u12 m) c).arrAt_in 0 rfl _).trans (A_eq6 (u12 m) c 0)).trans (U13_of m c (Pipeline.arrRef spec6 0) (by decide)).symm
  | ⟨1, _⟩ => (((dat6 (u12 m) c).arrAt_in 1 rfl _).trans (A_eq6 (u12 m) c 1)).trans (U13_of m c (Pipeline.arrRef spec6 1) (by decide)).symm
  | ⟨2, _⟩ => (((dat6 (u12 m) c).arrAt_in 2 rfl _).trans (A_eq6 (u12 m) c 2)).trans (U13_of m c (Pipeline.arrRef spec6 2) (by decide)).symm
  | ⟨3, _⟩ => (((dat6 (u12 m) c).arrAt_in 3 rfl _).trans (A_eq6 (u12 m) c 3)).trans (U13_of m c (Pipeline.arrRef spec6 3) (by decide)).symm
  | ⟨4, _⟩ => (((dat6 (u12 m) c).arrAt_in 4 rfl _).trans (A_eq6 (u12 m) c 4)).trans (U13_of m c (Pipeline.arrRef spec6 4) (by decide)).symm
  | ⟨5, _⟩ => (((dat6 (u12 m) c).arrAt_in 5 rfl _).trans (A_eq6 (u12 m) c 5)).trans (U13_of m c (Pipeline.arrRef spec6 5) (by decide)).symm
  | ⟨6, _⟩ => (((dat6 (u12 m) c).arrAt_in 6 rfl _).trans (A_eq6 (u12 m) c 6)).trans (U13_of m c (Pipeline.arrRef spec6 6) (by decide)).symm
  | ⟨7, _⟩ => (((dat6 (u12 m) c).arrAt_in 7 rfl _).trans (A_eq6 (u12 m) c 7)).trans (U13_of m c (Pipeline.arrRef spec6 7) (by decide)).symm
  | ⟨8, _⟩ => (U13_outR m c).symm
  | ⟨_ + 9, h⟩ => absurd h (Nat.not_lt.2 (Nat.le_add_left _ _))
theorem hrest6 (c : Dev nD) : ∀ b, b ∉ Finset.univ.image (Pipeline.arrRef spec6) → U13 m c b = U12 m c b :=
  fun b hb => U13_of m c b (fun hm => hb (by rw [List.mem_singleton.mp hm]; exact Finset.mem_image.mpr ⟨8, Finset.mem_univ _, rfl⟩))
/-- Region 7's arrays after the region hold what its pipeline leaves. -/
theorem X15_arr (c : Dev nD) (w : Fin cfg7.W) :
    X15 m c (Proc.devRef .tc (Pipeline.arrRef spec7 w)) = (dat7 (u14 m) c).arrAt w cfg7.N := by
  unfold X15; exact Pipeline.withArrays_arr spec7 launch7.win.arr_inj c _ _ w
set_option backward.isDefEq.respectTransparency.types false in
/-- Region 7 leaves in its output array what its write-backs fold to. -/
theorem U15_out (c : Dev nD) : U15 m c main_v54 = (dat7 (u14 m) c).arrAt 3 cfg7.N := by
  show Function.update (U14 m c) main_v54 (X15 m c main_v54) main_v54 = _
  rw [Function.update_self]; exact X15_arr m c 3
theorem U15_outR (c : Dev nD) : U15 m c (Pipeline.arrRef spec7 3) = (dat7 (u14 m) c).arrAt 3 cfg7.N := by
  show Function.update (U14 m c) main_v54 (X15 m c main_v54) main_v54 = _
  rw [Function.update_self]; exact X15_arr m c 3
/-- … and every other buffer as it was. -/
theorem U15_of (c : Dev nD) (r : Ref sig .tc) (h : r ∉ ([main_v54] : List (Ref sig .tc))) : U15 m c r = U14 m c r := by
  simp only [Function.update_of_ne (StableHlo.devRef_ne_of_ne (List.ne_of_not_mem_cons h) : (Proc.devRef .tc r : DevRef τ sig) ≠ Proc.devRef .tc main_v54)]
set_option maxHeartbeats 4000000 in
set_option backward.isDefEq.respectTransparency.types false in
theorem hF7 (c : Dev nD) (w : Fin cfg7.W) : (dat7 (u14 m) c).arrAt w cfg7.N = U15 m c (Pipeline.arrRef spec7 w) :=
  match w with
  | ⟨0, _⟩ => (((dat7 (u14 m) c).arrAt_in 0 rfl _).trans (A_eq7 (u14 m) c 0)).trans (U15_of m c (Pipeline.arrRef spec7 0) (by decide)).symm
  | ⟨1, _⟩ => (((dat7 (u14 m) c).arrAt_in 1 rfl _).trans (A_eq7 (u14 m) c 1)).trans (U15_of m c (Pipeline.arrRef spec7 1) (by decide)).symm
  | ⟨2, _⟩ => (((dat7 (u14 m) c).arrAt_in 2 rfl _).trans (A_eq7 (u14 m) c 2)).trans (U15_of m c (Pipeline.arrRef spec7 2) (by decide)).symm
  | ⟨3, _⟩ => (U15_outR m c).symm
  | ⟨_ + 4, h⟩ => absurd h (Nat.not_lt.2 (Nat.le_add_left _ _))
theorem hrest7 (c : Dev nD) : ∀ b, b ∉ Finset.univ.image (Pipeline.arrRef spec7) → U15 m c b = U14 m c b :=
  fun b hb => U15_of m c b (fun hm => hb (by rw [List.mem_singleton.mp hm]; exact Finset.mem_image.mpr ⟨3, Finset.mem_univ _, rfl⟩))
/-- Region 8's arrays after the region hold what its pipeline leaves. -/
theorem X17_arr (c : Dev nD) (w : Fin cfg8.W) :
    X17 m c (Proc.devRef .tc (Pipeline.arrRef spec8 w)) = (dat8 (u16 m) c).arrAt w cfg8.N := by
  unfold X17; exact Pipeline.withArrays_arr spec8 launch8.win.arr_inj c _ _ w
set_option backward.isDefEq.respectTransparency.types false in
/-- Region 8 leaves in its output array what its write-backs fold to. -/
theorem U17_out (c : Dev nD) : U17 m c main_v60 = (dat8 (u16 m) c).arrAt 3 cfg8.N := by
  show Function.update (U16 m c) main_v60 (X17 m c main_v60) main_v60 = _
  rw [Function.update_self]; exact X17_arr m c 3
theorem U17_outR (c : Dev nD) : U17 m c (Pipeline.arrRef spec8 3) = (dat8 (u16 m) c).arrAt 3 cfg8.N := by
  show Function.update (U16 m c) main_v60 (X17 m c main_v60) main_v60 = _
  rw [Function.update_self]; exact X17_arr m c 3
/-- … and every other buffer as it was. -/
theorem U17_of (c : Dev nD) (r : Ref sig .tc) (h : r ∉ ([main_v60] : List (Ref sig .tc))) : U17 m c r = U16 m c r := by
  simp only [Function.update_of_ne (StableHlo.devRef_ne_of_ne (List.ne_of_not_mem_cons h) : (Proc.devRef .tc r : DevRef τ sig) ≠ Proc.devRef .tc main_v60)]
set_option maxHeartbeats 4000000 in
set_option backward.isDefEq.respectTransparency.types false in
theorem hF8 (c : Dev nD) (w : Fin cfg8.W) : (dat8 (u16 m) c).arrAt w cfg8.N = U17 m c (Pipeline.arrRef spec8 w) :=
  match w with
  | ⟨0, _⟩ => (((dat8 (u16 m) c).arrAt_in 0 rfl _).trans (A_eq8 (u16 m) c 0)).trans (U17_of m c (Pipeline.arrRef spec8 0) (by decide)).symm
  | ⟨1, _⟩ => (((dat8 (u16 m) c).arrAt_in 1 rfl _).trans (A_eq8 (u16 m) c 1)).trans (U17_of m c (Pipeline.arrRef spec8 1) (by decide)).symm
  | ⟨2, _⟩ => (((dat8 (u16 m) c).arrAt_in 2 rfl _).trans (A_eq8 (u16 m) c 2)).trans (U17_of m c (Pipeline.arrRef spec8 2) (by decide)).symm
  | ⟨3, _⟩ => (U17_outR m c).symm
  | ⟨_ + 4, h⟩ => absurd h (Nat.not_lt.2 (Nat.le_add_left _ _))
theorem hrest8 (c : Dev nD) : ∀ b, b ∉ Finset.univ.image (Pipeline.arrRef spec8) → U17 m c b = U16 m c b :=
  fun b hb => U17_of m c b (fun hm => hb (by rw [List.mem_singleton.mp hm]; exact Finset.mem_image.mpr ⟨3, Finset.mem_univ _, rfl⟩))
/-- Region 9's arrays after the region hold what its pipeline leaves. -/
theorem X18_arr (c : Dev nD) (w : Fin cfg9.W) :
    X18 m c (Proc.devRef .tc (Pipeline.arrRef spec9 w)) = (dat9 (u17 m) c).arrAt w cfg9.N := by
  unfold X18; exact Pipeline.withArrays_arr spec9 launch9.win.arr_inj c _ _ w
set_option backward.isDefEq.respectTransparency.types false in
/-- Region 9 leaves in its output array what its write-backs fold to. -/
theorem U18_out (c : Dev nD) : U18 m c main_v61 = (dat9 (u17 m) c).arrAt 5 cfg9.N := by
  show Function.update (U17 m c) main_v61 (X18 m c main_v61) main_v61 = _
  rw [Function.update_self]; exact X18_arr m c 5
theorem U18_outR (c : Dev nD) : U18 m c (Pipeline.arrRef spec9 5) = (dat9 (u17 m) c).arrAt 5 cfg9.N := by
  show Function.update (U17 m c) main_v61 (X18 m c main_v61) main_v61 = _
  rw [Function.update_self]; exact X18_arr m c 5
/-- … and every other buffer as it was. -/
theorem U18_of (c : Dev nD) (r : Ref sig .tc) (h : r ∉ ([main_v61] : List (Ref sig .tc))) : U18 m c r = U17 m c r := by
  simp only [Function.update_of_ne (StableHlo.devRef_ne_of_ne (List.ne_of_not_mem_cons h) : (Proc.devRef .tc r : DevRef τ sig) ≠ Proc.devRef .tc main_v61)]
set_option maxHeartbeats 4000000 in
set_option backward.isDefEq.respectTransparency.types false in
theorem hF9 (c : Dev nD) (w : Fin cfg9.W) : (dat9 (u17 m) c).arrAt w cfg9.N = U18 m c (Pipeline.arrRef spec9 w) :=
  match w with
  | ⟨0, _⟩ => (((dat9 (u17 m) c).arrAt_in 0 rfl _).trans (A_eq9 (u17 m) c 0)).trans (U18_of m c (Pipeline.arrRef spec9 0) (by decide)).symm
  | ⟨1, _⟩ => (((dat9 (u17 m) c).arrAt_in 1 rfl _).trans (A_eq9 (u17 m) c 1)).trans (U18_of m c (Pipeline.arrRef spec9 1) (by decide)).symm
  | ⟨2, _⟩ => (((dat9 (u17 m) c).arrAt_in 2 rfl _).trans (A_eq9 (u17 m) c 2)).trans (U18_of m c (Pipeline.arrRef spec9 2) (by decide)).symm
  | ⟨3, _⟩ => (((dat9 (u17 m) c).arrAt_in 3 rfl _).trans (A_eq9 (u17 m) c 3)).trans (U18_of m c (Pipeline.arrRef spec9 3) (by decide)).symm
  | ⟨4, _⟩ => (((dat9 (u17 m) c).arrAt_in 4 rfl _).trans (A_eq9 (u17 m) c 4)).trans (U18_of m c (Pipeline.arrRef spec9 4) (by decide)).symm
  | ⟨5, _⟩ => (U18_outR m c).symm
  | ⟨_ + 6, h⟩ => absurd h (Nat.not_lt.2 (Nat.le_add_left _ _))
theorem hrest9 (c : Dev nD) : ∀ b, b ∉ Finset.univ.image (Pipeline.arrRef spec9) → U18 m c b = U17 m c b :=
  fun b hb => U18_of m c b (fun hm => hb (by rw [List.mem_singleton.mp hm]; exact Finset.mem_image.mpr ⟨5, Finset.mem_univ _, rfl⟩))
/-- Region 10's arrays after the region hold what its pipeline leaves. -/
theorem X36_arr (c : Dev nD) (w : Fin cfg10.W) :
    X36 m c (Proc.devRef .tc (Pipeline.arrRef spec10 w)) = (dat10 (u35 m) c).arrAt w cfg10.N := by
  unfold X36; exact Pipeline.withArrays_arr spec10 launch10.win.arr_inj c _ _ w
set_option backward.isDefEq.respectTransparency.types false in
/-- Region 10 leaves in its output array what its write-backs fold to. -/
theorem U36_out (c : Dev nD) : U36 m c main_v71 = (dat10 (u35 m) c).arrAt 3 cfg10.N := by
  show Function.update (U35 m c) main_v71 (X36 m c main_v71) main_v71 = _
  rw [Function.update_self]; exact X36_arr m c 3
theorem U36_outR (c : Dev nD) : U36 m c (Pipeline.arrRef spec10 3) = (dat10 (u35 m) c).arrAt 3 cfg10.N := by
  show Function.update (U35 m c) main_v71 (X36 m c main_v71) main_v71 = _
  rw [Function.update_self]; exact X36_arr m c 3
/-- … and every other buffer as it was. -/
theorem U36_of (c : Dev nD) (r : Ref sig .tc) (h : r ∉ ([main_v71] : List (Ref sig .tc))) : U36 m c r = U35 m c r := by
  simp only [Function.update_of_ne (StableHlo.devRef_ne_of_ne (List.ne_of_not_mem_cons h) : (Proc.devRef .tc r : DevRef τ sig) ≠ Proc.devRef .tc main_v71)]
set_option maxHeartbeats 4000000 in
set_option backward.isDefEq.respectTransparency.types false in
theorem hF10 (c : Dev nD) (w : Fin cfg10.W) : (dat10 (u35 m) c).arrAt w cfg10.N = U36 m c (Pipeline.arrRef spec10 w) :=
  match w with
  | ⟨0, _⟩ => (((dat10 (u35 m) c).arrAt_in 0 rfl _).trans (A_eq10 (u35 m) c 0)).trans (U36_of m c (Pipeline.arrRef spec10 0) (by decide)).symm
  | ⟨1, _⟩ => (((dat10 (u35 m) c).arrAt_in 1 rfl _).trans (A_eq10 (u35 m) c 1)).trans (U36_of m c (Pipeline.arrRef spec10 1) (by decide)).symm
  | ⟨2, _⟩ => (((dat10 (u35 m) c).arrAt_in 2 rfl _).trans (A_eq10 (u35 m) c 2)).trans (U36_of m c (Pipeline.arrRef spec10 2) (by decide)).symm
  | ⟨3, _⟩ => (U36_outR m c).symm
  | ⟨_ + 4, h⟩ => absurd h (Nat.not_lt.2 (Nat.le_add_left _ _))
theorem hrest10 (c : Dev nD) : ∀ b, b ∉ Finset.univ.image (Pipeline.arrRef spec10) → U36 m c b = U35 m c b :=
  fun b hb => U36_of m c b (fun hm => hb (by rw [List.mem_singleton.mp hm]; exact Finset.mem_image.mpr ⟨3, Finset.mem_univ _, rfl⟩))
/-- Region 11's arrays after the region hold what its pipeline leaves. -/
theorem X38_arr (c : Dev nD) (w : Fin cfg11.W) :
    X38 m c (Proc.devRef .tc (Pipeline.arrRef spec11 w)) = (dat11 (u37 m) c).arrAt w cfg11.N := by
  unfold X38; exact Pipeline.withArrays_arr spec11 launch11.win.arr_inj c _ _ w
set_option backward.isDefEq.respectTransparency.types false in
/-- Region 11 leaves in its output array what its write-backs fold to. -/
theorem U38_out (c : Dev nD) : U38 m c main_v73 = (dat11 (u37 m) c).arrAt 3 cfg11.N := by
  show Function.update (U37 m c) main_v73 (X38 m c main_v73) main_v73 = _
  rw [Function.update_self]; exact X38_arr m c 3
theorem U38_outR (c : Dev nD) : U38 m c (Pipeline.arrRef spec11 3) = (dat11 (u37 m) c).arrAt 3 cfg11.N := by
  show Function.update (U37 m c) main_v73 (X38 m c main_v73) main_v73 = _
  rw [Function.update_self]; exact X38_arr m c 3
/-- … and every other buffer as it was. -/
theorem U38_of (c : Dev nD) (r : Ref sig .tc) (h : r ∉ ([main_v73] : List (Ref sig .tc))) : U38 m c r = U37 m c r := by
  simp only [Function.update_of_ne (StableHlo.devRef_ne_of_ne (List.ne_of_not_mem_cons h) : (Proc.devRef .tc r : DevRef τ sig) ≠ Proc.devRef .tc main_v73)]
set_option maxHeartbeats 4000000 in
set_option backward.isDefEq.respectTransparency.types false in
theorem hF11 (c : Dev nD) (w : Fin cfg11.W) : (dat11 (u37 m) c).arrAt w cfg11.N = U38 m c (Pipeline.arrRef spec11 w) :=
  match w with
  | ⟨0, _⟩ => (((dat11 (u37 m) c).arrAt_in 0 rfl _).trans (A_eq11 (u37 m) c 0)).trans (U38_of m c (Pipeline.arrRef spec11 0) (by decide)).symm
  | ⟨1, _⟩ => (((dat11 (u37 m) c).arrAt_in 1 rfl _).trans (A_eq11 (u37 m) c 1)).trans (U38_of m c (Pipeline.arrRef spec11 1) (by decide)).symm
  | ⟨2, _⟩ => (((dat11 (u37 m) c).arrAt_in 2 rfl _).trans (A_eq11 (u37 m) c 2)).trans (U38_of m c (Pipeline.arrRef spec11 2) (by decide)).symm
  | ⟨3, _⟩ => (U38_outR m c).symm
  | ⟨_ + 4, h⟩ => absurd h (Nat.not_lt.2 (Nat.le_add_left _ _))
theorem hrest11 (c : Dev nD) : ∀ b, b ∉ Finset.univ.image (Pipeline.arrRef spec11) → U38 m c b = U37 m c b :=
  fun b hb => U38_of m c b (fun hm => hb (by rw [List.mem_singleton.mp hm]; exact Finset.mem_image.mpr ⟨3, Finset.mem_univ _, rfl⟩))
/-- Region 12's arrays after the region hold what its pipeline leaves. -/
theorem X40_arr (c : Dev nD) (w : Fin cfg12.W) :
    X40 m c (Proc.devRef .tc (Pipeline.arrRef spec12 w)) = (dat12 (u39 m) c).arrAt w cfg12.N := by
  unfold X40; exact Pipeline.withArrays_arr spec12 launch12.win.arr_inj c _ _ w
set_option backward.isDefEq.respectTransparency.types false in
/-- Region 12 leaves in its output array what its write-backs fold to. -/
theorem U40_out (c : Dev nD) : U40 m c main_v84 = (dat12 (u39 m) c).arrAt 8 cfg12.N := by
  show Function.update (U39 m c) main_v84 (X40 m c main_v84) main_v84 = _
  rw [Function.update_self]; exact X40_arr m c 8
theorem U40_outR (c : Dev nD) : U40 m c (Pipeline.arrRef spec12 8) = (dat12 (u39 m) c).arrAt 8 cfg12.N := by
  show Function.update (U39 m c) main_v84 (X40 m c main_v84) main_v84 = _
  rw [Function.update_self]; exact X40_arr m c 8
/-- … and every other buffer as it was. -/
theorem U40_of (c : Dev nD) (r : Ref sig .tc) (h : r ∉ ([main_v84] : List (Ref sig .tc))) : U40 m c r = U39 m c r := by
  simp only [Function.update_of_ne (StableHlo.devRef_ne_of_ne (List.ne_of_not_mem_cons h) : (Proc.devRef .tc r : DevRef τ sig) ≠ Proc.devRef .tc main_v84)]
set_option maxHeartbeats 4000000 in
set_option backward.isDefEq.respectTransparency.types false in
theorem hF12 (c : Dev nD) (w : Fin cfg12.W) : (dat12 (u39 m) c).arrAt w cfg12.N = U40 m c (Pipeline.arrRef spec12 w) :=
  match w with
  | ⟨0, _⟩ => (((dat12 (u39 m) c).arrAt_in 0 rfl _).trans (A_eq12 (u39 m) c 0)).trans (U40_of m c (Pipeline.arrRef spec12 0) (by decide)).symm
  | ⟨1, _⟩ => (((dat12 (u39 m) c).arrAt_in 1 rfl _).trans (A_eq12 (u39 m) c 1)).trans (U40_of m c (Pipeline.arrRef spec12 1) (by decide)).symm
  | ⟨2, _⟩ => (((dat12 (u39 m) c).arrAt_in 2 rfl _).trans (A_eq12 (u39 m) c 2)).trans (U40_of m c (Pipeline.arrRef spec12 2) (by decide)).symm
  | ⟨3, _⟩ => (((dat12 (u39 m) c).arrAt_in 3 rfl _).trans (A_eq12 (u39 m) c 3)).trans (U40_of m c (Pipeline.arrRef spec12 3) (by decide)).symm
  | ⟨4, _⟩ => (((dat12 (u39 m) c).arrAt_in 4 rfl _).trans (A_eq12 (u39 m) c 4)).trans (U40_of m c (Pipeline.arrRef spec12 4) (by decide)).symm
  | ⟨5, _⟩ => (((dat12 (u39 m) c).arrAt_in 5 rfl _).trans (A_eq12 (u39 m) c 5)).trans (U40_of m c (Pipeline.arrRef spec12 5) (by decide)).symm
  | ⟨6, _⟩ => (((dat12 (u39 m) c).arrAt_in 6 rfl _).trans (A_eq12 (u39 m) c 6)).trans (U40_of m c (Pipeline.arrRef spec12 6) (by decide)).symm
  | ⟨7, _⟩ => (((dat12 (u39 m) c).arrAt_in 7 rfl _).trans (A_eq12 (u39 m) c 7)).trans (U40_of m c (Pipeline.arrRef spec12 7) (by decide)).symm
  | ⟨8, _⟩ => (U40_outR m c).symm
  | ⟨_ + 9, h⟩ => absurd h (Nat.not_lt.2 (Nat.le_add_left _ _))
theorem hrest12 (c : Dev nD) : ∀ b, b ∉ Finset.univ.image (Pipeline.arrRef spec12) → U40 m c b = U39 m c b :=
  fun b hb => U40_of m c b (fun hm => hb (by rw [List.mem_singleton.mp hm]; exact Finset.mem_image.mpr ⟨8, Finset.mem_univ _, rfl⟩))
/-- Region 13's arrays after the region hold what its pipeline leaves. -/
theorem X42_arr (c : Dev nD) (w : Fin cfg13.W) :
    X42 m c (Proc.devRef .tc (Pipeline.arrRef spec13 w)) = (dat13 (u41 m) c).arrAt w cfg13.N := by
  unfold X42; exact Pipeline.withArrays_arr spec13 launch13.win.arr_inj c _ _ w
set_option backward.isDefEq.respectTransparency.types false in
/-- Region 13 leaves in its output array what its write-backs fold to. -/
theorem U42_out (c : Dev nD) : U42 m c main_v90 = (dat13 (u41 m) c).arrAt 3 cfg13.N := by
  show Function.update (U41 m c) main_v90 (X42 m c main_v90) main_v90 = _
  rw [Function.update_self]; exact X42_arr m c 3
theorem U42_outR (c : Dev nD) : U42 m c (Pipeline.arrRef spec13 3) = (dat13 (u41 m) c).arrAt 3 cfg13.N := by
  show Function.update (U41 m c) main_v90 (X42 m c main_v90) main_v90 = _
  rw [Function.update_self]; exact X42_arr m c 3
/-- … and every other buffer as it was. -/
theorem U42_of (c : Dev nD) (r : Ref sig .tc) (h : r ∉ ([main_v90] : List (Ref sig .tc))) : U42 m c r = U41 m c r := by
  simp only [Function.update_of_ne (StableHlo.devRef_ne_of_ne (List.ne_of_not_mem_cons h) : (Proc.devRef .tc r : DevRef τ sig) ≠ Proc.devRef .tc main_v90)]
set_option maxHeartbeats 4000000 in
set_option backward.isDefEq.respectTransparency.types false in
theorem hF13 (c : Dev nD) (w : Fin cfg13.W) : (dat13 (u41 m) c).arrAt w cfg13.N = U42 m c (Pipeline.arrRef spec13 w) :=
  match w with
  | ⟨0, _⟩ => (((dat13 (u41 m) c).arrAt_in 0 rfl _).trans (A_eq13 (u41 m) c 0)).trans (U42_of m c (Pipeline.arrRef spec13 0) (by decide)).symm
  | ⟨1, _⟩ => (((dat13 (u41 m) c).arrAt_in 1 rfl _).trans (A_eq13 (u41 m) c 1)).trans (U42_of m c (Pipeline.arrRef spec13 1) (by decide)).symm
  | ⟨2, _⟩ => (((dat13 (u41 m) c).arrAt_in 2 rfl _).trans (A_eq13 (u41 m) c 2)).trans (U42_of m c (Pipeline.arrRef spec13 2) (by decide)).symm
  | ⟨3, _⟩ => (U42_outR m c).symm
  | ⟨_ + 4, h⟩ => absurd h (Nat.not_lt.2 (Nat.le_add_left _ _))
theorem hrest13 (c : Dev nD) : ∀ b, b ∉ Finset.univ.image (Pipeline.arrRef spec13) → U42 m c b = U41 m c b :=
  fun b hb => U42_of m c b (fun hm => hb (by rw [List.mem_singleton.mp hm]; exact Finset.mem_image.mpr ⟨3, Finset.mem_univ _, rfl⟩))
/-- Region 14's arrays after the region hold what its pipeline leaves. -/
theorem X44_arr (c : Dev nD) (w : Fin cfg14.W) :
    X44 m c (Proc.devRef .tc (Pipeline.arrRef spec14 w)) = (dat14 (u43 m) c).arrAt w cfg14.N := by
  unfold X44; exact Pipeline.withArrays_arr spec14 launch14.win.arr_inj c _ _ w
set_option backward.isDefEq.respectTransparency.types false in
/-- Region 14 leaves in its output array what its write-backs fold to. -/
theorem U44_out (c : Dev nD) : U44 m c main_v96 = (dat14 (u43 m) c).arrAt 3 cfg14.N := by
  show Function.update (U43 m c) main_v96 (X44 m c main_v96) main_v96 = _
  rw [Function.update_self]; exact X44_arr m c 3
theorem U44_outR (c : Dev nD) : U44 m c (Pipeline.arrRef spec14 3) = (dat14 (u43 m) c).arrAt 3 cfg14.N := by
  show Function.update (U43 m c) main_v96 (X44 m c main_v96) main_v96 = _
  rw [Function.update_self]; exact X44_arr m c 3
/-- … and every other buffer as it was. -/
theorem U44_of (c : Dev nD) (r : Ref sig .tc) (h : r ∉ ([main_v96] : List (Ref sig .tc))) : U44 m c r = U43 m c r := by
  simp only [Function.update_of_ne (StableHlo.devRef_ne_of_ne (List.ne_of_not_mem_cons h) : (Proc.devRef .tc r : DevRef τ sig) ≠ Proc.devRef .tc main_v96)]
set_option maxHeartbeats 4000000 in
set_option backward.isDefEq.respectTransparency.types false in
theorem hF14 (c : Dev nD) (w : Fin cfg14.W) : (dat14 (u43 m) c).arrAt w cfg14.N = U44 m c (Pipeline.arrRef spec14 w) :=
  match w with
  | ⟨0, _⟩ => (((dat14 (u43 m) c).arrAt_in 0 rfl _).trans (A_eq14 (u43 m) c 0)).trans (U44_of m c (Pipeline.arrRef spec14 0) (by decide)).symm
  | ⟨1, _⟩ => (((dat14 (u43 m) c).arrAt_in 1 rfl _).trans (A_eq14 (u43 m) c 1)).trans (U44_of m c (Pipeline.arrRef spec14 1) (by decide)).symm
  | ⟨2, _⟩ => (((dat14 (u43 m) c).arrAt_in 2 rfl _).trans (A_eq14 (u43 m) c 2)).trans (U44_of m c (Pipeline.arrRef spec14 2) (by decide)).symm
  | ⟨3, _⟩ => (U44_outR m c).symm
  | ⟨_ + 4, h⟩ => absurd h (Nat.not_lt.2 (Nat.le_add_left _ _))
theorem hrest14 (c : Dev nD) : ∀ b, b ∉ Finset.univ.image (Pipeline.arrRef spec14) → U44 m c b = U43 m c b :=
  fun b hb => U44_of m c b (fun hm => hb (by rw [List.mem_singleton.mp hm]; exact Finset.mem_image.mpr ⟨3, Finset.mem_univ _, rfl⟩))
/-- Region 15's arrays after the region hold what its pipeline leaves. -/
theorem X45_arr (c : Dev nD) (w : Fin cfg15.W) :
    X45 m c (Proc.devRef .tc (Pipeline.arrRef spec15 w)) = (dat15 (u44 m) c).arrAt w cfg15.N := by
  unfold X45; exact Pipeline.withArrays_arr spec15 launch15.win.arr_inj c _ _ w
set_option backward.isDefEq.respectTransparency.types false in
/-- Region 15 leaves in its output array what its write-backs fold to. -/
theorem U45_out (c : Dev nD) : U45 m c main_v97 = (dat15 (u44 m) c).arrAt 5 cfg15.N := by
  show Function.update (U44 m c) main_v97 (X45 m c main_v97) main_v97 = _
  rw [Function.update_self]; exact X45_arr m c 5
theorem U45_outR (c : Dev nD) : U45 m c (Pipeline.arrRef spec15 5) = (dat15 (u44 m) c).arrAt 5 cfg15.N := by
  show Function.update (U44 m c) main_v97 (X45 m c main_v97) main_v97 = _
  rw [Function.update_self]; exact X45_arr m c 5
/-- … and every other buffer as it was. -/
theorem U45_of (c : Dev nD) (r : Ref sig .tc) (h : r ∉ ([main_v97] : List (Ref sig .tc))) : U45 m c r = U44 m c r := by
  simp only [Function.update_of_ne (StableHlo.devRef_ne_of_ne (List.ne_of_not_mem_cons h) : (Proc.devRef .tc r : DevRef τ sig) ≠ Proc.devRef .tc main_v97)]
set_option maxHeartbeats 4000000 in
set_option backward.isDefEq.respectTransparency.types false in
theorem hF15 (c : Dev nD) (w : Fin cfg15.W) : (dat15 (u44 m) c).arrAt w cfg15.N = U45 m c (Pipeline.arrRef spec15 w) :=
  match w with
  | ⟨0, _⟩ => (((dat15 (u44 m) c).arrAt_in 0 rfl _).trans (A_eq15 (u44 m) c 0)).trans (U45_of m c (Pipeline.arrRef spec15 0) (by decide)).symm
  | ⟨1, _⟩ => (((dat15 (u44 m) c).arrAt_in 1 rfl _).trans (A_eq15 (u44 m) c 1)).trans (U45_of m c (Pipeline.arrRef spec15 1) (by decide)).symm
  | ⟨2, _⟩ => (((dat15 (u44 m) c).arrAt_in 2 rfl _).trans (A_eq15 (u44 m) c 2)).trans (U45_of m c (Pipeline.arrRef spec15 2) (by decide)).symm
  | ⟨3, _⟩ => (((dat15 (u44 m) c).arrAt_in 3 rfl _).trans (A_eq15 (u44 m) c 3)).trans (U45_of m c (Pipeline.arrRef spec15 3) (by decide)).symm
  | ⟨4, _⟩ => (((dat15 (u44 m) c).arrAt_in 4 rfl _).trans (A_eq15 (u44 m) c 4)).trans (U45_of m c (Pipeline.arrRef spec15 4) (by decide)).symm
  | ⟨5, _⟩ => (U45_outR m c).symm
  | ⟨_ + 6, h⟩ => absurd h (Nat.not_lt.2 (Nat.le_add_left _ _))
theorem hrest15 (c : Dev nD) : ∀ b, b ∉ Finset.univ.image (Pipeline.arrRef spec15) → U45 m c b = U44 m c b :=
  fun b hb => U45_of m c b (fun hm => hb (by rw [List.mem_singleton.mp hm]; exact Finset.mem_image.mpr ⟨5, Finset.mem_univ _, rfl⟩))
/-- Region 16's arrays after the region hold what its pipeline leaves. -/
theorem X47_arr (c : Dev nD) (w : Fin cfg16.W) :
    X47 m c (Proc.devRef .tc (Pipeline.arrRef spec16 w)) = (dat16 (u46 m) c).arrAt w cfg16.N := by
  unfold X47; exact Pipeline.withArrays_arr spec16 launch16.win.arr_inj c _ _ w
set_option backward.isDefEq.respectTransparency.types false in
/-- Region 16 leaves in its output array what its write-backs fold to. -/
theorem U47_out (c : Dev nD) : U47 m c main_v108 = (dat16 (u46 m) c).arrAt 8 cfg16.N := by
  show Function.update (U46 m c) main_v108 (X47 m c main_v108) main_v108 = _
  rw [Function.update_self]; exact X47_arr m c 8
theorem U47_outR (c : Dev nD) : U47 m c (Pipeline.arrRef spec16 8) = (dat16 (u46 m) c).arrAt 8 cfg16.N := by
  show Function.update (U46 m c) main_v108 (X47 m c main_v108) main_v108 = _
  rw [Function.update_self]; exact X47_arr m c 8
/-- … and every other buffer as it was. -/
theorem U47_of (c : Dev nD) (r : Ref sig .tc) (h : r ∉ ([main_v108] : List (Ref sig .tc))) : U47 m c r = U46 m c r := by
  simp only [Function.update_of_ne (StableHlo.devRef_ne_of_ne (List.ne_of_not_mem_cons h) : (Proc.devRef .tc r : DevRef τ sig) ≠ Proc.devRef .tc main_v108)]
set_option maxHeartbeats 4000000 in
set_option backward.isDefEq.respectTransparency.types false in
theorem hF16 (c : Dev nD) (w : Fin cfg16.W) : (dat16 (u46 m) c).arrAt w cfg16.N = U47 m c (Pipeline.arrRef spec16 w) :=
  match w with
  | ⟨0, _⟩ => (((dat16 (u46 m) c).arrAt_in 0 rfl _).trans (A_eq16 (u46 m) c 0)).trans (U47_of m c (Pipeline.arrRef spec16 0) (by decide)).symm
  | ⟨1, _⟩ => (((dat16 (u46 m) c).arrAt_in 1 rfl _).trans (A_eq16 (u46 m) c 1)).trans (U47_of m c (Pipeline.arrRef spec16 1) (by decide)).symm
  | ⟨2, _⟩ => (((dat16 (u46 m) c).arrAt_in 2 rfl _).trans (A_eq16 (u46 m) c 2)).trans (U47_of m c (Pipeline.arrRef spec16 2) (by decide)).symm
  | ⟨3, _⟩ => (((dat16 (u46 m) c).arrAt_in 3 rfl _).trans (A_eq16 (u46 m) c 3)).trans (U47_of m c (Pipeline.arrRef spec16 3) (by decide)).symm
  | ⟨4, _⟩ => (((dat16 (u46 m) c).arrAt_in 4 rfl _).trans (A_eq16 (u46 m) c 4)).trans (U47_of m c (Pipeline.arrRef spec16 4) (by decide)).symm
  | ⟨5, _⟩ => (((dat16 (u46 m) c).arrAt_in 5 rfl _).trans (A_eq16 (u46 m) c 5)).trans (U47_of m c (Pipeline.arrRef spec16 5) (by decide)).symm
  | ⟨6, _⟩ => (((dat16 (u46 m) c).arrAt_in 6 rfl _).trans (A_eq16 (u46 m) c 6)).trans (U47_of m c (Pipeline.arrRef spec16 6) (by decide)).symm
  | ⟨7, _⟩ => (((dat16 (u46 m) c).arrAt_in 7 rfl _).trans (A_eq16 (u46 m) c 7)).trans (U47_of m c (Pipeline.arrRef spec16 7) (by decide)).symm
  | ⟨8, _⟩ => (U47_outR m c).symm
  | ⟨_ + 9, h⟩ => absurd h (Nat.not_lt.2 (Nat.le_add_left _ _))
theorem hrest16 (c : Dev nD) : ∀ b, b ∉ Finset.univ.image (Pipeline.arrRef spec16) → U47 m c b = U46 m c b :=
  fun b hb => U47_of m c b (fun hm => hb (by rw [List.mem_singleton.mp hm]; exact Finset.mem_image.mpr ⟨8, Finset.mem_univ _, rfl⟩))
/-- Region 17's arrays after the region hold what its pipeline leaves. -/
theorem X49_arr (c : Dev nD) (w : Fin cfg17.W) :
    X49 m c (Proc.devRef .tc (Pipeline.arrRef spec17 w)) = (dat17 (u48 m) c).arrAt w cfg17.N := by
  unfold X49; exact Pipeline.withArrays_arr spec17 launch17.win.arr_inj c _ _ w
set_option backward.isDefEq.respectTransparency.types false in
/-- Region 17 leaves in its output array what its write-backs fold to. -/
theorem U49_out (c : Dev nD) : U49 m c main_v114 = (dat17 (u48 m) c).arrAt 3 cfg17.N := by
  show Function.update (U48 m c) main_v114 (X49 m c main_v114) main_v114 = _
  rw [Function.update_self]; exact X49_arr m c 3
theorem U49_outR (c : Dev nD) : U49 m c (Pipeline.arrRef spec17 3) = (dat17 (u48 m) c).arrAt 3 cfg17.N := by
  show Function.update (U48 m c) main_v114 (X49 m c main_v114) main_v114 = _
  rw [Function.update_self]; exact X49_arr m c 3
/-- … and every other buffer as it was. -/
theorem U49_of (c : Dev nD) (r : Ref sig .tc) (h : r ∉ ([main_v114] : List (Ref sig .tc))) : U49 m c r = U48 m c r := by
  simp only [Function.update_of_ne (StableHlo.devRef_ne_of_ne (List.ne_of_not_mem_cons h) : (Proc.devRef .tc r : DevRef τ sig) ≠ Proc.devRef .tc main_v114)]
set_option maxHeartbeats 4000000 in
set_option backward.isDefEq.respectTransparency.types false in
theorem hF17 (c : Dev nD) (w : Fin cfg17.W) : (dat17 (u48 m) c).arrAt w cfg17.N = U49 m c (Pipeline.arrRef spec17 w) :=
  match w with
  | ⟨0, _⟩ => (((dat17 (u48 m) c).arrAt_in 0 rfl _).trans (A_eq17 (u48 m) c 0)).trans (U49_of m c (Pipeline.arrRef spec17 0) (by decide)).symm
  | ⟨1, _⟩ => (((dat17 (u48 m) c).arrAt_in 1 rfl _).trans (A_eq17 (u48 m) c 1)).trans (U49_of m c (Pipeline.arrRef spec17 1) (by decide)).symm
  | ⟨2, _⟩ => (((dat17 (u48 m) c).arrAt_in 2 rfl _).trans (A_eq17 (u48 m) c 2)).trans (U49_of m c (Pipeline.arrRef spec17 2) (by decide)).symm
  | ⟨3, _⟩ => (U49_outR m c).symm
  | ⟨_ + 4, h⟩ => absurd h (Nat.not_lt.2 (Nat.le_add_left _ _))
theorem hrest17 (c : Dev nD) : ∀ b, b ∉ Finset.univ.image (Pipeline.arrRef spec17) → U49 m c b = U48 m c b :=
  fun b hb => U49_of m c b (fun hm => hb (by rw [List.mem_singleton.mp hm]; exact Finset.mem_image.mpr ⟨3, Finset.mem_univ _, rfl⟩))
/-- Region 18's arrays after the region hold what its pipeline leaves. -/
theorem X51_arr (c : Dev nD) (w : Fin cfg18.W) :
    X51 m c (Proc.devRef .tc (Pipeline.arrRef spec18 w)) = (dat18 (u50 m) c).arrAt w cfg18.N := by
  unfold X51; exact Pipeline.withArrays_arr spec18 launch18.win.arr_inj c _ _ w
set_option backward.isDefEq.respectTransparency.types false in
/-- Region 18 leaves in its output array what its write-backs fold to. -/
theorem U51_out (c : Dev nD) : U51 m c main_v120 = (dat18 (u50 m) c).arrAt 3 cfg18.N := by
  show Function.update (U50 m c) main_v120 (X51 m c main_v120) main_v120 = _
  rw [Function.update_self]; exact X51_arr m c 3
theorem U51_outR (c : Dev nD) : U51 m c (Pipeline.arrRef spec18 3) = (dat18 (u50 m) c).arrAt 3 cfg18.N := by
  show Function.update (U50 m c) main_v120 (X51 m c main_v120) main_v120 = _
  rw [Function.update_self]; exact X51_arr m c 3
/-- … and every other buffer as it was. -/
theorem U51_of (c : Dev nD) (r : Ref sig .tc) (h : r ∉ ([main_v120] : List (Ref sig .tc))) : U51 m c r = U50 m c r := by
  simp only [Function.update_of_ne (StableHlo.devRef_ne_of_ne (List.ne_of_not_mem_cons h) : (Proc.devRef .tc r : DevRef τ sig) ≠ Proc.devRef .tc main_v120)]
set_option maxHeartbeats 4000000 in
set_option backward.isDefEq.respectTransparency.types false in
theorem hF18 (c : Dev nD) (w : Fin cfg18.W) : (dat18 (u50 m) c).arrAt w cfg18.N = U51 m c (Pipeline.arrRef spec18 w) :=
  match w with
  | ⟨0, _⟩ => (((dat18 (u50 m) c).arrAt_in 0 rfl _).trans (A_eq18 (u50 m) c 0)).trans (U51_of m c (Pipeline.arrRef spec18 0) (by decide)).symm
  | ⟨1, _⟩ => (((dat18 (u50 m) c).arrAt_in 1 rfl _).trans (A_eq18 (u50 m) c 1)).trans (U51_of m c (Pipeline.arrRef spec18 1) (by decide)).symm
  | ⟨2, _⟩ => (((dat18 (u50 m) c).arrAt_in 2 rfl _).trans (A_eq18 (u50 m) c 2)).trans (U51_of m c (Pipeline.arrRef spec18 2) (by decide)).symm
  | ⟨3, _⟩ => (U51_outR m c).symm
  | ⟨_ + 4, h⟩ => absurd h (Nat.not_lt.2 (Nat.le_add_left _ _))
theorem hrest18 (c : Dev nD) : ∀ b, b ∉ Finset.univ.image (Pipeline.arrRef spec18) → U51 m c b = U50 m c b :=
  fun b hb => U51_of m c b (fun hm => hb (by rw [List.mem_singleton.mp hm]; exact Finset.mem_image.mpr ⟨3, Finset.mem_univ _, rfl⟩))
/-- Region 19's arrays after the region hold what its pipeline leaves. -/
theorem X52_arr (c : Dev nD) (w : Fin cfg19.W) :
    X52 m c (Proc.devRef .tc (Pipeline.arrRef spec19 w)) = (dat19 (u51 m) c).arrAt w cfg19.N := by
  unfold X52; exact Pipeline.withArrays_arr spec19 launch19.win.arr_inj c _ _ w
set_option backward.isDefEq.respectTransparency.types false in
/-- Region 19 leaves in its output array what its write-backs fold to. -/
theorem U52_out (c : Dev nD) : U52 m c main_v121 = (dat19 (u51 m) c).arrAt 5 cfg19.N := by
  show Function.update (U51 m c) main_v121 (X52 m c main_v121) main_v121 = _
  rw [Function.update_self]; exact X52_arr m c 5
theorem U52_outR (c : Dev nD) : U52 m c (Pipeline.arrRef spec19 5) = (dat19 (u51 m) c).arrAt 5 cfg19.N := by
  show Function.update (U51 m c) main_v121 (X52 m c main_v121) main_v121 = _
  rw [Function.update_self]; exact X52_arr m c 5
/-- … and every other buffer as it was. -/
theorem U52_of (c : Dev nD) (r : Ref sig .tc) (h : r ∉ ([main_v121] : List (Ref sig .tc))) : U52 m c r = U51 m c r := by
  simp only [Function.update_of_ne (StableHlo.devRef_ne_of_ne (List.ne_of_not_mem_cons h) : (Proc.devRef .tc r : DevRef τ sig) ≠ Proc.devRef .tc main_v121)]
set_option maxHeartbeats 4000000 in
set_option backward.isDefEq.respectTransparency.types false in
theorem hF19 (c : Dev nD) (w : Fin cfg19.W) : (dat19 (u51 m) c).arrAt w cfg19.N = U52 m c (Pipeline.arrRef spec19 w) :=
  match w with
  | ⟨0, _⟩ => (((dat19 (u51 m) c).arrAt_in 0 rfl _).trans (A_eq19 (u51 m) c 0)).trans (U52_of m c (Pipeline.arrRef spec19 0) (by decide)).symm
  | ⟨1, _⟩ => (((dat19 (u51 m) c).arrAt_in 1 rfl _).trans (A_eq19 (u51 m) c 1)).trans (U52_of m c (Pipeline.arrRef spec19 1) (by decide)).symm
  | ⟨2, _⟩ => (((dat19 (u51 m) c).arrAt_in 2 rfl _).trans (A_eq19 (u51 m) c 2)).trans (U52_of m c (Pipeline.arrRef spec19 2) (by decide)).symm
  | ⟨3, _⟩ => (((dat19 (u51 m) c).arrAt_in 3 rfl _).trans (A_eq19 (u51 m) c 3)).trans (U52_of m c (Pipeline.arrRef spec19 3) (by decide)).symm
  | ⟨4, _⟩ => (((dat19 (u51 m) c).arrAt_in 4 rfl _).trans (A_eq19 (u51 m) c 4)).trans (U52_of m c (Pipeline.arrRef spec19 4) (by decide)).symm
  | ⟨5, _⟩ => (U52_outR m c).symm
  | ⟨_ + 6, h⟩ => absurd h (Nat.not_lt.2 (Nat.le_add_left _ _))
theorem hrest19 (c : Dev nD) : ∀ b, b ∉ Finset.univ.image (Pipeline.arrRef spec19) → U52 m c b = U51 m c b :=
  fun b hb => U52_of m c b (fun hm => hb (by rw [List.mem_singleton.mp hm]; exact Finset.mem_image.mpr ⟨5, Finset.mem_univ _, rfl⟩))

/-! ## The proof data family and the thread state -/

/-- Every pipeline's proof data, each at its region's entry contents: a literal match, so that the configuration at a numeral reduces to the printed one. -/
def pdats : (p : Fin 20) → (c : Dev nD) → Dat τ (Elt F) Unit ℕ (UR sig nD τ) ℕ (cfgs p) c
  | ⟨0, _⟩ => fun c => dat0 (u1 m) c
  | ⟨1, _⟩ => fun c => dat1 (u3 m) c
  | ⟨2, _⟩ => fun c => dat2 (u5 m) c
  | ⟨3, _⟩ => fun c => dat3 (u7 m) c
  | ⟨4, _⟩ => fun c => dat4 (u9 m) c
  | ⟨5, _⟩ => fun c => dat5 (u10 m) c
  | ⟨6, _⟩ => fun c => dat6 (u12 m) c
  | ⟨7, _⟩ => fun c => dat7 (u14 m) c
  | ⟨8, _⟩ => fun c => dat8 (u16 m) c
  | ⟨9, _⟩ => fun c => dat9 (u17 m) c
  | ⟨10, _⟩ => fun c => dat10 (u35 m) c
  | ⟨11, _⟩ => fun c => dat11 (u37 m) c
  | ⟨12, _⟩ => fun c => dat12 (u39 m) c
  | ⟨13, _⟩ => fun c => dat13 (u41 m) c
  | ⟨14, _⟩ => fun c => dat14 (u43 m) c
  | ⟨15, _⟩ => fun c => dat15 (u44 m) c
  | ⟨16, _⟩ => fun c => dat16 (u46 m) c
  | ⟨17, _⟩ => fun c => dat17 (u48 m) c
  | ⟨18, _⟩ => fun c => dat18 (u50 m) c
  | ⟨19, _⟩ => fun c => dat19 (u51 m) c
  | ⟨_ + 20, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 21 → Dev nD → sProp 𝕄 := fun _ c => R c

/-! ## The regions as segments -/

set_option backward.isDefEq.respectTransparency.types false in
/-- Region 0 over the thread state: entered from every unscoped buffer at U1, left at U2. Its arrays are split out of the unscoped buffers and put
    back at the exit contents; the generator register and the scoped buffers no window stages go into the pipeline's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (u1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (u1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (u1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (u1 m) c).Φ 0 from rfl]
    iintro ⟨Hp, -, Hr⟩
    iapply (phi_in0 (u1 m) c)
    isplitl [Hp]; · iexact Hp
    iexact Hr
  hout c := by
    rw [Pipeline.ownSems0_none, show (pdats m 0 c).Φ (Fin.last _) = (dat0 (u1 m) c).Φ (Fin.last cfg0.N) from rfl]
    iintro H
    ihave H' := (phi_out0 (u1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (u1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V1 m c) ∗ E (F := F) 0 c) ⊢ (reg0 m).pre c := by
  rw [V_eq1]; exact .rfl
theorem hpost0 (c : Dev nD) : (reg0 m).post c ⊢ iprop(StableHlo.held (c : Thread nD τ) (Pipeline.ucRefs τ sig) (V2 m (outs m) c) ∗ E (F := F) 1 c) := by
  rw [V_eq2]; exact .rfl

set_option backward.isDefEq.respectTransparency.types false in
/-- Region 1 over the thread state: entered from every unscoped buffer at U3, left at U4. Its arrays are split out of the unscoped buffers and put
    back at the exit contents; the generator register and the scoped buffers no window stages go into the pipeline's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (u3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (u3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (u3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (u3 m) c).Φ 0 from rfl]
    iintro ⟨Hp, -, Hr⟩
    iapply (phi_in1 (u3 m) c)
    isplitl [Hp]; · iexact Hp
    iexact Hr
  hout c := by
    rw [Pipeline.ownSems0_none, show (pdats m 1 c).Φ (Fin.last _) = (dat1 (u3 m) c).Φ (Fin.last cfg1.N) from rfl]
    iintro H
    ihave H' := (phi_out1 (u3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (u3 m c) (fun b => U4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V3 m (outs m) c) ∗ E (F := F) 1 c) ⊢ (reg1 m).pre c := by
  rw [V_eq3]; exact .rfl
theorem hpost1 (c : Dev nD) : (reg1 m).post c ⊢ iprop(StableHlo.held (c : Thread nD τ) (Pipeline.ucRefs τ sig) (V4 m (outs m) c) ∗ E (F := F) 2 c) := by
  rw [V_eq4]; exact .rfl

set_option backward.isDefEq.respectTransparency.types false in
/-- Region 2 over the thread state: entered from every unscoped buffer at U5, left at U6. Its arrays are split out of the unscoped buffers and put
    back at the exit contents; the generator register and the scoped buffers no window stages go into the pipeline's invariant and come back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (u5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (u5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (u5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (u5 m) c).Φ 0 from rfl]
    iintro ⟨Hp, -, Hr⟩
    iapply (phi_in2 (u5 m) c)
    isplitl [Hp]; · iexact Hp
    iexact Hr
  hout c := by
    rw [Pipeline.ownSems0_none, show (pdats m 2 c).Φ (Fin.last _) = (dat2 (u5 m) c).Φ (Fin.last cfg2.N) from rfl]
    iintro H
    ihave H' := (phi_out2 (u5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (u5 m c) (fun b => U6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V5 m (outs m) c) ∗ E (F := F) 2 c) ⊢ (reg2 m).pre c := by
  rw [V_eq5]; exact .rfl
theorem hpost2 (c : Dev nD) : (reg2 m).post c ⊢ iprop(StableHlo.held (c : Thread nD τ) (Pipeline.ucRefs τ sig) (V6 m (outs m) c) ∗ E (F := F) 3 c) := by
  rw [V_eq6]; exact .rfl

set_option backward.isDefEq.respectTransparency.types false in
/-- Region 3 over the thread state: entered from every unscoped buffer at U7, left at U8. Its arrays are split out of the unscoped buffers and put
    back at the exit contents; the generator register and the scoped buffers no window stages go into the pipeline's invariant and come back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (u7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (u7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (u7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (u7 m) c).Φ 0 from rfl]
    iintro ⟨Hp, -, Hr⟩
    iapply (phi_in3 (u7 m) c)
    isplitl [Hp]; · iexact Hp
    iexact Hr
  hout c := by
    rw [Pipeline.ownSems0_none, show (pdats m 3 c).Φ (Fin.last _) = (dat3 (u7 m) c).Φ (Fin.last cfg3.N) from rfl]
    iintro H
    ihave H' := (phi_out3 (u7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (u7 m c) (fun b => U8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V7 m (outs m) c) ∗ E (F := F) 3 c) ⊢ (reg3 m).pre c := by
  rw [V_eq7]; exact .rfl
theorem hpost3 (c : Dev nD) : (reg3 m).post c ⊢ iprop(StableHlo.held (c : Thread nD τ) (Pipeline.ucRefs τ sig) (V8 m (outs m) c) ∗ E (F := F) 4 c) := by
  rw [V_eq8]; exact .rfl

set_option backward.isDefEq.respectTransparency.types false in
/-- Region 4 over the thread state: entered from every unscoped buffer at U9, left at U10. Its arrays are split out of the unscoped buffers and put
    back at the exit contents; the generator register and the scoped buffers no window stages go into the pipeline's invariant and come back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (u9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (u9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (u9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (u9 m) c).Φ 0 from rfl]
    iintro ⟨Hp, -, Hr⟩
    iapply (phi_in4 (u9 m) c)
    isplitl [Hp]; · iexact Hp
    iexact Hr
  hout c := by
    rw [Pipeline.ownSems0_none, show (pdats m 4 c).Φ (Fin.last _) = (dat4 (u9 m) c).Φ (Fin.last cfg4.N) from rfl]
    iintro H
    ihave H' := (phi_out4 (u9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (u9 m c) (fun b => U10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V9 m (outs m) c) ∗ E (F := F) 4 c) ⊢ (reg4 m).pre c := by
  rw [V_eq9]; exact .rfl
theorem hpost4 (c : Dev nD) : (reg4 m).post c ⊢ iprop(StableHlo.held (c : Thread nD τ) (Pipeline.ucRefs τ sig) (V10 m (outs m) c) ∗ E (F := F) 5 c) := by
  rw [V_eq10]; exact .rfl

set_option backward.isDefEq.respectTransparency.types false in
/-- Region 5 over the thread state: entered from every unscoped buffer at U10, left at U11. Its arrays are split out of the unscoped buffers and put
    back at the exit contents; the generator register and the scoped buffers no window stages go into the pipeline's invariant and come back; nothing is owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (u10 m) c).loose
  hwaits := Pipeline.hwaits_of_owed_zero _ _ _ _ L lv 5 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec5 c (u10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (u10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (u10 m) c).Φ 0 from rfl]
    iintro ⟨Hp, -, Hr⟩
    iapply (phi_in5 (u10 m) c)
    isplitl [Hp]; · iexact Hp
    iexact Hr
  hout c := by
    rw [Pipeline.ownSems0_none, show (pdats m 5 c).Φ (Fin.last _) = (dat5 (u10 m) c).Φ (Fin.last cfg5.N) from rfl]
    iintro H
    ihave H' := (phi_out5 (u10 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (u10 m c) (fun b => U11 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V10 m (outs m) c) ∗ E (F := F) 5 c) ⊢ (reg5 m).pre c := by
  rw [V_eq10]; exact .rfl
theorem hpost5 (c : Dev nD) : (reg5 m).post c ⊢ iprop(StableHlo.held (c : Thread nD τ) (Pipeline.ucRefs τ sig) (V11 m (outs m) c) ∗ E (F := F) 6 c) := by
  rw [V_eq11]; exact .rfl

set_option backward.isDefEq.respectTransparency.types false in
/-- Region 6 over the thread state: entered from every unscoped buffer at U12, left at U13. Its arrays are split out of the unscoped buffers and put
    back at the exit contents; the generator register and the scoped buffers no window stages go into the pipeline's invariant and come back; nothing is owed. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (u12 m) c).loose
  hwaits := Pipeline.hwaits_of_owed_zero _ _ _ _ L lv 6 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec6 c (u12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (u12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (u12 m) c).Φ 0 from rfl]
    iintro ⟨Hp, -, Hr⟩
    iapply (phi_in6 (u12 m) c)
    isplitl [Hp]; · iexact Hp
    iexact Hr
  hout c := by
    rw [Pipeline.ownSems0_none, show (pdats m 6 c).Φ (Fin.last _) = (dat6 (u12 m) c).Φ (Fin.last cfg6.N) from rfl]
    iintro H
    ihave H' := (phi_out6 (u12 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (u12 m c) (fun b => U13 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre6 (c : Dev nD) : iprop(StableHlo.held (c : Thread nD τ) (Pipeline.ucRefs τ sig) (V12 m (outs m) c) ∗ E (F := F) 6 c) ⊢ (reg6 m).pre c := by
  rw [V_eq12]; exact .rfl
theorem hpost6 (c : Dev nD) : (reg6 m).post c ⊢ iprop(StableHlo.held (c : Thread nD τ) (Pipeline.ucRefs τ sig) (V13 m (outs m) c) ∗ E (F := F) 7 c) := by
  rw [V_eq13]; exact .rfl

set_option backward.isDefEq.respectTransparency.types false in
/-- Region 7 over the thread state: entered from every unscoped buffer at U14, left at U15. Its arrays are split out of the unscoped buffers and put
    back at the exit contents; the generator register and the scoped buffers no window stages go into the pipeline's invariant and come back; nothing is owed. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (u14 m) c).loose
  hwaits := Pipeline.hwaits_of_owed_zero _ _ _ _ L lv 7 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec7 c (u14 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (u14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (u14 m) c).Φ 0 from rfl]
    iintro ⟨Hp, -, Hr⟩
    iapply (phi_in7 (u14 m) c)
    isplitl [Hp]; · iexact Hp
    iexact Hr
  hout c := by
    rw [Pipeline.ownSems0_none, show (pdats m 7 c).Φ (Fin.last _) = (dat7 (u14 m) c).Φ (Fin.last cfg7.N) from rfl]
    iintro H
    ihave H' := (phi_out7 (u14 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (u14 m c) (fun b => U15 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre7 (c : Dev nD) : iprop(StableHlo.held (c : Thread nD τ) (Pipeline.ucRefs τ sig) (V14 m (outs m) c) ∗ E (F := F) 7 c) ⊢ (reg7 m).pre c := by
  rw [V_eq14]; exact .rfl
theorem hpost7 (c : Dev nD) : (reg7 m).post c ⊢ iprop(StableHlo.held (c : Thread nD τ) (Pipeline.ucRefs τ sig) (V15 m (outs m) c) ∗ E (F := F) 8 c) := by
  rw [V_eq15]; exact .rfl

set_option backward.isDefEq.respectTransparency.types false in
/-- Region 8 over the thread state: entered from every unscoped buffer at U16, left at U17. Its arrays are split out of the unscoped buffers and put
    back at the exit contents; the generator register and the scoped buffers no window stages go into the pipeline's invariant and come back; nothing is owed. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (u16 m) c).loose
  hwaits := Pipeline.hwaits_of_owed_zero _ _ _ _ L lv 8 fun _ _ => rfl
  pre c := iprop(StableHlo.held (c : Thread nD τ) (Pipeline.ucRefs τ sig) (U16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec8 c (u16 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (u16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (u16 m) c).Φ 0 from rfl]
    iintro ⟨Hp, -, Hr⟩
    iapply (phi_in8 (u16 m) c)
    isplitl [Hp]; · iexact Hp
    iexact Hr
  hout c := by
    rw [Pipeline.ownSems0_none, show (pdats m 8 c).Φ (Fin.last _) = (dat8 (u16 m) c).Φ (Fin.last cfg8.N) from rfl]
    iintro H
    ihave H' := (phi_out8 (u16 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (u16 m c) (fun b => U17 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre8 (c : Dev nD) : iprop(StableHlo.held (c : Thread nD τ) (Pipeline.ucRefs τ sig) (V16 m (outs m) c) ∗ E (F := F) 8 c) ⊢ (reg8 m).pre c := by
  rw [V_eq16]; exact .rfl
theorem hpost8 (c : Dev nD) : (reg8 m).post c ⊢ iprop(StableHlo.held (c : Thread nD τ) (Pipeline.ucRefs τ sig) (V17 m (outs m) c) ∗ E (F := F) 9 c) := by
  rw [V_eq17]; exact .rfl

set_option backward.isDefEq.respectTransparency.types false in
/-- Region 9 over the thread state: entered from every unscoped buffer at U17, left at U18. Its arrays are split out of the unscoped buffers and put
    back at the exit contents; the generator register and the scoped buffers no window stages go into the pipeline's invariant and come back; nothing is owed. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (u17 m) c).loose
  hwaits := Pipeline.hwaits_of_owed_zero _ _ _ _ L lv 9 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec9 c (u17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (u17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (u17 m) c).Φ 0 from rfl]
    iintro ⟨Hp, -, Hr⟩
    iapply (phi_in9 (u17 m) c)
    isplitl [Hp]; · iexact Hp
    iexact Hr
  hout c := by
    rw [Pipeline.ownSems0_none, show (pdats m 9 c).Φ (Fin.last _) = (dat9 (u17 m) c).Φ (Fin.last cfg9.N) from rfl]
    iintro H
    ihave H' := (phi_out9 (u17 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (u17 m c) (fun b => U18 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre9 (c : Dev nD) : iprop(StableHlo.held (c : Thread nD τ) (Pipeline.ucRefs τ sig) (V17 m (outs m) c) ∗ E (F := F) 9 c) ⊢ (reg9 m).pre c := by
  rw [V_eq17]; exact .rfl
theorem hpost9 (c : Dev nD) : (reg9 m).post c ⊢ iprop(StableHlo.held (c : Thread nD τ) (Pipeline.ucRefs τ sig) (V18 m (outs m) c) ∗ E (F := F) 10 c) := by
  rw [V_eq18]; exact .rfl

set_option backward.isDefEq.respectTransparency.types false in
/-- Region 10 over the thread state: entered from every unscoped buffer at U35, left at U36. Its arrays are split out of the unscoped buffers and put
    back at the exit contents; the generator register and the scoped buffers no window stages go into the pipeline's invariant and come back; nothing is owed. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (u35 m) c).loose
  hwaits := Pipeline.hwaits_of_owed_zero _ _ _ _ L lv 10 fun _ _ => rfl
  pre c := iprop(StableHlo.held (c : Thread nD τ) (Pipeline.ucRefs τ sig) (U35 m c) ∗ R c)
  post c := iprop(StableHlo.held (c : Thread nD τ) (Pipeline.ucRefs τ sig) (U36 m c) ∗ R c)
  X c := iprop(∃ r, prngReg c r)
  Y c := iprop(∃ r, prngReg c r)
  Z c := Pipeline.unscopedRest (Ix := Unit) (Name := ℕ) (U := UR sig nD τ) (Lvl := ℕ) spec10 c (u35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (u35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (u35 m) c).Φ 0 from rfl]
    iintro ⟨Hp, -, Hr⟩
    iapply (phi_in10 (u35 m) c)
    isplitl [Hp]; · iexact Hp
    iexact Hr
  hout c := by
    rw [Pipeline.ownSems0_none, show (pdats m 10 c).Φ (Fin.last _) = (dat10 (u35 m) c).Φ (Fin.last cfg10.N) from rfl]
    iintro H
    ihave H' := (phi_out10 (u35 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (u35 m c) (fun b => U36 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre10 (c : Dev nD) : iprop(StableHlo.held (c : Thread nD τ) (Pipeline.ucRefs τ sig) (V35 m (outs m) c) ∗ E (F := F) 10 c) ⊢ (reg10 m).pre c := by
  rw [V_eq35]; exact .rfl
theorem hpost10 (c : Dev nD) : (reg10 m).post c ⊢ iprop(StableHlo.held (c : Thread nD τ) (Pipeline.ucRefs τ sig) (V36 m (outs m) c) ∗ E (F := F) 11 c) := by
  rw [V_eq36]; exact .rfl

set_option backward.isDefEq.respectTransparency.types false in
/-- Region 11 over the thread state: entered from every unscoped buffer at U37, left at U38. Its arrays are split out of the unscoped buffers and put
    back at the exit contents; the generator register and the scoped buffers no window stages go into the pipeline's invariant and come back; nothing is owed. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (u37 m) c).loose
  hwaits := Pipeline.hwaits_of_owed_zero _ _ _ _ L lv 11 fun _ _ => rfl
  pre c := iprop(StableHlo.held (c : Thread nD τ) (Pipeline.ucRefs τ sig) (U37 m c) ∗ R c)
  post c := iprop(StableHlo.held (c : Thread nD τ) (Pipeline.ucRefs τ sig) (U38 m c) ∗ R c)
  X c := iprop(∃ r, prngReg c r)
  Y c := iprop(∃ r, prngReg c r)
  Z c := Pipeline.unscopedRest (Ix := Unit) (Name := ℕ) (U := UR sig nD τ) (Lvl := ℕ) spec11 c (u37 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (u37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (u37 m) c).Φ 0 from rfl]
    iintro ⟨Hp, -, Hr⟩
    iapply (phi_in11 (u37 m) c)
    isplitl [Hp]; · iexact Hp
    iexact Hr
  hout c := by
    rw [Pipeline.ownSems0_none, show (pdats m 11 c).Φ (Fin.last _) = (dat11 (u37 m) c).Φ (Fin.last cfg11.N) from rfl]
    iintro H
    ihave H' := (phi_out11 (u37 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (u37 m c) (fun b => U38 m c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre11 (c : Dev nD) : iprop(StableHlo.held (c : Thread nD τ) (Pipeline.ucRefs τ sig) (V37 m (outs m) c) ∗ E (F := F) 11 c) ⊢ (reg11 m).pre c := by
  rw [V_eq37]; exact .rfl
theorem hpost11 (c : Dev nD) : (reg11 m).post c ⊢ iprop(StableHlo.held (c : Thread nD τ) (Pipeline.ucRefs τ sig) (V38 m (outs m) c) ∗ E (F := F) 12 c) := by
  rw [V_eq38]; exact .rfl

set_option backward.isDefEq.respectTransparency.types false in
/-- Region 12 over the thread state: entered from every unscoped buffer at U39, left at U40. Its arrays are split out of the unscoped buffers and put
    back at the exit contents; the generator register and the scoped buffers no window stages go into the pipeline's invariant and come back; nothing is owed. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (u39 m) c).loose
  hwaits := Pipeline.hwaits_of_owed_zero _ _ _ _ L lv 12 fun _ _ => rfl
  pre c := iprop(StableHlo.held (c : Thread nD τ) (Pipeline.ucRefs τ sig) (U39 m c) ∗ R c)
  post c := iprop(StableHlo.held (c : Thread nD τ) (Pipeline.ucRefs τ sig) (U40 m c) ∗ R c)
  X c := iprop(∃ r, prngReg c r)
  Y c := iprop(∃ r, prngReg c r)
  Z c := Pipeline.unscopedRest (Ix := Unit) (Name := ℕ) (U := UR sig nD τ) (Lvl := ℕ) spec12 c (u39 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (u39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (u39 m) c).Φ 0 from rfl]
    iintro ⟨Hp, -, Hr⟩
    iapply (phi_in12 (u39 m) c)
    isplitl [Hp]; · iexact Hp
    iexact Hr
  hout c := by
    rw [Pipeline.ownSems0_none, show (pdats m 12 c).Φ (Fin.last _) = (dat12 (u39 m) c).Φ (Fin.last cfg12.N) from rfl]
    iintro H
    ihave H' := (phi_out12 (u39 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (u39 m c) (fun b => U40 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre12 (c : Dev nD) : iprop(StableHlo.held (c : Thread nD τ) (Pipeline.ucRefs τ sig) (V39 m (outs m) c) ∗ E (F := F) 12 c) ⊢ (reg12 m).pre c := by
  rw [V_eq39]; exact .rfl
theorem hpost12 (c : Dev nD) : (reg12 m).post c ⊢ iprop(StableHlo.held (c : Thread nD τ) (Pipeline.ucRefs τ sig) (V40 m (outs m) c) ∗ E (F := F) 13 c) := by
  rw [V_eq40]; exact .rfl

set_option backward.isDefEq.respectTransparency.types false in
/-- Region 13 over the thread state: entered from every unscoped buffer at U41, left at U42. Its arrays are split out of the unscoped buffers and put
    back at the exit contents; the generator register and the scoped buffers no window stages go into the pipeline's invariant and come back; nothing is owed. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (u41 m) c).loose
  hwaits := Pipeline.hwaits_of_owed_zero _ _ _ _ L lv 13 fun _ _ => rfl
  pre c := iprop(StableHlo.held (c : Thread nD τ) (Pipeline.ucRefs τ sig) (U41 m c) ∗ R c)
  post c := iprop(StableHlo.held (c : Thread nD τ) (Pipeline.ucRefs τ sig) (U42 m c) ∗ R c)
  X c := iprop(∃ r, prngReg c r)
  Y c := iprop(∃ r, prngReg c r)
  Z c := Pipeline.unscopedRest (Ix := Unit) (Name := ℕ) (U := UR sig nD τ) (Lvl := ℕ) spec13 c (u41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (u41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (u41 m) c).Φ 0 from rfl]
    iintro ⟨Hp, -, Hr⟩
    iapply (phi_in13 (u41 m) c)
    isplitl [Hp]; · iexact Hp
    iexact Hr
  hout c := by
    rw [Pipeline.ownSems0_none, show (pdats m 13 c).Φ (Fin.last _) = (dat13 (u41 m) c).Φ (Fin.last cfg13.N) from rfl]
    iintro H
    ihave H' := (phi_out13 (u41 m) c) $$ H
    icases H' with ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (u41 m c) (fun b => U42 m c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre13 (c : Dev nD) : iprop(StableHlo.held (c : Thread nD τ) (Pipeline.ucRefs τ sig) (V41 m (outs m) c) ∗ E (F := F) 13 c) ⊢ (reg13 m).pre c := by
  rw [V_eq41]; exact .rfl
theorem hpost13 (c : Dev nD) : (reg13 m).post c ⊢ iprop(StableHlo.held (c : Thread nD τ) (Pipeline.ucRefs τ sig) (V42 m (outs m) c) ∗ E (F := F) 14 c) := by
  rw [V_eq42]; exact .rfl

set_option backward.isDefEq.respectTransparency.types false in
/-- Region 14 over the thread state: entered from every unscoped buffer at U43, left at U44. Its arrays are split out of the unscoped buffers and put
    back at the exit contents; the generator register and the scoped buffers no window stages go into the pipeline's invariant and come back; nothing is owed. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (u43 m) c).loose
  hwaits := Pipeline.hwaits_of_owed_zero _ _ _ _ L lv 14 fun _ _ => rfl
  pre c := iprop(StableHlo.held (c : Thread nD τ) (Pipeline.ucRefs τ sig) (U43 m c) ∗ R c)
  post c := iprop(StableHlo.held (c : Thread nD τ) (Pipeline.ucRefs τ sig) (U44 m c) ∗ R c)
  X c := iprop(∃ r, prngReg c r)
  Y c := iprop(∃ r, prngReg c r)
  Z c := Pipeline.unscopedRest (Ix := Unit) (Name := ℕ) (U := UR sig nD τ) (Lvl := ℕ) spec14 c (u43 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (u43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = (dat14 (u43 m) c).Φ 0 from rfl]
    iintro ⟨Hp, -, Hr⟩
    iapply (phi_in14 (u43 m) c)
    isplitl [Hp]; · iexact Hp
    iexact Hr
  hout c := by
    rw [Pipeline.ownSems0_none, show (pdats m 14 c).Φ (Fin.last _) = (dat14 (u43 m) c).Φ (Fin.last cfg14.N) from rfl]
    iintro H
    ihave H' := (phi_out14 (u43 m) c) $$ H
    icases H' with ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (u43 m c) (fun b => U44 m c b) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre14 (c : Dev nD) : iprop(StableHlo.held (c : Thread nD τ) (Pipeline.ucRefs τ sig) (V43 m (outs m) c) ∗ E (F := F) 14 c) ⊢ (reg14 m).pre c := by
  rw [V_eq43]; exact .rfl
theorem hpost14 (c : Dev nD) : (reg14 m).post c ⊢ iprop(StableHlo.held (c : Thread nD τ) (Pipeline.ucRefs τ sig) (V44 m (outs m) c) ∗ E (F := F) 15 c) := by
  rw [V_eq44]; exact .rfl

set_option backward.isDefEq.respectTransparency.types false in
/-- Region 15 over the thread state: entered from every unscoped buffer at U44, left at U45. Its arrays are split out of the unscoped buffers and put
    back at the exit contents; the generator register and the scoped buffers no window stages go into the pipeline's invariant and come back; nothing is owed. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (u44 m) c).loose
  hwaits := Pipeline.hwaits_of_owed_zero _ _ _ _ L lv 15 fun _ _ => rfl
  pre c := iprop(StableHlo.held (c : Thread nD τ) (Pipeline.ucRefs τ sig) (U44 m c) ∗ R c)
  post c := iprop(StableHlo.held (c : Thread nD τ) (Pipeline.ucRefs τ sig) (U45 m c) ∗ R c)
  X c := iprop(∃ r, prngReg c r)
  Y c := iprop(∃ r, prngReg c r)
  Z c := Pipeline.unscopedRest (Ix := Unit) (Name := ℕ) (U := UR sig nD τ) (Lvl := ℕ) spec15 c (u44 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (u44 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = (dat15 (u44 m) c).Φ 0 from rfl]
    iintro ⟨Hp, -, Hr⟩
    iapply (phi_in15 (u44 m) c)
    isplitl [Hp]; · iexact Hp
    iexact Hr
  hout c := by
    rw [Pipeline.ownSems0_none, show (pdats m 15 c).Φ (Fin.last _) = (dat15 (u44 m) c).Φ (Fin.last cfg15.N) from rfl]
    iintro H
    ihave H' := (phi_out15 (u44 m) c) $$ H
    icases H' with ⟨Hp, Hr⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (u44 m c) (fun b => U45 m c b) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre15 (c : Dev nD) : iprop(StableHlo.held (c : Thread nD τ) (Pipeline.ucRefs τ sig) (V44 m (outs m) c) ∗ E (F := F) 15 c) ⊢ (reg15 m).pre c := by
  rw [V_eq44]; exact .rfl
theorem hpost15 (c : Dev nD) : (reg15 m).post c ⊢ iprop(StableHlo.held (c : Thread nD τ) (Pipeline.ucRefs τ sig) (V45 m (outs m) c) ∗ E (F := F) 16 c) := by
  rw [V_eq45]; exact .rfl

set_option backward.isDefEq.respectTransparency.types false in
/-- Region 16 over the thread state: entered from every unscoped buffer at U46, left at U47. Its arrays are split out of the unscoped buffers and put
    back at the exit contents; the generator register and the scoped buffers no window stages go into the pipeline's invariant and come back; nothing is owed. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (u46 m) c).loose
  hwaits := Pipeline.hwaits_of_owed_zero _ _ _ _ L lv 16 fun _ _ => rfl
  pre c := iprop(StableHlo.held (c : Thread nD τ) (Pipeline.ucRefs τ sig) (U46 m c) ∗ R c)
  post c := iprop(StableHlo.held (c : Thread nD τ) (Pipeline.ucRefs τ sig) (U47 m c) ∗ R c)
  X c := iprop(∃ r, prngReg c r)
  Y c := iprop(∃ r, prngReg c r)
  Z c := Pipeline.unscopedRest (Ix := Unit) (Name := ℕ) (U := UR sig nD τ) (Lvl := ℕ) spec16 c (u46 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (u46 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = (dat16 (u46 m) c).Φ 0 from rfl]
    iintro ⟨Hp, -, Hr⟩
    iapply (phi_in16 (u46 m) c)
    isplitl [Hp]; · iexact Hp
    iexact Hr
  hout c := by
    rw [Pipeline.ownSems0_none, show (pdats m 16 c).Φ (Fin.last _) = (dat16 (u46 m) c).Φ (Fin.last cfg16.N) from rfl]
    iintro H
    ihave H' := (phi_out16 (u46 m) c) $$ H
    icases H' with ⟨Hp, Hr⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (u46 m c) (fun b => U47 m c b) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre16 (c : Dev nD) : iprop(StableHlo.held (c : Thread nD τ) (Pipeline.ucRefs τ sig) (V46 m (outs m) c) ∗ E (F := F) 16 c) ⊢ (reg16 m).pre c := by
  rw [V_eq46]; exact .rfl
theorem hpost16 (c : Dev nD) : (reg16 m).post c ⊢ iprop(StableHlo.held (c : Thread nD τ) (Pipeline.ucRefs τ sig) (V47 m (outs m) c) ∗ E (F := F) 17 c) := by
  rw [V_eq47]; exact .rfl

set_option backward.isDefEq.respectTransparency.types false in
/-- Region 17 over the thread state: entered from every unscoped buffer at U48, left at U49. Its arrays are split out of the unscoped buffers and put
    back at the exit contents; the generator register and the scoped buffers no window stages go into the pipeline's invariant and come back; nothing is owed. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (u48 m) c).loose
  hwaits := Pipeline.hwaits_of_owed_zero _ _ _ _ L lv 17 fun _ _ => rfl
  pre c := iprop(StableHlo.held (c : Thread nD τ) (Pipeline.ucRefs τ sig) (U48 m c) ∗ R c)
  post c := iprop(StableHlo.held (c : Thread nD τ) (Pipeline.ucRefs τ sig) (U49 m c) ∗ R c)
  X c := iprop(∃ r, prngReg c r)
  Y c := iprop(∃ r, prngReg c r)
  Z c := Pipeline.unscopedRest (Ix := Unit) (Name := ℕ) (U := UR sig nD τ) (Lvl := ℕ) spec17 c (u48 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (u48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = (dat17 (u48 m) c).Φ 0 from rfl]
    iintro ⟨Hp, -, Hr⟩
    iapply (phi_in17 (u48 m) c)
    isplitl [Hp]; · iexact Hp
    iexact Hr
  hout c := by
    rw [Pipeline.ownSems0_none, show (pdats m 17 c).Φ (Fin.last _) = (dat17 (u48 m) c).Φ (Fin.last cfg17.N) from rfl]
    iintro H
    ihave H' := (phi_out17 (u48 m) c) $$ H
    icases H' with ⟨Hp, Hr⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (u48 m c) (fun b => U49 m c b) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre17 (c : Dev nD) : iprop(StableHlo.held (c : Thread nD τ) (Pipeline.ucRefs τ sig) (V48 m (outs m) c) ∗ E (F := F) 17 c) ⊢ (reg17 m).pre c := by
  rw [V_eq48]; exact .rfl
theorem hpost17 (c : Dev nD) : (reg17 m).post c ⊢ iprop(StableHlo.held (c : Thread nD τ) (Pipeline.ucRefs τ sig) (V49 m (outs m) c) ∗ E (F := F) 18 c) := by
  rw [V_eq49]; exact .rfl

set_option backward.isDefEq.respectTransparency.types false in
/-- Region 18 over the thread state: entered from every unscoped buffer at U50, left at U51. Its arrays are split out of the unscoped buffers and put
    back at the exit contents; the generator register and the scoped buffers no window stages go into the pipeline's invariant and come back; nothing is owed. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (u50 m) c).loose
  hwaits := Pipeline.hwaits_of_owed_zero _ _ _ _ L lv 18 fun _ _ => rfl
  pre c := iprop(StableHlo.held (c : Thread nD τ) (Pipeline.ucRefs τ sig) (U50 m c) ∗ R c)
  post c := iprop(StableHlo.held (c : Thread nD τ) (Pipeline.ucRefs τ sig) (U51 m c) ∗ R c)
  X c := iprop(∃ r, prngReg c r)
  Y c := iprop(∃ r, prngReg c r)
  Z c := Pipeline.unscopedRest (Ix := Unit) (Name := ℕ) (U := UR sig nD τ) (Lvl := ℕ) spec18 c (u50 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (u50 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = (dat18 (u50 m) c).Φ 0 from rfl]
    iintro ⟨Hp, -, Hr⟩
    iapply (phi_in18 (u50 m) c)
    isplitl [Hp]; · iexact Hp
    iexact Hr
  hout c := by
    rw [Pipeline.ownSems0_none, show (pdats m 18 c).Φ (Fin.last _) = (dat18 (u50 m) c).Φ (Fin.last cfg18.N) from rfl]
    iintro H
    ihave H' := (phi_out18 (u50 m) c) $$ H
    icases H' with ⟨Hp, Hr⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (u50 m c) (fun b => U51 m c b) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre18 (c : Dev nD) : iprop(StableHlo.held (c : Thread nD τ) (Pipeline.ucRefs τ sig) (V50 m (outs m) c) ∗ E (F := F) 18 c) ⊢ (reg18 m).pre c := by
  rw [V_eq50]; exact .rfl
theorem hpost18 (c : Dev nD) : (reg18 m).post c ⊢ iprop(StableHlo.held (c : Thread nD τ) (Pipeline.ucRefs τ sig) (V51 m (outs m) c) ∗ E (F := F) 19 c) := by
  rw [V_eq51]; exact .rfl

set_option backward.isDefEq.respectTransparency.types false in
/-- Region 19 over the thread state: entered from every unscoped buffer at U51, left at U52. Its arrays are split out of the unscoped buffers and put
    back at the exit contents; the generator register and the scoped buffers no window stages go into the pipeline's invariant and come back; nothing is owed. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (u51 m) c).loose
  hwaits := Pipeline.hwaits_of_owed_zero _ _ _ _ L lv 19 fun _ _ => rfl
  pre c := iprop(StableHlo.held (c : Thread nD τ) (Pipeline.ucRefs τ sig) (U51 m c) ∗ R c)
  post c := iprop(StableHlo.held (c : Thread nD τ) (Pipeline.ucRefs τ sig) (U52 m c) ∗ R c)
  X c := iprop(∃ r, prngReg c r)
  Y c := iprop(∃ r, prngReg c r)
  Z c := Pipeline.unscopedRest (Ix := Unit) (Name := ℕ) (U := UR sig nD τ) (Lvl := ℕ) spec19 c (u51 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (u51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = (dat19 (u51 m) c).Φ 0 from rfl]
    iintro ⟨Hp, -, Hr⟩
    iapply (phi_in19 (u51 m) c)
    isplitl [Hp]; · iexact Hp
    iexact Hr
  hout c := by
    rw [Pipeline.ownSems0_none, show (pdats m 19 c).Φ (Fin.last _) = (dat19 (u51 m) c).Φ (Fin.last cfg19.N) from rfl]
    iintro H
    ihave H' := (phi_out19 (u51 m) c) $$ H
    icases H' with ⟨Hp, Hr⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (u51 m c) (fun b => U52 m c b) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre19 (c : Dev nD) : iprop(StableHlo.held (c : Thread nD τ) (Pipeline.ucRefs τ sig) (V51 m (outs m) c) ∗ E (F := F) 19 c) ⊢ (reg19 m).pre c := by
  rw [V_eq51]; exact .rfl
theorem hpost19 (c : Dev nD) : (reg19 m).post c ⊢ iprop(StableHlo.held (c : Thread nD τ) (Pipeline.ucRefs τ sig) (V52 m (outs m) c) ∗ E (F := F) 20 c) := by
  rw [V_eq52]; exact .rfl

/-! ## The launch -/

/-- The launch's ghost state: the staging cells' initial tallies, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
/-- The first rest state, on every core at once: the generator register as launched, nothing owed. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO
theorem hE20 (c : Dev nD) : E (F := F) 20 c ⊢ (iprop(∃ W, owes (c : Thread nD τ) (0 : CellTallies nD τ sig Unit) W) : sProp 𝕄) := by
  iintro ⟨-, H⟩; iexact H

/-! ## The frame -/

/-- The frame claim at any F: from any memory with zero counters every weakly fair execution of @main terminates, nothing faulting, and every
    argument array ends as launched — the conditional frame at the regions' records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ (outs m) (pdats m) 0 (fun _ => (BI.emp : sProp 𝕄)) _ hu₀ E (hE0 ρ) hE20 (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m) (reg10 m) (hpre10 m) (hpost10 m) (reg11 m) (hpre11 m) (hpost11 m) (reg12 m) (hpre12 m) (hpost12 m) (reg13 m) (hpre13 m) (hpost13 m) (reg14 m) (hpre14 m) (hpost14 m) (reg15 m) (hpre15 m) (hpost15 m) (reg16 m) (hpre16 m) (hpost16 m) (reg17 m) (hpre17 m) (hpost17 m) (reg18 m) (hpre18 m) (hpost18 m) (reg19 m) (hpre19 m) (hpost19 m)

end Cert.Kernel.Hand

end
-- ==== Proof.KI.ValueCond.lean ====
/-
  The run of the whole program with every unscoped buffer named at the end. The conditional frame of this program says, of the
  final memory, only that the arguments are unchanged; a value claim needs the results, so the same launch is stated once more with
  the post "every unscoped buffer holds what the last valuation gives it", from which both the arguments and the results are read.
-/
import proofs.«422120_j65652870087589_3_alg».proof.Proof.RegionsKI

set_option maxRecDepth 1908

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run, given the regions' records: under the hypotheses of the conditional frame (any rest states, any contents the regions
    leave, any proof data, one segment record per region chained through the valuations between the items), every weakly fair
    execution of @main from memory `m` with zero counters terminates, and in every final memory EVERY unscoped buffer of every core
    holds what the last valuation gives it. The frame claim reads the arguments off this post; a value claim reads the results. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 20) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 21 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE20 : ∀ c : Dev nD, E 20 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V16 m outs c) ∗ E 8 c) ⊢ R8.pre c)
    (hpost8 : ∀ c : Dev nD, R8.post c ⊢ iprop(StableHlo.held (c : Thread nD τ) (Pipeline.ucRefs τ sig) (V17 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V35 m outs c) ∗ E 10 c) ⊢ R10.pre c)
    (hpost10 : ∀ c : Dev nD, R10.post c ⊢ iprop(StableHlo.held (c : Thread nD τ) (Pipeline.ucRefs τ sig) (V36 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V37 m outs c) ∗ E 11 c) ⊢ R11.pre c)
    (hpost11 : ∀ c : Dev nD, R11.post c ⊢ iprop(StableHlo.held (c : Thread nD τ) (Pipeline.ucRefs τ sig) (V38 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V39 m outs c) ∗ E 12 c) ⊢ R12.pre c)
    (hpost12 : ∀ c : Dev nD, R12.post c ⊢ iprop(StableHlo.held (c : Thread nD τ) (Pipeline.ucRefs τ sig) (V40 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V41 m outs c) ∗ E 13 c) ⊢ R13.pre c)
    (hpost13 : ∀ c : Dev nD, R13.post c ⊢ iprop(StableHlo.held (c : Thread nD τ) (Pipeline.ucRefs τ sig) (V42 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V43 m outs c) ∗ E 14 c) ⊢ R14.pre c)
    (hpost14 : ∀ c : Dev nD, R14.post c ⊢ iprop(StableHlo.held (c : Thread nD τ) (Pipeline.ucRefs τ sig) (V44 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V44 m outs c) ∗ E 15 c) ⊢ R15.pre c)
    (hpost15 : ∀ c : Dev nD, R15.post c ⊢ iprop(StableHlo.held (c : Thread nD τ) (Pipeline.ucRefs τ sig) (V45 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V46 m outs c) ∗ E 16 c) ⊢ R16.pre c)
    (hpost16 : ∀ c : Dev nD, R16.post c ⊢ iprop(StableHlo.held (c : Thread nD τ) (Pipeline.ucRefs τ sig) (V47 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V48 m outs c) ∗ E 17 c) ⊢ R17.pre c)
    (hpost17 : ∀ c : Dev nD, R17.post c ⊢ iprop(StableHlo.held (c : Thread nD τ) (Pipeline.ucRefs τ sig) (V49 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V50 m outs c) ∗ E 18 c) ⊢ R18.pre c)
    (hpost18 : ∀ c : Dev nD, R18.post c ⊢ iprop(StableHlo.held (c : Thread nD τ) (Pipeline.ucRefs τ sig) (V51 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V51 m outs c) ∗ E 19 c) ⊢ R19.pre c)
    (hpost19 : ∀ c : Dev nD, R19.post c ⊢ iprop(StableHlo.held (c : Thread nD τ) (Pipeline.ucRefs τ sig) (V52 m outs c) ∗ E 20 c)) :
    θ_run defs (onTc (τ := τ) (main (F := F))) ⟨m, fun _ => 0, ρ⟩ (fun r => ∀ c : Dev nD,
      ∀ b ∈ Pipeline.ucRefs τ sig, r.2.mem ((c : Thread nD τ).1, b) = V53 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19)
    (fun c Q => by
      rewrite [main_chain c, Seg.run_eq_chain,
        show (segs m outs 𝒱₀ L lv E ι pdats R0 R1 R2 R3 R4 R5 R6 R7 R8 R9 R10 R11 R12 R13 R14 R15 R16 R17 R18 R19 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          StableHlo.seq hostOps10_1,
          StableHlo.seq hostOps10_2,
          StableHlo.seq hostOps10_3,
          StableHlo.seq hostOps10_4,
          StableHlo.seq hostOps10_5,
          StableHlo.seq hostOps10_6,
          StableHlo.seq hostOps10_7,
          StableHlo.seq hostOps10_8,
          StableHlo.seq hostOps10_9,
          StableHlo.seq hostOps10_10,
          StableHlo.seq hostOps10_11,
          StableHlo.seq hostOps10_12,
          StableHlo.seq hostOps10_13,
          StableHlo.seq hostOps10_14,
          StableHlo.seq hostOps10_15,
          StableHlo.seq hostOps10_16,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          Prog.lift (.customCall (Pipeline.entry 19) ()),
          StableHlo.seq hostOps20 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V53 m outs c))
    (hch := fun c => ⟨.rfl, hpre0 c, hpost0 c, hpre1 c, hpost1 c, hpre2 c, hpost2 c, hpre3 c, hpost3 c, hpre4 c, (hpost4 c).trans (hpre5 c), hpost5 c, hpre6 c, hpost6 c, hpre7 c, hpost7 c, hpre8 c, (hpost8 c).trans (hpre9 c), hpost9 c, .rfl, .rfl, .rfl, .rfl, .rfl, .rfl, .rfl, .rfl, .rfl, .rfl, .rfl, .rfl, .rfl, .rfl, .rfl, .rfl, hpre10 c, hpost10 c, hpre11 c, hpost11 c, hpre12 c, hpost12 c, hpre13 c, hpost13 c, hpre14 c, (hpost14 c).trans (hpre15 c), hpost15 c, hpre16 c, hpost16 c, hpre17 c, hpost17 c, hpre18 c, (hpost18 c).trans (hpre19 c), hpost19 c, sep_mono .rfl (hE20 c)⟩)
    (hinit := ?_) (QY := fun c s => ∀ b ∈ Pipeline.ucRefs τ sig, s.mem ((c : Thread nD τ).1, b) = V53 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V53 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Reg0.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two-layer perceptron on a block of 512 rows, four blocks in all

The region reads six windows: the 512 rows of the features it is on (window 0), the first layer's weights and bias
(windows 1, 2), the second layer's weights and bias (windows 3, 4), each of the last four whole at every point, and
writes the block's 512 rows of the result (window 5). Everything here is at a parameter `V`: the contents of the
core's buffers when the region is entered. -/

/-- The block of window `w` at grid point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data have `V`'s array for it and leave its block where the body found it, the
    staging buffer the body is handed at a point holds the window's block there. If the point fetched it, that is the
    fetch; if not, the block index has not moved since the last fetch and the block is still the one fetched then. The
    window is never cut and never idle. -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data have `V`'s array for it and leave its block where the body found it, the
    staging buffer the body is handed at a point holds the window's block there. If the point fetched it, that is the
    fetch; if not, the block index has not moved since the last fetch and the block is still the one fetched then. The
    window is never cut and never idle. -/
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data have `V`'s array for it and leave its block where the body found it, the
    staging buffer the body is handed at a point holds the window's block there. If the point fetched it, that is the
    fetch; if not, the block index has not moved since the last fetch and the block is still the one fetched then. The
    window is never cut and never idle. -/
theorem held0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data have `V`'s array for it and leave its block where the body found it, the
    staging buffer the body is handed at a point holds the window's block there. If the point fetched it, that is the
    fetch; if not, the block index has not moved since the last fetch and the block is still the one fetched then. The
    window is never cut and never idle. -/
theorem held0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data have `V`'s array for it and leave its block where the body found it, the
    staging buffer the body is handed at a point holds the window's block there. If the point fetched it, that is the
    fetch; if not, the block index has not moved since the last fetch and the block is still the one fetched then. The
    window is never cut and never idle. -/
theorem held0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: each staging buffer whole -/

/-- All of the features' block. -/
abbrev allX0 : Rect S512x2048 := Rect.unit (s := S512x2048) ![0, 0] S512x2048.size inb_S512x2048_S512x2048_0_0
/-- All of the first layer's weights. -/
abbrev allW0 : Rect S2048x512 := Rect.unit (s := S2048x512) ![0, 0] S2048x512.size inb_S2048x512_S2048x512_0_0
/-- All of a bias row. -/
abbrev allB0 : Rect S1x512 := Rect.unit (s := S1x512) ![0, 0] S1x512.size inb_S1x512_S1x512_0_0
/-- All of a 512 by 512 buffer: the second layer's weights, and the result's block. -/
abbrev allS0 : Rect S512x512 := Rect.unit (s := S512x512) ![0, 0] S512x512.size inb_S512x512_S512x512_0_0

/-- The result's staging buffer after the body, as a function of the five input blocks: the body stores once, the whole
    buffer, and what it stores is the perceptron's value on what it loaded. -/
def out0_5 (x0 : Vec F S512x2048 .f32) (x1 : Vec F S2048x512 .f32) (x2 : Vec F S1x512 .f32) (x3 : Vec F S512x512 .f32) (x4 : Vec F S1x512 .f32) : Vec F S512x512 .f32 :=
  View.canon [⟨allS0, k0_pay1 (View.ld x0 allX0) (View.ld x1 allW0) (View.ld x2 allB0) (View.ld x3 allS0) (View.ld x4 allB0)⟩]

/-- The one store covers the buffer: its rectangle is the whole of it. -/
theorem covers0_5 (p : Vec F S512x512 .f32) (y : S512x512.Idx) :
    ∃ pc ∈ ([⟨allS0, p⟩] : List (View.Piece (Elt F) S512x512 .f32)), y ∈ pc.1.set :=
  View.cover_of_tiled [⟨allS0, p⟩] S512x512.size (by rfl) y

/-! ## The body on its six staging buffers -/

set_option maxHeartbeats 1000000 in
/-- Run on six whole staging buffers, the five inputs' at contents `x0 … x4` and the result's at anything, the body
    ends with the inputs' as they were and the result's at `out0_5 x0 … x4`: it loads each buffer whole (the result's too,
    a value it does not use), then stores the payload over the whole result buffer. -/
theorem sound_kernel0 (c : Dev nD) (E : Set ℕ) (i : grid0.Coords)
    (arg1 : Memref sig .tc .vmem S512x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (x0 : Vec F S512x2048 .f32) (x1 : Vec F S2048x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The proof data -/

/-- Region 0's proof data on core `c`: the arrays as the region finds them; after the body at a point, each input's
    staging buffer still at its block and the result's at `out0_5` of the five blocks; the invariant is the scoped
    buffers no window stages and the generator register, neither touched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

/-- Nothing is owed at any point. -/
theorem owed0 (c : Dev nD) (t) : (dat0 V c).owed t = 0 := rfl
/-- Every window's share is the whole one. -/
theorem q0 (c : Dev nD) (w) : (dat0 V c).q w = fullShare := rfl

/-- Each input's staging buffer, as the body is handed it at a point, holds the window's block there. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d
theorem before0_4 (c : Dev nD) (t : Fin cfg0.N) (d) : (dat0 V c).before 4 t d = iblk0 V c 4 t :=
  held0_4 V (dat0 V c) (A_eq0 V c 4) (after0_4 V c) t d

/-! ## The body obligation -/

/-- What the body is called with at point `t`: the invariant, what the core owes, and the six staging buffers at what
    the pipeline has put in them. -/
def callPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it gives back: the same, the buffers at what the data say the body leaves. -/
def callPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The call at point `t`: the five inputs' buffers hold their blocks, so the body's triple applies at those blocks; the
    invariant and what the core owes are the same before and after and are carried across. -/
theorem sound_call0 (c : Dev nD) (t : Fin cfg0.N) :
    callPre0 V c t ⊢ wp frame (wpE (defs₀ (F := F)) Variants.none c none) Set.univ (bodyAt0 t) (fun _ => callPost0 V c t) := by
  unfold callPre0 callPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of the grid: the obligation's two products over the six windows written out are the
    call's pre- and postcondition. -/
theorem body_obligation0 (c : Dev nD) : BodyObligation (dat0 (F := F) V c) (defs₀ (F := F)) Variants.none () Set.univ := fun t => by
  rw [bigSep_W0, bigSep_W0]
  exact sound_call0 V c t

/-! ## The invariant at the region's two ends -/

/-- Entering: the generator register and the scoped buffers no window stages make up the invariant. -/
theorem phi_in0 (c : Dev nD) : (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hg, Hs⟩
  isplitl [Hs]; · iexact Hs
  iexact Hg

/-- Leaving: the invariant gives both back. -/
theorem phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Pipeline.ΦA spec0 c from rfl]; unfold Pipeline.ΦA
  iintro ⟨Hs, Hg⟩
  isplitl [Hg]; · iexact Hg
  iexact Hs

end Cert.KernelIdeal.Hand

end
-- ==== Proof.KI.Reg1.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the two-layer perceptron on a block of 512 rows, sixty-four blocks in all

The region reads six windows: the 512 rows of the features it is on (window 0), the first layer's weights and bias
(windows 1, 2), the second layer's weights and bias (windows 3, 4), each of the last four whole at every point, and
writes the block's 512 rows of the result (window 5). Everything here is at a parameter `V`: the contents of the
core's buffers when the region is entered. -/

/-- The block of window `w` at grid point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data have `V`'s array for it and leave its block where the body found it, the
    staging buffer the body is handed at a point holds the window's block there. If the point fetched it, that is the
    fetch; if not, the block index has not moved since the last fetch and the block is still the one fetched then. The
    window is never cut and never idle. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data have `V`'s array for it and leave its block where the body found it, the
    staging buffer the body is handed at a point holds the window's block there. If the point fetched it, that is the
    fetch; if not, the block index has not moved since the last fetch and the block is still the one fetched then. The
    window is never cut and never idle. -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data have `V`'s array for it and leave its block where the body found it, the
    staging buffer the body is handed at a point holds the window's block there. If the point fetched it, that is the
    fetch; if not, the block index has not moved since the last fetch and the block is still the one fetched then. The
    window is never cut and never idle. -/
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data have `V`'s array for it and leave its block where the body found it, the
    staging buffer the body is handed at a point holds the window's block there. If the point fetched it, that is the
    fetch; if not, the block index has not moved since the last fetch and the block is still the one fetched then. The
    window is never cut and never idle. -/
theorem held1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whatever proof data have `V`'s array for it and leave its block where the body found it, the
    staging buffer the body is handed at a point holds the window's block there. If the point fetched it, that is the
    fetch; if not, the block index has not moved since the last fetch and the block is still the one fetched then. The
    window is never cut and never idle. -/
theorem held1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: each staging buffer whole -/

/-- All of the features' block. -/
abbrev allX1 : Rect S512x2048 := Rect.unit (s := S512x2048) ![0, 0] S512x2048.size inb_S512x2048_S512x2048_0_0
/-- All of the first layer's weights. -/
abbrev allW1 : Rect S2048x512 := Rect.unit (s := S2048x512) ![0, 0] S2048x512.size inb_S2048x512_S2048x512_0_0
/-- All of a bias row. -/
abbrev allB1 : Rect S1x512 := Rect.unit (s := S1x512) ![0, 0] S1x512.size inb_S1x512_S1x512_0_0
/-- All of a 512 by 512 buffer: the second layer's weights, and the result's block. -/
abbrev allS1 : Rect S512x512 := Rect.unit (s := S512x512) ![0, 0] S512x512.size inb_S512x512_S512x512_0_0

/-- The result's staging buffer after the body, as a function of the five input blocks: the body stores once, the whole
    buffer, and what it stores is the perceptron's value on what it loaded. -/
def out1_5 (x0 : Vec F S512x2048 .f32) (x1 : Vec F S2048x512 .f32) (x2 : Vec F S1x512 .f32) (x3 : Vec F S512x512 .f32) (x4 : Vec F S1x512 .f32) : Vec F S512x512 .f32 :=
  View.canon [⟨allS1, k1_pay1 (View.ld x0 allX1) (View.ld x1 allW1) (View.ld x2 allB1) (View.ld x3 allS1) (View.ld x4 allB1)⟩]

/-- The one store covers the buffer: its rectangle is the whole of it. -/
theorem covers1_5 (p : Vec F S512x512 .f32) (y : S512x512.Idx) :
    ∃ pc ∈ ([⟨allS1, p⟩] : List (View.Piece (Elt F) S512x512 .f32)), y ∈ pc.1.set :=
  View.cover_of_tiled [⟨allS1, p⟩] S512x512.size (by rfl) y

/-! ## The body on its six staging buffers -/

set_option maxHeartbeats 1000000 in
/-- Run on six whole staging buffers, the five inputs' at contents `x0 … x4` and the result's at anything, the body
    ends with the inputs' as they were and the result's at `out1_5 x0 … x4`: it loads each buffer whole (the result's too,
    a value it does not use), then stores the payload over the whole result buffer. -/
theorem sound_kernel1 (c : Dev nD) (E : Set ℕ) (i : grid1.Coords)
    (arg1 : Memref sig .tc .vmem S512x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x512 .f32) (harg6 : arg6.IsWhole)
    (x0 : Vec F S512x2048 .f32) (x1 : Vec F S2048x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers1_5 _)

/-! ## The proof data -/

/-- Region 1's proof data on core `c`: the arrays as the region finds them; after the body at a point, each input's
    staging buffer still at its block and the result's at `out1_5` of the five blocks; the invariant is the scoped
    buffers no window stages and the generator register, neither touched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Nothing is owed at any point. -/
theorem owed1 (c : Dev nD) (t) : (dat1 V c).owed t = 0 := rfl
/-- Every window's share is the whole one. -/
theorem q1 (c : Dev nD) (w) : (dat1 V c).q w = fullShare := rfl

/-- Each input's staging buffer, as the body is handed it at a point, holds the window's block there. -/
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d

/-! ## The body obligation -/

/-- What the body is called with at point `t`: the invariant, what the core owes, and the six staging buffers at what
    the pipeline has put in them. -/
def callPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it gives back: the same, the buffers at what the data say the body leaves. -/
def callPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The call at point `t`: the five inputs' buffers hold their blocks, so the body's triple applies at those blocks; the
    invariant and what the core owes are the same before and after and are carried across. -/
theorem sound_call1 (c : Dev nD) (t : Fin cfg1.N) :
    callPre1 V c t ⊢ wp frame (wpE (defs₀ (F := F)) Variants.none c none) Set.univ (bodyAt1 t) (fun _ => callPost1 V c t) := by
  unfold callPre1 callPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of the grid: the obligation's two products over the six windows written out are the
    call's pre- and postcondition. -/
theorem body_obligation1 (c : Dev nD) : BodyObligation (dat1 (F := F) V c) (defs₀ (F := F)) Variants.none () Set.univ := fun t => by
  rw [bigSep_W1, bigSep_W1]
  exact sound_call1 V c t

/-! ## The invariant at the region's two ends -/

/-- Entering: the generator register and the scoped buffers no window stages make up the invariant. -/
theorem phi_in1 (c : Dev nD) : (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = Pipeline.ΦA spec1 c from rfl]; unfold Pipeline.ΦA
  iintro ⟨Hg, Hs⟩
  isplitl [Hs]; · iexact Hs
  iexact Hg

/-- Leaving: the invariant gives both back. -/
theorem phi_out1 (c : Dev nD) : (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = Pipeline.ΦA spec1 c from rfl]; unfold Pipeline.ΦA
  iintro ⟨Hs, Hg⟩
  isplitl [Hg]; · iexact Hg
  iexact Hs

end Cert.KernelIdeal.Hand

end
-- ==== Proof.KI.Reg2.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

/-- an index row, -/
abbrev r2_i : Rect S1x512 := Rect.unit (s := S1x512) ![0, 0] S1x512.size inb_S1x512_S1x512_0_0
/-- a bias row, -/
abbrev r2_b : Rect S1x512 := Rect.unit (s := S1x512) ![0, 0] S1x512.size inb_S1x512_S1x512_0_0
/-- the source tile, -/
abbrev r2_s : Rect S512x512 := Rect.unit (s := S512x512) ![0, 0] S512x512.size inb_S512x512_S512x512_0_0
/-- a weight matrix, -/
abbrev r2_w : Rect S512x512 := Rect.unit (s := S512x512) ![0, 0] S512x512.size inb_S512x512_S512x512_0_0
/-- a weighted sum (and the target and output blocks), a row count. -/
abbrev r2_a : Rect S1024x512 := Rect.unit (s := S1024x512) ![0, 0] S1024x512.size inb_S1024x512_S1024x512_0_0
abbrev r2_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc2_0 (i : grid2.Coords) (x0 : Vec F S1x512 .i32) (x2 : Vec F S512x512 .f32) (x3 : Vec F S512x512 .f32) (x4 : Vec F S1x512 .f32)
    (p : Vec F S1024x512 .f32) : Vec F S1024x512 .f32 :=
  View.canon [⟨r2_a, k2_pay15 (k2_pay8 (View.ld x2 r2_s) (View.ld x3 r2_w) (View.ld x4 r2_b)) (k2_pay10 i) (k2_pay11 (View.ld x0 r2_i)) p⟩]

/-- The second weighted sum: `p + onehot(rows = idx₁) · relu(src · W₁ + b₁)`. -/
def acc2_1 (i : grid2.Coords) (x1 : Vec F S1x512 .i32) (x2 : Vec F S512x512 .f32) (x5 : Vec F S512x512 .f32) (x6 : Vec F S1x512 .f32)
    (p : Vec F S1024x512 .f32) : Vec F S1024x512 .f32 :=
  View.canon [⟨r2_a, k2_pay16 (k2_pay9 (View.ld x2 r2_s) (View.ld x5 r2_w) (View.ld x6 r2_b)) (k2_pay10 i) (k2_pay12 (View.ld x1 r2_i)) p⟩]

/-- The first row count: `p + Σ_lanes onehot(rows = idx₀)`. -/
def acc2_2 (i : grid2.Coords) (x0 : Vec F S1x512 .i32) (p : Vec F S1024x1 .f32) : Vec F S1024x1 .f32 :=
  View.canon [⟨r2_d, k2_pay17 (k2_pay10 i) (k2_pay11 (View.ld x0 r2_i)) p⟩]

/-- The second row count: `p + Σ_lanes onehot(rows = idx₁)`. -/
def acc2_3 (i : grid2.Coords) (x1 : Vec F S1x512 .i32) (p : Vec F S1024x1 .f32) : Vec F S1024x1 .f32 :=
  View.canon [⟨r2_d, k2_pay1 (k2_pay18 (k2_pay10 i) (k2_pay12 (View.ld x1 r2_i)) p)⟩]

/-- What the last point of a row block stores into the output block, from the four sums as they then stand
    and the target block: `target + ½ (a₀ / (d₀ + ε) + a₁ / (d₁ + ε))`. -/
def out2_8 (a0 : Vec F S1024x512 .f32) (d0 : Vec F S1024x1 .f32) (a1 : Vec F S1024x512 .f32) (d1 : Vec F S1024x1 .f32)
    (x7 : Vec F S1024x512 .f32) : Vec F S1024x512 .f32 :=
  View.canon [⟨r2_a, k2_pay2 (View.ld a0 r2_a) (View.ld d0 r2_d) (View.ld a1 r2_a) (View.ld d1 r2_d) (View.ld x7 r2_a)⟩]

/-! ## The four sums after each point -/

/-- THE ACCUMULATION. The four scratch arrays after the body at position `n`: at the first point of a row block
    (`n % 64 = 0`) the point's contribution over zero, else over what position `n - 1` left. -/
def scrAt2 (c : Dev nD) : (n : ℕ) → n < cfg2.N →
    Vec F S1024x512 .f32 × Vec F S1024x512 .f32 × Vec F S1024x1 .f32 × Vec F S1024x1 .f32
  | 0, hn =>
    (acc2_0 (grid2.coords ⟨0, hn⟩) (iblk2 V c 0 ⟨0, hn⟩) (iblk2 V c 2 ⟨0, hn⟩) (iblk2 V c 3 ⟨0, hn⟩) (iblk2 V c 4 ⟨0, hn⟩) (k2_pay3 (F := F)),
     acc2_1 (grid2.coords ⟨0, hn⟩) (iblk2 V c 1 ⟨0, hn⟩) (iblk2 V c 2 ⟨0, hn⟩) (iblk2 V c 5 ⟨0, hn⟩) (iblk2 V c 6 ⟨0, hn⟩) (k2_pay4 (F := F)),
     acc2_2 (grid2.coords ⟨0, hn⟩) (iblk2 V c 0 ⟨0, hn⟩) (k2_pay5 (F := F)),
     acc2_3 (grid2.coords ⟨0, hn⟩) (iblk2 V c 1 ⟨0, hn⟩) (k2_pay6 (F := F)))
  | n + 1, hn =>
    if h0 : (n + 1) % 64 = 0 then
      (acc2_0 (grid2.coords ⟨n + 1, hn⟩) (iblk2 V c 0 ⟨n + 1, hn⟩) (iblk2 V c 2 ⟨n + 1, hn⟩) (iblk2 V c 3 ⟨n + 1, hn⟩) (iblk2 V c 4 ⟨n + 1, hn⟩) (k2_pay3 (F := F)),
       acc2_1 (grid2.coords ⟨n + 1, hn⟩) (iblk2 V c 1 ⟨n + 1, hn⟩) (iblk2 V c 2 ⟨n + 1, hn⟩) (iblk2 V c 5 ⟨n + 1, hn⟩) (iblk2 V c 6 ⟨n + 1, hn⟩) (k2_pay4 (F := F)),
       acc2_2 (grid2.coords ⟨n + 1, hn⟩) (iblk2 V c 0 ⟨n + 1, hn⟩) (k2_pay5 (F := F)),
       acc2_3 (grid2.coords ⟨n + 1, hn⟩) (iblk2 V c 1 ⟨n + 1, hn⟩) (k2_pay6 (F := F)))
    else
      (acc2_0 (grid2.coords ⟨n + 1, hn⟩) (iblk2 V c 0 ⟨n + 1, hn⟩) (iblk2 V c 2 ⟨n + 1, hn⟩) (iblk2 V c 3 ⟨n + 1, hn⟩) (iblk2 V c 4 ⟨n + 1, hn⟩) (View.ld (scrAt2 c n (Nat.lt_of_succ_lt hn)).1 r2_a),
       acc2_1 (grid2.coords ⟨n + 1, hn⟩) (iblk2 V c 1 ⟨n + 1, hn⟩) (iblk2 V c 2 ⟨n + 1, hn⟩) (iblk2 V c 5 ⟨n + 1, hn⟩) (iblk2 V c 6 ⟨n + 1, hn⟩) (View.ld (scrAt2 c n (Nat.lt_of_succ_lt hn)).2.1 r2_a),
       acc2_2 (grid2.coords ⟨n + 1, hn⟩) (iblk2 V c 0 ⟨n + 1, hn⟩) (View.ld (scrAt2 c n (Nat.lt_of_succ_lt hn)).2.2.1 r2_d),
       acc2_3 (grid2.coords ⟨n + 1, hn⟩) (iblk2 V c 1 ⟨n + 1, hn⟩) (View.ld (scrAt2 c n (Nat.lt_of_succ_lt hn)).2.2.2 r2_d))

/-- The four scratch arrays after point `t`, one by one. -/
def scr2_0 (c : Dev nD) (t : Fin cfg2.N) : Vec F S1024x512 .f32 := (scrAt2 V c t.val t.isLt).1
def scr2_1 (c : Dev nD) (t : Fin cfg2.N) : Vec F S1024x512 .f32 := (scrAt2 V c t.val t.isLt).2.1
def scr2_2 (c : Dev nD) (t : Fin cfg2.N) : Vec F S1024x1 .f32 := (scrAt2 V c t.val t.isLt).2.2.1
def scr2_3 (c : Dev nD) (t : Fin cfg2.N) : Vec F S1024x1 .f32 := (scrAt2 V c t.val t.isLt).2.2.2

/-- `scrAt2` at the first point of a row block: the point's contribution over zero. -/
theorem scrAt2_first (c : Dev nD) (t : Fin cfg2.N) (h0 : t.val % 64 = 0) :
    scrAt2 V c t.val t.isLt =
      (acc2_0 (grid2.coords t) (iblk2 V c 0 t) (iblk2 V c 2 t) (iblk2 V c 3 t) (iblk2 V c 4 t) (k2_pay3 (F := F)),
       acc2_1 (grid2.coords t) (iblk2 V c 1 t) (iblk2 V c 2 t) (iblk2 V c 5 t) (iblk2 V c 6 t) (k2_pay4 (F := F)),
       acc2_2 (grid2.coords t) (iblk2 V c 0 t) (k2_pay5 (F := F)),
       acc2_3 (grid2.coords t) (iblk2 V c 1 t) (k2_pay6 (F := F))) := by
  obtain ⟨n, hn⟩ := t
  cases n with
  | zero => exact rfl
  | succ n => exact (dif_pos h0).trans rfl

/-- `scrAt2` at any other point: the point's contribution over what the point before left. -/
theorem scrAt2_next (c : Dev nD) (t : Fin cfg2.N) (h0 : ¬t.val % 64 = 0) :
    scrAt2 V c t.val t.isLt =
      (acc2_0 (grid2.coords t) (iblk2 V c 0 t) (iblk2 V c 2 t) (iblk2 V c 3 t) (iblk2 V c 4 t) (View.ld (scrAt2 V c (t.val - 1) (Nat.lt_of_le_of_lt (Nat.sub_le _ _) t.isLt)).1 r2_a),
       acc2_1 (grid2.coords t) (iblk2 V c 1 t) (iblk2 V c 2 t) (iblk2 V c 5 t) (iblk2 V c 6 t) (View.ld (scrAt2 V c (t.val - 1) (Nat.lt_of_le_of_lt (Nat.sub_le _ _) t.isLt)).2.1 r2_a),
       acc2_2 (grid2.coords t) (iblk2 V c 0 t) (View.ld (scrAt2 V c (t.val - 1) (Nat.lt_of_le_of_lt (Nat.sub_le _ _) t.isLt)).2.2.1 r2_d),
       acc2_3 (grid2.coords t) (iblk2 V c 1 t) (View.ld (scrAt2 V c (t.val - 1) (Nat.lt_of_le_of_lt (Nat.sub_le _ _) t.isLt)).2.2.2 r2_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM2_0 : Memref sig .tc .vmem S1024x512 .f32 := Memref.whole cc2_scratch0
abbrev scM2_1 : Memref sig .tc .vmem S1024x512 .f32 := Memref.whole cc2_scratch1
abbrev scM2_2 : Memref sig .tc .vmem S1024x1 .f32 := Memref.whole cc2_scratch2
abbrev scM2_3 : Memref sig .tc .vmem S1024x1 .f32 := Memref.whole cc2_scratch3

/-- The scoped buffers that are none of the four, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

/-- The invariant before position `n`: before the first point the four scratch arrays at anything; afterwards at what
    the point before left (`scrAt2`); beside them, throughout, the other scoped buffers unopened and the generator
    register at some state. -/
def PhiS2 (c : Dev nD) : (n : ℕ) → n ≤ cfg2.N → sProp 𝕄
  | 0, _ => iprop(iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d))
      ∗ rest2 c ∗ (∃ r, prngReg c r))
  | n + 1, hn => iprop(iprop(owns (c : Thread nD τ) scM2_0 fullShare (scrAt2 V c n hn).1 ∗ owns (c : Thread nD τ) scM2_1 fullShare (scrAt2 V c n hn).2.1
      ∗ owns (c : Thread nD τ) scM2_2 fullShare (scrAt2 V c n hn).2.2.1 ∗ owns (c : Thread nD τ) scM2_3 fullShare (scrAt2 V c n hn).2.2.2)
      ∗ rest2 c ∗ (∃ r, prngReg c r))

theorem PhiS2_zero (c : Dev nD) (n : ℕ) (h : n ≤ cfg2.N) (hz : n = 0) :
    PhiS2 V c n h = iprop(iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d))
      ∗ rest2 c ∗ (∃ r, prngReg c r)) := by
  subst hz; rfl

theorem PhiS2_succ (c : Dev nD) (n : ℕ) (hn : n < cfg2.N) :
    PhiS2 V c (n + 1) hn = iprop(iprop(owns (c : Thread nD τ) scM2_0 fullShare (scrAt2 V c n hn).1 ∗ owns (c : Thread nD τ) scM2_1 fullShare (scrAt2 V c n hn).2.1
      ∗ owns (c : Thread nD τ) scM2_2 fullShare (scrAt2 V c n hn).2.2.1 ∗ owns (c : Thread nD τ) scM2_3 fullShare (scrAt2 V c n hn).2.2.2)
      ∗ rest2 c ∗ (∃ r, prngReg c r)) := rfl

theorem PhiS2_pos (c : Dev nD) (n : ℕ) (h : n ≤ cfg2.N) (hz : n ≠ 0) :
    PhiS2 V c n h = iprop(iprop(owns (c : Thread nD τ) scM2_0 fullShare (scrAt2 V c (n - 1) (by omega)).1 ∗ owns (c : Thread nD τ) scM2_1 fullShare (scrAt2 V c (n - 1) (by omega)).2.1
      ∗ owns (c : Thread nD τ) scM2_2 fullShare (scrAt2 V c (n - 1) (by omega)).2.2.1 ∗ owns (c : Thread nD τ) scM2_3 fullShare (scrAt2 V c (n - 1) (by omega)).2.2.2)
      ∗ rest2 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out2_8` of the sums as they stand after `t` and the target block
    (consulted only where the block is written back, at the last point of a row block); the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (scr2_0 V c t) (scr2_2 V c t) (scr2_1 V c t) (scr2_3 V c t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (scr2_0 V c t) (scr2_2 V c t) (scr2_1 V c t) (scr2_3 V c t) (iblk2 V c 7 t) := by dsimp only [dat2]
theorem owed2 (c : Dev nD) (t) : (dat2 V c).owed t = 0 := rfl
theorem q2 (c : Dev nD) (w) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body's two conditions, in closed form over the grid -/

/-- The body's first condition (`k = 0`: start the sums from zero), from the grid coordinates. -/
abbrev cond2_0 (i : grid2.Coords) : Prop := (Scalar.cmpi .ne (Scalar.extui (Scalar.cmpi .eq (BitVec.ofNat 32 (i 1).val) 0#32)) 0#32) = 1#1
/-- It holds at the first point of each row block. -/
theorem hcond2_0 : ∀ t : Fin cfg2.N, cond2_0 (grid2.coords t) ↔ t.val % 64 = 0 :=
  (by decide +kernel : ∀ t : Fin grid2.N, cond2_0 (grid2.coords t) ↔ t.val % 64 = 0)
/-- The body's second condition (`k = 63`: write the output block). -/
abbrev cond2_1 (i : grid2.Coords) : Prop := k2_cond2 i = 1#1
/-- It holds at the last point of each row block. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## A whole-buffer store covers the buffer -/

theorem cover2_a (p0 : Vec F S1024x512 .f32) (y : S1024x512.Idx) :
    ∃ pc ∈ ([⟨r2_a, p0⟩] : List (View.Piece (Elt F) S1024x512 .f32)), y ∈ pc.1.set :=
  View.cover_of_tiled [⟨r2_a, p0⟩] S1024x512.size (by rfl) y
theorem cover2_d (p0 : Vec F S1024x1 .f32) (y : S1024x1.Idx) :
    ∃ pc ∈ ([⟨r2_d, p0⟩] : List (View.Piece (Elt F) S1024x1 .f32)), y ∈ pc.1.set :=
  View.cover_of_tiled [⟨r2_d, p0⟩] S1024x1.size (by rfl) y

/-- After writes the LAST of which covers the whole shape, the buffer reads as that write alone. -/
theorem read_writes_head_cover2 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon2_a (w : Vec F S1024x512 .f32) :
    View.ld (View.canon [(⟨r2_a, w⟩ : View.Piece (Elt F) S1024x512 .f32)]) r2_a = w :=
  funext fun x => View.canon_cons_emb r2_a w [] x
theorem ld_canon2_d (w : Vec F S1024x1 .f32) :
    View.ld (View.canon [(⟨r2_d, w⟩ : View.Piece (Elt F) S1024x1 .f32)]) r2_d = w :=
  funext fun x => View.canon_cons_emb r2_d w [] x

/-- The output block from sums that are themselves whole-buffer writes: the payloads meet directly. -/
theorem out2_8_canon (w0 w1 : Vec F S1024x512 .f32) (w2 w3 : Vec F S1024x1 .f32) (x7 : Vec F S1024x512 .f32) :
    out2_8 (View.canon [(⟨r2_a, w0⟩ : View.Piece (Elt F) S1024x512 .f32)]) (View.canon [(⟨r2_d, w2⟩ : View.Piece (Elt F) S1024x1 .f32)])
        (View.canon [(⟨r2_a, w1⟩ : View.Piece (Elt F) S1024x512 .f32)]) (View.canon [(⟨r2_d, w3⟩ : View.Piece (Elt F) S1024x1 .f32)]) x7
      = View.canon [(⟨r2_a, k2_pay2 w0 w2 w1 w3 (View.ld x7 r2_a)⟩ : View.Piece (Elt F) S1024x512 .f32)] := by
  unfold out2_8; rw [ld_canon2_a, ld_canon2_a, ld_canon2_d, ld_canon2_d]

set_option maxHeartbeats 4000000 in
/-- The first point of a row block (`k = 0`): each sum is set to zero, then the point's contribution is added to it; the
    inputs and the output block are left as they were. -/
theorem run2_A (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : cond2_0 i) (hc1 : ¬cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc2_0 i x0 x2 x3 x4 (k2_pay3 (F := F))) ∗ owns (c : Thread nD τ) arg12 fullShare (acc2_1 i x1 x2 x5 x6 (k2_pay4 (F := F)))
            ∗ owns (c : Thread nD τ) arg13 fullShare (acc2_2 i x0 (k2_pay5 (F := F))) ∗ owns (c : Thread nD τ) arg14 fullShare (acc2_3 i x1 (k2_pay6 (F := F)))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover2 _ _ _ _ (cover2_a _)).trans (by simp only [View.readCov_cons_toLoadRect]; rfl)
  isplitl [S1]
  · iexists _; isplitr
    swap; · iexact S1
    ipureintro; sl_unfold_run_names
    exact (read_writes_head_cover2 _ _ _ _ (cover2_a _)).trans (by simp only [View.readCov_cons_toLoadRect]; rfl)
  isplitl [S2]
  · iexists _; isplitr
    swap; · iexact S2
    ipureintro; sl_unfold_run_names
    exact (read_writes_head_cover2 _ _ _ _ (cover2_d _)).trans (by simp only [View.readCov_cons_toLoadRect]; rfl)
  iexists _; isplitr
  swap; · iexact S3
  ipureintro; sl_unfold_run_names
  exact (read_writes_head_cover2 _ _ _ _ (cover2_d _)).trans (by simp only [View.readCov_cons_toLoadRect]; rfl)

set_option maxHeartbeats 4000000 in
/-- A middle point of a row block (neither condition holds): each sum is loaded, the point's contribution added and stored back;
    the inputs and the output block are left as they were. -/
theorem run2_B (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond2_0 i) (hc1 : ¬cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc2_0 i x0 x2 x3 x4 (View.ld s0 r2_a)) ∗ owns (c : Thread nD τ) arg12 fullShare (acc2_1 i x1 x2 x5 x6 (View.ld s1 r2_a))
            ∗ owns (c : Thread nD τ) arg13 fullShare (acc2_2 i x0 (View.ld s2 r2_d)) ∗ owns (c : Thread nD τ) arg14 fullShare (acc2_3 i x1 (View.ld s3 r2_d))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover2_a _)
  isplitl [S1]
  · iexists _; isplitr
    swap; · iexact S1
    ipureintro; exact View.read_writes_eq_canon _ _ _ (cover2_a _)
  isplitl [S2]
  · iexists _; isplitr
    swap; · iexact S2
    ipureintro; exact View.read_writes_eq_canon _ _ _ (cover2_d _)
  iexists _; isplitr
  swap; · iexact S3
  ipureintro; exact View.read_writes_eq_canon _ _ _ (cover2_d _)

set_option maxHeartbeats 4000000 in
/-- The last point of a row block (`k = 63`): each sum is loaded, the point's contribution added and stored back, and the
    output block is written from the sums as they then stand and the target block; the inputs are left as they were. -/
theorem run2_C (c : Dev nD) (E : Set ℕ) (i : grid2.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond2_0 i) (hc1 : cond2_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out2_8 (acc2_0 i x0 x2 x3 x4 (View.ld s0 r2_a)) (acc2_2 i x0 (View.ld s2 r2_d)) (acc2_1 i x1 x2 x5 x6 (View.ld s1 r2_a)) (acc2_3 i x1 (View.ld s3 r2_d)) x7)
            ∗ owns (c : Thread nD τ) arg11 fullShare (acc2_0 i x0 x2 x3 x4 (View.ld s0 r2_a)) ∗ owns (c : Thread nD τ) arg12 fullShare (acc2_1 i x1 x2 x5 x6 (View.ld s1 r2_a))
            ∗ owns (c : Thread nD τ) arg13 fullShare (acc2_2 i x0 (View.ld s2 r2_d)) ∗ owns (c : Thread nD τ) arg14 fullShare (acc2_3 i x1 (View.ld s3 r2_d))) -∗ K ⟨⟩))
      ⊢ wp frame (wpE (defs₀ (F := F)) Variants.none c none) E (cc2__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc2__collect_fwd_fused_kernel_eq_skeleton]; unfold cc2__collect_fwd_fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover2_a _)).trans
      (by simp only [View.readCov_cons_toLoadRect]; exact (out2_8_canon _ _ _ _ _).symm)
  isplitl [S0]
  · iexists _; isplitr
    swap; · iexact S0
    ipureintro; sl_unfold_run_names
    exact View.read_writes_eq_canon _ _ _ (cover2_a _)
  isplitl [S1]
  · iexists _; isplitr
    swap; · iexact S1
    ipureintro; sl_unfold_run_names
    exact View.read_writes_eq_canon _ _ _ (cover2_a _)
  isplitl [S2]
  · iexists _; isplitr
    swap; · iexact S2
    ipureintro; sl_unfold_run_names
    exact View.read_writes_eq_canon _ _ _ (cover2_d _)
  iexists _; isplitr
  swap; · iexact S3
  ipureintro; sl_unfold_run_names
  exact View.read_writes_eq_canon _ _ _ (cover2_d _)

/-! ## Where the output window is idle, and where its block is written back -/

/-- Off the last point of a row block the body stores nothing into the output window; -/
theorem idleAt2_8 : ∀ t : Fin cfg2.N, ¬cond2_1 (grid2.coords t) → cfg2.idle 8 (grid2.coords t) = true := by decide +kernel
/-- at it, it does. -/
theorem liveAt2_8 : ∀ t : Fin cfg2.N, cond2_1 (grid2.coords t) → cfg2.idle 8 (grid2.coords t) = false := by decide +kernel
/-- The output block is written back at the last point of a row block only. -/
theorem noFlush2_8 (t : Fin cfg2.N) (h : ¬t.val % 64 = 63) : (cfg2.win 8).flush t = false :=
  Bool.eq_false_iff.mpr fun hf => h ((flush2_8 t).mp hf)

/-! ## Each input's staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs' buffers as they were, the output's as the point leaves it (untouched where it is idle). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 8000000 in
/-- The body at any point. The inputs' buffers hold their blocks (`before2_W`); the point's position in its row block says
    which of the three cases runs. The invariant hands the body the four sums at what the point before left (at anything before the
    very first point) and takes them back at this point's; the other scoped buffers and the generator register pass through
    unread; off the last point of a row block the output's buffer passes through as well. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  have hN : t.val < 128 := lt_of_lt_of_eq t.isLt (show cfg2.N = 128 from N_2)
  by_cases h0 : t.val % 64 = 0
  · have h1 : ¬t.val % 64 = 63 := by omega
    have hc0 : cond2_0 (grid2.coords t) := (hcond2_0 t).mpr h0
    have hc1 : ¬cond2_1 (grid2.coords t) := fun h => h1 ((hcond2_1 t).mp h)
    rw [Dat.leavesExact_idle (dat2 V c) 8 t (idleAt2_8 t hc1) (noFlush2_8 t h1)]
    rw [scrAt2_first V c t h0]
    by_cases hz : t.val = 0
    · rw [PhiS2_castSucc V c t, PhiS2_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond2_0 (grid2.coords t) := fun h => h0 ((hcond2_0 t).mp h)
    by_cases h1 : t.val % 64 = 63
    · have hc1 : cond2_1 (grid2.coords t) := (hcond2_1 t).mpr h1
      rw [show (dat2 V c).leavesExact 8 t = owns (c : Thread nD τ) (st2_8 t) fullShare ((dat2 V c).after 8 t) from by
        unfold Dat.leavesExact; rw [liveAt2_8 t hc1], after2_8]
      unfold scr2_0 scr2_1 scr2_2 scr2_3
      rw [scrAt2_next V c t h0]
      rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_C c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 8 t (idleAt2_8 t hc1) (noFlush2_8 t h1)]
      rw [scrAt2_next V c t h0]
      rw [PhiS2_castSucc V c t, PhiS2_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run2_B c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the region is entered with — the generator register and the scoped buffers that are no staging buffer, the four scratch
    arrays among them at anything — is the invariant before the first point. -/
theorem phi_in2 (c : Dev nD) : (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = PhiS2 V c 0 (Nat.zero_le _) from rfl, PhiS2_zero V c 0 _ rfl, scopedRest2_split]
  simp only [scM2_0, scM2_1, scM2_2, scM2_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), scopedRest2_split]
  simp only [scM2_0, scM2_1, scM2_2, scM2_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.KernelIdeal.Hand
end
-- ==== Proof.KI.Reg3.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body reads and writes: each is the whole of its buffer -/

/-- The whole input block. -/
abbrev r3_0 : Rect S512x512 := Rect.unit (s := S512x512) ![0, 0] S512x512.size inb_S512x512_S512x512_0_0
/-- The whole weight matrix. -/
abbrev r3_1 : Rect S512x512 := Rect.unit (s := S512x512) ![0, 0] S512x512.size inb_S512x512_S512x512_0_0
/-- The whole bias row. -/
abbrev r3_2 : Rect S1x512 := Rect.unit (s := S1x512) ![0, 0] S1x512.size inb_S1x512_S1x512_0_0
/-- The whole output block. -/
abbrev r3_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out3_3 (x0 : Vec F S512x512 .f32) (x1 : Vec F S512x512 .f32) (x2 : Vec F S1x512 .f32) : Vec F S512x512 .bf16 :=
  View.canon [⟨r3_3, k3_pay1 (View.ld x0 r3_0) (View.ld x1 r3_1) (View.ld x2 r3_2)⟩]

/-! ## The proof data -/

/-- The proof data of the region on core `c`: the arrays as the region finds them; after the body at point `t`
    each input's buffer still at its block and the output's at `out3_3` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Nothing is owed at any point. -/
theorem owed3 (c : Dev nD) (t) : (dat3 V c).owed t = 0 := rfl

/-- Every window is held at the full share. -/
theorem q3 (c : Dev nD) (w) : (dat3 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's buffer holds the matrix at every point: fetched at the first point only, its block index
    never moves afterwards, and the body leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's buffer holds the row at every point, for the same reason. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

/-- The body's one store is over the whole output buffer, so it covers every index of it. -/
theorem cover3_3 (p0 : Vec F S512x512 .bf16) (y : S512x512.Idx) :
    ∃ pc ∈ ([⟨r3_3, p0⟩] : List (View.Piece (Elt F) S512x512 .bf16)), y ∈ pc.1.set :=
  View.cover_of_tiled [⟨r3_3, p0⟩] S512x512.size (by rfl) y

set_option maxHeartbeats 1000000 in
/-- The body on whole staging memrefs — the three inputs' reading `x0`, `x1`, `x2`, the output's holding anything —
    runs to a continuation that holds the inputs' as they were and the output's at `out3_3 x0 x1 x2`: the printed
    function is its skeleton of loads and one store, run operation by operation. -/
theorem sound_kernel3 (c : Dev nD) (E : Set ℕ) (i : grid3.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the two ends -/

/-- The generator register and the scoped buffers no window stages make the invariant at the first point. -/
theorem phi_in3 (c : Dev nD) :
    (iprop((∃ r, prngReg c r) ∗ Pipeline.scopedRest (Ix := Unit) (Name := ℕ) (U := UR sig nD τ) (Lvl := ℕ) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives them back. -/
theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.KernelIdeal.Hand

end
-- ==== Proof.KI.Reg4.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes: each is the whole of its buffer -/

/-- The whole input block. -/
abbrev r4_0 : Rect S512x512 := Rect.unit (s := S512x512) ![0, 0] S512x512.size inb_S512x512_S512x512_0_0
/-- The whole weight matrix. -/
abbrev r4_1 : Rect S512x512 := Rect.unit (s := S512x512) ![0, 0] S512x512.size inb_S512x512_S512x512_0_0
/-- The whole bias row. -/
abbrev r4_2 : Rect S1x512 := Rect.unit (s := S1x512) ![0, 0] S1x512.size inb_S1x512_S1x512_0_0
/-- The whole output block. -/
abbrev r4_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out4_3 (x0 : Vec F S512x512 .f32) (x1 : Vec F S512x512 .f32) (x2 : Vec F S1x512 .f32) : Vec F S512x512 .bf16 :=
  View.canon [⟨r4_3, k4_pay1 (View.ld x0 r4_0) (View.ld x1 r4_1) (View.ld x2 r4_2)⟩]

/-! ## The proof data -/

/-- The proof data of the region on core `c`: the arrays as the region finds them; after the body at point `t`
    each input's buffer still at its block and the output's at `out4_3` of the input blocks; the invariant is
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Nothing is owed at any point. -/
theorem owed4 (c : Dev nD) (t) : (dat4 V c).owed t = 0 := rfl

/-- Every window is held at the full share. -/
theorem q4 (c : Dev nD) (w) : (dat4 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the matrix at every point: fetched at the first point only, its block index
    never moves afterwards, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's buffer holds the row at every point, for the same reason. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body's triple -/

/-- The body's one store is over the whole output buffer, so it covers every index of it. -/
theorem cover4_3 (p0 : Vec F S512x512 .bf16) (y : S512x512.Idx) :
    ∃ pc ∈ ([⟨r4_3, p0⟩] : List (View.Piece (Elt F) S512x512 .bf16)), y ∈ pc.1.set :=
  View.cover_of_tiled [⟨r4_3, p0⟩] S512x512.size (by rfl) y

set_option maxHeartbeats 1000000 in
/-- The body on whole staging memrefs — the three inputs' reading `x0`, `x1`, `x2`, the output's holding anything —
    runs to a continuation that holds the inputs' as they were and the output's at `out4_3 x0 x1 x2`: the printed
    function is its skeleton of loads and one store, run operation by operation. -/
theorem sound_kernel4 (c : Dev nD) (E : Set ℕ) (i : grid4.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the two ends -/

/-- The generator register and the scoped buffers no window stages make the invariant at the first point. -/
theorem phi_in4 (c : Dev nD) :
    (iprop((∃ r, prngReg c r) ∗ Pipeline.scopedRest (Ix := Unit) (Name := ℕ) (U := UR sig nD τ) (Lvl := ℕ) spec4 c) : sProp 𝕄)
      ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- The invariant at the last point gives them back. -/
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

end Cert.KernelIdeal.Hand

end
-- ==== Proof.KI.Reg5.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole of an index column's block. -/
abbrev r5_ix : Rect S512x1 := Rect.unit (s := S512x1) ![0, 0] S512x1.size inb_S512x1_S512x1_0_0
/-- The whole of an object-side matrix. -/
abbrev r5_fc : Rect S2048x512 := Rect.unit (s := S2048x512) ![0, 0] S2048x512.size inb_S2048x512_S2048x512_0_0
/-- The whole of a block of the target or of the result. -/
abbrev r5_o : Rect S512x512 := Rect.unit (s := S512x512) ![0, 0] S512x512.size inb_S512x512_S512x512_0_0

/-- What the body leaves in the result's staging buffer, from the five input blocks: its single store, which covers the
    buffer, of the target block plus half the sum of the two averaged gathers. -/
def out5_5 (x0 : Vec F S512x1 .i32) (x1 : Vec F S512x1 .i32) (x2 : Vec F S2048x512 .bf16) (x3 : Vec F S2048x512 .bf16)
    (x4 : Vec F S512x512 .f32) : Vec F S512x512 .f32 :=
  View.canon [⟨r5_o, k5_pay1 (k5_pay2 (View.ld x4 r5_o))
    (k5_pay3 (View.ld x0 r5_ix) (View.ld x1 r5_ix) (View.ld x2 r5_fc) (View.ld x3 r5_fc))⟩]

/-- The proof data of pipeline 5 on core `c`: the arrays as found; after the body every input's buffer still holds its
    block and the result's holds `out5_5` of the input blocks; the invariant is the untouched scoped rest beside the
    generator register; nothing is owed and every share is whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

theorem owed5 (c : Dev nD) (t) : (dat5 V c).owed t = 0 := rfl
theorem q5 (c : Dev nD) (w) : (dat5 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

/-! ## The body's triple -/

/-- The single store of the body is of the whole result block, so it covers the staging buffer. -/
theorem cover5_5 (p0 : Vec F S512x512 .f32) (y : S512x512.Idx) :
    ∃ pc ∈ ([⟨r5_o, p0⟩] : List (View.Piece (Elt F) S512x512 .f32)), y ∈ pc.1.set :=
  View.cover_of_tiled [⟨r5_o, p0⟩] S512x512.size (by rfl) y

set_option maxHeartbeats 1000000 in
/-- On whole staging memrefs, the five inputs' read at `x0 … x4` and the result's at anything, the body runs to a
    continuation that holds the inputs' as they were and the result's at `out5_5` of them: five loads inside the part,
    a dead load of the result's buffer, and the one store. -/
theorem sound_kernel5 (c : Dev nD) (E : Set ℕ) (i : grid5.Coords)
    (arg1 : Memref sig .tc .vmem S512x1 .i32) (harg1 : arg1.IsWhole) (arg2 : Memref sig .tc .vmem S512x1 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x512 .f32) (harg5 : arg5.IsWhole) (arg6 : Memref sig .tc .vmem S512x512 .f32) (harg6 : arg6.IsWhole)
    (x0 : Vec F S512x1 .i32) (x1 : Vec F S512x1 .i32) (x2 : Vec F S2048x512 .bf16) (x3 : Vec F S2048x512 .bf16) (x4 : Vec F S512x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__collect_transpose_fused_kernel i arg1 harg1 arg2 harg2 arg3 harg3 arg4 harg4 arg5 harg5 arg6 harg6) K := by
  simp only [cc5__collect_transpose_fused_kernel_eq_skeleton]; unfold cc5__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The body obligation -/

/-- What the body is entered with at grid point `t`: the invariant, what the core owes, and each window's current
    staging buffer at what it then holds. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it returns: the same at the next point, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' buffers hold their blocks, so the body's triple applies; the invariant and
    what the core owes are not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- Entering: the generator register and the scoped rest make the invariant. -/
theorem phi_in5 (c : Dev nD) : (iprop((∃ r, prngReg c r) ∗ Pipeline.scopedRest (Ix := Unit) (Name := ℕ) (U := UR sig nD τ) (Lvl := ℕ) spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant gives both back. -/
theorem phi_out5 (c : Dev nD) : (dat5 V c).Φ (Fin.last cfg5.N) ⊢ (iprop((∃ r, prngReg c r) ∗ Pipeline.scopedRest (Ix := Unit) (Name := ℕ) (U := UR sig nD τ) (Lvl := ℕ) spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.KernelIdeal.Hand
end
-- ==== Proof.KI.Reg6.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: every load and store is of a whole buffer -/

/-- an index row, -/
abbrev r6_i : Rect S1x512 := Rect.unit (s := S1x512) ![0, 0] S1x512.size inb_S1x512_S1x512_0_0
/-- a bias row, -/
abbrev r6_b : Rect S1x512 := Rect.unit (s := S1x512) ![0, 0] S1x512.size inb_S1x512_S1x512_0_0
/-- the source tile, -/
abbrev r6_s : Rect S512x512 := Rect.unit (s := S512x512) ![0, 0] S512x512.size inb_S512x512_S512x512_0_0
/-- a weight matrix, -/
abbrev r6_w : Rect S512x512 := Rect.unit (s := S512x512) ![0, 0] S512x512.size inb_S512x512_S512x512_0_0
/-- a weighted sum (and the target and output blocks), a row count. -/
abbrev r6_a : Rect S1024x512 := Rect.unit (s := S1024x512) ![0, 0] S1024x512.size inb_S1024x512_S1024x512_0_0
abbrev r6_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc6_0 (i : grid6.Coords) (x0 : Vec F S1x512 .i32) (x2 : Vec F S512x512 .f32) (x3 : Vec F S512x512 .f32) (x4 : Vec F S1x512 .f32)
    (p : Vec F S1024x512 .f32) : Vec F S1024x512 .f32 :=
  View.canon [⟨r6_a, k6_pay15 (k6_pay8 (View.ld x2 r6_s) (View.ld x3 r6_w) (View.ld x4 r6_b)) (k6_pay10 i) (k6_pay11 (View.ld x0 r6_i)) p⟩]

/-- The second weighted sum: `p + onehot(rows = idx₁) · relu(src · W₁ + b₁)`. -/
def acc6_1 (i : grid6.Coords) (x1 : Vec F S1x512 .i32) (x2 : Vec F S512x512 .f32) (x5 : Vec F S512x512 .f32) (x6 : Vec F S1x512 .f32)
    (p : Vec F S1024x512 .f32) : Vec F S1024x512 .f32 :=
  View.canon [⟨r6_a, k6_pay16 (k6_pay9 (View.ld x2 r6_s) (View.ld x5 r6_w) (View.ld x6 r6_b)) (k6_pay10 i) (k6_pay12 (View.ld x1 r6_i)) p⟩]

/-- The first row count: `p + Σ_lanes onehot(rows = idx₀)`. -/
def acc6_2 (i : grid6.Coords) (x0 : Vec F S1x512 .i32) (p : Vec F S1024x1 .f32) : Vec F S1024x1 .f32 :=
  View.canon [⟨r6_d, k6_pay17 (k6_pay10 i) (k6_pay11 (View.ld x0 r6_i)) p⟩]

/-- The second row count: `p + Σ_lanes onehot(rows = idx₁)`. -/
def acc6_3 (i : grid6.Coords) (x1 : Vec F S1x512 .i32) (p : Vec F S1024x1 .f32) : Vec F S1024x1 .f32 :=
  View.canon [⟨r6_d, k6_pay1 (k6_pay18 (k6_pay10 i) (k6_pay12 (View.ld x1 r6_i)) p)⟩]

/-- What the last point of a row block stores into the output block, from the four sums as they then stand
    and the target block: `target + ½ (a₀ / (d₀ + ε) + a₁ / (d₁ + ε))`. -/
def out6_8 (a0 : Vec F S1024x512 .f32) (d0 : Vec F S1024x1 .f32) (a1 : Vec F S1024x512 .f32) (d1 : Vec F S1024x1 .f32)
    (x7 : Vec F S1024x512 .f32) : Vec F S1024x512 .f32 :=
  View.canon [⟨r6_a, k6_pay2 (View.ld a0 r6_a) (View.ld d0 r6_d) (View.ld a1 r6_a) (View.ld d1 r6_d) (View.ld x7 r6_a)⟩]

/-! ## The four sums after each point -/

/-- THE ACCUMULATION. The four scratch arrays after the body at position `n`: at the first point of a row block
    (`n % 64 = 0`) the point's contribution over zero, else over what position `n - 1` left. -/
def scrAt6 (c : Dev nD) : (n : ℕ) → n < cfg6.N →
    Vec F S1024x512 .f32 × Vec F S1024x512 .f32 × Vec F S1024x1 .f32 × Vec F S1024x1 .f32
  | 0, hn =>
    (acc6_0 (grid6.coords ⟨0, hn⟩) (iblk6 V c 0 ⟨0, hn⟩) (iblk6 V c 2 ⟨0, hn⟩) (iblk6 V c 3 ⟨0, hn⟩) (iblk6 V c 4 ⟨0, hn⟩) (k6_pay3 (F := F)),
     acc6_1 (grid6.coords ⟨0, hn⟩) (iblk6 V c 1 ⟨0, hn⟩) (iblk6 V c 2 ⟨0, hn⟩) (iblk6 V c 5 ⟨0, hn⟩) (iblk6 V c 6 ⟨0, hn⟩) (k6_pay4 (F := F)),
     acc6_2 (grid6.coords ⟨0, hn⟩) (iblk6 V c 0 ⟨0, hn⟩) (k6_pay5 (F := F)),
     acc6_3 (grid6.coords ⟨0, hn⟩) (iblk6 V c 1 ⟨0, hn⟩) (k6_pay6 (F := F)))
  | n + 1, hn =>
    if h0 : (n + 1) % 64 = 0 then
      (acc6_0 (grid6.coords ⟨n + 1, hn⟩) (iblk6 V c 0 ⟨n + 1, hn⟩) (iblk6 V c 2 ⟨n + 1, hn⟩) (iblk6 V c 3 ⟨n + 1, hn⟩) (iblk6 V c 4 ⟨n + 1, hn⟩) (k6_pay3 (F := F)),
       acc6_1 (grid6.coords ⟨n + 1, hn⟩) (iblk6 V c 1 ⟨n + 1, hn⟩) (iblk6 V c 2 ⟨n + 1, hn⟩) (iblk6 V c 5 ⟨n + 1, hn⟩) (iblk6 V c 6 ⟨n + 1, hn⟩) (k6_pay4 (F := F)),
       acc6_2 (grid6.coords ⟨n + 1, hn⟩) (iblk6 V c 0 ⟨n + 1, hn⟩) (k6_pay5 (F := F)),
       acc6_3 (grid6.coords ⟨n + 1, hn⟩) (iblk6 V c 1 ⟨n + 1, hn⟩) (k6_pay6 (F := F)))
    else
      (acc6_0 (grid6.coords ⟨n + 1, hn⟩) (iblk6 V c 0 ⟨n + 1, hn⟩) (iblk6 V c 2 ⟨n + 1, hn⟩) (iblk6 V c 3 ⟨n + 1, hn⟩) (iblk6 V c 4 ⟨n + 1, hn⟩) (View.ld (scrAt6 c n (Nat.lt_of_succ_lt hn)).1 r6_a),
       acc6_1 (grid6.coords ⟨n + 1, hn⟩) (iblk6 V c 1 ⟨n + 1, hn⟩) (iblk6 V c 2 ⟨n + 1, hn⟩) (iblk6 V c 5 ⟨n + 1, hn⟩) (iblk6 V c 6 ⟨n + 1, hn⟩) (View.ld (scrAt6 c n (Nat.lt_of_succ_lt hn)).2.1 r6_a),
       acc6_2 (grid6.coords ⟨n + 1, hn⟩) (iblk6 V c 0 ⟨n + 1, hn⟩) (View.ld (scrAt6 c n (Nat.lt_of_succ_lt hn)).2.2.1 r6_d),
       acc6_3 (grid6.coords ⟨n + 1, hn⟩) (iblk6 V c 1 ⟨n + 1, hn⟩) (View.ld (scrAt6 c n (Nat.lt_of_succ_lt hn)).2.2.2 r6_d))

/-- The four scratch arrays after point `t`, one by one. -/
def scr6_0 (c : Dev nD) (t : Fin cfg6.N) : Vec F S1024x512 .f32 := (scrAt6 V c t.val t.isLt).1
def scr6_1 (c : Dev nD) (t : Fin cfg6.N) : Vec F S1024x512 .f32 := (scrAt6 V c t.val t.isLt).2.1
def scr6_2 (c : Dev nD) (t : Fin cfg6.N) : Vec F S1024x1 .f32 := (scrAt6 V c t.val t.isLt).2.2.1
def scr6_3 (c : Dev nD) (t : Fin cfg6.N) : Vec F S1024x1 .f32 := (scrAt6 V c t.val t.isLt).2.2.2

/-- `scrAt6` at the first point of a row block: the point's contribution over zero. -/
theorem scrAt6_first (c : Dev nD) (t : Fin cfg6.N) (h0 : t.val % 64 = 0) :
    scrAt6 V c t.val t.isLt =
      (acc6_0 (grid6.coords t) (iblk6 V c 0 t) (iblk6 V c 2 t) (iblk6 V c 3 t) (iblk6 V c 4 t) (k6_pay3 (F := F)),
       acc6_1 (grid6.coords t) (iblk6 V c 1 t) (iblk6 V c 2 t) (iblk6 V c 5 t) (iblk6 V c 6 t) (k6_pay4 (F := F)),
       acc6_2 (grid6.coords t) (iblk6 V c 0 t) (k6_pay5 (F := F)),
       acc6_3 (grid6.coords t) (iblk6 V c 1 t) (k6_pay6 (F := F))) := by
  obtain ⟨n, hn⟩ := t
  cases n with
  | zero => exact rfl
  | succ n => exact (dif_pos h0).trans rfl

/-- `scrAt6` at any other point: the point's contribution over what the point before left. -/
theorem scrAt6_next (c : Dev nD) (t : Fin cfg6.N) (h0 : ¬t.val % 64 = 0) :
    scrAt6 V c t.val t.isLt =
      (acc6_0 (grid6.coords t) (iblk6 V c 0 t) (iblk6 V c 2 t) (iblk6 V c 3 t) (iblk6 V c 4 t) (View.ld (scrAt6 V c (t.val - 1) (Nat.lt_of_le_of_lt (Nat.sub_le _ _) t.isLt)).1 r6_a),
       acc6_1 (grid6.coords t) (iblk6 V c 1 t) (iblk6 V c 2 t) (iblk6 V c 5 t) (iblk6 V c 6 t) (View.ld (scrAt6 V c (t.val - 1) (Nat.lt_of_le_of_lt (Nat.sub_le _ _) t.isLt)).2.1 r6_a),
       acc6_2 (grid6.coords t) (iblk6 V c 0 t) (View.ld (scrAt6 V c (t.val - 1) (Nat.lt_of_le_of_lt (Nat.sub_le _ _) t.isLt)).2.2.1 r6_d),
       acc6_3 (grid6.coords t) (iblk6 V c 1 t) (View.ld (scrAt6 V c (t.val - 1) (Nat.lt_of_le_of_lt (Nat.sub_le _ _) t.isLt)).2.2.2 r6_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM6_0 : Memref sig .tc .vmem S1024x512 .f32 := Memref.whole cc6_scratch0
abbrev scM6_1 : Memref sig .tc .vmem S1024x512 .f32 := Memref.whole cc6_scratch1
abbrev scM6_2 : Memref sig .tc .vmem S1024x1 .f32 := Memref.whole cc6_scratch2
abbrev scM6_3 : Memref sig .tc .vmem S1024x1 .f32 := Memref.whole cc6_scratch3

/-- The scoped buffers that are none of the four, unopened. -/
abbrev rest6 (c : Dev nD) : sProp 𝕄 :=
  Pipeline.scopedRestBut (Ix := Unit) (Name := ℕ) (U := UR sig nD τ) (Lvl := ℕ) (Val := Elt F) spec6 c [cc6_scratch0, cc6_scratch1, cc6_scratch2, cc6_scratch3]

/-- The invariant before position `n`: before the first point the four scratch arrays at anything; afterwards at what
    the point before left (`scrAt6`); beside them, throughout, the other scoped buffers unopened and the generator
    register at some state. -/
def PhiS6 (c : Dev nD) : (n : ℕ) → n ≤ cfg6.N → sProp 𝕄
  | 0, _ => iprop(iprop((∃ d, owns (c : Thread nD τ) scM6_0 fullShare d) ∗ (∃ d, owns (c : Thread nD τ) scM6_1 fullShare d)
      ∗ (∃ d, owns (c : Thread nD τ) scM6_2 fullShare d) ∗ (∃ d, owns (c : Thread nD τ) scM6_3 fullShare d))
      ∗ rest6 c ∗ (∃ r, prngReg c r))
  | n + 1, hn => iprop(iprop(owns (c : Thread nD τ) scM6_0 fullShare (scrAt6 V c n hn).1 ∗ owns (c : Thread nD τ) scM6_1 fullShare (scrAt6 V c n hn).2.1
      ∗ owns (c : Thread nD τ) scM6_2 fullShare (scrAt6 V c n hn).2.2.1 ∗ owns (c : Thread nD τ) scM6_3 fullShare (scrAt6 V c n hn).2.2.2)
      ∗ rest6 c ∗ (∃ r, prngReg c r))

theorem PhiS6_zero (c : Dev nD) (n : ℕ) (h : n ≤ cfg6.N) (hz : n = 0) :
    PhiS6 V c n h = iprop(iprop((∃ d, owns (c : Thread nD τ) scM6_0 fullShare d) ∗ (∃ d, owns (c : Thread nD τ) scM6_1 fullShare d)
      ∗ (∃ d, owns (c : Thread nD τ) scM6_2 fullShare d) ∗ (∃ d, owns (c : Thread nD τ) scM6_3 fullShare d))
      ∗ rest6 c ∗ (∃ r, prngReg c r)) := by
  subst hz; rfl

theorem PhiS6_succ (c : Dev nD) (n : ℕ) (hn : n < cfg6.N) :
    PhiS6 V c (n + 1) hn = iprop(iprop(owns (c : Thread nD τ) scM6_0 fullShare (scrAt6 V c n hn).1 ∗ owns (c : Thread nD τ) scM6_1 fullShare (scrAt6 V c n hn).2.1
      ∗ owns (c : Thread nD τ) scM6_2 fullShare (scrAt6 V c n hn).2.2.1 ∗ owns (c : Thread nD τ) scM6_3 fullShare (scrAt6 V c n hn).2.2.2)
      ∗ rest6 c ∗ (∃ r, prngReg c r)) := rfl

theorem PhiS6_pos (c : Dev nD) (n : ℕ) (h : n ≤ cfg6.N) (hz : n ≠ 0) :
    PhiS6 V c n h = iprop(iprop(owns (c : Thread nD τ) scM6_0 fullShare (scrAt6 V c (n - 1) (by omega)).1 ∗ owns (c : Thread nD τ) scM6_1 fullShare (scrAt6 V c (n - 1) (by omega)).2.1
      ∗ owns (c : Thread nD τ) scM6_2 fullShare (scrAt6 V c (n - 1) (by omega)).2.2.1 ∗ owns (c : Thread nD τ) scM6_3 fullShare (scrAt6 V c (n - 1) (by omega)).2.2.2)
      ∗ rest6 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out6_8` of the sums as they stand after `t` and the target block
    (consulted only where the block is written back, at the last point of a row block); the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (scr6_0 V c t) (scr6_2 V c t) (scr6_1 V c t) (scr6_3 V c t) (iblk6 V c 7 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (scr6_0 V c t) (scr6_2 V c t) (scr6_1 V c t) (scr6_3 V c t) (iblk6 V c 7 t) := by dsimp only [dat6]
theorem owed6 (c : Dev nD) (t) : (dat6 V c).owed t = 0 := rfl
theorem q6 (c : Dev nD) (w) : (dat6 V c).q w = fullShare := rfl

theorem PhiS6_castSucc (c : Dev nD) (t : Fin cfg6.N) :
    (dat6 V c).Φ t.castSucc = PhiS6 V c t.val (Nat.le_of_lt t.isLt) := by
  dsimp only [dat6]; simp only [Fin.coe_castSucc]

/-! ## The body's two conditions, in closed form over the grid -/

/-- The body's first condition (`k = 0`: start the sums from zero), from the grid coordinates. -/
abbrev cond6_0 (i : grid6.Coords) : Prop := (Scalar.cmpi .ne (Scalar.extui (Scalar.cmpi .eq (BitVec.ofNat 32 (i 1).val) 0#32)) 0#32) = 1#1
/-- It holds at the first point of each row block. -/
theorem hcond6_0 : ∀ t : Fin cfg6.N, cond6_0 (grid6.coords t) ↔ t.val % 64 = 0 :=
  (by decide +kernel : ∀ t : Fin grid6.N, cond6_0 (grid6.coords t) ↔ t.val % 64 = 0)
/-- The body's second condition (`k = 63`: write the output block). -/
abbrev cond6_1 (i : grid6.Coords) : Prop := k6_cond2 i = 1#1
/-- It holds at the last point of each row block. -/
theorem hcond6_1 : ∀ t : Fin cfg6.N, cond6_1 (grid6.coords t) ↔ t.val % 64 = 63 :=
  (by decide +kernel : ∀ t : Fin grid6.N, cond6_1 (grid6.coords t) ↔ t.val % 64 = 63)

/-! ## A whole-buffer store covers the buffer -/

theorem cover6_a (p0 : Vec F S1024x512 .f32) (y : S1024x512.Idx) :
    ∃ pc ∈ ([⟨r6_a, p0⟩] : List (View.Piece (Elt F) S1024x512 .f32)), y ∈ pc.1.set :=
  View.cover_of_tiled [⟨r6_a, p0⟩] S1024x512.size (by rfl) y
theorem cover6_d (p0 : Vec F S1024x1 .f32) (y : S1024x1.Idx) :
    ∃ pc ∈ ([⟨r6_d, p0⟩] : List (View.Piece (Elt F) S1024x1 .f32)), y ∈ pc.1.set :=
  View.cover_of_tiled [⟨r6_d, p0⟩] S1024x1.size (by rfl) y

/-- After writes the LAST of which covers the whole shape, the buffer reads as that write alone. -/
theorem read_writes_head_cover6 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon6_a (w : Vec F S1024x512 .f32) :
    View.ld (View.canon [(⟨r6_a, w⟩ : View.Piece (Elt F) S1024x512 .f32)]) r6_a = w :=
  funext fun x => View.canon_cons_emb r6_a w [] x
theorem ld_canon6_d (w : Vec F S1024x1 .f32) :
    View.ld (View.canon [(⟨r6_d, w⟩ : View.Piece (Elt F) S1024x1 .f32)]) r6_d = w :=
  funext fun x => View.canon_cons_emb r6_d w [] x

/-- The output block from sums that are themselves whole-buffer writes: the payloads meet directly. -/
theorem out6_8_canon (w0 w1 : Vec F S1024x512 .f32) (w2 w3 : Vec F S1024x1 .f32) (x7 : Vec F S1024x512 .f32) :
    out6_8 (View.canon [(⟨r6_a, w0⟩ : View.Piece (Elt F) S1024x512 .f32)]) (View.canon [(⟨r6_d, w2⟩ : View.Piece (Elt F) S1024x1 .f32)])
        (View.canon [(⟨r6_a, w1⟩ : View.Piece (Elt F) S1024x512 .f32)]) (View.canon [(⟨r6_d, w3⟩ : View.Piece (Elt F) S1024x1 .f32)]) x7
      = View.canon [(⟨r6_a, k6_pay2 w0 w2 w1 w3 (View.ld x7 r6_a)⟩ : View.Piece (Elt F) S1024x512 .f32)] := by
  unfold out6_8; rw [ld_canon6_a, ld_canon6_a, ld_canon6_d, ld_canon6_d]

set_option maxHeartbeats 4000000 in
/-- The first point of a row block (`k = 0`): each sum is set to zero, then the point's contribution is added to it; the
    inputs and the output block are left as they were. -/
theorem run6_A (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : cond6_0 i) (hc1 : ¬cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc6_0 i x0 x2 x3 x4 (k6_pay3 (F := F))) ∗ owns (c : Thread nD τ) arg12 fullShare (acc6_1 i x1 x2 x5 x6 (k6_pay4 (F := F)))
            ∗ owns (c : Thread nD τ) arg13 fullShare (acc6_2 i x0 (k6_pay5 (F := F))) ∗ owns (c : Thread nD τ) arg14 fullShare (acc6_3 i x1 (k6_pay6 (F := F)))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover6 _ _ _ _ (cover6_a _)).trans (by simp only [View.readCov_cons_toLoadRect]; rfl)
  isplitl [S1]
  · iexists _; isplitr
    swap; · iexact S1
    ipureintro; sl_unfold_run_names
    exact (read_writes_head_cover6 _ _ _ _ (cover6_a _)).trans (by simp only [View.readCov_cons_toLoadRect]; rfl)
  isplitl [S2]
  · iexists _; isplitr
    swap; · iexact S2
    ipureintro; sl_unfold_run_names
    exact (read_writes_head_cover6 _ _ _ _ (cover6_d _)).trans (by simp only [View.readCov_cons_toLoadRect]; rfl)
  iexists _; isplitr
  swap; · iexact S3
  ipureintro; sl_unfold_run_names
  exact (read_writes_head_cover6 _ _ _ _ (cover6_d _)).trans (by simp only [View.readCov_cons_toLoadRect]; rfl)

set_option maxHeartbeats 4000000 in
/-- A middle point of a row block (neither condition holds): each sum is loaded, the point's contribution added and stored back;
    the inputs and the output block are left as they were. -/
theorem run6_B (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond6_0 i) (hc1 : ¬cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc6_0 i x0 x2 x3 x4 (View.ld s0 r6_a)) ∗ owns (c : Thread nD τ) arg12 fullShare (acc6_1 i x1 x2 x5 x6 (View.ld s1 r6_a))
            ∗ owns (c : Thread nD τ) arg13 fullShare (acc6_2 i x0 (View.ld s2 r6_d)) ∗ owns (c : Thread nD τ) arg14 fullShare (acc6_3 i x1 (View.ld s3 r6_d))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover6_a _)
  isplitl [S1]
  · iexists _; isplitr
    swap; · iexact S1
    ipureintro; exact View.read_writes_eq_canon _ _ _ (cover6_a _)
  isplitl [S2]
  · iexists _; isplitr
    swap; · iexact S2
    ipureintro; exact View.read_writes_eq_canon _ _ _ (cover6_d _)
  iexists _; isplitr
  swap; · iexact S3
  ipureintro; exact View.read_writes_eq_canon _ _ _ (cover6_d _)

set_option maxHeartbeats 4000000 in
/-- The last point of a row block (`k = 63`): each sum is loaded, the point's contribution added and stored back, and the
    output block is written from the sums as they then stand and the target block; the inputs are left as they were. -/
theorem run6_C (c : Dev nD) (E : Set ℕ) (i : grid6.Coords) (arg2 : Memref sig .tc .vmem S1x512 .i32) (harg2 : arg2.IsWhole) (arg3 : Memref sig .tc .vmem S1x512 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x1 .f32) (harg13 : arg13.IsWhole) (arg14 : Memref sig .tc .vmem S1024x1 .f32) (harg14 : arg14.IsWhole)
    (hc0 : ¬cond6_0 i) (hc1 : cond6_1 i) (x0 : Vec F S1x512 .i32) (x1 : Vec F S1x512 .i32) (x2 : Vec F S512x512 .f32) (x3 : Vec F S512x512 .f32) (x4 : Vec F S1x512 .f32) (x5 : Vec F S512x512 .f32) (x6 : Vec F S1x512 .f32) (x7 : Vec F S1024x512 .f32)
    (s0 : Vec F S1024x512 .f32) (s1 : Vec F S1024x512 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out6_8 (acc6_0 i x0 x2 x3 x4 (View.ld s0 r6_a)) (acc6_2 i x0 (View.ld s2 r6_d)) (acc6_1 i x1 x2 x5 x6 (View.ld s1 r6_a)) (acc6_3 i x1 (View.ld s3 r6_d)) x7)
            ∗ owns (c : Thread nD τ) arg11 fullShare (acc6_0 i x0 x2 x3 x4 (View.ld s0 r6_a)) ∗ owns (c : Thread nD τ) arg12 fullShare (acc6_1 i x1 x2 x5 x6 (View.ld s1 r6_a))
            ∗ owns (c : Thread nD τ) arg13 fullShare (acc6_2 i x0 (View.ld s2 r6_d)) ∗ owns (c : Thread nD τ) arg14 fullShare (acc6_3 i x1 (View.ld s3 r6_d))) -∗ K ⟨⟩))
      ⊢ wp frame (wpE (defs₀ (F := F)) Variants.none c none) E (cc6__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc6__collect_fwd_fused_kernel_eq_skeleton]; unfold cc6__collect_fwd_fused_kernel_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover6_a _)).trans
      (by simp only [View.readCov_cons_toLoadRect]; exact (out6_8_canon _ _ _ _ _).symm)
  isplitl [S0]
  · iexists _; isplitr
    swap; · iexact S0
    ipureintro; sl_unfold_run_names
    exact View.read_writes_eq_canon _ _ _ (cover6_a _)
  isplitl [S1]
  · iexists _; isplitr
    swap; · iexact S1
    ipureintro; sl_unfold_run_names
    exact View.read_writes_eq_canon _ _ _ (cover6_a _)
  isplitl [S2]
  · iexists _; isplitr
    swap; · iexact S2
    ipureintro; sl_unfold_run_names
    exact View.read_writes_eq_canon _ _ _ (cover6_d _)
  iexists _; isplitr
  swap; · iexact S3
  ipureintro; sl_unfold_run_names
  exact View.read_writes_eq_canon _ _ _ (cover6_d _)

/-! ## Where the output window is idle, and where its block is written back -/

/-- Off the last point of a row block the body stores nothing into the output window; -/
theorem idleAt6_8 : ∀ t : Fin cfg6.N, ¬cond6_1 (grid6.coords t) → cfg6.idle 8 (grid6.coords t) = true := by decide +kernel
/-- at it, it does. -/
theorem liveAt6_8 : ∀ t : Fin cfg6.N, cond6_1 (grid6.coords t) → cfg6.idle 8 (grid6.coords t) = false := by decide +kernel
/-- The output block is written back at the last point of a row block only. -/
theorem noFlush6_8 (t : Fin cfg6.N) (h : ¬t.val % 64 = 63) : (cfg6.win 8).flush t = false :=
  Bool.eq_false_iff.mpr fun hf => h ((flush6_8 t).mp hf)

/-! ## Each input's staging buffer holds its block at every point, fetched there or not -/

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl) (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl) (fun t => by rw [after6_7]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: the inputs' buffers as they were, the output's as the point leaves it (untouched where it is idle). -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ (dat6 V c).leavesExact 8 t)

set_option maxHeartbeats 8000000 in
/-- The body at any point. The inputs' buffers hold their blocks (`before6_W`); the point's position in its row block says
    which of the three cases runs. The invariant hands the body the four sums at what the point before left (at anything before the
    very first point) and takes them back at this point's; the other scoped buffers and the generator register pass through
    unread; off the last point of a row block the output's buffer passes through as well. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5, after6_6, after6_7]
  have hN : t.val < 128 := lt_of_lt_of_eq t.isLt (show cfg6.N = 128 from N_6)
  by_cases h0 : t.val % 64 = 0
  · have h1 : ¬t.val % 64 = 63 := by omega
    have hc0 : cond6_0 (grid6.coords t) := (hcond6_0 t).mpr h0
    have hc1 : ¬cond6_1 (grid6.coords t) := fun h => h1 ((hcond6_1 t).mp h)
    rw [Dat.leavesExact_idle (dat6 V c) 8 t (idleAt6_8 t hc1) (noFlush6_8 t h1)]
    rw [scrAt6_first V c t h0]
    by_cases hz : t.val = 0
    · rw [PhiS6_castSucc V c t, PhiS6_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_A c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_A c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond6_0 (grid6.coords t) := fun h => h0 ((hcond6_0 t).mp h)
    by_cases h1 : t.val % 64 = 63
    · have hc1 : cond6_1 (grid6.coords t) := (hcond6_1 t).mpr h1
      rw [show (dat6 V c).leavesExact 8 t = owns (c : Thread nD τ) (st6_8 t) fullShare ((dat6 V c).after 8 t) from by
        unfold Dat.leavesExact; rw [liveAt6_8 t hc1], after6_8]
      unfold scr6_0 scr6_1 scr6_2 scr6_3
      rw [scrAt6_next V c t h0]
      rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run6_C c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      rw [Dat.leavesExact_idle (dat6 V c) 8 t (idleAt6_8 t hc1) (noFlush6_8 t h1)]
      rw [scrAt6_next V c t h0]
      rw [PhiS6_castSucc V c t, PhiS6_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run6_B c Set.univ (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- What the region is entered with — the generator register and the scoped buffers that are no staging buffer, the four scratch
    arrays among them at anything — is the invariant before the first point. -/
theorem phi_in6 (c : Dev nD) : (iprop((∃ r, prngReg c r) ∗ Pipeline.scopedRest (Ix := Unit) (Name := ℕ) (U := UR sig nD τ) (Lvl := ℕ) spec6 c) : sProp 𝕄) ⊢ (dat6 V c).Φ 0 := by
  rw [show (dat6 V c).Φ 0 = PhiS6 V c 0 (Nat.zero_le _) from rfl, PhiS6_zero V c 0 _ rfl, scopedRest6_split]
  simp only [scM6_0, scM6_1, scM6_2, scM6_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out6 (c : Dev nD) : (dat6 V c).Φ (Fin.last cfg6.N) ⊢ (iprop((∃ r, prngReg c r) ∗ Pipeline.scopedRest (Ix := Unit) (Name := ℕ) (U := UR sig nD τ) (Lvl := ℕ) spec6 c) : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 128 := N_6; omega), scopedRest6_split]
  simp only [scM6_0, scM6_1, scM6_2, scM6_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.KernelIdeal.Hand
end
-- ==== Proof.KI.Reg7.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The rectangles the body reads and writes: each is the whole of its buffer -/

/-- The whole input block. -/
abbrev r7_0 : Rect S512x512 := Rect.unit (s := S512x512) ![0, 0] S512x512.size inb_S512x512_S512x512_0_0
/-- The whole weight matrix. -/
abbrev r7_1 : Rect S512x512 := Rect.unit (s := S512x512) ![0, 0] S512x512.size inb_S512x512_S512x512_0_0
/-- The whole bias row. -/
abbrev r7_2 : Rect S1x512 := Rect.unit (s := S1x512) ![0, 0] S1x512.size inb_S1x512_S1x512_0_0
/-- The whole output block. -/
abbrev r7_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out7_3 (x0 : Vec F S512x512 .f32) (x1 : Vec F S512x512 .f32) (x2 : Vec F S1x512 .f32) : Vec F S512x512 .bf16 :=
  View.canon [⟨r7_3, k7_pay1 (View.ld x0 r7_0) (View.ld x1 r7_1) (View.ld x2 r7_2)⟩]

/-! ## The proof data -/

/-- The proof data of the region on core `c`: the arrays as the region finds them; after the body at point `t`
    each input's buffer still at its block and the output's at `out7_3` of the input blocks; the invariant is
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Nothing is owed at any point. -/
theorem owed7 (c : Dev nD) (t) : (dat7 V c).owed t = 0 := rfl

/-- Every window is held at the full share. -/
theorem q7 (c : Dev nD) (w) : (dat7 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix's buffer holds the matrix at every point: fetched at the first point only, its block index
    never moves afterwards, and the body leaves it in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer holds the row at every point, for the same reason. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body's triple -/

/-- The body's one store is over the whole output buffer, so it covers every index of it. -/
theorem cover7_3 (p0 : Vec F S512x512 .bf16) (y : S512x512.Idx) :
    ∃ pc ∈ ([⟨r7_3, p0⟩] : List (View.Piece (Elt F) S512x512 .bf16)), y ∈ pc.1.set :=
  View.cover_of_tiled [⟨r7_3, p0⟩] S512x512.size (by rfl) y

set_option maxHeartbeats 1000000 in
/-- The body on whole staging memrefs — the three inputs' reading `x0`, `x1`, `x2`, the output's holding anything —
    runs to a continuation that holds the inputs' as they were and the output's at `out7_3 x0 x1 x2`: the printed
    function is its skeleton of loads and one store, run operation by operation. -/
theorem sound_kernel7 (c : Dev nD) (E : Set ℕ) (i : grid7.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the two ends -/

/-- The generator register and the scoped buffers no window stages make the invariant at the first point. -/
theorem phi_in7 (c : Dev nD) :
    (iprop((∃ r, prngReg c r) ∗ Pipeline.scopedRest (Ix := Unit) (Name := ℕ) (U := UR sig nD τ) (Lvl := ℕ) spec7 c) : sProp 𝕄)
      ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- The invariant at the last point gives them back. -/
theorem phi_out7 (c : Dev nD) :
    (dat7 V c).Φ (Fin.last cfg7.N)
      ⊢ (iprop((∃ r, prngReg c r) ∗ Pipeline.scopedRest (Ix := Unit) (Name := ℕ) (U := UR sig nD τ) (Lvl := ℕ) spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

end Cert.KernelIdeal.Hand

end
-- ==== Proof.KI.Reg8.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The rectangles the body reads and writes: each is the whole of its buffer -/

/-- The whole input block. -/
abbrev r8_0 : Rect S512x512 := Rect.unit (s := S512x512) ![0, 0] S512x512.size inb_S512x512_S512x512_0_0
/-- The whole weight matrix. -/
abbrev r8_1 : Rect S512x512 := Rect.unit (s := S512x512) ![0, 0] S512x512.size inb_S512x512_S512x512_0_0
/-- The whole bias row. -/
abbrev r8_2 : Rect S1x512 := Rect.unit (s := S1x512) ![0, 0] S1x512.size inb_S1x512_S1x512_0_0
/-- The whole output block. -/
abbrev r8_3 : Rect S512x512 := Rect.unit (s := S512x512) ![0, 0] S512x512.size inb_S512x512_S512x512_0_0

/-! ## What the body leaves in the output window's buffer -/

/-- The output buffer after the body, from the three input blocks: the body's one store, of the payload
    computed from what it read of the inputs, over the whole buffer. -/
def out8_3 (x0 : Vec F S512x512 .f32) (x1 : Vec F S512x512 .f32) (x2 : Vec F S1x512 .f32) : Vec F S512x512 .bf16 :=
  View.canon [⟨r8_3, k8_pay1 (View.ld x0 r8_0) (View.ld x1 r8_1) (View.ld x2 r8_2)⟩]

/-! ## The proof data -/

/-- The proof data of the region on core `c`: the arrays as the region finds them; after the body at point `t`
    each input's buffer still at its block and the output's at `out8_3` of the input blocks; the invariant is
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

/-- Nothing is owed at any point. -/
theorem owed8 (c : Dev nD) (t) : (dat8 V c).owed t = 0 := rfl

/-- Every window is held at the full share. -/
theorem q8 (c : Dev nD) (w) : (dat8 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weight matrix's buffer holds the matrix at every point: fetched at the first point only, its block index
    never moves afterwards, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row's buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body's triple -/

/-- The body's one store is over the whole output buffer, so it covers every index of it. -/
theorem cover8_3 (p0 : Vec F S512x512 .bf16) (y : S512x512.Idx) :
    ∃ pc ∈ ([⟨r8_3, p0⟩] : List (View.Piece (Elt F) S512x512 .bf16)), y ∈ pc.1.set :=
  View.cover_of_tiled [⟨r8_3, p0⟩] S512x512.size (by rfl) y

set_option maxHeartbeats 1000000 in
/-- The body on whole staging memrefs — the three inputs' reading `x0`, `x1`, `x2`, the output's holding anything —
    runs to a continuation that holds the inputs' as they were and the output's at `out8_3 x0 x1 x2`: the printed
    function is its skeleton of loads and one store, run operation by operation. -/
theorem sound_kernel8 (c : Dev nD) (E : Set ℕ) (i : grid8.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .bf16) (harg4 : arg4.IsWhole)
    (x0 : Vec F S512x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The generator register and the scoped buffers no window stages make the invariant at the first point. -/
theorem phi_in8 (c : Dev nD) :
    (iprop((∃ r, prngReg c r) ∗ Pipeline.scopedRest (Ix := Unit) (Name := ℕ) (U := UR sig nD τ) (Lvl := ℕ) spec8 c) : sProp 𝕄)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- The invariant at the last point gives them back. -/
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) spec8 c) : sProp 𝕄) := by
  rw [show (dat8 V c).Φ (Fin.last _) = Pipeline.ΦA spec8 c from rfl]; unfold Pipeline.ΦA
  iintro ⟨Hr, Hp⟩
  isplitl [Hp]; · iexact Hp
  iexact Hr

end Cert.KernelIdeal.Hand

end
-- ==== Proof.KI.Reg9.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 9: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The whole of an index column's block. -/
abbrev r9_ix : Rect S512x1 := Rect.unit (s := S512x1) ![0, 0] S512x1.size inb_S512x1_S512x1_0_0
/-- The whole of an object-side matrix. -/
abbrev r9_fc : Rect S2048x512 := Rect.unit (s := S2048x512) ![0, 0] S2048x512.size inb_S2048x512_S2048x512_0_0
/-- The whole of a block of the target or of the result. -/
abbrev r9_o : Rect S512x512 := Rect.unit (s := S512x512) ![0, 0] S512x512.size inb_S512x512_S512x512_0_0

/-- What the body leaves in the result's staging buffer, from the five input blocks: its single store, which covers the
    buffer, of the target block plus half the sum of the two averaged gathers. -/
def out9_5 (x0 : Vec F S512x1 .i32) (x1 : Vec F S512x1 .i32) (x2 : Vec F S2048x512 .bf16) (x3 : Vec F S2048x512 .bf16)
    (x4 : Vec F S512x512 .f32) : Vec F S512x512 .f32 :=
  View.canon [⟨r9_o, k9_pay1 (k9_pay2 (View.ld x4 r9_o))
    (k9_pay3 (View.ld x0 r9_ix) (View.ld x1 r9_ix) (View.ld x2 r9_fc) (View.ld x3 r9_fc))⟩]

/-- The proof data of pipeline 9 on core `c`: the arrays as found; after the body every input's buffer still holds its
    block and the result's holds `out9_5` of the input blocks; the invariant is the untouched scoped rest beside the
    generator register; nothing is owed and every share is whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t =
    out9_5 (iblk9 V c 0 t) (iblk9 V c 1 t) (iblk9 V c 2 t) (iblk9 V c 3 t) (iblk9 V c 4 t) := by dsimp only [dat9]

theorem owed9 (c : Dev nD) (t) : (dat9 V c).owed t = 0 := rfl
theorem q9 (c : Dev nD) (w) : (dat9 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before9_0 (c : Dev nD) (t : Fin cfg9.N) (d) : (dat9 V c).before 0 t d = iblk9 V c 0 t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
      (fun t => by rw [after9_4]; unfold Dat.blockOf iblk9; rw [A_eq9]; try rfl) t d).trans
    (by unfold Dat.fetched Dat.blockOf iblk9; rw [A_eq9]; try rfl)

/-! ## The body's triple -/

/-- The single store of the body is of the whole result block, so it covers the staging buffer. -/
theorem cover9_5 (p0 : Vec F S512x512 .f32) (y : S512x512.Idx) :
    ∃ pc ∈ ([⟨r9_o, p0⟩] : List (View.Piece (Elt F) S512x512 .f32)), y ∈ pc.1.set :=
  View.cover_of_tiled [⟨r9_o, p0⟩] S512x512.size (by rfl) y

set_option maxHeartbeats 1000000 in
/-- On whole staging memrefs, the five inputs' read at `x0 … x4` and the result's at anything, the body runs to a
    continuation that holds the inputs' as they were and the result's at `out9_5` of them: five loads inside the part,
    a dead load of the result's buffer, and the one store. -/
theorem sound_kernel9 (c : Dev nD) (E : Set ℕ) (i : grid9.Coords)
    (arg1 : Memref sig .tc .vmem S512x1 .i32) (harg1 : arg1.IsWhole) (arg2 : Memref sig .tc .vmem S512x1 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x512 .f32) (harg5 : arg5.IsWhole) (arg6 : Memref sig .tc .vmem S512x512 .f32) (harg6 : arg6.IsWhole)
    (x0 : Vec F S512x1 .i32) (x1 : Vec F S512x1 .i32) (x2 : Vec F S2048x512 .bf16) (x3 : Vec F S2048x512 .bf16) (x4 : Vec F S512x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__collect_transpose_fused_kernel i arg1 harg1 arg2 harg2 arg3 harg3 arg4 harg4 arg5 harg5 arg6 harg6) K := by
  simp only [cc9__collect_transpose_fused_kernel_eq_skeleton]; unfold cc9__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The body obligation -/

/-- What the body is entered with at grid point `t`: the invariant, what the core owes, and each window's current
    staging buffer at what it then holds. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What it returns: the same at the next point, each buffer at what the body leaves in it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any grid point: the inputs' buffers hold their blocks, so the body's triple applies; the invariant and
    what the core owes are not read and pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- Entering: the generator register and the scoped rest make the invariant. -/
theorem phi_in9 (c : Dev nD) : (iprop((∃ r, prngReg c r) ∗ Pipeline.scopedRest (Ix := Unit) (Name := ℕ) (U := UR sig nD τ) (Lvl := ℕ) spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- Leaving: the invariant gives both back. -/
theorem phi_out9 (c : Dev nD) : (dat9 V c).Φ (Fin.last cfg9.N) ⊢ (iprop((∃ r, prngReg c r) ∗ Pipeline.scopedRest (Ix := Unit) (Name := ℕ) (U := UR sig nD τ) (Lvl := ℕ) spec9 c) : sProp 𝕄) := by
  rw [show (dat9 V c).Φ (Fin.last cfg9.N) = Pipeline.ΦA spec9 c from rfl]; unfold Pipeline.ΦA
  iintro ⟨Hr, Hp⟩
  isplitl [Hp]; · iexact Hp
  iexact Hr

end Cert.KernelIdeal.Hand
end
-- ==== Proof.KI.Reg10.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The rectangles the body reads and writes: each is the whole of its buffer -/

/-- The whole input block. -/
abbrev r10_0 : Rect S512x512 := Rect.unit (s := S512x512) ![0, 0] S512x512.size inb_S512x512_S512x512_0_0
/-- The whole weight matrix. -/
abbrev r10_1 : Rect S512x256 := Rect.unit (s := S512x256) ![0, 0] S512x256.size inb_S512x256_S512x256_0_0
/-- The whole bias row. -/
abbrev r10_2 : Rect S1x256 := Rect.unit (s := S1x256) ![0, 0] S1x256.size inb_S1x256_S1x256_0_0
/-- The whole output block. -/
abbrev r10_3 : Rect S512x256 := Rect.unit (s := S512x256) ![0, 0] S512x256.size inb_S512x256_S512x256_0_0

/-! ## What the body leaves in the output window's buffer -/

/-- The output buffer after the body, from the three input blocks: the body's one store, of the payload
    computed from what it read of the inputs, over the whole buffer. -/
def out10_3 (x0 : Vec F S512x512 .f32) (x1 : Vec F S512x256 .f32) (x2 : Vec F S1x256 .f32) : Vec F S512x256 .f32 :=
  View.canon [⟨r10_3, k10_pay1 (View.ld x0 r10_0) (View.ld x1 r10_1) (View.ld x2 r10_2)⟩]

/-! ## The proof data -/

/-- The proof data of the region on core `c`: the arrays as the region finds them; after the body at point `t`
    each input's buffer still at its block and the output's at `out10_3` of the input blocks; the invariant is
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Nothing is owed at any point. -/
theorem owed10 (c : Dev nD) (t) : (dat10 V c).owed t = 0 := rfl

/-- Every window is held at the full share. -/
theorem q10 (c : Dev nD) (w) : (dat10 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weight matrix's buffer holds the matrix at every point: fetched at the first point only, its block index
    never moves afterwards, and the body leaves it in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row's buffer holds the row at every point, for the same reason. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body's triple -/

/-- The body's one store is over the whole output buffer, so it covers every index of it. -/
theorem cover10_3 (p0 : Vec F S512x256 .f32) (y : S512x256.Idx) :
    ∃ pc ∈ ([⟨r10_3, p0⟩] : List (View.Piece (Elt F) S512x256 .f32)), y ∈ pc.1.set :=
  View.cover_of_tiled [⟨r10_3, p0⟩] S512x256.size (by rfl) y

set_option maxHeartbeats 1000000 in
/-- The body on whole staging memrefs — the three inputs' reading `x0`, `x1`, `x2`, the output's holding anything —
    runs to a continuation that holds the inputs' as they were and the output's at `out10_3 x0 x1 x2`: the printed
    function is its skeleton of loads and one store, run operation by operation. -/
theorem sound_kernel10 (c : Dev nD) (E : Set ℕ) (i : grid10.Coords)
    (arg1 : Memref sig .tc .vmem S512x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the two ends -/

/-- The generator register and the scoped buffers no window stages make the invariant at the first point. -/
theorem phi_in10 (c : Dev nD) :
    (iprop((∃ r, prngReg c r) ∗ Pipeline.scopedRest (Ix := Unit) (Name := ℕ) (U := UR sig nD τ) (Lvl := ℕ) spec10 c) : sProp 𝕄)
      ⊢ (dat10 V c).Φ 0 := by
  rw [show (dat10 V c).Φ 0 = Pipeline.ΦA spec10 c from rfl]; unfold Pipeline.ΦA
  iintro ⟨Hp, Hr⟩
  isplitl [Hr]; · iexact Hr
  iexact Hp

/-- The invariant at the last point gives them back. -/
theorem phi_out10 (c : Dev nD) :
    (dat10 V c).Φ (Fin.last cfg10.N)
      ⊢ (iprop((∃ r, prngReg c r) ∗ Pipeline.scopedRest (Ix := Unit) (Name := ℕ) (U := UR sig nD τ) (Lvl := ℕ) spec10 c) : sProp 𝕄) := by
  rw [show (dat10 V c).Φ (Fin.last _) = Pipeline.ΦA spec10 c from rfl]; unfold Pipeline.ΦA
  iintro ⟨Hr, Hp⟩
  isplitl [Hp]; · iexact Hp
  iexact Hr

end Cert.KernelIdeal.Hand

end
-- ==== Proof.KI.Reg11.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The rectangles the body reads and writes: each is the whole of its buffer -/

/-- The whole input block. -/
abbrev r11_0 : Rect S512x512 := Rect.unit (s := S512x512) ![0, 0] S512x512.size inb_S512x512_S512x512_0_0
/-- The whole weight matrix. -/
abbrev r11_1 : Rect S512x128 := Rect.unit (s := S512x128) ![0, 0] S512x128.size inb_S512x128_S512x128_0_0
/-- The whole bias row. -/
abbrev r11_2 : Rect S1x128 := Rect.unit (s := S1x128) ![0, 0] S1x128.size inb_S1x128_S1x128_0_0
/-- The whole output block. -/
abbrev r11_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out11_3 (x0 : Vec F S512x512 .f32) (x1 : Vec F S512x128 .f32) (x2 : Vec F S1x128 .f32) : Vec F S512x128 .f32 :=
  View.canon [⟨r11_3, k11_pay1 (View.ld x0 r11_0) (View.ld x1 r11_1) (View.ld x2 r11_2)⟩]

/-! ## The proof data -/

/-- The proof data of the region on core `c`: the arrays as the region finds them; after the body at point `t`
    each input's buffer still at its block and the output's at `out11_3` of the input blocks; the invariant is
    the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- Nothing is owed at any point. -/
theorem owed11 (c : Dev nD) (t) : (dat11 V c).owed t = 0 := rfl

/-- Every window is held at the full share. -/
theorem q11 (c : Dev nD) (w) : (dat11 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The weight matrix's buffer holds the matrix at every point: fetched at the first point only, its block index
    never moves afterwards, and the body leaves it in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The bias row's buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body's triple -/

/-- The body's one store is over the whole output buffer, so it covers every index of it. -/
theorem cover11_3 (p0 : Vec F S512x128 .f32) (y : S512x128.Idx) :
    ∃ pc ∈ ([⟨r11_3, p0⟩] : List (View.Piece (Elt F) S512x128 .f32)), y ∈ pc.1.set :=
  View.cover_of_tiled [⟨r11_3, p0⟩] S512x128.size (by rfl) y

set_option maxHeartbeats 1000000 in
/-- The body on whole staging memrefs — the three inputs' reading `x0`, `x1`, `x2`, the output's holding anything —
    runs to a continuation that holds the inputs' as they were and the output's at `out11_3 x0 x1 x2`: the printed
    function is its skeleton of loads and one store, run operation by operation. -/
theorem sound_kernel11 (c : Dev nD) (E : Set ℕ) (i : grid11.Coords)
    (arg1 : Memref sig .tc .vmem S512x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the body's triple applies; the invariant and
    what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the two ends -/

/-- The generator register and the scoped buffers no window stages make the invariant at the first point. -/
theorem phi_in11 (c : Dev nD) :
    (iprop((∃ r, prngReg c r) ∗ Pipeline.scopedRest (Ix := Unit) (Name := ℕ) (U := UR sig nD τ) (Lvl := ℕ) spec11 c) : sProp 𝕄)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- The invariant at the last point gives them back. -/
theorem phi_out11 (c : Dev nD) :
    (dat11 V c).Φ (Fin.last cfg11.N)
      ⊢ (iprop((∃ r, prngReg c r) ∗ Pipeline.scopedRest (Ix := Unit) (Name := ℕ) (U := UR sig nD τ) (Lvl := ℕ) spec11 c) : sProp 𝕄) := by
  rw [show (dat11 V c).Φ (Fin.last _) = Pipeline.ΦA spec11 c from rfl]; unfold Pipeline.ΦA
  iintro ⟨Hr, Hp⟩
  isplitl [Hp]; · iexact Hp
  iexact Hr

end Cert.KernelIdeal.Hand

end
-- ==== Proof.KI.Reg12.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 12: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: every load and store is of a whole buffer -/

/-- an index row, -/
abbrev r12_i : Rect S1x512 := Rect.unit (s := S1x512) ![0, 0] S1x512.size inb_S1x512_S1x512_0_0
/-- a bias row, -/
abbrev r12_b : Rect S1x256 := Rect.unit (s := S1x256) ![0, 0] S1x256.size inb_S1x256_S1x256_0_0
/-- the source tile, -/
abbrev r12_s : Rect S512x128 := Rect.unit (s := S512x128) ![0, 0] S512x128.size inb_S512x128_S512x128_0_0
/-- a weight matrix, -/
abbrev r12_w : Rect S128x256 := Rect.unit (s := S128x256) ![0, 0] S128x256.size inb_S128x256_S128x256_0_0
/-- a weighted sum (and the target and output blocks), a row count. -/
abbrev r12_a : Rect S1024x256 := Rect.unit (s := S1024x256) ![0, 0] S1024x256.size inb_S1024x256_S1024x256_0_0
abbrev r12_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc12_0 (i : grid12.Coords) (x0 : Vec F S1x512 .i32) (x2 : Vec F S512x128 .f32) (x3 : Vec F S128x256 .f32) (x4 : Vec F S1x256 .f32)
    (p : Vec F S1024x256 .f32) : Vec F S1024x256 .f32 :=
  View.canon [⟨r12_a, k12_pay15 (k12_pay8 (View.ld x2 r12_s) (View.ld x3 r12_w) (View.ld x4 r12_b)) (k12_pay10 i) (k12_pay11 (View.ld x0 r12_i)) p⟩]

/-- The second weighted sum: `p + onehot(rows = idx₁) · relu(src · W₁ + b₁)`. -/
def acc12_1 (i : grid12.Coords) (x1 : Vec F S1x512 .i32) (x2 : Vec F S512x128 .f32) (x5 : Vec F S128x256 .f32) (x6 : Vec F S1x256 .f32)
    (p : Vec F S1024x256 .f32) : Vec F S1024x256 .f32 :=
  View.canon [⟨r12_a, k12_pay16 (k12_pay9 (View.ld x2 r12_s) (View.ld x5 r12_w) (View.ld x6 r12_b)) (k12_pay10 i) (k12_pay12 (View.ld x1 r12_i)) p⟩]

/-- The first row count: `p + Σ_lanes onehot(rows = idx₀)`. -/
def acc12_2 (i : grid12.Coords) (x0 : Vec F S1x512 .i32) (p : Vec F S1024x1 .f32) : Vec F S1024x1 .f32 :=
  View.canon [⟨r12_d, k12_pay17 (k12_pay10 i) (k12_pay11 (View.ld x0 r12_i)) p⟩]

/-- The second row count: `p + Σ_lanes onehot(rows = idx₁)`. -/
def acc12_3 (i : grid12.Coords) (x1 : Vec F S1x512 .i32) (p : Vec F S1024x1 .f32) : Vec F S1024x1 .f32 :=
  View.canon [⟨r12_d, k12_pay1 (k12_pay18 (k12_pay10 i) (k12_pay12 (View.ld x1 r12_i)) p)⟩]

/-- What the last point of a row block stores into the output block, from the four sums as they then stand
    and the target block: `target + ½ (a₀ / (d₀ + ε) + a₁ / (d₁ + ε))`. -/
def out12_8 (a0 : Vec F S1024x256 .f32) (d0 : Vec F S1024x1 .f32) (a1 : Vec F S1024x256 .f32) (d1 : Vec F S1024x1 .f32)
    (x7 : Vec F S1024x256 .f32) : Vec F S1024x256 .f32 :=
  View.canon [⟨r12_a, k12_pay2 (View.ld a0 r12_a) (View.ld d0 r12_d) (View.ld a1 r12_a) (View.ld d1 r12_d) (View.ld x7 r12_a)⟩]

/-! ## The four sums after each point -/

/-- THE ACCUMULATION. The four scratch arrays after the body at position `n`: at the first point of a row block
    (`n % 64 = 0`) the point's contribution over zero, else over what position `n - 1` left. -/
def scrAt12 (c : Dev nD) : (n : ℕ) → n < cfg12.N →
    Vec F S1024x256 .f32 × Vec F S1024x256 .f32 × Vec F S1024x1 .f32 × Vec F S1024x1 .f32
  | 0, hn =>
    (acc12_0 (grid12.coords ⟨0, hn⟩) (iblk12 V c 0 ⟨0, hn⟩) (iblk12 V c 2 ⟨0, hn⟩) (iblk12 V c 3 ⟨0, hn⟩) (iblk12 V c 4 ⟨0, hn⟩) (k12_pay3 (F := F)),
     acc12_1 (grid12.coords ⟨0, hn⟩) (iblk12 V c 1 ⟨0, hn⟩) (iblk12 V c 2 ⟨0, hn⟩) (iblk12 V c 5 ⟨0, hn⟩) (iblk12 V c 6 ⟨0, hn⟩) (k12_pay4 (F := F)),
     acc12_2 (grid12.coords ⟨0, hn⟩) (iblk12 V c 0 ⟨0, hn⟩) (k12_pay5 (F := F)),
     acc12_3 (grid12.coords ⟨0, hn⟩) (iblk12 V c 1 ⟨0, hn⟩) (k12_pay6 (F := F)))
  | n + 1, hn =>
    if h0 : (n + 1) % 64 = 0 then
      (acc12_0 (grid12.coords ⟨n + 1, hn⟩) (iblk12 V c 0 ⟨n + 1, hn⟩) (iblk12 V c 2 ⟨n + 1, hn⟩) (iblk12 V c 3 ⟨n + 1, hn⟩) (iblk12 V c 4 ⟨n + 1, hn⟩) (k12_pay3 (F := F)),
       acc12_1 (grid12.coords ⟨n + 1, hn⟩) (iblk12 V c 1 ⟨n + 1, hn⟩) (iblk12 V c 2 ⟨n + 1, hn⟩) (iblk12 V c 5 ⟨n + 1, hn⟩) (iblk12 V c 6 ⟨n + 1, hn⟩) (k12_pay4 (F := F)),
       acc12_2 (grid12.coords ⟨n + 1, hn⟩) (iblk12 V c 0 ⟨n + 1, hn⟩) (k12_pay5 (F := F)),
       acc12_3 (grid12.coords ⟨n + 1, hn⟩) (iblk12 V c 1 ⟨n + 1, hn⟩) (k12_pay6 (F := F)))
    else
      (acc12_0 (grid12.coords ⟨n + 1, hn⟩) (iblk12 V c 0 ⟨n + 1, hn⟩) (iblk12 V c 2 ⟨n + 1, hn⟩) (iblk12 V c 3 ⟨n + 1, hn⟩) (iblk12 V c 4 ⟨n + 1, hn⟩) (View.ld (scrAt12 c n (Nat.lt_of_succ_lt hn)).1 r12_a),
       acc12_1 (grid12.coords ⟨n + 1, hn⟩) (iblk12 V c 1 ⟨n + 1, hn⟩) (iblk12 V c 2 ⟨n + 1, hn⟩) (iblk12 V c 5 ⟨n + 1, hn⟩) (iblk12 V c 6 ⟨n + 1, hn⟩) (View.ld (scrAt12 c n (Nat.lt_of_succ_lt hn)).2.1 r12_a),
       acc12_2 (grid12.coords ⟨n + 1, hn⟩) (iblk12 V c 0 ⟨n + 1, hn⟩) (View.ld (scrAt12 c n (Nat.lt_of_succ_lt hn)).2.2.1 r12_d),
       acc12_3 (grid12.coords ⟨n + 1, hn⟩) (iblk12 V c 1 ⟨n + 1, hn⟩) (View.ld (scrAt12 c n (Nat.lt_of_succ_lt hn)).2.2.2 r12_d))

/-- The four scratch arrays after point `t`, one by one. -/
def scr12_0 (c : Dev nD) (t : Fin cfg12.N) : Vec F S1024x256 .f32 := (scrAt12 V c t.val t.isLt).1
def scr12_1 (c : Dev nD) (t : Fin cfg12.N) : Vec F S1024x256 .f32 := (scrAt12 V c t.val t.isLt).2.1
def scr12_2 (c : Dev nD) (t : Fin cfg12.N) : Vec F S1024x1 .f32 := (scrAt12 V c t.val t.isLt).2.2.1
def scr12_3 (c : Dev nD) (t : Fin cfg12.N) : Vec F S1024x1 .f32 := (scrAt12 V c t.val t.isLt).2.2.2

/-- `scrAt12` at the first point of a row block: the point's contribution over zero. -/
theorem scrAt12_first (c : Dev nD) (t : Fin cfg12.N) (h0 : t.val % 64 = 0) :
    scrAt12 V c t.val t.isLt =
      (acc12_0 (grid12.coords t) (iblk12 V c 0 t) (iblk12 V c 2 t) (iblk12 V c 3 t) (iblk12 V c 4 t) (k12_pay3 (F := F)),
       acc12_1 (grid12.coords t) (iblk12 V c 1 t) (iblk12 V c 2 t) (iblk12 V c 5 t) (iblk12 V c 6 t) (k12_pay4 (F := F)),
       acc12_2 (grid12.coords t) (iblk12 V c 0 t) (k12_pay5 (F := F)),
       acc12_3 (grid12.coords t) (iblk12 V c 1 t) (k12_pay6 (F := F))) := by
  obtain ⟨n, hn⟩ := t
  cases n with
  | zero => exact rfl
  | succ n => exact (dif_pos h0).trans rfl

/-- `scrAt12` at any other point: the point's contribution over what the point before left. -/
theorem scrAt12_next (c : Dev nD) (t : Fin cfg12.N) (h0 : ¬t.val % 64 = 0) :
    scrAt12 V c t.val t.isLt =
      (acc12_0 (grid12.coords t) (iblk12 V c 0 t) (iblk12 V c 2 t) (iblk12 V c 3 t) (iblk12 V c 4 t) (View.ld (scrAt12 V c (t.val - 1) (Nat.lt_of_le_of_lt (Nat.sub_le _ _) t.isLt)).1 r12_a),
       acc12_1 (grid12.coords t) (iblk12 V c 1 t) (iblk12 V c 2 t) (iblk12 V c 5 t) (iblk12 V c 6 t) (View.ld (scrAt12 V c (t.val - 1) (Nat.lt_of_le_of_lt (Nat.sub_le _ _) t.isLt)).2.1 r12_a),
       acc12_2 (grid12.coords t) (iblk12 V c 0 t) (View.ld (scrAt12 V c (t.val - 1) (Nat.lt_of_le_of_lt (Nat.sub_le _ _) t.isLt)).2.2.1 r12_d),
       acc12_3 (grid12.coords t) (iblk12 V c 1 t) (View.ld (scrAt12 V c (t.val - 1) (Nat.lt_of_le_of_lt (Nat.sub_le _ _) t.isLt)).2.2.2 r12_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM12_0 : Memref sig .tc .vmem S1024x256 .f32 := Memref.whole cc12_scratch0
abbrev scM12_1 : Memref sig .tc .vmem S1024x256 .f32 := Memref.whole cc12_scratch1
abbrev scM12_2 : Memref sig .tc .vmem S1024x1 .f32 := Memref.whole cc12_scratch2
abbrev scM12_3 : Memref sig .tc .vmem S1024x1 .f32 := Memref.whole cc12_scratch3

/-- The scoped buffers that are none of the four, unopened. -/
abbrev rest12 (c : Dev nD) : sProp 𝕄 :=
  Pipeline.scopedRestBut (Ix := Unit) (Name := ℕ) (U := UR sig nD τ) (Lvl := ℕ) (Val := Elt F) spec12 c [cc12_scratch0, cc12_scratch1, cc12_scratch2, cc12_scratch3]

/-- The invariant before position `n`: before the first point the four scratch arrays at anything; afterwards at what
    the point before left (`scrAt12`); beside them, throughout, the other scoped buffers unopened and the generator
    register at some state. -/
def PhiS12 (c : Dev nD) : (n : ℕ) → n ≤ cfg12.N → sProp 𝕄
  | 0, _ => iprop(iprop((∃ d, owns (c : Thread nD τ) scM12_0 fullShare d) ∗ (∃ d, owns (c : Thread nD τ) scM12_1 fullShare d)
      ∗ (∃ d, owns (c : Thread nD τ) scM12_2 fullShare d) ∗ (∃ d, owns (c : Thread nD τ) scM12_3 fullShare d))
      ∗ rest12 c ∗ (∃ r, prngReg c r))
  | n + 1, hn => iprop(iprop(owns (c : Thread nD τ) scM12_0 fullShare (scrAt12 V c n hn).1 ∗ owns (c : Thread nD τ) scM12_1 fullShare (scrAt12 V c n hn).2.1
      ∗ owns (c : Thread nD τ) scM12_2 fullShare (scrAt12 V c n hn).2.2.1 ∗ owns (c : Thread nD τ) scM12_3 fullShare (scrAt12 V c n hn).2.2.2)
      ∗ rest12 c ∗ (∃ r, prngReg c r))

theorem PhiS12_zero (c : Dev nD) (n : ℕ) (h : n ≤ cfg12.N) (hz : n = 0) :
    PhiS12 V c n h = iprop(iprop((∃ d, owns (c : Thread nD τ) scM12_0 fullShare d) ∗ (∃ d, owns (c : Thread nD τ) scM12_1 fullShare d)
      ∗ (∃ d, owns (c : Thread nD τ) scM12_2 fullShare d) ∗ (∃ d, owns (c : Thread nD τ) scM12_3 fullShare d))
      ∗ rest12 c ∗ (∃ r, prngReg c r)) := by
  subst hz; rfl

theorem PhiS12_succ (c : Dev nD) (n : ℕ) (hn : n < cfg12.N) :
    PhiS12 V c (n + 1) hn = iprop(iprop(owns (c : Thread nD τ) scM12_0 fullShare (scrAt12 V c n hn).1 ∗ owns (c : Thread nD τ) scM12_1 fullShare (scrAt12 V c n hn).2.1
      ∗ owns (c : Thread nD τ) scM12_2 fullShare (scrAt12 V c n hn).2.2.1 ∗ owns (c : Thread nD τ) scM12_3 fullShare (scrAt12 V c n hn).2.2.2)
      ∗ rest12 c ∗ (∃ r, prngReg c r)) := rfl

theorem PhiS12_pos (c : Dev nD) (n : ℕ) (h : n ≤ cfg12.N) (hz : n ≠ 0) :
    PhiS12 V c n h = iprop(iprop(owns (c : Thread nD τ) scM12_0 fullShare (scrAt12 V c (n - 1) (by omega)).1 ∗ owns (c : Thread nD τ) scM12_1 fullShare (scrAt12 V c (n - 1) (by omega)).2.1
      ∗ owns (c : Thread nD τ) scM12_2 fullShare (scrAt12 V c (n - 1) (by omega)).2.2.1 ∗ owns (c : Thread nD τ) scM12_3 fullShare (scrAt12 V c (n - 1) (by omega)).2.2.2)
      ∗ rest12 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out12_8` of the sums as they stand after `t` and the target block
    (consulted only where the block is written back, at the last point of a row block); the invariant `PhiS12`; nothing owed;
    full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (scr12_0 V c t) (scr12_2 V c t) (scr12_1 V c t) (scr12_3 V c t) (iblk12 V c 7 t)
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) :
    (dat12 V c).after 8 t = out12_8 (scr12_0 V c t) (scr12_2 V c t) (scr12_1 V c t) (scr12_3 V c t) (iblk12 V c 7 t) := by dsimp only [dat12]
theorem owed12 (c : Dev nD) (t) : (dat12 V c).owed t = 0 := rfl
theorem q12 (c : Dev nD) (w) : (dat12 V c).q w = fullShare := rfl

theorem PhiS12_castSucc (c : Dev nD) (t : Fin cfg12.N) :
    (dat12 V c).Φ t.castSucc = PhiS12 V c t.val (Nat.le_of_lt t.isLt) := by
  dsimp only [dat12]; simp only [Fin.coe_castSucc]

/-! ## The body's two conditions, in closed form over the grid -/

/-- The body's first condition (`k = 0`: start the sums from zero), from the grid coordinates. -/
abbrev cond12_0 (i : grid12.Coords) : Prop := (Scalar.cmpi .ne (Scalar.extui (Scalar.cmpi .eq (BitVec.ofNat 32 (i 1).val) 0#32)) 0#32) = 1#1
/-- It holds at the first point of each row block. -/
theorem hcond12_0 : ∀ t : Fin cfg12.N, cond12_0 (grid12.coords t) ↔ t.val % 64 = 0 :=
  (by decide +kernel : ∀ t : Fin grid12.N, cond12_0 (grid12.coords t) ↔ t.val % 64 = 0)
/-- The body's second condition (`k = 63`: write the output block). -/
abbrev cond12_1 (i : grid12.Coords) : Prop := k12_cond2 i = 1#1
/-- It holds at the last point of each row block. -/
theorem hcond12_1 : ∀ t : Fin cfg12.N, cond12_1 (grid12.coords t) ↔ t.val % 64 = 63 :=
  (by decide +kernel : ∀ t : Fin grid12.N, cond12_1 (grid12.coords t) ↔ t.val % 64 = 63)

/-! ## A whole-buffer store covers the buffer -/

theorem cover12_a (p0 : Vec F S1024x256 .f32) (y : S1024x256.Idx) :
    ∃ pc ∈ ([⟨r12_a, p0⟩] : List (View.Piece (Elt F) S1024x256 .f32)), y ∈ pc.1.set :=
  View.cover_of_tiled [⟨r12_a, p0⟩] S1024x256.size (by rfl) y
theorem cover12_d (p0 : Vec F S1024x1 .f32) (y : S1024x1.Idx) :
    ∃ pc ∈ ([⟨r12_d, p0⟩] : List (View.Piece (Elt F) S1024x1 .f32)), y ∈ pc.1.set :=
  View.cover_of_tiled [⟨r12_d, p0⟩] S1024x1.size (by rfl) y

/-- After writes the LAST of which covers the whole shape, the buffer reads as that write alone. -/
theorem read_writes_head_cover12 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon12_a (w : Vec F S1024x256 .f32) :
    View.ld (View.canon [(⟨r12_a, w⟩ : View.Piece (Elt F) S1024x256 .f32)]) r12_a = w :=
  funext fun x => View.canon_cons_emb r12_a w [] x
theorem ld_canon12_d (w : Vec F S1024x1 .f32) :
    View.ld (View.canon [(⟨r12_d, w⟩ : View.Piece (Elt F) S1024x1 .f32)]) r12_d = w :=
  funext fun x => View.canon_cons_emb r12_d w [] x

/-- The output block from sums that are themselves whole-buffer writes: the payloads meet directly. -/
theorem out12_8_canon (w0 w1 : Vec F S1024x256 .f32) (w2 w3 : Vec F S1024x1 .f32) (x7 : Vec F S1024x256 .f32) :
    out12_8 (View.canon [(⟨r12_a, w0⟩ : View.Piece (Elt F) S1024x256 .f32)]) (View.canon [(⟨r12_d, w2⟩ : View.Piece (Elt F) S1024x1 .f32)])
        (View.canon [(⟨r12_a, w1⟩ : View.Piece (Elt F) S1024x256 .f32)]) (View.canon [(⟨r12_d, w3⟩ : View.Piece (Elt F) S1024x1 .f32)]) x7
      = View.canon [(⟨r12_a, k12_pay2 w0 w2 w1 w3 (View.ld x7 r12_a)⟩ : View.Piece (Elt F) S1024x256 .f32)] := by
  unfold out12_8; rw [ld_canon12_a, ld_canon12_a, ld_canon12_d, ld_canon12_d]

set_option maxHeartbeats 4000000 in
/-- The first point of a row block (`k = 0`): each sum is set to zero, then the point's contribution is added to it; the
    inputs and the output block are left as they were. -/
theorem run12_A (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : cond12_0 i) (hc1 : ¬cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc12_0 i x0 x2 x3 x4 (k12_pay3 (F := F))) ∗ owns (c : Thread nD τ) arg12 fullShare (acc12_1 i x1 x2 x5 x6 (k12_pay4 (F := F)))
            ∗ owns (c : Thread nD τ) arg13 fullShare (acc12_2 i x0 (k12_pay5 (F := F))) ∗ owns (c : Thread nD τ) arg14 fullShare (acc12_3 i x1 (k12_pay6 (F := F)))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover12 _ _ _ _ (cover12_a _)).trans (by simp only [View.readCov_cons_toLoadRect]; rfl)
  isplitl [S1]
  · iexists _; isplitr
    swap; · iexact S1
    ipureintro; sl_unfold_run_names
    exact (read_writes_head_cover12 _ _ _ _ (cover12_a _)).trans (by simp only [View.readCov_cons_toLoadRect]; rfl)
  isplitl [S2]
  · iexists _; isplitr
    swap; · iexact S2
    ipureintro; sl_unfold_run_names
    exact (read_writes_head_cover12 _ _ _ _ (cover12_d _)).trans (by simp only [View.readCov_cons_toLoadRect]; rfl)
  iexists _; isplitr
  swap; · iexact S3
  ipureintro; sl_unfold_run_names
  exact (read_writes_head_cover12 _ _ _ _ (cover12_d _)).trans (by simp only [View.readCov_cons_toLoadRect]; rfl)

set_option maxHeartbeats 4000000 in
/-- A middle point of a row block (neither condition holds): each sum is loaded, the point's contribution added and stored back;
    the inputs and the output block are left as they were. -/
theorem run12_B (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond12_0 i) (hc1 : ¬cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc12_0 i x0 x2 x3 x4 (View.ld s0 r12_a)) ∗ owns (c : Thread nD τ) arg12 fullShare (acc12_1 i x1 x2 x5 x6 (View.ld s1 r12_a))
            ∗ owns (c : Thread nD τ) arg13 fullShare (acc12_2 i x0 (View.ld s2 r12_d)) ∗ owns (c : Thread nD τ) arg14 fullShare (acc12_3 i x1 (View.ld s3 r12_d))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover12_a _)
  isplitl [S1]
  · iexists _; isplitr
    swap; · iexact S1
    ipureintro; exact View.read_writes_eq_canon _ _ _ (cover12_a _)
  isplitl [S2]
  · iexists _; isplitr
    swap; · iexact S2
    ipureintro; exact View.read_writes_eq_canon _ _ _ (cover12_d _)
  iexists _; isplitr
  swap; · iexact S3
  ipureintro; exact View.read_writes_eq_canon _ _ _ (cover12_d _)

set_option maxHeartbeats 4000000 in
/-- The last point of a row block (`k = 63`): each sum is loaded, the point's contribution added and stored back, and the
    output block is written from the sums as they then stand and the target block; the inputs are left as they were. -/
theorem run12_C (c : Dev nD) (E : Set ℕ) (i : grid12.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond12_0 i) (hc1 : cond12_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out12_8 (acc12_0 i x0 x2 x3 x4 (View.ld s0 r12_a)) (acc12_2 i x0 (View.ld s2 r12_d)) (acc12_1 i x1 x2 x5 x6 (View.ld s1 r12_a)) (acc12_3 i x1 (View.ld s3 r12_d)) x7)
            ∗ owns (c : Thread nD τ) arg11 fullShare (acc12_0 i x0 x2 x3 x4 (View.ld s0 r12_a)) ∗ owns (c : Thread nD τ) arg12 fullShare (acc12_1 i x1 x2 x5 x6 (View.ld s1 r12_a))
            ∗ owns (c : Thread nD τ) arg13 fullShare (acc12_2 i x0 (View.ld s2 r12_d)) ∗ owns (c : Thread nD τ) arg14 fullShare (acc12_3 i x1 (View.ld s3 r12_d))) -∗ K ⟨⟩))
      ⊢ wp frame (wpE (defs₀ (F := F)) Variants.none c none) E (cc12__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc12__collect_fwd_fused_kernel_eq_skeleton]; unfold cc12__collect_fwd_fused_kernel_skel
  simp only [k12_part1_eq_skeleton, k12_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover12_a _)).trans
      (by simp only [View.readCov_cons_toLoadRect]; exact (out12_8_canon _ _ _ _ _).symm)
  isplitl [S0]
  · iexists _; isplitr
    swap; · iexact S0
    ipureintro; sl_unfold_run_names
    exact View.read_writes_eq_canon _ _ _ (cover12_a _)
  isplitl [S1]
  · iexists _; isplitr
    swap; · iexact S1
    ipureintro; sl_unfold_run_names
    exact View.read_writes_eq_canon _ _ _ (cover12_a _)
  isplitl [S2]
  · iexists _; isplitr
    swap; · iexact S2
    ipureintro; sl_unfold_run_names
    exact View.read_writes_eq_canon _ _ _ (cover12_d _)
  iexists _; isplitr
  swap; · iexact S3
  ipureintro; sl_unfold_run_names
  exact View.read_writes_eq_canon _ _ _ (cover12_d _)

/-! ## Where the output window is idle, and where its block is written back -/

/-- Off the last point of a row block the body stores nothing into the output window; -/
theorem idleAt12_8 : ∀ t : Fin cfg12.N, ¬cond12_1 (grid12.coords t) → cfg12.idle 8 (grid12.coords t) = true := by decide +kernel
/-- at it, it does. -/
theorem liveAt12_8 : ∀ t : Fin cfg12.N, cond12_1 (grid12.coords t) → cfg12.idle 8 (grid12.coords t) = false := by decide +kernel
/-- The output block is written back at the last point of a row block only. -/
theorem noFlush12_8 (t : Fin cfg12.N) (h : ¬t.val % 64 = 63) : (cfg12.win 8).flush t = false :=
  Bool.eq_false_iff.mpr fun hf => h ((flush12_8 t).mp hf)

/-! ## Each input's staging buffer holds its block at every point, fetched there or not -/

theorem before12_0 (c : Dev nD) (t : Fin cfg12.N) (d) : (dat12 V c).before 0 t d = iblk12 V c 0 t :=
  ((dat12 V c).before_in_eq_fetched 0 rfl (fun _ => rfl) (fun _ _ _ => rfl) (fun t => by rw [after12_0]; unfold Dat.blockOf iblk12; rw [A_eq12]; try rfl) t d).trans
    (by unfold Dat.fetched Dat.blockOf iblk12; rw [A_eq12]; try rfl)
theorem before12_1 (c : Dev nD) (t : Fin cfg12.N) (d) : (dat12 V c).before 1 t d = iblk12 V c 1 t :=
  ((dat12 V c).before_in_eq_fetched 1 rfl (fun _ => rfl) (fun _ _ _ => rfl) (fun t => by rw [after12_1]; unfold Dat.blockOf iblk12; rw [A_eq12]; try rfl) t d).trans
    (by unfold Dat.fetched Dat.blockOf iblk12; rw [A_eq12]; try rfl)
theorem before12_2 (c : Dev nD) (t : Fin cfg12.N) (d) : (dat12 V c).before 2 t d = iblk12 V c 2 t :=
  ((dat12 V c).before_in_eq_fetched 2 rfl (fun _ => rfl) (fun _ _ _ => rfl) (fun t => by rw [after12_2]; unfold Dat.blockOf iblk12; rw [A_eq12]; try rfl) t d).trans
    (by unfold Dat.fetched Dat.blockOf iblk12; rw [A_eq12]; try rfl)
theorem before12_3 (c : Dev nD) (t : Fin cfg12.N) (d) : (dat12 V c).before 3 t d = iblk12 V c 3 t :=
  ((dat12 V c).before_in_eq_fetched 3 rfl (fun _ => rfl) (fun _ _ _ => rfl) (fun t => by rw [after12_3]; unfold Dat.blockOf iblk12; rw [A_eq12]; try rfl) t d).trans
    (by unfold Dat.fetched Dat.blockOf iblk12; rw [A_eq12]; try rfl)
theorem before12_4 (c : Dev nD) (t : Fin cfg12.N) (d) : (dat12 V c).before 4 t d = iblk12 V c 4 t :=
  ((dat12 V c).before_in_eq_fetched 4 rfl (fun _ => rfl) (fun _ _ _ => rfl) (fun t => by rw [after12_4]; unfold Dat.blockOf iblk12; rw [A_eq12]; try rfl) t d).trans
    (by unfold Dat.fetched Dat.blockOf iblk12; rw [A_eq12]; try rfl)
theorem before12_5 (c : Dev nD) (t : Fin cfg12.N) (d) : (dat12 V c).before 5 t d = iblk12 V c 5 t :=
  ((dat12 V c).before_in_eq_fetched 5 rfl (fun _ => rfl) (fun _ _ _ => rfl) (fun t => by rw [after12_5]; unfold Dat.blockOf iblk12; rw [A_eq12]; try rfl) t d).trans
    (by unfold Dat.fetched Dat.blockOf iblk12; rw [A_eq12]; try rfl)
theorem before12_6 (c : Dev nD) (t : Fin cfg12.N) (d) : (dat12 V c).before 6 t d = iblk12 V c 6 t :=
  ((dat12 V c).before_in_eq_fetched 6 rfl (fun _ => rfl) (fun _ _ _ => rfl) (fun t => by rw [after12_6]; unfold Dat.blockOf iblk12; rw [A_eq12]; try rfl) t d).trans
    (by unfold Dat.fetched Dat.blockOf iblk12; rw [A_eq12]; try rfl)
theorem before12_7 (c : Dev nD) (t : Fin cfg12.N) (d) : (dat12 V c).before 7 t d = iblk12 V c 7 t :=
  ((dat12 V c).before_in_eq_fetched 7 rfl (fun _ => rfl) (fun _ _ _ => rfl) (fun t => by rw [after12_7]; unfold Dat.blockOf iblk12; rw [A_eq12]; try rfl) t d).trans
    (by unfold Dat.fetched Dat.blockOf iblk12; rw [A_eq12]; try rfl)

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

/-- and what it returns: the inputs' buffers as they were, the output's as the point leaves it (untouched where it is idle). -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ (dat12 V c).leavesExact 8 t)

set_option maxHeartbeats 8000000 in
/-- The body at any point. The inputs' buffers hold their blocks (`before12_W`); the point's position in its row block says
    which of the three cases runs. The invariant hands the body the four sums at what the point before left (at anything before the
    very first point) and takes them back at this point's; the other scoped buffers and the generator register pass through
    unread; off the last point of a row block the output's buffer passes through as well. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).owesAt () t.succ = (dat12 V c).owesAt () t.castSucc from rfl]
  rw [show (dat12 V c).Φ t.succ = PhiS12 V c (t.val + 1) t.isLt from rfl, PhiS12_succ]
  rw [after12_0, after12_1, after12_2, after12_3, after12_4, after12_5, after12_6, after12_7]
  have hN : t.val < 128 := lt_of_lt_of_eq t.isLt (show cfg12.N = 128 from N_12)
  by_cases h0 : t.val % 64 = 0
  · have h1 : ¬t.val % 64 = 63 := by omega
    have hc0 : cond12_0 (grid12.coords t) := (hcond12_0 t).mpr h0
    have hc1 : ¬cond12_1 (grid12.coords t) := fun h => h1 ((hcond12_1 t).mp h)
    rw [Dat.leavesExact_idle (dat12 V c) 8 t (idleAt12_8 t hc1) (noFlush12_8 t h1)]
    rw [scrAt12_first V c t h0]
    by_cases hz : t.val = 0
    · rw [PhiS12_castSucc V c t, PhiS12_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_A c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_A c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond12_0 (grid12.coords t) := fun h => h0 ((hcond12_0 t).mp h)
    by_cases h1 : t.val % 64 = 63
    · have hc1 : cond12_1 (grid12.coords t) := (hcond12_1 t).mpr h1
      rw [show (dat12 V c).leavesExact 8 t = owns (c : Thread nD τ) (st12_8 t) fullShare ((dat12 V c).after 8 t) from by
        unfold Dat.leavesExact; rw [liveAt12_8 t hc1], after12_8]
      unfold scr12_0 scr12_1 scr12_2 scr12_3
      rw [scrAt12_next V c t h0]
      rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run12_C c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond12_1 (grid12.coords t) := fun h => h1 ((hcond12_1 t).mp h)
      rw [Dat.leavesExact_idle (dat12 V c) 8 t (idleAt12_8 t hc1) (noFlush12_8 t h1)]
      rw [scrAt12_next V c t h0]
      rw [PhiS12_castSucc V c t, PhiS12_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run12_B c Set.univ (grid12.coords t) _ _ _ _ _ _ _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant's two ends -/

/-- What the region is entered with — the generator register and the scoped buffers that are no staging buffer, the four scratch
    arrays among them at anything — is the invariant before the first point. -/
theorem phi_in12 (c : Dev nD) : (iprop((∃ r, prngReg c r) ∗ Pipeline.scopedRest (Ix := Unit) (Name := ℕ) (U := UR sig nD τ) (Lvl := ℕ) spec12 c) : sProp 𝕄) ⊢ (dat12 V c).Φ 0 := by
  rw [show (dat12 V c).Φ 0 = PhiS12 V c 0 (Nat.zero_le _) from rfl, PhiS12_zero V c 0 _ rfl, scopedRest12_split]
  simp only [scM12_0, scM12_1, scM12_2, scM12_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out12 (c : Dev nD) : (dat12 V c).Φ (Fin.last cfg12.N) ⊢ (iprop((∃ r, prngReg c r) ∗ Pipeline.scopedRest (Ix := Unit) (Name := ℕ) (U := UR sig nD τ) (Lvl := ℕ) spec12 c) : sProp 𝕄) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 128 := N_12; omega), scopedRest12_split]
  simp only [scM12_0, scM12_1, scM12_2, scM12_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.KernelIdeal.Hand
end
-- ==== Proof.KI.Reg13.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 13: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The rectangles the body reads and writes: each is the whole of its buffer -/

/-- The whole input block. -/
abbrev r13_0 : Rect S512x256 := Rect.unit (s := S512x256) ![0, 0] S512x256.size inb_S512x256_S512x256_0_0
/-- The whole weight matrix. -/
abbrev r13_1 : Rect S256x128 := Rect.unit (s := S256x128) ![0, 0] S256x128.size inb_S256x128_S256x128_0_0
/-- The whole bias row. -/
abbrev r13_2 : Rect S1x128 := Rect.unit (s := S1x128) ![0, 0] S1x128.size inb_S1x128_S1x128_0_0
/-- The whole output block. -/
abbrev r13_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out13_3 (x0 : Vec F S512x256 .f32) (x1 : Vec F S256x128 .f32) (x2 : Vec F S1x128 .f32) : Vec F S512x128 .bf16 :=
  View.canon [⟨r13_3, k13_pay1 (View.ld x0 r13_0) (View.ld x1 r13_1) (View.ld x2 r13_2)⟩]

/-! ## The proof data -/

/-- The proof data of the region on core `c`: the arrays as the region finds them; after the body at point `t`
    each input's buffer still at its block and the output's at `out13_3` of the input blocks; the invariant is
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Nothing is owed at any point. -/
theorem owed13 (c : Dev nD) (t) : (dat13 V c).owed t = 0 := rfl

/-- Every window is held at the full share. -/
theorem q13 (c : Dev nD) (w) : (dat13 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The weight matrix's buffer holds the matrix at every point: fetched at the first point only, its block index
    never moves afterwards, and the body leaves it in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The bias row's buffer holds the row at every point, for the same reason. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body's triple -/

/-- The body's one store is over the whole output buffer, so it covers every index of it. -/
theorem cover13_3 (p0 : Vec F S512x128 .bf16) (y : S512x128.Idx) :
    ∃ pc ∈ ([⟨r13_3, p0⟩] : List (View.Piece (Elt F) S512x128 .bf16)), y ∈ pc.1.set :=
  View.cover_of_tiled [⟨r13_3, p0⟩] S512x128.size (by rfl) y

set_option maxHeartbeats 1000000 in
/-- The body on whole staging memrefs — the three inputs' reading `x0`, `x1`, `x2`, the output's holding anything —
    runs to a continuation that holds the inputs' as they were and the output's at `out13_3 x0 x1 x2`: the printed
    function is its skeleton of loads and one store, run operation by operation. -/
theorem sound_kernel13 (c : Dev nD) (E : Set ℕ) (i : grid13.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__linear_kernel i arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The body obligation -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so the body's triple applies; the invariant and
    what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation13 (c : Dev nD) : BodyObligation (dat13 (F := F) V c) (defs₀ (F := F)) Variants.none () Set.univ := fun t => by
  rw [bigSep_W13, bigSep_W13]
  exact sound_body13 V c t

/-! ## The invariant at the two ends -/

/-- The generator register and the scoped buffers no window stages make the invariant at the first point. -/
theorem phi_in13 (c : Dev nD) :
    (iprop((∃ r, prngReg c r) ∗ Pipeline.scopedRest (Ix := Unit) (Name := ℕ) (U := UR sig nD τ) (Lvl := ℕ) spec13 c) : sProp 𝕄)
      ⊢ (dat13 V c).Φ 0 := by
  rw [show (dat13 V c).Φ 0 = Pipeline.ΦA spec13 c from rfl]; unfold Pipeline.ΦA
  iintro ⟨Hp, Hr⟩
  isplitl [Hr]; · iexact Hr
  iexact Hp

/-- The invariant at the last point gives them back. -/
theorem phi_out13 (c : Dev nD) :
    (dat13 V c).Φ (Fin.last cfg13.N)
      ⊢ (iprop((∃ r, prngReg c r) ∗ Pipeline.scopedRest (Ix := Unit) (Name := ℕ) (U := UR sig nD τ) (Lvl := ℕ) spec13 c) : sProp 𝕄) := by
  rw [show (dat13 V c).Φ (Fin.last _) = Pipeline.ΦA spec13 c from rfl]; unfold Pipeline.ΦA
  iintro ⟨Hr, Hp⟩
  isplitl [Hp]; · iexact Hp
  iexact Hr

end Cert.KernelIdeal.Hand

end
-- ==== Proof.KI.Reg14.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 14: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The rectangles the body reads and writes: each is the whole of its buffer -/

/-- The whole input block. -/
abbrev r14_0 : Rect S512x256 := Rect.unit (s := S512x256) ![0, 0] S512x256.size inb_S512x256_S512x256_0_0
/-- The whole weight matrix. -/
abbrev r14_1 : Rect S256x128 := Rect.unit (s := S256x128) ![0, 0] S256x128.size inb_S256x128_S256x128_0_0
/-- The whole bias row. -/
abbrev r14_2 : Rect S1x128 := Rect.unit (s := S1x128) ![0, 0] S1x128.size inb_S1x128_S1x128_0_0
/-- The whole output block. -/
abbrev r14_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out14_3 (x0 : Vec F S512x256 .f32) (x1 : Vec F S256x128 .f32) (x2 : Vec F S1x128 .f32) : Vec F S512x128 .bf16 :=
  View.canon [⟨r14_3, k14_pay1 (View.ld x0 r14_0) (View.ld x1 r14_1) (View.ld x2 r14_2)⟩]

/-! ## The proof data -/

/-- The proof data of the region on core `c`: the arrays as the region finds them; after the body at point `t`
    each input's buffer still at its block and the output's at `out14_3` of the input blocks; the invariant is
    the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Nothing is owed at any point. -/
theorem owed14 (c : Dev nD) (t) : (dat14 V c).owed t = 0 := rfl

/-- Every window is held at the full share. -/
theorem q14 (c : Dev nD) (w) : (dat14 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The weight matrix's buffer holds the matrix at every point: fetched at the first point only, its block index
    never moves afterwards, and the body leaves it in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias row's buffer holds the row at every point, for the same reason. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body's triple -/

/-- The body's one store is over the whole output buffer, so it covers every index of it. -/
theorem cover14_3 (p0 : Vec F S512x128 .bf16) (y : S512x128.Idx) :
    ∃ pc ∈ ([⟨r14_3, p0⟩] : List (View.Piece (Elt F) S512x128 .bf16)), y ∈ pc.1.set :=
  View.cover_of_tiled [⟨r14_3, p0⟩] S512x128.size (by rfl) y

set_option maxHeartbeats 1000000 in
/-- The body on whole staging memrefs — the three inputs' reading `x0`, `x1`, `x2`, the output's holding anything —
    runs to a continuation that holds the inputs' as they were and the output's at `out14_3 x0 x1 x2`: the printed
    function is its skeleton of loads and one store, run operation by operation. -/
theorem sound_kernel14 (c : Dev nD) (E : Set ℕ) (i : grid14.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14__linear_kernel i arg1 harg1 arg2 harg2 arg3 harg3 arg4 harg4) K := by
  simp only [cc14__linear_kernel_eq_skeleton]; unfold cc14__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so the body's triple applies; the invariant and
    what the core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the two ends -/

/-- The generator register and the scoped buffers no window stages make the invariant at the first point. -/
theorem phi_in14 (c : Dev nD) :
    (iprop((∃ r, prngReg c r) ∗ Pipeline.scopedRest (Ix := Unit) (Name := ℕ) (U := UR sig nD τ) (Lvl := ℕ) spec14 c) : sProp 𝕄)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- The invariant at the last point gives them back. -/
theorem phi_out14 (c : Dev nD) :
    (dat14 V c).Φ (Fin.last cfg14.N)
      ⊢ (iprop((∃ r, prngReg c r) ∗ Pipeline.scopedRest (Ix := Unit) (Name := ℕ) (U := UR sig nD τ) (Lvl := ℕ) spec14 c) : sProp 𝕄) := by
  rw [show (dat14 V c).Φ (Fin.last _) = Pipeline.ΦA spec14 c from rfl]; unfold Pipeline.ΦA
  iintro ⟨Hr, Hp⟩
  isplitl [Hp]; · iexact Hp
  iexact Hr

end Cert.KernelIdeal.Hand

end
-- ==== Proof.KI.Reg15.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 15: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The whole of an index column's block. -/
abbrev r15_ix : Rect S512x1 := Rect.unit (s := S512x1) ![0, 0] S512x1.size inb_S512x1_S512x1_0_0
/-- The whole of an object-side matrix. -/
abbrev r15_fc : Rect S2048x128 := Rect.unit (s := S2048x128) ![0, 0] S2048x128.size inb_S2048x128_S2048x128_0_0
/-- The whole of a block of the target or of the result. -/
abbrev r15_o : Rect S512x128 := Rect.unit (s := S512x128) ![0, 0] S512x128.size inb_S512x128_S512x128_0_0

/-- What the body leaves in the result's staging buffer, from the five input blocks: its single store, which covers the
    buffer, of the target block plus half the sum of the two averaged gathers. -/
def out15_5 (x0 : Vec F S512x1 .i32) (x1 : Vec F S512x1 .i32) (x2 : Vec F S2048x128 .bf16) (x3 : Vec F S2048x128 .bf16)
    (x4 : Vec F S512x128 .f32) : Vec F S512x128 .f32 :=
  View.canon [⟨r15_o, k15_pay1 (k15_pay2 (View.ld x4 r15_o))
    (k15_pay3 (View.ld x0 r15_ix) (View.ld x1 r15_ix) (View.ld x2 r15_fc) (View.ld x3 r15_fc))⟩]

/-- The proof data of pipeline 15 on core `c`: the arrays as found; after the body every input's buffer still holds its
    block and the result's holds `out15_5` of the input blocks; the invariant is the untouched scoped rest beside the
    generator register; nothing is owed and every share is whole. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t =
    out15_5 (iblk15 V c 0 t) (iblk15 V c 1 t) (iblk15 V c 2 t) (iblk15 V c 3 t) (iblk15 V c 4 t) := by dsimp only [dat15]

theorem owed15 (c : Dev nD) (t) : (dat15 V c).owed t = 0 := rfl
theorem q15 (c : Dev nD) (w) : (dat15 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before15_0 (c : Dev nD) (t : Fin cfg15.N) (d) : (dat15 V c).before 0 t d = iblk15 V c 0 t :=
  ((dat15 V c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)
theorem before15_1 (c : Dev nD) (t : Fin cfg15.N) (d) : (dat15 V c).before 1 t d = iblk15 V c 1 t :=
  ((dat15 V c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)
theorem before15_2 (c : Dev nD) (t : Fin cfg15.N) (d) : (dat15 V c).before 2 t d = iblk15 V c 2 t :=
  ((dat15 V c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)
theorem before15_3 (c : Dev nD) (t : Fin cfg15.N) (d) : (dat15 V c).before 3 t d = iblk15 V c 3 t :=
  ((dat15 V c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)
theorem before15_4 (c : Dev nD) (t : Fin cfg15.N) (d) : (dat15 V c).before 4 t d = iblk15 V c 4 t :=
  ((dat15 V c).before_in_eq_fetched 4 rfl (fun _ => rfl) (fun _ _ _ => rfl)
      (fun t => by rw [after15_4]; unfold Dat.blockOf iblk15; rw [A_eq15]; try rfl) t d).trans
    (by unfold Dat.fetched Dat.blockOf iblk15; rw [A_eq15]; try rfl)

/-! ## The body's triple -/

/-- The single store of the body is of the whole result block, so it covers the staging buffer. -/
theorem cover15_5 (p0 : Vec F S512x128 .f32) (y : S512x128.Idx) :
    ∃ pc ∈ ([⟨r15_o, p0⟩] : List (View.Piece (Elt F) S512x128 .f32)), y ∈ pc.1.set :=
  View.cover_of_tiled [⟨r15_o, p0⟩] S512x128.size (by rfl) y

set_option maxHeartbeats 1000000 in
/-- On whole staging memrefs, the five inputs' read at `x0 … x4` and the result's at anything, the body runs to a
    continuation that holds the inputs' as they were and the result's at `out15_5` of them: five loads inside the part,
    a dead load of the result's buffer, and the one store. -/
theorem sound_kernel15 (c : Dev nD) (E : Set ℕ) (i : grid15.Coords)
    (arg1 : Memref sig .tc .vmem S512x1 .i32) (harg1 : arg1.IsWhole) (arg2 : Memref sig .tc .vmem S512x1 .i32) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S512x128 .f32) (harg5 : arg5.IsWhole) (arg6 : Memref sig .tc .vmem S512x128 .f32) (harg6 : arg6.IsWhole)
    (x0 : Vec F S512x1 .i32) (x1 : Vec F S512x1 .i32) (x2 : Vec F S2048x128 .bf16) (x3 : Vec F S2048x128 .bf16) (x4 : Vec F S512x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out15_5 x0 x1 x2 x3 x4)) -∗ K ⟨⟩))
      ⊢ wp frame (wpE (defs₀ (F := F)) Variants.none c none) E
          (cc15__collect_transpose_fused_kernel i arg1 harg1 arg2 harg2 arg3 harg3 arg4 harg4 arg5 harg5 arg6 harg6) K := by
  simp only [cc15__collect_transpose_fused_kernel_eq_skeleton]; unfold cc15__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover15_5 _)

/-! ## The body obligation -/

/-- What the body is entered with at grid point `t`: the invariant, what the core owes, and each window's current
    staging buffer at what it then holds. -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d)))

/-- What it returns: the same at the next point, each buffer at what the body leaves in it. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t))

/-- The body at any grid point: the inputs' buffers hold their blocks, so the body's triple applies; the invariant and
    what the core owes are not read and pass through. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4]
  rw [show (dat15 V c).Φ t.succ = (dat15 V c).Φ t.castSucc from rfl,
    show (dat15 V c).owesAt () t.succ = (dat15 V c).owesAt () t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ _ _ _ _ _ _ _ _ _ _ _ _ _
    (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation15 (c : Dev nD) : BodyObligation (dat15 (F := F) V c) (defs₀ (F := F)) Variants.none () Set.univ := fun t => by
  rw [bigSep_W15, bigSep_W15]
  exact sound_body15 V c t

/-! ## The invariant at the region's two ends -/

/-- Entering: the generator register and the scoped rest make the invariant. -/
theorem phi_in15 (c : Dev nD) : (iprop((∃ r, prngReg c r) ∗ Pipeline.scopedRest (Ix := Unit) (Name := ℕ) (U := UR sig nD τ) (Lvl := ℕ) spec15 c) : sProp 𝕄) ⊢ (dat15 V c).Φ 0 := by
  rw [show (dat15 V c).Φ 0 = Pipeline.ΦA spec15 c from rfl]; unfold Pipeline.ΦA
  iintro ⟨Hp, Hr⟩
  isplitl [Hr]; · iexact Hr
  iexact Hp

/-- Leaving: the invariant gives both back. -/
theorem phi_out15 (c : Dev nD) : (dat15 V c).Φ (Fin.last cfg15.N) ⊢ (iprop((∃ r, prngReg c r) ∗ Pipeline.scopedRest (Ix := Unit) (Name := ℕ) (U := UR sig nD τ) (Lvl := ℕ) spec15 c) : sProp 𝕄) := by
  rw [show (dat15 V c).Φ (Fin.last cfg15.N) = Pipeline.ΦA spec15 c from rfl]; unfold Pipeline.ΦA
  iintro ⟨Hr, Hp⟩
  isplitl [Hp]; · iexact Hp
  iexact Hr

end Cert.KernelIdeal.Hand
end
-- ==== Proof.KI.Reg16.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 16: the fused gather-and-mean over the grid (2, 64), at the entry contents `V`

A point `t = 64 * i + k` adds the k-th source tile's contribution to four running sums (two weighted sums of
projected source rows and two row counts) held in four scratch arrays; the first point of each row block
(`k = 0`) starts the sums from zero, the last (`k = 63`) writes `target + ½ (sum₀ / (count₀ + ε) + sum₁ / (count₁ + ε))`
into the output block. -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The body's accesses: every load and store is of a whole buffer -/

/-- an index row, -/
abbrev r16_i : Rect S1x512 := Rect.unit (s := S1x512) ![0, 0] S1x512.size inb_S1x512_S1x512_0_0
/-- a bias row, -/
abbrev r16_b : Rect S1x256 := Rect.unit (s := S1x256) ![0, 0] S1x256.size inb_S1x256_S1x256_0_0
/-- the source tile, -/
abbrev r16_s : Rect S512x128 := Rect.unit (s := S512x128) ![0, 0] S512x128.size inb_S512x128_S512x128_0_0
/-- a weight matrix, -/
abbrev r16_w : Rect S128x256 := Rect.unit (s := S128x256) ![0, 0] S128x256.size inb_S128x256_S128x256_0_0
/-- a weighted sum (and the target and output blocks), a row count. -/
abbrev r16_a : Rect S1024x256 := Rect.unit (s := S1024x256) ![0, 0] S1024x256.size inb_S1024x256_S1024x256_0_0
abbrev r16_d : Rect S1024x1 := Rect.unit (s := S1024x1) ![0, 0] S1024x1.size inb_S1024x1_S1024x1_0_0

/-! ## One point's contribution to the four running sums

Each takes the point's coordinates, the input blocks it reads and the sum as the body loads it (`p`: zero at the
first point of a row block, else what the point before left), and returns what the body stores back. -/

/-- The first weighted sum: `p + onehot(rows = idx₀) · relu(src · W₀ + b₀)`. -/
def acc16_0 (i : grid16.Coords) (x0 : Vec F S1x512 .i32) (x2 : Vec F S512x128 .f32) (x3 : Vec F S128x256 .f32) (x4 : Vec F S1x256 .f32)
    (p : Vec F S1024x256 .f32) : Vec F S1024x256 .f32 :=
  View.canon [⟨r16_a, k16_pay15 (k16_pay8 (View.ld x2 r16_s) (View.ld x3 r16_w) (View.ld x4 r16_b)) (k16_pay10 i) (k16_pay11 (View.ld x0 r16_i)) p⟩]

/-- The second weighted sum: `p + onehot(rows = idx₁) · relu(src · W₁ + b₁)`. -/
def acc16_1 (i : grid16.Coords) (x1 : Vec F S1x512 .i32) (x2 : Vec F S512x128 .f32) (x5 : Vec F S128x256 .f32) (x6 : Vec F S1x256 .f32)
    (p : Vec F S1024x256 .f32) : Vec F S1024x256 .f32 :=
  View.canon [⟨r16_a, k16_pay16 (k16_pay9 (View.ld x2 r16_s) (View.ld x5 r16_w) (View.ld x6 r16_b)) (k16_pay10 i) (k16_pay12 (View.ld x1 r16_i)) p⟩]

/-- The first row count: `p + Σ_lanes onehot(rows = idx₀)`. -/
def acc16_2 (i : grid16.Coords) (x0 : Vec F S1x512 .i32) (p : Vec F S1024x1 .f32) : Vec F S1024x1 .f32 :=
  View.canon [⟨r16_d, k16_pay17 (k16_pay10 i) (k16_pay11 (View.ld x0 r16_i)) p⟩]

/-- The second row count: `p + Σ_lanes onehot(rows = idx₁)`. -/
def acc16_3 (i : grid16.Coords) (x1 : Vec F S1x512 .i32) (p : Vec F S1024x1 .f32) : Vec F S1024x1 .f32 :=
  View.canon [⟨r16_d, k16_pay1 (k16_pay18 (k16_pay10 i) (k16_pay12 (View.ld x1 r16_i)) p)⟩]

/-- What the last point of a row block stores into the output block, from the four sums as they then stand
    and the target block: `target + ½ (a₀ / (d₀ + ε) + a₁ / (d₁ + ε))`. -/
def out16_8 (a0 : Vec F S1024x256 .f32) (d0 : Vec F S1024x1 .f32) (a1 : Vec F S1024x256 .f32) (d1 : Vec F S1024x1 .f32)
    (x7 : Vec F S1024x256 .f32) : Vec F S1024x256 .f32 :=
  View.canon [⟨r16_a, k16_pay2 (View.ld a0 r16_a) (View.ld d0 r16_d) (View.ld a1 r16_a) (View.ld d1 r16_d) (View.ld x7 r16_a)⟩]

/-! ## The four sums after each point -/

/-- THE ACCUMULATION. The four scratch arrays after the body at position `n`: at the first point of a row block
    (`n % 64 = 0`) the point's contribution over zero, else over what position `n - 1` left. -/
def scrAt16 (c : Dev nD) : (n : ℕ) → n < cfg16.N →
    Vec F S1024x256 .f32 × Vec F S1024x256 .f32 × Vec F S1024x1 .f32 × Vec F S1024x1 .f32
  | 0, hn =>
    (acc16_0 (grid16.coords ⟨0, hn⟩) (iblk16 V c 0 ⟨0, hn⟩) (iblk16 V c 2 ⟨0, hn⟩) (iblk16 V c 3 ⟨0, hn⟩) (iblk16 V c 4 ⟨0, hn⟩) (k16_pay3 (F := F)),
     acc16_1 (grid16.coords ⟨0, hn⟩) (iblk16 V c 1 ⟨0, hn⟩) (iblk16 V c 2 ⟨0, hn⟩) (iblk16 V c 5 ⟨0, hn⟩) (iblk16 V c 6 ⟨0, hn⟩) (k16_pay4 (F := F)),
     acc16_2 (grid16.coords ⟨0, hn⟩) (iblk16 V c 0 ⟨0, hn⟩) (k16_pay5 (F := F)),
     acc16_3 (grid16.coords ⟨0, hn⟩) (iblk16 V c 1 ⟨0, hn⟩) (k16_pay6 (F := F)))
  | n + 1, hn =>
    if h0 : (n + 1) % 64 = 0 then
      (acc16_0 (grid16.coords ⟨n + 1, hn⟩) (iblk16 V c 0 ⟨n + 1, hn⟩) (iblk16 V c 2 ⟨n + 1, hn⟩) (iblk16 V c 3 ⟨n + 1, hn⟩) (iblk16 V c 4 ⟨n + 1, hn⟩) (k16_pay3 (F := F)),
       acc16_1 (grid16.coords ⟨n + 1, hn⟩) (iblk16 V c 1 ⟨n + 1, hn⟩) (iblk16 V c 2 ⟨n + 1, hn⟩) (iblk16 V c 5 ⟨n + 1, hn⟩) (iblk16 V c 6 ⟨n + 1, hn⟩) (k16_pay4 (F := F)),
       acc16_2 (grid16.coords ⟨n + 1, hn⟩) (iblk16 V c 0 ⟨n + 1, hn⟩) (k16_pay5 (F := F)),
       acc16_3 (grid16.coords ⟨n + 1, hn⟩) (iblk16 V c 1 ⟨n + 1, hn⟩) (k16_pay6 (F := F)))
    else
      (acc16_0 (grid16.coords ⟨n + 1, hn⟩) (iblk16 V c 0 ⟨n + 1, hn⟩) (iblk16 V c 2 ⟨n + 1, hn⟩) (iblk16 V c 3 ⟨n + 1, hn⟩) (iblk16 V c 4 ⟨n + 1, hn⟩) (View.ld (scrAt16 c n (Nat.lt_of_succ_lt hn)).1 r16_a),
       acc16_1 (grid16.coords ⟨n + 1, hn⟩) (iblk16 V c 1 ⟨n + 1, hn⟩) (iblk16 V c 2 ⟨n + 1, hn⟩) (iblk16 V c 5 ⟨n + 1, hn⟩) (iblk16 V c 6 ⟨n + 1, hn⟩) (View.ld (scrAt16 c n (Nat.lt_of_succ_lt hn)).2.1 r16_a),
       acc16_2 (grid16.coords ⟨n + 1, hn⟩) (iblk16 V c 0 ⟨n + 1, hn⟩) (View.ld (scrAt16 c n (Nat.lt_of_succ_lt hn)).2.2.1 r16_d),
       acc16_3 (grid16.coords ⟨n + 1, hn⟩) (iblk16 V c 1 ⟨n + 1, hn⟩) (View.ld (scrAt16 c n (Nat.lt_of_succ_lt hn)).2.2.2 r16_d))

/-- The four scratch arrays after point `t`, one by one. -/
def scr16_0 (c : Dev nD) (t : Fin cfg16.N) : Vec F S1024x256 .f32 := (scrAt16 V c t.val t.isLt).1
def scr16_1 (c : Dev nD) (t : Fin cfg16.N) : Vec F S1024x256 .f32 := (scrAt16 V c t.val t.isLt).2.1
def scr16_2 (c : Dev nD) (t : Fin cfg16.N) : Vec F S1024x1 .f32 := (scrAt16 V c t.val t.isLt).2.2.1
def scr16_3 (c : Dev nD) (t : Fin cfg16.N) : Vec F S1024x1 .f32 := (scrAt16 V c t.val t.isLt).2.2.2

/-- `scrAt16` at the first point of a row block: the point's contribution over zero. -/
theorem scrAt16_first (c : Dev nD) (t : Fin cfg16.N) (h0 : t.val % 64 = 0) :
    scrAt16 V c t.val t.isLt =
      (acc16_0 (grid16.coords t) (iblk16 V c 0 t) (iblk16 V c 2 t) (iblk16 V c 3 t) (iblk16 V c 4 t) (k16_pay3 (F := F)),
       acc16_1 (grid16.coords t) (iblk16 V c 1 t) (iblk16 V c 2 t) (iblk16 V c 5 t) (iblk16 V c 6 t) (k16_pay4 (F := F)),
       acc16_2 (grid16.coords t) (iblk16 V c 0 t) (k16_pay5 (F := F)),
       acc16_3 (grid16.coords t) (iblk16 V c 1 t) (k16_pay6 (F := F))) := by
  obtain ⟨n, hn⟩ := t
  cases n with
  | zero => exact rfl
  | succ n => exact (dif_pos h0).trans rfl

/-- `scrAt16` at any other point: the point's contribution over what the point before left. -/
theorem scrAt16_next (c : Dev nD) (t : Fin cfg16.N) (h0 : ¬t.val % 64 = 0) :
    scrAt16 V c t.val t.isLt =
      (acc16_0 (grid16.coords t) (iblk16 V c 0 t) (iblk16 V c 2 t) (iblk16 V c 3 t) (iblk16 V c 4 t) (View.ld (scrAt16 V c (t.val - 1) (Nat.lt_of_le_of_lt (Nat.sub_le _ _) t.isLt)).1 r16_a),
       acc16_1 (grid16.coords t) (iblk16 V c 1 t) (iblk16 V c 2 t) (iblk16 V c 5 t) (iblk16 V c 6 t) (View.ld (scrAt16 V c (t.val - 1) (Nat.lt_of_le_of_lt (Nat.sub_le _ _) t.isLt)).2.1 r16_a),
       acc16_2 (grid16.coords t) (iblk16 V c 0 t) (View.ld (scrAt16 V c (t.val - 1) (Nat.lt_of_le_of_lt (Nat.sub_le _ _) t.isLt)).2.2.1 r16_d),
       acc16_3 (grid16.coords t) (iblk16 V c 1 t) (View.ld (scrAt16 V c (t.val - 1) (Nat.lt_of_le_of_lt (Nat.sub_le _ _) t.isLt)).2.2.2 r16_d)) := by
  obtain ⟨n, hn⟩ := t
  cases n with
  | zero => exact (by exfalso; (try dsimp only at h0); exact absurd (Nat.zero_mod _) h0)
  | succ n => exact (dif_neg h0).trans rfl

/-! ## The region invariant: the four scratch arrays at the sums so far -/

/-- The four scratch operands as whole memrefs. -/
abbrev scM16_0 : Memref sig .tc .vmem S1024x256 .f32 := Memref.whole cc16_scratch0
abbrev scM16_1 : Memref sig .tc .vmem S1024x256 .f32 := Memref.whole cc16_scratch1
abbrev scM16_2 : Memref sig .tc .vmem S1024x1 .f32 := Memref.whole cc16_scratch2
abbrev scM16_3 : Memref sig .tc .vmem S1024x1 .f32 := Memref.whole cc16_scratch3

/-- The scoped buffers that are none of the four, unopened. -/
abbrev rest16 (c : Dev nD) : sProp 𝕄 :=
  Pipeline.scopedRestBut (Ix := Unit) (Name := ℕ) (U := UR sig nD τ) (Lvl := ℕ) (Val := Elt F) spec16 c [cc16_scratch0, cc16_scratch1, cc16_scratch2, cc16_scratch3]

/-- The invariant before position `n`: before the first point the four scratch arrays at anything; afterwards at what
    the point before left (`scrAt16`); beside them, throughout, the other scoped buffers unopened and the generator
    register at some state. -/
def PhiS16 (c : Dev nD) : (n : ℕ) → n ≤ cfg16.N → sProp 𝕄
  | 0, _ => iprop(iprop((∃ d, owns (c : Thread nD τ) scM16_0 fullShare d) ∗ (∃ d, owns (c : Thread nD τ) scM16_1 fullShare d)
      ∗ (∃ d, owns (c : Thread nD τ) scM16_2 fullShare d) ∗ (∃ d, owns (c : Thread nD τ) scM16_3 fullShare d))
      ∗ rest16 c ∗ (∃ r, prngReg c r))
  | n + 1, hn => iprop(iprop(owns (c : Thread nD τ) scM16_0 fullShare (scrAt16 V c n hn).1 ∗ owns (c : Thread nD τ) scM16_1 fullShare (scrAt16 V c n hn).2.1
      ∗ owns (c : Thread nD τ) scM16_2 fullShare (scrAt16 V c n hn).2.2.1 ∗ owns (c : Thread nD τ) scM16_3 fullShare (scrAt16 V c n hn).2.2.2)
      ∗ rest16 c ∗ (∃ r, prngReg c r))

theorem PhiS16_zero (c : Dev nD) (n : ℕ) (h : n ≤ cfg16.N) (hz : n = 0) :
    PhiS16 V c n h = iprop(iprop((∃ d, owns (c : Thread nD τ) scM16_0 fullShare d) ∗ (∃ d, owns (c : Thread nD τ) scM16_1 fullShare d)
      ∗ (∃ d, owns (c : Thread nD τ) scM16_2 fullShare d) ∗ (∃ d, owns (c : Thread nD τ) scM16_3 fullShare d))
      ∗ rest16 c ∗ (∃ r, prngReg c r)) := by
  subst hz; rfl

theorem PhiS16_succ (c : Dev nD) (n : ℕ) (hn : n < cfg16.N) :
    PhiS16 V c (n + 1) hn = iprop(iprop(owns (c : Thread nD τ) scM16_0 fullShare (scrAt16 V c n hn).1 ∗ owns (c : Thread nD τ) scM16_1 fullShare (scrAt16 V c n hn).2.1
      ∗ owns (c : Thread nD τ) scM16_2 fullShare (scrAt16 V c n hn).2.2.1 ∗ owns (c : Thread nD τ) scM16_3 fullShare (scrAt16 V c n hn).2.2.2)
      ∗ rest16 c ∗ (∃ r, prngReg c r)) := rfl

theorem PhiS16_pos (c : Dev nD) (n : ℕ) (h : n ≤ cfg16.N) (hz : n ≠ 0) :
    PhiS16 V c n h = iprop(iprop(owns (c : Thread nD τ) scM16_0 fullShare (scrAt16 V c (n - 1) (by omega)).1 ∗ owns (c : Thread nD τ) scM16_1 fullShare (scrAt16 V c (n - 1) (by omega)).2.1
      ∗ owns (c : Thread nD τ) scM16_2 fullShare (scrAt16 V c (n - 1) (by omega)).2.2.1 ∗ owns (c : Thread nD τ) scM16_3 fullShare (scrAt16 V c (n - 1) (by omega)).2.2.2)
      ∗ rest16 c ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at `out16_8` of the sums as they stand after `t` and the target block
    (consulted only where the block is written back, at the last point of a row block); the invariant `PhiS16`; nothing owed;
    full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => iblk16 V c 7 t
    | ⟨8, _⟩ => out16_8 (scr16_0 V c t) (scr16_2 V c t) (scr16_1 V c t) (scr16_3 V c t) (iblk16 V c 7 t)
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
theorem after16_7 (c : Dev nD) (t : Fin cfg16.N) : (dat16 V c).after 7 t = iblk16 V c 7 t := by dsimp only [dat16]
theorem after16_8 (c : Dev nD) (t : Fin cfg16.N) :
    (dat16 V c).after 8 t = out16_8 (scr16_0 V c t) (scr16_2 V c t) (scr16_1 V c t) (scr16_3 V c t) (iblk16 V c 7 t) := by dsimp only [dat16]
theorem owed16 (c : Dev nD) (t) : (dat16 V c).owed t = 0 := rfl
theorem q16 (c : Dev nD) (w) : (dat16 V c).q w = fullShare := rfl

theorem PhiS16_castSucc (c : Dev nD) (t : Fin cfg16.N) :
    (dat16 V c).Φ t.castSucc = PhiS16 V c t.val (Nat.le_of_lt t.isLt) := by
  dsimp only [dat16]; simp only [Fin.coe_castSucc]

/-! ## The body's two conditions, in closed form over the grid -/

/-- The body's first condition (`k = 0`: start the sums from zero), from the grid coordinates. -/
abbrev cond16_0 (i : grid16.Coords) : Prop := (Scalar.cmpi .ne (Scalar.extui (Scalar.cmpi .eq (BitVec.ofNat 32 (i 1).val) 0#32)) 0#32) = 1#1
/-- It holds at the first point of each row block. -/
theorem hcond16_0 : ∀ t : Fin cfg16.N, cond16_0 (grid16.coords t) ↔ t.val % 64 = 0 :=
  (by decide +kernel : ∀ t : Fin grid16.N, cond16_0 (grid16.coords t) ↔ t.val % 64 = 0)
/-- The body's second condition (`k = 63`: write the output block). -/
abbrev cond16_1 (i : grid16.Coords) : Prop := k16_cond2 i = 1#1
/-- It holds at the last point of each row block. -/
theorem hcond16_1 : ∀ t : Fin cfg16.N, cond16_1 (grid16.coords t) ↔ t.val % 64 = 63 :=
  (by decide +kernel : ∀ t : Fin grid16.N, cond16_1 (grid16.coords t) ↔ t.val % 64 = 63)

/-! ## A whole-buffer store covers the buffer -/

theorem cover16_a (p0 : Vec F S1024x256 .f32) (y : S1024x256.Idx) :
    ∃ pc ∈ ([⟨r16_a, p0⟩] : List (View.Piece (Elt F) S1024x256 .f32)), y ∈ pc.1.set :=
  View.cover_of_tiled [⟨r16_a, p0⟩] S1024x256.size (by rfl) y
theorem cover16_d (p0 : Vec F S1024x1 .f32) (y : S1024x1.Idx) :
    ∃ pc ∈ ([⟨r16_d, p0⟩] : List (View.Piece (Elt F) S1024x1 .f32)), y ∈ pc.1.set :=
  View.cover_of_tiled [⟨r16_d, p0⟩] S1024x1.size (by rfl) y

/-- After writes the LAST of which covers the whole shape, the buffer reads as that write alone. -/
theorem read_writes_head_cover16 {sg : RefSig} {κ : Kind} {sp : Space} {s : Shape} {e : EltTy}
    (v : View sg κ sp s e) (f : v.ty.Contents (Elt F)) (p : View.Piece (Elt F) s e) (L : List (View.Piece (Elt F) s e))
    (h : ∀ y, ∃ pc ∈ [p], y ∈ pc.1.set) : v.read (Elt F) (v.writes (Elt F) f (p :: L)) = View.canon [p] := by
  have h' : ∀ y, y ∈ p.1.set := fun y => by
    obtain ⟨pc, hm, hy⟩ := h y
    rw [List.mem_singleton] at hm; subst hm; exact hy
  funext y
  rw [View.read_writes_apply_eq_canon v f y (p :: L) ⟨p, List.mem_cons_self, h' y⟩, View.canon_cons, View.canon_cons]
  obtain ⟨x, rfl⟩ : ∃ x, p.1.emb x = y := p.1.exists_idx_of_mem (h' y)
  rw [Rect.overlay_emb, Rect.overlay_emb]

/-- A whole-buffer write, loaded back whole, is its payload. -/
theorem ld_canon16_a (w : Vec F S1024x256 .f32) :
    View.ld (View.canon [(⟨r16_a, w⟩ : View.Piece (Elt F) S1024x256 .f32)]) r16_a = w :=
  funext fun x => View.canon_cons_emb r16_a w [] x
theorem ld_canon16_d (w : Vec F S1024x1 .f32) :
    View.ld (View.canon [(⟨r16_d, w⟩ : View.Piece (Elt F) S1024x1 .f32)]) r16_d = w :=
  funext fun x => View.canon_cons_emb r16_d w [] x

/-- The output block from sums that are themselves whole-buffer writes: the payloads meet directly. -/
theorem out16_8_canon (w0 w1 : Vec F S1024x256 .f32) (w2 w3 : Vec F S1024x1 .f32) (x7 : Vec F S1024x256 .f32) :
    out16_8 (View.canon [(⟨r16_a, w0⟩ : View.Piece (Elt F) S1024x256 .f32)]) (View.canon [(⟨r16_d, w2⟩ : View.Piece (Elt F) S1024x1 .f32)])
        (View.canon [(⟨r16_a, w1⟩ : View.Piece (Elt F) S1024x256 .f32)]) (View.canon [(⟨r16_d, w3⟩ : View.Piece (Elt F) S1024x1 .f32)]) x7
      = View.canon [(⟨r16_a, k16_pay2 w0 w2 w1 w3 (View.ld x7 r16_a)⟩ : View.Piece (Elt F) S1024x256 .f32)] := by
  unfold out16_8; rw [ld_canon16_a, ld_canon16_a, ld_canon16_d, ld_canon16_d]

set_option maxHeartbeats 4000000 in
/-- The first point of a row block (`k = 0`): each sum is set to zero, then the point's contribution is added to it; the
    inputs and the output block are left as they were. -/
theorem run16_A (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : cond16_0 i) (hc1 : ¬cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc16_0 i x0 x2 x3 x4 (k16_pay3 (F := F))) ∗ owns (c : Thread nD τ) arg12 fullShare (acc16_1 i x1 x2 x5 x6 (k16_pay4 (F := F)))
            ∗ owns (c : Thread nD τ) arg13 fullShare (acc16_2 i x0 (k16_pay5 (F := F))) ∗ owns (c : Thread nD τ) arg14 fullShare (acc16_3 i x1 (k16_pay6 (F := F)))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%e0, %g0, -, S0⟩, ⟨%e1, %g1, -, S1⟩, ⟨%e2, %g2, -, S2⟩, ⟨%e3, %g3, -, S3⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; sl_unfold_run_names
    exact (read_writes_head_cover16 _ _ _ _ (cover16_a _)).trans (by simp only [View.readCov_cons_toLoadRect]; rfl)
  isplitl [S1]
  · iexists _; isplitr
    swap; · iexact S1
    ipureintro; sl_unfold_run_names
    exact (read_writes_head_cover16 _ _ _ _ (cover16_a _)).trans (by simp only [View.readCov_cons_toLoadRect]; rfl)
  isplitl [S2]
  · iexists _; isplitr
    swap; · iexact S2
    ipureintro; sl_unfold_run_names
    exact (read_writes_head_cover16 _ _ _ _ (cover16_d _)).trans (by simp only [View.readCov_cons_toLoadRect]; rfl)
  iexists _; isplitr
  swap; · iexact S3
  ipureintro; sl_unfold_run_names
  exact (read_writes_head_cover16 _ _ _ _ (cover16_d _)).trans (by simp only [View.readCov_cons_toLoadRect]; rfl)

set_option maxHeartbeats 4000000 in
/-- A middle point of a row block (neither condition holds): each sum is loaded, the point's contribution added and stored back;
    the inputs and the output block are left as they were. -/
theorem run16_B (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond16_0 i) (hc1 : ¬cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg11 fullShare (acc16_0 i x0 x2 x3 x4 (View.ld s0 r16_a)) ∗ owns (c : Thread nD τ) arg12 fullShare (acc16_1 i x1 x2 x5 x6 (View.ld s1 r16_a))
            ∗ owns (c : Thread nD τ) arg13 fullShare (acc16_2 i x0 (View.ld s2 r16_d)) ∗ owns (c : Thread nD τ) arg14 fullShare (acc16_3 i x1 (View.ld s3 r16_d))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro; exact View.read_writes_eq_canon _ _ _ (cover16_a _)
  isplitl [S1]
  · iexists _; isplitr
    swap; · iexact S1
    ipureintro; exact View.read_writes_eq_canon _ _ _ (cover16_a _)
  isplitl [S2]
  · iexists _; isplitr
    swap; · iexact S2
    ipureintro; exact View.read_writes_eq_canon _ _ _ (cover16_d _)
  iexists _; isplitr
  swap; · iexact S3
  ipureintro; exact View.read_writes_eq_canon _ _ _ (cover16_d _)

set_option maxHeartbeats 4000000 in
/-- The last point of a row block (`k = 63`): each sum is loaded, the point's contribution added and stored back, and the
    output block is written from the sums as they then stand and the target block; the inputs are left as they were. -/
theorem run16_C (c : Dev nD) (E : Set ℕ) (i : grid16.Coords) (arg2 : Memref sig .tc .vmem S1x512 .i32) (harg2 : arg2.IsWhole) (arg3 : Memref sig .tc .vmem S1x512 .i32) (harg3 : arg3.IsWhole) (arg4 : Memref sig .tc .vmem S512x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x1 .f32) (harg13 : arg13.IsWhole) (arg14 : Memref sig .tc .vmem S1024x1 .f32) (harg14 : arg14.IsWhole)
    (hc0 : ¬cond16_0 i) (hc1 : cond16_1 i) (x0 : Vec F S1x512 .i32) (x1 : Vec F S1x512 .i32) (x2 : Vec F S512x128 .f32) (x3 : Vec F S128x256 .f32) (x4 : Vec F S1x256 .f32) (x5 : Vec F S128x256 .f32) (x6 : Vec F S1x256 .f32) (x7 : Vec F S1024x256 .f32)
    (s0 : Vec F S1024x256 .f32) (s1 : Vec F S1024x256 .f32) (s2 : Vec F S1024x1 .f32) (s3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out16_8 (acc16_0 i x0 x2 x3 x4 (View.ld s0 r16_a)) (acc16_2 i x0 (View.ld s2 r16_d)) (acc16_1 i x1 x2 x5 x6 (View.ld s1 r16_a)) (acc16_3 i x1 (View.ld s3 r16_d)) x7)
            ∗ owns (c : Thread nD τ) arg11 fullShare (acc16_0 i x0 x2 x3 x4 (View.ld s0 r16_a)) ∗ owns (c : Thread nD τ) arg12 fullShare (acc16_1 i x1 x2 x5 x6 (View.ld s1 r16_a))
            ∗ owns (c : Thread nD τ) arg13 fullShare (acc16_2 i x0 (View.ld s2 r16_d)) ∗ owns (c : Thread nD τ) arg14 fullShare (acc16_3 i x1 (View.ld s3 r16_d))) -∗ K ⟨⟩))
      ⊢ wp frame (wpE (defs₀ (F := F)) Variants.none c none) E (cc16__collect_fwd_fused_kernel i arg2 harg2 arg3 harg3 arg4 harg4 arg5 harg5 arg6 harg6 arg7 harg7 arg8 harg8 arg9 harg9 arg10 harg10 arg11 harg11 arg12 harg12 arg13 harg13 arg14 harg14) K := by
  simp only [cc16__collect_fwd_fused_kernel_eq_skeleton]; unfold cc16__collect_fwd_fused_kernel_skel
  simp only [k16_part1_eq_skeleton, k16_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%eo, %go, -, O8⟩, ⟨%g0, %hg0, S0⟩, ⟨%g1, %hg1, S1⟩, ⟨%g2, %hg2, S2⟩, ⟨%g3, %hg3, S3⟩, Hk⟩
  subst hf0 hf1 hf2 hf3 hf4 hf5 hf6 hf7 hg0 hg1 hg2 hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [O8]
  · iexists _; isplitr
    swap; · iexact O8
    ipureintro; sl_unfold_run_names
    exact (View.read_writes_eq_canon _ _ _ (cover16_a _)).trans
      (by simp only [View.readCov_cons_toLoadRect]; exact (out16_8_canon _ _ _ _ _).symm)
  isplitl [S0]
  · iexists _; isplitr
    swap; · iexact S0
    ipureintro; sl_unfold_run_names
    exact View.read_writes_eq_canon _ _ _ (cover16_a _)
  isplitl [S1]
  · iexists _; isplitr
    swap; · iexact S1
    ipureintro; sl_unfold_run_names
    exact View.read_writes_eq_canon _ _ _ (cover16_a _)
  isplitl [S2]
  · iexists _; isplitr
    swap; · iexact S2
    ipureintro; sl_unfold_run_names
    exact View.read_writes_eq_canon _ _ _ (cover16_d _)
  iexists _; isplitr
  swap; · iexact S3
  ipureintro; sl_unfold_run_names
  exact View.read_writes_eq_canon _ _ _ (cover16_d _)

/-! ## Where the output window is idle, and where its block is written back -/

/-- Off the last point of a row block the body stores nothing into the output window; -/
theorem idleAt16_8 : ∀ t : Fin cfg16.N, ¬cond16_1 (grid16.coords t) → cfg16.idle 8 (grid16.coords t) = true := by decide +kernel
/-- at it, it does. -/
theorem liveAt16_8 : ∀ t : Fin cfg16.N, cond16_1 (grid16.coords t) → cfg16.idle 8 (grid16.coords t) = false := by decide +kernel
/-- The output block is written back at the last point of a row block only. -/
theorem noFlush16_8 (t : Fin cfg16.N) (h : ¬t.val % 64 = 63) : (cfg16.win 8).flush t = false :=
  Bool.eq_false_iff.mpr fun hf => h ((flush16_8 t).mp hf)

/-! ## Each input's staging buffer holds its block at every point, fetched there or not -/

theorem before16_0 (c : Dev nD) (t : Fin cfg16.N) (d) : (dat16 V c).before 0 t d = iblk16 V c 0 t :=
  ((dat16 V c).before_in_eq_fetched 0 rfl (fun _ => rfl) (fun _ _ _ => rfl) (fun t => by rw [after16_0]; unfold Dat.blockOf iblk16; rw [A_eq16]; try rfl) t d).trans
    (by unfold Dat.fetched Dat.blockOf iblk16; rw [A_eq16]; try rfl)
theorem before16_1 (c : Dev nD) (t : Fin cfg16.N) (d) : (dat16 V c).before 1 t d = iblk16 V c 1 t :=
  ((dat16 V c).before_in_eq_fetched 1 rfl (fun _ => rfl) (fun _ _ _ => rfl) (fun t => by rw [after16_1]; unfold Dat.blockOf iblk16; rw [A_eq16]; try rfl) t d).trans
    (by unfold Dat.fetched Dat.blockOf iblk16; rw [A_eq16]; try rfl)
theorem before16_2 (c : Dev nD) (t : Fin cfg16.N) (d) : (dat16 V c).before 2 t d = iblk16 V c 2 t :=
  ((dat16 V c).before_in_eq_fetched 2 rfl (fun _ => rfl) (fun _ _ _ => rfl) (fun t => by rw [after16_2]; unfold Dat.blockOf iblk16; rw [A_eq16]; try rfl) t d).trans
    (by unfold Dat.fetched Dat.blockOf iblk16; rw [A_eq16]; try rfl)
theorem before16_3 (c : Dev nD) (t : Fin cfg16.N) (d) : (dat16 V c).before 3 t d = iblk16 V c 3 t :=
  ((dat16 V c).before_in_eq_fetched 3 rfl (fun _ => rfl) (fun _ _ _ => rfl) (fun t => by rw [after16_3]; unfold Dat.blockOf iblk16; rw [A_eq16]; try rfl) t d).trans
    (by unfold Dat.fetched Dat.blockOf iblk16; rw [A_eq16]; try rfl)
theorem before16_4 (c : Dev nD) (t : Fin cfg16.N) (d) : (dat16 V c).before 4 t d = iblk16 V c 4 t :=
  ((dat16 V c).before_in_eq_fetched 4 rfl (fun _ => rfl) (fun _ _ _ => rfl) (fun t => by rw [after16_4]; unfold Dat.blockOf iblk16; rw [A_eq16]; try rfl) t d).trans
    (by unfold Dat.fetched Dat.blockOf iblk16; rw [A_eq16]; try rfl)
theorem before16_5 (c : Dev nD) (t : Fin cfg16.N) (d) : (dat16 V c).before 5 t d = iblk16 V c 5 t :=
  ((dat16 V c).before_in_eq_fetched 5 rfl (fun _ => rfl) (fun _ _ _ => rfl) (fun t => by rw [after16_5]; unfold Dat.blockOf iblk16; rw [A_eq16]; try rfl) t d).trans
    (by unfold Dat.fetched Dat.blockOf iblk16; rw [A_eq16]; try rfl)
theorem before16_6 (c : Dev nD) (t : Fin cfg16.N) (d) : (dat16 V c).before 6 t d = iblk16 V c 6 t :=
  ((dat16 V c).before_in_eq_fetched 6 rfl (fun _ => rfl) (fun _ _ _ => rfl) (fun t => by rw [after16_6]; unfold Dat.blockOf iblk16; rw [A_eq16]; try rfl) t d).trans
    (by unfold Dat.fetched Dat.blockOf iblk16; rw [A_eq16]; try rfl)
theorem before16_7 (c : Dev nD) (t : Fin cfg16.N) (d) : (dat16 V c).before 7 t d = iblk16 V c 7 t :=
  ((dat16 V c).before_in_eq_fetched 7 rfl (fun _ => rfl) (fun _ _ _ => rfl) (fun t => by rw [after16_7]; unfold Dat.blockOf iblk16; rw [A_eq16]; try rfl) t d).trans
    (by unfold Dat.fetched Dat.blockOf iblk16; rw [A_eq16]; try rfl)

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d))
    ∗ (∃ d, owns (c : Thread nD τ) (st16_8 t) fullShare ((dat16 V c).before 8 t d)))

/-- and what it returns: the inputs' buffers as they were, the output's as the point leaves it (untouched where it is idle). -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t)
    ∗ (dat16 V c).leavesExact 8 t)

set_option maxHeartbeats 8000000 in
/-- The body at any point. The inputs' buffers hold their blocks (`before16_W`); the point's position in its row block says
    which of the three cases runs. The invariant hands the body the four sums at what the point before left (at anything before the
    very first point) and takes them back at this point's; the other scoped buffers and the generator register pass through
    unread; off the last point of a row block the output's buffer passes through as well. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6, before16_7]
  rw [show (dat16 V c).owesAt () t.succ = (dat16 V c).owesAt () t.castSucc from rfl]
  rw [show (dat16 V c).Φ t.succ = PhiS16 V c (t.val + 1) t.isLt from rfl, PhiS16_succ]
  rw [after16_0, after16_1, after16_2, after16_3, after16_4, after16_5, after16_6, after16_7]
  have hN : t.val < 128 := lt_of_lt_of_eq t.isLt (show cfg16.N = 128 from N_16)
  by_cases h0 : t.val % 64 = 0
  · have h1 : ¬t.val % 64 = 63 := by omega
    have hc0 : cond16_0 (grid16.coords t) := (hcond16_0 t).mpr h0
    have hc1 : ¬cond16_1 (grid16.coords t) := fun h => h1 ((hcond16_1 t).mp h)
    rw [Dat.leavesExact_idle (dat16 V c) 8 t (idleAt16_8 t hc1) (noFlush16_8 t h1)]
    rw [scrAt16_first V c t h0]
    by_cases hz : t.val = 0
    · rw [PhiS16_castSucc V c t, PhiS16_zero V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_A c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_A c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    have hc0 : ¬cond16_0 (grid16.coords t) := fun h => h0 ((hcond16_0 t).mp h)
    by_cases h1 : t.val % 64 = 63
    · have hc1 : cond16_1 (grid16.coords t) := (hcond16_1 t).mpr h1
      rw [show (dat16 V c).leavesExact 8 t = owns (c : Thread nD τ) (st16_8 t) fullShare ((dat16 V c).after 8 t) from by
        unfold Dat.leavesExact; rw [liveAt16_8 t hc1], after16_8]
      unfold scr16_0 scr16_1 scr16_2 scr16_3
      rw [scrAt16_next V c t h0]
      rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run16_C c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond16_1 (grid16.coords t) := fun h => h1 ((hcond16_1 t).mp h)
      rw [Dat.leavesExact_idle (dat16 V c) 8 t (idleAt16_8 t hc1) (noFlush16_8 t h1)]
      rw [scrAt16_next V c t h0]
      rw [PhiS16_castSucc V c t, PhiS16_pos V c _ _ hz]
      iintro ⟨⟨⟨HS0, HS1, HS2, HS3⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run16_B c Set.univ (grid16.coords t) _ _ _ _ _ _ _ _ _ _ _ _ _ _ _ _ _ _ _ _ _ _ _ _ _ _ hc0 hc1 (iblk16 V c 0 t) (iblk16 V c 1 t) (iblk16 V c 2 t) (iblk16 V c 3 t) (iblk16 V c 4 t) (iblk16 V c 5 t) (iblk16 V c 6 t) (iblk16 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hrest Hg]
      · isplitl [HS0 HS1 HS2 HS3]
        · isplitl [HS0]; · iexact HS0
          isplitl [HS1]; · iexact HS1
          isplitl [HS2]; · iexact HS2
          iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation16 (c : Dev nD) : BodyObligation (dat16 (F := F) V c) (defs₀ (F := F)) Variants.none () Set.univ := fun t => by
  rw [bigSep_W16, bigSep_W16]
  exact sound_body16 V c t

/-! ## The invariant's two ends -/

/-- What the region is entered with — the generator register and the scoped buffers that are no staging buffer, the four scratch
    arrays among them at anything — is the invariant before the first point. -/
theorem phi_in16 (c : Dev nD) : (iprop((∃ r, prngReg c r) ∗ Pipeline.scopedRest (Ix := Unit) (Name := ℕ) (U := UR sig nD τ) (Lvl := ℕ) spec16 c) : sProp 𝕄) ⊢ (dat16 V c).Φ 0 := by
  rw [show (dat16 V c).Φ 0 = PhiS16 V c 0 (Nat.zero_le _) from rfl, PhiS16_zero V c 0 _ rfl, scopedRest16_split]
  simp only [scM16_0, scM16_1, scM16_2, scM16_3, owns_whole]
  iintro ⟨Hp, ⟨H0, H1, H2, H3⟩, Hr⟩
  isplitl [H0 H1 H2 H3]
  · isplitl [H0]; · iexact H0
    isplitl [H1]; · iexact H1
    isplitl [H2]; · iexact H2
    iexact H3
  isplitl [Hr]; · iexact Hr
  iexact Hp

/-- After the last point the invariant gives the same back: what the four scratch arrays then hold is forgotten. -/
theorem phi_out16 (c : Dev nD) : (dat16 V c).Φ (Fin.last cfg16.N) ⊢ (iprop((∃ r, prngReg c r) ∗ Pipeline.scopedRest (Ix := Unit) (Name := ℕ) (U := UR sig nD τ) (Lvl := ℕ) spec16 c) : sProp 𝕄) := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 128 := N_16; omega), scopedRest16_split]
  simp only [scM16_0, scM16_1, scM16_2, scM16_3, owns_whole]
  iintro ⟨⟨H0, H1, H2, H3⟩, Hr, Hp⟩
  isplitl [Hp]; · iexact Hp
  isplitl [H0 H1 H2 H3]
  · isplitl [H0]; · iexists _; iexact H0
    isplitl [H1]; · iexists _; iexact H1
    isplitl [H2]; · iexists _; iexact H2
    iexists _; iexact H3
  iexact Hr

end Cert.KernelIdeal.Hand
end
-- ==== Proof.KI.Reg17.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 17: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## The rectangles the body reads and writes: each is the whole of its buffer -/

/-- The whole input block. -/
abbrev r17_0 : Rect S512x256 := Rect.unit (s := S512x256) ![0, 0] S512x256.size inb_S512x256_S512x256_0_0
/-- The whole weight matrix. -/
abbrev r17_1 : Rect S256x128 := Rect.unit (s := S256x128) ![0, 0] S256x128.size inb_S256x128_S256x128_0_0
/-- The whole bias row. -/
abbrev r17_2 : Rect S1x128 := Rect.unit (s := S1x128) ![0, 0] S1x128.size inb_S1x128_S1x128_0_0
/-- The whole output block. -/
abbrev r17_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out17_3 (x0 : Vec F S512x256 .f32) (x1 : Vec F S256x128 .f32) (x2 : Vec F S1x128 .f32) : Vec F S512x128 .bf16 :=
  View.canon [⟨r17_3, k17_pay1 (View.ld x0 r17_0) (View.ld x1 r17_1) (View.ld x2 r17_2)⟩]

/-! ## The proof data -/

/-- The proof data of the region on core `c`: the arrays as the region finds them; after the body at point `t`
    each input's buffer still at its block and the output's at `out17_3` of the input blocks; the invariant is
    the scoped rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-- Nothing is owed at any point. -/
theorem owed17 (c : Dev nD) (t) : (dat17 V c).owed t = 0 := rfl

/-- Every window is held at the full share. -/
theorem q17 (c : Dev nD) (w) : (dat17 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The weight matrix's buffer holds the matrix at every point: fetched at the first point only, its block index
    never moves afterwards, and the body leaves it in place. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias row's buffer holds the row at every point, for the same reason. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body's triple -/

/-- The body's one store is over the whole output buffer, so it covers every index of it. -/
theorem cover17_3 (p0 : Vec F S512x128 .bf16) (y : S512x128.Idx) :
    ∃ pc ∈ ([⟨r17_3, p0⟩] : List (View.Piece (Elt F) S512x128 .bf16)), y ∈ pc.1.set :=
  View.cover_of_tiled [⟨r17_3, p0⟩] S512x128.size (by rfl) y

set_option maxHeartbeats 1000000 in
/-- The body on whole staging memrefs — the three inputs' reading `x0`, `x1`, `x2`, the output's holding anything —
    runs to a continuation that holds the inputs' as they were and the output's at `out17_3 x0 x1 x2`: the printed
    function is its skeleton of loads and one store, run operation by operation. -/
theorem sound_kernel17 (c : Dev nD) (E : Set ℕ) (i : grid17.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out17_3 x0 x1 x2)) -∗ K ⟨⟩))
      ⊢ wp frame (wpE (defs₀ (F := F)) Variants.none c none) E (cc17__linear_kernel i arg1 harg1 arg2 harg2 arg3 harg3 arg4 harg4) K := by
  simp only [cc17__linear_kernel_eq_skeleton]; unfold cc17__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The body obligation -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks, so the body's triple applies; the invariant and
    what the core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation17 (c : Dev nD) : BodyObligation (dat17 (F := F) V c) (defs₀ (F := F)) Variants.none () Set.univ := fun t => by
  rw [bigSep_W17, bigSep_W17]
  exact sound_body17 V c t

/-! ## The invariant at the two ends -/

/-- The generator register and the scoped buffers no window stages make the invariant at the first point. -/
theorem phi_in17 (c : Dev nD) :
    (iprop((∃ r, prngReg c r) ∗ Pipeline.scopedRest (Ix := Unit) (Name := ℕ) (U := UR sig nD τ) (Lvl := ℕ) spec17 c) : sProp 𝕄)
      ⊢ (dat17 V c).Φ 0 := by
  rw [show (dat17 V c).Φ 0 = Pipeline.ΦA spec17 c from rfl]; unfold Pipeline.ΦA
  iintro ⟨Hp, Hr⟩
  isplitl [Hr]; · iexact Hr
  iexact Hp

/-- The invariant at the last point gives them back. -/
theorem phi_out17 (c : Dev nD) :
    (dat17 V c).Φ (Fin.last cfg17.N)
      ⊢ (iprop((∃ r, prngReg c r) ∗ Pipeline.scopedRest (Ix := Unit) (Name := ℕ) (U := UR sig nD τ) (Lvl := ℕ) spec17 c) : sProp 𝕄) := by
  rw [show (dat17 V c).Φ (Fin.last _) = Pipeline.ΦA spec17 c from rfl]; unfold Pipeline.ΦA
  iintro ⟨Hr, Hp⟩
  isplitl [Hp]; · iexact Hp
  iexact Hr

end Cert.KernelIdeal.Hand

end
-- ==== Proof.KI.Reg18.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 18: one linear layer, a block of rows of the input at each grid point

Window 0 is the current block of rows of the input, window 1 the whole weight matrix, window 2 the bias row,
window 3 (the output) the matching block of rows of the result; what is done to the product plus the bias
before it is stored is the payload's business and plays no part here. Everything is stated at a parameter
`V`: what the buffers hold when the region is entered. -/

/-! ## The windows' blocks -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-! ## The rectangles the body reads and writes: each is the whole of its buffer -/

/-- The whole input block. -/
abbrev r18_0 : Rect S512x256 := Rect.unit (s := S512x256) ![0, 0] S512x256.size inb_S512x256_S512x256_0_0
/-- The whole weight matrix. -/
abbrev r18_1 : Rect S256x128 := Rect.unit (s := S256x128) ![0, 0] S256x128.size inb_S256x128_S256x128_0_0
/-- The whole bias row. -/
abbrev r18_2 : Rect S1x128 := Rect.unit (s := S1x128) ![0, 0] S1x128.size inb_S1x128_S1x128_0_0
/-- The whole output block. -/
abbrev r18_3 : Rect S512x128 := Rect.unit (s := S512x128) ![0, 0] S512x128.size inb_S512x128_S512x128_0_0

/-! ## What the body leaves in the output window's buffer -/

/-- The output buffer after the body, from the three input blocks: the body's one store, of the payload
    computed from what it read of the inputs, over the whole buffer. -/
def out18_3 (x0 : Vec F S512x256 .f32) (x1 : Vec F S256x128 .f32) (x2 : Vec F S1x128 .f32) : Vec F S512x128 .bf16 :=
  View.canon [⟨r18_3, k18_pay1 (View.ld x0 r18_0) (View.ld x1 r18_1) (View.ld x2 r18_2)⟩]

/-! ## The proof data -/

/-- The proof data of the region on core `c`: the arrays as the region finds them; after the body at point `t`
    each input's buffer still at its block and the output's at `out18_3` of the input blocks; the invariant is
    the scoped rest and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) :
    (dat18 V c).after 3 t = out18_3 (iblk18 V c 0 t) (iblk18 V c 1 t) (iblk18 V c 2 t) := by dsimp only [dat18]

/-- Nothing is owed at any point. -/
theorem owed18 (c : Dev nD) (t) : (dat18 V c).owed t = 0 := rfl

/-- Every window is held at the full share. -/
theorem q18 (c : Dev nD) (w) : (dat18 V c).q w = fullShare := rfl

/-! ## The inputs' buffers hold their blocks at every point -/

/-- The input block's buffer holds the block of the current point: it is fetched at every point, the window is
    uncut and never idle, and the body leaves the block in place. Stated for any proof data whose array is the entry
    contents and whose body leaves the block. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- The weight matrix's buffer holds the matrix at every point: fetched at the first point only, its block index
    never moves afterwards, and the body leaves it in place. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The bias row's buffer holds the row at every point, for the same reason. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body's triple -/

/-- The body's one store is over the whole output buffer, so it covers every index of it. -/
theorem cover18_3 (p0 : Vec F S512x128 .bf16) (y : S512x128.Idx) :
    ∃ pc ∈ ([⟨r18_3, p0⟩] : List (View.Piece (Elt F) S512x128 .bf16)), y ∈ pc.1.set :=
  View.cover_of_tiled [⟨r18_3, p0⟩] S512x128.size (by rfl) y

set_option maxHeartbeats 1000000 in
/-- The body on whole staging memrefs — the three inputs' reading `x0`, `x1`, `x2`, the output's holding anything —
    runs to a continuation that holds the inputs' as they were and the output's at `out18_3 x0 x1 x2`: the printed
    function is its skeleton of loads and one store, run operation by operation. -/
theorem sound_kernel18 (c : Dev nD) (E : Set ℕ) (i : grid18.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole)
    (x0 : Vec F S512x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out18_3 x0 x1 x2)) -∗ K ⟨⟩))
      ⊢ wp frame (wpE (defs₀ (F := F)) Variants.none c none) E (cc18__linear_kernel i arg1 harg1 arg2 harg2 arg3 harg3 arg4 harg4) K := by
  simp only [cc18__linear_kernel_eq_skeleton]; unfold cc18__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The body obligation -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks, so the body's triple applies; the invariant and
    what the core owes pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ _ _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation18 (c : Dev nD) : BodyObligation (dat18 (F := F) V c) (defs₀ (F := F)) Variants.none () Set.univ := fun t => by
  rw [bigSep_W18, bigSep_W18]
  exact sound_body18 V c t

/-! ## The invariant at the two ends -/

/-- The generator register and the scoped buffers no window stages make the invariant at the first point. -/
theorem phi_in18 (c : Dev nD) :
    (iprop((∃ r, prngReg c r) ∗ Pipeline.scopedRest (Ix := Unit) (Name := ℕ) (U := UR sig nD τ) (Lvl := ℕ) spec18 c) : sProp 𝕄)
      ⊢ (dat18 V c).Φ 0 := by
  rw [show (dat18 V c).Φ 0 = Pipeline.ΦA spec18 c from rfl]; unfold Pipeline.ΦA
  iintro ⟨Hp, Hr⟩
  isplitl [Hr]; · iexact Hr
  iexact Hp

/-- The invariant at the last point gives them back. -/
theorem phi_out18 (c : Dev nD) :
    (dat18 V c).Φ (Fin.last cfg18.N)
      ⊢ (iprop((∃ r, prngReg c r) ∗ Pipeline.scopedRest (Ix := Unit) (Name := ℕ) (U := UR sig nD τ) (Lvl := ℕ) spec18 c) : sProp 𝕄) := by
  rw [show (dat18 V c).Φ (Fin.last _) = Pipeline.ΦA spec18 c from rfl]; unfold Pipeline.ΦA
  iintro ⟨Hr, Hp⟩
  isplitl [Hp]; · iexact Hp
  iexact Hr

end Cert.KernelIdeal.Hand

end
-- ==== Proof.KI.Reg19.lean ====
import proofs.«422120_j65652870087589_3_alg».proof.Proof.Gen.KernelIdeal.Launch
import proofs.«422120_j65652870087589_3_alg».proof.Proof.Gen.KernelIdeal.Skeleton
import proofs.«422120_j65652870087589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 19: the relations gather from the objects (feature level), at the entry contents `V`

Windows 0 and 1 are the two index columns (a block of 512 relations each), windows 2 and 3 the two whole
object-side matrices, window 4 the target's block of 512 rows, window 5 the result's block of the same rows. -/

/-- Window `w`'s block at grid point `t`, read off the array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The whole of an index column's block. -/
abbrev r19_ix : Rect S512x1 := Rect.unit (s := S512x1) ![0, 0] S512x1.size inb_S512x1_S512x1_0_0
/-- The whole of an object-side matrix. -/
abbrev r19_fc : Rect S2048x128 := Rect.unit (s := S2048x128) ![0, 0] S2048x128.size inb_S2048x128_S2048x128_0_0
/-- The whole of a block of the target or of the result. -/
abbrev r19_o : Rect S512x128 := Rect.unit (s := S512x128) ![0, 0] S512x128.size inb_S512x128_S512x128_0_0

/-- What the body leaves in the result's staging buffer, from the five input blocks: its single store, which covers the
    buffer, of the target block plus half the sum of the two averaged gathers. -/
def out19_5 (x0 : Vec F S512x1 .i32) (x1 : Vec F S512x1 .i32) (x2 : Vec F S2048x128 .bf16) (x3 : Vec F S2048x128 .bf16)
    (x4 : Vec F S512x128 .f32) : Vec F S512x128 .f32 :=
  View.canon [⟨r19_o, k19_pay1 (k19_pay2 (View.ld x4 r19_o))
    (k19_pay3 (View.ld x0 r19_ix) (View.ld x1 r19_ix) (View.ld x2 r19_fc) (View.ld x3 r19_fc))⟩]

/-- The proof data of pipeline 19 on core `c`: the arrays as found; after the body every input's buffer still holds its
    block and the result's holds `out19_5` of the input blocks; the invariant is the untouched scoped rest beside the
    generator register; nothing is owed and every share is whole. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => out19_5 (iblk19 V c 0 t) (iblk19 V c 1 t) (iblk19 V c 2 t) (iblk19 V c 3 t) (iblk19 V c 4 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t =
    out19_5 (iblk19 V c 0 t) (iblk19 V c 1 t) (iblk19 V c 2 t) (iblk19 V c 3 t) (iblk19 V c 4 t) := by dsimp only [dat19]

theorem owed19 (c : Dev nD) (t) : (dat19 V c).owed t = 0 := rfl
theorem q19 (c : Dev nD) (w) : (dat19 V c).q w = fullShare := rfl

/-! ## The inputs' staging buffers hold their blocks -/

/-- Each input window's current staging buffer holds the window's block at every grid point, whether the window was
    fetched there or not: the body leaves the block where it was, and where there was no fetch the block index has not
    moved (the two whole matrices are fetched at the first point only, and their index is constant). -/
theorem before19_0 (c : Dev nD) (t : Fin cfg19.N) (d) : (dat19 V c).before 0 t d = iblk19 V c 0 t :=
  ((dat19 V c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)
theorem before19_1 (c : Dev nD) (t : Fin cfg19.N) (d) : (dat19 V c).before 1 t d = iblk19 V c 1 t :=
  ((dat19 V c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)
theorem before19_2 (c : Dev nD) (t : Fin cfg19.N) (d) : (dat19 V c).before 2 t d = iblk19 V c 2 t :=
  ((dat19 V c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)
theorem before19_3 (c : Dev nD) (t : Fin cfg19.N) (d) : (dat19 V c).before 3 t d = iblk19 V c 3 t :=
  ((dat19 V c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)
theorem before19_4 (c : Dev nD) (t : Fin cfg19.N) (d) : (dat19 V c).before 4 t d = iblk19 V c 4 t :=
  ((dat19 V c).before_in_eq_fetched 4 rfl (fun _ => rfl) (fun _ _ _ => rfl)
      (fun t => by rw [after19_4]; unfold Dat.blockOf iblk19; rw [A_eq19]; try rfl) t d).trans
    (by unfold Dat.fetched Dat.blockOf iblk19; rw [A_eq19]; try rfl)

/-! ## The body's triple -/

/-- The single store of the body is of the whole result block, so it covers the staging buffer. -/
theorem cover19_5 (p0 : Vec F S512x128 .f32) (y : S512x128.Idx) :
    ∃ pc ∈ ([⟨r19_o, p0⟩] : List (View.Piece (Elt F) S512x128 .f32)), y ∈ pc.1.set :=
  View.cover_of_tiled [⟨r19_o, p0⟩] S512x128.size (by rfl) y

set_option maxHeartbeats 1000000 in
/-- On whole staging memrefs, the five inputs' read at `x0 … x4` and the result's at anything, the body runs to a
    continuation that holds the inputs' as they were and the result's at `out19_5` of them: five loads inside the part,
    a dead load of the result's buffer, and the one store. -/
theorem sound_kernel19 (c : Dev nD) (E : Set ℕ) (i : grid19.Coords)
    (arg1 : Memref sig .tc .vmem S512x1 .i32) (harg1 : arg1.IsWhole) (arg2 : Memref sig .tc .vmem S512x1 .i32) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S512x128 .f32) (harg5 : arg5.IsWhole) (arg6 : Memref sig .tc .vmem S512x128 .f32) (harg6 : arg6.IsWhole)
    (x0 : Vec F S512x1 .i32) (x1 : Vec F S512x1 .i32) (x2 : Vec F S2048x128 .bf16) (x3 : Vec F S2048x128 .bf16) (x4 : Vec F S512x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out19_5 x0 x1 x2 x3 x4)) -∗ K ⟨⟩))
      ⊢ wp frame (wpE (defs₀ (F := F)) Variants.none c none) E
          (cc19__collect_transpose_fused_kernel i arg1 harg1 arg2 harg2 arg3 harg3 arg4 harg4 arg5 harg5 arg6 harg6) K := by
  simp only [cc19__collect_transpose_fused_kernel_eq_skeleton]; unfold cc19__collect_transpose_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover19_5 _)

/-! ## The body obligation -/

/-- What the body is entered with at grid point `t`: the invariant, what the core owes, and each window's current
    staging buffer at what it then holds. -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d)))

/-- What it returns: the same at the next point, each buffer at what the body leaves in it. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t))

/-- The body at any grid point: the inputs' buffers hold their blocks, so the body's triple applies; the invariant and
    what the core owes are not read and pass through. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4]
  rw [show (dat19 V c).Φ t.succ = (dat19 V c).Φ t.castSucc from rfl,
    show (dat19 V c).owesAt () t.succ = (dat19 V c).owesAt () t.castSucc from rfl,
    after19_0, after19_1, after19_2, after19_3, after19_4, after19_5]
  iintro ⟨HΦ, Ho, ⟨%d0, H0⟩, ⟨%d1, H1⟩, ⟨%d2, H2⟩, ⟨%d3, H3⟩, ⟨%d4, H4⟩, ⟨%d5, H5⟩⟩
  iapply (sound_kernel19 c Set.univ _ _ _ _ _ _ _ _ _ _ _ _ _
    (iblk19 V c 0 t) (iblk19 V c 1 t) (iblk19 V c 2 t) (iblk19 V c 3 t) (iblk19 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation19 (c : Dev nD) : BodyObligation (dat19 (F := F) V c) (defs₀ (F := F)) Variants.none () Set.univ := fun t => by
  rw [bigSep_W19, bigSep_W19]
  exact sound_body19 V c t

/-! ## The invariant at the region's two ends -/

/-- Entering: the generator register and the scoped rest make the invariant. -/
theorem phi_in19 (c : Dev nD) : (iprop((∃ r, prngReg c r) ∗ Pipeline.scopedRest (Ix := Unit) (Name := ℕ) (U := UR sig nD τ) (Lvl := ℕ) spec19 c) : sProp 𝕄) ⊢ (dat19 V c).Φ 0 := by
  rw [show (dat19 V c).Φ 0 = Pipeline.ΦA spec19 c from rfl]; unfold Pipeline.ΦA
  iintro ⟨Hp, Hr⟩
  isplitl [Hr]; · iexact Hr
  iexact Hp

/-- Leaving: the invariant gives both back. -/
theorem phi_out19 (c : Dev nD) : (dat19 V c).Φ (Fin.last cfg19.N) ⊢ (iprop((∃ r, prngReg c r) ∗ Pipeline.scopedRest (Ix := Unit) (Name := ℕ) (U := UR sig nD τ) (Lvl := ℕ) spec19 c) : sProp 𝕄) := by
  rw [show (dat19 V c).Φ (Fin.last cfg19.N) = Pipeline.ΦA spec19 c from rfl]; unfold Pipeline.ΦA
  iintro ⟨Hr, Hp⟩
  isplitl [Hp]; · iexact Hp
  iexact Hr

end Cert.KernelIdeal.Hand
end
-- ==== Proof.KI.Fold.lean ====
/-
  The whole program as one run. Between two items of @main (a stretch of host operations, or a kernel region) core c holds every
  unscoped buffer at a valuation U_j: the launch memory, then each host stretch applied, then, after a region, the region's output
  array replaced by what the region's write-backs leave (the fold of its proof data over the grid) and every other buffer as it was.
  Each region is a segment entered from U_a and left at U_b; the conditional frame of this program, instantiated at these contents,
  gives the frame claim, and the same launch with every buffer named at the end gives the run the value claim reads.
-/
import proofs.«422120_j65652870087589_3_alg».proof.Proof.RegionsKI
import proofs.«422120_j65652870087589_3_alg».proof.Proof.KI.ValueCond
import proofs.«422120_j65652870087589_3_alg».proof.Proof.KI.Reg0
import proofs.«422120_j65652870087589_3_alg».proof.Proof.KI.Reg1
import proofs.«422120_j65652870087589_3_alg».proof.Proof.KI.Reg2
import proofs.«422120_j65652870087589_3_alg».proof.Proof.KI.Reg3
import proofs.«422120_j65652870087589_3_alg».proof.Proof.KI.Reg4
import proofs.«422120_j65652870087589_3_alg».proof.Proof.KI.Reg5
import proofs.«422120_j65652870087589_3_alg».proof.Proof.KI.Reg6
import proofs.«422120_j65652870087589_3_alg».proof.Proof.KI.Reg7
import proofs.«422120_j65652870087589_3_alg».proof.Proof.KI.Reg8
import proofs.«422120_j65652870087589_3_alg».proof.Proof.KI.Reg9
import proofs.«422120_j65652870087589_3_alg».proof.Proof.KI.Reg10
import proofs.«422120_j65652870087589_3_alg».proof.Proof.KI.Reg11
import proofs.«422120_j65652870087589_3_alg».proof.Proof.KI.Reg12
import proofs.«422120_j65652870087589_3_alg».proof.Proof.KI.Reg13
import proofs.«422120_j65652870087589_3_alg».proof.Proof.KI.Reg14
import proofs.«422120_j65652870087589_3_alg».proof.Proof.KI.Reg15
import proofs.«422120_j65652870087589_3_alg».proof.Proof.KI.Reg16
import proofs.«422120_j65652870087589_3_alg».proof.Proof.KI.Reg17
import proofs.«422120_j65652870087589_3_alg».proof.Proof.KI.Reg18
import proofs.«422120_j65652870087589_3_alg».proof.Proof.KI.Reg19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's unscoped buffers at launch. -/
abbrev U0 (c : Dev nD) : Valuation τ sig (Elt F) := fun b => m (c, b)
/-- After the host stretch hostOps0. -/
abbrev U1 (c : Dev nD) : Valuation τ sig (Elt F) := StableHlo.after hostOps0 (U0 m c)
/-- The contents region 0 is entered from, read at the TensorCore's references (what its proof data take). -/
abbrev u1 : (c : Dev nD) → (b : Ref sig .tc) → Buf (Elt F) ((c : Thread nD τ).loc b) := fun c b => U1 m c b
/-- Region 0's arrays at what its pipeline leaves (each output's write-backs folded over the grid), every other buffer as entered. -/
def X2 (c : Dev nD) : Valuation τ sig (Elt F) :=
  Pipeline.withArrays spec0 c (U1 m c) fun w => (dat0 (u1 m) c).arrAt w cfg0.N
/-- After region 0: its output array main_v10 at what the region leaves there, every other buffer as entered. -/
abbrev U2 (c : Dev nD) : Valuation τ sig (Elt F) := Function.update (U1 m c) main_v10 (X2 m c main_v10)
/-- After the host stretch hostOps1. -/
abbrev U3 (c : Dev nD) : Valuation τ sig (Elt F) := StableHlo.after hostOps1 (U2 m c)
/-- The contents region 1 is entered from, read at the TensorCore's references (what its proof data take). -/
abbrev u3 : (c : Dev nD) → (b : Ref sig .tc) → Buf (Elt F) ((c : Thread nD τ).loc b) := fun c b => U3 m c b
/-- Region 1's arrays at what its pipeline leaves (each output's write-backs folded over the grid), every other buffer as entered. -/
def X4 (c : Dev nD) : Valuation τ sig (Elt F) :=
  Pipeline.withArrays spec1 c (U3 m c) fun w => (dat1 (u3 m) c).arrAt w cfg1.N
/-- After region 1: its output array main_v13 at what the region leaves there, every other buffer as entered. -/
abbrev U4 (c : Dev nD) : Valuation τ sig (Elt F) := Function.update (U3 m c) main_v13 (X4 m c main_v13)
/-- After the host stretch hostOps2. -/
abbrev U5 (c : Dev nD) : Valuation τ sig (Elt F) := StableHlo.after hostOps2 (U4 m c)
/-- The contents region 2 is entered from, read at the TensorCore's references (what its proof data take). -/
abbrev u5 : (c : Dev nD) → (b : Ref sig .tc) → Buf (Elt F) ((c : Thread nD τ).loc b) := fun c b => U5 m c b
/-- Region 2's arrays at what its pipeline leaves (each output's write-backs folded over the grid), every other buffer as entered. -/
def X6 (c : Dev nD) : Valuation τ sig (Elt F) :=
  Pipeline.withArrays spec2 c (U5 m c) fun w => (dat2 (u5 m) c).arrAt w cfg2.N
/-- After region 2: its output array main_v24 at what the region leaves there, every other buffer as entered. -/
abbrev U6 (c : Dev nD) : Valuation τ sig (Elt F) := Function.update (U5 m c) main_v24 (X6 m c main_v24)
/-- After the host stretch hostOps3. -/
abbrev U7 (c : Dev nD) : Valuation τ sig (Elt F) := StableHlo.after hostOps3 (U6 m c)
/-- The contents region 3 is entered from, read at the TensorCore's references (what its proof data take). -/
abbrev u7 : (c : Dev nD) → (b : Ref sig .tc) → Buf (Elt F) ((c : Thread nD τ).loc b) := fun c b => U7 m c b
/-- Region 3's arrays at what its pipeline leaves (each output's write-backs folded over the grid), every other buffer as entered. -/
def X8 (c : Dev nD) : Valuation τ sig (Elt F) :=
  Pipeline.withArrays spec3 c (U7 m c) fun w => (dat3 (u7 m) c).arrAt w cfg3.N
/-- After region 3: its output array main_v30 at what the region leaves there, every other buffer as entered. -/
abbrev U8 (c : Dev nD) : Valuation τ sig (Elt F) := Function.update (U7 m c) main_v30 (X8 m c main_v30)
/-- After the host stretch hostOps4. -/
abbrev U9 (c : Dev nD) : Valuation τ sig (Elt F) := StableHlo.after hostOps4 (U8 m c)
/-- The contents region 4 is entered from, read at the TensorCore's references (what its proof data take). -/
abbrev u9 : (c : Dev nD) → (b : Ref sig .tc) → Buf (Elt F) ((c : Thread nD τ).loc b) := fun c b => U9 m c b
/-- Region 4's arrays at what its pipeline leaves (each output's write-backs folded over the grid), every other buffer as entered. -/
def X10 (c : Dev nD) : Valuation τ sig (Elt F) :=
  Pipeline.withArrays spec4 c (U9 m c) fun w => (dat4 (u9 m) c).arrAt w cfg4.N
/-- After region 4: its output array main_v36 at what the region leaves there, every other buffer as entered. -/
abbrev U10 (c : Dev nD) : Valuation τ sig (Elt F) := Function.update (U9 m c) main_v36 (X10 m c main_v36)
/-- The contents region 5 is entered from, read at the TensorCore's references (what its proof data take). -/
abbrev u10 : (c : Dev nD) → (b : Ref sig .tc) → Buf (Elt F) ((c : Thread nD τ).loc b) := fun c b => U10 m c b
/-- Region 5's arrays at what its pipeline leaves (each output's write-backs folded over the grid), every other buffer as entered. -/
def X11 (c : Dev nD) : Valuation τ sig (Elt F) :=
  Pipeline.withArrays spec5 c (U10 m c) fun w => (dat5 (u10 m) c).arrAt w cfg5.N
/-- After region 5: its output array main_v37 at what the region leaves there, every other buffer as entered. -/
abbrev U11 (c : Dev nD) : Valuation τ sig (Elt F) := Function.update (U10 m c) main_v37 (X11 m c main_v37)
/-- After the host stretch hostOps6. -/
abbrev U12 (c : Dev nD) : Valuation τ sig (Elt F) := StableHlo.after hostOps6 (U11 m c)
/-- The contents region 6 is entered from, read at the TensorCore's references (what its proof data take). -/
abbrev u12 : (c : Dev nD) → (b : Ref sig .tc) → Buf (Elt F) ((c : Thread nD τ).loc b) := fun c b => U12 m c b
/-- Region 6's arrays at what its pipeline leaves (each output's write-backs folded over the grid), every other buffer as entered. -/
def X13 (c : Dev nD) : Valuation τ sig (Elt F) :=
  Pipeline.withArrays spec6 c (U12 m c) fun w => (dat6 (u12 m) c).arrAt w cfg6.N
/-- After region 6: its output array main_v48 at what the region leaves there, every other buffer as entered. -/
abbrev U13 (c : Dev nD) : Valuation τ sig (Elt F) := Function.update (U12 m c) main_v48 (X13 m c main_v48)
/-- After the host stretch hostOps7. -/
abbrev U14 (c : Dev nD) : Valuation τ sig (Elt F) := StableHlo.after hostOps7 (U13 m c)
/-- The contents region 7 is entered from, read at the TensorCore's references (what its proof data take). -/
abbrev u14 : (c : Dev nD) → (b : Ref sig .tc) → Buf (Elt F) ((c : Thread nD τ).loc b) := fun c b => U14 m c b
/-- Region 7's arrays at what its pipeline leaves (each output's write-backs folded over the grid), every other buffer as entered. -/
def X15 (c : Dev nD) : Valuation τ sig (Elt F) :=
  Pipeline.withArrays spec7 c (U14 m c) fun w => (dat7 (u14 m) c).arrAt w cfg7.N
/-- After region 7: its output array main_v54 at what the region leaves there, every other buffer as entered. -/
abbrev U15 (c : Dev nD) : Valuation τ sig (Elt F) := Function.update (U14 m c) main_v54 (X15 m c main_v54)
/-- After the host stretch hostOps8. -/
abbrev U16 (c : Dev nD) : Valuation τ sig (Elt F) := StableHlo.after hostOps8 (U15 m c)
/-- The contents region 8 is entered from, read at the TensorCore's references (what its proof data take). -/
abbrev u16 : (c : Dev nD) → (b : Ref sig .tc) → Buf (Elt F) ((c : Thread nD τ).loc b) := fun c b => U16 m c b
/-- Region 8's arrays at what its pipeline leaves (each output's write-backs folded over the grid), every other buffer as entered. -/
def X17 (c : Dev nD) : Valuation τ sig (Elt F) :=
  Pipeline.withArrays spec8 c (U16 m c) fun w => (dat8 (u16 m) c).arrAt w cfg8.N
/-- After region 8: its output array main_v60 at what the region leaves there, every other buffer as entered. -/
abbrev U17 (c : Dev nD) : Valuation τ sig (Elt F) := Function.update (U16 m c) main_v60 (X17 m c main_v60)
/-- The contents region 9 is entered from, read at the TensorCore's references (what its proof data take). -/
abbrev u17 : (c : Dev nD) → (b : Ref sig .tc) → Buf (Elt F) ((c : Thread nD τ).loc b) := fun c b => U17 m c b
/-- Region 9's arrays at what its pipeline leaves (each output's write-backs folded over the grid), every other buffer as entered. -/
def X18 (c : Dev nD) : Valuation τ sig (Elt F) :=
  Pipeline.withArrays spec9 c (U17 m c) fun w => (dat9 (u17 m) c).arrAt w cfg9.N
/-- After region 9: its output array main_v61 at what the region leaves there, every other buffer as entered. -/
abbrev U18 (c : Dev nD) : Valuation τ sig (Elt F) := Function.update (U17 m c) main_v61 (X18 m c main_v61)
/-- After the host stretch hostOps10. -/
abbrev U19 (c : Dev nD) : Valuation τ sig (Elt F) := StableHlo.after hostOps10 (U18 m c)
/-- After the host stretch hostOps10_1. -/
abbrev U20 (c : Dev nD) : Valuation τ sig (Elt F) := StableHlo.after hostOps10_1 (U19 m c)
/-- After the host stretch hostOps10_2. -/
abbrev U21 (c : Dev nD) : Valuation τ sig (Elt F) := StableHlo.after hostOps10_2 (U20 m c)
/-- After the host stretch hostOps10_3. -/
abbrev U22 (c : Dev nD) : Valuation τ sig (Elt F) := StableHlo.after hostOps10_3 (U21 m c)
/-- After the host stretch hostOps10_4. -/
abbrev U23 (c : Dev nD) : Valuation τ sig (Elt F) := StableHlo.after hostOps10_4 (U22 m c)
/-- After the host stretch hostOps10_5. -/
abbrev U24 (c : Dev nD) : Valuation τ sig (Elt F) := StableHlo.after hostOps10_5 (U23 m c)
/-- After the host stretch hostOps10_6. -/
abbrev U25 (c : Dev nD) : Valuation τ sig (Elt F) := StableHlo.after hostOps10_6 (U24 m c)
/-- After the host stretch hostOps10_7. -/
abbrev U26 (c : Dev nD) : Valuation τ sig (Elt F) := StableHlo.after hostOps10_7 (U25 m c)
/-- After the host stretch hostOps10_8. -/
abbrev U27 (c : Dev nD) : Valuation τ sig (Elt F) := StableHlo.after hostOps10_8 (U26 m c)
/-- After the host stretch hostOps10_9. -/
abbrev U28 (c : Dev nD) : Valuation τ sig (Elt F) := StableHlo.after hostOps10_9 (U27 m c)
/-- After the host stretch hostOps10_10. -/
abbrev U29 (c : Dev nD) : Valuation τ sig (Elt F) := StableHlo.after hostOps10_10 (U28 m c)
/-- After the host stretch hostOps10_11. -/
abbrev U30 (c : Dev nD) : Valuation τ sig (Elt F) := StableHlo.after hostOps10_11 (U29 m c)
/-- After the host stretch hostOps10_12. -/
abbrev U31 (c : Dev nD) : Valuation τ sig (Elt F) := StableHlo.after hostOps10_12 (U30 m c)
/-- After the host stretch hostOps10_13. -/
abbrev U32 (c : Dev nD) : Valuation τ sig (Elt F) := StableHlo.after hostOps10_13 (U31 m c)
/-- After the host stretch hostOps10_14. -/
abbrev U33 (c : Dev nD) : Valuation τ sig (Elt F) := StableHlo.after hostOps10_14 (U32 m c)
/-- After the host stretch hostOps10_15. -/
abbrev U34 (c : Dev nD) : Valuation τ sig (Elt F) := StableHlo.after hostOps10_15 (U33 m c)
/-- After the host stretch hostOps10_16. -/
abbrev U35 (c : Dev nD) : Valuation τ sig (Elt F) := StableHlo.after hostOps10_16 (U34 m c)
/-- The contents region 10 is entered from, read at the TensorCore's references (what its proof data take). -/
abbrev u35 : (c : Dev nD) → (b : Ref sig .tc) → Buf (Elt F) ((c : Thread nD τ).loc b) := fun c b => U35 m c b
/-- Region 10's arrays at what its pipeline leaves (each output's write-backs folded over the grid), every other buffer as entered. -/
def X36 (c : Dev nD) : Valuation τ sig (Elt F) :=
  Pipeline.withArrays spec10 c (U35 m c) fun w => (dat10 (u35 m) c).arrAt w cfg10.N
/-- After region 10: its output array main_v71 at what the region leaves there, every other buffer as entered. -/
abbrev U36 (c : Dev nD) : Valuation τ sig (Elt F) := Function.update (U35 m c) main_v71 (X36 m c main_v71)
/-- After the host stretch hostOps11. -/
abbrev U37 (c : Dev nD) : Valuation τ sig (Elt F) := StableHlo.after hostOps11 (U36 m c)
/-- The contents region 11 is entered from, read at the TensorCore's references (what its proof data take). -/
abbrev u37 : (c : Dev nD) → (b : Ref sig .tc) → Buf (Elt F) ((c : Thread nD τ).loc b) := fun c b => U37 m c b
/-- Region 11's arrays at what its pipeline leaves (each output's write-backs folded over the grid), every other buffer as entered. -/
def X38 (c : Dev nD) : Valuation τ sig (Elt F) :=
  Pipeline.withArrays spec11 c (U37 m c) fun w => (dat11 (u37 m) c).arrAt w cfg11.N
/-- After region 11: its output array main_v73 at what the region leaves there, every other buffer as entered. -/
abbrev U38 (c : Dev nD) : Valuation τ sig (Elt F) := Function.update (U37 m c) main_v73 (X38 m c main_v73)
/-- After the host stretch hostOps12. -/
abbrev U39 (c : Dev nD) : Valuation τ sig (Elt F) := StableHlo.after hostOps12 (U38 m c)
/-- The contents region 12 is entered from, read at the TensorCore's references (what its proof data take). -/
abbrev u39 : (c : Dev nD) → (b : Ref sig .tc) → Buf (Elt F) ((c : Thread nD τ).loc b) := fun c b => U39 m c b
/-- Region 12's arrays at what its pipeline leaves (each output's write-backs folded over the grid), every other buffer as entered. -/
def X40 (c : Dev nD) : Valuation τ sig (Elt F) :=
  Pipeline.withArrays spec12 c (U39 m c) fun w => (dat12 (u39 m) c).arrAt w cfg12.N
/-- After region 12: its output array main_v84 at what the region leaves there, every other buffer as entered. -/
abbrev U40 (c : Dev nD) : Valuation τ sig (Elt F) := Function.update (U39 m c) main_v84 (X40 m c main_v84)
/-- After the host stretch hostOps13. -/
abbrev U41 (c : Dev nD) : Valuation τ sig (Elt F) := StableHlo.after hostOps13 (U40 m c)
/-- The contents region 13 is entered from, read at the TensorCore's references (what its proof data take). -/
abbrev u41 : (c : Dev nD) → (b : Ref sig .tc) → Buf (Elt F) ((c : Thread nD τ).loc b) := fun c b => U41 m c b
/-- Region 13's arrays at what its pipeline leaves (each output's write-backs folded over the grid), every other buffer as entered. -/
def X42 (c : Dev nD) : Valuation τ sig (Elt F) :=
  Pipeline.withArrays spec13 c (U41 m c) fun w => (dat13 (u41 m) c).arrAt w cfg13.N
/-- After region 13: its output array main_v90 at what the region leaves there, every other buffer as entered. -/
abbrev U42 (c : Dev nD) : Valuation τ sig (Elt F) := Function.update (U41 m c) main_v90 (X42 m c main_v90)
/-- After the host stretch hostOps14. -/
abbrev U43 (c : Dev nD) : Valuation τ sig (Elt F) := StableHlo.after hostOps14 (U42 m c)
/-- The contents region 14 is entered from, read at the TensorCore's references (what its proof data take). -/
abbrev u43 : (c : Dev nD) → (b : Ref sig .tc) → Buf (Elt F) ((c : Thread nD τ).loc b) := fun c b => U43 m c b
/-- Region 14's arrays at what its pipeline leaves (each output's write-backs folded over the grid), every other buffer as entered. -/
def X44 (c : Dev nD) : Valuation τ sig (Elt F) :=
  Pipeline.withArrays spec14 c (U43 m c) fun w => (dat14 (u43 m) c).arrAt w cfg14.N
/-- After region 14: its output array main_v96 at what the region leaves there, every other buffer as entered. -/
abbrev U44 (c : Dev nD) : Valuation τ sig (Elt F) := Function.update (U43 m c) main_v96 (X44 m c main_v96)
/-- The contents region 15 is entered from, read at the TensorCore's references (what its proof data take). -/
abbrev u44 : (c : Dev nD) → (b : Ref sig .tc) → Buf (Elt F) ((c : Thread nD τ).loc b) := fun c b => U44 m c b
/-- Region 15's arrays at what its pipeline leaves (each output's write-backs folded over the grid), every other buffer as entered. -/
def X45 (c : Dev nD) : Valuation τ sig (Elt F) :=
  Pipeline.withArrays spec15 c (U44 m c) fun w => (dat15 (u44 m) c).arrAt w cfg15.N
/-- After region 15: its output array main_v97 at what the region leaves there, every other buffer as entered. -/
abbrev U45 (c : Dev nD) : Valuation τ sig (Elt F) := Function.update (U44 m c) main_v97 (X45 m c main_v97)
/-- After the host stretch hostOps16. -/
abbrev U46 (c : Dev nD) : Valuation τ sig (Elt F) := StableHlo.after hostOps16 (U45 m c)
/-- The contents region 16 is entered from, read at the TensorCore's references (what its proof data take). -/
abbrev u46 : (c : Dev nD) → (b : Ref sig .tc) → Buf (Elt F) ((c : Thread nD τ).loc b) := fun c b => U46 m c b
/-- Region 16's arrays at what its pipeline leaves (each output's write-backs folded over the grid), every other buffer as entered. -/
def X47 (c : Dev nD) : Valuation τ sig (Elt F) :=
  Pipeline.withArrays spec16 c (U46 m c) fun w => (dat16 (u46 m) c).arrAt w cfg16.N
/-- After region 16: its output array main_v108 at what the region leaves there, every other buffer as entered. -/
abbrev U47 (c : Dev nD) : Valuation τ sig (Elt F) := Function.update (U46 m c) main_v108 (X47 m c main_v108)
/-- After the host stretch hostOps17. -/
abbrev U48 (c : Dev nD) : Valuation τ sig (Elt F) := StableHlo.after hostOps17 (U47 m c)
/-- The contents region 17 is entered from, read at the TensorCore's references (what its proof data take). -/
abbrev u48 : (c : Dev nD) → (b : Ref sig .tc) → Buf (Elt F) ((c : Thread nD τ).loc b) := fun c b => U48 m c b
/-- Region 17's arrays at what its pipeline leaves (each output's write-backs folded over the grid), every other buffer as entered. -/
def X49 (c : Dev nD) : Valuation τ sig (Elt F) :=
  Pipeline.withArrays spec17 c (U48 m c) fun w => (dat17 (u48 m) c).arrAt w cfg17.N
/-- After region 17: its output array main_v114 at what the region leaves there, every other buffer as entered. -/
abbrev U49 (c : Dev nD) : Valuation τ sig (Elt F) := Function.update (U48 m c) main_v114 (X49 m c main_v114)
/-- After the host stretch hostOps18. -/
abbrev U50 (c : Dev nD) : Valuation τ sig (Elt F) := StableHlo.after hostOps18 (U49 m c)
/-- The contents region 18 is entered from, read at the TensorCore's references (what its proof data take). -/
abbrev u50 : (c : Dev nD) → (b : Ref sig .tc) → Buf (Elt F) ((c : Thread nD τ).loc b) := fun c b => U50 m c b
/-- Region 18's arrays at what its pipeline leaves (each output's write-backs folded over the grid), every other buffer as entered. -/
def X51 (c : Dev nD) : Valuation τ sig (Elt F) :=
  Pipeline.withArrays spec18 c (U50 m c) fun w => (dat18 (u50 m) c).arrAt w cfg18.N
/-- After region 18: its output array main_v120 at what the region leaves there, every other buffer as entered. -/
abbrev U51 (c : Dev nD) : Valuation τ sig (Elt F) := Function.update (U50 m c) main_v120 (X51 m c main_v120)
/-- The contents region 19 is entered from, read at the TensorCore's references (what its proof data take). -/
abbrev u51 : (c : Dev nD) → (b : Ref sig .tc) → Buf (Elt F) ((c : Thread nD τ).loc b) := fun c b => U51 m c b
/-- Region 19's arrays at what its pipeline leaves (each output's write-backs folded over the grid), every other buffer as entered. -/
def X52 (c : Dev nD) : Valuation τ sig (Elt F) :=
  Pipeline.withArrays spec19 c (U51 m c) fun w => (dat19 (u51 m) c).arrAt w cfg19.N
/-- After region 19: its output array main_v121 at what the region leaves there, every other buffer as entered. -/
abbrev U52 (c : Dev nD) : Valuation τ sig (Elt F) := Function.update (U51 m c) main_v121 (X52 m c main_v121)
/-- After the host stretch hostOps20. -/
abbrev U53 (c : Dev nD) : Valuation τ sig (Elt F) := StableHlo.after hostOps20 (U52 m c)

/-- The contents the regions leave, as the conditional frame takes them: item by item, read off the valuations above. -/
def outs : Outs (F := F) := fun J r c => match J with
  | 2 => X2 m c r
  | 4 => X4 m c r
  | 6 => X6 m c r
  | 8 => X8 m c r
  | 10 => X10 m c r
  | 11 => X11 m c r
  | 13 => X13 m c r
  | 15 => X15 m c r
  | 17 => X17 m c r
  | 18 => X18 m c r
  | 36 => X36 m c r
  | 38 => X38 m c r
  | 40 => X40 m c r
  | 42 => X42 m c r
  | 44 => X44 m c r
  | 45 => X45 m c r
  | 47 => X47 m c r
  | 49 => X49 m c r
  | 51 => X51 m c r
  | 52 => X52 m c r
  | _ => U0 m c r

/-! ## The conditional frame's valuations at these contents are the valuations above -/

theorem V_eq0 (c : Dev nD) : V0 m c = U0 m c := rfl
theorem V_eq1 (c : Dev nD) : V1 m c = U1 m c := rfl
theorem V_eq2 (c : Dev nD) : V2 m (outs m) c = U2 m c := by
  show Function.update (V1 m c) main_v10 (outs m 2 main_v10 c) = Function.update (U1 m c) main_v10 (X2 m c main_v10)
  rw [V_eq1] <;> rfl
theorem V_eq3 (c : Dev nD) : V3 m (outs m) c = U3 m c := by
  show StableHlo.after hostOps1 (V2 m (outs m) c) = StableHlo.after hostOps1 (U2 m c)
  rw [V_eq2]
theorem V_eq4 (c : Dev nD) : V4 m (outs m) c = U4 m c := by
  show Function.update (V3 m (outs m) c) main_v13 (outs m 4 main_v13 c) = Function.update (U3 m c) main_v13 (X4 m c main_v13)
  rw [V_eq3] <;> rfl
theorem V_eq5 (c : Dev nD) : V5 m (outs m) c = U5 m c := by
  show StableHlo.after hostOps2 (V4 m (outs m) c) = StableHlo.after hostOps2 (U4 m c)
  rw [V_eq4]
theorem V_eq6 (c : Dev nD) : V6 m (outs m) c = U6 m c := by
  show Function.update (V5 m (outs m) c) main_v24 (outs m 6 main_v24 c) = Function.update (U5 m c) main_v24 (X6 m c main_v24)
  rw [V_eq5] <;> rfl
theorem V_eq7 (c : Dev nD) : V7 m (outs m) c = U7 m c := by
  show StableHlo.after hostOps3 (V6 m (outs m) c) = StableHlo.after hostOps3 (U6 m c)
  rw [V_eq6]
theorem V_eq8 (c : Dev nD) : V8 m (outs m) c = U8 m c := by
  show Function.update (V7 m (outs m) c) main_v30 (outs m 8 main_v30 c) = Function.update (U7 m c) main_v30 (X8 m c main_v30)
  rw [V_eq7] <;> rfl
theorem V_eq9 (c : Dev nD) : V9 m (outs m) c = U9 m c := by
  show StableHlo.after hostOps4 (V8 m (outs m) c) = StableHlo.after hostOps4 (U8 m c)
  rw [V_eq8]
theorem V_eq10 (c : Dev nD) : V10 m (outs m) c = U10 m c := by
  show Function.update (V9 m (outs m) c) main_v36 (outs m 10 main_v36 c) = Function.update (U9 m c) main_v36 (X10 m c main_v36)
  rw [V_eq9] <;> rfl
theorem V_eq11 (c : Dev nD) : V11 m (outs m) c = U11 m c := by
  show Function.update (V10 m (outs m) c) main_v37 (outs m 11 main_v37 c) = Function.update (U10 m c) main_v37 (X11 m c main_v37)
  rw [V_eq10] <;> rfl
theorem V_eq12 (c : Dev nD) : V12 m (outs m) c = U12 m c := by
  show StableHlo.after hostOps6 (V11 m (outs m) c) = StableHlo.after hostOps6 (U11 m c)
  rw [V_eq11]
theorem V_eq13 (c : Dev nD) : V13 m (outs m) c = U13 m c := by
  show Function.update (V12 m (outs m) c) main_v48 (outs m 13 main_v48 c) = Function.update (U12 m c) main_v48 (X13 m c main_v48)
  rw [V_eq12] <;> rfl
theorem V_eq14 (c : Dev nD) : V14 m (outs m) c = U14 m c := by
  show StableHlo.after hostOps7 (V13 m (outs m) c) = StableHlo.after hostOps7 (U13 m c)
  rw [V_eq13]
theorem V_eq15 (c : Dev nD) : V15 m (outs m) c = U15 m c := by
  show Function.update (V14 m (outs m) c) main_v54 (outs m 15 main_v54 c) = Function.update (U14 m c) main_v54 (X15 m c main_v54)
  rw [V_eq14] <;> rfl
theorem V_eq16 (c : Dev nD) : V16 m (outs m) c = U16 m c := by
  show StableHlo.after hostOps8 (V15 m (outs m) c) = StableHlo.after hostOps8 (U15 m c)
  rw [V_eq15]
theorem V_eq17 (c : Dev nD) : V17 m (outs m) c = U17 m c := by
  show Function.update (V16 m (outs m) c) main_v60 (outs m 17 main_v60 c) = Function.update (U16 m c) main_v60 (X17 m c main_v60)
  rw [V_eq16] <;> rfl
theorem V_eq18 (c : Dev nD) : V18 m (outs m) c = U18 m c := by
  show Function.update (V17 m (outs m) c) main_v61 (outs m 18 main_v61 c) = Function.update (U17 m c) main_v61 (X18 m c main_v61)
  rw [V_eq17] <;> rfl
theorem V_eq19 (c : Dev nD) : V19 m (outs m) c = U19 m c := by
  show StableHlo.after hostOps10 (V18 m (outs m) c) = StableHlo.after hostOps10 (U18 m c)
  rw [V_eq18]
theorem V_eq20 (c : Dev nD) : V20 m (outs m) c = U20 m c := by
  show StableHlo.after hostOps10_1 (V19 m (outs m) c) = StableHlo.after hostOps10_1 (U19 m c)
  rw [V_eq19]
theorem V_eq21 (c : Dev nD) : V21 m (outs m) c = U21 m c := by
  show StableHlo.after hostOps10_2 (V20 m (outs m) c) = StableHlo.after hostOps10_2 (U20 m c)
  rw [V_eq20]
theorem V_eq22 (c : Dev nD) : V22 m (outs m) c = U22 m c := by
  show StableHlo.after hostOps10_3 (V21 m (outs m) c) = StableHlo.after hostOps10_3 (U21 m c)
  rw [V_eq21]
theorem V_eq23 (c : Dev nD) : V23 m (outs m) c = U23 m c := by
  show StableHlo.after hostOps10_4 (V22 m (outs m) c) = StableHlo.after hostOps10_4 (U22 m c)
  rw [V_eq22]
theorem V_eq24 (c : Dev nD) : V24 m (outs m) c = U24 m c := by
  show StableHlo.after hostOps10_5 (V23 m (outs m) c) = StableHlo.after hostOps10_5 (U23 m c)
  rw [V_eq23]
theorem V_eq25 (c : Dev nD) : V25 m (outs m) c = U25 m c := by
  show StableHlo.after hostOps10_6 (V24 m (outs m) c) = StableHlo.after hostOps10_6 (U24 m c)
  rw [V_eq24]
theorem V_eq26 (c : Dev nD) : V26 m (outs m) c = U26 m c := by
  show StableHlo.after hostOps10_7 (V25 m (outs m) c) = StableHlo.after hostOps10_7 (U25 m c)
  rw [V_eq25]
theorem V_eq27 (c : Dev nD) : V27 m (outs m) c = U27 m c := by
  show StableHlo.after hostOps10_8 (V26 m (outs m) c) = StableHlo.after hostOps10_8 (U26 m c)
  rw [V_eq26]
theorem V_eq28 (c : Dev nD) : V28 m (outs m) c = U28 m c := by
  show StableHlo.after hostOps10_9 (V27 m (outs m) c) = StableHlo.after hostOps10_9 (U27 m c)
  rw [V_eq27]
theorem V_eq29 (c : Dev nD) : V29 m (outs m) c = U29 m c := by
  show StableHlo.after hostOps10_10 (V28 m (outs m) c) = StableHlo.after hostOps10_10 (U28 m c)
  rw [V_eq28]
theorem V_eq30 (c : Dev nD) : V30 m (outs m) c = U30 m c := by
  show StableHlo.after hostOps10_11 (V29 m (outs m) c) = StableHlo.after hostOps10_11 (U29 m c)
  rw [V_eq29]
theorem V_eq31 (c : Dev nD) : V31 m (outs m) c = U31 m c := by
  show StableHlo.after hostOps10_12 (V30 m (outs m) c) = StableHlo.after hostOps10_12 (U30 m c)
  rw [V_eq30]
theorem V_eq32 (c : Dev nD) : V32 m (outs m) c = U32 m c := by
  show StableHlo.after hostOps10_13 (V31 m (outs m) c) = StableHlo.after hostOps10_13 (U31 m c)
  rw [V_eq31]
theorem V_eq33 (c : Dev nD) : V33 m (outs m) c = U33 m c := by
  show StableHlo.after hostOps10_14 (V32 m (outs m) c) = StableHlo.after hostOps10_14 (U32 m c)
  rw [V_eq32]
theorem V_eq34 (c : Dev nD) : V34 m (outs m) c = U34 m c := by
  show StableHlo.after hostOps10_15 (V33 m (outs m) c) = StableHlo.after hostOps10_15 (U33 m c)
  rw [V_eq33]
theorem V_eq35 (c : Dev nD) : V35 m (outs m) c = U35 m c := by
  show StableHlo.after hostOps10_16 (V34 m (outs m) c) = StableHlo.after hostOps10_16 (U34 m c)
  rw [V_eq34]
theorem V_eq36 (c : Dev nD) : V36 m (outs m) c = U36 m c := by
  show Function.update (V35 m (outs m) c) main_v71 (outs m 36 main_v71 c) = Function.update (U35 m c) main_v71 (X36 m c main_v71)
  rw [V_eq35] <;> rfl
theorem V_eq37 (c : Dev nD) : V37 m (outs m) c = U37 m c := by
  show StableHlo.after hostOps11 (V36 m (outs m) c) = StableHlo.after hostOps11 (U36 m c)
  rw [V_eq36]
theorem V_eq38 (c : Dev nD) : V38 m (outs m) c = U38 m c := by
  show Function.update (V37 m (outs m) c) main_v73 (outs m 38 main_v73 c) = Function.update (U37 m c) main_v73 (X38 m c main_v73)
  rw [V_eq37] <;> rfl
theorem V_eq39 (c : Dev nD) : V39 m (outs m) c = U39 m c := by
  show StableHlo.after hostOps12 (V38 m (outs m) c) = StableHlo.after hostOps12 (U38 m c)
  rw [V_eq38]
theorem V_eq40 (c : Dev nD) : V40 m (outs m) c = U40 m c := by
  show Function.update (V39 m (outs m) c) main_v84 (outs m 40 main_v84 c) = Function.update (U39 m c) main_v84 (X40 m c main_v84)
  rw [V_eq39] <;> rfl
theorem V_eq41 (c : Dev nD) : V41 m (outs m) c = U41 m c := by
  show StableHlo.after hostOps13 (V40 m (outs m) c) = StableHlo.after hostOps13 (U40 m c)
  rw [V_eq40]
theorem V_eq42 (c : Dev nD) : V42 m (outs m) c = U42 m c := by
  show Function.update (V41 m (outs m) c) main_v90 (outs m 42 main_v90 c) = Function.update (U41 m c) main_v90 (X42 m c main_v90)
  rw [V_eq41] <;> rfl
theorem V_eq43 (c : Dev nD) : V43 m (outs m) c = U43 m c := by
  show StableHlo.after hostOps14 (V42 m (outs m) c) = StableHlo.after hostOps14 (U42 m c)
  rw [V_eq42]
theorem V_eq44 (c : Dev nD) : V44 m (outs m) c = U44 m c := by
  show Function.update (V43 m (outs m) c) main_v96 (outs m 44 main_v96 c) = Function.update (U43 m c) main_v96 (X44 m c main_v96)
  rw [V_eq43] <;> rfl
theorem V_eq45 (c : Dev nD) : V45 m (outs m) c = U45 m c := by
  show Function.update (V44 m (outs m) c) main_v97 (outs m 45 main_v97 c) = Function.update (U44 m c) main_v97 (X45 m c main_v97)
  rw [V_eq44] <;> rfl
theorem V_eq46 (c : Dev nD) : V46 m (outs m) c = U46 m c := by
  show StableHlo.after hostOps16 (V45 m (outs m) c) = StableHlo.after hostOps16 (U45 m c)
  rw [V_eq45]
theorem V_eq47 (c : Dev nD) : V47 m (outs m) c = U47 m c := by
  show Function.update (V46 m (outs m) c) main_v108 (outs m 47 main_v108 c) = Function.update (U46 m c) main_v108 (X47 m c main_v108)
  rw [V_eq46] <;> rfl
theorem V_eq48 (c : Dev nD) : V48 m (outs m) c = U48 m c := by
  show StableHlo.after hostOps17 (V47 m (outs m) c) = StableHlo.after hostOps17 (U47 m c)
  rw [V_eq47]
theorem V_eq49 (c : Dev nD) : V49 m (outs m) c = U49 m c := by
  show Function.update (V48 m (outs m) c) main_v114 (outs m 49 main_v114 c) = Function.update (U48 m c) main_v114 (X49 m c main_v114)
  rw [V_eq48] <;> rfl
theorem V_eq50 (c : Dev nD) : V50 m (outs m) c = U50 m c := by
  show StableHlo.after hostOps18 (V49 m (outs m) c) = StableHlo.after hostOps18 (U49 m c)
  rw [V_eq49]
theorem V_eq51 (c : Dev nD) : V51 m (outs m) c = U51 m c := by
  show Function.update (V50 m (outs m) c) main_v120 (outs m 51 main_v120 c) = Function.update (U50 m c) main_v120 (X51 m c main_v120)
  rw [V_eq50] <;> rfl
theorem V_eq52 (c : Dev nD) : V52 m (outs m) c = U52 m c := by
  show Function.update (V51 m (outs m) c) main_v121 (outs m 52 main_v121 c) = Function.update (U51 m c) main_v121 (X52 m c main_v121)
  rw [V_eq51] <;> rfl
theorem V_eq53 (c : Dev nD) : V53 m (outs m) c = U53 m c := by
  show StableHlo.after hostOps20 (V52 m (outs m) c) = StableHlo.after hostOps20 (U52 m c)
  rw [V_eq52]

/-! ## What a region changes, and what it leaves alone -/

/-- Region 0's arrays after the region hold what its pipeline leaves. -/
theorem X2_arr (c : Dev nD) (w : Fin cfg0.W) :
    X2 m c (Proc.devRef .tc (Pipeline.arrRef spec0 w)) = (dat0 (u1 m) c).arrAt w cfg0.N := by
  unfold X2; exact Pipeline.withArrays_arr spec0 launch0.win.arr_inj c _ _ w
set_option backward.isDefEq.respectTransparency.types false in
/-- Region 0 leaves in its output array what its write-backs fold to. -/
theorem U2_out (c : Dev nD) : U2 m c main_v10 = (dat0 (u1 m) c).arrAt 5 cfg0.N := by
  show Function.update (U1 m c) main_v10 (X2 m c main_v10) main_v10 = _
  rw [Function.update_self]; exact X2_arr m c 5
theorem U2_outR (c : Dev nD) : U2 m c (Pipeline.arrRef spec0 5) = (dat0 (u1 m) c).arrAt 5 cfg0.N := by
  show Function.update (U1 m c) main_v10 (X2 m c main_v10) main_v10 = _
  rw [Function.update_self]; exact X2_arr m c 5
/-- … and every other buffer as it was. -/
theorem U2_of (c : Dev nD) (r : Ref sig .tc) (h : r ∉ ([main_v10] : List (Ref sig .tc))) : U2 m c r = U1 m c r := by
  simp only [Function.update_of_ne (StableHlo.devRef_ne_of_ne (List.ne_of_not_mem_cons h) : (Proc.devRef .tc r : DevRef τ sig) ≠ Proc.devRef .tc main_v10)]
set_option maxHeartbeats 4000000 in
set_option backward.isDefEq.respectTransparency.types false in
theorem hF0 (c : Dev nD) (w : Fin cfg0.W) : (dat0 (u1 m) c).arrAt w cfg0.N = U2 m c (Pipeline.arrRef spec0 w) :=
  match w with
  | ⟨0, _⟩ => (((dat0 (u1 m) c).arrAt_in 0 rfl _).trans (A_eq0 (u1 m) c 0)).trans (U2_of m c (Pipeline.arrRef spec0 0) (by decide)).symm
  | ⟨1, _⟩ => (((dat0 (u1 m) c).arrAt_in 1 rfl _).trans (A_eq0 (u1 m) c 1)).trans (U2_of m c (Pipeline.arrRef spec0 1) (by decide)).symm
  | ⟨2, _⟩ => (((dat0 (u1 m) c).arrAt_in 2 rfl _).trans (A_eq0 (u1 m) c 2)).trans (U2_of m c (Pipeline.arrRef spec0 2) (by decide)).symm
  | ⟨3, _⟩ => (((dat0 (u1 m) c).arrAt_in 3 rfl _).trans (A_eq0 (u1 m) c 3)).trans (U2_of m c (Pipeline.arrRef spec0 3) (by decide)).symm
  | ⟨4, _⟩ => (((dat0 (u1 m) c).arrAt_in 4 rfl _).trans (A_eq0 (u1 m) c 4)).trans (U2_of m c (Pipeline.arrRef spec0 4) (by decide)).symm
  | ⟨5, _⟩ => (U2_outR m c).symm
  | ⟨_ + 6, h⟩ => absurd h (Nat.not_lt.2 (Nat.le_add_left _ _))
theorem hrest0 (c : Dev nD) : ∀ b, b ∉ Finset.univ.image (Pipeline.arrRef spec0) → U2 m c b = U1 m c b :=
  fun b hb => U2_of m c b (fun hm => hb (by rw [List.mem_singleton.mp hm]; exact Finset.mem_image.mpr ⟨5, Finset.mem_univ _, rfl⟩))
/-- Region 1's arrays after the region hold what its pipeline leaves. -/
theorem X4_arr (c : Dev nD) (w : Fin cfg1.W) :
    X4 m c (Proc.devRef .tc (Pipeline.arrRef spec1 w)) = (dat1 (u3 m) c).arrAt w cfg1.N := by
  unfold X4; exact Pipeline.withArrays_arr spec1 launch1.win.arr_inj c _ _ w
set_option backward.isDefEq.respectTransparency.types false in
/-- Region 1 leaves in its output array what its write-backs fold to. -/
theorem U4_out (c : Dev nD) : U4 m c main_v13 = (dat1 (u3 m) c).arrAt 5 cfg1.N := by
  show Function.update (U3 m c) main_v13 (X4 m c main_v13) main_v13 = _
  rw [Function.update_self]; exact X4_arr m c 5
theorem U4_outR (c : Dev nD) : U4 m c (Pipeline.arrRef spec1 5) = (dat1 (u3 m) c).arrAt 5 cfg1.N := by
  show Function.update (U3 m c) main_v13 (X4 m c main_v13) main_v13 = _
  rw [Function.update_self]; exact X4_arr m c 5
/-- … and every other buffer as it was. -/
theorem U4_of (c : Dev nD) (r : Ref sig .tc) (h : r ∉ ([main_v13] : List (Ref sig .tc))) : U4 m c r = U3 m c r := by
  simp only [Function.update_of_ne (StableHlo.devRef_ne_of_ne (List.ne_of_not_mem_cons h) : (Proc.devRef .tc r : DevRef τ sig) ≠ Proc.devRef .tc main_v13)]
set_option maxHeartbeats 4000000 in
set_option backward.isDefEq.respectTransparency.types false in
theorem hF1 (c : Dev nD) (w : Fin cfg1.W) : (dat1 (u3 m) c).arrAt w cfg1.N = U4 m c (Pipeline.arrRef spec1 w) :=
  match w with
  | ⟨0, _⟩ => (((dat1 (u3 m) c).arrAt_in 0 rfl _).trans (A_eq1 (u3 m) c 0)).trans (U4_of m c (Pipeline.arrRef spec1 0) (by decide)).symm
  | ⟨1, _⟩ => (((dat1 (u3 m) c).arrAt_in 1 rfl _).trans (A_eq1 (u3 m) c 1)).trans (U4_of m c (Pipeline.arrRef spec1 1) (by decide)).symm
  | ⟨2, _⟩ => (((dat1 (u3 m) c).arrAt_in 2 rfl _).trans (A_eq1 (u3 m) c 2)).trans (U4_of m c (Pipeline.arrRef spec1 2) (by decide)).symm
  | ⟨3, _⟩ => (((dat1 (u3 m) c).arrAt_in 3 rfl _).trans (A_eq1 (u3 m) c 3)).trans (U4_of m c (Pipeline.arrRef spec1 3) (by decide)).symm
  | ⟨4, _⟩ => (((dat1 (u3 m) c).arrAt_in 4 rfl _).trans (A_eq1 (u3 m) c 4)).trans (U4_of m c (Pipeline.arrRef spec1 4) (by decide)).symm
  | ⟨5, _⟩ => (U4_outR m c).symm
  | ⟨_ + 6, h⟩ => absurd h (Nat.not_lt.2 (Nat.le_add_left _ _))
theorem hrest1 (c : Dev nD) : ∀ b, b ∉ Finset.univ.image (Pipeline.arrRef spec1) → U4 m c b = U3 m c b :=
  fun b hb => U4_of m c b (fun hm => hb (by rw [List.mem_singleton.mp hm]; exact Finset.mem_image.mpr ⟨5, Finset.mem_univ _, rfl⟩))
/-- Region 2's arrays after the region hold what its pipeline leaves. -/
theorem X6_arr (c : Dev nD) (w : Fin cfg2.W) :
    X6 m c (Proc.devRef .tc (Pipeline.arrRef spec2 w)) = (dat2 (u5 m) c).arrAt w cfg2.N := by
  unfold X6; exact Pipeline.withArrays_arr spec2 launch2.win.arr_inj c _ _ w
set_option backward.isDefEq.respectTransparency.types false in
/-- Region 2 leaves in its output array what its write-backs fold to. -/
theorem U6_out (c : Dev nD) : U6 m c main_v24 = (dat2 (u5 m) c).arrAt 8 cfg2.N := by
  show Function.update (U5 m c) main_v24 (X6 m c main_v24) main_v24 = _
  rw [Function.update_self]; exact X6_arr m c 8
theorem U6_outR (c : Dev nD) : U6 m c (Pipeline.arrRef spec2 8) = (dat2 (u5 m) c).arrAt 8 cfg2.N := by
  show Function.update (U5 m c) main_v24 (X6 m c main_v24) main_v24 = _
  rw [Function.update_self]; exact X6_arr m c 8
/-- … and every other buffer as it was. -/
theorem U6_of (c : Dev nD) (r : Ref sig .tc) (h : r ∉ ([main_v24] : List (Ref sig .tc))) : U6 m c r = U5 m c r := by
  simp only [Function.update_of_ne (StableHlo.devRef_ne_of_ne (List.ne_of_not_mem_cons h) : (Proc.devRef .tc r : DevRef τ sig) ≠ Proc.devRef .tc main_v24)]
set_option maxHeartbeats 4000000 in
set_option backward.isDefEq.respectTransparency.types false in
theorem hF2 (c : Dev nD) (w : Fin cfg2.W) : (dat2 (u5 m) c).arrAt w cfg2.N = U6 m c (Pipeline.arrRef spec2 w) :=
  match w with
  | ⟨0, _⟩ => (((dat2 (u5 m) c).arrAt_in 0 rfl _).trans (A_eq2 (u5 m) c 0)).trans (U6_of m c (Pipeline.arrRef spec2 0) (by decide)).symm
  | ⟨1, _⟩ => (((dat2 (u5 m) c).arrAt_in 1 rfl _).trans (A_eq2 (u5 m) c 1)).trans (U6_of m c (Pipeline.arrRef spec2 1) (by decide)).symm
  | ⟨2, _⟩ => (((dat2 (u5 m) c).arrAt_in 2 rfl _).trans (A_eq2 (u5 m) c 2)).trans (U6_of m c (Pipeline.arrRef spec2 2) (by decide)).symm
  | ⟨3, _⟩ => (((dat2 (u5 m) c).arrAt_in 3 rfl _).trans (A_eq2 (u5 m) c 3)).trans (U6_of m c (Pipeline.arrRef spec2 3) (by decide)).symm
  | ⟨4, _⟩ => (((dat2 (u5 m) c).arrAt_in 4 rfl _).trans (A_eq2 (u5 m) c 4)).trans (U6_of m c (Pipeline.arrRef spec2 4) (by decide)).symm
  | ⟨5, _⟩ => (((dat2 (u5 m) c).arrAt_in 5 rfl _).trans (A_eq2 (u5 m) c 5)).trans (U6_of m c (Pipeline.arrRef spec2 5) (by decide)).symm
  | ⟨6, _⟩ => (((dat2 (u5 m) c).arrAt_in 6 rfl _).trans (A_eq2 (u5 m) c 6)).trans (U6_of m c (Pipeline.arrRef spec2 6) (by decide)).symm
  | ⟨7, _⟩ => (((dat2 (u5 m) c).arrAt_in 7 rfl _).trans (A_eq2 (u5 m) c 7)).trans (U6_of m c (Pipeline.arrRef spec2 7) (by decide)).symm
  | ⟨8, _⟩ => (U6_outR m c).symm
  | ⟨_ + 9, h⟩ => absurd h (Nat.not_lt.2 (Nat.le_add_left _ _))
theorem hrest2 (c : Dev nD) : ∀ b, b ∉ Finset.univ.image (Pipeline.arrRef spec2) → U6 m c b = U5 m c b :=
  fun b hb => U6_of m c b (fun hm => hb (by rw [List.mem_singleton.mp hm]; exact Finset.mem_image.mpr ⟨8, Finset.mem_univ _, rfl⟩))
/-- Region 3's arrays after the region hold what its pipeline leaves. -/
theorem X8_arr (c : Dev nD) (w : Fin cfg3.W) :
    X8 m c (Proc.devRef .tc (Pipeline.arrRef spec3 w)) = (dat3 (u7 m) c).arrAt w cfg3.N := by
  unfold X8; exact Pipeline.withArrays_arr spec3 launch3.win.arr_inj c _ _ w
set_option backward.isDefEq.respectTransparency.types false in
/-- Region 3 leaves in its output array what its write-backs fold to. -/
theorem U8_out (c : Dev nD) : U8 m c main_v30 = (dat3 (u7 m) c).arrAt 3 cfg3.N := by
  show Function.update (U7 m c) main_v30 (X8 m c main_v30) main_v30 = _
  rw [Function.update_self]; exact X8_arr m c 3
theorem U8_outR (c : Dev nD) : U8 m c (Pipeline.arrRef spec3 3) = (dat3 (u7 m) c).arrAt 3 cfg3.N := by
  show Function.update (U7 m c) main_v30 (X8 m c main_v30) main_v30 = _
  rw [Function.update_self]; exact X8_arr m c 3
/-- … and every other buffer as it was. -/
theorem U8_of (c : Dev nD) (r : Ref sig .tc) (h : r ∉ ([main_v30] : List (Ref sig .tc))) : U8 m c r = U7 m c r := by
  simp only [Function.update_of_ne (StableHlo.devRef_ne_of_ne (List.ne_of_not_mem_cons h) : (Proc.devRef .tc r : DevRef τ sig) ≠ Proc.devRef .tc main_v30)]
set_option maxHeartbeats 4000000 in
set_option backward.isDefEq.respectTransparency.types false in
theorem hF3 (c : Dev nD) (w : Fin cfg3.W) : (dat3 (u7 m) c).arrAt w cfg3.N = U8 m c (Pipeline.arrRef spec3 w) :=
  match w with
  | ⟨0, _⟩ => (((dat3 (u7 m) c).arrAt_in 0 rfl _).trans (A_eq3 (u7 m) c 0)).trans (U8_of m c (Pipeline.arrRef spec3 0) (by decide)).symm
  | ⟨1, _⟩ => (((dat3 (u7 m) c).arrAt_in 1 rfl _).trans (A_eq3 (u7 m) c 1)).trans (U8_of m c (Pipeline.arrRef spec3 1) (by decide)).symm
  | ⟨2, _⟩ => (((dat3 (u7 m) c).arrAt_in 2 rfl _).trans (A_eq3 (u7 m) c 2)).trans (U8_of m c (Pipeline.arrRef spec3 2) (by decide)).symm
  | ⟨3, _⟩ => (U8_outR m c).symm
  | ⟨_ + 4, h⟩ => absurd h (Nat.not_lt.2 (Nat.le_add_left _ _))
theorem hrest3 (c : Dev nD) : ∀ b, b ∉ Finset.univ.image (Pipeline.arrRef spec3) → U8 m c b = U7 m c b :=
  fun b hb => U8_of m c b (fun hm => hb (by rw [List.mem_singleton.mp hm]; exact Finset.mem_image.mpr ⟨3, Finset.mem_univ _, rfl⟩))
/-- Region 4's arrays after the region hold what its pipeline leaves. -/
theorem X10_arr (c : Dev nD) (w : Fin cfg4.W) :
    X10 m c (Proc.devRef .tc (Pipeline.arrRef spec4 w)) = (dat4 (u9 m) c).arrAt w cfg4.N := by
  unfold X10; exact Pipeline.withArrays_arr spec4 launch4.win.arr_inj c _ _ w
set_option backward.isDefEq.respectTransparency.types false in
/-- Region 4 leaves in its output array what its write-backs fold to. -/
theorem U10_out (c : Dev nD) : U10 m c main_v36 = (dat4 (u9 m) c).arrAt 3 cfg4.N := by
  show Function.update (U9 m c) main_v36 (X10 m c main_v36) main_v36 = _
  rw [Function.update_self]; exact X10_arr m c 3
theorem U10_outR (c : Dev nD) : U10 m c (Pipeline.arrRef spec4 3) = (dat4 (u9 m) c).arrAt 3 cfg4.N := by
  show Function.update (U9 m c) main_v36 (X10 m c main_v36) main_v36 = _
  rw [Function.update_self]; exact X10_arr m c 3
/-- … and every other buffer as it was. -/
theorem U10_of (c : Dev nD) (r : Ref sig .tc) (h : r ∉ ([main_v36] : List (Ref sig .tc))) : U10 m c r = U9 m c r := by
  simp only [Function.update_of_ne (StableHlo.devRef_ne_of_ne (List.ne_of_not_mem_cons h) : (Proc.devRef .tc r : DevRef τ sig) ≠ Proc.devRef .tc main_v36)]
set_option maxHeartbeats 4000000 in
set_option backward.isDefEq.respectTransparency.types false in
theorem hF4 (c : Dev nD) (w : Fin cfg4.W) : (dat4 (u9 m) c).arrAt w cfg4.N = U10 m c (Pipeline.arrRef spec4 w) :=
  match w with
  | ⟨0, _⟩ => (((dat4 (u9 m) c).arrAt_in 0 rfl _).trans (A_eq4 (u9 m) c 0)).trans (U10_of m c (Pipeline.arrRef spec4 0) (by decide)).symm
  | ⟨1, _⟩ => (((dat4 (u9 m) c).arrAt_in 1 rfl _).trans (A_eq4 (u9 m) c 1)).trans (U10_of m c (Pipeline.arrRef spec4 1) (by decide)).symm
  | ⟨2, _⟩ => (((dat4 (u9 m) c).arrAt_in 2 rfl _).trans (A_eq4 (u9 m) c 2)).trans (U10_of m c (Pipeline.arrRef spec4 2) (by decide)).symm
  | ⟨3, _⟩ => (U10_outR m c).symm
  | ⟨_ + 4, h⟩ => absurd h (Nat.not_lt.2 (Nat.le_add_left _ _))
theorem hrest4 (c : Dev nD) : ∀ b, b ∉ Finset.univ.image (Pipeline.arrRef spec4) → U10 m c b = U9 m c b :=
  fun b hb => U10_of m c b (fun hm => hb (by rw [List.mem_singleton.mp hm]; exact Finset.mem_image.mpr ⟨3, Finset.mem_univ _, rfl⟩))
/-- Region 5's arrays after the region hold what its pipeline leaves. -/
theorem X11_arr (c : Dev nD) (w : Fin cfg5.W) :
    X11 m c (Proc.devRef .tc (Pipeline.arrRef spec5 w)) = (dat5 (u10 m) c).arrAt w cfg5.N := by
  unfold X11; exact Pipeline.withArrays_arr spec5 launch5.win.arr_inj c _ _ w
set_option backward.isDefEq.respectTransparency.types false in
/-- Region 5 leaves in its output array what its write-backs fold to. -/
theorem U11_out (c : Dev nD) : U11 m c main_v37 = (dat5 (u10 m) c).arrAt 5 cfg5.N := by
  show Function.update (U10 m c) main_v37 (X11 m c main_v37) main_v37 = _
  rw [Function.update_self]; exact X11_arr m c 5
theorem U11_outR (c : Dev nD) : U11 m c (Pipeline.arrRef spec5 5) = (dat5 (u10 m) c).arrAt 5 cfg5.N := by
  show Function.update (U10 m c) main_v37 (X11 m c main_v37) main_v37 = _
  rw [Function.update_self]; exact X11_arr m c 5
/-- … and every other buffer as it was. -/
theorem U11_of (c : Dev nD) (r : Ref sig .tc) (h : r ∉ ([main_v37] : List (Ref sig .tc))) : U11 m c r = U10 m c r := by
  simp only [Function.update_of_ne (StableHlo.devRef_ne_of_ne (List.ne_of_not_mem_cons h) : (Proc.devRef .tc r : DevRef τ sig) ≠ Proc.devRef .tc main_v37)]
set_option maxHeartbeats 4000000 in
set_option backward.isDefEq.respectTransparency.types false in
theorem hF5 (c : Dev nD) (w : Fin cfg5.W) : (dat5 (u10 m) c).arrAt w cfg5.N = U11 m c (Pipeline.arrRef spec5 w) :=
  match w with
  | ⟨0, _⟩ => (((dat5 (u10 m) c).arrAt_in 0 rfl _).trans (A_eq5 (u10 m) c 0)).trans (U11_of m c (Pipeline.arrRef spec5 0) (by decide)).symm
  | ⟨1, _⟩ => (((dat5 (u10 m) c).arrAt_in 1 rfl _).trans (A_eq5 (u10 m) c 1)).trans (U11_of m c (Pipeline.arrRef spec5 1) (by decide)).symm
  | ⟨2, _⟩ => (((dat5 (u10 m) c).arrAt_in 2 rfl _).trans (A_eq5 (u10 m) c 2)).trans (U11_of m c (Pipeline.arrRef spec5 2) (by decide)).symm
  | ⟨3, _⟩ => (((dat5 (u10 m) c).arrAt_in 3 rfl _).trans (A_eq5 (u10 m) c 3)).trans (U11_of m c (Pipeline.arrRef spec5 3) (by decide)).symm
  | ⟨4, _⟩ => (((dat5 (u10 m) c).arrAt_in 4 rfl _).trans (A_eq5 (u10 m) c 4)).trans (U11_of m c (Pipeline.arrRef spec5 4) (by decide)).symm
  | ⟨5, _⟩ => (U11_outR m c).symm
  | ⟨_ + 6, h⟩ => absurd h (Nat.not_lt.2 (Nat.le_add_left _ _))
theorem hrest5 (c : Dev nD) : ∀ b, b ∉ Finset.univ.image (Pipeline.arrRef spec5) → U11 m c b = U10 m c b :=
  fun b hb => U11_of m c b (fun hm => hb (by rw [List.mem_singleton.mp hm]; exact Finset.mem_image.mpr ⟨5, Finset.mem_univ _, rfl⟩))
/-- Region 6's arrays after the region hold what its pipeline leaves. -/
theorem X13_arr (c : Dev nD) (w : Fin cfg6.W) :
    X13 m c (Proc.devRef .tc (Pipeline.arrRef spec6 w)) = (dat6 (u12 m) c).arrAt w cfg6.N := by
  unfold X13; exact Pipeline.withArrays_arr spec6 launch6.win.arr_inj c _ _ w
set_option backward.isDefEq.respectTransparency.types false in
/-- Region 6 leaves in its output array what its write-backs fold to. -/
theorem U13_out (c : Dev nD) : U13 m c main_v48 = (dat6 (u12 m) c).arrAt 8 cfg6.N := by
  show Function.update (U12 m c) main_v48 (X13 m c main_v48) main_v48 = _
  rw [Function.update_self]; exact X13_arr m c 8
theorem U13_outR (c : Dev nD) : U13 m c (Pipeline.arrRef spec6 8) = (dat6 (u12 m) c).arrAt 8 cfg6.N := by
  show Function.update (U12 m c) main_v48 (X13 m c main_v48) main_v48 = _
  rw [Function.update_self]; exact X13_arr m c 8
/-- … and every other buffer as it was. -/
theorem U13_of (c : Dev nD) (r : Ref sig .tc) (h : r ∉ ([main_v48] : List (Ref sig .tc))) : U13 m c r = U12 m c r := by
  simp only [Function.update_of_ne (StableHlo.devRef_ne_of_ne (List.ne_of_not_mem_cons h) : (Proc.devRef .tc r : DevRef τ sig) ≠ Proc.devRef .tc main_v48)]
set_option maxHeartbeats 4000000 in
set_option backward.isDefEq.respectTransparency.types false in
theorem hF6 (c : Dev nD) (w : Fin cfg6.W) : (dat6 (u12 m) c).arrAt w cfg6.N = U13 m c (Pipeline.arrRef spec6 w) :=
  match w with
  | ⟨0, _⟩ => (((dat6 (u12 m) c).arrAt_in 0 rfl _).trans (A_eq6 (u12 m) c 0)).trans (U13_of m c (Pipeline.arrRef spec6 0) (by decide)).symm
  | ⟨1, _⟩ => (((dat6 (u12 m) c).arrAt_in 1 rfl _).trans (A_eq6 (u12 m) c 1)).trans (U13_of m c (Pipeline.arrRef spec6 1) (by decide)).symm
  | ⟨2, _⟩ => (((dat6 (u12 m) c).arrAt_in 2 rfl _).trans (A_eq6 (u12 m) c 2)).trans (U13_of m c (Pipeline.arrRef spec6 2) (by decide)).symm
  | ⟨3, _⟩ => (((dat6 (u12 m) c).arrAt_in 3 rfl _).trans (A_eq6 (u12 m) c 3)).trans (U13_of m c (Pipeline.arrRef spec6 3) (by decide)).symm
  | ⟨4, _⟩ => (((dat6 (u12 m) c).arrAt_in 4 rfl _).trans (A_eq6 (u12 m) c 4)).trans (U13_of m c (Pipeline.arrRef spec6 4) (by decide)).symm
  | ⟨5, _⟩ => (((dat6 (u12 m) c).arrAt_in 5 rfl _).trans (A_eq6 (u12 m) c 5)).trans (U13_of m c (Pipeline.arrRef spec6 5) (by decide)).symm
  | ⟨6, _⟩ => (((dat6 (u12 m) c).arrAt_in 6 rfl _).trans (A_eq6 (u12 m) c 6)).trans (U13_of m c (Pipeline.arrRef spec6 6) (by decide)).symm
  | ⟨7, _⟩ => (((dat6 (u12 m) c).arrAt_in 7 rfl _).trans (A_eq6 (u12 m) c 7)).trans (U13_of m c (Pipeline.arrRef spec6 7) (by decide)).symm
  | ⟨8, _⟩ => (U13_outR m c).symm
  | ⟨_ + 9, h⟩ => absurd h (Nat.not_lt.2 (Nat.le_add_left _ _))
theorem hrest6 (c : Dev nD) : ∀ b, b ∉ Finset.univ.image (Pipeline.arrRef spec6) → U13 m c b = U12 m c b :=
  fun b hb => U13_of m c b (fun hm => hb (by rw [List.mem_singleton.mp hm]; exact Finset.mem_image.mpr ⟨8, Finset.mem_univ _, rfl⟩))
/-- Region 7's arrays after the region hold what its pipeline leaves. -/
theorem X15_arr (c : Dev nD) (w : Fin cfg7.W) :
    X15 m c (Proc.devRef .tc (Pipeline.arrRef spec7 w)) = (dat7 (u14 m) c).arrAt w cfg7.N := by
  unfold X15; exact Pipeline.withArrays_arr spec7 launch7.win.arr_inj c _ _ w
set_option backward.isDefEq.respectTransparency.types false in
/-- Region 7 leaves in its output array what its write-backs fold to. -/
theorem U15_out (c : Dev nD) : U15 m c main_v54 = (dat7 (u14 m) c).arrAt 3 cfg7.N := by
  show Function.update (U14 m c) main_v54 (X15 m c main_v54) main_v54 = _
  rw [Function.update_self]; exact X15_arr m c 3
theorem U15_outR (c : Dev nD) : U15 m c (Pipeline.arrRef spec7 3) = (dat7 (u14 m) c).arrAt 3 cfg7.N := by
  show Function.update (U14 m c) main_v54 (X15 m c main_v54) main_v54 = _
  rw [Function.update_self]; exact X15_arr m c 3
/-- … and every other buffer as it was. -/
theorem U15_of (c : Dev nD) (r : Ref sig .tc) (h : r ∉ ([main_v54] : List (Ref sig .tc))) : U15 m c r = U14 m c r := by
  simp only [Function.update_of_ne (StableHlo.devRef_ne_of_ne (List.ne_of_not_mem_cons h) : (Proc.devRef .tc r : DevRef τ sig) ≠ Proc.devRef .tc main_v54)]
set_option maxHeartbeats 4000000 in
set_option backward.isDefEq.respectTransparency.types false in
theorem hF7 (c : Dev nD) (w : Fin cfg7.W) : (dat7 (u14 m) c).arrAt w cfg7.N = U15 m c (Pipeline.arrRef spec7 w) :=
  match w with
  | ⟨0, _⟩ => (((dat7 (u14 m) c).arrAt_in 0 rfl _).trans (A_eq7 (u14 m) c 0)).trans (U15_of m c (Pipeline.arrRef spec7 0) (by decide)).symm
  | ⟨1, _⟩ => (((dat7 (u14 m) c).arrAt_in 1 rfl _).trans (A_eq7 (u14 m) c 1)).trans (U15_of m c (Pipeline.arrRef spec7 1) (by decide)).symm
  | ⟨2, _⟩ => (((dat7 (u14 m) c).arrAt_in 2 rfl _).trans (A_eq7 (u14 m) c 2)).trans (U15_of m c (Pipeline.arrRef spec7 2) (by decide)).symm
  | ⟨3, _⟩ => (U15_outR m c).symm
  | ⟨_ + 4, h⟩ => absurd h (Nat.not_lt.2 (Nat.le_add_left _ _))
theorem hrest7 (c : Dev nD) : ∀ b, b ∉ Finset.univ.image (Pipeline.arrRef spec7) → U15 m c b = U14 m c b :=
  fun b hb => U15_of m c b (fun hm => hb (by rw [List.mem_singleton.mp hm]; exact Finset.mem_image.mpr ⟨3, Finset.mem_univ _, rfl⟩))
/-- Region 8's arrays after the region hold what its pipeline leaves. -/
theorem X17_arr (c : Dev nD) (w : Fin cfg8.W) :
    X17 m c (Proc.devRef .tc (Pipeline.arrRef spec8 w)) = (dat8 (u16 m) c).arrAt w cfg8.N := by
  unfold X17; exact Pipeline.withArrays_arr spec8 launch8.win.arr_inj c _ _ w
set_option backward.isDefEq.respectTransparency.types false in
/-- Region 8 leaves in its output array what its write-backs fold to. -/
theorem U17_out (c : Dev nD) : U17 m c main_v60 = (dat8 (u16 m) c).arrAt 3 cfg8.N := by
  show Function.update (U16 m c) main_v60 (X17 m c main_v60) main_v60 = _
  rw [Function.update_self]; exact X17_arr m c 3
theorem U17_outR (c : Dev nD) : U17 m c (Pipeline.arrRef spec8 3) = (dat8 (u16 m) c).arrAt 3 cfg8.N := by
  show Function.update (U16 m c) main_v60 (X17 m c main_v60) main_v60 = _
  rw [Function.update_self]; exact X17_arr m c 3
/-- … and every other buffer as it was. -/
theorem U17_of (c : Dev nD) (r : Ref sig .tc) (h : r ∉ ([main_v60] : List (Ref sig .tc))) : U17 m c r = U16 m c r := by
  simp only [Function.update_of_ne (StableHlo.devRef_ne_of_ne (List.ne_of_not_mem_cons h) : (Proc.devRef .tc r : DevRef τ sig) ≠ Proc.devRef .tc main_v60)]
set_option maxHeartbeats 4000000 in
set_option backward.isDefEq.respectTransparency.types false in
theorem hF8 (c : Dev nD) (w : Fin cfg8.W) : (dat8 (u16 m) c).arrAt w cfg8.N = U17 m c (Pipeline.arrRef spec8 w) :=
  match w with
  | ⟨0, _⟩ => (((dat8 (u16 m) c).arrAt_in 0 rfl _).trans (A_eq8 (u16 m) c 0)).trans (U17_of m c (Pipeline.arrRef spec8 0) (by decide)).symm
  | ⟨1, _⟩ => (((dat8 (u16 m) c).arrAt_in 1 rfl _).trans (A_eq8 (u16 m) c 1)).trans (U17_of m c (Pipeline.arrRef spec8 1) (by decide)).symm
  | ⟨2, _⟩ => (((dat8 (u16 m) c).arrAt_in 2 rfl _).trans (A_eq8 (u16 m) c 2)).trans (U17_of m c (Pipeline.arrRef spec8 2) (by decide)).symm
  | ⟨3, _⟩ => (U17_outR m c).symm
  | ⟨_ + 4, h⟩ => absurd h (Nat.not_lt.2 (Nat.le_add_left _ _))
theorem hrest8 (c : Dev nD) : ∀ b, b ∉ Finset.univ.image (Pipeline.arrRef spec8) → U17 m c b = U16 m c b :=
  fun b hb => U17_of m c b (fun hm => hb (by rw [List.mem_singleton.mp hm]; exact Finset.mem_image.mpr ⟨3, Finset.mem_univ _, rfl⟩))
/-- Region 9's arrays after the region hold what its pipeline leaves. -/
theorem X18_arr (c : Dev nD) (w : Fin cfg9.W) :
    X18 m c (Proc.devRef .tc (Pipeline.arrRef spec9 w)) = (dat9 (u17 m) c).arrAt w cfg9.N := by
  unfold X18; exact Pipeline.withArrays_arr spec9 launch9.win.arr_inj c _ _ w
set_option backward.isDefEq.respectTransparency.types false in
/-- Region 9 leaves in its output array what its write-backs fold to. -/
theorem U18_out (c : Dev nD) : U18 m c main_v61 = (dat9 (u17 m) c).arrAt 5 cfg9.N := by
  show Function.update (U17 m c) main_v61 (X18 m c main_v61) main_v61 = _
  rw [Function.update_self]; exact X18_arr m c 5
theorem U18_outR (c : Dev nD) : U18 m c (Pipeline.arrRef spec9 5) = (dat9 (u17 m) c).arrAt 5 cfg9.N := by
  show Function.update (U17 m c) main_v61 (X18 m c main_v61) main_v61 = _
  rw [Function.update_self]; exact X18_arr m c 5
/-- … and every other buffer as it was. -/
theorem U18_of (c : Dev nD) (r : Ref sig .tc) (h : r ∉ ([main_v61] : List (Ref sig .tc))) : U18 m c r = U17 m c r := by
  simp only [Function.update_of_ne (StableHlo.devRef_ne_of_ne (List.ne_of_not_mem_cons h) : (Proc.devRef .tc r : DevRef τ sig) ≠ Proc.devRef .tc main_v61)]
set_option maxHeartbeats 4000000 in
set_option backward.isDefEq.respectTransparency.types false in
theorem hF9 (c : Dev nD) (w : Fin cfg9.W) : (dat9 (u17 m) c).arrAt w cfg9.N = U18 m c (Pipeline.arrRef spec9 w) :=
  match w with
  | ⟨0, _⟩ => (((dat9 (u17 m) c).arrAt_in 0 rfl _).trans (A_eq9 (u17 m) c 0)).trans (U18_of m c (Pipeline.arrRef spec9 0) (by decide)).symm
  | ⟨1, _⟩ => (((dat9 (u17 m) c).arrAt_in 1 rfl _).trans (A_eq9 (u17 m) c 1)).trans (U18_of m c (Pipeline.arrRef spec9 1) (by decide)).symm
  | ⟨2, _⟩ => (((dat9 (u17 m) c).arrAt_in 2 rfl _).trans (A_eq9 (u17 m) c 2)).trans (U18_of m c (Pipeline.arrRef spec9 2) (by decide)).symm
  | ⟨3, _⟩ => (((dat9 (u17 m) c).arrAt_in 3 rfl _).trans (A_eq9 (u17 m) c 3)).trans (U18_of m c (Pipeline.arrRef spec9 3) (by decide)).symm
  | ⟨4, _⟩ => (((dat9 (u17 m) c).arrAt_in 4 rfl _).trans (A_eq9 (u17 m) c 4)).trans (U18_of m c (Pipeline.arrRef spec9 4) (by decide)).symm
  | ⟨5, _⟩ => (U18_outR m c).symm
  | ⟨_ + 6, h⟩ => absurd h (Nat.not_lt.2 (Nat.le_add_left _ _))
theorem hrest9 (c : Dev nD) : ∀ b, b ∉ Finset.univ.image (Pipeline.arrRef spec9) → U18 m c b = U17 m c b :=
  fun b hb => U18_of m c b (fun hm => hb (by rw [List.mem_singleton.mp hm]; exact Finset.mem_image.mpr ⟨5, Finset.mem_univ _, rfl⟩))
/-- Region 10's arrays after the region hold what its pipeline leaves. -/
theorem X36_arr (c : Dev nD) (w : Fin cfg10.W) :
    X36 m c (Proc.devRef .tc (Pipeline.arrRef spec10 w)) = (dat10 (u35 m) c).arrAt w cfg10.N := by
  unfold X36; exact Pipeline.withArrays_arr spec10 launch10.win.arr_inj c _ _ w
set_option backward.isDefEq.respectTransparency.types false in
/-- Region 10 leaves in its output array what its write-backs fold to. -/
theorem U36_out (c : Dev nD) : U36 m c main_v71 = (dat10 (u35 m) c).arrAt 3 cfg10.N := by
  show Function.update (U35 m c) main_v71 (X36 m c main_v71) main_v71 = _
  rw [Function.update_self]; exact X36_arr m c 3
theorem U36_outR (c : Dev nD) : U36 m c (Pipeline.arrRef spec10 3) = (dat10 (u35 m) c).arrAt 3 cfg10.N := by
  show Function.update (U35 m c) main_v71 (X36 m c main_v71) main_v71 = _
  rw [Function.update_self]; exact X36_arr m c 3
/-- … and every other buffer as it was. -/
theorem U36_of (c : Dev nD) (r : Ref sig .tc) (h : r ∉ ([main_v71] : List (Ref sig .tc))) : U36 m c r = U35 m c r := by
  simp only [Function.update_of_ne (StableHlo.devRef_ne_of_ne (List.ne_of_not_mem_cons h) : (Proc.devRef .tc r : DevRef τ sig) ≠ Proc.devRef .tc main_v71)]
set_option maxHeartbeats 4000000 in
set_option backward.isDefEq.respectTransparency.types false in
theorem hF10 (c : Dev nD) (w : Fin cfg10.W) : (dat10 (u35 m) c).arrAt w cfg10.N = U36 m c (Pipeline.arrRef spec10 w) :=
  match w with
  | ⟨0, _⟩ => (((dat10 (u35 m) c).arrAt_in 0 rfl _).trans (A_eq10 (u35 m) c 0)).trans (U36_of m c (Pipeline.arrRef spec10 0) (by decide)).symm
  | ⟨1, _⟩ => (((dat10 (u35 m) c).arrAt_in 1 rfl _).trans (A_eq10 (u35 m) c 1)).trans (U36_of m c (Pipeline.arrRef spec10 1) (by decide)).symm
  | ⟨2, _⟩ => (((dat10 (u35 m) c).arrAt_in 2 rfl _).trans (A_eq10 (u35 m) c 2)).trans (U36_of m c (Pipeline.arrRef spec10 2) (by decide)).symm
  | ⟨3, _⟩ => (U36_outR m c).symm
  | ⟨_ + 4, h⟩ => absurd h (Nat.not_lt.2 (Nat.le_add_left _ _))
theorem hrest10 (c : Dev nD) : ∀ b, b ∉ Finset.univ.image (Pipeline.arrRef spec10) → U36 m c b = U35 m c b :=
  fun b hb => U36_of m c b (fun hm => hb (by rw [List.mem_singleton.mp hm]; exact Finset.mem_image.mpr ⟨3, Finset.mem_univ _, rfl⟩))
/-- Region 11's arrays after the region hold what its pipeline leaves. -/
theorem X38_arr (c : Dev nD) (w : Fin cfg11.W) :
    X38 m c (Proc.devRef .tc (Pipeline.arrRef spec11 w)) = (dat11 (u37 m) c).arrAt w cfg11.N := by
  unfold X38; exact Pipeline.withArrays_arr spec11 launch11.win.arr_inj c _ _ w
set_option backward.isDefEq.respectTransparency.types false in
/-- Region 11 leaves in its output array what its write-backs fold to. -/
theorem U38_out (c : Dev nD) : U38 m c main_v73 = (dat11 (u37 m) c).arrAt 3 cfg11.N := by
  show Function.update (U37 m c) main_v73 (X38 m c main_v73) main_v73 = _
  rw [Function.update_self]; exact X38_arr m c 3
theorem U38_outR (c : Dev nD) : U38 m c (Pipeline.arrRef spec11 3) = (dat11 (u37 m) c).arrAt 3 cfg11.N := by
  show Function.update (U37 m c) main_v73 (X38 m c main_v73) main_v73 = _
  rw [Function.update_self]; exact X38_arr m c 3
/-- … and every other buffer as it was. -/
theorem U38_of (c : Dev nD) (r : Ref sig .tc) (h : r ∉ ([main_v73] : List (Ref sig .tc))) : U38 m c r = U37 m c r := by
  simp only [Function.update_of_ne (StableHlo.devRef_ne_of_ne (List.ne_of_not_mem_cons h) : (Proc.devRef .tc r : DevRef τ sig) ≠ Proc.devRef .tc main_v73)]
set_option maxHeartbeats 4000000 in
set_option backward.isDefEq.respectTransparency.types false in
theorem hF11 (c : Dev nD) (w : Fin cfg11.W) : (dat11 (u37 m) c).arrAt w cfg11.N = U38 m c (Pipeline.arrRef spec11 w) :=
  match w with
  | ⟨0, _⟩ => (((dat11 (u37 m) c).arrAt_in 0 rfl _).trans (A_eq11 (u37 m) c 0)).trans (U38_of m c (Pipeline.arrRef spec11 0) (by decide)).symm
  | ⟨1, _⟩ => (((dat11 (u37 m) c).arrAt_in 1 rfl _).trans (A_eq11 (u37 m) c 1)).trans (U38_of m c (Pipeline.arrRef spec11 1) (by decide)).symm
  | ⟨2, _⟩ => (((dat11 (u37 m) c).arrAt_in 2 rfl _).trans (A_eq11 (u37 m) c 2)).trans (U38_of m c (Pipeline.arrRef spec11 2) (by decide)).symm
  | ⟨3, _⟩ => (U38_outR m c).symm
  | ⟨_ + 4, h⟩ => absurd h (Nat.not_lt.2 (Nat.le_add_left _ _))
theorem hrest11 (c : Dev nD) : ∀ b, b ∉ Finset.univ.image (Pipeline.arrRef spec11) → U38 m c b = U37 m c b :=
  fun b hb => U38_of m c b (fun hm => hb (by rw [List.mem_singleton.mp hm]; exact Finset.mem_image.mpr ⟨3, Finset.mem_univ _, rfl⟩))
/-- Region 12's arrays after the region hold what its pipeline leaves. -/
theorem X40_arr (c : Dev nD) (w : Fin cfg12.W) :
    X40 m c (Proc.devRef .tc (Pipeline.arrRef spec12 w)) = (dat12 (u39 m) c).arrAt w cfg12.N := by
  unfold X40; exact Pipeline.withArrays_arr spec12 launch12.win.arr_inj c _ _ w
set_option backward.isDefEq.respectTransparency.types false in
/-- Region 12 leaves in its output array what its write-backs fold to. -/
theorem U40_out (c : Dev nD) : U40 m c main_v84 = (dat12 (u39 m) c).arrAt 8 cfg12.N := by
  show Function.update (U39 m c) main_v84 (X40 m c main_v84) main_v84 = _
  rw [Function.update_self]; exact X40_arr m c 8
theorem U40_outR (c : Dev nD) : U40 m c (Pipeline.arrRef spec12 8) = (dat12 (u39 m) c).arrAt 8 cfg12.N := by
  show Function.update (U39 m c) main_v84 (X40 m c main_v84) main_v84 = _
  rw [Function.update_self]; exact X40_arr m c 8
/-- … and every other buffer as it was. -/
theorem U40_of (c : Dev nD) (r : Ref sig .tc) (h : r ∉ ([main_v84] : List (Ref sig .tc))) : U40 m c r = U39 m c r := by
  simp only [Function.update_of_ne (StableHlo.devRef_ne_of_ne (List.ne_of_not_mem_cons h) : (Proc.devRef .tc r : DevRef τ sig) ≠ Proc.devRef .tc main_v84)]
set_option maxHeartbeats 4000000 in
set_option backward.isDefEq.respectTransparency.types false in
theorem hF12 (c : Dev nD) (w : Fin cfg12.W) : (dat12 (u39 m) c).arrAt w cfg12.N = U40 m c (Pipeline.arrRef spec12 w) :=
  match w with
  | ⟨0, _⟩ => (((dat12 (u39 m) c).arrAt_in 0 rfl _).trans (A_eq12 (u39 m) c 0)).trans (U40_of m c (Pipeline.arrRef spec12 0) (by decide)).symm
  | ⟨1, _⟩ => (((dat12 (u39 m) c).arrAt_in 1 rfl _).trans (A_eq12 (u39 m) c 1)).trans (U40_of m c (Pipeline.arrRef spec12 1) (by decide)).symm
  | ⟨2, _⟩ => (((dat12 (u39 m) c).arrAt_in 2 rfl _).trans (A_eq12 (u39 m) c 2)).trans (U40_of m c (Pipeline.arrRef spec12 2) (by decide)).symm
  | ⟨3, _⟩ => (((dat12 (u39 m) c).arrAt_in 3 rfl _).trans (A_eq12 (u39 m) c 3)).trans (U40_of m c (Pipeline.arrRef spec12 3) (by decide)).symm
  | ⟨4, _⟩ => (((dat12 (u39 m) c).arrAt_in 4 rfl _).trans (A_eq12 (u39 m) c 4)).trans (U40_of m c (Pipeline.arrRef spec12 4) (by decide)).symm
  | ⟨5, _⟩ => (((dat12 (u39 m) c).arrAt_in 5 rfl _).trans (A_eq12 (u39 m) c 5)).trans (U40_of m c (Pipeline.arrRef spec12 5) (by decide)).symm
  | ⟨6, _⟩ => (((dat12 (u39 m) c).arrAt_in 6 rfl _).trans (A_eq12 (u39 m) c 6)).trans (U40_of m c (Pipeline.arrRef spec12 6) (by decide)).symm
  | ⟨7, _⟩ => (((dat12 (u39 m) c).arrAt_in 7 rfl _).trans (A_eq12 (u39 m) c 7)).trans (U40_of m c (Pipeline.arrRef spec12 7) (by decide)).symm
  | ⟨8, _⟩ => (U40_outR m c).symm
  | ⟨_ + 9, h⟩ => absurd h (Nat.not_lt.2 (Nat.le_add_left _ _))
theorem hrest12 (c : Dev nD) : ∀ b, b ∉ Finset.univ.image (Pipeline.arrRef spec12) → U40 m c b = U39 m c b :=
  fun b hb => U40_of m c b (fun hm => hb (by rw [List.mem_singleton.mp hm]; exact Finset.mem_image.mpr ⟨8, Finset.mem_univ _, rfl⟩))
/-- Region 13's arrays after the region hold what its pipeline leaves. -/
theorem X42_arr (c : Dev nD) (w : Fin cfg13.W) :
    X42 m c (Proc.devRef .tc (Pipeline.arrRef spec13 w)) = (dat13 (u41 m) c).arrAt w cfg13.N := by
  unfold X42; exact Pipeline.withArrays_arr spec13 launch13.win.arr_inj c _ _ w
set_option backward.isDefEq.respectTransparency.types false in
/-- Region 13 leaves in its output array what its write-backs fold to. -/
theorem U42_out (c : Dev nD) : U42 m c main_v90 = (dat13 (u41 m) c).arrAt 3 cfg13.N := by
  show Function.update (U41 m c) main_v90 (X42 m c main_v90) main_v90 = _
  rw [Function.update_self]; exact X42_arr m c 3
theorem U42_outR (c : Dev nD) : U42 m c (Pipeline.arrRef spec13 3) = (dat13 (u41 m) c).arrAt 3 cfg13.N := by
  show Function.update (U41 m c) main_v90 (X42 m c main_v90) main_v90 = _
  rw [Function.update_self]; exact X42_arr m c 3
/-- … and every other buffer as it was. -/
theorem U42_of (c : Dev nD) (r : Ref sig .tc) (h : r ∉ ([main_v90] : List (Ref sig .tc))) : U42 m c r = U41 m c r := by
  simp only [Function.update_of_ne (StableHlo.devRef_ne_of_ne (List.ne_of_not_mem_cons h) : (Proc.devRef .tc r : DevRef τ sig) ≠ Proc.devRef .tc main_v90)]
set_option maxHeartbeats 4000000 in
set_option backward.isDefEq.respectTransparency.types false in
theorem hF13 (c : Dev nD) (w : Fin cfg13.W) : (dat13 (u41 m) c).arrAt w cfg13.N = U42 m c (Pipeline.arrRef spec13 w) :=
  match w with
  | ⟨0, _⟩ => (((dat13 (u41 m) c).arrAt_in 0 rfl _).trans (A_eq13 (u41 m) c 0)).trans (U42_of m c (Pipeline.arrRef spec13 0) (by decide)).symm
  | ⟨1, _⟩ => (((dat13 (u41 m) c).arrAt_in 1 rfl _).trans (A_eq13 (u41 m) c 1)).trans (U42_of m c (Pipeline.arrRef spec13 1) (by decide)).symm
  | ⟨2, _⟩ => (((dat13 (u41 m) c).arrAt_in 2 rfl _).trans (A_eq13 (u41 m) c 2)).trans (U42_of m c (Pipeline.arrRef spec13 2) (by decide)).symm
  | ⟨3, _⟩ => (U42_outR m c).symm
  | ⟨_ + 4, h⟩ => absurd h (Nat.not_lt.2 (Nat.le_add_left _ _))
theorem hrest13 (c : Dev nD) : ∀ b, b ∉ Finset.univ.image (Pipeline.arrRef spec13) → U42 m c b = U41 m c b :=
  fun b hb => U42_of m c b (fun hm => hb (by rw [List.mem_singleton.mp hm]; exact Finset.mem_image.mpr ⟨3, Finset.mem_univ _, rfl⟩))
/-- Region 14's arrays after the region hold what its pipeline leaves. -/
theorem X44_arr (c : Dev nD) (w : Fin cfg14.W) :
    X44 m c (Proc.devRef .tc (Pipeline.arrRef spec14 w)) = (dat14 (u43 m) c).arrAt w cfg14.N := by
  unfold X44; exact Pipeline.withArrays_arr spec14 launch14.win.arr_inj c _ _ w
set_option backward.isDefEq.respectTransparency.types false in
/-- Region 14 leaves in its output array what its write-backs fold to. -/
theorem U44_out (c : Dev nD) : U44 m c main_v96 = (dat14 (u43 m) c).arrAt 3 cfg14.N := by
  show Function.update (U43 m c) main_v96 (X44 m c main_v96) main_v96 = _
  rw [Function.update_self]; exact X44_arr m c 3
theorem U44_outR (c : Dev nD) : U44 m c (Pipeline.arrRef spec14 3) = (dat14 (u43 m) c).arrAt 3 cfg14.N := by
  show Function.update (U43 m c) main_v96 (X44 m c main_v96) main_v96 = _
  rw [Function.update_self]; exact X44_arr m c 3
/-- … and every other buffer as it was. -/
theorem U44_of (c : Dev nD) (r : Ref sig .tc) (h : r ∉ ([main_v96] : List (Ref sig .tc))) : U44 m c r = U43 m c r := by
  simp only [Function.update_of_ne (StableHlo.devRef_ne_of_ne (List.ne_of_not_mem_cons h) : (Proc.devRef .tc r : DevRef τ sig) ≠ Proc.devRef .tc main_v96)]
set_option maxHeartbeats 4000000 in
set_option backward.isDefEq.respectTransparency.types false in
theorem hF14 (c : Dev nD) (w : Fin cfg14.W) : (dat14 (u43 m) c).arrAt w cfg14.N = U44 m c (Pipeline.arrRef spec14 w) :=
  match w with
  | ⟨0, _⟩ => (((dat14 (u43 m) c).arrAt_in 0 rfl _).trans (A_eq14 (u43 m) c 0)).trans (U44_of m c (Pipeline.arrRef spec14 0) (by decide)).symm
  | ⟨1, _⟩ => (((dat14 (u43 m) c).arrAt_in 1 rfl _).trans (A_eq14 (u43 m) c 1)).trans (U44_of m c (Pipeline.arrRef spec14 1) (by decide)).symm
  | ⟨2, _⟩ => (((dat14 (u43 m) c).arrAt_in 2 rfl _).trans (A_eq14 (u43 m) c 2)).trans (U44_of m c (Pipeline.arrRef spec14 2) (by decide)).symm
  | ⟨3, _⟩ => (U44_outR m c).symm
  | ⟨_ + 4, h⟩ => absurd h (Nat.not_lt.2 (Nat.le_add_left _ _))
theorem hrest14 (c : Dev nD) : ∀ b, b ∉ Finset.univ.image (Pipeline.arrRef spec14) → U44 m c b = U43 m c b :=
  fun b hb => U44_of m c b (fun hm => hb (by rw [List.mem_singleton.mp hm]; exact Finset.mem_image.mpr ⟨3, Finset.mem_univ _, rfl⟩))
/-- Region 15's arrays after the region hold what its pipeline leaves. -/
theorem X45_arr (c : Dev nD) (w : Fin cfg15.W) :
    X45 m c (Proc.devRef .tc (Pipeline.arrRef spec15 w)) = (dat15 (u44 m) c).arrAt w cfg15.N := by
  unfold X45; exact Pipeline.withArrays_arr spec15 launch15.win.arr_inj c _ _ w
set_option backward.isDefEq.respectTransparency.types false in
/-- Region 15 leaves in its output array what its write-backs fold to. -/
theorem U45_out (c : Dev nD) : U45 m c main_v97 = (dat15 (u44 m) c).arrAt 5 cfg15.N := by
  show Function.update (U44 m c) main_v97 (X45 m c main_v97) main_v97 = _
  rw [Function.update_self]; exact X45_arr m c 5
theorem U45_outR (c : Dev nD) : U45 m c (Pipeline.arrRef spec15 5) = (dat15 (u44 m) c).arrAt 5 cfg15.N := by
  show Function.update (U44 m c) main_v97 (X45 m c main_v97) main_v97 = _
  rw [Function.update_self]; exact X45_arr m c 5
/-- … and every other buffer as it was. -/
theorem U45_of (c : Dev nD) (r : Ref sig .tc) (h : r ∉ ([main_v97] : List (Ref sig .tc))) : U45 m c r = U44 m c r := by
  simp only [Function.update_of_ne (StableHlo.devRef_ne_of_ne (List.ne_of_not_mem_cons h) : (Proc.devRef .tc r : DevRef τ sig) ≠ Proc.devRef .tc main_v97)]
set_option maxHeartbeats 4000000 in
set_option backward.isDefEq.respectTransparency.types false in
theorem hF15 (c : Dev nD) (w : Fin cfg15.W) : (dat15 (u44 m) c).arrAt w cfg15.N = U45 m c (Pipeline.arrRef spec15 w) :=
  match w with
  | ⟨0, _⟩ => (((dat15 (u44 m) c).arrAt_in 0 rfl _).trans (A_eq15 (u44 m) c 0)).trans (U45_of m c (Pipeline.arrRef spec15 0) (by decide)).symm
  | ⟨1, _⟩ => (((dat15 (u44 m) c).arrAt_in 1 rfl _).trans (A_eq15 (u44 m) c 1)).trans (U45_of m c (Pipeline.arrRef spec15 1) (by decide)).symm
  | ⟨2, _⟩ => (((dat15 (u44 m) c).arrAt_in 2 rfl _).trans (A_eq15 (u44 m) c 2)).trans (U45_of m c (Pipeline.arrRef spec15 2) (by decide)).symm
  | ⟨3, _⟩ => (((dat15 (u44 m) c).arrAt_in 3 rfl _).trans (A_eq15 (u44 m) c 3)).trans (U45_of m c (Pipeline.arrRef spec15 3) (by decide)).symm
  | ⟨4, _⟩ => (((dat15 (u44 m) c).arrAt_in 4 rfl _).trans (A_eq15 (u44 m) c 4)).trans (U45_of m c (Pipeline.arrRef spec15 4) (by decide)).symm
  | ⟨5, _⟩ => (U45_outR m c).symm
  | ⟨_ + 6, h⟩ => absurd h (Nat.not_lt.2 (Nat.le_add_left _ _))
theorem hrest15 (c : Dev nD) : ∀ b, b ∉ Finset.univ.image (Pipeline.arrRef spec15) → U45 m c b = U44 m c b :=
  fun b hb => U45_of m c b (fun hm => hb (by rw [List.mem_singleton.mp hm]; exact Finset.mem_image.mpr ⟨5, Finset.mem_univ _, rfl⟩))
/-- Region 16's arrays after the region hold what its pipeline leaves. -/
theorem X47_arr (c : Dev nD) (w : Fin cfg16.W) :
    X47 m c (Proc.devRef .tc (Pipeline.arrRef spec16 w)) = (dat16 (u46 m) c).arrAt w cfg16.N := by
  unfold X47; exact Pipeline.withArrays_arr spec16 launch16.win.arr_inj c _ _ w
set_option backward.isDefEq.respectTransparency.types false in
/-- Region 16 leaves in its output array what its write-backs fold to. -/
theorem U47_out (c : Dev nD) : U47 m c main_v108 = (dat16 (u46 m) c).arrAt 8 cfg16.N := by
  show Function.update (U46 m c) main_v108 (X47 m c main_v108) main_v108 = _
  rw [Function.update_self]; exact X47_arr m c 8
theorem U47_outR (c : Dev nD) : U47 m c (Pipeline.arrRef spec16 8) = (dat16 (u46 m) c).arrAt 8 cfg16.N := by
  show Function.update (U46 m c) main_v108 (X47 m c main_v108) main_v108 = _
  rw [Function.update_self]; exact X47_arr m c 8
/-- … and every other buffer as it was. -/
theorem U47_of (c : Dev nD) (r : Ref sig .tc) (h : r ∉ ([main_v108] : List (Ref sig .tc))) : U47 m c r = U46 m c r := by
  simp only [Function.update_of_ne (StableHlo.devRef_ne_of_ne (List.ne_of_not_mem_cons h) : (Proc.devRef .tc r : DevRef τ sig) ≠ Proc.devRef .tc main_v108)]
set_option maxHeartbeats 4000000 in
set_option backward.isDefEq.respectTransparency.types false in
theorem hF16 (c : Dev nD) (w : Fin cfg16.W) : (dat16 (u46 m) c).arrAt w cfg16.N = U47 m c (Pipeline.arrRef spec16 w) :=
  match w with
  | ⟨0, _⟩ => (((dat16 (u46 m) c).arrAt_in 0 rfl _).trans (A_eq16 (u46 m) c 0)).trans (U47_of m c (Pipeline.arrRef spec16 0) (by decide)).symm
  | ⟨1, _⟩ => (((dat16 (u46 m) c).arrAt_in 1 rfl _).trans (A_eq16 (u46 m) c 1)).trans (U47_of m c (Pipeline.arrRef spec16 1) (by decide)).symm
  | ⟨2, _⟩ => (((dat16 (u46 m) c).arrAt_in 2 rfl _).trans (A_eq16 (u46 m) c 2)).trans (U47_of m c (Pipeline.arrRef spec16 2) (by decide)).symm
  | ⟨3, _⟩ => (((dat16 (u46 m) c).arrAt_in 3 rfl _).trans (A_eq16 (u46 m) c 3)).trans (U47_of m c (Pipeline.arrRef spec16 3) (by decide)).symm
  | ⟨4, _⟩ => (((dat16 (u46 m) c).arrAt_in 4 rfl _).trans (A_eq16 (u46 m) c 4)).trans (U47_of m c (Pipeline.arrRef spec16 4) (by decide)).symm
  | ⟨5, _⟩ => (((dat16 (u46 m) c).arrAt_in 5 rfl _).trans (A_eq16 (u46 m) c 5)).trans (U47_of m c (Pipeline.arrRef spec16 5) (by decide)).symm
  | ⟨6, _⟩ => (((dat16 (u46 m) c).arrAt_in 6 rfl _).trans (A_eq16 (u46 m) c 6)).trans (U47_of m c (Pipeline.arrRef spec16 6) (by decide)).symm
  | ⟨7, _⟩ => (((dat16 (u46 m) c).arrAt_in 7 rfl _).trans (A_eq16 (u46 m) c 7)).trans (U47_of m c (Pipeline.arrRef spec16 7) (by decide)).symm
  | ⟨8, _⟩ => (U47_outR m c).symm
  | ⟨_ + 9, h⟩ => absurd h (Nat.not_lt.2 (Nat.le_add_left _ _))
theorem hrest16 (c : Dev nD) : ∀ b, b ∉ Finset.univ.image (Pipeline.arrRef spec16) → U47 m c b = U46 m c b :=
  fun b hb => U47_of m c b (fun hm => hb (by rw [List.mem_singleton.mp hm]; exact Finset.mem_image.mpr ⟨8, Finset.mem_univ _, rfl⟩))
/-- Region 17's arrays after the region hold what its pipeline leaves. -/
theorem X49_arr (c : Dev nD) (w : Fin cfg17.W) :
    X49 m c (Proc.devRef .tc (Pipeline.arrRef spec17 w)) = (dat17 (u48 m) c).arrAt w cfg17.N := by
  unfold X49; exact Pipeline.withArrays_arr spec17 launch17.win.arr_inj c _ _ w
set_option backward.isDefEq.respectTransparency.types false in
/-- Region 17 leaves in its output array what its write-backs fold to. -/
theorem U49_out (c : Dev nD) : U49 m c main_v114 = (dat17 (u48 m) c).arrAt 3 cfg17.N := by
  show Function.update (U48 m c) main_v114 (X49 m c main_v114) main_v114 = _
  rw [Function.update_self]; exact X49_arr m c 3
theorem U49_outR (c : Dev nD) : U49 m c (Pipeline.arrRef spec17 3) = (dat17 (u48 m) c).arrAt 3 cfg17.N := by
  show Function.update (U48 m c) main_v114 (X49 m c main_v114) main_v114 = _
  rw [Function.update_self]; exact X49_arr m c 3
/-- … and every other buffer as it was. -/
theorem U49_of (c : Dev nD) (r : Ref sig .tc) (h : r ∉ ([main_v114] : List (Ref sig .tc))) : U49 m c r = U48 m c r := by
  simp only [Function.update_of_ne (StableHlo.devRef_ne_of_ne (List.ne_of_not_mem_cons h) : (Proc.devRef .tc r : DevRef τ sig) ≠ Proc.devRef .tc main_v114)]
set_option maxHeartbeats 4000000 in
set_option backward.isDefEq.respectTransparency.types false in
theorem hF17 (c : Dev nD) (w : Fin cfg17.W) : (dat17 (u48 m) c).arrAt w cfg17.N = U49 m c (Pipeline.arrRef spec17 w) :=
  match w with
  | ⟨0, _⟩ => (((dat17 (u48 m) c).arrAt_in 0 rfl _).trans (A_eq17 (u48 m) c 0)).trans (U49_of m c (Pipeline.arrRef spec17 0) (by decide)).symm
  | ⟨1, _⟩ => (((dat17 (u48 m) c).arrAt_in 1 rfl _).trans (A_eq17 (u48 m) c 1)).trans (U49_of m c (Pipeline.arrRef spec17 1) (by decide)).symm
  | ⟨2, _⟩ => (((dat17 (u48 m) c).arrAt_in 2 rfl _).trans (A_eq17 (u48 m) c 2)).trans (U49_of m c (Pipeline.arrRef spec17 2) (by decide)).symm
  | ⟨3, _⟩ => (U49_outR m c).symm
  | ⟨_ + 4, h⟩ => absurd h (Nat.not_lt.2 (Nat.le_add_left _ _))
theorem hrest17 (c : Dev nD) : ∀ b, b ∉ Finset.univ.image (Pipeline.arrRef spec17) → U49 m c b = U48 m c b :=
  fun b hb => U49_of m c b (fun hm => hb (by rw [List.mem_singleton.mp hm]; exact Finset.mem_image.mpr ⟨3, Finset.mem_univ _, rfl⟩))
/-- Region 18's arrays after the region hold what its pipeline leaves. -/
theorem X51_arr (c : Dev nD) (w : Fin cfg18.W) :
    X51 m c (Proc.devRef .tc (Pipeline.arrRef spec18 w)) = (dat18 (u50 m) c).arrAt w cfg18.N := by
  unfold X51; exact Pipeline.withArrays_arr spec18 launch18.win.arr_inj c _ _ w
set_option backward.isDefEq.respectTransparency.types false in
/-- Region 18 leaves in its output array what its write-backs fold to. -/
theorem U51_out (c : Dev nD) : U51 m c main_v120 = (dat18 (u50 m) c).arrAt 3 cfg18.N := by
  show Function.update (U50 m c) main_v120 (X51 m c main_v120) main_v120 = _
  rw [Function.update_self]; exact X51_arr m c 3
theorem U51_outR (c : Dev nD) : U51 m c (Pipeline.arrRef spec18 3) = (dat18 (u50 m) c).arrAt 3 cfg18.N := by
  show Function.update (U50 m c) main_v120 (X51 m c main_v120) main_v120 = _
  rw [Function.update_self]; exact X51_arr m c 3
/-- … and every other buffer as it was. -/
theorem U51_of (c : Dev nD) (r : Ref sig .tc) (h : r ∉ ([main_v120] : List (Ref sig .tc))) : U51 m c r = U50 m c r := by
  simp only [Function.update_of_ne (StableHlo.devRef_ne_of_ne (List.ne_of_not_mem_cons h) : (Proc.devRef .tc r : DevRef τ sig) ≠ Proc.devRef .tc main_v120)]
set_option maxHeartbeats 4000000 in
set_option backward.isDefEq.respectTransparency.types false in
theorem hF18 (c : Dev nD) (w : Fin cfg18.W) : (dat18 (u50 m) c).arrAt w cfg18.N = U51 m c (Pipeline.arrRef spec18 w) :=
  match w with
  | ⟨0, _⟩ => (((dat18 (u50 m) c).arrAt_in 0 rfl _).trans (A_eq18 (u50 m) c 0)).trans (U51_of m c (Pipeline.arrRef spec18 0) (by decide)).symm
  | ⟨1, _⟩ => (((dat18 (u50 m) c).arrAt_in 1 rfl _).trans (A_eq18 (u50 m) c 1)).trans (U51_of m c (Pipeline.arrRef spec18 1) (by decide)).symm
  | ⟨2, _⟩ => (((dat18 (u50 m) c).arrAt_in 2 rfl _).trans (A_eq18 (u50 m) c 2)).trans (U51_of m c (Pipeline.arrRef spec18 2) (by decide)).symm
  | ⟨3, _⟩ => (U51_outR m c).symm
  | ⟨_ + 4, h⟩ => absurd h (Nat.not_lt.2 (Nat.le_add_left _ _))
theorem hrest18 (c : Dev nD) : ∀ b, b ∉ Finset.univ.image (Pipeline.arrRef spec18) → U51 m c b = U50 m c b :=
  fun b hb => U51_of m c b (fun hm => hb (by rw [List.mem_singleton.mp hm]; exact Finset.mem_image.mpr ⟨3, Finset.mem_univ _, rfl⟩))
/-- Region 19's arrays after the region hold what its pipeline leaves. -/
theorem X52_arr (c : Dev nD) (w : Fin cfg19.W) :
    X52 m c (Proc.devRef .tc (Pipeline.arrRef spec19 w)) = (dat19 (u51 m) c).arrAt w cfg19.N := by
  unfold X52; exact Pipeline.withArrays_arr spec19 launch19.win.arr_inj c _ _ w
set_option backward.isDefEq.respectTransparency.types false in
/-- Region 19 leaves in its output array what its write-backs fold to. -/
theorem U52_out (c : Dev nD) : U52 m c main_v121 = (dat19 (u51 m) c).arrAt 5 cfg19.N := by
  show Function.update (U51 m c) main_v121 (X52 m c main_v121) main_v121 = _
  rw [Function.update_self]; exact X52_arr m c 5
theorem U52_outR (c : Dev nD) : U52 m c (Pipeline.arrRef spec19 5) = (dat19 (u51 m) c).arrAt 5 cfg19.N := by
  show Function.update (U51 m c) main_v121 (X52 m c main_v121) main_v121 = _
  rw [Function.update_self]; exact X52_arr m c 5
/-- … and every other buffer as it was. -/
theorem U52_of (c : Dev nD) (r : Ref sig .tc) (h : r ∉ ([main_v121] : List (Ref sig .tc))) : U52 m c r = U51 m c r := by
  simp only [Function.update_of_ne (StableHlo.devRef_ne_of_ne (List.ne_of_not_mem_cons h) : (Proc.devRef .tc r : DevRef τ sig) ≠ Proc.devRef .tc main_v121)]
set_option maxHeartbeats 4000000 in
set_option backward.isDefEq.respectTransparency.types false in
theorem hF19 (c : Dev nD) (w : Fin cfg19.W) : (dat19 (u51 m) c).arrAt w cfg19.N = U52 m c (Pipeline.arrRef spec19 w) :=
  match w with
  | ⟨0, _⟩ => (((dat19 (u51 m) c).arrAt_in 0 rfl _).trans (A_eq19 (u51 m) c 0)).trans (U52_of m c (Pipeline.arrRef spec19 0) (by decide)).symm
  | ⟨1, _⟩ => (((dat19 (u51 m) c).arrAt_in 1 rfl _).trans (A_eq19 (u51 m) c 1)).trans (U52_of m c (Pipeline.arrRef spec19 1) (by decide)).symm
  | ⟨2, _⟩ => (((dat19 (u51 m) c).arrAt_in 2 rfl _).trans (A_eq19 (u51 m) c 2)).trans (U52_of m c (Pipeline.arrRef spec19 2) (by decide)).symm
  | ⟨3, _⟩ => (((dat19 (u51 m) c).arrAt_in 3 rfl _).trans (A_eq19 (u51 m) c 3)).trans (U52_of m c (Pipeline.arrRef spec19 3) (by decide)).symm
  | ⟨4, _⟩ => (((dat19 (u51 m) c).arrAt_in 4 rfl _).trans (A_eq19 (u51 m) c 4)).trans (U52_of m c (Pipeline.arrRef spec19 4) (by decide)).symm
  | ⟨5, _⟩ => (U52_outR m c).symm
  | ⟨_ + 6, h⟩ => absurd h (Nat.not_lt.2 (Nat.le_add_left _ _))
theorem hrest19 (c : Dev nD) : ∀ b, b ∉ Finset.univ.image (Pipeline.arrRef spec19) → U52 m c b = U51 m c b :=
  fun b hb => U52_of m c b (fun hm => hb (by rw [List.mem_singleton.mp hm]; exact Finset.mem_image.mpr ⟨5, Finset.mem_univ _, rfl⟩))

/-! ## The proof data family and the thread state -/

/-- Every pipeline's proof data, each at its region's entry contents: a literal match, so that the configuration at a numeral reduces to the printed one. -/
def pdats : (p : Fin 20) → (c : Dev nD) → Dat τ (Elt F) Unit ℕ (UR sig nD τ) ℕ (cfgs p) c
  | ⟨0, _⟩ => fun c => dat0 (u1 m) c
  | ⟨1, _⟩ => fun c => dat1 (u3 m) c
  | ⟨2, _⟩ => fun c => dat2 (u5 m) c
  | ⟨3, _⟩ => fun c => dat3 (u7 m) c
  | ⟨4, _⟩ => fun c => dat4 (u9 m) c
  | ⟨5, _⟩ => fun c => dat5 (u10 m) c
  | ⟨6, _⟩ => fun c => dat6 (u12 m) c
  | ⟨7, _⟩ => fun c => dat7 (u14 m) c
  | ⟨8, _⟩ => fun c => dat8 (u16 m) c
  | ⟨9, _⟩ => fun c => dat9 (u17 m) c
  | ⟨10, _⟩ => fun c => dat10 (u35 m) c
  | ⟨11, _⟩ => fun c => dat11 (u37 m) c
  | ⟨12, _⟩ => fun c => dat12 (u39 m) c
  | ⟨13, _⟩ => fun c => dat13 (u41 m) c
  | ⟨14, _⟩ => fun c => dat14 (u43 m) c
  | ⟨15, _⟩ => fun c => dat15 (u44 m) c
  | ⟨16, _⟩ => fun c => dat16 (u46 m) c
  | ⟨17, _⟩ => fun c => dat17 (u48 m) c
  | ⟨18, _⟩ => fun c => dat18 (u50 m) c
  | ⟨19, _⟩ => fun c => dat19 (u51 m) c
  | ⟨_ + 20, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 21 → Dev nD → sProp 𝕄 := fun _ c => R c

/-! ## The regions as segments -/

set_option backward.isDefEq.respectTransparency.types false in
/-- Region 0 over the thread state: entered from every unscoped buffer at U1, left at U2. Its arrays are split out of the unscoped buffers and put
    back at the exit contents; the generator register and the scoped buffers no window stages go into the pipeline's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (u1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (u1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (u1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (u1 m) c).Φ 0 from rfl]
    iintro ⟨Hp, -, Hr⟩
    iapply (phi_in0 (u1 m) c)
    isplitl [Hp]; · iexact Hp
    iexact Hr
  hout c := by
    rw [Pipeline.ownSems0_none, show (pdats m 0 c).Φ (Fin.last _) = (dat0 (u1 m) c).Φ (Fin.last cfg0.N) from rfl]
    iintro H
    ihave H' := (phi_out0 (u1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (u1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V1 m c) ∗ E (F := F) 0 c) ⊢ (reg0 m).pre c := by
  rw [V_eq1]; exact .rfl
theorem hpost0 (c : Dev nD) : (reg0 m).post c ⊢ iprop(StableHlo.held (c : Thread nD τ) (Pipeline.ucRefs τ sig) (V2 m (outs m) c) ∗ E (F := F) 1 c) := by
  rw [V_eq2]; exact .rfl

set_option backward.isDefEq.respectTransparency.types false in
/-- Region 1 over the thread state: entered from every unscoped buffer at U3, left at U4. Its arrays are split out of the unscoped buffers and put
    back at the exit contents; the generator register and the scoped buffers no window stages go into the pipeline's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (u3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (u3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (u3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (u3 m) c).Φ 0 from rfl]
    iintro ⟨Hp, -, Hr⟩
    iapply (phi_in1 (u3 m) c)
    isplitl [Hp]; · iexact Hp
    iexact Hr
  hout c := by
    rw [Pipeline.ownSems0_none, show (pdats m 1 c).Φ (Fin.last _) = (dat1 (u3 m) c).Φ (Fin.last cfg1.N) from rfl]
    iintro H
    ihave H' := (phi_out1 (u3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (u3 m c) (fun b => U4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V3 m (outs m) c) ∗ E (F := F) 1 c) ⊢ (reg1 m).pre c := by
  rw [V_eq3]; exact .rfl
theorem hpost1 (c : Dev nD) : (reg1 m).post c ⊢ iprop(StableHlo.held (c : Thread nD τ) (Pipeline.ucRefs τ sig) (V4 m (outs m) c) ∗ E (F := F) 2 c) := by
  rw [V_eq4]; exact .rfl

set_option backward.isDefEq.respectTransparency.types false in
/-- Region 2 over the thread state: entered from every unscoped buffer at U5, left at U6. Its arrays are split out of the unscoped buffers and put
    back at the exit contents; the generator register and the scoped buffers no window stages go into the pipeline's invariant and come back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (u5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (u5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (u5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (u5 m) c).Φ 0 from rfl]
    iintro ⟨Hp, -, Hr⟩
    iapply (phi_in2 (u5 m) c)
    isplitl [Hp]; · iexact Hp
    iexact Hr
  hout c := by
    rw [Pipeline.ownSems0_none, show (pdats m 2 c).Φ (Fin.last _) = (dat2 (u5 m) c).Φ (Fin.last cfg2.N) from rfl]
    iintro H
    ihave H' := (phi_out2 (u5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (u5 m c) (fun b => U6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V5 m (outs m) c) ∗ E (F := F) 2 c) ⊢ (reg2 m).pre c := by
  rw [V_eq5]; exact .rfl
theorem hpost2 (c : Dev nD) : (reg2 m).post c ⊢ iprop(StableHlo.held (c : Thread nD τ) (Pipeline.ucRefs τ sig) (V6 m (outs m) c) ∗ E (F := F) 3 c) := by
  rw [V_eq6]; exact .rfl

set_option backward.isDefEq.respectTransparency.types false in
/-- Region 3 over the thread state: entered from every unscoped buffer at U7, left at U8. Its arrays are split out of the unscoped buffers and put
    back at the exit contents; the generator register and the scoped buffers no window stages go into the pipeline's invariant and come back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (u7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (u7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (u7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (u7 m) c).Φ 0 from rfl]
    iintro ⟨Hp, -, Hr⟩
    iapply (phi_in3 (u7 m) c)
    isplitl [Hp]; · iexact Hp
    iexact Hr
  hout c := by
    rw [Pipeline.ownSems0_none, show (pdats m 3 c).Φ (Fin.last _) = (dat3 (u7 m) c).Φ (Fin.last cfg3.N) from rfl]
    iintro H
    ihave H' := (phi_out3 (u7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (u7 m c) (fun b => U8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V7 m (outs m) c) ∗ E (F := F) 3 c) ⊢ (reg3 m).pre c := by
  rw [V_eq7]; exact .rfl
theorem hpost3 (c : Dev nD) : (reg3 m).post c ⊢ iprop(StableHlo.held (c : Thread nD τ) (Pipeline.ucRefs τ sig) (V8 m (outs m) c) ∗ E (F := F) 4 c) := by
  rw [V_eq8]; exact .rfl

set_option backward.isDefEq.respectTransparency.types false in
/-- Region 4 over the thread state: entered from every unscoped buffer at U9, left at U10. Its arrays are split out of the unscoped buffers and put
    back at the exit contents; the generator register and the scoped buffers no window stages go into the pipeline's invariant and come back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (u9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (u9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (u9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (u9 m) c).Φ 0 from rfl]
    iintro ⟨Hp, -, Hr⟩
    iapply (phi_in4 (u9 m) c)
    isplitl [Hp]; · iexact Hp
    iexact Hr
  hout c := by
    rw [Pipeline.ownSems0_none, show (pdats m 4 c).Φ (Fin.last _) = (dat4 (u9 m) c).Φ (Fin.last cfg4.N) from rfl]
    iintro H
    ihave H' := (phi_out4 (u9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (u9 m c) (fun b => U10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V9 m (outs m) c) ∗ E (F := F) 4 c) ⊢ (reg4 m).pre c := by
  rw [V_eq9]; exact .rfl
theorem hpost4 (c : Dev nD) : (reg4 m).post c ⊢ iprop(StableHlo.held (c : Thread nD τ) (Pipeline.ucRefs τ sig) (V10 m (outs m) c) ∗ E (F := F) 5 c) := by
  rw [V_eq10]; exact .rfl

set_option backward.isDefEq.respectTransparency.types false in
/-- Region 5 over the thread state: entered from every unscoped buffer at U10, left at U11. Its arrays are split out of the unscoped buffers and put
    back at the exit contents; the generator register and the scoped buffers no window stages go into the pipeline's invariant and come back; nothing is owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (u10 m) c).loose
  hwaits := Pipeline.hwaits_of_owed_zero _ _ _ _ L lv 5 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec5 c (u10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (u10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (u10 m) c).Φ 0 from rfl]
    iintro ⟨Hp, -, Hr⟩
    iapply (phi_in5 (u10 m) c)
    isplitl [Hp]; · iexact Hp
    iexact Hr
  hout c := by
    rw [Pipeline.ownSems0_none, show (pdats m 5 c).Φ (Fin.last _) = (dat5 (u10 m) c).Φ (Fin.last cfg5.N) from rfl]
    iintro H
    ihave H' := (phi_out5 (u10 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (u10 m c) (fun b => U11 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V10 m (outs m) c) ∗ E (F := F) 5 c) ⊢ (reg5 m).pre c := by
  rw [V_eq10]; exact .rfl
theorem hpost5 (c : Dev nD) : (reg5 m).post c ⊢ iprop(StableHlo.held (c : Thread nD τ) (Pipeline.ucRefs τ sig) (V11 m (outs m) c) ∗ E (F := F) 6 c) := by
  rw [V_eq11]; exact .rfl

set_option backward.isDefEq.respectTransparency.types false in
/-- Region 6 over the thread state: entered from every unscoped buffer at U12, left at U13. Its arrays are split out of the unscoped buffers and put
    back at the exit contents; the generator register and the scoped buffers no window stages go into the pipeline's invariant and come back; nothing is owed. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (u12 m) c).loose
  hwaits := Pipeline.hwaits_of_owed_zero _ _ _ _ L lv 6 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec6 c (u12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (u12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (u12 m) c).Φ 0 from rfl]
    iintro ⟨Hp, -, Hr⟩
    iapply (phi_in6 (u12 m) c)
    isplitl [Hp]; · iexact Hp
    iexact Hr
  hout c := by
    rw [Pipeline.ownSems0_none, show (pdats m 6 c).Φ (Fin.last _) = (dat6 (u12 m) c).Φ (Fin.last cfg6.N) from rfl]
    iintro H
    ihave H' := (phi_out6 (u12 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (u12 m c) (fun b => U13 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre6 (c : Dev nD) : iprop(StableHlo.held (c : Thread nD τ) (Pipeline.ucRefs τ sig) (V12 m (outs m) c) ∗ E (F := F) 6 c) ⊢ (reg6 m).pre c := by
  rw [V_eq12]; exact .rfl
theorem hpost6 (c : Dev nD) : (reg6 m).post c ⊢ iprop(StableHlo.held (c : Thread nD τ) (Pipeline.ucRefs τ sig) (V13 m (outs m) c) ∗ E (F := F) 7 c) := by
  rw [V_eq13]; exact .rfl

set_option backward.isDefEq.respectTransparency.types false in
/-- Region 7 over the thread state: entered from every unscoped buffer at U14, left at U15. Its arrays are split out of the unscoped buffers and put
    back at the exit contents; the generator register and the scoped buffers no window stages go into the pipeline's invariant and come back; nothing is owed. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (u14 m) c).loose
  hwaits := Pipeline.hwaits_of_owed_zero _ _ _ _ L lv 7 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec7 c (u14 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (u14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (u14 m) c).Φ 0 from rfl]
    iintro ⟨Hp, -, Hr⟩
    iapply (phi_in7 (u14 m) c)
    isplitl [Hp]; · iexact Hp
    iexact Hr
  hout c := by
    rw [Pipeline.ownSems0_none, show (pdats m 7 c).Φ (Fin.last _) = (dat7 (u14 m) c).Φ (Fin.last cfg7.N) from rfl]
    iintro H
    ihave H' := (phi_out7 (u14 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (u14 m c) (fun b => U15 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre7 (c : Dev nD) : iprop(StableHlo.held (c : Thread nD τ) (Pipeline.ucRefs τ sig) (V14 m (outs m) c) ∗ E (F := F) 7 c) ⊢ (reg7 m).pre c := by
  rw [V_eq14]; exact .rfl
theorem hpost7 (c : Dev nD) : (reg7 m).post c ⊢ iprop(StableHlo.held (c : Thread nD τ) (Pipeline.ucRefs τ sig) (V15 m (outs m) c) ∗ E (F := F) 8 c) := by
  rw [V_eq15]; exact .rfl

set_option backward.isDefEq.respectTransparency.types false in
/-- Region 8 over the thread state: entered from every unscoped buffer at U16, left at U17. Its arrays are split out of the unscoped buffers and put
    back at the exit contents; the generator register and the scoped buffers no window stages go into the pipeline's invariant and come back; nothing is owed. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (u16 m) c).loose
  hwaits := Pipeline.hwaits_of_owed_zero _ _ _ _ L lv 8 fun _ _ => rfl
  pre c := iprop(StableHlo.held (c : Thread nD τ) (Pipeline.ucRefs τ sig) (U16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec8 c (u16 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (u16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (u16 m) c).Φ 0 from rfl]
    iintro ⟨Hp, -, Hr⟩
    iapply (phi_in8 (u16 m) c)
    isplitl [Hp]; · iexact Hp
    iexact Hr
  hout c := by
    rw [Pipeline.ownSems0_none, show (pdats m 8 c).Φ (Fin.last _) = (dat8 (u16 m) c).Φ (Fin.last cfg8.N) from rfl]
    iintro H
    ihave H' := (phi_out8 (u16 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (u16 m c) (fun b => U17 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre8 (c : Dev nD) : iprop(StableHlo.held (c : Thread nD τ) (Pipeline.ucRefs τ sig) (V16 m (outs m) c) ∗ E (F := F) 8 c) ⊢ (reg8 m).pre c := by
  rw [V_eq16]; exact .rfl
theorem hpost8 (c : Dev nD) : (reg8 m).post c ⊢ iprop(StableHlo.held (c : Thread nD τ) (Pipeline.ucRefs τ sig) (V17 m (outs m) c) ∗ E (F := F) 9 c) := by
  rw [V_eq17]; exact .rfl

set_option backward.isDefEq.respectTransparency.types false in
/-- Region 9 over the thread state: entered from every unscoped buffer at U17, left at U18. Its arrays are split out of the unscoped buffers and put
    back at the exit contents; the generator register and the scoped buffers no window stages go into the pipeline's invariant and come back; nothing is owed. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (u17 m) c).loose
  hwaits := Pipeline.hwaits_of_owed_zero _ _ _ _ L lv 9 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec9 c (u17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (u17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (u17 m) c).Φ 0 from rfl]
    iintro ⟨Hp, -, Hr⟩
    iapply (phi_in9 (u17 m) c)
    isplitl [Hp]; · iexact Hp
    iexact Hr
  hout c := by
    rw [Pipeline.ownSems0_none, show (pdats m 9 c).Φ (Fin.last _) = (dat9 (u17 m) c).Φ (Fin.last cfg9.N) from rfl]
    iintro H
    ihave H' := (phi_out9 (u17 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (u17 m c) (fun b => U18 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre9 (c : Dev nD) : iprop(StableHlo.held (c : Thread nD τ) (Pipeline.ucRefs τ sig) (V17 m (outs m) c) ∗ E (F := F) 9 c) ⊢ (reg9 m).pre c := by
  rw [V_eq17]; exact .rfl
theorem hpost9 (c : Dev nD) : (reg9 m).post c ⊢ iprop(StableHlo.held (c : Thread nD τ) (Pipeline.ucRefs τ sig) (V18 m (outs m) c) ∗ E (F := F) 10 c) := by
  rw [V_eq18]; exact .rfl

set_option backward.isDefEq.respectTransparency.types false in
/-- Region 10 over the thread state: entered from every unscoped buffer at U35, left at U36. Its arrays are split out of the unscoped buffers and put
    back at the exit contents; the generator register and the scoped buffers no window stages go into the pipeline's invariant and come back; nothing is owed. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (u35 m) c).loose
  hwaits := Pipeline.hwaits_of_owed_zero _ _ _ _ L lv 10 fun _ _ => rfl
  pre c := iprop(StableHlo.held (c : Thread nD τ) (Pipeline.ucRefs τ sig) (U35 m c) ∗ R c)
  post c := iprop(StableHlo.held (c : Thread nD τ) (Pipeline.ucRefs τ sig) (U36 m c) ∗ R c)
  X c := iprop(∃ r, prngReg c r)
  Y c := iprop(∃ r, prngReg c r)
  Z c := Pipeline.unscopedRest (Ix := Unit) (Name := ℕ) (U := UR sig nD τ) (Lvl := ℕ) spec10 c (u35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (u35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (u35 m) c).Φ 0 from rfl]
    iintro ⟨Hp, -, Hr⟩
    iapply (phi_in10 (u35 m) c)
    isplitl [Hp]; · iexact Hp
    iexact Hr
  hout c := by
    rw [Pipeline.ownSems0_none, show (pdats m 10 c).Φ (Fin.last _) = (dat10 (u35 m) c).Φ (Fin.last cfg10.N) from rfl]
    iintro H
    ihave H' := (phi_out10 (u35 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (u35 m c) (fun b => U36 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre10 (c : Dev nD) : iprop(StableHlo.held (c : Thread nD τ) (Pipeline.ucRefs τ sig) (V35 m (outs m) c) ∗ E (F := F) 10 c) ⊢ (reg10 m).pre c := by
  rw [V_eq35]; exact .rfl
theorem hpost10 (c : Dev nD) : (reg10 m).post c ⊢ iprop(StableHlo.held (c : Thread nD τ) (Pipeline.ucRefs τ sig) (V36 m (outs m) c) ∗ E (F := F) 11 c) := by
  rw [V_eq36]; exact .rfl

set_option backward.isDefEq.respectTransparency.types false in
/-- Region 11 over the thread state: entered from every unscoped buffer at U37, left at U38. Its arrays are split out of the unscoped buffers and put
    back at the exit contents; the generator register and the scoped buffers no window stages go into the pipeline's invariant and come back; nothing is owed. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (u37 m) c).loose
  hwaits := Pipeline.hwaits_of_owed_zero _ _ _ _ L lv 11 fun _ _ => rfl
  pre c := iprop(StableHlo.held (c : Thread nD τ) (Pipeline.ucRefs τ sig) (U37 m c) ∗ R c)
  post c := iprop(StableHlo.held (c : Thread nD τ) (Pipeline.ucRefs τ sig) (U38 m c) ∗ R c)
  X c := iprop(∃ r, prngReg c r)
  Y c := iprop(∃ r, prngReg c r)
  Z c := Pipeline.unscopedRest (Ix := Unit) (Name := ℕ) (U := UR sig nD τ) (Lvl := ℕ) spec11 c (u37 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (u37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (u37 m) c).Φ 0 from rfl]
    iintro ⟨Hp, -, Hr⟩
    iapply (phi_in11 (u37 m) c)
    isplitl [Hp]; · iexact Hp
    iexact Hr
  hout c := by
    rw [Pipeline.ownSems0_none, show (pdats m 11 c).Φ (Fin.last _) = (dat11 (u37 m) c).Φ (Fin.last cfg11.N) from rfl]
    iintro H
    ihave H' := (phi_out11 (u37 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (u37 m c) (fun b => U38 m c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre11 (c : Dev nD) : iprop(StableHlo.held (c : Thread nD τ) (Pipeline.ucRefs τ sig) (V37 m (outs m) c) ∗ E (F := F) 11 c) ⊢ (reg11 m).pre c := by
  rw [V_eq37]; exact .rfl
theorem hpost11 (c : Dev nD) : (reg11 m).post c ⊢ iprop(StableHlo.held (c : Thread nD τ) (Pipeline.ucRefs τ sig) (V38 m (outs m) c) ∗ E (F := F) 12 c) := by
  rw [V_eq38]; exact .rfl

set_option backward.isDefEq.respectTransparency.types false in
/-- Region 12 over the thread state: entered from every unscoped buffer at U39, left at U40. Its arrays are split out of the unscoped buffers and put
    back at the exit contents; the generator register and the scoped buffers no window stages go into the pipeline's invariant and come back; nothing is owed. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (u39 m) c).loose
  hwaits := Pipeline.hwaits_of_owed_zero _ _ _ _ L lv 12 fun _ _ => rfl
  pre c := iprop(StableHlo.held (c : Thread nD τ) (Pipeline.ucRefs τ sig) (U39 m c) ∗ R c)
  post c := iprop(StableHlo.held (c : Thread nD τ) (Pipeline.ucRefs τ sig) (U40 m c) ∗ R c)
  X c := iprop(∃ r, prngReg c r)
  Y c := iprop(∃ r, prngReg c r)
  Z c := Pipeline.unscopedRest (Ix := Unit) (Name := ℕ) (U := UR sig nD τ) (Lvl := ℕ) spec12 c (u39 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (u39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (u39 m) c).Φ 0 from rfl]
    iintro ⟨Hp, -, Hr⟩
    iapply (phi_in12 (u39 m) c)
    isplitl [Hp]; · iexact Hp
    iexact Hr
  hout c := by
    rw [Pipeline.ownSems0_none, show (pdats m 12 c).Φ (Fin.last _) = (dat12 (u39 m) c).Φ (Fin.last cfg12.N) from rfl]
    iintro H
    ihave H' := (phi_out12 (u39 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (u39 m c) (fun b => U40 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre12 (c : Dev nD) : iprop(StableHlo.held (c : Thread nD τ) (Pipeline.ucRefs τ sig) (V39 m (outs m) c) ∗ E (F := F) 12 c) ⊢ (reg12 m).pre c := by
  rw [V_eq39]; exact .rfl
theorem hpost12 (c : Dev nD) : (reg12 m).post c ⊢ iprop(StableHlo.held (c : Thread nD τ) (Pipeline.ucRefs τ sig) (V40 m (outs m) c) ∗ E (F := F) 13 c) := by
  rw [V_eq40]; exact .rfl

set_option backward.isDefEq.respectTransparency.types false in
/-- Region 13 over the thread state: entered from every unscoped buffer at U41, left at U42. Its arrays are split out of the unscoped buffers and put
    back at the exit contents; the generator register and the scoped buffers no window stages go into the pipeline's invariant and come back; nothing is owed. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (u41 m) c).loose
  hwaits := Pipeline.hwaits_of_owed_zero _ _ _ _ L lv 13 fun _ _ => rfl
  pre c := iprop(StableHlo.held (c : Thread nD τ) (Pipeline.ucRefs τ sig) (U41 m c) ∗ R c)
  post c := iprop(StableHlo.held (c : Thread nD τ) (Pipeline.ucRefs τ sig) (U42 m c) ∗ R c)
  X c := iprop(∃ r, prngReg c r)
  Y c := iprop(∃ r, prngReg c r)
  Z c := Pipeline.unscopedRest (Ix := Unit) (Name := ℕ) (U := UR sig nD τ) (Lvl := ℕ) spec13 c (u41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (u41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (u41 m) c).Φ 0 from rfl]
    iintro ⟨Hp, -, Hr⟩
    iapply (phi_in13 (u41 m) c)
    isplitl [Hp]; · iexact Hp
    iexact Hr
  hout c := by
    rw [Pipeline.ownSems0_none, show (pdats m 13 c).Φ (Fin.last _) = (dat13 (u41 m) c).Φ (Fin.last cfg13.N) from rfl]
    iintro H
    ihave H' := (phi_out13 (u41 m) c) $$ H
    icases H' with ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (u41 m c) (fun b => U42 m c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre13 (c : Dev nD) : iprop(StableHlo.held (c : Thread nD τ) (Pipeline.ucRefs τ sig) (V41 m (outs m) c) ∗ E (F := F) 13 c) ⊢ (reg13 m).pre c := by
  rw [V_eq41]; exact .rfl
theorem hpost13 (c : Dev nD) : (reg13 m).post c ⊢ iprop(StableHlo.held (c : Thread nD τ) (Pipeline.ucRefs τ sig) (V42 m (outs m) c) ∗ E (F := F) 14 c) := by
  rw [V_eq42]; exact .rfl

set_option backward.isDefEq.respectTransparency.types false in
/-- Region 14 over the thread state: entered from every unscoped buffer at U43, left at U44. Its arrays are split out of the unscoped buffers and put
    back at the exit contents; the generator register and the scoped buffers no window stages go into the pipeline's invariant and come back; nothing is owed. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (u43 m) c).loose
  hwaits := Pipeline.hwaits_of_owed_zero _ _ _ _ L lv 14 fun _ _ => rfl
  pre c := iprop(StableHlo.held (c : Thread nD τ) (Pipeline.ucRefs τ sig) (U43 m c) ∗ R c)
  post c := iprop(StableHlo.held (c : Thread nD τ) (Pipeline.ucRefs τ sig) (U44 m c) ∗ R c)
  X c := iprop(∃ r, prngReg c r)
  Y c := iprop(∃ r, prngReg c r)
  Z c := Pipeline.unscopedRest (Ix := Unit) (Name := ℕ) (U := UR sig nD τ) (Lvl := ℕ) spec14 c (u43 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (u43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = (dat14 (u43 m) c).Φ 0 from rfl]
    iintro ⟨Hp, -, Hr⟩
    iapply (phi_in14 (u43 m) c)
    isplitl [Hp]; · iexact Hp
    iexact Hr
  hout c := by
    rw [Pipeline.ownSems0_none, show (pdats m 14 c).Φ (Fin.last _) = (dat14 (u43 m) c).Φ (Fin.last cfg14.N) from rfl]
    iintro H
    ihave H' := (phi_out14 (u43 m) c) $$ H
    icases H' with ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (u43 m c) (fun b => U44 m c b) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre14 (c : Dev nD) : iprop(StableHlo.held (c : Thread nD τ) (Pipeline.ucRefs τ sig) (V43 m (outs m) c) ∗ E (F := F) 14 c) ⊢ (reg14 m).pre c := by
  rw [V_eq43]; exact .rfl
theorem hpost14 (c : Dev nD) : (reg14 m).post c ⊢ iprop(StableHlo.held (c : Thread nD τ) (Pipeline.ucRefs τ sig) (V44 m (outs m) c) ∗ E (F := F) 15 c) := by
  rw [V_eq44]; exact .rfl

set_option backward.isDefEq.respectTransparency.types false in
/-- Region 15 over the thread state: entered from every unscoped buffer at U44, left at U45. Its arrays are split out of the unscoped buffers and put
    back at the exit contents; the generator register and the scoped buffers no window stages go into the pipeline's invariant and come back; nothing is owed. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (u44 m) c).loose
  hwaits := Pipeline.hwaits_of_owed_zero _ _ _ _ L lv 15 fun _ _ => rfl
  pre c := iprop(StableHlo.held (c : Thread nD τ) (Pipeline.ucRefs τ sig) (U44 m c) ∗ R c)
  post c := iprop(StableHlo.held (c : Thread nD τ) (Pipeline.ucRefs τ sig) (U45 m c) ∗ R c)
  X c := iprop(∃ r, prngReg c r)
  Y c := iprop(∃ r, prngReg c r)
  Z c := Pipeline.unscopedRest (Ix := Unit) (Name := ℕ) (U := UR sig nD τ) (Lvl := ℕ) spec15 c (u44 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (u44 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = (dat15 (u44 m) c).Φ 0 from rfl]
    iintro ⟨Hp, -, Hr⟩
    iapply (phi_in15 (u44 m) c)
    isplitl [Hp]; · iexact Hp
    iexact Hr
  hout c := by
    rw [Pipeline.ownSems0_none, show (pdats m 15 c).Φ (Fin.last _) = (dat15 (u44 m) c).Φ (Fin.last cfg15.N) from rfl]
    iintro H
    ihave H' := (phi_out15 (u44 m) c) $$ H
    icases H' with ⟨Hp, Hr⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (u44 m c) (fun b => U45 m c b) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre15 (c : Dev nD) : iprop(StableHlo.held (c : Thread nD τ) (Pipeline.ucRefs τ sig) (V44 m (outs m) c) ∗ E (F := F) 15 c) ⊢ (reg15 m).pre c := by
  rw [V_eq44]; exact .rfl
theorem hpost15 (c : Dev nD) : (reg15 m).post c ⊢ iprop(StableHlo.held (c : Thread nD τ) (Pipeline.ucRefs τ sig) (V45 m (outs m) c) ∗ E (F := F) 16 c) := by
  rw [V_eq45]; exact .rfl

set_option backward.isDefEq.respectTransparency.types false in
/-- Region 16 over the thread state: entered from every unscoped buffer at U46, left at U47. Its arrays are split out of the unscoped buffers and put
    back at the exit contents; the generator register and the scoped buffers no window stages go into the pipeline's invariant and come back; nothing is owed. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (u46 m) c).loose
  hwaits := Pipeline.hwaits_of_owed_zero _ _ _ _ L lv 16 fun _ _ => rfl
  pre c := iprop(StableHlo.held (c : Thread nD τ) (Pipeline.ucRefs τ sig) (U46 m c) ∗ R c)
  post c := iprop(StableHlo.held (c : Thread nD τ) (Pipeline.ucRefs τ sig) (U47 m c) ∗ R c)
  X c := iprop(∃ r, prngReg c r)
  Y c := iprop(∃ r, prngReg c r)
  Z c := Pipeline.unscopedRest (Ix := Unit) (Name := ℕ) (U := UR sig nD τ) (Lvl := ℕ) spec16 c (u46 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (u46 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = (dat16 (u46 m) c).Φ 0 from rfl]
    iintro ⟨Hp, -, Hr⟩
    iapply (phi_in16 (u46 m) c)
    isplitl [Hp]; · iexact Hp
    iexact Hr
  hout c := by
    rw [Pipeline.ownSems0_none, show (pdats m 16 c).Φ (Fin.last _) = (dat16 (u46 m) c).Φ (Fin.last cfg16.N) from rfl]
    iintro H
    ihave H' := (phi_out16 (u46 m) c) $$ H
    icases H' with ⟨Hp, Hr⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (u46 m c) (fun b => U47 m c b) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre16 (c : Dev nD) : iprop(StableHlo.held (c : Thread nD τ) (Pipeline.ucRefs τ sig) (V46 m (outs m) c) ∗ E (F := F) 16 c) ⊢ (reg16 m).pre c := by
  rw [V_eq46]; exact .rfl
theorem hpost16 (c : Dev nD) : (reg16 m).post c ⊢ iprop(StableHlo.held (c : Thread nD τ) (Pipeline.ucRefs τ sig) (V47 m (outs m) c) ∗ E (F := F) 17 c) := by
  rw [V_eq47]; exact .rfl

set_option backward.isDefEq.respectTransparency.types false in
/-- Region 17 over the thread state: entered from every unscoped buffer at U48, left at U49. Its arrays are split out of the unscoped buffers and put
    back at the exit contents; the generator register and the scoped buffers no window stages go into the pipeline's invariant and come back; nothing is owed. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (u48 m) c).loose
  hwaits := Pipeline.hwaits_of_owed_zero _ _ _ _ L lv 17 fun _ _ => rfl
  pre c := iprop(StableHlo.held (c : Thread nD τ) (Pipeline.ucRefs τ sig) (U48 m c) ∗ R c)
  post c := iprop(StableHlo.held (c : Thread nD τ) (Pipeline.ucRefs τ sig) (U49 m c) ∗ R c)
  X c := iprop(∃ r, prngReg c r)
  Y c := iprop(∃ r, prngReg c r)
  Z c := Pipeline.unscopedRest (Ix := Unit) (Name := ℕ) (U := UR sig nD τ) (Lvl := ℕ) spec17 c (u48 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (u48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = (dat17 (u48 m) c).Φ 0 from rfl]
    iintro ⟨Hp, -, Hr⟩
    iapply (phi_in17 (u48 m) c)
    isplitl [Hp]; · iexact Hp
    iexact Hr
  hout c := by
    rw [Pipeline.ownSems0_none, show (pdats m 17 c).Φ (Fin.last _) = (dat17 (u48 m) c).Φ (Fin.last cfg17.N) from rfl]
    iintro H
    ihave H' := (phi_out17 (u48 m) c) $$ H
    icases H' with ⟨Hp, Hr⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (u48 m c) (fun b => U49 m c b) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre17 (c : Dev nD) : iprop(StableHlo.held (c : Thread nD τ) (Pipeline.ucRefs τ sig) (V48 m (outs m) c) ∗ E (F := F) 17 c) ⊢ (reg17 m).pre c := by
  rw [V_eq48]; exact .rfl
theorem hpost17 (c : Dev nD) : (reg17 m).post c ⊢ iprop(StableHlo.held (c : Thread nD τ) (Pipeline.ucRefs τ sig) (V49 m (outs m) c) ∗ E (F := F) 18 c) := by
  rw [V_eq49]; exact .rfl

set_option backward.isDefEq.respectTransparency.types false in
/-- Region 18 over the thread state: entered from every unscoped buffer at U50, left at U51. Its arrays are split out of the unscoped buffers and put
    back at the exit contents; the generator register and the scoped buffers no window stages go into the pipeline's invariant and come back; nothing is owed. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (u50 m) c).loose
  hwaits := Pipeline.hwaits_of_owed_zero _ _ _ _ L lv 18 fun _ _ => rfl
  pre c := iprop(StableHlo.held (c : Thread nD τ) (Pipeline.ucRefs τ sig) (U50 m c) ∗ R c)
  post c := iprop(StableHlo.held (c : Thread nD τ) (Pipeline.ucRefs τ sig) (U51 m c) ∗ R c)
  X c := iprop(∃ r, prngReg c r)
  Y c := iprop(∃ r, prngReg c r)
  Z c := Pipeline.unscopedRest (Ix := Unit) (Name := ℕ) (U := UR sig nD τ) (Lvl := ℕ) spec18 c (u50 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (u50 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = (dat18 (u50 m) c).Φ 0 from rfl]
    iintro ⟨Hp, -, Hr⟩
    iapply (phi_in18 (u50 m) c)
    isplitl [Hp]; · iexact Hp
    iexact Hr
  hout c := by
    rw [Pipeline.ownSems0_none, show (pdats m 18 c).Φ (Fin.last _) = (dat18 (u50 m) c).Φ (Fin.last cfg18.N) from rfl]
    iintro H
    ihave H' := (phi_out18 (u50 m) c) $$ H
    icases H' with ⟨Hp, Hr⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (u50 m c) (fun b => U51 m c b) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre18 (c : Dev nD) : iprop(StableHlo.held (c : Thread nD τ) (Pipeline.ucRefs τ sig) (V50 m (outs m) c) ∗ E (F := F) 18 c) ⊢ (reg18 m).pre c := by
  rw [V_eq50]; exact .rfl
theorem hpost18 (c : Dev nD) : (reg18 m).post c ⊢ iprop(StableHlo.held (c : Thread nD τ) (Pipeline.ucRefs τ sig) (V51 m (outs m) c) ∗ E (F := F) 19 c) := by
  rw [V_eq51]; exact .rfl

set_option backward.isDefEq.respectTransparency.types false in
/-- Region 19 over the thread state: entered from every unscoped buffer at U51, left at U52. Its arrays are split out of the unscoped buffers and put
    back at the exit contents; the generator register and the scoped buffers no window stages go into the pipeline's invariant and come back; nothing is owed. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (u51 m) c).loose
  hwaits := Pipeline.hwaits_of_owed_zero _ _ _ _ L lv 19 fun _ _ => rfl
  pre c := iprop(StableHlo.held (c : Thread nD τ) (Pipeline.ucRefs τ sig) (U51 m c) ∗ R c)
  post c := iprop(StableHlo.held (c : Thread nD τ) (Pipeline.ucRefs τ sig) (U52 m c) ∗ R c)
  X c := iprop(∃ r, prngReg c r)
  Y c := iprop(∃ r, prngReg c r)
  Z c := Pipeline.unscopedRest (Ix := Unit) (Name := ℕ) (U := UR sig nD τ) (Lvl := ℕ) spec19 c (u51 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (u51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = (dat19 (u51 m) c).Φ 0 from rfl]
    iintro ⟨Hp, -, Hr⟩
    iapply (phi_in19 (u51 m) c)
    isplitl [Hp]; · iexact Hp
    iexact Hr
  hout c := by
    rw [Pipeline.ownSems0_none, show (pdats m 19 c).Φ (Fin.last _) = (dat19 (u51 m) c).Φ (Fin.last cfg19.N) from rfl]
    iintro H
    ihave H' := (phi_out19 (u51 m) c) $$ H
    icases H' with ⟨Hp, Hr⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (u51 m c) (fun b => U52 m c b) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre19 (c : Dev nD) : iprop(StableHlo.held (c : Thread nD τ) (Pipeline.ucRefs τ sig) (V51 m (outs m) c) ∗ E (F := F) 19 c) ⊢ (reg19 m).pre c := by
  rw [V_eq51]; exact .rfl
theorem hpost19 (c : Dev nD) : (reg19 m).post c ⊢ iprop(StableHlo.held (c : Thread nD τ) (Pipeline.ucRefs τ sig) (V52 m (outs m) c) ∗ E (F := F) 20 c) := by
  rw [V_eq52]; exact .rfl

/-! ## The launch -/

/-- The launch's ghost state: the staging cells' initial tallies, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
/-- The first rest state, on every core at once: the generator register as launched, nothing owed. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO
theorem hE20 (c : Dev nD) : E (F := F) 20 c ⊢ (iprop(∃ W, owes (c : Thread nD τ) (0 : CellTallies nD τ sig Unit) W) : sProp 𝕄) := by
  iintro ⟨-, H⟩; iexact H

/-! ## The frame and the run -/

/-- The frame claim at any F: from any memory with zero counters every weakly fair execution of @main terminates, nothing faulting, and every
    argument array ends as launched — the conditional frame at the regions' records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ (outs m) (pdats m) 0 (fun _ => (BI.emp : sProp 𝕄)) _ hu₀ E (hE0 ρ) hE20 (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m) (reg10 m) (hpre10 m) (hpost10 m) (reg11 m) (hpre11 m) (hpost11 m) (reg12 m) (hpre12 m) (hpost12 m) (reg13 m) (hpre13 m) (hpost13 m) (reg14 m) (hpre14 m) (hpost14 m) (reg15 m) (hpre15 m) (hpost15 m) (reg16 m) (hpre16 m) (hpost16 m) (reg17 m) (hpre17 m) (hpost17 m) (reg18 m) (hpre18 m) (hpost18 m) (reg19 m) (hpre19 m) (hpost19 m)

/-- The run with every unscoped buffer named at the end: what the value claim reads its results from. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = U53 m c b) :=
  (θ_run defs _ _).mono (fun _ h c b hb => (h c b hb).trans (congrFun (V_eq53 m c) b))
    (run_cond m emb₁ () 𝒱₀ L lv (fun _ _ => rfl) ρ (outs m) (pdats m) 0 (fun _ => (BI.emp : sProp 𝕄)) _ hu₀ E (hE0 ρ) hE20 (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m) (reg10 m) (hpre10 m) (hpost10 m) (reg11 m) (hpre11 m) (hpost11 m) (reg12 m) (hpre12 m) (hpost12 m) (reg13 m) (hpre13 m) (hpost13 m) (reg14 m) (hpre14 m) (hpost14 m) (reg15 m) (hpre15 m) (hpost15 m) (reg16 m) (hpre16 m) (hpost16 m) (reg17 m) (hpre17 m) (hpost17 m) (reg18 m) (hpre18 m) (hpost18 m) (reg19 m) (hpre19 m) (hpost19 m))

end Cert.KernelIdeal.Hand

end
-- ==== Proof.KI.Walk.lean ====
/-
  Which item of @main a buffer's contents come from. Between two items every unscoped buffer is held at a valuation U_j; an item changes only
  the buffers it writes (a host stretch: the results of its operations; a kernel region: its output array). So a buffer read at U_j holds what the last
  item before j that writes it left there — or the launch memory, if none does. One lemma per (item, buffer) pair the value proof reads.
-/
import proofs.«422120_j65652870087589_3_alg».proof.Proof.KI.Fold

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ)

/-! ## A host stretch leaves alone what it does not write -/

theorem U1_of (c : Dev nD) (r : Ref sig .tc) (h : r ∉ hostOps0_W) : U1 m c r = U0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U7_of (c : Dev nD) (r : Ref sig .tc) (h : r ∉ hostOps3_W) : U7 m c r = U6 m c r :=
  StableHlo.after_of_writes_sub hostOps3 _ hostOps3_writes h
theorem U9_of (c : Dev nD) (r : Ref sig .tc) (h : r ∉ hostOps4_W) : U9 m c r = U8 m c r :=
  StableHlo.after_of_writes_sub hostOps4 _ hostOps4_writes h
theorem U12_of (c : Dev nD) (r : Ref sig .tc) (h : r ∉ hostOps6_W) : U12 m c r = U11 m c r :=
  StableHlo.after_of_writes_sub hostOps6 _ hostOps6_writes h
theorem U14_of (c : Dev nD) (r : Ref sig .tc) (h : r ∉ hostOps7_W) : U14 m c r = U13 m c r :=
  StableHlo.after_of_writes_sub hostOps7 _ hostOps7_writes h
theorem U16_of (c : Dev nD) (r : Ref sig .tc) (h : r ∉ hostOps8_W) : U16 m c r = U15 m c r :=
  StableHlo.after_of_writes_sub hostOps8 _ hostOps8_writes h
theorem U19_of (c : Dev nD) (r : Ref sig .tc) (h : r ∉ hostOps10_W) : U19 m c r = U18 m c r :=
  StableHlo.after_of_writes_sub hostOps10 _ hostOps10_writes h
theorem U20_of (c : Dev nD) (r : Ref sig .tc) (h : r ∉ hostOps10_1_W) : U20 m c r = U19 m c r :=
  StableHlo.after_of_writes_sub hostOps10_1 _ hostOps10_1_writes h
theorem U21_of (c : Dev nD) (r : Ref sig .tc) (h : r ∉ hostOps10_2_W) : U21 m c r = U20 m c r :=
  StableHlo.after_of_writes_sub hostOps10_2 _ hostOps10_2_writes h
theorem U22_of (c : Dev nD) (r : Ref sig .tc) (h : r ∉ hostOps10_3_W) : U22 m c r = U21 m c r :=
  StableHlo.after_of_writes_sub hostOps10_3 _ hostOps10_3_writes h
theorem U23_of (c : Dev nD) (r : Ref sig .tc) (h : r ∉ hostOps10_4_W) : U23 m c r = U22 m c r :=
  StableHlo.after_of_writes_sub hostOps10_4 _ hostOps10_4_writes h
theorem U24_of (c : Dev nD) (r : Ref sig .tc) (h : r ∉ hostOps10_5_W) : U24 m c r = U23 m c r :=
  StableHlo.after_of_writes_sub hostOps10_5 _ hostOps10_5_writes h
theorem U25_of (c : Dev nD) (r : Ref sig .tc) (h : r ∉ hostOps10_6_W) : U25 m c r = U24 m c r :=
  StableHlo.after_of_writes_sub hostOps10_6 _ hostOps10_6_writes h
theorem U26_of (c : Dev nD) (r : Ref sig .tc) (h : r ∉ hostOps10_7_W) : U26 m c r = U25 m c r :=
  StableHlo.after_of_writes_sub hostOps10_7 _ hostOps10_7_writes h
theorem U27_of (c : Dev nD) (r : Ref sig .tc) (h : r ∉ hostOps10_8_W) : U27 m c r = U26 m c r :=
  StableHlo.after_of_writes_sub hostOps10_8 _ hostOps10_8_writes h
theorem U28_of (c : Dev nD) (r : Ref sig .tc) (h : r ∉ hostOps10_9_W) : U28 m c r = U27 m c r :=
  StableHlo.after_of_writes_sub hostOps10_9 _ hostOps10_9_writes h
theorem U29_of (c : Dev nD) (r : Ref sig .tc) (h : r ∉ hostOps10_10_W) : U29 m c r = U28 m c r :=
  StableHlo.after_of_writes_sub hostOps10_10 _ hostOps10_10_writes h
theorem U30_of (c : Dev nD) (r : Ref sig .tc) (h : r ∉ hostOps10_11_W) : U30 m c r = U29 m c r :=
  StableHlo.after_of_writes_sub hostOps10_11 _ hostOps10_11_writes h
theorem U31_of (c : Dev nD) (r : Ref sig .tc) (h : r ∉ hostOps10_12_W) : U31 m c r = U30 m c r :=
  StableHlo.after_of_writes_sub hostOps10_12 _ hostOps10_12_writes h
theorem U32_of (c : Dev nD) (r : Ref sig .tc) (h : r ∉ hostOps10_13_W) : U32 m c r = U31 m c r :=
  StableHlo.after_of_writes_sub hostOps10_13 _ hostOps10_13_writes h
theorem U33_of (c : Dev nD) (r : Ref sig .tc) (h : r ∉ hostOps10_14_W) : U33 m c r = U32 m c r :=
  StableHlo.after_of_writes_sub hostOps10_14 _ hostOps10_14_writes h
theorem U34_of (c : Dev nD) (r : Ref sig .tc) (h : r ∉ hostOps10_15_W) : U34 m c r = U33 m c r :=
  StableHlo.after_of_writes_sub hostOps10_15 _ hostOps10_15_writes h
theorem U35_of (c : Dev nD) (r : Ref sig .tc) (h : r ∉ hostOps10_16_W) : U35 m c r = U34 m c r :=
  StableHlo.after_of_writes_sub hostOps10_16 _ hostOps10_16_writes h
theorem U37_of (c : Dev nD) (r : Ref sig .tc) (h : r ∉ hostOps11_W) : U37 m c r = U36 m c r :=
  StableHlo.after_of_writes_sub hostOps11 _ hostOps11_writes h
theorem U39_of (c : Dev nD) (r : Ref sig .tc) (h : r ∉ hostOps12_W) : U39 m c r = U38 m c r :=
  StableHlo.after_of_writes_sub hostOps12 _ hostOps12_writes h
theorem U41_of (c : Dev nD) (r : Ref sig .tc) (h : r ∉ hostOps13_W) : U41 m c r = U40 m c r :=
  StableHlo.after_of_writes_sub hostOps13 _ hostOps13_writes h
theorem U43_of (c : Dev nD) (r : Ref sig .tc) (h : r ∉ hostOps14_W) : U43 m c r = U42 m c r :=
  StableHlo.after_of_writes_sub hostOps14 _ hostOps14_writes h
theorem U46_of (c : Dev nD) (r : Ref sig .tc) (h : r ∉ hostOps16_W) : U46 m c r = U45 m c r :=
  StableHlo.after_of_writes_sub hostOps16 _ hostOps16_writes h
theorem U48_of (c : Dev nD) (r : Ref sig .tc) (h : r ∉ hostOps17_W) : U48 m c r = U47 m c r :=
  StableHlo.after_of_writes_sub hostOps17 _ hostOps17_writes h
theorem U50_of (c : Dev nD) (r : Ref sig .tc) (h : r ∉ hostOps18_W) : U50 m c r = U49 m c r :=
  StableHlo.after_of_writes_sub hostOps18 _ hostOps18_writes h
theorem U53_of (c : Dev nD) (r : Ref sig .tc) (h : r ∉ hostOps20_W) : U53 m c r = U52 m c r :=
  StableHlo.after_of_writes_sub hostOps20 _ hostOps20_writes h

/-! ## Where each buffer read comes from -/

/-- main_arg0 at item 1 is as item 0 left it (the launch memory). -/
theorem walk1_main_arg0 (c : Dev nD) : U1 m c main_arg0 = U0 m c main_arg0 :=
  (U1_of m c main_arg0 (by decide))
/-- main_arg3 at item 1 is as item 0 left it (the launch memory). -/
theorem walk1_main_arg3 (c : Dev nD) : U1 m c main_arg3 = U0 m c main_arg3 :=
  (U1_of m c main_arg3 (by decide))
/-- main_v8 at item 1 is as item 1 left it (the host stretch hostOps0). -/
theorem walk1_main_v8 (c : Dev nD) : U1 m c main_v8 = U1 m c main_v8 :=
  rfl
/-- main_arg5 at item 1 is as item 0 left it (the launch memory). -/
theorem walk1_main_arg5 (c : Dev nD) : U1 m c main_arg5 = U0 m c main_arg5 :=
  (U1_of m c main_arg5 (by decide))
/-- main_v9 at item 1 is as item 1 left it (the host stretch hostOps0). -/
theorem walk1_main_v9 (c : Dev nD) : U1 m c main_v9 = U1 m c main_v9 :=
  rfl
/-- main_arg1 at item 3 is as item 0 left it (the launch memory). -/
theorem walk3_main_arg1 (c : Dev nD) : U3 m c main_arg1 = U0 m c main_arg1 :=
  (U3_of m c main_arg1 (by decide)).trans <| (U2_of m c main_arg1 (by decide)).trans <| (U1_of m c main_arg1 (by decide))
/-- main_arg7 at item 3 is as item 0 left it (the launch memory). -/
theorem walk3_main_arg7 (c : Dev nD) : U3 m c main_arg7 = U0 m c main_arg7 :=
  (U3_of m c main_arg7 (by decide)).trans <| (U2_of m c main_arg7 (by decide)).trans <| (U1_of m c main_arg7 (by decide))
/-- main_v11 at item 3 is as item 3 left it (the host stretch hostOps1). -/
theorem walk3_main_v11 (c : Dev nD) : U3 m c main_v11 = U3 m c main_v11 :=
  rfl
/-- main_arg9 at item 3 is as item 0 left it (the launch memory). -/
theorem walk3_main_arg9 (c : Dev nD) : U3 m c main_arg9 = U0 m c main_arg9 :=
  (U3_of m c main_arg9 (by decide)).trans <| (U2_of m c main_arg9 (by decide)).trans <| (U1_of m c main_arg9 (by decide))
/-- main_v12 at item 3 is as item 3 left it (the host stretch hostOps1). -/
theorem walk3_main_v12 (c : Dev nD) : U3 m c main_v12 = U3 m c main_v12 :=
  rfl
/-- main_v4 at item 5 is as item 1 left it (the host stretch hostOps0). -/
theorem walk5_main_v4 (c : Dev nD) : U5 m c main_v4 = U1 m c main_v4 :=
  (U5_of m c main_v4 (by decide)).trans <| (U4_of m c main_v4 (by decide)).trans <| (U3_of m c main_v4 (by decide)).trans <| (U2_of m c main_v4 (by decide))
/-- main_v5 at item 5 is as item 1 left it (the host stretch hostOps0). -/
theorem walk5_main_v5 (c : Dev nD) : U5 m c main_v5 = U1 m c main_v5 :=
  (U5_of m c main_v5 (by decide)).trans <| (U4_of m c main_v5 (by decide)).trans <| (U3_of m c main_v5 (by decide)).trans <| (U2_of m c main_v5 (by decide))
/-- main_v13 at item 5 is as item 4 left it (region output). -/
theorem walk5_main_v13 (c : Dev nD) : U5 m c main_v13 = U4 m c main_v13 :=
  (U5_of m c main_v13 (by decide))
/-- main_v15 at item 5 is as item 5 left it (the host stretch hostOps2). -/
theorem walk5_main_v15 (c : Dev nD) : U5 m c main_v15 = U5 m c main_v15 :=
  rfl
/-- main_v22 at item 5 is as item 5 left it (the host stretch hostOps2). -/
theorem walk5_main_v22 (c : Dev nD) : U5 m c main_v22 = U5 m c main_v22 :=
  rfl
/-- main_v19 at item 5 is as item 5 left it (the host stretch hostOps2). -/
theorem walk5_main_v19 (c : Dev nD) : U5 m c main_v19 = U5 m c main_v19 :=
  rfl
/-- main_v23 at item 5 is as item 5 left it (the host stretch hostOps2). -/
theorem walk5_main_v23 (c : Dev nD) : U5 m c main_v23 = U5 m c main_v23 :=
  rfl
/-- main_v10 at item 5 is as item 2 left it (region output). -/
theorem walk5_main_v10 (c : Dev nD) : U5 m c main_v10 = U2 m c main_v10 :=
  (U5_of m c main_v10 (by decide)).trans <| (U4_of m c main_v10 (by decide)).trans <| (U3_of m c main_v10 (by decide))
/-- main_v10 at item 7 is as item 2 left it (region output). -/
theorem walk7_main_v10 (c : Dev nD) : U7 m c main_v10 = U2 m c main_v10 :=
  (U7_of m c main_v10 (by decide)).trans <| (U6_of m c main_v10 (by decide)).trans <| (U5_of m c main_v10 (by decide)).trans <| (U4_of m c main_v10 (by decide)).trans <| (U3_of m c main_v10 (by decide))
/-- main_v26 at item 7 is as item 7 left it (the host stretch hostOps3). -/
theorem walk7_main_v26 (c : Dev nD) : U7 m c main_v26 = U7 m c main_v26 :=
  rfl
/-- main_v29 at item 7 is as item 7 left it (the host stretch hostOps3). -/
theorem walk7_main_v29 (c : Dev nD) : U7 m c main_v29 = U7 m c main_v29 :=
  rfl
/-- main_v10 at item 9 is as item 2 left it (region output). -/
theorem walk9_main_v10 (c : Dev nD) : U9 m c main_v10 = U2 m c main_v10 :=
  (U9_of m c main_v10 (by decide)).trans <| (U8_of m c main_v10 (by decide)).trans <| (U7_of m c main_v10 (by decide)).trans <| (U6_of m c main_v10 (by decide)).trans <| (U5_of m c main_v10 (by decide)).trans <| (U4_of m c main_v10 (by decide)).trans <| (U3_of m c main_v10 (by decide))
/-- main_v32 at item 9 is as item 9 left it (the host stretch hostOps4). -/
theorem walk9_main_v32 (c : Dev nD) : U9 m c main_v32 = U9 m c main_v32 :=
  rfl
/-- main_v35 at item 9 is as item 9 left it (the host stretch hostOps4). -/
theorem walk9_main_v35 (c : Dev nD) : U9 m c main_v35 = U9 m c main_v35 :=
  rfl
/-- main_v6 at item 10 is as item 1 left it (the host stretch hostOps0). -/
theorem walk10_main_v6 (c : Dev nD) : U10 m c main_v6 = U1 m c main_v6 :=
  (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
/-- main_v7 at item 10 is as item 1 left it (the host stretch hostOps0). -/
theorem walk10_main_v7 (c : Dev nD) : U10 m c main_v7 = U1 m c main_v7 :=
  (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
/-- main_v30 at item 10 is as item 8 left it (region output). -/
theorem walk10_main_v30 (c : Dev nD) : U10 m c main_v30 = U8 m c main_v30 :=
  (U10_of m c main_v30 (by decide)).trans <| (U9_of m c main_v30 (by decide))
/-- main_v36 at item 10 is as item 10 left it (region output). -/
theorem walk10_main_v36 (c : Dev nD) : U10 m c main_v36 = U10 m c main_v36 :=
  rfl
/-- main_v13 at item 10 is as item 4 left it (region output). -/
theorem walk10_main_v13 (c : Dev nD) : U10 m c main_v13 = U4 m c main_v13 :=
  (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide))
/-- main_v4 at item 12 is as item 1 left it (the host stretch hostOps0). -/
theorem walk12_main_v4 (c : Dev nD) : U12 m c main_v4 = U1 m c main_v4 :=
  (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
/-- main_v5 at item 12 is as item 1 left it (the host stretch hostOps0). -/
theorem walk12_main_v5 (c : Dev nD) : U12 m c main_v5 = U1 m c main_v5 :=
  (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
/-- main_v37 at item 12 is as item 11 left it (region output). -/
theorem walk12_main_v37 (c : Dev nD) : U12 m c main_v37 = U11 m c main_v37 :=
  (U12_of m c main_v37 (by decide))
/-- main_v39 at item 12 is as item 12 left it (the host stretch hostOps6). -/
theorem walk12_main_v39 (c : Dev nD) : U12 m c main_v39 = U12 m c main_v39 :=
  rfl
/-- main_v46 at item 12 is as item 12 left it (the host stretch hostOps6). -/
theorem walk12_main_v46 (c : Dev nD) : U12 m c main_v46 = U12 m c main_v46 :=
  rfl
/-- main_v43 at item 12 is as item 12 left it (the host stretch hostOps6). -/
theorem walk12_main_v43 (c : Dev nD) : U12 m c main_v43 = U12 m c main_v43 :=
  rfl
/-- main_v47 at item 12 is as item 12 left it (the host stretch hostOps6). -/
theorem walk12_main_v47 (c : Dev nD) : U12 m c main_v47 = U12 m c main_v47 :=
  rfl
/-- main_v24 at item 12 is as item 6 left it (region output). -/
theorem walk12_main_v24 (c : Dev nD) : U12 m c main_v24 = U6 m c main_v24 :=
  (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))
/-- main_v24 at item 14 is as item 6 left it (region output). -/
theorem walk14_main_v24 (c : Dev nD) : U14 m c main_v24 = U6 m c main_v24 :=
  (U14_of m c main_v24 (by decide)).trans <| (U13_of m c main_v24 (by decide)).trans <| (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))
/-- main_v50 at item 14 is as item 14 left it (the host stretch hostOps7). -/
theorem walk14_main_v50 (c : Dev nD) : U14 m c main_v50 = U14 m c main_v50 :=
  rfl
/-- main_v53 at item 14 is as item 14 left it (the host stretch hostOps7). -/
theorem walk14_main_v53 (c : Dev nD) : U14 m c main_v53 = U14 m c main_v53 :=
  rfl
/-- main_v24 at item 16 is as item 6 left it (region output). -/
theorem walk16_main_v24 (c : Dev nD) : U16 m c main_v24 = U6 m c main_v24 :=
  (U16_of m c main_v24 (by decide)).trans <| (U15_of m c main_v24 (by decide)).trans <| (U14_of m c main_v24 (by decide)).trans <| (U13_of m c main_v24 (by decide)).trans <| (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))
/-- main_v56 at item 16 is as item 16 left it (the host stretch hostOps8). -/
theorem walk16_main_v56 (c : Dev nD) : U16 m c main_v56 = U16 m c main_v56 :=
  rfl
/-- main_v59 at item 16 is as item 16 left it (the host stretch hostOps8). -/
theorem walk16_main_v59 (c : Dev nD) : U16 m c main_v59 = U16 m c main_v59 :=
  rfl
/-- main_v6 at item 17 is as item 1 left it (the host stretch hostOps0). -/
theorem walk17_main_v6 (c : Dev nD) : U17 m c main_v6 = U1 m c main_v6 :=
  (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
/-- main_v7 at item 17 is as item 1 left it (the host stretch hostOps0). -/
theorem walk17_main_v7 (c : Dev nD) : U17 m c main_v7 = U1 m c main_v7 :=
  (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
/-- main_v54 at item 17 is as item 15 left it (region output). -/
theorem walk17_main_v54 (c : Dev nD) : U17 m c main_v54 = U15 m c main_v54 :=
  (U17_of m c main_v54 (by decide)).trans <| (U16_of m c main_v54 (by decide))
/-- main_v60 at item 17 is as item 17 left it (region output). -/
theorem walk17_main_v60 (c : Dev nD) : U17 m c main_v60 = U17 m c main_v60 :=
  rfl
/-- main_v37 at item 17 is as item 11 left it (region output). -/
theorem walk17_main_v37 (c : Dev nD) : U17 m c main_v37 = U11 m c main_v37 :=
  (U17_of m c main_v37 (by decide)).trans <| (U16_of m c main_v37 (by decide)).trans <| (U15_of m c main_v37 (by decide)).trans <| (U14_of m c main_v37 (by decide)).trans <| (U13_of m c main_v37 (by decide)).trans <| (U12_of m c main_v37 (by decide))
/-- main_v48 at item 35 is as item 13 left it (region output). -/
theorem walk35_main_v48 (c : Dev nD) : U35 m c main_v48 = U13 m c main_v48 :=
  (U35_of m c main_v48 (by decide)).trans <| (U34_of m c main_v48 (by decide)).trans <| (U33_of m c main_v48 (by decide)).trans <| (U32_of m c main_v48 (by decide)).trans <| (U31_of m c main_v48 (by decide)).trans <| (U30_of m c main_v48 (by decide)).trans <| (U29_of m c main_v48 (by decide)).trans <| (U28_of m c main_v48 (by decide)).trans <| (U27_of m c main_v48 (by decide)).trans <| (U26_of m c main_v48 (by decide)).trans <| (U25_of m c main_v48 (by decide)).trans <| (U24_of m c main_v48 (by decide)).trans <| (U23_of m c main_v48 (by decide)).trans <| (U22_of m c main_v48 (by decide)).trans <| (U21_of m c main_v48 (by decide)).trans <| (U20_of m c main_v48 (by decide)).trans <| (U19_of m c main_v48 (by decide)).trans <| (U18_of m c main_v48 (by decide)).trans <| (U17_of m c main_v48 (by decide)).trans <| (U16_of m c main_v48 (by decide)).trans <| (U15_of m c main_v48 (by decide)).trans <| (U14_of m c main_v48 (by decide))
/-- main_v62 at item 35 is as item 20 left it (the host stretch hostOps10_1). -/
theorem walk35_main_v62 (c : Dev nD) : U35 m c main_v62 = U20 m c main_v62 :=
  (U35_of m c main_v62 (by decide)).trans <| (U34_of m c main_v62 (by decide)).trans <| (U33_of m c main_v62 (by decide)).trans <| (U32_of m c main_v62 (by decide)).trans <| (U31_of m c main_v62 (by decide)).trans <| (U30_of m c main_v62 (by decide)).trans <| (U29_of m c main_v62 (by decide)).trans <| (U28_of m c main_v62 (by decide)).trans <| (U27_of m c main_v62 (by decide)).trans <| (U26_of m c main_v62 (by decide)).trans <| (U25_of m c main_v62 (by decide)).trans <| (U24_of m c main_v62 (by decide)).trans <| (U23_of m c main_v62 (by decide)).trans <| (U22_of m c main_v62 (by decide)).trans <| (U21_of m c main_v62 (by decide))
/-- main_v70 at item 35 is as item 35 left it (the host stretch hostOps10_16). -/
theorem walk35_main_v70 (c : Dev nD) : U35 m c main_v70 = U35 m c main_v70 :=
  rfl
/-- main_v61 at item 37 is as item 18 left it (region output). -/
theorem walk37_main_v61 (c : Dev nD) : U37 m c main_v61 = U18 m c main_v61 :=
  (U37_of m c main_v61 (by decide)).trans <| (U36_of m c main_v61 (by decide)).trans <| (U35_of m c main_v61 (by decide)).trans <| (U34_of m c main_v61 (by decide)).trans <| (U33_of m c main_v61 (by decide)).trans <| (U32_of m c main_v61 (by decide)).trans <| (U31_of m c main_v61 (by decide)).trans <| (U30_of m c main_v61 (by decide)).trans <| (U29_of m c main_v61 (by decide)).trans <| (U28_of m c main_v61 (by decide)).trans <| (U27_of m c main_v61 (by decide)).trans <| (U26_of m c main_v61 (by decide)).trans <| (U25_of m c main_v61 (by decide)).trans <| (U24_of m c main_v61 (by decide)).trans <| (U23_of m c main_v61 (by decide)).trans <| (U22_of m c main_v61 (by decide)).trans <| (U21_of m c main_v61 (by decide)).trans <| (U20_of m c main_v61 (by decide)).trans <| (U19_of m c main_v61 (by decide))
/-- main_v64 at item 37 is as item 24 left it (the host stretch hostOps10_5). -/
theorem walk37_main_v64 (c : Dev nD) : U37 m c main_v64 = U24 m c main_v64 :=
  (U37_of m c main_v64 (by decide)).trans <| (U36_of m c main_v64 (by decide)).trans <| (U35_of m c main_v64 (by decide)).trans <| (U34_of m c main_v64 (by decide)).trans <| (U33_of m c main_v64 (by decide)).trans <| (U32_of m c main_v64 (by decide)).trans <| (U31_of m c main_v64 (by decide)).trans <| (U30_of m c main_v64 (by decide)).trans <| (U29_of m c main_v64 (by decide)).trans <| (U28_of m c main_v64 (by decide)).trans <| (U27_of m c main_v64 (by decide)).trans <| (U26_of m c main_v64 (by decide)).trans <| (U25_of m c main_v64 (by decide))
/-- main_v72 at item 37 is as item 37 left it (the host stretch hostOps11). -/
theorem walk37_main_v72 (c : Dev nD) : U37 m c main_v72 = U37 m c main_v72 :=
  rfl
/-- main_v4 at item 39 is as item 1 left it (the host stretch hostOps0). -/
theorem walk39_main_v4 (c : Dev nD) : U39 m c main_v4 = U1 m c main_v4 :=
  (U39_of m c main_v4 (by decide)).trans <| (U38_of m c main_v4 (by decide)).trans <| (U37_of m c main_v4 (by decide)).trans <| (U36_of m c main_v4 (by decide)).trans <| (U35_of m c main_v4 (by decide)).trans <| (U34_of m c main_v4 (by decide)).trans <| (U33_of m c main_v4 (by decide)).trans <| (U32_of m c main_v4 (by decide)).trans <| (U31_of m c main_v4 (by decide)).trans <| (U30_of m c main_v4 (by decide)).trans <| (U29_of m c main_v4 (by decide)).trans <| (U28_of m c main_v4 (by decide)).trans <| (U27_of m c main_v4 (by decide)).trans <| (U26_of m c main_v4 (by decide)).trans <| (U25_of m c main_v4 (by decide)).trans <| (U24_of m c main_v4 (by decide)).trans <| (U23_of m c main_v4 (by decide)).trans <| (U22_of m c main_v4 (by decide)).trans <| (U21_of m c main_v4 (by decide)).trans <| (U20_of m c main_v4 (by decide)).trans <| (U19_of m c main_v4 (by decide)).trans <| (U18_of m c main_v4 (by decide)).trans <| (U17_of m c main_v4 (by decide)).trans <| (U16_of m c main_v4 (by decide)).trans <| (U15_of m c main_v4 (by decide)).trans <| (U14_of m c main_v4 (by decide)).trans <| (U13_of m c main_v4 (by decide)).trans <| (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
/-- main_v5 at item 39 is as item 1 left it (the host stretch hostOps0). -/
theorem walk39_main_v5 (c : Dev nD) : U39 m c main_v5 = U1 m c main_v5 :=
  (U39_of m c main_v5 (by decide)).trans <| (U38_of m c main_v5 (by decide)).trans <| (U37_of m c main_v5 (by decide)).trans <| (U36_of m c main_v5 (by decide)).trans <| (U35_of m c main_v5 (by decide)).trans <| (U34_of m c main_v5 (by decide)).trans <| (U33_of m c main_v5 (by decide)).trans <| (U32_of m c main_v5 (by decide)).trans <| (U31_of m c main_v5 (by decide)).trans <| (U30_of m c main_v5 (by decide)).trans <| (U29_of m c main_v5 (by decide)).trans <| (U28_of m c main_v5 (by decide)).trans <| (U27_of m c main_v5 (by decide)).trans <| (U26_of m c main_v5 (by decide)).trans <| (U25_of m c main_v5 (by decide)).trans <| (U24_of m c main_v5 (by decide)).trans <| (U23_of m c main_v5 (by decide)).trans <| (U22_of m c main_v5 (by decide)).trans <| (U21_of m c main_v5 (by decide)).trans <| (U20_of m c main_v5 (by decide)).trans <| (U19_of m c main_v5 (by decide)).trans <| (U18_of m c main_v5 (by decide)).trans <| (U17_of m c main_v5 (by decide)).trans <| (U16_of m c main_v5 (by decide)).trans <| (U15_of m c main_v5 (by decide)).trans <| (U14_of m c main_v5 (by decide)).trans <| (U13_of m c main_v5 (by decide)).trans <| (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
/-- main_v73 at item 39 is as item 38 left it (region output). -/
theorem walk39_main_v73 (c : Dev nD) : U39 m c main_v73 = U38 m c main_v73 :=
  (U39_of m c main_v73 (by decide))
/-- main_v75 at item 39 is as item 39 left it (the host stretch hostOps12). -/
theorem walk39_main_v75 (c : Dev nD) : U39 m c main_v75 = U39 m c main_v75 :=
  rfl
/-- main_v82 at item 39 is as item 39 left it (the host stretch hostOps12). -/
theorem walk39_main_v82 (c : Dev nD) : U39 m c main_v82 = U39 m c main_v82 :=
  rfl
/-- main_v79 at item 39 is as item 39 left it (the host stretch hostOps12). -/
theorem walk39_main_v79 (c : Dev nD) : U39 m c main_v79 = U39 m c main_v79 :=
  rfl
/-- main_v83 at item 39 is as item 39 left it (the host stretch hostOps12). -/
theorem walk39_main_v83 (c : Dev nD) : U39 m c main_v83 = U39 m c main_v83 :=
  rfl
/-- main_v71 at item 39 is as item 36 left it (region output). -/
theorem walk39_main_v71 (c : Dev nD) : U39 m c main_v71 = U36 m c main_v71 :=
  (U39_of m c main_v71 (by decide)).trans <| (U38_of m c main_v71 (by decide)).trans <| (U37_of m c main_v71 (by decide))
/-- main_v71 at item 41 is as item 36 left it (region output). -/
theorem walk41_main_v71 (c : Dev nD) : U41 m c main_v71 = U36 m c main_v71 :=
  (U41_of m c main_v71 (by decide)).trans <| (U40_of m c main_v71 (by decide)).trans <| (U39_of m c main_v71 (by decide)).trans <| (U38_of m c main_v71 (by decide)).trans <| (U37_of m c main_v71 (by decide))
/-- main_v86 at item 41 is as item 41 left it (the host stretch hostOps13). -/
theorem walk41_main_v86 (c : Dev nD) : U41 m c main_v86 = U41 m c main_v86 :=
  rfl
/-- main_v89 at item 41 is as item 41 left it (the host stretch hostOps13). -/
theorem walk41_main_v89 (c : Dev nD) : U41 m c main_v89 = U41 m c main_v89 :=
  rfl
/-- main_v71 at item 43 is as item 36 left it (region output). -/
theorem walk43_main_v71 (c : Dev nD) : U43 m c main_v71 = U36 m c main_v71 :=
  (U43_of m c main_v71 (by decide)).trans <| (U42_of m c main_v71 (by decide)).trans <| (U41_of m c main_v71 (by decide)).trans <| (U40_of m c main_v71 (by decide)).trans <| (U39_of m c main_v71 (by decide)).trans <| (U38_of m c main_v71 (by decide)).trans <| (U37_of m c main_v71 (by decide))
/-- main_v92 at item 43 is as item 43 left it (the host stretch hostOps14). -/
theorem walk43_main_v92 (c : Dev nD) : U43 m c main_v92 = U43 m c main_v92 :=
  rfl
/-- main_v95 at item 43 is as item 43 left it (the host stretch hostOps14). -/
theorem walk43_main_v95 (c : Dev nD) : U43 m c main_v95 = U43 m c main_v95 :=
  rfl
/-- main_v6 at item 44 is as item 1 left it (the host stretch hostOps0). -/
theorem walk44_main_v6 (c : Dev nD) : U44 m c main_v6 = U1 m c main_v6 :=
  (U44_of m c main_v6 (by decide)).trans <| (U43_of m c main_v6 (by decide)).trans <| (U42_of m c main_v6 (by decide)).trans <| (U41_of m c main_v6 (by decide)).trans <| (U40_of m c main_v6 (by decide)).trans <| (U39_of m c main_v6 (by decide)).trans <| (U38_of m c main_v6 (by decide)).trans <| (U37_of m c main_v6 (by decide)).trans <| (U36_of m c main_v6 (by decide)).trans <| (U35_of m c main_v6 (by decide)).trans <| (U34_of m c main_v6 (by decide)).trans <| (U33_of m c main_v6 (by decide)).trans <| (U32_of m c main_v6 (by decide)).trans <| (U31_of m c main_v6 (by decide)).trans <| (U30_of m c main_v6 (by decide)).trans <| (U29_of m c main_v6 (by decide)).trans <| (U28_of m c main_v6 (by decide)).trans <| (U27_of m c main_v6 (by decide)).trans <| (U26_of m c main_v6 (by decide)).trans <| (U25_of m c main_v6 (by decide)).trans <| (U24_of m c main_v6 (by decide)).trans <| (U23_of m c main_v6 (by decide)).trans <| (U22_of m c main_v6 (by decide)).trans <| (U21_of m c main_v6 (by decide)).trans <| (U20_of m c main_v6 (by decide)).trans <| (U19_of m c main_v6 (by decide)).trans <| (U18_of m c main_v6 (by decide)).trans <| (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
/-- main_v7 at item 44 is as item 1 left it (the host stretch hostOps0). -/
theorem walk44_main_v7 (c : Dev nD) : U44 m c main_v7 = U1 m c main_v7 :=
  (U44_of m c main_v7 (by decide)).trans <| (U43_of m c main_v7 (by decide)).trans <| (U42_of m c main_v7 (by decide)).trans <| (U41_of m c main_v7 (by decide)).trans <| (U40_of m c main_v7 (by decide)).trans <| (U39_of m c main_v7 (by decide)).trans <| (U38_of m c main_v7 (by decide)).trans <| (U37_of m c main_v7 (by decide)).trans <| (U36_of m c main_v7 (by decide)).trans <| (U35_of m c main_v7 (by decide)).trans <| (U34_of m c main_v7 (by decide)).trans <| (U33_of m c main_v7 (by decide)).trans <| (U32_of m c main_v7 (by decide)).trans <| (U31_of m c main_v7 (by decide)).trans <| (U30_of m c main_v7 (by decide)).trans <| (U29_of m c main_v7 (by decide)).trans <| (U28_of m c main_v7 (by decide)).trans <| (U27_of m c main_v7 (by decide)).trans <| (U26_of m c main_v7 (by decide)).trans <| (U25_of m c main_v7 (by decide)).trans <| (U24_of m c main_v7 (by decide)).trans <| (U23_of m c main_v7 (by decide)).trans <| (U22_of m c main_v7 (by decide)).trans <| (U21_of m c main_v7 (by decide)).trans <| (U20_of m c main_v7 (by decide)).trans <| (U19_of m c main_v7 (by decide)).trans <| (U18_of m c main_v7 (by decide)).trans <| (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
/-- main_v90 at item 44 is as item 42 left it (region output). -/
theorem walk44_main_v90 (c : Dev nD) : U44 m c main_v90 = U42 m c main_v90 :=
  (U44_of m c main_v90 (by decide)).trans <| (U43_of m c main_v90 (by decide))
/-- main_v96 at item 44 is as item 44 left it (region output). -/
theorem walk44_main_v96 (c : Dev nD) : U44 m c main_v96 = U44 m c main_v96 :=
  rfl
/-- main_v73 at item 44 is as item 38 left it (region output). -/
theorem walk44_main_v73 (c : Dev nD) : U44 m c main_v73 = U38 m c main_v73 :=
  (U44_of m c main_v73 (by decide)).trans <| (U43_of m c main_v73 (by decide)).trans <| (U42_of m c main_v73 (by decide)).trans <| (U41_of m c main_v73 (by decide)).trans <| (U40_of m c main_v73 (by decide)).trans <| (U39_of m c main_v73 (by decide))
/-- main_v4 at item 46 is as item 1 left it (the host stretch hostOps0). -/
theorem walk46_main_v4 (c : Dev nD) : U46 m c main_v4 = U1 m c main_v4 :=
  (U46_of m c main_v4 (by decide)).trans <| (U45_of m c main_v4 (by decide)).trans <| (U44_of m c main_v4 (by decide)).trans <| (U43_of m c main_v4 (by decide)).trans <| (U42_of m c main_v4 (by decide)).trans <| (U41_of m c main_v4 (by decide)).trans <| (U40_of m c main_v4 (by decide)).trans <| (U39_of m c main_v4 (by decide)).trans <| (U38_of m c main_v4 (by decide)).trans <| (U37_of m c main_v4 (by decide)).trans <| (U36_of m c main_v4 (by decide)).trans <| (U35_of m c main_v4 (by decide)).trans <| (U34_of m c main_v4 (by decide)).trans <| (U33_of m c main_v4 (by decide)).trans <| (U32_of m c main_v4 (by decide)).trans <| (U31_of m c main_v4 (by decide)).trans <| (U30_of m c main_v4 (by decide)).trans <| (U29_of m c main_v4 (by decide)).trans <| (U28_of m c main_v4 (by decide)).trans <| (U27_of m c main_v4 (by decide)).trans <| (U26_of m c main_v4 (by decide)).trans <| (U25_of m c main_v4 (by decide)).trans <| (U24_of m c main_v4 (by decide)).trans <| (U23_of m c main_v4 (by decide)).trans <| (U22_of m c main_v4 (by decide)).trans <| (U21_of m c main_v4 (by decide)).trans <| (U20_of m c main_v4 (by decide)).trans <| (U19_of m c main_v4 (by decide)).trans <| (U18_of m c main_v4 (by decide)).trans <| (U17_of m c main_v4 (by decide)).trans <| (U16_of m c main_v4 (by decide)).trans <| (U15_of m c main_v4 (by decide)).trans <| (U14_of m c main_v4 (by decide)).trans <| (U13_of m c main_v4 (by decide)).trans <| (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
/-- main_v5 at item 46 is as item 1 left it (the host stretch hostOps0). -/
theorem walk46_main_v5 (c : Dev nD) : U46 m c main_v5 = U1 m c main_v5 :=
  (U46_of m c main_v5 (by decide)).trans <| (U45_of m c main_v5 (by decide)).trans <| (U44_of m c main_v5 (by decide)).trans <| (U43_of m c main_v5 (by decide)).trans <| (U42_of m c main_v5 (by decide)).trans <| (U41_of m c main_v5 (by decide)).trans <| (U40_of m c main_v5 (by decide)).trans <| (U39_of m c main_v5 (by decide)).trans <| (U38_of m c main_v5 (by decide)).trans <| (U37_of m c main_v5 (by decide)).trans <| (U36_of m c main_v5 (by decide)).trans <| (U35_of m c main_v5 (by decide)).trans <| (U34_of m c main_v5 (by decide)).trans <| (U33_of m c main_v5 (by decide)).trans <| (U32_of m c main_v5 (by decide)).trans <| (U31_of m c main_v5 (by decide)).trans <| (U30_of m c main_v5 (by decide)).trans <| (U29_of m c main_v5 (by decide)).trans <| (U28_of m c main_v5 (by decide)).trans <| (U27_of m c main_v5 (by decide)).trans <| (U26_of m c main_v5 (by decide)).trans <| (U25_of m c main_v5 (by decide)).trans <| (U24_of m c main_v5 (by decide)).trans <| (U23_of m c main_v5 (by decide)).trans <| (U22_of m c main_v5 (by decide)).trans <| (U21_of m c main_v5 (by decide)).trans <| (U20_of m c main_v5 (by decide)).trans <| (U19_of m c main_v5 (by decide)).trans <| (U18_of m c main_v5 (by decide)).trans <| (U17_of m c main_v5 (by decide)).trans <| (U16_of m c main_v5 (by decide)).trans <| (U15_of m c main_v5 (by decide)).trans <| (U14_of m c main_v5 (by decide)).trans <| (U13_of m c main_v5 (by decide)).trans <| (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
/-- main_v97 at item 46 is as item 45 left it (region output). -/
theorem walk46_main_v97 (c : Dev nD) : U46 m c main_v97 = U45 m c main_v97 :=
  (U46_of m c main_v97 (by decide))
/-- main_v99 at item 46 is as item 46 left it (the host stretch hostOps16). -/
theorem walk46_main_v99 (c : Dev nD) : U46 m c main_v99 = U46 m c main_v99 :=
  rfl
/-- main_v106 at item 46 is as item 46 left it (the host stretch hostOps16). -/
theorem walk46_main_v106 (c : Dev nD) : U46 m c main_v106 = U46 m c main_v106 :=
  rfl
/-- main_v103 at item 46 is as item 46 left it (the host stretch hostOps16). -/
theorem walk46_main_v103 (c : Dev nD) : U46 m c main_v103 = U46 m c main_v103 :=
  rfl
/-- main_v107 at item 46 is as item 46 left it (the host stretch hostOps16). -/
theorem walk46_main_v107 (c : Dev nD) : U46 m c main_v107 = U46 m c main_v107 :=
  rfl
/-- main_v84 at item 46 is as item 40 left it (region output). -/
theorem walk46_main_v84 (c : Dev nD) : U46 m c main_v84 = U40 m c main_v84 :=
  (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))
/-- main_v84 at item 48 is as item 40 left it (region output). -/
theorem walk48_main_v84 (c : Dev nD) : U48 m c main_v84 = U40 m c main_v84 :=
  (U48_of m c main_v84 (by decide)).trans <| (U47_of m c main_v84 (by decide)).trans <| (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))
/-- main_v110 at item 48 is as item 48 left it (the host stretch hostOps17). -/
theorem walk48_main_v110 (c : Dev nD) : U48 m c main_v110 = U48 m c main_v110 :=
  rfl
/-- main_v113 at item 48 is as item 48 left it (the host stretch hostOps17). -/
theorem walk48_main_v113 (c : Dev nD) : U48 m c main_v113 = U48 m c main_v113 :=
  rfl
/-- main_v84 at item 50 is as item 40 left it (region output). -/
theorem walk50_main_v84 (c : Dev nD) : U50 m c main_v84 = U40 m c main_v84 :=
  (U50_of m c main_v84 (by decide)).trans <| (U49_of m c main_v84 (by decide)).trans <| (U48_of m c main_v84 (by decide)).trans <| (U47_of m c main_v84 (by decide)).trans <| (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))
/-- main_v116 at item 50 is as item 50 left it (the host stretch hostOps18). -/
theorem walk50_main_v116 (c : Dev nD) : U50 m c main_v116 = U50 m c main_v116 :=
  rfl
/-- main_v119 at item 50 is as item 50 left it (the host stretch hostOps18). -/
theorem walk50_main_v119 (c : Dev nD) : U50 m c main_v119 = U50 m c main_v119 :=
  rfl
/-- main_v6 at item 51 is as item 1 left it (the host stretch hostOps0). -/
theorem walk51_main_v6 (c : Dev nD) : U51 m c main_v6 = U1 m c main_v6 :=
  (U51_of m c main_v6 (by decide)).trans <| (U50_of m c main_v6 (by decide)).trans <| (U49_of m c main_v6 (by decide)).trans <| (U48_of m c main_v6 (by decide)).trans <| (U47_of m c main_v6 (by decide)).trans <| (U46_of m c main_v6 (by decide)).trans <| (U45_of m c main_v6 (by decide)).trans <| (U44_of m c main_v6 (by decide)).trans <| (U43_of m c main_v6 (by decide)).trans <| (U42_of m c main_v6 (by decide)).trans <| (U41_of m c main_v6 (by decide)).trans <| (U40_of m c main_v6 (by decide)).trans <| (U39_of m c main_v6 (by decide)).trans <| (U38_of m c main_v6 (by decide)).trans <| (U37_of m c main_v6 (by decide)).trans <| (U36_of m c main_v6 (by decide)).trans <| (U35_of m c main_v6 (by decide)).trans <| (U34_of m c main_v6 (by decide)).trans <| (U33_of m c main_v6 (by decide)).trans <| (U32_of m c main_v6 (by decide)).trans <| (U31_of m c main_v6 (by decide)).trans <| (U30_of m c main_v6 (by decide)).trans <| (U29_of m c main_v6 (by decide)).trans <| (U28_of m c main_v6 (by decide)).trans <| (U27_of m c main_v6 (by decide)).trans <| (U26_of m c main_v6 (by decide)).trans <| (U25_of m c main_v6 (by decide)).trans <| (U24_of m c main_v6 (by decide)).trans <| (U23_of m c main_v6 (by decide)).trans <| (U22_of m c main_v6 (by decide)).trans <| (U21_of m c main_v6 (by decide)).trans <| (U20_of m c main_v6 (by decide)).trans <| (U19_of m c main_v6 (by decide)).trans <| (U18_of m c main_v6 (by decide)).trans <| (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
/-- main_v7 at item 51 is as item 1 left it (the host stretch hostOps0). -/
theorem walk51_main_v7 (c : Dev nD) : U51 m c main_v7 = U1 m c main_v7 :=
  (U51_of m c main_v7 (by decide)).trans <| (U50_of m c main_v7 (by decide)).trans <| (U49_of m c main_v7 (by decide)).trans <| (U48_of m c main_v7 (by decide)).trans <| (U47_of m c main_v7 (by decide)).trans <| (U46_of m c main_v7 (by decide)).trans <| (U45_of m c main_v7 (by decide)).trans <| (U44_of m c main_v7 (by decide)).trans <| (U43_of m c main_v7 (by decide)).trans <| (U42_of m c main_v7 (by decide)).trans <| (U41_of m c main_v7 (by decide)).trans <| (U40_of m c main_v7 (by decide)).trans <| (U39_of m c main_v7 (by decide)).trans <| (U38_of m c main_v7 (by decide)).trans <| (U37_of m c main_v7 (by decide)).trans <| (U36_of m c main_v7 (by decide)).trans <| (U35_of m c main_v7 (by decide)).trans <| (U34_of m c main_v7 (by decide)).trans <| (U33_of m c main_v7 (by decide)).trans <| (U32_of m c main_v7 (by decide)).trans <| (U31_of m c main_v7 (by decide)).trans <| (U30_of m c main_v7 (by decide)).trans <| (U29_of m c main_v7 (by decide)).trans <| (U28_of m c main_v7 (by decide)).trans <| (U27_of m c main_v7 (by decide)).trans <| (U26_of m c main_v7 (by decide)).trans <| (U25_of m c main_v7 (by decide)).trans <| (U24_of m c main_v7 (by decide)).trans <| (U23_of m c main_v7 (by decide)).trans <| (U22_of m c main_v7 (by decide)).trans <| (U21_of m c main_v7 (by decide)).trans <| (U20_of m c main_v7 (by decide)).trans <| (U19_of m c main_v7 (by decide)).trans <| (U18_of m c main_v7 (by decide)).trans <| (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
/-- main_v114 at item 51 is as item 49 left it (region output). -/
theorem walk51_main_v114 (c : Dev nD) : U51 m c main_v114 = U49 m c main_v114 :=
  (U51_of m c main_v114 (by decide)).trans <| (U50_of m c main_v114 (by decide))
/-- main_v120 at item 51 is as item 51 left it (region output). -/
theorem walk51_main_v120 (c : Dev nD) : U51 m c main_v120 = U51 m c main_v120 :=
  rfl
/-- main_v97 at item 51 is as item 45 left it (region output). -/
theorem walk51_main_v97 (c : Dev nD) : U51 m c main_v97 = U45 m c main_v97 :=
  (U51_of m c main_v97 (by decide)).trans <| (U50_of m c main_v97 (by decide)).trans <| (U49_of m c main_v97 (by decide)).trans <| (U48_of m c main_v97 (by decide)).trans <| (U47_of m c main_v97 (by decide)).trans <| (U46_of m c main_v97 (by decide))
/-- main_v13 at item 53 is as item 4 left it (region output). -/
theorem walk53_main_v13 (c : Dev nD) : U53 m c main_v13 = U4 m c main_v13 :=
  (U53_of m c main_v13 (by decide)).trans <| (U52_of m c main_v13 (by decide)).trans <| (U51_of m c main_v13 (by decide)).trans <| (U50_of m c main_v13 (by decide)).trans <| (U49_of m c main_v13 (by decide)).trans <| (U48_of m c main_v13 (by decide)).trans <| (U47_of m c main_v13 (by decide)).trans <| (U46_of m c main_v13 (by decide)).trans <| (U45_of m c main_v13 (by decide)).trans <| (U44_of m c main_v13 (by decide)).trans <| (U43_of m c main_v13 (by decide)).trans <| (U42_of m c main_v13 (by decide)).trans <| (U41_of m c main_v13 (by decide)).trans <| (U40_of m c main_v13 (by decide)).trans <| (U39_of m c main_v13 (by decide)).trans <| (U38_of m c main_v13 (by decide)).trans <| (U37_of m c main_v13 (by decide)).trans <| (U36_of m c main_v13 (by decide)).trans <| (U35_of m c main_v13 (by decide)).trans <| (U34_of m c main_v13 (by decide)).trans <| (U33_of m c main_v13 (by decide)).trans <| (U32_of m c main_v13 (by decide)).trans <| (U31_of m c main_v13 (by decide)).trans <| (U30_of m c main_v13 (by decide)).trans <| (U29_of m c main_v13 (by decide)).trans <| (U28_of m c main_v13 (by decide)).trans <| (U27_of m c main_v13 (by decide)).trans <| (U26_of m c main_v13 (by decide)).trans <| (U25_of m c main_v13 (by decide)).trans <| (U24_of m c main_v13 (by decide)).trans <| (U23_of m c main_v13 (by decide)).trans <| (U22_of m c main_v13 (by decide)).trans <| (U21_of m c main_v13 (by decide)).trans <| (U20_of m c main_v13 (by decide)).trans <| (U19_of m c main_v13 (by decide)).trans <| (U18_of m c main_v13 (by decide)).trans <| (U17_of m c main_v13 (by decide)).trans <| (U16_of m c main_v13 (by decide)).trans <| (U15_of m c main_v13 (by decide)).trans <| (U14_of m c main_v13 (by decide)).trans <| (U13_of m c main_v13 (by decide)).trans <| (U12_of m c main_v13 (by decide)).trans <| (U11_of m c main_v13 (by decide)).trans <| (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide))
/-- main_v122 at item 53 is as item 53 left it (the host stretch hostOps20). -/
theorem walk53_main_v122 (c : Dev nD) : U53 m c main_v122 = U53 m c main_v122 :=
  rfl
/-- main_v123 at item 53 is as item 53 left it (the host stretch hostOps20). -/
theorem walk53_main_v123 (c : Dev nD) : U53 m c main_v123 = U53 m c main_v123 :=
  rfl
/-- main_arg0 at item 53 is as item 0 left it (the launch memory). -/
theorem walk53_main_arg0 (c : Dev nD) : U53 m c main_arg0 = U0 m c main_arg0 :=
  (U53_of m c main_arg0 (by decide)).trans <| (U52_of m c main_arg0 (by decide)).trans <| (U51_of m c main_arg0 (by decide)).trans <| (U50_of m c main_arg0 (by decide)).trans <| (U49_of m c main_arg0 (by decide)).trans <| (U48_of m c main_arg0 (by decide)).trans <| (U47_of m c main_arg0 (by decide)).trans <| (U46_of m c main_arg0 (by decide)).trans <| (U45_of m c main_arg0 (by decide)).trans <| (U44_of m c main_arg0 (by decide)).trans <| (U43_of m c main_arg0 (by decide)).trans <| (U42_of m c main_arg0 (by decide)).trans <| (U41_of m c main_arg0 (by decide)).trans <| (U40_of m c main_arg0 (by decide)).trans <| (U39_of m c main_arg0 (by decide)).trans <| (U38_of m c main_arg0 (by decide)).trans <| (U37_of m c main_arg0 (by decide)).trans <| (U36_of m c main_arg0 (by decide)).trans <| (U35_of m c main_arg0 (by decide)).trans <| (U34_of m c main_arg0 (by decide)).trans <| (U33_of m c main_arg0 (by decide)).trans <| (U32_of m c main_arg0 (by decide)).trans <| (U31_of m c main_arg0 (by decide)).trans <| (U30_of m c main_arg0 (by decide)).trans <| (U29_of m c main_arg0 (by decide)).trans <| (U28_of m c main_arg0 (by decide)).trans <| (U27_of m c main_arg0 (by decide)).trans <| (U26_of m c main_arg0 (by decide)).trans <| (U25_of m c main_arg0 (by decide)).trans <| (U24_of m c main_arg0 (by decide)).trans <| (U23_of m c main_arg0 (by decide)).trans <| (U22_of m c main_arg0 (by decide)).trans <| (U21_of m c main_arg0 (by decide)).trans <| (U20_of m c main_arg0 (by decide)).trans <| (U19_of m c main_arg0 (by decide)).trans <| (U18_of m c main_arg0 (by decide)).trans <| (U17_of m c main_arg0 (by decide)).trans <| (U16_of m c main_arg0 (by decide)).trans <| (U15_of m c main_arg0 (by decide)).trans <| (U14_of m c main_arg0 (by decide)).trans <| (U13_of m c main_arg0 (by decide)).trans <| (U12_of m c main_arg0 (by decide)).trans <| (U11_of m c main_arg0 (by decide)).trans <| (U10_of m c main_arg0 (by decide)).trans <| (U9_of m c main_arg0 (by decide)).trans <| (U8_of m c main_arg0 (by decide)).trans <| (U7_of m c main_arg0 (by decide)).trans <| (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide))
/-- main_arg1 at item 53 is as item 0 left it (the launch memory). -/
theorem walk53_main_arg1 (c : Dev nD) : U53 m c main_arg1 = U0 m c main_arg1 :=
  (U53_of m c main_arg1 (by decide)).trans <| (U52_of m c main_arg1 (by decide)).trans <| (U51_of m c main_arg1 (by decide)).trans <| (U50_of m c main_arg1 (by decide)).trans <| (U49_of m c main_arg1 (by decide)).trans <| (U48_of m c main_arg1 (by decide)).trans <| (U47_of m c main_arg1 (by decide)).trans <| (U46_of m c main_arg1 (by decide)).trans <| (U45_of m c main_arg1 (by decide)).trans <| (U44_of m c main_arg1 (by decide)).trans <| (U43_of m c main_arg1 (by decide)).trans <| (U42_of m c main_arg1 (by decide)).trans <| (U41_of m c main_arg1 (by decide)).trans <| (U40_of m c main_arg1 (by decide)).trans <| (U39_of m c main_arg1 (by decide)).trans <| (U38_of m c main_arg1 (by decide)).trans <| (U37_of m c main_arg1 (by decide)).trans <| (U36_of m c main_arg1 (by decide)).trans <| (U35_of m c main_arg1 (by decide)).trans <| (U34_of m c main_arg1 (by decide)).trans <| (U33_of m c main_arg1 (by decide)).trans <| (U32_of m c main_arg1 (by decide)).trans <| (U31_of m c main_arg1 (by decide)).trans <| (U30_of m c main_arg1 (by decide)).trans <| (U29_of m c main_arg1 (by decide)).trans <| (U28_of m c main_arg1 (by decide)).trans <| (U27_of m c main_arg1 (by decide)).trans <| (U26_of m c main_arg1 (by decide)).trans <| (U25_of m c main_arg1 (by decide)).trans <| (U24_of m c main_arg1 (by decide)).trans <| (U23_of m c main_arg1 (by decide)).trans <| (U22_of m c main_arg1 (by decide)).trans <| (U21_of m c main_arg1 (by decide)).trans <| (U20_of m c main_arg1 (by decide)).trans <| (U19_of m c main_arg1 (by decide)).trans <| (U18_of m c main_arg1 (by decide)).trans <| (U17_of m c main_arg1 (by decide)).trans <| (U16_of m c main_arg1 (by decide)).trans <| (U15_of m c main_arg1 (by decide)).trans <| (U14_of m c main_arg1 (by decide)).trans <| (U13_of m c main_arg1 (by decide)).trans <| (U12_of m c main_arg1 (by decide)).trans <| (U11_of m c main_arg1 (by decide)).trans <| (U10_of m c main_arg1 (by decide)).trans <| (U9_of m c main_arg1 (by decide)).trans <| (U8_of m c main_arg1 (by decide)).trans <| (U7_of m c main_arg1 (by decide)).trans <| (U6_of m c main_arg1 (by decide)).trans <| (U5_of m c main_arg1 (by decide)).trans <| (U4_of m c main_arg1 (by decide)).trans <| (U3_of m c main_arg1 (by decide)).trans <| (U2_of m c main_arg1 (by decide)).trans <| (U1_of m c main_arg1 (by decide))
/-- main_arg2 at item 53 is as item 0 left it (the launch memory). -/
theorem walk53_main_arg2 (c : Dev nD) : U53 m c main_arg2 = U0 m c main_arg2 :=
  (U53_of m c main_arg2 (by decide)).trans <| (U52_of m c main_arg2 (by decide)).trans <| (U51_of m c main_arg2 (by decide)).trans <| (U50_of m c main_arg2 (by decide)).trans <| (U49_of m c main_arg2 (by decide)).trans <| (U48_of m c main_arg2 (by decide)).trans <| (U47_of m c main_arg2 (by decide)).trans <| (U46_of m c main_arg2 (by decide)).trans <| (U45_of m c main_arg2 (by decide)).trans <| (U44_of m c main_arg2 (by decide)).trans <| (U43_of m c main_arg2 (by decide)).trans <| (U42_of m c main_arg2 (by decide)).trans <| (U41_of m c main_arg2 (by decide)).trans <| (U40_of m c main_arg2 (by decide)).trans <| (U39_of m c main_arg2 (by decide)).trans <| (U38_of m c main_arg2 (by decide)).trans <| (U37_of m c main_arg2 (by decide)).trans <| (U36_of m c main_arg2 (by decide)).trans <| (U35_of m c main_arg2 (by decide)).trans <| (U34_of m c main_arg2 (by decide)).trans <| (U33_of m c main_arg2 (by decide)).trans <| (U32_of m c main_arg2 (by decide)).trans <| (U31_of m c main_arg2 (by decide)).trans <| (U30_of m c main_arg2 (by decide)).trans <| (U29_of m c main_arg2 (by decide)).trans <| (U28_of m c main_arg2 (by decide)).trans <| (U27_of m c main_arg2 (by decide)).trans <| (U26_of m c main_arg2 (by decide)).trans <| (U25_of m c main_arg2 (by decide)).trans <| (U24_of m c main_arg2 (by decide)).trans <| (U23_of m c main_arg2 (by decide)).trans <| (U22_of m c main_arg2 (by decide)).trans <| (U21_of m c main_arg2 (by decide)).trans <| (U20_of m c main_arg2 (by decide)).trans <| (U19_of m c main_arg2 (by decide)).trans <| (U18_of m c main_arg2 (by decide)).trans <| (U17_of m c main_arg2 (by decide)).trans <| (U16_of m c main_arg2 (by decide)).trans <| (U15_of m c main_arg2 (by decide)).trans <| (U14_of m c main_arg2 (by decide)).trans <| (U13_of m c main_arg2 (by decide)).trans <| (U12_of m c main_arg2 (by decide)).trans <| (U11_of m c main_arg2 (by decide)).trans <| (U10_of m c main_arg2 (by decide)).trans <| (U9_of m c main_arg2 (by decide)).trans <| (U8_of m c main_arg2 (by decide)).trans <| (U7_of m c main_arg2 (by decide)).trans <| (U6_of m c main_arg2 (by decide)).trans <| (U5_of m c main_arg2 (by decide)).trans <| (U4_of m c main_arg2 (by decide)).trans <| (U3_of m c main_arg2 (by decide)).trans <| (U2_of m c main_arg2 (by decide)).trans <| (U1_of m c main_arg2 (by decide))
/-- main_arg3 at item 53 is as item 0 left it (the launch memory). -/
theorem walk53_main_arg3 (c : Dev nD) : U53 m c main_arg3 = U0 m c main_arg3 :=
  (U53_of m c main_arg3 (by decide)).trans <| (U52_of m c main_arg3 (by decide)).trans <| (U51_of m c main_arg3 (by decide)).trans <| (U50_of m c main_arg3 (by decide)).trans <| (U49_of m c main_arg3 (by decide)).trans <| (U48_of m c main_arg3 (by decide)).trans <| (U47_of m c main_arg3 (by decide)).trans <| (U46_of m c main_arg3 (by decide)).trans <| (U45_of m c main_arg3 (by decide)).trans <| (U44_of m c main_arg3 (by decide)).trans <| (U43_of m c main_arg3 (by decide)).trans <| (U42_of m c main_arg3 (by decide)).trans <| (U41_of m c main_arg3 (by decide)).trans <| (U40_of m c main_arg3 (by decide)).trans <| (U39_of m c main_arg3 (by decide)).trans <| (U38_of m c main_arg3 (by decide)).trans <| (U37_of m c main_arg3 (by decide)).trans <| (U36_of m c main_arg3 (by decide)).trans <| (U35_of m c main_arg3 (by decide)).trans <| (U34_of m c main_arg3 (by decide)).trans <| (U33_of m c main_arg3 (by decide)).trans <| (U32_of m c main_arg3 (by decide)).trans <| (U31_of m c main_arg3 (by decide)).trans <| (U30_of m c main_arg3 (by decide)).trans <| (U29_of m c main_arg3 (by decide)).trans <| (U28_of m c main_arg3 (by decide)).trans <| (U27_of m c main_arg3 (by decide)).trans <| (U26_of m c main_arg3 (by decide)).trans <| (U25_of m c main_arg3 (by decide)).trans <| (U24_of m c main_arg3 (by decide)).trans <| (U23_of m c main_arg3 (by decide)).trans <| (U22_of m c main_arg3 (by decide)).trans <| (U21_of m c main_arg3 (by decide)).trans <| (U20_of m c main_arg3 (by decide)).trans <| (U19_of m c main_arg3 (by decide)).trans <| (U18_of m c main_arg3 (by decide)).trans <| (U17_of m c main_arg3 (by decide)).trans <| (U16_of m c main_arg3 (by decide)).trans <| (U15_of m c main_arg3 (by decide)).trans <| (U14_of m c main_arg3 (by decide)).trans <| (U13_of m c main_arg3 (by decide)).trans <| (U12_of m c main_arg3 (by decide)).trans <| (U11_of m c main_arg3 (by decide)).trans <| (U10_of m c main_arg3 (by decide)).trans <| (U9_of m c main_arg3 (by decide)).trans <| (U8_of m c main_arg3 (by decide)).trans <| (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide))
/-- main_arg4 at item 53 is as item 0 left it (the launch memory). -/
theorem walk53_main_arg4 (c : Dev nD) : U53 m c main_arg4 = U0 m c main_arg4 :=
  (U53_of m c main_arg4 (by decide)).trans <| (U52_of m c main_arg4 (by decide)).trans <| (U51_of m c main_arg4 (by decide)).trans <| (U50_of m c main_arg4 (by decide)).trans <| (U49_of m c main_arg4 (by decide)).trans <| (U48_of m c main_arg4 (by decide)).trans <| (U47_of m c main_arg4 (by decide)).trans <| (U46_of m c main_arg4 (by decide)).trans <| (U45_of m c main_arg4 (by decide)).trans <| (U44_of m c main_arg4 (by decide)).trans <| (U43_of m c main_arg4 (by decide)).trans <| (U42_of m c main_arg4 (by decide)).trans <| (U41_of m c main_arg4 (by decide)).trans <| (U40_of m c main_arg4 (by decide)).trans <| (U39_of m c main_arg4 (by decide)).trans <| (U38_of m c main_arg4 (by decide)).trans <| (U37_of m c main_arg4 (by decide)).trans <| (U36_of m c main_arg4 (by decide)).trans <| (U35_of m c main_arg4 (by decide)).trans <| (U34_of m c main_arg4 (by decide)).trans <| (U33_of m c main_arg4 (by decide)).trans <| (U32_of m c main_arg4 (by decide)).trans <| (U31_of m c main_arg4 (by decide)).trans <| (U30_of m c main_arg4 (by decide)).trans <| (U29_of m c main_arg4 (by decide)).trans <| (U28_of m c main_arg4 (by decide)).trans <| (U27_of m c main_arg4 (by decide)).trans <| (U26_of m c main_arg4 (by decide)).trans <| (U25_of m c main_arg4 (by decide)).trans <| (U24_of m c main_arg4 (by decide)).trans <| (U23_of m c main_arg4 (by decide)).trans <| (U22_of m c main_arg4 (by decide)).trans <| (U21_of m c main_arg4 (by decide)).trans <| (U20_of m c main_arg4 (by decide)).trans <| (U19_of m c main_arg4 (by decide)).trans <| (U18_of m c main_arg4 (by decide)).trans <| (U17_of m c main_arg4 (by decide)).trans <| (U16_of m c main_arg4 (by decide)).trans <| (U15_of m c main_arg4 (by decide)).trans <| (U14_of m c main_arg4 (by decide)).trans <| (U13_of m c main_arg4 (by decide)).trans <| (U12_of m c main_arg4 (by decide)).trans <| (U11_of m c main_arg4 (by decide)).trans <| (U10_of m c main_arg4 (by decide)).trans <| (U9_of m c main_arg4 (by decide)).trans <| (U8_of m c main_arg4 (by decide)).trans <| (U7_of m c main_arg4 (by decide)).trans <| (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide))
/-- main_arg5 at item 53 is as item 0 left it (the launch memory). -/
theorem walk53_main_arg5 (c : Dev nD) : U53 m c main_arg5 = U0 m c main_arg5 :=
  (U53_of m c main_arg5 (by decide)).trans <| (U52_of m c main_arg5 (by decide)).trans <| (U51_of m c main_arg5 (by decide)).trans <| (U50_of m c main_arg5 (by decide)).trans <| (U49_of m c main_arg5 (by decide)).trans <| (U48_of m c main_arg5 (by decide)).trans <| (U47_of m c main_arg5 (by decide)).trans <| (U46_of m c main_arg5 (by decide)).trans <| (U45_of m c main_arg5 (by decide)).trans <| (U44_of m c main_arg5 (by decide)).trans <| (U43_of m c main_arg5 (by decide)).trans <| (U42_of m c main_arg5 (by decide)).trans <| (U41_of m c main_arg5 (by decide)).trans <| (U40_of m c main_arg5 (by decide)).trans <| (U39_of m c main_arg5 (by decide)).trans <| (U38_of m c main_arg5 (by decide)).trans <| (U37_of m c main_arg5 (by decide)).trans <| (U36_of m c main_arg5 (by decide)).trans <| (U35_of m c main_arg5 (by decide)).trans <| (U34_of m c main_arg5 (by decide)).trans <| (U33_of m c main_arg5 (by decide)).trans <| (U32_of m c main_arg5 (by decide)).trans <| (U31_of m c main_arg5 (by decide)).trans <| (U30_of m c main_arg5 (by decide)).trans <| (U29_of m c main_arg5 (by decide)).trans <| (U28_of m c main_arg5 (by decide)).trans <| (U27_of m c main_arg5 (by decide)).trans <| (U26_of m c main_arg5 (by decide)).trans <| (U25_of m c main_arg5 (by decide)).trans <| (U24_of m c main_arg5 (by decide)).trans <| (U23_of m c main_arg5 (by decide)).trans <| (U22_of m c main_arg5 (by decide)).trans <| (U21_of m c main_arg5 (by decide)).trans <| (U20_of m c main_arg5 (by decide)).trans <| (U19_of m c main_arg5 (by decide)).trans <| (U18_of m c main_arg5 (by decide)).trans <| (U17_of m c main_arg5 (by decide)).trans <| (U16_of m c main_arg5 (by decide)).trans <| (U15_of m c main_arg5 (by decide)).trans <| (U14_of m c main_arg5 (by decide)).trans <| (U13_of m c main_arg5 (by decide)).trans <| (U12_of m c main_arg5 (by decide)).trans <| (U11_of m c main_arg5 (by decide)).trans <| (U10_of m c main_arg5 (by decide)).trans <| (U9_of m c main_arg5 (by decide)).trans <| (U8_of m c main_arg5 (by decide)).trans <| (U7_of m c main_arg5 (by decide)).trans <| (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide))
/-- main_arg6 at item 53 is as item 0 left it (the launch memory). -/
theorem walk53_main_arg6 (c : Dev nD) : U53 m c main_arg6 = U0 m c main_arg6 :=
  (U53_of m c main_arg6 (by decide)).trans <| (U52_of m c main_arg6 (by decide)).trans <| (U51_of m c main_arg6 (by decide)).trans <| (U50_of m c main_arg6 (by decide)).trans <| (U49_of m c main_arg6 (by decide)).trans <| (U48_of m c main_arg6 (by decide)).trans <| (U47_of m c main_arg6 (by decide)).trans <| (U46_of m c main_arg6 (by decide)).trans <| (U45_of m c main_arg6 (by decide)).trans <| (U44_of m c main_arg6 (by decide)).trans <| (U43_of m c main_arg6 (by decide)).trans <| (U42_of m c main_arg6 (by decide)).trans <| (U41_of m c main_arg6 (by decide)).trans <| (U40_of m c main_arg6 (by decide)).trans <| (U39_of m c main_arg6 (by decide)).trans <| (U38_of m c main_arg6 (by decide)).trans <| (U37_of m c main_arg6 (by decide)).trans <| (U36_of m c main_arg6 (by decide)).trans <| (U35_of m c main_arg6 (by decide)).trans <| (U34_of m c main_arg6 (by decide)).trans <| (U33_of m c main_arg6 (by decide)).trans <| (U32_of m c main_arg6 (by decide)).trans <| (U31_of m c main_arg6 (by decide)).trans <| (U30_of m c main_arg6 (by decide)).trans <| (U29_of m c main_arg6 (by decide)).trans <| (U28_of m c main_arg6 (by decide)).trans <| (U27_of m c main_arg6 (by decide)).trans <| (U26_of m c main_arg6 (by decide)).trans <| (U25_of m c main_arg6 (by decide)).trans <| (U24_of m c main_arg6 (by decide)).trans <| (U23_of m c main_arg6 (by decide)).trans <| (U22_of m c main_arg6 (by decide)).trans <| (U21_of m c main_arg6 (by decide)).trans <| (U20_of m c main_arg6 (by decide)).trans <| (U19_of m c main_arg6 (by decide)).trans <| (U18_of m c main_arg6 (by decide)).trans <| (U17_of m c main_arg6 (by decide)).trans <| (U16_of m c main_arg6 (by decide)).trans <| (U15_of m c main_arg6 (by decide)).trans <| (U14_of m c main_arg6 (by decide)).trans <| (U13_of m c main_arg6 (by decide)).trans <| (U12_of m c main_arg6 (by decide)).trans <| (U11_of m c main_arg6 (by decide)).trans <| (U10_of m c main_arg6 (by decide)).trans <| (U9_of m c main_arg6 (by decide)).trans <| (U8_of m c main_arg6 (by decide)).trans <| (U7_of m c main_arg6 (by decide)).trans <| (U6_of m c main_arg6 (by decide)).trans <| (U5_of m c main_arg6 (by decide)).trans <| (U4_of m c main_arg6 (by decide)).trans <| (U3_of m c main_arg6 (by decide)).trans <| (U2_of m c main_arg6 (by decide)).trans <| (U1_of m c main_arg6 (by decide))
/-- main_arg7 at item 53 is as item 0 left it (the launch memory). -/
theorem walk53_main_arg7 (c : Dev nD) : U53 m c main_arg7 = U0 m c main_arg7 :=
  (U53_of m c main_arg7 (by decide)).trans <| (U52_of m c main_arg7 (by decide)).trans <| (U51_of m c main_arg7 (by decide)).trans <| (U50_of m c main_arg7 (by decide)).trans <| (U49_of m c main_arg7 (by decide)).trans <| (U48_of m c main_arg7 (by decide)).trans <| (U47_of m c main_arg7 (by decide)).trans <| (U46_of m c main_arg7 (by decide)).trans <| (U45_of m c main_arg7 (by decide)).trans <| (U44_of m c main_arg7 (by decide)).trans <| (U43_of m c main_arg7 (by decide)).trans <| (U42_of m c main_arg7 (by decide)).trans <| (U41_of m c main_arg7 (by decide)).trans <| (U40_of m c main_arg7 (by decide)).trans <| (U39_of m c main_arg7 (by decide)).trans <| (U38_of m c main_arg7 (by decide)).trans <| (U37_of m c main_arg7 (by decide)).trans <| (U36_of m c main_arg7 (by decide)).trans <| (U35_of m c main_arg7 (by decide)).trans <| (U34_of m c main_arg7 (by decide)).trans <| (U33_of m c main_arg7 (by decide)).trans <| (U32_of m c main_arg7 (by decide)).trans <| (U31_of m c main_arg7 (by decide)).trans <| (U30_of m c main_arg7 (by decide)).trans <| (U29_of m c main_arg7 (by decide)).trans <| (U28_of m c main_arg7 (by decide)).trans <| (U27_of m c main_arg7 (by decide)).trans <| (U26_of m c main_arg7 (by decide)).trans <| (U25_of m c main_arg7 (by decide)).trans <| (U24_of m c main_arg7 (by decide)).trans <| (U23_of m c main_arg7 (by decide)).trans <| (U22_of m c main_arg7 (by decide)).trans <| (U21_of m c main_arg7 (by decide)).trans <| (U20_of m c main_arg7 (by decide)).trans <| (U19_of m c main_arg7 (by decide)).trans <| (U18_of m c main_arg7 (by decide)).trans <| (U17_of m c main_arg7 (by decide)).trans <| (U16_of m c main_arg7 (by decide)).trans <| (U15_of m c main_arg7 (by decide)).trans <| (U14_of m c main_arg7 (by decide)).trans <| (U13_of m c main_arg7 (by decide)).trans <| (U12_of m c main_arg7 (by decide)).trans <| (U11_of m c main_arg7 (by decide)).trans <| (U10_of m c main_arg7 (by decide)).trans <| (U9_of m c main_arg7 (by decide)).trans <| (U8_of m c main_arg7 (by decide)).trans <| (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide))
/-- main_arg8 at item 53 is as item 0 left it (the launch memory). -/
theorem walk53_main_arg8 (c : Dev nD) : U53 m c main_arg8 = U0 m c main_arg8 :=
  (U53_of m c main_arg8 (by decide)).trans <| (U52_of m c main_arg8 (by decide)).trans <| (U51_of m c main_arg8 (by decide)).trans <| (U50_of m c main_arg8 (by decide)).trans <| (U49_of m c main_arg8 (by decide)).trans <| (U48_of m c main_arg8 (by decide)).trans <| (U47_of m c main_arg8 (by decide)).trans <| (U46_of m c main_arg8 (by decide)).trans <| (U45_of m c main_arg8 (by decide)).trans <| (U44_of m c main_arg8 (by decide)).trans <| (U43_of m c main_arg8 (by decide)).trans <| (U42_of m c main_arg8 (by decide)).trans <| (U41_of m c main_arg8 (by decide)).trans <| (U40_of m c main_arg8 (by decide)).trans <| (U39_of m c main_arg8 (by decide)).trans <| (U38_of m c main_arg8 (by decide)).trans <| (U37_of m c main_arg8 (by decide)).trans <| (U36_of m c main_arg8 (by decide)).trans <| (U35_of m c main_arg8 (by decide)).trans <| (U34_of m c main_arg8 (by decide)).trans <| (U33_of m c main_arg8 (by decide)).trans <| (U32_of m c main_arg8 (by decide)).trans <| (U31_of m c main_arg8 (by decide)).trans <| (U30_of m c main_arg8 (by decide)).trans <| (U29_of m c main_arg8 (by decide)).trans <| (U28_of m c main_arg8 (by decide)).trans <| (U27_of m c main_arg8 (by decide)).trans <| (U26_of m c main_arg8 (by decide)).trans <| (U25_of m c main_arg8 (by decide)).trans <| (U24_of m c main_arg8 (by decide)).trans <| (U23_of m c main_arg8 (by decide)).trans <| (U22_of m c main_arg8 (by decide)).trans <| (U21_of m c main_arg8 (by decide)).trans <| (U20_of m c main_arg8 (by decide)).trans <| (U19_of m c main_arg8 (by decide)).trans <| (U18_of m c main_arg8 (by decide)).trans <| (U17_of m c main_arg8 (by decide)).trans <| (U16_of m c main_arg8 (by decide)).trans <| (U15_of m c main_arg8 (by decide)).trans <| (U14_of m c main_arg8 (by decide)).trans <| (U13_of m c main_arg8 (by decide)).trans <| (U12_of m c main_arg8 (by decide)).trans <| (U11_of m c main_arg8 (by decide)).trans <| (U10_of m c main_arg8 (by decide)).trans <| (U9_of m c main_arg8 (by decide)).trans <| (U8_of m c main_arg8 (by decide)).trans <| (U7_of m c main_arg8 (by decide)).trans <| (U6_of m c main_arg8 (by decide)).trans <| (U5_of m c main_arg8 (by decide)).trans <| (U4_of m c main_arg8 (by decide)).trans <| (U3_of m c main_arg8 (by decide)).trans <| (U2_of m c main_arg8 (by decide)).trans <| (U1_of m c main_arg8 (by decide))
/-- main_arg9 at item 53 is as item 0 left it (the launch memory). -/
theorem walk53_main_arg9 (c : Dev nD) : U53 m c main_arg9 = U0 m c main_arg9 :=
  (U53_of m c main_arg9 (by decide)).trans <| (U52_of m c main_arg9 (by decide)).trans <| (U51_of m c main_arg9 (by decide)).trans <| (U50_of m c main_arg9 (by decide)).trans <| (U49_of m c main_arg9 (by decide)).trans <| (U48_of m c main_arg9 (by decide)).trans <| (U47_of m c main_arg9 (by decide)).trans <| (U46_of m c main_arg9 (by decide)).trans <| (U45_of m c main_arg9 (by decide)).trans <| (U44_of m c main_arg9 (by decide)).trans <| (U43_of m c main_arg9 (by decide)).trans <| (U42_of m c main_arg9 (by decide)).trans <| (U41_of m c main_arg9 (by decide)).trans <| (U40_of m c main_arg9 (by decide)).trans <| (U39_of m c main_arg9 (by decide)).trans <| (U38_of m c main_arg9 (by decide)).trans <| (U37_of m c main_arg9 (by decide)).trans <| (U36_of m c main_arg9 (by decide)).trans <| (U35_of m c main_arg9 (by decide)).trans <| (U34_of m c main_arg9 (by decide)).trans <| (U33_of m c main_arg9 (by decide)).trans <| (U32_of m c main_arg9 (by decide)).trans <| (U31_of m c main_arg9 (by decide)).trans <| (U30_of m c main_arg9 (by decide)).trans <| (U29_of m c main_arg9 (by decide)).trans <| (U28_of m c main_arg9 (by decide)).trans <| (U27_of m c main_arg9 (by decide)).trans <| (U26_of m c main_arg9 (by decide)).trans <| (U25_of m c main_arg9 (by decide)).trans <| (U24_of m c main_arg9 (by decide)).trans <| (U23_of m c main_arg9 (by decide)).trans <| (U22_of m c main_arg9 (by decide)).trans <| (U21_of m c main_arg9 (by decide)).trans <| (U20_of m c main_arg9 (by decide)).trans <| (U19_of m c main_arg9 (by decide)).trans <| (U18_of m c main_arg9 (by decide)).trans <| (U17_of m c main_arg9 (by decide)).trans <| (U16_of m c main_arg9 (by decide)).trans <| (U15_of m c main_arg9 (by decide)).trans <| (U14_of m c main_arg9 (by decide)).trans <| (U13_of m c main_arg9 (by decide)).trans <| (U12_of m c main_arg9 (by decide)).trans <| (U11_of m c main_arg9 (by decide)).trans <| (U10_of m c main_arg9 (by decide)).trans <| (U9_of m c main_arg9 (by decide)).trans <| (U8_of m c main_arg9 (by decide)).trans <| (U7_of m c main_arg9 (by decide)).trans <| (U6_of m c main_arg9 (by decide)).trans <| (U5_of m c main_arg9 (by decide)).trans <| (U4_of m c main_arg9 (by decide)).trans <| (U3_of m c main_arg9 (by decide)).trans <| (U2_of m c main_arg9 (by decide)).trans <| (U1_of m c main_arg9 (by decide))
/-- main_arg10 at item 53 is as item 0 left it (the launch memory). -/
theorem walk53_main_arg10 (c : Dev nD) : U53 m c main_arg10 = U0 m c main_arg10 :=
  (U53_of m c main_arg10 (by decide)).trans <| (U52_of m c main_arg10 (by decide)).trans <| (U51_of m c main_arg10 (by decide)).trans <| (U50_of m c main_arg10 (by decide)).trans <| (U49_of m c main_arg10 (by decide)).trans <| (U48_of m c main_arg10 (by decide)).trans <| (U47_of m c main_arg10 (by decide)).trans <| (U46_of m c main_arg10 (by decide)).trans <| (U45_of m c main_arg10 (by decide)).trans <| (U44_of m c main_arg10 (by decide)).trans <| (U43_of m c main_arg10 (by decide)).trans <| (U42_of m c main_arg10 (by decide)).trans <| (U41_of m c main_arg10 (by decide)).trans <| (U40_of m c main_arg10 (by decide)).trans <| (U39_of m c main_arg10 (by decide)).trans <| (U38_of m c main_arg10 (by decide)).trans <| (U37_of m c main_arg10 (by decide)).trans <| (U36_of m c main_arg10 (by decide)).trans <| (U35_of m c main_arg10 (by decide)).trans <| (U34_of m c main_arg10 (by decide)).trans <| (U33_of m c main_arg10 (by decide)).trans <| (U32_of m c main_arg10 (by decide)).trans <| (U31_of m c main_arg10 (by decide)).trans <| (U30_of m c main_arg10 (by decide)).trans <| (U29_of m c main_arg10 (by decide)).trans <| (U28_of m c main_arg10 (by decide)).trans <| (U27_of m c main_arg10 (by decide)).trans <| (U26_of m c main_arg10 (by decide)).trans <| (U25_of m c main_arg10 (by decide)).trans <| (U24_of m c main_arg10 (by decide)).trans <| (U23_of m c main_arg10 (by decide)).trans <| (U22_of m c main_arg10 (by decide)).trans <| (U21_of m c main_arg10 (by decide)).trans <| (U20_of m c main_arg10 (by decide)).trans <| (U19_of m c main_arg10 (by decide)).trans <| (U18_of m c main_arg10 (by decide)).trans <| (U17_of m c main_arg10 (by decide)).trans <| (U16_of m c main_arg10 (by decide)).trans <| (U15_of m c main_arg10 (by decide)).trans <| (U14_of m c main_arg10 (by decide)).trans <| (U13_of m c main_arg10 (by decide)).trans <| (U12_of m c main_arg10 (by decide)).trans <| (U11_of m c main_arg10 (by decide)).trans <| (U10_of m c main_arg10 (by decide)).trans <| (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide))
/-- main_arg11 at item 53 is as item 0 left it (the launch memory). -/
theorem walk53_main_arg11 (c : Dev nD) : U53 m c main_arg11 = U0 m c main_arg11 :=
  (U53_of m c main_arg11 (by decide)).trans <| (U52_of m c main_arg11 (by decide)).trans <| (U51_of m c main_arg11 (by decide)).trans <| (U50_of m c main_arg11 (by decide)).trans <| (U49_of m c main_arg11 (by decide)).trans <| (U48_of m c main_arg11 (by decide)).trans <| (U47_of m c main_arg11 (by decide)).trans <| (U46_of m c main_arg11 (by decide)).trans <| (U45_of m c main_arg11 (by decide)).trans <| (U44_of m c main_arg11 (by decide)).trans <| (U43_of m c main_arg11 (by decide)).trans <| (U42_of m c main_arg11 (by decide)).trans <| (U41_of m c main_arg11 (by decide)).trans <| (U40_of m c main_arg11 (by decide)).trans <| (U39_of m c main_arg11 (by decide)).trans <| (U38_of m c main_arg11 (by decide)).trans <| (U37_of m c main_arg11 (by decide)).trans <| (U36_of m c main_arg11 (by decide)).trans <| (U35_of m c main_arg11 (by decide)).trans <| (U34_of m c main_arg11 (by decide)).trans <| (U33_of m c main_arg11 (by decide)).trans <| (U32_of m c main_arg11 (by decide)).trans <| (U31_of m c main_arg11 (by decide)).trans <| (U30_of m c main_arg11 (by decide)).trans <| (U29_of m c main_arg11 (by decide)).trans <| (U28_of m c main_arg11 (by decide)).trans <| (U27_of m c main_arg11 (by decide)).trans <| (U26_of m c main_arg11 (by decide)).trans <| (U25_of m c main_arg11 (by decide)).trans <| (U24_of m c main_arg11 (by decide)).trans <| (U23_of m c main_arg11 (by decide)).trans <| (U22_of m c main_arg11 (by decide)).trans <| (U21_of m c main_arg11 (by decide)).trans <| (U20_of m c main_arg11 (by decide)).trans <| (U19_of m c main_arg11 (by decide)).trans <| (U18_of m c main_arg11 (by decide)).trans <| (U17_of m c main_arg11 (by decide)).trans <| (U16_of m c main_arg11 (by decide)).trans <| (U15_of m c main_arg11 (by decide)).trans <| (U14_of m c main_arg11 (by decide)).trans <| (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
/-- main_arg12 at item 53 is as item 0 left it (the launch memory). -/
theorem walk53_main_arg12 (c : Dev nD) : U53 m c main_arg12 = U0 m c main_arg12 :=
  (U53_of m c main_arg12 (by decide)).trans <| (U52_of m c main_arg12 (by decide)).trans <| (U51_of m c main_arg12 (by decide)).trans <| (U50_of m c main_arg12 (by decide)).trans <| (U49_of m c main_arg12 (by decide)).trans <| (U48_of m c main_arg12 (by decide)).trans <| (U47_of m c main_arg12 (by decide)).trans <| (U46_of m c main_arg12 (by decide)).trans <| (U45_of m c main_arg12 (by decide)).trans <| (U44_of m c main_arg12 (by decide)).trans <| (U43_of m c main_arg12 (by decide)).trans <| (U42_of m c main_arg12 (by decide)).trans <| (U41_of m c main_arg12 (by decide)).trans <| (U40_of m c main_arg12 (by decide)).trans <| (U39_of m c main_arg12 (by decide)).trans <| (U38_of m c main_arg12 (by decide)).trans <| (U37_of m c main_arg12 (by decide)).trans <| (U36_of m c main_arg12 (by decide)).trans <| (U35_of m c main_arg12 (by decide)).trans <| (U34_of m c main_arg12 (by decide)).trans <| (U33_of m c main_arg12 (by decide)).trans <| (U32_of m c main_arg12 (by decide)).trans <| (U31_of m c main_arg12 (by decide)).trans <| (U30_of m c main_arg12 (by decide)).trans <| (U29_of m c main_arg12 (by decide)).trans <| (U28_of m c main_arg12 (by decide)).trans <| (U27_of m c main_arg12 (by decide)).trans <| (U26_of m c main_arg12 (by decide)).trans <| (U25_of m c main_arg12 (by decide)).trans <| (U24_of m c main_arg12 (by decide)).trans <| (U23_of m c main_arg12 (by decide)).trans <| (U22_of m c main_arg12 (by decide)).trans <| (U21_of m c main_arg12 (by decide)).trans <| (U20_of m c main_arg12 (by decide)).trans <| (U19_of m c main_arg12 (by decide)).trans <| (U18_of m c main_arg12 (by decide)).trans <| (U17_of m c main_arg12 (by decide)).trans <| (U16_of m c main_arg12 (by decide)).trans <| (U15_of m c main_arg12 (by decide)).trans <| (U14_of m c main_arg12 (by decide)).trans <| (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
/-- main_arg13 at item 53 is as item 0 left it (the launch memory). -/
theorem walk53_main_arg13 (c : Dev nD) : U53 m c main_arg13 = U0 m c main_arg13 :=
  (U53_of m c main_arg13 (by decide)).trans <| (U52_of m c main_arg13 (by decide)).trans <| (U51_of m c main_arg13 (by decide)).trans <| (U50_of m c main_arg13 (by decide)).trans <| (U49_of m c main_arg13 (by decide)).trans <| (U48_of m c main_arg13 (by decide)).trans <| (U47_of m c main_arg13 (by decide)).trans <| (U46_of m c main_arg13 (by decide)).trans <| (U45_of m c main_arg13 (by decide)).trans <| (U44_of m c main_arg13 (by decide)).trans <| (U43_of m c main_arg13 (by decide)).trans <| (U42_of m c main_arg13 (by decide)).trans <| (U41_of m c main_arg13 (by decide)).trans <| (U40_of m c main_arg13 (by decide)).trans <| (U39_of m c main_arg13 (by decide)).trans <| (U38_of m c main_arg13 (by decide)).trans <| (U37_of m c main_arg13 (by decide)).trans <| (U36_of m c main_arg13 (by decide)).trans <| (U35_of m c main_arg13 (by decide)).trans <| (U34_of m c main_arg13 (by decide)).trans <| (U33_of m c main_arg13 (by decide)).trans <| (U32_of m c main_arg13 (by decide)).trans <| (U31_of m c main_arg13 (by decide)).trans <| (U30_of m c main_arg13 (by decide)).trans <| (U29_of m c main_arg13 (by decide)).trans <| (U28_of m c main_arg13 (by decide)).trans <| (U27_of m c main_arg13 (by decide)).trans <| (U26_of m c main_arg13 (by decide)).trans <| (U25_of m c main_arg13 (by decide)).trans <| (U24_of m c main_arg13 (by decide)).trans <| (U23_of m c main_arg13 (by decide)).trans <| (U22_of m c main_arg13 (by decide)).trans <| (U21_of m c main_arg13 (by decide)).trans <| (U20_of m c main_arg13 (by decide)).trans <| (U19_of m c main_arg13 (by decide)).trans <| (U18_of m c main_arg13 (by decide)).trans <| (U17_of m c main_arg13 (by decide)).trans <| (U16_of m c main_arg13 (by decide)).trans <| (U15_of m c main_arg13 (by decide)).trans <| (U14_of m c main_arg13 (by decide)).trans <| (U13_of m c main_arg13 (by decide)).trans <| (U12_of m c main_arg13 (by decide)).trans <| (U11_of m c main_arg13 (by decide)).trans <| (U10_of m c main_arg13 (by decide)).trans <| (U9_of m c main_arg13 (by decide)).trans <| (U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide))
/-- main_arg14 at item 53 is as item 0 left it (the launch memory). -/
theorem walk53_main_arg14 (c : Dev nD) : U53 m c main_arg14 = U0 m c main_arg14 :=
  (U53_of m c main_arg14 (by decide)).trans <| (U52_of m c main_arg14 (by decide)).trans <| (U51_of m c main_arg14 (by decide)).trans <| (U50_of m c main_arg14 (by decide)).trans <| (U49_of m c main_arg14 (by decide)).trans <| (U48_of m c main_arg14 (by decide)).trans <| (U47_of m c main_arg14 (by decide)).trans <| (U46_of m c main_arg14 (by decide)).trans <| (U45_of m c main_arg14 (by decide)).trans <| (U44_of m c main_arg14 (by decide)).trans <| (U43_of m c main_arg14 (by decide)).trans <| (U42_of m c main_arg14 (by decide)).trans <| (U41_of m c main_arg14 (by decide)).trans <| (U40_of m c main_arg14 (by decide)).trans <| (U39_of m c main_arg14 (by decide)).trans <| (U38_of m c main_arg14 (by decide)).trans <| (U37_of m c main_arg14 (by decide)).trans <| (U36_of m c main_arg14 (by decide)).trans <| (U35_of m c main_arg14 (by decide)).trans <| (U34_of m c main_arg14 (by decide)).trans <| (U33_of m c main_arg14 (by decide)).trans <| (U32_of m c main_arg14 (by decide)).trans <| (U31_of m c main_arg14 (by decide)).trans <| (U30_of m c main_arg14 (by decide)).trans <| (U29_of m c main_arg14 (by decide)).trans <| (U28_of m c main_arg14 (by decide)).trans <| (U27_of m c main_arg14 (by decide)).trans <| (U26_of m c main_arg14 (by decide)).trans <| (U25_of m c main_arg14 (by decide)).trans <| (U24_of m c main_arg14 (by decide)).trans <| (U23_of m c main_arg14 (by decide)).trans <| (U22_of m c main_arg14 (by decide)).trans <| (U21_of m c main_arg14 (by decide)).trans <| (U20_of m c main_arg14 (by decide)).trans <| (U19_of m c main_arg14 (by decide)).trans <| (U18_of m c main_arg14 (by decide)).trans <| (U17_of m c main_arg14 (by decide)).trans <| (U16_of m c main_arg14 (by decide)).trans <| (U15_of m c main_arg14 (by decide)).trans <| (U14_of m c main_arg14 (by decide)).trans <| (U13_of m c main_arg14 (by decide)).trans <| (U12_of m c main_arg14 (by decide)).trans <| (U11_of m c main_arg14 (by decide)).trans <| (U10_of m c main_arg14 (by decide)).trans <| (U9_of m c main_arg14 (by decide)).trans <| (U8_of m c main_arg14 (by decide)).trans <| (U7_of m c main_arg14 (by decide)).trans <| (U6_of m c main_arg14 (by decide)).trans <| (U5_of m c main_arg14 (by decide)).trans <| (U4_of m c main_arg14 (by decide)).trans <| (U3_of m c main_arg14 (by decide)).trans <| (U2_of m c main_arg14 (by decide)).trans <| (U1_of m c main_arg14 (by decide))
/-- main_arg15 at item 53 is as item 0 left it (the launch memory). -/
theorem walk53_main_arg15 (c : Dev nD) : U53 m c main_arg15 = U0 m c main_arg15 :=
  (U53_of m c main_arg15 (by decide)).trans <| (U52_of m c main_arg15 (by decide)).trans <| (U51_of m c main_arg15 (by decide)).trans <| (U50_of m c main_arg15 (by decide)).trans <| (U49_of m c main_arg15 (by decide)).trans <| (U48_of m c main_arg15 (by decide)).trans <| (U47_of m c main_arg15 (by decide)).trans <| (U46_of m c main_arg15 (by decide)).trans <| (U45_of m c main_arg15 (by decide)).trans <| (U44_of m c main_arg15 (by decide)).trans <| (U43_of m c main_arg15 (by decide)).trans <| (U42_of m c main_arg15 (by decide)).trans <| (U41_of m c main_arg15 (by decide)).trans <| (U40_of m c main_arg15 (by decide)).trans <| (U39_of m c main_arg15 (by decide)).trans <| (U38_of m c main_arg15 (by decide)).trans <| (U37_of m c main_arg15 (by decide)).trans <| (U36_of m c main_arg15 (by decide)).trans <| (U35_of m c main_arg15 (by decide)).trans <| (U34_of m c main_arg15 (by decide)).trans <| (U33_of m c main_arg15 (by decide)).trans <| (U32_of m c main_arg15 (by decide)).trans <| (U31_of m c main_arg15 (by decide)).trans <| (U30_of m c main_arg15 (by decide)).trans <| (U29_of m c main_arg15 (by decide)).trans <| (U28_of m c main_arg15 (by decide)).trans <| (U27_of m c main_arg15 (by decide)).trans <| (U26_of m c main_arg15 (by decide)).trans <| (U25_of m c main_arg15 (by decide)).trans <| (U24_of m c main_arg15 (by decide)).trans <| (U23_of m c main_arg15 (by decide)).trans <| (U22_of m c main_arg15 (by decide)).trans <| (U21_of m c main_arg15 (by decide)).trans <| (U20_of m c main_arg15 (by decide)).trans <| (U19_of m c main_arg15 (by decide)).trans <| (U18_of m c main_arg15 (by decide)).trans <| (U17_of m c main_arg15 (by decide)).trans <| (U16_of m c main_arg15 (by decide)).trans <| (U15_of m c main_arg15 (by decide)).trans <| (U14_of m c main_arg15 (by decide)).trans <| (U13_of m c main_arg15 (by decide)).trans <| (U12_of m c main_arg15 (by decide)).trans <| (U11_of m c main_arg15 (by decide)).trans <| (U10_of m c main_arg15 (by decide)).trans <| (U9_of m c main_arg15 (by decide)).trans <| (U8_of m c main_arg15 (by decide)).trans <| (U7_of m c main_arg15 (by decide)).trans <| (U6_of m c main_arg15 (by decide)).trans <| (U5_of m c main_arg15 (by decide)).trans <| (U4_of m c main_arg15 (by decide)).trans <| (U3_of m c main_arg15 (by decide)).trans <| (U2_of m c main_arg15 (by decide)).trans <| (U1_of m c main_arg15 (by decide))
/-- main_arg16 at item 53 is as item 0 left it (the launch memory). -/
theorem walk53_main_arg16 (c : Dev nD) : U53 m c main_arg16 = U0 m c main_arg16 :=
  (U53_of m c main_arg16 (by decide)).trans <| (U52_of m c main_arg16 (by decide)).trans <| (U51_of m c main_arg16 (by decide)).trans <| (U50_of m c main_arg16 (by decide)).trans <| (U49_of m c main_arg16 (by decide)).trans <| (U48_of m c main_arg16 (by decide)).trans <| (U47_of m c main_arg16 (by decide)).trans <| (U46_of m c main_arg16 (by decide)).trans <| (U45_of m c main_arg16 (by decide)).trans <| (U44_of m c main_arg16 (by decide)).trans <| (U43_of m c main_arg16 (by decide)).trans <| (U42_of m c main_arg16 (by decide)).trans <| (U41_of m c main_arg16 (by decide)).trans <| (U40_of m c main_arg16 (by decide)).trans <| (U39_of m c main_arg16 (by decide)).trans <| (U38_of m c main_arg16 (by decide)).trans <| (U37_of m c main_arg16 (by decide)).trans <| (U36_of m c main_arg16 (by decide)).trans <| (U35_of m c main_arg16 (by decide)).trans <| (U34_of m c main_arg16 (by decide)).trans <| (U33_of m c main_arg16 (by decide)).trans <| (U32_of m c main_arg16 (by decide)).trans <| (U31_of m c main_arg16 (by decide)).trans <| (U30_of m c main_arg16 (by decide)).trans <| (U29_of m c main_arg16 (by decide)).trans <| (U28_of m c main_arg16 (by decide)).trans <| (U27_of m c main_arg16 (by decide)).trans <| (U26_of m c main_arg16 (by decide)).trans <| (U25_of m c main_arg16 (by decide)).trans <| (U24_of m c main_arg16 (by decide)).trans <| (U23_of m c main_arg16 (by decide)).trans <| (U22_of m c main_arg16 (by decide)).trans <| (U21_of m c main_arg16 (by decide)).trans <| (U20_of m c main_arg16 (by decide)).trans <| (U19_of m c main_arg16 (by decide)).trans <| (U18_of m c main_arg16 (by decide)).trans <| (U17_of m c main_arg16 (by decide)).trans <| (U16_of m c main_arg16 (by decide)).trans <| (U15_of m c main_arg16 (by decide)).trans <| (U14_of m c main_arg16 (by decide)).trans <| (U13_of m c main_arg16 (by decide)).trans <| (U12_of m c main_arg16 (by decide)).trans <| (U11_of m c main_arg16 (by decide)).trans <| (U10_of m c main_arg16 (by decide)).trans <| (U9_of m c main_arg16 (by decide)).trans <| (U8_of m c main_arg16 (by decide)).trans <| (U7_of m c main_arg16 (by decide)).trans <| (U6_of m c main_arg16 (by decide)).trans <| (U5_of m c main_arg16 (by decide)).trans <| (U4_of m c main_arg16 (by decide)).trans <| (U3_of m c main_arg16 (by decide)).trans <| (U2_of m c main_arg16 (by decide)).trans <| (U1_of m c main_arg16 (by decide))
/-- main_arg17 at item 53 is as item 0 left it (the launch memory). -/
theorem walk53_main_arg17 (c : Dev nD) : U53 m c main_arg17 = U0 m c main_arg17 :=
  (U53_of m c main_arg17 (by decide)).trans <| (U52_of m c main_arg17 (by decide)).trans <| (U51_of m c main_arg17 (by decide)).trans <| (U50_of m c main_arg17 (by decide)).trans <| (U49_of m c main_arg17 (by decide)).trans <| (U48_of m c main_arg17 (by decide)).trans <| (U47_of m c main_arg17 (by decide)).trans <| (U46_of m c main_arg17 (by decide)).trans <| (U45_of m c main_arg17 (by decide)).trans <| (U44_of m c main_arg17 (by decide)).trans <| (U43_of m c main_arg17 (by decide)).trans <| (U42_of m c main_arg17 (by decide)).trans <| (U41_of m c main_arg17 (by decide)).trans <| (U40_of m c main_arg17 (by decide)).trans <| (U39_of m c main_arg17 (by decide)).trans <| (U38_of m c main_arg17 (by decide)).trans <| (U37_of m c main_arg17 (by decide)).trans <| (U36_of m c main_arg17 (by decide)).trans <| (U35_of m c main_arg17 (by decide)).trans <| (U34_of m c main_arg17 (by decide)).trans <| (U33_of m c main_arg17 (by decide)).trans <| (U32_of m c main_arg17 (by decide)).trans <| (U31_of m c main_arg17 (by decide)).trans <| (U30_of m c main_arg17 (by decide)).trans <| (U29_of m c main_arg17 (by decide)).trans <| (U28_of m c main_arg17 (by decide)).trans <| (U27_of m c main_arg17 (by decide)).trans <| (U26_of m c main_arg17 (by decide)).trans <| (U25_of m c main_arg17 (by decide)).trans <| (U24_of m c main_arg17 (by decide)).trans <| (U23_of m c main_arg17 (by decide)).trans <| (U22_of m c main_arg17 (by decide)).trans <| (U21_of m c main_arg17 (by decide)).trans <| (U20_of m c main_arg17 (by decide)).trans <| (U19_of m c main_arg17 (by decide)).trans <| (U18_of m c main_arg17 (by decide)).trans <| (U17_of m c main_arg17 (by decide)).trans <| (U16_of m c main_arg17 (by decide)).trans <| (U15_of m c main_arg17 (by decide)).trans <| (U14_of m c main_arg17 (by decide)).trans <| (U13_of m c main_arg17 (by decide)).trans <| (U12_of m c main_arg17 (by decide)).trans <| (U11_of m c main_arg17 (by decide)).trans <| (U10_of m c main_arg17 (by decide)).trans <| (U9_of m c main_arg17 (by decide)).trans <| (U8_of m c main_arg17 (by decide)).trans <| (U7_of m c main_arg17 (by decide)).trans <| (U6_of m c main_arg17 (by decide)).trans <| (U5_of m c main_arg17 (by decide)).trans <| (U4_of m c main_arg17 (by decide)).trans <| (U3_of m c main_arg17 (by decide)).trans <| (U2_of m c main_arg17 (by decide)).trans <| (U1_of m c main_arg17 (by decide))
/-- main_arg18 at item 53 is as item 0 left it (the launch memory). -/
theorem walk53_main_arg18 (c : Dev nD) : U53 m c main_arg18 = U0 m c main_arg18 :=
  (U53_of m c main_arg18 (by decide)).trans <| (U52_of m c main_arg18 (by decide)).trans <| (U51_of m c main_arg18 (by decide)).trans <| (U50_of m c main_arg18 (by decide)).trans <| (U49_of m c main_arg18 (by decide)).trans <| (U48_of m c main_arg18 (by decide)).trans <| (U47_of m c main_arg18 (by decide)).trans <| (U46_of m c main_arg18 (by decide)).trans <| (U45_of m c main_arg18 (by decide)).trans <| (U44_of m c main_arg18 (by decide)).trans <| (U43_of m c main_arg18 (by decide)).trans <| (U42_of m c main_arg18 (by decide)).trans <| (U41_of m c main_arg18 (by decide)).trans <| (U40_of m c main_arg18 (by decide)).trans <| (U39_of m c main_arg18 (by decide)).trans <| (U38_of m c main_arg18 (by decide)).trans <| (U37_of m c main_arg18 (by decide)).trans <| (U36_of m c main_arg18 (by decide)).trans <| (U35_of m c main_arg18 (by decide)).trans <| (U34_of m c main_arg18 (by decide)).trans <| (U33_of m c main_arg18 (by decide)).trans <| (U32_of m c main_arg18 (by decide)).trans <| (U31_of m c main_arg18 (by decide)).trans <| (U30_of m c main_arg18 (by decide)).trans <| (U29_of m c main_arg18 (by decide)).trans <| (U28_of m c main_arg18 (by decide)).trans <| (U27_of m c main_arg18 (by decide)).trans <| (U26_of m c main_arg18 (by decide)).trans <| (U25_of m c main_arg18 (by decide)).trans <| (U24_of m c main_arg18 (by decide)).trans <| (U23_of m c main_arg18 (by decide)).trans <| (U22_of m c main_arg18 (by decide)).trans <| (U21_of m c main_arg18 (by decide)).trans <| (U20_of m c main_arg18 (by decide)).trans <| (U19_of m c main_arg18 (by decide)).trans <| (U18_of m c main_arg18 (by decide)).trans <| (U17_of m c main_arg18 (by decide)).trans <| (U16_of m c main_arg18 (by decide)).trans <| (U15_of m c main_arg18 (by decide)).trans <| (U14_of m c main_arg18 (by decide)).trans <| (U13_of m c main_arg18 (by decide)).trans <| (U12_of m c main_arg18 (by decide)).trans <| (U11_of m c main_arg18 (by decide)).trans <| (U10_of m c main_arg18 (by decide)).trans <| (U9_of m c main_arg18 (by decide)).trans <| (U8_of m c main_arg18 (by decide)).trans <| (U7_of m c main_arg18 (by decide)).trans <| (U6_of m c main_arg18 (by decide)).trans <| (U5_of m c main_arg18 (by decide)).trans <| (U4_of m c main_arg18 (by decide)).trans <| (U3_of m c main_arg18 (by decide)).trans <| (U2_of m c main_arg18 (by decide)).trans <| (U1_of m c main_arg18 (by decide))
/-- main_arg19 at item 53 is as item 0 left it (the launch memory). -/
theorem walk53_main_arg19 (c : Dev nD) : U53 m c main_arg19 = U0 m c main_arg19 :=
  (U53_of m c main_arg19 (by decide)).trans <| (U52_of m c main_arg19 (by decide)).trans <| (U51_of m c main_arg19 (by decide)).trans <| (U50_of m c main_arg19 (by decide)).trans <| (U49_of m c main_arg19 (by decide)).trans <| (U48_of m c main_arg19 (by decide)).trans <| (U47_of m c main_arg19 (by decide)).trans <| (U46_of m c main_arg19 (by decide)).trans <| (U45_of m c main_arg19 (by decide)).trans <| (U44_of m c main_arg19 (by decide)).trans <| (U43_of m c main_arg19 (by decide)).trans <| (U42_of m c main_arg19 (by decide)).trans <| (U41_of m c main_arg19 (by decide)).trans <| (U40_of m c main_arg19 (by decide)).trans <| (U39_of m c main_arg19 (by decide)).trans <| (U38_of m c main_arg19 (by decide)).trans <| (U37_of m c main_arg19 (by decide)).trans <| (U36_of m c main_arg19 (by decide)).trans <| (U35_of m c main_arg19 (by decide)).trans <| (U34_of m c main_arg19 (by decide)).trans <| (U33_of m c main_arg19 (by decide)).trans <| (U32_of m c main_arg19 (by decide)).trans <| (U31_of m c main_arg19 (by decide)).trans <| (U30_of m c main_arg19 (by decide)).trans <| (U29_of m c main_arg19 (by decide)).trans <| (U28_of m c main_arg19 (by decide)).trans <| (U27_of m c main_arg19 (by decide)).trans <| (U26_of m c main_arg19 (by decide)).trans <| (U25_of m c main_arg19 (by decide)).trans <| (U24_of m c main_arg19 (by decide)).trans <| (U23_of m c main_arg19 (by decide)).trans <| (U22_of m c main_arg19 (by decide)).trans <| (U21_of m c main_arg19 (by decide)).trans <| (U20_of m c main_arg19 (by decide)).trans <| (U19_of m c main_arg19 (by decide)).trans <| (U18_of m c main_arg19 (by decide)).trans <| (U17_of m c main_arg19 (by decide)).trans <| (U16_of m c main_arg19 (by decide)).trans <| (U15_of m c main_arg19 (by decide)).trans <| (U14_of m c main_arg19 (by decide)).trans <| (U13_of m c main_arg19 (by decide)).trans <| (U12_of m c main_arg19 (by decide)).trans <| (U11_of m c main_arg19 (by decide)).trans <| (U10_of m c main_arg19 (by decide)).trans <| (U9_of m c main_arg19 (by decide)).trans <| (U8_of m c main_arg19 (by decide)).trans <| (U7_of m c main_arg19 (by decide)).trans <| (U6_of m c main_arg19 (by decide)).trans <| (U5_of m c main_arg19 (by decide)).trans <| (U4_of m c main_arg19 (by decide)).trans <| (U3_of m c main_arg19 (by decide)).trans <| (U2_of m c main_arg19 (by decide)).trans <| (U1_of m c main_arg19 (by decide))
/-- main_arg20 at item 53 is as item 0 left it (the launch memory). -/
theorem walk53_main_arg20 (c : Dev nD) : U53 m c main_arg20 = U0 m c main_arg20 :=
  (U53_of m c main_arg20 (by decide)).trans <| (U52_of m c main_arg20 (by decide)).trans <| (U51_of m c main_arg20 (by decide)).trans <| (U50_of m c main_arg20 (by decide)).trans <| (U49_of m c main_arg20 (by decide)).trans <| (U48_of m c main_arg20 (by decide)).trans <| (U47_of m c main_arg20 (by decide)).trans <| (U46_of m c main_arg20 (by decide)).trans <| (U45_of m c main_arg20 (by decide)).trans <| (U44_of m c main_arg20 (by decide)).trans <| (U43_of m c main_arg20 (by decide)).trans <| (U42_of m c main_arg20 (by decide)).trans <| (U41_of m c main_arg20 (by decide)).trans <| (U40_of m c main_arg20 (by decide)).trans <| (U39_of m c main_arg20 (by decide)).trans <| (U38_of m c main_arg20 (by decide)).trans <| (U37_of m c main_arg20 (by decide)).trans <| (U36_of m c main_arg20 (by decide)).trans <| (U35_of m c main_arg20 (by decide)).trans <| (U34_of m c main_arg20 (by decide)).trans <| (U33_of m c main_arg20 (by decide)).trans <| (U32_of m c main_arg20 (by decide)).trans <| (U31_of m c main_arg20 (by decide)).trans <| (U30_of m c main_arg20 (by decide)).trans <| (U29_of m c main_arg20 (by decide)).trans <| (U28_of m c main_arg20 (by decide)).trans <| (U27_of m c main_arg20 (by decide)).trans <| (U26_of m c main_arg20 (by decide)).trans <| (U25_of m c main_arg20 (by decide)).trans <| (U24_of m c main_arg20 (by decide)).trans <| (U23_of m c main_arg20 (by decide)).trans <| (U22_of m c main_arg20 (by decide)).trans <| (U21_of m c main_arg20 (by decide)).trans <| (U20_of m c main_arg20 (by decide)).trans <| (U19_of m c main_arg20 (by decide)).trans <| (U18_of m c main_arg20 (by decide)).trans <| (U17_of m c main_arg20 (by decide)).trans <| (U16_of m c main_arg20 (by decide)).trans <| (U15_of m c main_arg20 (by decide)).trans <| (U14_of m c main_arg20 (by decide)).trans <| (U13_of m c main_arg20 (by decide)).trans <| (U12_of m c main_arg20 (by decide)).trans <| (U11_of m c main_arg20 (by decide)).trans <| (U10_of m c main_arg20 (by decide)).trans <| (U9_of m c main_arg20 (by decide)).trans <| (U8_of m c main_arg20 (by decide)).trans <| (U7_of m c main_arg20 (by decide)).trans <| (U6_of m c main_arg20 (by decide)).trans <| (U5_of m c main_arg20 (by decide)).trans <| (U4_of m c main_arg20 (by decide)).trans <| (U3_of m c main_arg20 (by decide)).trans <| (U2_of m c main_arg20 (by decide)).trans <| (U1_of m c main_arg20 (by decide))

end Cert.KernelIdeal.Hand

end
-- ==== Proof.KI.HostChains.lean ====
/-
  Chains of layout operations read at an index. Between its kernel regions the program only moves entries around: it takes
  matrix k of a stack of matrices, row k of a stack of rows (as a one-row matrix), a column of an array of index pairs (as a
  row or as a column), the leading columns of a matrix, and it pads a vector, a matrix or a stack of matrices with a value
  after its entries. Each of these reads, at an index given by coordinates, one entry of its operand, or the padding value.
-/
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.HostChains

open Idealize.ShloMosaic Idealize.ShloMosaic.ValueIdx

/-! ## Slices and reshapes -/

section Chains
variable {α : Type}

/-- Matrix `k` of a stack of matrices: the slice `[k : k+1, :, :]` with its unit axis dropped reads, at `(a, b)`, the
    stack at `(k, a, b)`. -/
theorem stackMat_apply {n p q : ℕ} (k : ℕ) (hk : k < n) (X : (⟨3, ![n, p, q]⟩ : Shape).Idx → α)
    (hs : (⟨3, ![n, p, q]⟩ : Shape).Slices ![k, 0, 0] ⟨3, ![1, p, q]⟩)
    (hc : (⟨3, ![1, p, q]⟩ : Shape).ShapeCasts ⟨2, ![p, q]⟩) (a : Fin p) (b : Fin q) :
    shapeCast ⟨2, ![p, q]⟩ (extractStridedSlice ⟨3, ![1, p, q]⟩ ![k, 0, 0] X hs) hc (ix2 a b) = X (ix3 ⟨k, hk⟩ a b) := by
  rw [shapeCast_1ab_ab_apply]
  exact extractStridedSlice_apply _ _ _ _ _ (fun ax => by
    match ax with
    | ⟨0, _⟩ => exact (Nat.add_zero k).symm
    | ⟨1, _⟩ => exact (Nat.zero_add _).symm
    | ⟨2, _⟩ => exact (Nat.zero_add _).symm)

/-- Row `k` of a matrix as a one-row matrix: the slice `[k : k+1, :]`, flattened to a vector and given its unit axis
    back, reads, at `(u, j)`, the matrix at `(k, j)`. -/
theorem stackRow_apply {n p : ℕ} (k : ℕ) (hk : k < n) (X : (⟨2, ![n, p]⟩ : Shape).Idx → α)
    (hs : (⟨2, ![n, p]⟩ : Shape).Slices ![k, 0] ⟨2, ![1, p]⟩)
    (h1 : (⟨2, ![1, p]⟩ : Shape).ShapeCasts ⟨1, ![p]⟩) (h2 : (⟨1, ![p]⟩ : Shape).ShapeCasts ⟨2, ![1, p]⟩)
    (u : Fin 1) (j : Fin p) :
    shapeCast ⟨2, ![1, p]⟩ (shapeCast ⟨1, ![p]⟩ (extractStridedSlice ⟨2, ![1, p]⟩ ![k, 0] X hs) h1) h2 (ix2 u j)
      = X (ix2 ⟨k, hk⟩ j) := by
  rw [shapeCast_a_1a_apply, shapeCast_1a_a_apply]
  exact extractStridedSlice_apply _ _ _ _ _ (fun ax => by
    match ax with
    | ⟨0, _⟩ => exact (Nat.add_zero k).symm
    | ⟨1, _⟩ => exact (Nat.zero_add _).symm)

/-- Column `k` of an `[N, c]` array as a one-row matrix `[1, N]`: reads, at `(u, r)`, the array at `(r, k)`. -/
theorem colAsRow_apply {N c : ℕ} (k : ℕ) (hk : k < c) (X : (⟨2, ![N, c]⟩ : Shape).Idx → α)
    (hs : (⟨2, ![N, c]⟩ : Shape).Slices ![0, k] ⟨2, ![N, 1]⟩)
    (h1 : (⟨2, ![N, 1]⟩ : Shape).ShapeCasts ⟨1, ![N]⟩) (h2 : (⟨1, ![N]⟩ : Shape).ShapeCasts ⟨2, ![1, N]⟩)
    (u : Fin 1) (r : Fin N) :
    shapeCast ⟨2, ![1, N]⟩ (shapeCast ⟨1, ![N]⟩ (extractStridedSlice ⟨2, ![N, 1]⟩ ![0, k] X hs) h1) h2 (ix2 u r)
      = X (ix2 r ⟨k, hk⟩) := by
  rw [shapeCast_a_1a_apply]
  rw [shapeCast_apply _ h1 (ix1 r) (ix2 r (0 : Fin 1)) (by
    rw [Shape.rowMajor_val_two, Shape.rowMajor_val_one]
    show r.val * 1 + 0 = r.val
    omega)]
  exact extractStridedSlice_apply _ _ _ _ _ (fun ax => by
    match ax with
    | ⟨0, _⟩ => exact (Nat.zero_add _).symm
    | ⟨1, _⟩ => exact (Nat.add_zero k).symm)

/-- Column `k` of an `[N, c]` array as a one-column matrix `[N, 1]`: reads, at `(r, u)`, the array at `(r, k)`. -/
theorem colAsCol_apply {N c : ℕ} (k : ℕ) (hk : k < c) (X : (⟨2, ![N, c]⟩ : Shape).Idx → α)
    (hs : (⟨2, ![N, c]⟩ : Shape).Slices ![0, k] ⟨2, ![N, 1]⟩)
    (h1 : (⟨2, ![N, 1]⟩ : Shape).ShapeCasts ⟨1, ![N]⟩) (h2 : (⟨1, ![N]⟩ : Shape).ShapeCasts ⟨2, ![N, 1]⟩)
    (r : Fin N) (u : Fin 1) :
    shapeCast ⟨2, ![N, 1]⟩ (shapeCast ⟨1, ![N]⟩ (extractStridedSlice ⟨2, ![N, 1]⟩ ![0, k] X hs) h1) h2 (ix2 r u)
      = X (ix2 r ⟨k, hk⟩) := by
  rw [shapeCast_apply _ h2 (ix2 r u) (ix1 r) (by
    have hu : u.val = 0 := by omega
    rw [Shape.rowMajor_val_two, Shape.rowMajor_val_one]
    show r.val = r.val * 1 + u.val
    omega)]
  rw [shapeCast_apply _ h1 (ix1 r) (ix2 r (0 : Fin 1)) (by
    rw [Shape.rowMajor_val_two, Shape.rowMajor_val_one]
    show r.val * 1 + 0 = r.val
    omega)]
  exact extractStridedSlice_apply _ _ _ _ _ (fun ax => by
    match ax with
    | ⟨0, _⟩ => exact (Nat.zero_add _).symm
    | ⟨1, _⟩ => exact (Nat.add_zero k).symm)

/-- The leading columns of a matrix: the slice `[:, : m]` reads, at `(i, j)`, the matrix at `(i, j)`. -/
theorem leadCols_apply {r n m : ℕ} (hm : m ≤ n) (X : (⟨2, ![r, n]⟩ : Shape).Idx → α)
    (hs : (⟨2, ![r, n]⟩ : Shape).Slices ![0, 0] ⟨2, ![r, m]⟩) (i : Fin r) (j : Fin m) :
    extractStridedSlice ⟨2, ![r, m]⟩ ![0, 0] X hs (ix2 i j) = X (ix2 i (Fin.castLE hm j)) :=
  extractStridedSlice_apply _ _ _ _ _ (fun ax => by
    match ax with
    | ⟨0, _⟩ => exact (Nat.zero_add _).symm
    | ⟨1, _⟩ => exact (Nat.zero_add _).symm)

end Chains

/-! ## A zero-padded array read at an index

`jnp.pad` with padding after the entries only, on the last one or two axes: inside the real extents the padded array is the
array, outside it is the padding value. -/

section Pads
variable {α : Type}

/-- The scalar shape has one index. -/
theorem first_eq_ix0 (hu : 0 < (⟨0, ![]⟩ : Shape).numel) : Shape.Idx.first hu = ix0 := funext fun a => a.elim0

/-- A vector padded after its entries. -/
theorem padVec_apply {n np : ℕ} (e : ℕ) (x : (⟨1, ![n]⟩ : Shape).Idx → α) (v : (⟨0, ![]⟩ : Shape).Idx → α)
    (h : (⟨1, ![n]⟩ : Shape).Pads ![0] ![e] ![0] ⟨1, ![np]⟩) (hu : 0 < (⟨0, ![]⟩ : Shape).numel) (j : Fin np) :
    pad ⟨1, ![np]⟩ ![0] ![e] ![0] x v h hu (ix1 j) = if hh : j.val < n then x (ix1 ⟨j.val, hh⟩) else v ix0 := by
  by_cases hh : j.val < n
  · rw [dif_pos hh]
    exact pad_apply_of_inside _ _ _ _ _ h hu _ (ix1 ⟨j.val, hh⟩) (fun ax => by
      match ax with
      | ⟨0, _⟩ => show j.val = 0 + j.val * (0 + 1); omega)
  · rw [dif_neg hh, ← first_eq_ix0 hu]
    exact pad_apply_of_not_inside _ _ _ _ _ h hu _ (0 : Fin 1) (by
      show ¬(0 ≤ j.val ∧ (j.val - 0) % (0 + 1) = 0 ∧ (j.val - 0) / (0 + 1) < n)
      omega)

/-- A matrix padded after its columns (and after its rows, by `e0`, possibly zero): the real rectangle, else the padding value. -/
theorem padMat_apply {m n mp np : ℕ} (e0 e1 : ℕ) (x : (⟨2, ![m, n]⟩ : Shape).Idx → α) (v : (⟨0, ![]⟩ : Shape).Idx → α)
    (h : (⟨2, ![m, n]⟩ : Shape).Pads ![0, 0] ![e0, e1] ![0, 0] ⟨2, ![mp, np]⟩) (hu : 0 < (⟨0, ![]⟩ : Shape).numel)
    (a : Fin mp) (b : Fin np) :
    pad ⟨2, ![mp, np]⟩ ![0, 0] ![e0, e1] ![0, 0] x v h hu (ix2 a b)
      = if hh : a.val < m ∧ b.val < n then x (ix2 ⟨a.val, hh.1⟩ ⟨b.val, hh.2⟩) else v ix0 := by
  by_cases hh : a.val < m ∧ b.val < n
  · rw [dif_pos hh]
    exact pad_apply_of_inside _ _ _ _ _ h hu _ (ix2 ⟨a.val, hh.1⟩ ⟨b.val, hh.2⟩) (fun ax => by
      match ax with
      | ⟨0, _⟩ => show a.val = 0 + a.val * (0 + 1); omega
      | ⟨1, _⟩ => show b.val = 0 + b.val * (0 + 1); omega)
  · rw [dif_neg hh, ← first_eq_ix0 hu]
    by_cases ha : a.val < m
    · exact pad_apply_of_not_inside _ _ _ _ _ h hu _ (1 : Fin 2) (by
        show ¬(0 ≤ b.val ∧ (b.val - 0) % (0 + 1) = 0 ∧ (b.val - 0) / (0 + 1) < n)
        omega)
    · exact pad_apply_of_not_inside _ _ _ _ _ h hu _ (0 : Fin 2) (by
        show ¬(0 ≤ a.val ∧ (a.val - 0) % (0 + 1) = 0 ∧ (a.val - 0) / (0 + 1) < m)
        omega)

/-- A stack of rows padded after the columns only: row `k` at column `j`. -/
theorem padRows_apply {g n np : ℕ} (e : ℕ) (x : (⟨2, ![g, n]⟩ : Shape).Idx → α) (v : (⟨0, ![]⟩ : Shape).Idx → α)
    (h : (⟨2, ![g, n]⟩ : Shape).Pads ![0, 0] ![0, e] ![0, 0] ⟨2, ![g, np]⟩) (hu : 0 < (⟨0, ![]⟩ : Shape).numel)
    (k : Fin g) (j : Fin np) :
    pad ⟨2, ![g, np]⟩ ![0, 0] ![0, e] ![0, 0] x v h hu (ix2 k j)
      = if hh : j.val < n then x (ix2 k ⟨j.val, hh⟩) else v ix0 := by
  by_cases hh : j.val < n
  · rw [dif_pos hh]
    exact pad_apply_of_inside _ _ _ _ _ h hu _ (ix2 k ⟨j.val, hh⟩) (fun ax => by
      match ax with
      | ⟨0, _⟩ => show k.val = 0 + k.val * (0 + 1); omega
      | ⟨1, _⟩ => show j.val = 0 + j.val * (0 + 1); omega)
  · rw [dif_neg hh, ← first_eq_ix0 hu]
    exact pad_apply_of_not_inside _ _ _ _ _ h hu _ (1 : Fin 2) (by
      show ¬(0 ≤ j.val ∧ (j.val - 0) % (0 + 1) = 0 ∧ (j.val - 0) / (0 + 1) < n)
      omega)

/-- A stack of matrices, each padded after its rows and after its columns. -/
theorem padStack_apply {g m n mp np : ℕ} (e0 e1 : ℕ) (x : (⟨3, ![g, m, n]⟩ : Shape).Idx → α) (v : (⟨0, ![]⟩ : Shape).Idx → α)
    (h : (⟨3, ![g, m, n]⟩ : Shape).Pads ![0, 0, 0] ![0, e0, e1] ![0, 0, 0] ⟨3, ![g, mp, np]⟩) (hu : 0 < (⟨0, ![]⟩ : Shape).numel)
    (k : Fin g) (a : Fin mp) (b : Fin np) :
    pad ⟨3, ![g, mp, np]⟩ ![0, 0, 0] ![0, e0, e1] ![0, 0, 0] x v h hu (ix3 k a b)
      = if hh : a.val < m ∧ b.val < n then x (ix3 k ⟨a.val, hh.1⟩ ⟨b.val, hh.2⟩) else v ix0 := by
  by_cases hh : a.val < m ∧ b.val < n
  · rw [dif_pos hh]
    exact pad_apply_of_inside _ _ _ _ _ h hu _ (ix3 k ⟨a.val, hh.1⟩ ⟨b.val, hh.2⟩) (fun ax => by
      match ax with
      | ⟨0, _⟩ => show k.val = 0 + k.val * (0 + 1); omega
      | ⟨1, _⟩ => show a.val = 0 + a.val * (0 + 1); omega
      | ⟨2, _⟩ => show b.val = 0 + b.val * (0 + 1); omega)
  · rw [dif_neg hh, ← first_eq_ix0 hu]
    by_cases ha : a.val < m
    · exact pad_apply_of_not_inside _ _ _ _ _ h hu _ (2 : Fin 3) (by
        show ¬(0 ≤ b.val ∧ (b.val - 0) % (0 + 1) = 0 ∧ (b.val - 0) / (0 + 1) < n)
        omega)
    · exact pad_apply_of_not_inside _ _ _ _ _ h hu _ (1 : Fin 3) (by
        show ¬(0 ≤ a.val ∧ (a.val - 0) % (0 + 1) = 0 ∧ (a.val - 0) / (0 + 1) < m)
        omega)

end Pads

/-- The padding value: the integer zero converted is the real zero. -/
theorem padValue_zero (c : (⟨0, ![]⟩ : Shape).Idx → BitVec 32) (hc : c ix0 = 0#32) :
    (sitofp .f32 c : FVec Ideal ⟨0, ![]⟩ .f32) ix0 = 0 := by
  show ((((c ix0).toInt : ℤ) : ℝ) : EReal) = 0
  rw [hc]
  simp

end Cert.HostChains

end
-- ==== Proof.KI.Host.lean ====
/-
  The host stretches of the kernel program, read at an index: what each buffer a kernel region stages, or the program
  returns, holds after the stretch that writes it, in terms of the buffers the stretch was entered with. Each stretch is a
  few slices, reshapes and zero pads, so each buffer is one entry of one earlier buffer, or zero.
-/
import proofs.«422120_j65652870087589_3_alg».proof.Proof.Gen.KernelIdeal.Launch
import proofs.«422120_j65652870087589_3_alg».proof.Proof.KI.HostChains
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.ValueIdx
open Cert.HostChains

/-- The first layer's bias of the object embedding, as a one-row matrix. -/
theorem hostOps0_v8 (W : Valuation τ sig (Elt Ideal)) (u : Fin 1) (j : Fin 512) :
    (StableHlo.after hostOps0 W main_v8 : S1x512.Idx → EReal) (ix2 u j) = (W main_arg4 : S512.Idx → EReal) (ix1 j) := by
  have e : (StableHlo.after hostOps0 W main_v8 : S1x512.Idx → EReal)
      = shapeCast S1x512 (W main_arg4 : S512.Idx → EReal) shapeCasts_S512_S1x512 := by
    show StableHlo.after hostOps0 W (Proc.devRef .tc main_v8) = _
    after_results
    rfl
  rw [e]
  exact shapeCast_a_1a_apply _ _ u j

/-- The second layer's bias of the object embedding, as a one-row matrix. -/
theorem hostOps0_v9 (W : Valuation τ sig (Elt Ideal)) (u : Fin 1) (j : Fin 512) :
    (StableHlo.after hostOps0 W main_v9 : S1x512.Idx → EReal) (ix2 u j) = (W main_arg6 : S512.Idx → EReal) (ix1 j) := by
  have e : (StableHlo.after hostOps0 W main_v9 : S1x512.Idx → EReal)
      = shapeCast S1x512 (W main_arg6 : S512.Idx → EReal) shapeCasts_S512_S1x512 := by
    show StableHlo.after hostOps0 W (Proc.devRef .tc main_v9) = _
    after_results
    rfl
  rw [e]
  exact shapeCast_a_1a_apply _ _ u j

/-- The first layer's bias of the relation embedding, as a one-row matrix. -/
theorem hostOps1_v11 (W : Valuation τ sig (Elt Ideal)) (u : Fin 1) (j : Fin 512) :
    (StableHlo.after hostOps1 W main_v11 : S1x512.Idx → EReal) (ix2 u j) = (W main_arg8 : S512.Idx → EReal) (ix1 j) := by
  have e : (StableHlo.after hostOps1 W main_v11 : S1x512.Idx → EReal)
      = shapeCast S1x512 (W main_arg8 : S512.Idx → EReal) shapeCasts_S512_S1x512 := by
    show StableHlo.after hostOps1 W (Proc.devRef .tc main_v11) = _
    after_results
    rfl
  rw [e]
  exact shapeCast_a_1a_apply _ _ u j

/-- The second layer's bias of the relation embedding, as a one-row matrix. -/
theorem hostOps1_v12 (W : Valuation τ sig (Elt Ideal)) (u : Fin 1) (j : Fin 512) :
    (StableHlo.after hostOps1 W main_v12 : S1x512.Idx → EReal) (ix2 u j) = (W main_arg10 : S512.Idx → EReal) (ix1 j) := by
  have e : (StableHlo.after hostOps1 W main_v12 : S1x512.Idx → EReal)
      = shapeCast S1x512 (W main_arg10 : S512.Idx → EReal) shapeCasts_S512_S1x512 := by
    show StableHlo.after hostOps1 W (Proc.devRef .tc main_v12) = _
    after_results
    rfl
  rw [e]
  exact shapeCast_a_1a_apply _ _ u j

/-- The padded bias of the object classifier, as a one-row matrix. -/
theorem hostOps10_16_v70 (W : Valuation τ sig (Elt Ideal)) (u : Fin 1) (j : Fin 256) :
    (StableHlo.after hostOps10_16 W main_v70 : S1x256.Idx → EReal) (ix2 u j) = (W main_v63 : S256.Idx → EReal) (ix1 j) := by
  have e : (StableHlo.after hostOps10_16 W main_v70 : S1x256.Idx → EReal)
      = shapeCast S1x256 (W main_v63 : S256.Idx → EReal) shapeCasts_S256_S1x256 := by
    show StableHlo.after hostOps10_16 W (Proc.devRef .tc main_v70) = _
    after_results
    rfl
  rw [e]
  exact shapeCast_a_1a_apply _ _ u j

/-- The padded bias of the relation classifier, as a one-row matrix. -/
theorem hostOps11_v72 (W : Valuation τ sig (Elt Ideal)) (u : Fin 1) (j : Fin 128) :
    (StableHlo.after hostOps11 W main_v72 : S1x128.Idx → EReal) (ix2 u j) = (W main_v65 : S128.Idx → EReal) (ix1 j) := by
  have e : (StableHlo.after hostOps11 W main_v72 : S1x128.Idx → EReal)
      = shapeCast S1x128 (W main_v65 : S128.Idx → EReal) shapeCasts_S128_S1x128 := by
    show StableHlo.after hostOps11 W (Proc.devRef .tc main_v72) = _
    after_results
    rfl
  rw [e]
  exact shapeCast_a_1a_apply _ _ u j

/-- The subjects' indices, as a row. -/
theorem hostOps0_v4 (W : Valuation τ sig (Elt Ideal)) (u : Fin 1) (r : Fin 32768) :
    (StableHlo.after hostOps0 W main_v4 : S1x32768.Idx → BitVec 32) (ix2 u r)
      = (W main_arg2 : S32768x2.Idx → BitVec 32) (ix2 r (0 : Fin 2)) := by
  have e : (StableHlo.after hostOps0 W main_v4 : S1x32768.Idx → BitVec 32)
      = shapeCast S1x32768 (shapeCast S32768 (extractStridedSlice S32768x1 ![0, 0] (W main_arg2 : S32768x2.Idx → BitVec 32) slices_S32768x2_S32768x1_0_0) shapeCasts_S32768x1_S32768) shapeCasts_S32768_S1x32768 := by
    show StableHlo.after hostOps0 W (Proc.devRef .tc main_v4) = _
    after_results
    rfl
  rw [e]
  exact colAsRow_apply 0 (by decide) _ _ _ _ u r

/-- The objects' indices, as a row. -/
theorem hostOps0_v5 (W : Valuation τ sig (Elt Ideal)) (u : Fin 1) (r : Fin 32768) :
    (StableHlo.after hostOps0 W main_v5 : S1x32768.Idx → BitVec 32) (ix2 u r)
      = (W main_arg2 : S32768x2.Idx → BitVec 32) (ix2 r (1 : Fin 2)) := by
  have e : (StableHlo.after hostOps0 W main_v5 : S1x32768.Idx → BitVec 32)
      = shapeCast S1x32768 (shapeCast S32768 (extractStridedSlice S32768x1 ![0, 1] (W main_arg2 : S32768x2.Idx → BitVec 32) slices_S32768x2_S32768x1_0_1) shapeCasts_S32768x1_S32768) shapeCasts_S32768_S1x32768 := by
    show StableHlo.after hostOps0 W (Proc.devRef .tc main_v5) = _
    after_results
    rfl
  rw [e]
  exact colAsRow_apply 1 (by decide) _ _ _ _ u r

/-- The subjects' indices, as a column. -/
theorem hostOps0_v6 (W : Valuation τ sig (Elt Ideal)) (r : Fin 32768) (u : Fin 1) :
    (StableHlo.after hostOps0 W main_v6 : S32768x1.Idx → BitVec 32) (ix2 r u)
      = (W main_arg2 : S32768x2.Idx → BitVec 32) (ix2 r (0 : Fin 2)) := by
  have e : (StableHlo.after hostOps0 W main_v6 : S32768x1.Idx → BitVec 32)
      = shapeCast S32768x1 (shapeCast S32768 (extractStridedSlice S32768x1 ![0, 0] (W main_arg2 : S32768x2.Idx → BitVec 32) slices_S32768x2_S32768x1_0_0) shapeCasts_S32768x1_S32768) shapeCasts_S32768_S32768x1 := by
    show StableHlo.after hostOps0 W (Proc.devRef .tc main_v6) = _
    after_results
    rfl
  rw [e]
  exact colAsCol_apply 0 (by decide) _ _ _ _ r u

/-- The objects' indices, as a column. -/
theorem hostOps0_v7 (W : Valuation τ sig (Elt Ideal)) (r : Fin 32768) (u : Fin 1) :
    (StableHlo.after hostOps0 W main_v7 : S32768x1.Idx → BitVec 32) (ix2 r u)
      = (W main_arg2 : S32768x2.Idx → BitVec 32) (ix2 r (1 : Fin 2)) := by
  have e : (StableHlo.after hostOps0 W main_v7 : S32768x1.Idx → BitVec 32)
      = shapeCast S32768x1 (shapeCast S32768 (extractStridedSlice S32768x1 ![0, 1] (W main_arg2 : S32768x2.Idx → BitVec 32) slices_S32768x2_S32768x1_0_1) shapeCasts_S32768x1_S32768) shapeCasts_S32768_S32768x1 := by
    show StableHlo.after hostOps0 W (Proc.devRef .tc main_v7) = _
    after_results
    rfl
  rw [e]
  exact colAsCol_apply 1 (by decide) _ _ _ _ r u

/-- Weight matrix 0 of the feature level's stack. -/
theorem hostOps2_v15 (W : Valuation τ sig (Elt Ideal)) (a : Fin 512) (b : Fin 512) :
    (StableHlo.after hostOps2 W main_v15 : S512x512.Idx → EReal) (ix2 a b)
      = (W main_arg11 : S4x512x512.Idx → EReal) (ix3 (0 : Fin 4) a b) := by
  have e : (StableHlo.after hostOps2 W main_v15 : S512x512.Idx → EReal)
      = shapeCast S512x512 (extractStridedSlice S1x512x512 ![0, 0, 0] (W main_arg11 : S4x512x512.Idx → EReal) slices_S4x512x512_S1x512x512_0_0_0) shapeCasts_S1x512x512_S512x512 := by
    show StableHlo.after hostOps2 W (Proc.devRef .tc main_v15) = _
    after_results
    rfl
  rw [e]
  exact stackMat_apply 0 (by decide) _ _ _ a b

/-- Weight matrix 1 of the feature level's stack. -/
theorem hostOps2_v19 (W : Valuation τ sig (Elt Ideal)) (a : Fin 512) (b : Fin 512) :
    (StableHlo.after hostOps2 W main_v19 : S512x512.Idx → EReal) (ix2 a b)
      = (W main_arg11 : S4x512x512.Idx → EReal) (ix3 (1 : Fin 4) a b) := by
  have e : (StableHlo.after hostOps2 W main_v19 : S512x512.Idx → EReal)
      = shapeCast S512x512 (extractStridedSlice S1x512x512 ![1, 0, 0] (W main_arg11 : S4x512x512.Idx → EReal) slices_S4x512x512_S1x512x512_1_0_0) shapeCasts_S1x512x512_S512x512 := by
    show StableHlo.after hostOps2 W (Proc.devRef .tc main_v19) = _
    after_results
    rfl
  rw [e]
  exact stackMat_apply 1 (by decide) _ _ _ a b

/-- Weight matrix 2 of the feature level's stack. -/
theorem hostOps3_v26 (W : Valuation τ sig (Elt Ideal)) (a : Fin 512) (b : Fin 512) :
    (StableHlo.after hostOps3 W main_v26 : S512x512.Idx → EReal) (ix2 a b)
      = (W main_arg11 : S4x512x512.Idx → EReal) (ix3 (2 : Fin 4) a b) := by
  have e : (StableHlo.after hostOps3 W main_v26 : S512x512.Idx → EReal)
      = shapeCast S512x512 (extractStridedSlice S1x512x512 ![2, 0, 0] (W main_arg11 : S4x512x512.Idx → EReal) slices_S4x512x512_S1x512x512_2_0_0) shapeCasts_S1x512x512_S512x512 := by
    show StableHlo.after hostOps3 W (Proc.devRef .tc main_v26) = _
    after_results
    rfl
  rw [e]
  exact stackMat_apply 2 (by decide) _ _ _ a b

/-- Weight matrix 3 of the feature level's stack. -/
theorem hostOps4_v32 (W : Valuation τ sig (Elt Ideal)) (a : Fin 512) (b : Fin 512) :
    (StableHlo.after hostOps4 W main_v32 : S512x512.Idx → EReal) (ix2 a b)
      = (W main_arg11 : S4x512x512.Idx → EReal) (ix3 (3 : Fin 4) a b) := by
  have e : (StableHlo.after hostOps4 W main_v32 : S512x512.Idx → EReal)
      = shapeCast S512x512 (extractStridedSlice S1x512x512 ![3, 0, 0] (W main_arg11 : S4x512x512.Idx → EReal) slices_S4x512x512_S1x512x512_3_0_0) shapeCasts_S1x512x512_S512x512 := by
    show StableHlo.after hostOps4 W (Proc.devRef .tc main_v32) = _
    after_results
    rfl
  rw [e]
  exact stackMat_apply 3 (by decide) _ _ _ a b

/-- Weight matrix 0 of the feature level's stack. -/
theorem hostOps6_v39 (W : Valuation τ sig (Elt Ideal)) (a : Fin 512) (b : Fin 512) :
    (StableHlo.after hostOps6 W main_v39 : S512x512.Idx → EReal) (ix2 a b)
      = (W main_arg11 : S4x512x512.Idx → EReal) (ix3 (0 : Fin 4) a b) := by
  have e : (StableHlo.after hostOps6 W main_v39 : S512x512.Idx → EReal)
      = shapeCast S512x512 (extractStridedSlice S1x512x512 ![0, 0, 0] (W main_arg11 : S4x512x512.Idx → EReal) slices_S4x512x512_S1x512x512_0_0_0) shapeCasts_S1x512x512_S512x512 := by
    show StableHlo.after hostOps6 W (Proc.devRef .tc main_v39) = _
    after_results
    rfl
  rw [e]
  exact stackMat_apply 0 (by decide) _ _ _ a b

/-- Weight matrix 1 of the feature level's stack. -/
theorem hostOps6_v43 (W : Valuation τ sig (Elt Ideal)) (a : Fin 512) (b : Fin 512) :
    (StableHlo.after hostOps6 W main_v43 : S512x512.Idx → EReal) (ix2 a b)
      = (W main_arg11 : S4x512x512.Idx → EReal) (ix3 (1 : Fin 4) a b) := by
  have e : (StableHlo.after hostOps6 W main_v43 : S512x512.Idx → EReal)
      = shapeCast S512x512 (extractStridedSlice S1x512x512 ![1, 0, 0] (W main_arg11 : S4x512x512.Idx → EReal) slices_S4x512x512_S1x512x512_1_0_0) shapeCasts_S1x512x512_S512x512 := by
    show StableHlo.after hostOps6 W (Proc.devRef .tc main_v43) = _
    after_results
    rfl
  rw [e]
  exact stackMat_apply 1 (by decide) _ _ _ a b

/-- Weight matrix 2 of the feature level's stack. -/
theorem hostOps7_v50 (W : Valuation τ sig (Elt Ideal)) (a : Fin 512) (b : Fin 512) :
    (StableHlo.after hostOps7 W main_v50 : S512x512.Idx → EReal) (ix2 a b)
      = (W main_arg11 : S4x512x512.Idx → EReal) (ix3 (2 : Fin 4) a b) := by
  have e : (StableHlo.after hostOps7 W main_v50 : S512x512.Idx → EReal)
      = shapeCast S512x512 (extractStridedSlice S1x512x512 ![2, 0, 0] (W main_arg11 : S4x512x512.Idx → EReal) slices_S4x512x512_S1x512x512_2_0_0) shapeCasts_S1x512x512_S512x512 := by
    show StableHlo.after hostOps7 W (Proc.devRef .tc main_v50) = _
    after_results
    rfl
  rw [e]
  exact stackMat_apply 2 (by decide) _ _ _ a b

/-- Weight matrix 3 of the feature level's stack. -/
theorem hostOps8_v56 (W : Valuation τ sig (Elt Ideal)) (a : Fin 512) (b : Fin 512) :
    (StableHlo.after hostOps8 W main_v56 : S512x512.Idx → EReal) (ix2 a b)
      = (W main_arg11 : S4x512x512.Idx → EReal) (ix3 (3 : Fin 4) a b) := by
  have e : (StableHlo.after hostOps8 W main_v56 : S512x512.Idx → EReal)
      = shapeCast S512x512 (extractStridedSlice S1x512x512 ![3, 0, 0] (W main_arg11 : S4x512x512.Idx → EReal) slices_S4x512x512_S1x512x512_3_0_0) shapeCasts_S1x512x512_S512x512 := by
    show StableHlo.after hostOps8 W (Proc.devRef .tc main_v56) = _
    after_results
    rfl
  rw [e]
  exact stackMat_apply 3 (by decide) _ _ _ a b

/-- Weight matrix 0 of the score level's (to the objects, padded) stack. -/
theorem hostOps12_v75 (W : Valuation τ sig (Elt Ideal)) (a : Fin 128) (b : Fin 256) :
    (StableHlo.after hostOps12 W main_v75 : S128x256.Idx → EReal) (ix2 a b)
      = (W main_v66 : S2x128x256.Idx → EReal) (ix3 (0 : Fin 2) a b) := by
  have e : (StableHlo.after hostOps12 W main_v75 : S128x256.Idx → EReal)
      = shapeCast S128x256 (extractStridedSlice S1x128x256 ![0, 0, 0] (W main_v66 : S2x128x256.Idx → EReal) slices_S2x128x256_S1x128x256_0_0_0) shapeCasts_S1x128x256_S128x256 := by
    show StableHlo.after hostOps12 W (Proc.devRef .tc main_v75) = _
    after_results
    rfl
  rw [e]
  exact stackMat_apply 0 (by decide) _ _ _ a b

/-- Weight matrix 1 of the score level's (to the objects, padded) stack. -/
theorem hostOps12_v79 (W : Valuation τ sig (Elt Ideal)) (a : Fin 128) (b : Fin 256) :
    (StableHlo.after hostOps12 W main_v79 : S128x256.Idx → EReal) (ix2 a b)
      = (W main_v66 : S2x128x256.Idx → EReal) (ix3 (1 : Fin 2) a b) := by
  have e : (StableHlo.after hostOps12 W main_v79 : S128x256.Idx → EReal)
      = shapeCast S128x256 (extractStridedSlice S1x128x256 ![1, 0, 0] (W main_v66 : S2x128x256.Idx → EReal) slices_S2x128x256_S1x128x256_1_0_0) shapeCasts_S1x128x256_S128x256 := by
    show StableHlo.after hostOps12 W (Proc.devRef .tc main_v79) = _
    after_results
    rfl
  rw [e]
  exact stackMat_apply 1 (by decide) _ _ _ a b

/-- Weight matrix 0 of the score level's (to the relations, padded) stack. -/
theorem hostOps13_v86 (W : Valuation τ sig (Elt Ideal)) (a : Fin 256) (b : Fin 128) :
    (StableHlo.after hostOps13 W main_v86 : S256x128.Idx → EReal) (ix2 a b)
      = (W main_v68 : S2x256x128.Idx → EReal) (ix3 (0 : Fin 2) a b) := by
  have e : (StableHlo.after hostOps13 W main_v86 : S256x128.Idx → EReal)
      = shapeCast S256x128 (extractStridedSlice S1x256x128 ![0, 0, 0] (W main_v68 : S2x256x128.Idx → EReal) slices_S2x256x128_S1x256x128_0_0_0) shapeCasts_S1x256x128_S256x128 := by
    show StableHlo.after hostOps13 W (Proc.devRef .tc main_v86) = _
    after_results
    rfl
  rw [e]
  exact stackMat_apply 0 (by decide) _ _ _ a b

/-- Weight matrix 1 of the score level's (to the relations, padded) stack. -/
theorem hostOps14_v92 (W : Valuation τ sig (Elt Ideal)) (a : Fin 256) (b : Fin 128) :
    (StableHlo.after hostOps14 W main_v92 : S256x128.Idx → EReal) (ix2 a b)
      = (W main_v68 : S2x256x128.Idx → EReal) (ix3 (1 : Fin 2) a b) := by
  have e : (StableHlo.after hostOps14 W main_v92 : S256x128.Idx → EReal)
      = shapeCast S256x128 (extractStridedSlice S1x256x128 ![1, 0, 0] (W main_v68 : S2x256x128.Idx → EReal) slices_S2x256x128_S1x256x128_1_0_0) shapeCasts_S1x256x128_S256x128 := by
    show StableHlo.after hostOps14 W (Proc.devRef .tc main_v92) = _
    after_results
    rfl
  rw [e]
  exact stackMat_apply 1 (by decide) _ _ _ a b

/-- Weight matrix 0 of the score level's (to the objects, padded) stack. -/
theorem hostOps16_v99 (W : Valuation τ sig (Elt Ideal)) (a : Fin 128) (b : Fin 256) :
    (StableHlo.after hostOps16 W main_v99 : S128x256.Idx → EReal) (ix2 a b)
      = (W main_v66 : S2x128x256.Idx → EReal) (ix3 (0 : Fin 2) a b) := by
  have e : (StableHlo.after hostOps16 W main_v99 : S128x256.Idx → EReal)
      = shapeCast S128x256 (extractStridedSlice S1x128x256 ![0, 0, 0] (W main_v66 : S2x128x256.Idx → EReal) slices_S2x128x256_S1x128x256_0_0_0) shapeCasts_S1x128x256_S128x256 := by
    show StableHlo.after hostOps16 W (Proc.devRef .tc main_v99) = _
    after_results
    rfl
  rw [e]
  exact stackMat_apply 0 (by decide) _ _ _ a b

/-- Weight matrix 1 of the score level's (to the objects, padded) stack. -/
theorem hostOps16_v103 (W : Valuation τ sig (Elt Ideal)) (a : Fin 128) (b : Fin 256) :
    (StableHlo.after hostOps16 W main_v103 : S128x256.Idx → EReal) (ix2 a b)
      = (W main_v66 : S2x128x256.Idx → EReal) (ix3 (1 : Fin 2) a b) := by
  have e : (StableHlo.after hostOps16 W main_v103 : S128x256.Idx → EReal)
      = shapeCast S128x256 (extractStridedSlice S1x128x256 ![1, 0, 0] (W main_v66 : S2x128x256.Idx → EReal) slices_S2x128x256_S1x128x256_1_0_0) shapeCasts_S1x128x256_S128x256 := by
    show StableHlo.after hostOps16 W (Proc.devRef .tc main_v103) = _
    after_results
    rfl
  rw [e]
  exact stackMat_apply 1 (by decide) _ _ _ a b

/-- Weight matrix 0 of the score level's (to the relations, padded) stack. -/
theorem hostOps17_v110 (W : Valuation τ sig (Elt Ideal)) (a : Fin 256) (b : Fin 128) :
    (StableHlo.after hostOps17 W main_v110 : S256x128.Idx → EReal) (ix2 a b)
      = (W main_v68 : S2x256x128.Idx → EReal) (ix3 (0 : Fin 2) a b) := by
  have e : (StableHlo.after hostOps17 W main_v110 : S256x128.Idx → EReal)
      = shapeCast S256x128 (extractStridedSlice S1x256x128 ![0, 0, 0] (W main_v68 : S2x256x128.Idx → EReal) slices_S2x256x128_S1x256x128_0_0_0) shapeCasts_S1x256x128_S256x128 := by
    show StableHlo.after hostOps17 W (Proc.devRef .tc main_v110) = _
    after_results
    rfl
  rw [e]
  exact stackMat_apply 0 (by decide) _ _ _ a b

/-- Weight matrix 1 of the score level's (to the relations, padded) stack. -/
theorem hostOps18_v116 (W : Valuation τ sig (Elt Ideal)) (a : Fin 256) (b : Fin 128) :
    (StableHlo.after hostOps18 W main_v116 : S256x128.Idx → EReal) (ix2 a b)
      = (W main_v68 : S2x256x128.Idx → EReal) (ix3 (1 : Fin 2) a b) := by
  have e : (StableHlo.after hostOps18 W main_v116 : S256x128.Idx → EReal)
      = shapeCast S256x128 (extractStridedSlice S1x256x128 ![1, 0, 0] (W main_v68 : S2x256x128.Idx → EReal) slices_S2x256x128_S1x256x128_1_0_0) shapeCasts_S1x256x128_S256x128 := by
    show StableHlo.after hostOps18 W (Proc.devRef .tc main_v116) = _
    after_results
    rfl
  rw [e]
  exact stackMat_apply 1 (by decide) _ _ _ a b

/-- Bias 0 of the feature level's stack, as a one-row matrix. -/
theorem hostOps2_v22 (W : Valuation τ sig (Elt Ideal)) (u : Fin 1) (j : Fin 512) :
    (StableHlo.after hostOps2 W main_v22 : S1x512.Idx → EReal) (ix2 u j)
      = (W main_arg12 : S4x512.Idx → EReal) (ix2 (0 : Fin 4) j) := by
  have e : (StableHlo.after hostOps2 W main_v22 : S1x512.Idx → EReal)
      = shapeCast S1x512 (shapeCast S512 (extractStridedSlice S1x512 ![0, 0] (W main_arg12 : S4x512.Idx → EReal) slices_S4x512_S1x512_0_0) shapeCasts_S1x512_S512) shapeCasts_S512_S1x512 := by
    show StableHlo.after hostOps2 W (Proc.devRef .tc main_v22) = _
    after_results
    rfl
  rw [e]
  exact stackRow_apply 0 (by decide) _ _ _ _ u j

/-- Bias 1 of the feature level's stack, as a one-row matrix. -/
theorem hostOps2_v23 (W : Valuation τ sig (Elt Ideal)) (u : Fin 1) (j : Fin 512) :
    (StableHlo.after hostOps2 W main_v23 : S1x512.Idx → EReal) (ix2 u j)
      = (W main_arg12 : S4x512.Idx → EReal) (ix2 (1 : Fin 4) j) := by
  have e : (StableHlo.after hostOps2 W main_v23 : S1x512.Idx → EReal)
      = shapeCast S1x512 (shapeCast S512 (extractStridedSlice S1x512 ![1, 0] (W main_arg12 : S4x512.Idx → EReal) slices_S4x512_S1x512_1_0) shapeCasts_S1x512_S512) shapeCasts_S512_S1x512 := by
    show StableHlo.after hostOps2 W (Proc.devRef .tc main_v23) = _
    after_results
    rfl
  rw [e]
  exact stackRow_apply 1 (by decide) _ _ _ _ u j

/-- Bias 2 of the feature level's stack, as a one-row matrix. -/
theorem hostOps3_v29 (W : Valuation τ sig (Elt Ideal)) (u : Fin 1) (j : Fin 512) :
    (StableHlo.after hostOps3 W main_v29 : S1x512.Idx → EReal) (ix2 u j)
      = (W main_arg12 : S4x512.Idx → EReal) (ix2 (2 : Fin 4) j) := by
  have e : (StableHlo.after hostOps3 W main_v29 : S1x512.Idx → EReal)
      = shapeCast S1x512 (shapeCast S512 (extractStridedSlice S1x512 ![2, 0] (W main_arg12 : S4x512.Idx → EReal) slices_S4x512_S1x512_2_0) shapeCasts_S1x512_S512) shapeCasts_S512_S1x512 := by
    show StableHlo.after hostOps3 W (Proc.devRef .tc main_v29) = _
    after_results
    rfl
  rw [e]
  exact stackRow_apply 2 (by decide) _ _ _ _ u j

/-- Bias 3 of the feature level's stack, as a one-row matrix. -/
theorem hostOps4_v35 (W : Valuation τ sig (Elt Ideal)) (u : Fin 1) (j : Fin 512) :
    (StableHlo.after hostOps4 W main_v35 : S1x512.Idx → EReal) (ix2 u j)
      = (W main_arg12 : S4x512.Idx → EReal) (ix2 (3 : Fin 4) j) := by
  have e : (StableHlo.after hostOps4 W main_v35 : S1x512.Idx → EReal)
      = shapeCast S1x512 (shapeCast S512 (extractStridedSlice S1x512 ![3, 0] (W main_arg12 : S4x512.Idx → EReal) slices_S4x512_S1x512_3_0) shapeCasts_S1x512_S512) shapeCasts_S512_S1x512 := by
    show StableHlo.after hostOps4 W (Proc.devRef .tc main_v35) = _
    after_results
    rfl
  rw [e]
  exact stackRow_apply 3 (by decide) _ _ _ _ u j

/-- Bias 0 of the feature level's stack, as a one-row matrix. -/
theorem hostOps6_v46 (W : Valuation τ sig (Elt Ideal)) (u : Fin 1) (j : Fin 512) :
    (StableHlo.after hostOps6 W main_v46 : S1x512.Idx → EReal) (ix2 u j)
      = (W main_arg12 : S4x512.Idx → EReal) (ix2 (0 : Fin 4) j) := by
  have e : (StableHlo.after hostOps6 W main_v46 : S1x512.Idx → EReal)
      = shapeCast S1x512 (shapeCast S512 (extractStridedSlice S1x512 ![0, 0] (W main_arg12 : S4x512.Idx → EReal) slices_S4x512_S1x512_0_0) shapeCasts_S1x512_S512) shapeCasts_S512_S1x512 := by
    show StableHlo.after hostOps6 W (Proc.devRef .tc main_v46) = _
    after_results
    rfl
  rw [e]
  exact stackRow_apply 0 (by decide) _ _ _ _ u j

/-- Bias 1 of the feature level's stack, as a one-row matrix. -/
theorem hostOps6_v47 (W : Valuation τ sig (Elt Ideal)) (u : Fin 1) (j : Fin 512) :
    (StableHlo.after hostOps6 W main_v47 : S1x512.Idx → EReal) (ix2 u j)
      = (W main_arg12 : S4x512.Idx → EReal) (ix2 (1 : Fin 4) j) := by
  have e : (StableHlo.after hostOps6 W main_v47 : S1x512.Idx → EReal)
      = shapeCast S1x512 (shapeCast S512 (extractStridedSlice S1x512 ![1, 0] (W main_arg12 : S4x512.Idx → EReal) slices_S4x512_S1x512_1_0) shapeCasts_S1x512_S512) shapeCasts_S512_S1x512 := by
    show StableHlo.after hostOps6 W (Proc.devRef .tc main_v47) = _
    after_results
    rfl
  rw [e]
  exact stackRow_apply 1 (by decide) _ _ _ _ u j

/-- Bias 2 of the feature level's stack, as a one-row matrix. -/
theorem hostOps7_v53 (W : Valuation τ sig (Elt Ideal)) (u : Fin 1) (j : Fin 512) :
    (StableHlo.after hostOps7 W main_v53 : S1x512.Idx → EReal) (ix2 u j)
      = (W main_arg12 : S4x512.Idx → EReal) (ix2 (2 : Fin 4) j) := by
  have e : (StableHlo.after hostOps7 W main_v53 : S1x512.Idx → EReal)
      = shapeCast S1x512 (shapeCast S512 (extractStridedSlice S1x512 ![2, 0] (W main_arg12 : S4x512.Idx → EReal) slices_S4x512_S1x512_2_0) shapeCasts_S1x512_S512) shapeCasts_S512_S1x512 := by
    show StableHlo.after hostOps7 W (Proc.devRef .tc main_v53) = _
    after_results
    rfl
  rw [e]
  exact stackRow_apply 2 (by decide) _ _ _ _ u j

/-- Bias 3 of the feature level's stack, as a one-row matrix. -/
theorem hostOps8_v59 (W : Valuation τ sig (Elt Ideal)) (u : Fin 1) (j : Fin 512) :
    (StableHlo.after hostOps8 W main_v59 : S1x512.Idx → EReal) (ix2 u j)
      = (W main_arg12 : S4x512.Idx → EReal) (ix2 (3 : Fin 4) j) := by
  have e : (StableHlo.after hostOps8 W main_v59 : S1x512.Idx → EReal)
      = shapeCast S1x512 (shapeCast S512 (extractStridedSlice S1x512 ![3, 0] (W main_arg12 : S4x512.Idx → EReal) slices_S4x512_S1x512_3_0) shapeCasts_S1x512_S512) shapeCasts_S512_S1x512 := by
    show StableHlo.after hostOps8 W (Proc.devRef .tc main_v59) = _
    after_results
    rfl
  rw [e]
  exact stackRow_apply 3 (by decide) _ _ _ _ u j

/-- Bias 0 of the score level's (to the objects, padded) stack, as a one-row matrix. -/
theorem hostOps12_v82 (W : Valuation τ sig (Elt Ideal)) (u : Fin 1) (j : Fin 256) :
    (StableHlo.after hostOps12 W main_v82 : S1x256.Idx → EReal) (ix2 u j)
      = (W main_v67 : S2x256.Idx → EReal) (ix2 (0 : Fin 2) j) := by
  have e : (StableHlo.after hostOps12 W main_v82 : S1x256.Idx → EReal)
      = shapeCast S1x256 (shapeCast S256 (extractStridedSlice S1x256 ![0, 0] (W main_v67 : S2x256.Idx → EReal) slices_S2x256_S1x256_0_0) shapeCasts_S1x256_S256) shapeCasts_S256_S1x256 := by
    show StableHlo.after hostOps12 W (Proc.devRef .tc main_v82) = _
    after_results
    rfl
  rw [e]
  exact stackRow_apply 0 (by decide) _ _ _ _ u j

/-- Bias 1 of the score level's (to the objects, padded) stack, as a one-row matrix. -/
theorem hostOps12_v83 (W : Valuation τ sig (Elt Ideal)) (u : Fin 1) (j : Fin 256) :
    (StableHlo.after hostOps12 W main_v83 : S1x256.Idx → EReal) (ix2 u j)
      = (W main_v67 : S2x256.Idx → EReal) (ix2 (1 : Fin 2) j) := by
  have e : (StableHlo.after hostOps12 W main_v83 : S1x256.Idx → EReal)
      = shapeCast S1x256 (shapeCast S256 (extractStridedSlice S1x256 ![1, 0] (W main_v67 : S2x256.Idx → EReal) slices_S2x256_S1x256_1_0) shapeCasts_S1x256_S256) shapeCasts_S256_S1x256 := by
    show StableHlo.after hostOps12 W (Proc.devRef .tc main_v83) = _
    after_results
    rfl
  rw [e]
  exact stackRow_apply 1 (by decide) _ _ _ _ u j

/-- Bias 0 of the score level's (to the relations, padded) stack, as a one-row matrix. -/
theorem hostOps13_v89 (W : Valuation τ sig (Elt Ideal)) (u : Fin 1) (j : Fin 128) :
    (StableHlo.after hostOps13 W main_v89 : S1x128.Idx → EReal) (ix2 u j)
      = (W main_v69 : S2x128.Idx → EReal) (ix2 (0 : Fin 2) j) := by
  have e : (StableHlo.after hostOps13 W main_v89 : S1x128.Idx → EReal)
      = shapeCast S1x128 (shapeCast S128 (extractStridedSlice S1x128 ![0, 0] (W main_v69 : S2x128.Idx → EReal) slices_S2x128_S1x128_0_0) shapeCasts_S1x128_S128) shapeCasts_S128_S1x128 := by
    show StableHlo.after hostOps13 W (Proc.devRef .tc main_v89) = _
    after_results
    rfl
  rw [e]
  exact stackRow_apply 0 (by decide) _ _ _ _ u j

/-- Bias 1 of the score level's (to the relations, padded) stack, as a one-row matrix. -/
theorem hostOps14_v95 (W : Valuation τ sig (Elt Ideal)) (u : Fin 1) (j : Fin 128) :
    (StableHlo.after hostOps14 W main_v95 : S1x128.Idx → EReal) (ix2 u j)
      = (W main_v69 : S2x128.Idx → EReal) (ix2 (1 : Fin 2) j) := by
  have e : (StableHlo.after hostOps14 W main_v95 : S1x128.Idx → EReal)
      = shapeCast S1x128 (shapeCast S128 (extractStridedSlice S1x128 ![1, 0] (W main_v69 : S2x128.Idx → EReal) slices_S2x128_S1x128_1_0) shapeCasts_S1x128_S128) shapeCasts_S128_S1x128 := by
    show StableHlo.after hostOps14 W (Proc.devRef .tc main_v95) = _
    after_results
    rfl
  rw [e]
  exact stackRow_apply 1 (by decide) _ _ _ _ u j

/-- Bias 0 of the score level's (to the objects, padded) stack, as a one-row matrix. -/
theorem hostOps16_v106 (W : Valuation τ sig (Elt Ideal)) (u : Fin 1) (j : Fin 256) :
    (StableHlo.after hostOps16 W main_v106 : S1x256.Idx → EReal) (ix2 u j)
      = (W main_v67 : S2x256.Idx → EReal) (ix2 (0 : Fin 2) j) := by
  have e : (StableHlo.after hostOps16 W main_v106 : S1x256.Idx → EReal)
      = shapeCast S1x256 (shapeCast S256 (extractStridedSlice S1x256 ![0, 0] (W main_v67 : S2x256.Idx → EReal) slices_S2x256_S1x256_0_0) shapeCasts_S1x256_S256) shapeCasts_S256_S1x256 := by
    show StableHlo.after hostOps16 W (Proc.devRef .tc main_v106) = _
    after_results
    rfl
  rw [e]
  exact stackRow_apply 0 (by decide) _ _ _ _ u j

/-- Bias 1 of the score level's (to the objects, padded) stack, as a one-row matrix. -/
theorem hostOps16_v107 (W : Valuation τ sig (Elt Ideal)) (u : Fin 1) (j : Fin 256) :
    (StableHlo.after hostOps16 W main_v107 : S1x256.Idx → EReal) (ix2 u j)
      = (W main_v67 : S2x256.Idx → EReal) (ix2 (1 : Fin 2) j) := by
  have e : (StableHlo.after hostOps16 W main_v107 : S1x256.Idx → EReal)
      = shapeCast S1x256 (shapeCast S256 (extractStridedSlice S1x256 ![1, 0] (W main_v67 : S2x256.Idx → EReal) slices_S2x256_S1x256_1_0) shapeCasts_S1x256_S256) shapeCasts_S256_S1x256 := by
    show StableHlo.after hostOps16 W (Proc.devRef .tc main_v107) = _
    after_results
    rfl
  rw [e]
  exact stackRow_apply 1 (by decide) _ _ _ _ u j

/-- Bias 0 of the score level's (to the relations, padded) stack, as a one-row matrix. -/
theorem hostOps17_v113 (W : Valuation τ sig (Elt Ideal)) (u : Fin 1) (j : Fin 128) :
    (StableHlo.after hostOps17 W main_v113 : S1x128.Idx → EReal) (ix2 u j)
      = (W main_v69 : S2x128.Idx → EReal) (ix2 (0 : Fin 2) j) := by
  have e : (StableHlo.after hostOps17 W main_v113 : S1x128.Idx → EReal)
      = shapeCast S1x128 (shapeCast S128 (extractStridedSlice S1x128 ![0, 0] (W main_v69 : S2x128.Idx → EReal) slices_S2x128_S1x128_0_0) shapeCasts_S1x128_S128) shapeCasts_S128_S1x128 := by
    show StableHlo.after hostOps17 W (Proc.devRef .tc main_v113) = _
    after_results
    rfl
  rw [e]
  exact stackRow_apply 0 (by decide) _ _ _ _ u j

/-- Bias 1 of the score level's (to the relations, padded) stack, as a one-row matrix. -/
theorem hostOps18_v119 (W : Valuation τ sig (Elt Ideal)) (u : Fin 1) (j : Fin 128) :
    (StableHlo.after hostOps18 W main_v119 : S1x128.Idx → EReal) (ix2 u j)
      = (W main_v69 : S2x128.Idx → EReal) (ix2 (1 : Fin 2) j) := by
  have e : (StableHlo.after hostOps18 W main_v119 : S1x128.Idx → EReal)
      = shapeCast S1x128 (shapeCast S128 (extractStridedSlice S1x128 ![1, 0] (W main_v69 : S2x128.Idx → EReal) slices_S2x128_S1x128_1_0) shapeCasts_S1x128_S128) shapeCasts_S128_S1x128 := by
    show StableHlo.after hostOps18 W (Proc.devRef .tc main_v119) = _
    after_results
    rfl
  rw [e]
  exact stackRow_apply 1 (by decide) _ _ _ _ u j

/-- The integer zero the padding value is converted from. -/
theorem hostOps10_c (W : Valuation τ sig (Elt Ideal)) :
    (StableHlo.after hostOps10 W main_c : S_.Idx → BitVec 32) ix0 = 0#32 := by
  have e : (StableHlo.after hostOps10 W main_c : S_.Idx → BitVec 32)
      = constantI S_ 32 0#32 := by
    show StableHlo.after hostOps10 W (Proc.devRef .tc main_c) = _
    after_results
  rw [e]
  rfl

/-- The object classifier's weights, padded to 256 columns: the array inside its real extents, zero outside (given that the integer constant read is zero). -/
theorem hostOps10_1_v62 (W : Valuation τ sig (Elt Ideal)) (hc : (W main_c : S_.Idx → BitVec 32) ix0 = 0#32)
    (a : Fin 512) (b : Fin 256) :
    (StableHlo.after hostOps10_1 W main_v62 : S512x256.Idx → EReal) (ix2 a b)
      = if h : a.val < 512 ∧ b.val < 151 then (W main_arg17 : S512x151.Idx → EReal) (ix2 ⟨a.val, h.1⟩ ⟨b.val, h.2⟩) else (0 : EReal) := by
  have e : (StableHlo.after hostOps10_1 W main_v62 : S512x256.Idx → EReal)
      = pad S512x256 ![0, 0] ![0, 105] ![0, 0] (W main_arg17 : S512x151.Idx → EReal)
          (sitofp .f32 (W main_c : S_.Idx → BitVec 32) : FVec Ideal S_ .f32) pads_S512x151_S512x256_000_01050 h_S_ := by
    show StableHlo.after hostOps10_1 W (Proc.devRef .tc main_v62) = _
    after_results
    rfl
  rw [e, padMat_apply, padValue_zero _ hc]

/-- The same over the two stretches: the constant's and the pad's. -/
theorem hostOps10_pad_v62 (W : Valuation τ sig (Elt Ideal)) (a : Fin 512) (b : Fin 256) :
    (StableHlo.after hostOps10_1 (StableHlo.after hostOps10 W) main_v62 : S512x256.Idx → EReal) (ix2 a b)
      = if h : a.val < 512 ∧ b.val < 151 then (W main_arg17 : S512x151.Idx → EReal) (ix2 ⟨a.val, h.1⟩ ⟨b.val, h.2⟩) else (0 : EReal) := by
  have es : (StableHlo.after hostOps10 W main_arg17 : S512x151.Idx → EReal) = (W main_arg17 : S512x151.Idx → EReal) := by
    show StableHlo.after hostOps10 W (Proc.devRef .tc main_arg17) = _
    after_results
  rw [hostOps10_1_v62 _ (hostOps10_c W), es]

/-- The integer zero the padding value is converted from. -/
theorem hostOps10_2_c_0 (W : Valuation τ sig (Elt Ideal)) :
    (StableHlo.after hostOps10_2 W main_c_0 : S_.Idx → BitVec 32) ix0 = 0#32 := by
  have e : (StableHlo.after hostOps10_2 W main_c_0 : S_.Idx → BitVec 32)
      = constantI S_ 32 0#32 := by
    show StableHlo.after hostOps10_2 W (Proc.devRef .tc main_c_0) = _
    after_results
  rw [e]
  rfl

/-- The object classifier's bias, padded to 256: the array inside its real extents, zero outside (given that the integer constant read is zero). -/
theorem hostOps10_3_v63 (W : Valuation τ sig (Elt Ideal)) (hc : (W main_c_0 : S_.Idx → BitVec 32) ix0 = 0#32)
    (j : Fin 256) :
    (StableHlo.after hostOps10_3 W main_v63 : S256.Idx → EReal) (ix1 j)
      = if h : j.val < 151 then (W main_arg18 : S151.Idx → EReal) (ix1 ⟨j.val, h⟩) else (0 : EReal) := by
  have e : (StableHlo.after hostOps10_3 W main_v63 : S256.Idx → EReal)
      = pad S256 ![0] ![105] ![0] (W main_arg18 : S151.Idx → EReal)
          (sitofp .f32 (W main_c_0 : S_.Idx → BitVec 32) : FVec Ideal S_ .f32) pads_S151_S256_01050 h_S_ := by
    show StableHlo.after hostOps10_3 W (Proc.devRef .tc main_v63) = _
    after_results
    rfl
  rw [e, padVec_apply, padValue_zero _ hc]

/-- The same over the two stretches: the constant's and the pad's. -/
theorem hostOps10_2_pad_v63 (W : Valuation τ sig (Elt Ideal)) (j : Fin 256) :
    (StableHlo.after hostOps10_3 (StableHlo.after hostOps10_2 W) main_v63 : S256.Idx → EReal) (ix1 j)
      = if h : j.val < 151 then (W main_arg18 : S151.Idx → EReal) (ix1 ⟨j.val, h⟩) else (0 : EReal) := by
  have es : (StableHlo.after hostOps10_2 W main_arg18 : S151.Idx → EReal) = (W main_arg18 : S151.Idx → EReal) := by
    show StableHlo.after hostOps10_2 W (Proc.devRef .tc main_arg18) = _
    after_results
  rw [hostOps10_3_v63 _ (hostOps10_2_c_0 W), es]

/-- The integer zero the padding value is converted from. -/
theorem hostOps10_4_c_1 (W : Valuation τ sig (Elt Ideal)) :
    (StableHlo.after hostOps10_4 W main_c_1 : S_.Idx → BitVec 32) ix0 = 0#32 := by
  have e : (StableHlo.after hostOps10_4 W main_c_1 : S_.Idx → BitVec 32)
      = constantI S_ 32 0#32 := by
    show StableHlo.after hostOps10_4 W (Proc.devRef .tc main_c_1) = _
    after_results
  rw [e]
  rfl

/-- The relation classifier's weights, padded to 128 columns: the array inside its real extents, zero outside (given that the integer constant read is zero). -/
theorem hostOps10_5_v64 (W : Valuation τ sig (Elt Ideal)) (hc : (W main_c_1 : S_.Idx → BitVec 32) ix0 = 0#32)
    (a : Fin 512) (b : Fin 128) :
    (StableHlo.after hostOps10_5 W main_v64 : S512x128.Idx → EReal) (ix2 a b)
      = if h : a.val < 512 ∧ b.val < 51 then (W main_arg19 : S512x51.Idx → EReal) (ix2 ⟨a.val, h.1⟩ ⟨b.val, h.2⟩) else (0 : EReal) := by
  have e : (StableHlo.after hostOps10_5 W main_v64 : S512x128.Idx → EReal)
      = pad S512x128 ![0, 0] ![0, 77] ![0, 0] (W main_arg19 : S512x51.Idx → EReal)
          (sitofp .f32 (W main_c_1 : S_.Idx → BitVec 32) : FVec Ideal S_ .f32) pads_S512x51_S512x128_000_0770 h_S_ := by
    show StableHlo.after hostOps10_5 W (Proc.devRef .tc main_v64) = _
    after_results
    rfl
  rw [e, padMat_apply, padValue_zero _ hc]

/-- The same over the two stretches: the constant's and the pad's. -/
theorem hostOps10_4_pad_v64 (W : Valuation τ sig (Elt Ideal)) (a : Fin 512) (b : Fin 128) :
    (StableHlo.after hostOps10_5 (StableHlo.after hostOps10_4 W) main_v64 : S512x128.Idx → EReal) (ix2 a b)
      = if h : a.val < 512 ∧ b.val < 51 then (W main_arg19 : S512x51.Idx → EReal) (ix2 ⟨a.val, h.1⟩ ⟨b.val, h.2⟩) else (0 : EReal) := by
  have es : (StableHlo.after hostOps10_4 W main_arg19 : S512x51.Idx → EReal) = (W main_arg19 : S512x51.Idx → EReal) := by
    show StableHlo.after hostOps10_4 W (Proc.devRef .tc main_arg19) = _
    after_results
  rw [hostOps10_5_v64 _ (hostOps10_4_c_1 W), es]

/-- The integer zero the padding value is converted from. -/
theorem hostOps10_6_c_2 (W : Valuation τ sig (Elt Ideal)) :
    (StableHlo.after hostOps10_6 W main_c_2 : S_.Idx → BitVec 32) ix0 = 0#32 := by
  have e : (StableHlo.after hostOps10_6 W main_c_2 : S_.Idx → BitVec 32)
      = constantI S_ 32 0#32 := by
    show StableHlo.after hostOps10_6 W (Proc.devRef .tc main_c_2) = _
    after_results
  rw [e]
  rfl

/-- The relation classifier's bias, padded to 128: the array inside its real extents, zero outside (given that the integer constant read is zero). -/
theorem hostOps10_7_v65 (W : Valuation τ sig (Elt Ideal)) (hc : (W main_c_2 : S_.Idx → BitVec 32) ix0 = 0#32)
    (j : Fin 128) :
    (StableHlo.after hostOps10_7 W main_v65 : S128.Idx → EReal) (ix1 j)
      = if h : j.val < 51 then (W main_arg20 : S51.Idx → EReal) (ix1 ⟨j.val, h⟩) else (0 : EReal) := by
  have e : (StableHlo.after hostOps10_7 W main_v65 : S128.Idx → EReal)
      = pad S128 ![0] ![77] ![0] (W main_arg20 : S51.Idx → EReal)
          (sitofp .f32 (W main_c_2 : S_.Idx → BitVec 32) : FVec Ideal S_ .f32) pads_S51_S128_0770 h_S_ := by
    show StableHlo.after hostOps10_7 W (Proc.devRef .tc main_v65) = _
    after_results
    rfl
  rw [e, padVec_apply, padValue_zero _ hc]

/-- The same over the two stretches: the constant's and the pad's. -/
theorem hostOps10_6_pad_v65 (W : Valuation τ sig (Elt Ideal)) (j : Fin 128) :
    (StableHlo.after hostOps10_7 (StableHlo.after hostOps10_6 W) main_v65 : S128.Idx → EReal) (ix1 j)
      = if h : j.val < 51 then (W main_arg20 : S51.Idx → EReal) (ix1 ⟨j.val, h⟩) else (0 : EReal) := by
  have es : (StableHlo.after hostOps10_6 W main_arg20 : S51.Idx → EReal) = (W main_arg20 : S51.Idx → EReal) := by
    show StableHlo.after hostOps10_6 W (Proc.devRef .tc main_arg20) = _
    after_results
  rw [hostOps10_7_v65 _ (hostOps10_6_c_2 W), es]

/-- The integer zero the padding value is converted from. -/
theorem hostOps10_8_c_3 (W : Valuation τ sig (Elt Ideal)) :
    (StableHlo.after hostOps10_8 W main_c_3 : S_.Idx → BitVec 32) ix0 = 0#32 := by
  have e : (StableHlo.after hostOps10_8 W main_c_3 : S_.Idx → BitVec 32)
      = constantI S_ 32 0#32 := by
    show StableHlo.after hostOps10_8 W (Proc.devRef .tc main_c_3) = _
    after_results
  rw [e]
  rfl

/-- The score level's weights to the objects, padded to 128 by 256: the array inside its real extents, zero outside (given that the integer constant read is zero). -/
theorem hostOps10_9_v66 (W : Valuation τ sig (Elt Ideal)) (hc : (W main_c_3 : S_.Idx → BitVec 32) ix0 = 0#32)
    (k : Fin 2) (a : Fin 128) (b : Fin 256) :
    (StableHlo.after hostOps10_9 W main_v66 : S2x128x256.Idx → EReal) (ix3 k a b)
      = if h : a.val < 51 ∧ b.val < 151 then (W main_arg13 : S2x51x151.Idx → EReal) (ix3 k ⟨a.val, h.1⟩ ⟨b.val, h.2⟩) else (0 : EReal) := by
  have e : (StableHlo.after hostOps10_9 W main_v66 : S2x128x256.Idx → EReal)
      = pad S2x128x256 ![0, 0, 0] ![0, 77, 105] ![0, 0, 0] (W main_arg13 : S2x51x151.Idx → EReal)
          (sitofp .f32 (W main_c_3 : S_.Idx → BitVec 32) : FVec Ideal S_ .f32) pads_S2x51x151_S2x128x256_000_0770_01050 h_S_ := by
    show StableHlo.after hostOps10_9 W (Proc.devRef .tc main_v66) = _
    after_results
    rfl
  rw [e, padStack_apply, padValue_zero _ hc]

/-- The same over the two stretches: the constant's and the pad's. -/
theorem hostOps10_8_pad_v66 (W : Valuation τ sig (Elt Ideal)) (k : Fin 2) (a : Fin 128) (b : Fin 256) :
    (StableHlo.after hostOps10_9 (StableHlo.after hostOps10_8 W) main_v66 : S2x128x256.Idx → EReal) (ix3 k a b)
      = if h : a.val < 51 ∧ b.val < 151 then (W main_arg13 : S2x51x151.Idx → EReal) (ix3 k ⟨a.val, h.1⟩ ⟨b.val, h.2⟩) else (0 : EReal) := by
  have es : (StableHlo.after hostOps10_8 W main_arg13 : S2x51x151.Idx → EReal) = (W main_arg13 : S2x51x151.Idx → EReal) := by
    show StableHlo.after hostOps10_8 W (Proc.devRef .tc main_arg13) = _
    after_results
  rw [hostOps10_9_v66 _ (hostOps10_8_c_3 W), es]

/-- The integer zero the padding value is converted from. -/
theorem hostOps10_10_c_4 (W : Valuation τ sig (Elt Ideal)) :
    (StableHlo.after hostOps10_10 W main_c_4 : S_.Idx → BitVec 32) ix0 = 0#32 := by
  have e : (StableHlo.after hostOps10_10 W main_c_4 : S_.Idx → BitVec 32)
      = constantI S_ 32 0#32 := by
    show StableHlo.after hostOps10_10 W (Proc.devRef .tc main_c_4) = _
    after_results
  rw [e]
  rfl

/-- The score level's biases to the objects, padded to 256: the array inside its real extents, zero outside (given that the integer constant read is zero). -/
theorem hostOps10_11_v67 (W : Valuation τ sig (Elt Ideal)) (hc : (W main_c_4 : S_.Idx → BitVec 32) ix0 = 0#32)
    (k : Fin 2) (j : Fin 256) :
    (StableHlo.after hostOps10_11 W main_v67 : S2x256.Idx → EReal) (ix2 k j)
      = if h : j.val < 151 then (W main_arg14 : S2x151.Idx → EReal) (ix2 k ⟨j.val, h⟩) else (0 : EReal) := by
  have e : (StableHlo.after hostOps10_11 W main_v67 : S2x256.Idx → EReal)
      = pad S2x256 ![0, 0] ![0, 105] ![0, 0] (W main_arg14 : S2x151.Idx → EReal)
          (sitofp .f32 (W main_c_4 : S_.Idx → BitVec 32) : FVec Ideal S_ .f32) pads_S2x151_S2x256_000_01050 h_S_ := by
    show StableHlo.after hostOps10_11 W (Proc.devRef .tc main_v67) = _
    after_results
    rfl
  rw [e, padRows_apply, padValue_zero _ hc]

/-- The same over the two stretches: the constant's and the pad's. -/
theorem hostOps10_10_pad_v67 (W : Valuation τ sig (Elt Ideal)) (k : Fin 2) (j : Fin 256) :
    (StableHlo.after hostOps10_11 (StableHlo.after hostOps10_10 W) main_v67 : S2x256.Idx → EReal) (ix2 k j)
      = if h : j.val < 151 then (W main_arg14 : S2x151.Idx → EReal) (ix2 k ⟨j.val, h⟩) else (0 : EReal) := by
  have es : (StableHlo.after hostOps10_10 W main_arg14 : S2x151.Idx → EReal) = (W main_arg14 : S2x151.Idx → EReal) := by
    show StableHlo.after hostOps10_10 W (Proc.devRef .tc main_arg14) = _
    after_results
  rw [hostOps10_11_v67 _ (hostOps10_10_c_4 W), es]

/-- The integer zero the padding value is converted from. -/
theorem hostOps10_12_c_5 (W : Valuation τ sig (Elt Ideal)) :
    (StableHlo.after hostOps10_12 W main_c_5 : S_.Idx → BitVec 32) ix0 = 0#32 := by
  have e : (StableHlo.after hostOps10_12 W main_c_5 : S_.Idx → BitVec 32)
      = constantI S_ 32 0#32 := by
    show StableHlo.after hostOps10_12 W (Proc.devRef .tc main_c_5) = _
    after_results
  rw [e]
  rfl

/-- The score level's weights to the relations, padded to 256 by 128: the array inside its real extents, zero outside (given that the integer constant read is zero). -/
theorem hostOps10_13_v68 (W : Valuation τ sig (Elt Ideal)) (hc : (W main_c_5 : S_.Idx → BitVec 32) ix0 = 0#32)
    (k : Fin 2) (a : Fin 256) (b : Fin 128) :
    (StableHlo.after hostOps10_13 W main_v68 : S2x256x128.Idx → EReal) (ix3 k a b)
      = if h : a.val < 151 ∧ b.val < 51 then (W main_arg15 : S2x151x51.Idx → EReal) (ix3 k ⟨a.val, h.1⟩ ⟨b.val, h.2⟩) else (0 : EReal) := by
  have e : (StableHlo.after hostOps10_13 W main_v68 : S2x256x128.Idx → EReal)
      = pad S2x256x128 ![0, 0, 0] ![0, 105, 77] ![0, 0, 0] (W main_arg15 : S2x151x51.Idx → EReal)
          (sitofp .f32 (W main_c_5 : S_.Idx → BitVec 32) : FVec Ideal S_ .f32) pads_S2x151x51_S2x256x128_000_01050_0770 h_S_ := by
    show StableHlo.after hostOps10_13 W (Proc.devRef .tc main_v68) = _
    after_results
    rfl
  rw [e, padStack_apply, padValue_zero _ hc]

/-- The same over the two stretches: the constant's and the pad's. -/
theorem hostOps10_12_pad_v68 (W : Valuation τ sig (Elt Ideal)) (k : Fin 2) (a : Fin 256) (b : Fin 128) :
    (StableHlo.after hostOps10_13 (StableHlo.after hostOps10_12 W) main_v68 : S2x256x128.Idx → EReal) (ix3 k a b)
      = if h : a.val < 151 ∧ b.val < 51 then (W main_arg15 : S2x151x51.Idx → EReal) (ix3 k ⟨a.val, h.1⟩ ⟨b.val, h.2⟩) else (0 : EReal) := by
  have es : (StableHlo.after hostOps10_12 W main_arg15 : S2x151x51.Idx → EReal) = (W main_arg15 : S2x151x51.Idx → EReal) := by
    show StableHlo.after hostOps10_12 W (Proc.devRef .tc main_arg15) = _
    after_results
  rw [hostOps10_13_v68 _ (hostOps10_12_c_5 W), es]

/-- The integer zero the padding value is converted from. -/
theorem hostOps10_14_c_6 (W : Valuation τ sig (Elt Ideal)) :
    (StableHlo.after hostOps10_14 W main_c_6 : S_.Idx → BitVec 32) ix0 = 0#32 := by
  have e : (StableHlo.after hostOps10_14 W main_c_6 : S_.Idx → BitVec 32)
      = constantI S_ 32 0#32 := by
    show StableHlo.after hostOps10_14 W (Proc.devRef .tc main_c_6) = _
    after_results
  rw [e]
  rfl

/-- The score level's biases to the relations, padded to 128: the array inside its real extents, zero outside (given that the integer constant read is zero). -/
theorem hostOps10_15_v69 (W : Valuation τ sig (Elt Ideal)) (hc : (W main_c_6 : S_.Idx → BitVec 32) ix0 = 0#32)
    (k : Fin 2) (j : Fin 128) :
    (StableHlo.after hostOps10_15 W main_v69 : S2x128.Idx → EReal) (ix2 k j)
      = if h : j.val < 51 then (W main_arg16 : S2x51.Idx → EReal) (ix2 k ⟨j.val, h⟩) else (0 : EReal) := by
  have e : (StableHlo.after hostOps10_15 W main_v69 : S2x128.Idx → EReal)
      = pad S2x128 ![0, 0] ![0, 77] ![0, 0] (W main_arg16 : S2x51.Idx → EReal)
          (sitofp .f32 (W main_c_6 : S_.Idx → BitVec 32) : FVec Ideal S_ .f32) pads_S2x51_S2x128_000_0770 h_S_ := by
    show StableHlo.after hostOps10_15 W (Proc.devRef .tc main_v69) = _
    after_results
    rfl
  rw [e, padRows_apply, padValue_zero _ hc]

/-- The same over the two stretches: the constant's and the pad's. -/
theorem hostOps10_14_pad_v69 (W : Valuation τ sig (Elt Ideal)) (k : Fin 2) (j : Fin 128) :
    (StableHlo.after hostOps10_15 (StableHlo.after hostOps10_14 W) main_v69 : S2x128.Idx → EReal) (ix2 k j)
      = if h : j.val < 51 then (W main_arg16 : S2x51.Idx → EReal) (ix2 k ⟨j.val, h⟩) else (0 : EReal) := by
  have es : (StableHlo.after hostOps10_14 W main_arg16 : S2x51.Idx → EReal) = (W main_arg16 : S2x51.Idx → EReal) := by
    show StableHlo.after hostOps10_14 W (Proc.devRef .tc main_arg16) = _
    after_results
  rw [hostOps10_15_v69 _ (hostOps10_14_c_6 W), es]

/-- The objects' scores: the real columns of the padded array. -/
theorem hostOps20_v122 (W : Valuation τ sig (Elt Ideal)) (i : Fin 2048) (j : Fin 151) :
    (StableHlo.after hostOps20 W main_v122 : S2048x151.Idx → EReal) (ix2 i j)
      = (W main_v108 : S2048x256.Idx → EReal) (ix2 i (Fin.castLE (by decide) j)) := by
  have e : (StableHlo.after hostOps20 W main_v122 : S2048x151.Idx → EReal)
      = extractStridedSlice S2048x151 ![0, 0] (W main_v108 : S2048x256.Idx → EReal) slices_S2048x256_S2048x151_0_0 := by
    show StableHlo.after hostOps20 W (Proc.devRef .tc main_v122) = _
    after_results
  rw [e]
  exact leadCols_apply (by decide) _ _ i j

/-- The relations' scores: the real columns of the padded array. -/
theorem hostOps20_v123 (W : Valuation τ sig (Elt Ideal)) (i : Fin 32768) (j : Fin 51) :
    (StableHlo.after hostOps20 W main_v123 : S32768x51.Idx → EReal) (ix2 i j)
      = (W main_v121 : S32768x128.Idx → EReal) (ix2 i (Fin.castLE (by decide) j)) := by
  have e : (StableHlo.after hostOps20 W main_v123 : S32768x51.Idx → EReal)
      = extractStridedSlice S32768x51 ![0, 0] (W main_v121 : S32768x128.Idx → EReal) slices_S32768x128_S32768x51_0_0 := by
    show StableHlo.after hostOps20 W (Proc.devRef .tc main_v123) = _
    after_results
  rw [e]
  exact leadCols_apply (by decide) _ _ i j

end Cert.KernelIdeal.HostV

end
-- ==== Proof.Spec.lean ====
/-
  The mathematics both programs compute, on the extended reals, as functions of matrices indexed by `Fin`.

  A scene graph has `no` objects and `nr` relations; relation `r` has a subject `idx0 r` and an object `idx1 r` (32-bit words
  naming objects). Features are embedded by two-layer perceptrons, then refined by two rounds of message passing at the
  feature level and, after two linear classifiers, two rounds at the score level. One message-passing half is
  `collect A fc`: the rows of `fc` (a linear layer followed by max(·, 0)) averaged with the 0/1 weights of the adjacency
  `A`, the row's degree plus `eps` in the denominator; an update adds half the sum of two such halves to its target.
  The adjacency of objects against relations is `adj idx`: entry (i, r) is 1 exactly when relation `r` names object `i`;
  the relations' side uses its transpose.
-/
import Idealize.ShloMosaic.PureOps.Ideal
import Mathlib.Algebra.BigOperators.Fin

noncomputable section

open Idealize.ShloMosaic
open scoped BigOperators

namespace Cert.Spec

/-- A matrix of extended reals with `a` rows and `b` columns. -/
abbrev Mat (a b : ℕ) := Fin a → Fin b → EReal

/-- The positive part. -/
def relu (x : EReal) : EReal := max x 0

/-- The small constant added to every degree: the binary32 word both programs carry (the float nearest 1e-7). -/
def eps : EReal := Ideal.ofBits .f32 0x33D6BF95#32

/-- One half: the binary32 word of 0.5. -/
def half : EReal := Ideal.ofBits .f32 0x3F000000#32

/-- A linear layer: `x · W + b`. -/
def lin {r k n : ℕ} (x : Mat r k) (W : Mat k n) (b : Fin n → EReal) : Mat r n :=
  fun i j => (∑ l : Fin k, x i l * W l j) + b j

/-- A linear layer followed by the positive part. -/
def linRelu {r k n : ℕ} (x : Mat r k) (W : Mat k n) (b : Fin n → EReal) : Mat r n :=
  fun i j => relu (lin x W b i j)

/-- The two-layer perceptron: linear, positive part, linear. -/
def mlp {r f d e : ℕ} (x : Mat r f) (W1 : Mat f d) (b1 : Fin d → EReal) (W2 : Mat d e) (b2 : Fin e → EReal) : Mat r e :=
  lin (linRelu x W1 b1) W2 b2

/-- The 0/1 adjacency of `no` objects against `nr` relations: 1 at (i, r) exactly when the word `idx r` is the number `i`. -/
def adj {nr : ℕ} (no : ℕ) (idx : Fin nr → BitVec 32) : Mat no nr :=
  fun i r => if idx r = BitVec.ofNat 32 i.val then 1 else 0

/-- The transpose. -/
def tr {a b : ℕ} (A : Mat a b) : Mat b a := fun i j => A j i

/-- One message-passing half: the `A`-weighted sum of the rows of `fc`, over the row's degree plus `eps`. -/
def collect {m k n : ℕ} (A : Mat m k) (fc : Mat k n) : Mat m n :=
  fun i j => Ideal.div (∑ r : Fin k, A i r * fc r j) ((∑ r : Fin k, A i r) + eps)

/-- The update: the target plus half the sum of the two halves. -/
def upd {m n : ℕ} (t s0 s1 : Mat m n) : Mat m n :=
  fun i j => t i j + half * (s0 i j + s1 i j)

/-- One round at either level: the objects collect from the relations through both adjacencies, the relations from the
    objects through the transposes; `Wo0 bo0 Wo1 bo1` are the two linear layers applied to the relations' features,
    `Wr0 br0 Wr1 br1` the two applied to the objects'. -/
def round {no nr dO dR : ℕ} (A0 A1 : Mat no nr)
    (Wo0 : Mat dR dO) (bo0 : Fin dO → EReal) (Wo1 : Mat dR dO) (bo1 : Fin dO → EReal)
    (Wr0 : Mat dO dR) (br0 : Fin dR → EReal) (Wr1 : Mat dO dR) (br1 : Fin dR → EReal)
    (o : Mat no dO) (p : Mat nr dR) : Mat no dO × Mat nr dR :=
  (upd o (collect A0 (linRelu p Wo0 bo0)) (collect A1 (linRelu p Wo1 bo1)),
   upd p (collect (tr A0) (linRelu o Wr0 br0)) (collect (tr A1) (linRelu o Wr1 br1)))

/-- The whole model's three results: the relations' embedded features, and the objects' and the relations' scores
    after two rounds at each level. -/
structure Params (feat dim nco ncp : ℕ) where
  oW1 : Mat feat dim
  ob1 : Fin dim → EReal
  oW2 : Mat dim dim
  ob2 : Fin dim → EReal
  rW1 : Mat feat dim
  rb1 : Fin dim → EReal
  rW2 : Mat dim dim
  rb2 : Fin dim → EReal
  Wf : Fin 4 → Mat dim dim
  bf : Fin 4 → Fin dim → EReal
  Wso : Fin 2 → Mat ncp nco
  bso : Fin 2 → Fin nco → EReal
  Wsr : Fin 2 → Mat nco ncp
  bsr : Fin 2 → Fin ncp → EReal
  Wco : Mat dim nco
  bco : Fin nco → EReal
  Wcp : Mat dim ncp
  bcp : Fin ncp → EReal

variable {no nr feat dim nco ncp : ℕ}

/-- A feature-level round. -/
def featRound (P : Params feat dim nco ncp) (A0 A1 : Mat no nr) (o : Mat no dim) (p : Mat nr dim) : Mat no dim × Mat nr dim :=
  round A0 A1 (P.Wf 0) (P.bf 0) (P.Wf 1) (P.bf 1) (P.Wf 2) (P.bf 2) (P.Wf 3) (P.bf 3) o p

/-- A score-level round. -/
def scoreRound (P : Params feat dim nco ncp) (A0 A1 : Mat no nr) (o : Mat no nco) (p : Mat nr ncp) : Mat no nco × Mat nr ncp :=
  round A0 A1 (P.Wso 0) (P.bso 0) (P.Wso 1) (P.bso 1) (P.Wsr 0) (P.bsr 0) (P.Wsr 1) (P.bsr 1) o p

/-- The relations' embedded features (the first result). -/
def xPred (P : Params feat dim nco ncp) (xp : Mat nr feat) : Mat nr dim := mlp xp P.rW1 P.rb1 P.rW2 P.rb2

/-- The objects' embedded features. -/
def xObj (P : Params feat dim nco ncp) (xo : Mat no feat) : Mat no dim := mlp xo P.oW1 P.ob1 P.oW2 P.ob2

/-- The features after the two feature-level rounds. -/
def feats (P : Params feat dim nco ncp) (A0 A1 : Mat no nr) (xo : Mat no feat) (xp : Mat nr feat) : Mat no dim × Mat nr dim :=
  let s1 := featRound P A0 A1 (xObj P xo) (xPred P xp)
  featRound P A0 A1 s1.1 s1.2

/-- The scores after the classifiers and the two score-level rounds (the second and third results). -/
def scores (P : Params feat dim nco ncp) (A0 A1 : Mat no nr) (xo : Mat no feat) (xp : Mat nr feat) : Mat no nco × Mat nr ncp :=
  let f := feats P A0 A1 xo xp
  let s1 := scoreRound P A0 A1 (lin f.1 P.Wco P.bco) (lin f.2 P.Wcp P.bcp)
  scoreRound P A0 A1 s1.1 s1.2

end Cert.Spec

end
-- ==== Proof.Model.lean ====
/-
  The model's inputs read off the argument arrays. Both programs take the same twenty-one arrays; the model of Spec.lean takes
  matrices and vectors indexed by `Fin`. Here an array of rank 2 is read as a matrix, an array of rank 1 as a vector, a stacked
  array of rank 3 by its slices, and the index input's two columns give the two adjacencies. The shapes are spelt as literals, so the
  same readings apply to the arrays of either program.
-/
import proofs.«422120_j65652870087589_3_alg».proof.Proof.Spec
import Idealize.ShloMosaic.Lib.ValueIdx

noncomputable section

open Idealize.ShloMosaic Idealize.ShloMosaic.ValueIdx

namespace Cert.Model

/-- Arrays of extended reals of rank 1, 2 and 3, and arrays of 32-bit words of rank 2, at literal extents. -/
abbrev A1 (n : ℕ) : Type := (⟨1, ![n]⟩ : Shape).Idx → EReal
abbrev A2 (a b : ℕ) : Type := (⟨2, ![a, b]⟩ : Shape).Idx → EReal
abbrev A3 (k a b : ℕ) : Type := (⟨3, ![k, a, b]⟩ : Shape).Idx → EReal
abbrev W2 (a b : ℕ) : Type := (⟨2, ![a, b]⟩ : Shape).Idx → BitVec 32

/-- A rank-2 array read as a matrix. -/
def mat {a b : ℕ} (v : A2 a b) : Spec.Mat a b := fun i j => v (ix2 i j)
/-- A rank-1 array read as a vector. -/
def vec {n : ℕ} (v : A1 n) : Fin n → EReal := fun j => v (ix1 j)

theorem mat_apply {a b : ℕ} (v : A2 a b) (i : Fin a) (j : Fin b) : mat v i j = v (ix2 i j) := rfl
theorem vec_apply {n : ℕ} (v : A1 n) (j : Fin n) : vec v j = v (ix1 j) := rfl

/-- The model's parameters: the weight and bias arguments read as matrices and vectors, a stacked array by its slices. -/
def params (x3 : A2 2048 512) (x4 : A1 512) (x5 : A2 512 512) (x6 : A1 512) (x7 : A2 2048 512) (x8 : A1 512)
    (x9 : A2 512 512) (x10 : A1 512) (x11 : A3 4 512 512) (x12 : A2 4 512) (x13 : A3 2 51 151) (x14 : A2 2 151)
    (x15 : A3 2 151 51) (x16 : A2 2 51) (x17 : A2 512 151) (x18 : A1 151) (x19 : A2 512 51) (x20 : A1 51) :
    Spec.Params 2048 512 151 51 where
  oW1 := mat x3
  ob1 := vec x4
  oW2 := mat x5
  ob2 := vec x6
  rW1 := mat x7
  rb1 := vec x8
  rW2 := mat x9
  rb2 := vec x10
  Wf := fun k a b => x11 (ix3 k a b)
  bf := fun k j => x12 (ix2 k j)
  Wso := fun k a b => x13 (ix3 k a b)
  bso := fun k j => x14 (ix2 k j)
  Wsr := fun k a b => x15 (ix3 k a b)
  bsr := fun k j => x16 (ix2 k j)
  Wco := mat x17
  bco := vec x18
  Wcp := mat x19
  bcp := vec x20

/-- The adjacency of the objects against the relations through column `k` of the index input. -/
def adjCol (x2 : W2 32768 2) (k : Fin 2) : Spec.Mat 2048 32768 := Spec.adj 2048 (fun r : Fin 32768 => x2 (ix2 r k))

end Cert.Model

end
-- ==== Proof.KI.Inputs.lean ====
/-
  What each kernel region is entered with. A region's input window stages an argument (as launched), an earlier region's output (as
  that region left it), or an array a host stretch wrote: a bias as a row, an index column, slice k of a stack of weights, a zero-padded
  weight or a slice of one. The last kind is read at an index, back to the launch memory's arguments; a padded one is the argument inside its
  real extents and zero outside.
-/
import proofs.«422120_j65652870087589_3_alg».proof.Proof.KI.Walk
import proofs.«422120_j65652870087589_3_alg».proof.Proof.KI.Host
import proofs.«422120_j65652870087589_3_alg».proof.Proof.Model

set_option maxRecDepth 16384

noncomputable section

namespace Cert.KernelIdeal.HandV

open Cert.KernelIdeal Cert.KernelIdeal.Gen Cert.KernelIdeal.GenP Cert.KernelIdeal.Hand Cert.KernelIdeal.HostV
open Idealize.ShloMosaic Idealize.ShloMosaic.TcCoe Idealize.ShloMosaic.ValueIdx Idealize.SL.Sem

variable (m : (ℓ : Loc nD τ sig) → Buf (Elt Ideal) ℓ) (c : Dev nD)

/-! ## A host stretch's own inputs: where they were last written -/

theorem hw2_main_arg8 : U2 m c main_arg8 = U0 m c main_arg8 :=
  (U2_of m c main_arg8 (by decide)).trans <| (U1_of m c main_arg8 (by decide))
theorem hw2_main_arg10 : U2 m c main_arg10 = U0 m c main_arg10 :=
  (U2_of m c main_arg10 (by decide)).trans <| (U1_of m c main_arg10 (by decide))
theorem hw5_main_v4 : U5 m c main_v4 = U1 m c main_v4 :=
  (U5_of m c main_v4 (by decide)).trans <| (U4_of m c main_v4 (by decide)).trans <| (U3_of m c main_v4 (by decide)).trans <| (U2_of m c main_v4 (by decide))
theorem hw5_main_v5 : U5 m c main_v5 = U1 m c main_v5 :=
  (U5_of m c main_v5 (by decide)).trans <| (U4_of m c main_v5 (by decide)).trans <| (U3_of m c main_v5 (by decide)).trans <| (U2_of m c main_v5 (by decide))
theorem hw4_main_arg11 : U4 m c main_arg11 = U0 m c main_arg11 :=
  (U4_of m c main_arg11 (by decide)).trans <| (U3_of m c main_arg11 (by decide)).trans <| (U2_of m c main_arg11 (by decide)).trans <| (U1_of m c main_arg11 (by decide))
theorem hw4_main_arg12 : U4 m c main_arg12 = U0 m c main_arg12 :=
  (U4_of m c main_arg12 (by decide)).trans <| (U3_of m c main_arg12 (by decide)).trans <| (U2_of m c main_arg12 (by decide)).trans <| (U1_of m c main_arg12 (by decide))
theorem hw6_main_arg11 : U6 m c main_arg11 = U0 m c main_arg11 :=
  (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
theorem hw6_main_arg12 : U6 m c main_arg12 = U0 m c main_arg12 :=
  (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem hw8_main_arg11 : U8 m c main_arg11 = U0 m c main_arg11 :=
  (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
theorem hw8_main_arg12 : U8 m c main_arg12 = U0 m c main_arg12 :=
  (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem hw10_main_v6 : U10 m c main_v6 = U1 m c main_v6 :=
  (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
theorem hw10_main_v7 : U10 m c main_v7 = U1 m c main_v7 :=
  (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
theorem hw12_main_v4 : U12 m c main_v4 = U1 m c main_v4 :=
  (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
theorem hw12_main_v5 : U12 m c main_v5 = U1 m c main_v5 :=
  (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
theorem hw11_main_arg11 : U11 m c main_arg11 = U0 m c main_arg11 :=
  (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
theorem hw11_main_arg12 : U11 m c main_arg12 = U0 m c main_arg12 :=
  (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem hw13_main_arg11 : U13 m c main_arg11 = U0 m c main_arg11 :=
  (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
theorem hw13_main_arg12 : U13 m c main_arg12 = U0 m c main_arg12 :=
  (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem hw15_main_arg11 : U15 m c main_arg11 = U0 m c main_arg11 :=
  (U15_of m c main_arg11 (by decide)).trans <| (U14_of m c main_arg11 (by decide)).trans <| (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide))
theorem hw15_main_arg12 : U15 m c main_arg12 = U0 m c main_arg12 :=
  (U15_of m c main_arg12 (by decide)).trans <| (U14_of m c main_arg12 (by decide)).trans <| (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem hw17_main_v6 : U17 m c main_v6 = U1 m c main_v6 :=
  (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
theorem hw17_main_v7 : U17 m c main_v7 = U1 m c main_v7 :=
  (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
theorem hw35_main_v62 : U35 m c main_v62 = U20 m c main_v62 :=
  (U35_of m c main_v62 (by decide)).trans <| (U34_of m c main_v62 (by decide)).trans <| (U33_of m c main_v62 (by decide)).trans <| (U32_of m c main_v62 (by decide)).trans <| (U31_of m c main_v62 (by decide)).trans <| (U30_of m c main_v62 (by decide)).trans <| (U29_of m c main_v62 (by decide)).trans <| (U28_of m c main_v62 (by decide)).trans <| (U27_of m c main_v62 (by decide)).trans <| (U26_of m c main_v62 (by decide)).trans <| (U25_of m c main_v62 (by decide)).trans <| (U24_of m c main_v62 (by decide)).trans <| (U23_of m c main_v62 (by decide)).trans <| (U22_of m c main_v62 (by decide)).trans <| (U21_of m c main_v62 (by decide))
theorem hw18_main_arg17 : U18 m c main_arg17 = U0 m c main_arg17 :=
  (U18_of m c main_arg17 (by decide)).trans <| (U17_of m c main_arg17 (by decide)).trans <| (U16_of m c main_arg17 (by decide)).trans <| (U15_of m c main_arg17 (by decide)).trans <| (U14_of m c main_arg17 (by decide)).trans <| (U13_of m c main_arg17 (by decide)).trans <| (U12_of m c main_arg17 (by decide)).trans <| (U11_of m c main_arg17 (by decide)).trans <| (U10_of m c main_arg17 (by decide)).trans <| (U9_of m c main_arg17 (by decide)).trans <| (U8_of m c main_arg17 (by decide)).trans <| (U7_of m c main_arg17 (by decide)).trans <| (U6_of m c main_arg17 (by decide)).trans <| (U5_of m c main_arg17 (by decide)).trans <| (U4_of m c main_arg17 (by decide)).trans <| (U3_of m c main_arg17 (by decide)).trans <| (U2_of m c main_arg17 (by decide)).trans <| (U1_of m c main_arg17 (by decide))
theorem hw34_main_v63 : U34 m c main_v63 = U22 m c main_v63 :=
  (U34_of m c main_v63 (by decide)).trans <| (U33_of m c main_v63 (by decide)).trans <| (U32_of m c main_v63 (by decide)).trans <| (U31_of m c main_v63 (by decide)).trans <| (U30_of m c main_v63 (by decide)).trans <| (U29_of m c main_v63 (by decide)).trans <| (U28_of m c main_v63 (by decide)).trans <| (U27_of m c main_v63 (by decide)).trans <| (U26_of m c main_v63 (by decide)).trans <| (U25_of m c main_v63 (by decide)).trans <| (U24_of m c main_v63 (by decide)).trans <| (U23_of m c main_v63 (by decide))
theorem hw20_main_arg18 : U20 m c main_arg18 = U0 m c main_arg18 :=
  (U20_of m c main_arg18 (by decide)).trans <| (U19_of m c main_arg18 (by decide)).trans <| (U18_of m c main_arg18 (by decide)).trans <| (U17_of m c main_arg18 (by decide)).trans <| (U16_of m c main_arg18 (by decide)).trans <| (U15_of m c main_arg18 (by decide)).trans <| (U14_of m c main_arg18 (by decide)).trans <| (U13_of m c main_arg18 (by decide)).trans <| (U12_of m c main_arg18 (by decide)).trans <| (U11_of m c main_arg18 (by decide)).trans <| (U10_of m c main_arg18 (by decide)).trans <| (U9_of m c main_arg18 (by decide)).trans <| (U8_of m c main_arg18 (by decide)).trans <| (U7_of m c main_arg18 (by decide)).trans <| (U6_of m c main_arg18 (by decide)).trans <| (U5_of m c main_arg18 (by decide)).trans <| (U4_of m c main_arg18 (by decide)).trans <| (U3_of m c main_arg18 (by decide)).trans <| (U2_of m c main_arg18 (by decide)).trans <| (U1_of m c main_arg18 (by decide))
theorem hw37_main_v64 : U37 m c main_v64 = U24 m c main_v64 :=
  (U37_of m c main_v64 (by decide)).trans <| (U36_of m c main_v64 (by decide)).trans <| (U35_of m c main_v64 (by decide)).trans <| (U34_of m c main_v64 (by decide)).trans <| (U33_of m c main_v64 (by decide)).trans <| (U32_of m c main_v64 (by decide)).trans <| (U31_of m c main_v64 (by decide)).trans <| (U30_of m c main_v64 (by decide)).trans <| (U29_of m c main_v64 (by decide)).trans <| (U28_of m c main_v64 (by decide)).trans <| (U27_of m c main_v64 (by decide)).trans <| (U26_of m c main_v64 (by decide)).trans <| (U25_of m c main_v64 (by decide))
theorem hw22_main_arg19 : U22 m c main_arg19 = U0 m c main_arg19 :=
  (U22_of m c main_arg19 (by decide)).trans <| (U21_of m c main_arg19 (by decide)).trans <| (U20_of m c main_arg19 (by decide)).trans <| (U19_of m c main_arg19 (by decide)).trans <| (U18_of m c main_arg19 (by decide)).trans <| (U17_of m c main_arg19 (by decide)).trans <| (U16_of m c main_arg19 (by decide)).trans <| (U15_of m c main_arg19 (by decide)).trans <| (U14_of m c main_arg19 (by decide)).trans <| (U13_of m c main_arg19 (by decide)).trans <| (U12_of m c main_arg19 (by decide)).trans <| (U11_of m c main_arg19 (by decide)).trans <| (U10_of m c main_arg19 (by decide)).trans <| (U9_of m c main_arg19 (by decide)).trans <| (U8_of m c main_arg19 (by decide)).trans <| (U7_of m c main_arg19 (by decide)).trans <| (U6_of m c main_arg19 (by decide)).trans <| (U5_of m c main_arg19 (by decide)).trans <| (U4_of m c main_arg19 (by decide)).trans <| (U3_of m c main_arg19 (by decide)).trans <| (U2_of m c main_arg19 (by decide)).trans <| (U1_of m c main_arg19 (by decide))
theorem hw36_main_v65 : U36 m c main_v65 = U26 m c main_v65 :=
  (U36_of m c main_v65 (by decide)).trans <| (U35_of m c main_v65 (by decide)).trans <| (U34_of m c main_v65 (by decide)).trans <| (U33_of m c main_v65 (by decide)).trans <| (U32_of m c main_v65 (by decide)).trans <| (U31_of m c main_v65 (by decide)).trans <| (U30_of m c main_v65 (by decide)).trans <| (U29_of m c main_v65 (by decide)).trans <| (U28_of m c main_v65 (by decide)).trans <| (U27_of m c main_v65 (by decide))
theorem hw24_main_arg20 : U24 m c main_arg20 = U0 m c main_arg20 :=
  (U24_of m c main_arg20 (by decide)).trans <| (U23_of m c main_arg20 (by decide)).trans <| (U22_of m c main_arg20 (by decide)).trans <| (U21_of m c main_arg20 (by decide)).trans <| (U20_of m c main_arg20 (by decide)).trans <| (U19_of m c main_arg20 (by decide)).trans <| (U18_of m c main_arg20 (by decide)).trans <| (U17_of m c main_arg20 (by decide)).trans <| (U16_of m c main_arg20 (by decide)).trans <| (U15_of m c main_arg20 (by decide)).trans <| (U14_of m c main_arg20 (by decide)).trans <| (U13_of m c main_arg20 (by decide)).trans <| (U12_of m c main_arg20 (by decide)).trans <| (U11_of m c main_arg20 (by decide)).trans <| (U10_of m c main_arg20 (by decide)).trans <| (U9_of m c main_arg20 (by decide)).trans <| (U8_of m c main_arg20 (by decide)).trans <| (U7_of m c main_arg20 (by decide)).trans <| (U6_of m c main_arg20 (by decide)).trans <| (U5_of m c main_arg20 (by decide)).trans <| (U4_of m c main_arg20 (by decide)).trans <| (U3_of m c main_arg20 (by decide)).trans <| (U2_of m c main_arg20 (by decide)).trans <| (U1_of m c main_arg20 (by decide))
theorem hw39_main_v4 : U39 m c main_v4 = U1 m c main_v4 :=
  (U39_of m c main_v4 (by decide)).trans <| (U38_of m c main_v4 (by decide)).trans <| (U37_of m c main_v4 (by decide)).trans <| (U36_of m c main_v4 (by decide)).trans <| (U35_of m c main_v4 (by decide)).trans <| (U34_of m c main_v4 (by decide)).trans <| (U33_of m c main_v4 (by decide)).trans <| (U32_of m c main_v4 (by decide)).trans <| (U31_of m c main_v4 (by decide)).trans <| (U30_of m c main_v4 (by decide)).trans <| (U29_of m c main_v4 (by decide)).trans <| (U28_of m c main_v4 (by decide)).trans <| (U27_of m c main_v4 (by decide)).trans <| (U26_of m c main_v4 (by decide)).trans <| (U25_of m c main_v4 (by decide)).trans <| (U24_of m c main_v4 (by decide)).trans <| (U23_of m c main_v4 (by decide)).trans <| (U22_of m c main_v4 (by decide)).trans <| (U21_of m c main_v4 (by decide)).trans <| (U20_of m c main_v4 (by decide)).trans <| (U19_of m c main_v4 (by decide)).trans <| (U18_of m c main_v4 (by decide)).trans <| (U17_of m c main_v4 (by decide)).trans <| (U16_of m c main_v4 (by decide)).trans <| (U15_of m c main_v4 (by decide)).trans <| (U14_of m c main_v4 (by decide)).trans <| (U13_of m c main_v4 (by decide)).trans <| (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
theorem hw39_main_v5 : U39 m c main_v5 = U1 m c main_v5 :=
  (U39_of m c main_v5 (by decide)).trans <| (U38_of m c main_v5 (by decide)).trans <| (U37_of m c main_v5 (by decide)).trans <| (U36_of m c main_v5 (by decide)).trans <| (U35_of m c main_v5 (by decide)).trans <| (U34_of m c main_v5 (by decide)).trans <| (U33_of m c main_v5 (by decide)).trans <| (U32_of m c main_v5 (by decide)).trans <| (U31_of m c main_v5 (by decide)).trans <| (U30_of m c main_v5 (by decide)).trans <| (U29_of m c main_v5 (by decide)).trans <| (U28_of m c main_v5 (by decide)).trans <| (U27_of m c main_v5 (by decide)).trans <| (U26_of m c main_v5 (by decide)).trans <| (U25_of m c main_v5 (by decide)).trans <| (U24_of m c main_v5 (by decide)).trans <| (U23_of m c main_v5 (by decide)).trans <| (U22_of m c main_v5 (by decide)).trans <| (U21_of m c main_v5 (by decide)).trans <| (U20_of m c main_v5 (by decide)).trans <| (U19_of m c main_v5 (by decide)).trans <| (U18_of m c main_v5 (by decide)).trans <| (U17_of m c main_v5 (by decide)).trans <| (U16_of m c main_v5 (by decide)).trans <| (U15_of m c main_v5 (by decide)).trans <| (U14_of m c main_v5 (by decide)).trans <| (U13_of m c main_v5 (by decide)).trans <| (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
theorem hw38_main_v66 : U38 m c main_v66 = U28 m c main_v66 :=
  (U38_of m c main_v66 (by decide)).trans <| (U37_of m c main_v66 (by decide)).trans <| (U36_of m c main_v66 (by decide)).trans <| (U35_of m c main_v66 (by decide)).trans <| (U34_of m c main_v66 (by decide)).trans <| (U33_of m c main_v66 (by decide)).trans <| (U32_of m c main_v66 (by decide)).trans <| (U31_of m c main_v66 (by decide)).trans <| (U30_of m c main_v66 (by decide)).trans <| (U29_of m c main_v66 (by decide))
theorem hw26_main_arg13 : U26 m c main_arg13 = U0 m c main_arg13 :=
  (U26_of m c main_arg13 (by decide)).trans <| (U25_of m c main_arg13 (by decide)).trans <| (U24_of m c main_arg13 (by decide)).trans <| (U23_of m c main_arg13 (by decide)).trans <| (U22_of m c main_arg13 (by decide)).trans <| (U21_of m c main_arg13 (by decide)).trans <| (U20_of m c main_arg13 (by decide)).trans <| (U19_of m c main_arg13 (by decide)).trans <| (U18_of m c main_arg13 (by decide)).trans <| (U17_of m c main_arg13 (by decide)).trans <| (U16_of m c main_arg13 (by decide)).trans <| (U15_of m c main_arg13 (by decide)).trans <| (U14_of m c main_arg13 (by decide)).trans <| (U13_of m c main_arg13 (by decide)).trans <| (U12_of m c main_arg13 (by decide)).trans <| (U11_of m c main_arg13 (by decide)).trans <| (U10_of m c main_arg13 (by decide)).trans <| (U9_of m c main_arg13 (by decide)).trans <| (U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide))
theorem hw38_main_v67 : U38 m c main_v67 = U30 m c main_v67 :=
  (U38_of m c main_v67 (by decide)).trans <| (U37_of m c main_v67 (by decide)).trans <| (U36_of m c main_v67 (by decide)).trans <| (U35_of m c main_v67 (by decide)).trans <| (U34_of m c main_v67 (by decide)).trans <| (U33_of m c main_v67 (by decide)).trans <| (U32_of m c main_v67 (by decide)).trans <| (U31_of m c main_v67 (by decide))
theorem hw28_main_arg14 : U28 m c main_arg14 = U0 m c main_arg14 :=
  (U28_of m c main_arg14 (by decide)).trans <| (U27_of m c main_arg14 (by decide)).trans <| (U26_of m c main_arg14 (by decide)).trans <| (U25_of m c main_arg14 (by decide)).trans <| (U24_of m c main_arg14 (by decide)).trans <| (U23_of m c main_arg14 (by decide)).trans <| (U22_of m c main_arg14 (by decide)).trans <| (U21_of m c main_arg14 (by decide)).trans <| (U20_of m c main_arg14 (by decide)).trans <| (U19_of m c main_arg14 (by decide)).trans <| (U18_of m c main_arg14 (by decide)).trans <| (U17_of m c main_arg14 (by decide)).trans <| (U16_of m c main_arg14 (by decide)).trans <| (U15_of m c main_arg14 (by decide)).trans <| (U14_of m c main_arg14 (by decide)).trans <| (U13_of m c main_arg14 (by decide)).trans <| (U12_of m c main_arg14 (by decide)).trans <| (U11_of m c main_arg14 (by decide)).trans <| (U10_of m c main_arg14 (by decide)).trans <| (U9_of m c main_arg14 (by decide)).trans <| (U8_of m c main_arg14 (by decide)).trans <| (U7_of m c main_arg14 (by decide)).trans <| (U6_of m c main_arg14 (by decide)).trans <| (U5_of m c main_arg14 (by decide)).trans <| (U4_of m c main_arg14 (by decide)).trans <| (U3_of m c main_arg14 (by decide)).trans <| (U2_of m c main_arg14 (by decide)).trans <| (U1_of m c main_arg14 (by decide))
theorem hw40_main_v68 : U40 m c main_v68 = U32 m c main_v68 :=
  (U40_of m c main_v68 (by decide)).trans <| (U39_of m c main_v68 (by decide)).trans <| (U38_of m c main_v68 (by decide)).trans <| (U37_of m c main_v68 (by decide)).trans <| (U36_of m c main_v68 (by decide)).trans <| (U35_of m c main_v68 (by decide)).trans <| (U34_of m c main_v68 (by decide)).trans <| (U33_of m c main_v68 (by decide))
theorem hw30_main_arg15 : U30 m c main_arg15 = U0 m c main_arg15 :=
  (U30_of m c main_arg15 (by decide)).trans <| (U29_of m c main_arg15 (by decide)).trans <| (U28_of m c main_arg15 (by decide)).trans <| (U27_of m c main_arg15 (by decide)).trans <| (U26_of m c main_arg15 (by decide)).trans <| (U25_of m c main_arg15 (by decide)).trans <| (U24_of m c main_arg15 (by decide)).trans <| (U23_of m c main_arg15 (by decide)).trans <| (U22_of m c main_arg15 (by decide)).trans <| (U21_of m c main_arg15 (by decide)).trans <| (U20_of m c main_arg15 (by decide)).trans <| (U19_of m c main_arg15 (by decide)).trans <| (U18_of m c main_arg15 (by decide)).trans <| (U17_of m c main_arg15 (by decide)).trans <| (U16_of m c main_arg15 (by decide)).trans <| (U15_of m c main_arg15 (by decide)).trans <| (U14_of m c main_arg15 (by decide)).trans <| (U13_of m c main_arg15 (by decide)).trans <| (U12_of m c main_arg15 (by decide)).trans <| (U11_of m c main_arg15 (by decide)).trans <| (U10_of m c main_arg15 (by decide)).trans <| (U9_of m c main_arg15 (by decide)).trans <| (U8_of m c main_arg15 (by decide)).trans <| (U7_of m c main_arg15 (by decide)).trans <| (U6_of m c main_arg15 (by decide)).trans <| (U5_of m c main_arg15 (by decide)).trans <| (U4_of m c main_arg15 (by decide)).trans <| (U3_of m c main_arg15 (by decide)).trans <| (U2_of m c main_arg15 (by decide)).trans <| (U1_of m c main_arg15 (by decide))
theorem hw40_main_v69 : U40 m c main_v69 = U34 m c main_v69 :=
  (U40_of m c main_v69 (by decide)).trans <| (U39_of m c main_v69 (by decide)).trans <| (U38_of m c main_v69 (by decide)).trans <| (U37_of m c main_v69 (by decide)).trans <| (U36_of m c main_v69 (by decide)).trans <| (U35_of m c main_v69 (by decide))
theorem hw32_main_arg16 : U32 m c main_arg16 = U0 m c main_arg16 :=
  (U32_of m c main_arg16 (by decide)).trans <| (U31_of m c main_arg16 (by decide)).trans <| (U30_of m c main_arg16 (by decide)).trans <| (U29_of m c main_arg16 (by decide)).trans <| (U28_of m c main_arg16 (by decide)).trans <| (U27_of m c main_arg16 (by decide)).trans <| (U26_of m c main_arg16 (by decide)).trans <| (U25_of m c main_arg16 (by decide)).trans <| (U24_of m c main_arg16 (by decide)).trans <| (U23_of m c main_arg16 (by decide)).trans <| (U22_of m c main_arg16 (by decide)).trans <| (U21_of m c main_arg16 (by decide)).trans <| (U20_of m c main_arg16 (by decide)).trans <| (U19_of m c main_arg16 (by decide)).trans <| (U18_of m c main_arg16 (by decide)).trans <| (U17_of m c main_arg16 (by decide)).trans <| (U16_of m c main_arg16 (by decide)).trans <| (U15_of m c main_arg16 (by decide)).trans <| (U14_of m c main_arg16 (by decide)).trans <| (U13_of m c main_arg16 (by decide)).trans <| (U12_of m c main_arg16 (by decide)).trans <| (U11_of m c main_arg16 (by decide)).trans <| (U10_of m c main_arg16 (by decide)).trans <| (U9_of m c main_arg16 (by decide)).trans <| (U8_of m c main_arg16 (by decide)).trans <| (U7_of m c main_arg16 (by decide)).trans <| (U6_of m c main_arg16 (by decide)).trans <| (U5_of m c main_arg16 (by decide)).trans <| (U4_of m c main_arg16 (by decide)).trans <| (U3_of m c main_arg16 (by decide)).trans <| (U2_of m c main_arg16 (by decide)).trans <| (U1_of m c main_arg16 (by decide))
theorem hw42_main_v68 : U42 m c main_v68 = U32 m c main_v68 :=
  (U42_of m c main_v68 (by decide)).trans <| (U41_of m c main_v68 (by decide)).trans <| (U40_of m c main_v68 (by decide)).trans <| (U39_of m c main_v68 (by decide)).trans <| (U38_of m c main_v68 (by decide)).trans <| (U37_of m c main_v68 (by decide)).trans <| (U36_of m c main_v68 (by decide)).trans <| (U35_of m c main_v68 (by decide)).trans <| (U34_of m c main_v68 (by decide)).trans <| (U33_of m c main_v68 (by decide))
theorem hw42_main_v69 : U42 m c main_v69 = U34 m c main_v69 :=
  (U42_of m c main_v69 (by decide)).trans <| (U41_of m c main_v69 (by decide)).trans <| (U40_of m c main_v69 (by decide)).trans <| (U39_of m c main_v69 (by decide)).trans <| (U38_of m c main_v69 (by decide)).trans <| (U37_of m c main_v69 (by decide)).trans <| (U36_of m c main_v69 (by decide)).trans <| (U35_of m c main_v69 (by decide))
theorem hw44_main_v6 : U44 m c main_v6 = U1 m c main_v6 :=
  (U44_of m c main_v6 (by decide)).trans <| (U43_of m c main_v6 (by decide)).trans <| (U42_of m c main_v6 (by decide)).trans <| (U41_of m c main_v6 (by decide)).trans <| (U40_of m c main_v6 (by decide)).trans <| (U39_of m c main_v6 (by decide)).trans <| (U38_of m c main_v6 (by decide)).trans <| (U37_of m c main_v6 (by decide)).trans <| (U36_of m c main_v6 (by decide)).trans <| (U35_of m c main_v6 (by decide)).trans <| (U34_of m c main_v6 (by decide)).trans <| (U33_of m c main_v6 (by decide)).trans <| (U32_of m c main_v6 (by decide)).trans <| (U31_of m c main_v6 (by decide)).trans <| (U30_of m c main_v6 (by decide)).trans <| (U29_of m c main_v6 (by decide)).trans <| (U28_of m c main_v6 (by decide)).trans <| (U27_of m c main_v6 (by decide)).trans <| (U26_of m c main_v6 (by decide)).trans <| (U25_of m c main_v6 (by decide)).trans <| (U24_of m c main_v6 (by decide)).trans <| (U23_of m c main_v6 (by decide)).trans <| (U22_of m c main_v6 (by decide)).trans <| (U21_of m c main_v6 (by decide)).trans <| (U20_of m c main_v6 (by decide)).trans <| (U19_of m c main_v6 (by decide)).trans <| (U18_of m c main_v6 (by decide)).trans <| (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
theorem hw44_main_v7 : U44 m c main_v7 = U1 m c main_v7 :=
  (U44_of m c main_v7 (by decide)).trans <| (U43_of m c main_v7 (by decide)).trans <| (U42_of m c main_v7 (by decide)).trans <| (U41_of m c main_v7 (by decide)).trans <| (U40_of m c main_v7 (by decide)).trans <| (U39_of m c main_v7 (by decide)).trans <| (U38_of m c main_v7 (by decide)).trans <| (U37_of m c main_v7 (by decide)).trans <| (U36_of m c main_v7 (by decide)).trans <| (U35_of m c main_v7 (by decide)).trans <| (U34_of m c main_v7 (by decide)).trans <| (U33_of m c main_v7 (by decide)).trans <| (U32_of m c main_v7 (by decide)).trans <| (U31_of m c main_v7 (by decide)).trans <| (U30_of m c main_v7 (by decide)).trans <| (U29_of m c main_v7 (by decide)).trans <| (U28_of m c main_v7 (by decide)).trans <| (U27_of m c main_v7 (by decide)).trans <| (U26_of m c main_v7 (by decide)).trans <| (U25_of m c main_v7 (by decide)).trans <| (U24_of m c main_v7 (by decide)).trans <| (U23_of m c main_v7 (by decide)).trans <| (U22_of m c main_v7 (by decide)).trans <| (U21_of m c main_v7 (by decide)).trans <| (U20_of m c main_v7 (by decide)).trans <| (U19_of m c main_v7 (by decide)).trans <| (U18_of m c main_v7 (by decide)).trans <| (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
theorem hw46_main_v4 : U46 m c main_v4 = U1 m c main_v4 :=
  (U46_of m c main_v4 (by decide)).trans <| (U45_of m c main_v4 (by decide)).trans <| (U44_of m c main_v4 (by decide)).trans <| (U43_of m c main_v4 (by decide)).trans <| (U42_of m c main_v4 (by decide)).trans <| (U41_of m c main_v4 (by decide)).trans <| (U40_of m c main_v4 (by decide)).trans <| (U39_of m c main_v4 (by decide)).trans <| (U38_of m c main_v4 (by decide)).trans <| (U37_of m c main_v4 (by decide)).trans <| (U36_of m c main_v4 (by decide)).trans <| (U35_of m c main_v4 (by decide)).trans <| (U34_of m c main_v4 (by decide)).trans <| (U33_of m c main_v4 (by decide)).trans <| (U32_of m c main_v4 (by decide)).trans <| (U31_of m c main_v4 (by decide)).trans <| (U30_of m c main_v4 (by decide)).trans <| (U29_of m c main_v4 (by decide)).trans <| (U28_of m c main_v4 (by decide)).trans <| (U27_of m c main_v4 (by decide)).trans <| (U26_of m c main_v4 (by decide)).trans <| (U25_of m c main_v4 (by decide)).trans <| (U24_of m c main_v4 (by decide)).trans <| (U23_of m c main_v4 (by decide)).trans <| (U22_of m c main_v4 (by decide)).trans <| (U21_of m c main_v4 (by decide)).trans <| (U20_of m c main_v4 (by decide)).trans <| (U19_of m c main_v4 (by decide)).trans <| (U18_of m c main_v4 (by decide)).trans <| (U17_of m c main_v4 (by decide)).trans <| (U16_of m c main_v4 (by decide)).trans <| (U15_of m c main_v4 (by decide)).trans <| (U14_of m c main_v4 (by decide)).trans <| (U13_of m c main_v4 (by decide)).trans <| (U12_of m c main_v4 (by decide)).trans <| (U11_of m c main_v4 (by decide)).trans <| (U10_of m c main_v4 (by decide)).trans <| (U9_of m c main_v4 (by decide)).trans <| (U8_of m c main_v4 (by decide)).trans <| (U7_of m c main_v4 (by decide)).trans <| (U6_of m c main_v4 (by decide)).trans <| (U5_of m c main_v4 (by decide)).trans <| (U4_of m c main_v4 (by decide)).trans <| (U3_of m c main_v4 (by decide)).trans <| (U2_of m c main_v4 (by decide))
theorem hw46_main_v5 : U46 m c main_v5 = U1 m c main_v5 :=
  (U46_of m c main_v5 (by decide)).trans <| (U45_of m c main_v5 (by decide)).trans <| (U44_of m c main_v5 (by decide)).trans <| (U43_of m c main_v5 (by decide)).trans <| (U42_of m c main_v5 (by decide)).trans <| (U41_of m c main_v5 (by decide)).trans <| (U40_of m c main_v5 (by decide)).trans <| (U39_of m c main_v5 (by decide)).trans <| (U38_of m c main_v5 (by decide)).trans <| (U37_of m c main_v5 (by decide)).trans <| (U36_of m c main_v5 (by decide)).trans <| (U35_of m c main_v5 (by decide)).trans <| (U34_of m c main_v5 (by decide)).trans <| (U33_of m c main_v5 (by decide)).trans <| (U32_of m c main_v5 (by decide)).trans <| (U31_of m c main_v5 (by decide)).trans <| (U30_of m c main_v5 (by decide)).trans <| (U29_of m c main_v5 (by decide)).trans <| (U28_of m c main_v5 (by decide)).trans <| (U27_of m c main_v5 (by decide)).trans <| (U26_of m c main_v5 (by decide)).trans <| (U25_of m c main_v5 (by decide)).trans <| (U24_of m c main_v5 (by decide)).trans <| (U23_of m c main_v5 (by decide)).trans <| (U22_of m c main_v5 (by decide)).trans <| (U21_of m c main_v5 (by decide)).trans <| (U20_of m c main_v5 (by decide)).trans <| (U19_of m c main_v5 (by decide)).trans <| (U18_of m c main_v5 (by decide)).trans <| (U17_of m c main_v5 (by decide)).trans <| (U16_of m c main_v5 (by decide)).trans <| (U15_of m c main_v5 (by decide)).trans <| (U14_of m c main_v5 (by decide)).trans <| (U13_of m c main_v5 (by decide)).trans <| (U12_of m c main_v5 (by decide)).trans <| (U11_of m c main_v5 (by decide)).trans <| (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| (U3_of m c main_v5 (by decide)).trans <| (U2_of m c main_v5 (by decide))
theorem hw45_main_v66 : U45 m c main_v66 = U28 m c main_v66 :=
  (U45_of m c main_v66 (by decide)).trans <| (U44_of m c main_v66 (by decide)).trans <| (U43_of m c main_v66 (by decide)).trans <| (U42_of m c main_v66 (by decide)).trans <| (U41_of m c main_v66 (by decide)).trans <| (U40_of m c main_v66 (by decide)).trans <| (U39_of m c main_v66 (by decide)).trans <| (U38_of m c main_v66 (by decide)).trans <| (U37_of m c main_v66 (by decide)).trans <| (U36_of m c main_v66 (by decide)).trans <| (U35_of m c main_v66 (by decide)).trans <| (U34_of m c main_v66 (by decide)).trans <| (U33_of m c main_v66 (by decide)).trans <| (U32_of m c main_v66 (by decide)).trans <| (U31_of m c main_v66 (by decide)).trans <| (U30_of m c main_v66 (by decide)).trans <| (U29_of m c main_v66 (by decide))
theorem hw45_main_v67 : U45 m c main_v67 = U30 m c main_v67 :=
  (U45_of m c main_v67 (by decide)).trans <| (U44_of m c main_v67 (by decide)).trans <| (U43_of m c main_v67 (by decide)).trans <| (U42_of m c main_v67 (by decide)).trans <| (U41_of m c main_v67 (by decide)).trans <| (U40_of m c main_v67 (by decide)).trans <| (U39_of m c main_v67 (by decide)).trans <| (U38_of m c main_v67 (by decide)).trans <| (U37_of m c main_v67 (by decide)).trans <| (U36_of m c main_v67 (by decide)).trans <| (U35_of m c main_v67 (by decide)).trans <| (U34_of m c main_v67 (by decide)).trans <| (U33_of m c main_v67 (by decide)).trans <| (U32_of m c main_v67 (by decide)).trans <| (U31_of m c main_v67 (by decide))
theorem hw47_main_v68 : U47 m c main_v68 = U32 m c main_v68 :=
  (U47_of m c main_v68 (by decide)).trans <| (U46_of m c main_v68 (by decide)).trans <| (U45_of m c main_v68 (by decide)).trans <| (U44_of m c main_v68 (by decide)).trans <| (U43_of m c main_v68 (by decide)).trans <| (U42_of m c main_v68 (by decide)).trans <| (U41_of m c main_v68 (by decide)).trans <| (U40_of m c main_v68 (by decide)).trans <| (U39_of m c main_v68 (by decide)).trans <| (U38_of m c main_v68 (by decide)).trans <| (U37_of m c main_v68 (by decide)).trans <| (U36_of m c main_v68 (by decide)).trans <| (U35_of m c main_v68 (by decide)).trans <| (U34_of m c main_v68 (by decide)).trans <| (U33_of m c main_v68 (by decide))
theorem hw47_main_v69 : U47 m c main_v69 = U34 m c main_v69 :=
  (U47_of m c main_v69 (by decide)).trans <| (U46_of m c main_v69 (by decide)).trans <| (U45_of m c main_v69 (by decide)).trans <| (U44_of m c main_v69 (by decide)).trans <| (U43_of m c main_v69 (by decide)).trans <| (U42_of m c main_v69 (by decide)).trans <| (U41_of m c main_v69 (by decide)).trans <| (U40_of m c main_v69 (by decide)).trans <| (U39_of m c main_v69 (by decide)).trans <| (U38_of m c main_v69 (by decide)).trans <| (U37_of m c main_v69 (by decide)).trans <| (U36_of m c main_v69 (by decide)).trans <| (U35_of m c main_v69 (by decide))
theorem hw49_main_v68 : U49 m c main_v68 = U32 m c main_v68 :=
  (U49_of m c main_v68 (by decide)).trans <| (U48_of m c main_v68 (by decide)).trans <| (U47_of m c main_v68 (by decide)).trans <| (U46_of m c main_v68 (by decide)).trans <| (U45_of m c main_v68 (by decide)).trans <| (U44_of m c main_v68 (by decide)).trans <| (U43_of m c main_v68 (by decide)).trans <| (U42_of m c main_v68 (by decide)).trans <| (U41_of m c main_v68 (by decide)).trans <| (U40_of m c main_v68 (by decide)).trans <| (U39_of m c main_v68 (by decide)).trans <| (U38_of m c main_v68 (by decide)).trans <| (U37_of m c main_v68 (by decide)).trans <| (U36_of m c main_v68 (by decide)).trans <| (U35_of m c main_v68 (by decide)).trans <| (U34_of m c main_v68 (by decide)).trans <| (U33_of m c main_v68 (by decide))
theorem hw49_main_v69 : U49 m c main_v69 = U34 m c main_v69 :=
  (U49_of m c main_v69 (by decide)).trans <| (U48_of m c main_v69 (by decide)).trans <| (U47_of m c main_v69 (by decide)).trans <| (U46_of m c main_v69 (by decide)).trans <| (U45_of m c main_v69 (by decide)).trans <| (U44_of m c main_v69 (by decide)).trans <| (U43_of m c main_v69 (by decide)).trans <| (U42_of m c main_v69 (by decide)).trans <| (U41_of m c main_v69 (by decide)).trans <| (U40_of m c main_v69 (by decide)).trans <| (U39_of m c main_v69 (by decide)).trans <| (U38_of m c main_v69 (by decide)).trans <| (U37_of m c main_v69 (by decide)).trans <| (U36_of m c main_v69 (by decide)).trans <| (U35_of m c main_v69 (by decide))
theorem hw51_main_v6 : U51 m c main_v6 = U1 m c main_v6 :=
  (U51_of m c main_v6 (by decide)).trans <| (U50_of m c main_v6 (by decide)).trans <| (U49_of m c main_v6 (by decide)).trans <| (U48_of m c main_v6 (by decide)).trans <| (U47_of m c main_v6 (by decide)).trans <| (U46_of m c main_v6 (by decide)).trans <| (U45_of m c main_v6 (by decide)).trans <| (U44_of m c main_v6 (by decide)).trans <| (U43_of m c main_v6 (by decide)).trans <| (U42_of m c main_v6 (by decide)).trans <| (U41_of m c main_v6 (by decide)).trans <| (U40_of m c main_v6 (by decide)).trans <| (U39_of m c main_v6 (by decide)).trans <| (U38_of m c main_v6 (by decide)).trans <| (U37_of m c main_v6 (by decide)).trans <| (U36_of m c main_v6 (by decide)).trans <| (U35_of m c main_v6 (by decide)).trans <| (U34_of m c main_v6 (by decide)).trans <| (U33_of m c main_v6 (by decide)).trans <| (U32_of m c main_v6 (by decide)).trans <| (U31_of m c main_v6 (by decide)).trans <| (U30_of m c main_v6 (by decide)).trans <| (U29_of m c main_v6 (by decide)).trans <| (U28_of m c main_v6 (by decide)).trans <| (U27_of m c main_v6 (by decide)).trans <| (U26_of m c main_v6 (by decide)).trans <| (U25_of m c main_v6 (by decide)).trans <| (U24_of m c main_v6 (by decide)).trans <| (U23_of m c main_v6 (by decide)).trans <| (U22_of m c main_v6 (by decide)).trans <| (U21_of m c main_v6 (by decide)).trans <| (U20_of m c main_v6 (by decide)).trans <| (U19_of m c main_v6 (by decide)).trans <| (U18_of m c main_v6 (by decide)).trans <| (U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))
theorem hw51_main_v7 : U51 m c main_v7 = U1 m c main_v7 :=
  (U51_of m c main_v7 (by decide)).trans <| (U50_of m c main_v7 (by decide)).trans <| (U49_of m c main_v7 (by decide)).trans <| (U48_of m c main_v7 (by decide)).trans <| (U47_of m c main_v7 (by decide)).trans <| (U46_of m c main_v7 (by decide)).trans <| (U45_of m c main_v7 (by decide)).trans <| (U44_of m c main_v7 (by decide)).trans <| (U43_of m c main_v7 (by decide)).trans <| (U42_of m c main_v7 (by decide)).trans <| (U41_of m c main_v7 (by decide)).trans <| (U40_of m c main_v7 (by decide)).trans <| (U39_of m c main_v7 (by decide)).trans <| (U38_of m c main_v7 (by decide)).trans <| (U37_of m c main_v7 (by decide)).trans <| (U36_of m c main_v7 (by decide)).trans <| (U35_of m c main_v7 (by decide)).trans <| (U34_of m c main_v7 (by decide)).trans <| (U33_of m c main_v7 (by decide)).trans <| (U32_of m c main_v7 (by decide)).trans <| (U31_of m c main_v7 (by decide)).trans <| (U30_of m c main_v7 (by decide)).trans <| (U29_of m c main_v7 (by decide)).trans <| (U28_of m c main_v7 (by decide)).trans <| (U27_of m c main_v7 (by decide)).trans <| (U26_of m c main_v7 (by decide)).trans <| (U25_of m c main_v7 (by decide)).trans <| (U24_of m c main_v7 (by decide)).trans <| (U23_of m c main_v7 (by decide)).trans <| (U22_of m c main_v7 (by decide)).trans <| (U21_of m c main_v7 (by decide)).trans <| (U20_of m c main_v7 (by decide)).trans <| (U19_of m c main_v7 (by decide)).trans <| (U18_of m c main_v7 (by decide)).trans <| (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide)).trans <| (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))

/-! ## The regions' input windows -/

/-! ### Region 0 (entered at item 1) -/

/-- Window 0 of region 0, main_arg0: an argument: as launched. -/
theorem in0_0 : U1 m c main_arg0 = U0 m c main_arg0 :=
  (U1_of m c main_arg0 (by decide))

/-- Window 1 of region 0, main_arg3: an argument: as launched. -/
theorem in0_1 : U1 m c main_arg3 = U0 m c main_arg3 :=
  (U1_of m c main_arg3 (by decide))

/-- Window 2 of region 0, main_v8: read off an argument. -/
theorem in0_2 (u : Fin 1) (j : Fin 512) :
    (U1 m c main_v8 : S1x512.Idx → EReal) (ix2 u j)
      = (U0 m c main_arg4 : S512.Idx → EReal) (ix1 j) :=
  (hostOps0_v8 (U0 m c) u j)

/-- Window 3 of region 0, main_arg5: an argument: as launched. -/
theorem in0_3 : U1 m c main_arg5 = U0 m c main_arg5 :=
  (U1_of m c main_arg5 (by decide))

/-- Window 4 of region 0, main_v9: read off an argument. -/
theorem in0_4 (u : Fin 1) (j : Fin 512) :
    (U1 m c main_v9 : S1x512.Idx → EReal) (ix2 u j)
      = (U0 m c main_arg6 : S512.Idx → EReal) (ix1 j) :=
  (hostOps0_v9 (U0 m c) u j)

/-! ### Region 1 (entered at item 3) -/

/-- Window 0 of region 1, main_arg1: an argument: as launched. -/
theorem in1_0 : U3 m c main_arg1 = U0 m c main_arg1 :=
  (U3_of m c main_arg1 (by decide)).trans <| (U2_of m c main_arg1 (by decide)).trans <| (U1_of m c main_arg1 (by decide))

/-- Window 1 of region 1, main_arg7: an argument: as launched. -/
theorem in1_1 : U3 m c main_arg7 = U0 m c main_arg7 :=
  (U3_of m c main_arg7 (by decide)).trans <| (U2_of m c main_arg7 (by decide)).trans <| (U1_of m c main_arg7 (by decide))

/-- Window 2 of region 1, main_v11: read off an argument. -/
theorem in1_2 (u : Fin 1) (j : Fin 512) :
    (U3 m c main_v11 : S1x512.Idx → EReal) (ix2 u j)
      = (U0 m c main_arg8 : S512.Idx → EReal) (ix1 j) :=
  (hostOps1_v11 (U2 m c) u j).trans <| congrFun (hw2_main_arg8 m c) (ix1 j)

/-- Window 3 of region 1, main_arg9: an argument: as launched. -/
theorem in1_3 : U3 m c main_arg9 = U0 m c main_arg9 :=
  (U3_of m c main_arg9 (by decide)).trans <| (U2_of m c main_arg9 (by decide)).trans <| (U1_of m c main_arg9 (by decide))

/-- Window 4 of region 1, main_v12: read off an argument. -/
theorem in1_4 (u : Fin 1) (j : Fin 512) :
    (U3 m c main_v12 : S1x512.Idx → EReal) (ix2 u j)
      = (U0 m c main_arg10 : S512.Idx → EReal) (ix1 j) :=
  (hostOps1_v12 (U2 m c) u j).trans <| congrFun (hw2_main_arg10 m c) (ix1 j)

/-! ### Region 2 (entered at item 5) -/

/-- Window 0 of region 2, main_v4: read off an argument. -/
theorem in2_0 (u : Fin 1) (r : Fin 32768) :
    (U5 m c main_v4 : S1x32768.Idx → BitVec 32) (ix2 u r)
      = (U0 m c main_arg2 : S32768x2.Idx → BitVec 32) (ix2 r (0 : Fin 2)) :=
  (congrFun (hw5_main_v4 m c) (ix2 u r)).trans <| (hostOps0_v4 (U0 m c) u r)

/-- Window 1 of region 2, main_v5: read off an argument. -/
theorem in2_1 (u : Fin 1) (r : Fin 32768) :
    (U5 m c main_v5 : S1x32768.Idx → BitVec 32) (ix2 u r)
      = (U0 m c main_arg2 : S32768x2.Idx → BitVec 32) (ix2 r (1 : Fin 2)) :=
  (congrFun (hw5_main_v5 m c) (ix2 u r)).trans <| (hostOps0_v5 (U0 m c) u r)

/-- Window 2 of region 2, main_v13: the output of the region that ends at item 4. -/
theorem in2_2 : U5 m c main_v13 = U4 m c main_v13 :=
  (U5_of m c main_v13 (by decide))

/-- Window 3 of region 2, main_v15: read off an argument. -/
theorem in2_3 (a : Fin 512) (b : Fin 512) :
    (U5 m c main_v15 : S512x512.Idx → EReal) (ix2 a b)
      = (U0 m c main_arg11 : S4x512x512.Idx → EReal) (ix3 (0 : Fin 4) a b) :=
  (hostOps2_v15 (U4 m c) a b).trans <| congrFun (hw4_main_arg11 m c) (ix3 (0 : Fin 4) a b)

/-- Window 4 of region 2, main_v22: read off an argument. -/
theorem in2_4 (u : Fin 1) (j : Fin 512) :
    (U5 m c main_v22 : S1x512.Idx → EReal) (ix2 u j)
      = (U0 m c main_arg12 : S4x512.Idx → EReal) (ix2 (0 : Fin 4) j) :=
  (hostOps2_v22 (U4 m c) u j).trans <| congrFun (hw4_main_arg12 m c) (ix2 (0 : Fin 4) j)

/-- Window 5 of region 2, main_v19: read off an argument. -/
theorem in2_5 (a : Fin 512) (b : Fin 512) :
    (U5 m c main_v19 : S512x512.Idx → EReal) (ix2 a b)
      = (U0 m c main_arg11 : S4x512x512.Idx → EReal) (ix3 (1 : Fin 4) a b) :=
  (hostOps2_v19 (U4 m c) a b).trans <| congrFun (hw4_main_arg11 m c) (ix3 (1 : Fin 4) a b)

/-- Window 6 of region 2, main_v23: read off an argument. -/
theorem in2_6 (u : Fin 1) (j : Fin 512) :
    (U5 m c main_v23 : S1x512.Idx → EReal) (ix2 u j)
      = (U0 m c main_arg12 : S4x512.Idx → EReal) (ix2 (1 : Fin 4) j) :=
  (hostOps2_v23 (U4 m c) u j).trans <| congrFun (hw4_main_arg12 m c) (ix2 (1 : Fin 4) j)

/-- Window 7 of region 2, main_v10: the output of the region that ends at item 2. -/
theorem in2_7 : U5 m c main_v10 = U2 m c main_v10 :=
  (U5_of m c main_v10 (by decide)).trans <| (U4_of m c main_v10 (by decide)).trans <| (U3_of m c main_v10 (by decide))

/-! ### Region 3 (entered at item 7) -/

/-- Window 0 of region 3, main_v10: the output of the region that ends at item 2. -/
theorem in3_0 : U7 m c main_v10 = U2 m c main_v10 :=
  (U7_of m c main_v10 (by decide)).trans <| (U6_of m c main_v10 (by decide)).trans <| (U5_of m c main_v10 (by decide)).trans <| (U4_of m c main_v10 (by decide)).trans <| (U3_of m c main_v10 (by decide))

/-- Window 1 of region 3, main_v26: read off an argument. -/
theorem in3_1 (a : Fin 512) (b : Fin 512) :
    (U7 m c main_v26 : S512x512.Idx → EReal) (ix2 a b)
      = (U0 m c main_arg11 : S4x512x512.Idx → EReal) (ix3 (2 : Fin 4) a b) :=
  (hostOps3_v26 (U6 m c) a b).trans <| congrFun (hw6_main_arg11 m c) (ix3 (2 : Fin 4) a b)

/-- Window 2 of region 3, main_v29: read off an argument. -/
theorem in3_2 (u : Fin 1) (j : Fin 512) :
    (U7 m c main_v29 : S1x512.Idx → EReal) (ix2 u j)
      = (U0 m c main_arg12 : S4x512.Idx → EReal) (ix2 (2 : Fin 4) j) :=
  (hostOps3_v29 (U6 m c) u j).trans <| congrFun (hw6_main_arg12 m c) (ix2 (2 : Fin 4) j)

/-! ### Region 4 (entered at item 9) -/

/-- Window 0 of region 4, main_v10: the output of the region that ends at item 2. -/
theorem in4_0 : U9 m c main_v10 = U2 m c main_v10 :=
  (U9_of m c main_v10 (by decide)).trans <| (U8_of m c main_v10 (by decide)).trans <| (U7_of m c main_v10 (by decide)).trans <| (U6_of m c main_v10 (by decide)).trans <| (U5_of m c main_v10 (by decide)).trans <| (U4_of m c main_v10 (by decide)).trans <| (U3_of m c main_v10 (by decide))

/-- Window 1 of region 4, main_v32: read off an argument. -/
theorem in4_1 (a : Fin 512) (b : Fin 512) :
    (U9 m c main_v32 : S512x512.Idx → EReal) (ix2 a b)
      = (U0 m c main_arg11 : S4x512x512.Idx → EReal) (ix3 (3 : Fin 4) a b) :=
  (hostOps4_v32 (U8 m c) a b).trans <| congrFun (hw8_main_arg11 m c) (ix3 (3 : Fin 4) a b)

/-- Window 2 of region 4, main_v35: read off an argument. -/
theorem in4_2 (u : Fin 1) (j : Fin 512) :
    (U9 m c main_v35 : S1x512.Idx → EReal) (ix2 u j)
      = (U0 m c main_arg12 : S4x512.Idx → EReal) (ix2 (3 : Fin 4) j) :=
  (hostOps4_v35 (U8 m c) u j).trans <| congrFun (hw8_main_arg12 m c) (ix2 (3 : Fin 4) j)

/-! ### Region 5 (entered at item 10) -/

/-- Window 0 of region 5, main_v6: read off an argument. -/
theorem in5_0 (r : Fin 32768) (u : Fin 1) :
    (U10 m c main_v6 : S32768x1.Idx → BitVec 32) (ix2 r u)
      = (U0 m c main_arg2 : S32768x2.Idx → BitVec 32) (ix2 r (0 : Fin 2)) :=
  (congrFun (hw10_main_v6 m c) (ix2 r u)).trans <| (hostOps0_v6 (U0 m c) r u)

/-- Window 1 of region 5, main_v7: read off an argument. -/
theorem in5_1 (r : Fin 32768) (u : Fin 1) :
    (U10 m c main_v7 : S32768x1.Idx → BitVec 32) (ix2 r u)
      = (U0 m c main_arg2 : S32768x2.Idx → BitVec 32) (ix2 r (1 : Fin 2)) :=
  (congrFun (hw10_main_v7 m c) (ix2 r u)).trans <| (hostOps0_v7 (U0 m c) r u)

/-- Window 2 of region 5, main_v30: the output of the region that ends at item 8. -/
theorem in5_2 : U10 m c main_v30 = U8 m c main_v30 :=
  (U10_of m c main_v30 (by decide)).trans <| (U9_of m c main_v30 (by decide))

/-- Window 3 of region 5, main_v36: the output of the region that ends at item 10. -/
theorem in5_3 : U10 m c main_v36 = U10 m c main_v36 :=
  rfl

/-- Window 4 of region 5, main_v13: the output of the region that ends at item 4. -/
theorem in5_4 : U10 m c main_v13 = U4 m c main_v13 :=
  (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide))

/-! ### Region 6 (entered at item 12) -/

/-- Window 0 of region 6, main_v4: read off an argument. -/
theorem in6_0 (u : Fin 1) (r : Fin 32768) :
    (U12 m c main_v4 : S1x32768.Idx → BitVec 32) (ix2 u r)
      = (U0 m c main_arg2 : S32768x2.Idx → BitVec 32) (ix2 r (0 : Fin 2)) :=
  (congrFun (hw12_main_v4 m c) (ix2 u r)).trans <| (hostOps0_v4 (U0 m c) u r)

/-- Window 1 of region 6, main_v5: read off an argument. -/
theorem in6_1 (u : Fin 1) (r : Fin 32768) :
    (U12 m c main_v5 : S1x32768.Idx → BitVec 32) (ix2 u r)
      = (U0 m c main_arg2 : S32768x2.Idx → BitVec 32) (ix2 r (1 : Fin 2)) :=
  (congrFun (hw12_main_v5 m c) (ix2 u r)).trans <| (hostOps0_v5 (U0 m c) u r)

/-- Window 2 of region 6, main_v37: the output of the region that ends at item 11. -/
theorem in6_2 : U12 m c main_v37 = U11 m c main_v37 :=
  (U12_of m c main_v37 (by decide))

/-- Window 3 of region 6, main_v39: read off an argument. -/
theorem in6_3 (a : Fin 512) (b : Fin 512) :
    (U12 m c main_v39 : S512x512.Idx → EReal) (ix2 a b)
      = (U0 m c main_arg11 : S4x512x512.Idx → EReal) (ix3 (0 : Fin 4) a b) :=
  (hostOps6_v39 (U11 m c) a b).trans <| congrFun (hw11_main_arg11 m c) (ix3 (0 : Fin 4) a b)

/-- Window 4 of region 6, main_v46: read off an argument. -/
theorem in6_4 (u : Fin 1) (j : Fin 512) :
    (U12 m c main_v46 : S1x512.Idx → EReal) (ix2 u j)
      = (U0 m c main_arg12 : S4x512.Idx → EReal) (ix2 (0 : Fin 4) j) :=
  (hostOps6_v46 (U11 m c) u j).trans <| congrFun (hw11_main_arg12 m c) (ix2 (0 : Fin 4) j)

/-- Window 5 of region 6, main_v43: read off an argument. -/
theorem in6_5 (a : Fin 512) (b : Fin 512) :
    (U12 m c main_v43 : S512x512.Idx → EReal) (ix2 a b)
      = (U0 m c main_arg11 : S4x512x512.Idx → EReal) (ix3 (1 : Fin 4) a b) :=
  (hostOps6_v43 (U11 m c) a b).trans <| congrFun (hw11_main_arg11 m c) (ix3 (1 : Fin 4) a b)

/-- Window 6 of region 6, main_v47: read off an argument. -/
theorem in6_6 (u : Fin 1) (j : Fin 512) :
    (U12 m c main_v47 : S1x512.Idx → EReal) (ix2 u j)
      = (U0 m c main_arg12 : S4x512.Idx → EReal) (ix2 (1 : Fin 4) j) :=
  (hostOps6_v47 (U11 m c) u j).trans <| congrFun (hw11_main_arg12 m c) (ix2 (1 : Fin 4) j)

/-- Window 7 of region 6, main_v24: the output of the region that ends at item 6. -/
theorem in6_7 : U12 m c main_v24 = U6 m c main_v24 :=
  (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))

/-! ### Region 7 (entered at item 14) -/

/-- Window 0 of region 7, main_v24: the output of the region that ends at item 6. -/
theorem in7_0 : U14 m c main_v24 = U6 m c main_v24 :=
  (U14_of m c main_v24 (by decide)).trans <| (U13_of m c main_v24 (by decide)).trans <| (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))

/-- Window 1 of region 7, main_v50: read off an argument. -/
theorem in7_1 (a : Fin 512) (b : Fin 512) :
    (U14 m c main_v50 : S512x512.Idx → EReal) (ix2 a b)
      = (U0 m c main_arg11 : S4x512x512.Idx → EReal) (ix3 (2 : Fin 4) a b) :=
  (hostOps7_v50 (U13 m c) a b).trans <| congrFun (hw13_main_arg11 m c) (ix3 (2 : Fin 4) a b)

/-- Window 2 of region 7, main_v53: read off an argument. -/
theorem in7_2 (u : Fin 1) (j : Fin 512) :
    (U14 m c main_v53 : S1x512.Idx → EReal) (ix2 u j)
      = (U0 m c main_arg12 : S4x512.Idx → EReal) (ix2 (2 : Fin 4) j) :=
  (hostOps7_v53 (U13 m c) u j).trans <| congrFun (hw13_main_arg12 m c) (ix2 (2 : Fin 4) j)

/-! ### Region 8 (entered at item 16) -/

/-- Window 0 of region 8, main_v24: the output of the region that ends at item 6. -/
theorem in8_0 : U16 m c main_v24 = U6 m c main_v24 :=
  (U16_of m c main_v24 (by decide)).trans <| (U15_of m c main_v24 (by decide)).trans <| (U14_of m c main_v24 (by decide)).trans <| (U13_of m c main_v24 (by decide)).trans <| (U12_of m c main_v24 (by decide)).trans <| (U11_of m c main_v24 (by decide)).trans <| (U10_of m c main_v24 (by decide)).trans <| (U9_of m c main_v24 (by decide)).trans <| (U8_of m c main_v24 (by decide)).trans <| (U7_of m c main_v24 (by decide))

/-- Window 1 of region 8, main_v56: read off an argument. -/
theorem in8_1 (a : Fin 512) (b : Fin 512) :
    (U16 m c main_v56 : S512x512.Idx → EReal) (ix2 a b)
      = (U0 m c main_arg11 : S4x512x512.Idx → EReal) (ix3 (3 : Fin 4) a b) :=
  (hostOps8_v56 (U15 m c) a b).trans <| congrFun (hw15_main_arg11 m c) (ix3 (3 : Fin 4) a b)

/-- Window 2 of region 8, main_v59: read off an argument. -/
theorem in8_2 (u : Fin 1) (j : Fin 512) :
    (U16 m c main_v59 : S1x512.Idx → EReal) (ix2 u j)
      = (U0 m c main_arg12 : S4x512.Idx → EReal) (ix2 (3 : Fin 4) j) :=
  (hostOps8_v59 (U15 m c) u j).trans <| congrFun (hw15_main_arg12 m c) (ix2 (3 : Fin 4) j)

/-! ### Region 9 (entered at item 17) -/

/-- Window 0 of region 9, main_v6: read off an argument. -/
theorem in9_0 (r : Fin 32768) (u : Fin 1) :
    (U17 m c main_v6 : S32768x1.Idx → BitVec 32) (ix2 r u)
      = (U0 m c main_arg2 : S32768x2.Idx → BitVec 32) (ix2 r (0 : Fin 2)) :=
  (congrFun (hw17_main_v6 m c) (ix2 r u)).trans <| (hostOps0_v6 (U0 m c) r u)

/-- Window 1 of region 9, main_v7: read off an argument. -/
theorem in9_1 (r : Fin 32768) (u : Fin 1) :
    (U17 m c main_v7 : S32768x1.Idx → BitVec 32) (ix2 r u)
      = (U0 m c main_arg2 : S32768x2.Idx → BitVec 32) (ix2 r (1 : Fin 2)) :=
  (congrFun (hw17_main_v7 m c) (ix2 r u)).trans <| (hostOps0_v7 (U0 m c) r u)

/-- Window 2 of region 9, main_v54: the output of the region that ends at item 15. -/
theorem in9_2 : U17 m c main_v54 = U15 m c main_v54 :=
  (U17_of m c main_v54 (by decide)).trans <| (U16_of m c main_v54 (by decide))

/-- Window 3 of region 9, main_v60: the output of the region that ends at item 17. -/
theorem in9_3 : U17 m c main_v60 = U17 m c main_v60 :=
  rfl

/-- Window 4 of region 9, main_v37: the output of the region that ends at item 11. -/
theorem in9_4 : U17 m c main_v37 = U11 m c main_v37 :=
  (U17_of m c main_v37 (by decide)).trans <| (U16_of m c main_v37 (by decide)).trans <| (U15_of m c main_v37 (by decide)).trans <| (U14_of m c main_v37 (by decide)).trans <| (U13_of m c main_v37 (by decide)).trans <| (U12_of m c main_v37 (by decide))

/-! ### Region 10 (entered at item 35) -/

/-- Window 0 of region 10, main_v48: the output of the region that ends at item 13. -/
theorem in10_0 : U35 m c main_v48 = U13 m c main_v48 :=
  (U35_of m c main_v48 (by decide)).trans <| (U34_of m c main_v48 (by decide)).trans <| (U33_of m c main_v48 (by decide)).trans <| (U32_of m c main_v48 (by decide)).trans <| (U31_of m c main_v48 (by decide)).trans <| (U30_of m c main_v48 (by decide)).trans <| (U29_of m c main_v48 (by decide)).trans <| (U28_of m c main_v48 (by decide)).trans <| (U27_of m c main_v48 (by decide)).trans <| (U26_of m c main_v48 (by decide)).trans <| (U25_of m c main_v48 (by decide)).trans <| (U24_of m c main_v48 (by decide)).trans <| (U23_of m c main_v48 (by decide)).trans <| (U22_of m c main_v48 (by decide)).trans <| (U21_of m c main_v48 (by decide)).trans <| (U20_of m c main_v48 (by decide)).trans <| (U19_of m c main_v48 (by decide)).trans <| (U18_of m c main_v48 (by decide)).trans <| (U17_of m c main_v48 (by decide)).trans <| (U16_of m c main_v48 (by decide)).trans <| (U15_of m c main_v48 (by decide)).trans <| (U14_of m c main_v48 (by decide))

/-- Window 1 of region 10, main_v62: a zero-padded argument. -/
theorem in10_1 (a : Fin 512) (b : Fin 256) :
    (U35 m c main_v62 : S512x256.Idx → EReal) (ix2 a b)
      = if h : a.val < 512 ∧ b.val < 151 then (U0 m c main_arg17 : S512x151.Idx → EReal) (ix2 ⟨a.val, h.1⟩ ⟨b.val, h.2⟩) else (0 : EReal) := by
  have h1 := (congrFun (hw35_main_v62 m c) (ix2 a b)).trans <| hostOps10_pad_v62 (U18 m c) a b
  rw [hw18_main_arg17 m c] at h1
  exact h1

/-- Window 2 of region 10, main_v70: read off a zero-padded argument. -/
theorem in10_2 (u : Fin 1) (j : Fin 256) :
    (U35 m c main_v70 : S1x256.Idx → EReal) (ix2 u j)
      = if h : j.val < 151 then (U0 m c main_arg18 : S151.Idx → EReal) (ix1 ⟨j.val, h⟩) else (0 : EReal) := by
  have h1 := (hostOps10_16_v70 (U34 m c) u j).trans <|
    (congrFun (hw34_main_v63 m c) (ix1 j)).trans <| hostOps10_2_pad_v63 (U20 m c) j
  rw [hw20_main_arg18 m c] at h1
  exact h1

/-! ### Region 11 (entered at item 37) -/

/-- Window 0 of region 11, main_v61: the output of the region that ends at item 18. -/
theorem in11_0 : U37 m c main_v61 = U18 m c main_v61 :=
  (U37_of m c main_v61 (by decide)).trans <| (U36_of m c main_v61 (by decide)).trans <| (U35_of m c main_v61 (by decide)).trans <| (U34_of m c main_v61 (by decide)).trans <| (U33_of m c main_v61 (by decide)).trans <| (U32_of m c main_v61 (by decide)).trans <| (U31_of m c main_v61 (by decide)).trans <| (U30_of m c main_v61 (by decide)).trans <| (U29_of m c main_v61 (by decide)).trans <| (U28_of m c main_v61 (by decide)).trans <| (U27_of m c main_v61 (by decide)).trans <| (U26_of m c main_v61 (by decide)).trans <| (U25_of m c main_v61 (by decide)).trans <| (U24_of m c main_v61 (by decide)).trans <| (U23_of m c main_v61 (by decide)).trans <| (U22_of m c main_v61 (by decide)).trans <| (U21_of m c main_v61 (by decide)).trans <| (U20_of m c main_v61 (by decide)).trans <| (U19_of m c main_v61 (by decide))

/-- Window 1 of region 11, main_v64: a zero-padded argument. -/
theorem in11_1 (a : Fin 512) (b : Fin 128) :
    (U37 m c main_v64 : S512x128.Idx → EReal) (ix2 a b)
      = if h : a.val < 512 ∧ b.val < 51 then (U0 m c main_arg19 : S512x51.Idx → EReal) (ix2 ⟨a.val, h.1⟩ ⟨b.val, h.2⟩) else (0 : EReal) := by
  have h1 := (congrFun (hw37_main_v64 m c) (ix2 a b)).trans <| hostOps10_4_pad_v64 (U22 m c) a b
  rw [hw22_main_arg19 m c] at h1
  exact h1

/-- Window 2 of region 11, main_v72: read off a zero-padded argument. -/
theorem in11_2 (u : Fin 1) (j : Fin 128) :
    (U37 m c main_v72 : S1x128.Idx → EReal) (ix2 u j)
      = if h : j.val < 51 then (U0 m c main_arg20 : S51.Idx → EReal) (ix1 ⟨j.val, h⟩) else (0 : EReal) := by
  have h1 := (hostOps11_v72 (U36 m c) u j).trans <|
    (congrFun (hw36_main_v65 m c) (ix1 j)).trans <| hostOps10_6_pad_v65 (U24 m c) j
  rw [hw24_main_arg20 m c] at h1
  exact h1

/-! ### Region 12 (entered at item 39) -/

/-- Window 0 of region 12, main_v4: read off an argument. -/
theorem in12_0 (u : Fin 1) (r : Fin 32768) :
    (U39 m c main_v4 : S1x32768.Idx → BitVec 32) (ix2 u r)
      = (U0 m c main_arg2 : S32768x2.Idx → BitVec 32) (ix2 r (0 : Fin 2)) :=
  (congrFun (hw39_main_v4 m c) (ix2 u r)).trans <| (hostOps0_v4 (U0 m c) u r)

/-- Window 1 of region 12, main_v5: read off an argument. -/
theorem in12_1 (u : Fin 1) (r : Fin 32768) :
    (U39 m c main_v5 : S1x32768.Idx → BitVec 32) (ix2 u r)
      = (U0 m c main_arg2 : S32768x2.Idx → BitVec 32) (ix2 r (1 : Fin 2)) :=
  (congrFun (hw39_main_v5 m c) (ix2 u r)).trans <| (hostOps0_v5 (U0 m c) u r)

/-- Window 2 of region 12, main_v73: the output of the region that ends at item 38. -/
theorem in12_2 : U39 m c main_v73 = U38 m c main_v73 :=
  (U39_of m c main_v73 (by decide))

/-- Window 3 of region 12, main_v75: read off a zero-padded argument. -/
theorem in12_3 (a : Fin 128) (b : Fin 256) :
    (U39 m c main_v75 : S128x256.Idx → EReal) (ix2 a b)
      = if h : a.val < 51 ∧ b.val < 151 then (U0 m c main_arg13 : S2x51x151.Idx → EReal) (ix3 (0 : Fin 2) ⟨a.val, h.1⟩ ⟨b.val, h.2⟩) else (0 : EReal) := by
  have h1 := (hostOps12_v75 (U38 m c) a b).trans <|
    (congrFun (hw38_main_v66 m c) (ix3 (0 : Fin 2) a b)).trans <| hostOps10_8_pad_v66 (U26 m c) (0 : Fin 2) a b
  rw [hw26_main_arg13 m c] at h1
  exact h1

/-- Window 4 of region 12, main_v82: read off a zero-padded argument. -/
theorem in12_4 (u : Fin 1) (j : Fin 256) :
    (U39 m c main_v82 : S1x256.Idx → EReal) (ix2 u j)
      = if h : j.val < 151 then (U0 m c main_arg14 : S2x151.Idx → EReal) (ix2 (0 : Fin 2) ⟨j.val, h⟩) else (0 : EReal) := by
  have h1 := (hostOps12_v82 (U38 m c) u j).trans <|
    (congrFun (hw38_main_v67 m c) (ix2 (0 : Fin 2) j)).trans <| hostOps10_10_pad_v67 (U28 m c) (0 : Fin 2) j
  rw [hw28_main_arg14 m c] at h1
  exact h1

/-- Window 5 of region 12, main_v79: read off a zero-padded argument. -/
theorem in12_5 (a : Fin 128) (b : Fin 256) :
    (U39 m c main_v79 : S128x256.Idx → EReal) (ix2 a b)
      = if h : a.val < 51 ∧ b.val < 151 then (U0 m c main_arg13 : S2x51x151.Idx → EReal) (ix3 (1 : Fin 2) ⟨a.val, h.1⟩ ⟨b.val, h.2⟩) else (0 : EReal) := by
  have h1 := (hostOps12_v79 (U38 m c) a b).trans <|
    (congrFun (hw38_main_v66 m c) (ix3 (1 : Fin 2) a b)).trans <| hostOps10_8_pad_v66 (U26 m c) (1 : Fin 2) a b
  rw [hw26_main_arg13 m c] at h1
  exact h1

/-- Window 6 of region 12, main_v83: read off a zero-padded argument. -/
theorem in12_6 (u : Fin 1) (j : Fin 256) :
    (U39 m c main_v83 : S1x256.Idx → EReal) (ix2 u j)
      = if h : j.val < 151 then (U0 m c main_arg14 : S2x151.Idx → EReal) (ix2 (1 : Fin 2) ⟨j.val, h⟩) else (0 : EReal) := by
  have h1 := (hostOps12_v83 (U38 m c) u j).trans <|
    (congrFun (hw38_main_v67 m c) (ix2 (1 : Fin 2) j)).trans <| hostOps10_10_pad_v67 (U28 m c) (1 : Fin 2) j
  rw [hw28_main_arg14 m c] at h1
  exact h1

/-- Window 7 of region 12, main_v71: the output of the region that ends at item 36. -/
theorem in12_7 : U39 m c main_v71 = U36 m c main_v71 :=
  (U39_of m c main_v71 (by decide)).trans <| (U38_of m c main_v71 (by decide)).trans <| (U37_of m c main_v71 (by decide))

/-! ### Region 13 (entered at item 41) -/

/-- Window 0 of region 13, main_v71: the output of the region that ends at item 36. -/
theorem in13_0 : U41 m c main_v71 = U36 m c main_v71 :=
  (U41_of m c main_v71 (by decide)).trans <| (U40_of m c main_v71 (by decide)).trans <| (U39_of m c main_v71 (by decide)).trans <| (U38_of m c main_v71 (by decide)).trans <| (U37_of m c main_v71 (by decide))

/-- Window 1 of region 13, main_v86: read off a zero-padded argument. -/
theorem in13_1 (a : Fin 256) (b : Fin 128) :
    (U41 m c main_v86 : S256x128.Idx → EReal) (ix2 a b)
      = if h : a.val < 151 ∧ b.val < 51 then (U0 m c main_arg15 : S2x151x51.Idx → EReal) (ix3 (0 : Fin 2) ⟨a.val, h.1⟩ ⟨b.val, h.2⟩) else (0 : EReal) := by
  have h1 := (hostOps13_v86 (U40 m c) a b).trans <|
    (congrFun (hw40_main_v68 m c) (ix3 (0 : Fin 2) a b)).trans <| hostOps10_12_pad_v68 (U30 m c) (0 : Fin 2) a b
  rw [hw30_main_arg15 m c] at h1
  exact h1

/-- Window 2 of region 13, main_v89: read off a zero-padded argument. -/
theorem in13_2 (u : Fin 1) (j : Fin 128) :
    (U41 m c main_v89 : S1x128.Idx → EReal) (ix2 u j)
      = if h : j.val < 51 then (U0 m c main_arg16 : S2x51.Idx → EReal) (ix2 (0 : Fin 2) ⟨j.val, h⟩) else (0 : EReal) := by
  have h1 := (hostOps13_v89 (U40 m c) u j).trans <|
    (congrFun (hw40_main_v69 m c) (ix2 (0 : Fin 2) j)).trans <| hostOps10_14_pad_v69 (U32 m c) (0 : Fin 2) j
  rw [hw32_main_arg16 m c] at h1
  exact h1

/-! ### Region 14 (entered at item 43) -/

/-- Window 0 of region 14, main_v71: the output of the region that ends at item 36. -/
theorem in14_0 : U43 m c main_v71 = U36 m c main_v71 :=
  (U43_of m c main_v71 (by decide)).trans <| (U42_of m c main_v71 (by decide)).trans <| (U41_of m c main_v71 (by decide)).trans <| (U40_of m c main_v71 (by decide)).trans <| (U39_of m c main_v71 (by decide)).trans <| (U38_of m c main_v71 (by decide)).trans <| (U37_of m c main_v71 (by decide))

/-- Window 1 of region 14, main_v92: read off a zero-padded argument. -/
theorem in14_1 (a : Fin 256) (b : Fin 128) :
    (U43 m c main_v92 : S256x128.Idx → EReal) (ix2 a b)
      = if h : a.val < 151 ∧ b.val < 51 then (U0 m c main_arg15 : S2x151x51.Idx → EReal) (ix3 (1 : Fin 2) ⟨a.val, h.1⟩ ⟨b.val, h.2⟩) else (0 : EReal) := by
  have h1 := (hostOps14_v92 (U42 m c) a b).trans <|
    (congrFun (hw42_main_v68 m c) (ix3 (1 : Fin 2) a b)).trans <| hostOps10_12_pad_v68 (U30 m c) (1 : Fin 2) a b
  rw [hw30_main_arg15 m c] at h1
  exact h1

/-- Window 2 of region 14, main_v95: read off a zero-padded argument. -/
theorem in14_2 (u : Fin 1) (j : Fin 128) :
    (U43 m c main_v95 : S1x128.Idx → EReal) (ix2 u j)
      = if h : j.val < 51 then (U0 m c main_arg16 : S2x51.Idx → EReal) (ix2 (1 : Fin 2) ⟨j.val, h⟩) else (0 : EReal) := by
  have h1 := (hostOps14_v95 (U42 m c) u j).trans <|
    (congrFun (hw42_main_v69 m c) (ix2 (1 : Fin 2) j)).trans <| hostOps10_14_pad_v69 (U32 m c) (1 : Fin 2) j
  rw [hw32_main_arg16 m c] at h1
  exact h1

/-! ### Region 15 (entered at item 44) -/

/-- Window 0 of region 15, main_v6: read off an argument. -/
theorem in15_0 (r : Fin 32768) (u : Fin 1) :
    (U44 m c main_v6 : S32768x1.Idx → BitVec 32) (ix2 r u)
      = (U0 m c main_arg2 : S32768x2.Idx → BitVec 32) (ix2 r (0 : Fin 2)) :=
  (congrFun (hw44_main_v6 m c) (ix2 r u)).trans <| (hostOps0_v6 (U0 m c) r u)

/-- Window 1 of region 15, main_v7: read off an argument. -/
theorem in15_1 (r : Fin 32768) (u : Fin 1) :
    (U44 m c main_v7 : S32768x1.Idx → BitVec 32) (ix2 r u)
      = (U0 m c main_arg2 : S32768x2.Idx → BitVec 32) (ix2 r (1 : Fin 2)) :=
  (congrFun (hw44_main_v7 m c) (ix2 r u)).trans <| (hostOps0_v7 (U0 m c) r u)

/-- Window 2 of region 15, main_v90: the output of the region that ends at item 42. -/
theorem in15_2 : U44 m c main_v90 = U42 m c main_v90 :=
  (U44_of m c main_v90 (by decide)).trans <| (U43_of m c main_v90 (by decide))

/-- Window 3 of region 15, main_v96: the output of the region that ends at item 44. -/
theorem in15_3 : U44 m c main_v96 = U44 m c main_v96 :=
  rfl

/-- Window 4 of region 15, main_v73: the output of the region that ends at item 38. -/
theorem in15_4 : U44 m c main_v73 = U38 m c main_v73 :=
  (U44_of m c main_v73 (by decide)).trans <| (U43_of m c main_v73 (by decide)).trans <| (U42_of m c main_v73 (by decide)).trans <| (U41_of m c main_v73 (by decide)).trans <| (U40_of m c main_v73 (by decide)).trans <| (U39_of m c main_v73 (by decide))

/-! ### Region 16 (entered at item 46) -/

/-- Window 0 of region 16, main_v4: read off an argument. -/
theorem in16_0 (u : Fin 1) (r : Fin 32768) :
    (U46 m c main_v4 : S1x32768.Idx → BitVec 32) (ix2 u r)
      = (U0 m c main_arg2 : S32768x2.Idx → BitVec 32) (ix2 r (0 : Fin 2)) :=
  (congrFun (hw46_main_v4 m c) (ix2 u r)).trans <| (hostOps0_v4 (U0 m c) u r)

/-- Window 1 of region 16, main_v5: read off an argument. -/
theorem in16_1 (u : Fin 1) (r : Fin 32768) :
    (U46 m c main_v5 : S1x32768.Idx → BitVec 32) (ix2 u r)
      = (U0 m c main_arg2 : S32768x2.Idx → BitVec 32) (ix2 r (1 : Fin 2)) :=
  (congrFun (hw46_main_v5 m c) (ix2 u r)).trans <| (hostOps0_v5 (U0 m c) u r)

/-- Window 2 of region 16, main_v97: the output of the region that ends at item 45. -/
theorem in16_2 : U46 m c main_v97 = U45 m c main_v97 :=
  (U46_of m c main_v97 (by decide))

/-- Window 3 of region 16, main_v99: read off a zero-padded argument. -/
theorem in16_3 (a : Fin 128) (b : Fin 256) :
    (U46 m c main_v99 : S128x256.Idx → EReal) (ix2 a b)
      = if h : a.val < 51 ∧ b.val < 151 then (U0 m c main_arg13 : S2x51x151.Idx → EReal) (ix3 (0 : Fin 2) ⟨a.val, h.1⟩ ⟨b.val, h.2⟩) else (0 : EReal) := by
  have h1 := (hostOps16_v99 (U45 m c) a b).trans <|
    (congrFun (hw45_main_v66 m c) (ix3 (0 : Fin 2) a b)).trans <| hostOps10_8_pad_v66 (U26 m c) (0 : Fin 2) a b
  rw [hw26_main_arg13 m c] at h1
  exact h1

/-- Window 4 of region 16, main_v106: read off a zero-padded argument. -/
theorem in16_4 (u : Fin 1) (j : Fin 256) :
    (U46 m c main_v106 : S1x256.Idx → EReal) (ix2 u j)
      = if h : j.val < 151 then (U0 m c main_arg14 : S2x151.Idx → EReal) (ix2 (0 : Fin 2) ⟨j.val, h⟩) else (0 : EReal) := by
  have h1 := (hostOps16_v106 (U45 m c) u j).trans <|
    (congrFun (hw45_main_v67 m c) (ix2 (0 : Fin 2) j)).trans <| hostOps10_10_pad_v67 (U28 m c) (0 : Fin 2) j
  rw [hw28_main_arg14 m c] at h1
  exact h1

/-- Window 5 of region 16, main_v103: read off a zero-padded argument. -/
theorem in16_5 (a : Fin 128) (b : Fin 256) :
    (U46 m c main_v103 : S128x256.Idx → EReal) (ix2 a b)
      = if h : a.val < 51 ∧ b.val < 151 then (U0 m c main_arg13 : S2x51x151.Idx → EReal) (ix3 (1 : Fin 2) ⟨a.val, h.1⟩ ⟨b.val, h.2⟩) else (0 : EReal) := by
  have h1 := (hostOps16_v103 (U45 m c) a b).trans <|
    (congrFun (hw45_main_v66 m c) (ix3 (1 : Fin 2) a b)).trans <| hostOps10_8_pad_v66 (U26 m c) (1 : Fin 2) a b
  rw [hw26_main_arg13 m c] at h1
  exact h1

/-- Window 6 of region 16, main_v107: read off a zero-padded argument. -/
theorem in16_6 (u : Fin 1) (j : Fin 256) :
    (U46 m c main_v107 : S1x256.Idx → EReal) (ix2 u j)
      = if h : j.val < 151 then (U0 m c main_arg14 : S2x151.Idx → EReal) (ix2 (1 : Fin 2) ⟨j.val, h⟩) else (0 : EReal) := by
  have h1 := (hostOps16_v107 (U45 m c) u j).trans <|
    (congrFun (hw45_main_v67 m c) (ix2 (1 : Fin 2) j)).trans <| hostOps10_10_pad_v67 (U28 m c) (1 : Fin 2) j
  rw [hw28_main_arg14 m c] at h1
  exact h1

/-- Window 7 of region 16, main_v84: the output of the region that ends at item 40. -/
theorem in16_7 : U46 m c main_v84 = U40 m c main_v84 :=
  (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))

/-! ### Region 17 (entered at item 48) -/

/-- Window 0 of region 17, main_v84: the output of the region that ends at item 40. -/
theorem in17_0 : U48 m c main_v84 = U40 m c main_v84 :=
  (U48_of m c main_v84 (by decide)).trans <| (U47_of m c main_v84 (by decide)).trans <| (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))

/-- Window 1 of region 17, main_v110: read off a zero-padded argument. -/
theorem in17_1 (a : Fin 256) (b : Fin 128) :
    (U48 m c main_v110 : S256x128.Idx → EReal) (ix2 a b)
      = if h : a.val < 151 ∧ b.val < 51 then (U0 m c main_arg15 : S2x151x51.Idx → EReal) (ix3 (0 : Fin 2) ⟨a.val, h.1⟩ ⟨b.val, h.2⟩) else (0 : EReal) := by
  have h1 := (hostOps17_v110 (U47 m c) a b).trans <|
    (congrFun (hw47_main_v68 m c) (ix3 (0 : Fin 2) a b)).trans <| hostOps10_12_pad_v68 (U30 m c) (0 : Fin 2) a b
  rw [hw30_main_arg15 m c] at h1
  exact h1

/-- Window 2 of region 17, main_v113: read off a zero-padded argument. -/
theorem in17_2 (u : Fin 1) (j : Fin 128) :
    (U48 m c main_v113 : S1x128.Idx → EReal) (ix2 u j)
      = if h : j.val < 51 then (U0 m c main_arg16 : S2x51.Idx → EReal) (ix2 (0 : Fin 2) ⟨j.val, h⟩) else (0 : EReal) := by
  have h1 := (hostOps17_v113 (U47 m c) u j).trans <|
    (congrFun (hw47_main_v69 m c) (ix2 (0 : Fin 2) j)).trans <| hostOps10_14_pad_v69 (U32 m c) (0 : Fin 2) j
  rw [hw32_main_arg16 m c] at h1
  exact h1

/-! ### Region 18 (entered at item 50) -/

/-- Window 0 of region 18, main_v84: the output of the region that ends at item 40. -/
theorem in18_0 : U50 m c main_v84 = U40 m c main_v84 :=
  (U50_of m c main_v84 (by decide)).trans <| (U49_of m c main_v84 (by decide)).trans <| (U48_of m c main_v84 (by decide)).trans <| (U47_of m c main_v84 (by decide)).trans <| (U46_of m c main_v84 (by decide)).trans <| (U45_of m c main_v84 (by decide)).trans <| (U44_of m c main_v84 (by decide)).trans <| (U43_of m c main_v84 (by decide)).trans <| (U42_of m c main_v84 (by decide)).trans <| (U41_of m c main_v84 (by decide))

/-- Window 1 of region 18, main_v116: read off a zero-padded argument. -/
theorem in18_1 (a : Fin 256) (b : Fin 128) :
    (U50 m c main_v116 : S256x128.Idx → EReal) (ix2 a b)
      = if h : a.val < 151 ∧ b.val < 51 then (U0 m c main_arg15 : S2x151x51.Idx → EReal) (ix3 (1 : Fin 2) ⟨a.val, h.1⟩ ⟨b.val, h.2⟩) else (0 : EReal) := by
  have h1 := (hostOps18_v116 (U49 m c) a b).trans <|
    (congrFun (hw49_main_v68 m c) (ix3 (1 : Fin 2) a b)).trans <| hostOps10_12_pad_v68 (U30 m c) (1 : Fin 2) a b
  rw [hw30_main_arg15 m c] at h1
  exact h1

/-- Window 2 of region 18, main_v119: read off a zero-padded argument. -/
theorem in18_2 (u : Fin 1) (j : Fin 128) :
    (U50 m c main_v119 : S1x128.Idx → EReal) (ix2 u j)
      = if h : j.val < 51 then (U0 m c main_arg16 : S2x51.Idx → EReal) (ix2 (1 : Fin 2) ⟨j.val, h⟩) else (0 : EReal) := by
  have h1 := (hostOps18_v119 (U49 m c) u j).trans <|
    (congrFun (hw49_main_v69 m c) (ix2 (1 : Fin 2) j)).trans <| hostOps10_14_pad_v69 (U32 m c) (1 : Fin 2) j
  rw [hw32_main_arg16 m c] at h1
  exact h1

/-! ### Region 19 (entered at item 51) -/

/-- Window 0 of region 19, main_v6: read off an argument. -/
theorem in19_0 (r : Fin 32768) (u : Fin 1) :
    (U51 m c main_v6 : S32768x1.Idx → BitVec 32) (ix2 r u)
      = (U0 m c main_arg2 : S32768x2.Idx → BitVec 32) (ix2 r (0 : Fin 2)) :=
  (congrFun (hw51_main_v6 m c) (ix2 r u)).trans <| (hostOps0_v6 (U0 m c) r u)

/-- Window 1 of region 19, main_v7: read off an argument. -/
theorem in19_1 (r : Fin 32768) (u : Fin 1) :
    (U51 m c main_v7 : S32768x1.Idx → BitVec 32) (ix2 r u)
      = (U0 m c main_arg2 : S32768x2.Idx → BitVec 32) (ix2 r (1 : Fin 2)) :=
  (congrFun (hw51_main_v7 m c) (ix2 r u)).trans <| (hostOps0_v7 (U0 m c) r u)

/-- Window 2 of region 19, main_v114: the output of the region that ends at item 49. -/
theorem in19_2 : U51 m c main_v114 = U49 m c main_v114 :=
  (U51_of m c main_v114 (by decide)).trans <| (U50_of m c main_v114 (by decide))

/-- Window 3 of region 19, main_v120: the output of the region that ends at item 51. -/
theorem in19_3 : U51 m c main_v120 = U51 m c main_v120 :=
  rfl

/-- Window 4 of region 19, main_v97: the output of the region that ends at item 45. -/
theorem in19_4 : U51 m c main_v97 = U45 m c main_v97 :=
  (U51_of m c main_v97 (by decide)).trans <| (U50_of m c main_v97 (by decide)).trans <| (U49_of m c main_v97 (by decide)).trans <| (U48_of m c main_v97 (by decide)).trans <| (U47_of m c main_v97 (by decide)).trans <| (U46_of m c main_v97 (by decide))

/-! ### The results -/

/-- The relations' embedding, returned as region 1 left it. -/
theorem res13 : U53 m c main_v13 = U4 m c main_v13 :=
  (U53_of m c main_v13 (by decide)).trans <| (U52_of m c main_v13 (by decide)).trans <| (U51_of m c main_v13 (by decide)).trans <| (U50_of m c main_v13 (by decide)).trans <| (U49_of m c main_v13 (by decide)).trans <| (U48_of m c main_v13 (by decide)).trans <| (U47_of m c main_v13 (by decide)).trans <| (U46_of m c main_v13 (by decide)).trans <| (U45_of m c main_v13 (by decide)).trans <| (U44_of m c main_v13 (by decide)).trans <| (U43_of m c main_v13 (by decide)).trans <| (U42_of m c main_v13 (by decide)).trans <| (U41_of m c main_v13 (by decide)).trans <| (U40_of m c main_v13 (by decide)).trans <| (U39_of m c main_v13 (by decide)).trans <| (U38_of m c main_v13 (by decide)).trans <| (U37_of m c main_v13 (by decide)).trans <| (U36_of m c main_v13 (by decide)).trans <| (U35_of m c main_v13 (by decide)).trans <| (U34_of m c main_v13 (by decide)).trans <| (U33_of m c main_v13 (by decide)).trans <| (U32_of m c main_v13 (by decide)).trans <| (U31_of m c main_v13 (by decide)).trans <| (U30_of m c main_v13 (by decide)).trans <| (U29_of m c main_v13 (by decide)).trans <| (U28_of m c main_v13 (by decide)).trans <| (U27_of m c main_v13 (by decide)).trans <| (U26_of m c main_v13 (by decide)).trans <| (U25_of m c main_v13 (by decide)).trans <| (U24_of m c main_v13 (by decide)).trans <| (U23_of m c main_v13 (by decide)).trans <| (U22_of m c main_v13 (by decide)).trans <| (U21_of m c main_v13 (by decide)).trans <| (U20_of m c main_v13 (by decide)).trans <| (U19_of m c main_v13 (by decide)).trans <| (U18_of m c main_v13 (by decide)).trans <| (U17_of m c main_v13 (by decide)).trans <| (U16_of m c main_v13 (by decide)).trans <| (U15_of m c main_v13 (by decide)).trans <| (U14_of m c main_v13 (by decide)).trans <| (U13_of m c main_v13 (by decide)).trans <| (U12_of m c main_v13 (by decide)).trans <| (U11_of m c main_v13 (by decide)).trans <| (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide))

/-- The objects' scores: the real columns of what the last round left. -/
theorem res122 (i : Fin 2048) (j : Fin 151) :
    (U53 m c main_v122 : S2048x151.Idx → EReal) (ix2 i j)
      = (U52 m c main_v108 : S2048x256.Idx → EReal) (ix2 i (Fin.castLE (by decide) j)) :=
  hostOps20_v122 (U52 m c) i j

/-- The relations' scores: the real columns of what the last round left. -/
theorem res123 (i : Fin 32768) (j : Fin 51) :
    (U53 m c main_v123 : S32768x51.Idx → EReal) (ix2 i j)
      = (U52 m c main_v121 : S32768x128.Idx → EReal) (ix2 i (Fin.castLE (by decide) j)) :=
  hostOps20_v123 (U52 m c) i j

end Cert.KernelIdeal.HandV

end
-- ==== Proof.KI.Val0.lean ====
import proofs.«422120_j65652870087589_3_alg».proof.Proof.KI.Reg0
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 0's value: the result's array after the region is the two-layer perceptron of the entry contents

First the body's payload at an index (two block products into zero accumulators, a bias row added to each, the
positive part between them); then each input block as entries of its array; then the blocks the grid writes back,
which tile the result's array. -/

/-! ## The two block products at an index -/

/-- The first product's left operand is read at the result's row … -/
theorem lhsA0_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- … and at the contraction index; -/
theorem lhsA0_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- its right operand at the contraction index … -/
theorem rhsA0_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- … and at the result's column. -/
theorem rhsA0_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The first product into the zero accumulator, at row `p` and column `q`: the sum over the 2048 contraction
    positions of the products of the operands' entries. -/
theorem mmA0_apply (a : FVec Ideal S512x2048 .bf16) (b : FVec Ideal S2048x512 .bf16) (p q : Fin 512) :
    matmul dot_S512x2048_S2048x512_S512x512_1_0_0_1_n_n none a b (constant (F := Ideal) S512x512 .f32 0x00000000#32) (ix2 p q)
      = ∑ k : Fin 2048, a (ix2 p k) * b (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhsA0_0 _ _
    | ⟨1, _⟩ => exact (lhsA0_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhsA0_0 _ _).trans hk
    | ⟨1, _⟩ => exact rhsA0_1 _ _)
  rw [el, er]

/-- The second product's left operand is read at the result's row … -/
theorem lhsB0_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … and at the contraction index; -/
theorem lhsB0_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- its right operand at the contraction index … -/
theorem rhsB0_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … and at the result's column. -/
theorem rhsB0_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The second product into the zero accumulator, at row `p` and column `q`: the sum over the 512 contraction
    positions. -/
theorem mmB0_apply (a : FVec Ideal S512x512 .bf16) (b : FVec Ideal S512x512 .bf16) (p q : Fin 512) :
    matmul dot_S512x512_S512x512_S512x512_1_0_0_1_n_n none a b (constant (F := Ideal) S512x512 .f32 0x00000000#32) (ix2 p q)
      = ∑ k : Fin 512, a (ix2 p k) * b (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB0_0 _ _
    | ⟨1, _⟩ => exact (lhsB0_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB0_0 _ _).trans hk
    | ⟨1, _⟩ => exact rhsB0_1 _ _)
  rw [el, er]

/-! ## The payload at an index -/

/-- The value the body stores at row `p`, column `q` of the result's block, from the five blocks it loaded: the
    second layer's product of the first layer's positive part, plus the second bias. Narrowing a value to the shorter
    format changes nothing on the extended reals, and the zero word is the number 0. -/
theorem pay0_apply (x0 : Vec Ideal S512x2048 .f32) (x1 : Vec Ideal S2048x512 .f32) (x2 : Vec Ideal S1x512 .f32)
    (x3 : Vec Ideal S512x512 .f32) (x4 : Vec Ideal S1x512 .f32) (p q : Fin 512) :
    k0_pay1 (F := Ideal) x0 x1 x2 x3 x4 (ix2 p q)
      = (∑ l : Fin 512, max ((∑ k : Fin 2048, x0 (ix2 p k) * x1 (ix2 k l)) + x2 (ix2 (0 : Fin 1) l)) 0 * x3 (ix2 l q)) + x4 (ix2 (0 : Fin 1) q) := by
  unfold k0_pay1
  simp only [shapeCast_self]
  rw [addf_apply, mmB0_apply, broadcastTo_1b_ab_apply]
  refine congrArg (· + x4 (ix2 (0 : Fin 1) q)) (Finset.sum_congr rfl fun l _ => ?_)
  rw [truncf_apply, truncf_apply, maximumf_apply, addf_apply, mmA0_apply, broadcastTo_1b_ab_apply, broadcast_apply]
  simp only [truncf_apply]
  rw [show (FloatOps.ofBits .f32 0x00000000#32 : Ideal .f32) = 0 from Ideal.ofBits_zero_f32]

/-! ## The blocks as entries of their arrays -/

variable (V : (c : Dev nD) → (b : Ref sig .tc) → Buf (Elt Ideal) ((c : Thread nD τ).loc b))

theorem offs0 : (![0, 0] : Fin 2 → Nat) = fun _ => 0 := funext fun a => by fin_cases a <;> rfl

/-- The shape of the result's array. -/
abbrev ResS0 : Shape := S2048x512

/-- Where the windows are at each point of the grid: the features' and the result's on row block `t`, the weights'
    and the biases' on their one block. -/
theorem idxs0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the features' block at point `t` is row `512 t + p` of the features. -/
theorem blockRead0_0 (c : Dev nD) (t : Fin cfg0.N) (p : Fin 512) (r : Fin 2048) (hr : r.val = t.val * 512 + p.val) (k : Fin 2048) :
    (iblk0 V c 0 t : Vec Ideal S512x2048 .f32) (ix2 p k) = (V c (Pipeline.arrRef spec0 0) : S2048x2048.Idx → EReal) (ix2 r k) := by
  obtain ⟨e0, e1, -⟩ := idxs0 t
  unfold iblk0
  rw [View.read_apply]
  show (V c (Pipeline.arrRef spec0 0) : S2048x2048.Idx → EReal) _ = _
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The first layer's weights' block is the whole of them at every point. -/
theorem blockRead0_1 (c : Dev nD) (t : Fin cfg0.N) (k : Fin 2048) (l : Fin 512) :
    (iblk0 V c 1 t : Vec Ideal S2048x512 .f32) (ix2 k l) = (V c (Pipeline.arrRef spec0 1) : S2048x512.Idx → EReal) (ix2 k l) := by
  obtain ⟨-, -, e0, e1, -⟩ := idxs0 t
  unfold iblk0
  rw [View.read_apply]
  show (V c (Pipeline.arrRef spec0 1) : S2048x512.Idx → EReal) _ = _
  congr 1
  funext a
  apply Fin.ext
  match a with
  | ⟨0, _⟩ => show win0_1.index t (0 : Fin 2) * 2048 + 1 * k.val = k.val; rw [e0]; omega
  | ⟨1, _⟩ => show win0_1.index t (1 : Fin 2) * 512 + 1 * l.val = l.val; rw [e1]; omega

/-- The first bias row's block is the row. -/
theorem blockRead0_2 (c : Dev nD) (t : Fin cfg0.N) (l : Fin 512) :
    (iblk0 V c 2 t : Vec Ideal S1x512 .f32) (ix2 (0 : Fin 1) l) = (V c (Pipeline.arrRef spec0 2) : S1x512.Idx → EReal) (ix2 (0 : Fin 1) l) := by
  obtain ⟨-, -, -, -, e0, e1, -⟩ := idxs0 t
  unfold iblk0
  rw [View.read_apply]
  show (V c (Pipeline.arrRef spec0 2) : S1x512.Idx → EReal) _ = _
  congr 1
  funext a
  apply Fin.ext
  match a with
  | ⟨0, _⟩ => show win0_2.index t (0 : Fin 2) * 1 + 1 * 0 = 0; rw [e0]
  | ⟨1, _⟩ => show win0_2.index t (1 : Fin 2) * 512 + 1 * l.val = l.val; rw [e1]; omega

/-- The second layer's weights' block is the whole of them. -/
theorem blockRead0_3 (c : Dev nD) (t : Fin cfg0.N) (l : Fin 512) (q : Fin 512) :
    (iblk0 V c 3 t : Vec Ideal S512x512 .f32) (ix2 l q) = (V c (Pipeline.arrRef spec0 3) : S512x512.Idx → EReal) (ix2 l q) := by
  obtain ⟨-, -, -, -, -, -, e0, e1, -⟩ := idxs0 t
  unfold iblk0
  rw [View.read_apply]
  show (V c (Pipeline.arrRef spec0 3) : S512x512.Idx → EReal) _ = _
  congr 1
  funext a
  apply Fin.ext
  match a with
  | ⟨0, _⟩ => show win0_3.index t (0 : Fin 2) * 512 + 1 * l.val = l.val; rw [e0]; omega
  | ⟨1, _⟩ => show win0_3.index t (1 : Fin 2) * 512 + 1 * q.val = q.val; rw [e1]; omega

/-- The second bias row's block is the row. -/
theorem blockRead0_4 (c : Dev nD) (t : Fin cfg0.N) (q : Fin 512) :
    (iblk0 V c 4 t : Vec Ideal S1x512 .f32) (ix2 (0 : Fin 1) q) = (V c (Pipeline.arrRef spec0 4) : S1x512.Idx → EReal) (ix2 (0 : Fin 1) q) := by
  obtain ⟨-, -, -, -, -, -, -, -, e0, e1, -⟩ := idxs0 t
  unfold iblk0
  rw [View.read_apply]
  show (V c (Pipeline.arrRef spec0 4) : S1x512.Idx → EReal) _ = _
  congr 1
  funext a
  apply Fin.ext
  match a with
  | ⟨0, _⟩ => show win0_4.index t (0 : Fin 2) * 1 + 1 * 0 = 0; rw [e0]
  | ⟨1, _⟩ => show win0_4.index t (1 : Fin 2) * 512 + 1 * q.val = q.val; rw [e1]; omega

/-! ## The result's array -/

/-- The perceptron of the five arrays the region finds, as one array of the result's shape. -/
def G0 (c : Dev nD) : ResS0.Idx → EReal := fun i =>
  Spec.mlp (fun a b => (V c (Pipeline.arrRef spec0 0) : S2048x2048.Idx → EReal) (ix2 a b))
    (fun a b => (V c (Pipeline.arrRef spec0 1) : S2048x512.Idx → EReal) (ix2 a b))
    (fun b => (V c (Pipeline.arrRef spec0 2) : S1x512.Idx → EReal) (ix2 (0 : Fin 1) b))
    (fun a b => (V c (Pipeline.arrRef spec0 3) : S512x512.Idx → EReal) (ix2 a b))
    (fun b => (V c (Pipeline.arrRef spec0 4) : S1x512.Idx → EReal) (ix2 (0 : Fin 1) b)) (i 0) (i 1)

/-- The payload's sum over the blocks at point `t`, at row `p` and column `q` of the block, is the perceptron at the
    array index in row `512 t + p`, column `q`: every block entry read is the array entry the perceptron reads. -/
theorem inBlock0 (c : Dev nD) (t : Fin cfg0.N) (p q : Fin 512) (i : ResS0.Idx)
    (h0 : (i 0).val = t.val * 512 + p.val) (h1 : (i 1).val = q.val)
    (x0 : Vec Ideal S512x2048 .f32) (x1 : Vec Ideal S2048x512 .f32) (x2 : Vec Ideal S1x512 .f32) (x3 : Vec Ideal S512x512 .f32) (x4 : Vec Ideal S1x512 .f32)
    (e0 : x0 = iblk0 V c 0 t) (e1 : x1 = iblk0 V c 1 t) (e2 : x2 = iblk0 V c 2 t) (e3 : x3 = iblk0 V c 3 t) (e4 : x4 = iblk0 V c 4 t) :
    (∑ l : Fin 512, max ((∑ k : Fin 2048, x0 (ix2 p k) * x1 (ix2 k l)) + x2 (ix2 (0 : Fin 1) l)) 0 * x3 (ix2 l q))
      + x4 (ix2 (0 : Fin 1) q) = G0 V c i := by
  subst e0 e1 e2 e3 e4
  have hq : i 1 = q := Fin.ext h1
  unfold G0 Spec.mlp Spec.lin Spec.linRelu Spec.lin Spec.relu
  simp only [blockRead0_0 V c t p (i 0) h0, blockRead0_1 V c t, blockRead0_2 V c t, blockRead0_3 V c t, blockRead0_4 V c t, hq]

/-- What point `t` writes back is block `t` of the perceptron's array. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero offs0]
  simp only [View.ld_unit_zero (S := S512x2048) offs0, View.ld_unit_zero (S := S2048x512) offs0, View.ld_unit_zero (S := S1x512) offs0,
    View.ld_unit_zero (S := S512x512) offs0]
  obtain ⟨-, -, -, -, -, -, -, -, -, -, e0, e1⟩ := idxs0 t
  funext j
  obtain ⟨p, q, rfl⟩ : ∃ (p : Fin 512) (q : Fin 512), j = ix2 p q := ⟨j 0, j 1, eq_ix2 j⟩
  rw [View.read_apply]
  refine (pay0_apply _ _ _ _ _ p q).trans (inBlock0 V c t p q _ ?_ ?_ _ _ _ _ _ rfl rfl rfl rfl rfl)
  · show win0_5.index t (0 : Fin 2) * 512 + 1 * p.val = t.val * 512 + p.val; rw [e0]; omega
  · show win0_5.index t (1 : Fin 2) * 512 + 1 * q.val = q.val; rw [e1]; omega

/-- An index of the result's array is in point `t`'s block exactly when each coordinate is in the block's range. -/
theorem mem_blk0 (t : Fin cfg0.N) (i : ResS0.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v10).slice (win0_5.rect t)).set ↔ _
  rw [View.set_slice_whole, Rect.mem_set_unit]
  exact Iff.rfl

/-- Every index of the result's array is in the block of the point its row falls in: row `r` in block `r / 512`. -/
theorem covered0 (i : ResS0.Idx) : ∃ t : Fin cfg0.N, (cfg0.win 5).flush t = true ∧ i ∈ ((cfg0.win 5).blk t).view.set := by
  have hN : cfg0.N = 4 := N_0
  have hi0 : (i 0).val < 2048 := (i 0).isLt
  have hi1 : (i 1).val < 512 := (i 1).isLt
  refine ⟨⟨(i 0).val / 512, by omega⟩, flush0_5 _, ?_⟩
  rw [mem_blk0]
  obtain ⟨-, -, -, -, -, -, -, -, -, -, e0, e1⟩ := idxs0 ⟨(i 0).val / 512, by omega⟩
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 512 ≤ (i 1).val ∧ (i 1).val < win0_5.index _ (1 : Fin 2) * 512 + 512
    rw [e1]; omega

/-- THE VALUE: after the region the result's array holds, at row `i` and column `j`, the two-layer perceptron of the
    arrays the region found: the blocks the grid writes back are the blocks of that one array, and they tile it. -/
theorem final0 (c : Dev nD) (i : Fin 2048) (j : Fin 512) :
    (dat0 (F := Ideal) V c).arrAt 5 cfg0.N (ix2 i j)
      = Spec.mlp (fun a b => (V c (Pipeline.arrRef spec0 0) : S2048x2048.Idx → EReal) (ix2 a b))
          (fun a b => (V c (Pipeline.arrRef spec0 1) : S2048x512.Idx → EReal) (ix2 a b))
          (fun b => (V c (Pipeline.arrRef spec0 2) : S1x512.Idx → EReal) (ix2 (0 : Fin 1) b))
          (fun a b => (V c (Pipeline.arrRef spec0 3) : S512x512.Idx → EReal) (ix2 a b))
          (fun b => (V c (Pipeline.arrRef spec0 4) : S1x512.Idx → EReal) (ix2 (0 : Fin 1) b)) i j := by
  rw [(dat0 (F := Ideal) V c).arrAt_eq_of_cover 5 (G0 V c) (fun t _ => flushed0_eq V c t) covered0]
  rfl

end Cert.KernelIdeal.HandV

end
-- ==== Proof.KI.Val1.lean ====
import proofs.«422120_j65652870087589_3_alg».proof.Proof.KI.Reg1
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 1's value: the result's array after the region is the two-layer perceptron of the entry contents

First the body's payload at an index (two block products into zero accumulators, a bias row added to each, the
positive part between them); then each input block as entries of its array; then the blocks the grid writes back,
which tile the result's array. -/

/-! ## The two block products at an index -/

/-- The first product's left operand is read at the result's row … -/
theorem lhsA1_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- … and at the contraction index; -/
theorem lhsA1_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- its right operand at the contraction index … -/
theorem rhsA1_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- … and at the result's column. -/
theorem rhsA1_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The first product into the zero accumulator, at row `p` and column `q`: the sum over the 2048 contraction
    positions of the products of the operands' entries. -/
theorem mmA1_apply (a : FVec Ideal S512x2048 .bf16) (b : FVec Ideal S2048x512 .bf16) (p q : Fin 512) :
    matmul dot_S512x2048_S2048x512_S512x512_1_0_0_1_n_n none a b (constant (F := Ideal) S512x512 .f32 0x00000000#32) (ix2 p q)
      = ∑ k : Fin 2048, a (ix2 p k) * b (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhsA1_0 _ _
    | ⟨1, _⟩ => exact (lhsA1_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhsA1_0 _ _).trans hk
    | ⟨1, _⟩ => exact rhsA1_1 _ _)
  rw [el, er]

/-- The second product's left operand is read at the result's row … -/
theorem lhsB1_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … and at the contraction index; -/
theorem lhsB1_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- its right operand at the contraction index … -/
theorem rhsB1_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … and at the result's column. -/
theorem rhsB1_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The second product into the zero accumulator, at row `p` and column `q`: the sum over the 512 contraction
    positions. -/
theorem mmB1_apply (a : FVec Ideal S512x512 .bf16) (b : FVec Ideal S512x512 .bf16) (p q : Fin 512) :
    matmul dot_S512x512_S512x512_S512x512_1_0_0_1_n_n none a b (constant (F := Ideal) S512x512 .f32 0x00000000#32) (ix2 p q)
      = ∑ k : Fin 512, a (ix2 p k) * b (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB1_0 _ _
    | ⟨1, _⟩ => exact (lhsB1_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB1_0 _ _).trans hk
    | ⟨1, _⟩ => exact rhsB1_1 _ _)
  rw [el, er]

/-! ## The payload at an index -/

/-- The value the body stores at row `p`, column `q` of the result's block, from the five blocks it loaded: the
    second layer's product of the first layer's positive part, plus the second bias. Narrowing a value to the shorter
    format changes nothing on the extended reals, and the zero word is the number 0. -/
theorem pay1_apply (x0 : Vec Ideal S512x2048 .f32) (x1 : Vec Ideal S2048x512 .f32) (x2 : Vec Ideal S1x512 .f32)
    (x3 : Vec Ideal S512x512 .f32) (x4 : Vec Ideal S1x512 .f32) (p q : Fin 512) :
    k1_pay1 (F := Ideal) x0 x1 x2 x3 x4 (ix2 p q)
      = (∑ l : Fin 512, max ((∑ k : Fin 2048, x0 (ix2 p k) * x1 (ix2 k l)) + x2 (ix2 (0 : Fin 1) l)) 0 * x3 (ix2 l q)) + x4 (ix2 (0 : Fin 1) q) := by
  unfold k1_pay1
  simp only [shapeCast_self]
  rw [addf_apply, mmB1_apply, broadcastTo_1b_ab_apply]
  refine congrArg (· + x4 (ix2 (0 : Fin 1) q)) (Finset.sum_congr rfl fun l _ => ?_)
  rw [truncf_apply, truncf_apply, maximumf_apply, addf_apply, mmA1_apply, broadcastTo_1b_ab_apply, broadcast_apply]
  simp only [truncf_apply]
  rw [show (FloatOps.ofBits .f32 0x00000000#32 : Ideal .f32) = 0 from Ideal.ofBits_zero_f32]

/-! ## The blocks as entries of their arrays -/

variable (V : (c : Dev nD) → (b : Ref sig .tc) → Buf (Elt Ideal) ((c : Thread nD τ).loc b))

theorem offs1 : (![0, 0] : Fin 2 → Nat) = fun _ => 0 := funext fun a => by fin_cases a <;> rfl

/-- The shape of the result's array. -/
abbrev ResS1 : Shape := S32768x512

/-- Where the windows are at each point of the grid: the features' and the result's on row block `t`, the weights'
    and the biases' on their one block. -/
theorem idxs1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the features' block at point `t` is row `512 t + p` of the features. -/
theorem blockRead1_0 (c : Dev nD) (t : Fin cfg1.N) (p : Fin 512) (r : Fin 32768) (hr : r.val = t.val * 512 + p.val) (k : Fin 2048) :
    (iblk1 V c 0 t : Vec Ideal S512x2048 .f32) (ix2 p k) = (V c (Pipeline.arrRef spec1 0) : S32768x2048.Idx → EReal) (ix2 r k) := by
  obtain ⟨e0, e1, -⟩ := idxs1 t
  unfold iblk1
  rw [View.read_apply]
  show (V c (Pipeline.arrRef spec1 0) : S32768x2048.Idx → EReal) _ = _
  congr 1
  funext a
  apply Fin.ext
  match a with
  | ⟨0, _⟩ => show win1_0.index t (0 : Fin 2) * 512 + 1 * p.val = r.val; rw [e0, hr]; omega
  | ⟨1, _⟩ => show win1_0.index t (1 : Fin 2) * 2048 + 1 * k.val = k.val; rw [e1]; omega

/-- The first layer's weights' block is the whole of them at every point. -/
theorem blockRead1_1 (c : Dev nD) (t : Fin cfg1.N) (k : Fin 2048) (l : Fin 512) :
    (iblk1 V c 1 t : Vec Ideal S2048x512 .f32) (ix2 k l) = (V c (Pipeline.arrRef spec1 1) : S2048x512.Idx → EReal) (ix2 k l) := by
  obtain ⟨-, -, e0, e1, -⟩ := idxs1 t
  unfold iblk1
  rw [View.read_apply]
  show (V c (Pipeline.arrRef spec1 1) : S2048x512.Idx → EReal) _ = _
  congr 1
  funext a
  apply Fin.ext
  match a with
  | ⟨0, _⟩ => show win1_1.index t (0 : Fin 2) * 2048 + 1 * k.val = k.val; rw [e0]; omega
  | ⟨1, _⟩ => show win1_1.index t (1 : Fin 2) * 512 + 1 * l.val = l.val; rw [e1]; omega

/-- The first bias row's block is the row. -/
theorem blockRead1_2 (c : Dev nD) (t : Fin cfg1.N) (l : Fin 512) :
    (iblk1 V c 2 t : Vec Ideal S1x512 .f32) (ix2 (0 : Fin 1) l) = (V c (Pipeline.arrRef spec1 2) : S1x512.Idx → EReal) (ix2 (0 : Fin 1) l) := by
  obtain ⟨-, -, -, -, e0, e1, -⟩ := idxs1 t
  unfold iblk1
  rw [View.read_apply]
  show (V c (Pipeline.arrRef spec1 2) : S1x512.Idx → EReal) _ = _
  congr 1
  funext a
  apply Fin.ext
  match a with
  | ⟨0, _⟩ => show win1_2.index t (0 : Fin 2) * 1 + 1 * 0 = 0; rw [e0]
  | ⟨1, _⟩ => show win1_2.index t (1 : Fin 2) * 512 + 1 * l.val = l.val; rw [e1]; omega

/-- The second layer's weights' block is the whole of them. -/
theorem blockRead1_3 (c : Dev nD) (t : Fin cfg1.N) (l : Fin 512) (q : Fin 512) :
    (iblk1 V c 3 t : Vec Ideal S512x512 .f32) (ix2 l q) = (V c (Pipeline.arrRef spec1 3) : S512x512.Idx → EReal) (ix2 l q) := by
  obtain ⟨-, -, -, -, -, -, e0, e1, -⟩ := idxs1 t
  unfold iblk1
  rw [View.read_apply]
  show (V c (Pipeline.arrRef spec1 3) : S512x512.Idx → EReal) _ = _
  congr 1
  funext a
  apply Fin.ext
  match a with
  | ⟨0, _⟩ => show win1_3.index t (0 : Fin 2) * 512 + 1 * l.val = l.val; rw [e0]; omega
  | ⟨1, _⟩ => show win1_3.index t (1 : Fin 2) * 512 + 1 * q.val = q.val; rw [e1]; omega

/-- The second bias row's block is the row. -/
theorem blockRead1_4 (c : Dev nD) (t : Fin cfg1.N) (q : Fin 512) :
    (iblk1 V c 4 t : Vec Ideal S1x512 .f32) (ix2 (0 : Fin 1) q) = (V c (Pipeline.arrRef spec1 4) : S1x512.Idx → EReal) (ix2 (0 : Fin 1) q) := by
  obtain ⟨-, -, -, -, -, -, -, -, e0, e1, -⟩ := idxs1 t
  unfold iblk1
  rw [View.read_apply]
  show (V c (Pipeline.arrRef spec1 4) : S1x512.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 512 + 1 * q.val = q.val; rw [e1]; omega

/-! ## The result's array -/

/-- The perceptron of the five arrays the region finds, as one array of the result's shape. -/
def G1 (c : Dev nD) : ResS1.Idx → EReal := fun i =>
  Spec.mlp (fun a b => (V c (Pipeline.arrRef spec1 0) : S32768x2048.Idx → EReal) (ix2 a b))
    (fun a b => (V c (Pipeline.arrRef spec1 1) : S2048x512.Idx → EReal) (ix2 a b))
    (fun b => (V c (Pipeline.arrRef spec1 2) : S1x512.Idx → EReal) (ix2 (0 : Fin 1) b))
    (fun a b => (V c (Pipeline.arrRef spec1 3) : S512x512.Idx → EReal) (ix2 a b))
    (fun b => (V c (Pipeline.arrRef spec1 4) : S1x512.Idx → EReal) (ix2 (0 : Fin 1) b)) (i 0) (i 1)

/-- The payload's sum over the blocks at point `t`, at row `p` and column `q` of the block, is the perceptron at the
    array index in row `512 t + p`, column `q`: every block entry read is the array entry the perceptron reads. -/
theorem inBlock1 (c : Dev nD) (t : Fin cfg1.N) (p q : Fin 512) (i : ResS1.Idx)
    (h0 : (i 0).val = t.val * 512 + p.val) (h1 : (i 1).val = q.val)
    (x0 : Vec Ideal S512x2048 .f32) (x1 : Vec Ideal S2048x512 .f32) (x2 : Vec Ideal S1x512 .f32) (x3 : Vec Ideal S512x512 .f32) (x4 : Vec Ideal S1x512 .f32)
    (e0 : x0 = iblk1 V c 0 t) (e1 : x1 = iblk1 V c 1 t) (e2 : x2 = iblk1 V c 2 t) (e3 : x3 = iblk1 V c 3 t) (e4 : x4 = iblk1 V c 4 t) :
    (∑ l : Fin 512, max ((∑ k : Fin 2048, x0 (ix2 p k) * x1 (ix2 k l)) + x2 (ix2 (0 : Fin 1) l)) 0 * x3 (ix2 l q))
      + x4 (ix2 (0 : Fin 1) q) = G1 V c i := by
  subst e0 e1 e2 e3 e4
  have hq : i 1 = q := Fin.ext h1
  unfold G1 Spec.mlp Spec.lin Spec.linRelu Spec.lin Spec.relu
  simp only [blockRead1_0 V c t p (i 0) h0, blockRead1_1 V c t, blockRead1_2 V c t, blockRead1_3 V c t, blockRead1_4 V c t, hq]

/-- What point `t` writes back is block `t` of the perceptron's array. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero offs1]
  simp only [View.ld_unit_zero (S := S512x2048) offs1, View.ld_unit_zero (S := S2048x512) offs1, View.ld_unit_zero (S := S1x512) offs1,
    View.ld_unit_zero (S := S512x512) offs1]
  obtain ⟨-, -, -, -, -, -, -, -, -, -, e0, e1⟩ := idxs1 t
  funext j
  obtain ⟨p, q, rfl⟩ : ∃ (p : Fin 512) (q : Fin 512), j = ix2 p q := ⟨j 0, j 1, eq_ix2 j⟩
  rw [View.read_apply]
  refine (pay1_apply _ _ _ _ _ p q).trans (inBlock1 V c t p q _ ?_ ?_ _ _ _ _ _ rfl rfl rfl rfl rfl)
  · show win1_5.index t (0 : Fin 2) * 512 + 1 * p.val = t.val * 512 + p.val; rw [e0]; omega
  · show win1_5.index t (1 : Fin 2) * 512 + 1 * q.val = q.val; rw [e1]; omega

/-- An index of the result's array is in point `t`'s block exactly when each coordinate is in the block's range. -/
theorem mem_blk1 (t : Fin cfg1.N) (i : ResS1.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v13).slice (win1_5.rect t)).set ↔ _
  rw [View.set_slice_whole, Rect.mem_set_unit]
  exact Iff.rfl

/-- Every index of the result's array is in the block of the point its row falls in: row `r` in block `r / 512`. -/
theorem covered1 (i : ResS1.Idx) : ∃ t : Fin cfg1.N, (cfg1.win 5).flush t = true ∧ i ∈ ((cfg1.win 5).blk t).view.set := by
  have hN : cfg1.N = 64 := N_1
  have hi0 : (i 0).val < 32768 := (i 0).isLt
  have hi1 : (i 1).val < 512 := (i 1).isLt
  refine ⟨⟨(i 0).val / 512, by omega⟩, flush1_5 _, ?_⟩
  rw [mem_blk1]
  obtain ⟨-, -, -, -, -, -, -, -, -, -, e0, e1⟩ := idxs1 ⟨(i 0).val / 512, by omega⟩
  intro a
  match a with
  | ⟨0, _⟩ =>
    show win1_5.index _ (0 : Fin 2) * 512 ≤ (i 0).val ∧ (i 0).val < win1_5.index _ (0 : Fin 2) * 512 + 512
    rw [e0]; show (i 0).val / 512 * 512 ≤ (i 0).val ∧ (i 0).val < (i 0).val / 512 * 512 + 512; omega
  | ⟨1, _⟩ =>
    show win1_5.index _ (1 : Fin 2) * 512 ≤ (i 1).val ∧ (i 1).val < win1_5.index _ (1 : Fin 2) * 512 + 512
    rw [e1]; omega

/-- THE VALUE: after the region the result's array holds, at row `i` and column `j`, the two-layer perceptron of the
    arrays the region found: the blocks the grid writes back are the blocks of that one array, and they tile it. -/
theorem final1 (c : Dev nD) (i : Fin 32768) (j : Fin 512) :
    (dat1 (F := Ideal) V c).arrAt 5 cfg1.N (ix2 i j)
      = Spec.mlp (fun a b => (V c (Pipeline.arrRef spec1 0) : S32768x2048.Idx → EReal) (ix2 a b))
          (fun a b => (V c (Pipeline.arrRef spec1 1) : S2048x512.Idx → EReal) (ix2 a b))
          (fun b => (V c (Pipeline.arrRef spec1 2) : S1x512.Idx → EReal) (ix2 (0 : Fin 1) b))
          (fun a b => (V c (Pipeline.arrRef spec1 3) : S512x512.Idx → EReal) (ix2 a b))
          (fun b => (V c (Pipeline.arrRef spec1 4) : S1x512.Idx → EReal) (ix2 (0 : Fin 1) b)) i j := by
  rw [(dat1 (F := Ideal) V c).arrAt_eq_of_cover 5 (G1 V c) (fun t _ => flushed1_eq V c t) covered1]
  rfl

end Cert.KernelIdeal.HandV

end
-- ==== Proof.KI.ValCollect.lean ====
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic
noncomputable section
namespace Cert.KernelIdeal.HandV
open Idealize.ShloMosaic Idealize.ShloMosaic.ValueIdx
open scoped BigOperators

/-! # The mathematics shared by the four gather-and-mean regions, free of their sizes

A product of two matrices into the zero matrix read at an entry; the 0/1 weight of a row number against an index word;
a running sum that restarts every 64 points; a sum over tiles of relations as the sum over all relations. -/

/-- A product of an m×k by a k×n matrix into the zero matrix, at an entry: the sum over the contracted coordinate. -/
theorem matmul0_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The 0/1 weight: 1 exactly when the index word `x` is the number of row `r` of block row `i` (blocks of 1024 rows). -/
def hot (i r : ℕ) (x : BitVec 32) : EReal := if x = BitVec.ofNat 32 (1024 * i + r) then 1 else 0

/-- It is the adjacency's entry at that row. -/
theorem hot_eq_adj {nr : ℕ} (no : ℕ) (idx : Fin nr → BitVec 32) (i r : ℕ) (h : 1024 * i + r < no) (R : Fin nr) :
    hot i r (idx R) = Spec.adj no idx ⟨1024 * i + r, h⟩ R := rfl

/-- The word the kernel compares: (row within the block) + (block row) · 1024, as 32-bit words, is the row's number. -/
theorem rowWord (i r : ℕ) :
    IntOp.addi (BitVec.ofNat 32 r) (Scalar.muli (BitVec.ofNat 32 i) 1024#32) = BitVec.ofNat 32 (1024 * i + r) := by
  show BitVec.ofNat 32 r + BitVec.ofNat 32 i * 1024#32 = _
  rw [BitVec.ofNat_add, BitVec.ofNat_mul, BitVec.add_comm, BitVec.mul_comm]

/-- The comparison's bit, widened and converted: the 0/1 weight. -/
theorem hot_word (i r : ℕ) (x : BitVec 32) :
    FloatOps.sitofp (F := Ideal) .f32
        ((IntOp.cmpi .eq (IntOp.addi (BitVec.ofNat 32 r) (Scalar.muli (BitVec.ofNat 32 i) 1024#32)) x).setWidth 32)
      = hot i r x := by
  rw [rowWord]
  show (((((IntOp.cmpi .eq (BitVec.ofNat 32 (1024 * i + r)) x).setWidth 32).toInt : ℝ) : EReal)) = _
  unfold hot IntOp.cmpi
  by_cases h : x = BitVec.ofNat 32 (1024 * i + r)
  · subst h; simp
  · have hb : (BitVec.ofNat 32 (1024 * i + r) == x) = false := beq_false_of_ne fun e => h e.symm
    simp [h, hb]

/-- The positive part as the kernel takes it: the maximum with the zero word's value. -/
theorem max_zero_eq_relu (x : EReal) : max x (Ideal.ofBits .f32 0x00000000#32) = Spec.relu x := by
  rw [Ideal.ofBits_zero_f32]; rfl

/-- A RUNNING SUM THAT RESTARTS EVERY 64 POINTS. A point-indexed quantity that is its own addend at the multiples of 64
    and the previous point's value plus its addend elsewhere is, at point `n`, the sum of the addends of its run
    `64 (n / 64) … n`. -/
theorem fold64 {β : Type*} [AddCommMonoid β] {N : ℕ} (f : (n : ℕ) → n < N → β) (M : ℕ → β)
    (h0 : ∀ (n : ℕ) (h : n < N), n % 64 = 0 → f n h = M n)
    (hs : ∀ (n : ℕ) (h : n + 1 < N), ¬(n + 1) % 64 = 0 → f (n + 1) h = f n (Nat.lt_of_succ_lt h) + M (n + 1)) :
    ∀ (n : ℕ) (h : n < N), f n h = ∑ s ∈ Finset.range (n % 64 + 1), M (64 * (n / 64) + s)
  | 0, h => by
    rw [h0 0 h rfl]
    show M 0 = ∑ s ∈ Finset.range 1, M (64 * 0 + s)
    rw [Finset.sum_range_one]
  | n + 1, h => by
    by_cases hm : (n + 1) % 64 = 0
    · rw [h0 (n + 1) h hm, hm, Finset.sum_range_one]
      congr 1; omega
    · rw [hs n h hm, fold64 f M h0 hs n (Nat.lt_of_succ_lt h)]
      have e1 : (n + 1) % 64 + 1 = (n % 64 + 1) + 1 := by omega
      have e2 : (n + 1) / 64 = n / 64 := by omega
      rw [e1, e2, Finset.sum_range_succ _ (n % 64 + 1)]
      congr 2; omega

/-- The sum over `m` tiles of `n` relations each is the sum over all `m · n` relations. -/
theorem sum_tiles {β : Type*} [AddCommMonoid β] (m n : ℕ) (f : ℕ → β) :
    ∑ s ∈ Finset.range m, ∑ l : Fin n, f (n * s + l.val) = ∑ R : Fin (m * n), f R.val := by
  rw [Finset.sum_range, ← Fintype.sum_prod_type' (f := fun (s : Fin m) (l : Fin n) => f (n * s.val + l.val))]
  refine Fintype.sum_equiv finProdFinEquiv _ _ fun x => ?_
  obtain ⟨s, l⟩ := x
  show f (n * s.val + l.val) = f (l.val + n * s.val)
  rw [Nat.add_comm]

end Cert.KernelIdeal.HandV
end
-- ==== Proof.KI.Val2.lean ====
import proofs.«422120_j65652870087589_3_alg».proof.Proof.KI.Reg2
import proofs.«422120_j65652870087589_3_alg».proof.Proof.KI.ValCollect
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators
variable (V : (c : Dev nD) → (b : Ref sig .tc) → Buf (Elt Ideal) ((c : Thread nD τ).loc b))

/-! # Region 2's payloads at an entry (extended reals) -/

theorem hz2 : (![0, 0] : Fin 2 → Nat) = fun _ => 0 := funext fun a => by fin_cases a <;> rfl

/-- A column `[a, 1]` broadcast to `[a, b]` reads, at (p, c), the column at p. -/
theorem broadcastTo_a1_ab_apply_2 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at (i, u), the operand at i. -/
theorem shapeCast_a_a1_apply_2 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The projected, rectified source tile at (l, j): relu(src_l · W[:, j] + b_j). -/
theorem pay8_apply_2 (x2 x3 : Vec Ideal S512x512 .f32) (x4 : Vec Ideal S1x512 .f32) (l j : Fin 512) :
    k2_pay8 (F := Ideal) x2 x3 x4 (ix2 l j) = Spec.relu ((∑ d : Fin 512, x2 (ix2 l d) * x3 (ix2 d j)) + x4 (ix2 0 j)) := by
  unfold k2_pay8 k2_pay7
  simp only [shapeCast_self]
  rw [truncf_apply, maximumf_apply, addf_apply, broadcast_apply, broadcastTo_1b_ab_apply]
  have hd : dot_S512x512_S512x512_S512x512_1_0_0_1_n_n = ⟨[1], [0], [0], [1], [], [], dot_S512x512_S512x512_S512x512_1_0_0_1_n_n_wf⟩ := rfl
  rw [hd, matmul0_plain_apply]
  exact max_zero_eq_relu _

theorem pay9_apply_2 (x2 x5 : Vec Ideal S512x512 .f32) (x6 : Vec Ideal S1x512 .f32) (l j : Fin 512) :
    k2_pay9 (F := Ideal) x2 x5 x6 (ix2 l j) = Spec.relu ((∑ d : Fin 512, x2 (ix2 l d) * x5 (ix2 d j)) + x6 (ix2 0 j)) := by
  unfold k2_pay9 k2_pay7
  simp only [shapeCast_self]
  rw [truncf_apply, maximumf_apply, addf_apply, broadcast_apply, broadcastTo_1b_ab_apply]
  have hd : dot_S512x512_S512x512_S512x512_1_0_0_1_n_n = ⟨[1], [0], [0], [1], [], [], dot_S512x512_S512x512_S512x512_1_0_0_1_n_n_wf⟩ := rfl
  rw [hd, matmul0_plain_apply]
  exact max_zero_eq_relu _

/-- The index row as the comparison takes it. -/
theorem pay11_eq_2 (v : Vec Ideal S1x512 .i32) : k2_pay11 (F := Ideal) v = v := by
  unfold k2_pay11; exact shapeCast_self _ _
theorem pay12_eq_2 (v : Vec Ideal S1x512 .i32) : k2_pay12 (F := Ideal) v = v := by
  unfold k2_pay12; exact shapeCast_self _ _

/-- The first comparison tile at (r, l): 1 exactly when the tile's l-th index word is the number of row r of block row i. -/
theorem hot13_apply_2 (i : grid2.Coords) (x : IVec S1x512 32) (r : Fin 1024) (l : Fin 512) :
    (sitofp .f32 (extui 32 (k2_pay13 (k2_pay10 i) x) natLt_1_32) : FVec Ideal S1024x512 .f32) (ix2 r l)
      = hot (i 0).val r.val (x (ix2 0 l)) := by
  rw [sitofp_apply, extui_apply]
  unfold k2_pay13 k2_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

theorem hot14_apply_2 (i : grid2.Coords) (x : IVec S1x512 32) (r : Fin 1024) (l : Fin 512) :
    (sitofp .f32 (extui 32 (k2_pay14 (k2_pay10 i) x) natLt_1_32) : FVec Ideal S1024x512 .f32) (ix2 r l)
      = hot (i 0).val r.val (x (ix2 0 l)) := by
  rw [sitofp_apply, extui_apply]
  unfold k2_pay14 k2_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

/-- The first weighted sum's update at (r, j): what was there plus the tile's 0/1-weighted sum of the projected rows. -/
theorem pay15_apply_2 (fc : FVec Ideal S512x512 .bf16) (i : grid2.Coords) (x : IVec S1x512 32) (p : Vec Ideal S1024x512 .f32)
    (r : Fin 1024) (j : Fin 512) :
    k2_pay15 (F := Ideal) fc (k2_pay10 i) x p (ix2 r j)
      = p (ix2 r j) + ∑ l : Fin 512, hot (i 0).val r.val (x (ix2 0 l)) * fc (ix2 l j) := by
  unfold k2_pay15
  simp only [shapeCast_self]
  rw [addf_apply]
  have hd : dot_S1024x512_S512x512_S1024x512_1_0_0_1_n_n = ⟨[1], [0], [0], [1], [], [], dot_S1024x512_S512x512_S1024x512_1_0_0_1_n_n_wf⟩ := rfl
  rw [hd, matmul0_plain_apply]
  refine congrArg (p (ix2 r j) + ·) (Finset.sum_congr rfl fun l _ => ?_)
  rw [truncf_apply, hot13_apply_2]

theorem pay16_apply_2 (fc : FVec Ideal S512x512 .bf16) (i : grid2.Coords) (x : IVec S1x512 32) (p : Vec Ideal S1024x512 .f32)
    (r : Fin 1024) (j : Fin 512) :
    k2_pay16 (F := Ideal) fc (k2_pay10 i) x p (ix2 r j)
      = p (ix2 r j) + ∑ l : Fin 512, hot (i 0).val r.val (x (ix2 0 l)) * fc (ix2 l j) := by
  unfold k2_pay16
  simp only [shapeCast_self]
  rw [addf_apply]
  have hd : dot_S1024x512_S512x512_S1024x512_1_0_0_1_n_n = ⟨[1], [0], [0], [1], [], [], dot_S1024x512_S512x512_S1024x512_1_0_0_1_n_n_wf⟩ := rfl
  rw [hd, matmul0_plain_apply]
  refine congrArg (p (ix2 r j) + ·) (Finset.sum_congr rfl fun l _ => ?_)
  rw [truncf_apply, hot14_apply_2]

/-- Row r with lane l put back on the summed axis is (r, l). -/
theorem lift_lane_2 (r : Fin 1024) (l : Fin 512) : reduces_S1024x512_S1024.lift (ix1 r) l = ix2 r l :=
  funext fun a => Fin.ext (match a with | ⟨0, _⟩ => rfl | ⟨1, _⟩ => rfl)

/-- The first row count's update at (r, 0): what was there plus the number of the tile's index words naming row r. -/
theorem pay17_apply_2 (i : grid2.Coords) (x : IVec S1x512 32) (p : Vec Ideal S1024x1 .f32) (r : Fin 1024) :
    k2_pay17 (F := Ideal) (k2_pay10 i) x p (ix2 r 0) = p (ix2 r 0) + ∑ l : Fin 512, hot (i 0).val r.val (x (ix2 0 l)) := by
  unfold k2_pay17
  simp only [shapeCast_self]
  rw [addf_apply, shapeCast_a_a1_apply_2]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k2_pay13 (k2_pay10 i) x) natLt_1_32) : FVec Ideal S1024x512 .f32) (lift_lane_2 r l)).trans
    (hot13_apply_2 i x r l)

theorem pay18_apply_2 (i : grid2.Coords) (x : IVec S1x512 32) (p : Vec Ideal S1024x1 .f32) (r : Fin 1024) :
    k2_pay1 (F := Ideal) (k2_pay18 (k2_pay10 i) x p) (ix2 r 0) = p (ix2 r 0) + ∑ l : Fin 512, hot (i 0).val r.val (x (ix2 0 l)) := by
  unfold k2_pay1 k2_pay18
  simp only [shapeCast_self]
  rw [addf_apply, shapeCast_a_a1_apply_2]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k2_pay14 (k2_pay10 i) x) natLt_1_32) : FVec Ideal S1024x512 .f32) (lift_lane_2 r l)).trans
    (hot14_apply_2 i x r l)

/-- The finalize payload at (r, j): target + ½ (a₀ / (d₀ + ε) + a₁ / (d₁ + ε)). -/
theorem pay2_apply_2 (a0 : Vec Ideal S1024x512 .f32) (d0 : Vec Ideal S1024x1 .f32) (a1 : Vec Ideal S1024x512 .f32)
    (d1 : Vec Ideal S1024x1 .f32) (x7 : Vec Ideal S1024x512 .f32) (r : Fin 1024) (j : Fin 512) :
    k2_pay2 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold k2_pay2
  simp only [shapeCast_self]
  rw [addf_apply, mulf_apply, addf_apply, divf_apply, divf_apply, broadcastTo_a1_ab_apply_2, broadcastTo_a1_ab_apply_2,
    addf_apply, addf_apply]
  rfl

/-! # One point's contribution to the four running sums, at an entry -/

/-- The zero the first point of a row block starts each sum from. -/
theorem pay3_apply_2 (y : S1024x512.Idx) : k2_pay3 (F := Ideal) y = 0 := by
  unfold k2_pay3; simp only [shapeCast_self]; exact Ideal.ofBits_zero_f32
theorem pay4_apply_2 (y : S1024x512.Idx) : k2_pay4 (F := Ideal) y = 0 := by
  unfold k2_pay4; simp only [shapeCast_self]; exact Ideal.ofBits_zero_f32
theorem pay5_apply_2 (y : S1024x1.Idx) : k2_pay5 (F := Ideal) y = 0 := by
  unfold k2_pay5; simp only [shapeCast_self]; exact Ideal.ofBits_zero_f32
theorem pay6_apply_2 (y : S1024x1.Idx) : k2_pay6 (F := Ideal) y = 0 := by
  unfold k2_pay6; simp only [shapeCast_self]; exact Ideal.ofBits_zero_f32

/-- The projected, rectified source tile at (l, j): relu(src_l · W[:, j] + b_j). -/
def fcAt_2 (x2 xW : Vec Ideal S512x512 .f32) (xb : Vec Ideal S1x512 .f32) (l j : Fin 512) : EReal :=
  Spec.relu ((∑ d : Fin 512, x2 (ix2 l d) * xW (ix2 d j)) + xb (ix2 0 j))

/-- The tile's addend to a weighted sum at (r, j): Σ_l [idx_l names row r of block row i] · relu(src_l · W[:, j] + b_j). -/
def addW_2 (i : ℕ) (x : Vec Ideal S1x512 .i32) (x2 xW : Vec Ideal S512x512 .f32) (xb : Vec Ideal S1x512 .f32)
    (r : Fin 1024) (j : Fin 512) : EReal :=
  ∑ l : Fin 512, hot i r.val (x (ix2 0 l)) * fcAt_2 x2 xW xb l j

/-- The tile's addend to a row count at r: the number of its index words naming row r of block row i. -/
def addC_2 (i : ℕ) (x : Vec Ideal S1x512 .i32) (r : Fin 1024) : EReal := ∑ l : Fin 512, hot i r.val (x (ix2 0 l))

theorem acc2_0_apply (i : grid2.Coords) (x0 : Vec Ideal S1x512 .i32) (x2 x3 : Vec Ideal S512x512 .f32) (x4 : Vec Ideal S1x512 .f32)
    (p : Vec Ideal S1024x512 .f32) (r : Fin 1024) (j : Fin 512) :
    acc2_0 (F := Ideal) i x0 x2 x3 x4 p (ix2 r j) = p (ix2 r j) + addW_2 (i 0).val x0 x2 x3 x4 r j := by
  unfold acc2_0
  rw [View.canon_unit_zero hz2]
  simp only [View.ld_unit_zero (S := S1x512) hz2, View.ld_unit_zero (S := S512x512) hz2, pay11_eq_2]
  rw [pay15_apply_2]
  refine congrArg (p (ix2 r j) + ·) (Finset.sum_congr rfl fun l _ => ?_)
  rw [pay8_apply_2]
  rfl

theorem acc2_1_apply (i : grid2.Coords) (x1 : Vec Ideal S1x512 .i32) (x2 x5 : Vec Ideal S512x512 .f32) (x6 : Vec Ideal S1x512 .f32)
    (p : Vec Ideal S1024x512 .f32) (r : Fin 1024) (j : Fin 512) :
    acc2_1 (F := Ideal) i x1 x2 x5 x6 p (ix2 r j) = p (ix2 r j) + addW_2 (i 0).val x1 x2 x5 x6 r j := by
  unfold acc2_1
  rw [View.canon_unit_zero hz2]
  simp only [View.ld_unit_zero (S := S1x512) hz2, View.ld_unit_zero (S := S512x512) hz2, pay12_eq_2]
  rw [pay16_apply_2]
  refine congrArg (p (ix2 r j) + ·) (Finset.sum_congr rfl fun l _ => ?_)
  rw [pay9_apply_2]
  rfl

theorem acc2_2_apply (i : grid2.Coords) (x0 : Vec Ideal S1x512 .i32) (p : Vec Ideal S1024x1 .f32) (r : Fin 1024) :
    acc2_2 (F := Ideal) i x0 p (ix2 r 0) = p (ix2 r 0) + addC_2 (i 0).val x0 r := by
  unfold acc2_2
  rw [View.canon_unit_zero hz2]
  simp only [View.ld_unit_zero (S := S1x512) hz2, pay11_eq_2]
  exact pay17_apply_2 i x0 p r

theorem acc2_3_apply (i : grid2.Coords) (x1 : Vec Ideal S1x512 .i32) (p : Vec Ideal S1024x1 .f32) (r : Fin 1024) :
    acc2_3 (F := Ideal) i x1 p (ix2 r 0) = p (ix2 r 0) + addC_2 (i 0).val x1 r := by
  unfold acc2_3
  rw [View.canon_unit_zero hz2]
  simp only [View.ld_unit_zero (S := S1x512) hz2, pay12_eq_2]
  exact pay18_apply_2 i x1 p r

theorem out2_8_apply (a0 : Vec Ideal S1024x512 .f32) (d0 : Vec Ideal S1024x1 .f32) (a1 : Vec Ideal S1024x512 .f32)
    (d1 : Vec Ideal S1024x1 .f32) (x7 : Vec Ideal S1024x512 .f32) (r : Fin 1024) (j : Fin 512) :
    out2_8 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold out2_8
  rw [View.canon_unit_zero hz2]
  simp only [View.ld_unit_zero (S := S1024x512) hz2, View.ld_unit_zero (S := S1024x1) hz2]
  exact pay2_apply_2 a0 d0 a1 d1 x7 r j

/-! # The four sums after each point: the sum of the addends of the run so far -/

/-- Point `m`'s addends (zero past the grid, where they are never used). -/
def M2_0 (c : Dev nD) (m : ℕ) (r : Fin 1024) (j : Fin 512) : EReal :=
  if h : m < cfg2.N then addW_2 (grid2.coords ⟨m, h⟩ 0).val (iblk2 V c 0 ⟨m, h⟩) (iblk2 V c 2 ⟨m, h⟩) (iblk2 V c 3 ⟨m, h⟩) (iblk2 V c 4 ⟨m, h⟩) r j else 0
def M2_1 (c : Dev nD) (m : ℕ) (r : Fin 1024) (j : Fin 512) : EReal :=
  if h : m < cfg2.N then addW_2 (grid2.coords ⟨m, h⟩ 0).val (iblk2 V c 1 ⟨m, h⟩) (iblk2 V c 2 ⟨m, h⟩) (iblk2 V c 5 ⟨m, h⟩) (iblk2 V c 6 ⟨m, h⟩) r j else 0
def M2_2 (c : Dev nD) (m : ℕ) (r : Fin 1024) : EReal :=
  if h : m < cfg2.N then addC_2 (grid2.coords ⟨m, h⟩ 0).val (iblk2 V c 0 ⟨m, h⟩) r else 0
def M2_3 (c : Dev nD) (m : ℕ) (r : Fin 1024) : EReal :=
  if h : m < cfg2.N then addC_2 (grid2.coords ⟨m, h⟩ 0).val (iblk2 V c 1 ⟨m, h⟩) r else 0

/-- THE ACCUMULATOR INVARIANT, first weighted sum: after point `n` the running-sum array holds, at (r, j), the sum of the
    addends of the points `64 (n / 64) … n` of its row block. -/
theorem scr2_0_eq (c : Dev nD) (r : Fin 1024) (j : Fin 512) (n : ℕ) (h : n < cfg2.N) :
    (scrAt2 V c n h).1 (ix2 r j) = ∑ s ∈ Finset.range (n % 64 + 1), M2_0 V c (64 * (n / 64) + s) r j := by
  refine fold64 (fun n h => (scrAt2 V c n h).1 (ix2 r j)) (fun m => M2_0 V c m r j) ?_ ?_ n h
  · intro n h hm
    have e := congrArg Prod.fst (scrAt2_first V c ⟨n, h⟩ hm)
    dsimp only at e
    show (scrAt2 V c n h).1 (ix2 r j) = M2_0 V c n r j
    rw [e, acc2_0_apply, pay3_apply_2, zero_add]
    unfold M2_0; rw [dif_pos h]
  · intro n h hm
    have e := congrArg Prod.fst (scrAt2_next V c ⟨n + 1, h⟩ hm)
    dsimp only at e
    show (scrAt2 V c (n + 1) h).1 (ix2 r j) = (scrAt2 V c n (Nat.lt_of_succ_lt h)).1 (ix2 r j) + M2_0 V c (n + 1) r j
    rw [e, acc2_0_apply, View.ld_unit_zero (S := S1024x512) hz2]
    unfold M2_0; rw [dif_pos h]
    rfl

/-- The second weighted sum likewise. -/
theorem scr2_1_eq (c : Dev nD) (r : Fin 1024) (j : Fin 512) (n : ℕ) (h : n < cfg2.N) :
    (scrAt2 V c n h).2.1 (ix2 r j) = ∑ s ∈ Finset.range (n % 64 + 1), M2_1 V c (64 * (n / 64) + s) r j := by
  refine fold64 (fun n h => (scrAt2 V c n h).2.1 (ix2 r j)) (fun m => M2_1 V c m r j) ?_ ?_ n h
  · intro n h hm
    have e := congrArg (fun q => q.2.1) (scrAt2_first V c ⟨n, h⟩ hm)
    dsimp only at e
    show (scrAt2 V c n h).2.1 (ix2 r j) = M2_1 V c n r j
    rw [e, acc2_1_apply, pay4_apply_2, zero_add]
    unfold M2_1; rw [dif_pos h]
  · intro n h hm
    have e := congrArg (fun q => q.2.1) (scrAt2_next V c ⟨n + 1, h⟩ hm)
    dsimp only at e
    show (scrAt2 V c (n + 1) h).2.1 (ix2 r j) = (scrAt2 V c n (Nat.lt_of_succ_lt h)).2.1 (ix2 r j) + M2_1 V c (n + 1) r j
    rw [e, acc2_1_apply, View.ld_unit_zero (S := S1024x512) hz2]
    unfold M2_1; rw [dif_pos h]
    rfl

/-- The first row count likewise. -/
theorem scr2_2_eq (c : Dev nD) (r : Fin 1024) (n : ℕ) (h : n < cfg2.N) :
    (scrAt2 V c n h).2.2.1 (ix2 r 0) = ∑ s ∈ Finset.range (n % 64 + 1), M2_2 V c (64 * (n / 64) + s) r := by
  refine fold64 (fun n h => (scrAt2 V c n h).2.2.1 (ix2 r 0)) (fun m => M2_2 V c m r) ?_ ?_ n h
  · intro n h hm
    have e := congrArg (fun q => q.2.2.1) (scrAt2_first V c ⟨n, h⟩ hm)
    dsimp only at e
    show (scrAt2 V c n h).2.2.1 (ix2 r 0) = M2_2 V c n r
    rw [e, acc2_2_apply, pay5_apply_2, zero_add]
    unfold M2_2; rw [dif_pos h]
  · intro n h hm
    have e := congrArg (fun q => q.2.2.1) (scrAt2_next V c ⟨n + 1, h⟩ hm)
    dsimp only at e
    show (scrAt2 V c (n + 1) h).2.2.1 (ix2 r 0) = (scrAt2 V c n (Nat.lt_of_succ_lt h)).2.2.1 (ix2 r 0) + M2_2 V c (n + 1) r
    rw [e, acc2_2_apply, View.ld_unit_zero (S := S1024x1) hz2]
    unfold M2_2; rw [dif_pos h]
    rfl

/-- The second row count likewise. -/
theorem scr2_3_eq (c : Dev nD) (r : Fin 1024) (n : ℕ) (h : n < cfg2.N) :
    (scrAt2 V c n h).2.2.2 (ix2 r 0) = ∑ s ∈ Finset.range (n % 64 + 1), M2_3 V c (64 * (n / 64) + s) r := by
  refine fold64 (fun n h => (scrAt2 V c n h).2.2.2 (ix2 r 0)) (fun m => M2_3 V c m r) ?_ ?_ n h
  · intro n h hm
    have e := congrArg (fun q => q.2.2.2) (scrAt2_first V c ⟨n, h⟩ hm)
    dsimp only at e
    show (scrAt2 V c n h).2.2.2 (ix2 r 0) = M2_3 V c n r
    rw [e, acc2_3_apply, pay6_apply_2, zero_add]
    unfold M2_3; rw [dif_pos h]
  · intro n h hm
    have e := congrArg (fun q => q.2.2.2) (scrAt2_next V c ⟨n + 1, h⟩ hm)
    dsimp only at e
    show (scrAt2 V c (n + 1) h).2.2.2 (ix2 r 0) = (scrAt2 V c n (Nat.lt_of_succ_lt h)).2.2.2 (ix2 r 0) + M2_3 V c (n + 1) r
    rw [e, acc2_3_apply, View.ld_unit_zero (S := S1024x1) hz2]
    unfold M2_3; rw [dif_pos h]
    rfl

/-! # The blocks as entries of the arrays the region finds -/

/-- The coordinates and the windows' block indices at point `t`, in closed form (decided over the 128 points). -/
theorem idx_facts2 : ∀ t : Fin cfg2.N,
    (grid2.coords t 0).val = t.val / 64
    ∧ win2_0.index t (0 : Fin 2) = 0 ∧ win2_0.index t (1 : Fin 2) = t.val % 64
    ∧ win2_1.index t (0 : Fin 2) = 0 ∧ win2_1.index t (1 : Fin 2) = t.val % 64
    ∧ win2_2.index t (0 : Fin 2) = t.val % 64 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 64 ∧ win2_7.index t (1 : Fin 2) = 0
    ∧ win2_8.index t (0 : Fin 2) = t.val / 64 ∧ win2_8.index t (1 : Fin 2) = 0 :=
  (by decide +kernel : ∀ t : Fin grid2.N, _)

/-- The entry arrays as index vectors, matrices and bias vectors. -/
abbrev idxA2_0 (c : Dev nD) : Fin 32768 → BitVec 32 := fun R => (V c (Pipeline.arrRef spec2 0) : S1x32768.Idx → BitVec 32) (ix2 0 R)
abbrev idxA2_1 (c : Dev nD) : Fin 32768 → BitVec 32 := fun R => (V c (Pipeline.arrRef spec2 1) : S1x32768.Idx → BitVec 32) (ix2 0 R)
abbrev srcA2 (c : Dev nD) : Spec.Mat 32768 512 := fun a b => (V c (Pipeline.arrRef spec2 2) : S32768x512.Idx → EReal) (ix2 a b)
abbrev WA2_0 (c : Dev nD) : Spec.Mat 512 512 := fun a b => (V c (Pipeline.arrRef spec2 3) : S512x512.Idx → EReal) (ix2 a b)
abbrev bA2_0 (c : Dev nD) : Fin 512 → EReal := fun b => (V c (Pipeline.arrRef spec2 4) : S1x512.Idx → EReal) (ix2 0 b)
abbrev WA2_1 (c : Dev nD) : Spec.Mat 512 512 := fun a b => (V c (Pipeline.arrRef spec2 5) : S512x512.Idx → EReal) (ix2 a b)
abbrev bA2_1 (c : Dev nD) : Fin 512 → EReal := fun b => (V c (Pipeline.arrRef spec2 6) : S1x512.Idx → EReal) (ix2 0 b)
abbrev TA2 (c : Dev nD) : Spec.Mat 2048 512 := fun a b => (V c (Pipeline.arrRef spec2 7) : S2048x512.Idx → EReal) (ix2 a b)

theorem iblk2_0_apply (c : Dev nD) (t : Fin cfg2.N) (l : Fin 512) (R : Fin 32768) (hR : R.val = 512 * (t.val % 64) + l.val) :
    iblk2 V c 0 t (ix2 0 l) = idxA2_0 V c R := by
  obtain ⟨-, e0, e1, -⟩ := idx_facts2 t
  show V c (Pipeline.arrRef spec2 0) (((cfg2.win 0).blk t).view.emb (ix2 0 l)) = V c (Pipeline.arrRef spec2 0) (ix2 0 R)
  congr 1
  funext a; apply Fin.ext
  match a with
  | ⟨0, _⟩ => show win2_0.index t (0 : Fin 2) * 1 + 1 * 0 = 0; rw [e0]
  | ⟨1, _⟩ => show win2_0.index t (1 : Fin 2) * 512 + 1 * l.val = R.val; rw [e1, hR]; omega

theorem iblk2_1_apply (c : Dev nD) (t : Fin cfg2.N) (l : Fin 512) (R : Fin 32768) (hR : R.val = 512 * (t.val % 64) + l.val) :
    iblk2 V c 1 t (ix2 0 l) = idxA2_1 V c R := by
  obtain ⟨-, -, -, e0, e1, -⟩ := idx_facts2 t
  show V c (Pipeline.arrRef spec2 1) (((cfg2.win 1).blk t).view.emb (ix2 0 l)) = V c (Pipeline.arrRef spec2 1) (ix2 0 R)
  congr 1
  funext a; apply Fin.ext
  match a with
  | ⟨0, _⟩ => show win2_1.index t (0 : Fin 2) * 1 + 1 * 0 = 0; rw [e0]
  | ⟨1, _⟩ => show win2_1.index t (1 : Fin 2) * 512 + 1 * l.val = R.val; rw [e1, hR]; omega

theorem iblk2_2_apply (c : Dev nD) (t : Fin cfg2.N) (l d : Fin 512) (R : Fin 32768) (hR : R.val = 512 * (t.val % 64) + l.val) :
    iblk2 V c 2 t (ix2 l d) = srcA2 V c R d := by
  obtain ⟨-, -, -, -, -, e0, e1, -⟩ := idx_facts2 t
  show V c (Pipeline.arrRef spec2 2) (((cfg2.win 2).blk t).view.emb (ix2 l d)) = V c (Pipeline.arrRef spec2 2) (ix2 R d)
  congr 1
  funext a; apply Fin.ext
  match a with
  | ⟨0, _⟩ => show win2_2.index t (0 : Fin 2) * 512 + 1 * l.val = R.val; rw [e0, hR]; omega
  | ⟨1, _⟩ => show win2_2.index t (1 : Fin 2) * 512 + 1 * d.val = d.val; rw [e1]; omega

theorem iblk2_3_apply (c : Dev nD) (t : Fin cfg2.N) (d j : Fin 512) : iblk2 V c 3 t (ix2 d j) = WA2_0 V c d j := by
  obtain ⟨-, -, -, -, -, -, -, e0, e1, -⟩ := idx_facts2 t
  show V c (Pipeline.arrRef spec2 3) (((cfg2.win 3).blk t).view.emb (ix2 d j)) = V c (Pipeline.arrRef spec2 3) (ix2 d j)
  congr 1
  funext a; apply Fin.ext
  match a with
  | ⟨0, _⟩ => show win2_3.index t (0 : Fin 2) * 512 + 1 * d.val = d.val; rw [e0]; omega
  | ⟨1, _⟩ => show win2_3.index t (1 : Fin 2) * 512 + 1 * j.val = j.val; rw [e1]; omega

theorem iblk2_4_apply (c : Dev nD) (t : Fin cfg2.N) (j : Fin 512) : iblk2 V c 4 t (ix2 0 j) = bA2_0 V c j := by
  obtain ⟨-, -, -, -, -, -, -, -, -, e0, e1, -⟩ := idx_facts2 t
  show V c (Pipeline.arrRef spec2 4) (((cfg2.win 4).blk t).view.emb (ix2 0 j)) = V c (Pipeline.arrRef spec2 4) (ix2 0 j)
  congr 1
  funext a; apply Fin.ext
  match a with
  | ⟨0, _⟩ => show win2_4.index t (0 : Fin 2) * 1 + 1 * 0 = 0; rw [e0]
  | ⟨1, _⟩ => show win2_4.index t (1 : Fin 2) * 512 + 1 * j.val = j.val; rw [e1]; omega

theorem iblk2_5_apply (c : Dev nD) (t : Fin cfg2.N) (d j : Fin 512) : iblk2 V c 5 t (ix2 d j) = WA2_1 V c d j := by
  obtain ⟨-, -, -, -, -, -, -, -, -, -, -, e0, e1, -⟩ := idx_facts2 t
  show V c (Pipeline.arrRef spec2 5) (((cfg2.win 5).blk t).view.emb (ix2 d j)) = V c (Pipeline.arrRef spec2 5) (ix2 d j)
  congr 1
  funext a; apply Fin.ext
  match a with
  | ⟨0, _⟩ => show win2_5.index t (0 : Fin 2) * 512 + 1 * d.val = d.val; rw [e0]; omega
  | ⟨1, _⟩ => show win2_5.index t (1 : Fin 2) * 512 + 1 * j.val = j.val; rw [e1]; omega

theorem iblk2_6_apply (c : Dev nD) (t : Fin cfg2.N) (j : Fin 512) : iblk2 V c 6 t (ix2 0 j) = bA2_1 V c j := by
  obtain ⟨-, -, -, -, -, -, -, -, -, -, -, -, -, e0, e1, -⟩ := idx_facts2 t
  show V c (Pipeline.arrRef spec2 6) (((cfg2.win 6).blk t).view.emb (ix2 0 j)) = V c (Pipeline.arrRef spec2 6) (ix2 0 j)
  congr 1
  funext a; apply Fin.ext
  match a with
  | ⟨0, _⟩ => show win2_6.index t (0 : Fin 2) * 1 + 1 * 0 = 0; rw [e0]
  | ⟨1, _⟩ => show win2_6.index t (1 : Fin 2) * 512 + 1 * j.val = j.val; rw [e1]; omega

theorem iblk2_7_apply (c : Dev nD) (t : Fin cfg2.N) (r : Fin 1024) (j : Fin 512) (I : Fin 2048) (hI : I.val = 1024 * (t.val / 64) + r.val) :
    iblk2 V c 7 t (ix2 r j) = TA2 V c I j := by
  obtain ⟨-, -, -, -, -, -, -, -, -, -, -, -, -, -, -, e0, e1, -⟩ := idx_facts2 t
  show V c (Pipeline.arrRef spec2 7) (((cfg2.win 7).blk t).view.emb (ix2 r j)) = V c (Pipeline.arrRef spec2 7) (ix2 I j)
  congr 1
  funext a; apply Fin.ext
  match a with
  | ⟨0, _⟩ => show win2_7.index t (0 : Fin 2) * 1024 + 1 * r.val = I.val; rw [e0, hI]; omega
  | ⟨1, _⟩ => show win2_7.index t (1 : Fin 2) * 512 + 1 * j.val = j.val; rw [e1]; omega

/-! # The four sums at the last point of a row block: sums over all the relations -/

/-- A relation's term of a weighted sum and of a row count (zero past the relations, where they are never used). -/
def termW_2 (idx : Fin 32768 → BitVec 32) (fc : Spec.Mat 32768 512) (i : ℕ) (r : Fin 1024) (j : Fin 512) (R : ℕ) : EReal :=
  if h : R < 32768 then hot i r.val (idx ⟨R, h⟩) * fc ⟨R, h⟩ j else 0
def termC_2 (idx : Fin 32768 → BitVec 32) (i : ℕ) (r : Fin 1024) (R : ℕ) : EReal :=
  if h : R < 32768 then hot i r.val (idx ⟨R, h⟩) else 0

/-- The projected, rectified source tile of point `t` is rows `512 (t % 64) …` of relu(src · W + b). -/
theorem fcTile2_0 (c : Dev nD) (t : Fin cfg2.N) (l j : Fin 512) (R : Fin 32768) (hR : R.val = 512 * (t.val % 64) + l.val) :
    fcAt_2 (iblk2 V c 2 t) (iblk2 V c 3 t) (iblk2 V c 4 t) l j = Spec.linRelu (srcA2 V c) (WA2_0 V c) (bA2_0 V c) R j := by
  unfold fcAt_2 Spec.linRelu Spec.lin
  rw [iblk2_4_apply]
  refine congrArg (fun z => Spec.relu (z + bA2_0 V c j)) (Finset.sum_congr rfl fun d _ => ?_)
  rw [iblk2_2_apply V c t l d R hR, iblk2_3_apply]

theorem fcTile2_1 (c : Dev nD) (t : Fin cfg2.N) (l j : Fin 512) (R : Fin 32768) (hR : R.val = 512 * (t.val % 64) + l.val) :
    fcAt_2 (iblk2 V c 2 t) (iblk2 V c 5 t) (iblk2 V c 6 t) l j = Spec.linRelu (srcA2 V c) (WA2_1 V c) (bA2_1 V c) R j := by
  unfold fcAt_2 Spec.linRelu Spec.lin
  rw [iblk2_6_apply]
  refine congrArg (fun z => Spec.relu (z + bA2_1 V c j)) (Finset.sum_congr rfl fun d _ => ?_)
  rw [iblk2_2_apply V c t l d R hR, iblk2_5_apply]

/-- Point `m`'s addends over the arrays: the terms of the relations of tile `m % 64`, at block row `m / 64`. -/
theorem M2_0_eq (c : Dev nD) (m : ℕ) (h : m < cfg2.N) (r : Fin 1024) (j : Fin 512) :
    M2_0 V c m r j = ∑ l : Fin 512, termW_2 (idxA2_0 V c) (Spec.linRelu (srcA2 V c) (WA2_0 V c) (bA2_0 V c)) (m / 64) r j (512 * (m % 64) + l.val) := by
  have ec : (grid2.coords ⟨m, h⟩ 0).val = m / 64 := (idx_facts2 ⟨m, h⟩).1
  unfold M2_0; rw [dif_pos h]
  unfold addW_2; rw [ec]
  refine Finset.sum_congr rfl fun l _ => ?_
  have hl : 512 * (m % 64) + l.val < 32768 := by have := l.isLt; omega
  unfold termW_2; rw [dif_pos hl]
  rw [iblk2_0_apply V c ⟨m, h⟩ l ⟨_, hl⟩ rfl, fcTile2_0 V c ⟨m, h⟩ l j ⟨_, hl⟩ rfl]

theorem M2_1_eq (c : Dev nD) (m : ℕ) (h : m < cfg2.N) (r : Fin 1024) (j : Fin 512) :
    M2_1 V c m r j = ∑ l : Fin 512, termW_2 (idxA2_1 V c) (Spec.linRelu (srcA2 V c) (WA2_1 V c) (bA2_1 V c)) (m / 64) r j (512 * (m % 64) + l.val) := by
  have ec : (grid2.coords ⟨m, h⟩ 0).val = m / 64 := (idx_facts2 ⟨m, h⟩).1
  unfold M2_1; rw [dif_pos h]
  unfold addW_2; rw [ec]
  refine Finset.sum_congr rfl fun l _ => ?_
  have hl : 512 * (m % 64) + l.val < 32768 := by have := l.isLt; omega
  unfold termW_2; rw [dif_pos hl]
  rw [iblk2_1_apply V c ⟨m, h⟩ l ⟨_, hl⟩ rfl, fcTile2_1 V c ⟨m, h⟩ l j ⟨_, hl⟩ rfl]

theorem M2_2_eq (c : Dev nD) (m : ℕ) (h : m < cfg2.N) (r : Fin 1024) :
    M2_2 V c m r = ∑ l : Fin 512, termC_2 (idxA2_0 V c) (m / 64) r (512 * (m % 64) + l.val) := by
  have ec : (grid2.coords ⟨m, h⟩ 0).val = m / 64 := (idx_facts2 ⟨m, h⟩).1
  unfold M2_2; rw [dif_pos h]
  unfold addC_2; rw [ec]
  refine Finset.sum_congr rfl fun l _ => ?_
  have hl : 512 * (m % 64) + l.val < 32768 := by have := l.isLt; omega
  unfold termC_2; rw [dif_pos hl]
  rw [iblk2_0_apply V c ⟨m, h⟩ l ⟨_, hl⟩ rfl]

theorem M2_3_eq (c : Dev nD) (m : ℕ) (h : m < cfg2.N) (r : Fin 1024) :
    M2_3 V c m r = ∑ l : Fin 512, termC_2 (idxA2_1 V c) (m / 64) r (512 * (m % 64) + l.val) := by
  have ec : (grid2.coords ⟨m, h⟩ 0).val = m / 64 := (idx_facts2 ⟨m, h⟩).1
  unfold M2_3; rw [dif_pos h]
  unfold addC_2; rw [ec]
  refine Finset.sum_congr rfl fun l _ => ?_
  have hl : 512 * (m % 64) + l.val < 32768 := by have := l.isLt; omega
  unfold termC_2; rw [dif_pos hl]
  rw [iblk2_1_apply V c ⟨m, h⟩ l ⟨_, hl⟩ rfl]

/-- AT THE LAST POINT OF A ROW BLOCK the first weighted sum at (r, j) is the adjacency-weighted sum, over all the
    relations, of the projected rows: the 64 tiles of 512 relations are the 32768 relations. -/
theorem scrF2_0 (c : Dev nD) (t : Fin cfg2.N) (h63 : t.val % 64 = 63) (r : Fin 1024) (j : Fin 512)
    (hI : 1024 * (t.val / 64) + r.val < 2048) :
    scr2_0 V c t (ix2 r j) = ∑ R : Fin 32768, Spec.adj 2048 (idxA2_0 V c) ⟨1024 * (t.val / 64) + r.val, hI⟩ R
        * Spec.linRelu (srcA2 V c) (WA2_0 V c) (bA2_0 V c) R j := by
  have hN : cfg2.N = 128 := N_2
  have ht := t.isLt
  have key : ∀ s ∈ Finset.range 64, M2_0 V c (64 * (t.val / 64) + s) r j
      = ∑ l : Fin 512, termW_2 (idxA2_0 V c) (Spec.linRelu (srcA2 V c) (WA2_0 V c) (bA2_0 V c)) (t.val / 64) r j (512 * s + l.val) := fun s hs => by
    have hs' : s < 64 := Finset.mem_range.mp hs
    rw [M2_0_eq V c (64 * (t.val / 64) + s) (by omega) r j,
      show (64 * (t.val / 64) + s) / 64 = t.val / 64 by omega, show (64 * (t.val / 64) + s) % 64 = s by omega]
  unfold scr2_0
  rw [scr2_0_eq, h63, Finset.sum_congr rfl key]
  refine (sum_tiles 64 512 _).trans (Finset.sum_congr rfl fun R _ => ?_)
  unfold termW_2; rw [dif_pos (show R.val < 32768 from R.isLt)]
  rfl

theorem scrF2_1 (c : Dev nD) (t : Fin cfg2.N) (h63 : t.val % 64 = 63) (r : Fin 1024) (j : Fin 512)
    (hI : 1024 * (t.val / 64) + r.val < 2048) :
    scr2_1 V c t (ix2 r j) = ∑ R : Fin 32768, Spec.adj 2048 (idxA2_1 V c) ⟨1024 * (t.val / 64) + r.val, hI⟩ R
        * Spec.linRelu (srcA2 V c) (WA2_1 V c) (bA2_1 V c) R j := by
  have hN : cfg2.N = 128 := N_2
  have ht := t.isLt
  have key : ∀ s ∈ Finset.range 64, M2_1 V c (64 * (t.val / 64) + s) r j
      = ∑ l : Fin 512, termW_2 (idxA2_1 V c) (Spec.linRelu (srcA2 V c) (WA2_1 V c) (bA2_1 V c)) (t.val / 64) r j (512 * s + l.val) := fun s hs => by
    have hs' : s < 64 := Finset.mem_range.mp hs
    rw [M2_1_eq V c (64 * (t.val / 64) + s) (by omega) r j,
      show (64 * (t.val / 64) + s) / 64 = t.val / 64 by omega, show (64 * (t.val / 64) + s) % 64 = s by omega]
  unfold scr2_1
  rw [scr2_1_eq, h63, Finset.sum_congr rfl key]
  refine (sum_tiles 64 512 _).trans (Finset.sum_congr rfl fun R _ => ?_)
  unfold termW_2; rw [dif_pos (show R.val < 32768 from R.isLt)]
  rfl

/-- The first row count there: the row's degree in the first adjacency. -/
theorem scrF2_2 (c : Dev nD) (t : Fin cfg2.N) (h63 : t.val % 64 = 63) (r : Fin 1024)
    (hI : 1024 * (t.val / 64) + r.val < 2048) :
    scr2_2 V c t (ix2 r 0) = ∑ R : Fin 32768, Spec.adj 2048 (idxA2_0 V c) ⟨1024 * (t.val / 64) + r.val, hI⟩ R := by
  have hN : cfg2.N = 128 := N_2
  have ht := t.isLt
  have key : ∀ s ∈ Finset.range 64, M2_2 V c (64 * (t.val / 64) + s) r
      = ∑ l : Fin 512, termC_2 (idxA2_0 V c) (t.val / 64) r (512 * s + l.val) := fun s hs => by
    have hs' : s < 64 := Finset.mem_range.mp hs
    rw [M2_2_eq V c (64 * (t.val / 64) + s) (by omega) r,
      show (64 * (t.val / 64) + s) / 64 = t.val / 64 by omega, show (64 * (t.val / 64) + s) % 64 = s by omega]
  unfold scr2_2
  rw [scr2_2_eq, h63, Finset.sum_congr rfl key]
  refine (sum_tiles 64 512 _).trans (Finset.sum_congr rfl fun R _ => ?_)
  unfold termC_2; rw [dif_pos (show R.val < 32768 from R.isLt)]
  rfl

theorem scrF2_3 (c : Dev nD) (t : Fin cfg2.N) (h63 : t.val % 64 = 63) (r : Fin 1024)
    (hI : 1024 * (t.val / 64) + r.val < 2048) :
    scr2_3 V c t (ix2 r 0) = ∑ R : Fin 32768, Spec.adj 2048 (idxA2_1 V c) ⟨1024 * (t.val / 64) + r.val, hI⟩ R := by
  have hN : cfg2.N = 128 := N_2
  have ht := t.isLt
  have key : ∀ s ∈ Finset.range 64, M2_3 V c (64 * (t.val / 64) + s) r
      = ∑ l : Fin 512, termC_2 (idxA2_1 V c) (t.val / 64) r (512 * s + l.val) := fun s hs => by
    have hs' : s < 64 := Finset.mem_range.mp hs
    rw [M2_3_eq V c (64 * (t.val / 64) + s) (by omega) r,
      show (64 * (t.val / 64) + s) / 64 = t.val / 64 by omega, show (64 * (t.val / 64) + s) % 64 = s by omega]
  unfold scr2_3
  rw [scr2_3_eq, h63, Finset.sum_congr rfl key]
  refine (sum_tiles 64 512 _).trans (Finset.sum_congr rfl fun R _ => ?_)
  unfold termC_2; rw [dif_pos (show R.val < 32768 from R.isLt)]
  rfl

/-! # From the blocks to the array -/

/-- What the region leaves in its output array, as one function of the arrays it finds: the update of the target by the
    two adjacency-weighted means of the projected, rectified source rows. -/
def G2 (c : Dev nD) : S2048x512.Idx → EReal := fun y =>
  Spec.upd (TA2 V c) (Spec.collect (Spec.adj 2048 (idxA2_0 V c)) (Spec.linRelu (srcA2 V c) (WA2_0 V c) (bA2_0 V c)))
    (Spec.collect (Spec.adj 2048 (idxA2_1 V c)) (Spec.linRelu (srcA2 V c) (WA2_1 V c) (bA2_1 V c))) (y 0) (y 1)

/-- What the last point of a row block writes back is its block of that function. -/
theorem flushed2_eq (c : Dev nD) (t : Fin cfg2.N) (hf : (cfg2.win 8).flush t = true) :
    (dat2 V c).flushed 8 t = ((cfg2.win 8).blk t).view.read (Elt Ideal) (G2 V c) := by
  have h63 : t.val % 64 = 63 := (flush2_8 t).mp hf
  have hN : cfg2.N = 128 := N_2
  have ht := t.isLt
  obtain ⟨-, -, -, -, -, -, -, -, -, -, -, -, -, -, -, -, -, e0, e1⟩ := idx_facts2 t
  show (cfg2.win 8).cut (grid2.coords t) ((dat2 V c).after 8 t) = _
  rw [after2_8]
  funext y
  obtain ⟨r, j, rfl⟩ : ∃ (r : Fin 1024) (j : Fin 512), y = ix2 r j := ⟨y 0, y 1, @eq_ix2 1024 512 y⟩
  have hI : 1024 * (t.val / 64) + r.val < 2048 := by have := r.isLt; omega
  have hE : ((cfg2.win 8).blk t).view.emb (ix2 r j) = ix2 (⟨1024 * (t.val / 64) + r.val, hI⟩ : Fin 2048) j := by
    funext a; apply Fin.ext
    match a with
    | ⟨0, _⟩ => show win2_8.index t (0 : Fin 2) * 1024 + 1 * r.val = 1024 * (t.val / 64) + r.val; rw [e0]; omega
    | ⟨1, _⟩ => show win2_8.index t (1 : Fin 2) * 512 + 1 * j.val = j.val; rw [e1]; omega
  show out2_8 (scr2_0 V c t) (scr2_2 V c t) (scr2_1 V c t) (scr2_3 V c t) (iblk2 V c 7 t) (ix2 r j)
    = G2 V c (((cfg2.win 8).blk t).view.emb (ix2 r j))
  rw [hE, out2_8_apply, iblk2_7_apply V c t r j ⟨_, hI⟩ rfl, scrF2_0 V c t h63 r j hI, scrF2_1 V c t h63 r j hI,
    scrF2_2 V c t h63 r hI, scrF2_3 V c t h63 r hI]
  rfl

/-- Every entry of the output array is in the block some last point of a row block writes back. -/
theorem cover2 (y : S2048x512.Idx) :
    ∃ t : Fin cfg2.N, (cfg2.win 8).flush t = true ∧ y ∈ ((cfg2.win 8).blk t).view.set := by
  have hN : cfg2.N = 128 := N_2
  have h0 : (y 0).val < 2048 := (y 0).isLt
  have h1 : (y 1).val < 512 := (y 1).isLt
  have hb : 64 * ((y 0).val / 1024) + 63 < cfg2.N := by rw [hN]; omega
  refine ⟨⟨64 * ((y 0).val / 1024) + 63, hb⟩, (flush2_8 _).mpr (by show (64 * ((y 0).val / 1024) + 63) % 64 = 63; omega), ?_⟩
  obtain ⟨-, -, -, -, -, -, -, -, -, -, -, -, -, -, -, -, -, e0, e1⟩ := idx_facts2 ⟨64 * ((y 0).val / 1024) + 63, hb⟩
  have e0' : win2_8.index ⟨64 * ((y 0).val / 1024) + 63, hb⟩ (0 : Fin 2) = (y 0).val / 1024 := by
    rw [e0]; show (64 * ((y 0).val / 1024) + 63) / 64 = _; omega
  show y ∈ ((View.whole main_v24).slice (win2_8.rect ⟨64 * ((y 0).val / 1024) + 63, hb⟩)).set
  rw [View.set_slice_whole, Rect.mem_set_unit]
  intro a
  match a with
  | ⟨0, _⟩ =>
    show win2_8.index ⟨64 * ((y 0).val / 1024) + 63, hb⟩ (0 : Fin 2) * 1024 ≤ (y 0).val
      ∧ (y 0).val < win2_8.index ⟨64 * ((y 0).val / 1024) + 63, hb⟩ (0 : Fin 2) * 1024 + 1024
    rw [e0']; omega
  | ⟨1, _⟩ =>
    show win2_8.index ⟨64 * ((y 0).val / 1024) + 63, hb⟩ (1 : Fin 2) * 512 ≤ (y 1).val
      ∧ (y 1).val < win2_8.index ⟨64 * ((y 0).val / 1024) + 63, hb⟩ (1 : Fin 2) * 512 + 512
    rw [e1]; omega

/-- THE VALUE OF REGION 2: its output array ends holding, at (i, j), the target's entry plus half the sum of the two
    adjacency-weighted means of relu(src · W + b), as functions of the arrays the region finds. -/
theorem final2 (c : Dev nD) (i : Fin 2048) (j : Fin 512) :
    (dat2 (F := Ideal) V c).arrAt 8 cfg2.N (ix2 i j)
      = Spec.upd (fun a b => (V c (Pipeline.arrRef spec2 7) : S2048x512.Idx → EReal) (ix2 a b))
          (Spec.collect (Spec.adj 2048 (fun R => (V c (Pipeline.arrRef spec2 0) : S1x32768.Idx → BitVec 32) (ix2 0 R)))
            (Spec.linRelu (fun a b => (V c (Pipeline.arrRef spec2 2) : S32768x512.Idx → EReal) (ix2 a b))
              (fun a b => (V c (Pipeline.arrRef spec2 3) : S512x512.Idx → EReal) (ix2 a b))
              (fun b => (V c (Pipeline.arrRef spec2 4) : S1x512.Idx → EReal) (ix2 0 b))))
          (Spec.collect (Spec.adj 2048 (fun R => (V c (Pipeline.arrRef spec2 1) : S1x32768.Idx → BitVec 32) (ix2 0 R)))
            (Spec.linRelu (fun a b => (V c (Pipeline.arrRef spec2 2) : S32768x512.Idx → EReal) (ix2 a b))
              (fun a b => (V c (Pipeline.arrRef spec2 5) : S512x512.Idx → EReal) (ix2 a b))
              (fun b => (V c (Pipeline.arrRef spec2 6) : S1x512.Idx → EReal) (ix2 0 b)))) i j :=
  congrFun ((dat2 V c).arrAt_eq_of_cover 8 (G2 V c) (flushed2_eq V c) cover2) (ix2 i j)

end Cert.KernelIdeal.HandV
end
-- ==== Proof.KI.Val3.lean ====
import proofs.«422120_j65652870087589_3_alg».proof.Proof.KI.Reg3
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 3 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 512
local notation "nOut" => 512
local notation "nPts" => 4

/-- The input array and one block of its rows, -/
abbrev SXa3 : Shape := S2048x512
abbrev SXb3 : Shape := S512x512
/-- the weight matrix, the bias row, -/
abbrev SW3 : Shape := S512x512
abbrev SB3 : Shape := S1x512
/-- the result array and one block of its rows. -/
abbrev SOa3 : Shape := S2048x512
abbrev SOb3 : Shape := S512x512

/-! ## The block product's index maps, axis by axis -/

/-- The left operand is read at the output's row, -/
theorem lhs3_0 (i : SOb3.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin SXb3.rank) ∈ dot_S512x512_S512x512_S512x512_1_0_0_1_n_n.lhsBatch by decide), dif_pos (show (0 : Fin SXb3.rank) ∈ dot_S512x512_S512x512_S512x512_1_0_0_1_n_n.lhsNonContracting by decide)]
  rfl
/-- and at the inner index as its column; -/
theorem lhs3_1 (i : SOb3.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the inner index as its row, -/
theorem rhs3_0 (i : SOb3.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- and at the output's column. -/
theorem rhs3_1 (i : SOb3.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin SW3.rank) ∈ dot_S512x512_S512x512_S512x512_1_0_0_1_n_n.rhsBatch by decide), dif_pos (show (1 : Fin SW3.rank) ∈ dot_S512x512_S512x512_S512x512_1_0_0_1_n_n.rhsNonContracting by decide)]
  rfl

/-- The block product into the zero accumulator, at row `p` and column `q`: the sum over the inner index of the
    products of the row's and the column's entries. -/
theorem mm3_apply (a : FVec Ideal SXb3 .bf16) (b : FVec Ideal SW3 .bf16) (p : Fin nBlk) (q : Fin nOut) :
    FloatOps.matmul dot_S512x512_S512x512_S512x512_1_0_0_1_n_n none a b (constant (F := Ideal) SOb3 .f32 0x00000000#32) (ix2 p q)
      = ∑ l : Fin nIn, a (ix2 p l) * b (ix2 l q) := by
  rw [Ideal.matmul_constant_zero_apply, ← Equiv.sum_comp (contrEquiv1 dot_S512x512_S512x512_S512x512_1_0_0_1_n_n nIn rfl rfl).symm]
  refine Finset.sum_congr rfl fun k _ => ?_
  have hk := contrEquiv1_symm_val dot_S512x512_S512x512_S512x512_1_0_0_1_n_n nIn rfl rfl k
  have el : dot_S512x512_S512x512_S512x512_1_0_0_1_n_n.lhsIdx (ix2 p q) ((contrEquiv1 dot_S512x512_S512x512_S512x512_1_0_0_1_n_n nIn rfl rfl).symm k) = ix2 p k := funext fun a => Fin.ext (by
    match a with
    | ⟨0, _⟩ => exact lhs3_0 _ _
    | ⟨1, _⟩ => exact (lhs3_1 _ _).trans hk)
  have er : dot_S512x512_S512x512_S512x512_1_0_0_1_n_n.rhsIdx (ix2 p q) ((contrEquiv1 dot_S512x512_S512x512_S512x512_1_0_0_1_n_n nIn rfl rfl).symm k) = ix2 k q := funext fun a => Fin.ext (by
    match a with
    | ⟨0, _⟩ => exact (rhs3_0 _ _).trans hk
    | ⟨1, _⟩ => exact rhs3_1 _ _)
  rw [el, er]

/-! ## The payload at an index -/

/-- The payload at row `p` and column `q` of the block: the positive part of the row of `x0` against the column
    of `x1`, plus the bias at `q`. On the extended reals a change of float format changes nothing, and the zero
    word is zero. -/
theorem pay3_apply (x0 : Vec Ideal SXb3 .f32) (x1 : Vec Ideal SW3 .f32) (x2 : Vec Ideal SB3 .f32) (p : Fin nBlk) (q : Fin nOut) :
    k3_pay1 (F := Ideal) x0 x1 x2 (ix2 p q)
      = max ((∑ l : Fin nIn, x0 (ix2 p l) * x1 (ix2 l q)) + x2 (ix2 (0 : Fin 1) q)) 0 := by
  unfold k3_pay1
  simp only [matmul]
  refine congrArg₂ max (congrArg₂ (· + ·) ?_ ?_) ?_
  · refine (mm3_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr3 (c : Dev nD) : SXa3.Idx → EReal := V c (Pipeline.arrRef spec3 0)
abbrev warr3 (c : Dev nD) : SW3.Idx → EReal := V c (Pipeline.arrRef spec3 1)
abbrev barr3 (c : Dev nD) : SB3.Idx → EReal := V c (Pipeline.arrRef spec3 2)

/-- The whole result, index by index. -/
abbrev G3 (c : Dev nD) : SOa3.Idx → EReal := fun i =>
  Spec.linRelu (r := nRows) (k := nIn) (n := nOut) (fun a b => xarr3 V c (ix2 a b)) (fun a b => warr3 V c (ix2 a b))
    (fun b => barr3 V c (ix2 (0 : Fin 1) b)) (i 0) (i 1)

theorem hz3 : (![0, 0] : Fin 2 → Nat) = fun _ => 0 := funext fun a => by fin_cases a <;> rfl

/-- The printed index maps over the grid: the input's block of rows moves with the output's, which is the point's
    number; every other block index is zero. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- What point `t` writes back is block `t` of the whole result. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold out3_3
  rw [View.canon_unit_zero hz3]
  simp only [View.ld_unit_zero (S := SXb3) hz3, View.ld_unit_zero (S := SW3) hz3, View.ld_unit_zero (S := SB3) hz3]
  obtain ⟨e0, e1, e2, e3, e4, e5, e6, e7⟩ := idx_facts3 t
  funext j
  obtain ⟨p, q, rfl⟩ : ∃ (p : Fin nBlk) (q : Fin nOut), j = ix2 p q := ⟨j 0, j 1, eq_ix2 j⟩
  refine (pay3_apply (iblk3 V c 0 t) (iblk3 V c 1 t) (iblk3 V c 2 t) p q).trans ?_
  -- the row of the array the output's block puts row `p` at, and likewise the column
  have h0 : ∀ l : Fin nIn, ((cfg3.win 0).blk t).view.emb (ix2 p l)
      = ix2 ((((cfg3.win 3).blk t).view.emb (ix2 p q) 0 : Fin nRows)) l := fun l => by
    funext a; apply Fin.ext
    match a with
    | ⟨0, _⟩ => show win3_0.index t (0 : Fin 2) * nBlk + 1 * p.val = win3_3.index t (0 : Fin 2) * nBlk + 1 * p.val; omega
    | ⟨1, _⟩ => show win3_0.index t (1 : Fin 2) * nIn + 1 * l.val = l.val; omega
  have h1 : ∀ l : Fin nIn, ((cfg3.win 1).blk t).view.emb (ix2 l q)
      = ix2 l ((((cfg3.win 3).blk t).view.emb (ix2 p q) 1 : Fin nOut)) := fun l => by
    funext a; apply Fin.ext
    match a with
    | ⟨0, _⟩ => show win3_1.index t (0 : Fin 2) * nIn + 1 * l.val = l.val; omega
    | ⟨1, _⟩ => show win3_1.index t (1 : Fin 2) * nOut + 1 * q.val = win3_3.index t (1 : Fin 2) * nOut + 1 * q.val; omega
  have h2 : ((cfg3.win 2).blk t).view.emb (ix2 (0 : Fin 1) q)
      = ix2 (0 : Fin 1) ((((cfg3.win 3).blk t).view.emb (ix2 p q) 1 : Fin nOut)) := by
    funext a; apply Fin.ext
    match a with
    | ⟨0, _⟩ => show win3_2.index t (0 : Fin 2) * 1 + 1 * 0 = 0; omega
    | ⟨1, _⟩ => show win3_2.index t (1 : Fin 2) * nOut + 1 * q.val = win3_3.index t (1 : Fin 2) * nOut + 1 * q.val; omega
  refine congrArg₂ max (congrArg₂ (· + ·) (Finset.sum_congr rfl fun l _ => ?_) ?_) rfl
  · exact congrArg₂ (· * ·) (congrArg (xarr3 V c) (h0 l)) (congrArg (warr3 V c) (h1 l))
  · exact congrArg (barr3 V c) h2

/-- An index of the output array is in point `t`'s block exactly when each coordinate is in the block's range. -/
theorem mem_blk3 (t : Fin cfg3.N) (i : SOa3.Idx) :
    i ∈ ((cfg3.win 3).blk t).view.set ↔ ∀ a : Fin 2, win3_3.index t a * SOb3.size a ≤ (i a).val
      ∧ (i a).val < win3_3.index t a * SOb3.size a + SOb3.size a := by
  show i ∈ ((View.whole main_v30).slice (win3_3.rect t)).set ↔ _
  rw [View.set_slice_whole, Rect.mem_set_unit]
  exact Iff.rfl

/-- Every index of the output array is in some point's block: a row is in the block of the point numbered by the
    row's quotient by the rows of a block. -/
theorem cover3 (i : SOa3.Idx) :
    ∃ t : Fin cfg3.N, (cfg3.win 3).flush t = true ∧ i ∈ ((cfg3.win 3).blk t).view.set := by
  have hi0 : (i 0).val < nRows := (i 0).isLt
  have hi1 : (i 1).val < nOut := (i 1).isLt
  have hN : cfg3.N = nPts := N_3
  refine ⟨⟨(i 0).val / nBlk, by omega⟩, flush3_3 _, ?_⟩
  obtain ⟨e0, e1, e2, e3, e4, e5, e6, e7⟩ := idx_facts3 ⟨(i 0).val / nBlk, by omega⟩
  rw [mem_blk3]
  intro a
  match a with
  | ⟨0, _⟩ =>
    show win3_3.index ⟨(i 0).val / nBlk, _⟩ (0 : Fin 2) * nBlk ≤ (i 0).val
      ∧ (i 0).val < win3_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win3_3.index ⟨(i 0).val / nBlk, _⟩ (1 : Fin 2) * nOut ≤ (i 1).val
      ∧ (i 1).val < win3_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final3 (c : Dev nD) (i : Fin nRows) (j : Fin nOut) :
    (dat3 (F := Ideal) V c).arrAt 3 cfg3.N (ix2 i j)
      = Spec.linRelu (fun a b => (V c (Pipeline.arrRef spec3 0) : SXa3.Idx → EReal) (ix2 a b))
          (fun a b => (V c (Pipeline.arrRef spec3 1) : SW3.Idx → EReal) (ix2 a b))
          (fun b => (V c (Pipeline.arrRef spec3 2) : SB3.Idx → EReal) (ix2 (0 : Fin 1) b)) i j := by
  rw [(dat3 (F := Ideal) V c).arrAt_eq_of_cover 3 (G3 V c) (fun t _ => flushed3_eq V c t) (cover3)]

end Cert.KernelIdeal.HandV

end
-- ==== Proof.KI.Val4.lean ====
import proofs.«422120_j65652870087589_3_alg».proof.Proof.KI.Reg4
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 4 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 512
local notation "nOut" => 512
local notation "nPts" => 4

/-- The input array and one block of its rows, -/
abbrev SXa4 : Shape := S2048x512
abbrev SXb4 : Shape := S512x512
/-- the weight matrix, the bias row, -/
abbrev SW4 : Shape := S512x512
abbrev SB4 : Shape := S1x512
/-- the result array and one block of its rows. -/
abbrev SOa4 : Shape := S2048x512
abbrev SOb4 : Shape := S512x512

/-! ## The block product's index maps, axis by axis -/

/-- The left operand is read at the output's row, -/
theorem lhs4_0 (i : SOb4.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin SXb4.rank) ∈ dot_S512x512_S512x512_S512x512_1_0_0_1_n_n.lhsBatch by decide), dif_pos (show (0 : Fin SXb4.rank) ∈ dot_S512x512_S512x512_S512x512_1_0_0_1_n_n.lhsNonContracting by decide)]
  rfl
/-- and at the inner index as its column; -/
theorem lhs4_1 (i : SOb4.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the inner index as its row, -/
theorem rhs4_0 (i : SOb4.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- and at the output's column. -/
theorem rhs4_1 (i : SOb4.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin SW4.rank) ∈ dot_S512x512_S512x512_S512x512_1_0_0_1_n_n.rhsBatch by decide), dif_pos (show (1 : Fin SW4.rank) ∈ dot_S512x512_S512x512_S512x512_1_0_0_1_n_n.rhsNonContracting by decide)]
  rfl

/-- The block product into the zero accumulator, at row `p` and column `q`: the sum over the inner index of the
    products of the row's and the column's entries. -/
theorem mm4_apply (a : FVec Ideal SXb4 .bf16) (b : FVec Ideal SW4 .bf16) (p : Fin nBlk) (q : Fin nOut) :
    FloatOps.matmul dot_S512x512_S512x512_S512x512_1_0_0_1_n_n none a b (constant (F := Ideal) SOb4 .f32 0x00000000#32) (ix2 p q)
      = ∑ l : Fin nIn, a (ix2 p l) * b (ix2 l q) := by
  rw [Ideal.matmul_constant_zero_apply, ← Equiv.sum_comp (contrEquiv1 dot_S512x512_S512x512_S512x512_1_0_0_1_n_n nIn rfl rfl).symm]
  refine Finset.sum_congr rfl fun k _ => ?_
  have hk := contrEquiv1_symm_val dot_S512x512_S512x512_S512x512_1_0_0_1_n_n nIn rfl rfl k
  have el : dot_S512x512_S512x512_S512x512_1_0_0_1_n_n.lhsIdx (ix2 p q) ((contrEquiv1 dot_S512x512_S512x512_S512x512_1_0_0_1_n_n nIn rfl rfl).symm k) = ix2 p k := funext fun a => Fin.ext (by
    match a with
    | ⟨0, _⟩ => exact lhs4_0 _ _
    | ⟨1, _⟩ => exact (lhs4_1 _ _).trans hk)
  have er : dot_S512x512_S512x512_S512x512_1_0_0_1_n_n.rhsIdx (ix2 p q) ((contrEquiv1 dot_S512x512_S512x512_S512x512_1_0_0_1_n_n nIn rfl rfl).symm k) = ix2 k q := funext fun a => Fin.ext (by
    match a with
    | ⟨0, _⟩ => exact (rhs4_0 _ _).trans hk
    | ⟨1, _⟩ => exact rhs4_1 _ _)
  rw [el, er]

/-! ## The payload at an index -/

/-- The payload at row `p` and column `q` of the block: the positive part of the row of `x0` against the column
    of `x1`, plus the bias at `q`. On the extended reals a change of float format changes nothing, and the zero
    word is zero. -/
theorem pay4_apply (x0 : Vec Ideal SXb4 .f32) (x1 : Vec Ideal SW4 .f32) (x2 : Vec Ideal SB4 .f32) (p : Fin nBlk) (q : Fin nOut) :
    k4_pay1 (F := Ideal) x0 x1 x2 (ix2 p q)
      = max ((∑ l : Fin nIn, x0 (ix2 p l) * x1 (ix2 l q)) + x2 (ix2 (0 : Fin 1) q)) 0 := by
  unfold k4_pay1
  simp only [matmul]
  refine congrArg₂ max (congrArg₂ (· + ·) ?_ ?_) ?_
  · refine (mm4_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr4 (c : Dev nD) : SXa4.Idx → EReal := V c (Pipeline.arrRef spec4 0)
abbrev warr4 (c : Dev nD) : SW4.Idx → EReal := V c (Pipeline.arrRef spec4 1)
abbrev barr4 (c : Dev nD) : SB4.Idx → EReal := V c (Pipeline.arrRef spec4 2)

/-- The whole result, index by index. -/
abbrev G4 (c : Dev nD) : SOa4.Idx → EReal := fun i =>
  Spec.linRelu (r := nRows) (k := nIn) (n := nOut) (fun a b => xarr4 V c (ix2 a b)) (fun a b => warr4 V c (ix2 a b))
    (fun b => barr4 V c (ix2 (0 : Fin 1) b)) (i 0) (i 1)

theorem hz4 : (![0, 0] : Fin 2 → Nat) = fun _ => 0 := funext fun a => by fin_cases a <;> rfl

/-- The printed index maps over the grid: the input's block of rows moves with the output's, which is the point's
    number; every other block index is zero. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) = t.val :=
  (by decide +kernel : ∀ t : Fin grid4.N, _)

/-- What point `t` writes back is block `t` of the whole result. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold out4_3
  rw [View.canon_unit_zero hz4]
  simp only [View.ld_unit_zero (S := SXb4) hz4, View.ld_unit_zero (S := SW4) hz4, View.ld_unit_zero (S := SB4) hz4]
  obtain ⟨e0, e1, e2, e3, e4, e5, e6, e7⟩ := idx_facts4 t
  funext j
  obtain ⟨p, q, rfl⟩ : ∃ (p : Fin nBlk) (q : Fin nOut), j = ix2 p q := ⟨j 0, j 1, eq_ix2 j⟩
  refine (pay4_apply (iblk4 V c 0 t) (iblk4 V c 1 t) (iblk4 V c 2 t) p q).trans ?_
  -- the row of the array the output's block puts row `p` at, and likewise the column
  have h0 : ∀ l : Fin nIn, ((cfg4.win 0).blk t).view.emb (ix2 p l)
      = ix2 ((((cfg4.win 3).blk t).view.emb (ix2 p q) 0 : Fin nRows)) l := fun l => by
    funext a; apply Fin.ext
    match a with
    | ⟨0, _⟩ => show win4_0.index t (0 : Fin 2) * nBlk + 1 * p.val = win4_3.index t (0 : Fin 2) * nBlk + 1 * p.val; omega
    | ⟨1, _⟩ => show win4_0.index t (1 : Fin 2) * nIn + 1 * l.val = l.val; omega
  have h1 : ∀ l : Fin nIn, ((cfg4.win 1).blk t).view.emb (ix2 l q)
      = ix2 l ((((cfg4.win 3).blk t).view.emb (ix2 p q) 1 : Fin nOut)) := fun l => by
    funext a; apply Fin.ext
    match a with
    | ⟨0, _⟩ => show win4_1.index t (0 : Fin 2) * nIn + 1 * l.val = l.val; omega
    | ⟨1, _⟩ => show win4_1.index t (1 : Fin 2) * nOut + 1 * q.val = win4_3.index t (1 : Fin 2) * nOut + 1 * q.val; omega
  have h2 : ((cfg4.win 2).blk t).view.emb (ix2 (0 : Fin 1) q)
      = ix2 (0 : Fin 1) ((((cfg4.win 3).blk t).view.emb (ix2 p q) 1 : Fin nOut)) := by
    funext a; apply Fin.ext
    match a with
    | ⟨0, _⟩ => show win4_2.index t (0 : Fin 2) * 1 + 1 * 0 = 0; omega
    | ⟨1, _⟩ => show win4_2.index t (1 : Fin 2) * nOut + 1 * q.val = win4_3.index t (1 : Fin 2) * nOut + 1 * q.val; omega
  refine congrArg₂ max (congrArg₂ (· + ·) (Finset.sum_congr rfl fun l _ => ?_) ?_) rfl
  · exact congrArg₂ (· * ·) (congrArg (xarr4 V c) (h0 l)) (congrArg (warr4 V c) (h1 l))
  · exact congrArg (barr4 V c) h2

/-- An index of the output array is in point `t`'s block exactly when each coordinate is in the block's range. -/
theorem mem_blk4 (t : Fin cfg4.N) (i : SOa4.Idx) :
    i ∈ ((cfg4.win 3).blk t).view.set ↔ ∀ a : Fin 2, win4_3.index t a * SOb4.size a ≤ (i a).val
      ∧ (i a).val < win4_3.index t a * SOb4.size a + SOb4.size a := by
  show i ∈ ((View.whole main_v36).slice (win4_3.rect t)).set ↔ _
  rw [View.set_slice_whole, Rect.mem_set_unit]
  exact Iff.rfl

/-- Every index of the output array is in some point's block: a row is in the block of the point numbered by the
    row's quotient by the rows of a block. -/
theorem cover4 (i : SOa4.Idx) :
    ∃ t : Fin cfg4.N, (cfg4.win 3).flush t = true ∧ i ∈ ((cfg4.win 3).blk t).view.set := by
  have hi0 : (i 0).val < nRows := (i 0).isLt
  have hi1 : (i 1).val < nOut := (i 1).isLt
  have hN : cfg4.N = nPts := N_4
  refine ⟨⟨(i 0).val / nBlk, by omega⟩, flush4_3 _, ?_⟩
  obtain ⟨e0, e1, e2, e3, e4, e5, e6, e7⟩ := idx_facts4 ⟨(i 0).val / nBlk, by omega⟩
  rw [mem_blk4]
  intro a
  match a with
  | ⟨0, _⟩ =>
    show win4_3.index ⟨(i 0).val / nBlk, _⟩ (0 : Fin 2) * nBlk ≤ (i 0).val
      ∧ (i 0).val < win4_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win4_3.index ⟨(i 0).val / nBlk, _⟩ (1 : Fin 2) * nOut ≤ (i 1).val
      ∧ (i 1).val < win4_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final4 (c : Dev nD) (i : Fin nRows) (j : Fin nOut) :
    (dat4 (F := Ideal) V c).arrAt 3 cfg4.N (ix2 i j)
      = Spec.linRelu (fun a b => (V c (Pipeline.arrRef spec4 0) : SXa4.Idx → EReal) (ix2 a b))
          (fun a b => (V c (Pipeline.arrRef spec4 1) : SW4.Idx → EReal) (ix2 a b))
          (fun b => (V c (Pipeline.arrRef spec4 2) : SB4.Idx → EReal) (ix2 (0 : Fin 1) b)) i j := by
  rw [(dat4 (F := Ideal) V c).arrAt_eq_of_cover 3 (G4 V c) (fun t _ => flushed4_eq V c t) (cover4)]

end Cert.KernelIdeal.HandV

end
-- ==== Proof.KI.Val5.lean ====
import proofs.«422120_j65652870087589_3_alg».proof.Proof.KI.Reg5
import proofs.«422120_j65652870087589_3_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators
/-- The number of feature columns. -/
local notation "nCol" => 512

/-! ## The operations of the body that are not pointwise, read at an index -/

/-- A word equals itself: the comparison's bit is set. -/
private theorem cmpi_eq_same (a : BitVec 32) : IntOp.cmpi .eq a a = 1#1 := by simp [IntOp.cmpi]
/-- Two different words: the comparison's bit is clear. -/
private theorem cmpi_eq_diff {a b : BitVec 32} (h : a ≠ b) : IntOp.cmpi .eq a b = 0#1 := by
  show BitVec.ofBool (a == b) = 0#1
  rw [beq_eq_false_iff_ne.mpr h]; rfl
/-- The set bit, widened and read as a signed integer, is the real number one. -/
private theorem sitofp_setBit : FloatOps.sitofp (F := Ideal) .f32 (BitVec.setWidth 32 (1#1)) = (1 : EReal) := by
  show (((BitVec.setWidth 32 (1#1)).toInt : ℝ) : EReal) = 1
  rw [show (BitVec.setWidth 32 (1#1)).toInt = 1 by decide]
  simp
/-- The clear bit is zero. -/
private theorem sitofp_clearBit : FloatOps.sitofp (F := Ideal) .f32 (BitVec.setWidth 32 (0#1)) = (0 : EReal) := by
  show (((BitVec.setWidth 32 (0#1)).toInt : ℝ) : EReal) = 0
  rw [show (BitVec.setWidth 32 (0#1)).toInt = 0 by decide]
  simp

/-- The 0/1 tile: lane `k` of row `p` is 1 exactly when the row's index word names `k`. -/
theorem onehot5_apply (x : Vec Ideal S512x1 .i32) (p : Fin 512) (k : Fin 2048) :
    (sitofp (F := Ideal) .f32 (extui 32 (cmpi .eq (iota .tc S512x2048 32 [1] iota_S512x2048_d1_w32)
        (broadcastTo S512x2048 x broadcasts_S512x1_S512x2048)) natLt_1_32)
      : FVec Ideal S512x2048 .f32) (ix2 p k)
      = if x (ix2 p (0 : Fin 1)) = BitVec.ofNat 32 k.val then (1 : EReal) else 0 := by
  rw [sitofp_apply, extui_apply]
  show FloatOps.sitofp .f32 ((IntOp.cmpi .eq (iota .tc S512x2048 32 [1] iota_S512x2048_d1_w32 (ix2 p k))
      (broadcastTo S512x2048 x broadcasts_S512x1_S512x2048 (ix2 p k))).setWidth 32) = _
  rw [iota_single_apply,
    broadcastTo_apply x broadcasts_S512x1_S512x2048 (ix2 p k) (ix2 p (0 : Fin 1)) (fun a => by
      match a with
      | ⟨0, _⟩ => rfl
      | ⟨1, _⟩ => rfl)]
  show FloatOps.sitofp .f32 (BitVec.setWidth 32 (IntOp.cmpi .eq (BitVec.ofNat 32 k.val) (x (ix2 p (0 : Fin 1))))) = _
  by_cases h : x (ix2 p (0 : Fin 1)) = BitVec.ofNat 32 k.val
  · rw [if_pos h, h, cmpi_eq_same, sitofp_setBit]
  · rw [if_neg h, cmpi_eq_diff (fun e => h e.symm), sitofp_clearBit]

/-! ### The product of a tile with a whole matrix -/

theorem lhs5_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs5_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs5_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs5_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The block product into the zero splat, at row `p` and column `q`: the sum over the 2048 lanes. -/
theorem matmul5_apply (L : FVec Ideal S512x2048 .bf16) (R : FVec Ideal S2048x512 .bf16) (p : Fin 512) (q : Fin nCol) :
    matmul dot_S512x2048_S2048x512_S512x512_1_0_0_1_n_n none L R (constant (F := Ideal) S512x512 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhs5_0 _ _
    | ⟨1, _⟩ => exact (lhs5_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhs5_0 _ _).trans hk
    | ⟨1, _⟩ => exact rhs5_1 _ _)
  rw [el, er]

/-! ### The lane sum and the two broadcasts of a column -/

/-- The sum over the lanes of row `p`, kept as a column. -/
theorem laneSum5_apply (v : FVec Ideal S512x2048 .f32) (hφ : FTy.f32 = FTy.f32 ∨ FTy.f32 = FTy.bf16)
    (hacc : (0x00000000#32 : BitVec 32) = 0x00000000#32) (p : Fin 512) :
    (shapeCast S512x1 (multiReduction (F := Ideal) .add [1] S512 v 0x00000000#32 reduces_S512x2048_S512 hφ hacc) shapeCasts_S512_S512x1
      : FVec Ideal S512x1 .f32) (ix2 p (0 : Fin 1)) = ∑ k : Fin 2048, v (ix2 p k) := by
  refine (shapeCast_apply _ shapeCasts_S512_S512x1 (ix2 p (0 : Fin 1)) (ix1 p) ?_).trans ?_
  · rw [Shape.rowMajor_val_one, Shape.rowMajor_val_two]; show p.val = p.val * 1 + 0; omega
  refine (Ideal.multiReduction_add_single v 0x00000000#32 reduces_S512x2048_S512 hφ hacc (ix1 p)).trans ?_
  refine Finset.sum_congr rfl fun k _ => congrArg v ?_
  funext a; apply Fin.ext
  match a with
  | ⟨0, _⟩ => rfl
  | ⟨1, _⟩ => rfl

/-- A column spread over the feature columns reads the column. -/
theorem spread5_apply (d : FVec Ideal S512x1 .f32) (p : Fin 512) (q : Fin nCol) :
    broadcastTo S512x512 d broadcasts_S512x1_S512x512 (ix2 p q) = d (ix2 p (0 : Fin 1)) :=
  broadcastTo_apply d broadcasts_S512x1_S512x512 (ix2 p q) (ix2 p (0 : Fin 1)) (fun a => by
    match a with
    | ⟨0, _⟩ => rfl
    | ⟨1, _⟩ => rfl)

/-! ## The payload at an index -/

/-- The value the body stores at row `p`, column `q` of the block is the update, on the block's own 512 relations: the
    target plus half the sum of the two averaged gathers, each a sum over the 2048 objects of the 0/1 weight times the
    object-side matrix, over the row's degree plus the small constant. -/
theorem payAt5 (x0 x1 : Vec Ideal S512x1 .i32) (x2 x3 : Vec Ideal S2048x512 .bf16) (x4 : Vec Ideal S512x512 .f32)
    (p : Fin 512) (q : Fin nCol) :
    k5_pay1 (k5_pay2 x4) (k5_pay3 x0 x1 x2 x3) (ix2 p q)
      = Spec.upd (fun a b => x4 (ix2 a b))
          (Spec.collect (Spec.tr (Spec.adj 2048 (fun r => x0 (ix2 r (0 : Fin 1))))) (fun a b => x2 (ix2 a b)))
          (Spec.collect (Spec.tr (Spec.adj 2048 (fun r => x1 (ix2 r (0 : Fin 1))))) (fun a b => x3 (ix2 a b))) p q := by
  unfold k5_pay1 k5_pay2 k5_pay3
  dsimp only
  simp only [addf_apply, mulf_apply, divf_apply, broadcast_apply, shapeCast_self, spread5_apply, laneSum5_apply,
    matmul5_apply, truncf_apply, onehot5_apply]
  rw [laneSum5_apply, laneSum5_apply,
    Finset.sum_congr rfl (fun k _ => congrArg (· * x2 (ix2 k q)) (onehot5_apply x0 p k)),
    Finset.sum_congr rfl (fun k _ => onehot5_apply x0 p k),
    Finset.sum_congr rfl (fun k _ => congrArg (· * x3 (ix2 k q)) (onehot5_apply x1 p k)),
    Finset.sum_congr rfl (fun k _ => onehot5_apply x1 p k)]
  rfl

/-! ## From the blocks to the whole array -/

variable (V : (c : Dev nD) → (b : Ref sig .tc) → Buf (Elt Ideal) ((c : Thread nD τ).loc b))

/-- The two index columns, the two object-side matrices and the target, as the region finds them. -/
abbrev ixc5_0 (c : Dev nD) : S32768x1.Idx → BitVec 32 := V c (Pipeline.arrRef spec5 0)
abbrev ixc5_1 (c : Dev nD) : S32768x1.Idx → BitVec 32 := V c (Pipeline.arrRef spec5 1)
abbrev fcm5_0 (c : Dev nD) : S2048x512.Idx → EReal := V c (Pipeline.arrRef spec5 2)
abbrev fcm5_1 (c : Dev nD) : S2048x512.Idx → EReal := V c (Pipeline.arrRef spec5 3)
abbrev tgt5 (c : Dev nD) : S32768x512.Idx → EReal := V c (Pipeline.arrRef spec5 4)

/-- The whole result: the update over all 32768 relations. -/
def G5 (c : Dev nD) : S32768x512.Idx → EReal := fun i =>
  Spec.upd (fun a b => tgt5 V c (ix2 a b))
    (Spec.collect (Spec.tr (Spec.adj 2048 (fun r => ixc5_0 V c (ix2 r (0 : Fin 1))))) (fun a b => fcm5_0 V c (ix2 a b)))
    (Spec.collect (Spec.tr (Spec.adj 2048 (fun r => ixc5_1 V c (ix2 r (0 : Fin 1))))) (fun a b => fcm5_1 V c (ix2 a b)))
    (i 0) (i 1)

theorem hz5 : (![0, 0] : Fin 2 → Nat) = fun _ => 0 := funext fun a => by fin_cases a <;> rfl

/-- Where each window's block sits at grid point `t`: the columns, the target and the result move down by one block of
    512 relations a point; the two matrices stay. -/
theorem idxFacts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem blk5_0 (c : Dev nD) (t : Fin cfg5.N) (p : Fin 512) (h : t.val * 512 + p.val < 32768) :
    iblk5 V c 0 t (ix2 p (0 : Fin 1)) = ixc5_0 V c (ix2 ⟨t.val * 512 + p.val, h⟩ (0 : Fin 1)) := by
  show V c (Pipeline.arrRef spec5 0) (((cfg5.win 0).blk t).view.emb (ix2 p (0 : Fin 1))) = V c (Pipeline.arrRef spec5 0) (ix2 ⟨t.val * 512 + p.val, h⟩ (0 : Fin 1))
  refine congrArg _ ?_
  obtain ⟨e0, e1, -⟩ := idxFacts5 t
  funext a; apply Fin.ext
  match a with
  | ⟨0, _⟩ => show win5_0.index t (0 : Fin 2) * 512 + 1 * p.val = t.val * 512 + p.val; omega
  | ⟨1, _⟩ => show win5_0.index t (1 : Fin 2) * 1 + 1 * 0 = 0; omega

theorem blk5_1 (c : Dev nD) (t : Fin cfg5.N) (p : Fin 512) (h : t.val * 512 + p.val < 32768) :
    iblk5 V c 1 t (ix2 p (0 : Fin 1)) = ixc5_1 V c (ix2 ⟨t.val * 512 + p.val, h⟩ (0 : Fin 1)) := by
  show V c (Pipeline.arrRef spec5 1) (((cfg5.win 1).blk t).view.emb (ix2 p (0 : Fin 1))) = V c (Pipeline.arrRef spec5 1) (ix2 ⟨t.val * 512 + p.val, h⟩ (0 : Fin 1))
  refine congrArg _ ?_
  obtain ⟨-, -, e0, e1, -⟩ := idxFacts5 t
  funext a; apply Fin.ext
  match a with
  | ⟨0, _⟩ => show win5_1.index t (0 : Fin 2) * 512 + 1 * p.val = t.val * 512 + p.val; omega
  | ⟨1, _⟩ => show win5_1.index t (1 : Fin 2) * 1 + 1 * 0 = 0; omega

theorem blk5_2 (c : Dev nD) (t : Fin cfg5.N) (k : Fin 2048) (q : Fin nCol) :
    iblk5 V c 2 t (ix2 k q) = fcm5_0 V c (ix2 k q) := by
  show V c (Pipeline.arrRef spec5 2) (((cfg5.win 2).blk t).view.emb (ix2 k q)) = V c (Pipeline.arrRef spec5 2) (ix2 k q)
  refine congrArg _ ?_
  obtain ⟨-, -, -, -, e0, e1, -⟩ := idxFacts5 t
  funext a; apply Fin.ext
  match a with
  | ⟨0, _⟩ => show win5_2.index t (0 : Fin 2) * 2048 + 1 * k.val = k.val; omega
  | ⟨1, _⟩ => show win5_2.index t (1 : Fin 2) * nCol + 1 * q.val = q.val; omega

theorem blk5_3 (c : Dev nD) (t : Fin cfg5.N) (k : Fin 2048) (q : Fin nCol) :
    iblk5 V c 3 t (ix2 k q) = fcm5_1 V c (ix2 k q) := by
  show V c (Pipeline.arrRef spec5 3) (((cfg5.win 3).blk t).view.emb (ix2 k q)) = V c (Pipeline.arrRef spec5 3) (ix2 k q)
  refine congrArg _ ?_
  obtain ⟨-, -, -, -, -, -, e0, e1, -⟩ := idxFacts5 t
  funext a; apply Fin.ext
  match a with
  | ⟨0, _⟩ => show win5_3.index t (0 : Fin 2) * 2048 + 1 * k.val = k.val; omega
  | ⟨1, _⟩ => show win5_3.index t (1 : Fin 2) * nCol + 1 * q.val = q.val; omega

theorem blk5_4 (c : Dev nD) (t : Fin cfg5.N) (p : Fin 512) (q : Fin nCol) (h : t.val * 512 + p.val < 32768) :
    iblk5 V c 4 t (ix2 p q) = tgt5 V c (ix2 ⟨t.val * 512 + p.val, h⟩ q) := by
  show V c (Pipeline.arrRef spec5 4) (((cfg5.win 4).blk t).view.emb (ix2 p q)) = V c (Pipeline.arrRef spec5 4) (ix2 ⟨t.val * 512 + p.val, h⟩ q)
  refine congrArg _ ?_
  obtain ⟨-, -, -, -, -, -, -, -, e0, e1, -⟩ := idxFacts5 t
  funext a; apply Fin.ext
  match a with
  | ⟨0, _⟩ => show win5_4.index t (0 : Fin 2) * 512 + 1 * p.val = t.val * 512 + p.val; omega
  | ⟨1, _⟩ => show win5_4.index t (1 : Fin 2) * nCol + 1 * q.val = q.val; omega

/-- Row `p` of the update reads the target and the two index columns at row `p` only, and the two matrices whole. -/
private theorem upd_row_congr {m m' k n : ℕ} (T : Spec.Mat m n) (T' : Spec.Mat m' n) (i0 i1 : Fin m → BitVec 32)
    (i0' i1' : Fin m' → BitVec 32) (f0 f1 f0' f1' : Spec.Mat k n) (p : Fin m) (p' : Fin m') (q : Fin n)
    (hT : T p q = T' p' q) (h0 : i0 p = i0' p') (h1 : i1 p = i1' p') (hf0 : f0 = f0') (hf1 : f1 = f1') :
    Spec.upd T (Spec.collect (Spec.tr (Spec.adj k i0)) f0) (Spec.collect (Spec.tr (Spec.adj k i1)) f1) p q
      = Spec.upd T' (Spec.collect (Spec.tr (Spec.adj k i0')) f0') (Spec.collect (Spec.tr (Spec.adj k i1')) f1') p' q := by
  subst hf0 hf1
  unfold Spec.upd Spec.collect Spec.tr Spec.adj
  rw [hT, h0, h1]

/-- The grid has 64 points. -/
theorem gridLt5 (t : Fin cfg5.N) : t.val < 64 := lt_of_lt_of_eq t.isLt N_5

/-- What grid point `t` writes back is block `t` of the whole result. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz5]
  simp only [View.ld_unit_zero (S := S512x1) hz5, View.ld_unit_zero (S := S2048x512) hz5, View.ld_unit_zero (S := S512x512) hz5]
  funext y
  obtain ⟨p, q, rfl⟩ : ∃ (p : Fin 512) (q : Fin nCol), y = ix2 p q := ⟨y 0, y 1, eq_ix2 y⟩
  have ht := gridLt5 t
  have hp : t.val * 512 + p.val < 32768 := by have := p.isLt; omega
  have hemb : (((cfg5.win 5).blk t).view.emb (ix2 p q) : S32768x512.Idx) = ix2 ⟨t.val * 512 + p.val, hp⟩ q := by
    obtain ⟨-, -, -, -, -, -, -, -, -, -, e0, e1⟩ := idxFacts5 t
    funext a; apply Fin.ext
    match a with
    | ⟨0, _⟩ => show win5_5.index t (0 : Fin 2) * 512 + 1 * p.val = t.val * 512 + p.val; omega
    | ⟨1, _⟩ => show win5_5.index t (1 : Fin 2) * nCol + 1 * q.val = q.val; omega
  show k5_pay1 (k5_pay2 (iblk5 V c 4 t)) (k5_pay3 (iblk5 V c 0 t) (iblk5 V c 1 t) (iblk5 V c 2 t) (iblk5 V c 3 t)) (ix2 p q)
    = G5 V c (((cfg5.win 5).blk t).view.emb (ix2 p q))
  refine (payAt5 (iblk5 V c 0 t) (iblk5 V c 1 t) (iblk5 V c 2 t) (iblk5 V c 3 t) (iblk5 V c 4 t) p q).trans ?_
  refine Eq.trans ?_ (congrArg (G5 V c) hemb.symm)
  exact upd_row_congr _ _ _ _ _ _ _ _ _ _ p ⟨t.val * 512 + p.val, hp⟩ q (blk5_4 V c t p q hp) (blk5_0 V c t p hp) (blk5_1 V c t p hp)
    (funext fun a => funext fun b => blk5_2 V c t a b) (funext fun a => funext fun b => blk5_3 V c t a b)

/-- An index of the result is in point `t`'s block exactly when each coordinate is in the block's range. -/
theorem blkMem5 (t : Fin cfg5.N) (i : S32768x512.Idx) :
    i ∈ ((cfg5.win 5).blk t).view.set ↔ ∀ a : Fin 2, win5_5.index t a * S512x512.size a ≤ (i a).val ∧ (i a).val < win5_5.index t a * S512x512.size a + S512x512.size a := by
  show i ∈ ((View.whole (Pipeline.arrRef spec5 5)).slice (win5_5.rect t)).set ↔ _
  rw [View.set_slice_whole, Rect.mem_set_unit]
  exact Iff.rfl

/-- Every index of the result is in some point's block: row `r` is written at point `r / 512`. -/
theorem covered5 (i : S32768x512.Idx) :
    ∃ t : Fin cfg5.N, (cfg5.win 5).flush t = true ∧ i ∈ ((cfg5.win 5).blk t).view.set := by
  have hi0 : (i 0).val < 32768 := (i 0).isLt
  have hi1 : (i 1).val < nCol := (i 1).isLt
  have hN : (i 0).val / 512 < cfg5.N := by rw [show cfg5.N = 64 from N_5]; omega
  obtain ⟨-, -, -, -, -, -, -, -, -, -, e0, e1⟩ := idxFacts5 ⟨(i 0).val / 512, hN⟩
  refine ⟨⟨(i 0).val / 512, hN⟩, flush5_5 _, ?_⟩
  rw [blkMem5]
  intro a
  match a with
  | ⟨0, _⟩ =>
    show win5_5.index ⟨(i 0).val / 512, hN⟩ (0 : Fin 2) * 512 ≤ (i 0).val ∧ (i 0).val < win5_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win5_5.index ⟨(i 0).val / 512, hN⟩ (1 : Fin 2) * nCol ≤ (i 1).val ∧ (i 1).val < win5_5.index ⟨(i 0).val / 512, hN⟩ (1 : Fin 2) * nCol + nCol
    rw [e1]; omega

/-- The result array after the region: the update of the target by the two averaged gathers, read off the arrays as the
    region found them. -/
theorem final5 (c : Dev nD) (i : Fin 32768) (j : Fin nCol) :
    (dat5 (F := Ideal) V c).arrAt 5 cfg5.N (ix2 i j)
      = Spec.upd (fun a b => (V c (Pipeline.arrRef spec5 4) : S32768x512.Idx → EReal) (ix2 a b))
          (Spec.collect (Spec.tr (Spec.adj 2048 (fun r => (V c (Pipeline.arrRef spec5 0) : S32768x1.Idx → BitVec 32) (ix2 r (0 : Fin 1)))))
            (fun a b => (V c (Pipeline.arrRef spec5 2) : S2048x512.Idx → EReal) (ix2 a b)))
          (Spec.collect (Spec.tr (Spec.adj 2048 (fun r => (V c (Pipeline.arrRef spec5 1) : S32768x1.Idx → BitVec 32) (ix2 r (0 : Fin 1)))))
            (fun a b => (V c (Pipeline.arrRef spec5 3) : S2048x512.Idx → EReal) (ix2 a b))) i j := by
  rw [(dat5 (F := Ideal) V c).arrAt_eq_of_cover 5 (G5 V c) (fun t _ => flushed5_eq V c t) (covered5)]
  rfl

end Cert.KernelIdeal.HandV
end
-- ==== Proof.KI.Val6.lean ====
import proofs.«422120_j65652870087589_3_alg».proof.Proof.KI.Reg6
import proofs.«422120_j65652870087589_3_alg».proof.Proof.KI.ValCollect
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators
variable (V : (c : Dev nD) → (b : Ref sig .tc) → Buf (Elt Ideal) ((c : Thread nD τ).loc b))

/-! # Region 6's payloads at an entry (extended reals) -/

theorem hz6 : (![0, 0] : Fin 2 → Nat) = fun _ => 0 := funext fun a => by fin_cases a <;> rfl

/-- A column `[a, 1]` broadcast to `[a, b]` reads, at (p, c), the column at p. -/
theorem broadcastTo_a1_ab_apply_6 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at (i, u), the operand at i. -/
theorem shapeCast_a_a1_apply_6 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The projected, rectified source tile at (l, j): relu(src_l · W[:, j] + b_j). -/
theorem pay8_apply_6 (x2 x3 : Vec Ideal S512x512 .f32) (x4 : Vec Ideal S1x512 .f32) (l j : Fin 512) :
    k6_pay8 (F := Ideal) x2 x3 x4 (ix2 l j) = Spec.relu ((∑ d : Fin 512, x2 (ix2 l d) * x3 (ix2 d j)) + x4 (ix2 0 j)) := by
  unfold k6_pay8 k6_pay7
  simp only [shapeCast_self]
  rw [truncf_apply, maximumf_apply, addf_apply, broadcast_apply, broadcastTo_1b_ab_apply]
  have hd : dot_S512x512_S512x512_S512x512_1_0_0_1_n_n = ⟨[1], [0], [0], [1], [], [], dot_S512x512_S512x512_S512x512_1_0_0_1_n_n_wf⟩ := rfl
  rw [hd, matmul0_plain_apply]
  exact max_zero_eq_relu _

theorem pay9_apply_6 (x2 x5 : Vec Ideal S512x512 .f32) (x6 : Vec Ideal S1x512 .f32) (l j : Fin 512) :
    k6_pay9 (F := Ideal) x2 x5 x6 (ix2 l j) = Spec.relu ((∑ d : Fin 512, x2 (ix2 l d) * x5 (ix2 d j)) + x6 (ix2 0 j)) := by
  unfold k6_pay9 k6_pay7
  simp only [shapeCast_self]
  rw [truncf_apply, maximumf_apply, addf_apply, broadcast_apply, broadcastTo_1b_ab_apply]
  have hd : dot_S512x512_S512x512_S512x512_1_0_0_1_n_n = ⟨[1], [0], [0], [1], [], [], dot_S512x512_S512x512_S512x512_1_0_0_1_n_n_wf⟩ := rfl
  rw [hd, matmul0_plain_apply]
  exact max_zero_eq_relu _

/-- The index row as the comparison takes it. -/
theorem pay11_eq_6 (v : Vec Ideal S1x512 .i32) : k6_pay11 (F := Ideal) v = v := by
  unfold k6_pay11; exact shapeCast_self _ _
theorem pay12_eq_6 (v : Vec Ideal S1x512 .i32) : k6_pay12 (F := Ideal) v = v := by
  unfold k6_pay12; exact shapeCast_self _ _

/-- The first comparison tile at (r, l): 1 exactly when the tile's l-th index word is the number of row r of block row i. -/
theorem hot13_apply_6 (i : grid6.Coords) (x : IVec S1x512 32) (r : Fin 1024) (l : Fin 512) :
    (sitofp .f32 (extui 32 (k6_pay13 (k6_pay10 i) x) natLt_1_32) : FVec Ideal S1024x512 .f32) (ix2 r l)
      = hot (i 0).val r.val (x (ix2 0 l)) := by
  rw [sitofp_apply, extui_apply]
  unfold k6_pay13 k6_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

theorem hot14_apply_6 (i : grid6.Coords) (x : IVec S1x512 32) (r : Fin 1024) (l : Fin 512) :
    (sitofp .f32 (extui 32 (k6_pay14 (k6_pay10 i) x) natLt_1_32) : FVec Ideal S1024x512 .f32) (ix2 r l)
      = hot (i 0).val r.val (x (ix2 0 l)) := by
  rw [sitofp_apply, extui_apply]
  unfold k6_pay14 k6_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

/-- The first weighted sum's update at (r, j): what was there plus the tile's 0/1-weighted sum of the projected rows. -/
theorem pay15_apply_6 (fc : FVec Ideal S512x512 .bf16) (i : grid6.Coords) (x : IVec S1x512 32) (p : Vec Ideal S1024x512 .f32)
    (r : Fin 1024) (j : Fin 512) :
    k6_pay15 (F := Ideal) fc (k6_pay10 i) x p (ix2 r j)
      = p (ix2 r j) + ∑ l : Fin 512, hot (i 0).val r.val (x (ix2 0 l)) * fc (ix2 l j) := by
  unfold k6_pay15
  simp only [shapeCast_self]
  rw [addf_apply]
  have hd : dot_S1024x512_S512x512_S1024x512_1_0_0_1_n_n = ⟨[1], [0], [0], [1], [], [], dot_S1024x512_S512x512_S1024x512_1_0_0_1_n_n_wf⟩ := rfl
  rw [hd, matmul0_plain_apply]
  refine congrArg (p (ix2 r j) + ·) (Finset.sum_congr rfl fun l _ => ?_)
  rw [truncf_apply, hot13_apply_6]

theorem pay16_apply_6 (fc : FVec Ideal S512x512 .bf16) (i : grid6.Coords) (x : IVec S1x512 32) (p : Vec Ideal S1024x512 .f32)
    (r : Fin 1024) (j : Fin 512) :
    k6_pay16 (F := Ideal) fc (k6_pay10 i) x p (ix2 r j)
      = p (ix2 r j) + ∑ l : Fin 512, hot (i 0).val r.val (x (ix2 0 l)) * fc (ix2 l j) := by
  unfold k6_pay16
  simp only [shapeCast_self]
  rw [addf_apply]
  have hd : dot_S1024x512_S512x512_S1024x512_1_0_0_1_n_n = ⟨[1], [0], [0], [1], [], [], dot_S1024x512_S512x512_S1024x512_1_0_0_1_n_n_wf⟩ := rfl
  rw [hd, matmul0_plain_apply]
  refine congrArg (p (ix2 r j) + ·) (Finset.sum_congr rfl fun l _ => ?_)
  rw [truncf_apply, hot14_apply_6]

/-- Row r with lane l put back on the summed axis is (r, l). -/
theorem lift_lane_6 (r : Fin 1024) (l : Fin 512) : reduces_S1024x512_S1024.lift (ix1 r) l = ix2 r l :=
  funext fun a => Fin.ext (match a with | ⟨0, _⟩ => rfl | ⟨1, _⟩ => rfl)

/-- The first row count's update at (r, 0): what was there plus the number of the tile's index words naming row r. -/
theorem pay17_apply_6 (i : grid6.Coords) (x : IVec S1x512 32) (p : Vec Ideal S1024x1 .f32) (r : Fin 1024) :
    k6_pay17 (F := Ideal) (k6_pay10 i) x p (ix2 r 0) = p (ix2 r 0) + ∑ l : Fin 512, hot (i 0).val r.val (x (ix2 0 l)) := by
  unfold k6_pay17
  simp only [shapeCast_self]
  rw [addf_apply, shapeCast_a_a1_apply_6]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k6_pay13 (k6_pay10 i) x) natLt_1_32) : FVec Ideal S1024x512 .f32) (lift_lane_6 r l)).trans
    (hot13_apply_6 i x r l)

theorem pay18_apply_6 (i : grid6.Coords) (x : IVec S1x512 32) (p : Vec Ideal S1024x1 .f32) (r : Fin 1024) :
    k6_pay1 (F := Ideal) (k6_pay18 (k6_pay10 i) x p) (ix2 r 0) = p (ix2 r 0) + ∑ l : Fin 512, hot (i 0).val r.val (x (ix2 0 l)) := by
  unfold k6_pay1 k6_pay18
  simp only [shapeCast_self]
  rw [addf_apply, shapeCast_a_a1_apply_6]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k6_pay14 (k6_pay10 i) x) natLt_1_32) : FVec Ideal S1024x512 .f32) (lift_lane_6 r l)).trans
    (hot14_apply_6 i x r l)

/-- The finalize payload at (r, j): target + ½ (a₀ / (d₀ + ε) + a₁ / (d₁ + ε)). -/
theorem pay2_apply_6 (a0 : Vec Ideal S1024x512 .f32) (d0 : Vec Ideal S1024x1 .f32) (a1 : Vec Ideal S1024x512 .f32)
    (d1 : Vec Ideal S1024x1 .f32) (x7 : Vec Ideal S1024x512 .f32) (r : Fin 1024) (j : Fin 512) :
    k6_pay2 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold k6_pay2
  simp only [shapeCast_self]
  rw [addf_apply, mulf_apply, addf_apply, divf_apply, divf_apply, broadcastTo_a1_ab_apply_6, broadcastTo_a1_ab_apply_6,
    addf_apply, addf_apply]
  rfl

/-! # One point's contribution to the four running sums, at an entry -/

/-- The zero the first point of a row block starts each sum from. -/
theorem pay3_apply_6 (y : S1024x512.Idx) : k6_pay3 (F := Ideal) y = 0 := by
  unfold k6_pay3; simp only [shapeCast_self]; exact Ideal.ofBits_zero_f32
theorem pay4_apply_6 (y : S1024x512.Idx) : k6_pay4 (F := Ideal) y = 0 := by
  unfold k6_pay4; simp only [shapeCast_self]; exact Ideal.ofBits_zero_f32
theorem pay5_apply_6 (y : S1024x1.Idx) : k6_pay5 (F := Ideal) y = 0 := by
  unfold k6_pay5; simp only [shapeCast_self]; exact Ideal.ofBits_zero_f32
theorem pay6_apply_6 (y : S1024x1.Idx) : k6_pay6 (F := Ideal) y = 0 := by
  unfold k6_pay6; simp only [shapeCast_self]; exact Ideal.ofBits_zero_f32

/-- The projected, rectified source tile at (l, j): relu(src_l · W[:, j] + b_j). -/
def fcAt_6 (x2 xW : Vec Ideal S512x512 .f32) (xb : Vec Ideal S1x512 .f32) (l j : Fin 512) : EReal :=
  Spec.relu ((∑ d : Fin 512, x2 (ix2 l d) * xW (ix2 d j)) + xb (ix2 0 j))

/-- The tile's addend to a weighted sum at (r, j): Σ_l [idx_l names row r of block row i] · relu(src_l · W[:, j] + b_j). -/
def addW_6 (i : ℕ) (x : Vec Ideal S1x512 .i32) (x2 xW : Vec Ideal S512x512 .f32) (xb : Vec Ideal S1x512 .f32)
    (r : Fin 1024) (j : Fin 512) : EReal :=
  ∑ l : Fin 512, hot i r.val (x (ix2 0 l)) * fcAt_6 x2 xW xb l j

/-- The tile's addend to a row count at r: the number of its index words naming row r of block row i. -/
def addC_6 (i : ℕ) (x : Vec Ideal S1x512 .i32) (r : Fin 1024) : EReal := ∑ l : Fin 512, hot i r.val (x (ix2 0 l))

theorem acc6_0_apply (i : grid6.Coords) (x0 : Vec Ideal S1x512 .i32) (x2 x3 : Vec Ideal S512x512 .f32) (x4 : Vec Ideal S1x512 .f32)
    (p : Vec Ideal S1024x512 .f32) (r : Fin 1024) (j : Fin 512) :
    acc6_0 (F := Ideal) i x0 x2 x3 x4 p (ix2 r j) = p (ix2 r j) + addW_6 (i 0).val x0 x2 x3 x4 r j := by
  unfold acc6_0
  rw [View.canon_unit_zero hz6]
  simp only [View.ld_unit_zero (S := S1x512) hz6, View.ld_unit_zero (S := S512x512) hz6, pay11_eq_6]
  rw [pay15_apply_6]
  refine congrArg (p (ix2 r j) + ·) (Finset.sum_congr rfl fun l _ => ?_)
  rw [pay8_apply_6]
  rfl

theorem acc6_1_apply (i : grid6.Coords) (x1 : Vec Ideal S1x512 .i32) (x2 x5 : Vec Ideal S512x512 .f32) (x6 : Vec Ideal S1x512 .f32)
    (p : Vec Ideal S1024x512 .f32) (r : Fin 1024) (j : Fin 512) :
    acc6_1 (F := Ideal) i x1 x2 x5 x6 p (ix2 r j) = p (ix2 r j) + addW_6 (i 0).val x1 x2 x5 x6 r j := by
  unfold acc6_1
  rw [View.canon_unit_zero hz6]
  simp only [View.ld_unit_zero (S := S1x512) hz6, View.ld_unit_zero (S := S512x512) hz6, pay12_eq_6]
  rw [pay16_apply_6]
  refine congrArg (p (ix2 r j) + ·) (Finset.sum_congr rfl fun l _ => ?_)
  rw [pay9_apply_6]
  rfl

theorem acc6_2_apply (i : grid6.Coords) (x0 : Vec Ideal S1x512 .i32) (p : Vec Ideal S1024x1 .f32) (r : Fin 1024) :
    acc6_2 (F := Ideal) i x0 p (ix2 r 0) = p (ix2 r 0) + addC_6 (i 0).val x0 r := by
  unfold acc6_2
  rw [View.canon_unit_zero hz6]
  simp only [View.ld_unit_zero (S := S1x512) hz6, pay11_eq_6]
  exact pay17_apply_6 i x0 p r

theorem acc6_3_apply (i : grid6.Coords) (x1 : Vec Ideal S1x512 .i32) (p : Vec Ideal S1024x1 .f32) (r : Fin 1024) :
    acc6_3 (F := Ideal) i x1 p (ix2 r 0) = p (ix2 r 0) + addC_6 (i 0).val x1 r := by
  unfold acc6_3
  rw [View.canon_unit_zero hz6]
  simp only [View.ld_unit_zero (S := S1x512) hz6, pay12_eq_6]
  exact pay18_apply_6 i x1 p r

theorem out6_8_apply (a0 : Vec Ideal S1024x512 .f32) (d0 : Vec Ideal S1024x1 .f32) (a1 : Vec Ideal S1024x512 .f32)
    (d1 : Vec Ideal S1024x1 .f32) (x7 : Vec Ideal S1024x512 .f32) (r : Fin 1024) (j : Fin 512) :
    out6_8 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold out6_8
  rw [View.canon_unit_zero hz6]
  simp only [View.ld_unit_zero (S := S1024x512) hz6, View.ld_unit_zero (S := S1024x1) hz6]
  exact pay2_apply_6 a0 d0 a1 d1 x7 r j

/-! # The four sums after each point: the sum of the addends of the run so far -/

/-- Point `m`'s addends (zero past the grid, where they are never used). -/
def M6_0 (c : Dev nD) (m : ℕ) (r : Fin 1024) (j : Fin 512) : EReal :=
  if h : m < cfg6.N then addW_6 (grid6.coords ⟨m, h⟩ 0).val (iblk6 V c 0 ⟨m, h⟩) (iblk6 V c 2 ⟨m, h⟩) (iblk6 V c 3 ⟨m, h⟩) (iblk6 V c 4 ⟨m, h⟩) r j else 0
def M6_1 (c : Dev nD) (m : ℕ) (r : Fin 1024) (j : Fin 512) : EReal :=
  if h : m < cfg6.N then addW_6 (grid6.coords ⟨m, h⟩ 0).val (iblk6 V c 1 ⟨m, h⟩) (iblk6 V c 2 ⟨m, h⟩) (iblk6 V c 5 ⟨m, h⟩) (iblk6 V c 6 ⟨m, h⟩) r j else 0
def M6_2 (c : Dev nD) (m : ℕ) (r : Fin 1024) : EReal :=
  if h : m < cfg6.N then addC_6 (grid6.coords ⟨m, h⟩ 0).val (iblk6 V c 0 ⟨m, h⟩) r else 0
def M6_3 (c : Dev nD) (m : ℕ) (r : Fin 1024) : EReal :=
  if h : m < cfg6.N then addC_6 (grid6.coords ⟨m, h⟩ 0).val (iblk6 V c 1 ⟨m, h⟩) r else 0

/-- THE ACCUMULATOR INVARIANT, first weighted sum: after point `n` the running-sum array holds, at (r, j), the sum of the
    addends of the points `64 (n / 64) … n` of its row block. -/
theorem scr6_0_eq (c : Dev nD) (r : Fin 1024) (j : Fin 512) (n : ℕ) (h : n < cfg6.N) :
    (scrAt6 V c n h).1 (ix2 r j) = ∑ s ∈ Finset.range (n % 64 + 1), M6_0 V c (64 * (n / 64) + s) r j := by
  refine fold64 (fun n h => (scrAt6 V c n h).1 (ix2 r j)) (fun m => M6_0 V c m r j) ?_ ?_ n h
  · intro n h hm
    have e := congrArg Prod.fst (scrAt6_first V c ⟨n, h⟩ hm)
    dsimp only at e
    show (scrAt6 V c n h).1 (ix2 r j) = M6_0 V c n r j
    rw [e, acc6_0_apply, pay3_apply_6, zero_add]
    unfold M6_0; rw [dif_pos h]
  · intro n h hm
    have e := congrArg Prod.fst (scrAt6_next V c ⟨n + 1, h⟩ hm)
    dsimp only at e
    show (scrAt6 V c (n + 1) h).1 (ix2 r j) = (scrAt6 V c n (Nat.lt_of_succ_lt h)).1 (ix2 r j) + M6_0 V c (n + 1) r j
    rw [e, acc6_0_apply, View.ld_unit_zero (S := S1024x512) hz6]
    unfold M6_0; rw [dif_pos h]
    rfl

/-- The second weighted sum likewise. -/
theorem scr6_1_eq (c : Dev nD) (r : Fin 1024) (j : Fin 512) (n : ℕ) (h : n < cfg6.N) :
    (scrAt6 V c n h).2.1 (ix2 r j) = ∑ s ∈ Finset.range (n % 64 + 1), M6_1 V c (64 * (n / 64) + s) r j := by
  refine fold64 (fun n h => (scrAt6 V c n h).2.1 (ix2 r j)) (fun m => M6_1 V c m r j) ?_ ?_ n h
  · intro n h hm
    have e := congrArg (fun q => q.2.1) (scrAt6_first V c ⟨n, h⟩ hm)
    dsimp only at e
    show (scrAt6 V c n h).2.1 (ix2 r j) = M6_1 V c n r j
    rw [e, acc6_1_apply, pay4_apply_6, zero_add]
    unfold M6_1; rw [dif_pos h]
  · intro n h hm
    have e := congrArg (fun q => q.2.1) (scrAt6_next V c ⟨n + 1, h⟩ hm)
    dsimp only at e
    show (scrAt6 V c (n + 1) h).2.1 (ix2 r j) = (scrAt6 V c n (Nat.lt_of_succ_lt h)).2.1 (ix2 r j) + M6_1 V c (n + 1) r j
    rw [e, acc6_1_apply, View.ld_unit_zero (S := S1024x512) hz6]
    unfold M6_1; rw [dif_pos h]
    rfl

/-- The first row count likewise. -/
theorem scr6_2_eq (c : Dev nD) (r : Fin 1024) (n : ℕ) (h : n < cfg6.N) :
    (scrAt6 V c n h).2.2.1 (ix2 r 0) = ∑ s ∈ Finset.range (n % 64 + 1), M6_2 V c (64 * (n / 64) + s) r := by
  refine fold64 (fun n h => (scrAt6 V c n h).2.2.1 (ix2 r 0)) (fun m => M6_2 V c m r) ?_ ?_ n h
  · intro n h hm
    have e := congrArg (fun q => q.2.2.1) (scrAt6_first V c ⟨n, h⟩ hm)
    dsimp only at e
    show (scrAt6 V c n h).2.2.1 (ix2 r 0) = M6_2 V c n r
    rw [e, acc6_2_apply, pay5_apply_6, zero_add]
    unfold M6_2; rw [dif_pos h]
  · intro n h hm
    have e := congrArg (fun q => q.2.2.1) (scrAt6_next V c ⟨n + 1, h⟩ hm)
    dsimp only at e
    show (scrAt6 V c (n + 1) h).2.2.1 (ix2 r 0) = (scrAt6 V c n (Nat.lt_of_succ_lt h)).2.2.1 (ix2 r 0) + M6_2 V c (n + 1) r
    rw [e, acc6_2_apply, View.ld_unit_zero (S := S1024x1) hz6]
    unfold M6_2; rw [dif_pos h]
    rfl

/-- The second row count likewise. -/
theorem scr6_3_eq (c : Dev nD) (r : Fin 1024) (n : ℕ) (h : n < cfg6.N) :
    (scrAt6 V c n h).2.2.2 (ix2 r 0) = ∑ s ∈ Finset.range (n % 64 + 1), M6_3 V c (64 * (n / 64) + s) r := by
  refine fold64 (fun n h => (scrAt6 V c n h).2.2.2 (ix2 r 0)) (fun m => M6_3 V c m r) ?_ ?_ n h
  · intro n h hm
    have e := congrArg (fun q => q.2.2.2) (scrAt6_first V c ⟨n, h⟩ hm)
    dsimp only at e
    show (scrAt6 V c n h).2.2.2 (ix2 r 0) = M6_3 V c n r
    rw [e, acc6_3_apply, pay6_apply_6, zero_add]
    unfold M6_3; rw [dif_pos h]
  · intro n h hm
    have e := congrArg (fun q => q.2.2.2) (scrAt6_next V c ⟨n + 1, h⟩ hm)
    dsimp only at e
    show (scrAt6 V c (n + 1) h).2.2.2 (ix2 r 0) = (scrAt6 V c n (Nat.lt_of_succ_lt h)).2.2.2 (ix2 r 0) + M6_3 V c (n + 1) r
    rw [e, acc6_3_apply, View.ld_unit_zero (S := S1024x1) hz6]
    unfold M6_3; rw [dif_pos h]
    rfl

/-! # The blocks as entries of the arrays the region finds -/

/-- The coordinates and the windows' block indices at point `t`, in closed form (decided over the 128 points). -/
theorem idx_facts6 : ∀ t : Fin cfg6.N,
    (grid6.coords t 0).val = t.val / 64
    ∧ win6_0.index t (0 : Fin 2) = 0 ∧ win6_0.index t (1 : Fin 2) = t.val % 64
    ∧ win6_1.index t (0 : Fin 2) = 0 ∧ win6_1.index t (1 : Fin 2) = t.val % 64
    ∧ win6_2.index t (0 : Fin 2) = t.val % 64 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val / 64 ∧ win6_7.index t (1 : Fin 2) = 0
    ∧ win6_8.index t (0 : Fin 2) = t.val / 64 ∧ win6_8.index t (1 : Fin 2) = 0 :=
  (by decide +kernel : ∀ t : Fin grid6.N, _)

/-- The entry arrays as index vectors, matrices and bias vectors. -/
abbrev idxA6_0 (c : Dev nD) : Fin 32768 → BitVec 32 := fun R => (V c (Pipeline.arrRef spec6 0) : S1x32768.Idx → BitVec 32) (ix2 0 R)
abbrev idxA6_1 (c : Dev nD) : Fin 32768 → BitVec 32 := fun R => (V c (Pipeline.arrRef spec6 1) : S1x32768.Idx → BitVec 32) (ix2 0 R)
abbrev srcA6 (c : Dev nD) : Spec.Mat 32768 512 := fun a b => (V c (Pipeline.arrRef spec6 2) : S32768x512.Idx → EReal) (ix2 a b)
abbrev WA6_0 (c : Dev nD) : Spec.Mat 512 512 := fun a b => (V c (Pipeline.arrRef spec6 3) : S512x512.Idx → EReal) (ix2 a b)
abbrev bA6_0 (c : Dev nD) : Fin 512 → EReal := fun b => (V c (Pipeline.arrRef spec6 4) : S1x512.Idx → EReal) (ix2 0 b)
abbrev WA6_1 (c : Dev nD) : Spec.Mat 512 512 := fun a b => (V c (Pipeline.arrRef spec6 5) : S512x512.Idx → EReal) (ix2 a b)
abbrev bA6_1 (c : Dev nD) : Fin 512 → EReal := fun b => (V c (Pipeline.arrRef spec6 6) : S1x512.Idx → EReal) (ix2 0 b)
abbrev TA6 (c : Dev nD) : Spec.Mat 2048 512 := fun a b => (V c (Pipeline.arrRef spec6 7) : S2048x512.Idx → EReal) (ix2 a b)

theorem iblk6_0_apply (c : Dev nD) (t : Fin cfg6.N) (l : Fin 512) (R : Fin 32768) (hR : R.val = 512 * (t.val % 64) + l.val) :
    iblk6 V c 0 t (ix2 0 l) = idxA6_0 V c R := by
  obtain ⟨-, e0, e1, -⟩ := idx_facts6 t
  show V c (Pipeline.arrRef spec6 0) (((cfg6.win 0).blk t).view.emb (ix2 0 l)) = V c (Pipeline.arrRef spec6 0) (ix2 0 R)
  congr 1
  funext a; apply Fin.ext
  match a with
  | ⟨0, _⟩ => show win6_0.index t (0 : Fin 2) * 1 + 1 * 0 = 0; rw [e0]
  | ⟨1, _⟩ => show win6_0.index t (1 : Fin 2) * 512 + 1 * l.val = R.val; rw [e1, hR]; omega

theorem iblk6_1_apply (c : Dev nD) (t : Fin cfg6.N) (l : Fin 512) (R : Fin 32768) (hR : R.val = 512 * (t.val % 64) + l.val) :
    iblk6 V c 1 t (ix2 0 l) = idxA6_1 V c R := by
  obtain ⟨-, -, -, e0, e1, -⟩ := idx_facts6 t
  show V c (Pipeline.arrRef spec6 1) (((cfg6.win 1).blk t).view.emb (ix2 0 l)) = V c (Pipeline.arrRef spec6 1) (ix2 0 R)
  congr 1
  funext a; apply Fin.ext
  match a with
  | ⟨0, _⟩ => show win6_1.index t (0 : Fin 2) * 1 + 1 * 0 = 0; rw [e0]
  | ⟨1, _⟩ => show win6_1.index t (1 : Fin 2) * 512 + 1 * l.val = R.val; rw [e1, hR]; omega

theorem iblk6_2_apply (c : Dev nD) (t : Fin cfg6.N) (l d : Fin 512) (R : Fin 32768) (hR : R.val = 512 * (t.val % 64) + l.val) :
    iblk6 V c 2 t (ix2 l d) = srcA6 V c R d := by
  obtain ⟨-, -, -, -, -, e0, e1, -⟩ := idx_facts6 t
  show V c (Pipeline.arrRef spec6 2) (((cfg6.win 2).blk t).view.emb (ix2 l d)) = V c (Pipeline.arrRef spec6 2) (ix2 R d)
  congr 1
  funext a; apply Fin.ext
  match a with
  | ⟨0, _⟩ => show win6_2.index t (0 : Fin 2) * 512 + 1 * l.val = R.val; rw [e0, hR]; omega
  | ⟨1, _⟩ => show win6_2.index t (1 : Fin 2) * 512 + 1 * d.val = d.val; rw [e1]; omega

theorem iblk6_3_apply (c : Dev nD) (t : Fin cfg6.N) (d j : Fin 512) : iblk6 V c 3 t (ix2 d j) = WA6_0 V c d j := by
  obtain ⟨-, -, -, -, -, -, -, e0, e1, -⟩ := idx_facts6 t
  show V c (Pipeline.arrRef spec6 3) (((cfg6.win 3).blk t).view.emb (ix2 d j)) = V c (Pipeline.arrRef spec6 3) (ix2 d j)
  congr 1
  funext a; apply Fin.ext
  match a with
  | ⟨0, _⟩ => show win6_3.index t (0 : Fin 2) * 512 + 1 * d.val = d.val; rw [e0]; omega
  | ⟨1, _⟩ => show win6_3.index t (1 : Fin 2) * 512 + 1 * j.val = j.val; rw [e1]; omega

theorem iblk6_4_apply (c : Dev nD) (t : Fin cfg6.N) (j : Fin 512) : iblk6 V c 4 t (ix2 0 j) = bA6_0 V c j := by
  obtain ⟨-, -, -, -, -, -, -, -, -, e0, e1, -⟩ := idx_facts6 t
  show V c (Pipeline.arrRef spec6 4) (((cfg6.win 4).blk t).view.emb (ix2 0 j)) = V c (Pipeline.arrRef spec6 4) (ix2 0 j)
  congr 1
  funext a; apply Fin.ext
  match a with
  | ⟨0, _⟩ => show win6_4.index t (0 : Fin 2) * 1 + 1 * 0 = 0; rw [e0]
  | ⟨1, _⟩ => show win6_4.index t (1 : Fin 2) * 512 + 1 * j.val = j.val; rw [e1]; omega

theorem iblk6_5_apply (c : Dev nD) (t : Fin cfg6.N) (d j : Fin 512) : iblk6 V c 5 t (ix2 d j) = WA6_1 V c d j := by
  obtain ⟨-, -, -, -, -, -, -, -, -, -, -, e0, e1, -⟩ := idx_facts6 t
  show V c (Pipeline.arrRef spec6 5) (((cfg6.win 5).blk t).view.emb (ix2 d j)) = V c (Pipeline.arrRef spec6 5) (ix2 d j)
  congr 1
  funext a; apply Fin.ext
  match a with
  | ⟨0, _⟩ => show win6_5.index t (0 : Fin 2) * 512 + 1 * d.val = d.val; rw [e0]; omega
  | ⟨1, _⟩ => show win6_5.index t (1 : Fin 2) * 512 + 1 * j.val = j.val; rw [e1]; omega

theorem iblk6_6_apply (c : Dev nD) (t : Fin cfg6.N) (j : Fin 512) : iblk6 V c 6 t (ix2 0 j) = bA6_1 V c j := by
  obtain ⟨-, -, -, -, -, -, -, -, -, -, -, -, -, e0, e1, -⟩ := idx_facts6 t
  show V c (Pipeline.arrRef spec6 6) (((cfg6.win 6).blk t).view.emb (ix2 0 j)) = V c (Pipeline.arrRef spec6 6) (ix2 0 j)
  congr 1
  funext a; apply Fin.ext
  match a with
  | ⟨0, _⟩ => show win6_6.index t (0 : Fin 2) * 1 + 1 * 0 = 0; rw [e0]
  | ⟨1, _⟩ => show win6_6.index t (1 : Fin 2) * 512 + 1 * j.val = j.val; rw [e1]; omega

theorem iblk6_7_apply (c : Dev nD) (t : Fin cfg6.N) (r : Fin 1024) (j : Fin 512) (I : Fin 2048) (hI : I.val = 1024 * (t.val / 64) + r.val) :
    iblk6 V c 7 t (ix2 r j) = TA6 V c I j := by
  obtain ⟨-, -, -, -, -, -, -, -, -, -, -, -, -, -, -, e0, e1, -⟩ := idx_facts6 t
  show V c (Pipeline.arrRef spec6 7) (((cfg6.win 7).blk t).view.emb (ix2 r j)) = V c (Pipeline.arrRef spec6 7) (ix2 I j)
  congr 1
  funext a; apply Fin.ext
  match a with
  | ⟨0, _⟩ => show win6_7.index t (0 : Fin 2) * 1024 + 1 * r.val = I.val; rw [e0, hI]; omega
  | ⟨1, _⟩ => show win6_7.index t (1 : Fin 2) * 512 + 1 * j.val = j.val; rw [e1]; omega

/-! # The four sums at the last point of a row block: sums over all the relations -/

/-- A relation's term of a weighted sum and of a row count (zero past the relations, where they are never used). -/
def termW_6 (idx : Fin 32768 → BitVec 32) (fc : Spec.Mat 32768 512) (i : ℕ) (r : Fin 1024) (j : Fin 512) (R : ℕ) : EReal :=
  if h : R < 32768 then hot i r.val (idx ⟨R, h⟩) * fc ⟨R, h⟩ j else 0
def termC_6 (idx : Fin 32768 → BitVec 32) (i : ℕ) (r : Fin 1024) (R : ℕ) : EReal :=
  if h : R < 32768 then hot i r.val (idx ⟨R, h⟩) else 0

/-- The projected, rectified source tile of point `t` is rows `512 (t % 64) …` of relu(src · W + b). -/
theorem fcTile6_0 (c : Dev nD) (t : Fin cfg6.N) (l j : Fin 512) (R : Fin 32768) (hR : R.val = 512 * (t.val % 64) + l.val) :
    fcAt_6 (iblk6 V c 2 t) (iblk6 V c 3 t) (iblk6 V c 4 t) l j = Spec.linRelu (srcA6 V c) (WA6_0 V c) (bA6_0 V c) R j := by
  unfold fcAt_6 Spec.linRelu Spec.lin
  rw [iblk6_4_apply]
  refine congrArg (fun z => Spec.relu (z + bA6_0 V c j)) (Finset.sum_congr rfl fun d _ => ?_)
  rw [iblk6_2_apply V c t l d R hR, iblk6_3_apply]

theorem fcTile6_1 (c : Dev nD) (t : Fin cfg6.N) (l j : Fin 512) (R : Fin 32768) (hR : R.val = 512 * (t.val % 64) + l.val) :
    fcAt_6 (iblk6 V c 2 t) (iblk6 V c 5 t) (iblk6 V c 6 t) l j = Spec.linRelu (srcA6 V c) (WA6_1 V c) (bA6_1 V c) R j := by
  unfold fcAt_6 Spec.linRelu Spec.lin
  rw [iblk6_6_apply]
  refine congrArg (fun z => Spec.relu (z + bA6_1 V c j)) (Finset.sum_congr rfl fun d _ => ?_)
  rw [iblk6_2_apply V c t l d R hR, iblk6_5_apply]

/-- Point `m`'s addends over the arrays: the terms of the relations of tile `m % 64`, at block row `m / 64`. -/
theorem M6_0_eq (c : Dev nD) (m : ℕ) (h : m < cfg6.N) (r : Fin 1024) (j : Fin 512) :
    M6_0 V c m r j = ∑ l : Fin 512, termW_6 (idxA6_0 V c) (Spec.linRelu (srcA6 V c) (WA6_0 V c) (bA6_0 V c)) (m / 64) r j (512 * (m % 64) + l.val) := by
  have ec : (grid6.coords ⟨m, h⟩ 0).val = m / 64 := (idx_facts6 ⟨m, h⟩).1
  unfold M6_0; rw [dif_pos h]
  unfold addW_6; rw [ec]
  refine Finset.sum_congr rfl fun l _ => ?_
  have hl : 512 * (m % 64) + l.val < 32768 := by have := l.isLt; omega
  unfold termW_6; rw [dif_pos hl]
  rw [iblk6_0_apply V c ⟨m, h⟩ l ⟨_, hl⟩ rfl, fcTile6_0 V c ⟨m, h⟩ l j ⟨_, hl⟩ rfl]

theorem M6_1_eq (c : Dev nD) (m : ℕ) (h : m < cfg6.N) (r : Fin 1024) (j : Fin 512) :
    M6_1 V c m r j = ∑ l : Fin 512, termW_6 (idxA6_1 V c) (Spec.linRelu (srcA6 V c) (WA6_1 V c) (bA6_1 V c)) (m / 64) r j (512 * (m % 64) + l.val) := by
  have ec : (grid6.coords ⟨m, h⟩ 0).val = m / 64 := (idx_facts6 ⟨m, h⟩).1
  unfold M6_1; rw [dif_pos h]
  unfold addW_6; rw [ec]
  refine Finset.sum_congr rfl fun l _ => ?_
  have hl : 512 * (m % 64) + l.val < 32768 := by have := l.isLt; omega
  unfold termW_6; rw [dif_pos hl]
  rw [iblk6_1_apply V c ⟨m, h⟩ l ⟨_, hl⟩ rfl, fcTile6_1 V c ⟨m, h⟩ l j ⟨_, hl⟩ rfl]

theorem M6_2_eq (c : Dev nD) (m : ℕ) (h : m < cfg6.N) (r : Fin 1024) :
    M6_2 V c m r = ∑ l : Fin 512, termC_6 (idxA6_0 V c) (m / 64) r (512 * (m % 64) + l.val) := by
  have ec : (grid6.coords ⟨m, h⟩ 0).val = m / 64 := (idx_facts6 ⟨m, h⟩).1
  unfold M6_2; rw [dif_pos h]
  unfold addC_6; rw [ec]
  refine Finset.sum_congr rfl fun l _ => ?_
  have hl : 512 * (m % 64) + l.val < 32768 := by have := l.isLt; omega
  unfold termC_6; rw [dif_pos hl]
  rw [iblk6_0_apply V c ⟨m, h⟩ l ⟨_, hl⟩ rfl]

theorem M6_3_eq (c : Dev nD) (m : ℕ) (h : m < cfg6.N) (r : Fin 1024) :
    M6_3 V c m r = ∑ l : Fin 512, termC_6 (idxA6_1 V c) (m / 64) r (512 * (m % 64) + l.val) := by
  have ec : (grid6.coords ⟨m, h⟩ 0).val = m / 64 := (idx_facts6 ⟨m, h⟩).1
  unfold M6_3; rw [dif_pos h]
  unfold addC_6; rw [ec]
  refine Finset.sum_congr rfl fun l _ => ?_
  have hl : 512 * (m % 64) + l.val < 32768 := by have := l.isLt; omega
  unfold termC_6; rw [dif_pos hl]
  rw [iblk6_1_apply V c ⟨m, h⟩ l ⟨_, hl⟩ rfl]

/-- AT THE LAST POINT OF A ROW BLOCK the first weighted sum at (r, j) is the adjacency-weighted sum, over all the
    relations, of the projected rows: the 64 tiles of 512 relations are the 32768 relations. -/
theorem scrF6_0 (c : Dev nD) (t : Fin cfg6.N) (h63 : t.val % 64 = 63) (r : Fin 1024) (j : Fin 512)
    (hI : 1024 * (t.val / 64) + r.val < 2048) :
    scr6_0 V c t (ix2 r j) = ∑ R : Fin 32768, Spec.adj 2048 (idxA6_0 V c) ⟨1024 * (t.val / 64) + r.val, hI⟩ R
        * Spec.linRelu (srcA6 V c) (WA6_0 V c) (bA6_0 V c) R j := by
  have hN : cfg6.N = 128 := N_6
  have ht := t.isLt
  have key : ∀ s ∈ Finset.range 64, M6_0 V c (64 * (t.val / 64) + s) r j
      = ∑ l : Fin 512, termW_6 (idxA6_0 V c) (Spec.linRelu (srcA6 V c) (WA6_0 V c) (bA6_0 V c)) (t.val / 64) r j (512 * s + l.val) := fun s hs => by
    have hs' : s < 64 := Finset.mem_range.mp hs
    rw [M6_0_eq V c (64 * (t.val / 64) + s) (by omega) r j,
      show (64 * (t.val / 64) + s) / 64 = t.val / 64 by omega, show (64 * (t.val / 64) + s) % 64 = s by omega]
  unfold scr6_0
  rw [scr6_0_eq, h63, Finset.sum_congr rfl key]
  refine (sum_tiles 64 512 _).trans (Finset.sum_congr rfl fun R _ => ?_)
  unfold termW_6; rw [dif_pos (show R.val < 32768 from R.isLt)]
  rfl

theorem scrF6_1 (c : Dev nD) (t : Fin cfg6.N) (h63 : t.val % 64 = 63) (r : Fin 1024) (j : Fin 512)
    (hI : 1024 * (t.val / 64) + r.val < 2048) :
    scr6_1 V c t (ix2 r j) = ∑ R : Fin 32768, Spec.adj 2048 (idxA6_1 V c) ⟨1024 * (t.val / 64) + r.val, hI⟩ R
        * Spec.linRelu (srcA6 V c) (WA6_1 V c) (bA6_1 V c) R j := by
  have hN : cfg6.N = 128 := N_6
  have ht := t.isLt
  have key : ∀ s ∈ Finset.range 64, M6_1 V c (64 * (t.val / 64) + s) r j
      = ∑ l : Fin 512, termW_6 (idxA6_1 V c) (Spec.linRelu (srcA6 V c) (WA6_1 V c) (bA6_1 V c)) (t.val / 64) r j (512 * s + l.val) := fun s hs => by
    have hs' : s < 64 := Finset.mem_range.mp hs
    rw [M6_1_eq V c (64 * (t.val / 64) + s) (by omega) r j,
      show (64 * (t.val / 64) + s) / 64 = t.val / 64 by omega, show (64 * (t.val / 64) + s) % 64 = s by omega]
  unfold scr6_1
  rw [scr6_1_eq, h63, Finset.sum_congr rfl key]
  refine (sum_tiles 64 512 _).trans (Finset.sum_congr rfl fun R _ => ?_)
  unfold termW_6; rw [dif_pos (show R.val < 32768 from R.isLt)]
  rfl

/-- The first row count there: the row's degree in the first adjacency. -/
theorem scrF6_2 (c : Dev nD) (t : Fin cfg6.N) (h63 : t.val % 64 = 63) (r : Fin 1024)
    (hI : 1024 * (t.val / 64) + r.val < 2048) :
    scr6_2 V c t (ix2 r 0) = ∑ R : Fin 32768, Spec.adj 2048 (idxA6_0 V c) ⟨1024 * (t.val / 64) + r.val, hI⟩ R := by
  have hN : cfg6.N = 128 := N_6
  have ht := t.isLt
  have key : ∀ s ∈ Finset.range 64, M6_2 V c (64 * (t.val / 64) + s) r
      = ∑ l : Fin 512, termC_6 (idxA6_0 V c) (t.val / 64) r (512 * s + l.val) := fun s hs => by
    have hs' : s < 64 := Finset.mem_range.mp hs
    rw [M6_2_eq V c (64 * (t.val / 64) + s) (by omega) r,
      show (64 * (t.val / 64) + s) / 64 = t.val / 64 by omega, show (64 * (t.val / 64) + s) % 64 = s by omega]
  unfold scr6_2
  rw [scr6_2_eq, h63, Finset.sum_congr rfl key]
  refine (sum_tiles 64 512 _).trans (Finset.sum_congr rfl fun R _ => ?_)
  unfold termC_6; rw [dif_pos (show R.val < 32768 from R.isLt)]
  rfl

theorem scrF6_3 (c : Dev nD) (t : Fin cfg6.N) (h63 : t.val % 64 = 63) (r : Fin 1024)
    (hI : 1024 * (t.val / 64) + r.val < 2048) :
    scr6_3 V c t (ix2 r 0) = ∑ R : Fin 32768, Spec.adj 2048 (idxA6_1 V c) ⟨1024 * (t.val / 64) + r.val, hI⟩ R := by
  have hN : cfg6.N = 128 := N_6
  have ht := t.isLt
  have key : ∀ s ∈ Finset.range 64, M6_3 V c (64 * (t.val / 64) + s) r
      = ∑ l : Fin 512, termC_6 (idxA6_1 V c) (t.val / 64) r (512 * s + l.val) := fun s hs => by
    have hs' : s < 64 := Finset.mem_range.mp hs
    rw [M6_3_eq V c (64 * (t.val / 64) + s) (by omega) r,
      show (64 * (t.val / 64) + s) / 64 = t.val / 64 by omega, show (64 * (t.val / 64) + s) % 64 = s by omega]
  unfold scr6_3
  rw [scr6_3_eq, h63, Finset.sum_congr rfl key]
  refine (sum_tiles 64 512 _).trans (Finset.sum_congr rfl fun R _ => ?_)
  unfold termC_6; rw [dif_pos (show R.val < 32768 from R.isLt)]
  rfl

/-! # From the blocks to the array -/

/-- What the region leaves in its output array, as one function of the arrays it finds: the update of the target by the
    two adjacency-weighted means of the projected, rectified source rows. -/
def G6 (c : Dev nD) : S2048x512.Idx → EReal := fun y =>
  Spec.upd (TA6 V c) (Spec.collect (Spec.adj 2048 (idxA6_0 V c)) (Spec.linRelu (srcA6 V c) (WA6_0 V c) (bA6_0 V c)))
    (Spec.collect (Spec.adj 2048 (idxA6_1 V c)) (Spec.linRelu (srcA6 V c) (WA6_1 V c) (bA6_1 V c))) (y 0) (y 1)

/-- What the last point of a row block writes back is its block of that function. -/
theorem flushed6_eq (c : Dev nD) (t : Fin cfg6.N) (hf : (cfg6.win 8).flush t = true) :
    (dat6 V c).flushed 8 t = ((cfg6.win 8).blk t).view.read (Elt Ideal) (G6 V c) := by
  have h63 : t.val % 64 = 63 := (flush6_8 t).mp hf
  have hN : cfg6.N = 128 := N_6
  have ht := t.isLt
  obtain ⟨-, -, -, -, -, -, -, -, -, -, -, -, -, -, -, -, -, e0, e1⟩ := idx_facts6 t
  show (cfg6.win 8).cut (grid6.coords t) ((dat6 V c).after 8 t) = _
  rw [after6_8]
  funext y
  obtain ⟨r, j, rfl⟩ : ∃ (r : Fin 1024) (j : Fin 512), y = ix2 r j := ⟨y 0, y 1, @eq_ix2 1024 512 y⟩
  have hI : 1024 * (t.val / 64) + r.val < 2048 := by have := r.isLt; omega
  have hE : ((cfg6.win 8).blk t).view.emb (ix2 r j) = ix2 (⟨1024 * (t.val / 64) + r.val, hI⟩ : Fin 2048) j := by
    funext a; apply Fin.ext
    match a with
    | ⟨0, _⟩ => show win6_8.index t (0 : Fin 2) * 1024 + 1 * r.val = 1024 * (t.val / 64) + r.val; rw [e0]; omega
    | ⟨1, _⟩ => show win6_8.index t (1 : Fin 2) * 512 + 1 * j.val = j.val; rw [e1]; omega
  show out6_8 (scr6_0 V c t) (scr6_2 V c t) (scr6_1 V c t) (scr6_3 V c t) (iblk6 V c 7 t) (ix2 r j)
    = G6 V c (((cfg6.win 8).blk t).view.emb (ix2 r j))
  rw [hE, out6_8_apply, iblk6_7_apply V c t r j ⟨_, hI⟩ rfl, scrF6_0 V c t h63 r j hI, scrF6_1 V c t h63 r j hI,
    scrF6_2 V c t h63 r hI, scrF6_3 V c t h63 r hI]
  rfl

/-- Every entry of the output array is in the block some last point of a row block writes back. -/
theorem cover6 (y : S2048x512.Idx) :
    ∃ t : Fin cfg6.N, (cfg6.win 8).flush t = true ∧ y ∈ ((cfg6.win 8).blk t).view.set := by
  have hN : cfg6.N = 128 := N_6
  have h0 : (y 0).val < 2048 := (y 0).isLt
  have h1 : (y 1).val < 512 := (y 1).isLt
  have hb : 64 * ((y 0).val / 1024) + 63 < cfg6.N := by rw [hN]; omega
  refine ⟨⟨64 * ((y 0).val / 1024) + 63, hb⟩, (flush6_8 _).mpr (by show (64 * ((y 0).val / 1024) + 63) % 64 = 63; omega), ?_⟩
  obtain ⟨-, -, -, -, -, -, -, -, -, -, -, -, -, -, -, -, -, e0, e1⟩ := idx_facts6 ⟨64 * ((y 0).val / 1024) + 63, hb⟩
  have e0' : win6_8.index ⟨64 * ((y 0).val / 1024) + 63, hb⟩ (0 : Fin 2) = (y 0).val / 1024 := by
    rw [e0]; show (64 * ((y 0).val / 1024) + 63) / 64 = _; omega
  show y ∈ ((View.whole main_v48).slice (win6_8.rect ⟨64 * ((y 0).val / 1024) + 63, hb⟩)).set
  rw [View.set_slice_whole, Rect.mem_set_unit]
  intro a
  match a with
  | ⟨0, _⟩ =>
    show win6_8.index ⟨64 * ((y 0).val / 1024) + 63, hb⟩ (0 : Fin 2) * 1024 ≤ (y 0).val
      ∧ (y 0).val < win6_8.index ⟨64 * ((y 0).val / 1024) + 63, hb⟩ (0 : Fin 2) * 1024 + 1024
    rw [e0']; omega
  | ⟨1, _⟩ =>
    show win6_8.index ⟨64 * ((y 0).val / 1024) + 63, hb⟩ (1 : Fin 2) * 512 ≤ (y 1).val
      ∧ (y 1).val < win6_8.index ⟨64 * ((y 0).val / 1024) + 63, hb⟩ (1 : Fin 2) * 512 + 512
    rw [e1]; omega

/-- THE VALUE OF REGION 6: its output array ends holding, at (i, j), the target's entry plus half the sum of the two
    adjacency-weighted means of relu(src · W + b), as functions of the arrays the region finds. -/
theorem final6 (c : Dev nD) (i : Fin 2048) (j : Fin 512) :
    (dat6 (F := Ideal) V c).arrAt 8 cfg6.N (ix2 i j)
      = Spec.upd (fun a b => (V c (Pipeline.arrRef spec6 7) : S2048x512.Idx → EReal) (ix2 a b))
          (Spec.collect (Spec.adj 2048 (fun R => (V c (Pipeline.arrRef spec6 0) : S1x32768.Idx → BitVec 32) (ix2 0 R)))
            (Spec.linRelu (fun a b => (V c (Pipeline.arrRef spec6 2) : S32768x512.Idx → EReal) (ix2 a b))
              (fun a b => (V c (Pipeline.arrRef spec6 3) : S512x512.Idx → EReal) (ix2 a b))
              (fun b => (V c (Pipeline.arrRef spec6 4) : S1x512.Idx → EReal) (ix2 0 b))))
          (Spec.collect (Spec.adj 2048 (fun R => (V c (Pipeline.arrRef spec6 1) : S1x32768.Idx → BitVec 32) (ix2 0 R)))
            (Spec.linRelu (fun a b => (V c (Pipeline.arrRef spec6 2) : S32768x512.Idx → EReal) (ix2 a b))
              (fun a b => (V c (Pipeline.arrRef spec6 5) : S512x512.Idx → EReal) (ix2 a b))
              (fun b => (V c (Pipeline.arrRef spec6 6) : S1x512.Idx → EReal) (ix2 0 b)))) i j :=
  congrFun ((dat6 V c).arrAt_eq_of_cover 8 (G6 V c) (flushed6_eq V c) cover6) (ix2 i j)

end Cert.KernelIdeal.HandV
end
-- ==== Proof.KI.Val7.lean ====
import proofs.«422120_j65652870087589_3_alg».proof.Proof.KI.Reg7
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 7 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 512
local notation "nOut" => 512
local notation "nPts" => 4

/-- The input array and one block of its rows, -/
abbrev SXa7 : Shape := S2048x512
abbrev SXb7 : Shape := S512x512
/-- the weight matrix, the bias row, -/
abbrev SW7 : Shape := S512x512
abbrev SB7 : Shape := S1x512
/-- the result array and one block of its rows. -/
abbrev SOa7 : Shape := S2048x512
abbrev SOb7 : Shape := S512x512

/-! ## The block product's index maps, axis by axis -/

/-- The left operand is read at the output's row, -/
theorem lhs7_0 (i : SOb7.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin SXb7.rank) ∈ dot_S512x512_S512x512_S512x512_1_0_0_1_n_n.lhsBatch by decide), dif_pos (show (0 : Fin SXb7.rank) ∈ dot_S512x512_S512x512_S512x512_1_0_0_1_n_n.lhsNonContracting by decide)]
  rfl
/-- and at the inner index as its column; -/
theorem lhs7_1 (i : SOb7.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the inner index as its row, -/
theorem rhs7_0 (i : SOb7.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- and at the output's column. -/
theorem rhs7_1 (i : SOb7.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin SW7.rank) ∈ dot_S512x512_S512x512_S512x512_1_0_0_1_n_n.rhsBatch by decide), dif_pos (show (1 : Fin SW7.rank) ∈ dot_S512x512_S512x512_S512x512_1_0_0_1_n_n.rhsNonContracting by decide)]
  rfl

/-- The block product into the zero accumulator, at row `p` and column `q`: the sum over the inner index of the
    products of the row's and the column's entries. -/
theorem mm7_apply (a : FVec Ideal SXb7 .bf16) (b : FVec Ideal SW7 .bf16) (p : Fin nBlk) (q : Fin nOut) :
    FloatOps.matmul dot_S512x512_S512x512_S512x512_1_0_0_1_n_n none a b (constant (F := Ideal) SOb7 .f32 0x00000000#32) (ix2 p q)
      = ∑ l : Fin nIn, a (ix2 p l) * b (ix2 l q) := by
  rw [Ideal.matmul_constant_zero_apply, ← Equiv.sum_comp (contrEquiv1 dot_S512x512_S512x512_S512x512_1_0_0_1_n_n nIn rfl rfl).symm]
  refine Finset.sum_congr rfl fun k _ => ?_
  have hk := contrEquiv1_symm_val dot_S512x512_S512x512_S512x512_1_0_0_1_n_n nIn rfl rfl k
  have el : dot_S512x512_S512x512_S512x512_1_0_0_1_n_n.lhsIdx (ix2 p q) ((contrEquiv1 dot_S512x512_S512x512_S512x512_1_0_0_1_n_n nIn rfl rfl).symm k) = ix2 p k := funext fun a => Fin.ext (by
    match a with
    | ⟨0, _⟩ => exact lhs7_0 _ _
    | ⟨1, _⟩ => exact (lhs7_1 _ _).trans hk)
  have er : dot_S512x512_S512x512_S512x512_1_0_0_1_n_n.rhsIdx (ix2 p q) ((contrEquiv1 dot_S512x512_S512x512_S512x512_1_0_0_1_n_n nIn rfl rfl).symm k) = ix2 k q := funext fun a => Fin.ext (by
    match a with
    | ⟨0, _⟩ => exact (rhs7_0 _ _).trans hk
    | ⟨1, _⟩ => exact rhs7_1 _ _)
  rw [el, er]

/-! ## The payload at an index -/

/-- The payload at row `p` and column `q` of the block: the positive part of the row of `x0` against the column
    of `x1`, plus the bias at `q`. On the extended reals a change of float format changes nothing, and the zero
    word is zero. -/
theorem pay7_apply (x0 : Vec Ideal SXb7 .f32) (x1 : Vec Ideal SW7 .f32) (x2 : Vec Ideal SB7 .f32) (p : Fin nBlk) (q : Fin nOut) :
    k7_pay1 (F := Ideal) x0 x1 x2 (ix2 p q)
      = max ((∑ l : Fin nIn, x0 (ix2 p l) * x1 (ix2 l q)) + x2 (ix2 (0 : Fin 1) q)) 0 := by
  unfold k7_pay1
  simp only [matmul]
  refine congrArg₂ max (congrArg₂ (· + ·) ?_ ?_) ?_
  · refine (mm7_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr7 (c : Dev nD) : SXa7.Idx → EReal := V c (Pipeline.arrRef spec7 0)
abbrev warr7 (c : Dev nD) : SW7.Idx → EReal := V c (Pipeline.arrRef spec7 1)
abbrev barr7 (c : Dev nD) : SB7.Idx → EReal := V c (Pipeline.arrRef spec7 2)

/-- The whole result, index by index. -/
abbrev G7 (c : Dev nD) : SOa7.Idx → EReal := fun i =>
  Spec.linRelu (r := nRows) (k := nIn) (n := nOut) (fun a b => xarr7 V c (ix2 a b)) (fun a b => warr7 V c (ix2 a b))
    (fun b => barr7 V c (ix2 (0 : Fin 1) b)) (i 0) (i 1)

theorem hz7 : (![0, 0] : Fin 2 → Nat) = fun _ => 0 := funext fun a => by fin_cases a <;> rfl

/-- The printed index maps over the grid: the input's block of rows moves with the output's, which is the point's
    number; every other block index is zero. -/
theorem idx_facts7 : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) = t.val :=
  (by decide +kernel : ∀ t : Fin grid7.N, _)

/-- What point `t` writes back is block `t` of the whole result. -/
theorem flushed7_eq (c : Dev nD) (t : Fin cfg7.N) :
    (dat7 (F := Ideal) V c).flushed 3 t = ((cfg7.win 3).blk t).view.read (Elt Ideal) (G7 V c) := by
  show (cfg7.win 3).cut (grid7.coords t) ((dat7 (F := Ideal) V c).after 3 t) = _
  rw [after7_3]
  unfold out7_3
  rw [View.canon_unit_zero hz7]
  simp only [View.ld_unit_zero (S := SXb7) hz7, View.ld_unit_zero (S := SW7) hz7, View.ld_unit_zero (S := SB7) hz7]
  obtain ⟨e0, e1, e2, e3, e4, e5, e6, e7⟩ := idx_facts7 t
  funext j
  obtain ⟨p, q, rfl⟩ : ∃ (p : Fin nBlk) (q : Fin nOut), j = ix2 p q := ⟨j 0, j 1, eq_ix2 j⟩
  refine (pay7_apply (iblk7 V c 0 t) (iblk7 V c 1 t) (iblk7 V c 2 t) p q).trans ?_
  -- the row of the array the output's block puts row `p` at, and likewise the column
  have h0 : ∀ l : Fin nIn, ((cfg7.win 0).blk t).view.emb (ix2 p l)
      = ix2 ((((cfg7.win 3).blk t).view.emb (ix2 p q) 0 : Fin nRows)) l := fun l => by
    funext a; apply Fin.ext
    match a with
    | ⟨0, _⟩ => show win7_0.index t (0 : Fin 2) * nBlk + 1 * p.val = win7_3.index t (0 : Fin 2) * nBlk + 1 * p.val; omega
    | ⟨1, _⟩ => show win7_0.index t (1 : Fin 2) * nIn + 1 * l.val = l.val; omega
  have h1 : ∀ l : Fin nIn, ((cfg7.win 1).blk t).view.emb (ix2 l q)
      = ix2 l ((((cfg7.win 3).blk t).view.emb (ix2 p q) 1 : Fin nOut)) := fun l => by
    funext a; apply Fin.ext
    match a with
    | ⟨0, _⟩ => show win7_1.index t (0 : Fin 2) * nIn + 1 * l.val = l.val; omega
    | ⟨1, _⟩ => show win7_1.index t (1 : Fin 2) * nOut + 1 * q.val = win7_3.index t (1 : Fin 2) * nOut + 1 * q.val; omega
  have h2 : ((cfg7.win 2).blk t).view.emb (ix2 (0 : Fin 1) q)
      = ix2 (0 : Fin 1) ((((cfg7.win 3).blk t).view.emb (ix2 p q) 1 : Fin nOut)) := by
    funext a; apply Fin.ext
    match a with
    | ⟨0, _⟩ => show win7_2.index t (0 : Fin 2) * 1 + 1 * 0 = 0; omega
    | ⟨1, _⟩ => show win7_2.index t (1 : Fin 2) * nOut + 1 * q.val = win7_3.index t (1 : Fin 2) * nOut + 1 * q.val; omega
  refine congrArg₂ max (congrArg₂ (· + ·) (Finset.sum_congr rfl fun l _ => ?_) ?_) rfl
  · exact congrArg₂ (· * ·) (congrArg (xarr7 V c) (h0 l)) (congrArg (warr7 V c) (h1 l))
  · exact congrArg (barr7 V c) h2

/-- An index of the output array is in point `t`'s block exactly when each coordinate is in the block's range. -/
theorem mem_blk7 (t : Fin cfg7.N) (i : SOa7.Idx) :
    i ∈ ((cfg7.win 3).blk t).view.set ↔ ∀ a : Fin 2, win7_3.index t a * SOb7.size a ≤ (i a).val
      ∧ (i a).val < win7_3.index t a * SOb7.size a + SOb7.size a := by
  show i ∈ ((View.whole main_v54).slice (win7_3.rect t)).set ↔ _
  rw [View.set_slice_whole, Rect.mem_set_unit]
  exact Iff.rfl

/-- Every index of the output array is in some point's block: a row is in the block of the point numbered by the
    row's quotient by the rows of a block. -/
theorem cover7 (i : SOa7.Idx) :
    ∃ t : Fin cfg7.N, (cfg7.win 3).flush t = true ∧ i ∈ ((cfg7.win 3).blk t).view.set := by
  have hi0 : (i 0).val < nRows := (i 0).isLt
  have hi1 : (i 1).val < nOut := (i 1).isLt
  have hN : cfg7.N = nPts := N_7
  refine ⟨⟨(i 0).val / nBlk, by omega⟩, flush7_3 _, ?_⟩
  obtain ⟨e0, e1, e2, e3, e4, e5, e6, e7⟩ := idx_facts7 ⟨(i 0).val / nBlk, by omega⟩
  rw [mem_blk7]
  intro a
  match a with
  | ⟨0, _⟩ =>
    show win7_3.index ⟨(i 0).val / nBlk, _⟩ (0 : Fin 2) * nBlk ≤ (i 0).val
      ∧ (i 0).val < win7_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win7_3.index ⟨(i 0).val / nBlk, _⟩ (1 : Fin 2) * nOut ≤ (i 1).val
      ∧ (i 1).val < win7_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final7 (c : Dev nD) (i : Fin nRows) (j : Fin nOut) :
    (dat7 (F := Ideal) V c).arrAt 3 cfg7.N (ix2 i j)
      = Spec.linRelu (fun a b => (V c (Pipeline.arrRef spec7 0) : SXa7.Idx → EReal) (ix2 a b))
          (fun a b => (V c (Pipeline.arrRef spec7 1) : SW7.Idx → EReal) (ix2 a b))
          (fun b => (V c (Pipeline.arrRef spec7 2) : SB7.Idx → EReal) (ix2 (0 : Fin 1) b)) i j := by
  rw [(dat7 (F := Ideal) V c).arrAt_eq_of_cover 3 (G7 V c) (fun t _ => flushed7_eq V c t) (cover7)]

end Cert.KernelIdeal.HandV

end
-- ==== Proof.KI.Val8.lean ====
import proofs.«422120_j65652870087589_3_alg».proof.Proof.KI.Reg8
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 8 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 512
local notation "nOut" => 512
local notation "nPts" => 4

/-- The input array and one block of its rows, -/
abbrev SXa8 : Shape := S2048x512
abbrev SXb8 : Shape := S512x512
/-- the weight matrix, the bias row, -/
abbrev SW8 : Shape := S512x512
abbrev SB8 : Shape := S1x512
/-- the result array and one block of its rows. -/
abbrev SOa8 : Shape := S2048x512
abbrev SOb8 : Shape := S512x512

/-! ## The block product's index maps, axis by axis -/

/-- The left operand is read at the output's row, -/
theorem lhs8_0 (i : SOb8.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin SXb8.rank) ∈ dot_S512x512_S512x512_S512x512_1_0_0_1_n_n.lhsBatch by decide), dif_pos (show (0 : Fin SXb8.rank) ∈ dot_S512x512_S512x512_S512x512_1_0_0_1_n_n.lhsNonContracting by decide)]
  rfl
/-- and at the inner index as its column; -/
theorem lhs8_1 (i : SOb8.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the inner index as its row, -/
theorem rhs8_0 (i : SOb8.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- and at the output's column. -/
theorem rhs8_1 (i : SOb8.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin SW8.rank) ∈ dot_S512x512_S512x512_S512x512_1_0_0_1_n_n.rhsBatch by decide), dif_pos (show (1 : Fin SW8.rank) ∈ dot_S512x512_S512x512_S512x512_1_0_0_1_n_n.rhsNonContracting by decide)]
  rfl

/-- The block product into the zero accumulator, at row `p` and column `q`: the sum over the inner index of the
    products of the row's and the column's entries. -/
theorem mm8_apply (a : FVec Ideal SXb8 .bf16) (b : FVec Ideal SW8 .bf16) (p : Fin nBlk) (q : Fin nOut) :
    FloatOps.matmul dot_S512x512_S512x512_S512x512_1_0_0_1_n_n none a b (constant (F := Ideal) SOb8 .f32 0x00000000#32) (ix2 p q)
      = ∑ l : Fin nIn, a (ix2 p l) * b (ix2 l q) := by
  rw [Ideal.matmul_constant_zero_apply, ← Equiv.sum_comp (contrEquiv1 dot_S512x512_S512x512_S512x512_1_0_0_1_n_n nIn rfl rfl).symm]
  refine Finset.sum_congr rfl fun k _ => ?_
  have hk := contrEquiv1_symm_val dot_S512x512_S512x512_S512x512_1_0_0_1_n_n nIn rfl rfl k
  have el : dot_S512x512_S512x512_S512x512_1_0_0_1_n_n.lhsIdx (ix2 p q) ((contrEquiv1 dot_S512x512_S512x512_S512x512_1_0_0_1_n_n nIn rfl rfl).symm k) = ix2 p k := funext fun a => Fin.ext (by
    match a with
    | ⟨0, _⟩ => exact lhs8_0 _ _
    | ⟨1, _⟩ => exact (lhs8_1 _ _).trans hk)
  have er : dot_S512x512_S512x512_S512x512_1_0_0_1_n_n.rhsIdx (ix2 p q) ((contrEquiv1 dot_S512x512_S512x512_S512x512_1_0_0_1_n_n nIn rfl rfl).symm k) = ix2 k q := funext fun a => Fin.ext (by
    match a with
    | ⟨0, _⟩ => exact (rhs8_0 _ _).trans hk
    | ⟨1, _⟩ => exact rhs8_1 _ _)
  rw [el, er]

/-! ## The payload at an index -/

/-- The payload at row `p` and column `q` of the block: the positive part of the row of `x0` against the column
    of `x1`, plus the bias at `q`. On the extended reals a change of float format changes nothing, and the zero
    word is zero. -/
theorem pay8_apply (x0 : Vec Ideal SXb8 .f32) (x1 : Vec Ideal SW8 .f32) (x2 : Vec Ideal SB8 .f32) (p : Fin nBlk) (q : Fin nOut) :
    k8_pay1 (F := Ideal) x0 x1 x2 (ix2 p q)
      = max ((∑ l : Fin nIn, x0 (ix2 p l) * x1 (ix2 l q)) + x2 (ix2 (0 : Fin 1) q)) 0 := by
  unfold k8_pay1
  simp only [matmul]
  refine congrArg₂ max (congrArg₂ (· + ·) ?_ ?_) ?_
  · refine (mm8_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr8 (c : Dev nD) : SXa8.Idx → EReal := V c (Pipeline.arrRef spec8 0)
abbrev warr8 (c : Dev nD) : SW8.Idx → EReal := V c (Pipeline.arrRef spec8 1)
abbrev barr8 (c : Dev nD) : SB8.Idx → EReal := V c (Pipeline.arrRef spec8 2)

/-- The whole result, index by index. -/
abbrev G8 (c : Dev nD) : SOa8.Idx → EReal := fun i =>
  Spec.linRelu (r := nRows) (k := nIn) (n := nOut) (fun a b => xarr8 V c (ix2 a b)) (fun a b => warr8 V c (ix2 a b))
    (fun b => barr8 V c (ix2 (0 : Fin 1) b)) (i 0) (i 1)

theorem hz8 : (![0, 0] : Fin 2 → Nat) = fun _ => 0 := funext fun a => by fin_cases a <;> rfl

/-- The printed index maps over the grid: the input's block of rows moves with the output's, which is the point's
    number; every other block index is zero. -/
theorem idx_facts8 : ∀ t : Fin cfg8.N,
    win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) = t.val :=
  (by decide +kernel : ∀ t : Fin grid8.N, _)

/-- What point `t` writes back is block `t` of the whole result. -/
theorem flushed8_eq (c : Dev nD) (t : Fin cfg8.N) :
    (dat8 (F := Ideal) V c).flushed 3 t = ((cfg8.win 3).blk t).view.read (Elt Ideal) (G8 V c) := by
  show (cfg8.win 3).cut (grid8.coords t) ((dat8 (F := Ideal) V c).after 3 t) = _
  rw [after8_3]
  unfold out8_3
  rw [View.canon_unit_zero hz8]
  simp only [View.ld_unit_zero (S := SXb8) hz8, View.ld_unit_zero (S := SW8) hz8, View.ld_unit_zero (S := SB8) hz8]
  obtain ⟨e0, e1, e2, e3, e4, e5, e6, e7⟩ := idx_facts8 t
  funext j
  obtain ⟨p, q, rfl⟩ : ∃ (p : Fin nBlk) (q : Fin nOut), j = ix2 p q := ⟨j 0, j 1, eq_ix2 j⟩
  refine (pay8_apply (iblk8 V c 0 t) (iblk8 V c 1 t) (iblk8 V c 2 t) p q).trans ?_
  -- the row of the array the output's block puts row `p` at, and likewise the column
  have h0 : ∀ l : Fin nIn, ((cfg8.win 0).blk t).view.emb (ix2 p l)
      = ix2 ((((cfg8.win 3).blk t).view.emb (ix2 p q) 0 : Fin nRows)) l := fun l => by
    funext a; apply Fin.ext
    match a with
    | ⟨0, _⟩ => show win8_0.index t (0 : Fin 2) * nBlk + 1 * p.val = win8_3.index t (0 : Fin 2) * nBlk + 1 * p.val; omega
    | ⟨1, _⟩ => show win8_0.index t (1 : Fin 2) * nIn + 1 * l.val = l.val; omega
  have h1 : ∀ l : Fin nIn, ((cfg8.win 1).blk t).view.emb (ix2 l q)
      = ix2 l ((((cfg8.win 3).blk t).view.emb (ix2 p q) 1 : Fin nOut)) := fun l => by
    funext a; apply Fin.ext
    match a with
    | ⟨0, _⟩ => show win8_1.index t (0 : Fin 2) * nIn + 1 * l.val = l.val; omega
    | ⟨1, _⟩ => show win8_1.index t (1 : Fin 2) * nOut + 1 * q.val = win8_3.index t (1 : Fin 2) * nOut + 1 * q.val; omega
  have h2 : ((cfg8.win 2).blk t).view.emb (ix2 (0 : Fin 1) q)
      = ix2 (0 : Fin 1) ((((cfg8.win 3).blk t).view.emb (ix2 p q) 1 : Fin nOut)) := by
    funext a; apply Fin.ext
    match a with
    | ⟨0, _⟩ => show win8_2.index t (0 : Fin 2) * 1 + 1 * 0 = 0; omega
    | ⟨1, _⟩ => show win8_2.index t (1 : Fin 2) * nOut + 1 * q.val = win8_3.index t (1 : Fin 2) * nOut + 1 * q.val; omega
  refine congrArg₂ max (congrArg₂ (· + ·) (Finset.sum_congr rfl fun l _ => ?_) ?_) rfl
  · exact congrArg₂ (· * ·) (congrArg (xarr8 V c) (h0 l)) (congrArg (warr8 V c) (h1 l))
  · exact congrArg (barr8 V c) h2

/-- An index of the output array is in point `t`'s block exactly when each coordinate is in the block's range. -/
theorem mem_blk8 (t : Fin cfg8.N) (i : SOa8.Idx) :
    i ∈ ((cfg8.win 3).blk t).view.set ↔ ∀ a : Fin 2, win8_3.index t a * SOb8.size a ≤ (i a).val
      ∧ (i a).val < win8_3.index t a * SOb8.size a + SOb8.size a := by
  show i ∈ ((View.whole main_v60).slice (win8_3.rect t)).set ↔ _
  rw [View.set_slice_whole, Rect.mem_set_unit]
  exact Iff.rfl

/-- Every index of the output array is in some point's block: a row is in the block of the point numbered by the
    row's quotient by the rows of a block. -/
theorem cover8 (i : SOa8.Idx) :
    ∃ t : Fin cfg8.N, (cfg8.win 3).flush t = true ∧ i ∈ ((cfg8.win 3).blk t).view.set := by
  have hi0 : (i 0).val < nRows := (i 0).isLt
  have hi1 : (i 1).val < nOut := (i 1).isLt
  have hN : cfg8.N = nPts := N_8
  refine ⟨⟨(i 0).val / nBlk, by omega⟩, flush8_3 _, ?_⟩
  obtain ⟨e0, e1, e2, e3, e4, e5, e6, e7⟩ := idx_facts8 ⟨(i 0).val / nBlk, by omega⟩
  rw [mem_blk8]
  intro a
  match a with
  | ⟨0, _⟩ =>
    show win8_3.index ⟨(i 0).val / nBlk, _⟩ (0 : Fin 2) * nBlk ≤ (i 0).val
      ∧ (i 0).val < win8_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win8_3.index ⟨(i 0).val / nBlk, _⟩ (1 : Fin 2) * nOut ≤ (i 1).val
      ∧ (i 1).val < win8_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final8 (c : Dev nD) (i : Fin nRows) (j : Fin nOut) :
    (dat8 (F := Ideal) V c).arrAt 3 cfg8.N (ix2 i j)
      = Spec.linRelu (fun a b => (V c (Pipeline.arrRef spec8 0) : SXa8.Idx → EReal) (ix2 a b))
          (fun a b => (V c (Pipeline.arrRef spec8 1) : SW8.Idx → EReal) (ix2 a b))
          (fun b => (V c (Pipeline.arrRef spec8 2) : SB8.Idx → EReal) (ix2 (0 : Fin 1) b)) i j := by
  rw [(dat8 (F := Ideal) V c).arrAt_eq_of_cover 3 (G8 V c) (fun t _ => flushed8_eq V c t) (cover8)]

end Cert.KernelIdeal.HandV

end
-- ==== Proof.KI.Val9.lean ====
import proofs.«422120_j65652870087589_3_alg».proof.Proof.KI.Reg9
import proofs.«422120_j65652870087589_3_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators
/-- The number of feature columns. -/
local notation "nCol" => 512

/-! ## The operations of the body that are not pointwise, read at an index -/

/-- A word equals itself: the comparison's bit is set. -/
private theorem cmpi_eq_same (a : BitVec 32) : IntOp.cmpi .eq a a = 1#1 := by simp [IntOp.cmpi]
/-- Two different words: the comparison's bit is clear. -/
private theorem cmpi_eq_diff {a b : BitVec 32} (h : a ≠ b) : IntOp.cmpi .eq a b = 0#1 := by
  show BitVec.ofBool (a == b) = 0#1
  rw [beq_eq_false_iff_ne.mpr h]; rfl
/-- The set bit, widened and read as a signed integer, is the real number one. -/
private theorem sitofp_setBit : FloatOps.sitofp (F := Ideal) .f32 (BitVec.setWidth 32 (1#1)) = (1 : EReal) := by
  show (((BitVec.setWidth 32 (1#1)).toInt : ℝ) : EReal) = 1
  rw [show (BitVec.setWidth 32 (1#1)).toInt = 1 by decide]
  simp
/-- The clear bit is zero. -/
private theorem sitofp_clearBit : FloatOps.sitofp (F := Ideal) .f32 (BitVec.setWidth 32 (0#1)) = (0 : EReal) := by
  show (((BitVec.setWidth 32 (0#1)).toInt : ℝ) : EReal) = 0
  rw [show (BitVec.setWidth 32 (0#1)).toInt = 0 by decide]
  simp

/-- The 0/1 tile: lane `k` of row `p` is 1 exactly when the row's index word names `k`. -/
theorem onehot9_apply (x : Vec Ideal S512x1 .i32) (p : Fin 512) (k : Fin 2048) :
    (sitofp (F := Ideal) .f32 (extui 32 (cmpi .eq (iota .tc S512x2048 32 [1] iota_S512x2048_d1_w32)
        (broadcastTo S512x2048 x broadcasts_S512x1_S512x2048)) natLt_1_32)
      : FVec Ideal S512x2048 .f32) (ix2 p k)
      = if x (ix2 p (0 : Fin 1)) = BitVec.ofNat 32 k.val then (1 : EReal) else 0 := by
  rw [sitofp_apply, extui_apply]
  show FloatOps.sitofp .f32 ((IntOp.cmpi .eq (iota .tc S512x2048 32 [1] iota_S512x2048_d1_w32 (ix2 p k))
      (broadcastTo S512x2048 x broadcasts_S512x1_S512x2048 (ix2 p k))).setWidth 32) = _
  rw [iota_single_apply,
    broadcastTo_apply x broadcasts_S512x1_S512x2048 (ix2 p k) (ix2 p (0 : Fin 1)) (fun a => by
      match a with
      | ⟨0, _⟩ => rfl
      | ⟨1, _⟩ => rfl)]
  show FloatOps.sitofp .f32 (BitVec.setWidth 32 (IntOp.cmpi .eq (BitVec.ofNat 32 k.val) (x (ix2 p (0 : Fin 1))))) = _
  by_cases h : x (ix2 p (0 : Fin 1)) = BitVec.ofNat 32 k.val
  · rw [if_pos h, h, cmpi_eq_same, sitofp_setBit]
  · rw [if_neg h, cmpi_eq_diff (fun e => h e.symm), sitofp_clearBit]

/-! ### The product of a tile with a whole matrix -/

theorem lhs9_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs9_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs9_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs9_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The block product into the zero splat, at row `p` and column `q`: the sum over the 2048 lanes. -/
theorem matmul9_apply (L : FVec Ideal S512x2048 .bf16) (R : FVec Ideal S2048x512 .bf16) (p : Fin 512) (q : Fin nCol) :
    matmul dot_S512x2048_S2048x512_S512x512_1_0_0_1_n_n none L R (constant (F := Ideal) S512x512 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhs9_0 _ _
    | ⟨1, _⟩ => exact (lhs9_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhs9_0 _ _).trans hk
    | ⟨1, _⟩ => exact rhs9_1 _ _)
  rw [el, er]

/-! ### The lane sum and the two broadcasts of a column -/

/-- The sum over the lanes of row `p`, kept as a column. -/
theorem laneSum9_apply (v : FVec Ideal S512x2048 .f32) (hφ : FTy.f32 = FTy.f32 ∨ FTy.f32 = FTy.bf16)
    (hacc : (0x00000000#32 : BitVec 32) = 0x00000000#32) (p : Fin 512) :
    (shapeCast S512x1 (multiReduction (F := Ideal) .add [1] S512 v 0x00000000#32 reduces_S512x2048_S512 hφ hacc) shapeCasts_S512_S512x1
      : FVec Ideal S512x1 .f32) (ix2 p (0 : Fin 1)) = ∑ k : Fin 2048, v (ix2 p k) := by
  refine (shapeCast_apply _ shapeCasts_S512_S512x1 (ix2 p (0 : Fin 1)) (ix1 p) ?_).trans ?_
  · rw [Shape.rowMajor_val_one, Shape.rowMajor_val_two]; show p.val = p.val * 1 + 0; omega
  refine (Ideal.multiReduction_add_single v 0x00000000#32 reduces_S512x2048_S512 hφ hacc (ix1 p)).trans ?_
  refine Finset.sum_congr rfl fun k _ => congrArg v ?_
  funext a; apply Fin.ext
  match a with
  | ⟨0, _⟩ => rfl
  | ⟨1, _⟩ => rfl

/-- A column spread over the feature columns reads the column. -/
theorem spread9_apply (d : FVec Ideal S512x1 .f32) (p : Fin 512) (q : Fin nCol) :
    broadcastTo S512x512 d broadcasts_S512x1_S512x512 (ix2 p q) = d (ix2 p (0 : Fin 1)) :=
  broadcastTo_apply d broadcasts_S512x1_S512x512 (ix2 p q) (ix2 p (0 : Fin 1)) (fun a => by
    match a with
    | ⟨0, _⟩ => rfl
    | ⟨1, _⟩ => rfl)

/-! ## The payload at an index -/

/-- The value the body stores at row `p`, column `q` of the block is the update, on the block's own 512 relations: the
    target plus half the sum of the two averaged gathers, each a sum over the 2048 objects of the 0/1 weight times the
    object-side matrix, over the row's degree plus the small constant. -/
theorem payAt9 (x0 x1 : Vec Ideal S512x1 .i32) (x2 x3 : Vec Ideal S2048x512 .bf16) (x4 : Vec Ideal S512x512 .f32)
    (p : Fin 512) (q : Fin nCol) :
    k9_pay1 (k9_pay2 x4) (k9_pay3 x0 x1 x2 x3) (ix2 p q)
      = Spec.upd (fun a b => x4 (ix2 a b))
          (Spec.collect (Spec.tr (Spec.adj 2048 (fun r => x0 (ix2 r (0 : Fin 1))))) (fun a b => x2 (ix2 a b)))
          (Spec.collect (Spec.tr (Spec.adj 2048 (fun r => x1 (ix2 r (0 : Fin 1))))) (fun a b => x3 (ix2 a b))) p q := by
  unfold k9_pay1 k9_pay2 k9_pay3
  dsimp only
  simp only [addf_apply, mulf_apply, divf_apply, broadcast_apply, shapeCast_self, spread9_apply, laneSum9_apply,
    matmul9_apply, truncf_apply, onehot9_apply]
  rw [laneSum9_apply, laneSum9_apply,
    Finset.sum_congr rfl (fun k _ => congrArg (· * x2 (ix2 k q)) (onehot9_apply x0 p k)),
    Finset.sum_congr rfl (fun k _ => onehot9_apply x0 p k),
    Finset.sum_congr rfl (fun k _ => congrArg (· * x3 (ix2 k q)) (onehot9_apply x1 p k)),
    Finset.sum_congr rfl (fun k _ => onehot9_apply x1 p k)]
  rfl

/-! ## From the blocks to the whole array -/

variable (V : (c : Dev nD) → (b : Ref sig .tc) → Buf (Elt Ideal) ((c : Thread nD τ).loc b))

/-- The two index columns, the two object-side matrices and the target, as the region finds them. -/
abbrev ixc9_0 (c : Dev nD) : S32768x1.Idx → BitVec 32 := V c (Pipeline.arrRef spec9 0)
abbrev ixc9_1 (c : Dev nD) : S32768x1.Idx → BitVec 32 := V c (Pipeline.arrRef spec9 1)
abbrev fcm9_0 (c : Dev nD) : S2048x512.Idx → EReal := V c (Pipeline.arrRef spec9 2)
abbrev fcm9_1 (c : Dev nD) : S2048x512.Idx → EReal := V c (Pipeline.arrRef spec9 3)
abbrev tgt9 (c : Dev nD) : S32768x512.Idx → EReal := V c (Pipeline.arrRef spec9 4)

/-- The whole result: the update over all 32768 relations. -/
def G9 (c : Dev nD) : S32768x512.Idx → EReal := fun i =>
  Spec.upd (fun a b => tgt9 V c (ix2 a b))
    (Spec.collect (Spec.tr (Spec.adj 2048 (fun r => ixc9_0 V c (ix2 r (0 : Fin 1))))) (fun a b => fcm9_0 V c (ix2 a b)))
    (Spec.collect (Spec.tr (Spec.adj 2048 (fun r => ixc9_1 V c (ix2 r (0 : Fin 1))))) (fun a b => fcm9_1 V c (ix2 a b)))
    (i 0) (i 1)

theorem hz9 : (![0, 0] : Fin 2 → Nat) = fun _ => 0 := funext fun a => by fin_cases a <;> rfl

/-- Where each window's block sits at grid point `t`: the columns, the target and the result move down by one block of
    512 relations a point; the two matrices stay. -/
theorem idxFacts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

theorem blk9_0 (c : Dev nD) (t : Fin cfg9.N) (p : Fin 512) (h : t.val * 512 + p.val < 32768) :
    iblk9 V c 0 t (ix2 p (0 : Fin 1)) = ixc9_0 V c (ix2 ⟨t.val * 512 + p.val, h⟩ (0 : Fin 1)) := by
  show V c (Pipeline.arrRef spec9 0) (((cfg9.win 0).blk t).view.emb (ix2 p (0 : Fin 1))) = V c (Pipeline.arrRef spec9 0) (ix2 ⟨t.val * 512 + p.val, h⟩ (0 : Fin 1))
  refine congrArg _ ?_
  obtain ⟨e0, e1, -⟩ := idxFacts9 t
  funext a; apply Fin.ext
  match a with
  | ⟨0, _⟩ => show win9_0.index t (0 : Fin 2) * 512 + 1 * p.val = t.val * 512 + p.val; omega
  | ⟨1, _⟩ => show win9_0.index t (1 : Fin 2) * 1 + 1 * 0 = 0; omega

theorem blk9_1 (c : Dev nD) (t : Fin cfg9.N) (p : Fin 512) (h : t.val * 512 + p.val < 32768) :
    iblk9 V c 1 t (ix2 p (0 : Fin 1)) = ixc9_1 V c (ix2 ⟨t.val * 512 + p.val, h⟩ (0 : Fin 1)) := by
  show V c (Pipeline.arrRef spec9 1) (((cfg9.win 1).blk t).view.emb (ix2 p (0 : Fin 1))) = V c (Pipeline.arrRef spec9 1) (ix2 ⟨t.val * 512 + p.val, h⟩ (0 : Fin 1))
  refine congrArg _ ?_
  obtain ⟨-, -, e0, e1, -⟩ := idxFacts9 t
  funext a; apply Fin.ext
  match a with
  | ⟨0, _⟩ => show win9_1.index t (0 : Fin 2) * 512 + 1 * p.val = t.val * 512 + p.val; omega
  | ⟨1, _⟩ => show win9_1.index t (1 : Fin 2) * 1 + 1 * 0 = 0; omega

theorem blk9_2 (c : Dev nD) (t : Fin cfg9.N) (k : Fin 2048) (q : Fin nCol) :
    iblk9 V c 2 t (ix2 k q) = fcm9_0 V c (ix2 k q) := by
  show V c (Pipeline.arrRef spec9 2) (((cfg9.win 2).blk t).view.emb (ix2 k q)) = V c (Pipeline.arrRef spec9 2) (ix2 k q)
  refine congrArg _ ?_
  obtain ⟨-, -, -, -, e0, e1, -⟩ := idxFacts9 t
  funext a; apply Fin.ext
  match a with
  | ⟨0, _⟩ => show win9_2.index t (0 : Fin 2) * 2048 + 1 * k.val = k.val; omega
  | ⟨1, _⟩ => show win9_2.index t (1 : Fin 2) * nCol + 1 * q.val = q.val; omega

theorem blk9_3 (c : Dev nD) (t : Fin cfg9.N) (k : Fin 2048) (q : Fin nCol) :
    iblk9 V c 3 t (ix2 k q) = fcm9_1 V c (ix2 k q) := by
  show V c (Pipeline.arrRef spec9 3) (((cfg9.win 3).blk t).view.emb (ix2 k q)) = V c (Pipeline.arrRef spec9 3) (ix2 k q)
  refine congrArg _ ?_
  obtain ⟨-, -, -, -, -, -, e0, e1, -⟩ := idxFacts9 t
  funext a; apply Fin.ext
  match a with
  | ⟨0, _⟩ => show win9_3.index t (0 : Fin 2) * 2048 + 1 * k.val = k.val; omega
  | ⟨1, _⟩ => show win9_3.index t (1 : Fin 2) * nCol + 1 * q.val = q.val; omega

theorem blk9_4 (c : Dev nD) (t : Fin cfg9.N) (p : Fin 512) (q : Fin nCol) (h : t.val * 512 + p.val < 32768) :
    iblk9 V c 4 t (ix2 p q) = tgt9 V c (ix2 ⟨t.val * 512 + p.val, h⟩ q) := by
  show V c (Pipeline.arrRef spec9 4) (((cfg9.win 4).blk t).view.emb (ix2 p q)) = V c (Pipeline.arrRef spec9 4) (ix2 ⟨t.val * 512 + p.val, h⟩ q)
  refine congrArg _ ?_
  obtain ⟨-, -, -, -, -, -, -, -, e0, e1, -⟩ := idxFacts9 t
  funext a; apply Fin.ext
  match a with
  | ⟨0, _⟩ => show win9_4.index t (0 : Fin 2) * 512 + 1 * p.val = t.val * 512 + p.val; omega
  | ⟨1, _⟩ => show win9_4.index t (1 : Fin 2) * nCol + 1 * q.val = q.val; omega

/-- Row `p` of the update reads the target and the two index columns at row `p` only, and the two matrices whole. -/
private theorem upd_row_congr {m m' k n : ℕ} (T : Spec.Mat m n) (T' : Spec.Mat m' n) (i0 i1 : Fin m → BitVec 32)
    (i0' i1' : Fin m' → BitVec 32) (f0 f1 f0' f1' : Spec.Mat k n) (p : Fin m) (p' : Fin m') (q : Fin n)
    (hT : T p q = T' p' q) (h0 : i0 p = i0' p') (h1 : i1 p = i1' p') (hf0 : f0 = f0') (hf1 : f1 = f1') :
    Spec.upd T (Spec.collect (Spec.tr (Spec.adj k i0)) f0) (Spec.collect (Spec.tr (Spec.adj k i1)) f1) p q
      = Spec.upd T' (Spec.collect (Spec.tr (Spec.adj k i0')) f0') (Spec.collect (Spec.tr (Spec.adj k i1')) f1') p' q := by
  subst hf0 hf1
  unfold Spec.upd Spec.collect Spec.tr Spec.adj
  rw [hT, h0, h1]

/-- The grid has 64 points. -/
theorem gridLt9 (t : Fin cfg9.N) : t.val < 64 := lt_of_lt_of_eq t.isLt N_9

/-- What grid point `t` writes back is block `t` of the whole result. -/
theorem flushed9_eq (c : Dev nD) (t : Fin cfg9.N) :
    (dat9 (F := Ideal) V c).flushed 5 t = ((cfg9.win 5).blk t).view.read (Elt Ideal) (G9 V c) := by
  show (cfg9.win 5).cut (grid9.coords t) ((dat9 (F := Ideal) V c).after 5 t) = _
  rw [after9_5]
  unfold out9_5
  rw [View.canon_unit_zero hz9]
  simp only [View.ld_unit_zero (S := S512x1) hz9, View.ld_unit_zero (S := S2048x512) hz9, View.ld_unit_zero (S := S512x512) hz9]
  funext y
  obtain ⟨p, q, rfl⟩ : ∃ (p : Fin 512) (q : Fin nCol), y = ix2 p q := ⟨y 0, y 1, eq_ix2 y⟩
  have ht := gridLt9 t
  have hp : t.val * 512 + p.val < 32768 := by have := p.isLt; omega
  have hemb : (((cfg9.win 5).blk t).view.emb (ix2 p q) : S32768x512.Idx) = ix2 ⟨t.val * 512 + p.val, hp⟩ q := by
    obtain ⟨-, -, -, -, -, -, -, -, -, -, e0, e1⟩ := idxFacts9 t
    funext a; apply Fin.ext
    match a with
    | ⟨0, _⟩ => show win9_5.index t (0 : Fin 2) * 512 + 1 * p.val = t.val * 512 + p.val; omega
    | ⟨1, _⟩ => show win9_5.index t (1 : Fin 2) * nCol + 1 * q.val = q.val; omega
  show k9_pay1 (k9_pay2 (iblk9 V c 4 t)) (k9_pay3 (iblk9 V c 0 t) (iblk9 V c 1 t) (iblk9 V c 2 t) (iblk9 V c 3 t)) (ix2 p q)
    = G9 V c (((cfg9.win 5).blk t).view.emb (ix2 p q))
  refine (payAt9 (iblk9 V c 0 t) (iblk9 V c 1 t) (iblk9 V c 2 t) (iblk9 V c 3 t) (iblk9 V c 4 t) p q).trans ?_
  refine Eq.trans ?_ (congrArg (G9 V c) hemb.symm)
  exact upd_row_congr _ _ _ _ _ _ _ _ _ _ p ⟨t.val * 512 + p.val, hp⟩ q (blk9_4 V c t p q hp) (blk9_0 V c t p hp) (blk9_1 V c t p hp)
    (funext fun a => funext fun b => blk9_2 V c t a b) (funext fun a => funext fun b => blk9_3 V c t a b)

/-- An index of the result is in point `t`'s block exactly when each coordinate is in the block's range. -/
theorem blkMem9 (t : Fin cfg9.N) (i : S32768x512.Idx) :
    i ∈ ((cfg9.win 5).blk t).view.set ↔ ∀ a : Fin 2, win9_5.index t a * S512x512.size a ≤ (i a).val ∧ (i a).val < win9_5.index t a * S512x512.size a + S512x512.size a := by
  show i ∈ ((View.whole (Pipeline.arrRef spec9 5)).slice (win9_5.rect t)).set ↔ _
  rw [View.set_slice_whole, Rect.mem_set_unit]
  exact Iff.rfl

/-- Every index of the result is in some point's block: row `r` is written at point `r / 512`. -/
theorem covered9 (i : S32768x512.Idx) :
    ∃ t : Fin cfg9.N, (cfg9.win 5).flush t = true ∧ i ∈ ((cfg9.win 5).blk t).view.set := by
  have hi0 : (i 0).val < 32768 := (i 0).isLt
  have hi1 : (i 1).val < nCol := (i 1).isLt
  have hN : (i 0).val / 512 < cfg9.N := by rw [show cfg9.N = 64 from N_9]; omega
  obtain ⟨-, -, -, -, -, -, -, -, -, -, e0, e1⟩ := idxFacts9 ⟨(i 0).val / 512, hN⟩
  refine ⟨⟨(i 0).val / 512, hN⟩, flush9_5 _, ?_⟩
  rw [blkMem9]
  intro a
  match a with
  | ⟨0, _⟩ =>
    show win9_5.index ⟨(i 0).val / 512, hN⟩ (0 : Fin 2) * 512 ≤ (i 0).val ∧ (i 0).val < win9_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win9_5.index ⟨(i 0).val / 512, hN⟩ (1 : Fin 2) * nCol ≤ (i 1).val ∧ (i 1).val < win9_5.index ⟨(i 0).val / 512, hN⟩ (1 : Fin 2) * nCol + nCol
    rw [e1]; omega

/-- The result array after the region: the update of the target by the two averaged gathers, read off the arrays as the
    region found them. -/
theorem final9 (c : Dev nD) (i : Fin 32768) (j : Fin nCol) :
    (dat9 (F := Ideal) V c).arrAt 5 cfg9.N (ix2 i j)
      = Spec.upd (fun a b => (V c (Pipeline.arrRef spec9 4) : S32768x512.Idx → EReal) (ix2 a b))
          (Spec.collect (Spec.tr (Spec.adj 2048 (fun r => (V c (Pipeline.arrRef spec9 0) : S32768x1.Idx → BitVec 32) (ix2 r (0 : Fin 1)))))
            (fun a b => (V c (Pipeline.arrRef spec9 2) : S2048x512.Idx → EReal) (ix2 a b)))
          (Spec.collect (Spec.tr (Spec.adj 2048 (fun r => (V c (Pipeline.arrRef spec9 1) : S32768x1.Idx → BitVec 32) (ix2 r (0 : Fin 1)))))
            (fun a b => (V c (Pipeline.arrRef spec9 3) : S2048x512.Idx → EReal) (ix2 a b))) i j := by
  rw [(dat9 (F := Ideal) V c).arrAt_eq_of_cover 5 (G9 V c) (fun t _ => flushed9_eq V c t) (covered9)]
  rfl

end Cert.KernelIdeal.HandV
end
-- ==== Proof.KI.Val10.lean ====
import proofs.«422120_j65652870087589_3_alg».proof.Proof.KI.Reg10
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 10 on the extended reals: the output array after the region is the linear layer of the three input
arrays as the region finds them (the product plus the bias; nothing follows it) -/

/-! ## The sizes and the shapes -/

-- rows of the input and of the result; rows of one block; the inner extent; the result's columns; grid points
local notation "nRows" => 2048
local notation "nBlk" => 512
local notation "nIn" => 512
local notation "nOut" => 256
local notation "nPts" => 4

/-- The input array and one block of its rows, -/
abbrev SXa10 : Shape := S2048x512
abbrev SXb10 : Shape := S512x512
/-- the weight matrix, the bias row, -/
abbrev SW10 : Shape := S512x256
abbrev SB10 : Shape := S1x256
/-- the result array and one block of its rows. -/
abbrev SOa10 : Shape := S2048x256
abbrev SOb10 : Shape := S512x256

/-! ## The block product's index maps, axis by axis -/

/-- The left operand is read at the output's row, -/
theorem lhs10_0 (i : SOb10.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin SXb10.rank) ∈ dot_S512x512_S512x256_S512x256_1_0_0_1_n_n.lhsBatch by decide), dif_pos (show (0 : Fin SXb10.rank) ∈ dot_S512x512_S512x256_S512x256_1_0_0_1_n_n.lhsNonContracting by decide)]
  rfl
/-- and at the inner index as its column; -/
theorem lhs10_1 (i : SOb10.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
/-- the right operand at the inner index as its row, -/
theorem rhs10_0 (i : SOb10.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
/-- and at the output's column. -/
theorem rhs10_1 (i : SOb10.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin SW10.rank) ∈ dot_S512x512_S512x256_S512x256_1_0_0_1_n_n.rhsBatch by decide), dif_pos (show (1 : Fin SW10.rank) ∈ dot_S512x512_S512x256_S512x256_1_0_0_1_n_n.rhsNonContracting by decide)]
  rfl

/-- The block product into the zero accumulator, at row `p` and column `q`: the sum over the inner index of the
    products of the row's and the column's entries. -/
theorem mm10_apply (a : FVec Ideal SXb10 .bf16) (b : FVec Ideal SW10 .bf16) (p : Fin nBlk) (q : Fin nOut) :
    FloatOps.matmul dot_S512x512_S512x256_S512x256_1_0_0_1_n_n none a b (constant (F := Ideal) SOb10 .f32 0x00000000#32) (ix2 p q)
      = ∑ l : Fin nIn, a (ix2 p l) * b (ix2 l q) := by
  rw [Ideal.matmul_constant_zero_apply, ← Equiv.sum_comp (contrEquiv1 dot_S512x512_S512x256_S512x256_1_0_0_1_n_n nIn rfl rfl).symm]
  refine Finset.sum_congr rfl fun k _ => ?_
  have hk := contrEquiv1_symm_val dot_S512x512_S512x256_S512x256_1_0_0_1_n_n nIn rfl rfl k
  have el : dot_S512x512_S512x256_S512x256_1_0_0_1_n_n.lhsIdx (ix2 p q) ((contrEquiv1 dot_S512x512_S512x256_S512x256_1_0_0_1_n_n nIn rfl rfl).symm k) = ix2 p k := funext fun a => Fin.ext (by
    match a with
    | ⟨0, _⟩ => exact lhs10_0 _ _
    | ⟨1, _⟩ => exact (lhs10_1 _ _).trans hk)
  have er : dot_S512x512_S512x256_S512x256_1_0_0_1_n_n.rhsIdx (ix2 p q) ((contrEquiv1 dot_S512x512_S512x256_S512x256_1_0_0_1_n_n nIn rfl rfl).symm k) = ix2 k q := funext fun a => Fin.ext (by
    match a with
    | ⟨0, _⟩ => exact (rhs10_0 _ _).trans hk
    | ⟨1, _⟩ => exact rhs10_1 _ _)
  rw [el, er]

/-! ## The payload at an index -/

/-- The payload at row `p` and column `q` of the block: the row of `x0` against the column of `x1`, plus the bias
    at `q`. On the extended reals a change of float format changes nothing. -/
theorem pay10_apply (x0 : Vec Ideal SXb10 .f32) (x1 : Vec Ideal SW10 .f32) (x2 : Vec Ideal SB10 .f32) (p : Fin nBlk) (q : Fin nOut) :
    k10_pay1 (F := Ideal) x0 x1 x2 (ix2 p q)
      = (∑ l : Fin nIn, x0 (ix2 p l) * x1 (ix2 l q)) + x2 (ix2 (0 : Fin 1) q) := by
  unfold k10_pay1
  simp only [matmul]
  refine congrArg₂ (· + ·) ?_ ?_
  · refine (mm10_apply _ _ p q).trans ?_
    refine Finset.sum_congr rfl fun l _ => ?_
    rw [truncf_apply, truncf_apply, shapeCast_self, shapeCast_self]
  · refine (broadcastTo_1b_ab_apply _ _ p q).trans ?_
    rw [shapeCast_self]

/-! ## From blocks to the array -/

variable (V : (c : Dev nD) → (b : Ref sig .tc) → Buf (Elt Ideal) ((c : Thread nD τ).loc b))

/-- The input, the weight matrix and the bias row as the region finds them. -/
abbrev xarr10 (c : Dev nD) : SXa10.Idx → EReal := V c (Pipeline.arrRef spec10 0)
abbrev warr10 (c : Dev nD) : SW10.Idx → EReal := V c (Pipeline.arrRef spec10 1)
abbrev barr10 (c : Dev nD) : SB10.Idx → EReal := V c (Pipeline.arrRef spec10 2)

/-- The whole result, index by index. -/
abbrev G10 (c : Dev nD) : SOa10.Idx → EReal := fun i =>
  Spec.lin (r := nRows) (k := nIn) (n := nOut) (fun a b => xarr10 V c (ix2 a b)) (fun a b => warr10 V c (ix2 a b))
    (fun b => barr10 V c (ix2 (0 : Fin 1) b)) (i 0) (i 1)

theorem hz10 : (![0, 0] : Fin 2 → Nat) = fun _ => 0 := funext fun a => by fin_cases a <;> rfl

/-- The printed index maps over the grid: the input's block of rows moves with the output's, which is the point's
    number; every other block index is zero. -/
theorem idx_facts10 : ∀ t : Fin cfg10.N,
    win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (1 : Fin 2) = 0 ∧ win10_3.index t (0 : Fin 2) = t.val :=
  (by decide +kernel : ∀ t : Fin grid10.N, _)

/-- What point `t` writes back is block `t` of the whole result. -/
theorem flushed10_eq (c : Dev nD) (t : Fin cfg10.N) :
    (dat10 (F := Ideal) V c).flushed 3 t = ((cfg10.win 3).blk t).view.read (Elt Ideal) (G10 V c) := by
  show (cfg10.win 3).cut (grid10.coords t) ((dat10 (F := Ideal) V c).after 3 t) = _
  rw [after10_3]
  unfold out10_3
  rw [View.canon_unit_zero hz10]
  simp only [View.ld_unit_zero (S := SXb10) hz10, View.ld_unit_zero (S := SW10) hz10, View.ld_unit_zero (S := SB10) hz10]
  obtain ⟨e0, e1, e2, e3, e4, e5, e6, e7⟩ := idx_facts10 t
  funext j
  obtain ⟨p, q, rfl⟩ : ∃ (p : Fin nBlk) (q : Fin nOut), j = ix2 p q := ⟨j 0, j 1, eq_ix2 j⟩
  refine (pay10_apply (iblk10 V c 0 t) (iblk10 V c 1 t) (iblk10 V c 2 t) p q).trans ?_
  -- the row of the array the output's block puts row `p` at, and likewise the column
  have h0 : ∀ l : Fin nIn, ((cfg10.win 0).blk t).view.emb (ix2 p l)
      = ix2 ((((cfg10.win 3).blk t).view.emb (ix2 p q) 0 : Fin nRows)) l := fun l => by
    funext a; apply Fin.ext
    match a with
    | ⟨0, _⟩ => show win10_0.index t (0 : Fin 2) * nBlk + 1 * p.val = win10_3.index t (0 : Fin 2) * nBlk + 1 * p.val; omega
    | ⟨1, _⟩ => show win10_0.index t (1 : Fin 2) * nIn + 1 * l.val = l.val; omega
  have h1 : ∀ l : Fin nIn, ((cfg10.win 1).blk t).view.emb (ix2 l q)
      = ix2 l ((((cfg10.win 3).blk t).view.emb (ix2 p q) 1 : Fin nOut)) := fun l => by
    funext a; apply Fin.ext
    match a with
    | ⟨0, _⟩ => show win10_1.index t (0 : Fin 2) * nIn + 1 * l.val = l.val; omega
    | ⟨1, _⟩ => show win10_1.index t (1 : Fin 2) * nOut + 1 * q.val = win10_3.index t (1 : Fin 2) * nOut + 1 * q.val; omega
  have h2 : ((cfg10.win 2).blk t).view.emb (ix2 (0 : Fin 1) q)
      = ix2 (0 : Fin 1) ((((cfg10.win 3).blk t).view.emb (ix2 p q) 1 : Fin nOut)) := by
    funext a; apply Fin.ext
    match a with
    | ⟨0, _⟩ => show win10_2.index t (0 : Fin 2) * 1 + 1 * 0 = 0; omega
    | ⟨1, _⟩ => show win10_2.index t (1 : Fin 2) * nOut + 1 * q.val = win10_3.index t (1 : Fin 2) * nOut + 1 * q.val; omega
  refine congrArg₂ (· + ·) (Finset.sum_congr rfl fun l _ => ?_) ?_
  · exact congrArg₂ (· * ·) (congrArg (xarr10 V c) (h0 l)) (congrArg (warr10 V c) (h1 l))
  · exact congrArg (barr10 V c) h2

/-- An index of the output array is in point `t`'s block exactly when each coordinate is in the block's range. -/
theorem mem_blk10 (t : Fin cfg10.N) (i : SOa10.Idx) :
    i ∈ ((cfg10.win 3).blk t).view.set ↔ ∀ a : Fin 2, win10_3.index t a * SOb10.size a ≤ (i a).val
      ∧ (i a).val < win10_3.index t a * SOb10.size a + SOb10.size a := by
  show i ∈ ((View.whole main_v71).slice (win10_3.rect t)).set ↔ _
  rw [View.set_slice_whole, Rect.mem_set_unit]
  exact Iff.rfl

/-- Every index of the output array is in some point's block: a row is in the block of the point numbered by the
    row's quotient by the rows of a block. -/
theorem cover10 (i : SOa10.Idx) :
    ∃ t : Fin cfg10.N, (cfg10.win 3).flush t = true ∧ i ∈ ((cfg10.win 3).blk t).view.set := by
  have hi0 : (i 0).val < nRows := (i 0).isLt
  have hi1 : (i 1).val < nOut := (i 1).isLt
  have hN : cfg10.N = nPts := N_10
  refine ⟨⟨(i 0).val / nBlk, by omega⟩, flush10_3 _, ?_⟩
  obtain ⟨e0, e1, e2, e3, e4, e5, e6, e7⟩ := idx_facts10 ⟨(i 0).val / nBlk, by omega⟩
  rw [mem_blk10]
  intro a
  match a with
  | ⟨0, _⟩ =>
    show win10_3.index ⟨(i 0).val / nBlk, _⟩ (0 : Fin 2) * nBlk ≤ (i 0).val
      ∧ (i 0).val < win10_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win10_3.index ⟨(i 0).val / nBlk, _⟩ (1 : Fin 2) * nOut ≤ (i 1).val
      ∧ (i 1).val < win10_3.index ⟨(i 0).val / nBlk, _⟩ (1 : Fin 2) * nOut + nOut
    rw [e6]; omega

/-- THE VALUE: after the region the output array holds, at row `i` and column `j`, the linear layer of the input, the
    weight matrix and the bias row as the region found them. -/
theorem final10 (c : Dev nD) (i : Fin nRows) (j : Fin nOut) :
    (dat10 (F := Ideal) V c).arrAt 3 cfg10.N (ix2 i j)
      = Spec.lin (fun a b => (V c (Pipeline.arrRef spec10 0) : SXa10.Idx → EReal) (ix2 a b))
          (fun a b => (V c (Pipeline.arrRef spec10 1) : SW10.Idx → EReal) (ix2 a b))
          (fun b => (V c (Pipeline.arrRef spec10 2) : SB10.Idx → EReal) (ix2 (0 : Fin 1) b)) i j := by
  rw [(dat10 (F := Ideal) V c).arrAt_eq_of_cover 3 (G10 V c) (fun t _ => flushed10_eq V c t) (cover10)]

end Cert.KernelIdeal.HandV

end
-- ==== Proof.KI.Val11.lean ====
import proofs.«422120_j65652870087589_3_alg».proof.Proof.KI.Reg11
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 11 on the extended reals: the output array after the region is the linear layer of the three input
arrays as the region finds them (the product plus the bias; nothing follows it) -/

/-! ## The sizes and the shapes -/

-- rows of the input and of the result; rows of one block; the inner extent; the result's columns; grid points
local notation "nRows" => 32768
local notation "nBlk" => 512
local notation "nIn" => 512
local notation "nOut" => 128
local notation "nPts" => 64

/-- The input array and one block of its rows, -/
abbrev SXa11 : Shape := S32768x512
abbrev SXb11 : Shape := S512x512
/-- the weight matrix, the bias row, -/
abbrev SW11 : Shape := S512x128
abbrev SB11 : Shape := S1x128
/-- the result array and one block of its rows. -/
abbrev SOa11 : Shape := S32768x128
abbrev SOb11 : Shape := S512x128

/-! ## The block product's index maps, axis by axis -/

/-- The left operand is read at the output's row, -/
theorem lhs11_0 (i : SOb11.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin SXb11.rank) ∈ dot_S512x512_S512x128_S512x128_1_0_0_1_n_n.lhsBatch by decide), dif_pos (show (0 : Fin SXb11.rank) ∈ dot_S512x512_S512x128_S512x128_1_0_0_1_n_n.lhsNonContracting by decide)]
  rfl
/-- and at the inner index as its column; -/
theorem lhs11_1 (i : SOb11.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- the right operand at the inner index as its row, -/
theorem rhs11_0 (i : SOb11.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
/-- and at the output's column. -/
theorem rhs11_1 (i : SOb11.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin SW11.rank) ∈ dot_S512x512_S512x128_S512x128_1_0_0_1_n_n.rhsBatch by decide), dif_pos (show (1 : Fin SW11.rank) ∈ dot_S512x512_S512x128_S512x128_1_0_0_1_n_n.rhsNonContracting by decide)]
  rfl

/-- The block product into the zero accumulator, at row `p` and column `q`: the sum over the inner index of the
    products of the row's and the column's entries. -/
theorem mm11_apply (a : FVec Ideal SXb11 .bf16) (b : FVec Ideal SW11 .bf16) (p : Fin nBlk) (q : Fin nOut) :
    FloatOps.matmul dot_S512x512_S512x128_S512x128_1_0_0_1_n_n none a b (constant (F := Ideal) SOb11 .f32 0x00000000#32) (ix2 p q)
      = ∑ l : Fin nIn, a (ix2 p l) * b (ix2 l q) := by
  rw [Ideal.matmul_constant_zero_apply, ← Equiv.sum_comp (contrEquiv1 dot_S512x512_S512x128_S512x128_1_0_0_1_n_n nIn rfl rfl).symm]
  refine Finset.sum_congr rfl fun k _ => ?_
  have hk := contrEquiv1_symm_val dot_S512x512_S512x128_S512x128_1_0_0_1_n_n nIn rfl rfl k
  have el : dot_S512x512_S512x128_S512x128_1_0_0_1_n_n.lhsIdx (ix2 p q) ((contrEquiv1 dot_S512x512_S512x128_S512x128_1_0_0_1_n_n nIn rfl rfl).symm k) = ix2 p k := funext fun a => Fin.ext (by
    match a with
    | ⟨0, _⟩ => exact lhs11_0 _ _
    | ⟨1, _⟩ => exact (lhs11_1 _ _).trans hk)
  have er : dot_S512x512_S512x128_S512x128_1_0_0_1_n_n.rhsIdx (ix2 p q) ((contrEquiv1 dot_S512x512_S512x128_S512x128_1_0_0_1_n_n nIn rfl rfl).symm k) = ix2 k q := funext fun a => Fin.ext (by
    match a with
    | ⟨0, _⟩ => exact (rhs11_0 _ _).trans hk
    | ⟨1, _⟩ => exact rhs11_1 _ _)
  rw [el, er]

/-! ## The payload at an index -/

/-- The payload at row `p` and column `q` of the block: the row of `x0` against the column of `x1`, plus the bias
    at `q`. On the extended reals a change of float format changes nothing. -/
theorem pay11_apply (x0 : Vec Ideal SXb11 .f32) (x1 : Vec Ideal SW11 .f32) (x2 : Vec Ideal SB11 .f32) (p : Fin nBlk) (q : Fin nOut) :
    k11_pay1 (F := Ideal) x0 x1 x2 (ix2 p q)
      = (∑ l : Fin nIn, x0 (ix2 p l) * x1 (ix2 l q)) + x2 (ix2 (0 : Fin 1) q) := by
  unfold k11_pay1
  simp only [matmul]
  refine congrArg₂ (· + ·) ?_ ?_
  · refine (mm11_apply _ _ p q).trans ?_
    refine Finset.sum_congr rfl fun l _ => ?_
    rw [truncf_apply, truncf_apply, shapeCast_self, shapeCast_self]
  · refine (broadcastTo_1b_ab_apply _ _ p q).trans ?_
    rw [shapeCast_self]

/-! ## From blocks to the array -/

variable (V : (c : Dev nD) → (b : Ref sig .tc) → Buf (Elt Ideal) ((c : Thread nD τ).loc b))

/-- The input, the weight matrix and the bias row as the region finds them. -/
abbrev xarr11 (c : Dev nD) : SXa11.Idx → EReal := V c (Pipeline.arrRef spec11 0)
abbrev warr11 (c : Dev nD) : SW11.Idx → EReal := V c (Pipeline.arrRef spec11 1)
abbrev barr11 (c : Dev nD) : SB11.Idx → EReal := V c (Pipeline.arrRef spec11 2)

/-- The whole result, index by index. -/
abbrev G11 (c : Dev nD) : SOa11.Idx → EReal := fun i =>
  Spec.lin (r := nRows) (k := nIn) (n := nOut) (fun a b => xarr11 V c (ix2 a b)) (fun a b => warr11 V c (ix2 a b))
    (fun b => barr11 V c (ix2 (0 : Fin 1) b)) (i 0) (i 1)

theorem hz11 : (![0, 0] : Fin 2 → Nat) = fun _ => 0 := funext fun a => by fin_cases a <;> rfl

/-- The printed index maps over the grid: the input's block of rows moves with the output's, which is the point's
    number; every other block index is zero. -/
theorem idx_facts11 : ∀ t : Fin cfg11.N,
    win11_0.index t (0 : Fin 2) = win11_3.index t (0 : Fin 2) ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (1 : Fin 2) = 0 ∧ win11_3.index t (0 : Fin 2) = t.val :=
  (by decide +kernel : ∀ t : Fin grid11.N, _)

/-- What point `t` writes back is block `t` of the whole result. -/
theorem flushed11_eq (c : Dev nD) (t : Fin cfg11.N) :
    (dat11 (F := Ideal) V c).flushed 3 t = ((cfg11.win 3).blk t).view.read (Elt Ideal) (G11 V c) := by
  show (cfg11.win 3).cut (grid11.coords t) ((dat11 (F := Ideal) V c).after 3 t) = _
  rw [after11_3]
  unfold out11_3
  rw [View.canon_unit_zero hz11]
  simp only [View.ld_unit_zero (S := SXb11) hz11, View.ld_unit_zero (S := SW11) hz11, View.ld_unit_zero (S := SB11) hz11]
  obtain ⟨e0, e1, e2, e3, e4, e5, e6, e7⟩ := idx_facts11 t
  funext j
  obtain ⟨p, q, rfl⟩ : ∃ (p : Fin nBlk) (q : Fin nOut), j = ix2 p q := ⟨j 0, j 1, eq_ix2 j⟩
  refine (pay11_apply (iblk11 V c 0 t) (iblk11 V c 1 t) (iblk11 V c 2 t) p q).trans ?_
  -- the row of the array the output's block puts row `p` at, and likewise the column
  have h0 : ∀ l : Fin nIn, ((cfg11.win 0).blk t).view.emb (ix2 p l)
      = ix2 ((((cfg11.win 3).blk t).view.emb (ix2 p q) 0 : Fin nRows)) l := fun l => by
    funext a; apply Fin.ext
    match a with
    | ⟨0, _⟩ => show win11_0.index t (0 : Fin 2) * nBlk + 1 * p.val = win11_3.index t (0 : Fin 2) * nBlk + 1 * p.val; omega
    | ⟨1, _⟩ => show win11_0.index t (1 : Fin 2) * nIn + 1 * l.val = l.val; omega
  have h1 : ∀ l : Fin nIn, ((cfg11.win 1).blk t).view.emb (ix2 l q)
      = ix2 l ((((cfg11.win 3).blk t).view.emb (ix2 p q) 1 : Fin nOut)) := fun l => by
    funext a; apply Fin.ext
    match a with
    | ⟨0, _⟩ => show win11_1.index t (0 : Fin 2) * nIn + 1 * l.val = l.val; omega
    | ⟨1, _⟩ => show win11_1.index t (1 : Fin 2) * nOut + 1 * q.val = win11_3.index t (1 : Fin 2) * nOut + 1 * q.val; omega
  have h2 : ((cfg11.win 2).blk t).view.emb (ix2 (0 : Fin 1) q)
      = ix2 (0 : Fin 1) ((((cfg11.win 3).blk t).view.emb (ix2 p q) 1 : Fin nOut)) := by
    funext a; apply Fin.ext
    match a with
    | ⟨0, _⟩ => show win11_2.index t (0 : Fin 2) * 1 + 1 * 0 = 0; omega
    | ⟨1, _⟩ => show win11_2.index t (1 : Fin 2) * nOut + 1 * q.val = win11_3.index t (1 : Fin 2) * nOut + 1 * q.val; omega
  refine congrArg₂ (· + ·) (Finset.sum_congr rfl fun l _ => ?_) ?_
  · exact congrArg₂ (· * ·) (congrArg (xarr11 V c) (h0 l)) (congrArg (warr11 V c) (h1 l))
  · exact congrArg (barr11 V c) h2

/-- An index of the output array is in point `t`'s block exactly when each coordinate is in the block's range. -/
theorem mem_blk11 (t : Fin cfg11.N) (i : SOa11.Idx) :
    i ∈ ((cfg11.win 3).blk t).view.set ↔ ∀ a : Fin 2, win11_3.index t a * SOb11.size a ≤ (i a).val
      ∧ (i a).val < win11_3.index t a * SOb11.size a + SOb11.size a := by
  show i ∈ ((View.whole main_v73).slice (win11_3.rect t)).set ↔ _
  rw [View.set_slice_whole, Rect.mem_set_unit]
  exact Iff.rfl

/-- Every index of the output array is in some point's block: a row is in the block of the point numbered by the
    row's quotient by the rows of a block. -/
theorem cover11 (i : SOa11.Idx) :
    ∃ t : Fin cfg11.N, (cfg11.win 3).flush t = true ∧ i ∈ ((cfg11.win 3).blk t).view.set := by
  have hi0 : (i 0).val < nRows := (i 0).isLt
  have hi1 : (i 1).val < nOut := (i 1).isLt
  have hN : cfg11.N = nPts := N_11
  refine ⟨⟨(i 0).val / nBlk, by omega⟩, flush11_3 _, ?_⟩
  obtain ⟨e0, e1, e2, e3, e4, e5, e6, e7⟩ := idx_facts11 ⟨(i 0).val / nBlk, by omega⟩
  rw [mem_blk11]
  intro a
  match a with
  | ⟨0, _⟩ =>
    show win11_3.index ⟨(i 0).val / nBlk, _⟩ (0 : Fin 2) * nBlk ≤ (i 0).val
      ∧ (i 0).val < win11_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win11_3.index ⟨(i 0).val / nBlk, _⟩ (1 : Fin 2) * nOut ≤ (i 1).val
      ∧ (i 1).val < win11_3.index ⟨(i 0).val / nBlk, _⟩ (1 : Fin 2) * nOut + nOut
    rw [e6]; omega

/-- THE VALUE: after the region the output array holds, at row `i` and column `j`, the linear layer of the input, the
    weight matrix and the bias row as the region found them. -/
theorem final11 (c : Dev nD) (i : Fin nRows) (j : Fin nOut) :
    (dat11 (F := Ideal) V c).arrAt 3 cfg11.N (ix2 i j)
      = Spec.lin (fun a b => (V c (Pipeline.arrRef spec11 0) : SXa11.Idx → EReal) (ix2 a b))
          (fun a b => (V c (Pipeline.arrRef spec11 1) : SW11.Idx → EReal) (ix2 a b))
          (fun b => (V c (Pipeline.arrRef spec11 2) : SB11.Idx → EReal) (ix2 (0 : Fin 1) b)) i j := by
  rw [(dat11 (F := Ideal) V c).arrAt_eq_of_cover 3 (G11 V c) (fun t _ => flushed11_eq V c t) (cover11)]

end Cert.KernelIdeal.HandV

end
-- ==== Proof.KI.Val12.lean ====
import proofs.«422120_j65652870087589_3_alg».proof.Proof.KI.Reg12
import proofs.«422120_j65652870087589_3_alg».proof.Proof.KI.ValCollect
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators
variable (V : (c : Dev nD) → (b : Ref sig .tc) → Buf (Elt Ideal) ((c : Thread nD τ).loc b))

/-! # Region 12's payloads at an entry (extended reals) -/

theorem hz12 : (![0, 0] : Fin 2 → Nat) = fun _ => 0 := funext fun a => by fin_cases a <;> rfl

/-- A column `[a, 1]` broadcast to `[a, b]` reads, at (p, c), the column at p. -/
theorem broadcastTo_a1_ab_apply_12 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at (i, u), the operand at i. -/
theorem shapeCast_a_a1_apply_12 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The projected, rectified source tile at (l, j): relu(src_l · W[:, j] + b_j). -/
theorem pay8_apply_12 (x2 : Vec Ideal S512x128 .f32) (x3 : Vec Ideal S128x256 .f32) (x4 : Vec Ideal S1x256 .f32) (l : Fin 512) (j : Fin 256) :
    k12_pay8 (F := Ideal) x2 x3 x4 (ix2 l j) = Spec.relu ((∑ d : Fin 128, x2 (ix2 l d) * x3 (ix2 d j)) + x4 (ix2 0 j)) := by
  unfold k12_pay8 k12_pay7
  simp only [shapeCast_self]
  rw [truncf_apply, maximumf_apply, addf_apply, broadcast_apply, broadcastTo_1b_ab_apply]
  have hd : dot_S512x128_S128x256_S512x256_1_0_0_1_n_n = ⟨[1], [0], [0], [1], [], [], dot_S512x128_S128x256_S512x256_1_0_0_1_n_n_wf⟩ := rfl
  rw [hd, matmul0_plain_apply]
  exact max_zero_eq_relu _

theorem pay9_apply_12 (x2 : Vec Ideal S512x128 .f32) (x5 : Vec Ideal S128x256 .f32) (x6 : Vec Ideal S1x256 .f32) (l : Fin 512) (j : Fin 256) :
    k12_pay9 (F := Ideal) x2 x5 x6 (ix2 l j) = Spec.relu ((∑ d : Fin 128, x2 (ix2 l d) * x5 (ix2 d j)) + x6 (ix2 0 j)) := by
  unfold k12_pay9 k12_pay7
  simp only [shapeCast_self]
  rw [truncf_apply, maximumf_apply, addf_apply, broadcast_apply, broadcastTo_1b_ab_apply]
  have hd : dot_S512x128_S128x256_S512x256_1_0_0_1_n_n = ⟨[1], [0], [0], [1], [], [], dot_S512x128_S128x256_S512x256_1_0_0_1_n_n_wf⟩ := rfl
  rw [hd, matmul0_plain_apply]
  exact max_zero_eq_relu _

/-- The index row as the comparison takes it. -/
theorem pay11_eq_12 (v : Vec Ideal S1x512 .i32) : k12_pay11 (F := Ideal) v = v := by
  unfold k12_pay11; exact shapeCast_self _ _
theorem pay12_eq_12 (v : Vec Ideal S1x512 .i32) : k12_pay12 (F := Ideal) v = v := by
  unfold k12_pay12; exact shapeCast_self _ _

/-- The first comparison tile at (r, l): 1 exactly when the tile's l-th index word is the number of row r of block row i. -/
theorem hot13_apply_12 (i : grid12.Coords) (x : IVec S1x512 32) (r : Fin 1024) (l : Fin 512) :
    (sitofp .f32 (extui 32 (k12_pay13 (k12_pay10 i) x) natLt_1_32) : FVec Ideal S1024x512 .f32) (ix2 r l)
      = hot (i 0).val r.val (x (ix2 0 l)) := by
  rw [sitofp_apply, extui_apply]
  unfold k12_pay13 k12_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

theorem hot14_apply_12 (i : grid12.Coords) (x : IVec S1x512 32) (r : Fin 1024) (l : Fin 512) :
    (sitofp .f32 (extui 32 (k12_pay14 (k12_pay10 i) x) natLt_1_32) : FVec Ideal S1024x512 .f32) (ix2 r l)
      = hot (i 0).val r.val (x (ix2 0 l)) := by
  rw [sitofp_apply, extui_apply]
  unfold k12_pay14 k12_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

/-- The first weighted sum's update at (r, j): what was there plus the tile's 0/1-weighted sum of the projected rows. -/
theorem pay15_apply_12 (fc : FVec Ideal S512x256 .bf16) (i : grid12.Coords) (x : IVec S1x512 32) (p : Vec Ideal S1024x256 .f32)
    (r : Fin 1024) (j : Fin 256) :
    k12_pay15 (F := Ideal) fc (k12_pay10 i) x p (ix2 r j)
      = p (ix2 r j) + ∑ l : Fin 512, hot (i 0).val r.val (x (ix2 0 l)) * fc (ix2 l j) := by
  unfold k12_pay15
  simp only [shapeCast_self]
  rw [addf_apply]
  have hd : dot_S1024x512_S512x256_S1024x256_1_0_0_1_n_n = ⟨[1], [0], [0], [1], [], [], dot_S1024x512_S512x256_S1024x256_1_0_0_1_n_n_wf⟩ := rfl
  rw [hd, matmul0_plain_apply]
  refine congrArg (p (ix2 r j) + ·) (Finset.sum_congr rfl fun l _ => ?_)
  rw [truncf_apply, hot13_apply_12]

theorem pay16_apply_12 (fc : FVec Ideal S512x256 .bf16) (i : grid12.Coords) (x : IVec S1x512 32) (p : Vec Ideal S1024x256 .f32)
    (r : Fin 1024) (j : Fin 256) :
    k12_pay16 (F := Ideal) fc (k12_pay10 i) x p (ix2 r j)
      = p (ix2 r j) + ∑ l : Fin 512, hot (i 0).val r.val (x (ix2 0 l)) * fc (ix2 l j) := by
  unfold k12_pay16
  simp only [shapeCast_self]
  rw [addf_apply]
  have hd : dot_S1024x512_S512x256_S1024x256_1_0_0_1_n_n = ⟨[1], [0], [0], [1], [], [], dot_S1024x512_S512x256_S1024x256_1_0_0_1_n_n_wf⟩ := rfl
  rw [hd, matmul0_plain_apply]
  refine congrArg (p (ix2 r j) + ·) (Finset.sum_congr rfl fun l _ => ?_)
  rw [truncf_apply, hot14_apply_12]

/-- Row r with lane l put back on the summed axis is (r, l). -/
theorem lift_lane_12 (r : Fin 1024) (l : Fin 512) : reduces_S1024x512_S1024.lift (ix1 r) l = ix2 r l :=
  funext fun a => Fin.ext (match a with | ⟨0, _⟩ => rfl | ⟨1, _⟩ => rfl)

/-- The first row count's update at (r, 0): what was there plus the number of the tile's index words naming row r. -/
theorem pay17_apply_12 (i : grid12.Coords) (x : IVec S1x512 32) (p : Vec Ideal S1024x1 .f32) (r : Fin 1024) :
    k12_pay17 (F := Ideal) (k12_pay10 i) x p (ix2 r 0) = p (ix2 r 0) + ∑ l : Fin 512, hot (i 0).val r.val (x (ix2 0 l)) := by
  unfold k12_pay17
  simp only [shapeCast_self]
  rw [addf_apply, shapeCast_a_a1_apply_12]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k12_pay13 (k12_pay10 i) x) natLt_1_32) : FVec Ideal S1024x512 .f32) (lift_lane_12 r l)).trans
    (hot13_apply_12 i x r l)

theorem pay18_apply_12 (i : grid12.Coords) (x : IVec S1x512 32) (p : Vec Ideal S1024x1 .f32) (r : Fin 1024) :
    k12_pay1 (F := Ideal) (k12_pay18 (k12_pay10 i) x p) (ix2 r 0) = p (ix2 r 0) + ∑ l : Fin 512, hot (i 0).val r.val (x (ix2 0 l)) := by
  unfold k12_pay1 k12_pay18
  simp only [shapeCast_self]
  rw [addf_apply, shapeCast_a_a1_apply_12]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k12_pay14 (k12_pay10 i) x) natLt_1_32) : FVec Ideal S1024x512 .f32) (lift_lane_12 r l)).trans
    (hot14_apply_12 i x r l)

/-- The finalize payload at (r, j): target + ½ (a₀ / (d₀ + ε) + a₁ / (d₁ + ε)). -/
theorem pay2_apply_12 (a0 : Vec Ideal S1024x256 .f32) (d0 : Vec Ideal S1024x1 .f32) (a1 : Vec Ideal S1024x256 .f32)
    (d1 : Vec Ideal S1024x1 .f32) (x7 : Vec Ideal S1024x256 .f32) (r : Fin 1024) (j : Fin 256) :
    k12_pay2 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold k12_pay2
  simp only [shapeCast_self]
  rw [addf_apply, mulf_apply, addf_apply, divf_apply, divf_apply, broadcastTo_a1_ab_apply_12, broadcastTo_a1_ab_apply_12,
    addf_apply, addf_apply]
  rfl

/-! # One point's contribution to the four running sums, at an entry -/

/-- The zero the first point of a row block starts each sum from. -/
theorem pay3_apply_12 (y : S1024x256.Idx) : k12_pay3 (F := Ideal) y = 0 := by
  unfold k12_pay3; simp only [shapeCast_self]; exact Ideal.ofBits_zero_f32
theorem pay4_apply_12 (y : S1024x256.Idx) : k12_pay4 (F := Ideal) y = 0 := by
  unfold k12_pay4; simp only [shapeCast_self]; exact Ideal.ofBits_zero_f32
theorem pay5_apply_12 (y : S1024x1.Idx) : k12_pay5 (F := Ideal) y = 0 := by
  unfold k12_pay5; simp only [shapeCast_self]; exact Ideal.ofBits_zero_f32
theorem pay6_apply_12 (y : S1024x1.Idx) : k12_pay6 (F := Ideal) y = 0 := by
  unfold k12_pay6; simp only [shapeCast_self]; exact Ideal.ofBits_zero_f32

/-- The projected, rectified source tile at (l, j): relu(src_l · W[:, j] + b_j). -/
def fcAt_12 (x2 : Vec Ideal S512x128 .f32) (xW : Vec Ideal S128x256 .f32) (xb : Vec Ideal S1x256 .f32) (l : Fin 512) (j : Fin 256) : EReal :=
  Spec.relu ((∑ d : Fin 128, x2 (ix2 l d) * xW (ix2 d j)) + xb (ix2 0 j))

/-- The tile's addend to a weighted sum at (r, j): Σ_l [idx_l names row r of block row i] · relu(src_l · W[:, j] + b_j). -/
def addW_12 (i : ℕ) (x : Vec Ideal S1x512 .i32) (x2 : Vec Ideal S512x128 .f32) (xW : Vec Ideal S128x256 .f32) (xb : Vec Ideal S1x256 .f32)
    (r : Fin 1024) (j : Fin 256) : EReal :=
  ∑ l : Fin 512, hot i r.val (x (ix2 0 l)) * fcAt_12 x2 xW xb l j

/-- The tile's addend to a row count at r: the number of its index words naming row r of block row i. -/
def addC_12 (i : ℕ) (x : Vec Ideal S1x512 .i32) (r : Fin 1024) : EReal := ∑ l : Fin 512, hot i r.val (x (ix2 0 l))

theorem acc12_0_apply (i : grid12.Coords) (x0 : Vec Ideal S1x512 .i32) (x2 : Vec Ideal S512x128 .f32) (x3 : Vec Ideal S128x256 .f32) (x4 : Vec Ideal S1x256 .f32)
    (p : Vec Ideal S1024x256 .f32) (r : Fin 1024) (j : Fin 256) :
    acc12_0 (F := Ideal) i x0 x2 x3 x4 p (ix2 r j) = p (ix2 r j) + addW_12 (i 0).val x0 x2 x3 x4 r j := by
  unfold acc12_0
  rw [View.canon_unit_zero hz12]
  simp only [View.ld_unit_zero (S := S1x512) hz12, View.ld_unit_zero (S := S1x256) hz12, View.ld_unit_zero (S := S512x128) hz12, View.ld_unit_zero (S := S128x256) hz12, pay11_eq_12]
  rw [pay15_apply_12]
  refine congrArg (p (ix2 r j) + ·) (Finset.sum_congr rfl fun l _ => ?_)
  rw [pay8_apply_12]
  rfl

theorem acc12_1_apply (i : grid12.Coords) (x1 : Vec Ideal S1x512 .i32) (x2 : Vec Ideal S512x128 .f32) (x5 : Vec Ideal S128x256 .f32) (x6 : Vec Ideal S1x256 .f32)
    (p : Vec Ideal S1024x256 .f32) (r : Fin 1024) (j : Fin 256) :
    acc12_1 (F := Ideal) i x1 x2 x5 x6 p (ix2 r j) = p (ix2 r j) + addW_12 (i 0).val x1 x2 x5 x6 r j := by
  unfold acc12_1
  rw [View.canon_unit_zero hz12]
  simp only [View.ld_unit_zero (S := S1x512) hz12, View.ld_unit_zero (S := S1x256) hz12, View.ld_unit_zero (S := S512x128) hz12, View.ld_unit_zero (S := S128x256) hz12, pay12_eq_12]
  rw [pay16_apply_12]
  refine congrArg (p (ix2 r j) + ·) (Finset.sum_congr rfl fun l _ => ?_)
  rw [pay9_apply_12]
  rfl

theorem acc12_2_apply (i : grid12.Coords) (x0 : Vec Ideal S1x512 .i32) (p : Vec Ideal S1024x1 .f32) (r : Fin 1024) :
    acc12_2 (F := Ideal) i x0 p (ix2 r 0) = p (ix2 r 0) + addC_12 (i 0).val x0 r := by
  unfold acc12_2
  rw [View.canon_unit_zero hz12]
  simp only [View.ld_unit_zero (S := S1x512) hz12, View.ld_unit_zero (S := S1x256) hz12, pay11_eq_12]
  exact pay17_apply_12 i x0 p r

theorem acc12_3_apply (i : grid12.Coords) (x1 : Vec Ideal S1x512 .i32) (p : Vec Ideal S1024x1 .f32) (r : Fin 1024) :
    acc12_3 (F := Ideal) i x1 p (ix2 r 0) = p (ix2 r 0) + addC_12 (i 0).val x1 r := by
  unfold acc12_3
  rw [View.canon_unit_zero hz12]
  simp only [View.ld_unit_zero (S := S1x512) hz12, View.ld_unit_zero (S := S1x256) hz12, pay12_eq_12]
  exact pay18_apply_12 i x1 p r

theorem out12_8_apply (a0 : Vec Ideal S1024x256 .f32) (d0 : Vec Ideal S1024x1 .f32) (a1 : Vec Ideal S1024x256 .f32)
    (d1 : Vec Ideal S1024x1 .f32) (x7 : Vec Ideal S1024x256 .f32) (r : Fin 1024) (j : Fin 256) :
    out12_8 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold out12_8
  rw [View.canon_unit_zero hz12]
  simp only [View.ld_unit_zero (S := S1024x256) hz12, View.ld_unit_zero (S := S1024x1) hz12]
  exact pay2_apply_12 a0 d0 a1 d1 x7 r j

/-! # The four sums after each point: the sum of the addends of the run so far -/

/-- Point `m`'s addends (zero past the grid, where they are never used). -/
def M12_0 (c : Dev nD) (m : ℕ) (r : Fin 1024) (j : Fin 256) : EReal :=
  if h : m < cfg12.N then addW_12 (grid12.coords ⟨m, h⟩ 0).val (iblk12 V c 0 ⟨m, h⟩) (iblk12 V c 2 ⟨m, h⟩) (iblk12 V c 3 ⟨m, h⟩) (iblk12 V c 4 ⟨m, h⟩) r j else 0
def M12_1 (c : Dev nD) (m : ℕ) (r : Fin 1024) (j : Fin 256) : EReal :=
  if h : m < cfg12.N then addW_12 (grid12.coords ⟨m, h⟩ 0).val (iblk12 V c 1 ⟨m, h⟩) (iblk12 V c 2 ⟨m, h⟩) (iblk12 V c 5 ⟨m, h⟩) (iblk12 V c 6 ⟨m, h⟩) r j else 0
def M12_2 (c : Dev nD) (m : ℕ) (r : Fin 1024) : EReal :=
  if h : m < cfg12.N then addC_12 (grid12.coords ⟨m, h⟩ 0).val (iblk12 V c 0 ⟨m, h⟩) r else 0
def M12_3 (c : Dev nD) (m : ℕ) (r : Fin 1024) : EReal :=
  if h : m < cfg12.N then addC_12 (grid12.coords ⟨m, h⟩ 0).val (iblk12 V c 1 ⟨m, h⟩) r else 0

/-- THE ACCUMULATOR INVARIANT, first weighted sum: after point `n` the running-sum array holds, at (r, j), the sum of the
    addends of the points `64 (n / 64) … n` of its row block. -/
theorem scr12_0_eq (c : Dev nD) (r : Fin 1024) (j : Fin 256) (n : ℕ) (h : n < cfg12.N) :
    (scrAt12 V c n h).1 (ix2 r j) = ∑ s ∈ Finset.range (n % 64 + 1), M12_0 V c (64 * (n / 64) + s) r j := by
  refine fold64 (fun n h => (scrAt12 V c n h).1 (ix2 r j)) (fun m => M12_0 V c m r j) ?_ ?_ n h
  · intro n h hm
    have e := congrArg Prod.fst (scrAt12_first V c ⟨n, h⟩ hm)
    dsimp only at e
    show (scrAt12 V c n h).1 (ix2 r j) = M12_0 V c n r j
    rw [e, acc12_0_apply, pay3_apply_12, zero_add]
    unfold M12_0; rw [dif_pos h]
  · intro n h hm
    have e := congrArg Prod.fst (scrAt12_next V c ⟨n + 1, h⟩ hm)
    dsimp only at e
    show (scrAt12 V c (n + 1) h).1 (ix2 r j) = (scrAt12 V c n (Nat.lt_of_succ_lt h)).1 (ix2 r j) + M12_0 V c (n + 1) r j
    rw [e, acc12_0_apply, View.ld_unit_zero (S := S1024x256) hz12]
    unfold M12_0; rw [dif_pos h]
    rfl

/-- The second weighted sum likewise. -/
theorem scr12_1_eq (c : Dev nD) (r : Fin 1024) (j : Fin 256) (n : ℕ) (h : n < cfg12.N) :
    (scrAt12 V c n h).2.1 (ix2 r j) = ∑ s ∈ Finset.range (n % 64 + 1), M12_1 V c (64 * (n / 64) + s) r j := by
  refine fold64 (fun n h => (scrAt12 V c n h).2.1 (ix2 r j)) (fun m => M12_1 V c m r j) ?_ ?_ n h
  · intro n h hm
    have e := congrArg (fun q => q.2.1) (scrAt12_first V c ⟨n, h⟩ hm)
    dsimp only at e
    show (scrAt12 V c n h).2.1 (ix2 r j) = M12_1 V c n r j
    rw [e, acc12_1_apply, pay4_apply_12, zero_add]
    unfold M12_1; rw [dif_pos h]
  · intro n h hm
    have e := congrArg (fun q => q.2.1) (scrAt12_next V c ⟨n + 1, h⟩ hm)
    dsimp only at e
    show (scrAt12 V c (n + 1) h).2.1 (ix2 r j) = (scrAt12 V c n (Nat.lt_of_succ_lt h)).2.1 (ix2 r j) + M12_1 V c (n + 1) r j
    rw [e, acc12_1_apply, View.ld_unit_zero (S := S1024x256) hz12]
    unfold M12_1; rw [dif_pos h]
    rfl

/-- The first row count likewise. -/
theorem scr12_2_eq (c : Dev nD) (r : Fin 1024) (n : ℕ) (h : n < cfg12.N) :
    (scrAt12 V c n h).2.2.1 (ix2 r 0) = ∑ s ∈ Finset.range (n % 64 + 1), M12_2 V c (64 * (n / 64) + s) r := by
  refine fold64 (fun n h => (scrAt12 V c n h).2.2.1 (ix2 r 0)) (fun m => M12_2 V c m r) ?_ ?_ n h
  · intro n h hm
    have e := congrArg (fun q => q.2.2.1) (scrAt12_first V c ⟨n, h⟩ hm)
    dsimp only at e
    show (scrAt12 V c n h).2.2.1 (ix2 r 0) = M12_2 V c n r
    rw [e, acc12_2_apply, pay5_apply_12, zero_add]
    unfold M12_2; rw [dif_pos h]
  · intro n h hm
    have e := congrArg (fun q => q.2.2.1) (scrAt12_next V c ⟨n + 1, h⟩ hm)
    dsimp only at e
    show (scrAt12 V c (n + 1) h).2.2.1 (ix2 r 0) = (scrAt12 V c n (Nat.lt_of_succ_lt h)).2.2.1 (ix2 r 0) + M12_2 V c (n + 1) r
    rw [e, acc12_2_apply, View.ld_unit_zero (S := S1024x1) hz12]
    unfold M12_2; rw [dif_pos h]
    rfl

/-- The second row count likewise. -/
theorem scr12_3_eq (c : Dev nD) (r : Fin 1024) (n : ℕ) (h : n < cfg12.N) :
    (scrAt12 V c n h).2.2.2 (ix2 r 0) = ∑ s ∈ Finset.range (n % 64 + 1), M12_3 V c (64 * (n / 64) + s) r := by
  refine fold64 (fun n h => (scrAt12 V c n h).2.2.2 (ix2 r 0)) (fun m => M12_3 V c m r) ?_ ?_ n h
  · intro n h hm
    have e := congrArg (fun q => q.2.2.2) (scrAt12_first V c ⟨n, h⟩ hm)
    dsimp only at e
    show (scrAt12 V c n h).2.2.2 (ix2 r 0) = M12_3 V c n r
    rw [e, acc12_3_apply, pay6_apply_12, zero_add]
    unfold M12_3; rw [dif_pos h]
  · intro n h hm
    have e := congrArg (fun q => q.2.2.2) (scrAt12_next V c ⟨n + 1, h⟩ hm)
    dsimp only at e
    show (scrAt12 V c (n + 1) h).2.2.2 (ix2 r 0) = (scrAt12 V c n (Nat.lt_of_succ_lt h)).2.2.2 (ix2 r 0) + M12_3 V c (n + 1) r
    rw [e, acc12_3_apply, View.ld_unit_zero (S := S1024x1) hz12]
    unfold M12_3; rw [dif_pos h]
    rfl

/-! # The blocks as entries of the arrays the region finds -/

/-- The coordinates and the windows' block indices at point `t`, in closed form (decided over the 128 points). -/
theorem idx_facts12 : ∀ t : Fin cfg12.N,
    (grid12.coords t 0).val = t.val / 64
    ∧ win12_0.index t (0 : Fin 2) = 0 ∧ win12_0.index t (1 : Fin 2) = t.val % 64
    ∧ win12_1.index t (0 : Fin 2) = 0 ∧ win12_1.index t (1 : Fin 2) = t.val % 64
    ∧ win12_2.index t (0 : Fin 2) = t.val % 64 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = t.val / 64 ∧ win12_7.index t (1 : Fin 2) = 0
    ∧ win12_8.index t (0 : Fin 2) = t.val / 64 ∧ win12_8.index t (1 : Fin 2) = 0 :=
  (by decide +kernel : ∀ t : Fin grid12.N, _)

/-- The entry arrays as index vectors, matrices and bias vectors. -/
abbrev idxA12_0 (c : Dev nD) : Fin 32768 → BitVec 32 := fun R => (V c (Pipeline.arrRef spec12 0) : S1x32768.Idx → BitVec 32) (ix2 0 R)
abbrev idxA12_1 (c : Dev nD) : Fin 32768 → BitVec 32 := fun R => (V c (Pipeline.arrRef spec12 1) : S1x32768.Idx → BitVec 32) (ix2 0 R)
abbrev srcA12 (c : Dev nD) : Spec.Mat 32768 128 := fun a b => (V c (Pipeline.arrRef spec12 2) : S32768x128.Idx → EReal) (ix2 a b)
abbrev WA12_0 (c : Dev nD) : Spec.Mat 128 256 := fun a b => (V c (Pipeline.arrRef spec12 3) : S128x256.Idx → EReal) (ix2 a b)
abbrev bA12_0 (c : Dev nD) : Fin 256 → EReal := fun b => (V c (Pipeline.arrRef spec12 4) : S1x256.Idx → EReal) (ix2 0 b)
abbrev WA12_1 (c : Dev nD) : Spec.Mat 128 256 := fun a b => (V c (Pipeline.arrRef spec12 5) : S128x256.Idx → EReal) (ix2 a b)
abbrev bA12_1 (c : Dev nD) : Fin 256 → EReal := fun b => (V c (Pipeline.arrRef spec12 6) : S1x256.Idx → EReal) (ix2 0 b)
abbrev TA12 (c : Dev nD) : Spec.Mat 2048 256 := fun a b => (V c (Pipeline.arrRef spec12 7) : S2048x256.Idx → EReal) (ix2 a b)

theorem iblk12_0_apply (c : Dev nD) (t : Fin cfg12.N) (l : Fin 512) (R : Fin 32768) (hR : R.val = 512 * (t.val % 64) + l.val) :
    iblk12 V c 0 t (ix2 0 l) = idxA12_0 V c R := by
  obtain ⟨-, e0, e1, -⟩ := idx_facts12 t
  show V c (Pipeline.arrRef spec12 0) (((cfg12.win 0).blk t).view.emb (ix2 0 l)) = V c (Pipeline.arrRef spec12 0) (ix2 0 R)
  congr 1
  funext a; apply Fin.ext
  match a with
  | ⟨0, _⟩ => show win12_0.index t (0 : Fin 2) * 1 + 1 * 0 = 0; rw [e0]
  | ⟨1, _⟩ => show win12_0.index t (1 : Fin 2) * 512 + 1 * l.val = R.val; rw [e1, hR]; omega

theorem iblk12_1_apply (c : Dev nD) (t : Fin cfg12.N) (l : Fin 512) (R : Fin 32768) (hR : R.val = 512 * (t.val % 64) + l.val) :
    iblk12 V c 1 t (ix2 0 l) = idxA12_1 V c R := by
  obtain ⟨-, -, -, e0, e1, -⟩ := idx_facts12 t
  show V c (Pipeline.arrRef spec12 1) (((cfg12.win 1).blk t).view.emb (ix2 0 l)) = V c (Pipeline.arrRef spec12 1) (ix2 0 R)
  congr 1
  funext a; apply Fin.ext
  match a with
  | ⟨0, _⟩ => show win12_1.index t (0 : Fin 2) * 1 + 1 * 0 = 0; rw [e0]
  | ⟨1, _⟩ => show win12_1.index t (1 : Fin 2) * 512 + 1 * l.val = R.val; rw [e1, hR]; omega

theorem iblk12_2_apply (c : Dev nD) (t : Fin cfg12.N) (l : Fin 512) (d : Fin 128) (R : Fin 32768) (hR : R.val = 512 * (t.val % 64) + l.val) :
    iblk12 V c 2 t (ix2 l d) = srcA12 V c R d := by
  obtain ⟨-, -, -, -, -, e0, e1, -⟩ := idx_facts12 t
  show V c (Pipeline.arrRef spec12 2) (((cfg12.win 2).blk t).view.emb (ix2 l d)) = V c (Pipeline.arrRef spec12 2) (ix2 R d)
  congr 1
  funext a; apply Fin.ext
  match a with
  | ⟨0, _⟩ => show win12_2.index t (0 : Fin 2) * 512 + 1 * l.val = R.val; rw [e0, hR]; omega
  | ⟨1, _⟩ => show win12_2.index t (1 : Fin 2) * 128 + 1 * d.val = d.val; rw [e1]; omega

theorem iblk12_3_apply (c : Dev nD) (t : Fin cfg12.N) (d : Fin 128) (j : Fin 256) : iblk12 V c 3 t (ix2 d j) = WA12_0 V c d j := by
  obtain ⟨-, -, -, -, -, -, -, e0, e1, -⟩ := idx_facts12 t
  show V c (Pipeline.arrRef spec12 3) (((cfg12.win 3).blk t).view.emb (ix2 d j)) = V c (Pipeline.arrRef spec12 3) (ix2 d j)
  congr 1
  funext a; apply Fin.ext
  match a with
  | ⟨0, _⟩ => show win12_3.index t (0 : Fin 2) * 128 + 1 * d.val = d.val; rw [e0]; omega
  | ⟨1, _⟩ => show win12_3.index t (1 : Fin 2) * 256 + 1 * j.val = j.val; rw [e1]; omega

theorem iblk12_4_apply (c : Dev nD) (t : Fin cfg12.N) (j : Fin 256) : iblk12 V c 4 t (ix2 0 j) = bA12_0 V c j := by
  obtain ⟨-, -, -, -, -, -, -, -, -, e0, e1, -⟩ := idx_facts12 t
  show V c (Pipeline.arrRef spec12 4) (((cfg12.win 4).blk t).view.emb (ix2 0 j)) = V c (Pipeline.arrRef spec12 4) (ix2 0 j)
  congr 1
  funext a; apply Fin.ext
  match a with
  | ⟨0, _⟩ => show win12_4.index t (0 : Fin 2) * 1 + 1 * 0 = 0; rw [e0]
  | ⟨1, _⟩ => show win12_4.index t (1 : Fin 2) * 256 + 1 * j.val = j.val; rw [e1]; omega

theorem iblk12_5_apply (c : Dev nD) (t : Fin cfg12.N) (d : Fin 128) (j : Fin 256) : iblk12 V c 5 t (ix2 d j) = WA12_1 V c d j := by
  obtain ⟨-, -, -, -, -, -, -, -, -, -, -, e0, e1, -⟩ := idx_facts12 t
  show V c (Pipeline.arrRef spec12 5) (((cfg12.win 5).blk t).view.emb (ix2 d j)) = V c (Pipeline.arrRef spec12 5) (ix2 d j)
  congr 1
  funext a; apply Fin.ext
  match a with
  | ⟨0, _⟩ => show win12_5.index t (0 : Fin 2) * 128 + 1 * d.val = d.val; rw [e0]; omega
  | ⟨1, _⟩ => show win12_5.index t (1 : Fin 2) * 256 + 1 * j.val = j.val; rw [e1]; omega

theorem iblk12_6_apply (c : Dev nD) (t : Fin cfg12.N) (j : Fin 256) : iblk12 V c 6 t (ix2 0 j) = bA12_1 V c j := by
  obtain ⟨-, -, -, -, -, -, -, -, -, -, -, -, -, e0, e1, -⟩ := idx_facts12 t
  show V c (Pipeline.arrRef spec12 6) (((cfg12.win 6).blk t).view.emb (ix2 0 j)) = V c (Pipeline.arrRef spec12 6) (ix2 0 j)
  congr 1
  funext a; apply Fin.ext
  match a with
  | ⟨0, _⟩ => show win12_6.index t (0 : Fin 2) * 1 + 1 * 0 = 0; rw [e0]
  | ⟨1, _⟩ => show win12_6.index t (1 : Fin 2) * 256 + 1 * j.val = j.val; rw [e1]; omega

theorem iblk12_7_apply (c : Dev nD) (t : Fin cfg12.N) (r : Fin 1024) (j : Fin 256) (I : Fin 2048) (hI : I.val = 1024 * (t.val / 64) + r.val) :
    iblk12 V c 7 t (ix2 r j) = TA12 V c I j := by
  obtain ⟨-, -, -, -, -, -, -, -, -, -, -, -, -, -, -, e0, e1, -⟩ := idx_facts12 t
  show V c (Pipeline.arrRef spec12 7) (((cfg12.win 7).blk t).view.emb (ix2 r j)) = V c (Pipeline.arrRef spec12 7) (ix2 I j)
  congr 1
  funext a; apply Fin.ext
  match a with
  | ⟨0, _⟩ => show win12_7.index t (0 : Fin 2) * 1024 + 1 * r.val = I.val; rw [e0, hI]; omega
  | ⟨1, _⟩ => show win12_7.index t (1 : Fin 2) * 256 + 1 * j.val = j.val; rw [e1]; omega

/-! # The four sums at the last point of a row block: sums over all the relations -/

/-- A relation's term of a weighted sum and of a row count (zero past the relations, where they are never used). -/
def termW_12 (idx : Fin 32768 → BitVec 32) (fc : Spec.Mat 32768 256) (i : ℕ) (r : Fin 1024) (j : Fin 256) (R : ℕ) : EReal :=
  if h : R < 32768 then hot i r.val (idx ⟨R, h⟩) * fc ⟨R, h⟩ j else 0
def termC_12 (idx : Fin 32768 → BitVec 32) (i : ℕ) (r : Fin 1024) (R : ℕ) : EReal :=
  if h : R < 32768 then hot i r.val (idx ⟨R, h⟩) else 0

/-- The projected, rectified source tile of point `t` is rows `512 (t % 64) …` of relu(src · W + b). -/
theorem fcTile12_0 (c : Dev nD) (t : Fin cfg12.N) (l : Fin 512) (j : Fin 256) (R : Fin 32768) (hR : R.val = 512 * (t.val % 64) + l.val) :
    fcAt_12 (iblk12 V c 2 t) (iblk12 V c 3 t) (iblk12 V c 4 t) l j = Spec.linRelu (srcA12 V c) (WA12_0 V c) (bA12_0 V c) R j := by
  unfold fcAt_12 Spec.linRelu Spec.lin
  rw [iblk12_4_apply]
  refine congrArg (fun z => Spec.relu (z + bA12_0 V c j)) (Finset.sum_congr rfl fun d _ => ?_)
  rw [iblk12_2_apply V c t l d R hR, iblk12_3_apply]

theorem fcTile12_1 (c : Dev nD) (t : Fin cfg12.N) (l : Fin 512) (j : Fin 256) (R : Fin 32768) (hR : R.val = 512 * (t.val % 64) + l.val) :
    fcAt_12 (iblk12 V c 2 t) (iblk12 V c 5 t) (iblk12 V c 6 t) l j = Spec.linRelu (srcA12 V c) (WA12_1 V c) (bA12_1 V c) R j := by
  unfold fcAt_12 Spec.linRelu Spec.lin
  rw [iblk12_6_apply]
  refine congrArg (fun z => Spec.relu (z + bA12_1 V c j)) (Finset.sum_congr rfl fun d _ => ?_)
  rw [iblk12_2_apply V c t l d R hR, iblk12_5_apply]

/-- Point `m`'s addends over the arrays: the terms of the relations of tile `m % 64`, at block row `m / 64`. -/
theorem M12_0_eq (c : Dev nD) (m : ℕ) (h : m < cfg12.N) (r : Fin 1024) (j : Fin 256) :
    M12_0 V c m r j = ∑ l : Fin 512, termW_12 (idxA12_0 V c) (Spec.linRelu (srcA12 V c) (WA12_0 V c) (bA12_0 V c)) (m / 64) r j (512 * (m % 64) + l.val) := by
  have ec : (grid12.coords ⟨m, h⟩ 0).val = m / 64 := (idx_facts12 ⟨m, h⟩).1
  unfold M12_0; rw [dif_pos h]
  unfold addW_12; rw [ec]
  refine Finset.sum_congr rfl fun l _ => ?_
  have hl : 512 * (m % 64) + l.val < 32768 := by have := l.isLt; omega
  unfold termW_12; rw [dif_pos hl]
  rw [iblk12_0_apply V c ⟨m, h⟩ l ⟨_, hl⟩ rfl, fcTile12_0 V c ⟨m, h⟩ l j ⟨_, hl⟩ rfl]

theorem M12_1_eq (c : Dev nD) (m : ℕ) (h : m < cfg12.N) (r : Fin 1024) (j : Fin 256) :
    M12_1 V c m r j = ∑ l : Fin 512, termW_12 (idxA12_1 V c) (Spec.linRelu (srcA12 V c) (WA12_1 V c) (bA12_1 V c)) (m / 64) r j (512 * (m % 64) + l.val) := by
  have ec : (grid12.coords ⟨m, h⟩ 0).val = m / 64 := (idx_facts12 ⟨m, h⟩).1
  unfold M12_1; rw [dif_pos h]
  unfold addW_12; rw [ec]
  refine Finset.sum_congr rfl fun l _ => ?_
  have hl : 512 * (m % 64) + l.val < 32768 := by have := l.isLt; omega
  unfold termW_12; rw [dif_pos hl]
  rw [iblk12_1_apply V c ⟨m, h⟩ l ⟨_, hl⟩ rfl, fcTile12_1 V c ⟨m, h⟩ l j ⟨_, hl⟩ rfl]

theorem M12_2_eq (c : Dev nD) (m : ℕ) (h : m < cfg12.N) (r : Fin 1024) :
    M12_2 V c m r = ∑ l : Fin 512, termC_12 (idxA12_0 V c) (m / 64) r (512 * (m % 64) + l.val) := by
  have ec : (grid12.coords ⟨m, h⟩ 0).val = m / 64 := (idx_facts12 ⟨m, h⟩).1
  unfold M12_2; rw [dif_pos h]
  unfold addC_12; rw [ec]
  refine Finset.sum_congr rfl fun l _ => ?_
  have hl : 512 * (m % 64) + l.val < 32768 := by have := l.isLt; omega
  unfold termC_12; rw [dif_pos hl]
  rw [iblk12_0_apply V c ⟨m, h⟩ l ⟨_, hl⟩ rfl]

theorem M12_3_eq (c : Dev nD) (m : ℕ) (h : m < cfg12.N) (r : Fin 1024) :
    M12_3 V c m r = ∑ l : Fin 512, termC_12 (idxA12_1 V c) (m / 64) r (512 * (m % 64) + l.val) := by
  have ec : (grid12.coords ⟨m, h⟩ 0).val = m / 64 := (idx_facts12 ⟨m, h⟩).1
  unfold M12_3; rw [dif_pos h]
  unfold addC_12; rw [ec]
  refine Finset.sum_congr rfl fun l _ => ?_
  have hl : 512 * (m % 64) + l.val < 32768 := by have := l.isLt; omega
  unfold termC_12; rw [dif_pos hl]
  rw [iblk12_1_apply V c ⟨m, h⟩ l ⟨_, hl⟩ rfl]

/-- AT THE LAST POINT OF A ROW BLOCK the first weighted sum at (r, j) is the adjacency-weighted sum, over all the
    relations, of the projected rows: the 64 tiles of 512 relations are the 32768 relations. -/
theorem scrF12_0 (c : Dev nD) (t : Fin cfg12.N) (h63 : t.val % 64 = 63) (r : Fin 1024) (j : Fin 256)
    (hI : 1024 * (t.val / 64) + r.val < 2048) :
    scr12_0 V c t (ix2 r j) = ∑ R : Fin 32768, Spec.adj 2048 (idxA12_0 V c) ⟨1024 * (t.val / 64) + r.val, hI⟩ R
        * Spec.linRelu (srcA12 V c) (WA12_0 V c) (bA12_0 V c) R j := by
  have hN : cfg12.N = 128 := N_12
  have ht := t.isLt
  have key : ∀ s ∈ Finset.range 64, M12_0 V c (64 * (t.val / 64) + s) r j
      = ∑ l : Fin 512, termW_12 (idxA12_0 V c) (Spec.linRelu (srcA12 V c) (WA12_0 V c) (bA12_0 V c)) (t.val / 64) r j (512 * s + l.val) := fun s hs => by
    have hs' : s < 64 := Finset.mem_range.mp hs
    rw [M12_0_eq V c (64 * (t.val / 64) + s) (by omega) r j,
      show (64 * (t.val / 64) + s) / 64 = t.val / 64 by omega, show (64 * (t.val / 64) + s) % 64 = s by omega]
  unfold scr12_0
  rw [scr12_0_eq, h63, Finset.sum_congr rfl key]
  refine (sum_tiles 64 512 _).trans (Finset.sum_congr rfl fun R _ => ?_)
  unfold termW_12; rw [dif_pos (show R.val < 32768 from R.isLt)]
  rfl

theorem scrF12_1 (c : Dev nD) (t : Fin cfg12.N) (h63 : t.val % 64 = 63) (r : Fin 1024) (j : Fin 256)
    (hI : 1024 * (t.val / 64) + r.val < 2048) :
    scr12_1 V c t (ix2 r j) = ∑ R : Fin 32768, Spec.adj 2048 (idxA12_1 V c) ⟨1024 * (t.val / 64) + r.val, hI⟩ R
        * Spec.linRelu (srcA12 V c) (WA12_1 V c) (bA12_1 V c) R j := by
  have hN : cfg12.N = 128 := N_12
  have ht := t.isLt
  have key : ∀ s ∈ Finset.range 64, M12_1 V c (64 * (t.val / 64) + s) r j
      = ∑ l : Fin 512, termW_12 (idxA12_1 V c) (Spec.linRelu (srcA12 V c) (WA12_1 V c) (bA12_1 V c)) (t.val / 64) r j (512 * s + l.val) := fun s hs => by
    have hs' : s < 64 := Finset.mem_range.mp hs
    rw [M12_1_eq V c (64 * (t.val / 64) + s) (by omega) r j,
      show (64 * (t.val / 64) + s) / 64 = t.val / 64 by omega, show (64 * (t.val / 64) + s) % 64 = s by omega]
  unfold scr12_1
  rw [scr12_1_eq, h63, Finset.sum_congr rfl key]
  refine (sum_tiles 64 512 _).trans (Finset.sum_congr rfl fun R _ => ?_)
  unfold termW_12; rw [dif_pos (show R.val < 32768 from R.isLt)]
  rfl

/-- The first row count there: the row's degree in the first adjacency. -/
theorem scrF12_2 (c : Dev nD) (t : Fin cfg12.N) (h63 : t.val % 64 = 63) (r : Fin 1024)
    (hI : 1024 * (t.val / 64) + r.val < 2048) :
    scr12_2 V c t (ix2 r 0) = ∑ R : Fin 32768, Spec.adj 2048 (idxA12_0 V c) ⟨1024 * (t.val / 64) + r.val, hI⟩ R := by
  have hN : cfg12.N = 128 := N_12
  have ht := t.isLt
  have key : ∀ s ∈ Finset.range 64, M12_2 V c (64 * (t.val / 64) + s) r
      = ∑ l : Fin 512, termC_12 (idxA12_0 V c) (t.val / 64) r (512 * s + l.val) := fun s hs => by
    have hs' : s < 64 := Finset.mem_range.mp hs
    rw [M12_2_eq V c (64 * (t.val / 64) + s) (by omega) r,
      show (64 * (t.val / 64) + s) / 64 = t.val / 64 by omega, show (64 * (t.val / 64) + s) % 64 = s by omega]
  unfold scr12_2
  rw [scr12_2_eq, h63, Finset.sum_congr rfl key]
  refine (sum_tiles 64 512 _).trans (Finset.sum_congr rfl fun R _ => ?_)
  unfold termC_12; rw [dif_pos (show R.val < 32768 from R.isLt)]
  rfl

theorem scrF12_3 (c : Dev nD) (t : Fin cfg12.N) (h63 : t.val % 64 = 63) (r : Fin 1024)
    (hI : 1024 * (t.val / 64) + r.val < 2048) :
    scr12_3 V c t (ix2 r 0) = ∑ R : Fin 32768, Spec.adj 2048 (idxA12_1 V c) ⟨1024 * (t.val / 64) + r.val, hI⟩ R := by
  have hN : cfg12.N = 128 := N_12
  have ht := t.isLt
  have key : ∀ s ∈ Finset.range 64, M12_3 V c (64 * (t.val / 64) + s) r
      = ∑ l : Fin 512, termC_12 (idxA12_1 V c) (t.val / 64) r (512 * s + l.val) := fun s hs => by
    have hs' : s < 64 := Finset.mem_range.mp hs
    rw [M12_3_eq V c (64 * (t.val / 64) + s) (by omega) r,
      show (64 * (t.val / 64) + s) / 64 = t.val / 64 by omega, show (64 * (t.val / 64) + s) % 64 = s by omega]
  unfold scr12_3
  rw [scr12_3_eq, h63, Finset.sum_congr rfl key]
  refine (sum_tiles 64 512 _).trans (Finset.sum_congr rfl fun R _ => ?_)
  unfold termC_12; rw [dif_pos (show R.val < 32768 from R.isLt)]
  rfl

/-! # From the blocks to the array -/

/-- What the region leaves in its output array, as one function of the arrays it finds: the update of the target by the
    two adjacency-weighted means of the projected, rectified source rows. -/
def G12 (c : Dev nD) : S2048x256.Idx → EReal := fun y =>
  Spec.upd (TA12 V c) (Spec.collect (Spec.adj 2048 (idxA12_0 V c)) (Spec.linRelu (srcA12 V c) (WA12_0 V c) (bA12_0 V c)))
    (Spec.collect (Spec.adj 2048 (idxA12_1 V c)) (Spec.linRelu (srcA12 V c) (WA12_1 V c) (bA12_1 V c))) (y 0) (y 1)

/-- What the last point of a row block writes back is its block of that function. -/
theorem flushed12_eq (c : Dev nD) (t : Fin cfg12.N) (hf : (cfg12.win 8).flush t = true) :
    (dat12 V c).flushed 8 t = ((cfg12.win 8).blk t).view.read (Elt Ideal) (G12 V c) := by
  have h63 : t.val % 64 = 63 := (flush12_8 t).mp hf
  have hN : cfg12.N = 128 := N_12
  have ht := t.isLt
  obtain ⟨-, -, -, -, -, -, -, -, -, -, -, -, -, -, -, -, -, e0, e1⟩ := idx_facts12 t
  show (cfg12.win 8).cut (grid12.coords t) ((dat12 V c).after 8 t) = _
  rw [after12_8]
  funext y
  obtain ⟨r, j, rfl⟩ : ∃ (r : Fin 1024) (j : Fin 256), y = ix2 r j := ⟨y 0, y 1, @eq_ix2 1024 256 y⟩
  have hI : 1024 * (t.val / 64) + r.val < 2048 := by have := r.isLt; omega
  have hE : ((cfg12.win 8).blk t).view.emb (ix2 r j) = ix2 (⟨1024 * (t.val / 64) + r.val, hI⟩ : Fin 2048) j := by
    funext a; apply Fin.ext
    match a with
    | ⟨0, _⟩ => show win12_8.index t (0 : Fin 2) * 1024 + 1 * r.val = 1024 * (t.val / 64) + r.val; rw [e0]; omega
    | ⟨1, _⟩ => show win12_8.index t (1 : Fin 2) * 256 + 1 * j.val = j.val; rw [e1]; omega
  show out12_8 (scr12_0 V c t) (scr12_2 V c t) (scr12_1 V c t) (scr12_3 V c t) (iblk12 V c 7 t) (ix2 r j)
    = G12 V c (((cfg12.win 8).blk t).view.emb (ix2 r j))
  rw [hE, out12_8_apply, iblk12_7_apply V c t r j ⟨_, hI⟩ rfl, scrF12_0 V c t h63 r j hI, scrF12_1 V c t h63 r j hI,
    scrF12_2 V c t h63 r hI, scrF12_3 V c t h63 r hI]
  rfl

/-- Every entry of the output array is in the block some last point of a row block writes back. -/
theorem cover12 (y : S2048x256.Idx) :
    ∃ t : Fin cfg12.N, (cfg12.win 8).flush t = true ∧ y ∈ ((cfg12.win 8).blk t).view.set := by
  have hN : cfg12.N = 128 := N_12
  have h0 : (y 0).val < 2048 := (y 0).isLt
  have h1 : (y 1).val < 256 := (y 1).isLt
  have hb : 64 * ((y 0).val / 1024) + 63 < cfg12.N := by rw [hN]; omega
  refine ⟨⟨64 * ((y 0).val / 1024) + 63, hb⟩, (flush12_8 _).mpr (by show (64 * ((y 0).val / 1024) + 63) % 64 = 63; omega), ?_⟩
  obtain ⟨-, -, -, -, -, -, -, -, -, -, -, -, -, -, -, -, -, e0, e1⟩ := idx_facts12 ⟨64 * ((y 0).val / 1024) + 63, hb⟩
  have e0' : win12_8.index ⟨64 * ((y 0).val / 1024) + 63, hb⟩ (0 : Fin 2) = (y 0).val / 1024 := by
    rw [e0]; show (64 * ((y 0).val / 1024) + 63) / 64 = _; omega
  show y ∈ ((View.whole main_v84).slice (win12_8.rect ⟨64 * ((y 0).val / 1024) + 63, hb⟩)).set
  rw [View.set_slice_whole, Rect.mem_set_unit]
  intro a
  match a with
  | ⟨0, _⟩ =>
    show win12_8.index ⟨64 * ((y 0).val / 1024) + 63, hb⟩ (0 : Fin 2) * 1024 ≤ (y 0).val
      ∧ (y 0).val < win12_8.index ⟨64 * ((y 0).val / 1024) + 63, hb⟩ (0 : Fin 2) * 1024 + 1024
    rw [e0']; omega
  | ⟨1, _⟩ =>
    show win12_8.index ⟨64 * ((y 0).val / 1024) + 63, hb⟩ (1 : Fin 2) * 256 ≤ (y 1).val
      ∧ (y 1).val < win12_8.index ⟨64 * ((y 0).val / 1024) + 63, hb⟩ (1 : Fin 2) * 256 + 256
    rw [e1]; omega

/-- THE VALUE OF REGION 12: its output array ends holding, at (i, j), the target's entry plus half the sum of the two
    adjacency-weighted means of relu(src · W + b), as functions of the arrays the region finds. -/
theorem final12 (c : Dev nD) (i : Fin 2048) (j : Fin 256) :
    (dat12 (F := Ideal) V c).arrAt 8 cfg12.N (ix2 i j)
      = Spec.upd (fun a b => (V c (Pipeline.arrRef spec12 7) : S2048x256.Idx → EReal) (ix2 a b))
          (Spec.collect (Spec.adj 2048 (fun R => (V c (Pipeline.arrRef spec12 0) : S1x32768.Idx → BitVec 32) (ix2 0 R)))
            (Spec.linRelu (fun a b => (V c (Pipeline.arrRef spec12 2) : S32768x128.Idx → EReal) (ix2 a b))
              (fun a b => (V c (Pipeline.arrRef spec12 3) : S128x256.Idx → EReal) (ix2 a b))
              (fun b => (V c (Pipeline.arrRef spec12 4) : S1x256.Idx → EReal) (ix2 0 b))))
          (Spec.collect (Spec.adj 2048 (fun R => (V c (Pipeline.arrRef spec12 1) : S1x32768.Idx → BitVec 32) (ix2 0 R)))
            (Spec.linRelu (fun a b => (V c (Pipeline.arrRef spec12 2) : S32768x128.Idx → EReal) (ix2 a b))
              (fun a b => (V c (Pipeline.arrRef spec12 5) : S128x256.Idx → EReal) (ix2 a b))
              (fun b => (V c (Pipeline.arrRef spec12 6) : S1x256.Idx → EReal) (ix2 0 b)))) i j :=
  congrFun ((dat12 V c).arrAt_eq_of_cover 8 (G12 V c) (flushed12_eq V c) cover12) (ix2 i j)

end Cert.KernelIdeal.HandV
end
-- ==== Proof.KI.Val13.lean ====
import proofs.«422120_j65652870087589_3_alg».proof.Proof.KI.Reg13
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 13 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 256
local notation "nOut" => 128
local notation "nPts" => 4

/-- The input array and one block of its rows, -/
abbrev SXa13 : Shape := S2048x256
abbrev SXb13 : Shape := S512x256
/-- the weight matrix, the bias row, -/
abbrev SW13 : Shape := S256x128
abbrev SB13 : Shape := S1x128
/-- the result array and one block of its rows. -/
abbrev SOa13 : Shape := S2048x128
abbrev SOb13 : Shape := S512x128

/-! ## The block product's index maps, axis by axis -/

/-- The left operand is read at the output's row, -/
theorem lhs13_0 (i : SOb13.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin SXb13.rank) ∈ dot_S512x256_S256x128_S512x128_1_0_0_1_n_n.lhsBatch by decide), dif_pos (show (0 : Fin SXb13.rank) ∈ dot_S512x256_S256x128_S512x128_1_0_0_1_n_n.lhsNonContracting by decide)]
  rfl
/-- and at the inner index as its column; -/
theorem lhs13_1 (i : SOb13.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
/-- the right operand at the inner index as its row, -/
theorem rhs13_0 (i : SOb13.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
/-- and at the output's column. -/
theorem rhs13_1 (i : SOb13.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin SW13.rank) ∈ dot_S512x256_S256x128_S512x128_1_0_0_1_n_n.rhsBatch by decide), dif_pos (show (1 : Fin SW13.rank) ∈ dot_S512x256_S256x128_S512x128_1_0_0_1_n_n.rhsNonContracting by decide)]
  rfl

/-- The block product into the zero accumulator, at row `p` and column `q`: the sum over the inner index of the
    products of the row's and the column's entries. -/
theorem mm13_apply (a : FVec Ideal SXb13 .bf16) (b : FVec Ideal SW13 .bf16) (p : Fin nBlk) (q : Fin nOut) :
    FloatOps.matmul dot_S512x256_S256x128_S512x128_1_0_0_1_n_n none a b (constant (F := Ideal) SOb13 .f32 0x00000000#32) (ix2 p q)
      = ∑ l : Fin nIn, a (ix2 p l) * b (ix2 l q) := by
  rw [Ideal.matmul_constant_zero_apply, ← Equiv.sum_comp (contrEquiv1 dot_S512x256_S256x128_S512x128_1_0_0_1_n_n nIn rfl rfl).symm]
  refine Finset.sum_congr rfl fun k _ => ?_
  have hk := contrEquiv1_symm_val dot_S512x256_S256x128_S512x128_1_0_0_1_n_n nIn rfl rfl k
  have el : dot_S512x256_S256x128_S512x128_1_0_0_1_n_n.lhsIdx (ix2 p q) ((contrEquiv1 dot_S512x256_S256x128_S512x128_1_0_0_1_n_n nIn rfl rfl).symm k) = ix2 p k := funext fun a => Fin.ext (by
    match a with
    | ⟨0, _⟩ => exact lhs13_0 _ _
    | ⟨1, _⟩ => exact (lhs13_1 _ _).trans hk)
  have er : dot_S512x256_S256x128_S512x128_1_0_0_1_n_n.rhsIdx (ix2 p q) ((contrEquiv1 dot_S512x256_S256x128_S512x128_1_0_0_1_n_n nIn rfl rfl).symm k) = ix2 k q := funext fun a => Fin.ext (by
    match a with
    | ⟨0, _⟩ => exact (rhs13_0 _ _).trans hk
    | ⟨1, _⟩ => exact rhs13_1 _ _)
  rw [el, er]

/-! ## The payload at an index -/

/-- The payload at row `p` and column `q` of the block: the positive part of the row of `x0` against the column
    of `x1`, plus the bias at `q`. On the extended reals a change of float format changes nothing, and the zero
    word is zero. -/
theorem pay13_apply (x0 : Vec Ideal SXb13 .f32) (x1 : Vec Ideal SW13 .f32) (x2 : Vec Ideal SB13 .f32) (p : Fin nBlk) (q : Fin nOut) :
    k13_pay1 (F := Ideal) x0 x1 x2 (ix2 p q)
      = max ((∑ l : Fin nIn, x0 (ix2 p l) * x1 (ix2 l q)) + x2 (ix2 (0 : Fin 1) q)) 0 := by
  unfold k13_pay1
  simp only [matmul]
  refine congrArg₂ max (congrArg₂ (· + ·) ?_ ?_) ?_
  · refine (mm13_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr13 (c : Dev nD) : SXa13.Idx → EReal := V c (Pipeline.arrRef spec13 0)
abbrev warr13 (c : Dev nD) : SW13.Idx → EReal := V c (Pipeline.arrRef spec13 1)
abbrev barr13 (c : Dev nD) : SB13.Idx → EReal := V c (Pipeline.arrRef spec13 2)

/-- The whole result, index by index. -/
abbrev G13 (c : Dev nD) : SOa13.Idx → EReal := fun i =>
  Spec.linRelu (r := nRows) (k := nIn) (n := nOut) (fun a b => xarr13 V c (ix2 a b)) (fun a b => warr13 V c (ix2 a b))
    (fun b => barr13 V c (ix2 (0 : Fin 1) b)) (i 0) (i 1)

theorem hz13 : (![0, 0] : Fin 2 → Nat) = fun _ => 0 := funext fun a => by fin_cases a <;> rfl

/-- The printed index maps over the grid: the input's block of rows moves with the output's, which is the point's
    number; every other block index is zero. -/
theorem idx_facts13 : ∀ t : Fin cfg13.N,
    win13_0.index t (0 : Fin 2) = win13_3.index t (0 : Fin 2) ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (1 : Fin 2) = 0 ∧ win13_3.index t (0 : Fin 2) = t.val :=
  (by decide +kernel : ∀ t : Fin grid13.N, _)

/-- What point `t` writes back is block `t` of the whole result. -/
theorem flushed13_eq (c : Dev nD) (t : Fin cfg13.N) :
    (dat13 (F := Ideal) V c).flushed 3 t = ((cfg13.win 3).blk t).view.read (Elt Ideal) (G13 V c) := by
  show (cfg13.win 3).cut (grid13.coords t) ((dat13 (F := Ideal) V c).after 3 t) = _
  rw [after13_3]
  unfold out13_3
  rw [View.canon_unit_zero hz13]
  simp only [View.ld_unit_zero (S := SXb13) hz13, View.ld_unit_zero (S := SW13) hz13, View.ld_unit_zero (S := SB13) hz13]
  obtain ⟨e0, e1, e2, e3, e4, e5, e6, e7⟩ := idx_facts13 t
  funext j
  obtain ⟨p, q, rfl⟩ : ∃ (p : Fin nBlk) (q : Fin nOut), j = ix2 p q := ⟨j 0, j 1, eq_ix2 j⟩
  refine (pay13_apply (iblk13 V c 0 t) (iblk13 V c 1 t) (iblk13 V c 2 t) p q).trans ?_
  -- the row of the array the output's block puts row `p` at, and likewise the column
  have h0 : ∀ l : Fin nIn, ((cfg13.win 0).blk t).view.emb (ix2 p l)
      = ix2 ((((cfg13.win 3).blk t).view.emb (ix2 p q) 0 : Fin nRows)) l := fun l => by
    funext a; apply Fin.ext
    match a with
    | ⟨0, _⟩ => show win13_0.index t (0 : Fin 2) * nBlk + 1 * p.val = win13_3.index t (0 : Fin 2) * nBlk + 1 * p.val; omega
    | ⟨1, _⟩ => show win13_0.index t (1 : Fin 2) * nIn + 1 * l.val = l.val; omega
  have h1 : ∀ l : Fin nIn, ((cfg13.win 1).blk t).view.emb (ix2 l q)
      = ix2 l ((((cfg13.win 3).blk t).view.emb (ix2 p q) 1 : Fin nOut)) := fun l => by
    funext a; apply Fin.ext
    match a with
    | ⟨0, _⟩ => show win13_1.index t (0 : Fin 2) * nIn + 1 * l.val = l.val; omega
    | ⟨1, _⟩ => show win13_1.index t (1 : Fin 2) * nOut + 1 * q.val = win13_3.index t (1 : Fin 2) * nOut + 1 * q.val; omega
  have h2 : ((cfg13.win 2).blk t).view.emb (ix2 (0 : Fin 1) q)
      = ix2 (0 : Fin 1) ((((cfg13.win 3).blk t).view.emb (ix2 p q) 1 : Fin nOut)) := by
    funext a; apply Fin.ext
    match a with
    | ⟨0, _⟩ => show win13_2.index t (0 : Fin 2) * 1 + 1 * 0 = 0; omega
    | ⟨1, _⟩ => show win13_2.index t (1 : Fin 2) * nOut + 1 * q.val = win13_3.index t (1 : Fin 2) * nOut + 1 * q.val; omega
  refine congrArg₂ max (congrArg₂ (· + ·) (Finset.sum_congr rfl fun l _ => ?_) ?_) rfl
  · exact congrArg₂ (· * ·) (congrArg (xarr13 V c) (h0 l)) (congrArg (warr13 V c) (h1 l))
  · exact congrArg (barr13 V c) h2

/-- An index of the output array is in point `t`'s block exactly when each coordinate is in the block's range. -/
theorem mem_blk13 (t : Fin cfg13.N) (i : SOa13.Idx) :
    i ∈ ((cfg13.win 3).blk t).view.set ↔ ∀ a : Fin 2, win13_3.index t a * SOb13.size a ≤ (i a).val
      ∧ (i a).val < win13_3.index t a * SOb13.size a + SOb13.size a := by
  show i ∈ ((View.whole main_v90).slice (win13_3.rect t)).set ↔ _
  rw [View.set_slice_whole, Rect.mem_set_unit]
  exact Iff.rfl

/-- Every index of the output array is in some point's block: a row is in the block of the point numbered by the
    row's quotient by the rows of a block. -/
theorem cover13 (i : SOa13.Idx) :
    ∃ t : Fin cfg13.N, (cfg13.win 3).flush t = true ∧ i ∈ ((cfg13.win 3).blk t).view.set := by
  have hi0 : (i 0).val < nRows := (i 0).isLt
  have hi1 : (i 1).val < nOut := (i 1).isLt
  have hN : cfg13.N = nPts := N_13
  refine ⟨⟨(i 0).val / nBlk, by omega⟩, flush13_3 _, ?_⟩
  obtain ⟨e0, e1, e2, e3, e4, e5, e6, e7⟩ := idx_facts13 ⟨(i 0).val / nBlk, by omega⟩
  rw [mem_blk13]
  intro a
  match a with
  | ⟨0, _⟩ =>
    show win13_3.index ⟨(i 0).val / nBlk, _⟩ (0 : Fin 2) * nBlk ≤ (i 0).val
      ∧ (i 0).val < win13_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win13_3.index ⟨(i 0).val / nBlk, _⟩ (1 : Fin 2) * nOut ≤ (i 1).val
      ∧ (i 1).val < win13_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final13 (c : Dev nD) (i : Fin nRows) (j : Fin nOut) :
    (dat13 (F := Ideal) V c).arrAt 3 cfg13.N (ix2 i j)
      = Spec.linRelu (fun a b => (V c (Pipeline.arrRef spec13 0) : SXa13.Idx → EReal) (ix2 a b))
          (fun a b => (V c (Pipeline.arrRef spec13 1) : SW13.Idx → EReal) (ix2 a b))
          (fun b => (V c (Pipeline.arrRef spec13 2) : SB13.Idx → EReal) (ix2 (0 : Fin 1) b)) i j := by
  rw [(dat13 (F := Ideal) V c).arrAt_eq_of_cover 3 (G13 V c) (fun t _ => flushed13_eq V c t) (cover13)]

end Cert.KernelIdeal.HandV

end
-- ==== Proof.KI.Val14.lean ====
import proofs.«422120_j65652870087589_3_alg».proof.Proof.KI.Reg14
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 14 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 256
local notation "nOut" => 128
local notation "nPts" => 4

/-- The input array and one block of its rows, -/
abbrev SXa14 : Shape := S2048x256
abbrev SXb14 : Shape := S512x256
/-- the weight matrix, the bias row, -/
abbrev SW14 : Shape := S256x128
abbrev SB14 : Shape := S1x128
/-- the result array and one block of its rows. -/
abbrev SOa14 : Shape := S2048x128
abbrev SOb14 : Shape := S512x128

/-! ## The block product's index maps, axis by axis -/

/-- The left operand is read at the output's row, -/
theorem lhs14_0 (i : SOb14.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin SXb14.rank) ∈ dot_S512x256_S256x128_S512x128_1_0_0_1_n_n.lhsBatch by decide), dif_pos (show (0 : Fin SXb14.rank) ∈ dot_S512x256_S256x128_S512x128_1_0_0_1_n_n.lhsNonContracting by decide)]
  rfl
/-- and at the inner index as its column; -/
theorem lhs14_1 (i : SOb14.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
/-- the right operand at the inner index as its row, -/
theorem rhs14_0 (i : SOb14.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
/-- and at the output's column. -/
theorem rhs14_1 (i : SOb14.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin SW14.rank) ∈ dot_S512x256_S256x128_S512x128_1_0_0_1_n_n.rhsBatch by decide), dif_pos (show (1 : Fin SW14.rank) ∈ dot_S512x256_S256x128_S512x128_1_0_0_1_n_n.rhsNonContracting by decide)]
  rfl

/-- The block product into the zero accumulator, at row `p` and column `q`: the sum over the inner index of the
    products of the row's and the column's entries. -/
theorem mm14_apply (a : FVec Ideal SXb14 .bf16) (b : FVec Ideal SW14 .bf16) (p : Fin nBlk) (q : Fin nOut) :
    FloatOps.matmul dot_S512x256_S256x128_S512x128_1_0_0_1_n_n none a b (constant (F := Ideal) SOb14 .f32 0x00000000#32) (ix2 p q)
      = ∑ l : Fin nIn, a (ix2 p l) * b (ix2 l q) := by
  rw [Ideal.matmul_constant_zero_apply, ← Equiv.sum_comp (contrEquiv1 dot_S512x256_S256x128_S512x128_1_0_0_1_n_n nIn rfl rfl).symm]
  refine Finset.sum_congr rfl fun k _ => ?_
  have hk := contrEquiv1_symm_val dot_S512x256_S256x128_S512x128_1_0_0_1_n_n nIn rfl rfl k
  have el : dot_S512x256_S256x128_S512x128_1_0_0_1_n_n.lhsIdx (ix2 p q) ((contrEquiv1 dot_S512x256_S256x128_S512x128_1_0_0_1_n_n nIn rfl rfl).symm k) = ix2 p k := funext fun a => Fin.ext (by
    match a with
    | ⟨0, _⟩ => exact lhs14_0 _ _
    | ⟨1, _⟩ => exact (lhs14_1 _ _).trans hk)
  have er : dot_S512x256_S256x128_S512x128_1_0_0_1_n_n.rhsIdx (ix2 p q) ((contrEquiv1 dot_S512x256_S256x128_S512x128_1_0_0_1_n_n nIn rfl rfl).symm k) = ix2 k q := funext fun a => Fin.ext (by
    match a with
    | ⟨0, _⟩ => exact (rhs14_0 _ _).trans hk
    | ⟨1, _⟩ => exact rhs14_1 _ _)
  rw [el, er]

/-! ## The payload at an index -/

/-- The payload at row `p` and column `q` of the block: the positive part of the row of `x0` against the column
    of `x1`, plus the bias at `q`. On the extended reals a change of float format changes nothing, and the zero
    word is zero. -/
theorem pay14_apply (x0 : Vec Ideal SXb14 .f32) (x1 : Vec Ideal SW14 .f32) (x2 : Vec Ideal SB14 .f32) (p : Fin nBlk) (q : Fin nOut) :
    k14_pay1 (F := Ideal) x0 x1 x2 (ix2 p q)
      = max ((∑ l : Fin nIn, x0 (ix2 p l) * x1 (ix2 l q)) + x2 (ix2 (0 : Fin 1) q)) 0 := by
  unfold k14_pay1
  simp only [matmul]
  refine congrArg₂ max (congrArg₂ (· + ·) ?_ ?_) ?_
  · refine (mm14_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr14 (c : Dev nD) : SXa14.Idx → EReal := V c (Pipeline.arrRef spec14 0)
abbrev warr14 (c : Dev nD) : SW14.Idx → EReal := V c (Pipeline.arrRef spec14 1)
abbrev barr14 (c : Dev nD) : SB14.Idx → EReal := V c (Pipeline.arrRef spec14 2)

/-- The whole result, index by index. -/
abbrev G14 (c : Dev nD) : SOa14.Idx → EReal := fun i =>
  Spec.linRelu (r := nRows) (k := nIn) (n := nOut) (fun a b => xarr14 V c (ix2 a b)) (fun a b => warr14 V c (ix2 a b))
    (fun b => barr14 V c (ix2 (0 : Fin 1) b)) (i 0) (i 1)

theorem hz14 : (![0, 0] : Fin 2 → Nat) = fun _ => 0 := funext fun a => by fin_cases a <;> rfl

/-- The printed index maps over the grid: the input's block of rows moves with the output's, which is the point's
    number; every other block index is zero. -/
theorem idx_facts14 : ∀ t : Fin cfg14.N,
    win14_0.index t (0 : Fin 2) = win14_3.index t (0 : Fin 2) ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (1 : Fin 2) = 0 ∧ win14_3.index t (0 : Fin 2) = t.val :=
  (by decide +kernel : ∀ t : Fin grid14.N, _)

/-- What point `t` writes back is block `t` of the whole result. -/
theorem flushed14_eq (c : Dev nD) (t : Fin cfg14.N) :
    (dat14 (F := Ideal) V c).flushed 3 t = ((cfg14.win 3).blk t).view.read (Elt Ideal) (G14 V c) := by
  show (cfg14.win 3).cut (grid14.coords t) ((dat14 (F := Ideal) V c).after 3 t) = _
  rw [after14_3]
  unfold out14_3
  rw [View.canon_unit_zero hz14]
  simp only [View.ld_unit_zero (S := SXb14) hz14, View.ld_unit_zero (S := SW14) hz14, View.ld_unit_zero (S := SB14) hz14]
  obtain ⟨e0, e1, e2, e3, e4, e5, e6, e7⟩ := idx_facts14 t
  funext j
  obtain ⟨p, q, rfl⟩ : ∃ (p : Fin nBlk) (q : Fin nOut), j = ix2 p q := ⟨j 0, j 1, eq_ix2 j⟩
  refine (pay14_apply (iblk14 V c 0 t) (iblk14 V c 1 t) (iblk14 V c 2 t) p q).trans ?_
  -- the row of the array the output's block puts row `p` at, and likewise the column
  have h0 : ∀ l : Fin nIn, ((cfg14.win 0).blk t).view.emb (ix2 p l)
      = ix2 ((((cfg14.win 3).blk t).view.emb (ix2 p q) 0 : Fin nRows)) l := fun l => by
    funext a; apply Fin.ext
    match a with
    | ⟨0, _⟩ => show win14_0.index t (0 : Fin 2) * nBlk + 1 * p.val = win14_3.index t (0 : Fin 2) * nBlk + 1 * p.val; omega
    | ⟨1, _⟩ => show win14_0.index t (1 : Fin 2) * nIn + 1 * l.val = l.val; omega
  have h1 : ∀ l : Fin nIn, ((cfg14.win 1).blk t).view.emb (ix2 l q)
      = ix2 l ((((cfg14.win 3).blk t).view.emb (ix2 p q) 1 : Fin nOut)) := fun l => by
    funext a; apply Fin.ext
    match a with
    | ⟨0, _⟩ => show win14_1.index t (0 : Fin 2) * nIn + 1 * l.val = l.val; omega
    | ⟨1, _⟩ => show win14_1.index t (1 : Fin 2) * nOut + 1 * q.val = win14_3.index t (1 : Fin 2) * nOut + 1 * q.val; omega
  have h2 : ((cfg14.win 2).blk t).view.emb (ix2 (0 : Fin 1) q)
      = ix2 (0 : Fin 1) ((((cfg14.win 3).blk t).view.emb (ix2 p q) 1 : Fin nOut)) := by
    funext a; apply Fin.ext
    match a with
    | ⟨0, _⟩ => show win14_2.index t (0 : Fin 2) * 1 + 1 * 0 = 0; omega
    | ⟨1, _⟩ => show win14_2.index t (1 : Fin 2) * nOut + 1 * q.val = win14_3.index t (1 : Fin 2) * nOut + 1 * q.val; omega
  refine congrArg₂ max (congrArg₂ (· + ·) (Finset.sum_congr rfl fun l _ => ?_) ?_) rfl
  · exact congrArg₂ (· * ·) (congrArg (xarr14 V c) (h0 l)) (congrArg (warr14 V c) (h1 l))
  · exact congrArg (barr14 V c) h2

/-- An index of the output array is in point `t`'s block exactly when each coordinate is in the block's range. -/
theorem mem_blk14 (t : Fin cfg14.N) (i : SOa14.Idx) :
    i ∈ ((cfg14.win 3).blk t).view.set ↔ ∀ a : Fin 2, win14_3.index t a * SOb14.size a ≤ (i a).val
      ∧ (i a).val < win14_3.index t a * SOb14.size a + SOb14.size a := by
  show i ∈ ((View.whole main_v96).slice (win14_3.rect t)).set ↔ _
  rw [View.set_slice_whole, Rect.mem_set_unit]
  exact Iff.rfl

/-- Every index of the output array is in some point's block: a row is in the block of the point numbered by the
    row's quotient by the rows of a block. -/
theorem cover14 (i : SOa14.Idx) :
    ∃ t : Fin cfg14.N, (cfg14.win 3).flush t = true ∧ i ∈ ((cfg14.win 3).blk t).view.set := by
  have hi0 : (i 0).val < nRows := (i 0).isLt
  have hi1 : (i 1).val < nOut := (i 1).isLt
  have hN : cfg14.N = nPts := N_14
  refine ⟨⟨(i 0).val / nBlk, by omega⟩, flush14_3 _, ?_⟩
  obtain ⟨e0, e1, e2, e3, e4, e5, e6, e7⟩ := idx_facts14 ⟨(i 0).val / nBlk, by omega⟩
  rw [mem_blk14]
  intro a
  match a with
  | ⟨0, _⟩ =>
    show win14_3.index ⟨(i 0).val / nBlk, _⟩ (0 : Fin 2) * nBlk ≤ (i 0).val
      ∧ (i 0).val < win14_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win14_3.index ⟨(i 0).val / nBlk, _⟩ (1 : Fin 2) * nOut ≤ (i 1).val
      ∧ (i 1).val < win14_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final14 (c : Dev nD) (i : Fin nRows) (j : Fin nOut) :
    (dat14 (F := Ideal) V c).arrAt 3 cfg14.N (ix2 i j)
      = Spec.linRelu (fun a b => (V c (Pipeline.arrRef spec14 0) : SXa14.Idx → EReal) (ix2 a b))
          (fun a b => (V c (Pipeline.arrRef spec14 1) : SW14.Idx → EReal) (ix2 a b))
          (fun b => (V c (Pipeline.arrRef spec14 2) : SB14.Idx → EReal) (ix2 (0 : Fin 1) b)) i j := by
  rw [(dat14 (F := Ideal) V c).arrAt_eq_of_cover 3 (G14 V c) (fun t _ => flushed14_eq V c t) (cover14)]

end Cert.KernelIdeal.HandV

end
-- ==== Proof.KI.Val15.lean ====
import proofs.«422120_j65652870087589_3_alg».proof.Proof.KI.Reg15
import proofs.«422120_j65652870087589_3_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators
/-- The number of feature columns. -/
local notation "nCol" => 128

/-! ## The operations of the body that are not pointwise, read at an index -/

/-- A word equals itself: the comparison's bit is set. -/
private theorem cmpi_eq_same (a : BitVec 32) : IntOp.cmpi .eq a a = 1#1 := by simp [IntOp.cmpi]
/-- Two different words: the comparison's bit is clear. -/
private theorem cmpi_eq_diff {a b : BitVec 32} (h : a ≠ b) : IntOp.cmpi .eq a b = 0#1 := by
  show BitVec.ofBool (a == b) = 0#1
  rw [beq_eq_false_iff_ne.mpr h]; rfl
/-- The set bit, widened and read as a signed integer, is the real number one. -/
private theorem sitofp_setBit : FloatOps.sitofp (F := Ideal) .f32 (BitVec.setWidth 32 (1#1)) = (1 : EReal) := by
  show (((BitVec.setWidth 32 (1#1)).toInt : ℝ) : EReal) = 1
  rw [show (BitVec.setWidth 32 (1#1)).toInt = 1 by decide]
  simp
/-- The clear bit is zero. -/
private theorem sitofp_clearBit : FloatOps.sitofp (F := Ideal) .f32 (BitVec.setWidth 32 (0#1)) = (0 : EReal) := by
  show (((BitVec.setWidth 32 (0#1)).toInt : ℝ) : EReal) = 0
  rw [show (BitVec.setWidth 32 (0#1)).toInt = 0 by decide]
  simp

/-- The 0/1 tile: lane `k` of row `p` is 1 exactly when the row's index word names `k`. -/
theorem onehot15_apply (x : Vec Ideal S512x1 .i32) (p : Fin 512) (k : Fin 2048) :
    (sitofp (F := Ideal) .f32 (extui 32 (cmpi .eq (iota .tc S512x2048 32 [1] iota_S512x2048_d1_w32)
        (broadcastTo S512x2048 x broadcasts_S512x1_S512x2048)) natLt_1_32)
      : FVec Ideal S512x2048 .f32) (ix2 p k)
      = if x (ix2 p (0 : Fin 1)) = BitVec.ofNat 32 k.val then (1 : EReal) else 0 := by
  rw [sitofp_apply, extui_apply]
  show FloatOps.sitofp .f32 ((IntOp.cmpi .eq (iota .tc S512x2048 32 [1] iota_S512x2048_d1_w32 (ix2 p k))
      (broadcastTo S512x2048 x broadcasts_S512x1_S512x2048 (ix2 p k))).setWidth 32) = _
  rw [iota_single_apply,
    broadcastTo_apply x broadcasts_S512x1_S512x2048 (ix2 p k) (ix2 p (0 : Fin 1)) (fun a => by
      match a with
      | ⟨0, _⟩ => rfl
      | ⟨1, _⟩ => rfl)]
  show FloatOps.sitofp .f32 (BitVec.setWidth 32 (IntOp.cmpi .eq (BitVec.ofNat 32 k.val) (x (ix2 p (0 : Fin 1))))) = _
  by_cases h : x (ix2 p (0 : Fin 1)) = BitVec.ofNat 32 k.val
  · rw [if_pos h, h, cmpi_eq_same, sitofp_setBit]
  · rw [if_neg h, cmpi_eq_diff (fun e => h e.symm), sitofp_clearBit]

/-! ### The product of a tile with a whole matrix -/

theorem lhs15_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs15_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs15_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs15_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The block product into the zero splat, at row `p` and column `q`: the sum over the 2048 lanes. -/
theorem matmul15_apply (L : FVec Ideal S512x2048 .bf16) (R : FVec Ideal S2048x128 .bf16) (p : Fin 512) (q : Fin nCol) :
    matmul dot_S512x2048_S2048x128_S512x128_1_0_0_1_n_n none L R (constant (F := Ideal) S512x128 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q) ((contrEquiv1 dot_S512x2048_S2048x128_S512x128_1_0_0_1_n_n 2048 rfl rfl).symm k) = ix2 p k := funext fun a => Fin.ext (by
    match a with
    | ⟨0, _⟩ => exact lhs15_0 _ _
    | ⟨1, _⟩ => exact (lhs15_1 _ _).trans hk)
  have er : dot_S512x2048_S2048x128_S512x128_1_0_0_1_n_n.rhsIdx (ix2 p q) ((contrEquiv1 dot_S512x2048_S2048x128_S512x128_1_0_0_1_n_n 2048 rfl rfl).symm k) = ix2 k q := funext fun a => Fin.ext (by
    match a with
    | ⟨0, _⟩ => exact (rhs15_0 _ _).trans hk
    | ⟨1, _⟩ => exact rhs15_1 _ _)
  rw [el, er]

/-! ### The lane sum and the two broadcasts of a column -/

/-- The sum over the lanes of row `p`, kept as a column. -/
theorem laneSum15_apply (v : FVec Ideal S512x2048 .f32) (hφ : FTy.f32 = FTy.f32 ∨ FTy.f32 = FTy.bf16)
    (hacc : (0x00000000#32 : BitVec 32) = 0x00000000#32) (p : Fin 512) :
    (shapeCast S512x1 (multiReduction (F := Ideal) .add [1] S512 v 0x00000000#32 reduces_S512x2048_S512 hφ hacc) shapeCasts_S512_S512x1
      : FVec Ideal S512x1 .f32) (ix2 p (0 : Fin 1)) = ∑ k : Fin 2048, v (ix2 p k) := by
  refine (shapeCast_apply _ shapeCasts_S512_S512x1 (ix2 p (0 : Fin 1)) (ix1 p) ?_).trans ?_
  · rw [Shape.rowMajor_val_one, Shape.rowMajor_val_two]; show p.val = p.val * 1 + 0; omega
  refine (Ideal.multiReduction_add_single v 0x00000000#32 reduces_S512x2048_S512 hφ hacc (ix1 p)).trans ?_
  refine Finset.sum_congr rfl fun k _ => congrArg v ?_
  funext a; apply Fin.ext
  match a with
  | ⟨0, _⟩ => rfl
  | ⟨1, _⟩ => rfl

/-- A column spread over the feature columns reads the column. -/
theorem spread15_apply (d : FVec Ideal S512x1 .f32) (p : Fin 512) (q : Fin nCol) :
    broadcastTo S512x128 d broadcasts_S512x1_S512x128 (ix2 p q) = d (ix2 p (0 : Fin 1)) :=
  broadcastTo_apply d broadcasts_S512x1_S512x128 (ix2 p q) (ix2 p (0 : Fin 1)) (fun a => by
    match a with
    | ⟨0, _⟩ => rfl
    | ⟨1, _⟩ => rfl)

/-! ## The payload at an index -/

/-- The value the body stores at row `p`, column `q` of the block is the update, on the block's own 512 relations: the
    target plus half the sum of the two averaged gathers, each a sum over the 2048 objects of the 0/1 weight times the
    object-side matrix, over the row's degree plus the small constant. -/
theorem payAt15 (x0 x1 : Vec Ideal S512x1 .i32) (x2 x3 : Vec Ideal S2048x128 .bf16) (x4 : Vec Ideal S512x128 .f32)
    (p : Fin 512) (q : Fin nCol) :
    k15_pay1 (k15_pay2 x4) (k15_pay3 x0 x1 x2 x3) (ix2 p q)
      = Spec.upd (fun a b => x4 (ix2 a b))
          (Spec.collect (Spec.tr (Spec.adj 2048 (fun r => x0 (ix2 r (0 : Fin 1))))) (fun a b => x2 (ix2 a b)))
          (Spec.collect (Spec.tr (Spec.adj 2048 (fun r => x1 (ix2 r (0 : Fin 1))))) (fun a b => x3 (ix2 a b))) p q := by
  unfold k15_pay1 k15_pay2 k15_pay3
  dsimp only
  simp only [addf_apply, mulf_apply, divf_apply, broadcast_apply, shapeCast_self, spread15_apply, laneSum15_apply,
    matmul15_apply, truncf_apply, onehot15_apply]
  rw [laneSum15_apply, laneSum15_apply,
    Finset.sum_congr rfl (fun k _ => congrArg (· * x2 (ix2 k q)) (onehot15_apply x0 p k)),
    Finset.sum_congr rfl (fun k _ => onehot15_apply x0 p k),
    Finset.sum_congr rfl (fun k _ => congrArg (· * x3 (ix2 k q)) (onehot15_apply x1 p k)),
    Finset.sum_congr rfl (fun k _ => onehot15_apply x1 p k)]
  rfl

/-! ## From the blocks to the whole array -/

variable (V : (c : Dev nD) → (b : Ref sig .tc) → Buf (Elt Ideal) ((c : Thread nD τ).loc b))

/-- The two index columns, the two object-side matrices and the target, as the region finds them. -/
abbrev ixc15_0 (c : Dev nD) : S32768x1.Idx → BitVec 32 := V c (Pipeline.arrRef spec15 0)
abbrev ixc15_1 (c : Dev nD) : S32768x1.Idx → BitVec 32 := V c (Pipeline.arrRef spec15 1)
abbrev fcm15_0 (c : Dev nD) : S2048x128.Idx → EReal := V c (Pipeline.arrRef spec15 2)
abbrev fcm15_1 (c : Dev nD) : S2048x128.Idx → EReal := V c (Pipeline.arrRef spec15 3)
abbrev tgt15 (c : Dev nD) : S32768x128.Idx → EReal := V c (Pipeline.arrRef spec15 4)

/-- The whole result: the update over all 32768 relations. -/
def G15 (c : Dev nD) : S32768x128.Idx → EReal := fun i =>
  Spec.upd (fun a b => tgt15 V c (ix2 a b))
    (Spec.collect (Spec.tr (Spec.adj 2048 (fun r => ixc15_0 V c (ix2 r (0 : Fin 1))))) (fun a b => fcm15_0 V c (ix2 a b)))
    (Spec.collect (Spec.tr (Spec.adj 2048 (fun r => ixc15_1 V c (ix2 r (0 : Fin 1))))) (fun a b => fcm15_1 V c (ix2 a b)))
    (i 0) (i 1)

theorem hz15 : (![0, 0] : Fin 2 → Nat) = fun _ => 0 := funext fun a => by fin_cases a <;> rfl

/-- Where each window's block sits at grid point `t`: the columns, the target and the result move down by one block of
    512 relations a point; the two matrices stay. -/
theorem idxFacts15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0
    ∧ win15_5.index t (0 : Fin 2) = t.val ∧ win15_5.index t (1 : Fin 2) = 0 :=
  (by decide +kernel : ∀ t : Fin grid15.N, _)

theorem blk15_0 (c : Dev nD) (t : Fin cfg15.N) (p : Fin 512) (h : t.val * 512 + p.val < 32768) :
    iblk15 V c 0 t (ix2 p (0 : Fin 1)) = ixc15_0 V c (ix2 ⟨t.val * 512 + p.val, h⟩ (0 : Fin 1)) := by
  show V c (Pipeline.arrRef spec15 0) (((cfg15.win 0).blk t).view.emb (ix2 p (0 : Fin 1))) = V c (Pipeline.arrRef spec15 0) (ix2 ⟨t.val * 512 + p.val, h⟩ (0 : Fin 1))
  refine congrArg _ ?_
  obtain ⟨e0, e1, -⟩ := idxFacts15 t
  funext a; apply Fin.ext
  match a with
  | ⟨0, _⟩ => show win15_0.index t (0 : Fin 2) * 512 + 1 * p.val = t.val * 512 + p.val; omega
  | ⟨1, _⟩ => show win15_0.index t (1 : Fin 2) * 1 + 1 * 0 = 0; omega

theorem blk15_1 (c : Dev nD) (t : Fin cfg15.N) (p : Fin 512) (h : t.val * 512 + p.val < 32768) :
    iblk15 V c 1 t (ix2 p (0 : Fin 1)) = ixc15_1 V c (ix2 ⟨t.val * 512 + p.val, h⟩ (0 : Fin 1)) := by
  show V c (Pipeline.arrRef spec15 1) (((cfg15.win 1).blk t).view.emb (ix2 p (0 : Fin 1))) = V c (Pipeline.arrRef spec15 1) (ix2 ⟨t.val * 512 + p.val, h⟩ (0 : Fin 1))
  refine congrArg _ ?_
  obtain ⟨-, -, e0, e1, -⟩ := idxFacts15 t
  funext a; apply Fin.ext
  match a with
  | ⟨0, _⟩ => show win15_1.index t (0 : Fin 2) * 512 + 1 * p.val = t.val * 512 + p.val; omega
  | ⟨1, _⟩ => show win15_1.index t (1 : Fin 2) * 1 + 1 * 0 = 0; omega

theorem blk15_2 (c : Dev nD) (t : Fin cfg15.N) (k : Fin 2048) (q : Fin nCol) :
    iblk15 V c 2 t (ix2 k q) = fcm15_0 V c (ix2 k q) := by
  show V c (Pipeline.arrRef spec15 2) (((cfg15.win 2).blk t).view.emb (ix2 k q)) = V c (Pipeline.arrRef spec15 2) (ix2 k q)
  refine congrArg _ ?_
  obtain ⟨-, -, -, -, e0, e1, -⟩ := idxFacts15 t
  funext a; apply Fin.ext
  match a with
  | ⟨0, _⟩ => show win15_2.index t (0 : Fin 2) * 2048 + 1 * k.val = k.val; omega
  | ⟨1, _⟩ => show win15_2.index t (1 : Fin 2) * nCol + 1 * q.val = q.val; omega

theorem blk15_3 (c : Dev nD) (t : Fin cfg15.N) (k : Fin 2048) (q : Fin nCol) :
    iblk15 V c 3 t (ix2 k q) = fcm15_1 V c (ix2 k q) := by
  show V c (Pipeline.arrRef spec15 3) (((cfg15.win 3).blk t).view.emb (ix2 k q)) = V c (Pipeline.arrRef spec15 3) (ix2 k q)
  refine congrArg _ ?_
  obtain ⟨-, -, -, -, -, -, e0, e1, -⟩ := idxFacts15 t
  funext a; apply Fin.ext
  match a with
  | ⟨0, _⟩ => show win15_3.index t (0 : Fin 2) * 2048 + 1 * k.val = k.val; omega
  | ⟨1, _⟩ => show win15_3.index t (1 : Fin 2) * nCol + 1 * q.val = q.val; omega

theorem blk15_4 (c : Dev nD) (t : Fin cfg15.N) (p : Fin 512) (q : Fin nCol) (h : t.val * 512 + p.val < 32768) :
    iblk15 V c 4 t (ix2 p q) = tgt15 V c (ix2 ⟨t.val * 512 + p.val, h⟩ q) := by
  show V c (Pipeline.arrRef spec15 4) (((cfg15.win 4).blk t).view.emb (ix2 p q)) = V c (Pipeline.arrRef spec15 4) (ix2 ⟨t.val * 512 + p.val, h⟩ q)
  refine congrArg _ ?_
  obtain ⟨-, -, -, -, -, -, -, -, e0, e1, -⟩ := idxFacts15 t
  funext a; apply Fin.ext
  match a with
  | ⟨0, _⟩ => show win15_4.index t (0 : Fin 2) * 512 + 1 * p.val = t.val * 512 + p.val; omega
  | ⟨1, _⟩ => show win15_4.index t (1 : Fin 2) * nCol + 1 * q.val = q.val; omega

/-- Row `p` of the update reads the target and the two index columns at row `p` only, and the two matrices whole. -/
private theorem upd_row_congr {m m' k n : ℕ} (T : Spec.Mat m n) (T' : Spec.Mat m' n) (i0 i1 : Fin m → BitVec 32)
    (i0' i1' : Fin m' → BitVec 32) (f0 f1 f0' f1' : Spec.Mat k n) (p : Fin m) (p' : Fin m') (q : Fin n)
    (hT : T p q = T' p' q) (h0 : i0 p = i0' p') (h1 : i1 p = i1' p') (hf0 : f0 = f0') (hf1 : f1 = f1') :
    Spec.upd T (Spec.collect (Spec.tr (Spec.adj k i0)) f0) (Spec.collect (Spec.tr (Spec.adj k i1)) f1) p q
      = Spec.upd T' (Spec.collect (Spec.tr (Spec.adj k i0')) f0') (Spec.collect (Spec.tr (Spec.adj k i1')) f1') p' q := by
  subst hf0 hf1
  unfold Spec.upd Spec.collect Spec.tr Spec.adj
  rw [hT, h0, h1]

/-- The grid has 64 points. -/
theorem gridLt15 (t : Fin cfg15.N) : t.val < 64 := lt_of_lt_of_eq t.isLt N_15

/-- What grid point `t` writes back is block `t` of the whole result. -/
theorem flushed15_eq (c : Dev nD) (t : Fin cfg15.N) :
    (dat15 (F := Ideal) V c).flushed 5 t = ((cfg15.win 5).blk t).view.read (Elt Ideal) (G15 V c) := by
  show (cfg15.win 5).cut (grid15.coords t) ((dat15 (F := Ideal) V c).after 5 t) = _
  rw [after15_5]
  unfold out15_5
  rw [View.canon_unit_zero hz15]
  simp only [View.ld_unit_zero (S := S512x1) hz15, View.ld_unit_zero (S := S2048x128) hz15, View.ld_unit_zero (S := S512x128) hz15]
  funext y
  obtain ⟨p, q, rfl⟩ : ∃ (p : Fin 512) (q : Fin nCol), y = ix2 p q := ⟨y 0, y 1, eq_ix2 y⟩
  have ht := gridLt15 t
  have hp : t.val * 512 + p.val < 32768 := by have := p.isLt; omega
  have hemb : (((cfg15.win 5).blk t).view.emb (ix2 p q) : S32768x128.Idx) = ix2 ⟨t.val * 512 + p.val, hp⟩ q := by
    obtain ⟨-, -, -, -, -, -, -, -, -, -, e0, e1⟩ := idxFacts15 t
    funext a; apply Fin.ext
    match a with
    | ⟨0, _⟩ => show win15_5.index t (0 : Fin 2) * 512 + 1 * p.val = t.val * 512 + p.val; omega
    | ⟨1, _⟩ => show win15_5.index t (1 : Fin 2) * nCol + 1 * q.val = q.val; omega
  show k15_pay1 (k15_pay2 (iblk15 V c 4 t)) (k15_pay3 (iblk15 V c 0 t) (iblk15 V c 1 t) (iblk15 V c 2 t) (iblk15 V c 3 t)) (ix2 p q)
    = G15 V c (((cfg15.win 5).blk t).view.emb (ix2 p q))
  refine (payAt15 (iblk15 V c 0 t) (iblk15 V c 1 t) (iblk15 V c 2 t) (iblk15 V c 3 t) (iblk15 V c 4 t) p q).trans ?_
  refine Eq.trans ?_ (congrArg (G15 V c) hemb.symm)
  exact upd_row_congr _ _ _ _ _ _ _ _ _ _ p ⟨t.val * 512 + p.val, hp⟩ q (blk15_4 V c t p q hp) (blk15_0 V c t p hp) (blk15_1 V c t p hp)
    (funext fun a => funext fun b => blk15_2 V c t a b) (funext fun a => funext fun b => blk15_3 V c t a b)

/-- An index of the result is in point `t`'s block exactly when each coordinate is in the block's range. -/
theorem blkMem15 (t : Fin cfg15.N) (i : S32768x128.Idx) :
    i ∈ ((cfg15.win 5).blk t).view.set ↔ ∀ a : Fin 2, win15_5.index t a * S512x128.size a ≤ (i a).val ∧ (i a).val < win15_5.index t a * S512x128.size a + S512x128.size a := by
  show i ∈ ((View.whole (Pipeline.arrRef spec15 5)).slice (win15_5.rect t)).set ↔ _
  rw [View.set_slice_whole, Rect.mem_set_unit]
  exact Iff.rfl

/-- Every index of the result is in some point's block: row `r` is written at point `r / 512`. -/
theorem covered15 (i : S32768x128.Idx) :
    ∃ t : Fin cfg15.N, (cfg15.win 5).flush t = true ∧ i ∈ ((cfg15.win 5).blk t).view.set := by
  have hi0 : (i 0).val < 32768 := (i 0).isLt
  have hi1 : (i 1).val < nCol := (i 1).isLt
  have hN : (i 0).val / 512 < cfg15.N := by rw [show cfg15.N = 64 from N_15]; omega
  obtain ⟨-, -, -, -, -, -, -, -, -, -, e0, e1⟩ := idxFacts15 ⟨(i 0).val / 512, hN⟩
  refine ⟨⟨(i 0).val / 512, hN⟩, flush15_5 _, ?_⟩
  rw [blkMem15]
  intro a
  match a with
  | ⟨0, _⟩ =>
    show win15_5.index ⟨(i 0).val / 512, hN⟩ (0 : Fin 2) * 512 ≤ (i 0).val ∧ (i 0).val < win15_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win15_5.index ⟨(i 0).val / 512, hN⟩ (1 : Fin 2) * nCol ≤ (i 1).val ∧ (i 1).val < win15_5.index ⟨(i 0).val / 512, hN⟩ (1 : Fin 2) * nCol + nCol
    rw [e1]; omega

/-- The result array after the region: the update of the target by the two averaged gathers, read off the arrays as the
    region found them. -/
theorem final15 (c : Dev nD) (i : Fin 32768) (j : Fin nCol) :
    (dat15 (F := Ideal) V c).arrAt 5 cfg15.N (ix2 i j)
      = Spec.upd (fun a b => (V c (Pipeline.arrRef spec15 4) : S32768x128.Idx → EReal) (ix2 a b))
          (Spec.collect (Spec.tr (Spec.adj 2048 (fun r => (V c (Pipeline.arrRef spec15 0) : S32768x1.Idx → BitVec 32) (ix2 r (0 : Fin 1)))))
            (fun a b => (V c (Pipeline.arrRef spec15 2) : S2048x128.Idx → EReal) (ix2 a b)))
          (Spec.collect (Spec.tr (Spec.adj 2048 (fun r => (V c (Pipeline.arrRef spec15 1) : S32768x1.Idx → BitVec 32) (ix2 r (0 : Fin 1)))))
            (fun a b => (V c (Pipeline.arrRef spec15 3) : S2048x128.Idx → EReal) (ix2 a b))) i j := by
  rw [(dat15 (F := Ideal) V c).arrAt_eq_of_cover 5 (G15 V c) (fun t _ => flushed15_eq V c t) (covered15)]
  rfl

end Cert.KernelIdeal.HandV
end
-- ==== Proof.KI.Val16.lean ====
import proofs.«422120_j65652870087589_3_alg».proof.Proof.KI.Reg16
import proofs.«422120_j65652870087589_3_alg».proof.Proof.KI.ValCollect
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators
variable (V : (c : Dev nD) → (b : Ref sig .tc) → Buf (Elt Ideal) ((c : Thread nD τ).loc b))

/-! # Region 16's payloads at an entry (extended reals) -/

theorem hz16 : (![0, 0] : Fin 2 → Nat) = fun _ => 0 := funext fun a => by fin_cases a <;> rfl

/-- A column `[a, 1]` broadcast to `[a, b]` reads, at (p, c), the column at p. -/
theorem broadcastTo_a1_ab_apply_16 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at (i, u), the operand at i. -/
theorem shapeCast_a_a1_apply_16 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The projected, rectified source tile at (l, j): relu(src_l · W[:, j] + b_j). -/
theorem pay8_apply_16 (x2 : Vec Ideal S512x128 .f32) (x3 : Vec Ideal S128x256 .f32) (x4 : Vec Ideal S1x256 .f32) (l : Fin 512) (j : Fin 256) :
    k16_pay8 (F := Ideal) x2 x3 x4 (ix2 l j) = Spec.relu ((∑ d : Fin 128, x2 (ix2 l d) * x3 (ix2 d j)) + x4 (ix2 0 j)) := by
  unfold k16_pay8 k16_pay7
  simp only [shapeCast_self]
  rw [truncf_apply, maximumf_apply, addf_apply, broadcast_apply, broadcastTo_1b_ab_apply]
  have hd : dot_S512x128_S128x256_S512x256_1_0_0_1_n_n = ⟨[1], [0], [0], [1], [], [], dot_S512x128_S128x256_S512x256_1_0_0_1_n_n_wf⟩ := rfl
  rw [hd, matmul0_plain_apply]
  exact max_zero_eq_relu _

theorem pay9_apply_16 (x2 : Vec Ideal S512x128 .f32) (x5 : Vec Ideal S128x256 .f32) (x6 : Vec Ideal S1x256 .f32) (l : Fin 512) (j : Fin 256) :
    k16_pay9 (F := Ideal) x2 x5 x6 (ix2 l j) = Spec.relu ((∑ d : Fin 128, x2 (ix2 l d) * x5 (ix2 d j)) + x6 (ix2 0 j)) := by
  unfold k16_pay9 k16_pay7
  simp only [shapeCast_self]
  rw [truncf_apply, maximumf_apply, addf_apply, broadcast_apply, broadcastTo_1b_ab_apply]
  have hd : dot_S512x128_S128x256_S512x256_1_0_0_1_n_n = ⟨[1], [0], [0], [1], [], [], dot_S512x128_S128x256_S512x256_1_0_0_1_n_n_wf⟩ := rfl
  rw [hd, matmul0_plain_apply]
  exact max_zero_eq_relu _

/-- The index row as the comparison takes it. -/
theorem pay11_eq_16 (v : Vec Ideal S1x512 .i32) : k16_pay11 (F := Ideal) v = v := by
  unfold k16_pay11; exact shapeCast_self _ _
theorem pay12_eq_16 (v : Vec Ideal S1x512 .i32) : k16_pay12 (F := Ideal) v = v := by
  unfold k16_pay12; exact shapeCast_self _ _

/-- The first comparison tile at (r, l): 1 exactly when the tile's l-th index word is the number of row r of block row i. -/
theorem hot13_apply_16 (i : grid16.Coords) (x : IVec S1x512 32) (r : Fin 1024) (l : Fin 512) :
    (sitofp .f32 (extui 32 (k16_pay13 (k16_pay10 i) x) natLt_1_32) : FVec Ideal S1024x512 .f32) (ix2 r l)
      = hot (i 0).val r.val (x (ix2 0 l)) := by
  rw [sitofp_apply, extui_apply]
  unfold k16_pay13 k16_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

theorem hot14_apply_16 (i : grid16.Coords) (x : IVec S1x512 32) (r : Fin 1024) (l : Fin 512) :
    (sitofp .f32 (extui 32 (k16_pay14 (k16_pay10 i) x) natLt_1_32) : FVec Ideal S1024x512 .f32) (ix2 r l)
      = hot (i 0).val r.val (x (ix2 0 l)) := by
  rw [sitofp_apply, extui_apply]
  unfold k16_pay14 k16_pay10
  show FloatOps.sitofp (F := Ideal) .f32 ((IntOp.cmpi .eq (IntOp.addi (iota .tc S1024x512 32 [0] iota_S1024x512_d0_w32 (ix2 r l))
      (Scalar.muli (BitVec.ofNat 32 (i 0).val) 1024#32)) (broadcastTo S1024x512 x broadcasts_S1x512_S1024x512 (ix2 r l))).setWidth 32) = _
  rw [iota_single_apply, broadcastTo_1b_ab_apply]
  exact hot_word _ _ _

/-- The first weighted sum's update at (r, j): what was there plus the tile's 0/1-weighted sum of the projected rows. -/
theorem pay15_apply_16 (fc : FVec Ideal S512x256 .bf16) (i : grid16.Coords) (x : IVec S1x512 32) (p : Vec Ideal S1024x256 .f32)
    (r : Fin 1024) (j : Fin 256) :
    k16_pay15 (F := Ideal) fc (k16_pay10 i) x p (ix2 r j)
      = p (ix2 r j) + ∑ l : Fin 512, hot (i 0).val r.val (x (ix2 0 l)) * fc (ix2 l j) := by
  unfold k16_pay15
  simp only [shapeCast_self]
  rw [addf_apply]
  have hd : dot_S1024x512_S512x256_S1024x256_1_0_0_1_n_n = ⟨[1], [0], [0], [1], [], [], dot_S1024x512_S512x256_S1024x256_1_0_0_1_n_n_wf⟩ := rfl
  rw [hd, matmul0_plain_apply]
  refine congrArg (p (ix2 r j) + ·) (Finset.sum_congr rfl fun l _ => ?_)
  rw [truncf_apply, hot13_apply_16]

theorem pay16_apply_16 (fc : FVec Ideal S512x256 .bf16) (i : grid16.Coords) (x : IVec S1x512 32) (p : Vec Ideal S1024x256 .f32)
    (r : Fin 1024) (j : Fin 256) :
    k16_pay16 (F := Ideal) fc (k16_pay10 i) x p (ix2 r j)
      = p (ix2 r j) + ∑ l : Fin 512, hot (i 0).val r.val (x (ix2 0 l)) * fc (ix2 l j) := by
  unfold k16_pay16
  simp only [shapeCast_self]
  rw [addf_apply]
  have hd : dot_S1024x512_S512x256_S1024x256_1_0_0_1_n_n = ⟨[1], [0], [0], [1], [], [], dot_S1024x512_S512x256_S1024x256_1_0_0_1_n_n_wf⟩ := rfl
  rw [hd, matmul0_plain_apply]
  refine congrArg (p (ix2 r j) + ·) (Finset.sum_congr rfl fun l _ => ?_)
  rw [truncf_apply, hot14_apply_16]

/-- Row r with lane l put back on the summed axis is (r, l). -/
theorem lift_lane_16 (r : Fin 1024) (l : Fin 512) : reduces_S1024x512_S1024.lift (ix1 r) l = ix2 r l :=
  funext fun a => Fin.ext (match a with | ⟨0, _⟩ => rfl | ⟨1, _⟩ => rfl)

/-- The first row count's update at (r, 0): what was there plus the number of the tile's index words naming row r. -/
theorem pay17_apply_16 (i : grid16.Coords) (x : IVec S1x512 32) (p : Vec Ideal S1024x1 .f32) (r : Fin 1024) :
    k16_pay17 (F := Ideal) (k16_pay10 i) x p (ix2 r 0) = p (ix2 r 0) + ∑ l : Fin 512, hot (i 0).val r.val (x (ix2 0 l)) := by
  unfold k16_pay17
  simp only [shapeCast_self]
  rw [addf_apply, shapeCast_a_a1_apply_16]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k16_pay13 (k16_pay10 i) x) natLt_1_32) : FVec Ideal S1024x512 .f32) (lift_lane_16 r l)).trans
    (hot13_apply_16 i x r l)

theorem pay18_apply_16 (i : grid16.Coords) (x : IVec S1x512 32) (p : Vec Ideal S1024x1 .f32) (r : Fin 1024) :
    k16_pay1 (F := Ideal) (k16_pay18 (k16_pay10 i) x p) (ix2 r 0) = p (ix2 r 0) + ∑ l : Fin 512, hot (i 0).val r.val (x (ix2 0 l)) := by
  unfold k16_pay1 k16_pay18
  simp only [shapeCast_self]
  rw [addf_apply, shapeCast_a_a1_apply_16]
  refine congrArg (p (ix2 r 0) + ·) ?_
  refine (Ideal.multiReduction_add_single _ _ reduces_S1024x512_S1024 _ _ (ix1 r)).trans ?_
  refine Finset.sum_congr rfl fun l _ => ?_
  exact (congrArg (sitofp .f32 (extui 32 (k16_pay14 (k16_pay10 i) x) natLt_1_32) : FVec Ideal S1024x512 .f32) (lift_lane_16 r l)).trans
    (hot14_apply_16 i x r l)

/-- The finalize payload at (r, j): target + ½ (a₀ / (d₀ + ε) + a₁ / (d₁ + ε)). -/
theorem pay2_apply_16 (a0 : Vec Ideal S1024x256 .f32) (d0 : Vec Ideal S1024x1 .f32) (a1 : Vec Ideal S1024x256 .f32)
    (d1 : Vec Ideal S1024x1 .f32) (x7 : Vec Ideal S1024x256 .f32) (r : Fin 1024) (j : Fin 256) :
    k16_pay2 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold k16_pay2
  simp only [shapeCast_self]
  rw [addf_apply, mulf_apply, addf_apply, divf_apply, divf_apply, broadcastTo_a1_ab_apply_16, broadcastTo_a1_ab_apply_16,
    addf_apply, addf_apply]
  rfl

/-! # One point's contribution to the four running sums, at an entry -/

/-- The zero the first point of a row block starts each sum from. -/
theorem pay3_apply_16 (y : S1024x256.Idx) : k16_pay3 (F := Ideal) y = 0 := by
  unfold k16_pay3; simp only [shapeCast_self]; exact Ideal.ofBits_zero_f32
theorem pay4_apply_16 (y : S1024x256.Idx) : k16_pay4 (F := Ideal) y = 0 := by
  unfold k16_pay4; simp only [shapeCast_self]; exact Ideal.ofBits_zero_f32
theorem pay5_apply_16 (y : S1024x1.Idx) : k16_pay5 (F := Ideal) y = 0 := by
  unfold k16_pay5; simp only [shapeCast_self]; exact Ideal.ofBits_zero_f32
theorem pay6_apply_16 (y : S1024x1.Idx) : k16_pay6 (F := Ideal) y = 0 := by
  unfold k16_pay6; simp only [shapeCast_self]; exact Ideal.ofBits_zero_f32

/-- The projected, rectified source tile at (l, j): relu(src_l · W[:, j] + b_j). -/
def fcAt_16 (x2 : Vec Ideal S512x128 .f32) (xW : Vec Ideal S128x256 .f32) (xb : Vec Ideal S1x256 .f32) (l : Fin 512) (j : Fin 256) : EReal :=
  Spec.relu ((∑ d : Fin 128, x2 (ix2 l d) * xW (ix2 d j)) + xb (ix2 0 j))

/-- The tile's addend to a weighted sum at (r, j): Σ_l [idx_l names row r of block row i] · relu(src_l · W[:, j] + b_j). -/
def addW_16 (i : ℕ) (x : Vec Ideal S1x512 .i32) (x2 : Vec Ideal S512x128 .f32) (xW : Vec Ideal S128x256 .f32) (xb : Vec Ideal S1x256 .f32)
    (r : Fin 1024) (j : Fin 256) : EReal :=
  ∑ l : Fin 512, hot i r.val (x (ix2 0 l)) * fcAt_16 x2 xW xb l j

/-- The tile's addend to a row count at r: the number of its index words naming row r of block row i. -/
def addC_16 (i : ℕ) (x : Vec Ideal S1x512 .i32) (r : Fin 1024) : EReal := ∑ l : Fin 512, hot i r.val (x (ix2 0 l))

theorem acc16_0_apply (i : grid16.Coords) (x0 : Vec Ideal S1x512 .i32) (x2 : Vec Ideal S512x128 .f32) (x3 : Vec Ideal S128x256 .f32) (x4 : Vec Ideal S1x256 .f32)
    (p : Vec Ideal S1024x256 .f32) (r : Fin 1024) (j : Fin 256) :
    acc16_0 (F := Ideal) i x0 x2 x3 x4 p (ix2 r j) = p (ix2 r j) + addW_16 (i 0).val x0 x2 x3 x4 r j := by
  unfold acc16_0
  rw [View.canon_unit_zero hz16]
  simp only [View.ld_unit_zero (S := S1x512) hz16, View.ld_unit_zero (S := S1x256) hz16, View.ld_unit_zero (S := S512x128) hz16, View.ld_unit_zero (S := S128x256) hz16, pay11_eq_16]
  rw [pay15_apply_16]
  refine congrArg (p (ix2 r j) + ·) (Finset.sum_congr rfl fun l _ => ?_)
  rw [pay8_apply_16]
  rfl

theorem acc16_1_apply (i : grid16.Coords) (x1 : Vec Ideal S1x512 .i32) (x2 : Vec Ideal S512x128 .f32) (x5 : Vec Ideal S128x256 .f32) (x6 : Vec Ideal S1x256 .f32)
    (p : Vec Ideal S1024x256 .f32) (r : Fin 1024) (j : Fin 256) :
    acc16_1 (F := Ideal) i x1 x2 x5 x6 p (ix2 r j) = p (ix2 r j) + addW_16 (i 0).val x1 x2 x5 x6 r j := by
  unfold acc16_1
  rw [View.canon_unit_zero hz16]
  simp only [View.ld_unit_zero (S := S1x512) hz16, View.ld_unit_zero (S := S1x256) hz16, View.ld_unit_zero (S := S512x128) hz16, View.ld_unit_zero (S := S128x256) hz16, pay12_eq_16]
  rw [pay16_apply_16]
  refine congrArg (p (ix2 r j) + ·) (Finset.sum_congr rfl fun l _ => ?_)
  rw [pay9_apply_16]
  rfl

theorem acc16_2_apply (i : grid16.Coords) (x0 : Vec Ideal S1x512 .i32) (p : Vec Ideal S1024x1 .f32) (r : Fin 1024) :
    acc16_2 (F := Ideal) i x0 p (ix2 r 0) = p (ix2 r 0) + addC_16 (i 0).val x0 r := by
  unfold acc16_2
  rw [View.canon_unit_zero hz16]
  simp only [View.ld_unit_zero (S := S1x512) hz16, View.ld_unit_zero (S := S1x256) hz16, pay11_eq_16]
  exact pay17_apply_16 i x0 p r

theorem acc16_3_apply (i : grid16.Coords) (x1 : Vec Ideal S1x512 .i32) (p : Vec Ideal S1024x1 .f32) (r : Fin 1024) :
    acc16_3 (F := Ideal) i x1 p (ix2 r 0) = p (ix2 r 0) + addC_16 (i 0).val x1 r := by
  unfold acc16_3
  rw [View.canon_unit_zero hz16]
  simp only [View.ld_unit_zero (S := S1x512) hz16, View.ld_unit_zero (S := S1x256) hz16, pay12_eq_16]
  exact pay18_apply_16 i x1 p r

theorem out16_8_apply (a0 : Vec Ideal S1024x256 .f32) (d0 : Vec Ideal S1024x1 .f32) (a1 : Vec Ideal S1024x256 .f32)
    (d1 : Vec Ideal S1024x1 .f32) (x7 : Vec Ideal S1024x256 .f32) (r : Fin 1024) (j : Fin 256) :
    out16_8 (F := Ideal) a0 d0 a1 d1 x7 (ix2 r j)
      = x7 (ix2 r j) + Spec.half * (Ideal.div (a0 (ix2 r j)) (d0 (ix2 r 0) + Spec.eps) + Ideal.div (a1 (ix2 r j)) (d1 (ix2 r 0) + Spec.eps)) := by
  unfold out16_8
  rw [View.canon_unit_zero hz16]
  simp only [View.ld_unit_zero (S := S1024x256) hz16, View.ld_unit_zero (S := S1024x1) hz16]
  exact pay2_apply_16 a0 d0 a1 d1 x7 r j

/-! # The four sums after each point: the sum of the addends of the run so far -/

/-- Point `m`'s addends (zero past the grid, where they are never used). -/
def M16_0 (c : Dev nD) (m : ℕ) (r : Fin 1024) (j : Fin 256) : EReal :=
  if h : m < cfg16.N then addW_16 (grid16.coords ⟨m, h⟩ 0).val (iblk16 V c 0 ⟨m, h⟩) (iblk16 V c 2 ⟨m, h⟩) (iblk16 V c 3 ⟨m, h⟩) (iblk16 V c 4 ⟨m, h⟩) r j else 0
def M16_1 (c : Dev nD) (m : ℕ) (r : Fin 1024) (j : Fin 256) : EReal :=
  if h : m < cfg16.N then addW_16 (grid16.coords ⟨m, h⟩ 0).val (iblk16 V c 1 ⟨m, h⟩) (iblk16 V c 2 ⟨m, h⟩) (iblk16 V c 5 ⟨m, h⟩) (iblk16 V c 6 ⟨m, h⟩) r j else 0
def M16_2 (c : Dev nD) (m : ℕ) (r : Fin 1024) : EReal :=
  if h : m < cfg16.N then addC_16 (grid16.coords ⟨m, h⟩ 0).val (iblk16 V c 0 ⟨m, h⟩) r else 0
def M16_3 (c : Dev nD) (m : ℕ) (r : Fin 1024) : EReal :=
  if h : m < cfg16.N then addC_16 (grid16.coords ⟨m, h⟩ 0).val (iblk16 V c 1 ⟨m, h⟩) r else 0

/-- THE ACCUMULATOR INVARIANT, first weighted sum: after point `n` the running-sum array holds, at (r, j), the sum of the
    addends of the points `64 (n / 64) … n` of its row block. -/
theorem scr16_0_eq (c : Dev nD) (r : Fin 1024) (j : Fin 256) (n : ℕ) (h : n < cfg16.N) :
    (scrAt16 V c n h).1 (ix2 r j) = ∑ s ∈ Finset.range (n % 64 + 1), M16_0 V c (64 * (n / 64) + s) r j := by
  refine fold64 (fun n h => (scrAt16 V c n h).1 (ix2 r j)) (fun m => M16_0 V c m r j) ?_ ?_ n h
  · intro n h hm
    have e := congrArg Prod.fst (scrAt16_first V c ⟨n, h⟩ hm)
    dsimp only at e
    show (scrAt16 V c n h).1 (ix2 r j) = M16_0 V c n r j
    rw [e, acc16_0_apply, pay3_apply_16, zero_add]
    unfold M16_0; rw [dif_pos h]
  · intro n h hm
    have e := congrArg Prod.fst (scrAt16_next V c ⟨n + 1, h⟩ hm)
    dsimp only at e
    show (scrAt16 V c (n + 1) h).1 (ix2 r j) = (scrAt16 V c n (Nat.lt_of_succ_lt h)).1 (ix2 r j) + M16_0 V c (n + 1) r j
    rw [e, acc16_0_apply, View.ld_unit_zero (S := S1024x256) hz16]
    unfold M16_0; rw [dif_pos h]
    rfl

/-- The second weighted sum likewise. -/
theorem scr16_1_eq (c : Dev nD) (r : Fin 1024) (j : Fin 256) (n : ℕ) (h : n < cfg16.N) :
    (scrAt16 V c n h).2.1 (ix2 r j) = ∑ s ∈ Finset.range (n % 64 + 1), M16_1 V c (64 * (n / 64) + s) r j := by
  refine fold64 (fun n h => (scrAt16 V c n h).2.1 (ix2 r j)) (fun m => M16_1 V c m r j) ?_ ?_ n h
  · intro n h hm
    have e := congrArg (fun q => q.2.1) (scrAt16_first V c ⟨n, h⟩ hm)
    dsimp only at e
    show (scrAt16 V c n h).2.1 (ix2 r j) = M16_1 V c n r j
    rw [e, acc16_1_apply, pay4_apply_16, zero_add]
    unfold M16_1; rw [dif_pos h]
  · intro n h hm
    have e := congrArg (fun q => q.2.1) (scrAt16_next V c ⟨n + 1, h⟩ hm)
    dsimp only at e
    show (scrAt16 V c (n + 1) h).2.1 (ix2 r j) = (scrAt16 V c n (Nat.lt_of_succ_lt h)).2.1 (ix2 r j) + M16_1 V c (n + 1) r j
    rw [e, acc16_1_apply, View.ld_unit_zero (S := S1024x256) hz16]
    unfold M16_1; rw [dif_pos h]
    rfl

/-- The first row count likewise. -/
theorem scr16_2_eq (c : Dev nD) (r : Fin 1024) (n : ℕ) (h : n < cfg16.N) :
    (scrAt16 V c n h).2.2.1 (ix2 r 0) = ∑ s ∈ Finset.range (n % 64 + 1), M16_2 V c (64 * (n / 64) + s) r := by
  refine fold64 (fun n h => (scrAt16 V c n h).2.2.1 (ix2 r 0)) (fun m => M16_2 V c m r) ?_ ?_ n h
  · intro n h hm
    have e := congrArg (fun q => q.2.2.1) (scrAt16_first V c ⟨n, h⟩ hm)
    dsimp only at e
    show (scrAt16 V c n h).2.2.1 (ix2 r 0) = M16_2 V c n r
    rw [e, acc16_2_apply, pay5_apply_16, zero_add]
    unfold M16_2; rw [dif_pos h]
  · intro n h hm
    have e := congrArg (fun q => q.2.2.1) (scrAt16_next V c ⟨n + 1, h⟩ hm)
    dsimp only at e
    show (scrAt16 V c (n + 1) h).2.2.1 (ix2 r 0) = (scrAt16 V c n (Nat.lt_of_succ_lt h)).2.2.1 (ix2 r 0) + M16_2 V c (n + 1) r
    rw [e, acc16_2_apply, View.ld_unit_zero (S := S1024x1) hz16]
    unfold M16_2; rw [dif_pos h]
    rfl

/-- The second row count likewise. -/
theorem scr16_3_eq (c : Dev nD) (r : Fin 1024) (n : ℕ) (h : n < cfg16.N) :
    (scrAt16 V c n h).2.2.2 (ix2 r 0) = ∑ s ∈ Finset.range (n % 64 + 1), M16_3 V c (64 * (n / 64) + s) r := by
  refine fold64 (fun n h => (scrAt16 V c n h).2.2.2 (ix2 r 0)) (fun m => M16_3 V c m r) ?_ ?_ n h
  · intro n h hm
    have e := congrArg (fun q => q.2.2.2) (scrAt16_first V c ⟨n, h⟩ hm)
    dsimp only at e
    show (scrAt16 V c n h).2.2.2 (ix2 r 0) = M16_3 V c n r
    rw [e, acc16_3_apply, pay6_apply_16, zero_add]
    unfold M16_3; rw [dif_pos h]
  · intro n h hm
    have e := congrArg (fun q => q.2.2.2) (scrAt16_next V c ⟨n + 1, h⟩ hm)
    dsimp only at e
    show (scrAt16 V c (n + 1) h).2.2.2 (ix2 r 0) = (scrAt16 V c n (Nat.lt_of_succ_lt h)).2.2.2 (ix2 r 0) + M16_3 V c (n + 1) r
    rw [e, acc16_3_apply, View.ld_unit_zero (S := S1024x1) hz16]
    unfold M16_3; rw [dif_pos h]
    rfl

/-! # The blocks as entries of the arrays the region finds -/

/-- The coordinates and the windows' block indices at point `t`, in closed form (decided over the 128 points). -/
theorem idx_facts16 : ∀ t : Fin cfg16.N,
    (grid16.coords t 0).val = t.val / 64
    ∧ win16_0.index t (0 : Fin 2) = 0 ∧ win16_0.index t (1 : Fin 2) = t.val % 64
    ∧ win16_1.index t (0 : Fin 2) = 0 ∧ win16_1.index t (1 : Fin 2) = t.val % 64
    ∧ win16_2.index t (0 : Fin 2) = t.val % 64 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = 0
    ∧ win16_7.index t (0 : Fin 2) = t.val / 64 ∧ win16_7.index t (1 : Fin 2) = 0
    ∧ win16_8.index t (0 : Fin 2) = t.val / 64 ∧ win16_8.index t (1 : Fin 2) = 0 :=
  (by decide +kernel : ∀ t : Fin grid16.N, _)

/-- The entry arrays as index vectors, matrices and bias vectors. -/
abbrev idxA16_0 (c : Dev nD) : Fin 32768 → BitVec 32 := fun R => (V c (Pipeline.arrRef spec16 0) : S1x32768.Idx → BitVec 32) (ix2 0 R)
abbrev idxA16_1 (c : Dev nD) : Fin 32768 → BitVec 32 := fun R => (V c (Pipeline.arrRef spec16 1) : S1x32768.Idx → BitVec 32) (ix2 0 R)
abbrev srcA16 (c : Dev nD) : Spec.Mat 32768 128 := fun a b => (V c (Pipeline.arrRef spec16 2) : S32768x128.Idx → EReal) (ix2 a b)
abbrev WA16_0 (c : Dev nD) : Spec.Mat 128 256 := fun a b => (V c (Pipeline.arrRef spec16 3) : S128x256.Idx → EReal) (ix2 a b)
abbrev bA16_0 (c : Dev nD) : Fin 256 → EReal := fun b => (V c (Pipeline.arrRef spec16 4) : S1x256.Idx → EReal) (ix2 0 b)
abbrev WA16_1 (c : Dev nD) : Spec.Mat 128 256 := fun a b => (V c (Pipeline.arrRef spec16 5) : S128x256.Idx → EReal) (ix2 a b)
abbrev bA16_1 (c : Dev nD) : Fin 256 → EReal := fun b => (V c (Pipeline.arrRef spec16 6) : S1x256.Idx → EReal) (ix2 0 b)
abbrev TA16 (c : Dev nD) : Spec.Mat 2048 256 := fun a b => (V c (Pipeline.arrRef spec16 7) : S2048x256.Idx → EReal) (ix2 a b)

theorem iblk16_0_apply (c : Dev nD) (t : Fin cfg16.N) (l : Fin 512) (R : Fin 32768) (hR : R.val = 512 * (t.val % 64) + l.val) :
    iblk16 V c 0 t (ix2 0 l) = idxA16_0 V c R := by
  obtain ⟨-, e0, e1, -⟩ := idx_facts16 t
  show V c (Pipeline.arrRef spec16 0) (((cfg16.win 0).blk t).view.emb (ix2 0 l)) = V c (Pipeline.arrRef spec16 0) (ix2 0 R)
  congr 1
  funext a; apply Fin.ext
  match a with
  | ⟨0, _⟩ => show win16_0.index t (0 : Fin 2) * 1 + 1 * 0 = 0; rw [e0]
  | ⟨1, _⟩ => show win16_0.index t (1 : Fin 2) * 512 + 1 * l.val = R.val; rw [e1, hR]; omega

theorem iblk16_1_apply (c : Dev nD) (t : Fin cfg16.N) (l : Fin 512) (R : Fin 32768) (hR : R.val = 512 * (t.val % 64) + l.val) :
    iblk16 V c 1 t (ix2 0 l) = idxA16_1 V c R := by
  obtain ⟨-, -, -, e0, e1, -⟩ := idx_facts16 t
  show V c (Pipeline.arrRef spec16 1) (((cfg16.win 1).blk t).view.emb (ix2 0 l)) = V c (Pipeline.arrRef spec16 1) (ix2 0 R)
  congr 1
  funext a; apply Fin.ext
  match a with
  | ⟨0, _⟩ => show win16_1.index t (0 : Fin 2) * 1 + 1 * 0 = 0; rw [e0]
  | ⟨1, _⟩ => show win16_1.index t (1 : Fin 2) * 512 + 1 * l.val = R.val; rw [e1, hR]; omega

theorem iblk16_2_apply (c : Dev nD) (t : Fin cfg16.N) (l : Fin 512) (d : Fin 128) (R : Fin 32768) (hR : R.val = 512 * (t.val % 64) + l.val) :
    iblk16 V c 2 t (ix2 l d) = srcA16 V c R d := by
  obtain ⟨-, -, -, -, -, e0, e1, -⟩ := idx_facts16 t
  show V c (Pipeline.arrRef spec16 2) (((cfg16.win 2).blk t).view.emb (ix2 l d)) = V c (Pipeline.arrRef spec16 2) (ix2 R d)
  congr 1
  funext a; apply Fin.ext
  match a with
  | ⟨0, _⟩ => show win16_2.index t (0 : Fin 2) * 512 + 1 * l.val = R.val; rw [e0, hR]; omega
  | ⟨1, _⟩ => show win16_2.index t (1 : Fin 2) * 128 + 1 * d.val = d.val; rw [e1]; omega

theorem iblk16_3_apply (c : Dev nD) (t : Fin cfg16.N) (d : Fin 128) (j : Fin 256) : iblk16 V c 3 t (ix2 d j) = WA16_0 V c d j := by
  obtain ⟨-, -, -, -, -, -, -, e0, e1, -⟩ := idx_facts16 t
  show V c (Pipeline.arrRef spec16 3) (((cfg16.win 3).blk t).view.emb (ix2 d j)) = V c (Pipeline.arrRef spec16 3) (ix2 d j)
  congr 1
  funext a; apply Fin.ext
  match a with
  | ⟨0, _⟩ => show win16_3.index t (0 : Fin 2) * 128 + 1 * d.val = d.val; rw [e0]; omega
  | ⟨1, _⟩ => show win16_3.index t (1 : Fin 2) * 256 + 1 * j.val = j.val; rw [e1]; omega

theorem iblk16_4_apply (c : Dev nD) (t : Fin cfg16.N) (j : Fin 256) : iblk16 V c 4 t (ix2 0 j) = bA16_0 V c j := by
  obtain ⟨-, -, -, -, -, -, -, -, -, e0, e1, -⟩ := idx_facts16 t
  show V c (Pipeline.arrRef spec16 4) (((cfg16.win 4).blk t).view.emb (ix2 0 j)) = V c (Pipeline.arrRef spec16 4) (ix2 0 j)
  congr 1
  funext a; apply Fin.ext
  match a with
  | ⟨0, _⟩ => show win16_4.index t (0 : Fin 2) * 1 + 1 * 0 = 0; rw [e0]
  | ⟨1, _⟩ => show win16_4.index t (1 : Fin 2) * 256 + 1 * j.val = j.val; rw [e1]; omega

theorem iblk16_5_apply (c : Dev nD) (t : Fin cfg16.N) (d : Fin 128) (j : Fin 256) : iblk16 V c 5 t (ix2 d j) = WA16_1 V c d j := by
  obtain ⟨-, -, -, -, -, -, -, -, -, -, -, e0, e1, -⟩ := idx_facts16 t
  show V c (Pipeline.arrRef spec16 5) (((cfg16.win 5).blk t).view.emb (ix2 d j)) = V c (Pipeline.arrRef spec16 5) (ix2 d j)
  congr 1
  funext a; apply Fin.ext
  match a with
  | ⟨0, _⟩ => show win16_5.index t (0 : Fin 2) * 128 + 1 * d.val = d.val; rw [e0]; omega
  | ⟨1, _⟩ => show win16_5.index t (1 : Fin 2) * 256 + 1 * j.val = j.val; rw [e1]; omega

theorem iblk16_6_apply (c : Dev nD) (t : Fin cfg16.N) (j : Fin 256) : iblk16 V c 6 t (ix2 0 j) = bA16_1 V c j := by
  obtain ⟨-, -, -, -, -, -, -, -, -, -, -, -, -, e0, e1, -⟩ := idx_facts16 t
  show V c (Pipeline.arrRef spec16 6) (((cfg16.win 6).blk t).view.emb (ix2 0 j)) = V c (Pipeline.arrRef spec16 6) (ix2 0 j)
  congr 1
  funext a; apply Fin.ext
  match a with
  | ⟨0, _⟩ => show win16_6.index t (0 : Fin 2) * 1 + 1 * 0 = 0; rw [e0]
  | ⟨1, _⟩ => show win16_6.index t (1 : Fin 2) * 256 + 1 * j.val = j.val; rw [e1]; omega

theorem iblk16_7_apply (c : Dev nD) (t : Fin cfg16.N) (r : Fin 1024) (j : Fin 256) (I : Fin 2048) (hI : I.val = 1024 * (t.val / 64) + r.val) :
    iblk16 V c 7 t (ix2 r j) = TA16 V c I j := by
  obtain ⟨-, -, -, -, -, -, -, -, -, -, -, -, -, -, -, e0, e1, -⟩ := idx_facts16 t
  show V c (Pipeline.arrRef spec16 7) (((cfg16.win 7).blk t).view.emb (ix2 r j)) = V c (Pipeline.arrRef spec16 7) (ix2 I j)
  congr 1
  funext a; apply Fin.ext
  match a with
  | ⟨0, _⟩ => show win16_7.index t (0 : Fin 2) * 1024 + 1 * r.val = I.val; rw [e0, hI]; omega
  | ⟨1, _⟩ => show win16_7.index t (1 : Fin 2) * 256 + 1 * j.val = j.val; rw [e1]; omega

/-! # The four sums at the last point of a row block: sums over all the relations -/

/-- A relation's term of a weighted sum and of a row count (zero past the relations, where they are never used). -/
def termW_16 (idx : Fin 32768 → BitVec 32) (fc : Spec.Mat 32768 256) (i : ℕ) (r : Fin 1024) (j : Fin 256) (R : ℕ) : EReal :=
  if h : R < 32768 then hot i r.val (idx ⟨R, h⟩) * fc ⟨R, h⟩ j else 0
def termC_16 (idx : Fin 32768 → BitVec 32) (i : ℕ) (r : Fin 1024) (R : ℕ) : EReal :=
  if h : R < 32768 then hot i r.val (idx ⟨R, h⟩) else 0

/-- The projected, rectified source tile of point `t` is rows `512 (t % 64) …` of relu(src · W + b). -/
theorem fcTile16_0 (c : Dev nD) (t : Fin cfg16.N) (l : Fin 512) (j : Fin 256) (R : Fin 32768) (hR : R.val = 512 * (t.val % 64) + l.val) :
    fcAt_16 (iblk16 V c 2 t) (iblk16 V c 3 t) (iblk16 V c 4 t) l j = Spec.linRelu (srcA16 V c) (WA16_0 V c) (bA16_0 V c) R j := by
  unfold fcAt_16 Spec.linRelu Spec.lin
  rw [iblk16_4_apply]
  refine congrArg (fun z => Spec.relu (z + bA16_0 V c j)) (Finset.sum_congr rfl fun d _ => ?_)
  rw [iblk16_2_apply V c t l d R hR, iblk16_3_apply]

theorem fcTile16_1 (c : Dev nD) (t : Fin cfg16.N) (l : Fin 512) (j : Fin 256) (R : Fin 32768) (hR : R.val = 512 * (t.val % 64) + l.val) :
    fcAt_16 (iblk16 V c 2 t) (iblk16 V c 5 t) (iblk16 V c 6 t) l j = Spec.linRelu (srcA16 V c) (WA16_1 V c) (bA16_1 V c) R j := by
  unfold fcAt_16 Spec.linRelu Spec.lin
  rw [iblk16_6_apply]
  refine congrArg (fun z => Spec.relu (z + bA16_1 V c j)) (Finset.sum_congr rfl fun d _ => ?_)
  rw [iblk16_2_apply V c t l d R hR, iblk16_5_apply]

/-- Point `m`'s addends over the arrays: the terms of the relations of tile `m % 64`, at block row `m / 64`. -/
theorem M16_0_eq (c : Dev nD) (m : ℕ) (h : m < cfg16.N) (r : Fin 1024) (j : Fin 256) :
    M16_0 V c m r j = ∑ l : Fin 512, termW_16 (idxA16_0 V c) (Spec.linRelu (srcA16 V c) (WA16_0 V c) (bA16_0 V c)) (m / 64) r j (512 * (m % 64) + l.val) := by
  have ec : (grid16.coords ⟨m, h⟩ 0).val = m / 64 := (idx_facts16 ⟨m, h⟩).1
  unfold M16_0; rw [dif_pos h]
  unfold addW_16; rw [ec]
  refine Finset.sum_congr rfl fun l _ => ?_
  have hl : 512 * (m % 64) + l.val < 32768 := by have := l.isLt; omega
  unfold termW_16; rw [dif_pos hl]
  rw [iblk16_0_apply V c ⟨m, h⟩ l ⟨_, hl⟩ rfl, fcTile16_0 V c ⟨m, h⟩ l j ⟨_, hl⟩ rfl]

theorem M16_1_eq (c : Dev nD) (m : ℕ) (h : m < cfg16.N) (r : Fin 1024) (j : Fin 256) :
    M16_1 V c m r j = ∑ l : Fin 512, termW_16 (idxA16_1 V c) (Spec.linRelu (srcA16 V c) (WA16_1 V c) (bA16_1 V c)) (m / 64) r j (512 * (m % 64) + l.val) := by
  have ec : (grid16.coords ⟨m, h⟩ 0).val = m / 64 := (idx_facts16 ⟨m, h⟩).1
  unfold M16_1; rw [dif_pos h]
  unfold addW_16; rw [ec]
  refine Finset.sum_congr rfl fun l _ => ?_
  have hl : 512 * (m % 64) + l.val < 32768 := by have := l.isLt; omega
  unfold termW_16; rw [dif_pos hl]
  rw [iblk16_1_apply V c ⟨m, h⟩ l ⟨_, hl⟩ rfl, fcTile16_1 V c ⟨m, h⟩ l j ⟨_, hl⟩ rfl]

theorem M16_2_eq (c : Dev nD) (m : ℕ) (h : m < cfg16.N) (r : Fin 1024) :
    M16_2 V c m r = ∑ l : Fin 512, termC_16 (idxA16_0 V c) (m / 64) r (512 * (m % 64) + l.val) := by
  have ec : (grid16.coords ⟨m, h⟩ 0).val = m / 64 := (idx_facts16 ⟨m, h⟩).1
  unfold M16_2; rw [dif_pos h]
  unfold addC_16; rw [ec]
  refine Finset.sum_congr rfl fun l _ => ?_
  have hl : 512 * (m % 64) + l.val < 32768 := by have := l.isLt; omega
  unfold termC_16; rw [dif_pos hl]
  rw [iblk16_0_apply V c ⟨m, h⟩ l ⟨_, hl⟩ rfl]

theorem M16_3_eq (c : Dev nD) (m : ℕ) (h : m < cfg16.N) (r : Fin 1024) :
    M16_3 V c m r = ∑ l : Fin 512, termC_16 (idxA16_1 V c) (m / 64) r (512 * (m % 64) + l.val) := by
  have ec : (grid16.coords ⟨m, h⟩ 0).val = m / 64 := (idx_facts16 ⟨m, h⟩).1
  unfold M16_3; rw [dif_pos h]
  unfold addC_16; rw [ec]
  refine Finset.sum_congr rfl fun l _ => ?_
  have hl : 512 * (m % 64) + l.val < 32768 := by have := l.isLt; omega
  unfold termC_16; rw [dif_pos hl]
  rw [iblk16_1_apply V c ⟨m, h⟩ l ⟨_, hl⟩ rfl]

/-- AT THE LAST POINT OF A ROW BLOCK the first weighted sum at (r, j) is the adjacency-weighted sum, over all the
    relations, of the projected rows: the 64 tiles of 512 relations are the 32768 relations. -/
theorem scrF16_0 (c : Dev nD) (t : Fin cfg16.N) (h63 : t.val % 64 = 63) (r : Fin 1024) (j : Fin 256)
    (hI : 1024 * (t.val / 64) + r.val < 2048) :
    scr16_0 V c t (ix2 r j) = ∑ R : Fin 32768, Spec.adj 2048 (idxA16_0 V c) ⟨1024 * (t.val / 64) + r.val, hI⟩ R
        * Spec.linRelu (srcA16 V c) (WA16_0 V c) (bA16_0 V c) R j := by
  have hN : cfg16.N = 128 := N_16
  have ht := t.isLt
  have key : ∀ s ∈ Finset.range 64, M16_0 V c (64 * (t.val / 64) + s) r j
      = ∑ l : Fin 512, termW_16 (idxA16_0 V c) (Spec.linRelu (srcA16 V c) (WA16_0 V c) (bA16_0 V c)) (t.val / 64) r j (512 * s + l.val) := fun s hs => by
    have hs' : s < 64 := Finset.mem_range.mp hs
    rw [M16_0_eq V c (64 * (t.val / 64) + s) (by omega) r j,
      show (64 * (t.val / 64) + s) / 64 = t.val / 64 by omega, show (64 * (t.val / 64) + s) % 64 = s by omega]
  unfold scr16_0
  rw [scr16_0_eq, h63, Finset.sum_congr rfl key]
  refine (sum_tiles 64 512 _).trans (Finset.sum_congr rfl fun R _ => ?_)
  unfold termW_16; rw [dif_pos (show R.val < 32768 from R.isLt)]
  rfl

theorem scrF16_1 (c : Dev nD) (t : Fin cfg16.N) (h63 : t.val % 64 = 63) (r : Fin 1024) (j : Fin 256)
    (hI : 1024 * (t.val / 64) + r.val < 2048) :
    scr16_1 V c t (ix2 r j) = ∑ R : Fin 32768, Spec.adj 2048 (idxA16_1 V c) ⟨1024 * (t.val / 64) + r.val, hI⟩ R
        * Spec.linRelu (srcA16 V c) (WA16_1 V c) (bA16_1 V c) R j := by
  have hN : cfg16.N = 128 := N_16
  have ht := t.isLt
  have key : ∀ s ∈ Finset.range 64, M16_1 V c (64 * (t.val / 64) + s) r j
      = ∑ l : Fin 512, termW_16 (idxA16_1 V c) (Spec.linRelu (srcA16 V c) (WA16_1 V c) (bA16_1 V c)) (t.val / 64) r j (512 * s + l.val) := fun s hs => by
    have hs' : s < 64 := Finset.mem_range.mp hs
    rw [M16_1_eq V c (64 * (t.val / 64) + s) (by omega) r j,
      show (64 * (t.val / 64) + s) / 64 = t.val / 64 by omega, show (64 * (t.val / 64) + s) % 64 = s by omega]
  unfold scr16_1
  rw [scr16_1_eq, h63, Finset.sum_congr rfl key]
  refine (sum_tiles 64 512 _).trans (Finset.sum_congr rfl fun R _ => ?_)
  unfold termW_16; rw [dif_pos (show R.val < 32768 from R.isLt)]
  rfl

/-- The first row count there: the row's degree in the first adjacency. -/
theorem scrF16_2 (c : Dev nD) (t : Fin cfg16.N) (h63 : t.val % 64 = 63) (r : Fin 1024)
    (hI : 1024 * (t.val / 64) + r.val < 2048) :
    scr16_2 V c t (ix2 r 0) = ∑ R : Fin 32768, Spec.adj 2048 (idxA16_0 V c) ⟨1024 * (t.val / 64) + r.val, hI⟩ R := by
  have hN : cfg16.N = 128 := N_16
  have ht := t.isLt
  have key : ∀ s ∈ Finset.range 64, M16_2 V c (64 * (t.val / 64) + s) r
      = ∑ l : Fin 512, termC_16 (idxA16_0 V c) (t.val / 64) r (512 * s + l.val) := fun s hs => by
    have hs' : s < 64 := Finset.mem_range.mp hs
    rw [M16_2_eq V c (64 * (t.val / 64) + s) (by omega) r,
      show (64 * (t.val / 64) + s) / 64 = t.val / 64 by omega, show (64 * (t.val / 64) + s) % 64 = s by omega]
  unfold scr16_2
  rw [scr16_2_eq, h63, Finset.sum_congr rfl key]
  refine (sum_tiles 64 512 _).trans (Finset.sum_congr rfl fun R _ => ?_)
  unfold termC_16; rw [dif_pos (show R.val < 32768 from R.isLt)]
  rfl

theorem scrF16_3 (c : Dev nD) (t : Fin cfg16.N) (h63 : t.val % 64 = 63) (r : Fin 1024)
    (hI : 1024 * (t.val / 64) + r.val < 2048) :
    scr16_3 V c t (ix2 r 0) = ∑ R : Fin 32768, Spec.adj 2048 (idxA16_1 V c) ⟨1024 * (t.val / 64) + r.val, hI⟩ R := by
  have hN : cfg16.N = 128 := N_16
  have ht := t.isLt
  have key : ∀ s ∈ Finset.range 64, M16_3 V c (64 * (t.val / 64) + s) r
      = ∑ l : Fin 512, termC_16 (idxA16_1 V c) (t.val / 64) r (512 * s + l.val) := fun s hs => by
    have hs' : s < 64 := Finset.mem_range.mp hs
    rw [M16_3_eq V c (64 * (t.val / 64) + s) (by omega) r,
      show (64 * (t.val / 64) + s) / 64 = t.val / 64 by omega, show (64 * (t.val / 64) + s) % 64 = s by omega]
  unfold scr16_3
  rw [scr16_3_eq, h63, Finset.sum_congr rfl key]
  refine (sum_tiles 64 512 _).trans (Finset.sum_congr rfl fun R _ => ?_)
  unfold termC_16; rw [dif_pos (show R.val < 32768 from R.isLt)]
  rfl

/-! # From the blocks to the array -/

/-- What the region leaves in its output array, as one function of the arrays it finds: the update of the target by the
    two adjacency-weighted means of the projected, rectified source rows. -/
def G16 (c : Dev nD) : S2048x256.Idx → EReal := fun y =>
  Spec.upd (TA16 V c) (Spec.collect (Spec.adj 2048 (idxA16_0 V c)) (Spec.linRelu (srcA16 V c) (WA16_0 V c) (bA16_0 V c)))
    (Spec.collect (Spec.adj 2048 (idxA16_1 V c)) (Spec.linRelu (srcA16 V c) (WA16_1 V c) (bA16_1 V c))) (y 0) (y 1)

/-- What the last point of a row block writes back is its block of that function. -/
theorem flushed16_eq (c : Dev nD) (t : Fin cfg16.N) (hf : (cfg16.win 8).flush t = true) :
    (dat16 V c).flushed 8 t = ((cfg16.win 8).blk t).view.read (Elt Ideal) (G16 V c) := by
  have h63 : t.val % 64 = 63 := (flush16_8 t).mp hf
  have hN : cfg16.N = 128 := N_16
  have ht := t.isLt
  obtain ⟨-, -, -, -, -, -, -, -, -, -, -, -, -, -, -, -, -, e0, e1⟩ := idx_facts16 t
  show (cfg16.win 8).cut (grid16.coords t) ((dat16 V c).after 8 t) = _
  rw [after16_8]
  funext y
  obtain ⟨r, j, rfl⟩ : ∃ (r : Fin 1024) (j : Fin 256), y = ix2 r j := ⟨y 0, y 1, @eq_ix2 1024 256 y⟩
  have hI : 1024 * (t.val / 64) + r.val < 2048 := by have := r.isLt; omega
  have hE : ((cfg16.win 8).blk t).view.emb (ix2 r j) = ix2 (⟨1024 * (t.val / 64) + r.val, hI⟩ : Fin 2048) j := by
    funext a; apply Fin.ext
    match a with
    | ⟨0, _⟩ => show win16_8.index t (0 : Fin 2) * 1024 + 1 * r.val = 1024 * (t.val / 64) + r.val; rw [e0]; omega
    | ⟨1, _⟩ => show win16_8.index t (1 : Fin 2) * 256 + 1 * j.val = j.val; rw [e1]; omega
  show out16_8 (scr16_0 V c t) (scr16_2 V c t) (scr16_1 V c t) (scr16_3 V c t) (iblk16 V c 7 t) (ix2 r j)
    = G16 V c (((cfg16.win 8).blk t).view.emb (ix2 r j))
  rw [hE, out16_8_apply, iblk16_7_apply V c t r j ⟨_, hI⟩ rfl, scrF16_0 V c t h63 r j hI, scrF16_1 V c t h63 r j hI,
    scrF16_2 V c t h63 r hI, scrF16_3 V c t h63 r hI]
  rfl

/-- Every entry of the output array is in the block some last point of a row block writes back. -/
theorem cover16 (y : S2048x256.Idx) :
    ∃ t : Fin cfg16.N, (cfg16.win 8).flush t = true ∧ y ∈ ((cfg16.win 8).blk t).view.set := by
  have hN : cfg16.N = 128 := N_16
  have h0 : (y 0).val < 2048 := (y 0).isLt
  have h1 : (y 1).val < 256 := (y 1).isLt
  have hb : 64 * ((y 0).val / 1024) + 63 < cfg16.N := by rw [hN]; omega
  refine ⟨⟨64 * ((y 0).val / 1024) + 63, hb⟩, (flush16_8 _).mpr (by show (64 * ((y 0).val / 1024) + 63) % 64 = 63; omega), ?_⟩
  obtain ⟨-, -, -, -, -, -, -, -, -, -, -, -, -, -, -, -, -, e0, e1⟩ := idx_facts16 ⟨64 * ((y 0).val / 1024) + 63, hb⟩
  have e0' : win16_8.index ⟨64 * ((y 0).val / 1024) + 63, hb⟩ (0 : Fin 2) = (y 0).val / 1024 := by
    rw [e0]; show (64 * ((y 0).val / 1024) + 63) / 64 = _; omega
  show y ∈ ((View.whole main_v108).slice (win16_8.rect ⟨64 * ((y 0).val / 1024) + 63, hb⟩)).set
  rw [View.set_slice_whole, Rect.mem_set_unit]
  intro a
  match a with
  | ⟨0, _⟩ =>
    show win16_8.index ⟨64 * ((y 0).val / 1024) + 63, hb⟩ (0 : Fin 2) * 1024 ≤ (y 0).val
      ∧ (y 0).val < win16_8.index ⟨64 * ((y 0).val / 1024) + 63, hb⟩ (0 : Fin 2) * 1024 + 1024
    rw [e0']; omega
  | ⟨1, _⟩ =>
    show win16_8.index ⟨64 * ((y 0).val / 1024) + 63, hb⟩ (1 : Fin 2) * 256 ≤ (y 1).val
      ∧ (y 1).val < win16_8.index ⟨64 * ((y 0).val / 1024) + 63, hb⟩ (1 : Fin 2) * 256 + 256
    rw [e1]; omega

/-- THE VALUE OF REGION 16: its output array ends holding, at (i, j), the target's entry plus half the sum of the two
    adjacency-weighted means of relu(src · W + b), as functions of the arrays the region finds. -/
theorem final16 (c : Dev nD) (i : Fin 2048) (j : Fin 256) :
    (dat16 (F := Ideal) V c).arrAt 8 cfg16.N (ix2 i j)
      = Spec.upd (fun a b => (V c (Pipeline.arrRef spec16 7) : S2048x256.Idx → EReal) (ix2 a b))
          (Spec.collect (Spec.adj 2048 (fun R => (V c (Pipeline.arrRef spec16 0) : S1x32768.Idx → BitVec 32) (ix2 0 R)))
            (Spec.linRelu (fun a b => (V c (Pipeline.arrRef spec16 2) : S32768x128.Idx → EReal) (ix2 a b))
              (fun a b => (V c (Pipeline.arrRef spec16 3) : S128x256.Idx → EReal) (ix2 a b))
              (fun b => (V c (Pipeline.arrRef spec16 4) : S1x256.Idx → EReal) (ix2 0 b))))
          (Spec.collect (Spec.adj 2048 (fun R => (V c (Pipeline.arrRef spec16 1) : S1x32768.Idx → BitVec 32) (ix2 0 R)))
            (Spec.linRelu (fun a b => (V c (Pipeline.arrRef spec16 2) : S32768x128.Idx → EReal) (ix2 a b))
              (fun a b => (V c (Pipeline.arrRef spec16 5) : S128x256.Idx → EReal) (ix2 a b))
              (fun b => (V c (Pipeline.arrRef spec16 6) : S1x256.Idx → EReal) (ix2 0 b)))) i j :=
  congrFun ((dat16 V c).arrAt_eq_of_cover 8 (G16 V c) (flushed16_eq V c) cover16) (ix2 i j)

end Cert.KernelIdeal.HandV
end
-- ==== Proof.KI.Val17.lean ====
import proofs.«422120_j65652870087589_3_alg».proof.Proof.KI.Reg17
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 17 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 256
local notation "nOut" => 128
local notation "nPts" => 4

/-- The input array and one block of its rows, -/
abbrev SXa17 : Shape := S2048x256
abbrev SXb17 : Shape := S512x256
/-- the weight matrix, the bias row, -/
abbrev SW17 : Shape := S256x128
abbrev SB17 : Shape := S1x128
/-- the result array and one block of its rows. -/
abbrev SOa17 : Shape := S2048x128
abbrev SOb17 : Shape := S512x128

/-! ## The block product's index maps, axis by axis -/

/-- The left operand is read at the output's row, -/
theorem lhs17_0 (i : SOb17.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin SXb17.rank) ∈ dot_S512x256_S256x128_S512x128_1_0_0_1_n_n.lhsBatch by decide), dif_pos (show (0 : Fin SXb17.rank) ∈ dot_S512x256_S256x128_S512x128_1_0_0_1_n_n.lhsNonContracting by decide)]
  rfl
/-- and at the inner index as its column; -/
theorem lhs17_1 (i : SOb17.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
/-- the right operand at the inner index as its row, -/
theorem rhs17_0 (i : SOb17.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
/-- and at the output's column. -/
theorem rhs17_1 (i : SOb17.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin SW17.rank) ∈ dot_S512x256_S256x128_S512x128_1_0_0_1_n_n.rhsBatch by decide), dif_pos (show (1 : Fin SW17.rank) ∈ dot_S512x256_S256x128_S512x128_1_0_0_1_n_n.rhsNonContracting by decide)]
  rfl

/-- The block product into the zero accumulator, at row `p` and column `q`: the sum over the inner index of the
    products of the row's and the column's entries. -/
theorem mm17_apply (a : FVec Ideal SXb17 .bf16) (b : FVec Ideal SW17 .bf16) (p : Fin nBlk) (q : Fin nOut) :
    FloatOps.matmul dot_S512x256_S256x128_S512x128_1_0_0_1_n_n none a b (constant (F := Ideal) SOb17 .f32 0x00000000#32) (ix2 p q)
      = ∑ l : Fin nIn, a (ix2 p l) * b (ix2 l q) := by
  rw [Ideal.matmul_constant_zero_apply, ← Equiv.sum_comp (contrEquiv1 dot_S512x256_S256x128_S512x128_1_0_0_1_n_n nIn rfl rfl).symm]
  refine Finset.sum_congr rfl fun k _ => ?_
  have hk := contrEquiv1_symm_val dot_S512x256_S256x128_S512x128_1_0_0_1_n_n nIn rfl rfl k
  have el : dot_S512x256_S256x128_S512x128_1_0_0_1_n_n.lhsIdx (ix2 p q) ((contrEquiv1 dot_S512x256_S256x128_S512x128_1_0_0_1_n_n nIn rfl rfl).symm k) = ix2 p k := funext fun a => Fin.ext (by
    match a with
    | ⟨0, _⟩ => exact lhs17_0 _ _
    | ⟨1, _⟩ => exact (lhs17_1 _ _).trans hk)
  have er : dot_S512x256_S256x128_S512x128_1_0_0_1_n_n.rhsIdx (ix2 p q) ((contrEquiv1 dot_S512x256_S256x128_S512x128_1_0_0_1_n_n nIn rfl rfl).symm k) = ix2 k q := funext fun a => Fin.ext (by
    match a with
    | ⟨0, _⟩ => exact (rhs17_0 _ _).trans hk
    | ⟨1, _⟩ => exact rhs17_1 _ _)
  rw [el, er]

/-! ## The payload at an index -/

/-- The payload at row `p` and column `q` of the block: the positive part of the row of `x0` against the column
    of `x1`, plus the bias at `q`. On the extended reals a change of float format changes nothing, and the zero
    word is zero. -/
theorem pay17_apply (x0 : Vec Ideal SXb17 .f32) (x1 : Vec Ideal SW17 .f32) (x2 : Vec Ideal SB17 .f32) (p : Fin nBlk) (q : Fin nOut) :
    k17_pay1 (F := Ideal) x0 x1 x2 (ix2 p q)
      = max ((∑ l : Fin nIn, x0 (ix2 p l) * x1 (ix2 l q)) + x2 (ix2 (0 : Fin 1) q)) 0 := by
  unfold k17_pay1
  simp only [matmul]
  refine congrArg₂ max (congrArg₂ (· + ·) ?_ ?_) ?_
  · refine (mm17_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr17 (c : Dev nD) : SXa17.Idx → EReal := V c (Pipeline.arrRef spec17 0)
abbrev warr17 (c : Dev nD) : SW17.Idx → EReal := V c (Pipeline.arrRef spec17 1)
abbrev barr17 (c : Dev nD) : SB17.Idx → EReal := V c (Pipeline.arrRef spec17 2)

/-- The whole result, index by index. -/
abbrev G17 (c : Dev nD) : SOa17.Idx → EReal := fun i =>
  Spec.linRelu (r := nRows) (k := nIn) (n := nOut) (fun a b => xarr17 V c (ix2 a b)) (fun a b => warr17 V c (ix2 a b))
    (fun b => barr17 V c (ix2 (0 : Fin 1) b)) (i 0) (i 1)

theorem hz17 : (![0, 0] : Fin 2 → Nat) = fun _ => 0 := funext fun a => by fin_cases a <;> rfl

/-- The printed index maps over the grid: the input's block of rows moves with the output's, which is the point's
    number; every other block index is zero. -/
theorem idx_facts17 : ∀ t : Fin cfg17.N,
    win17_0.index t (0 : Fin 2) = win17_3.index t (0 : Fin 2) ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (1 : Fin 2) = 0 ∧ win17_3.index t (0 : Fin 2) = t.val :=
  (by decide +kernel : ∀ t : Fin grid17.N, _)

/-- What point `t` writes back is block `t` of the whole result. -/
theorem flushed17_eq (c : Dev nD) (t : Fin cfg17.N) :
    (dat17 (F := Ideal) V c).flushed 3 t = ((cfg17.win 3).blk t).view.read (Elt Ideal) (G17 V c) := by
  show (cfg17.win 3).cut (grid17.coords t) ((dat17 (F := Ideal) V c).after 3 t) = _
  rw [after17_3]
  unfold out17_3
  rw [View.canon_unit_zero hz17]
  simp only [View.ld_unit_zero (S := SXb17) hz17, View.ld_unit_zero (S := SW17) hz17, View.ld_unit_zero (S := SB17) hz17]
  obtain ⟨e0, e1, e2, e3, e4, e5, e6, e7⟩ := idx_facts17 t
  funext j
  obtain ⟨p, q, rfl⟩ : ∃ (p : Fin nBlk) (q : Fin nOut), j = ix2 p q := ⟨j 0, j 1, eq_ix2 j⟩
  refine (pay17_apply (iblk17 V c 0 t) (iblk17 V c 1 t) (iblk17 V c 2 t) p q).trans ?_
  -- the row of the array the output's block puts row `p` at, and likewise the column
  have h0 : ∀ l : Fin nIn, ((cfg17.win 0).blk t).view.emb (ix2 p l)
      = ix2 ((((cfg17.win 3).blk t).view.emb (ix2 p q) 0 : Fin nRows)) l := fun l => by
    funext a; apply Fin.ext
    match a with
    | ⟨0, _⟩ => show win17_0.index t (0 : Fin 2) * nBlk + 1 * p.val = win17_3.index t (0 : Fin 2) * nBlk + 1 * p.val; omega
    | ⟨1, _⟩ => show win17_0.index t (1 : Fin 2) * nIn + 1 * l.val = l.val; omega
  have h1 : ∀ l : Fin nIn, ((cfg17.win 1).blk t).view.emb (ix2 l q)
      = ix2 l ((((cfg17.win 3).blk t).view.emb (ix2 p q) 1 : Fin nOut)) := fun l => by
    funext a; apply Fin.ext
    match a with
    | ⟨0, _⟩ => show win17_1.index t (0 : Fin 2) * nIn + 1 * l.val = l.val; omega
    | ⟨1, _⟩ => show win17_1.index t (1 : Fin 2) * nOut + 1 * q.val = win17_3.index t (1 : Fin 2) * nOut + 1 * q.val; omega
  have h2 : ((cfg17.win 2).blk t).view.emb (ix2 (0 : Fin 1) q)
      = ix2 (0 : Fin 1) ((((cfg17.win 3).blk t).view.emb (ix2 p q) 1 : Fin nOut)) := by
    funext a; apply Fin.ext
    match a with
    | ⟨0, _⟩ => show win17_2.index t (0 : Fin 2) * 1 + 1 * 0 = 0; omega
    | ⟨1, _⟩ => show win17_2.index t (1 : Fin 2) * nOut + 1 * q.val = win17_3.index t (1 : Fin 2) * nOut + 1 * q.val; omega
  refine congrArg₂ max (congrArg₂ (· + ·) (Finset.sum_congr rfl fun l _ => ?_) ?_) rfl
  · exact congrArg₂ (· * ·) (congrArg (xarr17 V c) (h0 l)) (congrArg (warr17 V c) (h1 l))
  · exact congrArg (barr17 V c) h2

/-- An index of the output array is in point `t`'s block exactly when each coordinate is in the block's range. -/
theorem mem_blk17 (t : Fin cfg17.N) (i : SOa17.Idx) :
    i ∈ ((cfg17.win 3).blk t).view.set ↔ ∀ a : Fin 2, win17_3.index t a * SOb17.size a ≤ (i a).val
      ∧ (i a).val < win17_3.index t a * SOb17.size a + SOb17.size a := by
  show i ∈ ((View.whole main_v114).slice (win17_3.rect t)).set ↔ _
  rw [View.set_slice_whole, Rect.mem_set_unit]
  exact Iff.rfl

/-- Every index of the output array is in some point's block: a row is in the block of the point numbered by the
    row's quotient by the rows of a block. -/
theorem cover17 (i : SOa17.Idx) :
    ∃ t : Fin cfg17.N, (cfg17.win 3).flush t = true ∧ i ∈ ((cfg17.win 3).blk t).view.set := by
  have hi0 : (i 0).val < nRows := (i 0).isLt
  have hi1 : (i 1).val < nOut := (i 1).isLt
  have hN : cfg17.N = nPts := N_17
  refine ⟨⟨(i 0).val / nBlk, by omega⟩, flush17_3 _, ?_⟩
  obtain ⟨e0, e1, e2, e3, e4, e5, e6, e7⟩ := idx_facts17 ⟨(i 0).val / nBlk, by omega⟩
  rw [mem_blk17]
  intro a
  match a with
  | ⟨0, _⟩ =>
    show win17_3.index ⟨(i 0).val / nBlk, _⟩ (0 : Fin 2) * nBlk ≤ (i 0).val
      ∧ (i 0).val < win17_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win17_3.index ⟨(i 0).val / nBlk, _⟩ (1 : Fin 2) * nOut ≤ (i 1).val
      ∧ (i 1).val < win17_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final17 (c : Dev nD) (i : Fin nRows) (j : Fin nOut) :
    (dat17 (F := Ideal) V c).arrAt 3 cfg17.N (ix2 i j)
      = Spec.linRelu (fun a b => (V c (Pipeline.arrRef spec17 0) : SXa17.Idx → EReal) (ix2 a b))
          (fun a b => (V c (Pipeline.arrRef spec17 1) : SW17.Idx → EReal) (ix2 a b))
          (fun b => (V c (Pipeline.arrRef spec17 2) : SB17.Idx → EReal) (ix2 (0 : Fin 1) b)) i j := by
  rw [(dat17 (F := Ideal) V c).arrAt_eq_of_cover 3 (G17 V c) (fun t _ => flushed17_eq V c t) (cover17)]

end Cert.KernelIdeal.HandV

end
-- ==== Proof.KI.Val18.lean ====
import proofs.«422120_j65652870087589_3_alg».proof.Proof.KI.Reg18
import proofs.«422120_j65652870087589_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 18 on the extended reals: the output array after the region is the linear layer, followed by the
positive part, of the three input arrays as the region finds them -/

/-! ## The sizes and the shapes -/

-- rows of the input and of the result; rows of one block; the inner extent; the result's columns; grid points
local notation "nRows" => 2048
local notation "nBlk" => 512
local notation "nIn" => 256
local notation "nOut" => 128
local notation "nPts" => 4

/-- The input array and one block of its rows, -/
abbrev SXa18 : Shape := S2048x256
abbrev SXb18 : Shape := S512x256
/-- the weight matrix, the bias row, -/
abbrev SW18 : Shape := S256x128
abbrev SB18 : Shape := S1x128
/-- the result array and one block of its rows. -/
abbrev SOa18 : Shape := S2048x128
abbrev SOb18 : Shape := S512x128

/-! ## The block product's index maps, axis by axis -/

/-- The left operand is read at the output's row, -/
theorem lhs18_0 (i : SOb18.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin SXb18.rank) ∈ dot_S512x256_S256x128_S512x128_1_0_0_1_n_n.lhsBatch by decide), dif_pos (show (0 : Fin SXb18.rank) ∈ dot_S512x256_S256x128_S512x128_1_0_0_1_n_n.lhsNonContracting by decide)]
  rfl
/-- and at the inner index as its column; -/
theorem lhs18_1 (i : SOb18.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
/-- the right operand at the inner index as its row, -/
theorem rhs18_0 (i : SOb18.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
/-- and at the output's column. -/
theorem rhs18_1 (i : SOb18.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin SW18.rank) ∈ dot_S512x256_S256x128_S512x128_1_0_0_1_n_n.rhsBatch by decide), dif_pos (show (1 : Fin SW18.rank) ∈ dot_S512x256_S256x128_S512x128_1_0_0_1_n_n.rhsNonContracting by decide)]
  rfl

/-- The block product into the zero accumulator, at row `p` and column `q`: the sum over the inner index of the
    products of the row's and the column's entries. -/
theorem mm18_apply (a : FVec Ideal SXb18 .bf16) (b : FVec Ideal SW18 .bf16) (p : Fin nBlk) (q : Fin nOut) :
    FloatOps.matmul dot_S512x256_S256x128_S512x128_1_0_0_1_n_n none a b (constant (F := Ideal) SOb18 .f32 0x00000000#32) (ix2 p q)
      = ∑ l : Fin nIn, a (ix2 p l) * b (ix2 l q) := by
  rw [Ideal.matmul_constant_zero_apply, ← Equiv.sum_comp (contrEquiv1 dot_S512x256_S256x128_S512x128_1_0_0_1_n_n nIn rfl rfl).symm]
  refine Finset.sum_congr rfl fun k _ => ?_
  have hk := contrEquiv1_symm_val dot_S512x256_S256x128_S512x128_1_0_0_1_n_n nIn rfl rfl k
  have el : dot_S512x256_S256x128_S512x128_1_0_0_1_n_n.lhsIdx (ix2 p q) ((contrEquiv1 dot_S512x256_S256x128_S512x128_1_0_0_1_n_n nIn rfl rfl).symm k) = ix2 p k := funext fun a => Fin.ext (by
    match a with
    | ⟨0, _⟩ => exact lhs18_0 _ _
    | ⟨1, _⟩ => exact (lhs18_1 _ _).trans hk)
  have er : dot_S512x256_S256x128_S512x128_1_0_0_1_n_n.rhsIdx (ix2 p q) ((contrEquiv1 dot_S512x256_S256x128_S512x128_1_0_0_1_n_n nIn rfl rfl).symm k) = ix2 k q := funext fun a => Fin.ext (by
    match a with
    | ⟨0, _⟩ => exact (rhs18_0 _ _).trans hk
    | ⟨1, _⟩ => exact rhs18_1 _ _)
  rw [el, er]

/-! ## The payload at an index -/

/-- The payload at row `p` and column `q` of the block: the positive part of the row of `x0` against the column
    of `x1`, plus the bias at `q`. On the extended reals a change of float format changes nothing, and the zero
    word is zero. -/
theorem pay18_apply (x0 : Vec Ideal SXb18 .f32) (x1 : Vec Ideal SW18 .f32) (x2 : Vec Ideal SB18 .f32) (p : Fin nBlk) (q : Fin nOut) :
    k18_pay1 (F := Ideal) x0 x1 x2 (ix2 p q)
      = max ((∑ l : Fin nIn, x0 (ix2 p l) * x1 (ix2 l q)) + x2 (ix2 (0 : Fin 1) q)) 0 := by
  unfold k18_pay1
  simp only [matmul]
  refine congrArg₂ max (congrArg₂ (· + ·) ?_ ?_) ?_
  · refine (mm18_apply _ _ p q).trans ?_
    refine Finset.sum_congr rfl fun l _ => ?_
    rw [truncf_apply, truncf_apply, shapeCast_self, shapeCast_self]
  · refine (broadcastTo_1b_ab_apply _ _ p q).trans ?_
    rw [shapeCast_self]
  · exact Ideal.ofBits_zero_f32

/-! ## From blocks to the array -/

variable (V : (c : Dev nD) → (b : Ref sig .tc) → Buf (Elt Ideal) ((c : Thread nD τ).loc b))

/-- The input, the weight matrix and the bias row as the region finds them. -/
abbrev xarr18 (c : Dev nD) : SXa18.Idx → EReal := V c (Pipeline.arrRef spec18 0)
abbrev warr18 (c : Dev nD) : SW18.Idx → EReal := V c (Pipeline.arrRef spec18 1)
abbrev barr18 (c : Dev nD) : SB18.Idx → EReal := V c (Pipeline.arrRef spec18 2)

/-- The whole result, index by index. -/
abbrev G18 (c : Dev nD) : SOa18.Idx → EReal := fun i =>
  Spec.linRelu (r := nRows) (k := nIn) (n := nOut) (fun a b => xarr18 V c (ix2 a b)) (fun a b => warr18 V c (ix2 a b))
    (fun b => barr18 V c (ix2 (0 : Fin 1) b)) (i 0) (i 1)

theorem hz18 : (![0, 0] : Fin 2 → Nat) = fun _ => 0 := funext fun a => by fin_cases a <;> rfl

/-- The printed index maps over the grid: the input's block of rows moves with the output's, which is the point's
    number; every other block index is zero. -/
theorem idx_facts18 : ∀ t : Fin cfg18.N,
    win18_0.index t (0 : Fin 2) = win18_3.index t (0 : Fin 2) ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (1 : Fin 2) = 0 ∧ win18_3.index t (0 : Fin 2) = t.val :=
  (by decide +kernel : ∀ t : Fin grid18.N, _)

/-- What point `t` writes back is block `t` of the whole result. -/
theorem flushed18_eq (c : Dev nD) (t : Fin cfg18.N) :
    (dat18 (F := Ideal) V c).flushed 3 t = ((cfg18.win 3).blk t).view.read (Elt Ideal) (G18 V c) := by
  show (cfg18.win 3).cut (grid18.coords t) ((dat18 (F := Ideal) V c).after 3 t) = _
  rw [after18_3]
  unfold out18_3
  rw [View.canon_unit_zero hz18]
  simp only [View.ld_unit_zero (S := SXb18) hz18, View.ld_unit_zero (S := SW18) hz18, View.ld_unit_zero (S := SB18) hz18]
  obtain ⟨e0, e1, e2, e3, e4, e5, e6, e7⟩ := idx_facts18 t
  funext j
  obtain ⟨p, q, rfl⟩ : ∃ (p : Fin nBlk) (q : Fin nOut), j = ix2 p q := ⟨j 0, j 1, eq_ix2 j⟩
  refine (pay18_apply (iblk18 V c 0 t) (iblk18 V c 1 t) (iblk18 V c 2 t) p q).trans ?_
  -- the row of the array the output's block puts row `p` at, and likewise the column
  have h0 : ∀ l : Fin nIn, ((cfg18.win 0).blk t).view.emb (ix2 p l)
      = ix2 ((((cfg18.win 3).blk t).view.emb (ix2 p q) 0 : Fin nRows)) l := fun l => by
    funext a; apply Fin.ext
    match a with
    | ⟨0, _⟩ => show win18_0.index t (0 : Fin 2) * nBlk + 1 * p.val = win18_3.index t (0 : Fin 2) * nBlk + 1 * p.val; omega
    | ⟨1, _⟩ => show win18_0.index t (1 : Fin 2) * nIn + 1 * l.val = l.val; omega
  have h1 : ∀ l : Fin nIn, ((cfg18.win 1).blk t).view.emb (ix2 l q)
      = ix2 l ((((cfg18.win 3).blk t).view.emb (ix2 p q) 1 : Fin nOut)) := fun l => by
    funext a; apply Fin.ext
    match a with
    | ⟨0, _⟩ => show win18_1.index t (0 : Fin 2) * nIn + 1 * l.val = l.val; omega
    | ⟨1, _⟩ => show win18_1.index t (1 : Fin 2) * nOut + 1 * q.val = win18_3.index t (1 : Fin 2) * nOut + 1 * q.val; omega
  have h2 : ((cfg18.win 2).blk t).view.emb (ix2 (0 : Fin 1) q)
      = ix2 (0 : Fin 1) ((((cfg18.win 3).blk t).view.emb (ix2 p q) 1 : Fin nOut)) := by
    funext a; apply Fin.ext
    match a with
    | ⟨0, _⟩ => show win18_2.index t (0 : Fin 2) * 1 + 1 * 0 = 0; omega
    | ⟨1, _⟩ => show win18_2.index t (1 : Fin 2) * nOut + 1 * q.val = win18_3.index t (1 : Fin 2) * nOut + 1 * q.val; omega
  refine congrArg₂ max (congrArg₂ (· + ·) (Finset.sum_congr rfl fun l _ => ?_) ?_) rfl
  · exact congrArg₂ (· * ·) (congrArg (xarr18 V c) (h0 l)) (congrArg (warr18 V c) (h1 l))
  · exact congrArg (barr18 V c) h2

/-- An index of the output array is in point `t`'s block exactly when each coordinate is in the block's range. -/
theorem mem_blk18 (t : Fin cfg18.N) (i : SOa18.Idx) :
    i ∈ ((cfg18.win 3).blk t).view.set ↔ ∀ a : Fin 2, win18_3.index t a * SOb18.size a ≤ (i a).val
      ∧ (i a).val < win18_3.index t a * SOb18.size a + SOb18.size a := by
  show i ∈ ((View.whole main_v120).slice (win18_3.rect t)).set ↔ _
  rw [View.set_slice_whole, Rect.mem_set_unit]
  exact Iff.rfl

/-- Every index of the output array is in some point's block: a row is in the block of the point numbered by the
    row's quotient by the rows of a block. -/
theorem cover18 (i : SOa18.Idx) :
    ∃ t : Fin cfg18.N, (cfg18.win 3).flush t = true ∧ i ∈ ((cfg18.win 3).blk t).view.set := by
  have hi0 : (i 0).val < nRows := (i 0).isLt
  have hi1 : (i 1).val < nOut := (i 1).isLt
  have hN : cfg18.N = nPts := N_18
  refine ⟨⟨(i 0).val / nBlk, by omega⟩, flush18_3 _, ?_⟩
  obtain ⟨e0, e1, e2, e3, e4, e5, e6, e7⟩ := idx_facts18 ⟨(i 0).val / nBlk, by omega⟩
  rw [mem_blk18]
  intro a
  match a with
  | ⟨0, _⟩ =>
    show win18_3.index ⟨(i 0).val / nBlk, _⟩ (0 : Fin 2) * nBlk ≤ (i 0).val
      ∧ (i 0).val < win18_3.index ⟨(i 0).val / nBlk, _⟩ (0 : Fin 2) * nBlk + nBlk
    rw [e7]; show (i 0).val / nBlk * nBlk ≤ (i 0).val ∧ (i 0).val < (i 0).val / nBlk * nBlk + nBlk; omega
  | ⟨1, _⟩ =>
    show win18_3.index ⟨(i 0).val / nBlk, _⟩ (1 : Fin 2) * nOut ≤ (i 1).val
      ∧ (i 1).val < win18_3.index ⟨(i 0).val / nBlk, _⟩ (1 : Fin 2) * nOut + nOut
    rw [e6]; omega

/-- THE VALUE: after the region the output array holds, at row `i` and column `j`, the linear layer followed by the
    positive part of the input, the weight matrix and the bias row as the region found them. -/
theorem final18 (c : Dev nD) (i : Fin nRows) (j : Fin nOut) :
    (dat18 (F := Ideal) V c).arrAt 3 cfg18.N (ix2 i j)
      = Spec.linRelu (fun a b => (V c (Pipeline.arrRef spec18 0) : SXa18.Idx → EReal) (ix2 a b))
          (fun a b => (V c (Pipeline.arrRef spec18 1) : SW18.Idx → EReal) (ix2 a b))
          (fun b => (V c (Pipeline.arrRef spec18 2) : SB18.Idx → EReal) (ix2 (0 : Fin 1) b)) i j := by
  rw [(dat18 (F := Ideal) V c).arrAt_eq_of_cover 3 (G18 V c) (fun t _ => flushed18_eq V c t) (cover18)]

end Cert.KernelIdeal.HandV

end
-- ==== Proof.KI.Val19.lean ====
import proofs.«422120_j65652870087589_3_alg».proof.Proof.KI.Reg19
import proofs.«422120_j65652870087589_3_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.HandV
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators
/-- The number of feature columns. -/
local notation "nCol" => 128

/-! ## The operations of the body that are not pointwise, read at an index -/

/-- A word equals itself: the comparison's bit is set. -/
private theorem cmpi_eq_same (a : BitVec 32) : IntOp.cmpi .eq a a = 1#1 := by simp [IntOp.cmpi]
/-- Two different words: the comparison's bit is clear. -/
private theorem cmpi_eq_diff {a b : BitVec 32} (h : a ≠ b) : IntOp.cmpi .eq a b = 0#1 := by
  show BitVec.ofBool (a == b) = 0#1
  rw [beq_eq_false_iff_ne.mpr h]; rfl
/-- The set bit, widened and read as a signed integer, is the real number one. -/
private theorem sitofp_setBit : FloatOps.sitofp (F := Ideal) .f32 (BitVec.setWidth 32 (1#1)) = (1 : EReal) := by
  show (((BitVec.setWidth 32 (1#1)).toInt : ℝ) : EReal) = 1
  rw [show (BitVec.setWidth 32 (1#1)).toInt = 1 by decide]
  simp
/-- The clear bit is zero. -/
private theorem sitofp_clearBit : FloatOps.sitofp (F := Ideal) .f32 (BitVec.setWidth 32 (0#1)) = (0 : EReal) := by
  show (((BitVec.setWidth 32 (0#1)).toInt : ℝ) : EReal) = 0
  rw [show (BitVec.setWidth 32 (0#1)).toInt = 0 by decide]
  simp

/-- The 0/1 tile: lane `k` of row `p` is 1 exactly when the row's index word names `k`. -/
theorem onehot19_apply (x : Vec Ideal S512x1 .i32) (p : Fin 512) (k : Fin 2048) :
    (sitofp (F := Ideal) .f32 (extui 32 (cmpi .eq (iota .tc S512x2048 32 [1] iota_S512x2048_d1_w32)
        (broadcastTo S512x2048 x broadcasts_S512x1_S512x2048)) natLt_1_32)
      : FVec Ideal S512x2048 .f32) (ix2 p k)
      = if x (ix2 p (0 : Fin 1)) = BitVec.ofNat 32 k.val then (1 : EReal) else 0 := by
  rw [sitofp_apply, extui_apply]
  show FloatOps.sitofp .f32 ((IntOp.cmpi .eq (iota .tc S512x2048 32 [1] iota_S512x2048_d1_w32 (ix2 p k))
      (broadcastTo S512x2048 x broadcasts_S512x1_S512x2048 (ix2 p k))).setWidth 32) = _
  rw [iota_single_apply,
    broadcastTo_apply x broadcasts_S512x1_S512x2048 (ix2 p k) (ix2 p (0 : Fin 1)) (fun a => by
      match a with
      | ⟨0, _⟩ => rfl
      | ⟨1, _⟩ => rfl)]
  show FloatOps.sitofp .f32 (BitVec.setWidth 32 (IntOp.cmpi .eq (BitVec.ofNat 32 k.val) (x (ix2 p (0 : Fin 1))))) = _
  by_cases h : x (ix2 p (0 : Fin 1)) = BitVec.ofNat 32 k.val
  · rw [if_pos h, h, cmpi_eq_same, sitofp_setBit]
  · rw [if_neg h, cmpi_eq_diff (fun e => h e.symm), sitofp_clearBit]

/-! ### The product of a tile with a whole matrix -/

theorem lhs19_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs19_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs19_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs19_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The block product into the zero splat, at row `p` and column `q`: the sum over the 2048 lanes. -/
theorem matmul19_apply (L : FVec Ideal S512x2048 .bf16) (R : FVec Ideal S2048x128 .bf16) (p : Fin 512) (q : Fin nCol) :
    matmul dot_S512x2048_S2048x128_S512x128_1_0_0_1_n_n none L R (constant (F := Ideal) S512x128 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q) ((contrEquiv1 dot_S512x2048_S2048x128_S512x128_1_0_0_1_n_n 2048 rfl rfl).symm k) = ix2 p k := funext fun a => Fin.ext (by
    match a with
    | ⟨0, _⟩ => exact lhs19_0 _ _
    | ⟨1, _⟩ => exact (lhs19_1 _ _).trans hk)
  have er : dot_S512x2048_S2048x128_S512x128_1_0_0_1_n_n.rhsIdx (ix2 p q) ((contrEquiv1 dot_S512x2048_S2048x128_S512x128_1_0_0_1_n_n 2048 rfl rfl).symm k) = ix2 k q := funext fun a => Fin.ext (by
    match a with
    | ⟨0, _⟩ => exact (rhs19_0 _ _).trans hk
    | ⟨1, _⟩ => exact rhs19_1 _ _)
  rw [el, er]

/-! ### The lane sum and the two broadcasts of a column -/

/-- The sum over the lanes of row `p`, kept as a column. -/
theorem laneSum19_apply (v : FVec Ideal S512x2048 .f32) (hφ : FTy.f32 = FTy.f32 ∨ FTy.f32 = FTy.bf16)
    (hacc : (0x00000000#32 : BitVec 32) = 0x00000000#32) (p : Fin 512) :
    (shapeCast S512x1 (multiReduction (F := Ideal) .add [1] S512 v 0x00000000#32 reduces_S512x2048_S512 hφ hacc) shapeCasts_S512_S512x1
      : FVec Ideal S512x1 .f32) (ix2 p (0 : Fin 1)) = ∑ k : Fin 2048, v (ix2 p k) := by
  refine (shapeCast_apply _ shapeCasts_S512_S512x1 (ix2 p (0 : Fin 1)) (ix1 p) ?_).trans ?_
  · rw [Shape.rowMajor_val_one, Shape.rowMajor_val_two]; show p.val = p.val * 1 + 0; omega
  refine (Ideal.multiReduction_add_single v 0x00000000#32 reduces_S512x2048_S512 hφ hacc (ix1 p)).trans ?_
  refine Finset.sum_congr rfl fun k _ => congrArg v ?_
  funext a; apply Fin.ext
  match a with
  | ⟨0, _⟩ => rfl
  | ⟨1, _⟩ => rfl

/-- A column spread over the feature columns reads the column. -/
theorem spread19_apply (d : FVec Ideal S512x1 .f32) (p : Fin 512) (q : Fin nCol) :
    broadcastTo S512x128 d broadcasts_S512x1_S512x128 (ix2 p q) = d (ix2 p (0 : Fin 1)) :=
  broadcastTo_apply d broadcasts_S512x1_S512x128 (ix2 p q) (ix2 p (0 : Fin 1)) (fun a => by
    match a with
    | ⟨0, _⟩ => rfl
    | ⟨1, _⟩ => rfl)

/-! ## The payload at an index -/

/-- The value the body stores at row `p`, column `q` of the block is the update, on the block's own 512 relations: the
    target plus half the sum of the two averaged gathers, each a sum over the 2048 objects of the 0/1 weight times the
    object-side matrix, over the row's degree plus the small constant. -/
theorem payAt19 (x0 x1 : Vec Ideal S512x1 .i32) (x2 x3 : Vec Ideal S2048x128 .bf16) (x4 : Vec Ideal S512x128 .f32)
    (p : Fin 512) (q : Fin nCol) :
    k19_pay1 (k19_pay2 x4) (k19_pay3 x0 x1 x2 x3) (ix2 p q)
      = Spec.upd (fun a b => x4 (ix2 a b))
          (Spec.collect (Spec.tr (Spec.adj 2048 (fun r => x0 (ix2 r (0 : Fin 1))))) (fun a b => x2 (ix2 a b)))
          (Spec.collect (Spec.tr (Spec.adj 2048 (fun r => x1 (ix2 r (0 : Fin 1))))) (fun a b => x3 (ix2 a b))) p q := by
  unfold k19_pay1 k19_pay2 k19_pay3
  dsimp only
  simp only [addf_apply, mulf_apply, divf_apply, broadcast_apply, shapeCast_self, spread19_apply, laneSum19_apply,
    matmul19_apply, truncf_apply, onehot19_apply]
  rw [laneSum19_apply, laneSum19_apply,
    Finset.sum_congr rfl (fun k _ => congrArg (· * x2 (ix2 k q)) (onehot19_apply x0 p k)),
    Finset.sum_congr rfl (fun k _ => onehot19_apply x0 p k),
    Finset.sum_congr rfl (fun k _ => congrArg (· * x3 (ix2 k q)) (onehot19_apply x1 p k)),
    Finset.sum_congr rfl (fun k _ => onehot19_apply x1 p k)]
  rfl

/-! ## From the blocks to the whole array -/

variable (V : (c : Dev nD) → (b : Ref sig .tc) → Buf (Elt Ideal) ((c : Thread nD τ).loc b))

/-- The two index columns, the two object-side matrices and the target, as the region finds them. -/
abbrev ixc19_0 (c : Dev nD) : S32768x1.Idx → BitVec 32 := V c (Pipeline.arrRef spec19 0)
abbrev ixc19_1 (c : Dev nD) : S32768x1.Idx → BitVec 32 := V c (Pipeline.arrRef spec19 1)
abbrev fcm19_0 (c : Dev nD) : S2048x128.Idx → EReal := V c (Pipeline.arrRef spec19 2)
abbrev fcm19_1 (c : Dev nD) : S2048x128.Idx → EReal := V c (Pipeline.arrRef spec19 3)
abbrev tgt19 (c : Dev nD) : S32768x128.Idx → EReal := V c (Pipeline.arrRef spec19 4)

/-- The whole result: the update over all 32768 relations. -/
def G19 (c : Dev nD) : S32768x128.Idx → EReal := fun i =>
  Spec.upd (fun a b => tgt19 V c (ix2 a b))
    (Spec.collect (Spec.tr (Spec.adj 2048 (fun r => ixc19_0 V c (ix2 r (0 : Fin 1))))) (fun a b => fcm19_0 V c (ix2 a b)))
    (Spec.collect (Spec.tr (Spec.adj 2048 (fun r => ixc19_1 V c (ix2 r (0 : Fin 1))))) (fun a b => fcm19_1 V c (ix2 a b)))
    (i 0) (i 1)

theorem hz19 : (![0, 0] : Fin 2 → Nat) = fun _ => 0 := funext fun a => by fin_cases a <;> rfl

/-- Where each window's block sits at grid point `t`: the columns, the target and the result move down by one block of
    512 relations a point; the two matrices stay. -/
theorem idxFacts19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = t.val ∧ win19_4.index t (1 : Fin 2) = 0
    ∧ win19_5.index t (0 : Fin 2) = t.val ∧ win19_5.index t (1 : Fin 2) = 0 :=
  (by decide +kernel : ∀ t : Fin grid19.N, _)

theorem blk19_0 (c : Dev nD) (t : Fin cfg19.N) (p : Fin 512) (h : t.val * 512 + p.val < 32768) :
    iblk19 V c 0 t (ix2 p (0 : Fin 1)) = ixc19_0 V c (ix2 ⟨t.val * 512 + p.val, h⟩ (0 : Fin 1)) := by
  show V c (Pipeline.arrRef spec19 0) (((cfg19.win 0).blk t).view.emb (ix2 p (0 : Fin 1))) = V c (Pipeline.arrRef spec19 0) (ix2 ⟨t.val * 512 + p.val, h⟩ (0 : Fin 1))
  refine congrArg _ ?_
  obtain ⟨e0, e1, -⟩ := idxFacts19 t
  funext a; apply Fin.ext
  match a with
  | ⟨0, _⟩ => show win19_0.index t (0 : Fin 2) * 512 + 1 * p.val = t.val * 512 + p.val; omega
  | ⟨1, _⟩ => show win19_0.index t (1 : Fin 2) * 1 + 1 * 0 = 0; omega

theorem blk19_1 (c : Dev nD) (t : Fin cfg19.N) (p : Fin 512) (h : t.val * 512 + p.val < 32768) :
    iblk19 V c 1 t (ix2 p (0 : Fin 1)) = ixc19_1 V c (ix2 ⟨t.val * 512 + p.val, h⟩ (0 : Fin 1)) := by
  show V c (Pipeline.arrRef spec19 1) (((cfg19.win 1).blk t).view.emb (ix2 p (0 : Fin 1))) = V c (Pipeline.arrRef spec19 1) (ix2 ⟨t.val * 512 + p.val, h⟩ (0 : Fin 1))
  refine congrArg _ ?_
  obtain ⟨-, -, e0, e1, -⟩ := idxFacts19 t
  funext a; apply Fin.ext
  match a with
  | ⟨0, _⟩ => show win19_1.index t (0 : Fin 2) * 512 + 1 * p.val = t.val * 512 + p.val; omega
  | ⟨1, _⟩ => show win19_1.index t (1 : Fin 2) * 1 + 1 * 0 = 0; omega

theorem blk19_2 (c : Dev nD) (t : Fin cfg19.N) (k : Fin 2048) (q : Fin nCol) :
    iblk19 V c 2 t (ix2 k q) = fcm19_0 V c (ix2 k q) := by
  show V c (Pipeline.arrRef spec19 2) (((cfg19.win 2).blk t).view.emb (ix2 k q)) = V c (Pipeline.arrRef spec19 2) (ix2 k q)
  refine congrArg _ ?_
  obtain ⟨-, -, -, -, e0, e1, -⟩ := idxFacts19 t
  funext a; apply Fin.ext
  match a with
  | ⟨0, _⟩ => show win19_2.index t (0 : Fin 2) * 2048 + 1 * k.val = k.val; omega
  | ⟨1, _⟩ => show win19_2.index t (1 : Fin 2) * nCol + 1 * q.val = q.val; omega

theorem blk19_3 (c : Dev nD) (t : Fin cfg19.N) (k : Fin 2048) (q : Fin nCol) :
    iblk19 V c 3 t (ix2 k q) = fcm19_1 V c (ix2 k q) := by
  show V c (Pipeline.arrRef spec19 3) (((cfg19.win 3).blk t).view.emb (ix2 k q)) = V c (Pipeline.arrRef spec19 3) (ix2 k q)
  refine congrArg _ ?_
  obtain ⟨-, -, -, -, -, -, e0, e1, -⟩ := idxFacts19 t
  funext a; apply Fin.ext
  match a with
  | ⟨0, _⟩ => show win19_3.index t (0 : Fin 2) * 2048 + 1 * k.val = k.val; omega
  | ⟨1, _⟩ => show win19_3.index t (1 : Fin 2) * nCol + 1 * q.val = q.val; omega

theorem blk19_4 (c : Dev nD) (t : Fin cfg19.N) (p : Fin 512) (q : Fin nCol) (h : t.val * 512 + p.val < 32768) :
    iblk19 V c 4 t (ix2 p q) = tgt19 V c (ix2 ⟨t.val * 512 + p.val, h⟩ q) := by
  show V c (Pipeline.arrRef spec19 4) (((cfg19.win 4).blk t).view.emb (ix2 p q)) = V c (Pipeline.arrRef spec19 4) (ix2 ⟨t.val * 512 + p.val, h⟩ q)
  refine congrArg _ ?_
  obtain ⟨-, -, -, -, -, -, -, -, e0, e1, -⟩ := idxFacts19 t
  funext a; apply Fin.ext
  match a with
  | ⟨0, _⟩ => show win19_4.index t (0 : Fin 2) * 512 + 1 * p.val = t.val * 512 + p.val; omega
  | ⟨1, _⟩ => show win19_4.index t (1 : Fin 2) * nCol + 1 * q.val = q.val; omega

/-- Row `p` of the update reads the target and the two index columns at row `p` only, and the two matrices whole. -/
private theorem upd_row_congr {m m' k n : ℕ} (T : Spec.Mat m n) (T' : Spec.Mat m' n) (i0 i1 : Fin m → BitVec 32)
    (i0' i1' : Fin m' → BitVec 32) (f0 f1 f0' f1' : Spec.Mat k n) (p : Fin m) (p' : Fin m') (q : Fin n)
    (hT : T p q = T' p' q) (h0 : i0 p = i0' p') (h1 : i1 p = i1' p') (hf0 : f0 = f0') (hf1 : f1 = f1') :
    Spec.upd T (Spec.collect (Spec.tr (Spec.adj k i0)) f0) (Spec.collect (Spec.tr (Spec.adj k i1)) f1) p q
      = Spec.upd T' (Spec.collect (Spec.tr (Spec.adj k i0')) f0') (Spec.collect (Spec.tr (Spec.adj k i1')) f1') p' q := by
  subst hf0 hf1
  unfold Spec.upd Spec.collect Spec.tr Spec.adj
  rw [hT, h0, h1]

/-- The grid has 64 points. -/
theorem gridLt19 (t : Fin cfg19.N) : t.val < 64 := lt_of_lt_of_eq t.isLt N_19

/-- What grid point `t` writes back is block `t` of the whole result. -/
theorem flushed19_eq (c : Dev nD) (t : Fin cfg19.N) :
    (dat19 (F := Ideal) V c).flushed 5 t = ((cfg19.win 5).blk t).view.read (Elt Ideal) (G19 V c) := by
  show (cfg19.win 5).cut (grid19.coords t) ((dat19 (F := Ideal) V c).after 5 t) = _
  rw [after19_5]
  unfold out19_5
  rw [View.canon_unit_zero hz19]
  simp only [View.ld_unit_zero (S := S512x1) hz19, View.ld_unit_zero (S := S2048x128) hz19, View.ld_unit_zero (S := S512x128) hz19]
  funext y
  obtain ⟨p, q, rfl⟩ : ∃ (p : Fin 512) (q : Fin nCol), y = ix2 p q := ⟨y 0, y 1, eq_ix2 y⟩
  have ht := gridLt19 t
  have hp : t.val * 512 + p.val < 32768 := by have := p.isLt; omega
  have hemb : (((cfg19.win 5).blk t).view.emb (ix2 p q) : S32768x128.Idx) = ix2 ⟨t.val * 512 + p.val, hp⟩ q := by
    obtain ⟨-, -, -, -, -, -, -, -, -, -, e0, e1⟩ := idxFacts19 t
    funext a; apply Fin.ext
    match a with
    | ⟨0, _⟩ => show win19_5.index t (0 : Fin 2) * 512 + 1 * p.val = t.val * 512 + p.val; omega
    | ⟨1, _⟩ => show win19_5.index t (1 : Fin 2) * nCol + 1 * q.val = q.val; omega
  show k19_pay1 (k19_pay2 (iblk19 V c 4 t)) (k19_pay3 (iblk19 V c 0 t) (iblk19 V c 1 t) (iblk19 V c 2 t) (iblk19 V c 3 t)) (ix2 p q)
    = G19 V c (((cfg19.win 5).blk t).view.emb (ix2 p q))
  refine (payAt19 (iblk19 V c 0 t) (iblk19 V c 1 t) (iblk19 V c 2 t) (iblk19 V c 3 t) (iblk19 V c 4 t) p q).trans ?_
  refine Eq.trans ?_ (congrArg (G19 V c) hemb.symm)
  exact upd_row_congr _ _ _ _ _ _ _ _ _ _ p ⟨t.val * 512 + p.val, hp⟩ q (blk19_4 V c t p q hp) (blk19_0 V c t p hp) (blk19_1 V c t p hp)
    (funext fun a => funext fun b => blk19_2 V c t a b) (funext fun a => funext fun b => blk19_3 V c t a b)

/-- An index of the result is in point `t`'s block exactly when each coordinate is in the block's range. -/
theorem blkMem19 (t : Fin cfg19.N) (i : S32768x128.Idx) :
    i ∈ ((cfg19.win 5).blk t).view.set ↔ ∀ a : Fin 2, win19_5.index t a * S512x128.size a ≤ (i a).val ∧ (i a).val < win19_5.index t a * S512x128.size a + S512x128.size a := by
  show i ∈ ((View.whole (Pipeline.arrRef spec19 5)).slice (win19_5.rect t)).set ↔ _
  rw [View.set_slice_whole, Rect.mem_set_unit]
  exact Iff.rfl

/-- Every index of the result is in some point's block: row `r` is written at point `r / 512`. -/
theorem covered19 (i : S32768x128.Idx) :
    ∃ t : Fin cfg19.N, (cfg19.win 5).flush t = true ∧ i ∈ ((cfg19.win 5).blk t).view.set := by
  have hi0 : (i 0).val < 32768 := (i 0).isLt
  have hi1 : (i 1).val < nCol := (i 1).isLt
  have hN : (i 0).val / 512 < cfg19.N := by rw [show cfg19.N = 64 from N_19]; omega
  obtain ⟨-, -, -, -, -, -, -, -, -, -, e0, e1⟩ := idxFacts19 ⟨(i 0).val / 512, hN⟩
  refine ⟨⟨(i 0).val / 512, hN⟩, flush19_5 _, ?_⟩
  rw [blkMem19]
  intro a
  match a with
  | ⟨0, _⟩ =>
    show win19_5.index ⟨(i 0).val / 512, hN⟩ (0 : Fin 2) * 512 ≤ (i 0).val ∧ (i 0).val < win19_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win19_5.index ⟨(i 0).val / 512, hN⟩ (1 : Fin 2) * nCol ≤ (i 1).val ∧ (i 1).val < win19_5.index ⟨(i 0).val / 512, hN⟩ (1 : Fin 2) * nCol + nCol
    rw [e1]; omega

/-- The result array after the region: the update of the target by the two averaged gathers, read off the arrays as the
    region found them. -/
theorem final19 (c : Dev nD) (i : Fin 32768) (j : Fin nCol) :
    (dat19 (F := Ideal) V c).arrAt 5 cfg19.N (ix2 i j)
      = Spec.upd (fun a b => (V c (Pipeline.arrRef spec19 4) : S32768x128.Idx → EReal) (ix2 a b))
          (Spec.collect (Spec.tr (Spec.adj 2048 (fun r => (V c (Pipeline.arrRef spec19 0) : S32768x1.Idx → BitVec 32) (ix2 r (0 : Fin 1)))))
            (fun a b => (V c (Pipeline.arrRef spec19 2) : S2048x128.Idx → EReal) (ix2 a b)))
          (Spec.collect (Spec.tr (Spec.adj 2048 (fun r => (V c (Pipeline.arrRef spec19 1) : S32768x1.Idx → BitVec 32) (ix2 r (0 : Fin 1)))))
            (fun a b => (V c (Pipeline.arrRef spec19 3) : S2048x128.Idx → EReal) (ix2 a b))) i j := by
  rw [(dat19 (F := Ideal) V c).arrAt_eq_of_cover 5 (G19 V c) (fun t _ => flushed19_eq V c t) (covered19)]
  rfl

end Cert.KernelIdeal.HandV
end
-- ==== Proof.Padding.lean ====
/-
  Zero-padded widths. A layer computed at a width larger than the real one, with the extra weight rows zero, gives on the
  real columns what the layer at the real width gives, whatever the extra columns of its input hold: an extra input
  column is only ever multiplied by a zero weight (and 0 · x = 0 for every extended real x, the infinities included), and an
  extra output column is never looked at. The same holds for one message-passing half (a weighted row sum, column by
  column), for the update (entry by entry), and so for a whole round.

  Throughout, "the first k columns" of a width kp ≥ k are the indices `Fin.castLE` of `Fin k`.
-/
import proofs.«422120_j65652870087589_3_alg».proof.Proof.Spec
import Mathlib.Data.Fin.Embedding
import Mathlib.Algebra.BigOperators.Fin
import Mathlib.Data.EReal.Basic

noncomputable section

open scoped BigOperators

namespace Cert.Padding

open Cert.Spec

/-- A sum over a width whose terms vanish from position `k` on is the sum over the first `k` positions. -/
theorem sum_castLE {k kp : ℕ} (hk : k ≤ kp) (f : Fin kp → EReal) (hf : ∀ l : Fin kp, k ≤ l.val → f l = 0) :
    ∑ l : Fin kp, f l = ∑ l : Fin k, f (Fin.castLE hk l) := by
  have e : ∑ l : Fin k, f (Fin.castLE hk l) = ∑ l ∈ Finset.univ.map (Fin.castLEEmb hk), f l :=
    (Finset.sum_map Finset.univ (Fin.castLEEmb hk) f).symm
  rw [e]
  symm
  refine Finset.sum_subset (Finset.subset_univ _) ?_
  intro l _ hl
  apply hf
  by_contra hlt
  exact hl (Finset.mem_map.2 ⟨⟨l.val, by omega⟩, Finset.mem_univ _, Fin.ext rfl⟩)

variable {r k kp n np : ℕ}

/-- `xp` agrees with `x` on the first `k` columns (its other columns are arbitrary). -/
abbrev Agree (hk : k ≤ kp) (x : Mat r k) (xp : Mat r kp) : Prop :=
  ∀ (i : Fin r) (l : Fin k), xp i (Fin.castLE hk l) = x i l

/-- A matrix agrees with itself (for a layer whose input width is not padded, only its output width). -/
theorem agree_refl (x : Mat r k) : Agree (le_refl k) x x := fun _ _ => rfl

/-- `Wp` is `W` on the first `k` rows and `n` columns, and its rows from `k` on are zero (its columns from `n` on,
    in the first `k` rows, are arbitrary: they only feed columns nobody reads). -/
structure PadMat (hk : k ≤ kp) (hn : n ≤ np) (W : Mat k n) (Wp : Mat kp np) : Prop where
  inner : ∀ (a : Fin k) (c : Fin n), Wp (Fin.castLE hk a) (Fin.castLE hn c) = W a c
  zeroRow : ∀ (a : Fin kp) (c : Fin np), k ≤ a.val → Wp a c = 0

/-- The usual way a padded matrix is given: `W` inside the real rectangle, zero outside. -/
theorem PadMat.of_ite (hk : k ≤ kp) (hn : n ≤ np) (W : Mat k n) (Wp : Mat kp np)
    (h : ∀ (a : Fin kp) (c : Fin np), Wp a c = if h : a.val < k ∧ c.val < n then W ⟨a.val, h.1⟩ ⟨c.val, h.2⟩ else 0) :
    PadMat hk hn W Wp where
  inner a c := by
    rw [h, dif_pos ⟨a.isLt, c.isLt⟩]
    rfl
  zeroRow a c ha := by
    rw [h, dif_neg (fun hh => by omega)]

/-- `bp` is `b` on the first `n` positions. -/
abbrev PadVec (hn : n ≤ np) (b : Fin n → EReal) (bp : Fin np → EReal) : Prop :=
  ∀ c : Fin n, bp (Fin.castLE hn c) = b c

theorem PadVec.of_ite (hn : n ≤ np) (b : Fin n → EReal) (bp : Fin np → EReal)
    (h : ∀ c : Fin np, bp c = if h : c.val < n then b ⟨c.val, h⟩ else 0) : PadVec hn b bp := by
  intro c
  rw [h, dif_pos (show (Fin.castLE hn c).val < n from c.isLt)]
  rfl

/-- A linear layer at padded widths, on a real column, is the layer at the real widths. -/
theorem lin_pad (hk : k ≤ kp) (hn : n ≤ np) {x : Mat r k} {xp : Mat r kp} {W : Mat k n} {Wp : Mat kp np}
    {b : Fin n → EReal} {bp : Fin np → EReal} (hx : Agree hk x xp) (hW : PadMat hk hn W Wp) (hb : PadVec hn b bp)
    (i : Fin r) (j : Fin n) : lin xp Wp bp i (Fin.castLE hn j) = lin x W b i j := by
  unfold lin
  rw [hb j, sum_castLE hk (fun l => xp i l * Wp l (Fin.castLE hn j)) (fun l hl => by rw [hW.zeroRow l _ hl, mul_zero])]
  congr 1
  refine Finset.sum_congr rfl fun l _ => ?_
  rw [hx i l, hW.inner l j]

/-- The same after the positive part. -/
theorem linRelu_pad (hk : k ≤ kp) (hn : n ≤ np) {x : Mat r k} {xp : Mat r kp} {W : Mat k n} {Wp : Mat kp np}
    {b : Fin n → EReal} {bp : Fin np → EReal} (hx : Agree hk x xp) (hW : PadMat hk hn W Wp) (hb : PadVec hn b bp) :
    Agree hn (linRelu x W b) (linRelu xp Wp bp) := by
  intro i j
  unfold linRelu
  rw [lin_pad hk hn hx hW hb i j]

/-- The same for the bare linear layer, as an agreement of matrices. -/
theorem lin_pad_agree (hk : k ≤ kp) (hn : n ≤ np) {x : Mat r k} {xp : Mat r kp} {W : Mat k n} {Wp : Mat kp np}
    {b : Fin n → EReal} {bp : Fin np → EReal} (hx : Agree hk x xp) (hW : PadMat hk hn W Wp) (hb : PadVec hn b bp) :
    Agree hn (lin x W b) (lin xp Wp bp) := fun i j => lin_pad hk hn hx hW hb i j

/-- One message-passing half works column by column: it commutes with restricting the columns. -/
theorem collect_pad {m q : ℕ} (hn : n ≤ np) (A : Mat m q) {fc : Mat q n} {fcp : Mat q np} (h : Agree hn fc fcp) :
    Agree hn (collect A fc) (collect A fcp) := by
  intro i j
  unfold collect
  congr 1
  refine Finset.sum_congr rfl fun t _ => ?_
  rw [h t j]

/-- The update works entry by entry: it commutes with restricting the columns. -/
theorem upd_pad {m : ℕ} (hn : n ≤ np) {t s0 s1 : Mat m n} {tp s0p s1p : Mat m np}
    (ht : Agree hn t tp) (h0 : Agree hn s0 s0p) (h1 : Agree hn s1 s1p) : Agree hn (upd t s0 s1) (upd tp s0p s1p) := by
  intro i j
  unfold upd
  rw [ht i j, h0 i j, h1 i j]

/-- A ROUND AT PADDED WIDTHS, restricted to the real columns, is the round at the real widths: the objects' width
    `dO ≤ dOp` and the relations' width `dR ≤ dRp`, all eight layers padded with zero weight rows, the two states agreeing
    with the real ones on the real columns. -/
theorem round_pad {no nr dO dOp dR dRp : ℕ} (hO : dO ≤ dOp) (hR : dR ≤ dRp) (A0 A1 : Mat no nr)
    {Wo0 Wo1 : Mat dR dO} {bo0 bo1 : Fin dO → EReal} {Wr0 Wr1 : Mat dO dR} {br0 br1 : Fin dR → EReal}
    {Wo0p Wo1p : Mat dRp dOp} {bo0p bo1p : Fin dOp → EReal} {Wr0p Wr1p : Mat dOp dRp} {br0p br1p : Fin dRp → EReal}
    {o : Mat no dO} {p : Mat nr dR} {op : Mat no dOp} {pp : Mat nr dRp}
    (hWo0 : PadMat hR hO Wo0 Wo0p) (hbo0 : PadVec hO bo0 bo0p) (hWo1 : PadMat hR hO Wo1 Wo1p) (hbo1 : PadVec hO bo1 bo1p)
    (hWr0 : PadMat hO hR Wr0 Wr0p) (hbr0 : PadVec hR br0 br0p) (hWr1 : PadMat hO hR Wr1 Wr1p) (hbr1 : PadVec hR br1 br1p)
    (ho : Agree hO o op) (hp : Agree hR p pp) :
    Agree hO (Spec.round A0 A1 Wo0 bo0 Wo1 bo1 Wr0 br0 Wr1 br1 o p).1 (Spec.round A0 A1 Wo0p bo0p Wo1p bo1p Wr0p br0p Wr1p br1p op pp).1
    ∧ Agree hR (Spec.round A0 A1 Wo0 bo0 Wo1 bo1 Wr0 br0 Wr1 br1 o p).2 (Spec.round A0 A1 Wo0p bo0p Wo1p bo1p Wr0p br0p Wr1p br1p op pp).2 := by
  unfold Spec.round
  exact ⟨upd_pad hO ho (collect_pad hO A0 (linRelu_pad hR hO hp hWo0 hbo0)) (collect_pad hO A1 (linRelu_pad hR hO hp hWo1 hbo1)),
    upd_pad hR hp (collect_pad hR (tr A0) (linRelu_pad hO hR ho hWr0 hbr0)) (collect_pad hR (tr A1) (linRelu_pad hO hR ho hWr1 hbr1))⟩

end Cert.Padding

end
-- ==== Proof.PaddedScores.lean ====
/-
  The scores at zero-padded widths. The two classifiers and the two score-level rounds are computed at widths larger than
  the real numbers of classes, every weight matrix padded with zero rows and every bias with zeros. On the real columns the
  result is the scores of Spec.lean: a classifier is a linear layer whose output width alone is padded, and a round at
  padded widths restricted to the real columns is the round at the real widths.
-/
import proofs.«422120_j65652870087589_3_alg».proof.Proof.Spec
import proofs.«422120_j65652870087589_3_alg».proof.Proof.Padding

noncomputable section

namespace Cert.PaddedScores

open Cert.Spec Cert.Padding

variable {no nr feat dim nco ncp ncoP ncpP : ℕ}

/-- The score-level parameters at padded widths `ncoP` (objects) and `ncpP` (relations): the two classifiers and the
    eight layers of a score round. -/
structure PadParams (dim ncoP ncpP : ℕ) where
  Wco : Mat dim ncoP
  bco : Fin ncoP → EReal
  Wcp : Mat dim ncpP
  bcp : Fin ncpP → EReal
  Wso : Fin 2 → Mat ncpP ncoP
  bso : Fin 2 → Fin ncoP → EReal
  Wsr : Fin 2 → Mat ncoP ncpP
  bsr : Fin 2 → Fin ncpP → EReal

/-- `Q` pads the score-level parameters of `P`: each matrix is `P`'s inside the real rectangle with zero rows below it,
    each bias is `P`'s on the real positions. -/
structure Pads (hO : nco ≤ ncoP) (hR : ncp ≤ ncpP) (P : Params feat dim nco ncp) (Q : PadParams dim ncoP ncpP) : Prop where
  Wco : PadMat (le_refl dim) hO P.Wco Q.Wco
  bco : PadVec hO P.bco Q.bco
  Wcp : PadMat (le_refl dim) hR P.Wcp Q.Wcp
  bcp : PadVec hR P.bcp Q.bcp
  Wso : ∀ k, PadMat hR hO (P.Wso k) (Q.Wso k)
  bso : ∀ k, PadVec hO (P.bso k) (Q.bso k)
  Wsr : ∀ k, PadMat hO hR (P.Wsr k) (Q.Wsr k)
  bsr : ∀ k, PadVec hR (P.bsr k) (Q.bsr k)

/-- A score-level round at the padded widths. -/
def scoreRoundP (Q : PadParams dim ncoP ncpP) (A0 A1 : Mat no nr) (o : Mat no ncoP) (p : Mat nr ncpP) :
    Mat no ncoP × Mat nr ncpP :=
  round A0 A1 (Q.Wso 0) (Q.bso 0) (Q.Wso 1) (Q.bso 1) (Q.Wsr 0) (Q.bsr 0) (Q.Wsr 1) (Q.bsr 1) o p

/-- The padded classifiers applied to the features. -/
def classP (Q : PadParams dim ncoP ncpP) (f : Mat no dim × Mat nr dim) : Mat no ncoP × Mat nr ncpP :=
  (lin f.1 Q.Wco Q.bco, lin f.2 Q.Wcp Q.bcp)

/-- The scores at the padded widths: the classifiers, then two rounds. -/
def scoresP (Q : PadParams dim ncoP ncpP) (A0 A1 : Mat no nr) (f : Mat no dim × Mat nr dim) : Mat no ncoP × Mat nr ncpP :=
  let s1 := scoreRoundP Q A0 A1 (classP Q f).1 (classP Q f).2
  scoreRoundP Q A0 A1 s1.1 s1.2

/-- A padded round, on the real columns, is the real round. -/
theorem scoreRoundP_agree (hO : nco ≤ ncoP) (hR : ncp ≤ ncpP) {P : Params feat dim nco ncp} {Q : PadParams dim ncoP ncpP}
    (h : Pads hO hR P Q) (A0 A1 : Mat no nr) {o : Mat no nco} {p : Mat nr ncp} {op : Mat no ncoP} {pp : Mat nr ncpP}
    (ho : Agree hO o op) (hp : Agree hR p pp) :
    Agree hO (scoreRound P A0 A1 o p).1 (scoreRoundP Q A0 A1 op pp).1
      ∧ Agree hR (scoreRound P A0 A1 o p).2 (scoreRoundP Q A0 A1 op pp).2 := by
  unfold scoreRound scoreRoundP
  exact round_pad hO hR A0 A1 (h.Wso 0) (h.bso 0) (h.Wso 1) (h.bso 1) (h.Wsr 0) (h.bsr 0) (h.Wsr 1) (h.bsr 1) ho hp

/-- The padded classifiers, on the real columns, are the real classifiers: only the output width is padded. -/
theorem classP_agree (hO : nco ≤ ncoP) (hR : ncp ≤ ncpP) {P : Params feat dim nco ncp} {Q : PadParams dim ncoP ncpP}
    (h : Pads hO hR P Q) (f : Mat no dim × Mat nr dim) :
    Agree hO (lin f.1 P.Wco P.bco) (classP Q f).1 ∧ Agree hR (lin f.2 P.Wcp P.bcp) (classP Q f).2 :=
  ⟨lin_pad_agree (le_refl dim) hO (agree_refl f.1) h.Wco h.bco, lin_pad_agree (le_refl dim) hR (agree_refl f.2) h.Wcp h.bcp⟩

/-- THE SCORES at padded widths, on the real columns, are the scores. -/
theorem scoresP_agree (hO : nco ≤ ncoP) (hR : ncp ≤ ncpP) {P : Params feat dim nco ncp} {Q : PadParams dim ncoP ncpP}
    (h : Pads hO hR P Q) (A0 A1 : Mat no nr) (xo : Mat no feat) (xp : Mat nr feat) :
    Agree hO (scores P A0 A1 xo xp).1 (scoresP Q A0 A1 (feats P A0 A1 xo xp)).1
      ∧ Agree hR (scores P A0 A1 xo xp).2 (scoresP Q A0 A1 (feats P A0 A1 xo xp)).2 := by
  have c := classP_agree hO hR h (feats P A0 A1 xo xp)
  have r1 := scoreRoundP_agree hO hR h A0 A1 c.1 c.2
  exact scoreRoundP_agree hO hR h A0 A1 r1.1 r1.2

/-! ## Padding with zeros -/

variable {k n : ℕ}

/-- `W` inside its own rectangle, zero outside, at `kp` rows and `np` columns. -/
def padMat (kp np : ℕ) (W : Mat k n) : Mat kp np :=
  fun a c => if h : a.val < k ∧ c.val < n then W ⟨a.val, h.1⟩ ⟨c.val, h.2⟩ else 0

/-- `b` on its own positions, zero after them, at length `np`. -/
def padVec (np : ℕ) (b : Fin n → EReal) : Fin np → EReal :=
  fun c => if h : c.val < n then b ⟨c.val, h⟩ else 0

theorem padMat_pads {kp np : ℕ} (hk : k ≤ kp) (hn : n ≤ np) (W : Mat k n) : PadMat hk hn W (padMat kp np W) :=
  PadMat.of_ite hk hn W _ fun _ _ => rfl

theorem padVec_pads {np : ℕ} (hn : n ≤ np) (b : Fin n → EReal) : PadVec hn b (padVec np b) :=
  PadVec.of_ite hn b _ fun _ => rfl

/-- The score-level parameters of `P` padded with zeros to the widths `ncoP` and `ncpP`. -/
def padParams (ncoP ncpP : ℕ) (P : Params feat dim nco ncp) : PadParams dim ncoP ncpP where
  Wco := padMat dim ncoP P.Wco
  bco := padVec ncoP P.bco
  Wcp := padMat dim ncpP P.Wcp
  bcp := padVec ncpP P.bcp
  Wso := fun k => padMat ncpP ncoP (P.Wso k)
  bso := fun k => padVec ncoP (P.bso k)
  Wsr := fun k => padMat ncoP ncpP (P.Wsr k)
  bsr := fun k => padVec ncpP (P.bsr k)

theorem pads_padParams (hO : nco ≤ ncoP) (hR : ncp ≤ ncpP) (P : Params feat dim nco ncp) :
    Pads hO hR P (padParams ncoP ncpP P) where
  Wco := padMat_pads (le_refl dim) hO P.Wco
  bco := padVec_pads hO P.bco
  Wcp := padMat_pads (le_refl dim) hR P.Wcp
  bcp := padVec_pads hR P.bcp
  Wso := fun k => padMat_pads hR hO (P.Wso k)
  bso := fun k => padVec_pads hO (P.bso k)
  Wsr := fun k => padMat_pads hO hR (P.Wsr k)
  bsr := fun k => padVec_pads hR (P.bsr k)

/-- THE SCORES computed with the zero-padded parameters, on the real columns, are the scores. -/
theorem scoresP_padParams (hO : nco ≤ ncoP) (hR : ncp ≤ ncpP) (P : Params feat dim nco ncp) (A0 A1 : Mat no nr)
    (xo : Mat no feat) (xp : Mat nr feat) :
    Agree hO (scores P A0 A1 xo xp).1 (scoresP (padParams ncoP ncpP P) A0 A1 (feats P A0 A1 xo xp)).1
      ∧ Agree hR (scores P A0 A1 xo xp).2 (scoresP (padParams ncoP ncpP P) A0 A1 (feats P A0 A1 xo xp)).2 :=
  scoresP_agree hO hR (pads_padParams hO hR P) A0 A1 xo xp

end Cert.PaddedScores

end
-- ==== Proof.KI.Compose.lean ====
import proofs.«422120_j65652870087589_3_alg».proof.Proof.KI.Inputs
import proofs.«422120_j65652870087589_3_alg».proof.Proof.KI.Val0
import proofs.«422120_j65652870087589_3_alg».proof.Proof.KI.Val1
import proofs.«422120_j65652870087589_3_alg».proof.Proof.KI.Val2
import proofs.«422120_j65652870087589_3_alg».proof.Proof.KI.Val3
import proofs.«422120_j65652870087589_3_alg».proof.Proof.KI.Val4
import proofs.«422120_j65652870087589_3_alg».proof.Proof.KI.Val5
import proofs.«422120_j65652870087589_3_alg».proof.Proof.KI.Val6
import proofs.«422120_j65652870087589_3_alg».proof.Proof.KI.Val7
import proofs.«422120_j65652870087589_3_alg».proof.Proof.KI.Val8
import proofs.«422120_j65652870087589_3_alg».proof.Proof.KI.Val9
import proofs.«422120_j65652870087589_3_alg».proof.Proof.KI.Val10
import proofs.«422120_j65652870087589_3_alg».proof.Proof.KI.Val11
import proofs.«422120_j65652870087589_3_alg».proof.Proof.KI.Val12
import proofs.«422120_j65652870087589_3_alg».proof.Proof.KI.Val13
import proofs.«422120_j65652870087589_3_alg».proof.Proof.KI.Val14
import proofs.«422120_j65652870087589_3_alg».proof.Proof.KI.Val15
import proofs.«422120_j65652870087589_3_alg».proof.Proof.KI.Val16
import proofs.«422120_j65652870087589_3_alg».proof.Proof.KI.Val17
import proofs.«422120_j65652870087589_3_alg».proof.Proof.KI.Val18
import proofs.«422120_j65652870087589_3_alg».proof.Proof.KI.Val19
import proofs.«422120_j65652870087589_3_alg».proof.Proof.Padding
import proofs.«422120_j65652870087589_3_alg».proof.Proof.PaddedScores
import proofs.«422120_j65652870087589_3_alg».proof.Proof.Model

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.ShloMosaic.ValueIdx Idealize.SL.Sem
open Cert.Padding Cert.PaddedScores

variable (m : (ℓ : Loc nD τ sig) → Buf (Elt Ideal) ℓ) (c : Dev nD)

/-! # The kernel program's three results, as the model of the specification

The run is followed item by item. Each kernel region's output array, read as a matrix, is one stage of the model: the two
embeddings, the two halves of each feature-level round, the two classifiers and the two halves of each score-level round,
the last six at zero-padded widths. Restricted to the real columns, the padded stages are the real ones. -/

/-! ## The model's inputs, read off the launch memory -/

/-- The parameters, -/
abbrev PP : Spec.Params 2048 512 151 51 :=
  Model.params (U0 m c main_arg3 : Model.A2 2048 512) (U0 m c main_arg4 : Model.A1 512) (U0 m c main_arg5 : Model.A2 512 512)
    (U0 m c main_arg6 : Model.A1 512) (U0 m c main_arg7 : Model.A2 2048 512) (U0 m c main_arg8 : Model.A1 512)
    (U0 m c main_arg9 : Model.A2 512 512) (U0 m c main_arg10 : Model.A1 512) (U0 m c main_arg11 : Model.A3 4 512 512)
    (U0 m c main_arg12 : Model.A2 4 512) (U0 m c main_arg13 : Model.A3 2 51 151) (U0 m c main_arg14 : Model.A2 2 151)
    (U0 m c main_arg15 : Model.A3 2 151 51) (U0 m c main_arg16 : Model.A2 2 51) (U0 m c main_arg17 : Model.A2 512 151)
    (U0 m c main_arg18 : Model.A1 151) (U0 m c main_arg19 : Model.A2 512 51) (U0 m c main_arg20 : Model.A1 51)
/-- the two adjacencies, -/
abbrev A0 : Spec.Mat 2048 32768 := Model.adjCol (U0 m c main_arg2 : Model.W2 32768 2) 0
abbrev A1 : Spec.Mat 2048 32768 := Model.adjCol (U0 m c main_arg2 : Model.W2 32768 2) 1
/-- the objects' and the relations' raw features. -/
abbrev XO : Spec.Mat 2048 2048 := Model.mat (U0 m c main_arg0 : Model.A2 2048 2048)
abbrev XP : Spec.Mat 32768 2048 := Model.mat (U0 m c main_arg1 : Model.A2 32768 2048)

/-! ## The stages -/

/-- The embedded features, -/
abbrev O0 : Spec.Mat 2048 512 := Spec.xObj (PP m c) (XO m c)
abbrev P0 : Spec.Mat 32768 512 := Spec.xPred (PP m c) (XP m c)
/-- the two feature-level rounds, -/
abbrev R1 : Spec.Mat 2048 512 × Spec.Mat 32768 512 := Spec.featRound (PP m c) (A0 m c) (A1 m c) (O0 m c) (P0 m c)
abbrev R2 : Spec.Mat 2048 512 × Spec.Mat 32768 512 := Spec.featRound (PP m c) (A0 m c) (A1 m c) (R1 m c).1 (R1 m c).2
/-- the score-level parameters padded with zeros to 256 and 128 columns, -/
abbrev QQ : PadParams 512 256 128 := padParams 256 128 (PP m c)
/-- the padded classifiers and the two padded score-level rounds. -/
abbrev S0 : Spec.Mat 2048 256 × Spec.Mat 32768 128 := classP (QQ m c) (R2 m c)
abbrev S1 : Spec.Mat 2048 256 × Spec.Mat 32768 128 := scoreRoundP (QQ m c) (A0 m c) (A1 m c) (S0 m c).1 (S0 m c).2
abbrev S2 : Spec.Mat 2048 256 × Spec.Mat 32768 128 := scoreRoundP (QQ m c) (A0 m c) (A1 m c) (S1 m c).1 (S1 m c).2

/-- The two feature-level rounds are the specification's features, -/
theorem R2_eq : R2 m c = Spec.feats (PP m c) (A0 m c) (A1 m c) (XO m c) (XP m c) := rfl
/-- and the padded stages are the padded scores of them. -/
theorem S2_eq : S2 m c = scoresP (QQ m c) (A0 m c) (A1 m c) (Spec.feats (PP m c) (A0 m c) (A1 m c) (XO m c) (XP m c)) := rfl

/-! ## Congruences: a stage depends only on its inputs -/

theorem mlp_congr {r f d e : ℕ} {x x' : Spec.Mat r f} {W1 W1' : Spec.Mat f d} {b1 b1' : Fin d → EReal} {W2 W2' : Spec.Mat d e}
    {b2 b2' : Fin e → EReal} (hx : x = x') (hW1 : W1 = W1') (hb1 : b1 = b1') (hW2 : W2 = W2') (hb2 : b2 = b2') :
    Spec.mlp x W1 b1 W2 b2 = Spec.mlp x' W1' b1' W2' b2' := by subst hx hW1 hb1 hW2 hb2; rfl

theorem lin_congr {r k n : ℕ} {x x' : Spec.Mat r k} {W W' : Spec.Mat k n} {b b' : Fin n → EReal}
    (hx : x = x') (hW : W = W') (hb : b = b') : Spec.lin x W b = Spec.lin x' W' b' := by subst hx hW hb; rfl

theorem linRelu_congr {r k n : ℕ} {x x' : Spec.Mat r k} {W W' : Spec.Mat k n} {b b' : Fin n → EReal}
    (hx : x = x') (hW : W = W') (hb : b = b') : Spec.linRelu x W b = Spec.linRelu x' W' b' := by subst hx hW hb; rfl

/-- The objects' half of a round. -/
theorem fwd_congr {no nr k n : ℕ} {T T' : Spec.Mat no n} {A A' B B' : Spec.Mat no nr} {s s' : Spec.Mat nr k}
    {W0 W0' W1 W1' : Spec.Mat k n} {b0 b0' b1 b1' : Fin n → EReal}
    (hT : T = T') (hA : A = A') (hs : s = s') (hW0 : W0 = W0') (hb0 : b0 = b0') (hB : B = B') (hW1 : W1 = W1') (hb1 : b1 = b1') :
    Spec.upd T (Spec.collect A (Spec.linRelu s W0 b0)) (Spec.collect B (Spec.linRelu s W1 b1))
      = Spec.upd T' (Spec.collect A' (Spec.linRelu s' W0' b0')) (Spec.collect B' (Spec.linRelu s' W1' b1')) := by
  subst hT hA hs hW0 hb0 hB hW1 hb1; rfl

/-- The relations' half of a round. -/
theorem tr_congr {no nr n : ℕ} {T T' : Spec.Mat nr n} {A A' B B' : Spec.Mat no nr} {f0 f0' f1 f1' : Spec.Mat no n}
    (hT : T = T') (hA : A = A') (hf0 : f0 = f0') (hB : B = B') (hf1 : f1 = f1') :
    Spec.upd T (Spec.collect (Spec.tr A) f0) (Spec.collect (Spec.tr B) f1)
      = Spec.upd T' (Spec.collect (Spec.tr A') f0') (Spec.collect (Spec.tr B') f1') := by
  subst hT hA hf0 hB hf1; rfl

/-! ## The stages, one step unfolded -/

theorem R1_fst : (R1 m c).1 = Spec.upd (O0 m c) (Spec.collect (A0 m c) (Spec.linRelu (P0 m c) ((PP m c).Wf 0) ((PP m c).bf 0)))
    (Spec.collect (A1 m c) (Spec.linRelu (P0 m c) ((PP m c).Wf 1) ((PP m c).bf 1))) := rfl
theorem R1_snd : (R1 m c).2 = Spec.upd (P0 m c) (Spec.collect (Spec.tr (A0 m c)) (Spec.linRelu (O0 m c) ((PP m c).Wf 2) ((PP m c).bf 2)))
    (Spec.collect (Spec.tr (A1 m c)) (Spec.linRelu (O0 m c) ((PP m c).Wf 3) ((PP m c).bf 3))) := rfl
theorem R2_fst : (R2 m c).1 = Spec.upd (R1 m c).1 (Spec.collect (A0 m c) (Spec.linRelu (R1 m c).2 ((PP m c).Wf 0) ((PP m c).bf 0)))
    (Spec.collect (A1 m c) (Spec.linRelu (R1 m c).2 ((PP m c).Wf 1) ((PP m c).bf 1))) := rfl
theorem R2_snd : (R2 m c).2 = Spec.upd (R1 m c).2 (Spec.collect (Spec.tr (A0 m c)) (Spec.linRelu (R1 m c).1 ((PP m c).Wf 2) ((PP m c).bf 2)))
    (Spec.collect (Spec.tr (A1 m c)) (Spec.linRelu (R1 m c).1 ((PP m c).Wf 3) ((PP m c).bf 3))) := rfl
theorem S0_fst : (S0 m c).1 = Spec.lin (R2 m c).1 (QQ m c).Wco (QQ m c).bco := rfl
theorem S0_snd : (S0 m c).2 = Spec.lin (R2 m c).2 (QQ m c).Wcp (QQ m c).bcp := rfl
theorem S1_fst : (S1 m c).1 = Spec.upd (S0 m c).1 (Spec.collect (A0 m c) (Spec.linRelu (S0 m c).2 ((QQ m c).Wso 0) ((QQ m c).bso 0)))
    (Spec.collect (A1 m c) (Spec.linRelu (S0 m c).2 ((QQ m c).Wso 1) ((QQ m c).bso 1))) := rfl
theorem S1_snd : (S1 m c).2 = Spec.upd (S0 m c).2 (Spec.collect (Spec.tr (A0 m c)) (Spec.linRelu (S0 m c).1 ((QQ m c).Wsr 0) ((QQ m c).bsr 0)))
    (Spec.collect (Spec.tr (A1 m c)) (Spec.linRelu (S0 m c).1 ((QQ m c).Wsr 1) ((QQ m c).bsr 1))) := rfl
theorem S2_fst : (S2 m c).1 = Spec.upd (S1 m c).1 (Spec.collect (A0 m c) (Spec.linRelu (S1 m c).2 ((QQ m c).Wso 0) ((QQ m c).bso 0)))
    (Spec.collect (A1 m c) (Spec.linRelu (S1 m c).2 ((QQ m c).Wso 1) ((QQ m c).bso 1))) := rfl
theorem S2_snd : (S2 m c).2 = Spec.upd (S1 m c).2 (Spec.collect (Spec.tr (A0 m c)) (Spec.linRelu (S1 m c).1 ((QQ m c).Wsr 0) ((QQ m c).bsr 0)))
    (Spec.collect (Spec.tr (A1 m c)) (Spec.linRelu (S1 m c).1 ((QQ m c).Wsr 1) ((QQ m c).bsr 1))) := rfl

/-! ## The index windows: both spellings of an index vector are a column of the index input -/

/-- An adjacency built from an index vector that is column `k` of the index input is `A0` or `A1`. -/
theorem adj_col0 (idx : Fin 32768 → BitVec 32)
    (h : ∀ r, idx r = (U0 m c main_arg2 : S32768x2.Idx → BitVec 32) (ix2 r (0 : Fin 2))) : Spec.adj 2048 idx = A0 m c := by
  have e : idx = fun r => (U0 m c main_arg2 : S32768x2.Idx → BitVec 32) (ix2 r (0 : Fin 2)) := funext h
  rw [e]; rfl
theorem adj_col1 (idx : Fin 32768 → BitVec 32)
    (h : ∀ r, idx r = (U0 m c main_arg2 : S32768x2.Idx → BitVec 32) (ix2 r (1 : Fin 2))) : Spec.adj 2048 idx = A1 m c := by
  have e : idx = fun r => (U0 m c main_arg2 : S32768x2.Idx → BitVec 32) (ix2 r (1 : Fin 2)) := funext h
  rw [e]; rfl

/-! ## The embeddings (regions 0 and 1) -/

theorem stage0 : Model.mat (U2 m c main_v10 : Model.A2 2048 512) = O0 m c := by
  funext i j
  have h0 : (fun a b => (u1 m c (Pipeline.arrRef spec0 0) : S2048x2048.Idx → EReal) (ix2 a b)) = XO m c := by
    show (fun a b => (U1 m c main_arg0 : S2048x2048.Idx → EReal) (ix2 a b)) = _
    rw [in0_0 m c]; rfl
  have h1 : (fun a b => (u1 m c (Pipeline.arrRef spec0 1) : S2048x512.Idx → EReal) (ix2 a b)) = (PP m c).oW1 := by
    show (fun a b => (U1 m c main_arg3 : S2048x512.Idx → EReal) (ix2 a b)) = _
    rw [in0_1 m c]; rfl
  have h2 : (fun b => (u1 m c (Pipeline.arrRef spec0 2) : S1x512.Idx → EReal) (ix2 (0 : Fin 1) b)) = (PP m c).ob1 :=
    funext fun b => in0_2 m c 0 b
  have h3 : (fun a b => (u1 m c (Pipeline.arrRef spec0 3) : S512x512.Idx → EReal) (ix2 a b)) = (PP m c).oW2 := by
    show (fun a b => (U1 m c main_arg5 : S512x512.Idx → EReal) (ix2 a b)) = _
    rw [in0_3 m c]; rfl
  have h4 : (fun b => (u1 m c (Pipeline.arrRef spec0 4) : S1x512.Idx → EReal) (ix2 (0 : Fin 1) b)) = (PP m c).ob2 :=
    funext fun b => in0_4 m c 0 b
  refine (congrFun (U2_out m c) (ix2 i j)).trans ((final0 (u1 m) c i j).trans ?_)
  exact congrFun (congrFun (mlp_congr h0 h1 h2 h3 h4) i) j

theorem stage1 : Model.mat (U4 m c main_v13 : Model.A2 32768 512) = P0 m c := by
  funext i j
  have h0 : (fun a b => (u3 m c (Pipeline.arrRef spec1 0) : S32768x2048.Idx → EReal) (ix2 a b)) = XP m c := by
    show (fun a b => (U3 m c main_arg1 : S32768x2048.Idx → EReal) (ix2 a b)) = _
    rw [in1_0 m c]; rfl
  have h1 : (fun a b => (u3 m c (Pipeline.arrRef spec1 1) : S2048x512.Idx → EReal) (ix2 a b)) = (PP m c).rW1 := by
    show (fun a b => (U3 m c main_arg7 : S2048x512.Idx → EReal) (ix2 a b)) = _
    rw [in1_1 m c]; rfl
  have h2 : (fun b => (u3 m c (Pipeline.arrRef spec1 2) : S1x512.Idx → EReal) (ix2 (0 : Fin 1) b)) = (PP m c).rb1 :=
    funext fun b => in1_2 m c 0 b
  have h3 : (fun a b => (u3 m c (Pipeline.arrRef spec1 3) : S512x512.Idx → EReal) (ix2 a b)) = (PP m c).rW2 := by
    show (fun a b => (U3 m c main_arg9 : S512x512.Idx → EReal) (ix2 a b)) = _
    rw [in1_3 m c]; rfl
  have h4 : (fun b => (u3 m c (Pipeline.arrRef spec1 4) : S1x512.Idx → EReal) (ix2 (0 : Fin 1) b)) = (PP m c).rb2 :=
    funext fun b => in1_4 m c 0 b
  refine (congrFun (U4_out m c) (ix2 i j)).trans ((final1 (u3 m) c i j).trans ?_)
  exact congrFun (congrFun (mlp_congr h0 h1 h2 h3 h4) i) j

/-! ## The first feature-level round (regions 2 to 5) -/

/-- Region 2: the objects' half of a round. -/
theorem stage2 : Model.mat (U6 m c main_v24 : Model.A2 2048 512) = (R1 m c).1 := by
  funext i j
  have hi0 : Spec.adj 2048 (fun r => (u5 m c (Pipeline.arrRef spec2 0) : S1x32768.Idx → BitVec 32) (ix2 (0 : Fin 1) r)) = A0 m c :=
    adj_col0 m c _ fun r => in2_0 m c 0 r
  have hi1 : Spec.adj 2048 (fun r => (u5 m c (Pipeline.arrRef spec2 1) : S1x32768.Idx → BitVec 32) (ix2 (0 : Fin 1) r)) = A1 m c :=
    adj_col1 m c _ fun r => in2_1 m c 0 r
  have hs : (fun a b => (u5 m c (Pipeline.arrRef spec2 2) : S32768x512.Idx → EReal) (ix2 a b)) = P0 m c := by
    show (fun a b => (U5 m c main_v13 : S32768x512.Idx → EReal) (ix2 a b)) = _
    rw [in2_2 m c]; exact stage1 m c
  have hW0 : (fun a b => (u5 m c (Pipeline.arrRef spec2 3) : S512x512.Idx → EReal) (ix2 a b)) = (PP m c).Wf 0 :=
    funext fun a => funext fun b => in2_3 m c a b
  have hb0 : (fun b => (u5 m c (Pipeline.arrRef spec2 4) : S1x512.Idx → EReal) (ix2 (0 : Fin 1) b)) = (PP m c).bf 0 :=
    funext fun b => in2_4 m c 0 b
  have hW1 : (fun a b => (u5 m c (Pipeline.arrRef spec2 5) : S512x512.Idx → EReal) (ix2 a b)) = (PP m c).Wf 1 :=
    funext fun a => funext fun b => in2_5 m c a b
  have hb1 : (fun b => (u5 m c (Pipeline.arrRef spec2 6) : S1x512.Idx → EReal) (ix2 (0 : Fin 1) b)) = (PP m c).bf 1 :=
    funext fun b => in2_6 m c 0 b
  have hT : (fun a b => (u5 m c (Pipeline.arrRef spec2 7) : S2048x512.Idx → EReal) (ix2 a b)) = O0 m c := by
    show (fun a b => (U5 m c main_v10 : S2048x512.Idx → EReal) (ix2 a b)) = _
    rw [in2_7 m c]; exact stage0 m c
  refine (congrFun (U6_out m c) (ix2 i j)).trans ((final2 (u5 m) c i j).trans ?_)
  exact congrFun (congrFun ((fwd_congr hT hi0 hs hW0 hb0 hi1 hW1 hb1).trans (R1_fst m c).symm) i) j

/-- Region 3: the layer and the positive part of the stage it reads. -/
theorem stage3 : Model.mat (U8 m c main_v30 : Model.A2 2048 512) = Spec.linRelu (O0 m c) ((PP m c).Wf 2) ((PP m c).bf 2) := by
  funext i j
  have hx : (fun a b => (u7 m c (Pipeline.arrRef spec3 0) : S2048x512.Idx → EReal) (ix2 a b)) = O0 m c := by
    show (fun a b => (U7 m c main_v10 : S2048x512.Idx → EReal) (ix2 a b)) = _
    rw [in3_0 m c]; exact stage0 m c
  have hW : (fun a b => (u7 m c (Pipeline.arrRef spec3 1) : S512x512.Idx → EReal) (ix2 a b)) = (PP m c).Wf 2 :=
    funext fun a => funext fun b => in3_1 m c a b
  have hb : (fun b => (u7 m c (Pipeline.arrRef spec3 2) : S1x512.Idx → EReal) (ix2 (0 : Fin 1) b)) = (PP m c).bf 2 :=
    funext fun b => in3_2 m c 0 b
  refine (congrFun (U8_out m c) (ix2 i j)).trans ((final3 (u7 m) c i j).trans ?_)
  exact congrFun (congrFun (linRelu_congr hx hW hb) i) j

/-- Region 4: the layer and the positive part of the stage it reads. -/
theorem stage4 : Model.mat (U10 m c main_v36 : Model.A2 2048 512) = Spec.linRelu (O0 m c) ((PP m c).Wf 3) ((PP m c).bf 3) := by
  funext i j
  have hx : (fun a b => (u9 m c (Pipeline.arrRef spec4 0) : S2048x512.Idx → EReal) (ix2 a b)) = O0 m c := by
    show (fun a b => (U9 m c main_v10 : S2048x512.Idx → EReal) (ix2 a b)) = _
    rw [in4_0 m c]; exact stage0 m c
  have hW : (fun a b => (u9 m c (Pipeline.arrRef spec4 1) : S512x512.Idx → EReal) (ix2 a b)) = (PP m c).Wf 3 :=
    funext fun a => funext fun b => in4_1 m c a b
  have hb : (fun b => (u9 m c (Pipeline.arrRef spec4 2) : S1x512.Idx → EReal) (ix2 (0 : Fin 1) b)) = (PP m c).bf 3 :=
    funext fun b => in4_2 m c 0 b
  refine (congrFun (U10_out m c) (ix2 i j)).trans ((final4 (u9 m) c i j).trans ?_)
  exact congrFun (congrFun (linRelu_congr hx hW hb) i) j

/-- Region 5: the relations' half of a round. -/
theorem stage5 : Model.mat (U11 m c main_v37 : Model.A2 32768 512) = (R1 m c).2 := by
  funext i j
  have hi0 : Spec.adj 2048 (fun r => (u10 m c (Pipeline.arrRef spec5 0) : S32768x1.Idx → BitVec 32) (ix2 r (0 : Fin 1))) = A0 m c :=
    adj_col0 m c _ fun r => in5_0 m c r 0
  have hi1 : Spec.adj 2048 (fun r => (u10 m c (Pipeline.arrRef spec5 1) : S32768x1.Idx → BitVec 32) (ix2 r (0 : Fin 1))) = A1 m c :=
    adj_col1 m c _ fun r => in5_1 m c r 0
  have hf0 : (fun a b => (u10 m c (Pipeline.arrRef spec5 2) : S2048x512.Idx → EReal) (ix2 a b)) = Spec.linRelu (O0 m c) ((PP m c).Wf 2) ((PP m c).bf 2) := by
    show (fun a b => (U10 m c main_v30 : S2048x512.Idx → EReal) (ix2 a b)) = _
    rw [in5_2 m c]; exact stage3 m c
  have hf1 : (fun a b => (u10 m c (Pipeline.arrRef spec5 3) : S2048x512.Idx → EReal) (ix2 a b)) = Spec.linRelu (O0 m c) ((PP m c).Wf 3) ((PP m c).bf 3) := by
    show (fun a b => (U10 m c main_v36 : S2048x512.Idx → EReal) (ix2 a b)) = _
    exact stage4 m c
  have hT : (fun a b => (u10 m c (Pipeline.arrRef spec5 4) : S32768x512.Idx → EReal) (ix2 a b)) = P0 m c := by
    show (fun a b => (U10 m c main_v13 : S32768x512.Idx → EReal) (ix2 a b)) = _
    rw [in5_4 m c]; exact stage1 m c
  refine (congrFun (U11_out m c) (ix2 i j)).trans ((final5 (u10 m) c i j).trans ?_)
  exact congrFun (congrFun ((tr_congr hT hi0 hf0 hi1 hf1).trans (R1_snd m c).symm) i) j

/-! ## The second feature-level round (regions 6 to 9) -/

/-- Region 6: the objects' half of a round. -/
theorem stage6 : Model.mat (U13 m c main_v48 : Model.A2 2048 512) = (R2 m c).1 := by
  funext i j
  have hi0 : Spec.adj 2048 (fun r => (u12 m c (Pipeline.arrRef spec6 0) : S1x32768.Idx → BitVec 32) (ix2 (0 : Fin 1) r)) = A0 m c :=
    adj_col0 m c _ fun r => in6_0 m c 0 r
  have hi1 : Spec.adj 2048 (fun r => (u12 m c (Pipeline.arrRef spec6 1) : S1x32768.Idx → BitVec 32) (ix2 (0 : Fin 1) r)) = A1 m c :=
    adj_col1 m c _ fun r => in6_1 m c 0 r
  have hs : (fun a b => (u12 m c (Pipeline.arrRef spec6 2) : S32768x512.Idx → EReal) (ix2 a b)) = (R1 m c).2 := by
    show (fun a b => (U12 m c main_v37 : S32768x512.Idx → EReal) (ix2 a b)) = _
    rw [in6_2 m c]; exact stage5 m c
  have hW0 : (fun a b => (u12 m c (Pipeline.arrRef spec6 3) : S512x512.Idx → EReal) (ix2 a b)) = (PP m c).Wf 0 :=
    funext fun a => funext fun b => in6_3 m c a b
  have hb0 : (fun b => (u12 m c (Pipeline.arrRef spec6 4) : S1x512.Idx → EReal) (ix2 (0 : Fin 1) b)) = (PP m c).bf 0 :=
    funext fun b => in6_4 m c 0 b
  have hW1 : (fun a b => (u12 m c (Pipeline.arrRef spec6 5) : S512x512.Idx → EReal) (ix2 a b)) = (PP m c).Wf 1 :=
    funext fun a => funext fun b => in6_5 m c a b
  have hb1 : (fun b => (u12 m c (Pipeline.arrRef spec6 6) : S1x512.Idx → EReal) (ix2 (0 : Fin 1) b)) = (PP m c).bf 1 :=
    funext fun b => in6_6 m c 0 b
  have hT : (fun a b => (u12 m c (Pipeline.arrRef spec6 7) : S2048x512.Idx → EReal) (ix2 a b)) = (R1 m c).1 := by
    show (fun a b => (U12 m c main_v24 : S2048x512.Idx → EReal) (ix2 a b)) = _
    rw [in6_7 m c]; exact stage2 m c
  refine (congrFun (U13_out m c) (ix2 i j)).trans ((final6 (u12 m) c i j).trans ?_)
  exact congrFun (congrFun ((fwd_congr hT hi0 hs hW0 hb0 hi1 hW1 hb1).trans (R2_fst m c).symm) i) j

/-- Region 7: the layer and the positive part of the stage it reads. -/
theorem stage7 : Model.mat (U15 m c main_v54 : Model.A2 2048 512) = Spec.linRelu ((R1 m c).1) ((PP m c).Wf 2) ((PP m c).bf 2) := by
  funext i j
  have hx : (fun a b => (u14 m c (Pipeline.arrRef spec7 0) : S2048x512.Idx → EReal) (ix2 a b)) = (R1 m c).1 := by
    show (fun a b => (U14 m c main_v24 : S2048x512.Idx → EReal) (ix2 a b)) = _
    rw [in7_0 m c]; exact stage2 m c
  have hW : (fun a b => (u14 m c (Pipeline.arrRef spec7 1) : S512x512.Idx → EReal) (ix2 a b)) = (PP m c).Wf 2 :=
    funext fun a => funext fun b => in7_1 m c a b
  have hb : (fun b => (u14 m c (Pipeline.arrRef spec7 2) : S1x512.Idx → EReal) (ix2 (0 : Fin 1) b)) = (PP m c).bf 2 :=
    funext fun b => in7_2 m c 0 b
  refine (congrFun (U15_out m c) (ix2 i j)).trans ((final7 (u14 m) c i j).trans ?_)
  exact congrFun (congrFun (linRelu_congr hx hW hb) i) j

/-- Region 8: the layer and the positive part of the stage it reads. -/
theorem stage8 : Model.mat (U17 m c main_v60 : Model.A2 2048 512) = Spec.linRelu ((R1 m c).1) ((PP m c).Wf 3) ((PP m c).bf 3) := by
  funext i j
  have hx : (fun a b => (u16 m c (Pipeline.arrRef spec8 0) : S2048x512.Idx → EReal) (ix2 a b)) = (R1 m c).1 := by
    show (fun a b => (U16 m c main_v24 : S2048x512.Idx → EReal) (ix2 a b)) = _
    rw [in8_0 m c]; exact stage2 m c
  have hW : (fun a b => (u16 m c (Pipeline.arrRef spec8 1) : S512x512.Idx → EReal) (ix2 a b)) = (PP m c).Wf 3 :=
    funext fun a => funext fun b => in8_1 m c a b
  have hb : (fun b => (u16 m c (Pipeline.arrRef spec8 2) : S1x512.Idx → EReal) (ix2 (0 : Fin 1) b)) = (PP m c).bf 3 :=
    funext fun b => in8_2 m c 0 b
  refine (congrFun (U17_out m c) (ix2 i j)).trans ((final8 (u16 m) c i j).trans ?_)
  exact congrFun (congrFun (linRelu_congr hx hW hb) i) j

/-- Region 9: the relations' half of a round. -/
theorem stage9 : Model.mat (U18 m c main_v61 : Model.A2 32768 512) = (R2 m c).2 := by
  funext i j
  have hi0 : Spec.adj 2048 (fun r => (u17 m c (Pipeline.arrRef spec9 0) : S32768x1.Idx → BitVec 32) (ix2 r (0 : Fin 1))) = A0 m c :=
    adj_col0 m c _ fun r => in9_0 m c r 0
  have hi1 : Spec.adj 2048 (fun r => (u17 m c (Pipeline.arrRef spec9 1) : S32768x1.Idx → BitVec 32) (ix2 r (0 : Fin 1))) = A1 m c :=
    adj_col1 m c _ fun r => in9_1 m c r 0
  have hf0 : (fun a b => (u17 m c (Pipeline.arrRef spec9 2) : S2048x512.Idx → EReal) (ix2 a b)) = Spec.linRelu (R1 m c).1 ((PP m c).Wf 2) ((PP m c).bf 2) := by
    show (fun a b => (U17 m c main_v54 : S2048x512.Idx → EReal) (ix2 a b)) = _
    rw [in9_2 m c]; exact stage7 m c
  have hf1 : (fun a b => (u17 m c (Pipeline.arrRef spec9 3) : S2048x512.Idx → EReal) (ix2 a b)) = Spec.linRelu (R1 m c).1 ((PP m c).Wf 3) ((PP m c).bf 3) := by
    show (fun a b => (U17 m c main_v60 : S2048x512.Idx → EReal) (ix2 a b)) = _
    exact stage8 m c
  have hT : (fun a b => (u17 m c (Pipeline.arrRef spec9 4) : S32768x512.Idx → EReal) (ix2 a b)) = (R1 m c).2 := by
    show (fun a b => (U17 m c main_v37 : S32768x512.Idx → EReal) (ix2 a b)) = _
    rw [in9_4 m c]; exact stage5 m c
  refine (congrFun (U18_out m c) (ix2 i j)).trans ((final9 (u17 m) c i j).trans ?_)
  exact congrFun (congrFun ((tr_congr hT hi0 hf0 hi1 hf1).trans (R2_snd m c).symm) i) j

/-! ## The classifiers at padded widths (regions 10 and 11) -/

/-- Region 10: the layer of the stage it reads. -/
theorem stage10 : Model.mat (U36 m c main_v71 : Model.A2 2048 256) = Spec.lin ((R2 m c).1) ((QQ m c).Wco) ((QQ m c).bco) := by
  funext i j
  have hx : (fun a b => (u35 m c (Pipeline.arrRef spec10 0) : S2048x512.Idx → EReal) (ix2 a b)) = (R2 m c).1 := by
    show (fun a b => (U35 m c main_v48 : S2048x512.Idx → EReal) (ix2 a b)) = _
    rw [in10_0 m c]; exact stage6 m c
  have hW : (fun a b => (u35 m c (Pipeline.arrRef spec10 1) : S512x256.Idx → EReal) (ix2 a b)) = (QQ m c).Wco :=
    funext fun a => funext fun b => in10_1 m c a b
  have hb : (fun b => (u35 m c (Pipeline.arrRef spec10 2) : S1x256.Idx → EReal) (ix2 (0 : Fin 1) b)) = (QQ m c).bco :=
    funext fun b => in10_2 m c 0 b
  refine (congrFun (U36_out m c) (ix2 i j)).trans ((final10 (u35 m) c i j).trans ?_)
  exact congrFun (congrFun (lin_congr hx hW hb) i) j

/-- Region 11: the layer of the stage it reads. -/
theorem stage11 : Model.mat (U38 m c main_v73 : Model.A2 32768 128) = Spec.lin ((R2 m c).2) ((QQ m c).Wcp) ((QQ m c).bcp) := by
  funext i j
  have hx : (fun a b => (u37 m c (Pipeline.arrRef spec11 0) : S32768x512.Idx → EReal) (ix2 a b)) = (R2 m c).2 := by
    show (fun a b => (U37 m c main_v61 : S32768x512.Idx → EReal) (ix2 a b)) = _
    rw [in11_0 m c]; exact stage9 m c
  have hW : (fun a b => (u37 m c (Pipeline.arrRef spec11 1) : S512x128.Idx → EReal) (ix2 a b)) = (QQ m c).Wcp :=
    funext fun a => funext fun b => in11_1 m c a b
  have hb : (fun b => (u37 m c (Pipeline.arrRef spec11 2) : S1x128.Idx → EReal) (ix2 (0 : Fin 1) b)) = (QQ m c).bcp :=
    funext fun b => in11_2 m c 0 b
  refine (congrFun (U38_out m c) (ix2 i j)).trans ((final11 (u37 m) c i j).trans ?_)
  exact congrFun (congrFun (lin_congr hx hW hb) i) j

/-! ## The first score-level round at padded widths (regions 12 to 15) -/

/-- Region 12: the objects' half of a round. -/
theorem stage12 : Model.mat (U40 m c main_v84 : Model.A2 2048 256) = (S1 m c).1 := by
  funext i j
  have hi0 : Spec.adj 2048 (fun r => (u39 m c (Pipeline.arrRef spec12 0) : S1x32768.Idx → BitVec 32) (ix2 (0 : Fin 1) r)) = A0 m c :=
    adj_col0 m c _ fun r => in12_0 m c 0 r
  have hi1 : Spec.adj 2048 (fun r => (u39 m c (Pipeline.arrRef spec12 1) : S1x32768.Idx → BitVec 32) (ix2 (0 : Fin 1) r)) = A1 m c :=
    adj_col1 m c _ fun r => in12_1 m c 0 r
  have hs : (fun a b => (u39 m c (Pipeline.arrRef spec12 2) : S32768x128.Idx → EReal) (ix2 a b)) = (S0 m c).2 := by
    show (fun a b => (U39 m c main_v73 : S32768x128.Idx → EReal) (ix2 a b)) = _
    rw [in12_2 m c]; exact stage11 m c
  have hW0 : (fun a b => (u39 m c (Pipeline.arrRef spec12 3) : S128x256.Idx → EReal) (ix2 a b)) = (QQ m c).Wso 0 :=
    funext fun a => funext fun b => in12_3 m c a b
  have hb0 : (fun b => (u39 m c (Pipeline.arrRef spec12 4) : S1x256.Idx → EReal) (ix2 (0 : Fin 1) b)) = (QQ m c).bso 0 :=
    funext fun b => in12_4 m c 0 b
  have hW1 : (fun a b => (u39 m c (Pipeline.arrRef spec12 5) : S128x256.Idx → EReal) (ix2 a b)) = (QQ m c).Wso 1 :=
    funext fun a => funext fun b => in12_5 m c a b
  have hb1 : (fun b => (u39 m c (Pipeline.arrRef spec12 6) : S1x256.Idx → EReal) (ix2 (0 : Fin 1) b)) = (QQ m c).bso 1 :=
    funext fun b => in12_6 m c 0 b
  have hT : (fun a b => (u39 m c (Pipeline.arrRef spec12 7) : S2048x256.Idx → EReal) (ix2 a b)) = (S0 m c).1 := by
    show (fun a b => (U39 m c main_v71 : S2048x256.Idx → EReal) (ix2 a b)) = _
    rw [in12_7 m c]; exact stage10 m c
  refine (congrFun (U40_out m c) (ix2 i j)).trans ((final12 (u39 m) c i j).trans ?_)
  exact congrFun (congrFun ((fwd_congr hT hi0 hs hW0 hb0 hi1 hW1 hb1).trans (S1_fst m c).symm) i) j

/-- Region 13: the layer and the positive part of the stage it reads. -/
theorem stage13 : Model.mat (U42 m c main_v90 : Model.A2 2048 128) = Spec.linRelu ((S0 m c).1) ((QQ m c).Wsr 0) ((QQ m c).bsr 0) := by
  funext i j
  have hx : (fun a b => (u41 m c (Pipeline.arrRef spec13 0) : S2048x256.Idx → EReal) (ix2 a b)) = (S0 m c).1 := by
    show (fun a b => (U41 m c main_v71 : S2048x256.Idx → EReal) (ix2 a b)) = _
    rw [in13_0 m c]; exact stage10 m c
  have hW : (fun a b => (u41 m c (Pipeline.arrRef spec13 1) : S256x128.Idx → EReal) (ix2 a b)) = (QQ m c).Wsr 0 :=
    funext fun a => funext fun b => in13_1 m c a b
  have hb : (fun b => (u41 m c (Pipeline.arrRef spec13 2) : S1x128.Idx → EReal) (ix2 (0 : Fin 1) b)) = (QQ m c).bsr 0 :=
    funext fun b => in13_2 m c 0 b
  refine (congrFun (U42_out m c) (ix2 i j)).trans ((final13 (u41 m) c i j).trans ?_)
  exact congrFun (congrFun (linRelu_congr hx hW hb) i) j

/-- Region 14: the layer and the positive part of the stage it reads. -/
theorem stage14 : Model.mat (U44 m c main_v96 : Model.A2 2048 128) = Spec.linRelu ((S0 m c).1) ((QQ m c).Wsr 1) ((QQ m c).bsr 1) := by
  funext i j
  have hx : (fun a b => (u43 m c (Pipeline.arrRef spec14 0) : S2048x256.Idx → EReal) (ix2 a b)) = (S0 m c).1 := by
    show (fun a b => (U43 m c main_v71 : S2048x256.Idx → EReal) (ix2 a b)) = _
    rw [in14_0 m c]; exact stage10 m c
  have hW : (fun a b => (u43 m c (Pipeline.arrRef spec14 1) : S256x128.Idx → EReal) (ix2 a b)) = (QQ m c).Wsr 1 :=
    funext fun a => funext fun b => in14_1 m c a b
  have hb : (fun b => (u43 m c (Pipeline.arrRef spec14 2) : S1x128.Idx → EReal) (ix2 (0 : Fin 1) b)) = (QQ m c).bsr 1 :=
    funext fun b => in14_2 m c 0 b
  refine (congrFun (U44_out m c) (ix2 i j)).trans ((final14 (u43 m) c i j).trans ?_)
  exact congrFun (congrFun (linRelu_congr hx hW hb) i) j

/-- Region 15: the relations' half of a round. -/
theorem stage15 : Model.mat (U45 m c main_v97 : Model.A2 32768 128) = (S1 m c).2 := by
  funext i j
  have hi0 : Spec.adj 2048 (fun r => (u44 m c (Pipeline.arrRef spec15 0) : S32768x1.Idx → BitVec 32) (ix2 r (0 : Fin 1))) = A0 m c :=
    adj_col0 m c _ fun r => in15_0 m c r 0
  have hi1 : Spec.adj 2048 (fun r => (u44 m c (Pipeline.arrRef spec15 1) : S32768x1.Idx → BitVec 32) (ix2 r (0 : Fin 1))) = A1 m c :=
    adj_col1 m c _ fun r => in15_1 m c r 0
  have hf0 : (fun a b => (u44 m c (Pipeline.arrRef spec15 2) : S2048x128.Idx → EReal) (ix2 a b)) = Spec.linRelu (S0 m c).1 ((QQ m c).Wsr 0) ((QQ m c).bsr 0) := by
    show (fun a b => (U44 m c main_v90 : S2048x128.Idx → EReal) (ix2 a b)) = _
    rw [in15_2 m c]; exact stage13 m c
  have hf1 : (fun a b => (u44 m c (Pipeline.arrRef spec15 3) : S2048x128.Idx → EReal) (ix2 a b)) = Spec.linRelu (S0 m c).1 ((QQ m c).Wsr 1) ((QQ m c).bsr 1) := by
    show (fun a b => (U44 m c main_v96 : S2048x128.Idx → EReal) (ix2 a b)) = _
    exact stage14 m c
  have hT : (fun a b => (u44 m c (Pipeline.arrRef spec15 4) : S32768x128.Idx → EReal) (ix2 a b)) = (S0 m c).2 := by
    show (fun a b => (U44 m c main_v73 : S32768x128.Idx → EReal) (ix2 a b)) = _
    rw [in15_4 m c]; exact stage11 m c
  refine (congrFun (U45_out m c) (ix2 i j)).trans ((final15 (u44 m) c i j).trans ?_)
  exact congrFun (congrFun ((tr_congr hT hi0 hf0 hi1 hf1).trans (S1_snd m c).symm) i) j

/-! ## The second score-level round at padded widths (regions 16 to 19) -/

/-- Region 16: the objects' half of a round. -/
theorem stage16 : Model.mat (U47 m c main_v108 : Model.A2 2048 256) = (S2 m c).1 := by
  funext i j
  have hi0 : Spec.adj 2048 (fun r => (u46 m c (Pipeline.arrRef spec16 0) : S1x32768.Idx → BitVec 32) (ix2 (0 : Fin 1) r)) = A0 m c :=
    adj_col0 m c _ fun r => in16_0 m c 0 r
  have hi1 : Spec.adj 2048 (fun r => (u46 m c (Pipeline.arrRef spec16 1) : S1x32768.Idx → BitVec 32) (ix2 (0 : Fin 1) r)) = A1 m c :=
    adj_col1 m c _ fun r => in16_1 m c 0 r
  have hs : (fun a b => (u46 m c (Pipeline.arrRef spec16 2) : S32768x128.Idx → EReal) (ix2 a b)) = (S1 m c).2 := by
    show (fun a b => (U46 m c main_v97 : S32768x128.Idx → EReal) (ix2 a b)) = _
    rw [in16_2 m c]; exact stage15 m c
  have hW0 : (fun a b => (u46 m c (Pipeline.arrRef spec16 3) : S128x256.Idx → EReal) (ix2 a b)) = (QQ m c).Wso 0 :=
    funext fun a => funext fun b => in16_3 m c a b
  have hb0 : (fun b => (u46 m c (Pipeline.arrRef spec16 4) : S1x256.Idx → EReal) (ix2 (0 : Fin 1) b)) = (QQ m c).bso 0 :=
    funext fun b => in16_4 m c 0 b
  have hW1 : (fun a b => (u46 m c (Pipeline.arrRef spec16 5) : S128x256.Idx → EReal) (ix2 a b)) = (QQ m c).Wso 1 :=
    funext fun a => funext fun b => in16_5 m c a b
  have hb1 : (fun b => (u46 m c (Pipeline.arrRef spec16 6) : S1x256.Idx → EReal) (ix2 (0 : Fin 1) b)) = (QQ m c).bso 1 :=
    funext fun b => in16_6 m c 0 b
  have hT : (fun a b => (u46 m c (Pipeline.arrRef spec16 7) : S2048x256.Idx → EReal) (ix2 a b)) = (S1 m c).1 := by
    show (fun a b => (U46 m c main_v84 : S2048x256.Idx → EReal) (ix2 a b)) = _
    rw [in16_7 m c]; exact stage12 m c
  refine (congrFun (U47_out m c) (ix2 i j)).trans ((final16 (u46 m) c i j).trans ?_)
  exact congrFun (congrFun ((fwd_congr hT hi0 hs hW0 hb0 hi1 hW1 hb1).trans (S2_fst m c).symm) i) j

/-- Region 17: the layer and the positive part of the stage it reads. -/
theorem stage17 : Model.mat (U49 m c main_v114 : Model.A2 2048 128) = Spec.linRelu ((S1 m c).1) ((QQ m c).Wsr 0) ((QQ m c).bsr 0) := by
  funext i j
  have hx : (fun a b => (u48 m c (Pipeline.arrRef spec17 0) : S2048x256.Idx → EReal) (ix2 a b)) = (S1 m c).1 := by
    show (fun a b => (U48 m c main_v84 : S2048x256.Idx → EReal) (ix2 a b)) = _
    rw [in17_0 m c]; exact stage12 m c
  have hW : (fun a b => (u48 m c (Pipeline.arrRef spec17 1) : S256x128.Idx → EReal) (ix2 a b)) = (QQ m c).Wsr 0 :=
    funext fun a => funext fun b => in17_1 m c a b
  have hb : (fun b => (u48 m c (Pipeline.arrRef spec17 2) : S1x128.Idx → EReal) (ix2 (0 : Fin 1) b)) = (QQ m c).bsr 0 :=
    funext fun b => in17_2 m c 0 b
  refine (congrFun (U49_out m c) (ix2 i j)).trans ((final17 (u48 m) c i j).trans ?_)
  exact congrFun (congrFun (linRelu_congr hx hW hb) i) j

/-- Region 18: the layer and the positive part of the stage it reads. -/
theorem stage18 : Model.mat (U51 m c main_v120 : Model.A2 2048 128) = Spec.linRelu ((S1 m c).1) ((QQ m c).Wsr 1) ((QQ m c).bsr 1) := by
  funext i j
  have hx : (fun a b => (u50 m c (Pipeline.arrRef spec18 0) : S2048x256.Idx → EReal) (ix2 a b)) = (S1 m c).1 := by
    show (fun a b => (U50 m c main_v84 : S2048x256.Idx → EReal) (ix2 a b)) = _
    rw [in18_0 m c]; exact stage12 m c
  have hW : (fun a b => (u50 m c (Pipeline.arrRef spec18 1) : S256x128.Idx → EReal) (ix2 a b)) = (QQ m c).Wsr 1 :=
    funext fun a => funext fun b => in18_1 m c a b
  have hb : (fun b => (u50 m c (Pipeline.arrRef spec18 2) : S1x128.Idx → EReal) (ix2 (0 : Fin 1) b)) = (QQ m c).bsr 1 :=
    funext fun b => in18_2 m c 0 b
  refine (congrFun (U51_out m c) (ix2 i j)).trans ((final18 (u50 m) c i j).trans ?_)
  exact congrFun (congrFun (linRelu_congr hx hW hb) i) j

/-- Region 19: the relations' half of a round. -/
theorem stage19 : Model.mat (U52 m c main_v121 : Model.A2 32768 128) = (S2 m c).2 := by
  funext i j
  have hi0 : Spec.adj 2048 (fun r => (u51 m c (Pipeline.arrRef spec19 0) : S32768x1.Idx → BitVec 32) (ix2 r (0 : Fin 1))) = A0 m c :=
    adj_col0 m c _ fun r => in19_0 m c r 0
  have hi1 : Spec.adj 2048 (fun r => (u51 m c (Pipeline.arrRef spec19 1) : S32768x1.Idx → BitVec 32) (ix2 r (0 : Fin 1))) = A1 m c :=
    adj_col1 m c _ fun r => in19_1 m c r 0
  have hf0 : (fun a b => (u51 m c (Pipeline.arrRef spec19 2) : S2048x128.Idx → EReal) (ix2 a b)) = Spec.linRelu (S1 m c).1 ((QQ m c).Wsr 0) ((QQ m c).bsr 0) := by
    show (fun a b => (U51 m c main_v114 : S2048x128.Idx → EReal) (ix2 a b)) = _
    rw [in19_2 m c]; exact stage17 m c
  have hf1 : (fun a b => (u51 m c (Pipeline.arrRef spec19 3) : S2048x128.Idx → EReal) (ix2 a b)) = Spec.linRelu (S1 m c).1 ((QQ m c).Wsr 1) ((QQ m c).bsr 1) := by
    show (fun a b => (U51 m c main_v120 : S2048x128.Idx → EReal) (ix2 a b)) = _
    exact stage18 m c
  have hT : (fun a b => (u51 m c (Pipeline.arrRef spec19 4) : S32768x128.Idx → EReal) (ix2 a b)) = (S1 m c).2 := by
    show (fun a b => (U51 m c main_v97 : S32768x128.Idx → EReal) (ix2 a b)) = _
    rw [in19_4 m c]; exact stage15 m c
  refine (congrFun (U52_out m c) (ix2 i j)).trans ((final19 (u51 m) c i j).trans ?_)
  exact congrFun (congrFun ((tr_congr hT hi0 hf0 hi1 hf1).trans (S2_snd m c).symm) i) j

/-! ## The three results -/

/-- The objects' scores after the second score-level round are not touched by what follows that region. -/
theorem v108_kept : U52 m c main_v108 = U47 m c main_v108 :=
  (U52_of m c main_v108 (by decide)).trans <| (U51_of m c main_v108 (by decide)).trans <|
    (U50_of m c main_v108 (by decide)).trans <| (U49_of m c main_v108 (by decide)).trans (U48_of m c main_v108 (by decide))

/-- The first result: the relations' embedded features. -/
theorem kernel_out0 (i : Fin 32768) (j : Fin 512) :
    (U53 m c main_v13 : S32768x512.Idx → EReal) (ix2 i j) = Spec.xPred (PP m c) (XP m c) i j := by
  rw [res13 m c]
  exact congrFun (congrFun (stage1 m c) i) j

/-- The second result: the objects' scores, the real columns of the padded ones. -/
theorem kernel_out1 (i : Fin 2048) (j : Fin 151) :
    (U53 m c main_v122 : S2048x151.Idx → EReal) (ix2 i j)
      = (Spec.scores (PP m c) (A0 m c) (A1 m c) (XO m c) (XP m c)).1 i j := by
  rw [res122 m c i j, v108_kept m c]
  refine (congrFun (congrFun (stage16 m c) i) (Fin.castLE (by decide) j)).trans ?_
  exact (scoresP_padParams (by decide) (by decide) (PP m c) (A0 m c) (A1 m c) (XO m c) (XP m c)).1 i j

/-- The third result: the relations' scores, the real columns of the padded ones. -/
theorem kernel_out2 (i : Fin 32768) (j : Fin 51) :
    (U53 m c main_v123 : S32768x51.Idx → EReal) (ix2 i j)
      = (Spec.scores (PP m c) (A0 m c) (A1 m c) (XO m c) (XP m c)).2 i j := by
  rw [res123 m c i j]
  refine (congrFun (congrFun (stage19 m c) i) (Fin.castLE (by decide) j)).trans ?_
  exact (scoresP_padParams (by decide) (by decide) (PP m c) (A0 m c) (A1 m c) (XO m c) (XP m c)).2 i j

end Cert.KernelIdeal.HandV

end
-- ==== Proof.RefRunH.W0.lean ====
/-
  Window 0 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 62 operations, in order. -/
abbrev ops0 : List (HloOp τ sig (Elt F)) :=
  [ nullary main_v0 (iotaInDim S32768 32 0),
    nullary main_cst (constant S_ .f32 0x00000000#32),
    unary main_cst main_v1 (broadcastInDim S2048x32768 ![] bcast_S_S2048x32768 : (⟨S_, .f32⟩ : BufTy).Contents (Elt F) → (⟨S2048x32768, .f32⟩ : BufTy).Contents (Elt F)),
    unary main_arg2 main_v2 ((extractStridedSlice S32768x1 ![0, 0] · slices_S32768x2_S32768x1_0_0) : (⟨S32768x2, .i32⟩ : BufTy).Contents (Elt F) → (⟨S32768x1, .i32⟩ : BufTy).Contents (Elt F)),
    reshape main_v2 main_v3 rfl shapeCasts_S32768x1_S32768,
    nullary main_c (constantI S_ 32 0#32),
    unary main_c main_v4 (broadcastInDim S32768 ![] bcast_S_S32768 : (⟨S_, .i32⟩ : BufTy).Contents (Elt F) → (⟨S32768, .i32⟩ : BufTy).Contents (Elt F)),
    binary main_v3 main_v4 main_v5 (cmpi .slt : (⟨S32768, .i32⟩ : BufTy).Contents (Elt F) → (⟨S32768, .i32⟩ : BufTy).Contents (Elt F) → (⟨S32768, .i1⟩ : BufTy).Contents (Elt F)),
    nullary main_c_0 (constantI S_ 32 2048#32),
    unary main_c_0 main_v6 (broadcastInDim S32768 ![] bcast_S_S32768 : (⟨S_, .i32⟩ : BufTy).Contents (Elt F) → (⟨S32768, .i32⟩ : BufTy).Contents (Elt F)),
    binary main_v3 main_v6 main_v7 (addi : (⟨S32768, .i32⟩ : BufTy).Contents (Elt F) → (⟨S32768, .i32⟩ : BufTy).Contents (Elt F) → (⟨S32768, .i32⟩ : BufTy).Contents (Elt F)),
    ternary main_v5 main_v7 main_v3 main_v8 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_1 (constantI S_ 32 0#32),
    unary main_c_1 main_v9 (broadcastInDim S32768 ![] bcast_S_S32768 : (⟨S_, .i32⟩ : BufTy).Contents (Elt F) → (⟨S32768, .i32⟩ : BufTy).Contents (Elt F)),
    binary main_v0 main_v9 main_v10 (cmpi .slt : (⟨S32768, .i32⟩ : BufTy).Contents (Elt F) → (⟨S32768, .i32⟩ : BufTy).Contents (Elt F) → (⟨S32768, .i1⟩ : BufTy).Contents (Elt F)),
    nullary main_c_2 (constantI S_ 32 32768#32),
    unary main_c_2 main_v11 (broadcastInDim S32768 ![] bcast_S_S32768 : (⟨S_, .i32⟩ : BufTy).Contents (Elt F) → (⟨S32768, .i32⟩ : BufTy).Contents (Elt F)),
    binary main_v0 main_v11 main_v12 (addi : (⟨S32768, .i32⟩ : BufTy).Contents (Elt F) → (⟨S32768, .i32⟩ : BufTy).Contents (Elt F) → (⟨S32768, .i32⟩ : BufTy).Contents (Elt F)),
    ternary main_v10 main_v12 main_v0 main_v13 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v8 main_v14 (broadcastInDim S32768x1 ![0] bcast_S32768_S32768x1_0 : (⟨S32768, .i32⟩ : BufTy).Contents (Elt F) → (⟨S32768x1, .i32⟩ : BufTy).Contents (Elt F)),
    unary main_v13 main_v15 (broadcastInDim S32768x1 ![0] bcast_S32768_S32768x1_0 : (⟨S32768, .i32⟩ : BufTy).Contents (Elt F) → (⟨S32768x1, .i32⟩ : BufTy).Contents (Elt F)),
    binary main_v14 main_v15 main_v16 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    nullary main_cst_3 (constant S_ .f32 0x3F800000#32),
    unary main_cst_3 main_v17 (broadcastInDim S32768 ![] bcast_S_S32768 : (⟨S_, .f32⟩ : BufTy).Contents (Elt F) → (⟨S32768, .f32⟩ : BufTy).Contents (Elt F)),
    ternary main_v1 main_v16 main_v17 main_v18 ((fun x i u => Host.scatter scatter_S2048x32768_S32768x2_S32768_n_01_01_1 (fun _ b => b) x i u) : (⟨S2048x32768, .f32⟩ : BufTy).Contents (Elt F) → (⟨S32768x2, .i32⟩ : BufTy).Contents (Elt F) → (⟨S32768, .f32⟩ : BufTy).Contents (Elt F) → (⟨S2048x32768, .f32⟩ : BufTy).Contents (Elt F)),
    nullary main_cst_4 (constant S_ .f32 0x00000000#32),
    unary main_cst_4 main_v19 (broadcastInDim S2048x32768 ![] bcast_S_S2048x32768 : (⟨S_, .f32⟩ : BufTy).Contents (Elt F) → (⟨S2048x32768, .f32⟩ : BufTy).Contents (Elt F)),
    unary main_arg2 main_v20 ((extractStridedSlice S32768x1 ![0, 1] · slices_S32768x2_S32768x1_0_1) : (⟨S32768x2, .i32⟩ : BufTy).Contents (Elt F) → (⟨S32768x1, .i32⟩ : BufTy).Contents (Elt F)),
    reshape main_v20 main_v21 rfl shapeCasts_S32768x1_S32768,
    nullary main_c_5 (constantI S_ 32 0#32),
    unary main_c_5 main_v22 (broadcastInDim S32768 ![] bcast_S_S32768 : (⟨S_, .i32⟩ : BufTy).Contents (Elt F) → (⟨S32768, .i32⟩ : BufTy).Contents (Elt F)),
    binary main_v21 main_v22 main_v23 (cmpi .slt : (⟨S32768, .i32⟩ : BufTy).Contents (Elt F) → (⟨S32768, .i32⟩ : BufTy).Contents (Elt F) → (⟨S32768, .i1⟩ : BufTy).Contents (Elt F)),
    nullary main_c_6 (constantI S_ 32 2048#32),
    unary main_c_6 main_v24 (broadcastInDim S32768 ![] bcast_S_S32768 : (⟨S_, .i32⟩ : BufTy).Contents (Elt F) → (⟨S32768, .i32⟩ : BufTy).Contents (Elt F)),
    binary main_v21 main_v24 main_v25 (addi : (⟨S32768, .i32⟩ : BufTy).Contents (Elt F) → (⟨S32768, .i32⟩ : BufTy).Contents (Elt F) → (⟨S32768, .i32⟩ : BufTy).Contents (Elt F)),
    ternary main_v23 main_v25 main_v21 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_7 (constantI S_ 32 0#32),
    unary main_c_7 main_v27 (broadcastInDim S32768 ![] bcast_S_S32768 : (⟨S_, .i32⟩ : BufTy).Contents (Elt F) → (⟨S32768, .i32⟩ : BufTy).Contents (Elt F)),
    binary main_v0 main_v27 main_v28 (cmpi .slt : (⟨S32768, .i32⟩ : BufTy).Contents (Elt F) → (⟨S32768, .i32⟩ : BufTy).Contents (Elt F) → (⟨S32768, .i1⟩ : BufTy).Contents (Elt F)),
    nullary main_c_8 (constantI S_ 32 32768#32),
    unary main_c_8 main_v29 (broadcastInDim S32768 ![] bcast_S_S32768 : (⟨S_, .i32⟩ : BufTy).Contents (Elt F) → (⟨S32768, .i32⟩ : BufTy).Contents (Elt F)),
    binary main_v0 main_v29 main_v30 (addi : (⟨S32768, .i32⟩ : BufTy).Contents (Elt F) → (⟨S32768, .i32⟩ : BufTy).Contents (Elt F) → (⟨S32768, .i32⟩ : BufTy).Contents (Elt F)),
    ternary main_v28 main_v30 main_v0 main_v31 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v26 main_v32 (broadcastInDim S32768x1 ![0] bcast_S32768_S32768x1_0 : (⟨S32768, .i32⟩ : BufTy).Contents (Elt F) → (⟨S32768x1, .i32⟩ : BufTy).Contents (Elt F)),
    unary main_v31 main_v33 (broadcastInDim S32768x1 ![0] bcast_S32768_S32768x1_0 : (⟨S32768, .i32⟩ : BufTy).Contents (Elt F) → (⟨S32768x1, .i32⟩ : BufTy).Contents (Elt F)),
    binary main_v32 main_v33 main_v34 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    nullary main_cst_9 (constant S_ .f32 0x3F800000#32),
    unary main_cst_9 main_v35 (broadcastInDim S32768 ![] bcast_S_S32768 : (⟨S_, .f32⟩ : BufTy).Contents (Elt F) → (⟨S32768, .f32⟩ : BufTy).Contents (Elt F)),
    ternary main_v19 main_v34 main_v35 main_v36 ((fun x i u => Host.scatter scatter_S2048x32768_S32768x2_S32768_n_01_01_1 (fun _ b => b) x i u) : (⟨S2048x32768, .f32⟩ : BufTy).Contents (Elt F) → (⟨S32768x2, .i32⟩ : BufTy).Contents (Elt F) → (⟨S32768, .f32⟩ : BufTy).Contents (Elt F) → (⟨S2048x32768, .f32⟩ : BufTy).Contents (Elt F)),
    binary main_arg0 main_arg3 main_v37 ((fun l r => Host.dotGeneral dot_S2048x2048_S2048x512_S2048x512_1_0_0_1_n_n none l r) : (⟨S2048x2048, .f32⟩ : BufTy).Contents (Elt F) → (⟨S2048x512, .f32⟩ : BufTy).Contents (Elt F) → (⟨S2048x512, .f32⟩ : BufTy).Contents (Elt F)),
    unary main_arg4 main_v38 (broadcastInDim S1x512 ![1] bcast_S512_S1x512_1 : (⟨S512, .f32⟩ : BufTy).Contents (Elt F) → (⟨S1x512, .f32⟩ : BufTy).Contents (Elt F)),
    unary main_v38 main_v39 (broadcastInDim S2048x512 ![0, 1] bcast_S1x512_S2048x512_0_1 : (⟨S1x512, .f32⟩ : BufTy).Contents (Elt F) → (⟨S2048x512, .f32⟩ : BufTy).Contents (Elt F)),
    binary main_v37 main_v39 main_v40 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x512, .f32⟩) main_call0_v0) (broadcastInDim S2048x512 ![] bcast_S_S2048x512),
    TRef.binary (TRef.of (T := ⟨S2048x512, .f32⟩) main_v40) (TRef.of (T := ⟨S2048x512, .f32⟩) main_call0_v0) (TRef.of (T := ⟨S2048x512, .f32⟩) main_v41) maximumf,
    binary main_v41 main_arg5 main_v42 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_arg6 main_v43 (broadcastInDim S1x512 ![1] bcast_S512_S1x512_1 : (⟨S512, .f32⟩ : BufTy).Contents (Elt F) → (⟨S1x512, .f32⟩ : BufTy).Contents (Elt F)),
    unary main_v43 main_v44 (broadcastInDim S2048x512 ![0, 1] bcast_S1x512_S2048x512_0_1 : (⟨S1x512, .f32⟩ : BufTy).Contents (Elt F) → (⟨S2048x512, .f32⟩ : BufTy).Contents (Elt F)),
    binary main_v42 main_v44 main_v45 (addf : (⟨S2048x512, .f32⟩ : BufTy).Contents (Elt F) → (⟨S2048x512, .f32⟩ : BufTy).Contents (Elt F) → (⟨S2048x512, .f32⟩ : BufTy).Contents (Elt F)),
    binary main_arg1 main_arg7 main_v46 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg8 main_v47 (broadcastInDim S1x512 ![1] bcast_S512_S1x512_1 : (⟨S512, .f32⟩ : BufTy).Contents (Elt F) → (⟨S1x512, .f32⟩ : BufTy).Contents (Elt F)) ]

set_option maxHeartbeats 4000000 in
/-- The printed window is this list, run in order. -/
theorem main_part0_eq (c : Dev nD) : main_part0 (F := F) c = seq ops0 := rfl

/-- Every operation touches TensorCore buffers only. -/
theorem ops0_sub : (ops0 : List (HloOp τ sig (Elt F))).Forall fun op => op.bufs ⊆ tcRefs τ sig :=
  ⟨nullary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub ..⟩

/-- Every operation determines its results. -/
theorem ops0_fresh : ∀ op ∈ (ops0 : List (HloOp τ sig (Elt F))), op.fresh = ∅ :=
  List.forall_iff_forall_mem.1 (by simp only [List.Forall]; repeat' constructor)

/-- The buffers the window writes. -/
abbrev ops0_W : List (Ref sig .tc) :=
  [main_v0, main_cst, main_v1, main_v2, main_v3, main_c, main_v4, main_v5, main_c_0, main_v6, main_v7, main_v8, main_c_1, main_v9, main_v10, main_c_2, main_v11, main_v12, main_v13, main_v14, main_v15, main_v16, main_cst_3, main_v17, main_v18, main_cst_4, main_v19, main_v20, main_v21, main_c_5, main_v22, main_v23, main_c_6, main_v24, main_v25, main_v26, main_c_7, main_v27, main_v28, main_c_8, main_v29, main_v30, main_v31, main_v32, main_v33, main_v34, main_cst_9, main_v35, main_v36, main_v37, main_v38, main_v39, main_v40, main_call0_cst, main_call0_v0, main_v41, main_v42, main_v43, main_v44, main_v45, main_v46, main_v47]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops0_writes : (ops0 : List (HloOp τ sig (Elt F))).Forall fun op => op.writes ⊆ (ops0_W.map (Proc.devRef (τ := τ) .tc)).toFinset :=
  ⟨w_sub main_v0 rfl (by decide), w_sub main_cst rfl (by decide), w_sub main_v1 rfl (by decide), w_sub main_v2 rfl (by decide), w_sub main_v3 rfl (by decide), w_sub main_c rfl (by decide), w_sub main_v4 rfl (by decide), w_sub main_v5 rfl (by decide), w_sub main_c_0 rfl (by decide), w_sub main_v6 rfl (by decide), w_sub main_v7 rfl (by decide), w_sub main_v8 rfl (by decide), w_sub main_c_1 rfl (by decide), w_sub main_v9 rfl (by decide), w_sub main_v10 rfl (by decide), w_sub main_c_2 rfl (by decide), w_sub main_v11 rfl (by decide), w_sub main_v12 rfl (by decide), w_sub main_v13 rfl (by decide), w_sub main_v14 rfl (by decide), w_sub main_v15 rfl (by decide), w_sub main_v16 rfl (by decide), w_sub main_cst_3 rfl (by decide), w_sub main_v17 rfl (by decide), w_sub main_v18 rfl (by decide), w_sub main_cst_4 rfl (by decide), w_sub main_v19 rfl (by decide), w_sub main_v20 rfl (by decide), w_sub main_v21 rfl (by decide), w_sub main_c_5 rfl (by decide), w_sub main_v22 rfl (by decide), w_sub main_v23 rfl (by decide), w_sub main_c_6 rfl (by decide), w_sub main_v24 rfl (by decide), w_sub main_v25 rfl (by decide), w_sub main_v26 rfl (by decide), w_sub main_c_7 rfl (by decide), w_sub main_v27 rfl (by decide), w_sub main_v28 rfl (by decide), w_sub main_c_8 rfl (by decide), w_sub main_v29 rfl (by decide), w_sub main_v30 rfl (by decide), w_sub main_v31 rfl (by decide), w_sub main_v32 rfl (by decide), w_sub main_v33 rfl (by decide), w_sub main_v34 rfl (by decide), w_sub main_cst_9 rfl (by decide), w_sub main_v35 rfl (by decide), w_sub main_v36 rfl (by decide), w_sub main_v37 rfl (by decide), w_sub main_v38 rfl (by decide), w_sub main_v39 rfl (by decide), w_sub main_v40 rfl (by decide), w_sub main_call0_cst rfl (by decide), w_sub main_call0_v0 rfl (by decide), w_sub main_v41 rfl (by decide), w_sub main_v42 rfl (by decide), w_sub main_v43 rfl (by decide), w_sub main_v44 rfl (by decide), w_sub main_v45 rfl (by decide), w_sub main_v46 rfl (by decide), w_sub main_v47 rfl (by decide)⟩

/-- A buffer the window does not write keeps its contents. -/
theorem keep0 (V : Valuation τ sig (Elt F)) (r : Ref sig .tc) (h : r ∉ ops0_W) :
    after ops0 V (Proc.devRef .tc r) = V (Proc.devRef .tc r) :=
  after_of_writes_sub ops0 V ops0_writes h

set_option maxHeartbeats 4000000 in
theorem out0_main_v18 {x2 : (⟨S32768x2, .i32⟩ : BufTy).Contents (Elt F)} (V : Valuation τ sig (Elt F))
    (h_main_arg2 : V (Proc.devRef .tc main_arg2) = x2) :
    after ops0 V (Proc.devRef .tc main_v18) = ReadP.val_main_v18 (F := F) x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg2]
  clear h_main_arg2
  clear V
  rfl

set_option maxHeartbeats 4000000 in
theorem out0_main_v36 {x2 : (⟨S32768x2, .i32⟩ : BufTy).Contents (Elt F)} (V : Valuation τ sig (Elt F))
    (h_main_arg2 : V (Proc.devRef .tc main_arg2) = x2) :
    after ops0 V (Proc.devRef .tc main_v36) = ReadP.val_main_v36 (F := F) x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg2]
  clear h_main_arg2
  clear V
  rfl

set_option maxHeartbeats 4000000 in
theorem out0_main_v45 {x0 : (⟨S2048x2048, .f32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} (V : Valuation τ sig (Elt F))
    (h_main_arg0 : V (Proc.devRef .tc main_arg0) = x0)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6) :
    after ops0 V (Proc.devRef .tc main_v45) = ReadP.val_main_v45 (F := F) x0 x3 x4 x5 x6 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg0]
  try rw [h_main_arg3]
  try rw [h_main_arg4]
  try rw [h_main_arg5]
  try rw [h_main_arg6]
  clear h_main_arg0 h_main_arg3 h_main_arg4 h_main_arg5 h_main_arg6
  clear V
  rfl

set_option maxHeartbeats 4000000 in
theorem out0_main_v46 {x1 : (⟨S32768x2048, .f32⟩ : BufTy).Contents (Elt F)} {x7 : (⟨S2048x512, .f32⟩ : BufTy).Contents (Elt F)} (V : Valuation τ sig (Elt F))
    (h_main_arg1 : V (Proc.devRef .tc main_arg1) = x1)
    (h_main_arg7 : V (Proc.devRef .tc main_arg7) = x7) :
    after ops0 V (Proc.devRef .tc main_v46) = ReadP.val_main_v46 (F := F) x1 x7 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg1]
  try rw [h_main_arg7]
  clear h_main_arg1 h_main_arg7
  clear V
  rfl

set_option maxHeartbeats 4000000 in
theorem out0_main_v47 {x8 : (⟨S512, .f32⟩ : BufTy).Contents (Elt F)} (V : Valuation τ sig (Elt F))
    (h_main_arg8 : V (Proc.devRef .tc main_arg8) = x8) :
    after ops0 V (Proc.devRef .tc main_v47) = ReadP.val_main_v47 (F := F) x8 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg8]
  clear h_main_arg8
  clear V
  rfl

end Cert.RefRunH

end
-- ==== Proof.RefRunH.W1.lean ====
/-
  Window 1 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 68 operations, in order. -/
abbrev ops1 : List (HloOp τ sig (Elt F)) :=
  [ unary main_v47 main_v48 (broadcastInDim S32768x512 ![0, 1] bcast_S1x512_S32768x512_0_1 : (⟨S1x512, .f32⟩ : BufTy).Contents (Elt F) → (⟨S32768x512, .f32⟩ : BufTy).Contents (Elt F)),
    binary main_v46 main_v48 main_v49 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v49) (TRef.of (T := ⟨S32768x512, .f32⟩) main_call1_v0) (TRef.of (T := ⟨S32768x512, .f32⟩) main_v50) maximumf,
    binary main_v50 main_arg9 main_v51 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_arg10 main_v52 (broadcastInDim S1x512 ![1] bcast_S512_S1x512_1 : (⟨S512, .f32⟩ : BufTy).Contents (Elt F) → (⟨S1x512, .f32⟩ : BufTy).Contents (Elt F)),
    unary main_v52 main_v53 (broadcastInDim S32768x512 ![0, 1] bcast_S1x512_S32768x512_0_1 : (⟨S1x512, .f32⟩ : BufTy).Contents (Elt F) → (⟨S32768x512, .f32⟩ : BufTy).Contents (Elt F)),
    binary main_v51 main_v53 main_v54 (addf : (⟨S32768x512, .f32⟩ : BufTy).Contents (Elt F) → (⟨S32768x512, .f32⟩ : BufTy).Contents (Elt F) → (⟨S32768x512, .f32⟩ : BufTy).Contents (Elt F)),
    unary main_arg11 main_v55 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v55 main_v56 rfl shapeCasts_S1x512x512_S512x512,
    unary main_arg12 main_v57 ((extractStridedSlice S1x512 ![0, 0] · slices_S4x512_S1x512_0_0) : (⟨S4x512, .f32⟩ : BufTy).Contents (Elt F) → (⟨S1x512, .f32⟩ : BufTy).Contents (Elt F)),
    reshape main_v57 main_v58 rfl shapeCasts_S1x512_S512,
    binary main_v54 main_v56 main_v59 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_v58 main_v60 (broadcastInDim S1x512 ![1] bcast_S512_S1x512_1 : (⟨S512, .f32⟩ : BufTy).Contents (Elt F) → (⟨S1x512, .f32⟩ : BufTy).Contents (Elt F)),
    unary main_v60 main_v61 (broadcastInDim S32768x512 ![0, 1] bcast_S1x512_S32768x512_0_1 : (⟨S1x512, .f32⟩ : BufTy).Contents (Elt F) → (⟨S32768x512, .f32⟩ : BufTy).Contents (Elt F)),
    binary main_v59 main_v61 main_v62 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x512, .f32⟩) main_call2_v0) (broadcastInDim S32768x512 ![] bcast_S_S32768x512),
    TRef.binary (TRef.of (T := ⟨S32768x512, .f32⟩) main_v62) (TRef.of (T := ⟨S32768x512, .f32⟩) main_call2_v0) (TRef.of (T := ⟨S32768x512, .f32⟩) main_v63) maximumf,
    binary main_v18 main_v63 main_v64 ((fun l r => Host.dotGeneral dot_S2048x32768_S32768x512_S2048x512_1_0_0_1_n_n none l r) : (⟨S2048x32768, .f32⟩ : BufTy).Contents (Elt F) → (⟨S32768x512, .f32⟩ : BufTy).Contents (Elt F) → (⟨S2048x512, .f32⟩ : BufTy).Contents (Elt F)),
    nullary main_cst_10 (constant S_ .f32 0x00000000#32),
    binary main_v18 main_cst_10 main_v65 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v65 main_v66 (broadcastInDim S2048x1 ![0] bcast_S2048_S2048x1_0 : (⟨S2048, .f32⟩ : BufTy).Contents (Elt F) → (⟨S2048x1, .f32⟩ : BufTy).Contents (Elt F)),
    nullary main_cst_11 (constant S_ .f32 0x33D6BF95#32),
    unary main_cst_11 main_v67 (broadcastInDim S2048x1 ![] bcast_S_S2048x1 : (⟨S_, .f32⟩ : BufTy).Contents (Elt F) → (⟨S2048x1, .f32⟩ : BufTy).Contents (Elt F)),
    binary main_v66 main_v67 main_v68 (addf : (⟨S2048x1, .f32⟩ : BufTy).Contents (Elt F) → (⟨S2048x1, .f32⟩ : BufTy).Contents (Elt F) → (⟨S2048x1, .f32⟩ : BufTy).Contents (Elt F)),
    unary main_v68 main_v69 (broadcastInDim S2048x512 ![0, 1] bcast_S2048x1_S2048x512_0_1 : (⟨S2048x1, .f32⟩ : BufTy).Contents (Elt F) → (⟨S2048x512, .f32⟩ : BufTy).Contents (Elt F)),
    binary main_v64 main_v69 main_v70 (Host.divf : (⟨S2048x512, .f32⟩ : BufTy).Contents (Elt F) → (⟨S2048x512, .f32⟩ : BufTy).Contents (Elt F) → (⟨S2048x512, .f32⟩ : BufTy).Contents (Elt F)),
    unary main_arg11 main_v71 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v71 main_v72 rfl shapeCasts_S1x512x512_S512x512,
    unary main_arg12 main_v73 ((extractStridedSlice S1x512 ![1, 0] · slices_S4x512_S1x512_1_0) : (⟨S4x512, .f32⟩ : BufTy).Contents (Elt F) → (⟨S1x512, .f32⟩ : BufTy).Contents (Elt F)),
    reshape main_v73 main_v74 rfl shapeCasts_S1x512_S512,
    binary main_v54 main_v72 main_v75 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_v74 main_v76 (broadcastInDim S1x512 ![1] bcast_S512_S1x512_1 : (⟨S512, .f32⟩ : BufTy).Contents (Elt F) → (⟨S1x512, .f32⟩ : BufTy).Contents (Elt F)),
    unary main_v76 main_v77 (broadcastInDim S32768x512 ![0, 1] bcast_S1x512_S32768x512_0_1 : (⟨S1x512, .f32⟩ : BufTy).Contents (Elt F) → (⟨S32768x512, .f32⟩ : BufTy).Contents (Elt F)),
    binary main_v75 main_v77 main_v78 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x512, .f32⟩) main_call3_v0) (broadcastInDim S32768x512 ![] bcast_S_S32768x512),
    TRef.binary (TRef.of (T := ⟨S32768x512, .f32⟩) main_v78) (TRef.of (T := ⟨S32768x512, .f32⟩) main_call3_v0) (TRef.of (T := ⟨S32768x512, .f32⟩) main_v79) maximumf,
    binary main_v36 main_v79 main_v80 ((fun l r => Host.dotGeneral dot_S2048x32768_S32768x512_S2048x512_1_0_0_1_n_n none l r) : (⟨S2048x32768, .f32⟩ : BufTy).Contents (Elt F) → (⟨S32768x512, .f32⟩ : BufTy).Contents (Elt F) → (⟨S2048x512, .f32⟩ : BufTy).Contents (Elt F)),
    nullary main_cst_12 (constant S_ .f32 0x00000000#32),
    binary main_v36 main_cst_12 main_v81 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v81 main_v82 (broadcastInDim S2048x1 ![0] bcast_S2048_S2048x1_0 : (⟨S2048, .f32⟩ : BufTy).Contents (Elt F) → (⟨S2048x1, .f32⟩ : BufTy).Contents (Elt F)),
    nullary main_cst_13 (constant S_ .f32 0x33D6BF95#32),
    unary main_cst_13 main_v83 (broadcastInDim S2048x1 ![] bcast_S_S2048x1 : (⟨S_, .f32⟩ : BufTy).Contents (Elt F) → (⟨S2048x1, .f32⟩ : BufTy).Contents (Elt F)),
    binary main_v82 main_v83 main_v84 (addf : (⟨S2048x1, .f32⟩ : BufTy).Contents (Elt F) → (⟨S2048x1, .f32⟩ : BufTy).Contents (Elt F) → (⟨S2048x1, .f32⟩ : BufTy).Contents (Elt F)),
    unary main_v84 main_v85 (broadcastInDim S2048x512 ![0, 1] bcast_S2048x1_S2048x512_0_1 : (⟨S2048x1, .f32⟩ : BufTy).Contents (Elt F) → (⟨S2048x512, .f32⟩ : BufTy).Contents (Elt F)),
    binary main_v80 main_v85 main_v86 (Host.divf : (⟨S2048x512, .f32⟩ : BufTy).Contents (Elt F) → (⟨S2048x512, .f32⟩ : BufTy).Contents (Elt F) → (⟨S2048x512, .f32⟩ : BufTy).Contents (Elt F)),
    binary main_v70 main_v86 main_v87 (addf : (⟨S2048x512, .f32⟩ : BufTy).Contents (Elt F) → (⟨S2048x512, .f32⟩ : BufTy).Contents (Elt F) → (⟨S2048x512, .f32⟩ : BufTy).Contents (Elt F)),
    nullary main_cst_14 (constant S_ .f32 0x3F000000#32),
    unary main_cst_14 main_v88 (broadcastInDim S2048x512 ![] bcast_S_S2048x512 : (⟨S_, .f32⟩ : BufTy).Contents (Elt F) → (⟨S2048x512, .f32⟩ : BufTy).Contents (Elt F)),
    binary main_v88 main_v87 main_v89 (mulf : (⟨S2048x512, .f32⟩ : BufTy).Contents (Elt F) → (⟨S2048x512, .f32⟩ : BufTy).Contents (Elt F) → (⟨S2048x512, .f32⟩ : BufTy).Contents (Elt F)),
    binary main_v45 main_v89 main_v90 (addf : (⟨S2048x512, .f32⟩ : BufTy).Contents (Elt F) → (⟨S2048x512, .f32⟩ : BufTy).Contents (Elt F) → (⟨S2048x512, .f32⟩ : BufTy).Contents (Elt F)),
    unary main_v18 main_v91 ((transpose S32768x2048 [1, 0] · transposes_S2048x32768_S32768x2048_1_0) : (⟨S2048x32768, .f32⟩ : BufTy).Contents (Elt F) → (⟨S32768x2048, .f32⟩ : BufTy).Contents (Elt F)),
    unary main_arg11 main_v92 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v92 main_v93 rfl shapeCasts_S1x512x512_S512x512,
    unary main_arg12 main_v94 ((extractStridedSlice S1x512 ![2, 0] · slices_S4x512_S1x512_2_0) : (⟨S4x512, .f32⟩ : BufTy).Contents (Elt F) → (⟨S1x512, .f32⟩ : BufTy).Contents (Elt F)),
    reshape main_v94 main_v95 rfl shapeCasts_S1x512_S512,
    binary main_v45 main_v93 main_v96 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_v95 main_v97 (broadcastInDim S1x512 ![1] bcast_S512_S1x512_1 : (⟨S512, .f32⟩ : BufTy).Contents (Elt F) → (⟨S1x512, .f32⟩ : BufTy).Contents (Elt F)),
    unary main_v97 main_v98 (broadcastInDim S2048x512 ![0, 1] bcast_S1x512_S2048x512_0_1 : (⟨S1x512, .f32⟩ : BufTy).Contents (Elt F) → (⟨S2048x512, .f32⟩ : BufTy).Contents (Elt F)),
    binary main_v96 main_v98 main_v99 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x512, .f32⟩) main_call4_v0) (broadcastInDim S2048x512 ![] bcast_S_S2048x512),
    TRef.binary (TRef.of (T := ⟨S2048x512, .f32⟩) main_v99) (TRef.of (T := ⟨S2048x512, .f32⟩) main_call4_v0) (TRef.of (T := ⟨S2048x512, .f32⟩) main_v100) maximumf,
    binary main_v91 main_v100 main_v101 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    nullary main_cst_15 (constant S_ .f32 0x00000000#32) ]

set_option maxHeartbeats 4000000 in
/-- The printed window is this list, run in order. -/
theorem main_part1_eq (c : Dev nD) : main_part1 (F := F) c = seq ops1 := rfl

/-- Every operation touches TensorCore buffers only. -/
theorem ops1_sub : (ops1 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub ..⟩

/-- Every operation determines its results. -/
theorem ops1_fresh : ∀ op ∈ (ops1 : List (HloOp τ sig (Elt F))), op.fresh = ∅ :=
  List.forall_iff_forall_mem.1 (by simp only [List.Forall]; repeat' constructor)

/-- The buffers the window writes. -/
abbrev ops1_W : List (Ref sig .tc) :=
  [main_v48, main_v49, main_call1_cst, main_call1_v0, main_v50, main_v51, main_v52, main_v53, main_v54, main_v55, main_v56, main_v57, main_v58, main_v59, main_v60, main_v61, main_v62, main_call2_cst, main_call2_v0, main_v63, main_v64, main_cst_10, main_v65, main_v66, main_cst_11, main_v67, main_v68, main_v69, main_v70, main_v71, main_v72, main_v73, main_v74, main_v75, main_v76, main_v77, main_v78, main_call3_cst, main_call3_v0, main_v79, main_v80, main_cst_12, main_v81, main_v82, main_cst_13, main_v83, main_v84, main_v85, main_v86, main_v87, main_cst_14, main_v88, main_v89, main_v90, main_v91, main_v92, main_v93, main_v94, main_v95, main_v96, main_v97, main_v98, main_v99, main_call4_cst, main_call4_v0, main_v100, main_v101, main_cst_15]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops1_writes : (ops1 : List (HloOp τ sig (Elt F))).Forall fun op => op.writes ⊆ (ops1_W.map (Proc.devRef (τ := τ) .tc)).toFinset :=
  ⟨w_sub main_v48 rfl (by decide), w_sub main_v49 rfl (by decide), w_sub main_call1_cst rfl (by decide), w_sub main_call1_v0 rfl (by decide), w_sub main_v50 rfl (by decide), w_sub main_v51 rfl (by decide), w_sub main_v52 rfl (by decide), w_sub main_v53 rfl (by decide), w_sub main_v54 rfl (by decide), w_sub main_v55 rfl (by decide), w_sub main_v56 rfl (by decide), w_sub main_v57 rfl (by decide), w_sub main_v58 rfl (by decide), w_sub main_v59 rfl (by decide), w_sub main_v60 rfl (by decide), w_sub main_v61 rfl (by decide), w_sub main_v62 rfl (by decide), w_sub main_call2_cst rfl (by decide), w_sub main_call2_v0 rfl (by decide), w_sub main_v63 rfl (by decide), w_sub main_v64 rfl (by decide), w_sub main_cst_10 rfl (by decide), w_sub main_v65 rfl (by decide), w_sub main_v66 rfl (by decide), w_sub main_cst_11 rfl (by decide), w_sub main_v67 rfl (by decide), w_sub main_v68 rfl (by decide), w_sub main_v69 rfl (by decide), w_sub main_v70 rfl (by decide), w_sub main_v71 rfl (by decide), w_sub main_v72 rfl (by decide), w_sub main_v73 rfl (by decide), w_sub main_v74 rfl (by decide), w_sub main_v75 rfl (by decide), w_sub main_v76 rfl (by decide), w_sub main_v77 rfl (by decide), w_sub main_v78 rfl (by decide), w_sub main_call3_cst rfl (by decide), w_sub main_call3_v0 rfl (by decide), w_sub main_v79 rfl (by decide), w_sub main_v80 rfl (by decide), w_sub main_cst_12 rfl (by decide), w_sub main_v81 rfl (by decide), w_sub main_v82 rfl (by decide), w_sub main_cst_13 rfl (by decide), w_sub main_v83 rfl (by decide), w_sub main_v84 rfl (by decide), w_sub main_v85 rfl (by decide), w_sub main_v86 rfl (by decide), w_sub main_v87 rfl (by decide), w_sub main_cst_14 rfl (by decide), w_sub main_v88 rfl (by decide), w_sub main_v89 rfl (by decide), w_sub main_v90 rfl (by decide), w_sub main_v91 rfl (by decide), w_sub main_v92 rfl (by decide), w_sub main_v93 rfl (by decide), w_sub main_v94 rfl (by decide), w_sub main_v95 rfl (by decide), w_sub main_v96 rfl (by decide), w_sub main_v97 rfl (by decide), w_sub main_v98 rfl (by decide), w_sub main_v99 rfl (by decide), w_sub main_call4_cst rfl (by decide), w_sub main_call4_v0 rfl (by decide), w_sub main_v100 rfl (by decide), w_sub main_v101 rfl (by decide), w_sub main_cst_15 rfl (by decide)⟩

/-- A buffer the window does not write keeps its contents. -/
theorem keep1 (V : Valuation τ sig (Elt F)) (r : Ref sig .tc) (h : r ∉ ops1_W) :
    after ops1 V (Proc.devRef .tc r) = V (Proc.devRef .tc r) :=
  after_of_writes_sub ops1 V ops1_writes h

set_option maxHeartbeats 4000000 in
theorem out1_main_v54 {x1 : (⟨S32768x2048, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} (V : Valuation τ sig (Elt F))
    (h_main_arg9 : V (Proc.devRef .tc main_arg9) = x9)
    (h_main_arg10 : V (Proc.devRef .tc main_arg10) = x10)
    (h_main_v46 : V (Proc.devRef .tc main_v46) = ReadP.val_main_v46 (F := F) x1 x7)
    (h_main_v47 : V (Proc.devRef .tc main_v47) = ReadP.val_main_v47 (F := F) x8) :
    after ops1 V (Proc.devRef .tc main_v54) = ReadP.val_main_v54 (F := F) x1 x7 x8 x9 x10 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg9]
  try rw [h_main_arg10]
  try rw [h_main_v46]
  try rw [h_main_v47]
  clear h_main_arg9 h_main_arg10 h_main_v46 h_main_v47
  clear V
  rfl

set_option maxHeartbeats 4000000 in
theorem out1_main_v90 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} (V : Valuation τ sig (Elt F))
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_v18 : V (Proc.devRef .tc main_v18) = ReadP.val_main_v18 (F := F) x2)
    (h_main_v36 : V (Proc.devRef .tc main_v36) = ReadP.val_main_v36 (F := F) x2)
    (h_main_v45 : V (Proc.devRef .tc main_v45) = ReadP.val_main_v45 (F := F) x0 x3 x4 x5 x6)
    (h_main_v46 : V (Proc.devRef .tc main_v46) = ReadP.val_main_v46 (F := F) x1 x7)
    (h_main_v47 : V (Proc.devRef .tc main_v47) = ReadP.val_main_v47 (F := F) x8) :
    after ops1 V (Proc.devRef .tc main_v90) = ReadP.val_main_v90 (F := F) x0 x1 x2 x3 x4 x5 x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg9]
  try rw [h_main_arg10]
  try rw [h_main_arg11]
  try rw [h_main_arg12]
  try rw [h_main_v18]
  try rw [h_main_v36]
  try rw [h_main_v45]
  try rw [h_main_v46]
  try rw [h_main_v47]
  clear h_main_arg9 h_main_arg10 h_main_arg11 h_main_arg12 h_main_v18 h_main_v36 h_main_v45 h_main_v46 h_main_v47
  clear V
  rfl

set_option maxHeartbeats 4000000 in
theorem out1_main_v91 {x2 : (⟨S32768x2, .i32⟩ : BufTy).Contents (Elt F)} (V : Valuation τ sig (Elt F))
    (h_main_v18 : V (Proc.devRef .tc main_v18) = ReadP.val_main_v18 (F := F) x2) :
    after ops1 V (Proc.devRef .tc main_v91) = ReadP.val_main_v91 (F := F) x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_v18]
  clear h_main_v18
  clear V
  rfl

set_option maxHeartbeats 4000000 in
theorem out1_main_v101 {x0 : (⟨S2048x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x11 : (⟨S4x512x512, .f32⟩ : BufTy).Contents (Elt F)} {x12 : (⟨S4x512, .f32⟩ : BufTy).Contents (Elt F)} (V : Valuation τ sig (Elt F))
    (h_main_arg11 : V (Proc.devRef .tc main_arg11) = x11)
    (h_main_arg12 : V (Proc.devRef .tc main_arg12) = x12)
    (h_main_v18 : V (Proc.devRef .tc main_v18) = ReadP.val_main_v18 (F := F) x2)
    (h_main_v45 : V (Proc.devRef .tc main_v45) = ReadP.val_main_v45 (F := F) x0 x3 x4 x5 x6) :
    after ops1 V (Proc.devRef .tc main_v101) = ReadP.val_main_v101 (F := F) x0 x2 x3 x4 x5 x6 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg11]
  try rw [h_main_arg12]
  try rw [h_main_v18]
  try rw [h_main_v45]
  clear h_main_arg11 h_main_arg12 h_main_v18 h_main_v45
  clear V
  rfl

set_option maxHeartbeats 4000000 in
theorem out1_main_cst_15  (V : Valuation τ sig (Elt F)) :
    after ops1 V (Proc.devRef .tc main_cst_15) = ReadP.val_main_cst_15 (F := F) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  clear V
  rfl

end Cert.RefRunH

end
-- ==== Proof.RefRunH.W2.lean ====
/-
  Window 2 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 66 operations, in order. -/
abbrev ops2 : List (HloOp τ sig (Elt F)) :=
  [ binary main_v91 main_cst_15 main_v102 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v102 main_v103 (broadcastInDim S32768x1 ![0] bcast_S32768_S32768x1_0 : (⟨S32768, .f32⟩ : BufTy).Contents (Elt F) → (⟨S32768x1, .f32⟩ : BufTy).Contents (Elt F)),
    nullary main_cst_16 (constant S_ .f32 0x33D6BF95#32),
    unary main_cst_16 main_v104 (broadcastInDim S32768x1 ![] bcast_S_S32768x1 : (⟨S_, .f32⟩ : BufTy).Contents (Elt F) → (⟨S32768x1, .f32⟩ : BufTy).Contents (Elt F)),
    binary main_v103 main_v104 main_v105 (addf : (⟨S32768x1, .f32⟩ : BufTy).Contents (Elt F) → (⟨S32768x1, .f32⟩ : BufTy).Contents (Elt F) → (⟨S32768x1, .f32⟩ : BufTy).Contents (Elt F)),
    unary main_v105 main_v106 (broadcastInDim S32768x512 ![0, 1] bcast_S32768x1_S32768x512_0_1 : (⟨S32768x1, .f32⟩ : BufTy).Contents (Elt F) → (⟨S32768x512, .f32⟩ : BufTy).Contents (Elt F)),
    binary main_v101 main_v106 main_v107 (Host.divf : (⟨S32768x512, .f32⟩ : BufTy).Contents (Elt F) → (⟨S32768x512, .f32⟩ : BufTy).Contents (Elt F) → (⟨S32768x512, .f32⟩ : BufTy).Contents (Elt F)),
    unary main_v36 main_v108 ((transpose S32768x2048 [1, 0] · transposes_S2048x32768_S32768x2048_1_0) : (⟨S2048x32768, .f32⟩ : BufTy).Contents (Elt F) → (⟨S32768x2048, .f32⟩ : BufTy).Contents (Elt F)),
    unary main_arg11 main_v109 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v109 main_v110 rfl shapeCasts_S1x512x512_S512x512,
    unary main_arg12 main_v111 ((extractStridedSlice S1x512 ![3, 0] · slices_S4x512_S1x512_3_0) : (⟨S4x512, .f32⟩ : BufTy).Contents (Elt F) → (⟨S1x512, .f32⟩ : BufTy).Contents (Elt F)),
    reshape main_v111 main_v112 rfl shapeCasts_S1x512_S512,
    binary main_v45 main_v110 main_v113 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_v112 main_v114 (broadcastInDim S1x512 ![1] bcast_S512_S1x512_1 : (⟨S512, .f32⟩ : BufTy).Contents (Elt F) → (⟨S1x512, .f32⟩ : BufTy).Contents (Elt F)),
    unary main_v114 main_v115 (broadcastInDim S2048x512 ![0, 1] bcast_S1x512_S2048x512_0_1 : (⟨S1x512, .f32⟩ : BufTy).Contents (Elt F) → (⟨S2048x512, .f32⟩ : BufTy).Contents (Elt F)),
    binary main_v113 main_v115 main_v116 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x512, .f32⟩) main_call5_v0) (broadcastInDim S2048x512 ![] bcast_S_S2048x512),
    TRef.binary (TRef.of (T := ⟨S2048x512, .f32⟩) main_v116) (TRef.of (T := ⟨S2048x512, .f32⟩) main_call5_v0) (TRef.of (T := ⟨S2048x512, .f32⟩) main_v117) maximumf,
    binary main_v108 main_v117 main_v118 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    nullary main_cst_17 (constant S_ .f32 0x00000000#32),
    binary main_v108 main_cst_17 main_v119 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v119 main_v120 (broadcastInDim S32768x1 ![0] bcast_S32768_S32768x1_0 : (⟨S32768, .f32⟩ : BufTy).Contents (Elt F) → (⟨S32768x1, .f32⟩ : BufTy).Contents (Elt F)),
    nullary main_cst_18 (constant S_ .f32 0x33D6BF95#32),
    unary main_cst_18 main_v121 (broadcastInDim S32768x1 ![] bcast_S_S32768x1 : (⟨S_, .f32⟩ : BufTy).Contents (Elt F) → (⟨S32768x1, .f32⟩ : BufTy).Contents (Elt F)),
    binary main_v120 main_v121 main_v122 (addf : (⟨S32768x1, .f32⟩ : BufTy).Contents (Elt F) → (⟨S32768x1, .f32⟩ : BufTy).Contents (Elt F) → (⟨S32768x1, .f32⟩ : BufTy).Contents (Elt F)),
    unary main_v122 main_v123 (broadcastInDim S32768x512 ![0, 1] bcast_S32768x1_S32768x512_0_1 : (⟨S32768x1, .f32⟩ : BufTy).Contents (Elt F) → (⟨S32768x512, .f32⟩ : BufTy).Contents (Elt F)),
    binary main_v118 main_v123 main_v124 (Host.divf : (⟨S32768x512, .f32⟩ : BufTy).Contents (Elt F) → (⟨S32768x512, .f32⟩ : BufTy).Contents (Elt F) → (⟨S32768x512, .f32⟩ : BufTy).Contents (Elt F)),
    binary main_v107 main_v124 main_v125 (addf : (⟨S32768x512, .f32⟩ : BufTy).Contents (Elt F) → (⟨S32768x512, .f32⟩ : BufTy).Contents (Elt F) → (⟨S32768x512, .f32⟩ : BufTy).Contents (Elt F)),
    nullary main_cst_19 (constant S_ .f32 0x3F000000#32),
    unary main_cst_19 main_v126 (broadcastInDim S32768x512 ![] bcast_S_S32768x512 : (⟨S_, .f32⟩ : BufTy).Contents (Elt F) → (⟨S32768x512, .f32⟩ : BufTy).Contents (Elt F)),
    binary main_v126 main_v125 main_v127 (mulf : (⟨S32768x512, .f32⟩ : BufTy).Contents (Elt F) → (⟨S32768x512, .f32⟩ : BufTy).Contents (Elt F) → (⟨S32768x512, .f32⟩ : BufTy).Contents (Elt F)),
    binary main_v54 main_v127 main_v128 (addf : (⟨S32768x512, .f32⟩ : BufTy).Contents (Elt F) → (⟨S32768x512, .f32⟩ : BufTy).Contents (Elt F) → (⟨S32768x512, .f32⟩ : BufTy).Contents (Elt F)),
    unary main_arg11 main_v129 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v129 main_v130 rfl shapeCasts_S1x512x512_S512x512,
    unary main_arg12 main_v131 ((extractStridedSlice S1x512 ![0, 0] · slices_S4x512_S1x512_0_0) : (⟨S4x512, .f32⟩ : BufTy).Contents (Elt F) → (⟨S1x512, .f32⟩ : BufTy).Contents (Elt F)),
    reshape main_v131 main_v132 rfl shapeCasts_S1x512_S512,
    binary main_v128 main_v130 main_v133 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_v132 main_v134 (broadcastInDim S1x512 ![1] bcast_S512_S1x512_1 : (⟨S512, .f32⟩ : BufTy).Contents (Elt F) → (⟨S1x512, .f32⟩ : BufTy).Contents (Elt F)),
    unary main_v134 main_v135 (broadcastInDim S32768x512 ![0, 1] bcast_S1x512_S32768x512_0_1 : (⟨S1x512, .f32⟩ : BufTy).Contents (Elt F) → (⟨S32768x512, .f32⟩ : BufTy).Contents (Elt F)),
    binary main_v133 main_v135 main_v136 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x512, .f32⟩) main_call6_v0) (broadcastInDim S32768x512 ![] bcast_S_S32768x512),
    TRef.binary (TRef.of (T := ⟨S32768x512, .f32⟩) main_v136) (TRef.of (T := ⟨S32768x512, .f32⟩) main_call6_v0) (TRef.of (T := ⟨S32768x512, .f32⟩) main_v137) maximumf,
    binary main_v18 main_v137 main_v138 ((fun l r => Host.dotGeneral dot_S2048x32768_S32768x512_S2048x512_1_0_0_1_n_n none l r) : (⟨S2048x32768, .f32⟩ : BufTy).Contents (Elt F) → (⟨S32768x512, .f32⟩ : BufTy).Contents (Elt F) → (⟨S2048x512, .f32⟩ : BufTy).Contents (Elt F)),
    nullary main_cst_20 (constant S_ .f32 0x00000000#32),
    binary main_v18 main_cst_20 main_v139 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v139 main_v140 (broadcastInDim S2048x1 ![0] bcast_S2048_S2048x1_0 : (⟨S2048, .f32⟩ : BufTy).Contents (Elt F) → (⟨S2048x1, .f32⟩ : BufTy).Contents (Elt F)),
    nullary main_cst_21 (constant S_ .f32 0x33D6BF95#32),
    unary main_cst_21 main_v141 (broadcastInDim S2048x1 ![] bcast_S_S2048x1 : (⟨S_, .f32⟩ : BufTy).Contents (Elt F) → (⟨S2048x1, .f32⟩ : BufTy).Contents (Elt F)),
    binary main_v140 main_v141 main_v142 (addf : (⟨S2048x1, .f32⟩ : BufTy).Contents (Elt F) → (⟨S2048x1, .f32⟩ : BufTy).Contents (Elt F) → (⟨S2048x1, .f32⟩ : BufTy).Contents (Elt F)),
    unary main_v142 main_v143 (broadcastInDim S2048x512 ![0, 1] bcast_S2048x1_S2048x512_0_1 : (⟨S2048x1, .f32⟩ : BufTy).Contents (Elt F) → (⟨S2048x512, .f32⟩ : BufTy).Contents (Elt F)),
    binary main_v138 main_v143 main_v144 (Host.divf : (⟨S2048x512, .f32⟩ : BufTy).Contents (Elt F) → (⟨S2048x512, .f32⟩ : BufTy).Contents (Elt F) → (⟨S2048x512, .f32⟩ : BufTy).Contents (Elt F)),
    unary main_arg11 main_v145 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v145 main_v146 rfl shapeCasts_S1x512x512_S512x512,
    unary main_arg12 main_v147 ((extractStridedSlice S1x512 ![1, 0] · slices_S4x512_S1x512_1_0) : (⟨S4x512, .f32⟩ : BufTy).Contents (Elt F) → (⟨S1x512, .f32⟩ : BufTy).Contents (Elt F)),
    reshape main_v147 main_v148 rfl shapeCasts_S1x512_S512,
    binary main_v128 main_v146 main_v149 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_v148 main_v150 (broadcastInDim S1x512 ![1] bcast_S512_S1x512_1 : (⟨S512, .f32⟩ : BufTy).Contents (Elt F) → (⟨S1x512, .f32⟩ : BufTy).Contents (Elt F)),
    unary main_v150 main_v151 (broadcastInDim S32768x512 ![0, 1] bcast_S1x512_S32768x512_0_1 : (⟨S1x512, .f32⟩ : BufTy).Contents (Elt F) → (⟨S32768x512, .f32⟩ : BufTy).Contents (Elt F)),
    binary main_v149 main_v151 main_v152 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x512, .f32⟩) main_call7_v0) (broadcastInDim S32768x512 ![] bcast_S_S32768x512),
    TRef.binary (TRef.of (T := ⟨S32768x512, .f32⟩) main_v152) (TRef.of (T := ⟨S32768x512, .f32⟩) main_call7_v0) (TRef.of (T := ⟨S32768x512, .f32⟩) main_v153) maximumf,
    binary main_v36 main_v153 main_v154 ((fun l r => Host.dotGeneral dot_S2048x32768_S32768x512_S2048x512_1_0_0_1_n_n none l r) : (⟨S2048x32768, .f32⟩ : BufTy).Contents (Elt F) → (⟨S32768x512, .f32⟩ : BufTy).Contents (Elt F) → (⟨S2048x512, .f32⟩ : BufTy).Contents (Elt F)),
    nullary main_cst_22 (constant S_ .f32 0x00000000#32) ]

set_option maxHeartbeats 4000000 in
/-- The printed window is this list, run in order. -/
theorem main_part2_eq (c : Dev nD) : main_part2 (F := F) c = seq ops2 := rfl

/-- Every operation touches TensorCore buffers only. -/
theorem ops2_sub : (ops2 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub ..⟩

/-- Every operation determines its results. -/
theorem ops2_fresh : ∀ op ∈ (ops2 : List (HloOp τ sig (Elt F))), op.fresh = ∅ :=
  List.forall_iff_forall_mem.1 (by simp only [List.Forall]; repeat' constructor)

/-- The buffers the window writes. -/
abbrev ops2_W : List (Ref sig .tc) :=
  [main_v102, main_v103, main_cst_16, main_v104, main_v105, main_v106, main_v107, main_v108, main_v109, main_v110, main_v111, main_v112, main_v113, main_v114, main_v115, main_v116, main_call5_cst, main_call5_v0, main_v117, main_v118, main_cst_17, main_v119, main_v120, main_cst_18, main_v121, main_v122, main_v123, main_v124, main_v125, main_cst_19, main_v126, main_v127, main_v128, main_v129, main_v130, main_v131, main_v132, main_v133, main_v134, main_v135, main_v136, main_call6_cst, main_call6_v0, main_v137, main_v138, main_cst_20, main_v139, main_v140, main_cst_21, main_v141, main_v142, main_v143, main_v144, main_v145, main_v146, main_v147, main_v148, main_v149, main_v150, main_v151, main_v152, main_call7_cst, main_call7_v0, main_v153, main_v154, main_cst_22]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops2_writes : (ops2 : List (HloOp τ sig (Elt F))).Forall fun op => op.writes ⊆ (ops2_W.map (Proc.devRef (τ := τ) .tc)).toFinset :=
  ⟨w_sub main_v102 rfl (by decide), w_sub main_v103 rfl (by decide), w_sub main_cst_16 rfl (by decide), w_sub main_v104 rfl (by decide), w_sub main_v105 rfl (by decide), w_sub main_v106 rfl (by decide), w_sub main_v107 rfl (by decide), w_sub main_v108 rfl (by decide), w_sub main_v109 rfl (by decide), w_sub main_v110 rfl (by decide), w_sub main_v111 rfl (by decide), w_sub main_v112 rfl (by decide), w_sub main_v113 rfl (by decide), w_sub main_v114 rfl (by decide), w_sub main_v115 rfl (by decide), w_sub main_v116 rfl (by decide), w_sub main_call5_cst rfl (by decide), w_sub main_call5_v0 rfl (by decide), w_sub main_v117 rfl (by decide), w_sub main_v118 rfl (by decide), w_sub main_cst_17 rfl (by decide), w_sub main_v119 rfl (by decide), w_sub main_v120 rfl (by decide), w_sub main_cst_18 rfl (by decide), w_sub main_v121 rfl (by decide), w_sub main_v122 rfl (by decide), w_sub main_v123 rfl (by decide), w_sub main_v124 rfl (by decide), w_sub main_v125 rfl (by decide), w_sub main_cst_19 rfl (by decide), w_sub main_v126 rfl (by decide), w_sub main_v127 rfl (by decide), w_sub main_v128 rfl (by decide), w_sub main_v129 rfl (by decide), w_sub main_v130 rfl (by decide), w_sub main_v131 rfl (by decide), w_sub main_v132 rfl (by decide), w_sub main_v133 rfl (by decide), w_sub main_v134 rfl (by decide), w_sub main_v135 rfl (by decide), w_sub main_v136 rfl (by decide), w_sub main_call6_cst rfl (by decide), w_sub main_call6_v0 rfl (by decide), w_sub main_v137 rfl (by decide), w_sub main_v138 rfl (by decide), w_sub main_cst_20 rfl (by decide), w_sub main_v139 rfl (by decide), w_sub main_v140 rfl (by decide), w_sub main_cst_21 rfl (by decide), w_sub main_v141 rfl (by decide), w_sub main_v142 rfl (by decide), w_sub main_v143 rfl (by decide), w_sub main_v144 rfl (by decide), w_sub main_v145 rfl (by decide), w_sub main_v146 rfl (by decide), w_sub main_v147 rfl (by decide), w_sub main_v148 rfl (by decide), w_sub main_v149 rfl (by decide), w_sub main_v150 rfl (by decide), w_sub main_v151 rfl (by decide), w_sub main_v152 rfl (by decide), w_sub main_call7_cst rfl (by decide), w_sub main_call7_v0 rfl (by decide), w_sub main_v153 rfl (by decide), w_sub main_v154 rfl (by decide), w_sub main_cst_22 rfl (by decide)⟩

/-- A buffer the window does not write keeps its contents. -/
theorem keep2 (V : Valuation τ sig (Elt F)) (r : Ref sig .tc) (h : r ∉ ops2_W) :
    after ops2 V (Proc.devRef .tc r) = V (Proc.devRef .tc r) :=
  after_of_writes_sub ops2 V ops2_writes h

set_option maxHeartbeats 4000000 in
theorem out2_main_v128 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} (V : Valuation τ sig (Elt F))
    (h_main_arg11 : V (Proc.devRef .tc main_arg11) = x11)
    (h_main_arg12 : V (Proc.devRef .tc main_arg12) = x12)
    (h_main_v36 : V (Proc.devRef .tc main_v36) = ReadP.val_main_v36 (F := F) x2)
    (h_main_v45 : V (Proc.devRef .tc main_v45) = ReadP.val_main_v45 (F := F) x0 x3 x4 x5 x6)
    (h_main_v54 : V (Proc.devRef .tc main_v54) = ReadP.val_main_v54 (F := F) x1 x7 x8 x9 x10)
    (h_main_v91 : V (Proc.devRef .tc main_v91) = ReadP.val_main_v91 (F := F) x2)
    (h_main_v101 : V (Proc.devRef .tc main_v101) = ReadP.val_main_v101 (F := F) x0 x2 x3 x4 x5 x6 x11 x12)
    (h_main_cst_15 : V (Proc.devRef .tc main_cst_15) = ReadP.val_main_cst_15 (F := F)) :
    after ops2 V (Proc.devRef .tc main_v128) = ReadP.val_main_v128 (F := F) x0 x1 x2 x3 x4 x5 x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg11]
  try rw [h_main_arg12]
  try rw [h_main_v36]
  try rw [h_main_v45]
  try rw [h_main_v54]
  try rw [h_main_v91]
  try rw [h_main_v101]
  try rw [h_main_cst_15]
  clear h_main_arg11 h_main_arg12 h_main_v36 h_main_v45 h_main_v54 h_main_v91 h_main_v101 h_main_cst_15
  clear V
  rfl

set_option maxHeartbeats 4000000 in
theorem out2_main_v144 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} (V : Valuation τ sig (Elt F))
    (h_main_arg11 : V (Proc.devRef .tc main_arg11) = x11)
    (h_main_arg12 : V (Proc.devRef .tc main_arg12) = x12)
    (h_main_v18 : V (Proc.devRef .tc main_v18) = ReadP.val_main_v18 (F := F) x2)
    (h_main_v36 : V (Proc.devRef .tc main_v36) = ReadP.val_main_v36 (F := F) x2)
    (h_main_v45 : V (Proc.devRef .tc main_v45) = ReadP.val_main_v45 (F := F) x0 x3 x4 x5 x6)
    (h_main_v54 : V (Proc.devRef .tc main_v54) = ReadP.val_main_v54 (F := F) x1 x7 x8 x9 x10)
    (h_main_v91 : V (Proc.devRef .tc main_v91) = ReadP.val_main_v91 (F := F) x2)
    (h_main_v101 : V (Proc.devRef .tc main_v101) = ReadP.val_main_v101 (F := F) x0 x2 x3 x4 x5 x6 x11 x12)
    (h_main_cst_15 : V (Proc.devRef .tc main_cst_15) = ReadP.val_main_cst_15 (F := F)) :
    after ops2 V (Proc.devRef .tc main_v144) = ReadP.val_main_v144 (F := F) x0 x1 x2 x3 x4 x5 x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg11]
  try rw [h_main_arg12]
  try rw [h_main_v18]
  try rw [h_main_v36]
  try rw [h_main_v45]
  try rw [h_main_v54]
  try rw [h_main_v91]
  try rw [h_main_v101]
  try rw [h_main_cst_15]
  clear h_main_arg11 h_main_arg12 h_main_v18 h_main_v36 h_main_v45 h_main_v54 h_main_v91 h_main_v101 h_main_cst_15
  clear V
  rfl

set_option maxHeartbeats 4000000 in
theorem out2_main_v154 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} (V : Valuation τ sig (Elt F))
    (h_main_arg11 : V (Proc.devRef .tc main_arg11) = x11)
    (h_main_arg12 : V (Proc.devRef .tc main_arg12) = x12)
    (h_main_v36 : V (Proc.devRef .tc main_v36) = ReadP.val_main_v36 (F := F) x2)
    (h_main_v45 : V (Proc.devRef .tc main_v45) = ReadP.val_main_v45 (F := F) x0 x3 x4 x5 x6)
    (h_main_v54 : V (Proc.devRef .tc main_v54) = ReadP.val_main_v54 (F := F) x1 x7 x8 x9 x10)
    (h_main_v91 : V (Proc.devRef .tc main_v91) = ReadP.val_main_v91 (F := F) x2)
    (h_main_v101 : V (Proc.devRef .tc main_v101) = ReadP.val_main_v101 (F := F) x0 x2 x3 x4 x5 x6 x11 x12)
    (h_main_cst_15 : V (Proc.devRef .tc main_cst_15) = ReadP.val_main_cst_15 (F := F)) :
    after ops2 V (Proc.devRef .tc main_v154) = ReadP.val_main_v154 (F := F) x0 x1 x2 x3 x4 x5 x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg11]
  try rw [h_main_arg12]
  try rw [h_main_v36]
  try rw [h_main_v45]
  try rw [h_main_v54]
  try rw [h_main_v91]
  try rw [h_main_v101]
  try rw [h_main_cst_15]
  clear h_main_arg11 h_main_arg12 h_main_v36 h_main_v45 h_main_v54 h_main_v91 h_main_v101 h_main_cst_15
  clear V
  rfl

set_option maxHeartbeats 4000000 in
theorem out2_main_cst_22  (V : Valuation τ sig (Elt F)) :
    after ops2 V (Proc.devRef .tc main_cst_22) = ReadP.val_main_cst_22 (F := F) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  clear V
  rfl

end Cert.RefRunH

end
-- ==== Proof.RefRunH.W3.lean ====
/-
  Window 3 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 64 operations, in order. -/
abbrev ops3 : List (HloOp τ sig (Elt F)) :=
  [ binary main_v36 main_cst_22 main_v155 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v155 main_v156 (broadcastInDim S2048x1 ![0] bcast_S2048_S2048x1_0 : (⟨S2048, .f32⟩ : BufTy).Contents (Elt F) → (⟨S2048x1, .f32⟩ : BufTy).Contents (Elt F)),
    nullary main_cst_23 (constant S_ .f32 0x33D6BF95#32),
    unary main_cst_23 main_v157 (broadcastInDim S2048x1 ![] bcast_S_S2048x1 : (⟨S_, .f32⟩ : BufTy).Contents (Elt F) → (⟨S2048x1, .f32⟩ : BufTy).Contents (Elt F)),
    binary main_v156 main_v157 main_v158 (addf : (⟨S2048x1, .f32⟩ : BufTy).Contents (Elt F) → (⟨S2048x1, .f32⟩ : BufTy).Contents (Elt F) → (⟨S2048x1, .f32⟩ : BufTy).Contents (Elt F)),
    unary main_v158 main_v159 (broadcastInDim S2048x512 ![0, 1] bcast_S2048x1_S2048x512_0_1 : (⟨S2048x1, .f32⟩ : BufTy).Contents (Elt F) → (⟨S2048x512, .f32⟩ : BufTy).Contents (Elt F)),
    binary main_v154 main_v159 main_v160 (Host.divf : (⟨S2048x512, .f32⟩ : BufTy).Contents (Elt F) → (⟨S2048x512, .f32⟩ : BufTy).Contents (Elt F) → (⟨S2048x512, .f32⟩ : BufTy).Contents (Elt F)),
    binary main_v144 main_v160 main_v161 (addf : (⟨S2048x512, .f32⟩ : BufTy).Contents (Elt F) → (⟨S2048x512, .f32⟩ : BufTy).Contents (Elt F) → (⟨S2048x512, .f32⟩ : BufTy).Contents (Elt F)),
    nullary main_cst_24 (constant S_ .f32 0x3F000000#32),
    unary main_cst_24 main_v162 (broadcastInDim S2048x512 ![] bcast_S_S2048x512 : (⟨S_, .f32⟩ : BufTy).Contents (Elt F) → (⟨S2048x512, .f32⟩ : BufTy).Contents (Elt F)),
    binary main_v162 main_v161 main_v163 (mulf : (⟨S2048x512, .f32⟩ : BufTy).Contents (Elt F) → (⟨S2048x512, .f32⟩ : BufTy).Contents (Elt F) → (⟨S2048x512, .f32⟩ : BufTy).Contents (Elt F)),
    binary main_v90 main_v163 main_v164 (addf : (⟨S2048x512, .f32⟩ : BufTy).Contents (Elt F) → (⟨S2048x512, .f32⟩ : BufTy).Contents (Elt F) → (⟨S2048x512, .f32⟩ : BufTy).Contents (Elt F)),
    unary main_v18 main_v165 ((transpose S32768x2048 [1, 0] · transposes_S2048x32768_S32768x2048_1_0) : (⟨S2048x32768, .f32⟩ : BufTy).Contents (Elt F) → (⟨S32768x2048, .f32⟩ : BufTy).Contents (Elt F)),
    unary main_arg11 main_v166 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v166 main_v167 rfl shapeCasts_S1x512x512_S512x512,
    unary main_arg12 main_v168 ((extractStridedSlice S1x512 ![2, 0] · slices_S4x512_S1x512_2_0) : (⟨S4x512, .f32⟩ : BufTy).Contents (Elt F) → (⟨S1x512, .f32⟩ : BufTy).Contents (Elt F)),
    reshape main_v168 main_v169 rfl shapeCasts_S1x512_S512,
    binary main_v90 main_v167 main_v170 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_v169 main_v171 (broadcastInDim S1x512 ![1] bcast_S512_S1x512_1 : (⟨S512, .f32⟩ : BufTy).Contents (Elt F) → (⟨S1x512, .f32⟩ : BufTy).Contents (Elt F)),
    unary main_v171 main_v172 (broadcastInDim S2048x512 ![0, 1] bcast_S1x512_S2048x512_0_1 : (⟨S1x512, .f32⟩ : BufTy).Contents (Elt F) → (⟨S2048x512, .f32⟩ : BufTy).Contents (Elt F)),
    binary main_v170 main_v172 main_v173 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S2048x512, .f32⟩) main_call8_v0) (broadcastInDim S2048x512 ![] bcast_S_S2048x512),
    TRef.binary (TRef.of (T := ⟨S2048x512, .f32⟩) main_v173) (TRef.of (T := ⟨S2048x512, .f32⟩) main_call8_v0) (TRef.of (T := ⟨S2048x512, .f32⟩) main_v174) maximumf,
    binary main_v165 main_v174 main_v175 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    nullary main_cst_25 (constant S_ .f32 0x00000000#32),
    binary main_v165 main_cst_25 main_v176 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v176 main_v177 (broadcastInDim S32768x1 ![0] bcast_S32768_S32768x1_0 : (⟨S32768, .f32⟩ : BufTy).Contents (Elt F) → (⟨S32768x1, .f32⟩ : BufTy).Contents (Elt F)),
    nullary main_cst_26 (constant S_ .f32 0x33D6BF95#32),
    unary main_cst_26 main_v178 (broadcastInDim S32768x1 ![] bcast_S_S32768x1 : (⟨S_, .f32⟩ : BufTy).Contents (Elt F) → (⟨S32768x1, .f32⟩ : BufTy).Contents (Elt F)),
    binary main_v177 main_v178 main_v179 (addf : (⟨S32768x1, .f32⟩ : BufTy).Contents (Elt F) → (⟨S32768x1, .f32⟩ : BufTy).Contents (Elt F) → (⟨S32768x1, .f32⟩ : BufTy).Contents (Elt F)),
    unary main_v179 main_v180 (broadcastInDim S32768x512 ![0, 1] bcast_S32768x1_S32768x512_0_1 : (⟨S32768x1, .f32⟩ : BufTy).Contents (Elt F) → (⟨S32768x512, .f32⟩ : BufTy).Contents (Elt F)),
    binary main_v175 main_v180 main_v181 (Host.divf : (⟨S32768x512, .f32⟩ : BufTy).Contents (Elt F) → (⟨S32768x512, .f32⟩ : BufTy).Contents (Elt F) → (⟨S32768x512, .f32⟩ : BufTy).Contents (Elt F)),
    unary main_v36 main_v182 ((transpose S32768x2048 [1, 0] · transposes_S2048x32768_S32768x2048_1_0) : (⟨S2048x32768, .f32⟩ : BufTy).Contents (Elt F) → (⟨S32768x2048, .f32⟩ : BufTy).Contents (Elt F)),
    unary main_arg11 main_v183 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v183 main_v184 rfl shapeCasts_S1x512x512_S512x512,
    unary main_arg12 main_v185 ((extractStridedSlice S1x512 ![3, 0] · slices_S4x512_S1x512_3_0) : (⟨S4x512, .f32⟩ : BufTy).Contents (Elt F) → (⟨S1x512, .f32⟩ : BufTy).Contents (Elt F)),
    reshape main_v185 main_v186 rfl shapeCasts_S1x512_S512,
    binary main_v90 main_v184 main_v187 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_v186 main_v188 (broadcastInDim S1x512 ![1] bcast_S512_S1x512_1 : (⟨S512, .f32⟩ : BufTy).Contents (Elt F) → (⟨S1x512, .f32⟩ : BufTy).Contents (Elt F)),
    unary main_v188 main_v189 (broadcastInDim S2048x512 ![0, 1] bcast_S1x512_S2048x512_0_1 : (⟨S1x512, .f32⟩ : BufTy).Contents (Elt F) → (⟨S2048x512, .f32⟩ : BufTy).Contents (Elt F)),
    binary main_v187 main_v189 main_v190 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S2048x512, .f32⟩) main_call9_v0) (broadcastInDim S2048x512 ![] bcast_S_S2048x512),
    TRef.binary (TRef.of (T := ⟨S2048x512, .f32⟩) main_v190) (TRef.of (T := ⟨S2048x512, .f32⟩) main_call9_v0) (TRef.of (T := ⟨S2048x512, .f32⟩) main_v191) maximumf,
    binary main_v182 main_v191 main_v192 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    nullary main_cst_27 (constant S_ .f32 0x00000000#32),
    binary main_v182 main_cst_27 main_v193 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v193 main_v194 (broadcastInDim S32768x1 ![0] bcast_S32768_S32768x1_0 : (⟨S32768, .f32⟩ : BufTy).Contents (Elt F) → (⟨S32768x1, .f32⟩ : BufTy).Contents (Elt F)),
    nullary main_cst_28 (constant S_ .f32 0x33D6BF95#32),
    unary main_cst_28 main_v195 (broadcastInDim S32768x1 ![] bcast_S_S32768x1 : (⟨S_, .f32⟩ : BufTy).Contents (Elt F) → (⟨S32768x1, .f32⟩ : BufTy).Contents (Elt F)),
    binary main_v194 main_v195 main_v196 (addf : (⟨S32768x1, .f32⟩ : BufTy).Contents (Elt F) → (⟨S32768x1, .f32⟩ : BufTy).Contents (Elt F) → (⟨S32768x1, .f32⟩ : BufTy).Contents (Elt F)),
    unary main_v196 main_v197 (broadcastInDim S32768x512 ![0, 1] bcast_S32768x1_S32768x512_0_1 : (⟨S32768x1, .f32⟩ : BufTy).Contents (Elt F) → (⟨S32768x512, .f32⟩ : BufTy).Contents (Elt F)),
    binary main_v192 main_v197 main_v198 (Host.divf : (⟨S32768x512, .f32⟩ : BufTy).Contents (Elt F) → (⟨S32768x512, .f32⟩ : BufTy).Contents (Elt F) → (⟨S32768x512, .f32⟩ : BufTy).Contents (Elt F)),
    binary main_v181 main_v198 main_v199 (addf : (⟨S32768x512, .f32⟩ : BufTy).Contents (Elt F) → (⟨S32768x512, .f32⟩ : BufTy).Contents (Elt F) → (⟨S32768x512, .f32⟩ : BufTy).Contents (Elt F)),
    nullary main_cst_29 (constant S_ .f32 0x3F000000#32),
    unary main_cst_29 main_v200 (broadcastInDim S32768x512 ![] bcast_S_S32768x512 : (⟨S_, .f32⟩ : BufTy).Contents (Elt F) → (⟨S32768x512, .f32⟩ : BufTy).Contents (Elt F)),
    binary main_v200 main_v199 main_v201 (mulf : (⟨S32768x512, .f32⟩ : BufTy).Contents (Elt F) → (⟨S32768x512, .f32⟩ : BufTy).Contents (Elt F) → (⟨S32768x512, .f32⟩ : BufTy).Contents (Elt F)),
    binary main_v128 main_v201 main_v202 (addf : (⟨S32768x512, .f32⟩ : BufTy).Contents (Elt F) → (⟨S32768x512, .f32⟩ : BufTy).Contents (Elt F) → (⟨S32768x512, .f32⟩ : BufTy).Contents (Elt F)),
    binary main_v164 main_arg17 main_v203 ((fun l r => Host.dotGeneral dot_S2048x512_S512x151_S2048x151_1_0_0_1_n_n none l r) : (⟨S2048x512, .f32⟩ : BufTy).Contents (Elt F) → (⟨S512x151, .f32⟩ : BufTy).Contents (Elt F) → (⟨S2048x151, .f32⟩ : BufTy).Contents (Elt F)),
    unary main_arg18 main_v204 (broadcastInDim S1x151 ![1] bcast_S151_S1x151_1 : (⟨S151, .f32⟩ : BufTy).Contents (Elt F) → (⟨S1x151, .f32⟩ : BufTy).Contents (Elt F)),
    unary main_v204 main_v205 (broadcastInDim S2048x151 ![0, 1] bcast_S1x151_S2048x151_0_1 : (⟨S1x151, .f32⟩ : BufTy).Contents (Elt F) → (⟨S2048x151, .f32⟩ : BufTy).Contents (Elt F)),
    binary main_v203 main_v205 main_v206 (addf : (⟨S2048x151, .f32⟩ : BufTy).Contents (Elt F) → (⟨S2048x151, .f32⟩ : BufTy).Contents (Elt F) → (⟨S2048x151, .f32⟩ : BufTy).Contents (Elt F)),
    binary main_v202 main_arg19 main_v207 ((fun l r => Host.dotGeneral dot_S32768x512_S512x51_S32768x51_1_0_0_1_n_n none l r) : (⟨S32768x512, .f32⟩ : BufTy).Contents (Elt F) → (⟨S512x51, .f32⟩ : BufTy).Contents (Elt F) → (⟨S32768x51, .f32⟩ : BufTy).Contents (Elt F)) ]

set_option maxHeartbeats 4000000 in
/-- The printed window is this list, run in order. -/
theorem main_part3_eq (c : Dev nD) : main_part3 (F := F) c = seq ops3 := rfl

/-- Every operation touches TensorCore buffers only. -/
theorem ops3_sub : (ops3 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

/-- Every operation determines its results. -/
theorem ops3_fresh : ∀ op ∈ (ops3 : List (HloOp τ sig (Elt F))), op.fresh = ∅ :=
  List.forall_iff_forall_mem.1 (by simp only [List.Forall]; repeat' constructor)

/-- The buffers the window writes. -/
abbrev ops3_W : List (Ref sig .tc) :=
  [main_v155, main_v156, main_cst_23, main_v157, main_v158, main_v159, main_v160, main_v161, main_cst_24, main_v162, main_v163, main_v164, main_v165, main_v166, main_v167, main_v168, main_v169, main_v170, main_v171, main_v172, main_v173, main_call8_cst, main_call8_v0, main_v174, main_v175, main_cst_25, main_v176, main_v177, main_cst_26, main_v178, main_v179, main_v180, main_v181, main_v182, main_v183, main_v184, main_v185, main_v186, main_v187, main_v188, main_v189, main_v190, main_call9_cst, main_call9_v0, main_v191, main_v192, main_cst_27, main_v193, main_v194, main_cst_28, main_v195, main_v196, main_v197, main_v198, main_v199, main_cst_29, main_v200, main_v201, main_v202, main_v203, main_v204, main_v205, main_v206, main_v207]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops3_writes : (ops3 : List (HloOp τ sig (Elt F))).Forall fun op => op.writes ⊆ (ops3_W.map (Proc.devRef (τ := τ) .tc)).toFinset :=
  ⟨w_sub main_v155 rfl (by decide), w_sub main_v156 rfl (by decide), w_sub main_cst_23 rfl (by decide), w_sub main_v157 rfl (by decide), w_sub main_v158 rfl (by decide), w_sub main_v159 rfl (by decide), w_sub main_v160 rfl (by decide), w_sub main_v161 rfl (by decide), w_sub main_cst_24 rfl (by decide), w_sub main_v162 rfl (by decide), w_sub main_v163 rfl (by decide), w_sub main_v164 rfl (by decide), w_sub main_v165 rfl (by decide), w_sub main_v166 rfl (by decide), w_sub main_v167 rfl (by decide), w_sub main_v168 rfl (by decide), w_sub main_v169 rfl (by decide), w_sub main_v170 rfl (by decide), w_sub main_v171 rfl (by decide), w_sub main_v172 rfl (by decide), w_sub main_v173 rfl (by decide), w_sub main_call8_cst rfl (by decide), w_sub main_call8_v0 rfl (by decide), w_sub main_v174 rfl (by decide), w_sub main_v175 rfl (by decide), w_sub main_cst_25 rfl (by decide), w_sub main_v176 rfl (by decide), w_sub main_v177 rfl (by decide), w_sub main_cst_26 rfl (by decide), w_sub main_v178 rfl (by decide), w_sub main_v179 rfl (by decide), w_sub main_v180 rfl (by decide), w_sub main_v181 rfl (by decide), w_sub main_v182 rfl (by decide), w_sub main_v183 rfl (by decide), w_sub main_v184 rfl (by decide), w_sub main_v185 rfl (by decide), w_sub main_v186 rfl (by decide), w_sub main_v187 rfl (by decide), w_sub main_v188 rfl (by decide), w_sub main_v189 rfl (by decide), w_sub main_v190 rfl (by decide), w_sub main_call9_cst rfl (by decide), w_sub main_call9_v0 rfl (by decide), w_sub main_v191 rfl (by decide), w_sub main_v192 rfl (by decide), w_sub main_cst_27 rfl (by decide), w_sub main_v193 rfl (by decide), w_sub main_v194 rfl (by decide), w_sub main_cst_28 rfl (by decide), w_sub main_v195 rfl (by decide), w_sub main_v196 rfl (by decide), w_sub main_v197 rfl (by decide), w_sub main_v198 rfl (by decide), w_sub main_v199 rfl (by decide), w_sub main_cst_29 rfl (by decide), w_sub main_v200 rfl (by decide), w_sub main_v201 rfl (by decide), w_sub main_v202 rfl (by decide), w_sub main_v203 rfl (by decide), w_sub main_v204 rfl (by decide), w_sub main_v205 rfl (by decide), w_sub main_v206 rfl (by decide), w_sub main_v207 rfl (by decide)⟩

/-- A buffer the window does not write keeps its contents. -/
theorem keep3 (V : Valuation τ sig (Elt F)) (r : Ref sig .tc) (h : r ∉ ops3_W) :
    after ops3 V (Proc.devRef .tc r) = V (Proc.devRef .tc r) :=
  after_of_writes_sub ops3 V ops3_writes h

set_option maxHeartbeats 4000000 in
theorem out3_main_v206 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x17 : (⟨S512x151, .f32⟩ : BufTy).Contents (Elt F)} {x18 : (⟨S151, .f32⟩ : BufTy).Contents (Elt F)} (V : Valuation τ sig (Elt F))
    (h_main_arg17 : V (Proc.devRef .tc main_arg17) = x17)
    (h_main_arg18 : V (Proc.devRef .tc main_arg18) = x18)
    (h_main_v36 : V (Proc.devRef .tc main_v36) = ReadP.val_main_v36 (F := F) x2)
    (h_main_v90 : V (Proc.devRef .tc main_v90) = ReadP.val_main_v90 (F := F) x0 x1 x2 x3 x4 x5 x6 x7 x8 x9 x10 x11 x12)
    (h_main_v144 : V (Proc.devRef .tc main_v144) = ReadP.val_main_v144 (F := F) x0 x1 x2 x3 x4 x5 x6 x7 x8 x9 x10 x11 x12)
    (h_main_v154 : V (Proc.devRef .tc main_v154) = ReadP.val_main_v154 (F := F) x0 x1 x2 x3 x4 x5 x6 x7 x8 x9 x10 x11 x12)
    (h_main_cst_22 : V (Proc.devRef .tc main_cst_22) = ReadP.val_main_cst_22 (F := F)) :
    after ops3 V (Proc.devRef .tc main_v206) = ReadP.val_main_v206 (F := F) x0 x1 x2 x3 x4 x5 x6 x7 x8 x9 x10 x11 x12 x17 x18 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg17]
  try rw [h_main_arg18]
  try rw [h_main_v36]
  try rw [h_main_v90]
  try rw [h_main_v144]
  try rw [h_main_v154]
  try rw [h_main_cst_22]
  clear h_main_arg17 h_main_arg18 h_main_v36 h_main_v90 h_main_v144 h_main_v154 h_main_cst_22
  clear V
  rfl

set_option maxHeartbeats 4000000 in
theorem out3_main_v207 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x19 : (⟨S512x51, .f32⟩ : BufTy).Contents (Elt F)} (V : Valuation τ sig (Elt F))
    (h_main_arg11 : V (Proc.devRef .tc main_arg11) = x11)
    (h_main_arg12 : V (Proc.devRef .tc main_arg12) = x12)
    (h_main_arg19 : V (Proc.devRef .tc main_arg19) = x19)
    (h_main_v18 : V (Proc.devRef .tc main_v18) = ReadP.val_main_v18 (F := F) x2)
    (h_main_v36 : V (Proc.devRef .tc main_v36) = ReadP.val_main_v36 (F := F) x2)
    (h_main_v90 : V (Proc.devRef .tc main_v90) = ReadP.val_main_v90 (F := F) x0 x1 x2 x3 x4 x5 x6 x7 x8 x9 x10 x11 x12)
    (h_main_v128 : V (Proc.devRef .tc main_v128) = ReadP.val_main_v128 (F := F) x0 x1 x2 x3 x4 x5 x6 x7 x8 x9 x10 x11 x12) :
    after ops3 V (Proc.devRef .tc main_v207) = ReadP.val_main_v207 (F := F) x0 x1 x2 x3 x4 x5 x6 x7 x8 x9 x10 x11 x12 x19 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg11]
  try rw [h_main_arg12]
  try rw [h_main_arg19]
  try rw [h_main_v18]
  try rw [h_main_v36]
  try rw [h_main_v90]
  try rw [h_main_v128]
  clear h_main_arg11 h_main_arg12 h_main_arg19 h_main_v18 h_main_v36 h_main_v90 h_main_v128
  clear V
  rfl

end Cert.RefRunH

end
-- ==== Proof.RefRunH.W4.lean ====
/-
  Window 4 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 66 operations, in order. -/
abbrev ops4 : List (HloOp τ sig (Elt F)) :=
  [ unary main_arg20 main_v208 (broadcastInDim S1x51 ![1] bcast_S51_S1x51_1 : (⟨S51, .f32⟩ : BufTy).Contents (Elt F) → (⟨S1x51, .f32⟩ : BufTy).Contents (Elt F)),
    unary main_v208 main_v209 (broadcastInDim S32768x51 ![0, 1] bcast_S1x51_S32768x51_0_1 : (⟨S1x51, .f32⟩ : BufTy).Contents (Elt F) → (⟨S32768x51, .f32⟩ : BufTy).Contents (Elt F)),
    binary main_v207 main_v209 main_v210 (addf : (⟨S32768x51, .f32⟩ : BufTy).Contents (Elt F) → (⟨S32768x51, .f32⟩ : BufTy).Contents (Elt F) → (⟨S32768x51, .f32⟩ : BufTy).Contents (Elt F)),
    unary main_arg13 main_v211 ((extractStridedSlice S1x51x151 ![0, 0, 0] · slices_S2x51x151_S1x51x151_0_0_0) : (⟨S2x51x151, .f32⟩ : BufTy).Contents (Elt F) → (⟨S1x51x151, .f32⟩ : BufTy).Contents (Elt F)),
    reshape main_v211 main_v212 rfl shapeCasts_S1x51x151_S51x151,
    unary main_arg14 main_v213 ((extractStridedSlice S1x151 ![0, 0] · slices_S2x151_S1x151_0_0) : (⟨S2x151, .f32⟩ : BufTy).Contents (Elt F) → (⟨S1x151, .f32⟩ : BufTy).Contents (Elt F)),
    reshape main_v213 main_v214 rfl shapeCasts_S1x151_S151,
    binary main_v210 main_v212 main_v215 ((fun l r => Host.dotGeneral dot_S32768x51_S51x151_S32768x151_1_0_0_1_n_n none l r) : (⟨S32768x51, .f32⟩ : BufTy).Contents (Elt F) → (⟨S51x151, .f32⟩ : BufTy).Contents (Elt F) → (⟨S32768x151, .f32⟩ : BufTy).Contents (Elt F)),
    unary main_v214 main_v216 (broadcastInDim S1x151 ![1] bcast_S151_S1x151_1 : (⟨S151, .f32⟩ : BufTy).Contents (Elt F) → (⟨S1x151, .f32⟩ : BufTy).Contents (Elt F)),
    unary main_v216 main_v217 (broadcastInDim S32768x151 ![0, 1] bcast_S1x151_S32768x151_0_1 : (⟨S1x151, .f32⟩ : BufTy).Contents (Elt F) → (⟨S32768x151, .f32⟩ : BufTy).Contents (Elt F)),
    binary main_v215 main_v217 main_v218 (addf : (⟨S32768x151, .f32⟩ : BufTy).Contents (Elt F) → (⟨S32768x151, .f32⟩ : BufTy).Contents (Elt F) → (⟨S32768x151, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32768x151, .f32⟩) main_call10_v0) (broadcastInDim S32768x151 ![] bcast_S_S32768x151),
    TRef.binary (TRef.of (T := ⟨S32768x151, .f32⟩) main_v218) (TRef.of (T := ⟨S32768x151, .f32⟩) main_call10_v0) (TRef.of (T := ⟨S32768x151, .f32⟩) main_v219) maximumf,
    binary main_v18 main_v219 main_v220 ((fun l r => Host.dotGeneral dot_S2048x32768_S32768x151_S2048x151_1_0_0_1_n_n none l r) : (⟨S2048x32768, .f32⟩ : BufTy).Contents (Elt F) → (⟨S32768x151, .f32⟩ : BufTy).Contents (Elt F) → (⟨S2048x151, .f32⟩ : BufTy).Contents (Elt F)),
    nullary main_cst_30 (constant S_ .f32 0x00000000#32),
    binary main_v18 main_cst_30 main_v221 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v221 main_v222 (broadcastInDim S2048x1 ![0] bcast_S2048_S2048x1_0 : (⟨S2048, .f32⟩ : BufTy).Contents (Elt F) → (⟨S2048x1, .f32⟩ : BufTy).Contents (Elt F)),
    nullary main_cst_31 (constant S_ .f32 0x33D6BF95#32),
    unary main_cst_31 main_v223 (broadcastInDim S2048x1 ![] bcast_S_S2048x1 : (⟨S_, .f32⟩ : BufTy).Contents (Elt F) → (⟨S2048x1, .f32⟩ : BufTy).Contents (Elt F)),
    binary main_v222 main_v223 main_v224 (addf : (⟨S2048x1, .f32⟩ : BufTy).Contents (Elt F) → (⟨S2048x1, .f32⟩ : BufTy).Contents (Elt F) → (⟨S2048x1, .f32⟩ : BufTy).Contents (Elt F)),
    unary main_v224 main_v225 (broadcastInDim S2048x151 ![0, 1] bcast_S2048x1_S2048x151_0_1 : (⟨S2048x1, .f32⟩ : BufTy).Contents (Elt F) → (⟨S2048x151, .f32⟩ : BufTy).Contents (Elt F)),
    binary main_v220 main_v225 main_v226 (Host.divf : (⟨S2048x151, .f32⟩ : BufTy).Contents (Elt F) → (⟨S2048x151, .f32⟩ : BufTy).Contents (Elt F) → (⟨S2048x151, .f32⟩ : BufTy).Contents (Elt F)),
    unary main_arg13 main_v227 ((extractStridedSlice S1x51x151 ![1, 0, 0] · slices_S2x51x151_S1x51x151_1_0_0) : (⟨S2x51x151, .f32⟩ : BufTy).Contents (Elt F) → (⟨S1x51x151, .f32⟩ : BufTy).Contents (Elt F)),
    reshape main_v227 main_v228 rfl shapeCasts_S1x51x151_S51x151,
    unary main_arg14 main_v229 ((extractStridedSlice S1x151 ![1, 0] · slices_S2x151_S1x151_1_0) : (⟨S2x151, .f32⟩ : BufTy).Contents (Elt F) → (⟨S1x151, .f32⟩ : BufTy).Contents (Elt F)),
    reshape main_v229 main_v230 rfl shapeCasts_S1x151_S151,
    binary main_v210 main_v228 main_v231 ((fun l r => Host.dotGeneral dot_S32768x51_S51x151_S32768x151_1_0_0_1_n_n none l r) : (⟨S32768x51, .f32⟩ : BufTy).Contents (Elt F) → (⟨S51x151, .f32⟩ : BufTy).Contents (Elt F) → (⟨S32768x151, .f32⟩ : BufTy).Contents (Elt F)),
    unary main_v230 main_v232 (broadcastInDim S1x151 ![1] bcast_S151_S1x151_1 : (⟨S151, .f32⟩ : BufTy).Contents (Elt F) → (⟨S1x151, .f32⟩ : BufTy).Contents (Elt F)),
    unary main_v232 main_v233 (broadcastInDim S32768x151 ![0, 1] bcast_S1x151_S32768x151_0_1 : (⟨S1x151, .f32⟩ : BufTy).Contents (Elt F) → (⟨S32768x151, .f32⟩ : BufTy).Contents (Elt F)),
    binary main_v231 main_v233 main_v234 (addf : (⟨S32768x151, .f32⟩ : BufTy).Contents (Elt F) → (⟨S32768x151, .f32⟩ : BufTy).Contents (Elt F) → (⟨S32768x151, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32768x151, .f32⟩) main_call11_v0) (broadcastInDim S32768x151 ![] bcast_S_S32768x151),
    TRef.binary (TRef.of (T := ⟨S32768x151, .f32⟩) main_v234) (TRef.of (T := ⟨S32768x151, .f32⟩) main_call11_v0) (TRef.of (T := ⟨S32768x151, .f32⟩) main_v235) maximumf,
    binary main_v36 main_v235 main_v236 ((fun l r => Host.dotGeneral dot_S2048x32768_S32768x151_S2048x151_1_0_0_1_n_n none l r) : (⟨S2048x32768, .f32⟩ : BufTy).Contents (Elt F) → (⟨S32768x151, .f32⟩ : BufTy).Contents (Elt F) → (⟨S2048x151, .f32⟩ : BufTy).Contents (Elt F)),
    nullary main_cst_32 (constant S_ .f32 0x00000000#32),
    binary main_v36 main_cst_32 main_v237 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v237 main_v238 (broadcastInDim S2048x1 ![0] bcast_S2048_S2048x1_0 : (⟨S2048, .f32⟩ : BufTy).Contents (Elt F) → (⟨S2048x1, .f32⟩ : BufTy).Contents (Elt F)),
    nullary main_cst_33 (constant S_ .f32 0x33D6BF95#32),
    unary main_cst_33 main_v239 (broadcastInDim S2048x1 ![] bcast_S_S2048x1 : (⟨S_, .f32⟩ : BufTy).Contents (Elt F) → (⟨S2048x1, .f32⟩ : BufTy).Contents (Elt F)),
    binary main_v238 main_v239 main_v240 (addf : (⟨S2048x1, .f32⟩ : BufTy).Contents (Elt F) → (⟨S2048x1, .f32⟩ : BufTy).Contents (Elt F) → (⟨S2048x1, .f32⟩ : BufTy).Contents (Elt F)),
    unary main_v240 main_v241 (broadcastInDim S2048x151 ![0, 1] bcast_S2048x1_S2048x151_0_1 : (⟨S2048x1, .f32⟩ : BufTy).Contents (Elt F) → (⟨S2048x151, .f32⟩ : BufTy).Contents (Elt F)),
    binary main_v236 main_v241 main_v242 (Host.divf : (⟨S2048x151, .f32⟩ : BufTy).Contents (Elt F) → (⟨S2048x151, .f32⟩ : BufTy).Contents (Elt F) → (⟨S2048x151, .f32⟩ : BufTy).Contents (Elt F)),
    binary main_v226 main_v242 main_v243 (addf : (⟨S2048x151, .f32⟩ : BufTy).Contents (Elt F) → (⟨S2048x151, .f32⟩ : BufTy).Contents (Elt F) → (⟨S2048x151, .f32⟩ : BufTy).Contents (Elt F)),
    nullary main_cst_34 (constant S_ .f32 0x3F000000#32),
    unary main_cst_34 main_v244 (broadcastInDim S2048x151 ![] bcast_S_S2048x151 : (⟨S_, .f32⟩ : BufTy).Contents (Elt F) → (⟨S2048x151, .f32⟩ : BufTy).Contents (Elt F)),
    binary main_v244 main_v243 main_v245 (mulf : (⟨S2048x151, .f32⟩ : BufTy).Contents (Elt F) → (⟨S2048x151, .f32⟩ : BufTy).Contents (Elt F) → (⟨S2048x151, .f32⟩ : BufTy).Contents (Elt F)),
    binary main_v206 main_v245 main_v246 (addf : (⟨S2048x151, .f32⟩ : BufTy).Contents (Elt F) → (⟨S2048x151, .f32⟩ : BufTy).Contents (Elt F) → (⟨S2048x151, .f32⟩ : BufTy).Contents (Elt F)),
    unary main_v18 main_v247 ((transpose S32768x2048 [1, 0] · transposes_S2048x32768_S32768x2048_1_0) : (⟨S2048x32768, .f32⟩ : BufTy).Contents (Elt F) → (⟨S32768x2048, .f32⟩ : BufTy).Contents (Elt F)),
    unary main_arg15 main_v248 ((extractStridedSlice S1x151x51 ![0, 0, 0] · slices_S2x151x51_S1x151x51_0_0_0) : (⟨S2x151x51, .f32⟩ : BufTy).Contents (Elt F) → (⟨S1x151x51, .f32⟩ : BufTy).Contents (Elt F)),
    reshape main_v248 main_v249 rfl shapeCasts_S1x151x51_S151x51,
    unary main_arg16 main_v250 ((extractStridedSlice S1x51 ![0, 0] · slices_S2x51_S1x51_0_0) : (⟨S2x51, .f32⟩ : BufTy).Contents (Elt F) → (⟨S1x51, .f32⟩ : BufTy).Contents (Elt F)),
    reshape main_v250 main_v251 rfl shapeCasts_S1x51_S51,
    binary main_v206 main_v249 main_v252 ((fun l r => Host.dotGeneral dot_S2048x151_S151x51_S2048x51_1_0_0_1_n_n none l r) : (⟨S2048x151, .f32⟩ : BufTy).Contents (Elt F) → (⟨S151x51, .f32⟩ : BufTy).Contents (Elt F) → (⟨S2048x51, .f32⟩ : BufTy).Contents (Elt F)),
    unary main_v251 main_v253 (broadcastInDim S1x51 ![1] bcast_S51_S1x51_1 : (⟨S51, .f32⟩ : BufTy).Contents (Elt F) → (⟨S1x51, .f32⟩ : BufTy).Contents (Elt F)),
    unary main_v253 main_v254 (broadcastInDim S2048x51 ![0, 1] bcast_S1x51_S2048x51_0_1 : (⟨S1x51, .f32⟩ : BufTy).Contents (Elt F) → (⟨S2048x51, .f32⟩ : BufTy).Contents (Elt F)),
    binary main_v252 main_v254 main_v255 (addf : (⟨S2048x51, .f32⟩ : BufTy).Contents (Elt F) → (⟨S2048x51, .f32⟩ : BufTy).Contents (Elt F) → (⟨S2048x51, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S2048x51, .f32⟩) main_call12_v0) (broadcastInDim S2048x51 ![] bcast_S_S2048x51),
    TRef.binary (TRef.of (T := ⟨S2048x51, .f32⟩) main_v255) (TRef.of (T := ⟨S2048x51, .f32⟩) main_call12_v0) (TRef.of (T := ⟨S2048x51, .f32⟩) main_v256) maximumf,
    binary main_v247 main_v256 main_v257 ((fun l r => Host.dotGeneral dot_S32768x2048_S2048x51_S32768x51_1_0_0_1_n_n none l r) : (⟨S32768x2048, .f32⟩ : BufTy).Contents (Elt F) → (⟨S2048x51, .f32⟩ : BufTy).Contents (Elt F) → (⟨S32768x51, .f32⟩ : BufTy).Contents (Elt F)),
    nullary main_cst_35 (constant S_ .f32 0x00000000#32),
    binary main_v247 main_cst_35 main_v258 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v258 main_v259 (broadcastInDim S32768x1 ![0] bcast_S32768_S32768x1_0 : (⟨S32768, .f32⟩ : BufTy).Contents (Elt F) → (⟨S32768x1, .f32⟩ : BufTy).Contents (Elt F)),
    nullary main_cst_36 (constant S_ .f32 0x33D6BF95#32),
    unary main_cst_36 main_v260 (broadcastInDim S32768x1 ![] bcast_S_S32768x1 : (⟨S_, .f32⟩ : BufTy).Contents (Elt F) → (⟨S32768x1, .f32⟩ : BufTy).Contents (Elt F)) ]

set_option maxHeartbeats 4000000 in
/-- The printed window is this list, run in order. -/
theorem main_part4_eq (c : Dev nD) : main_part4 (F := F) c = seq ops4 := rfl

/-- Every operation touches TensorCore buffers only. -/
theorem ops4_sub : (ops4 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub ..⟩

/-- Every operation determines its results. -/
theorem ops4_fresh : ∀ op ∈ (ops4 : List (HloOp τ sig (Elt F))), op.fresh = ∅ :=
  List.forall_iff_forall_mem.1 (by simp only [List.Forall]; repeat' constructor)

/-- The buffers the window writes. -/
abbrev ops4_W : List (Ref sig .tc) :=
  [main_v208, main_v209, main_v210, main_v211, main_v212, main_v213, main_v214, main_v215, main_v216, main_v217, main_v218, main_call10_cst, main_call10_v0, main_v219, main_v220, main_cst_30, main_v221, main_v222, main_cst_31, main_v223, main_v224, main_v225, main_v226, main_v227, main_v228, main_v229, main_v230, main_v231, main_v232, main_v233, main_v234, main_call11_cst, main_call11_v0, main_v235, main_v236, main_cst_32, main_v237, main_v238, main_cst_33, main_v239, main_v240, main_v241, main_v242, main_v243, main_cst_34, main_v244, main_v245, main_v246, main_v247, main_v248, main_v249, main_v250, main_v251, main_v252, main_v253, main_v254, main_v255, main_call12_cst, main_call12_v0, main_v256, main_v257, main_cst_35, main_v258, main_v259, main_cst_36, main_v260]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops4_writes : (ops4 : List (HloOp τ sig (Elt F))).Forall fun op => op.writes ⊆ (ops4_W.map (Proc.devRef (τ := τ) .tc)).toFinset :=
  ⟨w_sub main_v208 rfl (by decide), w_sub main_v209 rfl (by decide), w_sub main_v210 rfl (by decide), w_sub main_v211 rfl (by decide), w_sub main_v212 rfl (by decide), w_sub main_v213 rfl (by decide), w_sub main_v214 rfl (by decide), w_sub main_v215 rfl (by decide), w_sub main_v216 rfl (by decide), w_sub main_v217 rfl (by decide), w_sub main_v218 rfl (by decide), w_sub main_call10_cst rfl (by decide), w_sub main_call10_v0 rfl (by decide), w_sub main_v219 rfl (by decide), w_sub main_v220 rfl (by decide), w_sub main_cst_30 rfl (by decide), w_sub main_v221 rfl (by decide), w_sub main_v222 rfl (by decide), w_sub main_cst_31 rfl (by decide), w_sub main_v223 rfl (by decide), w_sub main_v224 rfl (by decide), w_sub main_v225 rfl (by decide), w_sub main_v226 rfl (by decide), w_sub main_v227 rfl (by decide), w_sub main_v228 rfl (by decide), w_sub main_v229 rfl (by decide), w_sub main_v230 rfl (by decide), w_sub main_v231 rfl (by decide), w_sub main_v232 rfl (by decide), w_sub main_v233 rfl (by decide), w_sub main_v234 rfl (by decide), w_sub main_call11_cst rfl (by decide), w_sub main_call11_v0 rfl (by decide), w_sub main_v235 rfl (by decide), w_sub main_v236 rfl (by decide), w_sub main_cst_32 rfl (by decide), w_sub main_v237 rfl (by decide), w_sub main_v238 rfl (by decide), w_sub main_cst_33 rfl (by decide), w_sub main_v239 rfl (by decide), w_sub main_v240 rfl (by decide), w_sub main_v241 rfl (by decide), w_sub main_v242 rfl (by decide), w_sub main_v243 rfl (by decide), w_sub main_cst_34 rfl (by decide), w_sub main_v244 rfl (by decide), w_sub main_v245 rfl (by decide), w_sub main_v246 rfl (by decide), w_sub main_v247 rfl (by decide), w_sub main_v248 rfl (by decide), w_sub main_v249 rfl (by decide), w_sub main_v250 rfl (by decide), w_sub main_v251 rfl (by decide), w_sub main_v252 rfl (by decide), w_sub main_v253 rfl (by decide), w_sub main_v254 rfl (by decide), w_sub main_v255 rfl (by decide), w_sub main_call12_cst rfl (by decide), w_sub main_call12_v0 rfl (by decide), w_sub main_v256 rfl (by decide), w_sub main_v257 rfl (by decide), w_sub main_cst_35 rfl (by decide), w_sub main_v258 rfl (by decide), w_sub main_v259 rfl (by decide), w_sub main_cst_36 rfl (by decide), w_sub main_v260 rfl (by decide)⟩

/-- A buffer the window does not write keeps its contents. -/
theorem keep4 (V : Valuation τ sig (Elt F)) (r : Ref sig .tc) (h : r ∉ ops4_W) :
    after ops4 V (Proc.devRef .tc r) = V (Proc.devRef .tc r) :=
  after_of_writes_sub ops4 V ops4_writes h

set_option maxHeartbeats 4000000 in
theorem out4_main_v210 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x19 : (⟨S512x51, .f32⟩ : BufTy).Contents (Elt F)} {x20 : (⟨S51, .f32⟩ : BufTy).Contents (Elt F)} (V : Valuation τ sig (Elt F))
    (h_main_arg20 : V (Proc.devRef .tc main_arg20) = x20)
    (h_main_v207 : V (Proc.devRef .tc main_v207) = ReadP.val_main_v207 (F := F) x0 x1 x2 x3 x4 x5 x6 x7 x8 x9 x10 x11 x12 x19) :
    after ops4 V (Proc.devRef .tc main_v210) = ReadP.val_main_v210 (F := F) x0 x1 x2 x3 x4 x5 x6 x7 x8 x9 x10 x11 x12 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg20]
  try rw [h_main_v207]
  clear h_main_arg20 h_main_v207
  clear V
  rfl

set_option maxHeartbeats 4000000 in
theorem out4_main_v246 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x13 : (⟨S2x51x151, .f32⟩ : BufTy).Contents (Elt F)} {x14 : (⟨S2x151, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_arg13 : V (Proc.devRef .tc main_arg13) = x13)
    (h_main_arg14 : V (Proc.devRef .tc main_arg14) = x14)
    (h_main_arg20 : V (Proc.devRef .tc main_arg20) = x20)
    (h_main_v18 : V (Proc.devRef .tc main_v18) = ReadP.val_main_v18 (F := F) x2)
    (h_main_v36 : V (Proc.devRef .tc main_v36) = ReadP.val_main_v36 (F := F) x2)
    (h_main_v206 : V (Proc.devRef .tc main_v206) = ReadP.val_main_v206 (F := F) x0 x1 x2 x3 x4 x5 x6 x7 x8 x9 x10 x11 x12 x17 x18)
    (h_main_v207 : V (Proc.devRef .tc main_v207) = ReadP.val_main_v207 (F := F) x0 x1 x2 x3 x4 x5 x6 x7 x8 x9 x10 x11 x12 x19) :
    after ops4 V (Proc.devRef .tc main_v246) = ReadP.val_main_v246 (F := F) x0 x1 x2 x3 x4 x5 x6 x7 x8 x9 x10 x11 x12 x13 x14 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg13]
  try rw [h_main_arg14]
  try rw [h_main_arg20]
  try rw [h_main_v18]
  try rw [h_main_v36]
  try rw [h_main_v206]
  try rw [h_main_v207]
  clear h_main_arg13 h_main_arg14 h_main_arg20 h_main_v18 h_main_v36 h_main_v206 h_main_v207
  clear V
  rfl

set_option maxHeartbeats 4000000 in
theorem out4_main_v257 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} (V : Valuation τ sig (Elt F))
    (h_main_arg15 : V (Proc.devRef .tc main_arg15) = x15)
    (h_main_arg16 : V (Proc.devRef .tc main_arg16) = x16)
    (h_main_v18 : V (Proc.devRef .tc main_v18) = ReadP.val_main_v18 (F := F) x2)
    (h_main_v206 : V (Proc.devRef .tc main_v206) = ReadP.val_main_v206 (F := F) x0 x1 x2 x3 x4 x5 x6 x7 x8 x9 x10 x11 x12 x17 x18) :
    after ops4 V (Proc.devRef .tc main_v257) = ReadP.val_main_v257 (F := F) x0 x1 x2 x3 x4 x5 x6 x7 x8 x9 x10 x11 x12 x15 x16 x17 x18 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg15]
  try rw [h_main_arg16]
  try rw [h_main_v18]
  try rw [h_main_v206]
  clear h_main_arg15 h_main_arg16 h_main_v18 h_main_v206
  clear V
  rfl

set_option maxHeartbeats 4000000 in
theorem out4_main_v259 {x2 : (⟨S32768x2, .i32⟩ : BufTy).Contents (Elt F)} (V : Valuation τ sig (Elt F))
    (h_main_v18 : V (Proc.devRef .tc main_v18) = ReadP.val_main_v18 (F := F) x2) :
    after ops4 V (Proc.devRef .tc main_v259) = ReadP.val_main_v259 (F := F) x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_v18]
  clear h_main_v18
  clear V
  rfl

set_option maxHeartbeats 4000000 in
theorem out4_main_v260  (V : Valuation τ sig (Elt F)) :
    after ops4 V (Proc.devRef .tc main_v260) = ReadP.val_main_v260 (F := F) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  clear V
  rfl

end Cert.RefRunH

end
-- ==== Proof.RefRunH.W5.lean ====
/-
  Window 5 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 66 operations, in order. -/
abbrev ops5 : List (HloOp τ sig (Elt F)) :=
  [ binary main_v259 main_v260 main_v261 (addf : (⟨S32768x1, .f32⟩ : BufTy).Contents (Elt F) → (⟨S32768x1, .f32⟩ : BufTy).Contents (Elt F) → (⟨S32768x1, .f32⟩ : BufTy).Contents (Elt F)),
    unary main_v261 main_v262 (broadcastInDim S32768x51 ![0, 1] bcast_S32768x1_S32768x51_0_1 : (⟨S32768x1, .f32⟩ : BufTy).Contents (Elt F) → (⟨S32768x51, .f32⟩ : BufTy).Contents (Elt F)),
    binary main_v257 main_v262 main_v263 (Host.divf : (⟨S32768x51, .f32⟩ : BufTy).Contents (Elt F) → (⟨S32768x51, .f32⟩ : BufTy).Contents (Elt F) → (⟨S32768x51, .f32⟩ : BufTy).Contents (Elt F)),
    unary main_v36 main_v264 ((transpose S32768x2048 [1, 0] · transposes_S2048x32768_S32768x2048_1_0) : (⟨S2048x32768, .f32⟩ : BufTy).Contents (Elt F) → (⟨S32768x2048, .f32⟩ : BufTy).Contents (Elt F)),
    unary main_arg15 main_v265 ((extractStridedSlice S1x151x51 ![1, 0, 0] · slices_S2x151x51_S1x151x51_1_0_0) : (⟨S2x151x51, .f32⟩ : BufTy).Contents (Elt F) → (⟨S1x151x51, .f32⟩ : BufTy).Contents (Elt F)),
    reshape main_v265 main_v266 rfl shapeCasts_S1x151x51_S151x51,
    unary main_arg16 main_v267 ((extractStridedSlice S1x51 ![1, 0] · slices_S2x51_S1x51_1_0) : (⟨S2x51, .f32⟩ : BufTy).Contents (Elt F) → (⟨S1x51, .f32⟩ : BufTy).Contents (Elt F)),
    reshape main_v267 main_v268 rfl shapeCasts_S1x51_S51,
    binary main_v206 main_v266 main_v269 ((fun l r => Host.dotGeneral dot_S2048x151_S151x51_S2048x51_1_0_0_1_n_n none l r) : (⟨S2048x151, .f32⟩ : BufTy).Contents (Elt F) → (⟨S151x51, .f32⟩ : BufTy).Contents (Elt F) → (⟨S2048x51, .f32⟩ : BufTy).Contents (Elt F)),
    unary main_v268 main_v270 (broadcastInDim S1x51 ![1] bcast_S51_S1x51_1 : (⟨S51, .f32⟩ : BufTy).Contents (Elt F) → (⟨S1x51, .f32⟩ : BufTy).Contents (Elt F)),
    unary main_v270 main_v271 (broadcastInDim S2048x51 ![0, 1] bcast_S1x51_S2048x51_0_1 : (⟨S1x51, .f32⟩ : BufTy).Contents (Elt F) → (⟨S2048x51, .f32⟩ : BufTy).Contents (Elt F)),
    binary main_v269 main_v271 main_v272 (addf : (⟨S2048x51, .f32⟩ : BufTy).Contents (Elt F) → (⟨S2048x51, .f32⟩ : BufTy).Contents (Elt F) → (⟨S2048x51, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S2048x51, .f32⟩) main_call13_v0) (broadcastInDim S2048x51 ![] bcast_S_S2048x51),
    TRef.binary (TRef.of (T := ⟨S2048x51, .f32⟩) main_v272) (TRef.of (T := ⟨S2048x51, .f32⟩) main_call13_v0) (TRef.of (T := ⟨S2048x51, .f32⟩) main_v273) maximumf,
    binary main_v264 main_v273 main_v274 ((fun l r => Host.dotGeneral dot_S32768x2048_S2048x51_S32768x51_1_0_0_1_n_n none l r) : (⟨S32768x2048, .f32⟩ : BufTy).Contents (Elt F) → (⟨S2048x51, .f32⟩ : BufTy).Contents (Elt F) → (⟨S32768x51, .f32⟩ : BufTy).Contents (Elt F)),
    nullary main_cst_37 (constant S_ .f32 0x00000000#32),
    binary main_v264 main_cst_37 main_v275 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v275 main_v276 (broadcastInDim S32768x1 ![0] bcast_S32768_S32768x1_0 : (⟨S32768, .f32⟩ : BufTy).Contents (Elt F) → (⟨S32768x1, .f32⟩ : BufTy).Contents (Elt F)),
    nullary main_cst_38 (constant S_ .f32 0x33D6BF95#32),
    unary main_cst_38 main_v277 (broadcastInDim S32768x1 ![] bcast_S_S32768x1 : (⟨S_, .f32⟩ : BufTy).Contents (Elt F) → (⟨S32768x1, .f32⟩ : BufTy).Contents (Elt F)),
    binary main_v276 main_v277 main_v278 (addf : (⟨S32768x1, .f32⟩ : BufTy).Contents (Elt F) → (⟨S32768x1, .f32⟩ : BufTy).Contents (Elt F) → (⟨S32768x1, .f32⟩ : BufTy).Contents (Elt F)),
    unary main_v278 main_v279 (broadcastInDim S32768x51 ![0, 1] bcast_S32768x1_S32768x51_0_1 : (⟨S32768x1, .f32⟩ : BufTy).Contents (Elt F) → (⟨S32768x51, .f32⟩ : BufTy).Contents (Elt F)),
    binary main_v274 main_v279 main_v280 (Host.divf : (⟨S32768x51, .f32⟩ : BufTy).Contents (Elt F) → (⟨S32768x51, .f32⟩ : BufTy).Contents (Elt F) → (⟨S32768x51, .f32⟩ : BufTy).Contents (Elt F)),
    binary main_v263 main_v280 main_v281 (addf : (⟨S32768x51, .f32⟩ : BufTy).Contents (Elt F) → (⟨S32768x51, .f32⟩ : BufTy).Contents (Elt F) → (⟨S32768x51, .f32⟩ : BufTy).Contents (Elt F)),
    nullary main_cst_39 (constant S_ .f32 0x3F000000#32),
    unary main_cst_39 main_v282 (broadcastInDim S32768x51 ![] bcast_S_S32768x51 : (⟨S_, .f32⟩ : BufTy).Contents (Elt F) → (⟨S32768x51, .f32⟩ : BufTy).Contents (Elt F)),
    binary main_v282 main_v281 main_v283 (mulf : (⟨S32768x51, .f32⟩ : BufTy).Contents (Elt F) → (⟨S32768x51, .f32⟩ : BufTy).Contents (Elt F) → (⟨S32768x51, .f32⟩ : BufTy).Contents (Elt F)),
    binary main_v210 main_v283 main_v284 (addf : (⟨S32768x51, .f32⟩ : BufTy).Contents (Elt F) → (⟨S32768x51, .f32⟩ : BufTy).Contents (Elt F) → (⟨S32768x51, .f32⟩ : BufTy).Contents (Elt F)),
    unary main_arg13 main_v285 ((extractStridedSlice S1x51x151 ![0, 0, 0] · slices_S2x51x151_S1x51x151_0_0_0) : (⟨S2x51x151, .f32⟩ : BufTy).Contents (Elt F) → (⟨S1x51x151, .f32⟩ : BufTy).Contents (Elt F)),
    reshape main_v285 main_v286 rfl shapeCasts_S1x51x151_S51x151,
    unary main_arg14 main_v287 ((extractStridedSlice S1x151 ![0, 0] · slices_S2x151_S1x151_0_0) : (⟨S2x151, .f32⟩ : BufTy).Contents (Elt F) → (⟨S1x151, .f32⟩ : BufTy).Contents (Elt F)),
    reshape main_v287 main_v288 rfl shapeCasts_S1x151_S151,
    binary main_v284 main_v286 main_v289 ((fun l r => Host.dotGeneral dot_S32768x51_S51x151_S32768x151_1_0_0_1_n_n none l r) : (⟨S32768x51, .f32⟩ : BufTy).Contents (Elt F) → (⟨S51x151, .f32⟩ : BufTy).Contents (Elt F) → (⟨S32768x151, .f32⟩ : BufTy).Contents (Elt F)),
    unary main_v288 main_v290 (broadcastInDim S1x151 ![1] bcast_S151_S1x151_1 : (⟨S151, .f32⟩ : BufTy).Contents (Elt F) → (⟨S1x151, .f32⟩ : BufTy).Contents (Elt F)),
    unary main_v290 main_v291 (broadcastInDim S32768x151 ![0, 1] bcast_S1x151_S32768x151_0_1 : (⟨S1x151, .f32⟩ : BufTy).Contents (Elt F) → (⟨S32768x151, .f32⟩ : BufTy).Contents (Elt F)),
    binary main_v289 main_v291 main_v292 (addf : (⟨S32768x151, .f32⟩ : BufTy).Contents (Elt F) → (⟨S32768x151, .f32⟩ : BufTy).Contents (Elt F) → (⟨S32768x151, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S32768x151, .f32⟩) main_call14_v0) (broadcastInDim S32768x151 ![] bcast_S_S32768x151),
    TRef.binary (TRef.of (T := ⟨S32768x151, .f32⟩) main_v292) (TRef.of (T := ⟨S32768x151, .f32⟩) main_call14_v0) (TRef.of (T := ⟨S32768x151, .f32⟩) main_v293) maximumf,
    binary main_v18 main_v293 main_v294 ((fun l r => Host.dotGeneral dot_S2048x32768_S32768x151_S2048x151_1_0_0_1_n_n none l r) : (⟨S2048x32768, .f32⟩ : BufTy).Contents (Elt F) → (⟨S32768x151, .f32⟩ : BufTy).Contents (Elt F) → (⟨S2048x151, .f32⟩ : BufTy).Contents (Elt F)),
    nullary main_cst_40 (constant S_ .f32 0x00000000#32),
    binary main_v18 main_cst_40 main_v295 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v295 main_v296 (broadcastInDim S2048x1 ![0] bcast_S2048_S2048x1_0 : (⟨S2048, .f32⟩ : BufTy).Contents (Elt F) → (⟨S2048x1, .f32⟩ : BufTy).Contents (Elt F)),
    nullary main_cst_41 (constant S_ .f32 0x33D6BF95#32),
    unary main_cst_41 main_v297 (broadcastInDim S2048x1 ![] bcast_S_S2048x1 : (⟨S_, .f32⟩ : BufTy).Contents (Elt F) → (⟨S2048x1, .f32⟩ : BufTy).Contents (Elt F)),
    binary main_v296 main_v297 main_v298 (addf : (⟨S2048x1, .f32⟩ : BufTy).Contents (Elt F) → (⟨S2048x1, .f32⟩ : BufTy).Contents (Elt F) → (⟨S2048x1, .f32⟩ : BufTy).Contents (Elt F)),
    unary main_v298 main_v299 (broadcastInDim S2048x151 ![0, 1] bcast_S2048x1_S2048x151_0_1 : (⟨S2048x1, .f32⟩ : BufTy).Contents (Elt F) → (⟨S2048x151, .f32⟩ : BufTy).Contents (Elt F)),
    binary main_v294 main_v299 main_v300 (Host.divf : (⟨S2048x151, .f32⟩ : BufTy).Contents (Elt F) → (⟨S2048x151, .f32⟩ : BufTy).Contents (Elt F) → (⟨S2048x151, .f32⟩ : BufTy).Contents (Elt F)),
    unary main_arg13 main_v301 ((extractStridedSlice S1x51x151 ![1, 0, 0] · slices_S2x51x151_S1x51x151_1_0_0) : (⟨S2x51x151, .f32⟩ : BufTy).Contents (Elt F) → (⟨S1x51x151, .f32⟩ : BufTy).Contents (Elt F)),
    reshape main_v301 main_v302 rfl shapeCasts_S1x51x151_S51x151,
    unary main_arg14 main_v303 ((extractStridedSlice S1x151 ![1, 0] · slices_S2x151_S1x151_1_0) : (⟨S2x151, .f32⟩ : BufTy).Contents (Elt F) → (⟨S1x151, .f32⟩ : BufTy).Contents (Elt F)),
    reshape main_v303 main_v304 rfl shapeCasts_S1x151_S151,
    binary main_v284 main_v302 main_v305 ((fun l r => Host.dotGeneral dot_S32768x51_S51x151_S32768x151_1_0_0_1_n_n none l r) : (⟨S32768x51, .f32⟩ : BufTy).Contents (Elt F) → (⟨S51x151, .f32⟩ : BufTy).Contents (Elt F) → (⟨S32768x151, .f32⟩ : BufTy).Contents (Elt F)),
    unary main_v304 main_v306 (broadcastInDim S1x151 ![1] bcast_S151_S1x151_1 : (⟨S151, .f32⟩ : BufTy).Contents (Elt F) → (⟨S1x151, .f32⟩ : BufTy).Contents (Elt F)),
    unary main_v306 main_v307 (broadcastInDim S32768x151 ![0, 1] bcast_S1x151_S32768x151_0_1 : (⟨S1x151, .f32⟩ : BufTy).Contents (Elt F) → (⟨S32768x151, .f32⟩ : BufTy).Contents (Elt F)),
    binary main_v305 main_v307 main_v308 (addf : (⟨S32768x151, .f32⟩ : BufTy).Contents (Elt F) → (⟨S32768x151, .f32⟩ : BufTy).Contents (Elt F) → (⟨S32768x151, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S32768x151, .f32⟩) main_call15_v0) (broadcastInDim S32768x151 ![] bcast_S_S32768x151),
    TRef.binary (TRef.of (T := ⟨S32768x151, .f32⟩) main_v308) (TRef.of (T := ⟨S32768x151, .f32⟩) main_call15_v0) (TRef.of (T := ⟨S32768x151, .f32⟩) main_v309) maximumf,
    binary main_v36 main_v309 main_v310 ((fun l r => Host.dotGeneral dot_S2048x32768_S32768x151_S2048x151_1_0_0_1_n_n none l r) : (⟨S2048x32768, .f32⟩ : BufTy).Contents (Elt F) → (⟨S32768x151, .f32⟩ : BufTy).Contents (Elt F) → (⟨S2048x151, .f32⟩ : BufTy).Contents (Elt F)),
    nullary main_cst_42 (constant S_ .f32 0x00000000#32),
    binary main_v36 main_cst_42 main_v311 ((fun x v => Host.reduceAdd x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v311 main_v312 (broadcastInDim S2048x1 ![0] bcast_S2048_S2048x1_0 : (⟨S2048, .f32⟩ : BufTy).Contents (Elt F) → (⟨S2048x1, .f32⟩ : BufTy).Contents (Elt F)),
    nullary main_cst_43 (constant S_ .f32 0x33D6BF95#32),
    unary main_cst_43 main_v313 (broadcastInDim S2048x1 ![] bcast_S_S2048x1 : (⟨S_, .f32⟩ : BufTy).Contents (Elt F) → (⟨S2048x1, .f32⟩ : BufTy).Contents (Elt F)) ]

set_option maxHeartbeats 4000000 in
/-- The printed window is this list, run in order. -/
theorem main_part5_eq (c : Dev nD) : main_part5 (F := F) c = seq ops5 := rfl

/-- Every operation touches TensorCore buffers only. -/
theorem ops5_sub : (ops5 : List (HloOp τ sig (Elt F))).Forall fun op => op.bufs ⊆ tcRefs τ sig :=
  ⟨binary_bufs_sub .., unary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub ..⟩

/-- Every operation determines its results. -/
theorem ops5_fresh : ∀ op ∈ (ops5 : List (HloOp τ sig (Elt F))), op.fresh = ∅ :=
  List.forall_iff_forall_mem.1 (by simp only [List.Forall]; repeat' constructor)

/-- The buffers the window writes. -/
abbrev ops5_W : List (Ref sig .tc) :=
  [main_v261, main_v262, main_v263, main_v264, main_v265, main_v266, main_v267, main_v268, main_v269, main_v270, main_v271, main_v272, main_call13_cst, main_call13_v0, main_v273, main_v274, main_cst_37, main_v275, main_v276, main_cst_38, main_v277, main_v278, main_v279, main_v280, main_v281, main_cst_39, main_v282, main_v283, main_v284, main_v285, main_v286, main_v287, main_v288, main_v289, main_v290, main_v291, main_v292, main_call14_cst, main_call14_v0, main_v293, main_v294, main_cst_40, main_v295, main_v296, main_cst_41, main_v297, main_v298, main_v299, main_v300, main_v301, main_v302, main_v303, main_v304, main_v305, main_v306, main_v307, main_v308, main_call15_cst, main_call15_v0, main_v309, main_v310, main_cst_42, main_v311, main_v312, main_cst_43, main_v313]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops5_writes : (ops5 : List (HloOp τ sig (Elt F))).Forall fun op => op.writes ⊆ (ops5_W.map (Proc.devRef (τ := τ) .tc)).toFinset :=
  ⟨w_sub main_v261 rfl (by decide), w_sub main_v262 rfl (by decide), w_sub main_v263 rfl (by decide), w_sub main_v264 rfl (by decide), w_sub main_v265 rfl (by decide), w_sub main_v266 rfl (by decide), w_sub main_v267 rfl (by decide), w_sub main_v268 rfl (by decide), w_sub main_v269 rfl (by decide), w_sub main_v270 rfl (by decide), w_sub main_v271 rfl (by decide), w_sub main_v272 rfl (by decide), w_sub main_call13_cst rfl (by decide), w_sub main_call13_v0 rfl (by decide), w_sub main_v273 rfl (by decide), w_sub main_v274 rfl (by decide), w_sub main_cst_37 rfl (by decide), w_sub main_v275 rfl (by decide), w_sub main_v276 rfl (by decide), w_sub main_cst_38 rfl (by decide), w_sub main_v277 rfl (by decide), w_sub main_v278 rfl (by decide), w_sub main_v279 rfl (by decide), w_sub main_v280 rfl (by decide), w_sub main_v281 rfl (by decide), w_sub main_cst_39 rfl (by decide), w_sub main_v282 rfl (by decide), w_sub main_v283 rfl (by decide), w_sub main_v284 rfl (by decide), w_sub main_v285 rfl (by decide), w_sub main_v286 rfl (by decide), w_sub main_v287 rfl (by decide), w_sub main_v288 rfl (by decide), w_sub main_v289 rfl (by decide), w_sub main_v290 rfl (by decide), w_sub main_v291 rfl (by decide), w_sub main_v292 rfl (by decide), w_sub main_call14_cst rfl (by decide), w_sub main_call14_v0 rfl (by decide), w_sub main_v293 rfl (by decide), w_sub main_v294 rfl (by decide), w_sub main_cst_40 rfl (by decide), w_sub main_v295 rfl (by decide), w_sub main_v296 rfl (by decide), w_sub main_cst_41 rfl (by decide), w_sub main_v297 rfl (by decide), w_sub main_v298 rfl (by decide), w_sub main_v299 rfl (by decide), w_sub main_v300 rfl (by decide), w_sub main_v301 rfl (by decide), w_sub main_v302 rfl (by decide), w_sub main_v303 rfl (by decide), w_sub main_v304 rfl (by decide), w_sub main_v305 rfl (by decide), w_sub main_v306 rfl (by decide), w_sub main_v307 rfl (by decide), w_sub main_v308 rfl (by decide), w_sub main_call15_cst rfl (by decide), w_sub main_call15_v0 rfl (by decide), w_sub main_v309 rfl (by decide), w_sub main_v310 rfl (by decide), w_sub main_cst_42 rfl (by decide), w_sub main_v311 rfl (by decide), w_sub main_v312 rfl (by decide), w_sub main_cst_43 rfl (by decide), w_sub main_v313 rfl (by decide)⟩

/-- A buffer the window does not write keeps its contents. -/
theorem keep5 (V : Valuation τ sig (Elt F)) (r : Ref sig .tc) (h : r ∉ ops5_W) :
    after ops5 V (Proc.devRef .tc r) = V (Proc.devRef .tc r) :=
  after_of_writes_sub ops5 V ops5_writes h

set_option maxHeartbeats 4000000 in
theorem out5_main_v284 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_arg15 : V (Proc.devRef .tc main_arg15) = x15)
    (h_main_arg16 : V (Proc.devRef .tc main_arg16) = x16)
    (h_main_v36 : V (Proc.devRef .tc main_v36) = ReadP.val_main_v36 (F := F) x2)
    (h_main_v206 : V (Proc.devRef .tc main_v206) = ReadP.val_main_v206 (F := F) x0 x1 x2 x3 x4 x5 x6 x7 x8 x9 x10 x11 x12 x17 x18)
    (h_main_v210 : V (Proc.devRef .tc main_v210) = ReadP.val_main_v210 (F := F) x0 x1 x2 x3 x4 x5 x6 x7 x8 x9 x10 x11 x12 x19 x20)
    (h_main_v257 : V (Proc.devRef .tc main_v257) = ReadP.val_main_v257 (F := F) x0 x1 x2 x3 x4 x5 x6 x7 x8 x9 x10 x11 x12 x15 x16 x17 x18)
    (h_main_v259 : V (Proc.devRef .tc main_v259) = ReadP.val_main_v259 (F := F) x2)
    (h_main_v260 : V (Proc.devRef .tc main_v260) = ReadP.val_main_v260 (F := F)) :
    after ops5 V (Proc.devRef .tc main_v284) = ReadP.val_main_v284 (F := F) x0 x1 x2 x3 x4 x5 x6 x7 x8 x9 x10 x11 x12 x15 x16 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg15]
  try rw [h_main_arg16]
  try rw [h_main_v36]
  try rw [h_main_v206]
  try rw [h_main_v210]
  try rw [h_main_v257]
  try rw [h_main_v259]
  try rw [h_main_v260]
  clear h_main_arg15 h_main_arg16 h_main_v36 h_main_v206 h_main_v210 h_main_v257 h_main_v259 h_main_v260
  clear V
  rfl

set_option maxHeartbeats 4000000 in
theorem out5_main_v300 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x13 : (⟨S2x51x151, .f32⟩ : BufTy).Contents (Elt F)} {x14 : (⟨S2x151, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_arg13 : V (Proc.devRef .tc main_arg13) = x13)
    (h_main_arg14 : V (Proc.devRef .tc main_arg14) = x14)
    (h_main_arg15 : V (Proc.devRef .tc main_arg15) = x15)
    (h_main_arg16 : V (Proc.devRef .tc main_arg16) = x16)
    (h_main_v18 : V (Proc.devRef .tc main_v18) = ReadP.val_main_v18 (F := F) x2)
    (h_main_v36 : V (Proc.devRef .tc main_v36) = ReadP.val_main_v36 (F := F) x2)
    (h_main_v206 : V (Proc.devRef .tc main_v206) = ReadP.val_main_v206 (F := F) x0 x1 x2 x3 x4 x5 x6 x7 x8 x9 x10 x11 x12 x17 x18)
    (h_main_v210 : V (Proc.devRef .tc main_v210) = ReadP.val_main_v210 (F := F) x0 x1 x2 x3 x4 x5 x6 x7 x8 x9 x10 x11 x12 x19 x20)
    (h_main_v257 : V (Proc.devRef .tc main_v257) = ReadP.val_main_v257 (F := F) x0 x1 x2 x3 x4 x5 x6 x7 x8 x9 x10 x11 x12 x15 x16 x17 x18)
    (h_main_v259 : V (Proc.devRef .tc main_v259) = ReadP.val_main_v259 (F := F) x2)
    (h_main_v260 : V (Proc.devRef .tc main_v260) = ReadP.val_main_v260 (F := F)) :
    after ops5 V (Proc.devRef .tc main_v300) = ReadP.val_main_v300 (F := F) x0 x1 x2 x3 x4 x5 x6 x7 x8 x9 x10 x11 x12 x13 x14 x15 x16 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg13]
  try rw [h_main_arg14]
  try rw [h_main_arg15]
  try rw [h_main_arg16]
  try rw [h_main_v18]
  try rw [h_main_v36]
  try rw [h_main_v206]
  try rw [h_main_v210]
  try rw [h_main_v257]
  try rw [h_main_v259]
  try rw [h_main_v260]
  clear h_main_arg13 h_main_arg14 h_main_arg15 h_main_arg16 h_main_v18 h_main_v36 h_main_v206 h_main_v210 h_main_v257 h_main_v259 h_main_v260
  clear V
  rfl

set_option maxHeartbeats 4000000 in
theorem out5_main_v310 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x13 : (⟨S2x51x151, .f32⟩ : BufTy).Contents (Elt F)} {x14 : (⟨S2x151, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_arg13 : V (Proc.devRef .tc main_arg13) = x13)
    (h_main_arg14 : V (Proc.devRef .tc main_arg14) = x14)
    (h_main_arg15 : V (Proc.devRef .tc main_arg15) = x15)
    (h_main_arg16 : V (Proc.devRef .tc main_arg16) = x16)
    (h_main_v36 : V (Proc.devRef .tc main_v36) = ReadP.val_main_v36 (F := F) x2)
    (h_main_v206 : V (Proc.devRef .tc main_v206) = ReadP.val_main_v206 (F := F) x0 x1 x2 x3 x4 x5 x6 x7 x8 x9 x10 x11 x12 x17 x18)
    (h_main_v210 : V (Proc.devRef .tc main_v210) = ReadP.val_main_v210 (F := F) x0 x1 x2 x3 x4 x5 x6 x7 x8 x9 x10 x11 x12 x19 x20)
    (h_main_v257 : V (Proc.devRef .tc main_v257) = ReadP.val_main_v257 (F := F) x0 x1 x2 x3 x4 x5 x6 x7 x8 x9 x10 x11 x12 x15 x16 x17 x18)
    (h_main_v259 : V (Proc.devRef .tc main_v259) = ReadP.val_main_v259 (F := F) x2)
    (h_main_v260 : V (Proc.devRef .tc main_v260) = ReadP.val_main_v260 (F := F)) :
    after ops5 V (Proc.devRef .tc main_v310) = ReadP.val_main_v310 (F := F) x0 x1 x2 x3 x4 x5 x6 x7 x8 x9 x10 x11 x12 x13 x14 x15 x16 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg13]
  try rw [h_main_arg14]
  try rw [h_main_arg15]
  try rw [h_main_arg16]
  try rw [h_main_v36]
  try rw [h_main_v206]
  try rw [h_main_v210]
  try rw [h_main_v257]
  try rw [h_main_v259]
  try rw [h_main_v260]
  clear h_main_arg13 h_main_arg14 h_main_arg15 h_main_arg16 h_main_v36 h_main_v206 h_main_v210 h_main_v257 h_main_v259 h_main_v260
  clear V
  rfl

set_option maxHeartbeats 4000000 in
theorem out5_main_v312 {x2 : (⟨S32768x2, .i32⟩ : BufTy).Contents (Elt F)} (V : Valuation τ sig (Elt F))
    (h_main_v36 : V (Proc.devRef .tc main_v36) = ReadP.val_main_v36 (F := F) x2) :
    after ops5 V (Proc.devRef .tc main_v312) = ReadP.val_main_v312 (F := F) x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_v36]
  clear h_main_v36
  clear V
  rfl

set_option maxHeartbeats 4000000 in
theorem out5_main_v313  (V : Valuation τ sig (Elt F)) :
    after ops5 V (Proc.devRef .tc main_v313) = ReadP.val_main_v313 (F := F) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  clear V
  rfl

end Cert.RefRunH

end
-- ==== Proof.RefRunH.W6.lean ====
/-
  Window 6 of the reference's @main, as a list of operations: the window is the list run in order; every operation
  touches TensorCore buffers only and determines its results; a buffer the window does not write keeps its contents; and,
  from ANY contents V of the buffers at the window's start, each buffer the window writes that is read after it holds the
  value the stage definitions give, as soon as the buffers it is computed from held theirs (and the arguments their arrays).
-/
import proofs.«422120_j65652870087589_3_alg».proof.Proof.RefReadLite
import Idealize.ShloMosaic.Lib.StableHlo.Run

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- The window's 55 operations, in order. -/
abbrev ops6 : List (HloOp τ sig (Elt F)) :=
  [ binary main_v312 main_v313 main_v314 (addf : (⟨S2048x1, .f32⟩ : BufTy).Contents (Elt F) → (⟨S2048x1, .f32⟩ : BufTy).Contents (Elt F) → (⟨S2048x1, .f32⟩ : BufTy).Contents (Elt F)),
    unary main_v314 main_v315 (broadcastInDim S2048x151 ![0, 1] bcast_S2048x1_S2048x151_0_1 : (⟨S2048x1, .f32⟩ : BufTy).Contents (Elt F) → (⟨S2048x151, .f32⟩ : BufTy).Contents (Elt F)),
    binary main_v310 main_v315 main_v316 (Host.divf : (⟨S2048x151, .f32⟩ : BufTy).Contents (Elt F) → (⟨S2048x151, .f32⟩ : BufTy).Contents (Elt F) → (⟨S2048x151, .f32⟩ : BufTy).Contents (Elt F)),
    binary main_v300 main_v316 main_v317 (addf : (⟨S2048x151, .f32⟩ : BufTy).Contents (Elt F) → (⟨S2048x151, .f32⟩ : BufTy).Contents (Elt F) → (⟨S2048x151, .f32⟩ : BufTy).Contents (Elt F)),
    nullary main_cst_44 (constant S_ .f32 0x3F000000#32),
    unary main_cst_44 main_v318 (broadcastInDim S2048x151 ![] bcast_S_S2048x151 : (⟨S_, .f32⟩ : BufTy).Contents (Elt F) → (⟨S2048x151, .f32⟩ : BufTy).Contents (Elt F)),
    binary main_v318 main_v317 main_v319 (mulf : (⟨S2048x151, .f32⟩ : BufTy).Contents (Elt F) → (⟨S2048x151, .f32⟩ : BufTy).Contents (Elt F) → (⟨S2048x151, .f32⟩ : BufTy).Contents (Elt F)),
    binary main_v246 main_v319 main_v320 (addf : (⟨S2048x151, .f32⟩ : BufTy).Contents (Elt F) → (⟨S2048x151, .f32⟩ : BufTy).Contents (Elt F) → (⟨S2048x151, .f32⟩ : BufTy).Contents (Elt F)),
    unary main_v18 main_v321 ((transpose S32768x2048 [1, 0] · transposes_S2048x32768_S32768x2048_1_0) : (⟨S2048x32768, .f32⟩ : BufTy).Contents (Elt F) → (⟨S32768x2048, .f32⟩ : BufTy).Contents (Elt F)),
    unary main_arg15 main_v322 ((extractStridedSlice S1x151x51 ![0, 0, 0] · slices_S2x151x51_S1x151x51_0_0_0) : (⟨S2x151x51, .f32⟩ : BufTy).Contents (Elt F) → (⟨S1x151x51, .f32⟩ : BufTy).Contents (Elt F)),
    reshape main_v322 main_v323 rfl shapeCasts_S1x151x51_S151x51,
    unary main_arg16 main_v324 ((extractStridedSlice S1x51 ![0, 0] · slices_S2x51_S1x51_0_0) : (⟨S2x51, .f32⟩ : BufTy).Contents (Elt F) → (⟨S1x51, .f32⟩ : BufTy).Contents (Elt F)),
    reshape main_v324 main_v325 rfl shapeCasts_S1x51_S51,
    binary main_v246 main_v323 main_v326 ((fun l r => Host.dotGeneral dot_S2048x151_S151x51_S2048x51_1_0_0_1_n_n none l r) : (⟨S2048x151, .f32⟩ : BufTy).Contents (Elt F) → (⟨S151x51, .f32⟩ : BufTy).Contents (Elt F) → (⟨S2048x51, .f32⟩ : BufTy).Contents (Elt F)),
    unary main_v325 main_v327 (broadcastInDim S1x51 ![1] bcast_S51_S1x51_1 : (⟨S51, .f32⟩ : BufTy).Contents (Elt F) → (⟨S1x51, .f32⟩ : BufTy).Contents (Elt F)),
    unary main_v327 main_v328 (broadcastInDim S2048x51 ![0, 1] bcast_S1x51_S2048x51_0_1 : (⟨S1x51, .f32⟩ : BufTy).Contents (Elt F) → (⟨S2048x51, .f32⟩ : BufTy).Contents (Elt F)),
    binary main_v326 main_v328 main_v329 (addf : (⟨S2048x51, .f32⟩ : BufTy).Contents (Elt F) → (⟨S2048x51, .f32⟩ : BufTy).Contents (Elt F) → (⟨S2048x51, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S2048x51, .f32⟩) main_call16_v0) (broadcastInDim S2048x51 ![] bcast_S_S2048x51),
    TRef.binary (TRef.of (T := ⟨S2048x51, .f32⟩) main_v329) (TRef.of (T := ⟨S2048x51, .f32⟩) main_call16_v0) (TRef.of (T := ⟨S2048x51, .f32⟩) main_v330) maximumf,
    binary main_v321 main_v330 main_v331 ((fun l r => Host.dotGeneral dot_S32768x2048_S2048x51_S32768x51_1_0_0_1_n_n none l r) : (⟨S32768x2048, .f32⟩ : BufTy).Contents (Elt F) → (⟨S2048x51, .f32⟩ : BufTy).Contents (Elt F) → (⟨S32768x51, .f32⟩ : BufTy).Contents (Elt F)),
    nullary main_cst_45 (constant S_ .f32 0x00000000#32),
    binary main_v321 main_cst_45 main_v332 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v332 main_v333 (broadcastInDim S32768x1 ![0] bcast_S32768_S32768x1_0 : (⟨S32768, .f32⟩ : BufTy).Contents (Elt F) → (⟨S32768x1, .f32⟩ : BufTy).Contents (Elt F)),
    nullary main_cst_46 (constant S_ .f32 0x33D6BF95#32),
    unary main_cst_46 main_v334 (broadcastInDim S32768x1 ![] bcast_S_S32768x1 : (⟨S_, .f32⟩ : BufTy).Contents (Elt F) → (⟨S32768x1, .f32⟩ : BufTy).Contents (Elt F)),
    binary main_v333 main_v334 main_v335 (addf : (⟨S32768x1, .f32⟩ : BufTy).Contents (Elt F) → (⟨S32768x1, .f32⟩ : BufTy).Contents (Elt F) → (⟨S32768x1, .f32⟩ : BufTy).Contents (Elt F)),
    unary main_v335 main_v336 (broadcastInDim S32768x51 ![0, 1] bcast_S32768x1_S32768x51_0_1 : (⟨S32768x1, .f32⟩ : BufTy).Contents (Elt F) → (⟨S32768x51, .f32⟩ : BufTy).Contents (Elt F)),
    binary main_v331 main_v336 main_v337 (Host.divf : (⟨S32768x51, .f32⟩ : BufTy).Contents (Elt F) → (⟨S32768x51, .f32⟩ : BufTy).Contents (Elt F) → (⟨S32768x51, .f32⟩ : BufTy).Contents (Elt F)),
    unary main_v36 main_v338 ((transpose S32768x2048 [1, 0] · transposes_S2048x32768_S32768x2048_1_0) : (⟨S2048x32768, .f32⟩ : BufTy).Contents (Elt F) → (⟨S32768x2048, .f32⟩ : BufTy).Contents (Elt F)),
    unary main_arg15 main_v339 ((extractStridedSlice S1x151x51 ![1, 0, 0] · slices_S2x151x51_S1x151x51_1_0_0) : (⟨S2x151x51, .f32⟩ : BufTy).Contents (Elt F) → (⟨S1x151x51, .f32⟩ : BufTy).Contents (Elt F)),
    reshape main_v339 main_v340 rfl shapeCasts_S1x151x51_S151x51,
    unary main_arg16 main_v341 ((extractStridedSlice S1x51 ![1, 0] · slices_S2x51_S1x51_1_0) : (⟨S2x51, .f32⟩ : BufTy).Contents (Elt F) → (⟨S1x51, .f32⟩ : BufTy).Contents (Elt F)),
    reshape main_v341 main_v342 rfl shapeCasts_S1x51_S51,
    binary main_v246 main_v340 main_v343 ((fun l r => Host.dotGeneral dot_S2048x151_S151x51_S2048x51_1_0_0_1_n_n none l r) : (⟨S2048x151, .f32⟩ : BufTy).Contents (Elt F) → (⟨S151x51, .f32⟩ : BufTy).Contents (Elt F) → (⟨S2048x51, .f32⟩ : BufTy).Contents (Elt F)),
    unary main_v342 main_v344 (broadcastInDim S1x51 ![1] bcast_S51_S1x51_1 : (⟨S51, .f32⟩ : BufTy).Contents (Elt F) → (⟨S1x51, .f32⟩ : BufTy).Contents (Elt F)),
    unary main_v344 main_v345 (broadcastInDim S2048x51 ![0, 1] bcast_S1x51_S2048x51_0_1 : (⟨S1x51, .f32⟩ : BufTy).Contents (Elt F) → (⟨S2048x51, .f32⟩ : BufTy).Contents (Elt F)),
    binary main_v343 main_v345 main_v346 (addf : (⟨S2048x51, .f32⟩ : BufTy).Contents (Elt F) → (⟨S2048x51, .f32⟩ : BufTy).Contents (Elt F) → (⟨S2048x51, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S2048x51, .f32⟩) main_call17_v0) (broadcastInDim S2048x51 ![] bcast_S_S2048x51),
    TRef.binary (TRef.of (T := ⟨S2048x51, .f32⟩) main_v346) (TRef.of (T := ⟨S2048x51, .f32⟩) main_call17_v0) (TRef.of (T := ⟨S2048x51, .f32⟩) main_v347) maximumf,
    binary main_v338 main_v347 main_v348 ((fun l r => Host.dotGeneral dot_S32768x2048_S2048x51_S32768x51_1_0_0_1_n_n none l r) : (⟨S32768x2048, .f32⟩ : BufTy).Contents (Elt F) → (⟨S2048x51, .f32⟩ : BufTy).Contents (Elt F) → (⟨S32768x51, .f32⟩ : BufTy).Contents (Elt F)),
    nullary main_cst_47 (constant S_ .f32 0x00000000#32),
    binary main_v338 main_cst_47 main_v349 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    unary main_v349 main_v350 (broadcastInDim S32768x1 ![0] bcast_S32768_S32768x1_0 : (⟨S32768, .f32⟩ : BufTy).Contents (Elt F) → (⟨S32768x1, .f32⟩ : BufTy).Contents (Elt F)),
    nullary main_cst_48 (constant S_ .f32 0x33D6BF95#32),
    unary main_cst_48 main_v351 (broadcastInDim S32768x1 ![] bcast_S_S32768x1 : (⟨S_, .f32⟩ : BufTy).Contents (Elt F) → (⟨S32768x1, .f32⟩ : BufTy).Contents (Elt F)),
    binary main_v350 main_v351 main_v352 (addf : (⟨S32768x1, .f32⟩ : BufTy).Contents (Elt F) → (⟨S32768x1, .f32⟩ : BufTy).Contents (Elt F) → (⟨S32768x1, .f32⟩ : BufTy).Contents (Elt F)),
    unary main_v352 main_v353 (broadcastInDim S32768x51 ![0, 1] bcast_S32768x1_S32768x51_0_1 : (⟨S32768x1, .f32⟩ : BufTy).Contents (Elt F) → (⟨S32768x51, .f32⟩ : BufTy).Contents (Elt F)),
    binary main_v348 main_v353 main_v354 (Host.divf : (⟨S32768x51, .f32⟩ : BufTy).Contents (Elt F) → (⟨S32768x51, .f32⟩ : BufTy).Contents (Elt F) → (⟨S32768x51, .f32⟩ : BufTy).Contents (Elt F)),
    binary main_v337 main_v354 main_v355 (addf : (⟨S32768x51, .f32⟩ : BufTy).Contents (Elt F) → (⟨S32768x51, .f32⟩ : BufTy).Contents (Elt F) → (⟨S32768x51, .f32⟩ : BufTy).Contents (Elt F)),
    nullary main_cst_49 (constant S_ .f32 0x3F000000#32),
    unary main_cst_49 main_v356 (broadcastInDim S32768x51 ![] bcast_S_S32768x51 : (⟨S_, .f32⟩ : BufTy).Contents (Elt F) → (⟨S32768x51, .f32⟩ : BufTy).Contents (Elt F)),
    binary main_v356 main_v355 main_v357 (mulf : (⟨S32768x51, .f32⟩ : BufTy).Contents (Elt F) → (⟨S32768x51, .f32⟩ : BufTy).Contents (Elt F) → (⟨S32768x51, .f32⟩ : BufTy).Contents (Elt F)),
    binary main_v284 main_v357 main_v358 (addf : (⟨S32768x51, .f32⟩ : BufTy).Contents (Elt F) → (⟨S32768x51, .f32⟩ : BufTy).Contents (Elt F) → (⟨S32768x51, .f32⟩ : BufTy).Contents (Elt F)) ]

set_option maxHeartbeats 4000000 in
/-- The printed window is this list, run in order. -/
theorem main_part6_eq (c : Dev nD) : main_part6 (F := F) c = seq ops6 := rfl

/-- Every operation touches TensorCore buffers only. -/
theorem ops6_sub : (ops6 : List (HloOp τ sig (Elt F))).Forall fun op => op.bufs ⊆ tcRefs τ sig :=
  ⟨binary_bufs_sub .., unary_bufs_sub .., binary_bufs_sub .., binary_bufs_sub .., nullary_bufs_sub .., unary_bufs_sub .., binary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub ..⟩

/-- Every operation determines its results. -/
theorem ops6_fresh : ∀ op ∈ (ops6 : List (HloOp τ sig (Elt F))), op.fresh = ∅ :=
  List.forall_iff_forall_mem.1 (by simp only [List.Forall]; repeat' constructor)

/-- The buffers the window writes. -/
abbrev ops6_W : List (Ref sig .tc) :=
  [main_v314, main_v315, main_v316, main_v317, main_cst_44, main_v318, main_v319, main_v320, main_v321, main_v322, main_v323, main_v324, main_v325, main_v326, main_v327, main_v328, main_v329, main_call16_cst, main_call16_v0, main_v330, main_v331, main_cst_45, main_v332, main_v333, main_cst_46, main_v334, main_v335, main_v336, main_v337, main_v338, main_v339, main_v340, main_v341, main_v342, main_v343, main_v344, main_v345, main_v346, main_call17_cst, main_call17_v0, main_v347, main_v348, main_cst_47, main_v349, main_v350, main_cst_48, main_v351, main_v352, main_v353, main_v354, main_v355, main_cst_49, main_v356, main_v357, main_v358]

/-- An operation whose one written buffer is in a list writes inside that list. -/
private theorem w_sub {W : List (Ref sig .tc)} {op : HloOp τ sig (Elt F)} (y : Ref sig .tc) (e : op.writes = {Proc.devRef .tc y}) (h : y ∈ W) :
    op.writes ⊆ (W.map (Proc.devRef (τ := τ) .tc)).toFinset := by
  rw [e]; exact Finset.singleton_subset_iff.2 (List.mem_toFinset.2 (List.mem_map_of_mem h))

theorem ops6_writes : (ops6 : List (HloOp τ sig (Elt F))).Forall fun op => op.writes ⊆ (ops6_W.map (Proc.devRef (τ := τ) .tc)).toFinset :=
  ⟨w_sub main_v314 rfl (by decide), w_sub main_v315 rfl (by decide), w_sub main_v316 rfl (by decide), w_sub main_v317 rfl (by decide), w_sub main_cst_44 rfl (by decide), w_sub main_v318 rfl (by decide), w_sub main_v319 rfl (by decide), w_sub main_v320 rfl (by decide), w_sub main_v321 rfl (by decide), w_sub main_v322 rfl (by decide), w_sub main_v323 rfl (by decide), w_sub main_v324 rfl (by decide), w_sub main_v325 rfl (by decide), w_sub main_v326 rfl (by decide), w_sub main_v327 rfl (by decide), w_sub main_v328 rfl (by decide), w_sub main_v329 rfl (by decide), w_sub main_call16_cst rfl (by decide), w_sub main_call16_v0 rfl (by decide), w_sub main_v330 rfl (by decide), w_sub main_v331 rfl (by decide), w_sub main_cst_45 rfl (by decide), w_sub main_v332 rfl (by decide), w_sub main_v333 rfl (by decide), w_sub main_cst_46 rfl (by decide), w_sub main_v334 rfl (by decide), w_sub main_v335 rfl (by decide), w_sub main_v336 rfl (by decide), w_sub main_v337 rfl (by decide), w_sub main_v338 rfl (by decide), w_sub main_v339 rfl (by decide), w_sub main_v340 rfl (by decide), w_sub main_v341 rfl (by decide), w_sub main_v342 rfl (by decide), w_sub main_v343 rfl (by decide), w_sub main_v344 rfl (by decide), w_sub main_v345 rfl (by decide), w_sub main_v346 rfl (by decide), w_sub main_call17_cst rfl (by decide), w_sub main_call17_v0 rfl (by decide), w_sub main_v347 rfl (by decide), w_sub main_v348 rfl (by decide), w_sub main_cst_47 rfl (by decide), w_sub main_v349 rfl (by decide), w_sub main_v350 rfl (by decide), w_sub main_cst_48 rfl (by decide), w_sub main_v351 rfl (by decide), w_sub main_v352 rfl (by decide), w_sub main_v353 rfl (by decide), w_sub main_v354 rfl (by decide), w_sub main_v355 rfl (by decide), w_sub main_cst_49 rfl (by decide), w_sub main_v356 rfl (by decide), w_sub main_v357 rfl (by decide), w_sub main_v358 rfl (by decide)⟩

/-- A buffer the window does not write keeps its contents. -/
theorem keep6 (V : Valuation τ sig (Elt F)) (r : Ref sig .tc) (h : r ∉ ops6_W) :
    after ops6 V (Proc.devRef .tc r) = V (Proc.devRef .tc r) :=
  after_of_writes_sub ops6 V ops6_writes h

set_option maxHeartbeats 4000000 in
theorem out6_main_v320 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x13 : (⟨S2x51x151, .f32⟩ : BufTy).Contents (Elt F)} {x14 : (⟨S2x151, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_v246 : V (Proc.devRef .tc main_v246) = ReadP.val_main_v246 (F := F) x0 x1 x2 x3 x4 x5 x6 x7 x8 x9 x10 x11 x12 x13 x14 x17 x18 x19 x20)
    (h_main_v300 : V (Proc.devRef .tc main_v300) = ReadP.val_main_v300 (F := F) x0 x1 x2 x3 x4 x5 x6 x7 x8 x9 x10 x11 x12 x13 x14 x15 x16 x17 x18 x19 x20)
    (h_main_v310 : V (Proc.devRef .tc main_v310) = ReadP.val_main_v310 (F := F) x0 x1 x2 x3 x4 x5 x6 x7 x8 x9 x10 x11 x12 x13 x14 x15 x16 x17 x18 x19 x20)
    (h_main_v312 : V (Proc.devRef .tc main_v312) = ReadP.val_main_v312 (F := F) x2)
    (h_main_v313 : V (Proc.devRef .tc main_v313) = ReadP.val_main_v313 (F := F)) :
    after ops6 V (Proc.devRef .tc main_v320) = ReadP.val_main_v320 (F := F) x0 x1 x2 x3 x4 x5 x6 x7 x8 x9 x10 x11 x12 x13 x14 x15 x16 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_v246]
  try rw [h_main_v300]
  try rw [h_main_v310]
  try rw [h_main_v312]
  try rw [h_main_v313]
  clear h_main_v246 h_main_v300 h_main_v310 h_main_v312 h_main_v313
  clear V
  rfl

set_option maxHeartbeats 4000000 in
theorem out6_main_v358 {x0 : (⟨S2048x2048, .f32⟩ : BufTy).Contents (Elt F)} {x1 : (⟨S32768x2048, .f32⟩ : BufTy).Contents (Elt F)} {x2 : (⟨S32768x2, .i32⟩ : BufTy).Contents (Elt F)} {x3 : (⟨S2048x512, .f32⟩ : BufTy).Contents (Elt F)} {x4 : (⟨S512, .f32⟩ : BufTy).Contents (Elt F)} {x5 : (⟨S512x512, .f32⟩ : BufTy).Contents (Elt F)} {x6 : (⟨S512, .f32⟩ : BufTy).Contents (Elt F)} {x7 : (⟨S2048x512, .f32⟩ : BufTy).Contents (Elt F)} {x8 : (⟨S512, .f32⟩ : BufTy).Contents (Elt F)} {x9 : (⟨S512x512, .f32⟩ : BufTy).Contents (Elt F)} {x10 : (⟨S512, .f32⟩ : BufTy).Contents (Elt F)} {x11 : (⟨S4x512x512, .f32⟩ : BufTy).Contents (Elt F)} {x12 : (⟨S4x512, .f32⟩ : BufTy).Contents (Elt F)} {x13 : (⟨S2x51x151, .f32⟩ : BufTy).Contents (Elt F)} {x14 : (⟨S2x151, .f32⟩ : BufTy).Contents (Elt F)} {x15 : (⟨S2x151x51, .f32⟩ : BufTy).Contents (Elt F)} {x16 : (⟨S2x51, .f32⟩ : BufTy).Contents (Elt F)} {x17 : (⟨S512x151, .f32⟩ : BufTy).Contents (Elt F)} {x18 : (⟨S151, .f32⟩ : BufTy).Contents (Elt F)} {x19 : (⟨S512x51, .f32⟩ : BufTy).Contents (Elt F)} {x20 : (⟨S51, .f32⟩ : BufTy).Contents (Elt F)} (V : Valuation τ sig (Elt F))
    (h_main_arg15 : V (Proc.devRef .tc main_arg15) = x15)
    (h_main_arg16 : V (Proc.devRef .tc main_arg16) = x16)
    (h_main_v18 : V (Proc.devRef .tc main_v18) = ReadP.val_main_v18 (F := F) x2)
    (h_main_v36 : V (Proc.devRef .tc main_v36) = ReadP.val_main_v36 (F := F) x2)
    (h_main_v246 : V (Proc.devRef .tc main_v246) = ReadP.val_main_v246 (F := F) x0 x1 x2 x3 x4 x5 x6 x7 x8 x9 x10 x11 x12 x13 x14 x17 x18 x19 x20)
    (h_main_v284 : V (Proc.devRef .tc main_v284) = ReadP.val_main_v284 (F := F) x0 x1 x2 x3 x4 x5 x6 x7 x8 x9 x10 x11 x12 x15 x16 x17 x18 x19 x20) :
    after ops6 V (Proc.devRef .tc main_v358) = ReadP.val_main_v358 (F := F) x0 x1 x2 x3 x4 x5 x6 x7 x8 x9 x10 x11 x12 x13 x14 x15 x16 x17 x18 x19 x20 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  try rw [h_main_arg15]
  try rw [h_main_arg16]
  try rw [h_main_v18]
  try rw [h_main_v36]
  try rw [h_main_v246]
  try rw [h_main_v284]
  clear h_main_arg15 h_main_arg16 h_main_v18 h_main_v36 h_main_v246 h_main_v284
  clear V
  rfl

end Cert.RefRunH

end
-- ==== Proof.RefRunH.lean ====
/-
  The reference's run. @main is its seven windows in order, each a list of operations, so it is the seven lists joined, run in
  order; what the buffers hold after the joined list is what they hold after the last window run from what they held after
  the one before, and so on back to the launch contents. Window by window, each buffer still to be read holds its stage value
  of the arguments' launch contents: a buffer the window writes by the window's own lemma from the buffers before it, any other
  because the window does not write it. After the last window this is said of the three results and of the arguments.
-/
import proofs.«422120_j65652870087589_3_alg».proof.Proof.RefReadLite
import Idealize.ShloMosaic.Lib.StableHlo.Run
import proofs.«422120_j65652870087589_3_alg».proof.Proof.RefRunH.W0
import proofs.«422120_j65652870087589_3_alg».proof.Proof.RefRunH.W1
import proofs.«422120_j65652870087589_3_alg».proof.Proof.RefRunH.W2
import proofs.«422120_j65652870087589_3_alg».proof.Proof.RefRunH.W3
import proofs.«422120_j65652870087589_3_alg».proof.Proof.RefRunH.W4
import proofs.«422120_j65652870087589_3_alg».proof.Proof.RefRunH.W5
import proofs.«422120_j65652870087589_3_alg».proof.Proof.RefRunH.W6
import Idealize.ShloMosaic.Lib.Pipeline.Frame

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- @main's operations: the windows' lists joined. -/
abbrev ops : List (HloOp τ sig (Elt F)) :=
  ops0 ++ (ops1 ++ (ops2 ++ (ops3 ++ (ops4 ++ (ops5 ++ (ops6))))))

set_option maxHeartbeats 4000000 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.2 fun op h => ?_
  simp only [ops, List.mem_append] at h
  rcases h with h | h | h | h | h | h | h
  exacts [List.forall_iff_forall_mem.1 ops0_sub op h, List.forall_iff_forall_mem.1 ops1_sub op h, List.forall_iff_forall_mem.1 ops2_sub op h, List.forall_iff_forall_mem.1 ops3_sub op h, List.forall_iff_forall_mem.1 ops4_sub op h, List.forall_iff_forall_mem.1 ops5_sub op h, List.forall_iff_forall_mem.1 ops6_sub op h]

theorem ops_fresh : ∀ op ∈ (ops : List (HloOp τ sig (Elt F))), op.fresh = ∅ := by
  intro op h
  simp only [ops, List.mem_append] at h
  rcases h with h | h | h | h | h | h | h
  exacts [ops0_fresh op h, ops1_fresh op h, ops2_fresh op h, ops3_fresh op h, ops4_fresh op h, ops5_fresh op h, ops6_fresh op h]

variable (m : (ℓ : Loc nD τ sig) → Buf (Elt F) ℓ) (c : Dev nD)

/-- The device's buffers at launch, and after each window. -/
abbrev V0 : Valuation τ sig (Elt F) := launchContents m c
abbrev V1 : Valuation τ sig (Elt F) := after ops0 (V0 m c)
abbrev V2 : Valuation τ sig (Elt F) := after ops1 (V1 m c)
abbrev V3 : Valuation τ sig (Elt F) := after ops2 (V2 m c)
abbrev V4 : Valuation τ sig (Elt F) := after ops3 (V3 m c)
abbrev V5 : Valuation τ sig (Elt F) := after ops4 (V4 m c)
abbrev V6 : Valuation τ sig (Elt F) := after ops5 (V5 m c)
abbrev V7 : Valuation τ sig (Elt F) := after ops6 (V6 m c)

theorem after_ops : after ops (launchContents m c) = V7 m c := by
  simp only [ops, StableHlo.after_append]

/-! ## The arguments keep their launch contents -/

theorem a0_main_arg0 : V0 m c (Proc.devRef .tc main_arg0) = m ((c.tc : Thread nD τ).loc main_arg0) := rfl
theorem a1_main_arg0 : V1 m c (Proc.devRef .tc main_arg0) = m ((c.tc : Thread nD τ).loc main_arg0) :=
  (keep0 (V0 m c) main_arg0 (by decide)).trans (a0_main_arg0 m c)
theorem a2_main_arg0 : V2 m c (Proc.devRef .tc main_arg0) = m ((c.tc : Thread nD τ).loc main_arg0) :=
  (keep1 (V1 m c) main_arg0 (by decide)).trans (a1_main_arg0 m c)
theorem a3_main_arg0 : V3 m c (Proc.devRef .tc main_arg0) = m ((c.tc : Thread nD τ).loc main_arg0) :=
  (keep2 (V2 m c) main_arg0 (by decide)).trans (a2_main_arg0 m c)
theorem a4_main_arg0 : V4 m c (Proc.devRef .tc main_arg0) = m ((c.tc : Thread nD τ).loc main_arg0) :=
  (keep3 (V3 m c) main_arg0 (by decide)).trans (a3_main_arg0 m c)
theorem a5_main_arg0 : V5 m c (Proc.devRef .tc main_arg0) = m ((c.tc : Thread nD τ).loc main_arg0) :=
  (keep4 (V4 m c) main_arg0 (by decide)).trans (a4_main_arg0 m c)
theorem a6_main_arg0 : V6 m c (Proc.devRef .tc main_arg0) = m ((c.tc : Thread nD τ).loc main_arg0) :=
  (keep5 (V5 m c) main_arg0 (by decide)).trans (a5_main_arg0 m c)
theorem a7_main_arg0 : V7 m c (Proc.devRef .tc main_arg0) = m ((c.tc : Thread nD τ).loc main_arg0) :=
  (keep6 (V6 m c) main_arg0 (by decide)).trans (a6_main_arg0 m c)

theorem a0_main_arg1 : V0 m c (Proc.devRef .tc main_arg1) = m ((c.tc : Thread nD τ).loc main_arg1) := rfl
theorem a1_main_arg1 : V1 m c (Proc.devRef .tc main_arg1) = m ((c.tc : Thread nD τ).loc main_arg1) :=
  (keep0 (V0 m c) main_arg1 (by decide)).trans (a0_main_arg1 m c)
theorem a2_main_arg1 : V2 m c (Proc.devRef .tc main_arg1) = m ((c.tc : Thread nD τ).loc main_arg1) :=
  (keep1 (V1 m c) main_arg1 (by decide)).trans (a1_main_arg1 m c)
theorem a3_main_arg1 : V3 m c (Proc.devRef .tc main_arg1) = m ((c.tc : Thread nD τ).loc main_arg1) :=
  (keep2 (V2 m c) main_arg1 (by decide)).trans (a2_main_arg1 m c)
theorem a4_main_arg1 : V4 m c (Proc.devRef .tc main_arg1) = m ((c.tc : Thread nD τ).loc main_arg1) :=
  (keep3 (V3 m c) main_arg1 (by decide)).trans (a3_main_arg1 m c)
theorem a5_main_arg1 : V5 m c (Proc.devRef .tc main_arg1) = m ((c.tc : Thread nD τ).loc main_arg1) :=
  (keep4 (V4 m c) main_arg1 (by decide)).trans (a4_main_arg1 m c)
theorem a6_main_arg1 : V6 m c (Proc.devRef .tc main_arg1) = m ((c.tc : Thread nD τ).loc main_arg1) :=
  (keep5 (V5 m c) main_arg1 (by decide)).trans (a5_main_arg1 m c)
theorem a7_main_arg1 : V7 m c (Proc.devRef .tc main_arg1) = m ((c.tc : Thread nD τ).loc main_arg1) :=
  (keep6 (V6 m c) main_arg1 (by decide)).trans (a6_main_arg1 m c)

theorem a0_main_arg2 : V0 m c (Proc.devRef .tc main_arg2) = m ((c.tc : Thread nD τ).loc main_arg2) := rfl
theorem a1_main_arg2 : V1 m c (Proc.devRef .tc main_arg2) = m ((c.tc : Thread nD τ).loc main_arg2) :=
  (keep0 (V0 m c) main_arg2 (by decide)).trans (a0_main_arg2 m c)
theorem a2_main_arg2 : V2 m c (Proc.devRef .tc main_arg2) = m ((c.tc : Thread nD τ).loc main_arg2) :=
  (keep1 (V1 m c) main_arg2 (by decide)).trans (a1_main_arg2 m c)
theorem a3_main_arg2 : V3 m c (Proc.devRef .tc main_arg2) = m ((c.tc : Thread nD τ).loc main_arg2) :=
  (keep2 (V2 m c) main_arg2 (by decide)).trans (a2_main_arg2 m c)
theorem a4_main_arg2 : V4 m c (Proc.devRef .tc main_arg2) = m ((c.tc : Thread nD τ).loc main_arg2) :=
  (keep3 (V3 m c) main_arg2 (by decide)).trans (a3_main_arg2 m c)
theorem a5_main_arg2 : V5 m c (Proc.devRef .tc main_arg2) = m ((c.tc : Thread nD τ).loc main_arg2) :=
  (keep4 (V4 m c) main_arg2 (by decide)).trans (a4_main_arg2 m c)
theorem a6_main_arg2 : V6 m c (Proc.devRef .tc main_arg2) = m ((c.tc : Thread nD τ).loc main_arg2) :=
  (keep5 (V5 m c) main_arg2 (by decide)).trans (a5_main_arg2 m c)
theorem a7_main_arg2 : V7 m c (Proc.devRef .tc main_arg2) = m ((c.tc : Thread nD τ).loc main_arg2) :=
  (keep6 (V6 m c) main_arg2 (by decide)).trans (a6_main_arg2 m c)

theorem a0_main_arg3 : V0 m c (Proc.devRef .tc main_arg3) = m ((c.tc : Thread nD τ).loc main_arg3) := rfl
theorem a1_main_arg3 : V1 m c (Proc.devRef .tc main_arg3) = m ((c.tc : Thread nD τ).loc main_arg3) :=
  (keep0 (V0 m c) main_arg3 (by decide)).trans (a0_main_arg3 m c)
theorem a2_main_arg3 : V2 m c (Proc.devRef .tc main_arg3) = m ((c.tc : Thread nD τ).loc main_arg3) :=
  (keep1 (V1 m c) main_arg3 (by decide)).trans (a1_main_arg3 m c)
theorem a3_main_arg3 : V3 m c (Proc.devRef .tc main_arg3) = m ((c.tc : Thread nD τ).loc main_arg3) :=
  (keep2 (V2 m c) main_arg3 (by decide)).trans (a2_main_arg3 m c)
theorem a4_main_arg3 : V4 m c (Proc.devRef .tc main_arg3) = m ((c.tc : Thread nD τ).loc main_arg3) :=
  (keep3 (V3 m c) main_arg3 (by decide)).trans (a3_main_arg3 m c)
theorem a5_main_arg3 : V5 m c (Proc.devRef .tc main_arg3) = m ((c.tc : Thread nD τ).loc main_arg3) :=
  (keep4 (V4 m c) main_arg3 (by decide)).trans (a4_main_arg3 m c)
theorem a6_main_arg3 : V6 m c (Proc.devRef .tc main_arg3) = m ((c.tc : Thread nD τ).loc main_arg3) :=
  (keep5 (V5 m c) main_arg3 (by decide)).trans (a5_main_arg3 m c)
theorem a7_main_arg3 : V7 m c (Proc.devRef .tc main_arg3) = m ((c.tc : Thread nD τ).loc main_arg3) :=
  (keep6 (V6 m c) main_arg3 (by decide)).trans (a6_main_arg3 m c)

theorem a0_main_arg4 : V0 m c (Proc.devRef .tc main_arg4) = m ((c.tc : Thread nD τ).loc main_arg4) := rfl
theorem a1_main_arg4 : V1 m c (Proc.devRef .tc main_arg4) = m ((c.tc : Thread nD τ).loc main_arg4) :=
  (keep0 (V0 m c) main_arg4 (by decide)).trans (a0_main_arg4 m c)
theorem a2_main_arg4 : V2 m c (Proc.devRef .tc main_arg4) = m ((c.tc : Thread nD τ).loc main_arg4) :=
  (keep1 (V1 m c) main_arg4 (by decide)).trans (a1_main_arg4 m c)
theorem a3_main_arg4 : V3 m c (Proc.devRef .tc main_arg4) = m ((c.tc : Thread nD τ).loc main_arg4) :=
  (keep2 (V2 m c) main_arg4 (by decide)).trans (a2_main_arg4 m c)
theorem a4_main_arg4 : V4 m c (Proc.devRef .tc main_arg4) = m ((c.tc : Thread nD τ).loc main_arg4) :=
  (keep3 (V3 m c) main_arg4 (by decide)).trans (a3_main_arg4 m c)
theorem a5_main_arg4 : V5 m c (Proc.devRef .tc main_arg4) = m ((c.tc : Thread nD τ).loc main_arg4) :=
  (keep4 (V4 m c) main_arg4 (by decide)).trans (a4_main_arg4 m c)
theorem a6_main_arg4 : V6 m c (Proc.devRef .tc main_arg4) = m ((c.tc : Thread nD τ).loc main_arg4) :=
  (keep5 (V5 m c) main_arg4 (by decide)).trans (a5_main_arg4 m c)
theorem a7_main_arg4 : V7 m c (Proc.devRef .tc main_arg4) = m ((c.tc : Thread nD τ).loc main_arg4) :=
  (keep6 (V6 m c) main_arg4 (by decide)).trans (a6_main_arg4 m c)

theorem a0_main_arg5 : V0 m c (Proc.devRef .tc main_arg5) = m ((c.tc : Thread nD τ).loc main_arg5) := rfl
theorem a1_main_arg5 : V1 m c (Proc.devRef .tc main_arg5) = m ((c.tc : Thread nD τ).loc main_arg5) :=
  (keep0 (V0 m c) main_arg5 (by decide)).trans (a0_main_arg5 m c)
theorem a2_main_arg5 : V2 m c (Proc.devRef .tc main_arg5) = m ((c.tc : Thread nD τ).loc main_arg5) :=
  (keep1 (V1 m c) main_arg5 (by decide)).trans (a1_main_arg5 m c)
theorem a3_main_arg5 : V3 m c (Proc.devRef .tc main_arg5) = m ((c.tc : Thread nD τ).loc main_arg5) :=
  (keep2 (V2 m c) main_arg5 (by decide)).trans (a2_main_arg5 m c)
theorem a4_main_arg5 : V4 m c (Proc.devRef .tc main_arg5) = m ((c.tc : Thread nD τ).loc main_arg5) :=
  (keep3 (V3 m c) main_arg5 (by decide)).trans (a3_main_arg5 m c)
theorem a5_main_arg5 : V5 m c (Proc.devRef .tc main_arg5) = m ((c.tc : Thread nD τ).loc main_arg5) :=
  (keep4 (V4 m c) main_arg5 (by decide)).trans (a4_main_arg5 m c)
theorem a6_main_arg5 : V6 m c (Proc.devRef .tc main_arg5) = m ((c.tc : Thread nD τ).loc main_arg5) :=
  (keep5 (V5 m c) main_arg5 (by decide)).trans (a5_main_arg5 m c)
theorem a7_main_arg5 : V7 m c (Proc.devRef .tc main_arg5) = m ((c.tc : Thread nD τ).loc main_arg5) :=
  (keep6 (V6 m c) main_arg5 (by decide)).trans (a6_main_arg5 m c)

theorem a0_main_arg6 : V0 m c (Proc.devRef .tc main_arg6) = m ((c.tc : Thread nD τ).loc main_arg6) := rfl
theorem a1_main_arg6 : V1 m c (Proc.devRef .tc main_arg6) = m ((c.tc : Thread nD τ).loc main_arg6) :=
  (keep0 (V0 m c) main_arg6 (by decide)).trans (a0_main_arg6 m c)
theorem a2_main_arg6 : V2 m c (Proc.devRef .tc main_arg6) = m ((c.tc : Thread nD τ).loc main_arg6) :=
  (keep1 (V1 m c) main_arg6 (by decide)).trans (a1_main_arg6 m c)
theorem a3_main_arg6 : V3 m c (Proc.devRef .tc main_arg6) = m ((c.tc : Thread nD τ).loc main_arg6) :=
  (keep2 (V2 m c) main_arg6 (by decide)).trans (a2_main_arg6 m c)
theorem a4_main_arg6 : V4 m c (Proc.devRef .tc main_arg6) = m ((c.tc : Thread nD τ).loc main_arg6) :=
  (keep3 (V3 m c) main_arg6 (by decide)).trans (a3_main_arg6 m c)
theorem a5_main_arg6 : V5 m c (Proc.devRef .tc main_arg6) = m ((c.tc : Thread nD τ).loc main_arg6) :=
  (keep4 (V4 m c) main_arg6 (by decide)).trans (a4_main_arg6 m c)
theorem a6_main_arg6 : V6 m c (Proc.devRef .tc main_arg6) = m ((c.tc : Thread nD τ).loc main_arg6) :=
  (keep5 (V5 m c) main_arg6 (by decide)).trans (a5_main_arg6 m c)
theorem a7_main_arg6 : V7 m c (Proc.devRef .tc main_arg6) = m ((c.tc : Thread nD τ).loc main_arg6) :=
  (keep6 (V6 m c) main_arg6 (by decide)).trans (a6_main_arg6 m c)

theorem a0_main_arg7 : V0 m c (Proc.devRef .tc main_arg7) = m ((c.tc : Thread nD τ).loc main_arg7) := rfl
theorem a1_main_arg7 : V1 m c (Proc.devRef .tc main_arg7) = m ((c.tc : Thread nD τ).loc main_arg7) :=
  (keep0 (V0 m c) main_arg7 (by decide)).trans (a0_main_arg7 m c)
theorem a2_main_arg7 : V2 m c (Proc.devRef .tc main_arg7) = m ((c.tc : Thread nD τ).loc main_arg7) :=
  (keep1 (V1 m c) main_arg7 (by decide)).trans (a1_main_arg7 m c)
theorem a3_main_arg7 : V3 m c (Proc.devRef .tc main_arg7) = m ((c.tc : Thread nD τ).loc main_arg7) :=
  (keep2 (V2 m c) main_arg7 (by decide)).trans (a2_main_arg7 m c)
theorem a4_main_arg7 : V4 m c (Proc.devRef .tc main_arg7) = m ((c.tc : Thread nD τ).loc main_arg7) :=
  (keep3 (V3 m c) main_arg7 (by decide)).trans (a3_main_arg7 m c)
theorem a5_main_arg7 : V5 m c (Proc.devRef .tc main_arg7) = m ((c.tc : Thread nD τ).loc main_arg7) :=
  (keep4 (V4 m c) main_arg7 (by decide)).trans (a4_main_arg7 m c)
theorem a6_main_arg7 : V6 m c (Proc.devRef .tc main_arg7) = m ((c.tc : Thread nD τ).loc main_arg7) :=
  (keep5 (V5 m c) main_arg7 (by decide)).trans (a5_main_arg7 m c)
theorem a7_main_arg7 : V7 m c (Proc.devRef .tc main_arg7) = m ((c.tc : Thread nD τ).loc main_arg7) :=
  (keep6 (V6 m c) main_arg7 (by decide)).trans (a6_main_arg7 m c)

theorem a0_main_arg8 : V0 m c (Proc.devRef .tc main_arg8) = m ((c.tc : Thread nD τ).loc main_arg8) := rfl
theorem a1_main_arg8 : V1 m c (Proc.devRef .tc main_arg8) = m ((c.tc : Thread nD τ).loc main_arg8) :=
  (keep0 (V0 m c) main_arg8 (by decide)).trans (a0_main_arg8 m c)
theorem a2_main_arg8 : V2 m c (Proc.devRef .tc main_arg8) = m ((c.tc : Thread nD τ).loc main_arg8) :=
  (keep1 (V1 m c) main_arg8 (by decide)).trans (a1_main_arg8 m c)
theorem a3_main_arg8 : V3 m c (Proc.devRef .tc main_arg8) = m ((c.tc : Thread nD τ).loc main_arg8) :=
  (keep2 (V2 m c) main_arg8 (by decide)).trans (a2_main_arg8 m c)
theorem a4_main_arg8 : V4 m c (Proc.devRef .tc main_arg8) = m ((c.tc : Thread nD τ).loc main_arg8) :=
  (keep3 (V3 m c) main_arg8 (by decide)).trans (a3_main_arg8 m c)
theorem a5_main_arg8 : V5 m c (Proc.devRef .tc main_arg8) = m ((c.tc : Thread nD τ).loc main_arg8) :=
  (keep4 (V4 m c) main_arg8 (by decide)).trans (a4_main_arg8 m c)
theorem a6_main_arg8 : V6 m c (Proc.devRef .tc main_arg8) = m ((c.tc : Thread nD τ).loc main_arg8) :=
  (keep5 (V5 m c) main_arg8 (by decide)).trans (a5_main_arg8 m c)
theorem a7_main_arg8 : V7 m c (Proc.devRef .tc main_arg8) = m ((c.tc : Thread nD τ).loc main_arg8) :=
  (keep6 (V6 m c) main_arg8 (by decide)).trans (a6_main_arg8 m c)

theorem a0_main_arg9 : V0 m c (Proc.devRef .tc main_arg9) = m ((c.tc : Thread nD τ).loc main_arg9) := rfl
theorem a1_main_arg9 : V1 m c (Proc.devRef .tc main_arg9) = m ((c.tc : Thread nD τ).loc main_arg9) :=
  (keep0 (V0 m c) main_arg9 (by decide)).trans (a0_main_arg9 m c)
theorem a2_main_arg9 : V2 m c (Proc.devRef .tc main_arg9) = m ((c.tc : Thread nD τ).loc main_arg9) :=
  (keep1 (V1 m c) main_arg9 (by decide)).trans (a1_main_arg9 m c)
theorem a3_main_arg9 : V3 m c (Proc.devRef .tc main_arg9) = m ((c.tc : Thread nD τ).loc main_arg9) :=
  (keep2 (V2 m c) main_arg9 (by decide)).trans (a2_main_arg9 m c)
theorem a4_main_arg9 : V4 m c (Proc.devRef .tc main_arg9) = m ((c.tc : Thread nD τ).loc main_arg9) :=
  (keep3 (V3 m c) main_arg9 (by decide)).trans (a3_main_arg9 m c)
theorem a5_main_arg9 : V5 m c (Proc.devRef .tc main_arg9) = m ((c.tc : Thread nD τ).loc main_arg9) :=
  (keep4 (V4 m c) main_arg9 (by decide)).trans (a4_main_arg9 m c)
theorem a6_main_arg9 : V6 m c (Proc.devRef .tc main_arg9) = m ((c.tc : Thread nD τ).loc main_arg9) :=
  (keep5 (V5 m c) main_arg9 (by decide)).trans (a5_main_arg9 m c)
theorem a7_main_arg9 : V7 m c (Proc.devRef .tc main_arg9) = m ((c.tc : Thread nD τ).loc main_arg9) :=
  (keep6 (V6 m c) main_arg9 (by decide)).trans (a6_main_arg9 m c)

theorem a0_main_arg10 : V0 m c (Proc.devRef .tc main_arg10) = m ((c.tc : Thread nD τ).loc main_arg10) := rfl
theorem a1_main_arg10 : V1 m c (Proc.devRef .tc main_arg10) = m ((c.tc : Thread nD τ).loc main_arg10) :=
  (keep0 (V0 m c) main_arg10 (by decide)).trans (a0_main_arg10 m c)
theorem a2_main_arg10 : V2 m c (Proc.devRef .tc main_arg10) = m ((c.tc : Thread nD τ).loc main_arg10) :=
  (keep1 (V1 m c) main_arg10 (by decide)).trans (a1_main_arg10 m c)
theorem a3_main_arg10 : V3 m c (Proc.devRef .tc main_arg10) = m ((c.tc : Thread nD τ).loc main_arg10) :=
  (keep2 (V2 m c) main_arg10 (by decide)).trans (a2_main_arg10 m c)
theorem a4_main_arg10 : V4 m c (Proc.devRef .tc main_arg10) = m ((c.tc : Thread nD τ).loc main_arg10) :=
  (keep3 (V3 m c) main_arg10 (by decide)).trans (a3_main_arg10 m c)
theorem a5_main_arg10 : V5 m c (Proc.devRef .tc main_arg10) = m ((c.tc : Thread nD τ).loc main_arg10) :=
  (keep4 (V4 m c) main_arg10 (by decide)).trans (a4_main_arg10 m c)
theorem a6_main_arg10 : V6 m c (Proc.devRef .tc main_arg10) = m ((c.tc : Thread nD τ).loc main_arg10) :=
  (keep5 (V5 m c) main_arg10 (by decide)).trans (a5_main_arg10 m c)
theorem a7_main_arg10 : V7 m c (Proc.devRef .tc main_arg10) = m ((c.tc : Thread nD τ).loc main_arg10) :=
  (keep6 (V6 m c) main_arg10 (by decide)).trans (a6_main_arg10 m c)

theorem a0_main_arg11 : V0 m c (Proc.devRef .tc main_arg11) = m ((c.tc : Thread nD τ).loc main_arg11) := rfl
theorem a1_main_arg11 : V1 m c (Proc.devRef .tc main_arg11) = m ((c.tc : Thread nD τ).loc main_arg11) :=
  (keep0 (V0 m c) main_arg11 (by decide)).trans (a0_main_arg11 m c)
theorem a2_main_arg11 : V2 m c (Proc.devRef .tc main_arg11) = m ((c.tc : Thread nD τ).loc main_arg11) :=
  (keep1 (V1 m c) main_arg11 (by decide)).trans (a1_main_arg11 m c)
theorem a3_main_arg11 : V3 m c (Proc.devRef .tc main_arg11) = m ((c.tc : Thread nD τ).loc main_arg11) :=
  (keep2 (V2 m c) main_arg11 (by decide)).trans (a2_main_arg11 m c)
theorem a4_main_arg11 : V4 m c (Proc.devRef .tc main_arg11) = m ((c.tc : Thread nD τ).loc main_arg11) :=
  (keep3 (V3 m c) main_arg11 (by decide)).trans (a3_main_arg11 m c)
theorem a5_main_arg11 : V5 m c (Proc.devRef .tc main_arg11) = m ((c.tc : Thread nD τ).loc main_arg11) :=
  (keep4 (V4 m c) main_arg11 (by decide)).trans (a4_main_arg11 m c)
theorem a6_main_arg11 : V6 m c (Proc.devRef .tc main_arg11) = m ((c.tc : Thread nD τ).loc main_arg11) :=
  (keep5 (V5 m c) main_arg11 (by decide)).trans (a5_main_arg11 m c)
theorem a7_main_arg11 : V7 m c (Proc.devRef .tc main_arg11) = m ((c.tc : Thread nD τ).loc main_arg11) :=
  (keep6 (V6 m c) main_arg11 (by decide)).trans (a6_main_arg11 m c)

theorem a0_main_arg12 : V0 m c (Proc.devRef .tc main_arg12) = m ((c.tc : Thread nD τ).loc main_arg12) := rfl
theorem a1_main_arg12 : V1 m c (Proc.devRef .tc main_arg12) = m ((c.tc : Thread nD τ).loc main_arg12) :=
  (keep0 (V0 m c) main_arg12 (by decide)).trans (a0_main_arg12 m c)
theorem a2_main_arg12 : V2 m c (Proc.devRef .tc main_arg12) = m ((c.tc : Thread nD τ).loc main_arg12) :=
  (keep1 (V1 m c) main_arg12 (by decide)).trans (a1_main_arg12 m c)
theorem a3_main_arg12 : V3 m c (Proc.devRef .tc main_arg12) = m ((c.tc : Thread nD τ).loc main_arg12) :=
  (keep2 (V2 m c) main_arg12 (by decide)).trans (a2_main_arg12 m c)
theorem a4_main_arg12 : V4 m c (Proc.devRef .tc main_arg12) = m ((c.tc : Thread nD τ).loc main_arg12) :=
  (keep3 (V3 m c) main_arg12 (by decide)).trans (a3_main_arg12 m c)
theorem a5_main_arg12 : V5 m c (Proc.devRef .tc main_arg12) = m ((c.tc : Thread nD τ).loc main_arg12) :=
  (keep4 (V4 m c) main_arg12 (by decide)).trans (a4_main_arg12 m c)
theorem a6_main_arg12 : V6 m c (Proc.devRef .tc main_arg12) = m ((c.tc : Thread nD τ).loc main_arg12) :=
  (keep5 (V5 m c) main_arg12 (by decide)).trans (a5_main_arg12 m c)
theorem a7_main_arg12 : V7 m c (Proc.devRef .tc main_arg12) = m ((c.tc : Thread nD τ).loc main_arg12) :=
  (keep6 (V6 m c) main_arg12 (by decide)).trans (a6_main_arg12 m c)

theorem a0_main_arg13 : V0 m c (Proc.devRef .tc main_arg13) = m ((c.tc : Thread nD τ).loc main_arg13) := rfl
theorem a1_main_arg13 : V1 m c (Proc.devRef .tc main_arg13) = m ((c.tc : Thread nD τ).loc main_arg13) :=
  (keep0 (V0 m c) main_arg13 (by decide)).trans (a0_main_arg13 m c)
theorem a2_main_arg13 : V2 m c (Proc.devRef .tc main_arg13) = m ((c.tc : Thread nD τ).loc main_arg13) :=
  (keep1 (V1 m c) main_arg13 (by decide)).trans (a1_main_arg13 m c)
theorem a3_main_arg13 : V3 m c (Proc.devRef .tc main_arg13) = m ((c.tc : Thread nD τ).loc main_arg13) :=
  (keep2 (V2 m c) main_arg13 (by decide)).trans (a2_main_arg13 m c)
theorem a4_main_arg13 : V4 m c (Proc.devRef .tc main_arg13) = m ((c.tc : Thread nD τ).loc main_arg13) :=
  (keep3 (V3 m c) main_arg13 (by decide)).trans (a3_main_arg13 m c)
theorem a5_main_arg13 : V5 m c (Proc.devRef .tc main_arg13) = m ((c.tc : Thread nD τ).loc main_arg13) :=
  (keep4 (V4 m c) main_arg13 (by decide)).trans (a4_main_arg13 m c)
theorem a6_main_arg13 : V6 m c (Proc.devRef .tc main_arg13) = m ((c.tc : Thread nD τ).loc main_arg13) :=
  (keep5 (V5 m c) main_arg13 (by decide)).trans (a5_main_arg13 m c)
theorem a7_main_arg13 : V7 m c (Proc.devRef .tc main_arg13) = m ((c.tc : Thread nD τ).loc main_arg13) :=
  (keep6 (V6 m c) main_arg13 (by decide)).trans (a6_main_arg13 m c)

theorem a0_main_arg14 : V0 m c (Proc.devRef .tc main_arg14) = m ((c.tc : Thread nD τ).loc main_arg14) := rfl
theorem a1_main_arg14 : V1 m c (Proc.devRef .tc main_arg14) = m ((c.tc : Thread nD τ).loc main_arg14) :=
  (keep0 (V0 m c) main_arg14 (by decide)).trans (a0_main_arg14 m c)
theorem a2_main_arg14 : V2 m c (Proc.devRef .tc main_arg14) = m ((c.tc : Thread nD τ).loc main_arg14) :=
  (keep1 (V1 m c) main_arg14 (by decide)).trans (a1_main_arg14 m c)
theorem a3_main_arg14 : V3 m c (Proc.devRef .tc main_arg14) = m ((c.tc : Thread nD τ).loc main_arg14) :=
  (keep2 (V2 m c) main_arg14 (by decide)).trans (a2_main_arg14 m c)
theorem a4_main_arg14 : V4 m c (Proc.devRef .tc main_arg14) = m ((c.tc : Thread nD τ).loc main_arg14) :=
  (keep3 (V3 m c) main_arg14 (by decide)).trans (a3_main_arg14 m c)
theorem a5_main_arg14 : V5 m c (Proc.devRef .tc main_arg14) = m ((c.tc : Thread nD τ).loc main_arg14) :=
  (keep4 (V4 m c) main_arg14 (by decide)).trans (a4_main_arg14 m c)
theorem a6_main_arg14 : V6 m c (Proc.devRef .tc main_arg14) = m ((c.tc : Thread nD τ).loc main_arg14) :=
  (keep5 (V5 m c) main_arg14 (by decide)).trans (a5_main_arg14 m c)
theorem a7_main_arg14 : V7 m c (Proc.devRef .tc main_arg14) = m ((c.tc : Thread nD τ).loc main_arg14) :=
  (keep6 (V6 m c) main_arg14 (by decide)).trans (a6_main_arg14 m c)

theorem a0_main_arg15 : V0 m c (Proc.devRef .tc main_arg15) = m ((c.tc : Thread nD τ).loc main_arg15) := rfl
theorem a1_main_arg15 : V1 m c (Proc.devRef .tc main_arg15) = m ((c.tc : Thread nD τ).loc main_arg15) :=
  (keep0 (V0 m c) main_arg15 (by decide)).trans (a0_main_arg15 m c)
theorem a2_main_arg15 : V2 m c (Proc.devRef .tc main_arg15) = m ((c.tc : Thread nD τ).loc main_arg15) :=
  (keep1 (V1 m c) main_arg15 (by decide)).trans (a1_main_arg15 m c)
theorem a3_main_arg15 : V3 m c (Proc.devRef .tc main_arg15) = m ((c.tc : Thread nD τ).loc main_arg15) :=
  (keep2 (V2 m c) main_arg15 (by decide)).trans (a2_main_arg15 m c)
theorem a4_main_arg15 : V4 m c (Proc.devRef .tc main_arg15) = m ((c.tc : Thread nD τ).loc main_arg15) :=
  (keep3 (V3 m c) main_arg15 (by decide)).trans (a3_main_arg15 m c)
theorem a5_main_arg15 : V5 m c (Proc.devRef .tc main_arg15) = m ((c.tc : Thread nD τ).loc main_arg15) :=
  (keep4 (V4 m c) main_arg15 (by decide)).trans (a4_main_arg15 m c)
theorem a6_main_arg15 : V6 m c (Proc.devRef .tc main_arg15) = m ((c.tc : Thread nD τ).loc main_arg15) :=
  (keep5 (V5 m c) main_arg15 (by decide)).trans (a5_main_arg15 m c)
theorem a7_main_arg15 : V7 m c (Proc.devRef .tc main_arg15) = m ((c.tc : Thread nD τ).loc main_arg15) :=
  (keep6 (V6 m c) main_arg15 (by decide)).trans (a6_main_arg15 m c)

theorem a0_main_arg16 : V0 m c (Proc.devRef .tc main_arg16) = m ((c.tc : Thread nD τ).loc main_arg16) := rfl
theorem a1_main_arg16 : V1 m c (Proc.devRef .tc main_arg16) = m ((c.tc : Thread nD τ).loc main_arg16) :=
  (keep0 (V0 m c) main_arg16 (by decide)).trans (a0_main_arg16 m c)
theorem a2_main_arg16 : V2 m c (Proc.devRef .tc main_arg16) = m ((c.tc : Thread nD τ).loc main_arg16) :=
  (keep1 (V1 m c) main_arg16 (by decide)).trans (a1_main_arg16 m c)
theorem a3_main_arg16 : V3 m c (Proc.devRef .tc main_arg16) = m ((c.tc : Thread nD τ).loc main_arg16) :=
  (keep2 (V2 m c) main_arg16 (by decide)).trans (a2_main_arg16 m c)
theorem a4_main_arg16 : V4 m c (Proc.devRef .tc main_arg16) = m ((c.tc : Thread nD τ).loc main_arg16) :=
  (keep3 (V3 m c) main_arg16 (by decide)).trans (a3_main_arg16 m c)
theorem a5_main_arg16 : V5 m c (Proc.devRef .tc main_arg16) = m ((c.tc : Thread nD τ).loc main_arg16) :=
  (keep4 (V4 m c) main_arg16 (by decide)).trans (a4_main_arg16 m c)
theorem a6_main_arg16 : V6 m c (Proc.devRef .tc main_arg16) = m ((c.tc : Thread nD τ).loc main_arg16) :=
  (keep5 (V5 m c) main_arg16 (by decide)).trans (a5_main_arg16 m c)
theorem a7_main_arg16 : V7 m c (Proc.devRef .tc main_arg16) = m ((c.tc : Thread nD τ).loc main_arg16) :=
  (keep6 (V6 m c) main_arg16 (by decide)).trans (a6_main_arg16 m c)

theorem a0_main_arg17 : V0 m c (Proc.devRef .tc main_arg17) = m ((c.tc : Thread nD τ).loc main_arg17) := rfl
theorem a1_main_arg17 : V1 m c (Proc.devRef .tc main_arg17) = m ((c.tc : Thread nD τ).loc main_arg17) :=
  (keep0 (V0 m c) main_arg17 (by decide)).trans (a0_main_arg17 m c)
theorem a2_main_arg17 : V2 m c (Proc.devRef .tc main_arg17) = m ((c.tc : Thread nD τ).loc main_arg17) :=
  (keep1 (V1 m c) main_arg17 (by decide)).trans (a1_main_arg17 m c)
theorem a3_main_arg17 : V3 m c (Proc.devRef .tc main_arg17) = m ((c.tc : Thread nD τ).loc main_arg17) :=
  (keep2 (V2 m c) main_arg17 (by decide)).trans (a2_main_arg17 m c)
theorem a4_main_arg17 : V4 m c (Proc.devRef .tc main_arg17) = m ((c.tc : Thread nD τ).loc main_arg17) :=
  (keep3 (V3 m c) main_arg17 (by decide)).trans (a3_main_arg17 m c)
theorem a5_main_arg17 : V5 m c (Proc.devRef .tc main_arg17) = m ((c.tc : Thread nD τ).loc main_arg17) :=
  (keep4 (V4 m c) main_arg17 (by decide)).trans (a4_main_arg17 m c)
theorem a6_main_arg17 : V6 m c (Proc.devRef .tc main_arg17) = m ((c.tc : Thread nD τ).loc main_arg17) :=
  (keep5 (V5 m c) main_arg17 (by decide)).trans (a5_main_arg17 m c)
theorem a7_main_arg17 : V7 m c (Proc.devRef .tc main_arg17) = m ((c.tc : Thread nD τ).loc main_arg17) :=
  (keep6 (V6 m c) main_arg17 (by decide)).trans (a6_main_arg17 m c)

theorem a0_main_arg18 : V0 m c (Proc.devRef .tc main_arg18) = m ((c.tc : Thread nD τ).loc main_arg18) := rfl
theorem a1_main_arg18 : V1 m c (Proc.devRef .tc main_arg18) = m ((c.tc : Thread nD τ).loc main_arg18) :=
  (keep0 (V0 m c) main_arg18 (by decide)).trans (a0_main_arg18 m c)
theorem a2_main_arg18 : V2 m c (Proc.devRef .tc main_arg18) = m ((c.tc : Thread nD τ).loc main_arg18) :=
  (keep1 (V1 m c) main_arg18 (by decide)).trans (a1_main_arg18 m c)
theorem a3_main_arg18 : V3 m c (Proc.devRef .tc main_arg18) = m ((c.tc : Thread nD τ).loc main_arg18) :=
  (keep2 (V2 m c) main_arg18 (by decide)).trans (a2_main_arg18 m c)
theorem a4_main_arg18 : V4 m c (Proc.devRef .tc main_arg18) = m ((c.tc : Thread nD τ).loc main_arg18) :=
  (keep3 (V3 m c) main_arg18 (by decide)).trans (a3_main_arg18 m c)
theorem a5_main_arg18 : V5 m c (Proc.devRef .tc main_arg18) = m ((c.tc : Thread nD τ).loc main_arg18) :=
  (keep4 (V4 m c) main_arg18 (by decide)).trans (a4_main_arg18 m c)
theorem a6_main_arg18 : V6 m c (Proc.devRef .tc main_arg18) = m ((c.tc : Thread nD τ).loc main_arg18) :=
  (keep5 (V5 m c) main_arg18 (by decide)).trans (a5_main_arg18 m c)
theorem a7_main_arg18 : V7 m c (Proc.devRef .tc main_arg18) = m ((c.tc : Thread nD τ).loc main_arg18) :=
  (keep6 (V6 m c) main_arg18 (by decide)).trans (a6_main_arg18 m c)

theorem a0_main_arg19 : V0 m c (Proc.devRef .tc main_arg19) = m ((c.tc : Thread nD τ).loc main_arg19) := rfl
theorem a1_main_arg19 : V1 m c (Proc.devRef .tc main_arg19) = m ((c.tc : Thread nD τ).loc main_arg19) :=
  (keep0 (V0 m c) main_arg19 (by decide)).trans (a0_main_arg19 m c)
theorem a2_main_arg19 : V2 m c (Proc.devRef .tc main_arg19) = m ((c.tc : Thread nD τ).loc main_arg19) :=
  (keep1 (V1 m c) main_arg19 (by decide)).trans (a1_main_arg19 m c)
theorem a3_main_arg19 : V3 m c (Proc.devRef .tc main_arg19) = m ((c.tc : Thread nD τ).loc main_arg19) :=
  (keep2 (V2 m c) main_arg19 (by decide)).trans (a2_main_arg19 m c)
theorem a4_main_arg19 : V4 m c (Proc.devRef .tc main_arg19) = m ((c.tc : Thread nD τ).loc main_arg19) :=
  (keep3 (V3 m c) main_arg19 (by decide)).trans (a3_main_arg19 m c)
theorem a5_main_arg19 : V5 m c (Proc.devRef .tc main_arg19) = m ((c.tc : Thread nD τ).loc main_arg19) :=
  (keep4 (V4 m c) main_arg19 (by decide)).trans (a4_main_arg19 m c)
theorem a6_main_arg19 : V6 m c (Proc.devRef .tc main_arg19) = m ((c.tc : Thread nD τ).loc main_arg19) :=
  (keep5 (V5 m c) main_arg19 (by decide)).trans (a5_main_arg19 m c)
theorem a7_main_arg19 : V7 m c (Proc.devRef .tc main_arg19) = m ((c.tc : Thread nD τ).loc main_arg19) :=
  (keep6 (V6 m c) main_arg19 (by decide)).trans (a6_main_arg19 m c)

theorem a0_main_arg20 : V0 m c (Proc.devRef .tc main_arg20) = m ((c.tc : Thread nD τ).loc main_arg20) := rfl
theorem a1_main_arg20 : V1 m c (Proc.devRef .tc main_arg20) = m ((c.tc : Thread nD τ).loc main_arg20) :=
  (keep0 (V0 m c) main_arg20 (by decide)).trans (a0_main_arg20 m c)
theorem a2_main_arg20 : V2 m c (Proc.devRef .tc main_arg20) = m ((c.tc : Thread nD τ).loc main_arg20) :=
  (keep1 (V1 m c) main_arg20 (by decide)).trans (a1_main_arg20 m c)
theorem a3_main_arg20 : V3 m c (Proc.devRef .tc main_arg20) = m ((c.tc : Thread nD τ).loc main_arg20) :=
  (keep2 (V2 m c) main_arg20 (by decide)).trans (a2_main_arg20 m c)
theorem a4_main_arg20 : V4 m c (Proc.devRef .tc main_arg20) = m ((c.tc : Thread nD τ).loc main_arg20) :=
  (keep3 (V3 m c) main_arg20 (by decide)).trans (a3_main_arg20 m c)
theorem a5_main_arg20 : V5 m c (Proc.devRef .tc main_arg20) = m ((c.tc : Thread nD τ).loc main_arg20) :=
  (keep4 (V4 m c) main_arg20 (by decide)).trans (a4_main_arg20 m c)
theorem a6_main_arg20 : V6 m c (Proc.devRef .tc main_arg20) = m ((c.tc : Thread nD τ).loc main_arg20) :=
  (keep5 (V5 m c) main_arg20 (by decide)).trans (a5_main_arg20 m c)
theorem a7_main_arg20 : V7 m c (Proc.devRef .tc main_arg20) = m ((c.tc : Thread nD τ).loc main_arg20) :=
  (keep6 (V6 m c) main_arg20 (by decide)).trans (a6_main_arg20 m c)

/-! ## Window by window, every buffer still to be read holds its stage value -/

theorem a1_main_v18 : V1 m c (Proc.devRef .tc main_v18) = ReadP.val_main_v18 (F := F) (m ((c.tc : Thread nD τ).loc main_arg2)) :=
  out0_main_v18 (V0 m c) (a0_main_arg2 m c)

theorem a1_main_v36 : V1 m c (Proc.devRef .tc main_v36) = ReadP.val_main_v36 (F := F) (m ((c.tc : Thread nD τ).loc main_arg2)) :=
  out0_main_v36 (V0 m c) (a0_main_arg2 m c)

theorem a1_main_v45 : V1 m c (Proc.devRef .tc main_v45) = ReadP.val_main_v45 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  out0_main_v45 (V0 m c) (a0_main_arg0 m c) (a0_main_arg3 m c) (a0_main_arg4 m c) (a0_main_arg5 m c) (a0_main_arg6 m c)

theorem a1_main_v46 : V1 m c (Proc.devRef .tc main_v46) = ReadP.val_main_v46 (F := F) (m ((c.tc : Thread nD τ).loc main_arg1)) (m ((c.tc : Thread nD τ).loc main_arg7)) :=
  out0_main_v46 (V0 m c) (a0_main_arg1 m c) (a0_main_arg7 m c)

theorem a1_main_v47 : V1 m c (Proc.devRef .tc main_v47) = ReadP.val_main_v47 (F := F) (m ((c.tc : Thread nD τ).loc main_arg8)) :=
  out0_main_v47 (V0 m c) (a0_main_arg8 m c)

theorem a2_main_v18 : V2 m c (Proc.devRef .tc main_v18) = ReadP.val_main_v18 (F := F) (m ((c.tc : Thread nD τ).loc main_arg2)) :=
  (keep1 (V1 m c) main_v18 (by decide)).trans (a1_main_v18 m c)

theorem a2_main_v36 : V2 m c (Proc.devRef .tc main_v36) = ReadP.val_main_v36 (F := F) (m ((c.tc : Thread nD τ).loc main_arg2)) :=
  (keep1 (V1 m c) main_v36 (by decide)).trans (a1_main_v36 m c)

theorem a2_main_v45 : V2 m c (Proc.devRef .tc main_v45) = ReadP.val_main_v45 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (keep1 (V1 m c) main_v45 (by decide)).trans (a1_main_v45 m c)

theorem a2_main_v54 : V2 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  out1_main_v54 (V1 m c) (a1_main_arg9 m c) (a1_main_arg10 m c) (a1_main_v46 m c) (a1_main_v47 m c)

theorem a2_main_v90 : V2 m c (Proc.devRef .tc main_v90) = ReadP.val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  out1_main_v90 (V1 m c) (a1_main_arg9 m c) (a1_main_arg10 m c) (a1_main_arg11 m c) (a1_main_arg12 m c) (a1_main_v18 m c) (a1_main_v36 m c) (a1_main_v45 m c) (a1_main_v46 m c) (a1_main_v47 m c)

theorem a2_main_v91 : V2 m c (Proc.devRef .tc main_v91) = ReadP.val_main_v91 (F := F) (m ((c.tc : Thread nD τ).loc main_arg2)) :=
  out1_main_v91 (V1 m c) (a1_main_v18 m c)

theorem a2_main_v101 : V2 m c (Proc.devRef .tc main_v101) = ReadP.val_main_v101 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) :=
  out1_main_v101 (V1 m c) (a1_main_arg11 m c) (a1_main_arg12 m c) (a1_main_v18 m c) (a1_main_v45 m c)

theorem a2_main_cst_15 : V2 m c (Proc.devRef .tc main_cst_15) = ReadP.val_main_cst_15 (F := F) :=
  out1_main_cst_15 (V1 m c)

theorem a3_main_v18 : V3 m c (Proc.devRef .tc main_v18) = ReadP.val_main_v18 (F := F) (m ((c.tc : Thread nD τ).loc main_arg2)) :=
  (keep2 (V2 m c) main_v18 (by decide)).trans (a2_main_v18 m c)

theorem a3_main_v36 : V3 m c (Proc.devRef .tc main_v36) = ReadP.val_main_v36 (F := F) (m ((c.tc : Thread nD τ).loc main_arg2)) :=
  (keep2 (V2 m c) main_v36 (by decide)).trans (a2_main_v36 m c)

theorem a3_main_v54 : V3 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (keep2 (V2 m c) main_v54 (by decide)).trans (a2_main_v54 m c)

theorem a3_main_v90 : V3 m c (Proc.devRef .tc main_v90) = ReadP.val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (keep2 (V2 m c) main_v90 (by decide)).trans (a2_main_v90 m c)

theorem a3_main_v128 : V3 m c (Proc.devRef .tc main_v128) = ReadP.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  out2_main_v128 (V2 m c) (a2_main_arg11 m c) (a2_main_arg12 m c) (a2_main_v36 m c) (a2_main_v45 m c) (a2_main_v54 m c) (a2_main_v91 m c) (a2_main_v101 m c) (a2_main_cst_15 m c)

theorem a3_main_v144 : V3 m c (Proc.devRef .tc main_v144) = ReadP.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  out2_main_v144 (V2 m c) (a2_main_arg11 m c) (a2_main_arg12 m c) (a2_main_v18 m c) (a2_main_v36 m c) (a2_main_v45 m c) (a2_main_v54 m c) (a2_main_v91 m c) (a2_main_v101 m c) (a2_main_cst_15 m c)

theorem a3_main_v154 : V3 m c (Proc.devRef .tc main_v154) = ReadP.val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  out2_main_v154 (V2 m c) (a2_main_arg11 m c) (a2_main_arg12 m c) (a2_main_v36 m c) (a2_main_v45 m c) (a2_main_v54 m c) (a2_main_v91 m c) (a2_main_v101 m c) (a2_main_cst_15 m c)

theorem a3_main_cst_22 : V3 m c (Proc.devRef .tc main_cst_22) = ReadP.val_main_cst_22 (F := F) :=
  out2_main_cst_22 (V2 m c)

theorem a4_main_v18 : V4 m c (Proc.devRef .tc main_v18) = ReadP.val_main_v18 (F := F) (m ((c.tc : Thread nD τ).loc main_arg2)) :=
  (keep3 (V3 m c) main_v18 (by decide)).trans (a3_main_v18 m c)

theorem a4_main_v36 : V4 m c (Proc.devRef .tc main_v36) = ReadP.val_main_v36 (F := F) (m ((c.tc : Thread nD τ).loc main_arg2)) :=
  (keep3 (V3 m c) main_v36 (by decide)).trans (a3_main_v36 m c)

theorem a4_main_v54 : V4 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (keep3 (V3 m c) main_v54 (by decide)).trans (a3_main_v54 m c)

theorem a4_main_v206 : V4 m c (Proc.devRef .tc main_v206) = ReadP.val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) :=
  out3_main_v206 (V3 m c) (a3_main_arg17 m c) (a3_main_arg18 m c) (a3_main_v36 m c) (a3_main_v90 m c) (a3_main_v144 m c) (a3_main_v154 m c) (a3_main_cst_22 m c)

theorem a4_main_v207 : V4 m c (Proc.devRef .tc main_v207) = ReadP.val_main_v207 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg19)) :=
  out3_main_v207 (V3 m c) (a3_main_arg11 m c) (a3_main_arg12 m c) (a3_main_arg19 m c) (a3_main_v18 m c) (a3_main_v36 m c) (a3_main_v90 m c) (a3_main_v128 m c)

theorem a5_main_v18 : V5 m c (Proc.devRef .tc main_v18) = ReadP.val_main_v18 (F := F) (m ((c.tc : Thread nD τ).loc main_arg2)) :=
  (keep4 (V4 m c) main_v18 (by decide)).trans (a4_main_v18 m c)

theorem a5_main_v36 : V5 m c (Proc.devRef .tc main_v36) = ReadP.val_main_v36 (F := F) (m ((c.tc : Thread nD τ).loc main_arg2)) :=
  (keep4 (V4 m c) main_v36 (by decide)).trans (a4_main_v36 m c)

theorem a5_main_v54 : V5 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (keep4 (V4 m c) main_v54 (by decide)).trans (a4_main_v54 m c)

theorem a5_main_v206 : V5 m c (Proc.devRef .tc main_v206) = ReadP.val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) :=
  (keep4 (V4 m c) main_v206 (by decide)).trans (a4_main_v206 m c)

theorem a5_main_v210 : V5 m c (Proc.devRef .tc main_v210) = ReadP.val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg19)) (m ((c.tc : Thread nD τ).loc main_arg20)) :=
  out4_main_v210 (V4 m c) (a4_main_arg20 m c) (a4_main_v207 m c)

theorem a5_main_v246 : V5 m c (Proc.devRef .tc main_v246) = ReadP.val_main_v246 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  out4_main_v246 (V4 m c) (a4_main_arg13 m c) (a4_main_arg14 m c) (a4_main_arg20 m c) (a4_main_v18 m c) (a4_main_v36 m c) (a4_main_v206 m c) (a4_main_v207 m c)

theorem a5_main_v257 : V5 m c (Proc.devRef .tc main_v257) = ReadP.val_main_v257 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) :=
  out4_main_v257 (V4 m c) (a4_main_arg15 m c) (a4_main_arg16 m c) (a4_main_v18 m c) (a4_main_v206 m c)

theorem a5_main_v259 : V5 m c (Proc.devRef .tc main_v259) = ReadP.val_main_v259 (F := F) (m ((c.tc : Thread nD τ).loc main_arg2)) :=
  out4_main_v259 (V4 m c) (a4_main_v18 m c)

theorem a5_main_v260 : V5 m c (Proc.devRef .tc main_v260) = ReadP.val_main_v260 (F := F) :=
  out4_main_v260 (V4 m c)

theorem a6_main_v18 : V6 m c (Proc.devRef .tc main_v18) = ReadP.val_main_v18 (F := F) (m ((c.tc : Thread nD τ).loc main_arg2)) :=
  (keep5 (V5 m c) main_v18 (by decide)).trans (a5_main_v18 m c)

theorem a6_main_v36 : V6 m c (Proc.devRef .tc main_v36) = ReadP.val_main_v36 (F := F) (m ((c.tc : Thread nD τ).loc main_arg2)) :=
  (keep5 (V5 m c) main_v36 (by decide)).trans (a5_main_v36 m c)

theorem a6_main_v54 : V6 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (keep5 (V5 m c) main_v54 (by decide)).trans (a5_main_v54 m c)

theorem a6_main_v246 : V6 m c (Proc.devRef .tc main_v246) = ReadP.val_main_v246 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (keep5 (V5 m c) main_v246 (by decide)).trans (a5_main_v246 m c)

theorem a6_main_v284 : V6 m c (Proc.devRef .tc main_v284) = ReadP.val_main_v284 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  out5_main_v284 (V5 m c) (a5_main_arg15 m c) (a5_main_arg16 m c) (a5_main_v36 m c) (a5_main_v206 m c) (a5_main_v210 m c) (a5_main_v257 m c) (a5_main_v259 m c) (a5_main_v260 m c)

theorem a6_main_v300 : V6 m c (Proc.devRef .tc main_v300) = ReadP.val_main_v300 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  out5_main_v300 (V5 m c) (a5_main_arg13 m c) (a5_main_arg14 m c) (a5_main_arg15 m c) (a5_main_arg16 m c) (a5_main_v18 m c) (a5_main_v36 m c) (a5_main_v206 m c) (a5_main_v210 m c) (a5_main_v257 m c) (a5_main_v259 m c) (a5_main_v260 m c)

theorem a6_main_v310 : V6 m c (Proc.devRef .tc main_v310) = ReadP.val_main_v310 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  out5_main_v310 (V5 m c) (a5_main_arg13 m c) (a5_main_arg14 m c) (a5_main_arg15 m c) (a5_main_arg16 m c) (a5_main_v36 m c) (a5_main_v206 m c) (a5_main_v210 m c) (a5_main_v257 m c) (a5_main_v259 m c) (a5_main_v260 m c)

theorem a6_main_v312 : V6 m c (Proc.devRef .tc main_v312) = ReadP.val_main_v312 (F := F) (m ((c.tc : Thread nD τ).loc main_arg2)) :=
  out5_main_v312 (V5 m c) (a5_main_v36 m c)

theorem a6_main_v313 : V6 m c (Proc.devRef .tc main_v313) = ReadP.val_main_v313 (F := F) :=
  out5_main_v313 (V5 m c)

theorem a7_main_v54 : V7 m c (Proc.devRef .tc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (keep6 (V6 m c) main_v54 (by decide)).trans (a6_main_v54 m c)

theorem a7_main_v320 : V7 m c (Proc.devRef .tc main_v320) = ReadP.val_main_v320 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  out6_main_v320 (V6 m c) (a6_main_v246 m c) (a6_main_v300 m c) (a6_main_v310 m c) (a6_main_v312 m c) (a6_main_v313 m c)

theorem a7_main_v358 : V7 m c (Proc.devRef .tc main_v358) = ReadP.val_main_v358 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  out6_main_v358 (V6 m c) (a6_main_arg15 m c) (a6_main_arg16 m c) (a6_main_v18 m c) (a6_main_v36 m c) (a6_main_v246 m c) (a6_main_v284 m c)

/-- On every device, for any float values, from any memory with zero counters: every weakly fair execution of @main
    terminates with each result at its stage value of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = ReadP.val_main_v54 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v320) = ReadP.val_main_v320 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v358) = ReadP.val_main_v358 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v54).trans ((congrFun (after_ops m c) _).trans (a7_main_v54 m c)),
      (h c main_v320).trans ((congrFun (after_ops m c) _).trans (a7_main_v320 m c)),
      (h c main_v358).trans ((congrFun (after_ops m c) _).trans (a7_main_v358 m c)),
      (h c main_arg0).trans ((congrFun (after_ops m c) _).trans (a7_main_arg0 m c)),
      (h c main_arg1).trans ((congrFun (after_ops m c) _).trans (a7_main_arg1 m c)),
      (h c main_arg2).trans ((congrFun (after_ops m c) _).trans (a7_main_arg2 m c)),
      (h c main_arg3).trans ((congrFun (after_ops m c) _).trans (a7_main_arg3 m c)),
      (h c main_arg4).trans ((congrFun (after_ops m c) _).trans (a7_main_arg4 m c)),
      (h c main_arg5).trans ((congrFun (after_ops m c) _).trans (a7_main_arg5 m c)),
      (h c main_arg6).trans ((congrFun (after_ops m c) _).trans (a7_main_arg6 m c)),
      (h c main_arg7).trans ((congrFun (after_ops m c) _).trans (a7_main_arg7 m c)),
      (h c main_arg8).trans ((congrFun (after_ops m c) _).trans (a7_main_arg8 m c)),
      (h c main_arg9).trans ((congrFun (after_ops m c) _).trans (a7_main_arg9 m c)),
      (h c main_arg10).trans ((congrFun (after_ops m c) _).trans (a7_main_arg10 m c)),
      (h c main_arg11).trans ((congrFun (after_ops m c) _).trans (a7_main_arg11 m c)),
      (h c main_arg12).trans ((congrFun (after_ops m c) _).trans (a7_main_arg12 m c)),
      (h c main_arg13).trans ((congrFun (after_ops m c) _).trans (a7_main_arg13 m c)),
      (h c main_arg14).trans ((congrFun (after_ops m c) _).trans (a7_main_arg14 m c)),
      (h c main_arg15).trans ((congrFun (after_ops m c) _).trans (a7_main_arg15 m c)),
      (h c main_arg16).trans ((congrFun (after_ops m c) _).trans (a7_main_arg16 m c)),
      (h c main_arg17).trans ((congrFun (after_ops m c) _).trans (a7_main_arg17 m c)),
      (h c main_arg18).trans ((congrFun (after_ops m c) _).trans (a7_main_arg18 m c)),
      (h c main_arg19).trans ((congrFun (after_ops m c) _).trans (a7_main_arg19 m c)),
      (h c main_arg20).trans ((congrFun (after_ops m c) _).trans (a7_main_arg20 m c))⟩)
    (run_seq scopedRefs_eq scopedSems_eq defs main (fun _ => ops) main_eq (fun _ => ops_sub) m ρ (fun _ => ops_fresh))

end Cert.RefRunH

end
-- ==== Proof.LibScatter.lean ====
/-
  A `stablehlo.scatter` whose body returns the update (a "set"), read at one index of the result.

  The scatter is the left fold, over the update positions in row-major order, of the step "replace the element at the
  position's landing index by the update" (a position that lands outside the operand is dropped). Read at an index `i`:
  if no update position lands at `i` the operand's element is still there; if some position lands at `i` and every
  update is the same value `c`, the element is `c`, whichever position wrote last. The landing index of a position is
  characterised coordinate by coordinate: start plus window coordinate on every axis.
-/
import Idealize.ShloMosaic.PureOps.ShapeOps
import Idealize.ShloMosaic.Lib.ValueIdx

namespace Cert.LibScatter

open Idealize.ShloMosaic Idealize.ShloMosaic.ValueIdx

variable {α : Type} {s si u : Shape} {w : Nat}

/-- An update position `j` lands at the operand index `i` exactly when, on every axis, its start plus its window
    coordinate is `i`'s coordinate (as integers: a start is read signed off the scatter indices). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi : (fun a => (⟨(d.start j idx a + d.window j a).toNat, by have := h a; omega⟩ : Fin (s.size a))) = i :=
        Option.some.inj he
      have ha : ((i a).val : Int) = ((d.start j idx a + d.window j a).toNat : Int) := by rw [← hi]
      have := h a
      omega
    · intro he
      refine congrArg some (funext fun a => Fin.ext ?_)
      have := he a
      have := h a
      show (d.start j idx a + d.window j a).toNat = (i a).val
      omega
  · rename_i h
    constructor
    · intro he
      exact absurd he (by simp)
    · intro he
      exact absurd (fun a => by have := he a; have := (i a).isLt; omega) h

/-- The step of the fold for a "set": the update at position `n` replaces the element where it lands. -/
abbrev setStep (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

/-- A step whose position does not land at `i` leaves the element at `i` alone. -/
theorem setStep_of_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  generalize d.resultIdx? (u.rowMajor.symm n) idx = o at h
  cases o with
  | none => rfl
  | some i0 =>
    have hne : i ≠ i0 := fun hh => h (by rw [hh])
    exact if_neg hne

/-- A step whose position lands at `i` leaves its update there. -/
theorem setStep_of_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  generalize d.resultIdx? (u.rowMajor.symm n) idx = o at h
  cases o with
  | none => exact absurd h (by simp)
  | some i0 =>
    have hi : i0 = i := Option.some.inj h
    subst hi
    exact if_pos rfl

/-- Folding the steps of positions none of which lands at `i` leaves the element at `i` alone. -/
theorem foldl_setStep_of_not_hit (d : ScatterDims s si u) (idx : IVec si w) (upd : u.Idx → α) (i : s.Idx)
    (l : List (Fin u.numel)) (h : ∀ n ∈ l, d.resultIdx? (u.rowMajor.symm n) idx ≠ some i) (x : s.Idx → α) :
    l.foldl (setStep d idx upd) x i = x i := by
  induction l generalizing x with
  | nil => rfl
  | cons n l ih =>
    rw [List.foldl_cons, ih (fun m hm => h m (List.mem_cons_of_mem _ hm)),
      setStep_of_ne d idx upd x n i (h n List.mem_cons_self)]

/-- Folding the steps of positions one of which lands at `i`, every update being `c`, leaves `c` at `i`. -/
theorem foldl_setStep_of_hit (d : ScatterDims s si u) (idx : IVec si w) (upd : u.Idx → α) (c : α) (hc : ∀ j, upd j = c)
    (i : s.Idx) (l : List (Fin u.numel)) (h : ∃ n ∈ l, d.resultIdx? (u.rowMajor.symm n) idx = some i) (x : s.Idx → α) :
    l.foldl (setStep d idx upd) x i = c := by
  induction l generalizing x with
  | nil => obtain ⟨n, hn, _⟩ := h; exact absurd hn List.not_mem_nil
  | cons n l ih =>
    rw [List.foldl_cons]
    by_cases hl : ∃ m ∈ l, d.resultIdx? (u.rowMajor.symm m) idx = some i
    · exact ih hl _
    · have hl' : ∀ m ∈ l, d.resultIdx? (u.rowMajor.symm m) idx ≠ some i := fun m hm he => hl ⟨m, hm, he⟩
      rw [foldl_setStep_of_not_hit d idx upd i l hl']
      obtain ⟨m, hm, he⟩ := h
      rcases List.mem_cons.mp hm with rfl | hm'
      · rw [setStep_of_eq d idx upd x m i he, hc]
      · exact absurd he (hl' m hm')

/-- THE SET-SCATTER READ WHERE NO UPDATE LANDS: the operand's element. -/
theorem scatter_set_of_not_hit (d : ScatterDims s si u) (x : s.Idx → α) (idx : IVec si w) (upd : u.Idx → α) (i : s.Idx)
    (h : ∀ j, d.resultIdx? j idx ≠ some i) :
    Host.scatter d (fun _ b => b) x idx upd i = x i :=
  foldl_setStep_of_not_hit d idx upd i _ (fun n _ => h _) x

/-- THE SET-SCATTER OF ONE REPEATED VALUE READ WHERE AN UPDATE LANDS: that value. -/
theorem scatter_set_const_of_hit (d : ScatterDims s si u) (x : s.Idx → α) (idx : IVec si w) (upd : u.Idx → α) (c : α)
    (hc : ∀ j, upd j = c) (i : s.Idx) (h : ∃ j, d.resultIdx? j idx = some i) :
    Host.scatter d (fun _ b => b) x idx upd i = c := by
  obtain ⟨j, hj⟩ := h
  exact foldl_setStep_of_hit d idx upd c hc i _
    ⟨u.rowMajor j, List.mem_finRange _, by rw [Equiv.symm_apply_apply]; exact hj⟩ x

/-! ## Scalar updates written at (row, column) pairs of a matrix

What `x.at[rows, cols].set(v)` of a matrix `x : [n0, n1]` at two index lists of length `m` lowers to: scatter indices
`[m, 2]` (the index vector along axis 1, its two components the operand's two axes in order), updates `[m]`, both
operand axes inserted window axes, no update window axis. Update position `q` lands at the pair
`(idx[q, 0], idx[q, 1])`, read signed, when that is inside the matrix. -/

/-- Those dimension numbers; their conditions `wf` are decided on a program's literal shapes. -/
abbrev pairDims (n0 n1 m : Nat) (wf : ScatterDims.WF ⟨2, ![n0, n1]⟩ ⟨2, ![m, 2]⟩ ⟨1, ![m]⟩ [] [0, 1] [0, 1] 1) :
    ScatterDims ⟨2, ![n0, n1]⟩ ⟨2, ![m, 2]⟩ ⟨1, ![m]⟩ where
  updateWindowDims := []
  insertedWindowDims := [0, 1]
  scatterDimsToOperandDims := [0, 1]
  indexVectorDim := 1
  wf := wf

section Pairs
variable {n0 n1 m : Nat} (wf : ScatterDims.WF ⟨2, ![n0, n1]⟩ ⟨2, ![m, 2]⟩ ⟨1, ![m]⟩ [] [0, 1] [0, 1] 1)

/-- No axis of the operand carries a window coordinate. -/
theorem pairDims_window (j : (⟨1, ![m]⟩ : Shape).Idx) (a : Fin 2) : (pairDims n0 n1 m wf).window j a = 0 := by
  unfold ScatterDims.window
  rw [dif_neg]
  show ¬ a ∈ (⟨2, ![n0, n1]⟩ : Shape).kept [0, 1]
  unfold Shape.kept
  fin_cases a <;> simp

/-- The start on the operand's row axis is the pair's first component, read signed. -/
theorem pairDims_start0 (j : (⟨1, ![m]⟩ : Shape).Idx) (idx : IVec ⟨2, ![m, 2]⟩ w) :
    (pairDims n0 n1 m wf).start j idx 0 = (idx (ix2 (j 0 : Fin m) (0 : Fin 2))).toInt := by
  unfold ScatterDims.start
  rw [dif_pos (show (0 : Fin 2) ∈ (pairDims n0 n1 m wf).scatterDimsToOperandDims from List.mem_cons_self)]
  congr 2
  funext b; refine Fin.ext ?_
  match b with
  | ⟨0, _⟩ => rfl
  | ⟨1, _⟩ => rfl

/-- The start on the operand's column axis is the pair's second component, read signed. -/
theorem pairDims_start1 (j : (⟨1, ![m]⟩ : Shape).Idx) (idx : IVec ⟨2, ![m, 2]⟩ w) :
    (pairDims n0 n1 m wf).start j idx 1 = (idx (ix2 (j 0 : Fin m) (1 : Fin 2))).toInt := by
  unfold ScatterDims.start
  rw [dif_pos (show (1 : Fin 2) ∈ (pairDims n0 n1 m wf).scatterDimsToOperandDims from
    List.mem_cons_of_mem _ List.mem_cons_self)]
  congr 2
  funext b; refine Fin.ext ?_
  match b with
  | ⟨0, _⟩ => rfl
  | ⟨1, _⟩ => rfl

/-- Update position `q` lands at `(i, r)` exactly when the pair it reads is `(i, r)`. -/
theorem pairDims_lands_iff (idx : IVec ⟨2, ![m, 2]⟩ w) (q : Fin m) (i : Fin n0) (r : Fin n1) :
    (pairDims n0 n1 m wf).resultIdx? (ix1 q) idx = some (ix2 i r)
      ↔ (idx (ix2 q (0 : Fin 2))).toInt = (i.val : Int) ∧ (idx (ix2 q (1 : Fin 2))).toInt = (r.val : Int) := by
  rw [resultIdx?_eq_some_iff]
  constructor
  · intro h
    have h0 := h 0
    have h1 := h 1
    rw [pairDims_window, pairDims_start0] at h0
    rw [pairDims_window, pairDims_start1] at h1
    have h0' : (idx (ix2 q (0 : Fin 2))).toInt + ((0 : Nat) : Int) = (i.val : Int) := h0
    have h1' : (idx (ix2 q (1 : Fin 2))).toInt + ((0 : Nat) : Int) = (r.val : Int) := h1
    exact ⟨by omega, by omega⟩
  · rintro ⟨h0, h1⟩ a
    rw [pairDims_window]
    match a with
    | ⟨0, _⟩ =>
      rw [show (⟨0, by omega⟩ : Fin 2) = 0 from rfl, pairDims_start0]
      show (idx (ix2 q (0 : Fin 2))).toInt + ((0 : Nat) : Int) = (i.val : Int)
      omega
    | ⟨1, _⟩ =>
      rw [show (⟨1, by omega⟩ : Fin 2) = 1 from rfl, pairDims_start1]
      show (idx (ix2 q (1 : Fin 2))).toInt + ((0 : Nat) : Int) = (r.val : Int)
      omega

/-- THE PAIR SCATTER OF ONE REPEATED VALUE, READ AT `(i, r)` WHERE SOME PAIR IS `(i, r)`: that value. -/
theorem scatter_pairs_of_hit (x : (⟨2, ![n0, n1]⟩ : Shape).Idx → α) (idx : IVec ⟨2, ![m, 2]⟩ w)
    (upd : (⟨1, ![m]⟩ : Shape).Idx → α) (c : α) (hc : ∀ j, upd j = c) (i : Fin n0) (r : Fin n1)
    (h : ∃ q : Fin m, (idx (ix2 q (0 : Fin 2))).toInt = (i.val : Int) ∧ (idx (ix2 q (1 : Fin 2))).toInt = (r.val : Int)) :
    Host.scatter (pairDims n0 n1 m wf) (fun _ b => b) x idx upd (ix2 i r) = c := by
  obtain ⟨q, hq⟩ := h
  exact scatter_set_const_of_hit _ x idx upd c hc _ ⟨ix1 q, (pairDims_lands_iff wf idx q i r).2 hq⟩

/-- THE PAIR SCATTER READ AT `(i, r)` WHERE NO PAIR IS `(i, r)`: the operand's element. -/
theorem scatter_pairs_of_not_hit (x : (⟨2, ![n0, n1]⟩ : Shape).Idx → α) (idx : IVec ⟨2, ![m, 2]⟩ w)
    (upd : (⟨1, ![m]⟩ : Shape).Idx → α) (i : Fin n0) (r : Fin n1)
    (h : ∀ q : Fin m, ¬((idx (ix2 q (0 : Fin 2))).toInt = (i.val : Int) ∧ (idx (ix2 q (1 : Fin 2))).toInt = (r.val : Int))) :
    Host.scatter (pairDims n0 n1 m wf) (fun _ b => b) x idx upd (ix2 i r) = x (ix2 i r) := by
  refine scatter_set_of_not_hit _ x idx upd _ fun j he => ?_
  rw [eq_ix1 j] at he
  exact h _ ((pairDims_lands_iff wf idx _ i r).1 he)

end Pairs

end Cert.LibScatter
-- ==== Proof.RefBase.lean ====
/-
  The reference program read as matrices: the vocabulary the stage lemmas share, and the two adjacency maps.

  A rank-2 array of extended reals is read as a matrix (`mat`), a rank-1 array as a vector (`vec`). The reference builds
  each adjacency map by writing the value one into a matrix of zeros at the pairs (word r of an index column, r), the
  word first wrapped as an array index wraps a negative position (a word below zero has the column's extent added).
  Under the hypothesis that every word of the index input, read signed, lies in [0, 2048), the wrap is the identity and
  the map is the 0/1 adjacency of Spec.lean: entry (i, r) is one exactly when word r is the number i.
-/
import proofs.«422120_j65652870087589_3_alg».proof.Proof.RefReadLite
import proofs.«422120_j65652870087589_3_alg».proof.Proof.Spec
import proofs.«422120_j65652870087589_3_alg».proof.Proof.LibScatter
import Idealize.ShloMosaic.Lib.ValueIdx
import Idealize.ShloMosaic.Lib.Pipeline.Value
import Idealize.ShloMosaic.PureOps.Ideal.Laws
import Idealize.ShloMosaic.PureOps.IdealRules

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open Cert.LibScatter
open scoped BigOperators

/-- A float array of the reference at the ideal values: a function from the shape's indices to the extended reals. -/
abbrev AF (s : Shape) : Type := (⟨s, .f32⟩ : BufTy).Contents (Elt Ideal)
/-- A 32-bit integer array of the reference. -/
abbrev AI (s : Shape) : Type := (⟨s, .i32⟩ : BufTy).Contents (Elt Ideal)

/-- A rank-2 array read as a matrix. -/
def mat {a b : Nat} (v : (⟨2, ![a, b]⟩ : Shape).Idx → EReal) : Spec.Mat a b := fun i j => v (ix2 i j)
/-- A rank-1 array read as a vector. -/
def vec {n : Nat} (v : (⟨1, ![n]⟩ : Shape).Idx → EReal) : Fin n → EReal := fun j => v (ix1 j)

theorem mat_apply {a b : Nat} (v : (⟨2, ![a, b]⟩ : Shape).Idx → EReal) (i : Fin a) (j : Fin b) : mat v i j = v (ix2 i j) := rfl
theorem vec_apply {n : Nat} (v : (⟨1, ![n]⟩ : Shape).Idx → EReal) (j : Fin n) : vec v j = v (ix1 j) := rfl

/-! ## Indices are equal when their coordinates are -/

theorem idx1_ext {n : Nat} {p q : (⟨1, ![n]⟩ : Shape).Idx} (h0 : (p 0).val = (q 0).val) : p = q := by
  funext a; refine Fin.ext ?_
  match a with
  | ⟨0, _⟩ => exact h0
theorem idx2_ext {n0 n1 : Nat} {p q : (⟨2, ![n0, n1]⟩ : Shape).Idx} (h0 : (p 0).val = (q 0).val) (h1 : (p 1).val = (q 1).val) :
    p = q := by
  funext a; refine Fin.ext ?_
  match a with
  | ⟨0, _⟩ => exact h0
  | ⟨1, _⟩ => exact h1
theorem idx3_ext {n0 n1 n2 : Nat} {p q : (⟨3, ![n0, n1, n2]⟩ : Shape).Idx} (h0 : (p 0).val = (q 0).val)
    (h1 : (p 1).val = (q 1).val) (h2 : (p 2).val = (q 2).val) : p = q := by
  funext a; refine Fin.ext ?_
  match a with
  | ⟨0, _⟩ => exact h0
  | ⟨1, _⟩ => exact h1
  | ⟨2, _⟩ => exact h2

/-! ## Words -/

/-- A word that read signed is not negative is not below zero, so the select that wraps a negative position keeps it. -/
theorem wrap_id (x c : BitVec 32) (h : 0 ≤ x.toInt) : Scalar.select (IntOp.cmpi .slt x 0#32) c x = x := by
  have hs : x.slt 0#32 = false := by
    rw [BitVec.slt_eq_decide]
    exact decide_eq_false (by rw [BitVec.toInt_zero]; omega)
  show (if BitVec.ofBool (x.slt 0#32) = 1 then c else x) = x
  rw [hs]; rfl

/-- The word of a small number, read signed, is the number. -/
theorem toInt_ofNat_small (n : Nat) (h : n < 32768) : (BitVec.ofNat 32 n).toInt = (n : Int) := by
  rw [BitVec.toInt_eq_toNat_cond, BitVec.toNat_ofNat, Nat.mod_eq_of_lt (by omega)]
  rw [if_pos (by omega)]

/-- A word that read signed is a small number is that number's word. -/
theorem eq_ofNat_of_toInt (x : BitVec 32) (n : Nat) (h : n < 32768) (hx : x.toInt = (n : Int)) : x = BitVec.ofNat 32 n :=
  BitVec.eq_of_toInt_eq (by rw [hx, toInt_ofNat_small n h])

/-- The binary32 word of 1.0 is the extended real one. -/
theorem one_f32 : Ideal.ofBits .f32 0x3F800000#32 = (1 : EReal) := IdealRules.sign_bit.ideal_onePat .f32

/-! ## The scatter of ones over zeros at the pairs (word r, r) is the adjacency of the words -/

/-- Writing one into a matrix of zeros at every pair (`w r`, r) — the index array's column 0 holds the words `w`, its
    column 1 the relations' own numbers — gives the adjacency of `w`: at (i, r) the pair (`w r`, r) is the only one
    whose second component is r, and it is (i, r) exactly when `w r` is the number i. -/
theorem adj_of_scatter (x : AF S2048x32768) (idx : AI S32768x2) (upd : AF S32768) (w : Fin 32768 → BitVec 32)
    (hx : ∀ p, x p = (0 : EReal)) (hu : ∀ j, upd j = (1 : EReal))
    (h0 : ∀ r : Fin 32768, idx (ix2 r (0 : Fin 2)) = w r)
    (h1 : ∀ r : Fin 32768, idx (ix2 r (1 : Fin 2)) = BitVec.ofNat 32 r.val) :
    mat (a := 2048) (b := 32768) (Host.scatter scatter_S2048x32768_S32768x2_S32768_n_01_01_1 (fun _ b => b) x idx upd)
      = Spec.adj 2048 w := by
  funext i r
  show Host.scatter (pairDims 2048 32768 32768 scatter_S2048x32768_S32768x2_S32768_n_01_01_1_wf) (fun _ b => b) x idx upd (ix2 i r)
    = if w r = BitVec.ofNat 32 i.val then 1 else 0
  have hi : i.val < 32768 := by have := i.isLt; omega
  by_cases h : w r = BitVec.ofNat 32 i.val
  · rw [if_pos h]
    refine scatter_pairs_of_hit _ x idx upd 1 hu i r ⟨r, ?_, ?_⟩
    · rw [h0, h, toInt_ofNat_small _ hi]
    · rw [h1, toInt_ofNat_small _ r.isLt]
  · rw [if_neg h, scatter_pairs_of_not_hit _ x idx upd i r, hx]
    rintro q ⟨hq0, hq1⟩
    rw [h1, toInt_ofNat_small _ q.isLt] at hq1
    have hqr : q = r := Fin.ext (by exact_mod_cast hq1)
    subst hqr
    rw [h0] at hq0
    exact h (eq_ofNat_of_toInt _ _ hi hq0)

section Adjacency
variable (x2 : AI S32768x2)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2

/-- The matrix of zeros the first map is written into. -/
theorem v1_zero (p : S2048x32768.Idx) : R1 p = (0 : EReal) := by
  rw [val_main_v1_apply, val_main_cst_apply]; exact Ideal.ofBits_zero_f32
/-- The ones written into it. -/
theorem v17_one (j : S32768.Idx) : R17 j = (1 : EReal) := by
  rw [val_main_v17_apply, val_main_cst_3_apply]; exact one_f32
/-- The wrapped subject word of relation `r` is the word itself when it is not negative. -/
theorem v8_eq (r : Fin 32768) (h : 0 ≤ (x2 (ix2 r (0 : Fin 2))).toInt) : R8 (ix1 r) = x2 (ix2 r (0 : Fin 2)) := by
  rw [val_main_v8_apply, val_main_v5_apply, val_main_v4_apply, val_main_c_apply, val_main_v3_apply, val_main_v2_apply]
  have e : idx_main_v2 (idx_main_v3 (ix1 r)) = ix2 r (0 : Fin 2) := idx2_ext (Nat.div_one _) rfl
  rw [e]
  exact wrap_id _ _ h
/-- The wrapped number of relation `r` is its word. -/
theorem v13_eq (r : Fin 32768) : R13 (ix1 r) = BitVec.ofNat 32 r.val := by
  rw [val_main_v13_apply, val_main_v10_apply, val_main_v9_apply, val_main_c_1_apply, val_main_v0_apply]
  refine wrap_id _ _ ?_
  have := toInt_ofNat_small r.val r.isLt
  show 0 ≤ (BitVec.ofNat 32 r.val).toInt
  omega
/-- Column 0 of the pairs: the wrapped subject words. -/
theorem v16_col0 (r : Fin 32768) : R16 (ix2 r (0 : Fin 2)) = R8 (ix1 r) := by
  unfold val_main_v16
  rw [concatenate_pair_apply_left (t := S32768x2) 1 _ _ concatenates_S32768x1_S32768x1_S32768x2_d1 (ix2 r (0 : Fin 2)) rfl
    (ix2 r (0 : Fin 1)) (fun b => by
      match b with
      | ⟨0, _⟩ => rfl
      | ⟨1, _⟩ => rfl), val_main_v14_apply]
  exact congrArg _ (idx1_ext rfl)
/-- Column 1 of the pairs: the relations' numbers. -/
theorem v16_col1 (r : Fin 32768) : R16 (ix2 r (1 : Fin 2)) = R13 (ix1 r) := by
  unfold val_main_v16
  rw [concatenate_pair_apply_right (t := S32768x2) 1 _ _ concatenates_S32768x1_S32768x1_S32768x2_d1 (ix2 r (1 : Fin 2)) rfl rfl
    (ix2 r (0 : Fin 1)) (fun b hb => by
      match b with
      | ⟨0, _⟩ => rfl
      | ⟨1, _⟩ => exact absurd rfl hb) rfl, val_main_v15_apply]
  exact congrArg _ (idx1_ext rfl)

/-- THE SUBJECTS' MAP is the adjacency of the index input's column 0. -/
theorem adj18 (h : ∀ r : Fin 32768, 0 ≤ (x2 (ix2 r (0 : Fin 2))).toInt) :
    mat (a := 2048) (b := 32768) R18 = Spec.adj 2048 (fun r => x2 (ix2 r (0 : Fin 2))) :=
  adj_of_scatter R1 R16 R17 _ v1_zero v17_one (fun r => (v16_col0 x2 r).trans (v8_eq x2 r (h r)))
    (fun r => (v16_col1 x2 r).trans (v13_eq r))

/-- The matrix of zeros the second map is written into. -/
theorem v19_zero (p : S2048x32768.Idx) : R19 p = (0 : EReal) := by
  rw [val_main_v19_apply, val_main_cst_4_apply]; exact Ideal.ofBits_zero_f32
/-- The ones written into it. -/
theorem v35_one (j : S32768.Idx) : R35 j = (1 : EReal) := by
  rw [val_main_v35_apply, val_main_cst_9_apply]; exact one_f32
/-- The wrapped object word of relation `r` is the word itself when it is not negative. -/
theorem v26_eq (r : Fin 32768) (h : 0 ≤ (x2 (ix2 r (1 : Fin 2))).toInt) : R26 (ix1 r) = x2 (ix2 r (1 : Fin 2)) := by
  rw [val_main_v26_apply, val_main_v23_apply, val_main_v22_apply, val_main_c_5_apply, val_main_v21_apply, val_main_v20_apply]
  have e : idx_main_v20 (idx_main_v21 (ix1 r)) = ix2 r (1 : Fin 2) := idx2_ext (Nat.div_one _) rfl
  rw [e]
  exact wrap_id _ _ h
/-- The wrapped number of relation `r` is its word. -/
theorem v31_eq (r : Fin 32768) : R31 (ix1 r) = BitVec.ofNat 32 r.val := by
  rw [val_main_v31_apply, val_main_v28_apply, val_main_v27_apply, val_main_c_7_apply, val_main_v0_apply]
  refine wrap_id _ _ ?_
  have := toInt_ofNat_small r.val r.isLt
  show 0 ≤ (BitVec.ofNat 32 r.val).toInt
  omega
/-- Column 0 of the pairs: the wrapped object words. -/
theorem v34_col0 (r : Fin 32768) : R34 (ix2 r (0 : Fin 2)) = R26 (ix1 r) := by
  unfold val_main_v34
  rw [concatenate_pair_apply_left (t := S32768x2) 1 _ _ concatenates_S32768x1_S32768x1_S32768x2_d1 (ix2 r (0 : Fin 2)) rfl
    (ix2 r (0 : Fin 1)) (fun b => by
      match b with
      | ⟨0, _⟩ => rfl
      | ⟨1, _⟩ => rfl), val_main_v32_apply]
  exact congrArg _ (idx1_ext rfl)
/-- Column 1 of the pairs: the relations' numbers. -/
theorem v34_col1 (r : Fin 32768) : R34 (ix2 r (1 : Fin 2)) = R31 (ix1 r) := by
  unfold val_main_v34
  rw [concatenate_pair_apply_right (t := S32768x2) 1 _ _ concatenates_S32768x1_S32768x1_S32768x2_d1 (ix2 r (1 : Fin 2)) rfl rfl
    (ix2 r (0 : Fin 1)) (fun b hb => by
      match b with
      | ⟨0, _⟩ => rfl
      | ⟨1, _⟩ => exact absurd rfl hb) rfl, val_main_v33_apply]
  exact congrArg _ (idx1_ext rfl)

/-- THE OBJECTS' MAP is the adjacency of the index input's column 1. -/
theorem adj36 (h : ∀ r : Fin 32768, 0 ≤ (x2 (ix2 r (1 : Fin 2))).toInt) :
    mat (a := 2048) (b := 32768) R36 = Spec.adj 2048 (fun r => x2 (ix2 r (1 : Fin 2))) :=
  adj_of_scatter R19 R34 R35 _ v19_zero v35_one (fun r => (v34_col0 x2 r).trans (v26_eq x2 r (h r)))
    (fun r => (v34_col1 x2 r).trans (v31_eq r))

end Adjacency

/-! ## The transposed maps -/

section Transposes
variable (x2 : AI S32768x2)

/-- A transposed map read as a matrix is the transpose of the map read as a matrix. -/
theorem tr_v91 : mat (a := 32768) (b := 2048) (val_main_v91 (F := Ideal) x2) = Spec.tr (mat (a := 2048) (b := 32768) (val_main_v18 (F := Ideal) x2)) := by
  funext i j
  simp only [Spec.tr, mat_apply]
  rw [val_main_v91_apply]
  exact congrArg _ (idx2_ext rfl rfl)
theorem tr_v165 : mat (a := 32768) (b := 2048) (val_main_v165 (F := Ideal) x2) = Spec.tr (mat (a := 2048) (b := 32768) (val_main_v18 (F := Ideal) x2)) := by
  funext i j
  simp only [Spec.tr, mat_apply]
  rw [val_main_v165_apply]
  exact congrArg _ (idx2_ext rfl rfl)
theorem tr_v247 : mat (a := 32768) (b := 2048) (val_main_v247 (F := Ideal) x2) = Spec.tr (mat (a := 2048) (b := 32768) (val_main_v18 (F := Ideal) x2)) := by
  funext i j
  simp only [Spec.tr, mat_apply]
  rw [val_main_v247_apply]
  exact congrArg _ (idx2_ext rfl rfl)
theorem tr_v321 : mat (a := 32768) (b := 2048) (val_main_v321 (F := Ideal) x2) = Spec.tr (mat (a := 2048) (b := 32768) (val_main_v18 (F := Ideal) x2)) := by
  funext i j
  simp only [Spec.tr, mat_apply]
  rw [val_main_v321_apply]
  exact congrArg _ (idx2_ext rfl rfl)
theorem tr_v108 : mat (a := 32768) (b := 2048) (val_main_v108 (F := Ideal) x2) = Spec.tr (mat (a := 2048) (b := 32768) (val_main_v36 (F := Ideal) x2)) := by
  funext i j
  simp only [Spec.tr, mat_apply]
  rw [val_main_v108_apply]
  exact congrArg _ (idx2_ext rfl rfl)
theorem tr_v182 : mat (a := 32768) (b := 2048) (val_main_v182 (F := Ideal) x2) = Spec.tr (mat (a := 2048) (b := 32768) (val_main_v36 (F := Ideal) x2)) := by
  funext i j
  simp only [Spec.tr, mat_apply]
  rw [val_main_v182_apply]
  exact congrArg _ (idx2_ext rfl rfl)
theorem tr_v264 : mat (a := 32768) (b := 2048) (val_main_v264 (F := Ideal) x2) = Spec.tr (mat (a := 2048) (b := 32768) (val_main_v36 (F := Ideal) x2)) := by
  funext i j
  simp only [Spec.tr, mat_apply]
  rw [val_main_v264_apply]
  exact congrArg _ (idx2_ext rfl rfl)
theorem tr_v338 : mat (a := 32768) (b := 2048) (val_main_v338 (F := Ideal) x2) = Spec.tr (mat (a := 2048) (b := 32768) (val_main_v36 (F := Ideal) x2)) := by
  funext i j
  simp only [Spec.tr, mat_apply]
  rw [val_main_v338_apply]
  exact congrArg _ (idx2_ext rfl rfl)

end Transposes

end Cert.RefSpec

end
-- ==== Proof.RefF1.lean ====
/-
  The reference's first feature-level round is one `round` of Spec.lean.

  Stage by stage over the read-at-an-index lemmas of the reference's operations: each weight and bias slice, each
  linear layer with the positive part, each adjacency-weighted and degree-normalised sum, the two updates, and last the
  round as a whole. Every lemma states an array read as a matrix (`mat`) or vector (`vec`) as the Spec function of
  the arrays the stage reads, so the round is assembled by rewriting.
-/
import proofs.«422120_j65652870087589_3_alg».proof.Proof.RefBase

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open scoped BigOperators

-- the argument arrays, and each reference buffer's value at them
variable (x0 : AF S2048x2048) (x1 : AF S32768x2048) (x2 : AI S32768x2) (x3 : AF S2048x512) (x4 : AF S512) (x5 : AF S512x512)
  (x6 : AF S512) (x7 : AF S2048x512) (x8 : AF S512) (x9 : AF S512x512) (x10 : AF S512) (x11 : AF S4x512x512) (x12 : AF S4x512)
  (x13 : AF S2x51x151) (x14 : AF S2x151) (x15 : AF S2x151x51) (x16 : AF S2x51) (x17 : AF S512x151) (x18 : AF S151)
  (x19 : AF S512x51) (x20 : AF S51)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2
local notation "R37" => val_main_v37 (F := Ideal) x0 x3
local notation "R38" => val_main_v38 (F := Ideal) x4
local notation "R39" => val_main_v39 (F := Ideal) x4
local notation "R40" => val_main_v40 (F := Ideal) x0 x3 x4
local notation "R41" => val_main_v41 (F := Ideal) x0 x3 x4
local notation "R42" => val_main_v42 (F := Ideal) x0 x3 x4 x5
local notation "R43" => val_main_v43 (F := Ideal) x6
local notation "R44" => val_main_v44 (F := Ideal) x6
local notation "R45" => val_main_v45 (F := Ideal) x0 x3 x4 x5 x6
local notation "R46" => val_main_v46 (F := Ideal) x1 x7
local notation "R47" => val_main_v47 (F := Ideal) x8
local notation "R48" => val_main_v48 (F := Ideal) x8
local notation "R49" => val_main_v49 (F := Ideal) x1 x7 x8
local notation "R50" => val_main_v50 (F := Ideal) x1 x7 x8
local notation "R51" => val_main_v51 (F := Ideal) x1 x7 x8 x9
local notation "R52" => val_main_v52 (F := Ideal) x10
local notation "R53" => val_main_v53 (F := Ideal) x10
local notation "R54" => val_main_v54 (F := Ideal) x1 x7 x8 x9 x10
local notation "R55" => val_main_v55 (F := Ideal) x11
local notation "R56" => val_main_v56 (F := Ideal) x11
local notation "R57" => val_main_v57 (F := Ideal) x12
local notation "R58" => val_main_v58 (F := Ideal) x12
local notation "R59" => val_main_v59 (F := Ideal) x1 x7 x8 x9 x10 x11
local notation "R60" => val_main_v60 (F := Ideal) x12
local notation "R61" => val_main_v61 (F := Ideal) x12
local notation "R62" => val_main_v62 (F := Ideal) x1 x7 x8 x9 x10 x11 x12
local notation "R63" => val_main_v63 (F := Ideal) x1 x7 x8 x9 x10 x11 x12
local notation "R64" => val_main_v64 (F := Ideal) x1 x2 x7 x8 x9 x10 x11 x12
local notation "R65" => val_main_v65 (F := Ideal) x2
local notation "R66" => val_main_v66 (F := Ideal) x2
local notation "R67" => val_main_v67 (F := Ideal)
local notation "R68" => val_main_v68 (F := Ideal) x2
local notation "R69" => val_main_v69 (F := Ideal) x2
local notation "R70" => val_main_v70 (F := Ideal) x1 x2 x7 x8 x9 x10 x11 x12
local notation "R71" => val_main_v71 (F := Ideal) x11
local notation "R72" => val_main_v72 (F := Ideal) x11
local notation "R73" => val_main_v73 (F := Ideal) x12
local notation "R74" => val_main_v74 (F := Ideal) x12
local notation "R75" => val_main_v75 (F := Ideal) x1 x7 x8 x9 x10 x11
local notation "R76" => val_main_v76 (F := Ideal) x12
local notation "R77" => val_main_v77 (F := Ideal) x12
local notation "R78" => val_main_v78 (F := Ideal) x1 x7 x8 x9 x10 x11 x12
local notation "R79" => val_main_v79 (F := Ideal) x1 x7 x8 x9 x10 x11 x12
local notation "R80" => val_main_v80 (F := Ideal) x1 x2 x7 x8 x9 x10 x11 x12
local notation "R81" => val_main_v81 (F := Ideal) x2
local notation "R82" => val_main_v82 (F := Ideal) x2
local notation "R83" => val_main_v83 (F := Ideal)
local notation "R84" => val_main_v84 (F := Ideal) x2
local notation "R85" => val_main_v85 (F := Ideal) x2
local notation "R86" => val_main_v86 (F := Ideal) x1 x2 x7 x8 x9 x10 x11 x12
local notation "R87" => val_main_v87 (F := Ideal) x1 x2 x7 x8 x9 x10 x11 x12
local notation "R88" => val_main_v88 (F := Ideal)
local notation "R89" => val_main_v89 (F := Ideal) x1 x2 x7 x8 x9 x10 x11 x12
local notation "R90" => val_main_v90 (F := Ideal) x0 x1 x2 x3 x4 x5 x6 x7 x8 x9 x10 x11 x12
local notation "R91" => val_main_v91 (F := Ideal) x2
local notation "R92" => val_main_v92 (F := Ideal) x11
local notation "R93" => val_main_v93 (F := Ideal) x11
local notation "R94" => val_main_v94 (F := Ideal) x12
local notation "R95" => val_main_v95 (F := Ideal) x12
local notation "R96" => val_main_v96 (F := Ideal) x0 x3 x4 x5 x6 x11
local notation "R97" => val_main_v97 (F := Ideal) x12
local notation "R98" => val_main_v98 (F := Ideal) x12
local notation "R99" => val_main_v99 (F := Ideal) x0 x3 x4 x5 x6 x11 x12
local notation "R100" => val_main_v100 (F := Ideal) x0 x3 x4 x5 x6 x11 x12
local notation "R101" => val_main_v101 (F := Ideal) x0 x2 x3 x4 x5 x6 x11 x12
local notation "R102" => val_main_v102 (F := Ideal) x2
local notation "R103" => val_main_v103 (F := Ideal) x2
local notation "R104" => val_main_v104 (F := Ideal)
local notation "R105" => val_main_v105 (F := Ideal) x2
local notation "R106" => val_main_v106 (F := Ideal) x2
local notation "R107" => val_main_v107 (F := Ideal) x0 x2 x3 x4 x5 x6 x11 x12
local notation "R108" => val_main_v108 (F := Ideal) x2
local notation "R109" => val_main_v109 (F := Ideal) x11
local notation "R110" => val_main_v110 (F := Ideal) x11
local notation "R111" => val_main_v111 (F := Ideal) x12
local notation "R112" => val_main_v112 (F := Ideal) x12
local notation "R113" => val_main_v113 (F := Ideal) x0 x3 x4 x5 x6 x11
local notation "R114" => val_main_v114 (F := Ideal) x12
local notation "R115" => val_main_v115 (F := Ideal) x12
local notation "R116" => val_main_v116 (F := Ideal) x0 x3 x4 x5 x6 x11 x12
local notation "R117" => val_main_v117 (F := Ideal) x0 x3 x4 x5 x6 x11 x12
local notation "R118" => val_main_v118 (F := Ideal) x0 x2 x3 x4 x5 x6 x11 x12
local notation "R119" => val_main_v119 (F := Ideal) x2
local notation "R120" => val_main_v120 (F := Ideal) x2
local notation "R121" => val_main_v121 (F := Ideal)
local notation "R122" => val_main_v122 (F := Ideal) x2
local notation "R123" => val_main_v123 (F := Ideal) x2
local notation "R124" => val_main_v124 (F := Ideal) x0 x2 x3 x4 x5 x6 x11 x12
local notation "R125" => val_main_v125 (F := Ideal) x0 x2 x3 x4 x5 x6 x11 x12
local notation "R126" => val_main_v126 (F := Ideal)
local notation "R127" => val_main_v127 (F := Ideal) x0 x2 x3 x4 x5 x6 x11 x12
local notation "R128" => val_main_v128 (F := Ideal) x0 x1 x2 x3 x4 x5 x6 x7 x8 x9 x10 x11 x12
local notation "R129" => val_main_v129 (F := Ideal) x11
local notation "R130" => val_main_v130 (F := Ideal) x11
local notation "R131" => val_main_v131 (F := Ideal) x12
local notation "R132" => val_main_v132 (F := Ideal) x12
local notation "R133" => val_main_v133 (F := Ideal) x0 x1 x2 x3 x4 x5 x6 x7 x8 x9 x10 x11 x12
local notation "R134" => val_main_v134 (F := Ideal) x12
local notation "R135" => val_main_v135 (F := Ideal) x12
local notation "R136" => val_main_v136 (F := Ideal) x0 x1 x2 x3 x4 x5 x6 x7 x8 x9 x10 x11 x12
local notation "R137" => val_main_v137 (F := Ideal) x0 x1 x2 x3 x4 x5 x6 x7 x8 x9 x10 x11 x12
local notation "R138" => val_main_v138 (F := Ideal) x0 x1 x2 x3 x4 x5 x6 x7 x8 x9 x10 x11 x12
local notation "R139" => val_main_v139 (F := Ideal) x2
local notation "R140" => val_main_v140 (F := Ideal) x2
local notation "R141" => val_main_v141 (F := Ideal)
local notation "R142" => val_main_v142 (F := Ideal) x2
local notation "R143" => val_main_v143 (F := Ideal) x2
local notation "R144" => val_main_v144 (F := Ideal) x0 x1 x2 x3 x4 x5 x6 x7 x8 x9 x10 x11 x12
local notation "R145" => val_main_v145 (F := Ideal) x11
local notation "R146" => val_main_v146 (F := Ideal) x11
local notation "R147" => val_main_v147 (F := Ideal) x12
local notation "R148" => val_main_v148 (F := Ideal) x12
local notation "R149" => val_main_v149 (F := Ideal) x0 x1 x2 x3 x4 x5 x6 x7 x8 x9 x10 x11 x12
local notation "R150" => val_main_v150 (F := Ideal) x12
local notation "R151" => val_main_v151 (F := Ideal) x12
local notation "R152" => val_main_v152 (F := Ideal) x0 x1 x2 x3 x4 x5 x6 x7 x8 x9 x10 x11 x12
local notation "R153" => val_main_v153 (F := Ideal) x0 x1 x2 x3 x4 x5 x6 x7 x8 x9 x10 x11 x12
local notation "R154" => val_main_v154 (F := Ideal) x0 x1 x2 x3 x4 x5 x6 x7 x8 x9 x10 x11 x12
local notation "R155" => val_main_v155 (F := Ideal) x2
local notation "R156" => val_main_v156 (F := Ideal) x2
local notation "R157" => val_main_v157 (F := Ideal)
local notation "R158" => val_main_v158 (F := Ideal) x2
local notation "R159" => val_main_v159 (F := Ideal) x2
local notation "R160" => val_main_v160 (F := Ideal) x0 x1 x2 x3 x4 x5 x6 x7 x8 x9 x10 x11 x12
local notation "R161" => val_main_v161 (F := Ideal) x0 x1 x2 x3 x4 x5 x6 x7 x8 x9 x10 x11 x12
local notation "R162" => val_main_v162 (F := Ideal)
local notation "R163" => val_main_v163 (F := Ideal) x0 x1 x2 x3 x4 x5 x6 x7 x8 x9 x10 x11 x12
local notation "R164" => val_main_v164 (F := Ideal) x0 x1 x2 x3 x4 x5 x6 x7 x8 x9 x10 x11 x12
local notation "R165" => val_main_v165 (F := Ideal) x2
local notation "R166" => val_main_v166 (F := Ideal) x11
local notation "R167" => val_main_v167 (F := Ideal) x11
local notation "R168" => val_main_v168 (F := Ideal) x12
local notation "R169" => val_main_v169 (F := Ideal) x12
local notation "R170" => val_main_v170 (F := Ideal) x0 x1 x2 x3 x4 x5 x6 x7 x8 x9 x10 x11 x12
local notation "R171" => val_main_v171 (F := Ideal) x12
local notation "R172" => val_main_v172 (F := Ideal) x12
local notation "R173" => val_main_v173 (F := Ideal) x0 x1 x2 x3 x4 x5 x6 x7 x8 x9 x10 x11 x12
local notation "R174" => val_main_v174 (F := Ideal) x0 x1 x2 x3 x4 x5 x6 x7 x8 x9 x10 x11 x12
local notation "R175" => val_main_v175 (F := Ideal) x0 x1 x2 x3 x4 x5 x6 x7 x8 x9 x10 x11 x12
local notation "R176" => val_main_v176 (F := Ideal) x2
local notation "R177" => val_main_v177 (F := Ideal) x2
local notation "R178" => val_main_v178 (F := Ideal)
local notation "R179" => val_main_v179 (F := Ideal) x2
local notation "R180" => val_main_v180 (F := Ideal) x2
local notation "R181" => val_main_v181 (F := Ideal) x0 x1 x2 x3 x4 x5 x6 x7 x8 x9 x10 x11 x12
local notation "R182" => val_main_v182 (F := Ideal) x2
local notation "R183" => val_main_v183 (F := Ideal) x11
local notation "R184" => val_main_v184 (F := Ideal) x11
local notation "R185" => val_main_v185 (F := Ideal) x12
local notation "R186" => val_main_v186 (F := Ideal) x12
local notation "R187" => val_main_v187 (F := Ideal) x0 x1 x2 x3 x4 x5 x6 x7 x8 x9 x10 x11 x12
local notation "R188" => val_main_v188 (F := Ideal) x12
local notation "R189" => val_main_v189 (F := Ideal) x12
local notation "R190" => val_main_v190 (F := Ideal) x0 x1 x2 x3 x4 x5 x6 x7 x8 x9 x10 x11 x12
local notation "R191" => val_main_v191 (F := Ideal) x0 x1 x2 x3 x4 x5 x6 x7 x8 x9 x10 x11 x12
local notation "R192" => val_main_v192 (F := Ideal) x0 x1 x2 x3 x4 x5 x6 x7 x8 x9 x10 x11 x12
local notation "R193" => val_main_v193 (F := Ideal) x2
local notation "R194" => val_main_v194 (F := Ideal) x2
local notation "R195" => val_main_v195 (F := Ideal)
local notation "R196" => val_main_v196 (F := Ideal) x2
local notation "R197" => val_main_v197 (F := Ideal) x2
local notation "R198" => val_main_v198 (F := Ideal) x0 x1 x2 x3 x4 x5 x6 x7 x8 x9 x10 x11 x12
local notation "R199" => val_main_v199 (F := Ideal) x0 x1 x2 x3 x4 x5 x6 x7 x8 x9 x10 x11 x12
local notation "R200" => val_main_v200 (F := Ideal)
local notation "R201" => val_main_v201 (F := Ideal) x0 x1 x2 x3 x4 x5 x6 x7 x8 x9 x10 x11 x12
local notation "R202" => val_main_v202 (F := Ideal) x0 x1 x2 x3 x4 x5 x6 x7 x8 x9 x10 x11 x12
local notation "R203" => val_main_v203 (F := Ideal) x0 x1 x2 x3 x4 x5 x6 x7 x8 x9 x10 x11 x12 x17
local notation "R204" => val_main_v204 (F := Ideal) x18
local notation "R205" => val_main_v205 (F := Ideal) x18
local notation "R206" => val_main_v206 (F := Ideal) x0 x1 x2 x3 x4 x5 x6 x7 x8 x9 x10 x11 x12 x17 x18
local notation "R207" => val_main_v207 (F := Ideal) x0 x1 x2 x3 x4 x5 x6 x7 x8 x9 x10 x11 x12 x19
local notation "R208" => val_main_v208 (F := Ideal) x20
local notation "R209" => val_main_v209 (F := Ideal) x20
local notation "R210" => val_main_v210 (F := Ideal) x0 x1 x2 x3 x4 x5 x6 x7 x8 x9 x10 x11 x12 x19 x20
local notation "R211" => val_main_v211 (F := Ideal) x13
local notation "R212" => val_main_v212 (F := Ideal) x13
local notation "R213" => val_main_v213 (F := Ideal) x14
local notation "R214" => val_main_v214 (F := Ideal) x14
local notation "R215" => val_main_v215 (F := Ideal) x0 x1 x2 x3 x4 x5 x6 x7 x8 x9 x10 x11 x12 x13 x19 x20
local notation "R216" => val_main_v216 (F := Ideal) x14
local notation "R217" => val_main_v217 (F := Ideal) x14
local notation "R218" => val_main_v218 (F := Ideal) x0 x1 x2 x3 x4 x5 x6 x7 x8 x9 x10 x11 x12 x13 x14 x19 x20
local notation "R219" => val_main_v219 (F := Ideal) x0 x1 x2 x3 x4 x5 x6 x7 x8 x9 x10 x11 x12 x13 x14 x19 x20
local notation "R220" => val_main_v220 (F := Ideal) x0 x1 x2 x3 x4 x5 x6 x7 x8 x9 x10 x11 x12 x13 x14 x19 x20
local notation "R221" => val_main_v221 (F := Ideal) x2
local notation "R222" => val_main_v222 (F := Ideal) x2
local notation "R223" => val_main_v223 (F := Ideal)
local notation "R224" => val_main_v224 (F := Ideal) x2
local notation "R225" => val_main_v225 (F := Ideal) x2
local notation "R226" => val_main_v226 (F := Ideal) x0 x1 x2 x3 x4 x5 x6 x7 x8 x9 x10 x11 x12 x13 x14 x19 x20
local notation "R227" => val_main_v227 (F := Ideal) x13
local notation "R228" => val_main_v228 (F := Ideal) x13
local notation "R229" => val_main_v229 (F := Ideal) x14
local notation "R230" => val_main_v230 (F := Ideal) x14
local notation "R231" => val_main_v231 (F := Ideal) x0 x1 x2 x3 x4 x5 x6 x7 x8 x9 x10 x11 x12 x13 x19 x20
local notation "R232" => val_main_v232 (F := Ideal) x14
local notation "R233" => val_main_v233 (F := Ideal) x14
local notation "R234" => val_main_v234 (F := Ideal) x0 x1 x2 x3 x4 x5 x6 x7 x8 x9 x10 x11 x12 x13 x14 x19 x20
local notation "R235" => val_main_v235 (F := Ideal) x0 x1 x2 x3 x4 x5 x6 x7 x8 x9 x10 x11 x12 x13 x14 x19 x20
local notation "R236" => val_main_v236 (F := Ideal) x0 x1 x2 x3 x4 x5 x6 x7 x8 x9 x10 x11 x12 x13 x14 x19 x20
local notation "R237" => val_main_v237 (F := Ideal) x2
local notation "R238" => val_main_v238 (F := Ideal) x2
local notation "R239" => val_main_v239 (F := Ideal)
local notation "R240" => val_main_v240 (F := Ideal) x2
local notation "R241" => val_main_v241 (F := Ideal) x2
local notation "R242" => val_main_v242 (F := Ideal) x0 x1 x2 x3 x4 x5 x6 x7 x8 x9 x10 x11 x12 x13 x14 x19 x20
local notation "R243" => val_main_v243 (F := Ideal) x0 x1 x2 x3 x4 x5 x6 x7 x8 x9 x10 x11 x12 x13 x14 x19 x20
local notation "R244" => val_main_v244 (F := Ideal)
local notation "R245" => val_main_v245 (F := Ideal) x0 x1 x2 x3 x4 x5 x6 x7 x8 x9 x10 x11 x12 x13 x14 x19 x20
local notation "R246" => val_main_v246 (F := Ideal) x0 x1 x2 x3 x4 x5 x6 x7 x8 x9 x10 x11 x12 x13 x14 x17 x18 x19 x20
local notation "R247" => val_main_v247 (F := Ideal) x2
local notation "R248" => val_main_v248 (F := Ideal) x15
local notation "R249" => val_main_v249 (F := Ideal) x15
local notation "R250" => val_main_v250 (F := Ideal) x16
local notation "R251" => val_main_v251 (F := Ideal) x16
local notation "R252" => val_main_v252 (F := Ideal) x0 x1 x2 x3 x4 x5 x6 x7 x8 x9 x10 x11 x12 x15 x17 x18
local notation "R253" => val_main_v253 (F := Ideal) x16
local notation "R254" => val_main_v254 (F := Ideal) x16
local notation "R255" => val_main_v255 (F := Ideal) x0 x1 x2 x3 x4 x5 x6 x7 x8 x9 x10 x11 x12 x15 x16 x17 x18
local notation "R256" => val_main_v256 (F := Ideal) x0 x1 x2 x3 x4 x5 x6 x7 x8 x9 x10 x11 x12 x15 x16 x17 x18
local notation "R257" => val_main_v257 (F := Ideal) x0 x1 x2 x3 x4 x5 x6 x7 x8 x9 x10 x11 x12 x15 x16 x17 x18
local notation "R258" => val_main_v258 (F := Ideal) x2
local notation "R259" => val_main_v259 (F := Ideal) x2
local notation "R260" => val_main_v260 (F := Ideal)
local notation "R261" => val_main_v261 (F := Ideal) x2
local notation "R262" => val_main_v262 (F := Ideal) x2
local notation "R263" => val_main_v263 (F := Ideal) x0 x1 x2 x3 x4 x5 x6 x7 x8 x9 x10 x11 x12 x15 x16 x17 x18
local notation "R264" => val_main_v264 (F := Ideal) x2
local notation "R265" => val_main_v265 (F := Ideal) x15
local notation "R266" => val_main_v266 (F := Ideal) x15
local notation "R267" => val_main_v267 (F := Ideal) x16
local notation "R268" => val_main_v268 (F := Ideal) x16
local notation "R269" => val_main_v269 (F := Ideal) x0 x1 x2 x3 x4 x5 x6 x7 x8 x9 x10 x11 x12 x15 x17 x18
local notation "R270" => val_main_v270 (F := Ideal) x16
local notation "R271" => val_main_v271 (F := Ideal) x16
local notation "R272" => val_main_v272 (F := Ideal) x0 x1 x2 x3 x4 x5 x6 x7 x8 x9 x10 x11 x12 x15 x16 x17 x18
local notation "R273" => val_main_v273 (F := Ideal) x0 x1 x2 x3 x4 x5 x6 x7 x8 x9 x10 x11 x12 x15 x16 x17 x18
local notation "R274" => val_main_v274 (F := Ideal) x0 x1 x2 x3 x4 x5 x6 x7 x8 x9 x10 x11 x12 x15 x16 x17 x18
local notation "R275" => val_main_v275 (F := Ideal) x2
local notation "R276" => val_main_v276 (F := Ideal) x2
local notation "R277" => val_main_v277 (F := Ideal)
local notation "R278" => val_main_v278 (F := Ideal) x2
local notation "R279" => val_main_v279 (F := Ideal) x2
local notation "R280" => val_main_v280 (F := Ideal) x0 x1 x2 x3 x4 x5 x6 x7 x8 x9 x10 x11 x12 x15 x16 x17 x18
local notation "R281" => val_main_v281 (F := Ideal) x0 x1 x2 x3 x4 x5 x6 x7 x8 x9 x10 x11 x12 x15 x16 x17 x18
local notation "R282" => val_main_v282 (F := Ideal)
local notation "R283" => val_main_v283 (F := Ideal) x0 x1 x2 x3 x4 x5 x6 x7 x8 x9 x10 x11 x12 x15 x16 x17 x18
local notation "R284" => val_main_v284 (F := Ideal) x0 x1 x2 x3 x4 x5 x6 x7 x8 x9 x10 x11 x12 x15 x16 x17 x18 x19 x20
local notation "R285" => val_main_v285 (F := Ideal) x13
local notation "R286" => val_main_v286 (F := Ideal) x13
local notation "R287" => val_main_v287 (F := Ideal) x14
local notation "R288" => val_main_v288 (F := Ideal) x14
local notation "R289" => val_main_v289 (F := Ideal) x0 x1 x2 x3 x4 x5 x6 x7 x8 x9 x10 x11 x12 x13 x15 x16 x17 x18 x19 x20
local notation "R290" => val_main_v290 (F := Ideal) x14
local notation "R291" => val_main_v291 (F := Ideal) x14
local notation "R292" => val_main_v292 (F := Ideal) x0 x1 x2 x3 x4 x5 x6 x7 x8 x9 x10 x11 x12 x13 x14 x15 x16 x17 x18 x19 x20
local notation "R293" => val_main_v293 (F := Ideal) x0 x1 x2 x3 x4 x5 x6 x7 x8 x9 x10 x11 x12 x13 x14 x15 x16 x17 x18 x19 x20
local notation "R294" => val_main_v294 (F := Ideal) x0 x1 x2 x3 x4 x5 x6 x7 x8 x9 x10 x11 x12 x13 x14 x15 x16 x17 x18 x19 x20
local notation "R295" => val_main_v295 (F := Ideal) x2
local notation "R296" => val_main_v296 (F := Ideal) x2
local notation "R297" => val_main_v297 (F := Ideal)
local notation "R298" => val_main_v298 (F := Ideal) x2
local notation "R299" => val_main_v299 (F := Ideal) x2
local notation "R300" => val_main_v300 (F := Ideal) x0 x1 x2 x3 x4 x5 x6 x7 x8 x9 x10 x11 x12 x13 x14 x15 x16 x17 x18 x19 x20
local notation "R301" => val_main_v301 (F := Ideal) x13
local notation "R302" => val_main_v302 (F := Ideal) x13
local notation "R303" => val_main_v303 (F := Ideal) x14
local notation "R304" => val_main_v304 (F := Ideal) x14
local notation "R305" => val_main_v305 (F := Ideal) x0 x1 x2 x3 x4 x5 x6 x7 x8 x9 x10 x11 x12 x13 x15 x16 x17 x18 x19 x20
local notation "R306" => val_main_v306 (F := Ideal) x14
local notation "R307" => val_main_v307 (F := Ideal) x14
local notation "R308" => val_main_v308 (F := Ideal) x0 x1 x2 x3 x4 x5 x6 x7 x8 x9 x10 x11 x12 x13 x14 x15 x16 x17 x18 x19 x20
local notation "R309" => val_main_v309 (F := Ideal) x0 x1 x2 x3 x4 x5 x6 x7 x8 x9 x10 x11 x12 x13 x14 x15 x16 x17 x18 x19 x20
local notation "R310" => val_main_v310 (F := Ideal) x0 x1 x2 x3 x4 x5 x6 x7 x8 x9 x10 x11 x12 x13 x14 x15 x16 x17 x18 x19 x20
local notation "R311" => val_main_v311 (F := Ideal) x2
local notation "R312" => val_main_v312 (F := Ideal) x2
local notation "R313" => val_main_v313 (F := Ideal)
local notation "R314" => val_main_v314 (F := Ideal) x2
local notation "R315" => val_main_v315 (F := Ideal) x2
local notation "R316" => val_main_v316 (F := Ideal) x0 x1 x2 x3 x4 x5 x6 x7 x8 x9 x10 x11 x12 x13 x14 x15 x16 x17 x18 x19 x20
local notation "R317" => val_main_v317 (F := Ideal) x0 x1 x2 x3 x4 x5 x6 x7 x8 x9 x10 x11 x12 x13 x14 x15 x16 x17 x18 x19 x20
local notation "R318" => val_main_v318 (F := Ideal)
local notation "R319" => val_main_v319 (F := Ideal) x0 x1 x2 x3 x4 x5 x6 x7 x8 x9 x10 x11 x12 x13 x14 x15 x16 x17 x18 x19 x20
local notation "R320" => val_main_v320 (F := Ideal) x0 x1 x2 x3 x4 x5 x6 x7 x8 x9 x10 x11 x12 x13 x14 x15 x16 x17 x18 x19 x20
local notation "R321" => val_main_v321 (F := Ideal) x2
local notation "R322" => val_main_v322 (F := Ideal) x15
local notation "R323" => val_main_v323 (F := Ideal) x15
local notation "R324" => val_main_v324 (F := Ideal) x16
local notation "R325" => val_main_v325 (F := Ideal) x16
local notation "R326" => val_main_v326 (F := Ideal) x0 x1 x2 x3 x4 x5 x6 x7 x8 x9 x10 x11 x12 x13 x14 x15 x17 x18 x19 x20
local notation "R327" => val_main_v327 (F := Ideal) x16
local notation "R328" => val_main_v328 (F := Ideal) x16
local notation "R329" => val_main_v329 (F := Ideal) x0 x1 x2 x3 x4 x5 x6 x7 x8 x9 x10 x11 x12 x13 x14 x15 x16 x17 x18 x19 x20
local notation "R330" => val_main_v330 (F := Ideal) x0 x1 x2 x3 x4 x5 x6 x7 x8 x9 x10 x11 x12 x13 x14 x15 x16 x17 x18 x19 x20
local notation "R331" => val_main_v331 (F := Ideal) x0 x1 x2 x3 x4 x5 x6 x7 x8 x9 x10 x11 x12 x13 x14 x15 x16 x17 x18 x19 x20
local notation "R332" => val_main_v332 (F := Ideal) x2
local notation "R333" => val_main_v333 (F := Ideal) x2
local notation "R334" => val_main_v334 (F := Ideal)
local notation "R335" => val_main_v335 (F := Ideal) x2
local notation "R336" => val_main_v336 (F := Ideal) x2
local notation "R337" => val_main_v337 (F := Ideal) x0 x1 x2 x3 x4 x5 x6 x7 x8 x9 x10 x11 x12 x13 x14 x15 x16 x17 x18 x19 x20
local notation "R338" => val_main_v338 (F := Ideal) x2
local notation "R339" => val_main_v339 (F := Ideal) x15
local notation "R340" => val_main_v340 (F := Ideal) x15
local notation "R341" => val_main_v341 (F := Ideal) x16
local notation "R342" => val_main_v342 (F := Ideal) x16
local notation "R343" => val_main_v343 (F := Ideal) x0 x1 x2 x3 x4 x5 x6 x7 x8 x9 x10 x11 x12 x13 x14 x15 x17 x18 x19 x20
local notation "R344" => val_main_v344 (F := Ideal) x16
local notation "R345" => val_main_v345 (F := Ideal) x16
local notation "R346" => val_main_v346 (F := Ideal) x0 x1 x2 x3 x4 x5 x6 x7 x8 x9 x10 x11 x12 x13 x14 x15 x16 x17 x18 x19 x20
local notation "R347" => val_main_v347 (F := Ideal) x0 x1 x2 x3 x4 x5 x6 x7 x8 x9 x10 x11 x12 x13 x14 x15 x16 x17 x18 x19 x20
local notation "R348" => val_main_v348 (F := Ideal) x0 x1 x2 x3 x4 x5 x6 x7 x8 x9 x10 x11 x12 x13 x14 x15 x16 x17 x18 x19 x20
local notation "R349" => val_main_v349 (F := Ideal) x2
local notation "R350" => val_main_v350 (F := Ideal) x2
local notation "R351" => val_main_v351 (F := Ideal)
local notation "R352" => val_main_v352 (F := Ideal) x2
local notation "R353" => val_main_v353 (F := Ideal) x2
local notation "R354" => val_main_v354 (F := Ideal) x0 x1 x2 x3 x4 x5 x6 x7 x8 x9 x10 x11 x12 x13 x14 x15 x16 x17 x18 x19 x20
local notation "R355" => val_main_v355 (F := Ideal) x0 x1 x2 x3 x4 x5 x6 x7 x8 x9 x10 x11 x12 x13 x14 x15 x16 x17 x18 x19 x20
local notation "R356" => val_main_v356 (F := Ideal)
local notation "R357" => val_main_v357 (F := Ideal) x0 x1 x2 x3 x4 x5 x6 x7 x8 x9 x10 x11 x12 x13 x14 x15 x16 x17 x18 x19 x20
local notation "R358" => val_main_v358 (F := Ideal) x0 x1 x2 x3 x4 x5 x6 x7 x8 x9 x10 x11 x12 x13 x14 x15 x16 x17 x18 x19 x20
-- end of the names

/-! ## The first feature-level round, stage by stage

The round reads the objects' features `R45` ([2048, 512]) and the relations' features `R54` ([32768, 512]) and writes the
objects' `R90` and the relations' `R128`. Each of its four halves is a linear layer with the positive part on the
source's rows, summed through an adjacency map (the subjects' `R18`, the objects' `R36`, or their transposes) and divided
by the row's degree plus the small constant. -/

/-! ### The objects' half through the subjects' map -/

/-- Its weight: one slice of the stacked weights, as a matrix. -/
theorem W_v56 : mat (a := 512) (b := 512) R56 = fun a b => x11 (ix3 (0 : Fin 4) a b) := by
  funext a b
  simp only [mat_apply]
  rw [val_main_v56_apply, val_main_v55_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v58 : vec (n := 512) R58 = fun j => x12 (ix2 (0 : Fin 4) j) := by
  funext j
  simp only [vec_apply]
  rw [val_main_v58_apply, val_main_v57_apply]
  have hj := j.isLt
  exact congrArg _ (idx2_ext rfl (by show j.val % 512 = j.val; omega))

/-- The linear layer followed by the positive part, applied to the source's rows. -/
theorem fc_v63 : mat (a := 32768) (b := 512) R63
    = Spec.linRelu (mat (a := 32768) (b := 512) R54) (mat (a := 512) (b := 512) R56) (vec (n := 512) R58) := by
  funext i j
  simp only [mat_apply, vec_apply, Spec.linRelu, Spec.relu, Spec.lin]
  rw [val_main_v63_apply, val_main_v62_apply, val_main_v59_apply, val_main_v61_apply, val_main_v60_apply,
    val_main_call2_v0_apply, val_main_call2_cst_apply]
  have e1 : ∀ k, lidx_main_v59 (ix2 i j) k = ix2 i k := fun k => idx2_ext rfl rfl
  have e2 : ∀ k, ridx_main_v59 (ix2 i j) k = ix2 k j := fun k => idx2_ext rfl rfl
  have e3 : idx_main_v60 (idx_main_v61 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v70 : mat (a := 2048) (b := 512) R70
    = Spec.collect (mat (a := 2048) (b := 32768) R18) (mat (a := 32768) (b := 512) R63) := by
  funext i j
  simp only [mat_apply, Spec.collect, Spec.eps]
  rw [val_main_v70_apply, val_main_v64_apply, val_main_v69_apply, val_main_v68_apply, val_main_v66_apply,
    val_main_v65_apply, val_main_v67_apply, val_main_cst_11_apply, val_main_cst_10_apply]
  have e1 : ∀ k, lidx_main_v64 (ix2 i j) k = ix2 i k := fun k => idx2_ext rfl rfl
  have e2 : ∀ k, ridx_main_v64 (ix2 i j) k = ix2 k j := fun k => idx2_ext rfl rfl
  have e3 : ∀ k, idx_main_v65 (idx_main_v66 (idx_main_v69 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The objects' half through the objects' map -/

/-- Its weight: one slice of the stacked weights, as a matrix. -/
theorem W_v72 : mat (a := 512) (b := 512) R72 = fun a b => x11 (ix3 (1 : Fin 4) a b) := by
  funext a b
  simp only [mat_apply]
  rw [val_main_v72_apply, val_main_v71_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v74 : vec (n := 512) R74 = fun j => x12 (ix2 (1 : Fin 4) j) := by
  funext j
  simp only [vec_apply]
  rw [val_main_v74_apply, val_main_v73_apply]
  have hj := j.isLt
  exact congrArg _ (idx2_ext rfl (by show j.val % 512 = j.val; omega))

/-- The linear layer followed by the positive part, applied to the source's rows. -/
theorem fc_v79 : mat (a := 32768) (b := 512) R79
    = Spec.linRelu (mat (a := 32768) (b := 512) R54) (mat (a := 512) (b := 512) R72) (vec (n := 512) R74) := by
  funext i j
  simp only [mat_apply, vec_apply, Spec.linRelu, Spec.relu, Spec.lin]
  rw [val_main_v79_apply, val_main_v78_apply, val_main_v75_apply, val_main_v77_apply, val_main_v76_apply,
    val_main_call3_v0_apply, val_main_call3_cst_apply]
  have e1 : ∀ k, lidx_main_v75 (ix2 i j) k = ix2 i k := fun k => idx2_ext rfl rfl
  have e2 : ∀ k, ridx_main_v75 (ix2 i j) k = ix2 k j := fun k => idx2_ext rfl rfl
  have e3 : idx_main_v76 (idx_main_v77 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v86 : mat (a := 2048) (b := 512) R86
    = Spec.collect (mat (a := 2048) (b := 32768) R36) (mat (a := 32768) (b := 512) R79) := by
  funext i j
  simp only [mat_apply, Spec.collect, Spec.eps]
  rw [val_main_v86_apply, val_main_v80_apply, val_main_v85_apply, val_main_v84_apply, val_main_v82_apply,
    val_main_v81_apply, val_main_v83_apply, val_main_cst_13_apply, val_main_cst_12_apply]
  have e1 : ∀ k, lidx_main_v80 (ix2 i j) k = ix2 i k := fun k => idx2_ext rfl rfl
  have e2 : ∀ k, ridx_main_v80 (ix2 i j) k = ix2 k j := fun k => idx2_ext rfl rfl
  have e3 : ∀ k, idx_main_v81 (idx_main_v82 (idx_main_v85 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The objects' update: the target plus half the sum of its two halves. -/
theorem u_v90 : mat (a := 2048) (b := 512) R90
    = Spec.upd (mat (a := 2048) (b := 512) R45) (mat (a := 2048) (b := 512) R70) (mat (a := 2048) (b := 512) R86) := by
  funext i j
  simp only [mat_apply, Spec.upd, Spec.half]
  rw [val_main_v90_apply, val_main_v89_apply, val_main_v88_apply, val_main_cst_14_apply, val_main_v87_apply]
  rfl

/-! ### The relations' half through the subjects' map transposed -/

/-- Its weight: one slice of the stacked weights, as a matrix. -/
theorem W_v93 : mat (a := 512) (b := 512) R93 = fun a b => x11 (ix3 (2 : Fin 4) a b) := by
  funext a b
  simp only [mat_apply]
  rw [val_main_v93_apply, val_main_v92_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v95 : vec (n := 512) R95 = fun j => x12 (ix2 (2 : Fin 4) j) := by
  funext j
  simp only [vec_apply]
  rw [val_main_v95_apply, val_main_v94_apply]
  have hj := j.isLt
  exact congrArg _ (idx2_ext rfl (by show j.val % 512 = j.val; omega))

/-- The linear layer followed by the positive part, applied to the source's rows. -/
theorem fc_v100 : mat (a := 2048) (b := 512) R100
    = Spec.linRelu (mat (a := 2048) (b := 512) R45) (mat (a := 512) (b := 512) R93) (vec (n := 512) R95) := by
  funext i j
  simp only [mat_apply, vec_apply, Spec.linRelu, Spec.relu, Spec.lin]
  rw [val_main_v100_apply, val_main_v99_apply, val_main_v96_apply, val_main_v98_apply, val_main_v97_apply,
    val_main_call4_v0_apply, val_main_call4_cst_apply]
  have e1 : ∀ k, lidx_main_v96 (ix2 i j) k = ix2 i k := fun k => idx2_ext rfl rfl
  have e2 : ∀ k, ridx_main_v96 (ix2 i j) k = ix2 k j := fun k => idx2_ext rfl rfl
  have e3 : idx_main_v97 (idx_main_v98 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v107 : mat (a := 32768) (b := 512) R107
    = Spec.collect (mat (a := 32768) (b := 2048) R91) (mat (a := 2048) (b := 512) R100) := by
  funext i j
  simp only [mat_apply, Spec.collect, Spec.eps]
  rw [val_main_v107_apply, val_main_v101_apply, val_main_v106_apply, val_main_v105_apply, val_main_v103_apply,
    val_main_v102_apply, val_main_v104_apply, val_main_cst_16_apply, val_main_cst_15_apply]
  have e1 : ∀ k, lidx_main_v101 (ix2 i j) k = ix2 i k := fun k => idx2_ext rfl rfl
  have e2 : ∀ k, ridx_main_v101 (ix2 i j) k = ix2 k j := fun k => idx2_ext rfl rfl
  have e3 : ∀ k, idx_main_v102 (idx_main_v103 (idx_main_v106 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The relations' half through the objects' map transposed -/

/-- Its weight: one slice of the stacked weights, as a matrix. -/
theorem W_v110 : mat (a := 512) (b := 512) R110 = fun a b => x11 (ix3 (3 : Fin 4) a b) := by
  funext a b
  simp only [mat_apply]
  rw [val_main_v110_apply, val_main_v109_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v112 : vec (n := 512) R112 = fun j => x12 (ix2 (3 : Fin 4) j) := by
  funext j
  simp only [vec_apply]
  rw [val_main_v112_apply, val_main_v111_apply]
  have hj := j.isLt
  exact congrArg _ (idx2_ext rfl (by show j.val % 512 = j.val; omega))

/-- The linear layer followed by the positive part, applied to the source's rows. -/
theorem fc_v117 : mat (a := 2048) (b := 512) R117
    = Spec.linRelu (mat (a := 2048) (b := 512) R45) (mat (a := 512) (b := 512) R110) (vec (n := 512) R112) := by
  funext i j
  simp only [mat_apply, vec_apply, Spec.linRelu, Spec.relu, Spec.lin]
  rw [val_main_v117_apply, val_main_v116_apply, val_main_v113_apply, val_main_v115_apply, val_main_v114_apply,
    val_main_call5_v0_apply, val_main_call5_cst_apply]
  have e1 : ∀ k, lidx_main_v113 (ix2 i j) k = ix2 i k := fun k => idx2_ext rfl rfl
  have e2 : ∀ k, ridx_main_v113 (ix2 i j) k = ix2 k j := fun k => idx2_ext rfl rfl
  have e3 : idx_main_v114 (idx_main_v115 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v124 : mat (a := 32768) (b := 512) R124
    = Spec.collect (mat (a := 32768) (b := 2048) R108) (mat (a := 2048) (b := 512) R117) := by
  funext i j
  simp only [mat_apply, Spec.collect, Spec.eps]
  rw [val_main_v124_apply, val_main_v118_apply, val_main_v123_apply, val_main_v122_apply, val_main_v120_apply,
    val_main_v119_apply, val_main_v121_apply, val_main_cst_18_apply, val_main_cst_17_apply]
  have e1 : ∀ k, lidx_main_v118 (ix2 i j) k = ix2 i k := fun k => idx2_ext rfl rfl
  have e2 : ∀ k, ridx_main_v118 (ix2 i j) k = ix2 k j := fun k => idx2_ext rfl rfl
  have e3 : ∀ k, idx_main_v119 (idx_main_v120 (idx_main_v123 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The relations' update: the target plus half the sum of its two halves. -/
theorem u_v128 : mat (a := 32768) (b := 512) R128
    = Spec.upd (mat (a := 32768) (b := 512) R54) (mat (a := 32768) (b := 512) R107) (mat (a := 32768) (b := 512) R124) := by
  funext i j
  simp only [mat_apply, Spec.upd, Spec.half]
  rw [val_main_v128_apply, val_main_v127_apply, val_main_v126_apply, val_main_cst_19_apply, val_main_v125_apply]
  rfl

/-! ### The round -/

/-- THE ROUND: the pair of its two results is Spec.lean's `round` of the two maps, the eight slices of the stacked
    weights and biases, and the two sources. -/
theorem round_v90_v128 :
    (mat (a := 2048) (b := 512) R90, mat (a := 32768) (b := 512) R128)
      = Spec.round (mat (a := 2048) (b := 32768) R18) (mat (a := 2048) (b := 32768) R36)
          (fun a b => x11 (ix3 (0 : Fin 4) a b)) (fun j => x12 (ix2 (0 : Fin 4) j))
          (fun a b => x11 (ix3 (1 : Fin 4) a b)) (fun j => x12 (ix2 (1 : Fin 4) j))
          (fun a b => x11 (ix3 (2 : Fin 4) a b)) (fun j => x12 (ix2 (2 : Fin 4) j))
          (fun a b => x11 (ix3 (3 : Fin 4) a b)) (fun j => x12 (ix2 (3 : Fin 4) j))
          (mat (a := 2048) (b := 512) R45) (mat (a := 32768) (b := 512) R54) := by
  unfold Spec.round
  rw [u_v90, u_v128, c_v70, c_v86, c_v107, c_v124, fc_v63, fc_v79, fc_v100, fc_v117,
    W_v56, b_v58, W_v72, b_v74, W_v93, b_v95, W_v110, b_v112, tr_v91, tr_v108]

end Cert.RefSpec

end
-- ==== Proof.RefF2.lean ====
/-
  The reference's second feature-level round is one `round` of Spec.lean.

  Stage by stage over the read-at-an-index lemmas of the reference's operations: each weight and bias slice, each
  linear layer with the positive part, each adjacency-weighted and degree-normalised sum, the two updates, and last the
  round as a whole. Every lemma states an array read as a matrix (`mat`) or vector (`vec`) as the Spec function of
  the arrays the stage reads, so the round is assembled by rewriting.
-/
import proofs.«422120_j65652870087589_3_alg».proof.Proof.RefBase

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open scoped BigOperators

-- the argument arrays, and each reference buffer's value at them
variable (x0 : AF S2048x2048) (x1 : AF S32768x2048) (x2 : AI S32768x2) (x3 : AF S2048x512) (x4 : AF S512) (x5 : AF S512x512)
  (x6 : AF S512) (x7 : AF S2048x512) (x8 : AF S512) (x9 : AF S512x512) (x10 : AF S512) (x11 : AF S4x512x512) (x12 : AF S4x512)
  (x13 : AF S2x51x151) (x14 : AF S2x151) (x15 : AF S2x151x51) (x16 : AF S2x51) (x17 : AF S512x151) (x18 : AF S151)
  (x19 : AF S512x51) (x20 : AF S51)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2
local notation "R37" => val_main_v37 (F := Ideal) x0 x3
local notation "R38" => val_main_v38 (F := Ideal) x4
local notation "R39" => val_main_v39 (F := Ideal) x4
local notation "R40" => val_main_v40 (F := Ideal) x0 x3 x4
local notation "R41" => val_main_v41 (F := Ideal) x0 x3 x4
local notation "R42" => val_main_v42 (F := Ideal) x0 x3 x4 x5
local notation "R43" => val_main_v43 (F := Ideal) x6
local notation "R44" => val_main_v44 (F := Ideal) x6
local notation "R45" => val_main_v45 (F := Ideal) x0 x3 x4 x5 x6
local notation "R46" => val_main_v46 (F := Ideal) x1 x7
local notation "R47" => val_main_v47 (F := Ideal) x8
local notation "R48" => val_main_v48 (F := Ideal) x8
local notation "R49" => val_main_v49 (F := Ideal) x1 x7 x8
local notation "R50" => val_main_v50 (F := Ideal) x1 x7 x8
local notation "R51" => val_main_v51 (F := Ideal) x1 x7 x8 x9
local notation "R52" => val_main_v52 (F := Ideal) x10
local notation "R53" => val_main_v53 (F := Ideal) x10
local notation "R54" => val_main_v54 (F := Ideal) x1 x7 x8 x9 x10
local notation "R55" => val_main_v55 (F := Ideal) x11
local notation "R56" => val_main_v56 (F := Ideal) x11
local notation "R57" => val_main_v57 (F := Ideal) x12
local notation "R58" => val_main_v58 (F := Ideal) x12
local notation "R59" => val_main_v59 (F := Ideal) x1 x7 x8 x9 x10 x11
local notation "R60" => val_main_v60 (F := Ideal) x12
local notation "R61" => val_main_v61 (F := Ideal) x12
local notation "R62" => val_main_v62 (F := Ideal) x1 x7 x8 x9 x10 x11 x12
local notation "R63" => val_main_v63 (F := Ideal) x1 x7 x8 x9 x10 x11 x12
local notation "R64" => val_main_v64 (F := Ideal) x1 x2 x7 x8 x9 x10 x11 x12
local notation "R65" => val_main_v65 (F := Ideal) x2
local notation "R66" => val_main_v66 (F := Ideal) x2
local notation "R67" => val_main_v67 (F := Ideal)
local notation "R68" => val_main_v68 (F := Ideal) x2
local notation "R69" => val_main_v69 (F := Ideal) x2
local notation "R70" => val_main_v70 (F := Ideal) x1 x2 x7 x8 x9 x10 x11 x12
local notation "R71" => val_main_v71 (F := Ideal) x11
local notation "R72" => val_main_v72 (F := Ideal) x11
local notation "R73" => val_main_v73 (F := Ideal) x12
local notation "R74" => val_main_v74 (F := Ideal) x12
local notation "R75" => val_main_v75 (F := Ideal) x1 x7 x8 x9 x10 x11
local notation "R76" => val_main_v76 (F := Ideal) x12
local notation "R77" => val_main_v77 (F := Ideal) x12
local notation "R78" => val_main_v78 (F := Ideal) x1 x7 x8 x9 x10 x11 x12
local notation "R79" => val_main_v79 (F := Ideal) x1 x7 x8 x9 x10 x11 x12
local notation "R80" => val_main_v80 (F := Ideal) x1 x2 x7 x8 x9 x10 x11 x12
local notation "R81" => val_main_v81 (F := Ideal) x2
local notation "R82" => val_main_v82 (F := Ideal) x2
local notation "R83" => val_main_v83 (F := Ideal)
local notation "R84" => val_main_v84 (F := Ideal) x2
local notation "R85" => val_main_v85 (F := Ideal) x2
local notation "R86" => val_main_v86 (F := Ideal) x1 x2 x7 x8 x9 x10 x11 x12
local notation "R87" => val_main_v87 (F := Ideal) x1 x2 x7 x8 x9 x10 x11 x12
local notation "R88" => val_main_v88 (F := Ideal)
local notation "R89" => val_main_v89 (F := Ideal) x1 x2 x7 x8 x9 x10 x11 x12
local notation "R90" => val_main_v90 (F := Ideal) x0 x1 x2 x3 x4 x5 x6 x7 x8 x9 x10 x11 x12
local notation "R91" => val_main_v91 (F := Ideal) x2
local notation "R92" => val_main_v92 (F := Ideal) x11
local notation "R93" => val_main_v93 (F := Ideal) x11
local notation "R94" => val_main_v94 (F := Ideal) x12
local notation "R95" => val_main_v95 (F := Ideal) x12
local notation "R96" => val_main_v96 (F := Ideal) x0 x3 x4 x5 x6 x11
local notation "R97" => val_main_v97 (F := Ideal) x12
local notation "R98" => val_main_v98 (F := Ideal) x12
local notation "R99" => val_main_v99 (F := Ideal) x0 x3 x4 x5 x6 x11 x12
local notation "R100" => val_main_v100 (F := Ideal) x0 x3 x4 x5 x6 x11 x12
local notation "R101" => val_main_v101 (F := Ideal) x0 x2 x3 x4 x5 x6 x11 x12
local notation "R102" => val_main_v102 (F := Ideal) x2
local notation "R103" => val_main_v103 (F := Ideal) x2
local notation "R104" => val_main_v104 (F := Ideal)
local notation "R105" => val_main_v105 (F := Ideal) x2
local notation "R106" => val_main_v106 (F := Ideal) x2
local notation "R107" => val_main_v107 (F := Ideal) x0 x2 x3 x4 x5 x6 x11 x12
local notation "R108" => val_main_v108 (F := Ideal) x2
local notation "R109" => val_main_v109 (F := Ideal) x11
local notation "R110" => val_main_v110 (F := Ideal) x11
local notation "R111" => val_main_v111 (F := Ideal) x12
local notation "R112" => val_main_v112 (F := Ideal) x12
local notation "R113" => val_main_v113 (F := Ideal) x0 x3 x4 x5 x6 x11
local notation "R114" => val_main_v114 (F := Ideal) x12
local notation "R115" => val_main_v115 (F := Ideal) x12
local notation "R116" => val_main_v116 (F := Ideal) x0 x3 x4 x5 x6 x11 x12
local notation "R117" => val_main_v117 (F := Ideal) x0 x3 x4 x5 x6 x11 x12
local notation "R118" => val_main_v118 (F := Ideal) x0 x2 x3 x4 x5 x6 x11 x12
local notation "R119" => val_main_v119 (F := Ideal) x2
local notation "R120" => val_main_v120 (F := Ideal) x2
local notation "R121" => val_main_v121 (F := Ideal)
local notation "R122" => val_main_v122 (F := Ideal) x2
local notation "R123" => val_main_v123 (F := Ideal) x2
local notation "R124" => val_main_v124 (F := Ideal) x0 x2 x3 x4 x5 x6 x11 x12
local notation "R125" => val_main_v125 (F := Ideal) x0 x2 x3 x4 x5 x6 x11 x12
local notation "R126" => val_main_v126 (F := Ideal)
local notation "R127" => val_main_v127 (F := Ideal) x0 x2 x3 x4 x5 x6 x11 x12
local notation "R128" => val_main_v128 (F := Ideal) x0 x1 x2 x3 x4 x5 x6 x7 x8 x9 x10 x11 x12
local notation "R129" => val_main_v129 (F := Ideal) x11
local notation "R130" => val_main_v130 (F := Ideal) x11
local notation "R131" => val_main_v131 (F := Ideal) x12
local notation "R132" => val_main_v132 (F := Ideal) x12
local notation "R133" => val_main_v133 (F := Ideal) x0 x1 x2 x3 x4 x5 x6 x7 x8 x9 x10 x11 x12
local notation "R134" => val_main_v134 (F := Ideal) x12
local notation "R135" => val_main_v135 (F := Ideal) x12
local notation "R136" => val_main_v136 (F := Ideal) x0 x1 x2 x3 x4 x5 x6 x7 x8 x9 x10 x11 x12
local notation "R137" => val_main_v137 (F := Ideal) x0 x1 x2 x3 x4 x5 x6 x7 x8 x9 x10 x11 x12
local notation "R138" => val_main_v138 (F := Ideal) x0 x1 x2 x3 x4 x5 x6 x7 x8 x9 x10 x11 x12
local notation "R139" => val_main_v139 (F := Ideal) x2
local notation "R140" => val_main_v140 (F := Ideal) x2
local notation "R141" => val_main_v141 (F := Ideal)
local notation "R142" => val_main_v142 (F := Ideal) x2
local notation "R143" => val_main_v143 (F := Ideal) x2
local notation "R144" => val_main_v144 (F := Ideal) x0 x1 x2 x3 x4 x5 x6 x7 x8 x9 x10 x11 x12
local notation "R145" => val_main_v145 (F := Ideal) x11
local notation "R146" => val_main_v146 (F := Ideal) x11
local notation "R147" => val_main_v147 (F := Ideal) x12
local notation "R148" => val_main_v148 (F := Ideal) x12
local notation "R149" => val_main_v149 (F := Ideal) x0 x1 x2 x3 x4 x5 x6 x7 x8 x9 x10 x11 x12
local notation "R150" => val_main_v150 (F := Ideal) x12
local notation "R151" => val_main_v151 (F := Ideal) x12
local notation "R152" => val_main_v152 (F := Ideal) x0 x1 x2 x3 x4 x5 x6 x7 x8 x9 x10 x11 x12
local notation "R153" => val_main_v153 (F := Ideal) x0 x1 x2 x3 x4 x5 x6 x7 x8 x9 x10 x11 x12
local notation "R154" => val_main_v154 (F := Ideal) x0 x1 x2 x3 x4 x5 x6 x7 x8 x9 x10 x11 x12
local notation "R155" => val_main_v155 (F := Ideal) x2
local notation "R156" => val_main_v156 (F := Ideal) x2
local notation "R157" => val_main_v157 (F := Ideal)
local notation "R158" => val_main_v158 (F := Ideal) x2
local notation "R159" => val_main_v159 (F := Ideal) x2
local notation "R160" => val_main_v160 (F := Ideal) x0 x1 x2 x3 x4 x5 x6 x7 x8 x9 x10 x11 x12
local notation "R161" => val_main_v161 (F := Ideal) x0 x1 x2 x3 x4 x5 x6 x7 x8 x9 x10 x11 x12
local notation "R162" => val_main_v162 (F := Ideal)
local notation "R163" => val_main_v163 (F := Ideal) x0 x1 x2 x3 x4 x5 x6 x7 x8 x9 x10 x11 x12
local notation "R164" => val_main_v164 (F := Ideal) x0 x1 x2 x3 x4 x5 x6 x7 x8 x9 x10 x11 x12
local notation "R165" => val_main_v165 (F := Ideal) x2
local notation "R166" => val_main_v166 (F := Ideal) x11
local notation "R167" => val_main_v167 (F := Ideal) x11
local notation "R168" => val_main_v168 (F := Ideal) x12
local notation "R169" => val_main_v169 (F := Ideal) x12
local notation "R170" => val_main_v170 (F := Ideal) x0 x1 x2 x3 x4 x5 x6 x7 x8 x9 x10 x11 x12
local notation "R171" => val_main_v171 (F := Ideal) x12
local notation "R172" => val_main_v172 (F := Ideal) x12
local notation "R173" => val_main_v173 (F := Ideal) x0 x1 x2 x3 x4 x5 x6 x7 x8 x9 x10 x11 x12
local notation "R174" => val_main_v174 (F := Ideal) x0 x1 x2 x3 x4 x5 x6 x7 x8 x9 x10 x11 x12
local notation "R175" => val_main_v175 (F := Ideal) x0 x1 x2 x3 x4 x5 x6 x7 x8 x9 x10 x11 x12
local notation "R176" => val_main_v176 (F := Ideal) x2
local notation "R177" => val_main_v177 (F := Ideal) x2
local notation "R178" => val_main_v178 (F := Ideal)
local notation "R179" => val_main_v179 (F := Ideal) x2
local notation "R180" => val_main_v180 (F := Ideal) x2
local notation "R181" => val_main_v181 (F := Ideal) x0 x1 x2 x3 x4 x5 x6 x7 x8 x9 x10 x11 x12
local notation "R182" => val_main_v182 (F := Ideal) x2
local notation "R183" => val_main_v183 (F := Ideal) x11
local notation "R184" => val_main_v184 (F := Ideal) x11
local notation "R185" => val_main_v185 (F := Ideal) x12
local notation "R186" => val_main_v186 (F := Ideal) x12
local notation "R187" => val_main_v187 (F := Ideal) x0 x1 x2 x3 x4 x5 x6 x7 x8 x9 x10 x11 x12
local notation "R188" => val_main_v188 (F := Ideal) x12
local notation "R189" => val_main_v189 (F := Ideal) x12
local notation "R190" => val_main_v190 (F := Ideal) x0 x1 x2 x3 x4 x5 x6 x7 x8 x9 x10 x11 x12
local notation "R191" => val_main_v191 (F := Ideal) x0 x1 x2 x3 x4 x5 x6 x7 x8 x9 x10 x11 x12
local notation "R192" => val_main_v192 (F := Ideal) x0 x1 x2 x3 x4 x5 x6 x7 x8 x9 x10 x11 x12
local notation "R193" => val_main_v193 (F := Ideal) x2
local notation "R194" => val_main_v194 (F := Ideal) x2
local notation "R195" => val_main_v195 (F := Ideal)
local notation "R196" => val_main_v196 (F := Ideal) x2
local notation "R197" => val_main_v197 (F := Ideal) x2
local notation "R198" => val_main_v198 (F := Ideal) x0 x1 x2 x3 x4 x5 x6 x7 x8 x9 x10 x11 x12
local notation "R199" => val_main_v199 (F := Ideal) x0 x1 x2 x3 x4 x5 x6 x7 x8 x9 x10 x11 x12
local notation "R200" => val_main_v200 (F := Ideal)
local notation "R201" => val_main_v201 (F := Ideal) x0 x1 x2 x3 x4 x5 x6 x7 x8 x9 x10 x11 x12
local notation "R202" => val_main_v202 (F := Ideal) x0 x1 x2 x3 x4 x5 x6 x7 x8 x9 x10 x11 x12
local notation "R203" => val_main_v203 (F := Ideal) x0 x1 x2 x3 x4 x5 x6 x7 x8 x9 x10 x11 x12 x17
local notation "R204" => val_main_v204 (F := Ideal) x18
local notation "R205" => val_main_v205 (F := Ideal) x18
local notation "R206" => val_main_v206 (F := Ideal) x0 x1 x2 x3 x4 x5 x6 x7 x8 x9 x10 x11 x12 x17 x18
local notation "R207" => val_main_v207 (F := Ideal) x0 x1 x2 x3 x4 x5 x6 x7 x8 x9 x10 x11 x12 x19
local notation "R208" => val_main_v208 (F := Ideal) x20
local notation "R209" => val_main_v209 (F := Ideal) x20
local notation "R210" => val_main_v210 (F := Ideal) x0 x1 x2 x3 x4 x5 x6 x7 x8 x9 x10 x11 x12 x19 x20
local notation "R211" => val_main_v211 (F := Ideal) x13
local notation "R212" => val_main_v212 (F := Ideal) x13
local notation "R213" => val_main_v213 (F := Ideal) x14
local notation "R214" => val_main_v214 (F := Ideal) x14
local notation "R215" => val_main_v215 (F := Ideal) x0 x1 x2 x3 x4 x5 x6 x7 x8 x9 x10 x11 x12 x13 x19 x20
local notation "R216" => val_main_v216 (F := Ideal) x14
local notation "R217" => val_main_v217 (F := Ideal) x14
local notation "R218" => val_main_v218 (F := Ideal) x0 x1 x2 x3 x4 x5 x6 x7 x8 x9 x10 x11 x12 x13 x14 x19 x20
local notation "R219" => val_main_v219 (F := Ideal) x0 x1 x2 x3 x4 x5 x6 x7 x8 x9 x10 x11 x12 x13 x14 x19 x20
local notation "R220" => val_main_v220 (F := Ideal) x0 x1 x2 x3 x4 x5 x6 x7 x8 x9 x10 x11 x12 x13 x14 x19 x20
local notation "R221" => val_main_v221 (F := Ideal) x2
local notation "R222" => val_main_v222 (F := Ideal) x2
local notation "R223" => val_main_v223 (F := Ideal)
local notation "R224" => val_main_v224 (F := Ideal) x2
local notation "R225" => val_main_v225 (F := Ideal) x2
local notation "R226" => val_main_v226 (F := Ideal) x0 x1 x2 x3 x4 x5 x6 x7 x8 x9 x10 x11 x12 x13 x14 x19 x20
local notation "R227" => val_main_v227 (F := Ideal) x13
local notation "R228" => val_main_v228 (F := Ideal) x13
local notation "R229" => val_main_v229 (F := Ideal) x14
local notation "R230" => val_main_v230 (F := Ideal) x14
local notation "R231" => val_main_v231 (F := Ideal) x0 x1 x2 x3 x4 x5 x6 x7 x8 x9 x10 x11 x12 x13 x19 x20
local notation "R232" => val_main_v232 (F := Ideal) x14
local notation "R233" => val_main_v233 (F := Ideal) x14
local notation "R234" => val_main_v234 (F := Ideal) x0 x1 x2 x3 x4 x5 x6 x7 x8 x9 x10 x11 x12 x13 x14 x19 x20
local notation "R235" => val_main_v235 (F := Ideal) x0 x1 x2 x3 x4 x5 x6 x7 x8 x9 x10 x11 x12 x13 x14 x19 x20
local notation "R236" => val_main_v236 (F := Ideal) x0 x1 x2 x3 x4 x5 x6 x7 x8 x9 x10 x11 x12 x13 x14 x19 x20
local notation "R237" => val_main_v237 (F := Ideal) x2
local notation "R238" => val_main_v238 (F := Ideal) x2
local notation "R239" => val_main_v239 (F := Ideal)
local notation "R240" => val_main_v240 (F := Ideal) x2
local notation "R241" => val_main_v241 (F := Ideal) x2
local notation "R242" => val_main_v242 (F := Ideal) x0 x1 x2 x3 x4 x5 x6 x7 x8 x9 x10 x11 x12 x13 x14 x19 x20
local notation "R243" => val_main_v243 (F := Ideal) x0 x1 x2 x3 x4 x5 x6 x7 x8 x9 x10 x11 x12 x13 x14 x19 x20
local notation "R244" => val_main_v244 (F := Ideal)
local notation "R245" => val_main_v245 (F := Ideal) x0 x1 x2 x3 x4 x5 x6 x7 x8 x9 x10 x11 x12 x13 x14 x19 x20
local notation "R246" => val_main_v246 (F := Ideal) x0 x1 x2 x3 x4 x5 x6 x7 x8 x9 x10 x11 x12 x13 x14 x17 x18 x19 x20
local notation "R247" => val_main_v247 (F := Ideal) x2
local notation "R248" => val_main_v248 (F := Ideal) x15
local notation "R249" => val_main_v249 (F := Ideal) x15
local notation "R250" => val_main_v250 (F := Ideal) x16
local notation "R251" => val_main_v251 (F := Ideal) x16
local notation "R252" => val_main_v252 (F := Ideal) x0 x1 x2 x3 x4 x5 x6 x7 x8 x9 x10 x11 x12 x15 x17 x18
local notation "R253" => val_main_v253 (F := Ideal) x16
local notation "R254" => val_main_v254 (F := Ideal) x16
local notation "R255" => val_main_v255 (F := Ideal) x0 x1 x2 x3 x4 x5 x6 x7 x8 x9 x10 x11 x12 x15 x16 x17 x18
local notation "R256" => val_main_v256 (F := Ideal) x0 x1 x2 x3 x4 x5 x6 x7 x8 x9 x10 x11 x12 x15 x16 x17 x18
local notation "R257" => val_main_v257 (F := Ideal) x0 x1 x2 x3 x4 x5 x6 x7 x8 x9 x10 x11 x12 x15 x16 x17 x18
local notation "R258" => val_main_v258 (F := Ideal) x2
local notation "R259" => val_main_v259 (F := Ideal) x2
local notation "R260" => val_main_v260 (F := Ideal)
local notation "R261" => val_main_v261 (F := Ideal) x2
local notation "R262" => val_main_v262 (F := Ideal) x2
local notation "R263" => val_main_v263 (F := Ideal) x0 x1 x2 x3 x4 x5 x6 x7 x8 x9 x10 x11 x12 x15 x16 x17 x18
local notation "R264" => val_main_v264 (F := Ideal) x2
local notation "R265" => val_main_v265 (F := Ideal) x15
local notation "R266" => val_main_v266 (F := Ideal) x15
local notation "R267" => val_main_v267 (F := Ideal) x16
local notation "R268" => val_main_v268 (F := Ideal) x16
local notation "R269" => val_main_v269 (F := Ideal) x0 x1 x2 x3 x4 x5 x6 x7 x8 x9 x10 x11 x12 x15 x17 x18
local notation "R270" => val_main_v270 (F := Ideal) x16
local notation "R271" => val_main_v271 (F := Ideal) x16
local notation "R272" => val_main_v272 (F := Ideal) x0 x1 x2 x3 x4 x5 x6 x7 x8 x9 x10 x11 x12 x15 x16 x17 x18
local notation "R273" => val_main_v273 (F := Ideal) x0 x1 x2 x3 x4 x5 x6 x7 x8 x9 x10 x11 x12 x15 x16 x17 x18
local notation "R274" => val_main_v274 (F := Ideal) x0 x1 x2 x3 x4 x5 x6 x7 x8 x9 x10 x11 x12 x15 x16 x17 x18
local notation "R275" => val_main_v275 (F := Ideal) x2
local notation "R276" => val_main_v276 (F := Ideal) x2
local notation "R277" => val_main_v277 (F := Ideal)
local notation "R278" => val_main_v278 (F := Ideal) x2
local notation "R279" => val_main_v279 (F := Ideal) x2
local notation "R280" => val_main_v280 (F := Ideal) x0 x1 x2 x3 x4 x5 x6 x7 x8 x9 x10 x11 x12 x15 x16 x17 x18
local notation "R281" => val_main_v281 (F := Ideal) x0 x1 x2 x3 x4 x5 x6 x7 x8 x9 x10 x11 x12 x15 x16 x17 x18
local notation "R282" => val_main_v282 (F := Ideal)
local notation "R283" => val_main_v283 (F := Ideal) x0 x1 x2 x3 x4 x5 x6 x7 x8 x9 x10 x11 x12 x15 x16 x17 x18
local notation "R284" => val_main_v284 (F := Ideal) x0 x1 x2 x3 x4 x5 x6 x7 x8 x9 x10 x11 x12 x15 x16 x17 x18 x19 x20
local notation "R285" => val_main_v285 (F := Ideal) x13
local notation "R286" => val_main_v286 (F := Ideal) x13
local notation "R287" => val_main_v287 (F := Ideal) x14
local notation "R288" => val_main_v288 (F := Ideal) x14
local notation "R289" => val_main_v289 (F := Ideal) x0 x1 x2 x3 x4 x5 x6 x7 x8 x9 x10 x11 x12 x13 x15 x16 x17 x18 x19 x20
local notation "R290" => val_main_v290 (F := Ideal) x14
local notation "R291" => val_main_v291 (F := Ideal) x14
local notation "R292" => val_main_v292 (F := Ideal) x0 x1 x2 x3 x4 x5 x6 x7 x8 x9 x10 x11 x12 x13 x14 x15 x16 x17 x18 x19 x20
local notation "R293" => val_main_v293 (F := Ideal) x0 x1 x2 x3 x4 x5 x6 x7 x8 x9 x10 x11 x12 x13 x14 x15 x16 x17 x18 x19 x20
local notation "R294" => val_main_v294 (F := Ideal) x0 x1 x2 x3 x4 x5 x6 x7 x8 x9 x10 x11 x12 x13 x14 x15 x16 x17 x18 x19 x20
local notation "R295" => val_main_v295 (F := Ideal) x2
local notation "R296" => val_main_v296 (F := Ideal) x2
local notation "R297" => val_main_v297 (F := Ideal)
local notation "R298" => val_main_v298 (F := Ideal) x2
local notation "R299" => val_main_v299 (F := Ideal) x2
local notation "R300" => val_main_v300 (F := Ideal) x0 x1 x2 x3 x4 x5 x6 x7 x8 x9 x10 x11 x12 x13 x14 x15 x16 x17 x18 x19 x20
local notation "R301" => val_main_v301 (F := Ideal) x13
local notation "R302" => val_main_v302 (F := Ideal) x13
local notation "R303" => val_main_v303 (F := Ideal) x14
local notation "R304" => val_main_v304 (F := Ideal) x14
local notation "R305" => val_main_v305 (F := Ideal) x0 x1 x2 x3 x4 x5 x6 x7 x8 x9 x10 x11 x12 x13 x15 x16 x17 x18 x19 x20
local notation "R306" => val_main_v306 (F := Ideal) x14
local notation "R307" => val_main_v307 (F := Ideal) x14
local notation "R308" => val_main_v308 (F := Ideal) x0 x1 x2 x3 x4 x5 x6 x7 x8 x9 x10 x11 x12 x13 x14 x15 x16 x17 x18 x19 x20
local notation "R309" => val_main_v309 (F := Ideal) x0 x1 x2 x3 x4 x5 x6 x7 x8 x9 x10 x11 x12 x13 x14 x15 x16 x17 x18 x19 x20
local notation "R310" => val_main_v310 (F := Ideal) x0 x1 x2 x3 x4 x5 x6 x7 x8 x9 x10 x11 x12 x13 x14 x15 x16 x17 x18 x19 x20
local notation "R311" => val_main_v311 (F := Ideal) x2
local notation "R312" => val_main_v312 (F := Ideal) x2
local notation "R313" => val_main_v313 (F := Ideal)
local notation "R314" => val_main_v314 (F := Ideal) x2
local notation "R315" => val_main_v315 (F := Ideal) x2
local notation "R316" => val_main_v316 (F := Ideal) x0 x1 x2 x3 x4 x5 x6 x7 x8 x9 x10 x11 x12 x13 x14 x15 x16 x17 x18 x19 x20
local notation "R317" => val_main_v317 (F := Ideal) x0 x1 x2 x3 x4 x5 x6 x7 x8 x9 x10 x11 x12 x13 x14 x15 x16 x17 x18 x19 x20
local notation "R318" => val_main_v318 (F := Ideal)
local notation "R319" => val_main_v319 (F := Ideal) x0 x1 x2 x3 x4 x5 x6 x7 x8 x9 x10 x11 x12 x13 x14 x15 x16 x17 x18 x19 x20
local notation "R320" => val_main_v320 (F := Ideal) x0 x1 x2 x3 x4 x5 x6 x7 x8 x9 x10 x11 x12 x13 x14 x15 x16 x17 x18 x19 x20
local notation "R321" => val_main_v321 (F := Ideal) x2
local notation "R322" => val_main_v322 (F := Ideal) x15
local notation "R323" => val_main_v323 (F := Ideal) x15
local notation "R324" => val_main_v324 (F := Ideal) x16
local notation "R325" => val_main_v325 (F := Ideal) x16
local notation "R326" => val_main_v326 (F := Ideal) x0 x1 x2 x3 x4 x5 x6 x7 x8 x9 x10 x11 x12 x13 x14 x15 x17 x18 x19 x20
local notation "R327" => val_main_v327 (F := Ideal) x16
local notation "R328" => val_main_v328 (F := Ideal) x16
local notation "R329" => val_main_v329 (F := Ideal) x0 x1 x2 x3 x4 x5 x6 x7 x8 x9 x10 x11 x12 x13 x14 x15 x16 x17 x18 x19 x20
local notation "R330" => val_main_v330 (F := Ideal) x0 x1 x2 x3 x4 x5 x6 x7 x8 x9 x10 x11 x12 x13 x14 x15 x16 x17 x18 x19 x20
local notation "R331" => val_main_v331 (F := Ideal) x0 x1 x2 x3 x4 x5 x6 x7 x8 x9 x10 x11 x12 x13 x14 x15 x16 x17 x18 x19 x20
local notation "R332" => val_main_v332 (F := Ideal) x2
local notation "R333" => val_main_v333 (F := Ideal) x2
local notation "R334" => val_main_v334 (F := Ideal)
local notation "R335" => val_main_v335 (F := Ideal) x2
local notation "R336" => val_main_v336 (F := Ideal) x2
local notation "R337" => val_main_v337 (F := Ideal) x0 x1 x2 x3 x4 x5 x6 x7 x8 x9 x10 x11 x12 x13 x14 x15 x16 x17 x18 x19 x20
local notation "R338" => val_main_v338 (F := Ideal) x2
local notation "R339" => val_main_v339 (F := Ideal) x15
local notation "R340" => val_main_v340 (F := Ideal) x15
local notation "R341" => val_main_v341 (F := Ideal) x16
local notation "R342" => val_main_v342 (F := Ideal) x16
local notation "R343" => val_main_v343 (F := Ideal) x0 x1 x2 x3 x4 x5 x6 x7 x8 x9 x10 x11 x12 x13 x14 x15 x17 x18 x19 x20
local notation "R344" => val_main_v344 (F := Ideal) x16
local notation "R345" => val_main_v345 (F := Ideal) x16
local notation "R346" => val_main_v346 (F := Ideal) x0 x1 x2 x3 x4 x5 x6 x7 x8 x9 x10 x11 x12 x13 x14 x15 x16 x17 x18 x19 x20
local notation "R347" => val_main_v347 (F := Ideal) x0 x1 x2 x3 x4 x5 x6 x7 x8 x9 x10 x11 x12 x13 x14 x15 x16 x17 x18 x19 x20
local notation "R348" => val_main_v348 (F := Ideal) x0 x1 x2 x3 x4 x5 x6 x7 x8 x9 x10 x11 x12 x13 x14 x15 x16 x17 x18 x19 x20
local notation "R349" => val_main_v349 (F := Ideal) x2
local notation "R350" => val_main_v350 (F := Ideal) x2
local notation "R351" => val_main_v351 (F := Ideal)
local notation "R352" => val_main_v352 (F := Ideal) x2
local notation "R353" => val_main_v353 (F := Ideal) x2
local notation "R354" => val_main_v354 (F := Ideal) x0 x1 x2 x3 x4 x5 x6 x7 x8 x9 x10 x11 x12 x13 x14 x15 x16 x17 x18 x19 x20
local notation "R355" => val_main_v355 (F := Ideal) x0 x1 x2 x3 x4 x5 x6 x7 x8 x9 x10 x11 x12 x13 x14 x15 x16 x17 x18 x19 x20
local notation "R356" => val_main_v356 (F := Ideal)
local notation "R357" => val_main_v357 (F := Ideal) x0 x1 x2 x3 x4 x5 x6 x7 x8 x9 x10 x11 x12 x13 x14 x15 x16 x17 x18 x19 x20
local notation "R358" => val_main_v358 (F := Ideal) x0 x1 x2 x3 x4 x5 x6 x7 x8 x9 x10 x11 x12 x13 x14 x15 x16 x17 x18 x19 x20
-- end of the names

/-! ## The second feature-level round, stage by stage

The round reads the objects' features `R90` ([2048, 512]) and the relations' features `R128` ([32768, 512]) and writes the
objects' `R164` and the relations' `R202`. Each of its four halves is a linear layer with the positive part on the
source's rows, summed through an adjacency map (the subjects' `R18`, the objects' `R36`, or their transposes) and divided
by the row's degree plus the small constant. -/

/-! ### The objects' half through the subjects' map -/

/-- Its weight: one slice of the stacked weights, as a matrix. -/
theorem W_v130 : mat (a := 512) (b := 512) R130 = fun a b => x11 (ix3 (0 : Fin 4) a b) := by
  funext a b
  simp only [mat_apply]
  rw [val_main_v130_apply, val_main_v129_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v132 : vec (n := 512) R132 = fun j => x12 (ix2 (0 : Fin 4) j) := by
  funext j
  simp only [vec_apply]
  rw [val_main_v132_apply, val_main_v131_apply]
  have hj := j.isLt
  exact congrArg _ (idx2_ext rfl (by show j.val % 512 = j.val; omega))

/-- The linear layer followed by the positive part, applied to the source's rows. -/
theorem fc_v137 : mat (a := 32768) (b := 512) R137
    = Spec.linRelu (mat (a := 32768) (b := 512) R128) (mat (a := 512) (b := 512) R130) (vec (n := 512) R132) := by
  funext i j
  simp only [mat_apply, vec_apply, Spec.linRelu, Spec.relu, Spec.lin]
  rw [val_main_v137_apply, val_main_v136_apply, val_main_v133_apply, val_main_v135_apply, val_main_v134_apply,
    val_main_call6_v0_apply, val_main_call6_cst_apply]
  have e1 : ∀ k, lidx_main_v133 (ix2 i j) k = ix2 i k := fun k => idx2_ext rfl rfl
  have e2 : ∀ k, ridx_main_v133 (ix2 i j) k = ix2 k j := fun k => idx2_ext rfl rfl
  have e3 : idx_main_v134 (idx_main_v135 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v144 : mat (a := 2048) (b := 512) R144
    = Spec.collect (mat (a := 2048) (b := 32768) R18) (mat (a := 32768) (b := 512) R137) := by
  funext i j
  simp only [mat_apply, Spec.collect, Spec.eps]
  rw [val_main_v144_apply, val_main_v138_apply, val_main_v143_apply, val_main_v142_apply, val_main_v140_apply,
    val_main_v139_apply, val_main_v141_apply, val_main_cst_21_apply, val_main_cst_20_apply]
  have e1 : ∀ k, lidx_main_v138 (ix2 i j) k = ix2 i k := fun k => idx2_ext rfl rfl
  have e2 : ∀ k, ridx_main_v138 (ix2 i j) k = ix2 k j := fun k => idx2_ext rfl rfl
  have e3 : ∀ k, idx_main_v139 (idx_main_v140 (idx_main_v143 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The objects' half through the objects' map -/

/-- Its weight: one slice of the stacked weights, as a matrix. -/
theorem W_v146 : mat (a := 512) (b := 512) R146 = fun a b => x11 (ix3 (1 : Fin 4) a b) := by
  funext a b
  simp only [mat_apply]
  rw [val_main_v146_apply, val_main_v145_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v148 : vec (n := 512) R148 = fun j => x12 (ix2 (1 : Fin 4) j) := by
  funext j
  simp only [vec_apply]
  rw [val_main_v148_apply, val_main_v147_apply]
  have hj := j.isLt
  exact congrArg _ (idx2_ext rfl (by show j.val % 512 = j.val; omega))

/-- The linear layer followed by the positive part, applied to the source's rows. -/
theorem fc_v153 : mat (a := 32768) (b := 512) R153
    = Spec.linRelu (mat (a := 32768) (b := 512) R128) (mat (a := 512) (b := 512) R146) (vec (n := 512) R148) := by
  funext i j
  simp only [mat_apply, vec_apply, Spec.linRelu, Spec.relu, Spec.lin]
  rw [val_main_v153_apply, val_main_v152_apply, val_main_v149_apply, val_main_v151_apply, val_main_v150_apply,
    val_main_call7_v0_apply, val_main_call7_cst_apply]
  have e1 : ∀ k, lidx_main_v149 (ix2 i j) k = ix2 i k := fun k => idx2_ext rfl rfl
  have e2 : ∀ k, ridx_main_v149 (ix2 i j) k = ix2 k j := fun k => idx2_ext rfl rfl
  have e3 : idx_main_v150 (idx_main_v151 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v160 : mat (a := 2048) (b := 512) R160
    = Spec.collect (mat (a := 2048) (b := 32768) R36) (mat (a := 32768) (b := 512) R153) := by
  funext i j
  simp only [mat_apply, Spec.collect, Spec.eps]
  rw [val_main_v160_apply, val_main_v154_apply, val_main_v159_apply, val_main_v158_apply, val_main_v156_apply,
    val_main_v155_apply, val_main_v157_apply, val_main_cst_23_apply, val_main_cst_22_apply]
  have e1 : ∀ k, lidx_main_v154 (ix2 i j) k = ix2 i k := fun k => idx2_ext rfl rfl
  have e2 : ∀ k, ridx_main_v154 (ix2 i j) k = ix2 k j := fun k => idx2_ext rfl rfl
  have e3 : ∀ k, idx_main_v155 (idx_main_v156 (idx_main_v159 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The objects' update: the target plus half the sum of its two halves. -/
theorem u_v164 : mat (a := 2048) (b := 512) R164
    = Spec.upd (mat (a := 2048) (b := 512) R90) (mat (a := 2048) (b := 512) R144) (mat (a := 2048) (b := 512) R160) := by
  funext i j
  simp only [mat_apply, Spec.upd, Spec.half]
  rw [val_main_v164_apply, val_main_v163_apply, val_main_v162_apply, val_main_cst_24_apply, val_main_v161_apply]
  rfl

/-! ### The relations' half through the subjects' map transposed -/

/-- Its weight: one slice of the stacked weights, as a matrix. -/
theorem W_v167 : mat (a := 512) (b := 512) R167 = fun a b => x11 (ix3 (2 : Fin 4) a b) := by
  funext a b
  simp only [mat_apply]
  rw [val_main_v167_apply, val_main_v166_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v169 : vec (n := 512) R169 = fun j => x12 (ix2 (2 : Fin 4) j) := by
  funext j
  simp only [vec_apply]
  rw [val_main_v169_apply, val_main_v168_apply]
  have hj := j.isLt
  exact congrArg _ (idx2_ext rfl (by show j.val % 512 = j.val; omega))

/-- The linear layer followed by the positive part, applied to the source's rows. -/
theorem fc_v174 : mat (a := 2048) (b := 512) R174
    = Spec.linRelu (mat (a := 2048) (b := 512) R90) (mat (a := 512) (b := 512) R167) (vec (n := 512) R169) := by
  funext i j
  simp only [mat_apply, vec_apply, Spec.linRelu, Spec.relu, Spec.lin]
  rw [val_main_v174_apply, val_main_v173_apply, val_main_v170_apply, val_main_v172_apply, val_main_v171_apply,
    val_main_call8_v0_apply, val_main_call8_cst_apply]
  have e1 : ∀ k, lidx_main_v170 (ix2 i j) k = ix2 i k := fun k => idx2_ext rfl rfl
  have e2 : ∀ k, ridx_main_v170 (ix2 i j) k = ix2 k j := fun k => idx2_ext rfl rfl
  have e3 : idx_main_v171 (idx_main_v172 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v181 : mat (a := 32768) (b := 512) R181
    = Spec.collect (mat (a := 32768) (b := 2048) R165) (mat (a := 2048) (b := 512) R174) := by
  funext i j
  simp only [mat_apply, Spec.collect, Spec.eps]
  rw [val_main_v181_apply, val_main_v175_apply, val_main_v180_apply, val_main_v179_apply, val_main_v177_apply,
    val_main_v176_apply, val_main_v178_apply, val_main_cst_26_apply, val_main_cst_25_apply]
  have e1 : ∀ k, lidx_main_v175 (ix2 i j) k = ix2 i k := fun k => idx2_ext rfl rfl
  have e2 : ∀ k, ridx_main_v175 (ix2 i j) k = ix2 k j := fun k => idx2_ext rfl rfl
  have e3 : ∀ k, idx_main_v176 (idx_main_v177 (idx_main_v180 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The relations' half through the objects' map transposed -/

/-- Its weight: one slice of the stacked weights, as a matrix. -/
theorem W_v184 : mat (a := 512) (b := 512) R184 = fun a b => x11 (ix3 (3 : Fin 4) a b) := by
  funext a b
  simp only [mat_apply]
  rw [val_main_v184_apply, val_main_v183_apply]
  have ha := a.isLt
  have hb := b.isLt
  exact congrArg _ (idx3_ext rfl (by show (a.val * 512 + b.val) / 512 % 512 = a.val; omega)
    (by show (a.val * 512 + b.val) % 512 = b.val; omega))

/-- Its bias: the matching row of the stacked biases, as a vector. -/
theorem b_v186 : vec (n := 512) R186 = fun j => x12 (ix2 (3 : Fin 4) j) := by
  funext j
  simp only [vec_apply]
  rw [val_main_v186_apply, val_main_v185_apply]
  have hj := j.isLt
  exact congrArg _ (idx2_ext rfl (by show j.val % 512 = j.val; omega))

/-- The linear layer followed by the positive part, applied to the source's rows. -/
theorem fc_v191 : mat (a := 2048) (b := 512) R191
    = Spec.linRelu (mat (a := 2048) (b := 512) R90) (mat (a := 512) (b := 512) R184) (vec (n := 512) R186) := by
  funext i j
  simp only [mat_apply, vec_apply, Spec.linRelu, Spec.relu, Spec.lin]
  rw [val_main_v191_apply, val_main_v190_apply, val_main_v187_apply, val_main_v189_apply, val_main_v188_apply,
    val_main_call9_v0_apply, val_main_call9_cst_apply]
  have e1 : ∀ k, lidx_main_v187 (ix2 i j) k = ix2 i k := fun k => idx2_ext rfl rfl
  have e2 : ∀ k, ridx_main_v187 (ix2 i j) k = ix2 k j := fun k => idx2_ext rfl rfl
  have e3 : idx_main_v188 (idx_main_v189 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v198 : mat (a := 32768) (b := 512) R198
    = Spec.collect (mat (a := 32768) (b := 2048) R182) (mat (a := 2048) (b := 512) R191) := by
  funext i j
  simp only [mat_apply, Spec.collect, Spec.eps]
  rw [val_main_v198_apply, val_main_v192_apply, val_main_v197_apply, val_main_v196_apply, val_main_v194_apply,
    val_main_v193_apply, val_main_v195_apply, val_main_cst_28_apply, val_main_cst_27_apply]
  have e1 : ∀ k, lidx_main_v192 (ix2 i j) k = ix2 i k := fun k => idx2_ext rfl rfl
  have e2 : ∀ k, ridx_main_v192 (ix2 i j) k = ix2 k j := fun k => idx2_ext rfl rfl
  have e3 : ∀ k, idx_main_v193 (idx_main_v194 (idx_main_v197 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The relations' update: the target plus half the sum of its two halves. -/
theorem u_v202 : mat (a := 32768) (b := 512) R202
    = Spec.upd (mat (a := 32768) (b := 512) R128) (mat (a := 32768) (b := 512) R181) (mat (a := 32768) (b := 512) R198) := by
  funext i j
  simp only [mat_apply, Spec.upd, Spec.half]
  rw [val_main_v202_apply, val_main_v201_apply, val_main_v200_apply, val_main_cst_29_apply, val_main_v199_apply]
  rfl

/-! ### The round -/

/-- THE ROUND: the pair of its two results is Spec.lean's `round` of the two maps, the eight slices of the stacked
    weights and biases, and the two sources. -/
theorem round_v164_v202 :
    (mat (a := 2048) (b := 512) R164, mat (a := 32768) (b := 512) R202)
      = Spec.round (mat (a := 2048) (b := 32768) R18) (mat (a := 2048) (b := 32768) R36)
          (fun a b => x11 (ix3 (0 : Fin 4) a b)) (fun j => x12 (ix2 (0 : Fin 4) j))
          (fun a b => x11 (ix3 (1 : Fin 4) a b)) (fun j => x12 (ix2 (1 : Fin 4) j))
          (fun a b => x11 (ix3 (2 : Fin 4) a b)) (fun j => x12 (ix2 (2 : Fin 4) j))
          (fun a b => x11 (ix3 (3 : Fin 4) a b)) (fun j => x12 (ix2 (3 : Fin 4) j))
          (mat (a := 2048) (b := 512) R90) (mat (a := 32768) (b := 512) R128) := by
  unfold Spec.round
  rw [u_v164, u_v202, c_v144, c_v160, c_v181, c_v198, fc_v137, fc_v153, fc_v174, fc_v191,
    W_v130, b_v132, W_v146, b_v148, W_v167, b_v169, W_v184, b_v186, tr_v165, tr_v182]

end Cert.RefSpec

end
-- ==== Proof.RefS1.lean ====
/-
  The reference's first score-level round is one `round` of Spec.lean.

  Stage by stage over the read-at-an-index lemmas of the reference's operations: each weight and bias slice, each
  linear layer with the positive part, each adjacency-weighted and degree-normalised sum, the two updates, and last the
  round as a whole. Every lemma states an array read as a matrix (`mat`) or vector (`vec`) as the Spec function of
  the arrays the stage reads, so the round is assembled by rewriting.
-/
import proofs.«422120_j65652870087589_3_alg».proof.Proof.RefBase

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open scoped BigOperators

-- the argument arrays, and each reference buffer's value at them
variable (x0 : AF S2048x2048) (x1 : AF S32768x2048) (x2 : AI S32768x2) (x3 : AF S2048x512) (x4 : AF S512) (x5 : AF S512x512)
  (x6 : AF S512) (x7 : AF S2048x512) (x8 : AF S512) (x9 : AF S512x512) (x10 : AF S512) (x11 : AF S4x512x512) (x12 : AF S4x512)
  (x13 : AF S2x51x151) (x14 : AF S2x151) (x15 : AF S2x151x51) (x16 : AF S2x51) (x17 : AF S512x151) (x18 : AF S151)
  (x19 : AF S512x51) (x20 : AF S51)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2
local notation "R37" => val_main_v37 (F := Ideal) x0 x3
local notation "R38" => val_main_v38 (F := Ideal) x4
local notation "R39" => val_main_v39 (F := Ideal) x4
local notation "R40" => val_main_v40 (F := Ideal) x0 x3 x4
local notation "R41" => val_main_v41 (F := Ideal) x0 x3 x4
local notation "R42" => val_main_v42 (F := Ideal) x0 x3 x4 x5
local notation "R43" => val_main_v43 (F := Ideal) x6
local notation "R44" => val_main_v44 (F := Ideal) x6
local notation "R45" => val_main_v45 (F := Ideal) x0 x3 x4 x5 x6
local notation "R46" => val_main_v46 (F := Ideal) x1 x7
local notation "R47" => val_main_v47 (F := Ideal) x8
local notation "R48" => val_main_v48 (F := Ideal) x8
local notation "R49" => val_main_v49 (F := Ideal) x1 x7 x8
local notation "R50" => val_main_v50 (F := Ideal) x1 x7 x8
local notation "R51" => val_main_v51 (F := Ideal) x1 x7 x8 x9
local notation "R52" => val_main_v52 (F := Ideal) x10
local notation "R53" => val_main_v53 (F := Ideal) x10
local notation "R54" => val_main_v54 (F := Ideal) x1 x7 x8 x9 x10
local notation "R55" => val_main_v55 (F := Ideal) x11
local notation "R56" => val_main_v56 (F := Ideal) x11
local notation "R57" => val_main_v57 (F := Ideal) x12
local notation "R58" => val_main_v58 (F := Ideal) x12
local notation "R59" => val_main_v59 (F := Ideal) x1 x7 x8 x9 x10 x11
local notation "R60" => val_main_v60 (F := Ideal) x12
local notation "R61" => val_main_v61 (F := Ideal) x12
local notation "R62" => val_main_v62 (F := Ideal) x1 x7 x8 x9 x10 x11 x12
local notation "R63" => val_main_v63 (F := Ideal) x1 x7 x8 x9 x10 x11 x12
local notation "R64" => val_main_v64 (F := Ideal) x1 x2 x7 x8 x9 x10 x11 x12
local notation "R65" => val_main_v65 (F := Ideal) x2
local notation "R66" => val_main_v66 (F := Ideal) x2
local notation "R67" => val_main_v67 (F := Ideal)
local notation "R68" => val_main_v68 (F := Ideal) x2
local notation "R69" => val_main_v69 (F := Ideal) x2
local notation "R70" => val_main_v70 (F := Ideal) x1 x2 x7 x8 x9 x10 x11 x12
local notation "R71" => val_main_v71 (F := Ideal) x11
local notation "R72" => val_main_v72 (F := Ideal) x11
local notation "R73" => val_main_v73 (F := Ideal) x12
local notation "R74" => val_main_v74 (F := Ideal) x12
local notation "R75" => val_main_v75 (F := Ideal) x1 x7 x8 x9 x10 x11
local notation "R76" => val_main_v76 (F := Ideal) x12
local notation "R77" => val_main_v77 (F := Ideal) x12
local notation "R78" => val_main_v78 (F := Ideal) x1 x7 x8 x9 x10 x11 x12
local notation "R79" => val_main_v79 (F := Ideal) x1 x7 x8 x9 x10 x11 x12
local notation "R80" => val_main_v80 (F := Ideal) x1 x2 x7 x8 x9 x10 x11 x12
local notation "R81" => val_main_v81 (F := Ideal) x2
local notation "R82" => val_main_v82 (F := Ideal) x2
local notation "R83" => val_main_v83 (F := Ideal)
local notation "R84" => val_main_v84 (F := Ideal) x2
local notation "R85" => val_main_v85 (F := Ideal) x2
local notation "R86" => val_main_v86 (F := Ideal) x1 x2 x7 x8 x9 x10 x11 x12
local notation "R87" => val_main_v87 (F := Ideal) x1 x2 x7 x8 x9 x10 x11 x12
local notation "R88" => val_main_v88 (F := Ideal)
local notation "R89" => val_main_v89 (F := Ideal) x1 x2 x7 x8 x9 x10 x11 x12
local notation "R90" => val_main_v90 (F := Ideal) x0 x1 x2 x3 x4 x5 x6 x7 x8 x9 x10 x11 x12
local notation "R91" => val_main_v91 (F := Ideal) x2
local notation "R92" => val_main_v92 (F := Ideal) x11
local notation "R93" => val_main_v93 (F := Ideal) x11
local notation "R94" => val_main_v94 (F := Ideal) x12
local notation "R95" => val_main_v95 (F := Ideal) x12
local notation "R96" => val_main_v96 (F := Ideal) x0 x3 x4 x5 x6 x11
local notation "R97" => val_main_v97 (F := Ideal) x12
local notation "R98" => val_main_v98 (F := Ideal) x12
local notation "R99" => val_main_v99 (F := Ideal) x0 x3 x4 x5 x6 x11 x12
local notation "R100" => val_main_v100 (F := Ideal) x0 x3 x4 x5 x6 x11 x12
local notation "R101" => val_main_v101 (F := Ideal) x0 x2 x3 x4 x5 x6 x11 x12
local notation "R102" => val_main_v102 (F := Ideal) x2
local notation "R103" => val_main_v103 (F := Ideal) x2
local notation "R104" => val_main_v104 (F := Ideal)
local notation "R105" => val_main_v105 (F := Ideal) x2
local notation "R106" => val_main_v106 (F := Ideal) x2
local notation "R107" => val_main_v107 (F := Ideal) x0 x2 x3 x4 x5 x6 x11 x12
local notation "R108" => val_main_v108 (F := Ideal) x2
local notation "R109" => val_main_v109 (F := Ideal) x11
local notation "R110" => val_main_v110 (F := Ideal) x11
local notation "R111" => val_main_v111 (F := Ideal) x12
local notation "R112" => val_main_v112 (F := Ideal) x12
local notation "R113" => val_main_v113 (F := Ideal) x0 x3 x4 x5 x6 x11
local notation "R114" => val_main_v114 (F := Ideal) x12
local notation "R115" => val_main_v115 (F := Ideal) x12
local notation "R116" => val_main_v116 (F := Ideal) x0 x3 x4 x5 x6 x11 x12
local notation "R117" => val_main_v117 (F := Ideal) x0 x3 x4 x5 x6 x11 x12
local notation "R118" => val_main_v118 (F := Ideal) x0 x2 x3 x4 x5 x6 x11 x12
local notation "R119" => val_main_v119 (F := Ideal) x2
local notation "R120" => val_main_v120 (F := Ideal) x2
local notation "R121" => val_main_v121 (F := Ideal)
local notation "R122" => val_main_v122 (F := Ideal) x2
local notation "R123" => val_main_v123 (F := Ideal) x2
local notation "R124" => val_main_v124 (F := Ideal) x0 x2 x3 x4 x5 x6 x11 x12
local notation "R125" => val_main_v125 (F := Ideal) x0 x2 x3 x4 x5 x6 x11 x12
local notation "R126" => val_main_v126 (F := Ideal)
local notation "R127" => val_main_v127 (F := Ideal) x0 x2 x3 x4 x5 x6 x11 x12
local notation "R128" => val_main_v128 (F := Ideal) x0 x1 x2 x3 x4 x5 x6 x7 x8 x9 x10 x11 x12
local notation "R129" => val_main_v129 (F := Ideal) x11
local notation "R130" => val_main_v130 (F := Ideal) x11
local notation "R131" => val_main_v131 (F := Ideal) x12
local notation "R132" => val_main_v132 (F := Ideal) x12
local notation "R133" => val_main_v133 (F := Ideal) x0 x1 x2 x3 x4 x5 x6 x7 x8 x9 x10 x11 x12
local notation "R134" => val_main_v134 (F := Ideal) x12
local notation "R135" => val_main_v135 (F := Ideal) x12
local notation "R136" => val_main_v136 (F := Ideal) x0 x1 x2 x3 x4 x5 x6 x7 x8 x9 x10 x11 x12
local notation "R137" => val_main_v137 (F := Ideal) x0 x1 x2 x3 x4 x5 x6 x7 x8 x9 x10 x11 x12
local notation "R138" => val_main_v138 (F := Ideal) x0 x1 x2 x3 x4 x5 x6 x7 x8 x9 x10 x11 x12
local notation "R139" => val_main_v139 (F := Ideal) x2
local notation "R140" => val_main_v140 (F := Ideal) x2
local notation "R141" => val_main_v141 (F := Ideal)
local notation "R142" => val_main_v142 (F := Ideal) x2
local notation "R143" => val_main_v143 (F := Ideal) x2
local notation "R144" => val_main_v144 (F := Ideal) x0 x1 x2 x3 x4 x5 x6 x7 x8 x9 x10 x11 x12
local notation "R145" => val_main_v145 (F := Ideal) x11
local notation "R146" => val_main_v146 (F := Ideal) x11
local notation "R147" => val_main_v147 (F := Ideal) x12
local notation "R148" => val_main_v148 (F := Ideal) x12
local notation "R149" => val_main_v149 (F := Ideal) x0 x1 x2 x3 x4 x5 x6 x7 x8 x9 x10 x11 x12
local notation "R150" => val_main_v150 (F := Ideal) x12
local notation "R151" => val_main_v151 (F := Ideal) x12
local notation "R152" => val_main_v152 (F := Ideal) x0 x1 x2 x3 x4 x5 x6 x7 x8 x9 x10 x11 x12
local notation "R153" => val_main_v153 (F := Ideal) x0 x1 x2 x3 x4 x5 x6 x7 x8 x9 x10 x11 x12
local notation "R154" => val_main_v154 (F := Ideal) x0 x1 x2 x3 x4 x5 x6 x7 x8 x9 x10 x11 x12
local notation "R155" => val_main_v155 (F := Ideal) x2
local notation "R156" => val_main_v156 (F := Ideal) x2
local notation "R157" => val_main_v157 (F := Ideal)
local notation "R158" => val_main_v158 (F := Ideal) x2
local notation "R159" => val_main_v159 (F := Ideal) x2
local notation "R160" => val_main_v160 (F := Ideal) x0 x1 x2 x3 x4 x5 x6 x7 x8 x9 x10 x11 x12
local notation "R161" => val_main_v161 (F := Ideal) x0 x1 x2 x3 x4 x5 x6 x7 x8 x9 x10 x11 x12
local notation "R162" => val_main_v162 (F := Ideal)
local notation "R163" => val_main_v163 (F := Ideal) x0 x1 x2 x3 x4 x5 x6 x7 x8 x9 x10 x11 x12
local notation "R164" => val_main_v164 (F := Ideal) x0 x1 x2 x3 x4 x5 x6 x7 x8 x9 x10 x11 x12
local notation "R165" => val_main_v165 (F := Ideal) x2
local notation "R166" => val_main_v166 (F := Ideal) x11
local notation "R167" => val_main_v167 (F := Ideal) x11
local notation "R168" => val_main_v168 (F := Ideal) x12
local notation "R169" => val_main_v169 (F := Ideal) x12
local notation "R170" => val_main_v170 (F := Ideal) x0 x1 x2 x3 x4 x5 x6 x7 x8 x9 x10 x11 x12
local notation "R171" => val_main_v171 (F := Ideal) x12
local notation "R172" => val_main_v172 (F := Ideal) x12
local notation "R173" => val_main_v173 (F := Ideal) x0 x1 x2 x3 x4 x5 x6 x7 x8 x9 x10 x11 x12
local notation "R174" => val_main_v174 (F := Ideal) x0 x1 x2 x3 x4 x5 x6 x7 x8 x9 x10 x11 x12
local notation "R175" => val_main_v175 (F := Ideal) x0 x1 x2 x3 x4 x5 x6 x7 x8 x9 x10 x11 x12
local notation "R176" => val_main_v176 (F := Ideal) x2
local notation "R177" => val_main_v177 (F := Ideal) x2
local notation "R178" => val_main_v178 (F := Ideal)
local notation "R179" => val_main_v179 (F := Ideal) x2
local notation "R180" => val_main_v180 (F := Ideal) x2
local notation "R181" => val_main_v181 (F := Ideal) x0 x1 x2 x3 x4 x5 x6 x7 x8 x9 x10 x11 x12
local notation "R182" => val_main_v182 (F := Ideal) x2
local notation "R183" => val_main_v183 (F := Ideal) x11
local notation "R184" => val_main_v184 (F := Ideal) x11
local notation "R185" => val_main_v185 (F := Ideal) x12
local notation "R186" => val_main_v186 (F := Ideal) x12
local notation "R187" => val_main_v187 (F := Ideal) x0 x1 x2 x3 x4 x5 x6 x7 x8 x9 x10 x11 x12
local notation "R188" => val_main_v188 (F := Ideal) x12
local notation "R189" => val_main_v189 (F := Ideal) x12
local notation "R190" => val_main_v190 (F := Ideal) x0 x1 x2 x3 x4 x5 x6 x7 x8 x9 x10 x11 x12
local notation "R191" => val_main_v191 (F := Ideal) x0 x1 x2 x3 x4 x5 x6 x7 x8 x9 x10 x11 x12
local notation "R192" => val_main_v192 (F := Ideal) x0 x1 x2 x3 x4 x5 x6 x7 x8 x9 x10 x11 x12
local notation "R193" => val_main_v193 (F := Ideal) x2
local notation "R194" => val_main_v194 (F := Ideal) x2
local notation "R195" => val_main_v195 (F := Ideal)
local notation "R196" => val_main_v196 (F := Ideal) x2
local notation "R197" => val_main_v197 (F := Ideal) x2
local notation "R198" => val_main_v198 (F := Ideal) x0 x1 x2 x3 x4 x5 x6 x7 x8 x9 x10 x11 x12
local notation "R199" => val_main_v199 (F := Ideal) x0 x1 x2 x3 x4 x5 x6 x7 x8 x9 x10 x11 x12
local notation "R200" => val_main_v200 (F := Ideal)
local notation "R201" => val_main_v201 (F := Ideal) x0 x1 x2 x3 x4 x5 x6 x7 x8 x9 x10 x11 x12
local notation "R202" => val_main_v202 (F := Ideal) x0 x1 x2 x3 x4 x5 x6 x7 x8 x9 x10 x11 x12
local notation "R203" => val_main_v203 (F := Ideal) x0 x1 x2 x3 x4 x5 x6 x7 x8 x9 x10 x11 x12 x17
local notation "R204" => val_main_v204 (F := Ideal) x18
local notation "R205" => val_main_v205 (F := Ideal) x18
local notation "R206" => val_main_v206 (F := Ideal) x0 x1 x2 x3 x4 x5 x6 x7 x8 x9 x10 x11 x12 x17 x18
local notation "R207" => val_main_v207 (F := Ideal) x0 x1 x2 x3 x4 x5 x6 x7 x8 x9 x10 x11 x12 x19
local notation "R208" => val_main_v208 (F := Ideal) x20
local notation "R209" => val_main_v209 (F := Ideal) x20
local notation "R210" => val_main_v210 (F := Ideal) x0 x1 x2 x3 x4 x5 x6 x7 x8 x9 x10 x11 x12 x19 x20
local notation "R211" => val_main_v211 (F := Ideal) x13
local notation "R212" => val_main_v212 (F := Ideal) x13
local notation "R213" => val_main_v213 (F := Ideal) x14
local notation "R214" => val_main_v214 (F := Ideal) x14
local notation "R215" => val_main_v215 (F := Ideal) x0 x1 x2 x3 x4 x5 x6 x7 x8 x9 x10 x11 x12 x13 x19 x20
local notation "R216" => val_main_v216 (F := Ideal) x14
local notation "R217" => val_main_v217 (F := Ideal) x14
local notation "R218" => val_main_v218 (F := Ideal) x0 x1 x2 x3 x4 x5 x6 x7 x8 x9 x10 x11 x12 x13 x14 x19 x20
local notation "R219" => val_main_v219 (F := Ideal) x0 x1 x2 x3 x4 x5 x6 x7 x8 x9 x10 x11 x12 x13 x14 x19 x20
local notation "R220" => val_main_v220 (F := Ideal) x0 x1 x2 x3 x4 x5 x6 x7 x8 x9 x10 x11 x12 x13 x14 x19 x20
local notation "R221" => val_main_v221 (F := Ideal) x2
local notation "R222" => val_main_v222 (F := Ideal) x2
local notation "R223" => val_main_v223 (F := Ideal)
local notation "R224" => val_main_v224 (F := Ideal) x2
local notation "R225" => val_main_v225 (F := Ideal) x2
local notation "R226" => val_main_v226 (F := Ideal) x0 x1 x2 x3 x4 x5 x6 x7 x8 x9 x10 x11 x12 x13 x14 x19 x20
local notation "R227" => val_main_v227 (F := Ideal) x13
local notation "R228" => val_main_v228 (F := Ideal) x13
local notation "R229" => val_main_v229 (F := Ideal) x14
local notation "R230" => val_main_v230 (F := Ideal) x14
local notation "R231" => val_main_v231 (F := Ideal) x0 x1 x2 x3 x4 x5 x6 x7 x8 x9 x10 x11 x12 x13 x19 x20
local notation "R232" => val_main_v232 (F := Ideal) x14
local notation "R233" => val_main_v233 (F := Ideal) x14
local notation "R234" => val_main_v234 (F := Ideal) x0 x1 x2 x3 x4 x5 x6 x7 x8 x9 x10 x11 x12 x13 x14 x19 x20
local notation "R235" => val_main_v235 (F := Ideal) x0 x1 x2 x3 x4 x5 x6 x7 x8 x9 x10 x11 x12 x13 x14 x19 x20
local notation "R236" => val_main_v236 (F := Ideal) x0 x1 x2 x3 x4 x5 x6 x7 x8 x9 x10 x11 x12 x13 x14 x19 x20
local notation "R237" => val_main_v237 (F := Ideal) x2
local notation "R238" => val_main_v238 (F := Ideal) x2
local notation "R239" => val_main_v239 (F := Ideal)
local notation "R240" => val_main_v240 (F := Ideal) x2
local notation "R241" => val_main_v241 (F := Ideal) x2
local notation "R242" => val_main_v242 (F := Ideal) x0 x1 x2 x3 x4 x5 x6 x7 x8 x9 x10 x11 x12 x13 x14 x19 x20
local notation "R243" => val_main_v243 (F := Ideal) x0 x1 x2 x3 x4 x5 x6 x7 x8 x9 x10 x11 x12 x13 x14 x19 x20
local notation "R244" => val_main_v244 (F := Ideal)
local notation "R245" => val_main_v245 (F := Ideal) x0 x1 x2 x3 x4 x5 x6 x7 x8 x9 x10 x11 x12 x13 x14 x19 x20
local notation "R246" => val_main_v246 (F := Ideal) x0 x1 x2 x3 x4 x5 x6 x7 x8 x9 x10 x11 x12 x13 x14 x17 x18 x19 x20
local notation "R247" => val_main_v247 (F := Ideal) x2
local notation "R248" => val_main_v248 (F := Ideal) x15
local notation "R249" => val_main_v249 (F := Ideal) x15
local notation "R250" => val_main_v250 (F := Ideal) x16
local notation "R251" => val_main_v251 (F := Ideal) x16
local notation "R252" => val_main_v252 (F := Ideal) x0 x1 x2 x3 x4 x5 x6 x7 x8 x9 x10 x11 x12 x15 x17 x18
local notation "R253" => val_main_v253 (F := Ideal) x16
local notation "R254" => val_main_v254 (F := Ideal) x16
local notation "R255" => val_main_v255 (F := Ideal) x0 x1 x2 x3 x4 x5 x6 x7 x8 x9 x10 x11 x12 x15 x16 x17 x18
local notation "R256" => val_main_v256 (F := Ideal) x0 x1 x2 x3 x4 x5 x6 x7 x8 x9 x10 x11 x12 x15 x16 x17 x18
local notation "R257" => val_main_v257 (F := Ideal) x0 x1 x2 x3 x4 x5 x6 x7 x8 x9 x10 x11 x12 x15 x16 x17 x18
local notation "R258" => val_main_v258 (F := Ideal) x2
local notation "R259" => val_main_v259 (F := Ideal) x2
local notation "R260" => val_main_v260 (F := Ideal)
local notation "R261" => val_main_v261 (F := Ideal) x2
local notation "R262" => val_main_v262 (F := Ideal) x2
local notation "R263" => val_main_v263 (F := Ideal) x0 x1 x2 x3 x4 x5 x6 x7 x8 x9 x10 x11 x12 x15 x16 x17 x18
local notation "R264" => val_main_v264 (F := Ideal) x2
local notation "R265" => val_main_v265 (F := Ideal) x15
local notation "R266" => val_main_v266 (F := Ideal) x15
local notation "R267" => val_main_v267 (F := Ideal) x16
local notation "R268" => val_main_v268 (F := Ideal) x16
local notation "R269" => val_main_v269 (F := Ideal) x0 x1 x2 x3 x4 x5 x6 x7 x8 x9 x10 x11 x12 x15 x17 x18
local notation "R270" => val_main_v270 (F := Ideal) x16
local notation "R271" => val_main_v271 (F := Ideal) x16
local notation "R272" => val_main_v272 (F := Ideal) x0 x1 x2 x3 x4 x5 x6 x7 x8 x9 x10 x11 x12 x15 x16 x17 x18
local notation "R273" => val_main_v273 (F := Ideal) x0 x1 x2 x3 x4 x5 x6 x7 x8 x9 x10 x11 x12 x15 x16 x17 x18
local notation "R274" => val_main_v274 (F := Ideal) x0 x1 x2 x3 x4 x5 x6 x7 x8 x9 x10 x11 x12 x15 x16 x17 x18
local notation "R275" => val_main_v275 (F := Ideal) x2
local notation "R276" => val_main_v276 (F := Ideal) x2
local notation "R277" => val_main_v277 (F := Ideal)
local notation "R278" => val_main_v278 (F := Ideal) x2
local notation "R279" => val_main_v279 (F := Ideal) x2
local notation "R280" => val_main_v280 (F := Ideal) x0 x1 x2 x3 x4 x5 x6 x7 x8 x9 x10 x11 x12 x15 x16 x17 x18
local notation "R281" => val_main_v281 (F := Ideal) x0 x1 x2 x3 x4 x5 x6 x7 x8 x9 x10 x11 x12 x15 x16 x17 x18
local notation "R282" => val_main_v282 (F := Ideal)
local notation "R283" => val_main_v283 (F := Ideal) x0 x1 x2 x3 x4 x5 x6 x7 x8 x9 x10 x11 x12 x15 x16 x17 x18
local notation "R284" => val_main_v284 (F := Ideal) x0 x1 x2 x3 x4 x5 x6 x7 x8 x9 x10 x11 x12 x15 x16 x17 x18 x19 x20
local notation "R285" => val_main_v285 (F := Ideal) x13
local notation "R286" => val_main_v286 (F := Ideal) x13
local notation "R287" => val_main_v287 (F := Ideal) x14
local notation "R288" => val_main_v288 (F := Ideal) x14
local notation "R289" => val_main_v289 (F := Ideal) x0 x1 x2 x3 x4 x5 x6 x7 x8 x9 x10 x11 x12 x13 x15 x16 x17 x18 x19 x20
local notation "R290" => val_main_v290 (F := Ideal) x14
local notation "R291" => val_main_v291 (F := Ideal) x14
local notation "R292" => val_main_v292 (F := Ideal) x0 x1 x2 x3 x4 x5 x6 x7 x8 x9 x10 x11 x12 x13 x14 x15 x16 x17 x18 x19 x20
local notation "R293" => val_main_v293 (F := Ideal) x0 x1 x2 x3 x4 x5 x6 x7 x8 x9 x10 x11 x12 x13 x14 x15 x16 x17 x18 x19 x20
local notation "R294" => val_main_v294 (F := Ideal) x0 x1 x2 x3 x4 x5 x6 x7 x8 x9 x10 x11 x12 x13 x14 x15 x16 x17 x18 x19 x20
local notation "R295" => val_main_v295 (F := Ideal) x2
local notation "R296" => val_main_v296 (F := Ideal) x2
local notation "R297" => val_main_v297 (F := Ideal)
local notation "R298" => val_main_v298 (F := Ideal) x2
local notation "R299" => val_main_v299 (F := Ideal) x2
local notation "R300" => val_main_v300 (F := Ideal) x0 x1 x2 x3 x4 x5 x6 x7 x8 x9 x10 x11 x12 x13 x14 x15 x16 x17 x18 x19 x20
local notation "R301" => val_main_v301 (F := Ideal) x13
local notation "R302" => val_main_v302 (F := Ideal) x13
local notation "R303" => val_main_v303 (F := Ideal) x14
local notation "R304" => val_main_v304 (F := Ideal) x14
local notation "R305" => val_main_v305 (F := Ideal) x0 x1 x2 x3 x4 x5 x6 x7 x8 x9 x10 x11 x12 x13 x15 x16 x17 x18 x19 x20
local notation "R306" => val_main_v306 (F := Ideal) x14
local notation "R307" => val_main_v307 (F := Ideal) x14
local notation "R308" => val_main_v308 (F := Ideal) x0 x1 x2 x3 x4 x5 x6 x7 x8 x9 x10 x11 x12 x13 x14 x15 x16 x17 x18 x19 x20
local notation "R309" => val_main_v309 (F := Ideal) x0 x1 x2 x3 x4 x5 x6 x7 x8 x9 x10 x11 x12 x13 x14 x15 x16 x17 x18 x19 x20
local notation "R310" => val_main_v310 (F := Ideal) x0 x1 x2 x3 x4 x5 x6 x7 x8 x9 x10 x11 x12 x13 x14 x15 x16 x17 x18 x19 x20
local notation "R311" => val_main_v311 (F := Ideal) x2
local notation "R312" => val_main_v312 (F := Ideal) x2
local notation "R313" => val_main_v313 (F := Ideal)
local notation "R314" => val_main_v314 (F := Ideal) x2
local notation "R315" => val_main_v315 (F := Ideal) x2
local notation "R316" => val_main_v316 (F := Ideal) x0 x1 x2 x3 x4 x5 x6 x7 x8 x9 x10 x11 x12 x13 x14 x15 x16 x17 x18 x19 x20
local notation "R317" => val_main_v317 (F := Ideal) x0 x1 x2 x3 x4 x5 x6 x7 x8 x9 x10 x11 x12 x13 x14 x15 x16 x17 x18 x19 x20
local notation "R318" => val_main_v318 (F := Ideal)
local notation "R319" => val_main_v319 (F := Ideal) x0 x1 x2 x3 x4 x5 x6 x7 x8 x9 x10 x11 x12 x13 x14 x15 x16 x17 x18 x19 x20
local notation "R320" => val_main_v320 (F := Ideal) x0 x1 x2 x3 x4 x5 x6 x7 x8 x9 x10 x11 x12 x13 x14 x15 x16 x17 x18 x19 x20
local notation "R321" => val_main_v321 (F := Ideal) x2
local notation "R322" => val_main_v322 (F := Ideal) x15
local notation "R323" => val_main_v323 (F := Ideal) x15
local notation "R324" => val_main_v324 (F := Ideal) x16
local notation "R325" => val_main_v325 (F := Ideal) x16
local notation "R326" => val_main_v326 (F := Ideal) x0 x1 x2 x3 x4 x5 x6 x7 x8 x9 x10 x11 x12 x13 x14 x15 x17 x18 x19 x20
local notation "R327" => val_main_v327 (F := Ideal) x16
local notation "R328" => val_main_v328 (F := Ideal) x16
local notation "R329" => val_main_v329 (F := Ideal) x0 x1 x2 x3 x4 x5 x6 x7 x8 x9 x10 x11 x12 x13 x14 x15 x16 x17 x18 x19 x20
local notation "R330" => val_main_v330 (F := Ideal) x0 x1 x2 x3 x4 x5 x6 x7 x8 x9 x10 x11 x12 x13 x14 x15 x16 x17 x18 x19 x20
local notation "R331" => val_main_v331 (F := Ideal) x0 x1 x2 x3 x4 x5 x6 x7 x8 x9 x10 x11 x12 x13 x14 x15 x16 x17 x18 x19 x20
local notation "R332" => val_main_v332 (F := Ideal) x2
local notation "R333" => val_main_v333 (F := Ideal) x2
local notation "R334" => val_main_v334 (F := Ideal)
local notation "R335" => val_main_v335 (F := Ideal) x2
local notation "R336" => val_main_v336 (F := Ideal) x2
local notation "R337" => val_main_v337 (F := Ideal) x0 x1 x2 x3 x4 x5 x6 x7 x8 x9 x10 x11 x12 x13 x14 x15 x16 x17 x18 x19 x20
local notation "R338" => val_main_v338 (F := Ideal) x2
local notation "R339" => val_main_v339 (F := Ideal) x15
local notation "R340" => val_main_v340 (F := Ideal) x15
local notation "R341" => val_main_v341 (F := Ideal) x16
local notation "R342" => val_main_v342 (F := Ideal) x16
local notation "R343" => val_main_v343 (F := Ideal) x0 x1 x2 x3 x4 x5 x6 x7 x8 x9 x10 x11 x12 x13 x14 x15 x17 x18 x19 x20
local notation "R344" => val_main_v344 (F := Ideal) x16
local notation "R345" => val_main_v345 (F := Ideal) x16
local notation "R346" => val_main_v346 (F := Ideal) x0 x1 x2 x3 x4 x5 x6 x7 x8 x9 x10 x11 x12 x13 x14 x15 x16 x17 x18 x19 x20
local notation "R347" => val_main_v347 (F := Ideal) x0 x1 x2 x3 x4 x5 x6 x7 x8 x9 x10 x11 x12 x13 x14 x15 x16 x17 x18 x19 x20
local notation "R348" => val_main_v348 (F := Ideal) x0 x1 x2 x3 x4 x5 x6 x7 x8 x9 x10 x11 x12 x13 x14 x15 x16 x17 x18 x19 x20
local notation "R349" => val_main_v349 (F := Ideal) x2
local notation "R350" => val_main_v350 (F := Ideal) x2
local notation "R351" => val_main_v351 (F := Ideal)
local notation "R352" => val_main_v352 (F := Ideal) x2
local notation "R353" => val_main_v353 (F := Ideal) x2
local notation "R354" => val_main_v354 (F := Ideal) x0 x1 x2 x3 x4 x5 x6 x7 x8 x9 x10 x11 x12 x13 x14 x15 x16 x17 x18 x19 x20
local notation "R355" => val_main_v355 (F := Ideal) x0 x1 x2 x3 x4 x5 x6 x7 x8 x9 x10 x11 x12 x13 x14 x15 x16 x17 x18 x19 x20
local notation "R356" => val_main_v356 (F := Ideal)
local notation "R357" => val_main_v357 (F := Ideal) x0 x1 x2 x3 x4 x5 x6 x7 x8 x9 x10 x11 x12 x13 x14 x15 x16 x17 x18 x19 x20
local notation "R358" => val_main_v358 (F := Ideal) x0 x1 x2 x3 x4 x5 x6 x7 x8 x9 x10 x11 x12 x13 x14 x15 x16 x17 x18 x19 x20
-- end of the names

/-! ## The first score-level round, stage by stage

The round reads the objects' scores `R206` ([2048, 151]) and the relations' scores `R210` ([32768, 51]) and writes the
objects' `R246` and the relations' `R284`. Each of its four halves is a linear layer with the positive part on the
source's rows, summed through an adjacency map (the subjects' `R18`, the objects' `R36`, or their transposes) and divided
by the row's degree plus the small constant. -/

/-! ### The objects' half through the subjects' map -/

/-- Its weight: one slice of the stacked weights, as a matrix. -/
theorem W_v212 : mat (a := 51) (b := 151) R212 = fun a b => x13 (ix3 (0 : Fin 2) a b) := by
  funext a b
  simp only [mat_apply]
  rw [val_main_v212_apply, val_main_v211_apply]
  have ha := a.isLt
  have hb := b.isLt
  exact congrArg _ (idx3_ext rfl (by show (a.val * 151 + b.val) / 151 % 51 = a.val; omega)
    (by show (a.val * 151 + b.val) % 151 = b.val; omega))

/-- Its bias: the matching row of the stacked biases, as a vector. -/
theorem b_v214 : vec (n := 151) R214 = fun j => x14 (ix2 (0 : Fin 2) j) := by
  funext j
  simp only [vec_apply]
  rw [val_main_v214_apply, val_main_v213_apply]
  have hj := j.isLt
  exact congrArg _ (idx2_ext rfl (by show j.val % 151 = j.val; omega))

/-- The linear layer followed by the positive part, applied to the source's rows. -/
theorem fc_v219 : mat (a := 32768) (b := 151) R219
    = Spec.linRelu (mat (a := 32768) (b := 51) R210) (mat (a := 51) (b := 151) R212) (vec (n := 151) R214) := by
  funext i j
  simp only [mat_apply, vec_apply, Spec.linRelu, Spec.relu, Spec.lin]
  rw [val_main_v219_apply, val_main_v218_apply, val_main_v215_apply, val_main_v217_apply, val_main_v216_apply,
    val_main_call10_v0_apply, val_main_call10_cst_apply]
  have e1 : ∀ k, lidx_main_v215 (ix2 i j) k = ix2 i k := fun k => idx2_ext rfl rfl
  have e2 : ∀ k, ridx_main_v215 (ix2 i j) k = ix2 k j := fun k => idx2_ext rfl rfl
  have e3 : idx_main_v216 (idx_main_v217 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v226 : mat (a := 2048) (b := 151) R226
    = Spec.collect (mat (a := 2048) (b := 32768) R18) (mat (a := 32768) (b := 151) R219) := by
  funext i j
  simp only [mat_apply, Spec.collect, Spec.eps]
  rw [val_main_v226_apply, val_main_v220_apply, val_main_v225_apply, val_main_v224_apply, val_main_v222_apply,
    val_main_v221_apply, val_main_v223_apply, val_main_cst_31_apply, val_main_cst_30_apply]
  have e1 : ∀ k, lidx_main_v220 (ix2 i j) k = ix2 i k := fun k => idx2_ext rfl rfl
  have e2 : ∀ k, ridx_main_v220 (ix2 i j) k = ix2 k j := fun k => idx2_ext rfl rfl
  have e3 : ∀ k, idx_main_v221 (idx_main_v222 (idx_main_v225 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The objects' half through the objects' map -/

/-- Its weight: one slice of the stacked weights, as a matrix. -/
theorem W_v228 : mat (a := 51) (b := 151) R228 = fun a b => x13 (ix3 (1 : Fin 2) a b) := by
  funext a b
  simp only [mat_apply]
  rw [val_main_v228_apply, val_main_v227_apply]
  have ha := a.isLt
  have hb := b.isLt
  exact congrArg _ (idx3_ext rfl (by show (a.val * 151 + b.val) / 151 % 51 = a.val; omega)
    (by show (a.val * 151 + b.val) % 151 = b.val; omega))

/-- Its bias: the matching row of the stacked biases, as a vector. -/
theorem b_v230 : vec (n := 151) R230 = fun j => x14 (ix2 (1 : Fin 2) j) := by
  funext j
  simp only [vec_apply]
  rw [val_main_v230_apply, val_main_v229_apply]
  have hj := j.isLt
  exact congrArg _ (idx2_ext rfl (by show j.val % 151 = j.val; omega))

/-- The linear layer followed by the positive part, applied to the source's rows. -/
theorem fc_v235 : mat (a := 32768) (b := 151) R235
    = Spec.linRelu (mat (a := 32768) (b := 51) R210) (mat (a := 51) (b := 151) R228) (vec (n := 151) R230) := by
  funext i j
  simp only [mat_apply, vec_apply, Spec.linRelu, Spec.relu, Spec.lin]
  rw [val_main_v235_apply, val_main_v234_apply, val_main_v231_apply, val_main_v233_apply, val_main_v232_apply,
    val_main_call11_v0_apply, val_main_call11_cst_apply]
  have e1 : ∀ k, lidx_main_v231 (ix2 i j) k = ix2 i k := fun k => idx2_ext rfl rfl
  have e2 : ∀ k, ridx_main_v231 (ix2 i j) k = ix2 k j := fun k => idx2_ext rfl rfl
  have e3 : idx_main_v232 (idx_main_v233 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v242 : mat (a := 2048) (b := 151) R242
    = Spec.collect (mat (a := 2048) (b := 32768) R36) (mat (a := 32768) (b := 151) R235) := by
  funext i j
  simp only [mat_apply, Spec.collect, Spec.eps]
  rw [val_main_v242_apply, val_main_v236_apply, val_main_v241_apply, val_main_v240_apply, val_main_v238_apply,
    val_main_v237_apply, val_main_v239_apply, val_main_cst_33_apply, val_main_cst_32_apply]
  have e1 : ∀ k, lidx_main_v236 (ix2 i j) k = ix2 i k := fun k => idx2_ext rfl rfl
  have e2 : ∀ k, ridx_main_v236 (ix2 i j) k = ix2 k j := fun k => idx2_ext rfl rfl
  have e3 : ∀ k, idx_main_v237 (idx_main_v238 (idx_main_v241 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The objects' update: the target plus half the sum of its two halves. -/
theorem u_v246 : mat (a := 2048) (b := 151) R246
    = Spec.upd (mat (a := 2048) (b := 151) R206) (mat (a := 2048) (b := 151) R226) (mat (a := 2048) (b := 151) R242) := by
  funext i j
  simp only [mat_apply, Spec.upd, Spec.half]
  rw [val_main_v246_apply, val_main_v245_apply, val_main_v244_apply, val_main_cst_34_apply, val_main_v243_apply]
  rfl

/-! ### The relations' half through the subjects' map transposed -/

/-- Its weight: one slice of the stacked weights, as a matrix. -/
theorem W_v249 : mat (a := 151) (b := 51) R249 = fun a b => x15 (ix3 (0 : Fin 2) a b) := by
  funext a b
  simp only [mat_apply]
  rw [val_main_v249_apply, val_main_v248_apply]
  have ha := a.isLt
  have hb := b.isLt
  exact congrArg _ (idx3_ext rfl (by show (a.val * 51 + b.val) / 51 % 151 = a.val; omega)
    (by show (a.val * 51 + b.val) % 51 = b.val; omega))

/-- Its bias: the matching row of the stacked biases, as a vector. -/
theorem b_v251 : vec (n := 51) R251 = fun j => x16 (ix2 (0 : Fin 2) j) := by
  funext j
  simp only [vec_apply]
  rw [val_main_v251_apply, val_main_v250_apply]
  have hj := j.isLt
  exact congrArg _ (idx2_ext rfl (by show j.val % 51 = j.val; omega))

/-- The linear layer followed by the positive part, applied to the source's rows. -/
theorem fc_v256 : mat (a := 2048) (b := 51) R256
    = Spec.linRelu (mat (a := 2048) (b := 151) R206) (mat (a := 151) (b := 51) R249) (vec (n := 51) R251) := by
  funext i j
  simp only [mat_apply, vec_apply, Spec.linRelu, Spec.relu, Spec.lin]
  rw [val_main_v256_apply, val_main_v255_apply, val_main_v252_apply, val_main_v254_apply, val_main_v253_apply,
    val_main_call12_v0_apply, val_main_call12_cst_apply]
  have e1 : ∀ k, lidx_main_v252 (ix2 i j) k = ix2 i k := fun k => idx2_ext rfl rfl
  have e2 : ∀ k, ridx_main_v252 (ix2 i j) k = ix2 k j := fun k => idx2_ext rfl rfl
  have e3 : idx_main_v253 (idx_main_v254 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v263 : mat (a := 32768) (b := 51) R263
    = Spec.collect (mat (a := 32768) (b := 2048) R247) (mat (a := 2048) (b := 51) R256) := by
  funext i j
  simp only [mat_apply, Spec.collect, Spec.eps]
  rw [val_main_v263_apply, val_main_v257_apply, val_main_v262_apply, val_main_v261_apply, val_main_v259_apply,
    val_main_v258_apply, val_main_v260_apply, val_main_cst_36_apply, val_main_cst_35_apply]
  have e1 : ∀ k, lidx_main_v257 (ix2 i j) k = ix2 i k := fun k => idx2_ext rfl rfl
  have e2 : ∀ k, ridx_main_v257 (ix2 i j) k = ix2 k j := fun k => idx2_ext rfl rfl
  have e3 : ∀ k, idx_main_v258 (idx_main_v259 (idx_main_v262 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The relations' half through the objects' map transposed -/

/-- Its weight: one slice of the stacked weights, as a matrix. -/
theorem W_v266 : mat (a := 151) (b := 51) R266 = fun a b => x15 (ix3 (1 : Fin 2) a b) := by
  funext a b
  simp only [mat_apply]
  rw [val_main_v266_apply, val_main_v265_apply]
  have ha := a.isLt
  have hb := b.isLt
  exact congrArg _ (idx3_ext rfl (by show (a.val * 51 + b.val) / 51 % 151 = a.val; omega)
    (by show (a.val * 51 + b.val) % 51 = b.val; omega))

/-- Its bias: the matching row of the stacked biases, as a vector. -/
theorem b_v268 : vec (n := 51) R268 = fun j => x16 (ix2 (1 : Fin 2) j) := by
  funext j
  simp only [vec_apply]
  rw [val_main_v268_apply, val_main_v267_apply]
  have hj := j.isLt
  exact congrArg _ (idx2_ext rfl (by show j.val % 51 = j.val; omega))

/-- The linear layer followed by the positive part, applied to the source's rows. -/
theorem fc_v273 : mat (a := 2048) (b := 51) R273
    = Spec.linRelu (mat (a := 2048) (b := 151) R206) (mat (a := 151) (b := 51) R266) (vec (n := 51) R268) := by
  funext i j
  simp only [mat_apply, vec_apply, Spec.linRelu, Spec.relu, Spec.lin]
  rw [val_main_v273_apply, val_main_v272_apply, val_main_v269_apply, val_main_v271_apply, val_main_v270_apply,
    val_main_call13_v0_apply, val_main_call13_cst_apply]
  have e1 : ∀ k, lidx_main_v269 (ix2 i j) k = ix2 i k := fun k => idx2_ext rfl rfl
  have e2 : ∀ k, ridx_main_v269 (ix2 i j) k = ix2 k j := fun k => idx2_ext rfl rfl
  have e3 : idx_main_v270 (idx_main_v271 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v280 : mat (a := 32768) (b := 51) R280
    = Spec.collect (mat (a := 32768) (b := 2048) R264) (mat (a := 2048) (b := 51) R273) := by
  funext i j
  simp only [mat_apply, Spec.collect, Spec.eps]
  rw [val_main_v280_apply, val_main_v274_apply, val_main_v279_apply, val_main_v278_apply, val_main_v276_apply,
    val_main_v275_apply, val_main_v277_apply, val_main_cst_38_apply, val_main_cst_37_apply]
  have e1 : ∀ k, lidx_main_v274 (ix2 i j) k = ix2 i k := fun k => idx2_ext rfl rfl
  have e2 : ∀ k, ridx_main_v274 (ix2 i j) k = ix2 k j := fun k => idx2_ext rfl rfl
  have e3 : ∀ k, idx_main_v275 (idx_main_v276 (idx_main_v279 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The relations' update: the target plus half the sum of its two halves. -/
theorem u_v284 : mat (a := 32768) (b := 51) R284
    = Spec.upd (mat (a := 32768) (b := 51) R210) (mat (a := 32768) (b := 51) R263) (mat (a := 32768) (b := 51) R280) := by
  funext i j
  simp only [mat_apply, Spec.upd, Spec.half]
  rw [val_main_v284_apply, val_main_v283_apply, val_main_v282_apply, val_main_cst_39_apply, val_main_v281_apply]
  rfl

/-! ### The round -/

/-- THE ROUND: the pair of its two results is Spec.lean's `round` of the two maps, the eight slices of the stacked
    weights and biases, and the two sources. -/
theorem round_v246_v284 :
    (mat (a := 2048) (b := 151) R246, mat (a := 32768) (b := 51) R284)
      = Spec.round (mat (a := 2048) (b := 32768) R18) (mat (a := 2048) (b := 32768) R36)
          (fun a b => x13 (ix3 (0 : Fin 2) a b)) (fun j => x14 (ix2 (0 : Fin 2) j))
          (fun a b => x13 (ix3 (1 : Fin 2) a b)) (fun j => x14 (ix2 (1 : Fin 2) j))
          (fun a b => x15 (ix3 (0 : Fin 2) a b)) (fun j => x16 (ix2 (0 : Fin 2) j))
          (fun a b => x15 (ix3 (1 : Fin 2) a b)) (fun j => x16 (ix2 (1 : Fin 2) j))
          (mat (a := 2048) (b := 151) R206) (mat (a := 32768) (b := 51) R210) := by
  unfold Spec.round
  rw [u_v246, u_v284, c_v226, c_v242, c_v263, c_v280, fc_v219, fc_v235, fc_v256, fc_v273,
    W_v212, b_v214, W_v228, b_v230, W_v249, b_v251, W_v266, b_v268, tr_v247, tr_v264]

end Cert.RefSpec

end
-- ==== Proof.RefS2.lean ====
/-
  The reference's second score-level round is one `round` of Spec.lean.

  Stage by stage over the read-at-an-index lemmas of the reference's operations: each weight and bias slice, each
  linear layer with the positive part, each adjacency-weighted and degree-normalised sum, the two updates, and last the
  round as a whole. Every lemma states an array read as a matrix (`mat`) or vector (`vec`) as the Spec function of
  the arrays the stage reads, so the round is assembled by rewriting.
-/
import proofs.«422120_j65652870087589_3_alg».proof.Proof.RefBase

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open scoped BigOperators

-- the argument arrays, and each reference buffer's value at them
variable (x0 : AF S2048x2048) (x1 : AF S32768x2048) (x2 : AI S32768x2) (x3 : AF S2048x512) (x4 : AF S512) (x5 : AF S512x512)
  (x6 : AF S512) (x7 : AF S2048x512) (x8 : AF S512) (x9 : AF S512x512) (x10 : AF S512) (x11 : AF S4x512x512) (x12 : AF S4x512)
  (x13 : AF S2x51x151) (x14 : AF S2x151) (x15 : AF S2x151x51) (x16 : AF S2x51) (x17 : AF S512x151) (x18 : AF S151)
  (x19 : AF S512x51) (x20 : AF S51)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2
local notation "R37" => val_main_v37 (F := Ideal) x0 x3
local notation "R38" => val_main_v38 (F := Ideal) x4
local notation "R39" => val_main_v39 (F := Ideal) x4
local notation "R40" => val_main_v40 (F := Ideal) x0 x3 x4
local notation "R41" => val_main_v41 (F := Ideal) x0 x3 x4
local notation "R42" => val_main_v42 (F := Ideal) x0 x3 x4 x5
local notation "R43" => val_main_v43 (F := Ideal) x6
local notation "R44" => val_main_v44 (F := Ideal) x6
local notation "R45" => val_main_v45 (F := Ideal) x0 x3 x4 x5 x6
local notation "R46" => val_main_v46 (F := Ideal) x1 x7
local notation "R47" => val_main_v47 (F := Ideal) x8
local notation "R48" => val_main_v48 (F := Ideal) x8
local notation "R49" => val_main_v49 (F := Ideal) x1 x7 x8
local notation "R50" => val_main_v50 (F := Ideal) x1 x7 x8
local notation "R51" => val_main_v51 (F := Ideal) x1 x7 x8 x9
local notation "R52" => val_main_v52 (F := Ideal) x10
local notation "R53" => val_main_v53 (F := Ideal) x10
local notation "R54" => val_main_v54 (F := Ideal) x1 x7 x8 x9 x10
local notation "R55" => val_main_v55 (F := Ideal) x11
local notation "R56" => val_main_v56 (F := Ideal) x11
local notation "R57" => val_main_v57 (F := Ideal) x12
local notation "R58" => val_main_v58 (F := Ideal) x12
local notation "R59" => val_main_v59 (F := Ideal) x1 x7 x8 x9 x10 x11
local notation "R60" => val_main_v60 (F := Ideal) x12
local notation "R61" => val_main_v61 (F := Ideal) x12
local notation "R62" => val_main_v62 (F := Ideal) x1 x7 x8 x9 x10 x11 x12
local notation "R63" => val_main_v63 (F := Ideal) x1 x7 x8 x9 x10 x11 x12
local notation "R64" => val_main_v64 (F := Ideal) x1 x2 x7 x8 x9 x10 x11 x12
local notation "R65" => val_main_v65 (F := Ideal) x2
local notation "R66" => val_main_v66 (F := Ideal) x2
local notation "R67" => val_main_v67 (F := Ideal)
local notation "R68" => val_main_v68 (F := Ideal) x2
local notation "R69" => val_main_v69 (F := Ideal) x2
local notation "R70" => val_main_v70 (F := Ideal) x1 x2 x7 x8 x9 x10 x11 x12
local notation "R71" => val_main_v71 (F := Ideal) x11
local notation "R72" => val_main_v72 (F := Ideal) x11
local notation "R73" => val_main_v73 (F := Ideal) x12
local notation "R74" => val_main_v74 (F := Ideal) x12
local notation "R75" => val_main_v75 (F := Ideal) x1 x7 x8 x9 x10 x11
local notation "R76" => val_main_v76 (F := Ideal) x12
local notation "R77" => val_main_v77 (F := Ideal) x12
local notation "R78" => val_main_v78 (F := Ideal) x1 x7 x8 x9 x10 x11 x12
local notation "R79" => val_main_v79 (F := Ideal) x1 x7 x8 x9 x10 x11 x12
local notation "R80" => val_main_v80 (F := Ideal) x1 x2 x7 x8 x9 x10 x11 x12
local notation "R81" => val_main_v81 (F := Ideal) x2
local notation "R82" => val_main_v82 (F := Ideal) x2
local notation "R83" => val_main_v83 (F := Ideal)
local notation "R84" => val_main_v84 (F := Ideal) x2
local notation "R85" => val_main_v85 (F := Ideal) x2
local notation "R86" => val_main_v86 (F := Ideal) x1 x2 x7 x8 x9 x10 x11 x12
local notation "R87" => val_main_v87 (F := Ideal) x1 x2 x7 x8 x9 x10 x11 x12
local notation "R88" => val_main_v88 (F := Ideal)
local notation "R89" => val_main_v89 (F := Ideal) x1 x2 x7 x8 x9 x10 x11 x12
local notation "R90" => val_main_v90 (F := Ideal) x0 x1 x2 x3 x4 x5 x6 x7 x8 x9 x10 x11 x12
local notation "R91" => val_main_v91 (F := Ideal) x2
local notation "R92" => val_main_v92 (F := Ideal) x11
local notation "R93" => val_main_v93 (F := Ideal) x11
local notation "R94" => val_main_v94 (F := Ideal) x12
local notation "R95" => val_main_v95 (F := Ideal) x12
local notation "R96" => val_main_v96 (F := Ideal) x0 x3 x4 x5 x6 x11
local notation "R97" => val_main_v97 (F := Ideal) x12
local notation "R98" => val_main_v98 (F := Ideal) x12
local notation "R99" => val_main_v99 (F := Ideal) x0 x3 x4 x5 x6 x11 x12
local notation "R100" => val_main_v100 (F := Ideal) x0 x3 x4 x5 x6 x11 x12
local notation "R101" => val_main_v101 (F := Ideal) x0 x2 x3 x4 x5 x6 x11 x12
local notation "R102" => val_main_v102 (F := Ideal) x2
local notation "R103" => val_main_v103 (F := Ideal) x2
local notation "R104" => val_main_v104 (F := Ideal)
local notation "R105" => val_main_v105 (F := Ideal) x2
local notation "R106" => val_main_v106 (F := Ideal) x2
local notation "R107" => val_main_v107 (F := Ideal) x0 x2 x3 x4 x5 x6 x11 x12
local notation "R108" => val_main_v108 (F := Ideal) x2
local notation "R109" => val_main_v109 (F := Ideal) x11
local notation "R110" => val_main_v110 (F := Ideal) x11
local notation "R111" => val_main_v111 (F := Ideal) x12
local notation "R112" => val_main_v112 (F := Ideal) x12
local notation "R113" => val_main_v113 (F := Ideal) x0 x3 x4 x5 x6 x11
local notation "R114" => val_main_v114 (F := Ideal) x12
local notation "R115" => val_main_v115 (F := Ideal) x12
local notation "R116" => val_main_v116 (F := Ideal) x0 x3 x4 x5 x6 x11 x12
local notation "R117" => val_main_v117 (F := Ideal) x0 x3 x4 x5 x6 x11 x12
local notation "R118" => val_main_v118 (F := Ideal) x0 x2 x3 x4 x5 x6 x11 x12
local notation "R119" => val_main_v119 (F := Ideal) x2
local notation "R120" => val_main_v120 (F := Ideal) x2
local notation "R121" => val_main_v121 (F := Ideal)
local notation "R122" => val_main_v122 (F := Ideal) x2
local notation "R123" => val_main_v123 (F := Ideal) x2
local notation "R124" => val_main_v124 (F := Ideal) x0 x2 x3 x4 x5 x6 x11 x12
local notation "R125" => val_main_v125 (F := Ideal) x0 x2 x3 x4 x5 x6 x11 x12
local notation "R126" => val_main_v126 (F := Ideal)
local notation "R127" => val_main_v127 (F := Ideal) x0 x2 x3 x4 x5 x6 x11 x12
local notation "R128" => val_main_v128 (F := Ideal) x0 x1 x2 x3 x4 x5 x6 x7 x8 x9 x10 x11 x12
local notation "R129" => val_main_v129 (F := Ideal) x11
local notation "R130" => val_main_v130 (F := Ideal) x11
local notation "R131" => val_main_v131 (F := Ideal) x12
local notation "R132" => val_main_v132 (F := Ideal) x12
local notation "R133" => val_main_v133 (F := Ideal) x0 x1 x2 x3 x4 x5 x6 x7 x8 x9 x10 x11 x12
local notation "R134" => val_main_v134 (F := Ideal) x12
local notation "R135" => val_main_v135 (F := Ideal) x12
local notation "R136" => val_main_v136 (F := Ideal) x0 x1 x2 x3 x4 x5 x6 x7 x8 x9 x10 x11 x12
local notation "R137" => val_main_v137 (F := Ideal) x0 x1 x2 x3 x4 x5 x6 x7 x8 x9 x10 x11 x12
local notation "R138" => val_main_v138 (F := Ideal) x0 x1 x2 x3 x4 x5 x6 x7 x8 x9 x10 x11 x12
local notation "R139" => val_main_v139 (F := Ideal) x2
local notation "R140" => val_main_v140 (F := Ideal) x2
local notation "R141" => val_main_v141 (F := Ideal)
local notation "R142" => val_main_v142 (F := Ideal) x2
local notation "R143" => val_main_v143 (F := Ideal) x2
local notation "R144" => val_main_v144 (F := Ideal) x0 x1 x2 x3 x4 x5 x6 x7 x8 x9 x10 x11 x12
local notation "R145" => val_main_v145 (F := Ideal) x11
local notation "R146" => val_main_v146 (F := Ideal) x11
local notation "R147" => val_main_v147 (F := Ideal) x12
local notation "R148" => val_main_v148 (F := Ideal) x12
local notation "R149" => val_main_v149 (F := Ideal) x0 x1 x2 x3 x4 x5 x6 x7 x8 x9 x10 x11 x12
local notation "R150" => val_main_v150 (F := Ideal) x12
local notation "R151" => val_main_v151 (F := Ideal) x12
local notation "R152" => val_main_v152 (F := Ideal) x0 x1 x2 x3 x4 x5 x6 x7 x8 x9 x10 x11 x12
local notation "R153" => val_main_v153 (F := Ideal) x0 x1 x2 x3 x4 x5 x6 x7 x8 x9 x10 x11 x12
local notation "R154" => val_main_v154 (F := Ideal) x0 x1 x2 x3 x4 x5 x6 x7 x8 x9 x10 x11 x12
local notation "R155" => val_main_v155 (F := Ideal) x2
local notation "R156" => val_main_v156 (F := Ideal) x2
local notation "R157" => val_main_v157 (F := Ideal)
local notation "R158" => val_main_v158 (F := Ideal) x2
local notation "R159" => val_main_v159 (F := Ideal) x2
local notation "R160" => val_main_v160 (F := Ideal) x0 x1 x2 x3 x4 x5 x6 x7 x8 x9 x10 x11 x12
local notation "R161" => val_main_v161 (F := Ideal) x0 x1 x2 x3 x4 x5 x6 x7 x8 x9 x10 x11 x12
local notation "R162" => val_main_v162 (F := Ideal)
local notation "R163" => val_main_v163 (F := Ideal) x0 x1 x2 x3 x4 x5 x6 x7 x8 x9 x10 x11 x12
local notation "R164" => val_main_v164 (F := Ideal) x0 x1 x2 x3 x4 x5 x6 x7 x8 x9 x10 x11 x12
local notation "R165" => val_main_v165 (F := Ideal) x2
local notation "R166" => val_main_v166 (F := Ideal) x11
local notation "R167" => val_main_v167 (F := Ideal) x11
local notation "R168" => val_main_v168 (F := Ideal) x12
local notation "R169" => val_main_v169 (F := Ideal) x12
local notation "R170" => val_main_v170 (F := Ideal) x0 x1 x2 x3 x4 x5 x6 x7 x8 x9 x10 x11 x12
local notation "R171" => val_main_v171 (F := Ideal) x12
local notation "R172" => val_main_v172 (F := Ideal) x12
local notation "R173" => val_main_v173 (F := Ideal) x0 x1 x2 x3 x4 x5 x6 x7 x8 x9 x10 x11 x12
local notation "R174" => val_main_v174 (F := Ideal) x0 x1 x2 x3 x4 x5 x6 x7 x8 x9 x10 x11 x12
local notation "R175" => val_main_v175 (F := Ideal) x0 x1 x2 x3 x4 x5 x6 x7 x8 x9 x10 x11 x12
local notation "R176" => val_main_v176 (F := Ideal) x2
local notation "R177" => val_main_v177 (F := Ideal) x2
local notation "R178" => val_main_v178 (F := Ideal)
local notation "R179" => val_main_v179 (F := Ideal) x2
local notation "R180" => val_main_v180 (F := Ideal) x2
local notation "R181" => val_main_v181 (F := Ideal) x0 x1 x2 x3 x4 x5 x6 x7 x8 x9 x10 x11 x12
local notation "R182" => val_main_v182 (F := Ideal) x2
local notation "R183" => val_main_v183 (F := Ideal) x11
local notation "R184" => val_main_v184 (F := Ideal) x11
local notation "R185" => val_main_v185 (F := Ideal) x12
local notation "R186" => val_main_v186 (F := Ideal) x12
local notation "R187" => val_main_v187 (F := Ideal) x0 x1 x2 x3 x4 x5 x6 x7 x8 x9 x10 x11 x12
local notation "R188" => val_main_v188 (F := Ideal) x12
local notation "R189" => val_main_v189 (F := Ideal) x12
local notation "R190" => val_main_v190 (F := Ideal) x0 x1 x2 x3 x4 x5 x6 x7 x8 x9 x10 x11 x12
local notation "R191" => val_main_v191 (F := Ideal) x0 x1 x2 x3 x4 x5 x6 x7 x8 x9 x10 x11 x12
local notation "R192" => val_main_v192 (F := Ideal) x0 x1 x2 x3 x4 x5 x6 x7 x8 x9 x10 x11 x12
local notation "R193" => val_main_v193 (F := Ideal) x2
local notation "R194" => val_main_v194 (F := Ideal) x2
local notation "R195" => val_main_v195 (F := Ideal)
local notation "R196" => val_main_v196 (F := Ideal) x2
local notation "R197" => val_main_v197 (F := Ideal) x2
local notation "R198" => val_main_v198 (F := Ideal) x0 x1 x2 x3 x4 x5 x6 x7 x8 x9 x10 x11 x12
local notation "R199" => val_main_v199 (F := Ideal) x0 x1 x2 x3 x4 x5 x6 x7 x8 x9 x10 x11 x12
local notation "R200" => val_main_v200 (F := Ideal)
local notation "R201" => val_main_v201 (F := Ideal) x0 x1 x2 x3 x4 x5 x6 x7 x8 x9 x10 x11 x12
local notation "R202" => val_main_v202 (F := Ideal) x0 x1 x2 x3 x4 x5 x6 x7 x8 x9 x10 x11 x12
local notation "R203" => val_main_v203 (F := Ideal) x0 x1 x2 x3 x4 x5 x6 x7 x8 x9 x10 x11 x12 x17
local notation "R204" => val_main_v204 (F := Ideal) x18
local notation "R205" => val_main_v205 (F := Ideal) x18
local notation "R206" => val_main_v206 (F := Ideal) x0 x1 x2 x3 x4 x5 x6 x7 x8 x9 x10 x11 x12 x17 x18
local notation "R207" => val_main_v207 (F := Ideal) x0 x1 x2 x3 x4 x5 x6 x7 x8 x9 x10 x11 x12 x19
local notation "R208" => val_main_v208 (F := Ideal) x20
local notation "R209" => val_main_v209 (F := Ideal) x20
local notation "R210" => val_main_v210 (F := Ideal) x0 x1 x2 x3 x4 x5 x6 x7 x8 x9 x10 x11 x12 x19 x20
local notation "R211" => val_main_v211 (F := Ideal) x13
local notation "R212" => val_main_v212 (F := Ideal) x13
local notation "R213" => val_main_v213 (F := Ideal) x14
local notation "R214" => val_main_v214 (F := Ideal) x14
local notation "R215" => val_main_v215 (F := Ideal) x0 x1 x2 x3 x4 x5 x6 x7 x8 x9 x10 x11 x12 x13 x19 x20
local notation "R216" => val_main_v216 (F := Ideal) x14
local notation "R217" => val_main_v217 (F := Ideal) x14
local notation "R218" => val_main_v218 (F := Ideal) x0 x1 x2 x3 x4 x5 x6 x7 x8 x9 x10 x11 x12 x13 x14 x19 x20
local notation "R219" => val_main_v219 (F := Ideal) x0 x1 x2 x3 x4 x5 x6 x7 x8 x9 x10 x11 x12 x13 x14 x19 x20
local notation "R220" => val_main_v220 (F := Ideal) x0 x1 x2 x3 x4 x5 x6 x7 x8 x9 x10 x11 x12 x13 x14 x19 x20
local notation "R221" => val_main_v221 (F := Ideal) x2
local notation "R222" => val_main_v222 (F := Ideal) x2
local notation "R223" => val_main_v223 (F := Ideal)
local notation "R224" => val_main_v224 (F := Ideal) x2
local notation "R225" => val_main_v225 (F := Ideal) x2
local notation "R226" => val_main_v226 (F := Ideal) x0 x1 x2 x3 x4 x5 x6 x7 x8 x9 x10 x11 x12 x13 x14 x19 x20
local notation "R227" => val_main_v227 (F := Ideal) x13
local notation "R228" => val_main_v228 (F := Ideal) x13
local notation "R229" => val_main_v229 (F := Ideal) x14
local notation "R230" => val_main_v230 (F := Ideal) x14
local notation "R231" => val_main_v231 (F := Ideal) x0 x1 x2 x3 x4 x5 x6 x7 x8 x9 x10 x11 x12 x13 x19 x20
local notation "R232" => val_main_v232 (F := Ideal) x14
local notation "R233" => val_main_v233 (F := Ideal) x14
local notation "R234" => val_main_v234 (F := Ideal) x0 x1 x2 x3 x4 x5 x6 x7 x8 x9 x10 x11 x12 x13 x14 x19 x20
local notation "R235" => val_main_v235 (F := Ideal) x0 x1 x2 x3 x4 x5 x6 x7 x8 x9 x10 x11 x12 x13 x14 x19 x20
local notation "R236" => val_main_v236 (F := Ideal) x0 x1 x2 x3 x4 x5 x6 x7 x8 x9 x10 x11 x12 x13 x14 x19 x20
local notation "R237" => val_main_v237 (F := Ideal) x2
local notation "R238" => val_main_v238 (F := Ideal) x2
local notation "R239" => val_main_v239 (F := Ideal)
local notation "R240" => val_main_v240 (F := Ideal) x2
local notation "R241" => val_main_v241 (F := Ideal) x2
local notation "R242" => val_main_v242 (F := Ideal) x0 x1 x2 x3 x4 x5 x6 x7 x8 x9 x10 x11 x12 x13 x14 x19 x20
local notation "R243" => val_main_v243 (F := Ideal) x0 x1 x2 x3 x4 x5 x6 x7 x8 x9 x10 x11 x12 x13 x14 x19 x20
local notation "R244" => val_main_v244 (F := Ideal)
local notation "R245" => val_main_v245 (F := Ideal) x0 x1 x2 x3 x4 x5 x6 x7 x8 x9 x10 x11 x12 x13 x14 x19 x20
local notation "R246" => val_main_v246 (F := Ideal) x0 x1 x2 x3 x4 x5 x6 x7 x8 x9 x10 x11 x12 x13 x14 x17 x18 x19 x20
local notation "R247" => val_main_v247 (F := Ideal) x2
local notation "R248" => val_main_v248 (F := Ideal) x15
local notation "R249" => val_main_v249 (F := Ideal) x15
local notation "R250" => val_main_v250 (F := Ideal) x16
local notation "R251" => val_main_v251 (F := Ideal) x16
local notation "R252" => val_main_v252 (F := Ideal) x0 x1 x2 x3 x4 x5 x6 x7 x8 x9 x10 x11 x12 x15 x17 x18
local notation "R253" => val_main_v253 (F := Ideal) x16
local notation "R254" => val_main_v254 (F := Ideal) x16
local notation "R255" => val_main_v255 (F := Ideal) x0 x1 x2 x3 x4 x5 x6 x7 x8 x9 x10 x11 x12 x15 x16 x17 x18
local notation "R256" => val_main_v256 (F := Ideal) x0 x1 x2 x3 x4 x5 x6 x7 x8 x9 x10 x11 x12 x15 x16 x17 x18
local notation "R257" => val_main_v257 (F := Ideal) x0 x1 x2 x3 x4 x5 x6 x7 x8 x9 x10 x11 x12 x15 x16 x17 x18
local notation "R258" => val_main_v258 (F := Ideal) x2
local notation "R259" => val_main_v259 (F := Ideal) x2
local notation "R260" => val_main_v260 (F := Ideal)
local notation "R261" => val_main_v261 (F := Ideal) x2
local notation "R262" => val_main_v262 (F := Ideal) x2
local notation "R263" => val_main_v263 (F := Ideal) x0 x1 x2 x3 x4 x5 x6 x7 x8 x9 x10 x11 x12 x15 x16 x17 x18
local notation "R264" => val_main_v264 (F := Ideal) x2
local notation "R265" => val_main_v265 (F := Ideal) x15
local notation "R266" => val_main_v266 (F := Ideal) x15
local notation "R267" => val_main_v267 (F := Ideal) x16
local notation "R268" => val_main_v268 (F := Ideal) x16
local notation "R269" => val_main_v269 (F := Ideal) x0 x1 x2 x3 x4 x5 x6 x7 x8 x9 x10 x11 x12 x15 x17 x18
local notation "R270" => val_main_v270 (F := Ideal) x16
local notation "R271" => val_main_v271 (F := Ideal) x16
local notation "R272" => val_main_v272 (F := Ideal) x0 x1 x2 x3 x4 x5 x6 x7 x8 x9 x10 x11 x12 x15 x16 x17 x18
local notation "R273" => val_main_v273 (F := Ideal) x0 x1 x2 x3 x4 x5 x6 x7 x8 x9 x10 x11 x12 x15 x16 x17 x18
local notation "R274" => val_main_v274 (F := Ideal) x0 x1 x2 x3 x4 x5 x6 x7 x8 x9 x10 x11 x12 x15 x16 x17 x18
local notation "R275" => val_main_v275 (F := Ideal) x2
local notation "R276" => val_main_v276 (F := Ideal) x2
local notation "R277" => val_main_v277 (F := Ideal)
local notation "R278" => val_main_v278 (F := Ideal) x2
local notation "R279" => val_main_v279 (F := Ideal) x2
local notation "R280" => val_main_v280 (F := Ideal) x0 x1 x2 x3 x4 x5 x6 x7 x8 x9 x10 x11 x12 x15 x16 x17 x18
local notation "R281" => val_main_v281 (F := Ideal) x0 x1 x2 x3 x4 x5 x6 x7 x8 x9 x10 x11 x12 x15 x16 x17 x18
local notation "R282" => val_main_v282 (F := Ideal)
local notation "R283" => val_main_v283 (F := Ideal) x0 x1 x2 x3 x4 x5 x6 x7 x8 x9 x10 x11 x12 x15 x16 x17 x18
local notation "R284" => val_main_v284 (F := Ideal) x0 x1 x2 x3 x4 x5 x6 x7 x8 x9 x10 x11 x12 x15 x16 x17 x18 x19 x20
local notation "R285" => val_main_v285 (F := Ideal) x13
local notation "R286" => val_main_v286 (F := Ideal) x13
local notation "R287" => val_main_v287 (F := Ideal) x14
local notation "R288" => val_main_v288 (F := Ideal) x14
local notation "R289" => val_main_v289 (F := Ideal) x0 x1 x2 x3 x4 x5 x6 x7 x8 x9 x10 x11 x12 x13 x15 x16 x17 x18 x19 x20
local notation "R290" => val_main_v290 (F := Ideal) x14
local notation "R291" => val_main_v291 (F := Ideal) x14
local notation "R292" => val_main_v292 (F := Ideal) x0 x1 x2 x3 x4 x5 x6 x7 x8 x9 x10 x11 x12 x13 x14 x15 x16 x17 x18 x19 x20
local notation "R293" => val_main_v293 (F := Ideal) x0 x1 x2 x3 x4 x5 x6 x7 x8 x9 x10 x11 x12 x13 x14 x15 x16 x17 x18 x19 x20
local notation "R294" => val_main_v294 (F := Ideal) x0 x1 x2 x3 x4 x5 x6 x7 x8 x9 x10 x11 x12 x13 x14 x15 x16 x17 x18 x19 x20
local notation "R295" => val_main_v295 (F := Ideal) x2
local notation "R296" => val_main_v296 (F := Ideal) x2
local notation "R297" => val_main_v297 (F := Ideal)
local notation "R298" => val_main_v298 (F := Ideal) x2
local notation "R299" => val_main_v299 (F := Ideal) x2
local notation "R300" => val_main_v300 (F := Ideal) x0 x1 x2 x3 x4 x5 x6 x7 x8 x9 x10 x11 x12 x13 x14 x15 x16 x17 x18 x19 x20
local notation "R301" => val_main_v301 (F := Ideal) x13
local notation "R302" => val_main_v302 (F := Ideal) x13
local notation "R303" => val_main_v303 (F := Ideal) x14
local notation "R304" => val_main_v304 (F := Ideal) x14
local notation "R305" => val_main_v305 (F := Ideal) x0 x1 x2 x3 x4 x5 x6 x7 x8 x9 x10 x11 x12 x13 x15 x16 x17 x18 x19 x20
local notation "R306" => val_main_v306 (F := Ideal) x14
local notation "R307" => val_main_v307 (F := Ideal) x14
local notation "R308" => val_main_v308 (F := Ideal) x0 x1 x2 x3 x4 x5 x6 x7 x8 x9 x10 x11 x12 x13 x14 x15 x16 x17 x18 x19 x20
local notation "R309" => val_main_v309 (F := Ideal) x0 x1 x2 x3 x4 x5 x6 x7 x8 x9 x10 x11 x12 x13 x14 x15 x16 x17 x18 x19 x20
local notation "R310" => val_main_v310 (F := Ideal) x0 x1 x2 x3 x4 x5 x6 x7 x8 x9 x10 x11 x12 x13 x14 x15 x16 x17 x18 x19 x20
local notation "R311" => val_main_v311 (F := Ideal) x2
local notation "R312" => val_main_v312 (F := Ideal) x2
local notation "R313" => val_main_v313 (F := Ideal)
local notation "R314" => val_main_v314 (F := Ideal) x2
local notation "R315" => val_main_v315 (F := Ideal) x2
local notation "R316" => val_main_v316 (F := Ideal) x0 x1 x2 x3 x4 x5 x6 x7 x8 x9 x10 x11 x12 x13 x14 x15 x16 x17 x18 x19 x20
local notation "R317" => val_main_v317 (F := Ideal) x0 x1 x2 x3 x4 x5 x6 x7 x8 x9 x10 x11 x12 x13 x14 x15 x16 x17 x18 x19 x20
local notation "R318" => val_main_v318 (F := Ideal)
local notation "R319" => val_main_v319 (F := Ideal) x0 x1 x2 x3 x4 x5 x6 x7 x8 x9 x10 x11 x12 x13 x14 x15 x16 x17 x18 x19 x20
local notation "R320" => val_main_v320 (F := Ideal) x0 x1 x2 x3 x4 x5 x6 x7 x8 x9 x10 x11 x12 x13 x14 x15 x16 x17 x18 x19 x20
local notation "R321" => val_main_v321 (F := Ideal) x2
local notation "R322" => val_main_v322 (F := Ideal) x15
local notation "R323" => val_main_v323 (F := Ideal) x15
local notation "R324" => val_main_v324 (F := Ideal) x16
local notation "R325" => val_main_v325 (F := Ideal) x16
local notation "R326" => val_main_v326 (F := Ideal) x0 x1 x2 x3 x4 x5 x6 x7 x8 x9 x10 x11 x12 x13 x14 x15 x17 x18 x19 x20
local notation "R327" => val_main_v327 (F := Ideal) x16
local notation "R328" => val_main_v328 (F := Ideal) x16
local notation "R329" => val_main_v329 (F := Ideal) x0 x1 x2 x3 x4 x5 x6 x7 x8 x9 x10 x11 x12 x13 x14 x15 x16 x17 x18 x19 x20
local notation "R330" => val_main_v330 (F := Ideal) x0 x1 x2 x3 x4 x5 x6 x7 x8 x9 x10 x11 x12 x13 x14 x15 x16 x17 x18 x19 x20
local notation "R331" => val_main_v331 (F := Ideal) x0 x1 x2 x3 x4 x5 x6 x7 x8 x9 x10 x11 x12 x13 x14 x15 x16 x17 x18 x19 x20
local notation "R332" => val_main_v332 (F := Ideal) x2
local notation "R333" => val_main_v333 (F := Ideal) x2
local notation "R334" => val_main_v334 (F := Ideal)
local notation "R335" => val_main_v335 (F := Ideal) x2
local notation "R336" => val_main_v336 (F := Ideal) x2
local notation "R337" => val_main_v337 (F := Ideal) x0 x1 x2 x3 x4 x5 x6 x7 x8 x9 x10 x11 x12 x13 x14 x15 x16 x17 x18 x19 x20
local notation "R338" => val_main_v338 (F := Ideal) x2
local notation "R339" => val_main_v339 (F := Ideal) x15
local notation "R340" => val_main_v340 (F := Ideal) x15
local notation "R341" => val_main_v341 (F := Ideal) x16
local notation "R342" => val_main_v342 (F := Ideal) x16
local notation "R343" => val_main_v343 (F := Ideal) x0 x1 x2 x3 x4 x5 x6 x7 x8 x9 x10 x11 x12 x13 x14 x15 x17 x18 x19 x20
local notation "R344" => val_main_v344 (F := Ideal) x16
local notation "R345" => val_main_v345 (F := Ideal) x16
local notation "R346" => val_main_v346 (F := Ideal) x0 x1 x2 x3 x4 x5 x6 x7 x8 x9 x10 x11 x12 x13 x14 x15 x16 x17 x18 x19 x20
local notation "R347" => val_main_v347 (F := Ideal) x0 x1 x2 x3 x4 x5 x6 x7 x8 x9 x10 x11 x12 x13 x14 x15 x16 x17 x18 x19 x20
local notation "R348" => val_main_v348 (F := Ideal) x0 x1 x2 x3 x4 x5 x6 x7 x8 x9 x10 x11 x12 x13 x14 x15 x16 x17 x18 x19 x20
local notation "R349" => val_main_v349 (F := Ideal) x2
local notation "R350" => val_main_v350 (F := Ideal) x2
local notation "R351" => val_main_v351 (F := Ideal)
local notation "R352" => val_main_v352 (F := Ideal) x2
local notation "R353" => val_main_v353 (F := Ideal) x2
local notation "R354" => val_main_v354 (F := Ideal) x0 x1 x2 x3 x4 x5 x6 x7 x8 x9 x10 x11 x12 x13 x14 x15 x16 x17 x18 x19 x20
local notation "R355" => val_main_v355 (F := Ideal) x0 x1 x2 x3 x4 x5 x6 x7 x8 x9 x10 x11 x12 x13 x14 x15 x16 x17 x18 x19 x20
local notation "R356" => val_main_v356 (F := Ideal)
local notation "R357" => val_main_v357 (F := Ideal) x0 x1 x2 x3 x4 x5 x6 x7 x8 x9 x10 x11 x12 x13 x14 x15 x16 x17 x18 x19 x20
local notation "R358" => val_main_v358 (F := Ideal) x0 x1 x2 x3 x4 x5 x6 x7 x8 x9 x10 x11 x12 x13 x14 x15 x16 x17 x18 x19 x20
-- end of the names

/-! ## The second score-level round, stage by stage

The round reads the objects' scores `R246` ([2048, 151]) and the relations' scores `R284` ([32768, 51]) and writes the
objects' `R320` and the relations' `R358`. Each of its four halves is a linear layer with the positive part on the
source's rows, summed through an adjacency map (the subjects' `R18`, the objects' `R36`, or their transposes) and divided
by the row's degree plus the small constant. -/

/-! ### The objects' half through the subjects' map -/

/-- Its weight: one slice of the stacked weights, as a matrix. -/
theorem W_v286 : mat (a := 51) (b := 151) R286 = fun a b => x13 (ix3 (0 : Fin 2) a b) := by
  funext a b
  simp only [mat_apply]
  rw [val_main_v286_apply, val_main_v285_apply]
  have ha := a.isLt
  have hb := b.isLt
  exact congrArg _ (idx3_ext rfl (by show (a.val * 151 + b.val) / 151 % 51 = a.val; omega)
    (by show (a.val * 151 + b.val) % 151 = b.val; omega))

/-- Its bias: the matching row of the stacked biases, as a vector. -/
theorem b_v288 : vec (n := 151) R288 = fun j => x14 (ix2 (0 : Fin 2) j) := by
  funext j
  simp only [vec_apply]
  rw [val_main_v288_apply, val_main_v287_apply]
  have hj := j.isLt
  exact congrArg _ (idx2_ext rfl (by show j.val % 151 = j.val; omega))

/-- The linear layer followed by the positive part, applied to the source's rows. -/
theorem fc_v293 : mat (a := 32768) (b := 151) R293
    = Spec.linRelu (mat (a := 32768) (b := 51) R284) (mat (a := 51) (b := 151) R286) (vec (n := 151) R288) := by
  funext i j
  simp only [mat_apply, vec_apply, Spec.linRelu, Spec.relu, Spec.lin]
  rw [val_main_v293_apply, val_main_v292_apply, val_main_v289_apply, val_main_v291_apply, val_main_v290_apply,
    val_main_call14_v0_apply, val_main_call14_cst_apply]
  have e1 : ∀ k, lidx_main_v289 (ix2 i j) k = ix2 i k := fun k => idx2_ext rfl rfl
  have e2 : ∀ k, ridx_main_v289 (ix2 i j) k = ix2 k j := fun k => idx2_ext rfl rfl
  have e3 : idx_main_v290 (idx_main_v291 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v300 : mat (a := 2048) (b := 151) R300
    = Spec.collect (mat (a := 2048) (b := 32768) R18) (mat (a := 32768) (b := 151) R293) := by
  funext i j
  simp only [mat_apply, Spec.collect, Spec.eps]
  rw [val_main_v300_apply, val_main_v294_apply, val_main_v299_apply, val_main_v298_apply, val_main_v296_apply,
    val_main_v295_apply, val_main_v297_apply, val_main_cst_41_apply, val_main_cst_40_apply]
  have e1 : ∀ k, lidx_main_v294 (ix2 i j) k = ix2 i k := fun k => idx2_ext rfl rfl
  have e2 : ∀ k, ridx_main_v294 (ix2 i j) k = ix2 k j := fun k => idx2_ext rfl rfl
  have e3 : ∀ k, idx_main_v295 (idx_main_v296 (idx_main_v299 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The objects' half through the objects' map -/

/-- Its weight: one slice of the stacked weights, as a matrix. -/
theorem W_v302 : mat (a := 51) (b := 151) R302 = fun a b => x13 (ix3 (1 : Fin 2) a b) := by
  funext a b
  simp only [mat_apply]
  rw [val_main_v302_apply, val_main_v301_apply]
  have ha := a.isLt
  have hb := b.isLt
  exact congrArg _ (idx3_ext rfl (by show (a.val * 151 + b.val) / 151 % 51 = a.val; omega)
    (by show (a.val * 151 + b.val) % 151 = b.val; omega))

/-- Its bias: the matching row of the stacked biases, as a vector. -/
theorem b_v304 : vec (n := 151) R304 = fun j => x14 (ix2 (1 : Fin 2) j) := by
  funext j
  simp only [vec_apply]
  rw [val_main_v304_apply, val_main_v303_apply]
  have hj := j.isLt
  exact congrArg _ (idx2_ext rfl (by show j.val % 151 = j.val; omega))

/-- The linear layer followed by the positive part, applied to the source's rows. -/
theorem fc_v309 : mat (a := 32768) (b := 151) R309
    = Spec.linRelu (mat (a := 32768) (b := 51) R284) (mat (a := 51) (b := 151) R302) (vec (n := 151) R304) := by
  funext i j
  simp only [mat_apply, vec_apply, Spec.linRelu, Spec.relu, Spec.lin]
  rw [val_main_v309_apply, val_main_v308_apply, val_main_v305_apply, val_main_v307_apply, val_main_v306_apply,
    val_main_call15_v0_apply, val_main_call15_cst_apply]
  have e1 : ∀ k, lidx_main_v305 (ix2 i j) k = ix2 i k := fun k => idx2_ext rfl rfl
  have e2 : ∀ k, ridx_main_v305 (ix2 i j) k = ix2 k j := fun k => idx2_ext rfl rfl
  have e3 : idx_main_v306 (idx_main_v307 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v316 : mat (a := 2048) (b := 151) R316
    = Spec.collect (mat (a := 2048) (b := 32768) R36) (mat (a := 32768) (b := 151) R309) := by
  funext i j
  simp only [mat_apply, Spec.collect, Spec.eps]
  rw [val_main_v316_apply, val_main_v310_apply, val_main_v315_apply, val_main_v314_apply, val_main_v312_apply,
    val_main_v311_apply, val_main_v313_apply, val_main_cst_43_apply, val_main_cst_42_apply]
  have e1 : ∀ k, lidx_main_v310 (ix2 i j) k = ix2 i k := fun k => idx2_ext rfl rfl
  have e2 : ∀ k, ridx_main_v310 (ix2 i j) k = ix2 k j := fun k => idx2_ext rfl rfl
  have e3 : ∀ k, idx_main_v311 (idx_main_v312 (idx_main_v315 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The objects' update: the target plus half the sum of its two halves. -/
theorem u_v320 : mat (a := 2048) (b := 151) R320
    = Spec.upd (mat (a := 2048) (b := 151) R246) (mat (a := 2048) (b := 151) R300) (mat (a := 2048) (b := 151) R316) := by
  funext i j
  simp only [mat_apply, Spec.upd, Spec.half]
  rw [val_main_v320_apply, val_main_v319_apply, val_main_v318_apply, val_main_cst_44_apply, val_main_v317_apply]
  rfl

/-! ### The relations' half through the subjects' map transposed -/

/-- Its weight: one slice of the stacked weights, as a matrix. -/
theorem W_v323 : mat (a := 151) (b := 51) R323 = fun a b => x15 (ix3 (0 : Fin 2) a b) := by
  funext a b
  simp only [mat_apply]
  rw [val_main_v323_apply, val_main_v322_apply]
  have ha := a.isLt
  have hb := b.isLt
  exact congrArg _ (idx3_ext rfl (by show (a.val * 51 + b.val) / 51 % 151 = a.val; omega)
    (by show (a.val * 51 + b.val) % 51 = b.val; omega))

/-- Its bias: the matching row of the stacked biases, as a vector. -/
theorem b_v325 : vec (n := 51) R325 = fun j => x16 (ix2 (0 : Fin 2) j) := by
  funext j
  simp only [vec_apply]
  rw [val_main_v325_apply, val_main_v324_apply]
  have hj := j.isLt
  exact congrArg _ (idx2_ext rfl (by show j.val % 51 = j.val; omega))

/-- The linear layer followed by the positive part, applied to the source's rows. -/
theorem fc_v330 : mat (a := 2048) (b := 51) R330
    = Spec.linRelu (mat (a := 2048) (b := 151) R246) (mat (a := 151) (b := 51) R323) (vec (n := 51) R325) := by
  funext i j
  simp only [mat_apply, vec_apply, Spec.linRelu, Spec.relu, Spec.lin]
  rw [val_main_v330_apply, val_main_v329_apply, val_main_v326_apply, val_main_v328_apply, val_main_v327_apply,
    val_main_call16_v0_apply, val_main_call16_cst_apply]
  have e1 : ∀ k, lidx_main_v326 (ix2 i j) k = ix2 i k := fun k => idx2_ext rfl rfl
  have e2 : ∀ k, ridx_main_v326 (ix2 i j) k = ix2 k j := fun k => idx2_ext rfl rfl
  have e3 : idx_main_v327 (idx_main_v328 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v337 : mat (a := 32768) (b := 51) R337
    = Spec.collect (mat (a := 32768) (b := 2048) R321) (mat (a := 2048) (b := 51) R330) := by
  funext i j
  simp only [mat_apply, Spec.collect, Spec.eps]
  rw [val_main_v337_apply, val_main_v331_apply, val_main_v336_apply, val_main_v335_apply, val_main_v333_apply,
    val_main_v332_apply, val_main_v334_apply, val_main_cst_46_apply, val_main_cst_45_apply]
  have e1 : ∀ k, lidx_main_v331 (ix2 i j) k = ix2 i k := fun k => idx2_ext rfl rfl
  have e2 : ∀ k, ridx_main_v331 (ix2 i j) k = ix2 k j := fun k => idx2_ext rfl rfl
  have e3 : ∀ k, idx_main_v332 (idx_main_v333 (idx_main_v336 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-! ### The relations' half through the objects' map transposed -/

/-- Its weight: one slice of the stacked weights, as a matrix. -/
theorem W_v340 : mat (a := 151) (b := 51) R340 = fun a b => x15 (ix3 (1 : Fin 2) a b) := by
  funext a b
  simp only [mat_apply]
  rw [val_main_v340_apply, val_main_v339_apply]
  have ha := a.isLt
  have hb := b.isLt
  exact congrArg _ (idx3_ext rfl (by show (a.val * 51 + b.val) / 51 % 151 = a.val; omega)
    (by show (a.val * 51 + b.val) % 51 = b.val; omega))

/-- Its bias: the matching row of the stacked biases, as a vector. -/
theorem b_v342 : vec (n := 51) R342 = fun j => x16 (ix2 (1 : Fin 2) j) := by
  funext j
  simp only [vec_apply]
  rw [val_main_v342_apply, val_main_v341_apply]
  have hj := j.isLt
  exact congrArg _ (idx2_ext rfl (by show j.val % 51 = j.val; omega))

/-- The linear layer followed by the positive part, applied to the source's rows. -/
theorem fc_v347 : mat (a := 2048) (b := 51) R347
    = Spec.linRelu (mat (a := 2048) (b := 151) R246) (mat (a := 151) (b := 51) R340) (vec (n := 51) R342) := by
  funext i j
  simp only [mat_apply, vec_apply, Spec.linRelu, Spec.relu, Spec.lin]
  rw [val_main_v347_apply, val_main_v346_apply, val_main_v343_apply, val_main_v345_apply, val_main_v344_apply,
    val_main_call17_v0_apply, val_main_call17_cst_apply]
  have e1 : ∀ k, lidx_main_v343 (ix2 i j) k = ix2 i k := fun k => idx2_ext rfl rfl
  have e2 : ∀ k, ridx_main_v343 (ix2 i j) k = ix2 k j := fun k => idx2_ext rfl rfl
  have e3 : idx_main_v344 (idx_main_v345 (ix2 i j)) = ix1 j := idx1_ext rfl
  simp only [e1, e2, e3]
  show max (_ + _) (Ideal.ofBits .f32 0x00000000#32) = _
  rw [Ideal.ofBits_zero_f32]

/-- The half: the adjacency-weighted sum of those rows over the row's degree plus the small constant. -/
theorem c_v354 : mat (a := 32768) (b := 51) R354
    = Spec.collect (mat (a := 32768) (b := 2048) R338) (mat (a := 2048) (b := 51) R347) := by
  funext i j
  simp only [mat_apply, Spec.collect, Spec.eps]
  rw [val_main_v354_apply, val_main_v348_apply, val_main_v353_apply, val_main_v352_apply, val_main_v350_apply,
    val_main_v349_apply, val_main_v351_apply, val_main_cst_48_apply, val_main_cst_47_apply]
  have e1 : ∀ k, lidx_main_v348 (ix2 i j) k = ix2 i k := fun k => idx2_ext rfl rfl
  have e2 : ∀ k, ridx_main_v348 (ix2 i j) k = ix2 k j := fun k => idx2_ext rfl rfl
  have e3 : ∀ k, idx_main_v349 (idx_main_v350 (idx_main_v353 (ix2 i j))) k = ix2 i k := fun k => idx2_ext rfl rfl
  simp only [e1, e2, e3]
  show Ideal.div _ ((Ideal.ofBits .f32 0x00000000#32 + _) + Ideal.ofBits .f32 0x33D6BF95#32) = _
  rw [Ideal.ofBits_zero_f32, zero_add]

/-- The relations' update: the target plus half the sum of its two halves. -/
theorem u_v358 : mat (a := 32768) (b := 51) R358
    = Spec.upd (mat (a := 32768) (b := 51) R284) (mat (a := 32768) (b := 51) R337) (mat (a := 32768) (b := 51) R354) := by
  funext i j
  simp only [mat_apply, Spec.upd, Spec.half]
  rw [val_main_v358_apply, val_main_v357_apply, val_main_v356_apply, val_main_cst_49_apply, val_main_v355_apply]
  rfl

/-! ### The round -/

/-- THE ROUND: the pair of its two results is Spec.lean's `round` of the two maps, the eight slices of the stacked
    weights and biases, and the two sources. -/
theorem round_v320_v358 :
    (mat (a := 2048) (b := 151) R320, mat (a := 32768) (b := 51) R358)
      = Spec.round (mat (a := 2048) (b := 32768) R18) (mat (a := 2048) (b := 32768) R36)
          (fun a b => x13 (ix3 (0 : Fin 2) a b)) (fun j => x14 (ix2 (0 : Fin 2) j))
          (fun a b => x13 (ix3 (1 : Fin 2) a b)) (fun j => x14 (ix2 (1 : Fin 2) j))
          (fun a b => x15 (ix3 (0 : Fin 2) a b)) (fun j => x16 (ix2 (0 : Fin 2) j))
          (fun a b => x15 (ix3 (1 : Fin 2) a b)) (fun j => x16 (ix2 (1 : Fin 2) j))
          (mat (a := 2048) (b := 151) R246) (mat (a := 32768) (b := 51) R284) := by
  unfold Spec.round
  rw [u_v320, u_v358, c_v300, c_v316, c_v337, c_v354, fc_v293, fc_v309, fc_v330, fc_v347,
    W_v286, b_v288, W_v302, b_v304, W_v323, b_v325, W_v340, b_v342, tr_v321, tr_v338]

end Cert.RefSpec

end
-- ==== Proof.RefSpec.lean ====
/-
  The reference program's three results are the model of Spec.lean.

  The parameters of the model are the argument arrays read as matrices and vectors (`params`). The two embeddings are
  two-layer perceptrons of the raw features; each of the four message-passing rounds is one `round` of the model (the
  modules of the rounds), over the two adjacency maps, which under the range hypothesis on the index input are the
  adjacencies of its two columns (the base module); the classifiers are linear layers. Chaining these gives the three
  results: the relations' embedded features, and the objects' and the relations' scores after the score-level rounds.
-/
import proofs.«422120_j65652870087589_3_alg».proof.Proof.RefBase
import proofs.«422120_j65652870087589_3_alg».proof.Proof.RefF1
import proofs.«422120_j65652870087589_3_alg».proof.Proof.RefF2
import proofs.«422120_j65652870087589_3_alg».proof.Proof.RefS1
import proofs.«422120_j65652870087589_3_alg».proof.Proof.RefS2

set_option maxRecDepth 16384

noncomputable section

namespace Cert.RefSpec

open Cert.ReferenceIdeal Cert.ReferenceIdeal.Gen Cert.ReferenceIdeal.ReadP
open Idealize.ShloMosaic Idealize.ShloMosaic.TcCoe Idealize.ShloMosaic.StableHlo Idealize.ShloMosaic.ValueIdx
open scoped BigOperators

-- the argument arrays, and each reference buffer's value at them
variable (x0 : AF S2048x2048) (x1 : AF S32768x2048) (x2 : AI S32768x2) (x3 : AF S2048x512) (x4 : AF S512) (x5 : AF S512x512)
  (x6 : AF S512) (x7 : AF S2048x512) (x8 : AF S512) (x9 : AF S512x512) (x10 : AF S512) (x11 : AF S4x512x512) (x12 : AF S4x512)
  (x13 : AF S2x51x151) (x14 : AF S2x151) (x15 : AF S2x151x51) (x16 : AF S2x51) (x17 : AF S512x151) (x18 : AF S151)
  (x19 : AF S512x51) (x20 : AF S51)

local notation "R0" => val_main_v0 (F := Ideal)
local notation "R1" => val_main_v1 (F := Ideal)
local notation "R2" => val_main_v2 (F := Ideal) x2
local notation "R3" => val_main_v3 (F := Ideal) x2
local notation "R4" => val_main_v4 (F := Ideal)
local notation "R5" => val_main_v5 (F := Ideal) x2
local notation "R6" => val_main_v6 (F := Ideal)
local notation "R7" => val_main_v7 (F := Ideal) x2
local notation "R8" => val_main_v8 (F := Ideal) x2
local notation "R9" => val_main_v9 (F := Ideal)
local notation "R10" => val_main_v10 (F := Ideal)
local notation "R11" => val_main_v11 (F := Ideal)
local notation "R12" => val_main_v12 (F := Ideal)
local notation "R13" => val_main_v13 (F := Ideal)
local notation "R14" => val_main_v14 (F := Ideal) x2
local notation "R15" => val_main_v15 (F := Ideal)
local notation "R16" => val_main_v16 (F := Ideal) x2
local notation "R17" => val_main_v17 (F := Ideal)
local notation "R18" => val_main_v18 (F := Ideal) x2
local notation "R19" => val_main_v19 (F := Ideal)
local notation "R20" => val_main_v20 (F := Ideal) x2
local notation "R21" => val_main_v21 (F := Ideal) x2
local notation "R22" => val_main_v22 (F := Ideal)
local notation "R23" => val_main_v23 (F := Ideal) x2
local notation "R24" => val_main_v24 (F := Ideal)
local notation "R25" => val_main_v25 (F := Ideal) x2
local notation "R26" => val_main_v26 (F := Ideal) x2
local notation "R27" => val_main_v27 (F := Ideal)
local notation "R28" => val_main_v28 (F := Ideal)
local notation "R29" => val_main_v29 (F := Ideal)
local notation "R30" => val_main_v30 (F := Ideal)
local notation "R31" => val_main_v31 (F := Ideal)
local notation "R32" => val_main_v32 (F := Ideal) x2
local notation "R33" => val_main_v33 (F := Ideal)
local notation "R34" => val_main_v34 (F := Ideal) x2
local notation "R35" => val_main_v35 (F := Ideal)
local notation "R36" => val_main_v36 (F := Ideal) x2
local notation "R37" => val_main_v37 (F := Ideal) x0 x3
local notation "R38" => val_main_v38 (F := Ideal) x4
local notation "R39" => val_main_v39 (F := Ideal) x4
local notation "R40" => val_main_v40 (F := Ideal) x0 x3 x4
local notation "R41" => val_main_v41 (F := Ideal) x0 x3 x4
local notation "R42" => val_main_v42 (F := Ideal) x0 x3 x4 x5
local notation "R43" => val_main_v43 (F := Ideal) x6
local notation "R44" => val_main_v44 (F := Ideal) x6
local notation "R45" => val_main_v45 (F := Ideal) x0 x3 x4 x5 x6
local notation "R46" => val_main_v46 (F := Ideal) x1 x7
local notation "R47" => val_main_v47 (F := Ideal) x8
local notation "R48" => val_main_v48 (F := Ideal) x8
local notation "R49" => val_main_v49 (F := Ideal) x1 x7 x8
local notation "R50" => val_main_v50 (F := Ideal) x1 x7 x8
local notation "R51" => val_main_v51 (F := Ideal) x1 x7 x8 x9
local notation "R52" => val_main_v52 (F := Ideal) x10
local notation "R53" => val_main_v53 (F := Ideal) x10
local notation "R54" => val_main_v54 (F := Ideal) x1 x7 x8 x9 x10
local notation "R55" => val_main_v55 (F := Ideal) x11
local notation "R56" => val_main_v56 (F := Ideal) x11
local notation "R57" => val_main_v57 (F := Ideal) x12
local notation "R58" => val_main_v58 (F := Ideal) x12
local notation "R59" => val_main_v59 (F := Ideal) x1 x7 x8 x9 x10 x11
local notation "R60" => val_main_v60 (F := Ideal) x12
local notation "R61" => val_main_v61 (F := Ideal) x12
local notation "R62" => val_main_v62 (F := Ideal) x1 x7 x8 x9 x10 x11 x12
local notation "R63" => val_main_v63 (F := Ideal) x1 x7 x8 x9 x10 x11 x12
local notation "R64" => val_main_v64 (F := Ideal) x1 x2 x7 x8 x9 x10 x11 x12
local notation "R65" => val_main_v65 (F := Ideal) x2
local notation "R66" => val_main_v66 (F := Ideal) x2
local notation "R67" => val_main_v67 (F := Ideal)
local notation "R68" => val_main_v68 (F := Ideal) x2
local notation "R69" => val_main_v69 (F := Ideal) x2
local notation "R70" => val_main_v70 (F := Ideal) x1 x2 x7 x8 x9 x10 x11 x12
local notation "R71" => val_main_v71 (F := Ideal) x11
local notation "R72" => val_main_v72 (F := Ideal) x11
local notation "R73" => val_main_v73 (F := Ideal) x12
local notation "R74" => val_main_v74 (F := Ideal) x12
local notation "R75" => val_main_v75 (F := Ideal) x1 x7 x8 x9 x10 x11
local notation "R76" => val_main_v76 (F := Ideal) x12
local notation "R77" => val_main_v77 (F := Ideal) x12
local notation "R78" => val_main_v78 (F := Ideal) x1 x7 x8 x9 x10 x11 x12
local notation "R79" => val_main_v79 (F := Ideal) x1 x7 x8 x9 x10 x11 x12
local notation "R80" => val_main_v80 (F := Ideal) x1 x2 x7 x8 x9 x10 x11 x12
local notation "R81" => val_main_v81 (F := Ideal) x2
local notation "R82" => val_main_v82 (F := Ideal) x2
local notation "R83" => val_main_v83 (F := Ideal)
local notation "R84" => val_main_v84 (F := Ideal) x2
local notation "R85" => val_main_v85 (F := Ideal) x2
local notation "R86" => val_main_v86 (F := Ideal) x1 x2 x7 x8 x9 x10 x11 x12
local notation "R87" => val_main_v87 (F := Ideal) x1 x2 x7 x8 x9 x10 x11 x12
local notation "R88" => val_main_v88 (F := Ideal)
local notation "R89" => val_main_v89 (F := Ideal) x1 x2 x7 x8 x9 x10 x11 x12
local notation "R90" => val_main_v90 (F := Ideal) x0 x1 x2 x3 x4 x5 x6 x7 x8 x9 x10 x11 x12
local notation "R91" => val_main_v91 (F := Ideal) x2
local notation "R92" => val_main_v92 (F := Ideal) x11
local notation "R93" => val_main_v93 (F := Ideal) x11
local notation "R94" => val_main_v94 (F := Ideal) x12
local notation "R95" => val_main_v95 (F := Ideal) x12
local notation "R96" => val_main_v96 (F := Ideal) x0 x3 x4 x5 x6 x11
local notation "R97" => val_main_v97 (F := Ideal) x12
local notation "R98" => val_main_v98 (F := Ideal) x12
local notation "R99" => val_main_v99 (F := Ideal) x0 x3 x4 x5 x6 x11 x12
local notation "R100" => val_main_v100 (F := Ideal) x0 x3 x4 x5 x6 x11 x12
local notation "R101" => val_main_v101 (F := Ideal) x0 x2 x3 x4 x5 x6 x11 x12
local notation "R102" => val_main_v102 (F := Ideal) x2
local notation "R103" => val_main_v103 (F := Ideal) x2
local notation "R104" => val_main_v104 (F := Ideal)
local notation "R105" => val_main_v105 (F := Ideal) x2
local notation "R106" => val_main_v106 (F := Ideal) x2
local notation "R107" => val_main_v107 (F := Ideal) x0 x2 x3 x4 x5 x6 x11 x12
local notation "R108" => val_main_v108 (F := Ideal) x2
local notation "R109" => val_main_v109 (F := Ideal) x11
local notation "R110" => val_main_v110 (F := Ideal) x11
local notation "R111" => val_main_v111 (F := Ideal) x12
local notation "R112" => val_main_v112 (F := Ideal) x12
local notation "R113" => val_main_v113 (F := Ideal) x0 x3 x4 x5 x6 x11
local notation "R114" => val_main_v114 (F := Ideal) x12
local notation "R115" => val_main_v115 (F := Ideal) x12
local notation "R116" => val_main_v116 (F := Ideal) x0 x3 x4 x5 x6 x11 x12
local notation "R117" => val_main_v117 (F := Ideal) x0 x3 x4 x5 x6 x11 x12
local notation "R118" => val_main_v118 (F := Ideal) x0 x2 x3 x4 x5 x6 x11 x12
local notation "R119" => val_main_v119 (F := Ideal) x2
local notation "R120" => val_main_v120 (F := Ideal) x2
local notation "R121" => val_main_v121 (F := Ideal)
local notation "R122" => val_main_v122 (F := Ideal) x2
local notation "R123" => val_main_v123 (F := Ideal) x2
local notation "R124" => val_main_v124 (F := Ideal) x0 x2 x3 x4 x5 x6 x11 x12
local notation "R125" => val_main_v125 (F := Ideal) x0 x2 x3 x4 x5 x6 x11 x12
local notation "R126" => val_main_v126 (F := Ideal)
local notation "R127" => val_main_v127 (F := Ideal) x0 x2 x3 x4 x5 x6 x11 x12
local notation "R128" => val_main_v128 (F := Ideal) x0 x1 x2 x3 x4 x5 x6 x7 x8 x9 x10 x11 x12
local notation "R129" => val_main_v129 (F := Ideal) x11
local notation "R130" => val_main_v130 (F := Ideal) x11
local notation "R131" => val_main_v131 (F := Ideal) x12
local notation "R132" => val_main_v132 (F := Ideal) x12
local notation "R133" => val_main_v133 (F := Ideal) x0 x1 x2 x3 x4 x5 x6 x7 x8 x9 x10 x11 x12
local notation "R134" => val_main_v134 (F := Ideal) x12
local notation "R135" => val_main_v135 (F := Ideal) x12
local notation "R136" => val_main_v136 (F := Ideal) x0 x1 x2 x3 x4 x5 x6 x7 x8 x9 x10 x11 x12
local notation "R137" => val_main_v137 (F := Ideal) x0 x1 x2 x3 x4 x5 x6 x7 x8 x9 x10 x11 x12
local notation "R138" => val_main_v138 (F := Ideal) x0 x1 x2 x3 x4 x5 x6 x7 x8 x9 x10 x11 x12
local notation "R139" => val_main_v139 (F := Ideal) x2
local notation "R140" => val_main_v140 (F := Ideal) x2
local notation "R141" => val_main_v141 (F := Ideal)
local notation "R142" => val_main_v142 (F := Ideal) x2
local notation "R143" => val_main_v143 (F := Ideal) x2
local notation "R144" => val_main_v144 (F := Ideal) x0 x1 x2 x3 x4 x5 x6 x7 x8 x9 x10 x11 x12
local notation "R145" => val_main_v145 (F := Ideal) x11
local notation "R146" => val_main_v146 (F := Ideal) x11
local notation "R147" => val_main_v147 (F := Ideal) x12
local notation "R148" => val_main_v148 (F := Ideal) x12
local notation "R149" => val_main_v149 (F := Ideal) x0 x1 x2 x3 x4 x5 x6 x7 x8 x9 x10 x11 x12
local notation "R150" => val_main_v150 (F := Ideal) x12
local notation "R151" => val_main_v151 (F := Ideal) x12
local notation "R152" => val_main_v152 (F := Ideal) x0 x1 x2 x3 x4 x5 x6 x7 x8 x9 x10 x11 x12
local notation "R153" => val_main_v153 (F := Ideal) x0 x1 x2 x3 x4 x5 x6 x7 x8 x9 x10 x11 x12
local notation "R154" => val_main_v154 (F := Ideal) x0 x1 x2 x3 x4 x5 x6 x7 x8 x9 x10 x11 x12
local notation "R155" => val_main_v155 (F := Ideal) x2
local notation "R156" => val_main_v156 (F := Ideal) x2
local notation "R157" => val_main_v157 (F := Ideal)
local notation "R158" => val_main_v158 (F := Ideal) x2
local notation "R159" => val_main_v159 (F := Ideal) x2
local notation "R160" => val_main_v160 (F := Ideal) x0 x1 x2 x3 x4 x5 x6 x7 x8 x9 x10 x11 x12
local notation "R161" => val_main_v161 (F := Ideal) x0 x1 x2 x3 x4 x5 x6 x7 x8 x9 x10 x11 x12
local notation "R162" => val_main_v162 (F := Ideal)
local notation "R163" => val_main_v163 (F := Ideal) x0 x1 x2 x3 x4 x5 x6 x7 x8 x9 x10 x11 x12
local notation "R164" => val_main_v164 (F := Ideal) x0 x1 x2 x3 x4 x5 x6 x7 x8 x9 x10 x11 x12
local notation "R165" => val_main_v165 (F := Ideal) x2
local notation "R166" => val_main_v166 (F := Ideal) x11
local notation "R167" => val_main_v167 (F := Ideal) x11
local notation "R168" => val_main_v168 (F := Ideal) x12
local notation "R169" => val_main_v169 (F := Ideal) x12
local notation "R170" => val_main_v170 (F := Ideal) x0 x1 x2 x3 x4 x5 x6 x7 x8 x9 x10 x11 x12
local notation "R171" => val_main_v171 (F := Ideal) x12
local notation "R172" => val_main_v172 (F := Ideal) x12
local notation "R173" => val_main_v173 (F := Ideal) x0 x1 x2 x3 x4 x5 x6 x7 x8 x9 x10 x11 x12
local notation "R174" => val_main_v174 (F := Ideal) x0 x1 x2 x3 x4 x5 x6 x7 x8 x9 x10 x11 x12
local notation "R175" => val_main_v175 (F := Ideal) x0 x1 x2 x3 x4 x5 x6 x7 x8 x9 x10 x11 x12
local notation "R176" => val_main_v176 (F := Ideal) x2
local notation "R177" => val_main_v177 (F := Ideal) x2
local notation "R178" => val_main_v178 (F := Ideal)
local notation "R179" => val_main_v179 (F := Ideal) x2
local notation "R180" => val_main_v180 (F := Ideal) x2
local notation "R181" => val_main_v181 (F := Ideal) x0 x1 x2 x3 x4 x5 x6 x7 x8 x9 x10 x11 x12
local notation "R182" => val_main_v182 (F := Ideal) x2
local notation "R183" => val_main_v183 (F := Ideal) x11
local notation "R184" => val_main_v184 (F := Ideal) x11
local notation "R185" => val_main_v185 (F := Ideal) x12
local notation "R186" => val_main_v186 (F := Ideal) x12
local notation "R187" => val_main_v187 (F := Ideal) x0 x1 x2 x3 x4 x5 x6 x7 x8 x9 x10 x11 x12
local notation "R188" => val_main_v188 (F := Ideal) x12
local notation "R189" => val_main_v189 (F := Ideal) x12
local notation "R190" => val_main_v190 (F := Ideal) x0 x1 x2 x3 x4 x5 x6 x7 x8 x9 x10 x11 x12
local notation "R191" => val_main_v191 (F := Ideal) x0 x1 x2 x3 x4 x5 x6 x7 x8 x9 x10 x11 x12
local notation "R192" => val_main_v192 (F := Ideal) x0 x1 x2 x3 x4 x5 x6 x7 x8 x9 x10 x11 x12
local notation "R193" => val_main_v193 (F := Ideal) x2
local notation "R194" => val_main_v194 (F := Ideal) x2
local notation "R195" => val_main_v195 (F := Ideal)
local notation "R196" => val_main_v196 (F := Ideal) x2
local notation "R197" => val_main_v197 (F := Ideal) x2
local notation "R198" => val_main_v198 (F := Ideal) x0 x1 x2 x3 x4 x5 x6 x7 x8 x9 x10 x11 x12
local notation "R199" => val_main_v199 (F := Ideal) x0 x1 x2 x3 x4 x5 x6 x7 x8 x9 x10 x11 x12
local notation "R200" => val_main_v200 (F := Ideal)
local notation "R201" => val_main_v201 (F := Ideal) x0 x1 x2 x3 x4 x5 x6 x7 x8 x9 x10 x11 x12
local notation "R202" => val_main_v202 (F := Ideal) x0 x1 x2 x3 x4 x5 x6 x7 x8 x9 x10 x11 x12
local notation "R203" => val_main_v203 (F := Ideal) x0 x1 x2 x3 x4 x5 x6 x7 x8 x9 x10 x11 x12 x17
local notation "R204" => val_main_v204 (F := Ideal) x18
local notation "R205" => val_main_v205 (F := Ideal) x18
local notation "R206" => val_main_v206 (F := Ideal) x0 x1 x2 x3 x4 x5 x6 x7 x8 x9 x10 x11 x12 x17 x18
local notation "R207" => val_main_v207 (F := Ideal) x0 x1 x2 x3 x4 x5 x6 x7 x8 x9 x10 x11 x12 x19
local notation "R208" => val_main_v208 (F := Ideal) x20
local notation "R209" => val_main_v209 (F := Ideal) x20
local notation "R210" => val_main_v210 (F := Ideal) x0 x1 x2 x3 x4 x5 x6 x7 x8 x9 x10 x11 x12 x19 x20
local notation "R211" => val_main_v211 (F := Ideal) x13
local notation "R212" => val_main_v212 (F := Ideal) x13
local notation "R213" => val_main_v213 (F := Ideal) x14
local notation "R214" => val_main_v214 (F := Ideal) x14
local notation "R215" => val_main_v215 (F := Ideal) x0 x1 x2 x3 x4 x5 x6 x7 x8 x9 x10 x11 x12 x13 x19 x20
local notation "R216" => val_main_v216 (F := Ideal) x14
local notation "R217" => val_main_v217 (F := Ideal) x14
local notation "R218" => val_main_v218 (F := Ideal) x0 x1 x2 x3 x4 x5 x6 x7 x8 x9 x10 x11 x12 x13 x14 x19 x20
local notation "R219" => val_main_v219 (F := Ideal) x0 x1 x2 x3 x4 x5 x6 x7 x8 x9 x10 x11 x12 x13 x14 x19 x20
local notation "R220" => val_main_v220 (F := Ideal) x0 x1 x2 x3 x4 x5 x6 x7 x8 x9 x10 x11 x12 x13 x14 x19 x20
local notation "R221" => val_main_v221 (F := Ideal) x2
local notation "R222" => val_main_v222 (F := Ideal) x2
local notation "R223" => val_main_v223 (F := Ideal)
local notation "R224" => val_main_v224 (F := Ideal) x2
local notation "R225" => val_main_v225 (F := Ideal) x2
local notation "R226" => val_main_v226 (F := Ideal) x0 x1 x2 x3 x4 x5 x6 x7 x8 x9 x10 x11 x12 x13 x14 x19 x20
local notation "R227" => val_main_v227 (F := Ideal) x13
local notation "R228" => val_main_v228 (F := Ideal) x13
local notation "R229" => val_main_v229 (F := Ideal) x14
local notation "R230" => val_main_v230 (F := Ideal) x14
local notation "R231" => val_main_v231 (F := Ideal) x0 x1 x2 x3 x4 x5 x6 x7 x8 x9 x10 x11 x12 x13 x19 x20
local notation "R232" => val_main_v232 (F := Ideal) x14
local notation "R233" => val_main_v233 (F := Ideal) x14
local notation "R234" => val_main_v234 (F := Ideal) x0 x1 x2 x3 x4 x5 x6 x7 x8 x9 x10 x11 x12 x13 x14 x19 x20
local notation "R235" => val_main_v235 (F := Ideal) x0 x1 x2 x3 x4 x5 x6 x7 x8 x9 x10 x11 x12 x13 x14 x19 x20
local notation "R236" => val_main_v236 (F := Ideal) x0 x1 x2 x3 x4 x5 x6 x7 x8 x9 x10 x11 x12 x13 x14 x19 x20
local notation "R237" => val_main_v237 (F := Ideal) x2
local notation "R238" => val_main_v238 (F := Ideal) x2
local notation "R239" => val_main_v239 (F := Ideal)
local notation "R240" => val_main_v240 (F := Ideal) x2
local notation "R241" => val_main_v241 (F := Ideal) x2
local notation "R242" => val_main_v242 (F := Ideal) x0 x1 x2 x3 x4 x5 x6 x7 x8 x9 x10 x11 x12 x13 x14 x19 x20
local notation "R243" => val_main_v243 (F := Ideal) x0 x1 x2 x3 x4 x5 x6 x7 x8 x9 x10 x11 x12 x13 x14 x19 x20
local notation "R244" => val_main_v244 (F := Ideal)
local notation "R245" => val_main_v245 (F := Ideal) x0 x1 x2 x3 x4 x5 x6 x7 x8 x9 x10 x11 x12 x13 x14 x19 x20
local notation "R246" => val_main_v246 (F := Ideal) x0 x1 x2 x3 x4 x5 x6 x7 x8 x9 x10 x11 x12 x13 x14 x17 x18 x19 x20
local notation "R247" => val_main_v247 (F := Ideal) x2
local notation "R248" => val_main_v248 (F := Ideal) x15
local notation "R249" => val_main_v249 (F := Ideal) x15
local notation "R250" => val_main_v250 (F := Ideal) x16
local notation "R251" => val_main_v251 (F := Ideal) x16
local notation "R252" => val_main_v252 (F := Ideal) x0 x1 x2 x3 x4 x5 x6 x7 x8 x9 x10 x11 x12 x15 x17 x18
local notation "R253" => val_main_v253 (F := Ideal) x16
local notation "R254" => val_main_v254 (F := Ideal) x16
local notation "R255" => val_main_v255 (F := Ideal) x0 x1 x2 x3 x4 x5 x6 x7 x8 x9 x10 x11 x12 x15 x16 x17 x18
local notation "R256" => val_main_v256 (F := Ideal) x0 x1 x2 x3 x4 x5 x6 x7 x8 x9 x10 x11 x12 x15 x16 x17 x18
local notation "R257" => val_main_v257 (F := Ideal) x0 x1 x2 x3 x4 x5 x6 x7 x8 x9 x10 x11 x12 x15 x16 x17 x18
local notation "R258" => val_main_v258 (F := Ideal) x2
local notation "R259" => val_main_v259 (F := Ideal) x2
local notation "R260" => val_main_v260 (F := Ideal)
local notation "R261" => val_main_v261 (F := Ideal) x2
local notation "R262" => val_main_v262 (F := Ideal) x2
local notation "R263" => val_main_v263 (F := Ideal) x0 x1 x2 x3 x4 x5 x6 x7 x8 x9 x10 x11 x12 x15 x16 x17 x18
local notation "R264" => val_main_v264 (F := Ideal) x2
local notation "R265" => val_main_v265 (F := Ideal) x15
local notation "R266" => val_main_v266 (F := Ideal) x15
local notation "R267" => val_main_v267 (F := Ideal) x16
local notation "R268" => val_main_v268 (F := Ideal) x16
local notation "R269" => val_main_v269 (F := Ideal) x0 x1 x2 x3 x4 x5 x6 x7 x8 x9 x10 x11 x12 x15 x17 x18
local notation "R270" => val_main_v270 (F := Ideal) x16
local notation "R271" => val_main_v271 (F := Ideal) x16
local notation "R272" => val_main_v272 (F := Ideal) x0 x1 x2 x3 x4 x5 x6 x7 x8 x9 x10 x11 x12 x15 x16 x17 x18
local notation "R273" => val_main_v273 (F := Ideal) x0 x1 x2 x3 x4 x5 x6 x7 x8 x9 x10 x11 x12 x15 x16 x17 x18
local notation "R274" => val_main_v274 (F := Ideal) x0 x1 x2 x3 x4 x5 x6 x7 x8 x9 x10 x11 x12 x15 x16 x17 x18
local notation "R275" => val_main_v275 (F := Ideal) x2
local notation "R276" => val_main_v276 (F := Ideal) x2
local notation "R277" => val_main_v277 (F := Ideal)
local notation "R278" => val_main_v278 (F := Ideal) x2
local notation "R279" => val_main_v279 (F := Ideal) x2
local notation "R280" => val_main_v280 (F := Ideal) x0 x1 x2 x3 x4 x5 x6 x7 x8 x9 x10 x11 x12 x15 x16 x17 x18
local notation "R281" => val_main_v281 (F := Ideal) x0 x1 x2 x3 x4 x5 x6 x7 x8 x9 x10 x11 x12 x15 x16 x17 x18
local notation "R282" => val_main_v282 (F := Ideal)
local notation "R283" => val_main_v283 (F := Ideal) x0 x1 x2 x3 x4 x5 x6 x7 x8 x9 x10 x11 x12 x15 x16 x17 x18
local notation "R284" => val_main_v284 (F := Ideal) x0 x1 x2 x3 x4 x5 x6 x7 x8 x9 x10 x11 x12 x15 x16 x17 x18 x19 x20
local notation "R285" => val_main_v285 (F := Ideal) x13
local notation "R286" => val_main_v286 (F := Ideal) x13
local notation "R287" => val_main_v287 (F := Ideal) x14
local notation "R288" => val_main_v288 (F := Ideal) x14
local notation "R289" => val_main_v289 (F := Ideal) x0 x1 x2 x3 x4 x5 x6 x7 x8 x9 x10 x11 x12 x13 x15 x16 x17 x18 x19 x20
local notation "R290" => val_main_v290 (F := Ideal) x14
local notation "R291" => val_main_v291 (F := Ideal) x14
local notation "R292" => val_main_v292 (F := Ideal) x0 x1 x2 x3 x4 x5 x6 x7 x8 x9 x10 x11 x12 x13 x14 x15 x16 x17 x18 x19 x20
local notation "R293" => val_main_v293 (F := Ideal) x0 x1 x2 x3 x4 x5 x6 x7 x8 x9 x10 x11 x12 x13 x14 x15 x16 x17 x18 x19 x20
local notation "R294" => val_main_v294 (F := Ideal) x0 x1 x2 x3 x4 x5 x6 x7 x8 x9 x10 x11 x12 x13 x14 x15 x16 x17 x18 x19 x20
local notation "R295" => val_main_v295 (F := Ideal) x2
local notation "R296" => val_main_v296 (F := Ideal) x2
local notation "R297" => val_main_v297 (F := Ideal)
local notation "R298" => val_main_v298 (F := Ideal) x2
local notation "R299" => val_main_v299 (F := Ideal) x2
local notation "R300" => val_main_v300 (F := Ideal) x0 x1 x2 x3 x4 x5 x6 x7 x8 x9 x10 x11 x12 x13 x14 x15 x16 x17 x18 x19 x20
local notation "R301" => val_main_v301 (F := Ideal) x13
local notation "R302" => val_main_v302 (F := Ideal) x13
local notation "R303" => val_main_v303 (F := Ideal) x14
local notation "R304" => val_main_v304 (F := Ideal) x14
local notation "R305" => val_main_v305 (F := Ideal) x0 x1 x2 x3 x4 x5 x6 x7 x8 x9 x10 x11 x12 x13 x15 x16 x17 x18 x19 x20
local notation "R306" => val_main_v306 (F := Ideal) x14
local notation "R307" => val_main_v307 (F := Ideal) x14
local notation "R308" => val_main_v308 (F := Ideal) x0 x1 x2 x3 x4 x5 x6 x7 x8 x9 x10 x11 x12 x13 x14 x15 x16 x17 x18 x19 x20
local notation "R309" => val_main_v309 (F := Ideal) x0 x1 x2 x3 x4 x5 x6 x7 x8 x9 x10 x11 x12 x13 x14 x15 x16 x17 x18 x19 x20
local notation "R310" => val_main_v310 (F := Ideal) x0 x1 x2 x3 x4 x5 x6 x7 x8 x9 x10 x11 x12 x13 x14 x15 x16 x17 x18 x19 x20
local notation "R311" => val_main_v311 (F := Ideal) x2
local notation "R312" => val_main_v312 (F := Ideal) x2
local notation "R313" => val_main_v313 (F := Ideal)
local notation "R314" => val_main_v314 (F := Ideal) x2
local notation "R315" => val_main_v315 (F := Ideal) x2
local notation "R316" => val_main_v316 (F := Ideal) x0 x1 x2 x3 x4 x5 x6 x7 x8 x9 x10 x11 x12 x13 x14 x15 x16 x17 x18 x19 x20
local notation "R317" => val_main_v317 (F := Ideal) x0 x1 x2 x3 x4 x5 x6 x7 x8 x9 x10 x11 x12 x13 x14 x15 x16 x17 x18 x19 x20
local notation "R318" => val_main_v318 (F := Ideal)
local notation "R319" => val_main_v319 (F := Ideal) x0 x1 x2 x3 x4 x5 x6 x7 x8 x9 x10 x11 x12 x13 x14 x15 x16 x17 x18 x19 x20
local notation "R320" => val_main_v320 (F := Ideal) x0 x1 x2 x3 x4 x5 x6 x7 x8 x9 x10 x11 x12 x13 x14 x15 x16 x17 x18 x19 x20
local notation "R321" => val_main_v321 (F := Ideal) x2
local notation "R322" => val_main_v322 (F := Ideal) x15
local notation "R323" => val_main_v323 (F := Ideal) x15
local notation "R324" => val_main_v324 (F := Ideal) x16
local notation "R325" => val_main_v325 (F := Ideal) x16
local notation "R326" => val_main_v326 (F := Ideal) x0 x1 x2 x3 x4 x5 x6 x7 x8 x9 x10 x11 x12 x13 x14 x15 x17 x18 x19 x20
local notation "R327" => val_main_v327 (F := Ideal) x16
local notation "R328" => val_main_v328 (F := Ideal) x16
local notation "R329" => val_main_v329 (F := Ideal) x0 x1 x2 x3 x4 x5 x6 x7 x8 x9 x10 x11 x12 x13 x14 x15 x16 x17 x18 x19 x20
local notation "R330" => val_main_v330 (F := Ideal) x0 x1 x2 x3 x4 x5 x6 x7 x8 x9 x10 x11 x12 x13 x14 x15 x16 x17 x18 x19 x20
local notation "R331" => val_main_v331 (F := Ideal) x0 x1 x2 x3 x4 x5 x6 x7 x8 x9 x10 x11 x12 x13 x14 x15 x16 x17 x18 x19 x20
local notation "R332" => val_main_v332 (F := Ideal) x2
local notation "R333" => val_main_v333 (F := Ideal) x2
local notation "R334" => val_main_v334 (F := Ideal)
local notation "R335" => val_main_v335 (F := Ideal) x2
local notation "R336" => val_main_v336 (F := Ideal) x2
local notation "R337" => val_main_v337 (F := Ideal) x0 x1 x2 x3 x4 x5 x6 x7 x8 x9 x10 x11 x12 x13 x14 x15 x16 x17 x18 x19 x20
local notation "R338" => val_main_v338 (F := Ideal) x2
local notation "R339" => val_main_v339 (F := Ideal) x15
local notation "R340" => val_main_v340 (F := Ideal) x15
local notation "R341" => val_main_v341 (F := Ideal) x16
local notation "R342" => val_main_v342 (F := Ideal) x16
local notation "R343" => val_main_v343 (F := Ideal) x0 x1 x2 x3 x4 x5 x6 x7 x8 x9 x10 x11 x12 x13 x14 x15 x17 x18 x19 x20
local notation "R344" => val_main_v344 (F := Ideal) x16
local notation "R345" => val_main_v345 (F := Ideal) x16
local notation "R346" => val_main_v346 (F := Ideal) x0 x1 x2 x3 x4 x5 x6 x7 x8 x9 x10 x11 x12 x13 x14 x15 x16 x17 x18 x19 x20
local notation "R347" => val_main_v347 (F := Ideal) x0 x1 x2 x3 x4 x5 x6 x7 x8 x9 x10 x11 x12 x13 x14 x15 x16 x17 x18 x19 x20
local notation "R348" => val_main_v348 (F := Ideal) x0 x1 x2 x3 x4 x5 x6 x7 x8 x9 x10 x11 x12 x13 x14 x15 x16 x17 x18 x19 x20
local notation "R349" => val_main_v349 (F := Ideal) x2
local notation "R350" => val_main_v350 (F := Ideal) x2
local notation "R351" => val_main_v351 (F := Ideal)
local notation "R352" => val_main_v352 (F := Ideal) x2
local notation "R353" => val_main_v353 (F := Ideal) x2
local notation "R354" => val_main_v354 (F := Ideal) x0 x1 x2 x3 x4 x5 x6 x7 x8 x9 x10 x11 x12 x13 x14 x15 x16 x17 x18 x19 x20
local notation "R355" => val_main_v355 (F := Ideal) x0 x1 x2 x3 x4 x5 x6 x7 x8 x9 x10 x11 x12 x13 x14 x15 x16 x17 x18 x19 x20
local notation "R356" => val_main_v356 (F := Ideal)
local notation "R357" => val_main_v357 (F := Ideal) x0 x1 x2 x3 x4 x5 x6 x7 x8 x9 x10 x11 x12 x13 x14 x15 x16 x17 x18 x19 x20
local notation "R358" => val_main_v358 (F := Ideal) x0 x1 x2 x3 x4 x5 x6 x7 x8 x9 x10 x11 x12 x13 x14 x15 x16 x17 x18 x19 x20
-- end of the names

/-! ## The embeddings -/

/-- The objects' hidden layer: the first linear layer with the positive part. -/
theorem h_v41 : mat (a := 2048) (b := 512) R41
    = Spec.linRelu (mat (a := 2048) (b := 2048) x0) (mat (a := 2048) (b := 512) x3) (vec (n := 512) x4) := by
  funext i j
  simp only [mat_apply, vec_apply, Spec.linRelu, Spec.relu, Spec.lin]
  rw [val_main_v41_apply, val_main_v40_apply, val_main_v37_apply, val_main_v39_apply, val_main_v38_apply,
    val_main_call0_v0_apply, val_main_call0_cst_apply]
  have e1 : ∀ k, lidx_main_v37 (ix2 i j) k = ix2 i k := fun k => idx2_ext rfl rfl
  have e2 : ∀ k, ridx_main_v37 (ix2 i j) k = ix2 k j := fun k => idx2_ext rfl rfl
  have e3 : idx_main_v38 (idx_main_v39 (ix2 i j)) = ix1 j := idx1_ext rfl
  simp only [e1, e2, e3]
  show max (_ + _) (Ideal.ofBits .f32 0x00000000#32) = _
  rw [Ideal.ofBits_zero_f32]

/-- The objects' embedded features: the second linear layer on the hidden layer. -/
theorem lin_v45 : mat (a := 2048) (b := 512) R45
    = Spec.lin (mat (a := 2048) (b := 512) R41) (mat (a := 512) (b := 512) x5) (vec (n := 512) x6) := by
  funext i j
  simp only [mat_apply, vec_apply, Spec.lin]
  rw [val_main_v45_apply, val_main_v42_apply, val_main_v44_apply, val_main_v43_apply]
  have e1 : ∀ k, lidx_main_v42 (ix2 i j) k = ix2 i k := fun k => idx2_ext rfl rfl
  have e2 : ∀ k, ridx_main_v42 (ix2 i j) k = ix2 k j := fun k => idx2_ext rfl rfl
  have e3 : idx_main_v43 (idx_main_v44 (ix2 i j)) = ix1 j := idx1_ext rfl
  simp only [e1, e2, e3]
  rfl

/-- The relations' hidden layer. -/
theorem h_v50 : mat (a := 32768) (b := 512) R50
    = Spec.linRelu (mat (a := 32768) (b := 2048) x1) (mat (a := 2048) (b := 512) x7) (vec (n := 512) x8) := by
  funext i j
  simp only [mat_apply, vec_apply, Spec.linRelu, Spec.relu, Spec.lin]
  rw [val_main_v50_apply, val_main_v49_apply, val_main_v46_apply, val_main_v48_apply, val_main_v47_apply,
    val_main_call1_v0_apply, val_main_call1_cst_apply]
  have e1 : ∀ k, lidx_main_v46 (ix2 i j) k = ix2 i k := fun k => idx2_ext rfl rfl
  have e2 : ∀ k, ridx_main_v46 (ix2 i j) k = ix2 k j := fun k => idx2_ext rfl rfl
  have e3 : idx_main_v47 (idx_main_v48 (ix2 i j)) = ix1 j := idx1_ext rfl
  simp only [e1, e2, e3]
  show max (_ + _) (Ideal.ofBits .f32 0x00000000#32) = _
  rw [Ideal.ofBits_zero_f32]

/-- The relations' embedded features. -/
theorem lin_v54 : mat (a := 32768) (b := 512) R54
    = Spec.lin (mat (a := 32768) (b := 512) R50) (mat (a := 512) (b := 512) x9) (vec (n := 512) x10) := by
  funext i j
  simp only [mat_apply, vec_apply, Spec.lin]
  rw [val_main_v54_apply, val_main_v51_apply, val_main_v53_apply, val_main_v52_apply]
  have e1 : ∀ k, lidx_main_v51 (ix2 i j) k = ix2 i k := fun k => idx2_ext rfl rfl
  have e2 : ∀ k, ridx_main_v51 (ix2 i j) k = ix2 k j := fun k => idx2_ext rfl rfl
  have e3 : idx_main_v52 (idx_main_v53 (ix2 i j)) = ix1 j := idx1_ext rfl
  simp only [e1, e2, e3]
  rfl

/-! ## The classifiers -/

/-- The objects' scores before the score-level rounds: a linear layer on the objects' features. -/
theorem cls_v206 : mat (a := 2048) (b := 151) R206
    = Spec.lin (mat (a := 2048) (b := 512) R164) (mat (a := 512) (b := 151) x17) (vec (n := 151) x18) := by
  funext i j
  simp only [mat_apply, vec_apply, Spec.lin]
  rw [val_main_v206_apply, val_main_v203_apply, val_main_v205_apply, val_main_v204_apply]
  have e1 : ∀ k, lidx_main_v203 (ix2 i j) k = ix2 i k := fun k => idx2_ext rfl rfl
  have e2 : ∀ k, ridx_main_v203 (ix2 i j) k = ix2 k j := fun k => idx2_ext rfl rfl
  have e3 : idx_main_v204 (idx_main_v205 (ix2 i j)) = ix1 j := idx1_ext rfl
  simp only [e1, e2, e3]
  rfl

/-- The relations' scores before the score-level rounds. -/
theorem cls_v210 : mat (a := 32768) (b := 51) R210
    = Spec.lin (mat (a := 32768) (b := 512) R202) (mat (a := 512) (b := 51) x19) (vec (n := 51) x20) := by
  funext i j
  simp only [mat_apply, vec_apply, Spec.lin]
  rw [val_main_v210_apply, val_main_v207_apply, val_main_v209_apply, val_main_v208_apply]
  have e1 : ∀ k, lidx_main_v207 (ix2 i j) k = ix2 i k := fun k => idx2_ext rfl rfl
  have e2 : ∀ k, ridx_main_v207 (ix2 i j) k = ix2 k j := fun k => idx2_ext rfl rfl
  have e3 : idx_main_v208 (idx_main_v209 (ix2 i j)) = ix1 j := idx1_ext rfl
  simp only [e1, e2, e3]
  rfl

/-! ## The model's parameters and the three results -/

/-- The model's parameters: the weight and bias arguments read as matrices and vectors, a stacked array by its slices. -/
def params (x3 : AF S2048x512) (x4 : AF S512) (x5 : AF S512x512) (x6 : AF S512) (x7 : AF S2048x512) (x8 : AF S512)
    (x9 : AF S512x512) (x10 : AF S512) (x11 : AF S4x512x512) (x12 : AF S4x512) (x13 : AF S2x51x151) (x14 : AF S2x151)
    (x15 : AF S2x151x51) (x16 : AF S2x51) (x17 : AF S512x151) (x18 : AF S151) (x19 : AF S512x51) (x20 : AF S51) :
    Spec.Params 2048 512 151 51 where
  oW1 := mat (a := 2048) (b := 512) x3
  ob1 := vec (n := 512) x4
  oW2 := mat (a := 512) (b := 512) x5
  ob2 := vec (n := 512) x6
  rW1 := mat (a := 2048) (b := 512) x7
  rb1 := vec (n := 512) x8
  rW2 := mat (a := 512) (b := 512) x9
  rb2 := vec (n := 512) x10
  Wf := fun k a b => x11 (ix3 k a b)
  bf := fun k j => x12 (ix2 k j)
  Wso := fun k a b => x13 (ix3 k a b)
  bso := fun k j => x14 (ix2 k j)
  Wsr := fun k a b => x15 (ix3 k a b)
  bsr := fun k j => x16 (ix2 k j)
  Wco := mat (a := 512) (b := 151) x17
  bco := vec (n := 151) x18
  Wcp := mat (a := 512) (b := 51) x19
  bcp := vec (n := 51) x20

local notation "PP" => params x3 x4 x5 x6 x7 x8 x9 x10 x11 x12 x13 x14 x15 x16 x17 x18 x19 x20
local notation "A0" => Spec.adj 2048 (fun r : Fin 32768 => x2 (ix2 r (0 : Fin 2)))
local notation "A1" => Spec.adj 2048 (fun r : Fin 32768 => x2 (ix2 r (1 : Fin 2)))
local notation "XO" => mat (a := 2048) (b := 2048) x0
local notation "XP" => mat (a := 32768) (b := 2048) x1

/-- The objects' embedded features are the model's. -/
theorem xobj_eq : mat (a := 2048) (b := 512) R45 = Spec.xObj PP XO := by
  rw [lin_v45, h_v41]; rfl

/-- THE FIRST RESULT: the relations' embedded features are the model's. -/
theorem xpred_eq : mat (a := 32768) (b := 512) R54 = Spec.xPred PP XP := by
  rw [lin_v54, h_v50]; rfl

section Rounds
variable (hidx : ∀ (r : Fin 32768) (k : Fin 2), (0 : Int) ≤ (x2 (ix2 r k)).toInt ∧ (x2 (ix2 r k)).toInt < 2048)
include hidx

/-- After the first feature-level round. -/
theorem feat1_eq : (mat (a := 2048) (b := 512) R90, mat (a := 32768) (b := 512) R128)
    = Spec.featRound PP A0 A1 (Spec.xObj PP XO) (Spec.xPred PP XP) := by
  rw [round_v90_v128, adj18 x2 (fun r => (hidx r 0).1), adj36 x2 (fun r => (hidx r 1).1),
    xobj_eq x0 x3 x4 x5 x6 x7 x8 x9 x10 x11 x12 x13 x14 x15 x16 x17 x18 x19 x20,
    xpred_eq x1 x3 x4 x5 x6 x7 x8 x9 x10 x11 x12 x13 x14 x15 x16 x17 x18 x19 x20]
  rfl

/-- After the second: the model's features. -/
theorem feat2_eq : (mat (a := 2048) (b := 512) R164, mat (a := 32768) (b := 512) R202) = Spec.feats PP A0 A1 XO XP := by
  have h1 := feat1_eq x0 x1 x2 x3 x4 x5 x6 x7 x8 x9 x10 x11 x12 x13 x14 x15 x16 x17 x18 x19 x20 hidx
  rw [round_v164_v202, adj18 x2 (fun r => (hidx r 0).1), adj36 x2 (fun r => (hidx r 1).1),
    show mat (a := 2048) (b := 512) R90 = _ from congrArg Prod.fst h1,
    show mat (a := 32768) (b := 512) R128 = _ from congrArg Prod.snd h1]
  rfl

/-- After the first score-level round. -/
theorem score1_eq : (mat (a := 2048) (b := 151) R246, mat (a := 32768) (b := 51) R284)
    = Spec.scoreRound PP A0 A1 (Spec.lin (Spec.feats PP A0 A1 XO XP).1 (PP).Wco (PP).bco)
        (Spec.lin (Spec.feats PP A0 A1 XO XP).2 (PP).Wcp (PP).bcp) := by
  have h2 := feat2_eq x0 x1 x2 x3 x4 x5 x6 x7 x8 x9 x10 x11 x12 x13 x14 x15 x16 x17 x18 x19 x20 hidx
  rw [round_v246_v284, adj18 x2 (fun r => (hidx r 0).1), adj36 x2 (fun r => (hidx r 1).1), cls_v206, cls_v210,
    show mat (a := 2048) (b := 512) R164 = _ from congrArg Prod.fst h2,
    show mat (a := 32768) (b := 512) R202 = _ from congrArg Prod.snd h2]
  rfl

/-- After the second: the model's scores. -/
theorem score2_eq : (mat (a := 2048) (b := 151) R320, mat (a := 32768) (b := 51) R358) = Spec.scores PP A0 A1 XO XP := by
  have h3 := score1_eq x0 x1 x2 x3 x4 x5 x6 x7 x8 x9 x10 x11 x12 x13 x14 x15 x16 x17 x18 x19 x20 hidx
  rw [round_v320_v358, adj18 x2 (fun r => (hidx r 0).1), adj36 x2 (fun r => (hidx r 1).1),
    show mat (a := 2048) (b := 151) R246 = _ from congrArg Prod.fst h3,
    show mat (a := 32768) (b := 51) R284 = _ from congrArg Prod.snd h3]
  rfl

/-- THE SECOND RESULT, read at an index: the model's objects' scores. -/
theorem ref_out1 (i : Fin 2048) (j : Fin 151) : R320 (ix2 i j) = (Spec.scores PP A0 A1 XO XP).1 i j :=
  congrFun (congrFun (congrArg Prod.fst
    (score2_eq x0 x1 x2 x3 x4 x5 x6 x7 x8 x9 x10 x11 x12 x13 x14 x15 x16 x17 x18 x19 x20 hidx)) i) j

/-- THE THIRD RESULT, read at an index: the model's relations' scores. -/
theorem ref_out2 (i : Fin 32768) (j : Fin 51) : R358 (ix2 i j) = (Spec.scores PP A0 A1 XO XP).2 i j :=
  congrFun (congrFun (congrArg Prod.snd
    (score2_eq x0 x1 x2 x3 x4 x5 x6 x7 x8 x9 x10 x11 x12 x13 x14 x15 x16 x17 x18 x19 x20 hidx)) i) j

end Rounds

/-- THE FIRST RESULT, read at an index: the model's relations' embedded features. -/
theorem ref_out0 (i : Fin 32768) (j : Fin 512) : R54 (ix2 i j) = Spec.xPred PP XP i j :=
  congrFun (congrFun (xpred_eq x1 x3 x4 x5 x6 x7 x8 x9 x10 x11 x12 x13 x14 x15 x16 x17 x18 x19 x20) i) j

end Cert.RefSpec

end
-- ==== Proof.PreDecode.lean ====
/-
  The precondition, decoded: every word of the relations' index array names an object.

  The printed predicate is a conjunction of "every entry of this float input is finite" over the float inputs, ending in
  "every word w of the [32768, 2] index input satisfies 0 ≤ w and w < 2048, read signed". The predicate is one bit; the
  claim assumes it is 1. A conjunction of bits that is 1 has both bits 1, and a reduction by "and" over a whole array
  that is 1 met a 1 at every index; so at every index both comparison bits are 1, which is what the two inequalities
  say of the word read signed. A word in [0, 2048) signed is the same number unsigned.
-/
import proofs.«422120_j65652870087589_3_alg».proof.Defs
import proofs.«422120_j65652870087589_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.SL.Sem
open Cert.Pre_finite_inputs

/-- A rank-0 array has one index. -/
instance : Subsingleton S_.Idx := ⟨fun a b => funext fun d => d.elim0⟩

variable [Cert.Pre_finite_inputs.Facts] {F : FTy → Type} [FloatOps F]

/-- The last stretch of the predicate: its bit being 1 makes both comparison bits 1 at every index. -/
theorem part6 (a2 : IVec S32768x2 32) (v98 : IVec S_ 1) (v100 : IVec S32768x2 1) (v101 : IVec S32768x2 32)
    (h : fn_part6 (F := F) a2 v98 v100 v101 ValueIdx.ix0 = 1#1) (i : S32768x2.Idx) :
    v100 i = 1#1 ∧ IntOp.cmpi .slt (a2 i) (v101 i) = 1#1 := by
  unfold fn_part6 at h
  dsimp only at h
  have h2 := (IntOp.andi_eq_one.1 h).2
  have h3 := Host.reduce_andi_all _ _ _ _ ValueIdx.ix0 h2 i
  exact IntOp.andi_eq_one.1 h3

/-- The two comparisons are against the constants 0 and 2048: the word read signed lies in [0, 2048). -/
theorem part5 (a2 : IVec S32768x2 32) (a19 : FVec F S512x51 .f32) (a20 : FVec F S51 .f32) (v83 : IVec S_ 1)
    (v84 : FVec F S151 .f32) (c32 : FVec F S_ .f32)
    (h : fn_part5 (F := F) a2 a19 a20 v83 v84 c32 ValueIdx.ix0 = 1#1) (i : S32768x2.Idx) :
    0 ≤ (a2 i).toInt ∧ (a2 i).toInt < 2048 := by
  unfold fn_part5 at h
  dsimp only at h
  obtain ⟨h0, h1⟩ := part6 (F := F) _ _ _ _ h i
  have e0 : (0#32 : BitVec 32).toInt = 0 := by decide
  have e1 : (2048#32 : BitVec 32).toInt = 2048 := by decide
  have g0 := IntOp.cmpi_sge.1 h0
  have g1 := IntOp.cmpi_slt.1 h1
  simp only [broadcastInDim, constantI] at g0 g1
  rw [e0] at g0
  rw [e1] at g1
  exact ⟨g0, g1⟩

/-- The stretches before pass the index input on unchanged. -/
theorem part4 (a2 : IVec S32768x2 32) (a15 : FVec F S2x151x51 .f32) (a16 : FVec F S2x51 .f32) (a17 : FVec F S512x151 .f32)
    (a18 : FVec F S151 .f32) (a19 : FVec F S512x51 .f32) (a20 : FVec F S51 .f32) (v63 v67 : IVec S_ 1)
    (h : fn_part4 (F := F) a2 a15 a16 a17 a18 a19 a20 v63 v67 ValueIdx.ix0 = 1#1) (i : S32768x2.Idx) :
    0 ≤ (a2 i).toInt ∧ (a2 i).toInt < 2048 := by
  unfold fn_part4 at h
  dsimp only at h
  exact part5 (F := F) _ _ _ _ _ _ h i

theorem part3 (a2 : IVec S32768x2 32) (a12 : FVec F S4x512 .f32) (a13 : FVec F S2x51x151 .f32) (a14 : FVec F S2x151 .f32)
    (a15 : FVec F S2x151x51 .f32) (a16 : FVec F S2x51 .f32) (a17 : FVec F S512x151 .f32) (a18 : FVec F S151 .f32)
    (a19 : FVec F S512x51 .f32) (a20 : FVec F S51 .f32) (v48 : IVec S_ 1) (v49 v50 : FVec F S4x512x512 .f32)
    (h : fn_part3 (F := F) a2 a12 a13 a14 a15 a16 a17 a18 a19 a20 v48 v49 v50 ValueIdx.ix0 = 1#1) (i : S32768x2.Idx) :
    0 ≤ (a2 i).toInt ∧ (a2 i).toInt < 2048 := by
  unfold fn_part3 at h
  dsimp only at h
  exact part4 (F := F) _ _ _ _ _ _ _ _ _ h i

theorem part2 (a2 : IVec S32768x2 32) (a8 : FVec F S512 .f32) (a9 : FVec F S512x512 .f32) (a10 : FVec F S512 .f32)
    (a11 : FVec F S4x512x512 .f32) (a12 : FVec F S4x512 .f32) (a13 : FVec F S2x51x151 .f32) (a14 : FVec F S2x151 .f32)
    (a15 : FVec F S2x151x51 .f32) (a16 : FVec F S2x51 .f32) (a17 : FVec F S512x151 .f32) (a18 : FVec F S151 .f32)
    (a19 : FVec F S512x51 .f32) (a20 : FVec F S51 .f32) (v33 : IVec S_ 1)
    (h : fn_part2 (F := F) a2 a8 a9 a10 a11 a12 a13 a14 a15 a16 a17 a18 a19 a20 v33 ValueIdx.ix0 = 1#1) (i : S32768x2.Idx) :
    0 ≤ (a2 i).toInt ∧ (a2 i).toInt < 2048 := by
  unfold fn_part2 at h
  dsimp only at h
  exact part3 (F := F) _ _ _ _ _ _ _ _ _ _ _ _ _ h i

theorem part1 (a2 : IVec S32768x2 32) (a5 : FVec F S512x512 .f32) (a6 : FVec F S512 .f32) (a7 : FVec F S2048x512 .f32)
    (a8 : FVec F S512 .f32) (a9 : FVec F S512x512 .f32) (a10 : FVec F S512 .f32)
    (a11 : FVec F S4x512x512 .f32) (a12 : FVec F S4x512 .f32) (a13 : FVec F S2x51x151 .f32) (a14 : FVec F S2x151 .f32)
    (a15 : FVec F S2x151x51 .f32) (a16 : FVec F S2x51 .f32) (a17 : FVec F S512x151 .f32) (a18 : FVec F S151 .f32)
    (a19 : FVec F S512x51 .f32) (a20 : FVec F S51 .f32) (v13 : IVec S_ 1) (v16 : IVec S512 1)
    (h : fn_part1 (F := F) a2 a5 a6 a7 a8 a9 a10 a11 a12 a13 a14 a15 a16 a17 a18 a19 a20 v13 v16 ValueIdx.ix0 = 1#1)
    (i : S32768x2.Idx) : 0 ≤ (a2 i).toInt ∧ (a2 i).toInt < 2048 := by
  unfold fn_part1 at h
  dsimp only at h
  exact part2 (F := F) _ _ _ _ _ _ _ _ _ _ _ _ _ _ _ h i

/-- THE PREDICATE DECODED, for any arguments: if the printed predicate is all ones, every word of the index input,
    read signed, lies in [0, 2048). -/
theorem range_of_fn (a0 : FVec F S2048x2048 .f32) (a1 : FVec F S32768x2048 .f32) (a2 : IVec S32768x2 32)
    (a3 : FVec F S2048x512 .f32) (a4 : FVec F S512 .f32) (a5 : FVec F S512x512 .f32) (a6 : FVec F S512 .f32)
    (a7 : FVec F S2048x512 .f32) (a8 : FVec F S512 .f32) (a9 : FVec F S512x512 .f32) (a10 : FVec F S512 .f32)
    (a11 : FVec F S4x512x512 .f32) (a12 : FVec F S4x512 .f32) (a13 : FVec F S2x51x151 .f32) (a14 : FVec F S2x151 .f32)
    (a15 : FVec F S2x151x51 .f32) (a16 : FVec F S2x51 .f32) (a17 : FVec F S512x151 .f32) (a18 : FVec F S151 .f32)
    (a19 : FVec F S512x51 .f32) (a20 : FVec F S51 .f32)
    (h : fn (F := F) a0 a1 a2 a3 a4 a5 a6 a7 a8 a9 a10 a11 a12 a13 a14 a15 a16 a17 a18 a19 a20 = fun _ => 1#1)
    (i : S32768x2.Idx) : 0 ≤ (a2 i).toInt ∧ (a2 i).toInt < 2048 := by
  have e := congrFun h ValueIdx.ix0
  unfold fn at e
  dsimp only at e
  exact part1 (F := F) _ _ _ _ _ _ _ _ _ _ _ _ _ _ _ _ _ _ _ e i

/-- A word in [0, 2048) read signed is the same number read unsigned. -/
theorem toNat_lt_of_range {w : BitVec 32} (h : 0 ≤ w.toInt ∧ w.toInt < 2048) : w.toNat < 2048 := by
  have h2 : 2 * w.toNat < 2 ^ 32 := BitVec.toInt_pos_iff.1 h.1
  have e : w.toInt = w.toNat := StableHlo.Predicate.toInt_eq_toNat_of_lt (by omega)
  omega

/-- Such a word is the 32-bit numeral of an object number. -/
theorem eq_ofNat_of_range {w : BitVec 32} (h : 0 ≤ w.toInt ∧ w.toInt < 2048) :
    ∃ o : Fin 2048, w = BitVec.ofNat 32 o.val :=
  ⟨⟨w.toNat, toNat_lt_of_range h⟩,
    BitVec.eq_of_toNat_eq (by rw [BitVec.toNat_ofNat]; exact (Nat.mod_eq_of_lt w.isLt).symm)⟩

/-- At the ideal reading of the kernel: under its precondition every entry of the index input names an object. -/
theorem idx_range (m : (ℓ : Loc Cert.KernelIdeal.nD Cert.KernelIdeal.τ Cert.KernelIdeal.sig) → Buf (Elt Ideal) ℓ)
    (h : Cert.Pre_KernelIdeal m) (c : Dev Cert.KernelIdeal.nD) (r : Fin 32768) (k : Fin 2) :
    0 ≤ ((m ((c.tc : Thread Cert.KernelIdeal.nD Cert.KernelIdeal.τ).loc Cert.KernelIdeal.main_arg2) :
            S32768x2.Idx → BitVec 32) (ValueIdx.ix2 r k)).toInt
    ∧ ((m ((c.tc : Thread Cert.KernelIdeal.nD Cert.KernelIdeal.τ).loc Cert.KernelIdeal.main_arg2) :
            S32768x2.Idx → BitVec 32) (ValueIdx.ix2 r k)).toInt < 2048 :=
  range_of_fn (F := Ideal) _ _ _ _ _ _ _ _ _ _ _ _ _ _ _ _ _ _ _ _ _ (h c) (ValueIdx.ix2 r k)

/-- The same entry read unsigned is below 2048. -/
theorem idx_toNat_lt (m : (ℓ : Loc Cert.KernelIdeal.nD Cert.KernelIdeal.τ Cert.KernelIdeal.sig) → Buf (Elt Ideal) ℓ)
    (h : Cert.Pre_KernelIdeal m) (c : Dev Cert.KernelIdeal.nD) (r : Fin 32768) (k : Fin 2) :
    ((m ((c.tc : Thread Cert.KernelIdeal.nD Cert.KernelIdeal.τ).loc Cert.KernelIdeal.main_arg2) :
        S32768x2.Idx → BitVec 32) (ValueIdx.ix2 r k)).toNat < 2048 :=
  toNat_lt_of_range (idx_range m h c r k)

/-- The same at the kernel as printed (floats read as their bits): the index input is the same array of words. -/
theorem idx_range_bits (m : (ℓ : Loc Cert.Kernel.nD Cert.Kernel.τ Cert.Kernel.sig) → Buf (Elt Bits) ℓ)
    (h : Cert.Pre_Kernel m) (c : Dev Cert.Kernel.nD) (r : Fin 32768) (k : Fin 2) :
    0 ≤ ((m ((c.tc : Thread Cert.Kernel.nD Cert.Kernel.τ).loc Cert.Kernel.main_arg2) :
            S32768x2.Idx → BitVec 32) (ValueIdx.ix2 r k)).toInt
    ∧ ((m ((c.tc : Thread Cert.Kernel.nD Cert.Kernel.τ).loc Cert.Kernel.main_arg2) :
            S32768x2.Idx → BitVec 32) (ValueIdx.ix2 r k)).toInt < 2048 :=
  range_of_fn (F := Bits) _ _ _ _ _ _ _ _ _ _ _ _ _ _ _ _ _ _ _ _ _ (h c) (ValueIdx.ix2 r k)

end Cert.PreDecode

end
-- ==== Proof.Assemble.lean ====
/-
  The value claim and the reference's frame, assembled.

  Both programs compute the model of Spec.lean from the same twenty-one arrays. On the kernel's side the run ends with
  every unscoped buffer at a named contents, the arguments as launched and the three results at the model's values index
  by index. On the reference's side the run ends with each result at the reference's own function of its arguments, and
  that function is the model's too once every word of the index input names an object, which the kernel's precondition
  says. With the two memories agreeing on the arguments, the three pairs of results are equal arrays.
-/
import proofs.«422120_j65652870087589_3_alg».proof.Defs
import proofs.«422120_j65652870087589_3_alg».proof.Proof.KI.Walk
import proofs.«422120_j65652870087589_3_alg».proof.Proof.KI.Compose
import proofs.«422120_j65652870087589_3_alg».proof.Proof.RefRunH
import proofs.«422120_j65652870087589_3_alg».proof.Proof.RefSpec
import proofs.«422120_j65652870087589_3_alg».proof.Proof.PreDecode
import proofs.«422120_j65652870087589_3_alg».proof.Proof.Model
import Idealize.ShloMosaic.Lib.ValueIdx

set_option maxRecDepth 16384

noncomputable section

namespace Cert.Proof.Parts

open Idealize.ShloMosaic Idealize.ShloMosaic.TcCoe Idealize.SL.Sem Idealize.ShloMosaic.ValueIdx
open Cert.KernelIdeal.Hand Cert.KernelIdeal.HandV

/-- An unscoped buffer of the kernel's TensorCore is one of those its run names at the end. -/
theorem named (b : Ref Cert.KernelIdeal.sig .tc) (h : ¬ (Proc.devRef .tc b : DevRef Cert.KernelIdeal.τ Cert.KernelIdeal.sig).isScoped) :
    (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs b, h⟩

section Same
variable (m : (ℓ : Loc Cert.KernelIdeal.nD Cert.KernelIdeal.τ Cert.KernelIdeal.sig) → Buf (Elt Ideal) ℓ) (c : Dev Cert.KernelIdeal.nD)

/-- THE FIRST RESULT is the same array on both sides: the reference's, computed from arrays equal to the kernel's
    arguments, and the kernel's, are at every index the relations' embedded features of the model. -/
theorem same0 (y1 : Cert.RefSpec.AF Cert.ReferenceIdeal.S32768x2048) (y7 : Cert.RefSpec.AF Cert.ReferenceIdeal.S2048x512) (y8 : Cert.RefSpec.AF Cert.ReferenceIdeal.S512) (y9 : Cert.RefSpec.AF Cert.ReferenceIdeal.S512x512) (y10 : Cert.RefSpec.AF Cert.ReferenceIdeal.S512)
    (e1 : y1 = m ((c.tc : Thread Cert.KernelIdeal.nD Cert.KernelIdeal.τ).loc Cert.KernelIdeal.main_arg1))
    (e7 : y7 = m ((c.tc : Thread Cert.KernelIdeal.nD Cert.KernelIdeal.τ).loc Cert.KernelIdeal.main_arg7))
    (e8 : y8 = m ((c.tc : Thread Cert.KernelIdeal.nD Cert.KernelIdeal.τ).loc Cert.KernelIdeal.main_arg8))
    (e9 : y9 = m ((c.tc : Thread Cert.KernelIdeal.nD Cert.KernelIdeal.τ).loc Cert.KernelIdeal.main_arg9))
    (e10 : y10 = m ((c.tc : Thread Cert.KernelIdeal.nD Cert.KernelIdeal.τ).loc Cert.KernelIdeal.main_arg10)) :
    Cert.ReferenceIdeal.ReadP.val_main_v54 (F := Ideal) y1 y7 y8 y9 y10 = U53 m c Cert.KernelIdeal.main_v13 := by
  subst e1 e7 e8 e9 e10
  funext idx
  obtain ⟨i, j, rfl⟩ : ∃ (i : Fin 32768) (j : Fin 512), idx = ix2 i j := ⟨idx 0, idx 1, eq_ix2 idx⟩
  exact (Cert.RefSpec.ref_out0 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) i j).trans
    (kernel_out0 m c i j).symm

variable (hpre : Cert.Pre_KernelIdeal m)
include hpre

/-- THE SECOND RESULT likewise: the objects' scores of the model. Under the kernel's precondition every word of the
    index input names an object, which is what the reference's reading of its adjacency maps asks. -/
theorem same1 (y0 : Cert.RefSpec.AF Cert.ReferenceIdeal.S2048x2048) (y1 : Cert.RefSpec.AF Cert.ReferenceIdeal.S32768x2048) (y2 : Cert.RefSpec.AI Cert.ReferenceIdeal.S32768x2) (y3 : Cert.RefSpec.AF Cert.ReferenceIdeal.S2048x512) (y4 : Cert.RefSpec.AF Cert.ReferenceIdeal.S512) (y5 : Cert.RefSpec.AF Cert.ReferenceIdeal.S512x512) (y6 : Cert.RefSpec.AF Cert.ReferenceIdeal.S512) (y7 : Cert.RefSpec.AF Cert.ReferenceIdeal.S2048x512) (y8 : Cert.RefSpec.AF Cert.ReferenceIdeal.S512) (y9 : Cert.RefSpec.AF Cert.ReferenceIdeal.S512x512) (y10 : Cert.RefSpec.AF Cert.ReferenceIdeal.S512) (y11 : Cert.RefSpec.AF Cert.ReferenceIdeal.S4x512x512) (y12 : Cert.RefSpec.AF Cert.ReferenceIdeal.S4x512) (y13 : Cert.RefSpec.AF Cert.ReferenceIdeal.S2x51x151) (y14 : Cert.RefSpec.AF Cert.ReferenceIdeal.S2x151) (y15 : Cert.RefSpec.AF Cert.ReferenceIdeal.S2x151x51) (y16 : Cert.RefSpec.AF Cert.ReferenceIdeal.S2x51) (y17 : Cert.RefSpec.AF Cert.ReferenceIdeal.S512x151) (y18 : Cert.RefSpec.AF Cert.ReferenceIdeal.S151) (y19 : Cert.RefSpec.AF Cert.ReferenceIdeal.S512x51) (y20 : Cert.RefSpec.AF Cert.ReferenceIdeal.S51)
    (e0 : y0 = m ((c.tc : Thread Cert.KernelIdeal.nD Cert.KernelIdeal.τ).loc Cert.KernelIdeal.main_arg0))
    (e1 : y1 = m ((c.tc : Thread Cert.KernelIdeal.nD Cert.KernelIdeal.τ).loc Cert.KernelIdeal.main_arg1))
    (e2 : y2 = m ((c.tc : Thread Cert.KernelIdeal.nD Cert.KernelIdeal.τ).loc Cert.KernelIdeal.main_arg2))
    (e3 : y3 = m ((c.tc : Thread Cert.KernelIdeal.nD Cert.KernelIdeal.τ).loc Cert.KernelIdeal.main_arg3))
    (e4 : y4 = m ((c.tc : Thread Cert.KernelIdeal.nD Cert.KernelIdeal.τ).loc Cert.KernelIdeal.main_arg4))
    (e5 : y5 = m ((c.tc : Thread Cert.KernelIdeal.nD Cert.KernelIdeal.τ).loc Cert.KernelIdeal.main_arg5))
    (e6 : y6 = m ((c.tc : Thread Cert.KernelIdeal.nD Cert.KernelIdeal.τ).loc Cert.KernelIdeal.main_arg6))
    (e7 : y7 = m ((c.tc : Thread Cert.KernelIdeal.nD Cert.KernelIdeal.τ).loc Cert.KernelIdeal.main_arg7))
    (e8 : y8 = m ((c.tc : Thread Cert.KernelIdeal.nD Cert.KernelIdeal.τ).loc Cert.KernelIdeal.main_arg8))
    (e9 : y9 = m ((c.tc : Thread Cert.KernelIdeal.nD Cert.KernelIdeal.τ).loc Cert.KernelIdeal.main_arg9))
    (e10 : y10 = m ((c.tc : Thread Cert.KernelIdeal.nD Cert.KernelIdeal.τ).loc Cert.KernelIdeal.main_arg10))
    (e11 : y11 = m ((c.tc : Thread Cert.KernelIdeal.nD Cert.KernelIdeal.τ).loc Cert.KernelIdeal.main_arg11))
    (e12 : y12 = m ((c.tc : Thread Cert.KernelIdeal.nD Cert.KernelIdeal.τ).loc Cert.KernelIdeal.main_arg12))
    (e13 : y13 = m ((c.tc : Thread Cert.KernelIdeal.nD Cert.KernelIdeal.τ).loc Cert.KernelIdeal.main_arg13))
    (e14 : y14 = m ((c.tc : Thread Cert.KernelIdeal.nD Cert.KernelIdeal.τ).loc Cert.KernelIdeal.main_arg14))
    (e15 : y15 = m ((c.tc : Thread Cert.KernelIdeal.nD Cert.KernelIdeal.τ).loc Cert.KernelIdeal.main_arg15))
    (e16 : y16 = m ((c.tc : Thread Cert.KernelIdeal.nD Cert.KernelIdeal.τ).loc Cert.KernelIdeal.main_arg16))
    (e17 : y17 = m ((c.tc : Thread Cert.KernelIdeal.nD Cert.KernelIdeal.τ).loc Cert.KernelIdeal.main_arg17))
    (e18 : y18 = m ((c.tc : Thread Cert.KernelIdeal.nD Cert.KernelIdeal.τ).loc Cert.KernelIdeal.main_arg18))
    (e19 : y19 = m ((c.tc : Thread Cert.KernelIdeal.nD Cert.KernelIdeal.τ).loc Cert.KernelIdeal.main_arg19))
    (e20 : y20 = m ((c.tc : Thread Cert.KernelIdeal.nD Cert.KernelIdeal.τ).loc Cert.KernelIdeal.main_arg20)) :
    Cert.ReferenceIdeal.ReadP.val_main_v320 (F := Ideal) y0 y1 y2 y3 y4 y5 y6 y7 y8 y9 y10 y11 y12 y13 y14 y15 y16 y17 y18 y19 y20 = U53 m c Cert.KernelIdeal.main_v122 := by
  subst e0 e1 e2 e3 e4 e5 e6 e7 e8 e9 e10 e11 e12 e13 e14 e15 e16 e17 e18 e19 e20
  funext idx
  obtain ⟨i, j, rfl⟩ : ∃ (i : Fin 2048) (j : Fin 151), idx = ix2 i j := ⟨idx 0, idx 1, eq_ix2 idx⟩
  exact (Cert.RefSpec.ref_out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
    (fun r k => Cert.PreDecode.idx_range m hpre c r k) i j).trans (kernel_out1 m c i j).symm

/-- THE THIRD RESULT likewise: the relations' scores of the model. -/
theorem same2 (y0 : Cert.RefSpec.AF Cert.ReferenceIdeal.S2048x2048) (y1 : Cert.RefSpec.AF Cert.ReferenceIdeal.S32768x2048) (y2 : Cert.RefSpec.AI Cert.ReferenceIdeal.S32768x2) (y3 : Cert.RefSpec.AF Cert.ReferenceIdeal.S2048x512) (y4 : Cert.RefSpec.AF Cert.ReferenceIdeal.S512) (y5 : Cert.RefSpec.AF Cert.ReferenceIdeal.S512x512) (y6 : Cert.RefSpec.AF Cert.ReferenceIdeal.S512) (y7 : Cert.RefSpec.AF Cert.ReferenceIdeal.S2048x512) (y8 : Cert.RefSpec.AF Cert.ReferenceIdeal.S512) (y9 : Cert.RefSpec.AF Cert.ReferenceIdeal.S512x512) (y10 : Cert.RefSpec.AF Cert.ReferenceIdeal.S512) (y11 : Cert.RefSpec.AF Cert.ReferenceIdeal.S4x512x512) (y12 : Cert.RefSpec.AF Cert.ReferenceIdeal.S4x512) (y13 : Cert.RefSpec.AF Cert.ReferenceIdeal.S2x51x151) (y14 : Cert.RefSpec.AF Cert.ReferenceIdeal.S2x151) (y15 : Cert.RefSpec.AF Cert.ReferenceIdeal.S2x151x51) (y16 : Cert.RefSpec.AF Cert.ReferenceIdeal.S2x51) (y17 : Cert.RefSpec.AF Cert.ReferenceIdeal.S512x151) (y18 : Cert.RefSpec.AF Cert.ReferenceIdeal.S151) (y19 : Cert.RefSpec.AF Cert.ReferenceIdeal.S512x51) (y20 : Cert.RefSpec.AF Cert.ReferenceIdeal.S51)
    (e0 : y0 = m ((c.tc : Thread Cert.KernelIdeal.nD Cert.KernelIdeal.τ).loc Cert.KernelIdeal.main_arg0))
    (e1 : y1 = m ((c.tc : Thread Cert.KernelIdeal.nD Cert.KernelIdeal.τ).loc Cert.KernelIdeal.main_arg1))
    (e2 : y2 = m ((c.tc : Thread Cert.KernelIdeal.nD Cert.KernelIdeal.τ).loc Cert.KernelIdeal.main_arg2))
    (e3 : y3 = m ((c.tc : Thread Cert.KernelIdeal.nD Cert.KernelIdeal.τ).loc Cert.KernelIdeal.main_arg3))
    (e4 : y4 = m ((c.tc : Thread Cert.KernelIdeal.nD Cert.KernelIdeal.τ).loc Cert.KernelIdeal.main_arg4))
    (e5 : y5 = m ((c.tc : Thread Cert.KernelIdeal.nD Cert.KernelIdeal.τ).loc Cert.KernelIdeal.main_arg5))
    (e6 : y6 = m ((c.tc : Thread Cert.KernelIdeal.nD Cert.KernelIdeal.τ).loc Cert.KernelIdeal.main_arg6))
    (e7 : y7 = m ((c.tc : Thread Cert.KernelIdeal.nD Cert.KernelIdeal.τ).loc Cert.KernelIdeal.main_arg7))
    (e8 : y8 = m ((c.tc : Thread Cert.KernelIdeal.nD Cert.KernelIdeal.τ).loc Cert.KernelIdeal.main_arg8))
    (e9 : y9 = m ((c.tc : Thread Cert.KernelIdeal.nD Cert.KernelIdeal.τ).loc Cert.KernelIdeal.main_arg9))
    (e10 : y10 = m ((c.tc : Thread Cert.KernelIdeal.nD Cert.KernelIdeal.τ).loc Cert.KernelIdeal.main_arg10))
    (e11 : y11 = m ((c.tc : Thread Cert.KernelIdeal.nD Cert.KernelIdeal.τ).loc Cert.KernelIdeal.main_arg11))
    (e12 : y12 = m ((c.tc : Thread Cert.KernelIdeal.nD Cert.KernelIdeal.τ).loc Cert.KernelIdeal.main_arg12))
    (e13 : y13 = m ((c.tc : Thread Cert.KernelIdeal.nD Cert.KernelIdeal.τ).loc Cert.KernelIdeal.main_arg13))
    (e14 : y14 = m ((c.tc : Thread Cert.KernelIdeal.nD Cert.KernelIdeal.τ).loc Cert.KernelIdeal.main_arg14))
    (e15 : y15 = m ((c.tc : Thread Cert.KernelIdeal.nD Cert.KernelIdeal.τ).loc Cert.KernelIdeal.main_arg15))
    (e16 : y16 = m ((c.tc : Thread Cert.KernelIdeal.nD Cert.KernelIdeal.τ).loc Cert.KernelIdeal.main_arg16))
    (e17 : y17 = m ((c.tc : Thread Cert.KernelIdeal.nD Cert.KernelIdeal.τ).loc Cert.KernelIdeal.main_arg17))
    (e18 : y18 = m ((c.tc : Thread Cert.KernelIdeal.nD Cert.KernelIdeal.τ).loc Cert.KernelIdeal.main_arg18))
    (e19 : y19 = m ((c.tc : Thread Cert.KernelIdeal.nD Cert.KernelIdeal.τ).loc Cert.KernelIdeal.main_arg19))
    (e20 : y20 = m ((c.tc : Thread Cert.KernelIdeal.nD Cert.KernelIdeal.τ).loc Cert.KernelIdeal.main_arg20)) :
    Cert.ReferenceIdeal.ReadP.val_main_v358 (F := Ideal) y0 y1 y2 y3 y4 y5 y6 y7 y8 y9 y10 y11 y12 y13 y14 y15 y16 y17 y18 y19 y20 = U53 m c Cert.KernelIdeal.main_v123 := by
  subst e0 e1 e2 e3 e4 e5 e6 e7 e8 e9 e10 e11 e12 e13 e14 e15 e16 e17 e18 e19 e20
  funext idx
  obtain ⟨i, j, rfl⟩ : ∃ (i : Fin 32768) (j : Fin 51), idx = ix2 i j := ⟨idx 0, idx 1, eq_ix2 idx⟩
  exact (Cert.RefSpec.ref_out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
    (fun r k => Cert.PreDecode.idx_range m hpre c r k) i j).trans (kernel_out2 m c i j).symm

end Same

/-- THE VALUE CLAIM: from memories that agree on the twenty-one arguments, the kernel's three results and the
    reference's are the same arrays. The kernel's run names every unscoped buffer at its end, its arguments as
    launched; the reference's run has each result as the reference's function of its arguments; both functions are the
    model's, index by index. -/
theorem algebraic : Cert.algebraic_KernelIdeal_ReferenceIdeal := by
  intro m g m' g' hpre hagree
  refine ⟨fun c => U53 m c Cert.KernelIdeal.main_v13, fun c => U53 m c Cert.KernelIdeal.main_v122, fun c => U53 m c Cert.KernelIdeal.main_v123, ?_, ?_⟩
  · refine (θ_run _ _ _).mono (fun r h c => ?_) (run_all (F := Ideal) m g)
    exact ⟨h c _ (named Cert.KernelIdeal.main_v13 (by decide)), h c _ (named Cert.KernelIdeal.main_v122 (by decide)), h c _ (named Cert.KernelIdeal.main_v123 (by decide)),
      (h c _ (named Cert.KernelIdeal.main_arg0 (by decide))).trans (walk53_main_arg0 m c),
      (h c _ (named Cert.KernelIdeal.main_arg1 (by decide))).trans (walk53_main_arg1 m c),
      (h c _ (named Cert.KernelIdeal.main_arg2 (by decide))).trans (walk53_main_arg2 m c),
      (h c _ (named Cert.KernelIdeal.main_arg3 (by decide))).trans (walk53_main_arg3 m c),
      (h c _ (named Cert.KernelIdeal.main_arg4 (by decide))).trans (walk53_main_arg4 m c),
      (h c _ (named Cert.KernelIdeal.main_arg5 (by decide))).trans (walk53_main_arg5 m c),
      (h c _ (named Cert.KernelIdeal.main_arg6 (by decide))).trans (walk53_main_arg6 m c),
      (h c _ (named Cert.KernelIdeal.main_arg7 (by decide))).trans (walk53_main_arg7 m c),
      (h c _ (named Cert.KernelIdeal.main_arg8 (by decide))).trans (walk53_main_arg8 m c),
      (h c _ (named Cert.KernelIdeal.main_arg9 (by decide))).trans (walk53_main_arg9 m c),
      (h c _ (named Cert.KernelIdeal.main_arg10 (by decide))).trans (walk53_main_arg10 m c),
      (h c _ (named Cert.KernelIdeal.main_arg11 (by decide))).trans (walk53_main_arg11 m c),
      (h c _ (named Cert.KernelIdeal.main_arg12 (by decide))).trans (walk53_main_arg12 m c),
      (h c _ (named Cert.KernelIdeal.main_arg13 (by decide))).trans (walk53_main_arg13 m c),
      (h c _ (named Cert.KernelIdeal.main_arg14 (by decide))).trans (walk53_main_arg14 m c),
      (h c _ (named Cert.KernelIdeal.main_arg15 (by decide))).trans (walk53_main_arg15 m c),
      (h c _ (named Cert.KernelIdeal.main_arg16 (by decide))).trans (walk53_main_arg16 m c),
      (h c _ (named Cert.KernelIdeal.main_arg17 (by decide))).trans (walk53_main_arg17 m c),
      (h c _ (named Cert.KernelIdeal.main_arg18 (by decide))).trans (walk53_main_arg18 m c),
      (h c _ (named Cert.KernelIdeal.main_arg19 (by decide))).trans (walk53_main_arg19 m c),
      (h c _ (named Cert.KernelIdeal.main_arg20 (by decide))).trans (walk53_main_arg20 m c)⟩
  · refine (θ_run _ _ _).mono (fun r h c => ?_) (Cert.RefRunH.run (F := Ideal) m' g')
    obtain ⟨a0, a1, a2, a3, a4, a5, a6, a7, a8, a9, a10, a11, a12, a13, a14, a15, a16, a17, a18, a19, a20⟩ := hagree c
    obtain ⟨h0, h1, h2, hargs⟩ := h c
    exact ⟨h0.trans (same0 m c _ _ _ _ _ a1 a7 a8 a9 a10),
      h1.trans (same1 m c hpre _ _ _ _ _ _ _ _ _ _ _ _ _ _ _ _ _ _ _ _ _ a0 a1 a2 a3 a4 a5 a6 a7 a8 a9 a10 a11 a12 a13 a14 a15 a16 a17 a18 a19 a20),
      h2.trans (same2 m c hpre _ _ _ _ _ _ _ _ _ _ _ _ _ _ _ _ _ _ _ _ _ a0 a1 a2 a3 a4 a5 a6 a7 a8 a9 a10 a11 a12 a13 a14 a15 a16 a17 a18 a19 a20), hargs⟩

/-- The reference's frame: its run leaves its twenty-one arguments as launched. -/
theorem frame_ri : Cert.frame_ReferenceIdeal := fun m g _ =>
  (θ_run _ _ _).mono (fun _ h c => (h c).2.2.2) (Cert.RefRunH.run (F := Ideal) m g)

end Cert.Proof.Parts

end
-- ==== Proof.lean ====
/-
  A scene-graph message-passing network: two perceptron embeddings, two rounds of message passing between objects and relations
  at the feature level, two linear classifiers, two more rounds at the score level. The kernel program computes it in twenty
  tiled regions — each perceptron fused in one region; each "objects collect from relations" half-round as one region that builds the
  0/1 adjacency tile by comparing a row counter with the relations' index words, accumulates the weighted sum and the degree over
  sixty-four tiles of relations and divides at the last tile; each "relations collect from objects" half-round as a linear region per
  side and one region over the whole object axis — with the score-level widths padded by zero weights. The reference scatters ones into
  two dense adjacency matrices and applies matrix products.

  Both are the same function on the extended reals (the model of Proof/Spec.lean) whenever every index word names an object: the
  adjacency tile and the scattered matrix are then the same 0/1 matrix; a sum over tiles is the sum over all relations (addition is
  commutative and associative); a padded column only ever meets a zero weight, and zero times any extended real is zero; every other
  operation is the same on both sides. The claims: each program runs to the end without a fault and leaves its arguments as they were
  (the kernel's twenty regions as segments of one run, the reference's host operations in order), the idealization changes nothing
  (no rewrite was applied), and the three results agree entry by entry.
-/
import proofs.«422120_j65652870087589_3_alg».proof.Defs
import proofs.«422120_j65652870087589_3_alg».proof.Proof.Gen.Kernel
import proofs.«422120_j65652870087589_3_alg».proof.Proof.Gen.KernelIdeal
import proofs.«422120_j65652870087589_3_alg».proof.Proof.Gen.ReferenceIdeal
import proofs.«422120_j65652870087589_3_alg».proof.Proof.Gen.Pre_finite_inputs
import proofs.«422120_j65652870087589_3_alg».proof.Proof.KB.Fold
import proofs.«422120_j65652870087589_3_alg».proof.Proof.KI.Fold
import proofs.«422120_j65652870087589_3_alg».proof.Proof.Assemble

noncomputable section

namespace Cert.Proof

open Idealize.ShloMosaic Idealize.SL.Sem

/-- The kernel program at the machine's words: its twenty regions and the host operations between them run to the end, and no
    item writes an argument. -/
theorem frame_kernel : Cert.frame_Kernel := fun m ρ _ => Cert.Kernel.Hand.frame m ρ

/-- The same program at the ideal values. -/
theorem frame_kernelIdeal : Cert.frame_KernelIdeal := fun m ρ _ => Cert.KernelIdeal.Hand.frame m ρ

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.Parts.frame_ri, trivial, Cert.Proof.Parts.algebraic⟩

end Cert.Proof

end
